-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S1024x2048 : Shape := ⟨2, ![1024, 2048]⟩
abbrev S2048x1024 : Shape := ⟨2, ![2048, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S1024x1024 .f32) (main_arg1 : FVec F S1024x2048 .f32) (main_arg2 : FVec F S1024x2048 .f32) (main_arg3 : FVec F S2048x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_finite_inputs_ReferenceIdeal.lean ====
abbrev S1024x1024 : Shape := ⟨2, ![1024, 1024]⟩
abbrev S1024x16384 : Shape := ⟨2, ![1024, 16384]⟩
abbrev S16384x1024 : Shape := ⟨2, ![16384, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S1024x1024 .f32) (main_arg1 : FVec F S1024x16384 .f32) (main_arg2 : FVec F S1024x16384 .f32) (main_arg3 : FVec F S16384x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1024x16384 .f32 := Host.absf main_arg2
  let main_cst_2 : FVec F S_ .f32 := constant S_ .f32 0x7F800000#32
  let main_v10 : FVec F S1024x16384 .f32 := broadcastInDim S1024x16384 ![] bcast_S_S1024x16384 main_cst_2
  let main_v11 : IVec S1024x16384 1 := cmpf .olt main_v9 main_v10
  let main_c_3 : IVec S_ 1 := constantI S_ 1 1#1
  let main_v12 : IVec S_ 1 := (fun x v => Host.reduce IntOp.andi x v reducesTo_S1024x16384_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S3x384x1024 : Shape := ⟨3, ![3, 384, 1024]⟩
abbrev S3x3 : Shape := ⟨2, ![3, 3]⟩
abbrev S_ : Shape := ⟨0, ![]⟩
abbrev S192x1024 : Shape := ⟨2, ![192, 1024]⟩
abbrev S192x2048 : Shape := ⟨2, ![192, 2048]⟩
abbrev S1x192x1024 : Shape := ⟨3, ![1, 192, 1024]⟩
abbrev S1x1 : Shape := ⟨2, ![1, 1]⟩
abbrev S128x1024 : Shape := ⟨2, ![128, 1024]⟩
abbrev S128x2048 : Shape := ⟨2, ![128, 2048]⟩
abbrev S1x128x1024 : Shape := ⟨3, ![1, 128, 1024]⟩
abbrev S96x1024 : Shape := ⟨2, ![96, 1024]⟩
abbrev S1x96x1024 : Shape := ⟨3, ![1, 96, 1024]⟩
abbrev S64x1024 : Shape := ⟨2, ![64, 1024]⟩
abbrev S1x64x1024 : Shape := ⟨3, ![1, 64, 1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S1024x2048, .f32⟩
  | .hbm, ⟨3, _⟩ => ⟨S2048x1024, .f32⟩
  | .hbm, ⟨4, _⟩ => ⟨S1024x1024, .f32⟩
  | .local _ .vmem, ⟨0, _⟩ => ⟨S1024x1024, .f32⟩
  | .local _ .vmem, ⟨1, _⟩ => ⟨S1024x2048, .f32⟩
  | .local _ .vmem, ⟨2, _⟩ => ⟨S1024x2048, .f32⟩
  | .local _ .vmem, ⟨3, _⟩ => ⟨S2048x1024, .f32⟩
  | .local _ .vmem, ⟨4, _⟩ => ⟨S1024x1024, .f32⟩
  | .local _ .vmem, ⟨5, _⟩ => ⟨S3x384x1024, .bf16⟩
  | .local _ .vmem, ⟨6, _⟩ => ⟨S3x384x1024, .bf16⟩
  | .local _ .vmem, ⟨7, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_off1 (d0 : Dev nD) (c0_i32_17 : BitVec 32) (c3_i32_13 : BitVec 32) (c0_i32_16 : BitVec 32) (c192_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.xori v2 c3_i32_13
  let v17 : BitVec 1 := Scalar.cmpi .sgt v2 v16
  let v22 : BitVec 32 := Scalar.select v17 c0_i32_16 c192_i32
  let v23 : BitVec 32 := Scalar.addi c0_i32_17 v22
  let v34 : Index := Scalar.indexCast v23
  let c0 : Index := 0#32
  ![v34.toNat, 0]
def k0_off1_at (r : Fin 4) : BitVec 32 × BitVec 32 × BitVec 32 × BitVec 32 :=
  if r.val < 2 then
    if r.val < 1 then
      (0#32, 3#32, 0#32, 192#32)
    else
      (384#32, 4#32, 0#32, 192#32)
  else
    if r.val < 3 then
      (0#32, 3#32, 192#32, 0#32)
    else
      (384#32, 4#32, 192#32, 0#32)
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_39 : BitVec 32 := 3#32
  let v51 : BitVec 32 := Scalar.xori v2 c3_i32_39
  let c1_i32_53 : BitVec 32 := 1#32
  let v62 : BitVec 32 := Scalar.muli v51 c1_i32_53
  let v63 : BitVec 32 := Scalar.addi c0_i32_54 v62
  v63.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_70 : BitVec 32 := 4#32
  let v89 : BitVec 32 := Scalar.xori v2 c4_i32_70
  let c1_i32_83 : BitVec 32 := 1#32
  let v100 : BitVec 32 := Scalar.muli v89 c1_i32_83
  let v101 : BitVec 32 := Scalar.addi c0_i32_84 v100
  v101.toNat
def k0_off2 (d0 : Dev nD) (c0_i32_20 : BitVec 32) (c128_i32 : BitVec 32) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v20 : BitVec 32 := Scalar.xori v2 c1_i32_15
  let v21 : BitVec 1 := Scalar.cmpi .sgt v2 v20
  let v26 : BitVec 32 := Scalar.select v21 c0_i32_20 c128_i32
  let v27 : BitVec 32 := Scalar.addi c768_i32 v26
  let v110 : Index := Scalar.indexCast v27
  let c0_89 : Index := 0#32
  ![v110.toNat, 0]
def k0_off2_at (r : Fin 2) : BitVec 32 × BitVec 32 :=
  if r.val < 1 then
    (0#32, 128#32)
  else
    (128#32, 0#32)
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_100 : BitVec 32 := 1#32
  let v127 : BitVec 32 := Scalar.xori v2 c1_i32_100
  let c1_i32_113 : BitVec 32 := 1#32
  let v138 : BitVec 32 := Scalar.muli v127 c1_i32_113
  let v139 : BitVec 32 := Scalar.addi c0_i32_114 v138
  v139.toNat
def k0_off3 (d0 : Dev nD) (c0_i32_166 : BitVec 32) (c3_i32_13 : BitVec 32) (c1_i32_212 : BitVec 32) (c0_i32_213 : BitVec 32) (c96_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.xori v2 c3_i32_13
  let v17 : BitVec 1 := Scalar.cmpi .sgt v2 v16
  let c192_i32_164 : BitVec 32 := 192#32
  let c0_i32_165 : BitVec 32 := 0#32
  let v207 : BitVec 32 := Scalar.select v17 c192_i32_164 c0_i32_165
  let v208 : BitVec 32 := Scalar.addi c0_i32_166 v207
  let v256 : BitVec 32 := Scalar.xori v2 c1_i32_212
  let v257 : BitVec 1 := Scalar.cmpi .sgt v2 v256
  let v258 : BitVec 32 := Scalar.select v257 c0_i32_213 c96_i32
  let v259 : BitVec 32 := Scalar.addi v208 v258
  let v260 : Index := Scalar.indexCast v259
  let c0_214 : Index := 0#32
  ![v260.toNat, 0]
def k0_off3_at (r : Fin 4) : BitVec 32 × BitVec 32 × BitVec 32 × BitVec 32 × BitVec 32 :=
  if r.val < 2 then
    if r.val < 1 then
      (0#32, 3#32, 1#32, 0#32, 96#32)
    else
      (384#32, 4#32, 3#32, 0#32, 96#32)
  else
    if r.val < 3 then
      (0#32, 3#32, 1#32, 96#32, 0#32)
    else
      (384#32, 4#32, 3#32, 96#32, 0#32)
def k0_dev8 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_212 : BitVec 32 := 1#32
  let v256 : BitVec 32 := Scalar.xori v2 c1_i32_212
  let c1_i32_223 : BitVec 32 := 1#32
  let v267 : BitVec 32 := Scalar.muli v256 c1_i32_223
  let v268 : BitVec 32 := Scalar.addi c0_i32_224 v267
  v268.toNat
def k0_dev9 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_229 : BitVec 32 := 3#32
  let v277 : BitVec 32 := Scalar.xori v2 c3_i32_229
  let c1_i32_242 : BitVec 32 := 1#32
  let v288 : BitVec 32 := Scalar.muli v277 c1_i32_242
  let v289 : BitVec 32 := Scalar.addi c0_i32_243 v288
  v289.toNat
def k0_off4 (d0 : Dev nD) (c0_i32_249 : BitVec 32) (c64_i32 : BitVec 32) : Fin 2 → Nat :=
  let c768_i32_206 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v20 : BitVec 32 := Scalar.xori v2 c1_i32_15
  let v21 : BitVec 1 := Scalar.cmpi .sgt v2 v20
  let c128_i32_204 : BitVec 32 := 128#32
  let c0_i32_205 : BitVec 32 := 0#32
  let v245 : BitVec 32 := Scalar.select v21 c128_i32_204 c0_i32_205
  let v246 : BitVec 32 := Scalar.addi c768_i32_206 v245
  let c4_i32_248 : BitVec 32 := 4#32
  let v298 : BitVec 32 := Scalar.xori v2 c4_i32_248
  let v299 : BitVec 1 := Scalar.cmpi .sgt v2 v298
  let v300 : BitVec 32 := Scalar.select v299 c0_i32_249 c64_i32
  let v301 : BitVec 32 := Scalar.addi v246 v300
  let v302 : Index := Scalar.indexCast v301
  let c0_250 : Index := 0#32
  ![v302.toNat, 0]
def k0_off4_at (r : Fin 2) : BitVec 32 × BitVec 32 :=
  if r.val < 1 then
    (0#32, 64#32)
  else
    (64#32, 0#32)
def k0_dev10 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_248 : BitVec 32 := 4#32
  let v298 : BitVec 32 := Scalar.xori v2 c4_i32_248
  let c1_i32_259 : BitVec 32 := 1#32
  let v309 : BitVec 32 := Scalar.muli v298 c1_i32_259
  let v310 : BitVec 32 := Scalar.addi c0_i32_260 v309
  v310.toNat
def k0_dev11 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_322 : BitVec 32 := 4#32
  let v376 : BitVec 32 := Scalar.xori v2 c4_i32_322
  let c1_i32_332 : BitVec 32 := 1#32
  let v384 : BitVec 32 := Scalar.muli v376 c1_i32_332
  let v385 : BitVec 32 := Scalar.addi c0_i32_333 v384
  v385.toNat
def k0_dev12 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_337 : BitVec 32 := 1#32
  let v394 : BitVec 32 := Scalar.xori v2 c1_i32_337
  let c1_i32_348 : BitVec 32 := 1#32
  let v402 : BitVec 32 := Scalar.muli v394 c1_i32_348
  let v403 : BitVec 32 := Scalar.addi c0_i32_349 v402
  v403.toNat
def k0_dev13 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_354 : BitVec 32 := 2#32
  let v412 : BitVec 32 := Scalar.xori v2 c2_i32_354
  let c1_i32_365 : BitVec 32 := 1#32
  let v420 : BitVec 32 := Scalar.muli v412 c1_i32_365
  let v421 : BitVec 32 := Scalar.addi c0_i32_366 v420
  v421.toNat
def k0_off5 (d0 : Dev nD) (c0_i32_166 : BitVec 32) (c3_i32_13 : BitVec 32) (c1_i32_212 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.xori v2 c3_i32_13
  let v17 : BitVec 1 := Scalar.cmpi .sgt v2 v16
  let c192_i32_164 : BitVec 32 := 192#32
  let c0_i32_165 : BitVec 32 := 0#32
  let v207 : BitVec 32 := Scalar.select v17 c192_i32_164 c0_i32_165
  let v208 : BitVec 32 := Scalar.addi c0_i32_166 v207
  let v256 : BitVec 32 := Scalar.xori v2 c1_i32_212
  let v257 : BitVec 1 := Scalar.cmpi .sgt v2 v256
  let c96_i32_277 : BitVec 32 := 96#32
  let c0_i32_278 : BitVec 32 := 0#32
  let v327 : BitVec 32 := Scalar.select v257 c96_i32_277 c0_i32_278
  let v328 : BitVec 32 := Scalar.addi v208 v327
  let c0_i32_435 : BitVec 32 := 0#32
  ![v328.toNat, 0]
def k0_off5_at (r : Fin 2) : BitVec 32 × BitVec 32 × BitVec 32 :=
  if r.val < 1 then
    (0#32, 3#32, 1#32)
  else
    (384#32, 4#32, 3#32)
def k0_dev14 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_428 : BitVec 32 := 1#32
  let v505 : BitVec 32 := Scalar.xori v2 c1_i32_428
  let c1_i32_433 : BitVec 32 := 1#32
  let v506 : BitVec 32 := Scalar.muli v505 c1_i32_433
  let v507 : BitVec 32 := Scalar.addi c0_i32_434 v506
  v507.toNat
def k0_dev15 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_437 : BitVec 32 := 3#32
  let v514 : BitVec 32 := Scalar.xori v2 c3_i32_437
  let c1_i32_442 : BitVec 32 := 1#32
  let v515 : BitVec 32 := Scalar.muli v514 c1_i32_442
  let v516 : BitVec 32 := Scalar.addi c0_i32_443 v515
  v516.toNat
def k0_off6 (d0 : Dev nD) : Fin 2 → Nat :=
  let c768_i32_206 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v20 : BitVec 32 := Scalar.xori v2 c1_i32_15
  let v21 : BitVec 1 := Scalar.cmpi .sgt v2 v20
  let c128_i32_204 : BitVec 32 := 128#32
  let c0_i32_205 : BitVec 32 := 0#32
  let v245 : BitVec 32 := Scalar.select v21 c128_i32_204 c0_i32_205
  let v246 : BitVec 32 := Scalar.addi c768_i32_206 v245
  let c4_i32_248 : BitVec 32 := 4#32
  let v298 : BitVec 32 := Scalar.xori v2 c4_i32_248
  let v299 : BitVec 1 := Scalar.cmpi .sgt v2 v298
  let c64_i32_315 : BitVec 32 := 64#32
  let c0_i32_316 : BitVec 32 := 0#32
  let v365 : BitVec 32 := Scalar.select v299 c64_i32_315 c0_i32_316
  let v366 : BitVec 32 := Scalar.addi v246 v365
  let c0_i32_453 : BitVec 32 := 0#32
  ![v366.toNat, 0]
def k0_dev16 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_446 : BitVec 32 := 4#32
  let v523 : BitVec 32 := Scalar.xori v2 c4_i32_446
  let c1_i32_451 : BitVec 32 := 1#32
  let v524 : BitVec 32 := Scalar.muli v523 c1_i32_451
  let v525 : BitVec 32 := Scalar.addi c0_i32_452 v524
  v525.toNat
def k0_off7 (d0 : Dev nD) (c0_i32_166 : BitVec 32) (c3_i32_13 : BitVec 32) (c1_i32_212 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.xori v2 c3_i32_13
  let v17 : BitVec 1 := Scalar.cmpi .sgt v2 v16
  let c192_i32_164 : BitVec 32 := 192#32
  let c0_i32_165 : BitVec 32 := 0#32
  let v207 : BitVec 32 := Scalar.select v17 c192_i32_164 c0_i32_165
  let v208 : BitVec 32 := Scalar.addi c0_i32_166 v207
  let v256 : BitVec 32 := Scalar.xori v2 c1_i32_212
  let v257 : BitVec 1 := Scalar.cmpi .sgt v2 v256
  let c96_i32_277 : BitVec 32 := 96#32
  let c0_i32_278 : BitVec 32 := 0#32
  let v327 : BitVec 32 := Scalar.select v257 c96_i32_277 c0_i32_278
  let v328 : BitVec 32 := Scalar.addi v208 v327
  let c96_i32_463 : BitVec 32 := 96#32
  let c0_i32_464 : BitVec 32 := 0#32
  let v538 : BitVec 32 := Scalar.select v257 c96_i32_463 c0_i32_464
  let v539 : BitVec 32 := Scalar.subi v328 v538
  let c0_i32_492 : BitVec 32 := 0#32
  ![v539.toNat, 0]
def k0_off7_at (r : Fin 2) : BitVec 32 × BitVec 32 × BitVec 32 :=
  if r.val < 1 then
    (0#32, 3#32, 1#32)
  else
    (384#32, 4#32, 3#32)
def k0_dev17 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_485 : BitVec 32 := 3#32
  let v556 : BitVec 32 := Scalar.xori v2 c3_i32_485
  let c1_i32_490 : BitVec 32 := 1#32
  let v557 : BitVec 32 := Scalar.muli v556 c1_i32_490
  let v558 : BitVec 32 := Scalar.addi c0_i32_491 v557
  v558.toNat
def k0_dev18 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_494 : BitVec 32 := 4#32
  let v565 : BitVec 32 := Scalar.xori v2 c4_i32_494
  let c1_i32_499 : BitVec 32 := 1#32
  let v566 : BitVec 32 := Scalar.muli v565 c1_i32_499
  let v567 : BitVec 32 := Scalar.addi c0_i32_500 v566
  v567.toNat
def k0_off8 (d0 : Dev nD) : Fin 2 → Nat :=
  let c768_i32_206 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v20 : BitVec 32 := Scalar.xori v2 c1_i32_15
  let v21 : BitVec 1 := Scalar.cmpi .sgt v2 v20
  let c128_i32_204 : BitVec 32 := 128#32
  let c0_i32_205 : BitVec 32 := 0#32
  let v245 : BitVec 32 := Scalar.select v21 c128_i32_204 c0_i32_205
  let v246 : BitVec 32 := Scalar.addi c768_i32_206 v245
  let c4_i32_248 : BitVec 32 := 4#32
  let v298 : BitVec 32 := Scalar.xori v2 c4_i32_248
  let v299 : BitVec 1 := Scalar.cmpi .sgt v2 v298
  let c64_i32_315 : BitVec 32 := 64#32
  let c0_i32_316 : BitVec 32 := 0#32
  let v365 : BitVec 32 := Scalar.select v299 c64_i32_315 c0_i32_316
  let v366 : BitVec 32 := Scalar.addi v246 v365
  let c64_i32_483 : BitVec 32 := 64#32
  let c0_i32_484 : BitVec 32 := 0#32
  let v554 : BitVec 32 := Scalar.select v299 c64_i32_483 c0_i32_484
  let v555 : BitVec 32 := Scalar.subi v366 v554
  let c0_i32_510 : BitVec 32 := 0#32
  ![v555.toNat, 0]
def k0_dev19 (d0 : Dev nD) : Nat :=
  let c0_i32_509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_503 : BitVec 32 := 1#32
  let v574 : BitVec 32 := Scalar.xori v2 c1_i32_503
  let c1_i32_508 : BitVec 32 := 1#32
  let v575 : BitVec 32 := Scalar.muli v574 c1_i32_508
  let v576 : BitVec 32 := Scalar.addi c0_i32_509 v575
  v576.toNat
def k0_off9 (d0 : Dev nD) (c0_i32_166 : BitVec 32) (c3_i32_13 : BitVec 32) (c1_i32_212 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.xori v2 c3_i32_13
  let v17 : BitVec 1 := Scalar.cmpi .sgt v2 v16
  let c192_i32_164 : BitVec 32 := 192#32
  let c0_i32_165 : BitVec 32 := 0#32
  let v207 : BitVec 32 := Scalar.select v17 c192_i32_164 c0_i32_165
  let v208 : BitVec 32 := Scalar.addi c0_i32_166 v207
  let v256 : BitVec 32 := Scalar.xori v2 c1_i32_212
  let v257 : BitVec 1 := Scalar.cmpi .sgt v2 v256
  let c96_i32_277 : BitVec 32 := 96#32
  let c0_i32_278 : BitVec 32 := 0#32
  let v327 : BitVec 32 := Scalar.select v257 c96_i32_277 c0_i32_278
  let v328 : BitVec 32 := Scalar.addi v208 v327
  let c96_i32_463 : BitVec 32 := 96#32
  let c0_i32_464 : BitVec 32 := 0#32
  let v538 : BitVec 32 := Scalar.select v257 c96_i32_463 c0_i32_464
  let v539 : BitVec 32 := Scalar.subi v328 v538
  let v583 : Index := Scalar.indexCast v539
  let c0_512 : Index := 0#32
  ![v583.toNat, 0]
def k0_off9_at (r : Fin 2) : BitVec 32 × BitVec 32 × BitVec 32 :=
  if r.val < 1 then
    (0#32, 3#32, 1#32)
  else
    (384#32, 4#32, 3#32)
def k0_off10 (d0 : Dev nD) : Fin 2 → Nat :=
  let c768_i32_206 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v20 : BitVec 32 := Scalar.xori v2 c1_i32_15
  let v21 : BitVec 1 := Scalar.cmpi .sgt v2 v20
  let c128_i32_204 : BitVec 32 := 128#32
  let c0_i32_205 : BitVec 32 := 0#32
  let v245 : BitVec 32 := Scalar.select v21 c128_i32_204 c0_i32_205
  let v246 : BitVec 32 := Scalar.addi c768_i32_206 v245
  let c4_i32_248 : BitVec 32 := 4#32
  let v298 : BitVec 32 := Scalar.xori v2 c4_i32_248
  let v299 : BitVec 1 := Scalar.cmpi .sgt v2 v298
  let c64_i32_315 : BitVec 32 := 64#32
  let c0_i32_316 : BitVec 32 := 0#32
  let v365 : BitVec 32 := Scalar.select v299 c64_i32_315 c0_i32_316
  let v366 : BitVec 32 := Scalar.addi v246 v365
  let c64_i32_483 : BitVec 32 := 64#32
  let c0_i32_484 : BitVec 32 := 0#32
  let v554 : BitVec 32 := Scalar.select v299 c64_i32_483 c0_i32_484
  let v555 : BitVec 32 := Scalar.subi v366 v554
  let v593 : Index := Scalar.indexCast v555
  let c0_516 : Index := 0#32
  ![v593.toNat, 0]
def k0_off11 (d0 : Dev nD) (c0_i32_166 : BitVec 32) (c3_i32_13 : BitVec 32) (c1_i32_212 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.xori v2 c3_i32_13
  let v17 : BitVec 1 := Scalar.cmpi .sgt v2 v16
  let c192_i32_164 : BitVec 32 := 192#32
  let c0_i32_165 : BitVec 32 := 0#32
  let v207 : BitVec 32 := Scalar.select v17 c192_i32_164 c0_i32_165
  let v208 : BitVec 32 := Scalar.addi c0_i32_166 v207
  let v256 : BitVec 32 := Scalar.xori v2 c1_i32_212
  let v257 : BitVec 1 := Scalar.cmpi .sgt v2 v256
  let c96_i32_277 : BitVec 32 := 96#32
  let c0_i32_278 : BitVec 32 := 0#32
  let v327 : BitVec 32 := Scalar.select v257 c96_i32_277 c0_i32_278
  let v328 : BitVec 32 := Scalar.addi v208 v327
  let c96_i32_463 : BitVec 32 := 96#32
  let c0_i32_464 : BitVec 32 := 0#32
  let v538 : BitVec 32 := Scalar.select v257 c96_i32_463 c0_i32_464
  let v539 : BitVec 32 := Scalar.subi v328 v538
  let c_m192_i32 : BitVec 32 := 4294967104#32
  let c192_i32_526 : BitVec 32 := 192#32
  let v604 : BitVec 32 := Scalar.select v17 c_m192_i32 c192_i32_526
  let v605 : BitVec 32 := Scalar.addi v539 v604
  let v606 : Index := Scalar.indexCast v605
  let c0_527 : Index := 0#32
  ![v606.toNat, 0]
def k0_off11_at (r : Fin 2) : BitVec 32 × BitVec 32 × BitVec 32 :=
  if r.val < 1 then
    (0#32, 3#32, 1#32)
  else
    (384#32, 4#32, 3#32)
def k0_off12 (d0 : Dev nD) : Fin 2 → Nat :=
  let c768_i32_206 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v20 : BitVec 32 := Scalar.xori v2 c1_i32_15
  let v21 : BitVec 1 := Scalar.cmpi .sgt v2 v20
  let c128_i32_204 : BitVec 32 := 128#32
  let c0_i32_205 : BitVec 32 := 0#32
  let v245 : BitVec 32 := Scalar.select v21 c128_i32_204 c0_i32_205
  let v246 : BitVec 32 := Scalar.addi c768_i32_206 v245
  let c4_i32_248 : BitVec 32 := 4#32
  let v298 : BitVec 32 := Scalar.xori v2 c4_i32_248
  let v299 : BitVec 1 := Scalar.cmpi .sgt v2 v298
  let c64_i32_315 : BitVec 32 := 64#32
  let c0_i32_316 : BitVec 32 := 0#32
  let v365 : BitVec 32 := Scalar.select v299 c64_i32_315 c0_i32_316
  let v366 : BitVec 32 := Scalar.addi v246 v365
  let c64_i32_483 : BitVec 32 := 64#32
  let c0_i32_484 : BitVec 32 := 0#32
  let v554 : BitVec 32 := Scalar.select v299 c64_i32_483 c0_i32_484
  let v555 : BitVec 32 := Scalar.subi v366 v554
  let c_m128_i32 : BitVec 32 := 4294967168#32
  let c128_i32_549 : BitVec 32 := 128#32
  let v630 : BitVec 32 := Scalar.select v21 c_m128_i32 c128_i32_549
  let v631 : BitVec 32 := Scalar.addi v555 v630
  let v632 : Index := Scalar.indexCast v631
  let c0_550 : Index := 0#32
  ![v632.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  hamt_1 : (1#32 : BitVec 32).msb = false
  hamt_4 : (4#32 : BitVec 32).msb = false
  h_S192x1024 : 0 < S192x1024.numel
  shapeCasts_S192x1024_S192x1024 : S192x1024.ShapeCasts S192x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S3x384x1024_S1x192x1024_0_0_0 : ∀ a, (![0, 0, 0] : Fin 3 → Nat) a + S1x192x1024.size a ≤ S3x384x1024.size a
  h_S1x192x1024 : 0 < S1x192x1024.numel
  shapeCasts_S1x192x1024_S192x1024 : S1x192x1024.ShapeCasts S192x1024
  shapeCasts_S192x1024_S1x192x1024 : S192x1024.ShapeCasts S1x192x1024
  packedbf16_S3x384x1024_S1x192x1024_0_0_0 : (Rect.unit (s := S3x384x1024) ![0, 0, 0] S1x192x1024.size inb_S3x384x1024_S1x192x1024_0_0_0).PackedRows (EltTy.packing .bf16)
  inb_S3x3_S1x1_0_0 : ∀ a, (![0, 0] : Fin 2 → Nat) a + S1x1.size a ≤ S3x3.size a
  squeezes_S1x1_S_ : S1x1.Squeezes S_
  squeezes_S1x192x1024_S192x1024 : S1x192x1024.Squeezes S192x1024
  wordsbf16_S3x384x1024_S1x192x1024_0_0_0 : (Rect.unit (s := S3x384x1024) ![0, 0, 0] S1x192x1024.size inb_S3x384x1024_S1x192x1024_0_0_0).WholeWords (EltTy.packing .bf16)
  inb_S3x384x1024_S1x192x1024_1_0_0 : ∀ a, (![1, 0, 0] : Fin 3 → Nat) a + S1x192x1024.size a ≤ S3x384x1024.size a
  packedbf16_S3x384x1024_S1x192x1024_1_0_0 : (Rect.unit (s := S3x384x1024) ![1, 0, 0] S1x192x1024.size inb_S3x384x1024_S1x192x1024_1_0_0).PackedRows (EltTy.packing .bf16)
  inb_S3x3_S1x1_1_0 : ∀ a, (![1, 0] : Fin 2 → Nat) a + S1x1.size a ≤ S3x3.size a
  wordsbf16_S3x384x1024_S1x192x1024_1_0_0 : (Rect.unit (s := S3x384x1024) ![1, 0, 0] S1x192x1024.size inb_S3x384x1024_S1x192x1024_1_0_0).WholeWords (EltTy.packing .bf16)
  h_S128x1024 : 0 < S128x1024.numel
  shapeCasts_S128x1024_S128x1024 : S128x1024.ShapeCasts S128x1024
  inb_S3x384x1024_S1x128x1024_2_0_0 : ∀ a, (![2, 0, 0] : Fin 3 → Nat) a + S1x128x1024.size a ≤ S3x384x1024.size a
  h_S1x128x1024 : 0 < S1x128x1024.numel
  shapeCasts_S1x128x1024_S128x1024 : S1x128x1024.ShapeCasts S128x1024
  shapeCasts_S128x1024_S1x128x1024 : S128x1024.ShapeCasts S1x128x1024
  packedbf16_S3x384x1024_S1x128x1024_2_0_0 : (Rect.unit (s := S3x384x1024) ![2, 0, 0] S1x128x1024.size inb_S3x384x1024_S1x128x1024_2_0_0).PackedRows (EltTy.packing .bf16)
  inb_S3x3_S1x1_2_0 : ∀ a, (![2, 0] : Fin 2 → Nat) a + S1x1.size a ≤ S3x3.size a
  squeezes_S1x128x1024_S128x1024 : S1x128x1024.Squeezes S128x1024
  wordsbf16_S3x384x1024_S1x128x1024_2_0_0 : (Rect.unit (s := S3x384x1024) ![2, 0, 0] S1x128x1024.size inb_S3x384x1024_S1x128x1024_2_0_0).WholeWords (EltTy.packing .bf16)
  h_S96x1024 : 0 < S96x1024.numel
  shapeCasts_S96x1024_S96x1024 : S96x1024.ShapeCasts S96x1024
  inb_S3x384x1024_S1x96x1024_0_192_0 : ∀ a, (![0, 192, 0] : Fin 3 → Nat) a + S1x96x1024.size a ≤ S3x384x1024.size a
  h_S1x96x1024 : 0 < S1x96x1024.numel
  shapeCasts_S1x96x1024_S96x1024 : S1x96x1024.ShapeCasts S96x1024
  shapeCasts_S96x1024_S1x96x1024 : S96x1024.ShapeCasts S1x96x1024
  packedbf16_S3x384x1024_S1x96x1024_0_192_0 : (Rect.unit (s := S3x384x1024) ![0, 192, 0] S1x96x1024.size inb_S3x384x1024_S1x96x1024_0_192_0).PackedRows (EltTy.packing .bf16)
  inb_S3x3_S1x1_0_1 : ∀ a, (![0, 1] : Fin 2 → Nat) a + S1x1.size a ≤ S3x3.size a
  squeezes_S1x96x1024_S96x1024 : S1x96x1024.Squeezes S96x1024
  wordsbf16_S3x384x1024_S1x96x1024_0_192_0 : (Rect.unit (s := S3x384x1024) ![0, 192, 0] S1x96x1024.size inb_S3x384x1024_S1x96x1024_0_192_0).WholeWords (EltTy.packing .bf16)
  inb_S3x384x1024_S1x96x1024_1_192_0 : ∀ a, (![1, 192, 0] : Fin 3 → Nat) a + S1x96x1024.size a ≤ S3x384x1024.size a
  packedbf16_S3x384x1024_S1x96x1024_1_192_0 : (Rect.unit (s := S3x384x1024) ![1, 192, 0] S1x96x1024.size inb_S3x384x1024_S1x96x1024_1_192_0).PackedRows (EltTy.packing .bf16)
  inb_S3x3_S1x1_1_1 : ∀ a, (![1, 1] : Fin 2 → Nat) a + S1x1.size a ≤ S3x3.size a
  wordsbf16_S3x384x1024_S1x96x1024_1_192_0 : (Rect.unit (s := S3x384x1024) ![1, 192, 0] S1x96x1024.size inb_S3x384x1024_S1x96x1024_1_192_0).WholeWords (EltTy.packing .bf16)
  h_S64x1024 : 0 < S64x1024.numel
  shapeCasts_S64x1024_S64x1024 : S64x1024.ShapeCasts S64x1024
  inb_S3x384x1024_S1x64x1024_2_128_0 : ∀ a, (![2, 128, 0] : Fin 3 → Nat) a + S1x64x1024.size a ≤ S3x384x1024.size a
  h_S1x64x1024 : 0 < S1x64x1024.numel
  shapeCasts_S1x64x1024_S64x1024 : S1x64x1024.ShapeCasts S64x1024
  shapeCasts_S64x1024_S1x64x1024 : S64x1024.ShapeCasts S1x64x1024
  packedbf16_S3x384x1024_S1x64x1024_2_128_0 : (Rect.unit (s := S3x384x1024) ![2, 128, 0] S1x64x1024.size inb_S3x384x1024_S1x64x1024_2_128_0).PackedRows (EltTy.packing .bf16)
  inb_S3x3_S1x1_2_1 : ∀ a, (![2, 1] : Fin 2 → Nat) a + S1x1.size a ≤ S3x3.size a
  squeezes_S1x64x1024_S64x1024 : S1x64x1024.Squeezes S64x1024
  wordsbf16_S3x384x1024_S1x64x1024_2_128_0 : (Rect.unit (s := S3x384x1024) ![2, 128, 0] S1x64x1024.size inb_S3x384x1024_S1x64x1024_2_128_0).WholeWords (EltTy.packing .bf16)
  inb_S3x384x1024_S1x96x1024_0_288_0 : ∀ a, (![0, 288, 0] : Fin 3 → Nat) a + S1x96x1024.size a ≤ S3x384x1024.size a
  packedbf16_S3x384x1024_S1x96x1024_0_288_0 : (Rect.unit (s := S3x384x1024) ![0, 288, 0] S1x96x1024.size inb_S3x384x1024_S1x96x1024_0_288_0).PackedRows (EltTy.packing .bf16)
  inb_S3x3_S1x1_0_2 : ∀ a, (![0, 2] : Fin 2 → Nat) a + S1x1.size a ≤ S3x3.size a
  wordsbf16_S3x384x1024_S1x96x1024_0_288_0 : (Rect.unit (s := S3x384x1024) ![0, 288, 0] S1x96x1024.size inb_S3x384x1024_S1x96x1024_0_288_0).WholeWords (EltTy.packing .bf16)
  inb_S3x384x1024_S1x96x1024_1_288_0 : ∀ a, (![1, 288, 0] : Fin 3 → Nat) a + S1x96x1024.size a ≤ S3x384x1024.size a
  packedbf16_S3x384x1024_S1x96x1024_1_288_0 : (Rect.unit (s := S3x384x1024) ![1, 288, 0] S1x96x1024.size inb_S3x384x1024_S1x96x1024_1_288_0).PackedRows (EltTy.packing .bf16)
  inb_S3x3_S1x1_1_2 : ∀ a, (![1, 2] : Fin 2 → Nat) a + S1x1.size a ≤ S3x3.size a
  wordsbf16_S3x384x1024_S1x96x1024_1_288_0 : (Rect.unit (s := S3x384x1024) ![1, 288, 0] S1x96x1024.size inb_S3x384x1024_S1x96x1024_1_288_0).WholeWords (EltTy.packing .bf16)
  inb_S3x384x1024_S1x64x1024_2_192_0 : ∀ a, (![2, 192, 0] : Fin 3 → Nat) a + S1x64x1024.size a ≤ S3x384x1024.size a
  packedbf16_S3x384x1024_S1x64x1024_2_192_0 : (Rect.unit (s := S3x384x1024) ![2, 192, 0] S1x64x1024.size inb_S3x384x1024_S1x64x1024_2_192_0).PackedRows (EltTy.packing .bf16)
  inb_S3x3_S1x1_2_2 : ∀ a, (![2, 2] : Fin 2 → Nat) a + S1x1.size a ≤ S3x3.size a
  wordsbf16_S3x384x1024_S1x64x1024_2_192_0 : (Rect.unit (s := S3x384x1024) ![2, 192, 0] S1x64x1024.size inb_S3x384x1024_S1x64x1024_2_192_0).WholeWords (EltTy.packing .bf16)
  dot_S192x1024_S1024x2048_S192x2048_1_0_0_1_n_n_wf : DotDims.WF S192x1024 S1024x2048 S192x2048 [1] [0] [0] [1] [] []
  dot_S192x2048_S2048x1024_S192x1024_1_0_0_1_n_n_wf : DotDims.WF S192x2048 S2048x1024 S192x1024 [1] [0] [0] [1] [] []
  dot_S128x1024_S1024x2048_S128x2048_1_0_0_1_n_n_wf : DotDims.WF S128x1024 S1024x2048 S128x2048 [1] [0] [0] [1] [] []
  dot_S128x2048_S2048x1024_S128x1024_1_0_0_1_n_n_wf : DotDims.WF S128x2048 S2048x1024 S128x1024 [1] [0] [0] [1] [] []
  hcc0_scratch3 : 5 + S3x3.numel ≤ 41
  hcc0_scratch4 : 14 + S3x3.numel ≤ 41
  hcc0_scratch5 : 23 + S3x3.numel ≤ 41
  hcc0_scratch6 : 32 + S3x3.numel ≤ 41
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_off1_inb : ∀ d0 : Dev nD, ∀ (r : Fin 4), ∀ a, (k0_off1 d0 (k0_off1_at r).1 (k0_off1_at r).2.1 (k0_off1_at r).2.2.1 (k0_off1_at r).2.2.2) a + S192x1024.size a ≤ S1024x1024.size a
  k0_dev5_lt : ∀ d0 : Dev nD, (k0_dev5 d0) < nD
  k0_dev6_lt : ∀ d0 : Dev nD, (k0_dev6 d0) < nD
  k0_off2_inb : ∀ d0 : Dev nD, ∀ (r : Fin 2), ∀ a, (k0_off2 d0 (k0_off2_at r).1 (k0_off2_at r).2) a + S128x1024.size a ≤ S1024x1024.size a
  k0_dev7_lt : ∀ d0 : Dev nD, (k0_dev7 d0) < nD
  k0_off3_inb : ∀ d0 : Dev nD, ∀ (r : Fin 4), ∀ a, (k0_off3 d0 (k0_off3_at r).1 (k0_off3_at r).2.1 (k0_off3_at r).2.2.1 (k0_off3_at r).2.2.2.1 (k0_off3_at r).2.2.2.2) a + S96x1024.size a ≤ S1024x1024.size a
  k0_dev8_lt : ∀ d0 : Dev nD, (k0_dev8 d0) < nD
  k0_dev9_lt : ∀ d0 : Dev nD, (k0_dev9 d0) < nD
  k0_off4_inb : ∀ d0 : Dev nD, ∀ (r : Fin 2), ∀ a, (k0_off4 d0 (k0_off4_at r).1 (k0_off4_at r).2) a + S64x1024.size a ≤ S1024x1024.size a
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_off3_packedbf16 : ∀ d0 : Dev nD, ∀ (r : Fin 4), (Rect.unit (s := S1024x1024) (k0_off3 d0 (k0_off3_at r).1 (k0_off3_at r).2.1 (k0_off3_at r).2.2.1 (k0_off3_at r).2.2.2.1 (k0_off3_at r).2.2.2.2) S96x1024.size (k0_off3_inb d0 r)).PackedRows (EltTy.packing .bf16)
  k0_off4_packedbf16 : ∀ d0 : Dev nD, ∀ (r : Fin 2), (Rect.unit (s := S1024x1024) (k0_off4 d0 (k0_off4_at r).1 (k0_off4_at r).2) S64x1024.size (k0_off4_inb d0 r)).PackedRows (EltTy.packing .bf16)
  k0_off5_inb : ∀ d0 : Dev nD, ∀ (r : Fin 2), ∀ a, (k0_off5 d0 (k0_off5_at r).1 (k0_off5_at r).2.1 (k0_off5_at r).2.2) a + S96x1024.size a ≤ S1024x1024.size a
  k0_off5_wordsbf16 : ∀ d0 : Dev nD, ∀ (r : Fin 2), (Rect.unit (s := S1024x1024) (k0_off5 d0 (k0_off5_at r).1 (k0_off5_at r).2.1 (k0_off5_at r).2.2) S96x1024.size (k0_off5_inb d0 r)).WholeWords (EltTy.packing .bf16)
  k0_dev14_lt : ∀ d0 : Dev nD, (k0_dev14 d0) < nD
  k0_dev15_lt : ∀ d0 : Dev nD, (k0_dev15 d0) < nD
  k0_off6_inb : ∀ d0 : Dev nD, ∀ a, (k0_off6 d0) a + S64x1024.size a ≤ S1024x1024.size a
  k0_off6_wordsbf16 : ∀ d0 : Dev nD, (Rect.unit (s := S1024x1024) (k0_off6 d0) S64x1024.size (k0_off6_inb d0)).WholeWords (EltTy.packing .bf16)
  k0_dev16_lt : ∀ d0 : Dev nD, (k0_dev16 d0) < nD
  k0_off7_inb : ∀ d0 : Dev nD, ∀ (r : Fin 2), ∀ a, (k0_off7 d0 (k0_off7_at r).1 (k0_off7_at r).2.1 (k0_off7_at r).2.2) a + S192x1024.size a ≤ S1024x1024.size a
  k0_off7_wordsbf16 : ∀ d0 : Dev nD, ∀ (r : Fin 2), (Rect.unit (s := S1024x1024) (k0_off7 d0 (k0_off7_at r).1 (k0_off7_at r).2.1 (k0_off7_at r).2.2) S192x1024.size (k0_off7_inb d0 r)).WholeWords (EltTy.packing .bf16)
  k0_dev17_lt : ∀ d0 : Dev nD, (k0_dev17 d0) < nD
  k0_dev18_lt : ∀ d0 : Dev nD, (k0_dev18 d0) < nD
  k0_off8_inb : ∀ d0 : Dev nD, ∀ a, (k0_off8 d0) a + S128x1024.size a ≤ S1024x1024.size a
  k0_off8_wordsbf16 : ∀ d0 : Dev nD, (Rect.unit (s := S1024x1024) (k0_off8 d0) S128x1024.size (k0_off8_inb d0)).WholeWords (EltTy.packing .bf16)
  k0_dev19_lt : ∀ d0 : Dev nD, (k0_dev19 d0) < nD
  k0_off9_inb : ∀ d0 : Dev nD, ∀ (r : Fin 2), ∀ a, (k0_off9 d0 (k0_off9_at r).1 (k0_off9_at r).2.1 (k0_off9_at r).2.2) a + S192x1024.size a ≤ S1024x1024.size a
  k0_off10_inb : ∀ d0 : Dev nD, ∀ a, (k0_off10 d0) a + S128x1024.size a ≤ S1024x1024.size a
  k0_off11_inb : ∀ d0 : Dev nD, ∀ (r : Fin 2), ∀ a, (k0_off11 d0 (k0_off11_at r).1 (k0_off11_at r).2.1 (k0_off11_at r).2.2) a + S192x1024.size a ≤ S1024x1024.size a
  k0_off12_inb : ∀ d0 : Dev nD, ∀ a, (k0_off12 d0) a + S128x1024.size a ≤ S1024x1024.size a
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch3 : DmaSems sig S3x3 := SemArray.consecutive 5 S3x3 hcc0_scratch3
abbrev cc0_scratch4 : DmaSems sig S3x3 := SemArray.consecutive 14 S3x3 hcc0_scratch4
abbrev cc0_scratch5 : DmaSems sig S3x3 := SemArray.consecutive 23 S3x3 hcc0_scratch5
abbrev cc0_scratch6 : DmaSems sig S3x3 := SemArray.consecutive 32 S3x3 hcc0_scratch6
def dot_S192x1024_S1024x2048_S192x2048_1_0_0_1_n_n : DotDims S192x1024 S1024x2048 S192x2048 where
  lhsContracting := [1]
  rhsContracting := [0]
  lhsNonContracting := [0]
  rhsNonContracting := [1]
  lhsBatch := []
  rhsBatch := []
  wf := dot_S192x1024_S1024x2048_S192x2048_1_0_0_1_n_n_wf
def dot_S192x2048_S2048x1024_S192x1024_1_0_0_1_n_n : DotDims S192x2048 S2048x1024 S192x1024 where
  lhsContracting := [1]
  rhsContracting := [0]
  lhsNonContracting := [0]
  rhsNonContracting := [1]
  lhsBatch := []
  rhsBatch := []
  wf := dot_S192x2048_S2048x1024_S192x1024_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x16384 : Shape := ⟨2, ![1024, 16384]⟩
abbrev S16384x1024 : Shape := ⟨2, ![16384, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16384, .f32⟩
  | .hbm, ⟨2, _⟩ => ⟨S1024x16384, .f32⟩
  | .hbm, ⟨3, _⟩ => ⟨S16384x1024, .f32⟩
  | .hbm, ⟨4, _⟩ => ⟨S1024x16384, .f32⟩
  | .hbm, ⟨5, _⟩ => ⟨S1024x16384, .f32⟩
  | .hbm, ⟨6, _⟩ => ⟨S1024x16384, .f32⟩
  | .hbm, ⟨7, _⟩ => ⟨S1024x16384, .f32⟩
  | .hbm, ⟨8, _⟩ => ⟨S_, .f32⟩
  | .hbm, ⟨9, _⟩ => ⟨S1024x16384, .f32⟩
  | .hbm, ⟨10, _⟩ => ⟨S1024x16384, .f32⟩
  | .hbm, ⟨11, _⟩ => ⟨S1024x16384, .f32⟩
  | .hbm, ⟨12, _⟩ => ⟨S1024x16384, .f32⟩
  | .hbm, ⟨13, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S1024x16384 : S_.BroadcastsInDim S1024x16384 (![] : Fin 0 → Fin S1024x16384.rank)
  dot_S1024x1024_S1024x16384_S1024x16384_1_0_0_1_n_n_wf : DotDims.WF S1024x1024 S1024x16384 S1024x16384 [1] [0] [0] [1] [] []
  dot_S1024x16384_S16384x1024_S1024x1024_1_0_0_1_n_n_wf : DotDims.WF S1024x16384 S16384x1024 S1024x1024 [1] [0] [0] [1] [] []

variable [Facts₀]

def dot_S1024x1024_S1024x16384_S1024x16384_1_0_0_1_n_n : DotDims S1024x1024 S1024x16384 S1024x16384 where
  lhsContracting := [1]
  rhsContracting := [0]
  lhsNonContracting := [0]
  rhsNonContracting := [1]
  lhsBatch := []
  rhsBatch := []
  wf := dot_S1024x1024_S1024x16384_S1024x16384_1_0_0_1_n_n_wf
def dot_S1024x16384_S16384x1024_S1024x1024_1_0_0_1_n_n : DotDims S1024x16384 S16384x1024 S1024x1024 where
  lhsContracting := [1]
  rhsContracting := [0]
  lhsNonContracting := [0]
  rhsNonContracting := [1]
  lhsBatch := []
  rhsBatch := []
  wf := dot_S1024x16384_S16384x1024_S1024x1024_1_0_0_1_n_n_wf

class Facts : Prop extends Facts₀ where

variable [Facts]
-- ==== Proof.RefSide.lean ====
/-
  The reference's side. The reference is the gated feed-forward layer on one device over the whole arrays:
  with gate = x · Wg and up = x · Wu (both 1024 × 16384, each entry a sum over 1024 coordinates), the hidden
  array is gate ⊙ (up / (1 + exp (−up))) and the result is hidden · Wd (1024 × 1024, each entry a sum over the
  16384 hidden coordinates). Here: the reference's run read back as ONE function `refOut` of its four argument
  arrays (`ref_run`), the fact that the run leaves those arrays as they were (`frame_ri`), and `refOut` at an
  entry (p, q) as the nested sums above (`refOut_apply`). Every operation is the extended reals' own — the
  quotient is the ideal instance's division, the exponential its exponential — and nothing is rearranged, so no
  finiteness of the entries is used on this side.
-/
import proofs.«900524_g7700000000000525_dist_gated_mlp_tp_i_m1024_h2048_d1024_v7x_i8_f32_1_alg».proof.Defs
import proofs.«900524_g7700000000000525_dist_gated_mlp_tp_i_m1024_h2048_d1024_v7x_i8_f32_1_alg».proof.Proof.Gen.ReferenceIdeal
import proofs.«900524_g7700000000000525_dist_gated_mlp_tp_i_m1024_h2048_d1024_v7x_i8_f32_1_alg».proof.Proof.Gen.Pre_finite_inputs_ReferenceIdeal
import proofs.«900524_g7700000000000525_dist_gated_mlp_tp_i_m1024_h2048_d1024_v7x_i8_f32_1_alg».proof.Proof.Gen.ReferenceIdeal.Run
import proofs.«900524_g7700000000000525_dist_gated_mlp_tp_i_m1024_h2048_d1024_v7x_i8_f32_1_alg».proof.Proof.Gen.ReferenceIdeal.Read
import Idealize.ShloMosaic.Lib.ValueIdx
import Idealize.ShloMosaic.Lib.IdealHost
import Idealize.ShloMosaic.Lib.Pipeline.Value
import Idealize.ShloMosaic.PureOps.Ideal.Laws
import Idealize.ShloMosaic.Lib.StableHlo.Run

noncomputable section

namespace Cert.ReferenceIdeal.RefSide

open Idealize.ShloMosaic Idealize.ShloMosaic.TcCoe Idealize.SL.Sem
open Cert.ReferenceIdeal
open scoped BigOperators

/-! ## The run -/

/-- Every weakly fair execution of the reference terminates with its four argument arrays unchanged: its run,
    with what it says of the result array dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result as one function of its argument arrays `x` (1024 × 1024), `wg`, `wu` (1024 × 16384)
    and `wd` (16384 × 1024): `((x · wg) ⊙ (up / (1 + exp (−up)))) · wd` with `up = x · wu`, the last of the
    reference's stages. -/
def refOut (x : (⟨S1024x1024, .f32⟩ : BufTy).Contents (Elt Ideal))
    (wg wu : (⟨S1024x16384, .f32⟩ : BufTy).Contents (Elt Ideal))
    (wd : (⟨S16384x1024, .f32⟩ : BufTy).Contents (Elt Ideal)) :
    (⟨S1024x1024, .f32⟩ : BufTy).Contents (Elt Ideal) :=
  Read.val_main_v8 (F := Ideal) x wg wu wd

/-- From any memory with zero counters, every weakly fair execution of the reference terminates with its result
    array holding `refOut` of the four argument arrays as they were at the launch, and those arrays unchanged. The
    composed term the run states for the result is the last stage by unfolding alone. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
          r.2.mem (((0 : Dev Cert.ReferenceIdeal.nD).tc : Thread Cert.ReferenceIdeal.nD Cert.ReferenceIdeal.τ).loc Cert.ReferenceIdeal.main_v8)
            = refOut (m' (((0 : Dev Cert.ReferenceIdeal.nD).tc : Thread Cert.ReferenceIdeal.nD Cert.ReferenceIdeal.τ).loc Cert.ReferenceIdeal.main_arg0))
                (m' (((0 : Dev Cert.ReferenceIdeal.nD).tc : Thread Cert.ReferenceIdeal.nD Cert.ReferenceIdeal.τ).loc Cert.ReferenceIdeal.main_arg1))
                (m' (((0 : Dev Cert.ReferenceIdeal.nD).tc : Thread Cert.ReferenceIdeal.nD Cert.ReferenceIdeal.τ).loc Cert.ReferenceIdeal.main_arg2))
                (m' (((0 : Dev Cert.ReferenceIdeal.nD).tc : Thread Cert.ReferenceIdeal.nD Cert.ReferenceIdeal.τ).loc Cert.ReferenceIdeal.main_arg3))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)) :=
  (θ_run Cert.ReferenceIdeal.defs _ _).mono (fun _ h => h 0) (Cert.ReferenceIdeal.Value.run (F := Ideal) m' ρ')

/-! ## Where each product reads its operands

A product of an `a × n` array by an `n × b` array has at entry (r, c) the sum over `t : Fin n` of the left array at
(r, t) times the right array at (t, c). The six equations below say this of the three products' index maps at an
entry given by its two coordinates. -/

/-- `hidden · wd` at (p, q): the left operand is read at (p, k). -/
theorem lidx_v8 (p q : Fin 1024) (k : Fin 16384) : Read.lidx_main_v8 (ValueIdx.ix2 p q) k = ValueIdx.ix2 p k :=
  funext fun a => Fin.ext (by match a with | ⟨0, _⟩ => rfl | ⟨1, _⟩ => rfl)
/-- `hidden · wd` at (p, q): the right operand is read at (k, q). -/
theorem ridx_v8 (p q : Fin 1024) (k : Fin 16384) : Read.ridx_main_v8 (ValueIdx.ix2 p q) k = ValueIdx.ix2 k q :=
  funext fun a => Fin.ext (by match a with | ⟨0, _⟩ => rfl | ⟨1, _⟩ => rfl)
/-- `x · wg` at (p, k): the left operand is read at (p, j). -/
theorem lidx_v0 (p : Fin 1024) (k : Fin 16384) (j : Fin 1024) : Read.lidx_main_v0 (ValueIdx.ix2 p k) j = ValueIdx.ix2 p j :=
  funext fun a => Fin.ext (by match a with | ⟨0, _⟩ => rfl | ⟨1, _⟩ => rfl)
/-- `x · wg` at (p, k): the right operand is read at (j, k). -/
theorem ridx_v0 (p : Fin 1024) (k : Fin 16384) (j : Fin 1024) : Read.ridx_main_v0 (ValueIdx.ix2 p k) j = ValueIdx.ix2 j k :=
  funext fun a => Fin.ext (by match a with | ⟨0, _⟩ => rfl | ⟨1, _⟩ => rfl)
/-- `x · wu` at (p, k): the left operand is read at (p, j). -/
theorem lidx_v1 (p : Fin 1024) (k : Fin 16384) (j : Fin 1024) : Read.lidx_main_v1 (ValueIdx.ix2 p k) j = ValueIdx.ix2 p j :=
  funext fun a => Fin.ext (by match a with | ⟨0, _⟩ => rfl | ⟨1, _⟩ => rfl)
/-- `x · wu` at (p, k): the right operand is read at (j, k). -/
theorem ridx_v1 (p : Fin 1024) (k : Fin 16384) (j : Fin 1024) : Read.ridx_main_v1 (ValueIdx.ix2 p k) j = ValueIdx.ix2 j k :=
  funext fun a => Fin.ext (by match a with | ⟨0, _⟩ => rfl | ⟨1, _⟩ => rfl)

/-! ## The result at an entry -/

/-- The reference's result at (p, q): the sum over the 16384 hidden coordinates `k` of
    `gate (p, k) · (up (p, k) / (1 + exp (−up (p, k)))) · wd (k, q)`, where `gate (p, k) = ∑ j, x (p, j) · wg (j, k)` and
    `up (p, k) = ∑ j, x (p, j) · wu (j, k)` over the 1024 input coordinates. The stages are opened outermost first, each
    pointwise stage at the entry and each product as its sum; the broadcast constant's f32 pattern `0x3F800000` is the
    extended real `1`. The quotient stays the ideal instance's division and the terms stay in the reference's own
    order and grouping. -/
theorem refOut_apply (x : (⟨S1024x1024, .f32⟩ : BufTy).Contents (Elt Ideal))
    (wg wu : (⟨S1024x16384, .f32⟩ : BufTy).Contents (Elt Ideal))
    (wd : (⟨S16384x1024, .f32⟩ : BufTy).Contents (Elt Ideal)) (p q : Fin 1024) :
    refOut x wg wu wd (ValueIdx.ix2 p q) =
      ∑ k : Fin 16384,
        ((∑ j : Fin 1024, x (ValueIdx.ix2 p j) * wg (ValueIdx.ix2 j k)) *
          Ideal.div (∑ j : Fin 1024, x (ValueIdx.ix2 p j) * wu (ValueIdx.ix2 j k))
            (1 + Ideal.exp (-(∑ j : Fin 1024, x (ValueIdx.ix2 p j) * wu (ValueIdx.ix2 j k))))) *
        wd (ValueIdx.ix2 k q) := by
  unfold refOut
  rw [Read.val_main_v8_apply]
  refine Finset.sum_congr rfl fun k _ => ?_
  rw [lidx_v8, ridx_v8, Read.val_main_v7_apply, Read.val_main_v6_apply, Read.val_main_v5_apply, Read.val_main_v4_apply,
    Read.val_main_cst_apply, Read.val_main_v3_apply, Read.val_main_v2_apply, Read.val_main_v1_apply, Read.val_main_v0_apply]
  simp only [lidx_v0, ridx_v0, lidx_v1, ridx_v1, Ideal.mulf_def, Ideal.hostDivf_def, Ideal.addf_def, Ideal.hostUnary_exp_def,
    Ideal.hostNegf_def, Ideal.negf_def, Ideal.ofBits_def, Ideal.ofBits_one_f32]

end Cert.ReferenceIdeal.RefSide

end
-- ==== Proof.Mesh.lean ====
import proofs.«900524_g7700000000000525_dist_gated_mlp_tp_i_m1024_h2048_d1024_v7x_i8_f32_1_alg».proof.Proof.Gen.KernelIdeal

/-! # The mesh arithmetic

Every device id and every row offset the kernel computes is an integer chain over the device's own
index `c ∈ {0,…,7}`.  Here each chain is given its closed form:

* a device id is `c xor m` for a mask `m ∈ {1,2,3,4}` (`px m c`);
* `c > c xor m` holds exactly when the highest bit of `m` is set in `c`, so every row offset is a
  base plus a choice made by one bit of `c` per stage (`hi j c` is bit `j` of `c`).

The three butterflies own the row ranges 0..384, 384..768, 768..1024; their masks are
(3,1,4), (4,3,1), (1,4,2), so the deciding bits are (1,0,2), (2,1,0), (0,2,1).
All statements are decided over the eight devices. -/

set_option Elab.async false

namespace Cert.KernelIdeal.Mesh

open Idealize.ShloMosaic Idealize.SL.Sem
open Cert.KernelIdeal Cert.KernelIdeal.Gen

/-- The partner of device `c` under the mask `m`: `c xor m`, kept inside the mesh. -/
def px (m : ℕ) (c : Dev nD) : Dev nD := ⟨(c.val ^^^ m) % 8, Nat.mod_lt _ (by decide)⟩

/-- Bit `j` of the device index. -/
def hi (j : ℕ) (c : Dev nD) : Bool := c.val.testBit j

theorem px_val (m : ℕ) (c : Dev nD) : (px m c).val = (c.val ^^^ m) % 8 := rfl

/-! ## The partner map -/

/-- `xor` with a mask is an involution. -/
theorem px_px (m : ℕ) (hm : m < 8) (c : Dev nD) : px m (px m c) = c := by
  have h : ∀ m : Fin 8, ∀ c : Dev nD, px m.val (px m.val c) = c := by decide +kernel
  exact h ⟨m, hm⟩ c

/-- A nonzero mask moves every device. -/
theorem px_ne (m : ℕ) (h0 : 0 < m) (hm : m < 8) (c : Dev nD) : px m c ≠ c := by
  have h : ∀ m : Fin 8, 0 < m.val → ∀ c : Dev nD, px m.val c ≠ c := by decide +kernel
  exact h ⟨m, hm⟩ h0 c

/-- Two masks compose to their `xor`. -/
theorem px_comp (a b : ℕ) (ha : a < 8) (hb : b < 8) (c : Dev nD) : px a (px b c) = px (a ^^^ b) c := by
  have h : ∀ a b : Fin 8, ∀ c : Dev nD, px a.val (px b.val c) = px (a.val ^^^ b.val) c := by
    decide +kernel
  exact h ⟨a, ha⟩ ⟨b, hb⟩ c

theorem px_inj (m : ℕ) (hm : m < 8) {c c' : Dev nD} (h : px m c = px m c') : c = c' := by
  have := congrArg (px m) h
  rwa [px_px m hm, px_px m hm] at this

theorem px_eq_iff (m : ℕ) (hm : m < 8) (c c' : Dev nD) : px m c = c' ↔ c = px m c' :=
  ⟨fun h => by rw [← h, px_px m hm], fun h => by rw [h, px_px m hm]⟩

theorem px_zero (c : Dev nD) : px 0 c = c := by
  revert c; decide +kernel

@[simp] theorem px1_px1 (c : Dev nD) : px 1 (px 1 c) = c := px_px 1 (by decide) c
theorem px1_ne (c : Dev nD) : px 1 c ≠ c := px_ne 1 (by decide) (by decide) c
theorem ne_px1 (c : Dev nD) : c ≠ px 1 c := fun h => px1_ne c h.symm
@[simp] theorem px2_px2 (c : Dev nD) : px 2 (px 2 c) = c := px_px 2 (by decide) c
theorem px2_ne (c : Dev nD) : px 2 c ≠ c := px_ne 2 (by decide) (by decide) c
theorem ne_px2 (c : Dev nD) : c ≠ px 2 c := fun h => px2_ne c h.symm
@[simp] theorem px3_px3 (c : Dev nD) : px 3 (px 3 c) = c := px_px 3 (by decide) c
theorem px3_ne (c : Dev nD) : px 3 c ≠ c := px_ne 3 (by decide) (by decide) c
theorem ne_px3 (c : Dev nD) : c ≠ px 3 c := fun h => px3_ne c h.symm
@[simp] theorem px4_px4 (c : Dev nD) : px 4 (px 4 c) = c := px_px 4 (by decide) c
theorem px4_ne (c : Dev nD) : px 4 c ≠ c := px_ne 4 (by decide) (by decide) c
theorem ne_px4 (c : Dev nD) : c ≠ px 4 c := fun h => px4_ne c h.symm

/-! ## Bits of a partner -/

/-- Bit `j` of `c xor m` is bit `j` of `c`, flipped when bit `j` of `m` is set. -/
theorem hi_px (j m : ℕ) (hj : j < 3) (hm : m < 8) (c : Dev nD) :
    hi j (px m c) = (hi j c ^^ m.testBit j) := by
  have h : ∀ j : Fin 3, ∀ m : Fin 8, ∀ c : Dev nD,
      hi j.val (px m.val c) = (hi j.val c ^^ m.val.testBit j.val) := by decide +kernel
  exact h ⟨j, hj⟩ ⟨m, hm⟩ c

@[simp] theorem hi0_px1 (c : Dev nD) : hi 0 (px 1 c) = !hi 0 c := by
  revert c; decide +kernel
@[simp] theorem hi1_px1 (c : Dev nD) : hi 1 (px 1 c) = hi 1 c := by
  revert c; decide +kernel
@[simp] theorem hi2_px1 (c : Dev nD) : hi 2 (px 1 c) = hi 2 c := by
  revert c; decide +kernel
@[simp] theorem hi0_px2 (c : Dev nD) : hi 0 (px 2 c) = hi 0 c := by
  revert c; decide +kernel
@[simp] theorem hi1_px2 (c : Dev nD) : hi 1 (px 2 c) = !hi 1 c := by
  revert c; decide +kernel
@[simp] theorem hi2_px2 (c : Dev nD) : hi 2 (px 2 c) = hi 2 c := by
  revert c; decide +kernel
@[simp] theorem hi0_px3 (c : Dev nD) : hi 0 (px 3 c) = !hi 0 c := by
  revert c; decide +kernel
@[simp] theorem hi1_px3 (c : Dev nD) : hi 1 (px 3 c) = !hi 1 c := by
  revert c; decide +kernel
@[simp] theorem hi2_px3 (c : Dev nD) : hi 2 (px 3 c) = hi 2 c := by
  revert c; decide +kernel
@[simp] theorem hi0_px4 (c : Dev nD) : hi 0 (px 4 c) = hi 0 c := by
  revert c; decide +kernel
@[simp] theorem hi1_px4 (c : Dev nD) : hi 1 (px 4 c) = hi 1 c := by
  revert c; decide +kernel
@[simp] theorem hi2_px4 (c : Dev nD) : hi 2 (px 4 c) = !hi 2 c := by
  revert c; decide +kernel

/-- A device is its three bits. -/
theorem ext_hi {c c' : Dev nD} (h0 : hi 0 c = hi 0 c') (h1 : hi 1 c = hi 1 c') (h2 : hi 2 c = hi 2 c') :
    c = c' := by
  revert c c'; decide +kernel

/-- The index from its bits. -/
theorem val_eq_bits (c : Dev nD) :
    c.val = (if hi 2 c then 4 else 0) + (if hi 1 c then 2 else 0) + (if hi 0 c then 1 else 0) := by
  revert c; decide +kernel

/-! ## The device ids -/

/-- barrier signal: the addressed device is `c xor 1`. -/
theorem dev1_eq_of (c : Dev nD) (h : k0_dev1 c < nD) : (⟨k0_dev1 c, h⟩ : Dev nD) = px 1 c := by
  revert c; decide +kernel
@[sl_canon] theorem dev1_eq (c : Dev nD) : (⟨k0_dev1 c, k0_dev1_lt c⟩ : Dev nD) = px 1 c :=
  dev1_eq_of c _

/-- barrier signal: the addressed device is `c xor 2`. -/
theorem dev2_eq_of (c : Dev nD) (h : k0_dev2 c < nD) : (⟨k0_dev2 c, h⟩ : Dev nD) = px 2 c := by
  revert c; decide +kernel
@[sl_canon] theorem dev2_eq (c : Dev nD) : (⟨k0_dev2 c, k0_dev2_lt c⟩ : Dev nD) = px 2 c :=
  dev2_eq_of c _

/-- barrier signal: the addressed device is `c xor 3`. -/
theorem dev3_eq_of (c : Dev nD) (h : k0_dev3 c < nD) : (⟨k0_dev3 c, h⟩ : Dev nD) = px 3 c := by
  revert c; decide +kernel
@[sl_canon] theorem dev3_eq (c : Dev nD) : (⟨k0_dev3 c, k0_dev3_lt c⟩ : Dev nD) = px 3 c :=
  dev3_eq_of c _

/-- barrier signal: the addressed device is `c xor 4`. -/
theorem dev4_eq_of (c : Dev nD) (h : k0_dev4 c < nD) : (⟨k0_dev4 c, h⟩ : Dev nD) = px 4 c := by
  revert c; decide +kernel
@[sl_canon] theorem dev4_eq (c : Dev nD) : (⟨k0_dev4 c, k0_dev4_lt c⟩ : Dev nD) = px 4 c :=
  dev4_eq_of c _

/-- reduce-scatter stage 0, butterfly 0: the addressed device is `c xor 3`. -/
theorem dev5_eq_of (c : Dev nD) (h : k0_dev5 c < nD) : (⟨k0_dev5 c, h⟩ : Dev nD) = px 3 c := by
  revert c; decide +kernel
@[sl_canon] theorem dev5_eq (c : Dev nD) : (⟨k0_dev5 c, k0_dev5_lt c⟩ : Dev nD) = px 3 c :=
  dev5_eq_of c _

/-- reduce-scatter stage 0, butterfly 1: the addressed device is `c xor 4`. -/
theorem dev6_eq_of (c : Dev nD) (h : k0_dev6 c < nD) : (⟨k0_dev6 c, h⟩ : Dev nD) = px 4 c := by
  revert c; decide +kernel
@[sl_canon] theorem dev6_eq (c : Dev nD) : (⟨k0_dev6 c, k0_dev6_lt c⟩ : Dev nD) = px 4 c :=
  dev6_eq_of c _

/-- reduce-scatter stage 0, butterfly 2: the addressed device is `c xor 1`. -/
theorem dev7_eq_of (c : Dev nD) (h : k0_dev7 c < nD) : (⟨k0_dev7 c, h⟩ : Dev nD) = px 1 c := by
  revert c; decide +kernel
@[sl_canon] theorem dev7_eq (c : Dev nD) : (⟨k0_dev7 c, k0_dev7_lt c⟩ : Dev nD) = px 1 c :=
  dev7_eq_of c _

/-- reduce-scatter stage 1, butterfly 0: the addressed device is `c xor 1`. -/
theorem dev8_eq_of (c : Dev nD) (h : k0_dev8 c < nD) : (⟨k0_dev8 c, h⟩ : Dev nD) = px 1 c := by
  revert c; decide +kernel
@[sl_canon] theorem dev8_eq (c : Dev nD) : (⟨k0_dev8 c, k0_dev8_lt c⟩ : Dev nD) = px 1 c :=
  dev8_eq_of c _

/-- reduce-scatter stage 1, butterfly 1: the addressed device is `c xor 3`. -/
theorem dev9_eq_of (c : Dev nD) (h : k0_dev9 c < nD) : (⟨k0_dev9 c, h⟩ : Dev nD) = px 3 c := by
  revert c; decide +kernel
@[sl_canon] theorem dev9_eq (c : Dev nD) : (⟨k0_dev9 c, k0_dev9_lt c⟩ : Dev nD) = px 3 c :=
  dev9_eq_of c _

/-- reduce-scatter stage 1, butterfly 2: the addressed device is `c xor 4`. -/
theorem dev10_eq_of (c : Dev nD) (h : k0_dev10 c < nD) : (⟨k0_dev10 c, h⟩ : Dev nD) = px 4 c := by
  revert c; decide +kernel
@[sl_canon] theorem dev10_eq (c : Dev nD) : (⟨k0_dev10 c, k0_dev10_lt c⟩ : Dev nD) = px 4 c :=
  dev10_eq_of c _

/-- pairwise exchange (stage 2), butterfly 0: the addressed device is `c xor 4`. -/
theorem dev11_eq_of (c : Dev nD) (h : k0_dev11 c < nD) : (⟨k0_dev11 c, h⟩ : Dev nD) = px 4 c := by
  revert c; decide +kernel
@[sl_canon] theorem dev11_eq (c : Dev nD) : (⟨k0_dev11 c, k0_dev11_lt c⟩ : Dev nD) = px 4 c :=
  dev11_eq_of c _

/-- pairwise exchange (stage 2), butterfly 1: the addressed device is `c xor 1`. -/
theorem dev12_eq_of (c : Dev nD) (h : k0_dev12 c < nD) : (⟨k0_dev12 c, h⟩ : Dev nD) = px 1 c := by
  revert c; decide +kernel
@[sl_canon] theorem dev12_eq (c : Dev nD) : (⟨k0_dev12 c, k0_dev12_lt c⟩ : Dev nD) = px 1 c :=
  dev12_eq_of c _

/-- pairwise exchange (stage 2), butterfly 2: the addressed device is `c xor 2`. -/
theorem dev13_eq_of (c : Dev nD) (h : k0_dev13 c < nD) : (⟨k0_dev13 c, h⟩ : Dev nD) = px 2 c := by
  revert c; decide +kernel
@[sl_canon] theorem dev13_eq (c : Dev nD) : (⟨k0_dev13 c, k0_dev13_lt c⟩ : Dev nD) = px 2 c :=
  dev13_eq_of c _

/-- all-gather stage 1, butterfly 0: the addressed device is `c xor 1`. -/
theorem dev14_eq_of (c : Dev nD) (h : k0_dev14 c < nD) : (⟨k0_dev14 c, h⟩ : Dev nD) = px 1 c := by
  revert c; decide +kernel
@[sl_canon] theorem dev14_eq (c : Dev nD) : (⟨k0_dev14 c, k0_dev14_lt c⟩ : Dev nD) = px 1 c :=
  dev14_eq_of c _

/-- all-gather stage 1, butterfly 1: the addressed device is `c xor 3`. -/
theorem dev15_eq_of (c : Dev nD) (h : k0_dev15 c < nD) : (⟨k0_dev15 c, h⟩ : Dev nD) = px 3 c := by
  revert c; decide +kernel
@[sl_canon] theorem dev15_eq (c : Dev nD) : (⟨k0_dev15 c, k0_dev15_lt c⟩ : Dev nD) = px 3 c :=
  dev15_eq_of c _

/-- all-gather stage 1, butterfly 2: the addressed device is `c xor 4`. -/
theorem dev16_eq_of (c : Dev nD) (h : k0_dev16 c < nD) : (⟨k0_dev16 c, h⟩ : Dev nD) = px 4 c := by
  revert c; decide +kernel
@[sl_canon] theorem dev16_eq (c : Dev nD) : (⟨k0_dev16 c, k0_dev16_lt c⟩ : Dev nD) = px 4 c :=
  dev16_eq_of c _

/-- all-gather stage 0, butterfly 0: the addressed device is `c xor 3`. -/
theorem dev17_eq_of (c : Dev nD) (h : k0_dev17 c < nD) : (⟨k0_dev17 c, h⟩ : Dev nD) = px 3 c := by
  revert c; decide +kernel
@[sl_canon] theorem dev17_eq (c : Dev nD) : (⟨k0_dev17 c, k0_dev17_lt c⟩ : Dev nD) = px 3 c :=
  dev17_eq_of c _

/-- all-gather stage 0, butterfly 1: the addressed device is `c xor 4`. -/
theorem dev18_eq_of (c : Dev nD) (h : k0_dev18 c < nD) : (⟨k0_dev18 c, h⟩ : Dev nD) = px 4 c := by
  revert c; decide +kernel
@[sl_canon] theorem dev18_eq (c : Dev nD) : (⟨k0_dev18 c, k0_dev18_lt c⟩ : Dev nD) = px 4 c :=
  dev18_eq_of c _

/-- all-gather stage 0, butterfly 2: the addressed device is `c xor 1`. -/
theorem dev19_eq_of (c : Dev nD) (h : k0_dev19 c < nD) : (⟨k0_dev19 c, h⟩ : Dev nD) = px 1 c := by
  revert c; decide +kernel
@[sl_canon] theorem dev19_eq (c : Dev nD) : (⟨k0_dev19 c, k0_dev19_lt c⟩ : Dev nD) = px 1 c :=
  dev19_eq_of c _

/-! ## The row offsets

Each is `![row, 0]`: the column offset is always 0. -/

/-- butterfly 0 (rows 0..384), the half sent at stage 0. -/
theorem off1_a (c : Dev nD) : k0_off1 c 0#32 3#32 0#32 192#32 = ![if hi 1 c then 0 else 192, 0] := by
  revert c; decide +kernel

/-- butterfly 1 (rows 384..768), the half sent at stage 0. -/
theorem off1_b (c : Dev nD) : k0_off1 c 384#32 4#32 0#32 192#32 = ![if hi 2 c then 384 else 576, 0] := by
  revert c; decide +kernel

/-- butterfly 0, the half kept at stage 0. -/
theorem off1_c (c : Dev nD) : k0_off1 c 0#32 3#32 192#32 0#32 = ![if hi 1 c then 192 else 0, 0] := by
  revert c; decide +kernel

/-- butterfly 1, the half kept at stage 0. -/
theorem off1_d (c : Dev nD) : k0_off1 c 384#32 4#32 192#32 0#32 = ![if hi 2 c then 576 else 384, 0] := by
  revert c; decide +kernel

/-- butterfly 2 (rows 768..1024), the half sent at stage 0. -/
theorem off2_a (c : Dev nD) : k0_off2 c 0#32 128#32 = ![if hi 0 c then 768 else 896, 0] := by
  revert c; decide +kernel

/-- butterfly 2, the half kept at stage 0. -/
theorem off2_b (c : Dev nD) : k0_off2 c 128#32 0#32 = ![if hi 0 c then 896 else 768, 0] := by
  revert c; decide +kernel

/-- butterfly 0, the quarter sent at stage 1 (inside the half kept at stage 0). -/
theorem off3_a (c : Dev nD) : k0_off3 c 0#32 3#32 1#32 0#32 96#32 = ![(if hi 1 c then 192 else 0) + (if hi 0 c then 0 else 96), 0] := by
  revert c; decide +kernel

/-- butterfly 1, the quarter sent at stage 1. -/
theorem off3_b (c : Dev nD) : k0_off3 c 384#32 4#32 3#32 0#32 96#32 = ![(if hi 2 c then 576 else 384) + (if hi 1 c then 0 else 96), 0] := by
  revert c; decide +kernel

/-- butterfly 0, the quarter kept at stage 1 (exchanged whole at stage 2). -/
theorem off3_c (c : Dev nD) : k0_off3 c 0#32 3#32 1#32 96#32 0#32 = ![(if hi 1 c then 192 else 0) + (if hi 0 c then 96 else 0), 0] := by
  revert c; decide +kernel

/-- butterfly 1, the quarter kept at stage 1. -/
theorem off3_d (c : Dev nD) : k0_off3 c 384#32 4#32 3#32 96#32 0#32 = ![(if hi 2 c then 576 else 384) + (if hi 1 c then 96 else 0), 0] := by
  revert c; decide +kernel

/-- butterfly 2, the quarter sent at stage 1. -/
theorem off4_a (c : Dev nD) : k0_off4 c 0#32 64#32 = ![(if hi 0 c then 896 else 768) + (if hi 2 c then 0 else 64), 0] := by
  revert c; decide +kernel

/-- butterfly 2, the quarter kept at stage 1. -/
theorem off4_b (c : Dev nD) : k0_off4 c 64#32 0#32 = ![(if hi 0 c then 896 else 768) + (if hi 2 c then 64 else 0), 0] := by
  revert c; decide +kernel

/-- butterfly 0, the kept quarter, as the all-gather stage 1 slice. -/
theorem off5_a (c : Dev nD) : k0_off5 c 0#32 3#32 1#32 = ![(if hi 1 c then 192 else 0) + (if hi 0 c then 96 else 0), 0] := by
  revert c; decide +kernel

/-- butterfly 1, the kept quarter, as the all-gather stage 1 slice. -/
theorem off5_b (c : Dev nD) : k0_off5 c 384#32 4#32 3#32 = ![(if hi 2 c then 576 else 384) + (if hi 1 c then 96 else 0), 0] := by
  revert c; decide +kernel

/-- butterfly 2, the kept quarter, as the all-gather stage 1 slice. -/
theorem off6 (c : Dev nD) : k0_off6 c = ![(if hi 0 c then 896 else 768) + (if hi 2 c then 64 else 0), 0] := by
  revert c; decide +kernel

/-- butterfly 0, the half kept at stage 0, as the all-gather stage 0 slice. -/
theorem off7_a (c : Dev nD) : k0_off7 c 0#32 3#32 1#32 = ![if hi 1 c then 192 else 0, 0] := by
  revert c; decide +kernel

/-- butterfly 1, the half kept at stage 0, as the all-gather stage 0 slice. -/
theorem off7_b (c : Dev nD) : k0_off7 c 384#32 4#32 3#32 = ![if hi 2 c then 576 else 384, 0] := by
  revert c; decide +kernel

/-- butterfly 2, the half kept at stage 0, as the all-gather stage 0 slice. -/
theorem off8 (c : Dev nD) : k0_off8 c = ![if hi 0 c then 896 else 768, 0] := by
  revert c; decide +kernel

/-- butterfly 0, the half kept at stage 0, read back after the all-gather. -/
theorem off9_a (c : Dev nD) : k0_off9 c 0#32 3#32 1#32 = ![if hi 1 c then 192 else 0, 0] := by
  revert c; decide +kernel

/-- butterfly 1, the half kept at stage 0, read back after the all-gather. -/
theorem off9_b (c : Dev nD) : k0_off9 c 384#32 4#32 3#32 = ![if hi 2 c then 576 else 384, 0] := by
  revert c; decide +kernel

/-- butterfly 2, the half kept at stage 0, read back after the all-gather. -/
theorem off10 (c : Dev nD) : k0_off10 c = ![if hi 0 c then 896 else 768, 0] := by
  revert c; decide +kernel

/-- butterfly 0, the other half, received at all-gather stage 0. -/
theorem off11_a (c : Dev nD) : k0_off11 c 0#32 3#32 1#32 = ![if hi 1 c then 0 else 192, 0] := by
  revert c; decide +kernel

/-- butterfly 1, the other half, received at all-gather stage 0. -/
theorem off11_b (c : Dev nD) : k0_off11 c 384#32 4#32 3#32 = ![if hi 2 c then 384 else 576, 0] := by
  revert c; decide +kernel

/-- butterfly 2, the other half, received at all-gather stage 0. -/
theorem off12 (c : Dev nD) : k0_off12 c = ![if hi 0 c then 768 else 896, 0] := by
  revert c; decide +kernel

end Cert.KernelIdeal.Mesh
-- ==== Proof.Vals.lean ====
/-
  The all-reduce's protocol as a schedule of rounds: every cell has one round; a device's barrier cell has four duties
  of one unit (one per partner c xor 1, 2, 3, 4); each of the fifteen send cells and fifteen receive cells one duty of
  its block's credit. Values are stated row by row: S0 is a device's own partial product, S1, S2, S3 the sums after
  the three exchange stages of a butterfly.
-/
import proofs.«900524_g7700000000000525_dist_gated_mlp_tp_i_m1024_h2048_d1024_v7x_i8_f32_1_alg».proof.Defs
import proofs.«900524_g7700000000000525_dist_gated_mlp_tp_i_m1024_h2048_d1024_v7x_i8_f32_1_alg».proof.Proof.Gen.KernelIdeal
import proofs.«900524_g7700000000000525_dist_gated_mlp_tp_i_m1024_h2048_d1024_v7x_i8_f32_1_alg».proof.Proof.Gen.KernelIdeal.Skeleton
import proofs.«900524_g7700000000000525_dist_gated_mlp_tp_i_m1024_h2048_d1024_v7x_i8_f32_1_alg».proof.Proof.Gen.KernelIdeal.Launch
import proofs.«900524_g7700000000000525_dist_gated_mlp_tp_i_m1024_h2048_d1024_v7x_i8_f32_1_alg».proof.Proof.Gen.KernelIdeal.Points
import proofs.«900524_g7700000000000525_dist_gated_mlp_tp_i_m1024_h2048_d1024_v7x_i8_f32_1_alg».proof.Proof.Mesh
import Idealize.ShloMosaic.Lib.Pipeline.Launch
import Idealize.ShloMosaic.Lib.Pipeline.Kit
import Idealize.ShloMosaic.Lib.ValueIdx
import Idealize.ShloMosaic.Lib.Tactic

noncomputable section

namespace Cert.KernelIdeal.Sched

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties Fin 4) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners -/

/-! ## Buffers -/

abbrev xM : Memref sig .tc .vmem S1024x1024 .f32 := Memref.whole cc0_stg0_0
abbrev gM : Memref sig .tc .vmem S1024x2048 .f32 := Memref.whole cc0_stg1_0
abbrev uM : Memref sig .tc .vmem S1024x2048 .f32 := Memref.whole cc0_stg2_0
abbrev dM : Memref sig .tc .vmem S2048x1024 .f32 := Memref.whole cc0_stg3_0
abbrev oM : Memref sig .tc .vmem S1024x1024 .f32 := Memref.whole cc0_stg4_0
/-- the send staging buffer, the receive buffer, the gather buffer -/
abbrev sM : Memref sig .tc .vmem S3x384x1024 .bf16 := Memref.whole cc0_scratch0
abbrev rM : Memref sig .tc .vmem S3x384x1024 .bf16 := Memref.whole cc0_scratch1
abbrev aM : Memref sig .tc .vmem S1024x1024 .bf16 := Memref.whole cc0_scratch2

abbrev barS : Sem sig := (SemArray.scalar (sig.barrier 0 rfl) : Sems sig S_).sem

/-- The DMA semaphore of a 3×3 semaphore array at (b, k). -/
abbrev semAt (A : DmaSems sig S3x3) (b k : ℕ) (h : ∀ a, (![b, k] : Fin 2 → Nat) a + S1x1.size a ≤ S3x3.size a) : DmaSem sig :=
  ((A.slice (Rect.unit (s := S3x3) ![b, k] S1x1.size h)).squeeze S_ squeezes_S1x1_S_).sem

/-! ## What each device starts from: its blocks of the four inputs, as staged -/

variable (m : (ℓ : Loc nD τ sig) → Buf (Elt F) ℓ)

def xIn (c : Dev nD) : (cc0_stg0_0 : Ref sig .tc).ty.Contents (Elt F) :=
  (win0_0.blk (0 : Fin 1)).view.read (Elt F) (m ((c : Thread nD τ).loc main_arg0))
def gIn (c : Dev nD) : (cc0_stg1_0 : Ref sig .tc).ty.Contents (Elt F) :=
  (win0_1.blk (0 : Fin 1)).view.read (Elt F) (m ((c : Thread nD τ).loc main_arg1))
def uIn (c : Dev nD) : (cc0_stg2_0 : Ref sig .tc).ty.Contents (Elt F) :=
  (win0_2.blk (0 : Fin 1)).view.read (Elt F) (m ((c : Thread nD τ).loc main_arg2))
def dIn (c : Dev nD) : (cc0_stg3_0 : Ref sig .tc).ty.Contents (Elt F) :=
  (win0_3.blk (0 : Fin 1)).view.read (Elt F) (m ((c : Thread nD τ).loc main_arg3))

/-- Rows [o 0, o 0 + 192) of x, as a load reads them. -/
def xRows192 (c : Dev nD) (o : Fin 2 → Nat) (h : ∀ a, o a + S192x1024.size a ≤ S1024x1024.size a) : Vec F S192x1024 .f32 :=
  (xM : Memref sig .tc .vmem S1024x1024 .f32).view.readAt (Elt F) (Rect.unit (s := S1024x1024) o S192x1024.size h).toLoadRect (xIn m c)
def xRows128 (c : Dev nD) (o : Fin 2 → Nat) (h : ∀ a, o a + S128x1024.size a ≤ S1024x1024.size a) : Vec F S128x1024 .f32 :=
  (xM : Memref sig .tc .vmem S1024x1024 .f32).view.readAt (Elt F) (Rect.unit (s := S1024x1024) o S128x1024.size h).toLoadRect (xIn m c)

/-! ## The six tiles of a device's partial product, as the body's payloads compute them -/

/-- butterfly 0: the half sent at stage 0, the half kept -/
def tS0 (c : Dev nD) : FVec F S192x1024 .f32 := k0_pay1 (xRows192 m c (k0_off1 c 0#32 3#32 0#32 192#32) (k0_off1_inb c 0)) (gIn m c) (uIn m c) (dIn m c)
def tK0 (c : Dev nD) : FVec F S192x1024 .f32 := k0_pay10 (xRows192 m c (k0_off1 c 0#32 3#32 192#32 0#32) (k0_off1_inb c 2)) (gIn m c) (uIn m c) (dIn m c)
/-- butterfly 1 -/
def tS1 (c : Dev nD) : FVec F S192x1024 .f32 := k0_pay3 (xRows192 m c (k0_off1 c 384#32 4#32 0#32 192#32) (k0_off1_inb c 1)) (gIn m c) (uIn m c) (dIn m c)
def tK1 (c : Dev nD) : FVec F S192x1024 .f32 := k0_pay11 (xRows192 m c (k0_off1 c 384#32 4#32 192#32 0#32) (k0_off1_inb c 3)) (gIn m c) (uIn m c) (dIn m c)
/-- butterfly 2 -/
def tS2 (c : Dev nD) : FVec F S128x1024 .f32 :=
  k0_pay8 (k0_pay5 (xRows128 m c (k0_off2 c 0#32 128#32) (k0_off2_inb c 0))) (k0_pay6 (xRows128 m c (k0_off2 c 0#32 128#32) (k0_off2_inb c 0)) (gIn m c))
    (k0_pay7 (uIn m c)) (constant S128x2048 .f32 0x00000000#32) (dIn m c)
def tK2 (c : Dev nD) : FVec F S128x1024 .f32 :=
  k0_pay13 (k0_pay12 (xRows128 m c (k0_off2 c 128#32 0#32) (k0_off2_inb c 1))) (gIn m c) (uIn m c) (dIn m c)

/-! ## Values row by row -/

/-- An entry of a 192-row tile at a row and column given as naturals (reduced into range: total, no side proof). -/
def at192 (v : FVec F S192x1024 .f32) (r q : ℕ) : F .f32 := v (ix2 ⟨r % 192, Nat.mod_lt _ (by decide)⟩ ⟨q % 1024, Nat.mod_lt _ (by decide)⟩)
def at128 (v : FVec F S128x1024 .f32) (r q : ℕ) : F .f32 := v (ix2 ⟨r % 128, Nat.mod_lt _ (by decide)⟩ ⟨q % 1024, Nat.mod_lt _ (by decide)⟩)

/-- The three butterflies' masks by stage, the first row and the half-height of each. -/
def mask : Fin 3 → Fin 3 → ℕ := ![![3, 1, 4], ![4, 3, 1], ![1, 4, 2]]

/-- Device c's own partial product at (row, col), for a row of butterfly b's range: read off the tile that holds the row. -/
def S0 (b : Fin 3) (c : Dev nD) (row q : ℕ) : F .f32 :=
  match b with
  | 0 => if (k0_off1 c 0#32 3#32 0#32 192#32) 0 ≤ row ∧ row < (k0_off1 c 0#32 3#32 0#32 192#32) 0 + 192
         then at192 (tS0 m c) (row - (k0_off1 c 0#32 3#32 0#32 192#32) 0) q else at192 (tK0 m c) (row - (k0_off1 c 0#32 3#32 192#32 0#32) 0) q
  | 1 => if (k0_off1 c 384#32 4#32 0#32 192#32) 0 ≤ row ∧ row < (k0_off1 c 384#32 4#32 0#32 192#32) 0 + 192
         then at192 (tS1 m c) (row - (k0_off1 c 384#32 4#32 0#32 192#32) 0) q else at192 (tK1 m c) (row - (k0_off1 c 384#32 4#32 192#32 0#32) 0) q
  | 2 => if (k0_off2 c 0#32 128#32) 0 ≤ row ∧ row < (k0_off2 c 0#32 128#32) 0 + 128
         then at128 (tS2 m c) (row - (k0_off2 c 0#32 128#32) 0) q else at128 (tK2 m c) (row - (k0_off2 c 128#32 0#32) 0) q

/-- What a value becomes when it crosses the wire: narrowed to bf16 and widened again. -/
def wire (e : F .f32) : F .f32 := FloatOps.extf .f32 bitsLt_bf16_f32 (FloatOps.truncf .bf16 bitsLt_bf16_f32 e)

/-- The sums after one, two and three exchange stages of butterfly b on device c (own value plus the partner's over the wire). -/
def S1 (b : Fin 3) (c : Dev nD) (row q : ℕ) : F .f32 := FloatOps.addf (S0 m b c row q) (wire (S0 m b (Mesh.px (mask b 0) c) row q))
def S2 (b : Fin 3) (c : Dev nD) (row q : ℕ) : F .f32 := FloatOps.addf (S1 m b c row q) (wire (S1 m b (Mesh.px (mask b 1) c) row q))
def S3 (b : Fin 3) (c : Dev nD) (row q : ℕ) : F .f32 := FloatOps.addf (S2 m b c row q) (wire (S2 m b (Mesh.px (mask b 2) c) row q))

end Cert.KernelIdeal.Sched

end
-- ==== Proof.Algebra.lean ====
import Mathlib.Data.EReal.Inv
import Mathlib.Algebra.BigOperators.Fin
import Mathlib.Data.Fintype.BigOperators
import Mathlib.Logic.Equiv.Fin.Basic
import Mathlib.Tactic.Abel
import Mathlib.Tactic.FinCases
import Idealize.ShloMosaic.PureOps.Ideal

/-!
  The algebra of the gated MLP over the extended reals, with no program in sight.

  * `silu_eq`: for a real `u`, `u · σ(u) = u / (1 + e^{-u})` where `σ(u) = 1 / (1 + e^{-u})`:
    the denominator is a positive real, so division by it is multiplication by its reciprocal.
  * `sum_mul_coe`: a finite sum of products of reals is a real, so that a row of a matrix
    product of finite matrices is finite.
  * `block_sum`: a sum over `16384 = 8 · 2048` indices is the sum over 8 blocks of the sums over
    the 2048 indices of each block.
  * `bfly0_total`, `bfly1_total`, `bfly2_total`: three rounds of pairwise exchange, round `r`
    pairing index `c` with `c xor m_r`, leave at EVERY index the sum of all eight values, whenever
    the three masks span the three bits; here for the mask triples (3,1,4), (4,3,1), (1,4,2).
-/

namespace Cert.Algebra

open Idealize.ShloMosaic
open scoped BigOperators

/-! ### The gate: multiplying by the logistic is dividing by `1 + e^{-u}` -/

/-- For a real `u` the denominator `1 + e^{-u}` is a positive real, hence nonzero and finite, and
    dividing by it is multiplying by its reciprocal, which is the logistic of `u`. -/
theorem silu_eq (u : ℝ) :
    (u : EReal) * Ideal.logistic (u : EReal)
      = Ideal.div (u : EReal) (1 + Ideal.exp (-(u : EReal))) := by
  have h : (1 : EReal) + Ideal.exp (-(u : EReal)) = ((1 + Real.exp (-u) : ℝ) : EReal) := by
    rw [← EReal.coe_neg, Ideal.exp_coe, ← EReal.coe_one, ← EReal.coe_add]
  have hne : (1 + Real.exp (-u) : ℝ) ≠ 0 := by positivity
  rw [h, Ideal.div_coe hne, Ideal.logistic_coe, one_div]

/-- The gate inside a product: any left factor `g` and right factor `w`. -/
theorem gate_eq (g w : EReal) (u : ℝ) :
    (g * ((u : EReal) * Ideal.logistic (u : EReal))) * w
      = (g * Ideal.div (u : EReal) (1 + Ideal.exp (-(u : EReal)))) * w := by
  rw [silu_eq]

/-- The same for an extended real known to be a real. -/
theorem gate_eq_of_coe (g w u : EReal) (hu : ∃ r : ℝ, u = (r : EReal)) :
    (g * (u * Ideal.logistic u)) * w = (g * Ideal.div u (1 + Ideal.exp (-u))) * w := by
  obtain ⟨r, rfl⟩ := hu
  exact gate_eq g w r

/-! ### Finite sums of reals are real -/

/-- An extended real that is neither infinity is a real. -/
theorem exists_coe_of_ne {x : EReal} (hb : x ≠ ⊥) (ht : x ≠ ⊤) : ∃ r : ℝ, x = (r : EReal) :=
  ⟨x.toReal, (EReal.coe_toReal ht hb).symm⟩

/-- The coercion of the reals into the extended reals commutes with finite sums. -/
theorem sum_coe {ι : Type*} (s : Finset ι) (f : ι → ℝ) :
    ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- A finite sum of products of reals is a real. -/
theorem sum_mul_coe {ι : Type*} [Fintype ι] (a b : ι → EReal)
    (ha : ∀ j, ∃ r : ℝ, a j = (r : EReal)) (hb : ∀ j, ∃ r : ℝ, b j = (r : EReal)) :
    ∃ r : ℝ, ∑ j, a j * b j = (r : EReal) := by
  choose fa hfa using ha
  choose fb hfb using hb
  refine ⟨∑ j, fa j * fb j, ?_⟩
  rw [← sum_coe]
  exact Finset.sum_congr rfl fun j _ => by rw [hfa, hfb, EReal.coe_mul]

/-! ### A sum over `8 · 2048` indices, block by block -/

/-- Every `k < 16384` is `d · 2048 + k'` for exactly one `d < 8`, `k' < 2048`. -/
theorem block_sum (a : Fin 16384 → EReal) :
    ∑ k : Fin 16384, a k
      = ∑ d : Fin 8, ∑ k : Fin 2048, a ⟨d.val * 2048 + k.val, by omega⟩ := by
  rw [← Fintype.sum_prod_type'
    (fun (d : Fin 8) (k : Fin 2048) => a ⟨d.val * 2048 + k.val, by omega⟩)]
  refine (Fintype.sum_equiv (finProdFinEquiv : Fin 8 × Fin 2048 ≃ Fin (8 * 2048)) _ _ ?_).symm
  rintro ⟨d, k⟩
  refine congrArg a (Fin.ext ?_)
  simp only [finProdFinEquiv_apply_val]
  omega

/-! ### Three rounds of pairwise exchange sum all eight values -/

/-- The partner of index `c` under the mask `m`: `c xor m`, kept below 8. -/
def px (m : ℕ) (c : Fin 8) : Fin 8 := ⟨(c.val ^^^ m) % 8, Nat.mod_lt _ (by decide)⟩

/-- Masks 3, 1, 4: from each of the eight starting indices the eight indices reached by the subsets of the masks are all of `0, …, 7`, each once. -/
theorem bfly0_expand {M : Type*} [AddCommMonoid M] (P : Fin 8 → M) :
    ∀ c : Fin 8,
      (P c + P (px 3 c) + (P (px 1 c) + P (px 3 (px 1 c))))
        + (P (px 4 c) + P (px 3 (px 4 c))
            + (P (px 1 (px 4 c)) + P (px 3 (px 1 (px 4 c)))))
        = ∑ d, P d := by
  intro c
  fin_cases c <;>
    simp only [px, Nat.reduceXor, Nat.reduceMod] <;>
    simp only [Fin.reduceFinMk, Fin.sum_univ_eight] <;>
    abel

/-- The same identity with the two intermediate stages named: `S1` pairs each index with its
    partner under the first mask, `S2` pairs the `S1`'s under the second, and the last stage pairs
    the `S2`'s under the third. -/
theorem bfly0_total {M : Type*} [AddCommMonoid M] (P : Fin 8 → M) (c : Fin 8) :
    let S1 := fun c => P c + P (px 3 c)
    let S2 := fun c => S1 c + S1 (px 1 c)
    S2 c + S2 (px 4 c) = ∑ d, P d :=
  bfly0_expand P c

/-- Masks 4, 3, 1. -/
theorem bfly1_expand {M : Type*} [AddCommMonoid M] (P : Fin 8 → M) :
    ∀ c : Fin 8,
      (P c + P (px 4 c) + (P (px 3 c) + P (px 4 (px 3 c))))
        + (P (px 1 c) + P (px 4 (px 1 c))
            + (P (px 3 (px 1 c)) + P (px 4 (px 3 (px 1 c)))))
        = ∑ d, P d := by
  intro c
  fin_cases c <;>
    simp only [px, Nat.reduceXor, Nat.reduceMod] <;>
    simp only [Fin.reduceFinMk, Fin.sum_univ_eight] <;>
    abel

/-- The same identity with the two intermediate stages named: `S1` pairs each index with its
    partner under the first mask, `S2` pairs the `S1`'s under the second, and the last stage pairs
    the `S2`'s under the third. -/
theorem bfly1_total {M : Type*} [AddCommMonoid M] (P : Fin 8 → M) (c : Fin 8) :
    let S1 := fun c => P c + P (px 4 c)
    let S2 := fun c => S1 c + S1 (px 3 c)
    S2 c + S2 (px 1 c) = ∑ d, P d :=
  bfly1_expand P c

/-- Masks 1, 4, 2. -/
theorem bfly2_expand {M : Type*} [AddCommMonoid M] (P : Fin 8 → M) :
    ∀ c : Fin 8,
      (P c + P (px 1 c) + (P (px 4 c) + P (px 1 (px 4 c))))
        + (P (px 2 c) + P (px 1 (px 2 c))
            + (P (px 4 (px 2 c)) + P (px 1 (px 4 (px 2 c)))))
        = ∑ d, P d := by
  intro c
  fin_cases c <;>
    simp only [px, Nat.reduceXor, Nat.reduceMod] <;>
    simp only [Fin.reduceFinMk, Fin.sum_univ_eight] <;>
    abel

/-- The same identity with the two intermediate stages named: `S1` pairs each index with its
    partner under the first mask, `S2` pairs the `S1`'s under the second, and the last stage pairs
    the `S2`'s under the third. -/
theorem bfly2_total {M : Type*} [AddCommMonoid M] (P : Fin 8 → M) (c : Fin 8) :
    let S1 := fun c => P c + P (px 1 c)
    let S2 := fun c => S1 c + S1 (px 4 c)
    S2 c + S2 (px 2 c) = ∑ d, P d :=
  bfly2_expand P c

end Cert.Algebra
-- ==== Proof.Rows.lean ====
import proofs.«900524_g7700000000000525_dist_gated_mlp_tp_i_m1024_h2048_d1024_v7x_i8_f32_1_alg».proof.Proof.Mesh

/-! # Rows: who holds which rows

Pure facts about the row offsets of the protocol, relating a device `c` to its partner `px m c`.
A reduce-scatter stage exchanges complementary halves (quarters): what the partner sends is what I
keep.  An all-gather stage sends back what was kept: what the partner sends is what I sent away at
the matching reduce-scatter stage.  The last section records that the pieces tile their range.
All statements are decided over the eight devices. -/

set_option Elab.async false

namespace Cert.KernelIdeal.Rows

open Idealize.ShloMosaic Idealize.SL.Sem
open Cert.KernelIdeal Cert.KernelIdeal.Gen Cert.KernelIdeal.Mesh

/-! ## Reduce-scatter: what the partner sends is what I keep -/

/-- Butterfly 0, stage 0 (mask 3): the half the partner sends is the half I keep. -/
theorem rs0_b0 (c : Dev nD) :
    k0_off1 (px 3 c) 0#32 3#32 0#32 192#32 = k0_off1 c 0#32 3#32 192#32 0#32 := by
  revert c; decide +kernel

/-- Butterfly 0, stage 0: the half I send is the half the partner keeps. -/
theorem rs0_b0' (c : Dev nD) :
    k0_off1 c 0#32 3#32 0#32 192#32 = k0_off1 (px 3 c) 0#32 3#32 192#32 0#32 := by
  revert c; decide +kernel

/-- Butterfly 1, stage 0 (mask 4): the half the partner sends is the half I keep. -/
theorem rs0_b1 (c : Dev nD) :
    k0_off1 (px 4 c) 384#32 4#32 0#32 192#32 = k0_off1 c 384#32 4#32 192#32 0#32 := by
  revert c; decide +kernel

/-- Butterfly 1, stage 0: the half I send is the half the partner keeps. -/
theorem rs0_b1' (c : Dev nD) :
    k0_off1 c 384#32 4#32 0#32 192#32 = k0_off1 (px 4 c) 384#32 4#32 192#32 0#32 := by
  revert c; decide +kernel

/-- Butterfly 2, stage 0 (mask 1): the half the partner sends is the half I keep. -/
theorem rs0_b2 (c : Dev nD) :
    k0_off2 (px 1 c) 0#32 128#32 = k0_off2 c 128#32 0#32 := by
  revert c; decide +kernel

/-- Butterfly 2, stage 0: the half I send is the half the partner keeps. -/
theorem rs0_b2' (c : Dev nD) :
    k0_off2 c 0#32 128#32 = k0_off2 (px 1 c) 128#32 0#32 := by
  revert c; decide +kernel

/-- Butterfly 0, stage 1 (mask 1): the quarter the partner sends is the quarter I keep. -/
theorem rs1_b0 (c : Dev nD) :
    k0_off3 (px 1 c) 0#32 3#32 1#32 0#32 96#32 = k0_off3 c 0#32 3#32 1#32 96#32 0#32 := by
  revert c; decide +kernel

/-- Butterfly 0, stage 1: the quarter I send is the quarter the partner keeps. -/
theorem rs1_b0' (c : Dev nD) :
    k0_off3 c 0#32 3#32 1#32 0#32 96#32 = k0_off3 (px 1 c) 0#32 3#32 1#32 96#32 0#32 := by
  revert c; decide +kernel

/-- Butterfly 1, stage 1 (mask 3): the quarter the partner sends is the quarter I keep. -/
theorem rs1_b1 (c : Dev nD) :
    k0_off3 (px 3 c) 384#32 4#32 3#32 0#32 96#32 = k0_off3 c 384#32 4#32 3#32 96#32 0#32 := by
  revert c; decide +kernel

/-- Butterfly 1, stage 1: the quarter I send is the quarter the partner keeps. -/
theorem rs1_b1' (c : Dev nD) :
    k0_off3 c 384#32 4#32 3#32 0#32 96#32 = k0_off3 (px 3 c) 384#32 4#32 3#32 96#32 0#32 := by
  revert c; decide +kernel

/-- Butterfly 2, stage 1 (mask 4): the quarter the partner sends is the quarter I keep. -/
theorem rs1_b2 (c : Dev nD) :
    k0_off4 (px 4 c) 0#32 64#32 = k0_off4 c 64#32 0#32 := by
  revert c; decide +kernel

/-- Butterfly 2, stage 1: the quarter I send is the quarter the partner keeps. -/
theorem rs1_b2' (c : Dev nD) :
    k0_off4 c 0#32 64#32 = k0_off4 (px 4 c) 64#32 0#32 := by
  revert c; decide +kernel

/-- Butterfly 0, stage 2 (mask 4): the partner holds the same quarter as I do. -/
theorem rs2_b0 (c : Dev nD) :
    k0_off3 (px 4 c) 0#32 3#32 1#32 96#32 0#32 = k0_off3 c 0#32 3#32 1#32 96#32 0#32 := by
  revert c; decide +kernel

/-- Butterfly 1, stage 2 (mask 1): the partner holds the same quarter as I do. -/
theorem rs2_b1 (c : Dev nD) :
    k0_off3 (px 1 c) 384#32 4#32 3#32 96#32 0#32 = k0_off3 c 384#32 4#32 3#32 96#32 0#32 := by
  revert c; decide +kernel

/-- Butterfly 2, stage 2 (mask 2): the partner holds the same quarter as I do. -/
theorem rs2_b2 (c : Dev nD) :
    k0_off4 (px 2 c) 64#32 0#32 = k0_off4 c 64#32 0#32 := by
  revert c; decide +kernel

/-! ## All-gather, stage 1: quarters -/

/-- Butterfly 0: the slice I send is my kept quarter. -/
theorem ag1_own_b0 (c : Dev nD) :
    k0_off5 c 0#32 3#32 1#32 = k0_off3 c 0#32 3#32 1#32 96#32 0#32 := by
  revert c; decide +kernel

/-- Butterfly 0 (mask 1): the slice the partner sends is the quarter I sent away at stage 1. -/
theorem ag1_px_b0 (c : Dev nD) :
    k0_off5 (px 1 c) 0#32 3#32 1#32 = k0_off3 c 0#32 3#32 1#32 0#32 96#32 := by
  revert c; decide +kernel

/-- Butterfly 1: the slice I send is my kept quarter. -/
theorem ag1_own_b1 (c : Dev nD) :
    k0_off5 c 384#32 4#32 3#32 = k0_off3 c 384#32 4#32 3#32 96#32 0#32 := by
  revert c; decide +kernel

/-- Butterfly 1 (mask 3): the slice the partner sends is the quarter I sent away at stage 1. -/
theorem ag1_px_b1 (c : Dev nD) :
    k0_off5 (px 3 c) 384#32 4#32 3#32 = k0_off3 c 384#32 4#32 3#32 0#32 96#32 := by
  revert c; decide +kernel

/-- Butterfly 2: the slice I send is my kept quarter. -/
theorem ag1_own_b2 (c : Dev nD) :
    k0_off6 c = k0_off4 c 64#32 0#32 := by
  revert c; decide +kernel

/-- Butterfly 2 (mask 4): the slice the partner sends is the quarter I sent away at stage 1. -/
theorem ag1_px_b2 (c : Dev nD) :
    k0_off6 (px 4 c) = k0_off4 c 0#32 64#32 := by
  revert c; decide +kernel

/-- Butterfly 0: the partner's quarter, in my bits. -/
theorem off5_a_px1 (c : Dev nD) :
    k0_off5 (px 1 c) 0#32 3#32 1#32 = ![(if hi 1 c then 192 else 0) + (if hi 0 c then 0 else 96), 0] := by
  revert c; decide +kernel

/-- Butterfly 1: the partner's quarter, in my bits. -/
theorem off5_b_px3 (c : Dev nD) :
    k0_off5 (px 3 c) 384#32 4#32 3#32 = ![(if hi 2 c then 576 else 384) + (if hi 1 c then 0 else 96), 0] := by
  revert c; decide +kernel

/-- Butterfly 2: the partner's quarter, in my bits. -/
theorem off6_px4 (c : Dev nD) :
    k0_off6 (px 4 c) = ![(if hi 0 c then 896 else 768) + (if hi 2 c then 0 else 64), 0] := by
  revert c; decide +kernel

/-! ## All-gather, stage 0: halves -/

/-- Butterfly 0: the slice I send is the half I kept at stage 0. -/
theorem ag0_own_b0 (c : Dev nD) :
    k0_off7 c 0#32 3#32 1#32 = k0_off1 c 0#32 3#32 192#32 0#32 := by
  revert c; decide +kernel

/-- Butterfly 0: the rows read back are the same half. -/
theorem ag0_read_b0 (c : Dev nD) :
    k0_off9 c 0#32 3#32 1#32 = k0_off7 c 0#32 3#32 1#32 := by
  revert c; decide +kernel

/-- Butterfly 0 (mask 3): the half received is the one the partner sends. -/
theorem ag0_recv_b0 (c : Dev nD) :
    k0_off11 c 0#32 3#32 1#32 = k0_off7 (px 3 c) 0#32 3#32 1#32 := by
  revert c; decide +kernel

/-- Butterfly 0: the half received is the half I sent away at stage 0. -/
theorem ag0_recv_b0' (c : Dev nD) :
    k0_off11 c 0#32 3#32 1#32 = k0_off1 c 0#32 3#32 0#32 192#32 := by
  revert c; decide +kernel

/-- Butterfly 0: the partner's half is the half I sent away at stage 0. -/
theorem ag0_px_b0 (c : Dev nD) :
    k0_off7 (px 3 c) 0#32 3#32 1#32 = k0_off1 c 0#32 3#32 0#32 192#32 := by
  revert c; decide +kernel

/-- Butterfly 1: the slice I send is the half I kept at stage 0. -/
theorem ag0_own_b1 (c : Dev nD) :
    k0_off7 c 384#32 4#32 3#32 = k0_off1 c 384#32 4#32 192#32 0#32 := by
  revert c; decide +kernel

/-- Butterfly 1: the rows read back are the same half. -/
theorem ag0_read_b1 (c : Dev nD) :
    k0_off9 c 384#32 4#32 3#32 = k0_off7 c 384#32 4#32 3#32 := by
  revert c; decide +kernel

/-- Butterfly 1 (mask 4): the half received is the one the partner sends. -/
theorem ag0_recv_b1 (c : Dev nD) :
    k0_off11 c 384#32 4#32 3#32 = k0_off7 (px 4 c) 384#32 4#32 3#32 := by
  revert c; decide +kernel

/-- Butterfly 1: the half received is the half I sent away at stage 0. -/
theorem ag0_recv_b1' (c : Dev nD) :
    k0_off11 c 384#32 4#32 3#32 = k0_off1 c 384#32 4#32 0#32 192#32 := by
  revert c; decide +kernel

/-- Butterfly 1: the partner's half is the half I sent away at stage 0. -/
theorem ag0_px_b1 (c : Dev nD) :
    k0_off7 (px 4 c) 384#32 4#32 3#32 = k0_off1 c 384#32 4#32 0#32 192#32 := by
  revert c; decide +kernel

/-- Butterfly 2: the slice I send is the half I kept at stage 0. -/
theorem ag0_own_b2 (c : Dev nD) :
    k0_off8 c = k0_off2 c 128#32 0#32 := by
  revert c; decide +kernel

/-- Butterfly 2: the rows read back are the same half. -/
theorem ag0_read_b2 (c : Dev nD) :
    k0_off10 c = k0_off8 c := by
  revert c; decide +kernel

/-- Butterfly 2 (mask 1): the half received is the one the partner sends. -/
theorem ag0_recv_b2 (c : Dev nD) :
    k0_off12 c = k0_off8 (px 1 c) := by
  revert c; decide +kernel

/-- Butterfly 2: the half received is the half I sent away at stage 0. -/
theorem ag0_recv_b2' (c : Dev nD) :
    k0_off12 c = k0_off2 c 0#32 128#32 := by
  revert c; decide +kernel

/-- Butterfly 2: the partner's half is the half I sent away at stage 0. -/
theorem ag0_px_b2 (c : Dev nD) :
    k0_off8 (px 1 c) = k0_off2 c 0#32 128#32 := by
  revert c; decide +kernel

/-- Butterfly 0: the partner's half, in my bits. -/
theorem off7_a_px3 (c : Dev nD) :
    k0_off7 (px 3 c) 0#32 3#32 1#32 = ![if hi 1 c then 0 else 192, 0] := by
  revert c; decide +kernel

/-- Butterfly 1: the partner's half, in my bits. -/
theorem off7_b_px4 (c : Dev nD) :
    k0_off7 (px 4 c) 384#32 4#32 3#32 = ![if hi 2 c then 384 else 576, 0] := by
  revert c; decide +kernel

/-- Butterfly 2: the partner's half, in my bits. -/
theorem off8_px1 (c : Dev nD) :
    k0_off8 (px 1 c) = ![if hi 0 c then 768 else 896, 0] := by
  revert c; decide +kernel

/-! ## Tiling

Row bases as naturals (component 0).  For butterfly `b` with range `[R, R + B)`: the sent half `S₀` and
the kept half `K₀` (each `B/2` rows) tile the range; the sent quarter `S₁` and the kept quarter `K₁`
(each `B/4` rows) tile the kept half. -/

/-- Butterfly 0: the two halves are the two halves of `[0, 384)`, in one order or the other. -/
theorem half_cases_b0 (c : Dev nD) :
    ((k0_off1 c 0#32 3#32 0#32 192#32) 0 = 0 ∧ (k0_off1 c 0#32 3#32 192#32 0#32) 0 = 192) ∨
    ((k0_off1 c 0#32 3#32 0#32 192#32) 0 = 192 ∧ (k0_off1 c 0#32 3#32 192#32 0#32) 0 = 0) := by
  revert c; decide +kernel

/-- Butterfly 0: the two quarters are the two halves of the kept half. -/
theorem quarter_cases_b0 (c : Dev nD) :
    ((k0_off3 c 0#32 3#32 1#32 0#32 96#32) 0 = (k0_off1 c 0#32 3#32 192#32 0#32) 0 ∧ (k0_off3 c 0#32 3#32 1#32 96#32 0#32) 0 = (k0_off1 c 0#32 3#32 192#32 0#32) 0 + 96) ∨
    ((k0_off3 c 0#32 3#32 1#32 0#32 96#32) 0 = (k0_off1 c 0#32 3#32 192#32 0#32) 0 + 96 ∧ (k0_off3 c 0#32 3#32 1#32 96#32 0#32) 0 = (k0_off1 c 0#32 3#32 192#32 0#32) 0) := by
  revert c; decide +kernel

/-- Butterfly 0: both halves lie inside `[0, 384)`. -/
theorem half_range_b0 (c : Dev nD) :
    0 ≤ (k0_off1 c 0#32 3#32 0#32 192#32) 0 ∧ (k0_off1 c 0#32 3#32 0#32 192#32) 0 + 192 ≤ 384 ∧
    0 ≤ (k0_off1 c 0#32 3#32 192#32 0#32) 0 ∧ (k0_off1 c 0#32 3#32 192#32 0#32) 0 + 192 ≤ 384 := by
  revert c; decide +kernel

/-- Butterfly 0: the two halves are disjoint. -/
theorem half_disj_b0 (c : Dev nD) :
    (k0_off1 c 0#32 3#32 0#32 192#32) 0 + 192 ≤ (k0_off1 c 0#32 3#32 192#32 0#32) 0 ∨
    (k0_off1 c 0#32 3#32 192#32 0#32) 0 + 192 ≤ (k0_off1 c 0#32 3#32 0#32 192#32) 0 := by
  revert c; decide +kernel

/-- Butterfly 0: both quarters lie inside the kept half. -/
theorem quarter_range_b0 (c : Dev nD) :
    (k0_off1 c 0#32 3#32 192#32 0#32) 0 ≤ (k0_off3 c 0#32 3#32 1#32 0#32 96#32) 0 ∧ (k0_off3 c 0#32 3#32 1#32 0#32 96#32) 0 + 96 ≤ (k0_off1 c 0#32 3#32 192#32 0#32) 0 + 192 ∧
    (k0_off1 c 0#32 3#32 192#32 0#32) 0 ≤ (k0_off3 c 0#32 3#32 1#32 96#32 0#32) 0 ∧ (k0_off3 c 0#32 3#32 1#32 96#32 0#32) 0 + 96 ≤ (k0_off1 c 0#32 3#32 192#32 0#32) 0 + 192 := by
  revert c; decide +kernel

/-- Butterfly 0: the two quarters are disjoint. -/
theorem quarter_disj_b0 (c : Dev nD) :
    (k0_off3 c 0#32 3#32 1#32 0#32 96#32) 0 + 96 ≤ (k0_off3 c 0#32 3#32 1#32 96#32 0#32) 0 ∨
    (k0_off3 c 0#32 3#32 1#32 96#32 0#32) 0 + 96 ≤ (k0_off3 c 0#32 3#32 1#32 0#32 96#32) 0 := by
  revert c; decide +kernel

/-- Butterfly 1: the two halves are the two halves of `[384, 768)`, in one order or the other. -/
theorem half_cases_b1 (c : Dev nD) :
    ((k0_off1 c 384#32 4#32 0#32 192#32) 0 = 384 ∧ (k0_off1 c 384#32 4#32 192#32 0#32) 0 = 576) ∨
    ((k0_off1 c 384#32 4#32 0#32 192#32) 0 = 576 ∧ (k0_off1 c 384#32 4#32 192#32 0#32) 0 = 384) := by
  revert c; decide +kernel

/-- Butterfly 1: the two quarters are the two halves of the kept half. -/
theorem quarter_cases_b1 (c : Dev nD) :
    ((k0_off3 c 384#32 4#32 3#32 0#32 96#32) 0 = (k0_off1 c 384#32 4#32 192#32 0#32) 0 ∧ (k0_off3 c 384#32 4#32 3#32 96#32 0#32) 0 = (k0_off1 c 384#32 4#32 192#32 0#32) 0 + 96) ∨
    ((k0_off3 c 384#32 4#32 3#32 0#32 96#32) 0 = (k0_off1 c 384#32 4#32 192#32 0#32) 0 + 96 ∧ (k0_off3 c 384#32 4#32 3#32 96#32 0#32) 0 = (k0_off1 c 384#32 4#32 192#32 0#32) 0) := by
  revert c; decide +kernel

/-- Butterfly 1: both halves lie inside `[384, 768)`. -/
theorem half_range_b1 (c : Dev nD) :
    384 ≤ (k0_off1 c 384#32 4#32 0#32 192#32) 0 ∧ (k0_off1 c 384#32 4#32 0#32 192#32) 0 + 192 ≤ 768 ∧
    384 ≤ (k0_off1 c 384#32 4#32 192#32 0#32) 0 ∧ (k0_off1 c 384#32 4#32 192#32 0#32) 0 + 192 ≤ 768 := by
  revert c; decide +kernel

/-- Butterfly 1: the two halves are disjoint. -/
theorem half_disj_b1 (c : Dev nD) :
    (k0_off1 c 384#32 4#32 0#32 192#32) 0 + 192 ≤ (k0_off1 c 384#32 4#32 192#32 0#32) 0 ∨
    (k0_off1 c 384#32 4#32 192#32 0#32) 0 + 192 ≤ (k0_off1 c 384#32 4#32 0#32 192#32) 0 := by
  revert c; decide +kernel

/-- Butterfly 1: both quarters lie inside the kept half. -/
theorem quarter_range_b1 (c : Dev nD) :
    (k0_off1 c 384#32 4#32 192#32 0#32) 0 ≤ (k0_off3 c 384#32 4#32 3#32 0#32 96#32) 0 ∧ (k0_off3 c 384#32 4#32 3#32 0#32 96#32) 0 + 96 ≤ (k0_off1 c 384#32 4#32 192#32 0#32) 0 + 192 ∧
    (k0_off1 c 384#32 4#32 192#32 0#32) 0 ≤ (k0_off3 c 384#32 4#32 3#32 96#32 0#32) 0 ∧ (k0_off3 c 384#32 4#32 3#32 96#32 0#32) 0 + 96 ≤ (k0_off1 c 384#32 4#32 192#32 0#32) 0 + 192 := by
  revert c; decide +kernel

/-- Butterfly 1: the two quarters are disjoint. -/
theorem quarter_disj_b1 (c : Dev nD) :
    (k0_off3 c 384#32 4#32 3#32 0#32 96#32) 0 + 96 ≤ (k0_off3 c 384#32 4#32 3#32 96#32 0#32) 0 ∨
    (k0_off3 c 384#32 4#32 3#32 96#32 0#32) 0 + 96 ≤ (k0_off3 c 384#32 4#32 3#32 0#32 96#32) 0 := by
  revert c; decide +kernel

/-- Butterfly 2: the two halves are the two halves of `[768, 1024)`, in one order or the other. -/
theorem half_cases_b2 (c : Dev nD) :
    ((k0_off2 c 0#32 128#32) 0 = 768 ∧ (k0_off2 c 128#32 0#32) 0 = 896) ∨
    ((k0_off2 c 0#32 128#32) 0 = 896 ∧ (k0_off2 c 128#32 0#32) 0 = 768) := by
  revert c; decide +kernel

/-- Butterfly 2: the two quarters are the two halves of the kept half. -/
theorem quarter_cases_b2 (c : Dev nD) :
    ((k0_off4 c 0#32 64#32) 0 = (k0_off2 c 128#32 0#32) 0 ∧ (k0_off4 c 64#32 0#32) 0 = (k0_off2 c 128#32 0#32) 0 + 64) ∨
    ((k0_off4 c 0#32 64#32) 0 = (k0_off2 c 128#32 0#32) 0 + 64 ∧ (k0_off4 c 64#32 0#32) 0 = (k0_off2 c 128#32 0#32) 0) := by
  revert c; decide +kernel

/-- Butterfly 2: both halves lie inside `[768, 1024)`. -/
theorem half_range_b2 (c : Dev nD) :
    768 ≤ (k0_off2 c 0#32 128#32) 0 ∧ (k0_off2 c 0#32 128#32) 0 + 128 ≤ 1024 ∧
    768 ≤ (k0_off2 c 128#32 0#32) 0 ∧ (k0_off2 c 128#32 0#32) 0 + 128 ≤ 1024 := by
  revert c; decide +kernel

/-- Butterfly 2: the two halves are disjoint. -/
theorem half_disj_b2 (c : Dev nD) :
    (k0_off2 c 0#32 128#32) 0 + 128 ≤ (k0_off2 c 128#32 0#32) 0 ∨
    (k0_off2 c 128#32 0#32) 0 + 128 ≤ (k0_off2 c 0#32 128#32) 0 := by
  revert c; decide +kernel

/-- Butterfly 2: both quarters lie inside the kept half. -/
theorem quarter_range_b2 (c : Dev nD) :
    (k0_off2 c 128#32 0#32) 0 ≤ (k0_off4 c 0#32 64#32) 0 ∧ (k0_off4 c 0#32 64#32) 0 + 64 ≤ (k0_off2 c 128#32 0#32) 0 + 128 ∧
    (k0_off2 c 128#32 0#32) 0 ≤ (k0_off4 c 64#32 0#32) 0 ∧ (k0_off4 c 64#32 0#32) 0 + 64 ≤ (k0_off2 c 128#32 0#32) 0 + 128 := by
  revert c; decide +kernel

/-- Butterfly 2: the two quarters are disjoint. -/
theorem quarter_disj_b2 (c : Dev nD) :
    (k0_off4 c 0#32 64#32) 0 + 64 ≤ (k0_off4 c 64#32 0#32) 0 ∨
    (k0_off4 c 64#32 0#32) 0 + 64 ≤ (k0_off4 c 0#32 64#32) 0 := by
  revert c; decide +kernel

end Cert.KernelIdeal.Rows
-- ==== Proof.Sched.lean ====
/-
  The all-reduce's protocol as a schedule of rounds. Every cell has one round. A device's barrier cell has four duties of
  one unit, one per partner (c xor 1, 2, 3, 4): a partner's entry signal hands over the partner's receive slots and gather
  rows that c will write. Each send cell and each receive cell in use has one duty of its block's credit: an arrival hands
  the owner its slot holding the partner's sum of the stage before, narrowed for the wire; a departure hands back what
  was lent.
-/
import proofs.«900524_g7700000000000525_dist_gated_mlp_tp_i_m1024_h2048_d1024_v7x_i8_f32_1_alg».proof.Proof.Vals
import proofs.«900524_g7700000000000525_dist_gated_mlp_tp_i_m1024_h2048_d1024_v7x_i8_f32_1_alg».proof.Proof.Rows

noncomputable section

namespace Cert.KernelIdeal.Sched

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The slots of the send and receive buffers, and the gather buffer's rows a device sends -/

abbrev sSlot00 : Memref sig .tc .vmem S192x1024 .bf16 := (sM.slice (Rect.unit (s := S3x384x1024) ![0, 0, 0] S1x192x1024.size inb_S3x384x1024_S1x192x1024_0_0_0) (fun _ => rfl)).squeeze S192x1024 squeezes_S1x192x1024_S192x1024
abbrev rSlot00 : Memref sig .tc .vmem S192x1024 .bf16 := (rM.slice (Rect.unit (s := S3x384x1024) ![0, 0, 0] S1x192x1024.size inb_S3x384x1024_S1x192x1024_0_0_0) (fun _ => rfl)).squeeze S192x1024 squeezes_S1x192x1024_S192x1024
abbrev sSlot10 : Memref sig .tc .vmem S192x1024 .bf16 := (sM.slice (Rect.unit (s := S3x384x1024) ![1, 0, 0] S1x192x1024.size inb_S3x384x1024_S1x192x1024_1_0_0) (fun _ => rfl)).squeeze S192x1024 squeezes_S1x192x1024_S192x1024
abbrev rSlot10 : Memref sig .tc .vmem S192x1024 .bf16 := (rM.slice (Rect.unit (s := S3x384x1024) ![1, 0, 0] S1x192x1024.size inb_S3x384x1024_S1x192x1024_1_0_0) (fun _ => rfl)).squeeze S192x1024 squeezes_S1x192x1024_S192x1024
abbrev sSlot20 : Memref sig .tc .vmem S128x1024 .bf16 := (sM.slice (Rect.unit (s := S3x384x1024) ![2, 0, 0] S1x128x1024.size inb_S3x384x1024_S1x128x1024_2_0_0) (fun _ => rfl)).squeeze S128x1024 squeezes_S1x128x1024_S128x1024
abbrev rSlot20 : Memref sig .tc .vmem S128x1024 .bf16 := (rM.slice (Rect.unit (s := S3x384x1024) ![2, 0, 0] S1x128x1024.size inb_S3x384x1024_S1x128x1024_2_0_0) (fun _ => rfl)).squeeze S128x1024 squeezes_S1x128x1024_S128x1024
abbrev sSlot01 : Memref sig .tc .vmem S96x1024 .bf16 := (sM.slice (Rect.unit (s := S3x384x1024) ![0, 192, 0] S1x96x1024.size inb_S3x384x1024_S1x96x1024_0_192_0) (fun _ => rfl)).squeeze S96x1024 squeezes_S1x96x1024_S96x1024
abbrev rSlot01 : Memref sig .tc .vmem S96x1024 .bf16 := (rM.slice (Rect.unit (s := S3x384x1024) ![0, 192, 0] S1x96x1024.size inb_S3x384x1024_S1x96x1024_0_192_0) (fun _ => rfl)).squeeze S96x1024 squeezes_S1x96x1024_S96x1024
abbrev sSlot11 : Memref sig .tc .vmem S96x1024 .bf16 := (sM.slice (Rect.unit (s := S3x384x1024) ![1, 192, 0] S1x96x1024.size inb_S3x384x1024_S1x96x1024_1_192_0) (fun _ => rfl)).squeeze S96x1024 squeezes_S1x96x1024_S96x1024
abbrev rSlot11 : Memref sig .tc .vmem S96x1024 .bf16 := (rM.slice (Rect.unit (s := S3x384x1024) ![1, 192, 0] S1x96x1024.size inb_S3x384x1024_S1x96x1024_1_192_0) (fun _ => rfl)).squeeze S96x1024 squeezes_S1x96x1024_S96x1024
abbrev sSlot21 : Memref sig .tc .vmem S64x1024 .bf16 := (sM.slice (Rect.unit (s := S3x384x1024) ![2, 128, 0] S1x64x1024.size inb_S3x384x1024_S1x64x1024_2_128_0) (fun _ => rfl)).squeeze S64x1024 squeezes_S1x64x1024_S64x1024
abbrev rSlot21 : Memref sig .tc .vmem S64x1024 .bf16 := (rM.slice (Rect.unit (s := S3x384x1024) ![2, 128, 0] S1x64x1024.size inb_S3x384x1024_S1x64x1024_2_128_0) (fun _ => rfl)).squeeze S64x1024 squeezes_S1x64x1024_S64x1024
abbrev sSlot02 : Memref sig .tc .vmem S96x1024 .bf16 := (sM.slice (Rect.unit (s := S3x384x1024) ![0, 288, 0] S1x96x1024.size inb_S3x384x1024_S1x96x1024_0_288_0) (fun _ => rfl)).squeeze S96x1024 squeezes_S1x96x1024_S96x1024
abbrev rSlot02 : Memref sig .tc .vmem S96x1024 .bf16 := (rM.slice (Rect.unit (s := S3x384x1024) ![0, 288, 0] S1x96x1024.size inb_S3x384x1024_S1x96x1024_0_288_0) (fun _ => rfl)).squeeze S96x1024 squeezes_S1x96x1024_S96x1024
abbrev sSlot12 : Memref sig .tc .vmem S96x1024 .bf16 := (sM.slice (Rect.unit (s := S3x384x1024) ![1, 288, 0] S1x96x1024.size inb_S3x384x1024_S1x96x1024_1_288_0) (fun _ => rfl)).squeeze S96x1024 squeezes_S1x96x1024_S96x1024
abbrev rSlot12 : Memref sig .tc .vmem S96x1024 .bf16 := (rM.slice (Rect.unit (s := S3x384x1024) ![1, 288, 0] S1x96x1024.size inb_S3x384x1024_S1x96x1024_1_288_0) (fun _ => rfl)).squeeze S96x1024 squeezes_S1x96x1024_S96x1024
abbrev sSlot22 : Memref sig .tc .vmem S64x1024 .bf16 := (sM.slice (Rect.unit (s := S3x384x1024) ![2, 192, 0] S1x64x1024.size inb_S3x384x1024_S1x64x1024_2_192_0) (fun _ => rfl)).squeeze S64x1024 squeezes_S1x64x1024_S64x1024
abbrev rSlot22 : Memref sig .tc .vmem S64x1024 .bf16 := (rM.slice (Rect.unit (s := S3x384x1024) ![2, 192, 0] S1x64x1024.size inb_S3x384x1024_S1x64x1024_2_192_0) (fun _ => rfl)).squeeze S64x1024 squeezes_S1x64x1024_S64x1024
abbrev aRows01 (c : Dev nD) : Memref sig .tc .vmem S96x1024 .bf16 := aM.slice (Rect.unit (s := S1024x1024) (k0_off5 c 0#32 3#32 1#32) S96x1024.size (k0_off5_inb c 0)) (fun _ => rfl)
abbrev aRows11 (c : Dev nD) : Memref sig .tc .vmem S96x1024 .bf16 := aM.slice (Rect.unit (s := S1024x1024) (k0_off5 c 384#32 4#32 3#32) S96x1024.size (k0_off5_inb c 1)) (fun _ => rfl)
abbrev aRows21 (c : Dev nD) : Memref sig .tc .vmem S64x1024 .bf16 := aM.slice (Rect.unit (s := S1024x1024) (k0_off6 c) S64x1024.size (k0_off6_inb c)) (fun _ => rfl)
abbrev aRows00 (c : Dev nD) : Memref sig .tc .vmem S192x1024 .bf16 := aM.slice (Rect.unit (s := S1024x1024) (k0_off7 c 0#32 3#32 1#32) S192x1024.size (k0_off7_inb c 0)) (fun _ => rfl)
abbrev aRows10 (c : Dev nD) : Memref sig .tc .vmem S192x1024 .bf16 := aM.slice (Rect.unit (s := S1024x1024) (k0_off7 c 384#32 4#32 3#32) S192x1024.size (k0_off7_inb c 1)) (fun _ => rfl)
abbrev aRows20 (c : Dev nD) : Memref sig .tc .vmem S128x1024 .bf16 := aM.slice (Rect.unit (s := S1024x1024) (k0_off8 c) S128x1024.size (k0_off8_inb c)) (fun _ => rfl)

/-! ## Cells -/

abbrev barCell (c : Dev nD) : GSem nD τ sig := ((c : Thread nD τ), .reg barS)
/-- The DMA semaphore at (b, k) of array A: 0 the exchange's send semaphores, 1 its receive semaphores, 2 the gather's send, 3 its receive. -/
def dsem (A : Fin 4) (b k : Fin 3) : DmaSem sig := ⟨5 + 9 * A.val + 3 * b.val + k.val, by show 5 + 9 * A.val + 3 * b.val + k.val < 41; have := A.isLt; have := b.isLt; have := k.isLt; omega⟩
abbrev dcell (A : Fin 4) (b k : Fin 3) (c : Dev nD) : GSem nD τ sig := ((c : Thread nD τ), .dma (dsem A b k))

theorem semAt_eq :
    semAt cc0_scratch3 0 0 inb_S3x3_S1x1_0_0 = dsem 0 0 0 ∧ semAt cc0_scratch3 0 1 inb_S3x3_S1x1_0_1 = dsem 0 0 1 ∧ semAt cc0_scratch3 0 2 inb_S3x3_S1x1_0_2 = dsem 0 0 2
    ∧ semAt cc0_scratch3 1 0 inb_S3x3_S1x1_1_0 = dsem 0 1 0 ∧ semAt cc0_scratch3 1 1 inb_S3x3_S1x1_1_1 = dsem 0 1 1 ∧ semAt cc0_scratch3 1 2 inb_S3x3_S1x1_1_2 = dsem 0 1 2
    ∧ semAt cc0_scratch3 2 0 inb_S3x3_S1x1_2_0 = dsem 0 2 0 ∧ semAt cc0_scratch3 2 1 inb_S3x3_S1x1_2_1 = dsem 0 2 1 ∧ semAt cc0_scratch3 2 2 inb_S3x3_S1x1_2_2 = dsem 0 2 2
    ∧ semAt cc0_scratch4 0 0 inb_S3x3_S1x1_0_0 = dsem 1 0 0 ∧ semAt cc0_scratch4 0 1 inb_S3x3_S1x1_0_1 = dsem 1 0 1 ∧ semAt cc0_scratch4 0 2 inb_S3x3_S1x1_0_2 = dsem 1 0 2
    ∧ semAt cc0_scratch4 1 0 inb_S3x3_S1x1_1_0 = dsem 1 1 0 ∧ semAt cc0_scratch4 1 1 inb_S3x3_S1x1_1_1 = dsem 1 1 1 ∧ semAt cc0_scratch4 1 2 inb_S3x3_S1x1_1_2 = dsem 1 1 2
    ∧ semAt cc0_scratch4 2 0 inb_S3x3_S1x1_2_0 = dsem 1 2 0 ∧ semAt cc0_scratch4 2 1 inb_S3x3_S1x1_2_1 = dsem 1 2 1 ∧ semAt cc0_scratch4 2 2 inb_S3x3_S1x1_2_2 = dsem 1 2 2
    ∧ semAt cc0_scratch5 0 0 inb_S3x3_S1x1_0_0 = dsem 2 0 0 ∧ semAt cc0_scratch5 0 1 inb_S3x3_S1x1_0_1 = dsem 2 0 1
    ∧ semAt cc0_scratch5 1 0 inb_S3x3_S1x1_1_0 = dsem 2 1 0 ∧ semAt cc0_scratch5 1 1 inb_S3x3_S1x1_1_1 = dsem 2 1 1
    ∧ semAt cc0_scratch5 2 0 inb_S3x3_S1x1_2_0 = dsem 2 2 0 ∧ semAt cc0_scratch5 2 1 inb_S3x3_S1x1_2_1 = dsem 2 2 1
    ∧ semAt cc0_scratch6 0 0 inb_S3x3_S1x1_0_0 = dsem 3 0 0 ∧ semAt cc0_scratch6 0 1 inb_S3x3_S1x1_0_1 = dsem 3 0 1
    ∧ semAt cc0_scratch6 1 0 inb_S3x3_S1x1_1_0 = dsem 3 1 0 ∧ semAt cc0_scratch6 1 1 inb_S3x3_S1x1_1_1 = dsem 3 1 1
    ∧ semAt cc0_scratch6 2 0 inb_S3x3_S1x1_2_0 = dsem 3 2 0 ∧ semAt cc0_scratch6 2 1 inb_S3x3_S1x1_2_1 = dsem 3 2 1 := by
  decide

/-! ## Rows -/

/-- Butterfly b's first row, its half and quarter heights. -/
def R0 : Fin 3 → ℕ := ![0, 384, 768]
def Hh : Fin 3 → ℕ := ![192, 192, 128]
def Qh : Fin 3 → ℕ := ![96, 96, 64]
/-- The first row of the half device c keeps after stage 0, and of the quarter it keeps after stage 1. -/
def K0 (b : Fin 3) (c : Dev nD) : ℕ :=
  match b with
  | 0 => (k0_off1 c 0#32 3#32 192#32 0#32) 0 | 1 => (k0_off1 c 384#32 4#32 192#32 0#32) 0 | 2 => (k0_off2 c 128#32 0#32) 0
def K1 (b : Fin 3) (c : Dev nD) : ℕ :=
  match b with
  | 0 => (k0_off3 c 0#32 3#32 1#32 96#32 0#32) 0 | 1 => (k0_off3 c 384#32 4#32 3#32 96#32 0#32) 0 | 2 => (k0_off4 c 64#32 0#32) 0
/-- The device whose kept quarter holds the row, among d and its stage-1 partner; among c's half and its stage-0 partner's. -/
def qOwn (b : Fin 3) (d : Dev nD) (row : ℕ) : Dev nD := if K1 b d ≤ row ∧ row < K1 b d + Qh b then d else Mesh.px (mask b 1) d
def hOwn (b : Fin 3) (c : Dev nD) (row : ℕ) : Dev nD := if K0 b c ≤ row ∧ row < K0 b c + Hh b then c else Mesh.px (mask b 0) c
/-- The butterfly a row belongs to. -/
def bOf (row : ℕ) : Fin 3 := if row < 384 then 0 else if row < 768 then 1 else 2

/-- The total of butterfly b at (row, q) as it reaches device c: the sum formed on the device that owns the row's quarter. -/
def Tot (b : Fin 3) (c : Dev nD) (row q : ℕ) : F .f32 := S3 m b (qOwn b (hOwn b c row) row) row q

/-! ## Reading buffers by natural coordinates (reduced into range: total) -/

def rAt (f : (cc0_scratch1 : Ref sig .tc).ty.Contents (Elt F)) (b r q : ℕ) : F .bf16 :=
  f (ix3 ⟨b % 3, Nat.mod_lt _ (by decide)⟩ ⟨r % 384, Nat.mod_lt _ (by decide)⟩ ⟨q % 1024, Nat.mod_lt _ (by decide)⟩)
def aAt (f : (cc0_scratch2 : Ref sig .tc).ty.Contents (Elt F)) (r q : ℕ) : F .bf16 :=
  f (ix2 ⟨r % 1024, Nat.mod_lt _ (by decide)⟩ ⟨q % 1024, Nat.mod_lt _ (by decide)⟩)
def oAt (f : (cc0_stg4_0 : Ref sig .tc).ty.Contents (Elt F)) (r q : ℕ) : F .f32 :=
  f (ix2 ⟨r % 1024, Nat.mod_lt _ (by decide)⟩ ⟨q % 1024, Nat.mod_lt _ (by decide)⟩)

def tr (e : F .f32) : F .bf16 := FloatOps.truncf .bf16 bitsLt_bf16_f32 e

/-- The result on device c: every row holds its butterfly's total, as it came over the wire. -/
def outFin (c : Dev nD) : (cc0_stg4_0 : Ref sig .tc).ty.Contents (Elt F) :=
  fun i => wire (Tot m (bOf (i 0).val) c (i 0).val (i 1).val)

/-! ## Payloads -/

/-- What the arrival of partner's block at (b, k) of the exchange hands device c: its receive slot, holding the partner's
    sum of the stage before over the rows c keeps, narrowed for the wire. -/
def rsRecvPay (b k : Fin 3) (c : Dev nD) : sProp 𝕄 :=
  match b, k with
  | 0, 0 => iprop(∃ f, (rSlot00.view.loc (c : Thread nD τ) ↦[rSlot00.view.set]{fullShare} f) ∗ ⌜∀ r q : ℕ, r < 192 → q < 1024 → rAt f 0 (0 + r) q = tr (S0 m 0 (Mesh.px 3 c) (K0 0 c + r) q)⌝)
  | 0, 1 => iprop(∃ f, (rSlot01.view.loc (c : Thread nD τ) ↦[rSlot01.view.set]{fullShare} f) ∗ ⌜∀ r q : ℕ, r < 96 → q < 1024 → rAt f 0 (192 + r) q = tr (S1 m 0 (Mesh.px 1 c) (K1 0 c + r) q)⌝)
  | 0, 2 => iprop(∃ f, (rSlot02.view.loc (c : Thread nD τ) ↦[rSlot02.view.set]{fullShare} f) ∗ ⌜∀ r q : ℕ, r < 96 → q < 1024 → rAt f 0 (288 + r) q = tr (S2 m 0 (Mesh.px 4 c) (K1 0 c + r) q)⌝)
  | 1, 0 => iprop(∃ f, (rSlot10.view.loc (c : Thread nD τ) ↦[rSlot10.view.set]{fullShare} f) ∗ ⌜∀ r q : ℕ, r < 192 → q < 1024 → rAt f 1 (0 + r) q = tr (S0 m 1 (Mesh.px 4 c) (K0 1 c + r) q)⌝)
  | 1, 1 => iprop(∃ f, (rSlot11.view.loc (c : Thread nD τ) ↦[rSlot11.view.set]{fullShare} f) ∗ ⌜∀ r q : ℕ, r < 96 → q < 1024 → rAt f 1 (192 + r) q = tr (S1 m 1 (Mesh.px 3 c) (K1 1 c + r) q)⌝)
  | 1, 2 => iprop(∃ f, (rSlot12.view.loc (c : Thread nD τ) ↦[rSlot12.view.set]{fullShare} f) ∗ ⌜∀ r q : ℕ, r < 96 → q < 1024 → rAt f 1 (288 + r) q = tr (S2 m 1 (Mesh.px 1 c) (K1 1 c + r) q)⌝)
  | 2, 0 => iprop(∃ f, (rSlot20.view.loc (c : Thread nD τ) ↦[rSlot20.view.set]{fullShare} f) ∗ ⌜∀ r q : ℕ, r < 128 → q < 1024 → rAt f 2 (0 + r) q = tr (S0 m 2 (Mesh.px 1 c) (K0 2 c + r) q)⌝)
  | 2, 1 => iprop(∃ f, (rSlot21.view.loc (c : Thread nD τ) ↦[rSlot21.view.set]{fullShare} f) ∗ ⌜∀ r q : ℕ, r < 64 → q < 1024 → rAt f 2 (128 + r) q = tr (S1 m 2 (Mesh.px 4 c) (K1 2 c + r) q)⌝)
  | 2, 2 => iprop(∃ f, (rSlot22.view.loc (c : Thread nD τ) ↦[rSlot22.view.set]{fullShare} f) ∗ ⌜∀ r q : ℕ, r < 64 → q < 1024 → rAt f 2 (192 + r) q = tr (S2 m 2 (Mesh.px 2 c) (K1 2 c + r) q)⌝)

/-- What the departure of its own block hands c back: the send slot. -/
def rsSendPay (b k : Fin 3) (c : Dev nD) : sProp 𝕄 :=
  match b, k with
  | 0, 0 => iprop(∃ f, sSlot00.view.loc (c : Thread nD τ) ↦[sSlot00.view.set]{fullShare} f)
  | 0, 1 => iprop(∃ f, sSlot01.view.loc (c : Thread nD τ) ↦[sSlot01.view.set]{fullShare} f)
  | 0, 2 => iprop(∃ f, sSlot02.view.loc (c : Thread nD τ) ↦[sSlot02.view.set]{fullShare} f)
  | 1, 0 => iprop(∃ f, sSlot10.view.loc (c : Thread nD τ) ↦[sSlot10.view.set]{fullShare} f)
  | 1, 1 => iprop(∃ f, sSlot11.view.loc (c : Thread nD τ) ↦[sSlot11.view.set]{fullShare} f)
  | 1, 2 => iprop(∃ f, sSlot12.view.loc (c : Thread nD τ) ↦[sSlot12.view.set]{fullShare} f)
  | 2, 0 => iprop(∃ f, sSlot20.view.loc (c : Thread nD τ) ↦[sSlot20.view.set]{fullShare} f)
  | 2, 1 => iprop(∃ f, sSlot21.view.loc (c : Thread nD τ) ↦[sSlot21.view.set]{fullShare} f)
  | 2, 2 => iprop(∃ f, sSlot22.view.loc (c : Thread nD τ) ↦[sSlot22.view.set]{fullShare} f)

/-- What the arrival of a gathered block hands c: the partner's rows of the gather buffer, holding the totals. -/
def agRecvPay (b k : Fin 3) (c : Dev nD) : sProp 𝕄 :=
  match b, k with
  | 0, 0 => iprop(∃ f, ((aRows00 (Mesh.px 3 c)).view.loc (c : Thread nD τ) ↦[(aRows00 (Mesh.px 3 c)).view.set]{fullShare} f) ∗ ⌜∀ r q : ℕ, r < 192 → q < 1024 → aAt f (K0 0 (Mesh.px 3 c) + r) q = tr (S3 m 0 (qOwn 0 (Mesh.px 3 c) (K0 0 (Mesh.px 3 c) + r)) (K0 0 (Mesh.px 3 c) + r) q)⌝)
  | 0, 1 => iprop(∃ f, ((aRows01 (Mesh.px 1 c)).view.loc (c : Thread nD τ) ↦[(aRows01 (Mesh.px 1 c)).view.set]{fullShare} f) ∗ ⌜∀ r q : ℕ, r < 96 → q < 1024 → aAt f (K1 0 (Mesh.px 1 c) + r) q = tr (S3 m 0 (Mesh.px 1 c) (K1 0 (Mesh.px 1 c) + r) q)⌝)
  | 1, 0 => iprop(∃ f, ((aRows10 (Mesh.px 4 c)).view.loc (c : Thread nD τ) ↦[(aRows10 (Mesh.px 4 c)).view.set]{fullShare} f) ∗ ⌜∀ r q : ℕ, r < 192 → q < 1024 → aAt f (K0 1 (Mesh.px 4 c) + r) q = tr (S3 m 1 (qOwn 1 (Mesh.px 4 c) (K0 1 (Mesh.px 4 c) + r)) (K0 1 (Mesh.px 4 c) + r) q)⌝)
  | 1, 1 => iprop(∃ f, ((aRows11 (Mesh.px 3 c)).view.loc (c : Thread nD τ) ↦[(aRows11 (Mesh.px 3 c)).view.set]{fullShare} f) ∗ ⌜∀ r q : ℕ, r < 96 → q < 1024 → aAt f (K1 1 (Mesh.px 3 c) + r) q = tr (S3 m 1 (Mesh.px 3 c) (K1 1 (Mesh.px 3 c) + r) q)⌝)
  | 2, 0 => iprop(∃ f, ((aRows20 (Mesh.px 1 c)).view.loc (c : Thread nD τ) ↦[(aRows20 (Mesh.px 1 c)).view.set]{fullShare} f) ∗ ⌜∀ r q : ℕ, r < 128 → q < 1024 → aAt f (K0 2 (Mesh.px 1 c) + r) q = tr (S3 m 2 (qOwn 2 (Mesh.px 1 c) (K0 2 (Mesh.px 1 c) + r)) (K0 2 (Mesh.px 1 c) + r) q)⌝)
  | 2, 1 => iprop(∃ f, ((aRows21 (Mesh.px 4 c)).view.loc (c : Thread nD τ) ↦[(aRows21 (Mesh.px 4 c)).view.set]{fullShare} f) ∗ ⌜∀ r q : ℕ, r < 64 → q < 1024 → aAt f (K1 2 (Mesh.px 4 c) + r) q = tr (S3 m 2 (Mesh.px 4 c) (K1 2 (Mesh.px 4 c) + r) q)⌝)
  | _, _ => iprop(emp)
/-- What the departure of its own gathered rows hands c back: the share of those rows it lent. -/
def agSendPay (b k : Fin 3) (c : Dev nD) : sProp 𝕄 :=
  match b, k with
  | 0, 0 => iprop(∃ f, (aRows00 c).view.loc (c : Thread nD τ) ↦[(aRows00 c).view.set]{fullShare.right.left} f)
  | 0, 1 => iprop(∃ f, (aRows01 c).view.loc (c : Thread nD τ) ↦[(aRows01 c).view.set]{fullShare.left} f)
  | 1, 0 => iprop(∃ f, (aRows10 c).view.loc (c : Thread nD τ) ↦[(aRows10 c).view.set]{fullShare.right.left} f)
  | 1, 1 => iprop(∃ f, (aRows11 c).view.loc (c : Thread nD τ) ↦[(aRows11 c).view.set]{fullShare.left} f)
  | 2, 0 => iprop(∃ f, (aRows20 c).view.loc (c : Thread nD τ) ↦[(aRows20 c).view.set]{fullShare.right.left} f)
  | 2, 1 => iprop(∃ f, (aRows21 c).view.loc (c : Thread nD τ) ↦[(aRows21 c).view.set]{fullShare.left} f)
  | _, _ => iprop(emp)

/-- What the entry signal of partner c xor (j+1) hands c: the partner's receive slots and gather rows that c writes,
    and that the partner's receive cells for them are at round 0. -/
def barPay (j : Fin 4) (c : Dev nD) : sProp 𝕄 :=
  match j with
  | 0 => iprop(((∃ f, rSlot01.view.loc (Mesh.px 1 c : Thread nD τ) ↦[rSlot01.view.set]{fullShare} f) ∗ reached ER (dcell 1 0 1 (Mesh.px 1 c)) 0)
      ∗ ((∃ f, rSlot12.view.loc (Mesh.px 1 c : Thread nD τ) ↦[rSlot12.view.set]{fullShare} f) ∗ reached ER (dcell 1 1 2 (Mesh.px 1 c)) 0)
      ∗ ((∃ f, rSlot20.view.loc (Mesh.px 1 c : Thread nD τ) ↦[rSlot20.view.set]{fullShare} f) ∗ reached ER (dcell 1 2 0 (Mesh.px 1 c)) 0)
      ∗ ((∃ f, (aRows01 c).view.loc (Mesh.px 1 c : Thread nD τ) ↦[(aRows01 c).view.set]{fullShare} f) ∗ reached ER (dcell 3 0 1 (Mesh.px 1 c)) 0)
      ∗ ((∃ f, (aRows20 c).view.loc (Mesh.px 1 c : Thread nD τ) ↦[(aRows20 c).view.set]{fullShare} f) ∗ reached ER (dcell 3 2 0 (Mesh.px 1 c)) 0))
  | 1 => iprop(((∃ f, rSlot22.view.loc (Mesh.px 2 c : Thread nD τ) ↦[rSlot22.view.set]{fullShare} f) ∗ reached ER (dcell 1 2 2 (Mesh.px 2 c)) 0))
  | 2 => iprop(((∃ f, rSlot00.view.loc (Mesh.px 3 c : Thread nD τ) ↦[rSlot00.view.set]{fullShare} f) ∗ reached ER (dcell 1 0 0 (Mesh.px 3 c)) 0)
      ∗ ((∃ f, rSlot11.view.loc (Mesh.px 3 c : Thread nD τ) ↦[rSlot11.view.set]{fullShare} f) ∗ reached ER (dcell 1 1 1 (Mesh.px 3 c)) 0)
      ∗ ((∃ f, (aRows00 c).view.loc (Mesh.px 3 c : Thread nD τ) ↦[(aRows00 c).view.set]{fullShare} f) ∗ reached ER (dcell 3 0 0 (Mesh.px 3 c)) 0)
      ∗ ((∃ f, (aRows11 c).view.loc (Mesh.px 3 c : Thread nD τ) ↦[(aRows11 c).view.set]{fullShare} f) ∗ reached ER (dcell 3 1 1 (Mesh.px 3 c)) 0))
  | 3 => iprop(((∃ f, rSlot02.view.loc (Mesh.px 4 c : Thread nD τ) ↦[rSlot02.view.set]{fullShare} f) ∗ reached ER (dcell 1 0 2 (Mesh.px 4 c)) 0)
      ∗ ((∃ f, rSlot10.view.loc (Mesh.px 4 c : Thread nD τ) ↦[rSlot10.view.set]{fullShare} f) ∗ reached ER (dcell 1 1 0 (Mesh.px 4 c)) 0)
      ∗ ((∃ f, rSlot21.view.loc (Mesh.px 4 c : Thread nD τ) ↦[rSlot21.view.set]{fullShare} f) ∗ reached ER (dcell 1 2 1 (Mesh.px 4 c)) 0)
      ∗ ((∃ f, (aRows10 c).view.loc (Mesh.px 4 c : Thread nD τ) ↦[(aRows10 c).view.set]{fullShare} f) ∗ reached ER (dcell 3 1 0 (Mesh.px 4 c)) 0)
      ∗ ((∃ f, (aRows21 c).view.loc (Mesh.px 4 c : Thread nD τ) ↦[(aRows21 c).view.set]{fullShare} f) ∗ reached ER (dcell 3 2 1 (Mesh.px 4 c)) 0))

/-- A DMA semaphore's place (array, b, k), if it is one of the protocol's. -/
def dec (q : DmaSem sig) : Option (Fin 4 × Fin 3 × Fin 3) :=
  if 5 ≤ q.val then some (⟨(q.val - 5) / 9 % 4, Nat.mod_lt _ (by decide)⟩, ⟨(q.val - 5) % 9 / 3 % 3, Nat.mod_lt _ (by decide)⟩, ⟨(q.val - 5) % 3, Nat.mod_lt _ (by decide)⟩) else none

theorem dec_dsem : ∀ (A : Fin 4) (b k : Fin 3), dec (dsem A b k) = some (A, b, k) := by decide

def dpay (A : Fin 4) (b k : Fin 3) (c : Dev nD) : sProp 𝕄 :=
  match A with
  | 0 => rsSendPay b k c | 1 => rsRecvPay m b k c | 2 => agSendPay b k c | 3 => agRecvPay m b k c

/-- The credit of a block of the exchange at (b, k), and of a gathered block. -/
def namt (A : Fin 4) (b k : Fin 3) : ℕ :=
  if A.val < 2 then
    (match b, k with
      | 0, 0 => rSlot00.view.dmaCredit | 1, 0 => rSlot10.view.dmaCredit | 2, 0 => rSlot20.view.dmaCredit
      | 0, 1 => rSlot01.view.dmaCredit | 1, 1 => rSlot11.view.dmaCredit | 2, 1 => rSlot21.view.dmaCredit
      | 0, 2 => rSlot02.view.dmaCredit | 1, 2 => rSlot12.view.dmaCredit | 2, 2 => rSlot22.view.dmaCredit)
  else
    (match b, k with
      | 0, 0 => (aRows00 0).view.dmaCredit | 1, 0 => (aRows10 0).view.dmaCredit | 2, 0 => (aRows20 0).view.dmaCredit
      | 0, 1 => (aRows01 0).view.dmaCredit | 1, 1 => (aRows11 0).view.dmaCredit | 2, 1 => (aRows21 0).view.dmaCredit
      | _, _ => 1)

theorem namt_pos (A : Fin 4) (b k : Fin 3) : 0 < namt A b k := by
  unfold namt
  split
  · fin_cases b <;> fin_cases k <;> exact View.dmaCredit_pos _ (by decide)
  · fin_cases b <;> fin_cases k <;> first | exact View.dmaCredit_pos _ (by decide) | exact Nat.one_pos

/-- Which DMA cells the protocol uses: every cell of the exchange, the gather's at stages 0 and 1. -/
def used (A : Fin 4) (k : Fin 3) : Prop := A.val < 2 ∨ k.val < 2
instance (A : Fin 4) (k : Fin 3) : Decidable (used A k) := by unfold used; infer_instance

/-- One round. A TensorCore's barrier cell has four duties of one unit; each DMA cell in use one duty of its block's credit. -/
def Rd : Rounds.Schedule (GSem nD τ sig) (Fin 4) 𝕄 where
  duties g r :=
    if r = 0 ∧ g.1.2 = .tc then
      (match g.2 with
        | .reg s => if s = barS then Finset.univ else ∅
        | .dma q => match dec q with | some (A, _, k) => if used A k then {0} else ∅ | none => ∅)
    else ∅
  unitless _ := False
  amount g _ _ :=
    match g.2 with
    | .reg _ => 1
    | .dma q => match dec q with | some (A, b, k) => namt A b k | none => 1
  payload g _ d :=
    match g.2 with
    | .reg s => if s = barS then barPay d g.1.1 else iprop(emp)
    | .dma q => match dec q with | some (A, b, k) => dpay m A b k g.1.1 | none => iprop(emp)
  amount_pos g _ _ _ := by
    split
    · exact Nat.one_pos
    · split
      · exact namt_pos _ _ _
      · exact Nat.one_pos

end Cert.KernelIdeal.Sched

end
-- ==== Proof.TileValue.lean ====
/-
  A device's partial product, tile by tile. Device `c` holds `x` (1024 × 1024) and its blocks `Wg_c`, `Wu_c`
  (1024 × 2048) and `Wd_c` (2048 × 1024) of the three weight arrays. Its partial product is
  `P_c = ((x · Wg_c) ⊙ (u ⊙ logistic u)) · Wd_c` with `u = x · Wu_c`: at (row, q) the sum over the 2048 hidden
  coordinates `k` of `gate (row, k) · (u (row, k) · logistic (u (row, k))) · Wd_c (k, q)`, gate and `u` being sums over the
  1024 input coordinates (`Pfun`). The body never forms `P_c` whole: it computes six tiles of rows — for the
  butterflies that own rows 0..384 and 384..768 a half of 192 rows to send and a half of 192 rows to keep, for the one that
  owns rows 768..1024 two halves of 128 rows — each from the same rows of `x` and the whole weight blocks. A block of
  rows of a product depends only on those rows of the left factor, and every later operation is entry by entry, so each
  tile at an entry is `P_c` at the tile's first row plus the entry's row (`tS0_apply` … `tK2_apply`). Where the tiles
  start is decided by one bit of the device's index; in each case the two tiles of a butterfly tile its range, so the
  device's own value at a row of the range, read off whichever tile holds the row, is `P_c` there (`S0_eq_Pfun`).
-/
import proofs.«900524_g7700000000000525_dist_gated_mlp_tp_i_m1024_h2048_d1024_v7x_i8_f32_1_alg».proof.Proof.Vals
import proofs.«900524_g7700000000000525_dist_gated_mlp_tp_i_m1024_h2048_d1024_v7x_i8_f32_1_alg».proof.Proof.Mesh
import Idealize.ShloMosaic.Lib.ValueIdx
import Idealize.ShloMosaic.Lib.StackMember
import Idealize.ShloMosaic.Lib.Pipeline.Value
import Idealize.ShloMosaic.PureOps.Ideal.Laws

noncomputable section

namespace Cert.KernelIdeal.TileValue

open Cert.KernelIdeal Cert.KernelIdeal.Gen Cert.KernelIdeal.Sched
open Idealize.ShloMosaic Idealize.ShloMosaic.TcCoe Idealize.ShloMosaic.ValueIdx Idealize.SL.Sem
open scoped BigOperators

/-! ## A product of two blocks at an entry -/

/-- The product of an `a × n` block by an `n × b` block accumulated into zero, at the entry (r, c), is the sum over the
    contracted coordinate of the products of the entries — for any dimension record that is the plain one (rows by
    contraction, contraction by columns). The sum the matrix unit's product reads at an entry and the one the host's
    product reads are the same sum over the record's contraction indices, and the latter is re-indexed by the
    contracted coordinate. -/
theorem matmul_plain_apply {a n b : ℕ} (D : DotDims ⟨2, ![a, n]⟩ ⟨2, ![n, b]⟩ ⟨2, ![a, b]⟩) (hD : D = DotDims.plain a n b)
    (A : FVec Ideal ⟨2, ![a, n]⟩ .f32) (B : FVec Ideal ⟨2, ![n, b]⟩ .f32) (r : Fin a) (c : Fin b) :
    FloatOps.matmul D none A B (constant ⟨2, ![a, b]⟩ .f32 0x00000000#32) (ix2 r c) = ∑ k : Fin n, A (ix2 r k) * B (ix2 k c) := by
  subst hD
  rw [Ideal.matmul_constant_zero_apply, ← StackMember.dotGeneral_plain_apply none A B r c]
  show _ = FloatOps.dotGeneral _ none _ A B (ix2 r c)
  rw [Ideal.dotGeneral_apply]

/-- The body's four dimension records — 192 or 128 rows; 1024 by 2048 for the two projections, 2048 by 1024 for the
    last product — are the plain one at their sizes. -/
theorem dotA_eq : dot_S192x1024_S1024x2048_S192x2048_1_0_0_1_n_n = DotDims.plain 192 1024 2048 := rfl
theorem dotB_eq : dot_S192x2048_S2048x1024_S192x1024_1_0_0_1_n_n = DotDims.plain 192 2048 1024 := rfl
theorem dotC_eq : dot_S128x1024_S1024x2048_S128x2048_1_0_0_1_n_n = DotDims.plain 128 1024 2048 := rfl
theorem dotD_eq : dot_S128x2048_S2048x1024_S128x1024_1_0_0_1_n_n = DotDims.plain 128 2048 1024 := rfl

/-- The logistic function of a block is the logistic function of each entry. -/
theorem logistic_apply {s : Shape} (v : FVec Ideal s .f32) (i : s.Idx) : logistic v i = Ideal.logistic (v i) := rfl

/-! ## The gated product of a block of rows -/

/-- For a block `xr` of `R` rows of `x` and the weight blocks `g`, `u`, `d`: the entry (r, q) of
    `((xr · g) ⊙ (v ⊙ logistic v)) · d` with `v = xr · u`, written as its nested sums in the body's own grouping,
    `(gate · (v · logistic v)) · d`. -/
def gatedBlock {R : ℕ} (xr : FVec Ideal ⟨2, ![R, 1024]⟩ .f32) (g u : FVec Ideal ⟨2, ![1024, 2048]⟩ .f32)
    (d : FVec Ideal ⟨2, ![2048, 1024]⟩ .f32) (r : Fin R) (q : Fin 1024) : EReal :=
  ∑ k : Fin 2048,
    ((∑ j : Fin 1024, xr (ix2 r j) * g (ix2 j k)) *
      ((∑ j : Fin 1024, xr (ix2 r j) * u (ix2 j k)) * Ideal.logistic (∑ j : Fin 1024, xr (ix2 r j) * u (ix2 j k)))) *
    d (ix2 k q)

/-- The 192-row tile's arithmetic at an entry: casts to the same shape are the identity, the three products are
    their sums, the logistic function and the two entrywise products are read at the entry. -/
theorem pay1_apply (xr : FVec Ideal S192x1024 .f32) (g u : FVec Ideal S1024x2048 .f32) (d : FVec Ideal S2048x1024 .f32)
    (r : Fin 192) (q : Fin 1024) :
    k0_pay1 (F := Ideal) xr g u d (ix2 r q) = gatedBlock xr g u d r q := by
  unfold k0_pay1 gatedBlock
  simp only [shapeCast_self, matmul]
  rw [matmul_plain_apply _ dotB_eq]
  refine Finset.sum_congr rfl fun k _ => ?_
  rw [mulf_apply, mulf_apply, logistic_apply, matmul_plain_apply _ dotA_eq, matmul_plain_apply _ dotA_eq]

/-- The other three 192-row tiles apply the same operations in the same order: one function under four names. -/
theorem pay3_eq (xr : FVec Ideal S192x1024 .f32) (g u : FVec Ideal S1024x2048 .f32) (d : FVec Ideal S2048x1024 .f32) :
    k0_pay3 (F := Ideal) xr g u d = k0_pay1 xr g u d := rfl
theorem pay10_eq (xr : FVec Ideal S192x1024 .f32) (g u : FVec Ideal S1024x2048 .f32) (d : FVec Ideal S2048x1024 .f32) :
    k0_pay10 (F := Ideal) xr g u d = k0_pay1 xr g u d := rfl
theorem pay11_eq (xr : FVec Ideal S192x1024 .f32) (g u : FVec Ideal S1024x2048 .f32) (d : FVec Ideal S2048x1024 .f32) :
    k0_pay11 (F := Ideal) xr g u d = k0_pay1 xr g u d := rfl

/-- The kept 128-row tile's arithmetic at an entry. -/
theorem pay13_apply (xr : FVec Ideal S128x1024 .f32) (g u : FVec Ideal S1024x2048 .f32) (d : FVec Ideal S2048x1024 .f32)
    (r : Fin 128) (q : Fin 1024) :
    k0_pay13 (F := Ideal) (k0_pay12 xr) g u d (ix2 r q) = gatedBlock xr g u d r q := by
  unfold k0_pay13 k0_pay12 gatedBlock
  simp only [shapeCast_self, matmul]
  rw [matmul_plain_apply _ dotD_eq]
  refine Finset.sum_congr rfl fun k _ => ?_
  rw [mulf_apply, mulf_apply, logistic_apply, matmul_plain_apply _ dotC_eq, matmul_plain_apply _ dotC_eq]

/-- The sent 128-row tile's arithmetic at an entry: the same function, its gate projection formed in an earlier
    step of the body than the rest. -/
theorem pay8_apply (xr : FVec Ideal S128x1024 .f32) (g u : FVec Ideal S1024x2048 .f32) (d : FVec Ideal S2048x1024 .f32)
    (r : Fin 128) (q : Fin 1024) :
    k0_pay8 (F := Ideal) (k0_pay5 xr) (k0_pay6 xr g) (k0_pay7 u) (constant S128x2048 .f32 0x00000000#32) d (ix2 r q)
      = gatedBlock xr g u d r q := by
  unfold k0_pay8 k0_pay6 k0_pay7 k0_pay5 gatedBlock
  simp only [shapeCast_self, matmul]
  rw [matmul_plain_apply _ dotD_eq]
  refine Finset.sum_congr rfl fun k _ => ?_
  rw [mulf_apply, mulf_apply, logistic_apply, matmul_plain_apply _ dotC_eq, matmul_plain_apply _ dotC_eq]

/-! ## The partial product, and the rows a tile reads -/

variable (m : (ℓ : Loc nD τ sig) → Buf (Elt Ideal) ℓ)

/-- A device's four staged input blocks, named at their literal shapes. -/
abbrev xA (c : Dev nD) : FVec Ideal S1024x1024 .f32 := xIn m c
abbrev gA (c : Dev nD) : FVec Ideal S1024x2048 .f32 := gIn m c
abbrev uA (c : Dev nD) : FVec Ideal S1024x2048 .f32 := uIn m c
abbrev dA (c : Dev nD) : FVec Ideal S2048x1024 .f32 := dIn m c

/-- Device `c`'s partial product `P_c` at (row, q): the sum over the 2048 hidden coordinates `k` of
    `(gate · (u · logistic u)) · Wd_c (k, q)` with `gate = ∑ j, x (row, j) · Wg_c (j, k)` and
    `u = ∑ j, x (row, j) · Wu_c (j, k)`. Row and column are naturals, reduced modulo 1024 so that the function is total. -/
def Pfun (c : Dev nD) (row q : ℕ) : EReal :=
  ∑ k : Fin 2048,
    ((∑ j : Fin 1024, xA m c (ix2 ⟨row % 1024, Nat.mod_lt _ (by decide)⟩ j) * gA m c (ix2 j k)) *
      ((∑ j : Fin 1024, xA m c (ix2 ⟨row % 1024, Nat.mod_lt _ (by decide)⟩ j) * uA m c (ix2 j k)) *
        Ideal.logistic (∑ j : Fin 1024, xA m c (ix2 ⟨row % 1024, Nat.mod_lt _ (by decide)⟩ j) * uA m c (ix2 j k)))) *
    dA m c (ix2 k ⟨q % 1024, Nat.mod_lt _ (by decide)⟩)

/-- The 192 rows of `x` loaded from row `o 0` (and column 0) on: entry (r, j) of the load is `x` at (o 0 + r, j). -/
theorem xRows192_apply (c : Dev nD) (o : Fin 2 → ℕ) (h : ∀ a, o a + S192x1024.size a ≤ S1024x1024.size a) (ho : o 1 = 0)
    (r : Fin 192) (j : Fin 1024) :
    xRows192 (F := Ideal) m c o h (ix2 r j) = xA m c (ix2 ⟨(o 0 + r.val) % 1024, Nat.mod_lt _ (by decide)⟩ j) := by
  unfold xRows192
  rw [View.readAt_apply]
  show xA m c _ = xA m c _
  refine congrArg (xA m c) (funext fun a => Fin.ext ?_)
  have h0 := h 0
  match a with
  | ⟨0, _⟩ =>
    show o 0 + 1 * r.val = (o 0 + r.val) % 1024
    have : o 0 + 192 ≤ 1024 := h0
    rw [Nat.mod_eq_of_lt (by omega)]; omega
  | ⟨1, _⟩ =>
    show o 1 + 1 * j.val = j.val
    omega

/-- The same for a load of 128 rows. -/
theorem xRows128_apply (c : Dev nD) (o : Fin 2 → ℕ) (h : ∀ a, o a + S128x1024.size a ≤ S1024x1024.size a) (ho : o 1 = 0)
    (r : Fin 128) (j : Fin 1024) :
    xRows128 (F := Ideal) m c o h (ix2 r j) = xA m c (ix2 ⟨(o 0 + r.val) % 1024, Nat.mod_lt _ (by decide)⟩ j) := by
  unfold xRows128
  rw [View.readAt_apply]
  show xA m c _ = xA m c _
  refine congrArg (xA m c) (funext fun a => Fin.ext ?_)
  have h0 := h 0
  match a with
  | ⟨0, _⟩ =>
    show o 0 + 1 * r.val = (o 0 + r.val) % 1024
    have : o 0 + 128 ≤ 1024 := h0
    rw [Nat.mod_eq_of_lt (by omega)]; omega
  | ⟨1, _⟩ =>
    show o 1 + 1 * j.val = j.val
    omega

/-- The gated product of the 192 rows of `x` from row `o 0` on, at (r, q), is `P_c` at (o 0 + r, q): only row
    `o 0 + r` of `x` enters the entry. -/
theorem gated192_rows (c : Dev nD) (o : Fin 2 → ℕ) (h : ∀ a, o a + S192x1024.size a ≤ S1024x1024.size a) (ho : o 1 = 0)
    (r : Fin 192) (q : Fin 1024) :
    gatedBlock (xRows192 (F := Ideal) m c o h) (gA m c) (uA m c) (dA m c) r q = Pfun m c (o 0 + r.val) q.val := by
  unfold gatedBlock Pfun
  have hq : (⟨q.val % 1024, Nat.mod_lt _ (by decide)⟩ : Fin 1024) = q := Fin.ext (Nat.mod_eq_of_lt q.isLt)
  simp only [xRows192_apply m c o h ho, hq]

/-- The same for 128 rows. -/
theorem gated128_rows (c : Dev nD) (o : Fin 2 → ℕ) (h : ∀ a, o a + S128x1024.size a ≤ S1024x1024.size a) (ho : o 1 = 0)
    (r : Fin 128) (q : Fin 1024) :
    gatedBlock (xRows128 (F := Ideal) m c o h) (gA m c) (uA m c) (dA m c) r q = Pfun m c (o 0 + r.val) q.val := by
  unfold gatedBlock Pfun
  have hq : (⟨q.val % 1024, Nat.mod_lt _ (by decide)⟩ : Fin 1024) = q := Fin.ext (Nat.mod_eq_of_lt q.isLt)
  simp only [xRows128_apply m c o h ho, hq]

/-- Every tile's load starts at column 0. -/
theorem off1_a_col (c : Dev nD) : (k0_off1 c 0#32 3#32 0#32 192#32) 1 = 0 := by rw [Mesh.off1_a]; rfl
theorem off1_b_col (c : Dev nD) : (k0_off1 c 384#32 4#32 0#32 192#32) 1 = 0 := by rw [Mesh.off1_b]; rfl
theorem off1_c_col (c : Dev nD) : (k0_off1 c 0#32 3#32 192#32 0#32) 1 = 0 := by rw [Mesh.off1_c]; rfl
theorem off1_d_col (c : Dev nD) : (k0_off1 c 384#32 4#32 192#32 0#32) 1 = 0 := by rw [Mesh.off1_d]; rfl
theorem off2_a_col (c : Dev nD) : (k0_off2 c 0#32 128#32) 1 = 0 := by rw [Mesh.off2_a]; rfl
theorem off2_b_col (c : Dev nD) : (k0_off2 c 128#32 0#32) 1 = 0 := by rw [Mesh.off2_b]; rfl

/-! ## The six tiles at an entry -/

/-- Rows 0..384, the half sent first: entry (r, q) is `P_c` at the half's first row plus `r`. -/
theorem tS0_apply (c : Dev nD) (r : Fin 192) (q : Fin 1024) :
    tS0 (F := Ideal) m c (ix2 r q) = Pfun m c ((k0_off1 c 0#32 3#32 0#32 192#32) 0 + r.val) q.val := by
  unfold tS0; rw [pay1_apply]; exact gated192_rows m c _ _ (off1_a_col c) r q
/-- Rows 0..384, the half kept. -/
theorem tK0_apply (c : Dev nD) (r : Fin 192) (q : Fin 1024) :
    tK0 (F := Ideal) m c (ix2 r q) = Pfun m c ((k0_off1 c 0#32 3#32 192#32 0#32) 0 + r.val) q.val := by
  unfold tK0; rw [pay10_eq, pay1_apply]; exact gated192_rows m c _ _ (off1_c_col c) r q
/-- Rows 384..768, the half sent first. -/
theorem tS1_apply (c : Dev nD) (r : Fin 192) (q : Fin 1024) :
    tS1 (F := Ideal) m c (ix2 r q) = Pfun m c ((k0_off1 c 384#32 4#32 0#32 192#32) 0 + r.val) q.val := by
  unfold tS1; rw [pay3_eq, pay1_apply]; exact gated192_rows m c _ _ (off1_b_col c) r q
/-- Rows 384..768, the half kept. -/
theorem tK1_apply (c : Dev nD) (r : Fin 192) (q : Fin 1024) :
    tK1 (F := Ideal) m c (ix2 r q) = Pfun m c ((k0_off1 c 384#32 4#32 192#32 0#32) 0 + r.val) q.val := by
  unfold tK1; rw [pay11_eq, pay1_apply]; exact gated192_rows m c _ _ (off1_d_col c) r q
/-- Rows 768..1024, the half sent first. -/
theorem tS2_apply (c : Dev nD) (r : Fin 128) (q : Fin 1024) :
    tS2 (F := Ideal) m c (ix2 r q) = Pfun m c ((k0_off2 c 0#32 128#32) 0 + r.val) q.val := by
  unfold tS2; rw [pay8_apply]; exact gated128_rows m c _ _ (off2_a_col c) r q
/-- Rows 768..1024, the half kept. -/
theorem tK2_apply (c : Dev nD) (r : Fin 128) (q : Fin 1024) :
    tK2 (F := Ideal) m c (ix2 r q) = Pfun m c ((k0_off2 c 128#32 0#32) 0 + r.val) q.val := by
  unfold tK2; rw [pay13_apply]; exact gated128_rows m c _ _ (off2_b_col c) r q

/-! ## A device's own value on a butterfly's range -/

/-- The first row and the number of rows of each butterfly's range. -/
def R0 : Fin 3 → ℕ := ![0, 384, 768]
def BR : Fin 3 → ℕ := ![384, 384, 256]

/-- Rows 0..384: the two tiles start at 0 and 192 in the order bit 1 of the device's index decides, so a row of the
    range that is not in the sent tile is in the kept one, and either tile gives `P_c` at the row. -/
theorem S0_zero (c : Dev nD) (row q : ℕ) (hrow : 0 ≤ row ∧ row < 0 + 384) (hq : q < 1024) :
    S0 (F := Ideal) m 0 c row q = Pfun m c row q := by
  have hqq : q % 1024 = q := Nat.mod_eq_of_lt hq
  have hoff : ((k0_off1 c 0#32 3#32 0#32 192#32) 0 = 0 ∧ (k0_off1 c 0#32 3#32 192#32 0#32) 0 = 192) ∨
      ((k0_off1 c 0#32 3#32 0#32 192#32) 0 = 192 ∧ (k0_off1 c 0#32 3#32 192#32 0#32) 0 = 0) := by
    rw [Mesh.off1_a, Mesh.off1_c]; cases Mesh.hi 1 c <;> simp
  show (if _ then at192 (tS0 m c) _ q else at192 (tK0 m c) _ q) = _
  split_ifs with h
  · unfold at192; rw [tS0_apply]; dsimp only; rw [hqq]; congr 1; omega
  · unfold at192; rw [tK0_apply]; dsimp only; rw [hqq]; congr 1; omega

/-- Rows 384..768: tiles at 384 and 576, bit 2 deciding. -/
theorem S0_one (c : Dev nD) (row q : ℕ) (hrow : 384 ≤ row ∧ row < 384 + 384) (hq : q < 1024) :
    S0 (F := Ideal) m 1 c row q = Pfun m c row q := by
  have hqq : q % 1024 = q := Nat.mod_eq_of_lt hq
  have hoff : ((k0_off1 c 384#32 4#32 0#32 192#32) 0 = 384 ∧ (k0_off1 c 384#32 4#32 192#32 0#32) 0 = 576) ∨
      ((k0_off1 c 384#32 4#32 0#32 192#32) 0 = 576 ∧ (k0_off1 c 384#32 4#32 192#32 0#32) 0 = 384) := by
    rw [Mesh.off1_b, Mesh.off1_d]; cases Mesh.hi 2 c <;> simp
  show (if _ then at192 (tS1 m c) _ q else at192 (tK1 m c) _ q) = _
  split_ifs with h
  · unfold at192; rw [tS1_apply]; dsimp only; rw [hqq]; congr 1; omega
  · unfold at192; rw [tK1_apply]; dsimp only; rw [hqq]; congr 1; omega

/-- Rows 768..1024: tiles at 768 and 896, bit 0 deciding. -/
theorem S0_two (c : Dev nD) (row q : ℕ) (hrow : 768 ≤ row ∧ row < 768 + 256) (hq : q < 1024) :
    S0 (F := Ideal) m 2 c row q = Pfun m c row q := by
  have hqq : q % 1024 = q := Nat.mod_eq_of_lt hq
  have hoff : ((k0_off2 c 0#32 128#32) 0 = 768 ∧ (k0_off2 c 128#32 0#32) 0 = 896) ∨
      ((k0_off2 c 0#32 128#32) 0 = 896 ∧ (k0_off2 c 128#32 0#32) 0 = 768) := by
    rw [Mesh.off2_a, Mesh.off2_b]; cases Mesh.hi 0 c <;> simp
  show (if _ then at128 (tS2 m c) _ q else at128 (tK2 m c) _ q) = _
  split_ifs with h
  · unfold at128; rw [tS2_apply]; dsimp only; rw [hqq]; congr 1; omega
  · unfold at128; rw [tK2_apply]; dsimp only; rw [hqq]; congr 1; omega

/-- On every row of butterfly `b`'s range and every column, the device's own value is its partial product there. -/
theorem S0_eq_Pfun (b : Fin 3) (c : Dev nD) (row q : ℕ) (hrow : R0 b ≤ row ∧ row < R0 b + BR b) (hq : q < 1024) :
    S0 (F := Ideal) m b c row q = Pfun m c row q := by
  match b, hrow with
  | 0, hrow => exact S0_zero m c row q hrow hq
  | 1, hrow => exact S0_one m c row q hrow hq
  | 2, hrow => exact S0_two m c row q hrow hq

end Cert.KernelIdeal.TileValue

end
-- ==== Proof.Bridge.lean ====
/-
  From the all-reduce's row-by-row values to the reference, at the ideal instance (floats are extended reals, every
  operation exact, a change of format the identity).

  * Crossing the wire narrows a value to bf16 and widens it again: the identity here (`wire_ideal`).
  * After the three exchange stages of a butterfly, every device holds, at every row and column, the sum over all
    eight devices of their own values there (`S3_total`): the three masks of each butterfly span the three bits of a
    device's index, so the eight devices reached from any one by the subsets of the masks are all eight.
  * A device's staged blocks are its argument buffers, entry by entry (`xIn_apply` … `dIn_apply`): the window is the
    whole array.
  * Every entry of every argument buffer is a real (`finite_inputs`): the precondition says each entry's absolute value
    is below +∞.
  * The eight devices' partial products at an entry add up to the reference's result there (`total_eq_ref`): device
    `d` holds columns `[2048 d, 2048 d + 2048)` of the two projections' weights and the same rows of the last product's,
    so its partial product is the part of the reference's sum over the 16384 hidden coordinates that lies in its block,
    once multiplying by the logistic of a real `u` is read as dividing `u` by `1 + e^{-u}`.
-/
import proofs.«900524_g7700000000000525_dist_gated_mlp_tp_i_m1024_h2048_d1024_v7x_i8_f32_1_alg».proof.Proof.Vals
import proofs.«900524_g7700000000000525_dist_gated_mlp_tp_i_m1024_h2048_d1024_v7x_i8_f32_1_alg».proof.Proof.Mesh
import proofs.«900524_g7700000000000525_dist_gated_mlp_tp_i_m1024_h2048_d1024_v7x_i8_f32_1_alg».proof.Proof.Algebra
import proofs.«900524_g7700000000000525_dist_gated_mlp_tp_i_m1024_h2048_d1024_v7x_i8_f32_1_alg».proof.Proof.Sched
import proofs.«900524_g7700000000000525_dist_gated_mlp_tp_i_m1024_h2048_d1024_v7x_i8_f32_1_alg».proof.Proof.TileValue
import proofs.«900524_g7700000000000525_dist_gated_mlp_tp_i_m1024_h2048_d1024_v7x_i8_f32_1_alg».proof.Proof.RefSide
import proofs.«900524_g7700000000000525_dist_gated_mlp_tp_i_m1024_h2048_d1024_v7x_i8_f32_1_alg».proof.Proof.Gen.Pre_finite_inputs_Kernel
import proofs.«900524_g7700000000000525_dist_gated_mlp_tp_i_m1024_h2048_d1024_v7x_i8_f32_1_alg».proof.Defs
import Idealize.ShloMosaic.Lib.ReduceAll
import Idealize.ShloMosaic.Lib.Layout
import Idealize.ShloMosaic.Lib.ValueIdx
import Idealize.ShloMosaic.PureOps.Ideal.Laws

noncomputable section

namespace Cert.KernelIdeal.Bridge

open Cert.KernelIdeal Cert.KernelIdeal.Gen Cert.KernelIdeal.Sched
open Idealize.ShloMosaic Idealize.ShloMosaic.TcCoe Idealize.ShloMosaic.ValueIdx
open Idealize.SL.Sem
open scoped BigOperators

variable (m : (ℓ : Loc nD τ sig) → Buf (Elt Ideal) ℓ)

/-! ## The wire, and the three stages of a butterfly -/

/-- Narrowing to bf16 and widening back is the identity on an extended real. -/
theorem wire_ideal (e : Ideal .f32) : wire (F := Ideal) e = e := rfl

/-- After its three exchange stages, butterfly `b` leaves on EVERY device `c`, at every row and column, the sum over
    the eight devices of their own values there. With the wire the identity and the float sum the extended reals'
    sum, the three stages are the three rounds of pairwise exchange under the butterfly's masks. -/
theorem S3_total (b : Fin 3) (c : Dev nD) (row q : ℕ) :
    S3 (F := Ideal) m b c row q = ∑ d : Dev nD, S0 (F := Ideal) m b d row q := by
  unfold S3 S2 S1
  simp only [wire_ideal, Ideal.addf_def]
  fin_cases b
  · exact Cert.Algebra.bfly0_expand (fun d => S0 (F := Ideal) m 0 d row q) c
  · exact Cert.Algebra.bfly1_expand (fun d => S0 (F := Ideal) m 1 d row q) c
  · exact Cert.Algebra.bfly2_expand (fun d => S0 (F := Ideal) m 2 d row q) c

/-! ## A device's staged blocks are its argument buffers

Each window is the whole array at block index 0: the block's rectangle starts at `0 · size` with unit strides, so
its index `j` lies at `0 · size + 1 · j = j` of the array. -/

theorem xIn_apply (c : Dev nD) (i : S1024x1024.Idx) :
    xIn (F := Ideal) m c i = m ((c : Thread nD τ).loc main_arg0) i := by
  unfold xIn
  rw [View.read_apply]
  have he : ∀ j, (win0_0.blk (0 : Fin 1)).view.emb j = j := by
    intro j; funext a; apply Fin.ext
    show 0 * _ + 1 * (j a).val = (j a).val
    omega
  rw [he]; rfl

theorem gIn_apply (c : Dev nD) (i : S1024x2048.Idx) :
    gIn (F := Ideal) m c i = m ((c : Thread nD τ).loc main_arg1) i := by
  unfold gIn
  rw [View.read_apply]
  have he : ∀ j, (win0_1.blk (0 : Fin 1)).view.emb j = j := by
    intro j; funext a; apply Fin.ext
    show 0 * _ + 1 * (j a).val = (j a).val
    omega
  rw [he]; rfl

theorem uIn_apply (c : Dev nD) (i : S1024x2048.Idx) :
    uIn (F := Ideal) m c i = m ((c : Thread nD τ).loc main_arg2) i := by
  unfold uIn
  rw [View.read_apply]
  have he : ∀ j, (win0_2.blk (0 : Fin 1)).view.emb j = j := by
    intro j; funext a; apply Fin.ext
    show 0 * _ + 1 * (j a).val = (j a).val
    omega
  rw [he]; rfl

theorem dIn_apply (c : Dev nD) (i : S2048x1024.Idx) :
    dIn (F := Ideal) m c i = m ((c : Thread nD τ).loc main_arg3) i := by
  unfold dIn
  rw [View.read_apply]
  have he : ∀ j, (win0_3.blk (0 : Fin 1)).view.emb j = j := by
    intro j; funext a; apply Fin.ext
    show 0 * _ + 1 * (j a).val = (j a).val
    omega
  rw [he]; rfl

/-! ## Finiteness: every entry of every argument buffer is a real -/

/-- An extended real whose absolute value is below +∞ (the f32 pattern `0x7F800000`) is a real: at either infinity
    the absolute value is +∞ itself. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | top => simp at h
  | coe r => exact ⟨r, rfl⟩

/-- The rank-0 shape has one index. -/
instance : Subsingleton Cert.Pre_finite_inputs_Kernel.S_.Idx := ⟨fun a b => funext fun d => d.elim0⟩

/-- The precondition is the conjunction, over a device's four argument buffers, of "every entry's absolute value is
    below +∞": each conjunct is a reduction by `and` over all entries that came out 1, so every entry passed the
    comparison, so every entry is a real. -/
theorem finite_inputs (hpre : Cert.Pre_KernelIdeal m) (c : Dev nD) :
    (∀ i, ∃ r : ℝ, m ((c : Thread nD τ).loc main_arg0) i = (r : EReal))
    ∧ (∀ i, ∃ r : ℝ, m ((c : Thread nD τ).loc main_arg1) i = (r : EReal))
    ∧ (∀ i, ∃ r : ℝ, m ((c : Thread nD τ).loc main_arg2) i = (r : EReal))
    ∧ (∀ i, ∃ r : ℝ, m ((c : Thread nD τ).loc main_arg3) i = (r : EReal)) := by
  have h := congrFun (hpre c) ValueIdx.ix0
  dsimp only [Cert.Pre_finite_inputs_Kernel.fn, Cert.Pre_finite_inputs_Kernel.fn_part1] at h
  have h' : IntOp.andi _ _ = 1#1 := h
  obtain ⟨h012, h3⟩ := IntOp.andi_eq_one.1 h'
  have h012' : IntOp.andi _ _ = 1#1 := h012
  obtain ⟨h01, h2⟩ := IntOp.andi_eq_one.1 h012'
  have h01' : IntOp.andi _ _ = 1#1 := h01
  obtain ⟨h0, h1⟩ := IntOp.andi_eq_one.1 h01'
  exact ⟨fun i => real_of_abs_lt_inf _ (Host.reduce_andi_all _ _ _ _ _ h0 i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i)⟩

/-! ## The eight partial products add up to the reference's result -/

/-- One device's partial product at `(p, q)` from its four arrays: the sum over its 2048 hidden coordinates `k` of
    `gate (p, k) · (u · σ(u)) · D (k, q)` with `gate (p, k) = ∑ j, X (p, j) · G (j, k)`, `u = ∑ j, X (p, j) · U (j, k)` and
    `σ` the logistic function. -/
def partialAt (X : S1024x1024.Idx → EReal) (G U : S1024x2048.Idx → EReal) (D : S2048x1024.Idx → EReal)
    (p q : Fin 1024) : EReal :=
  ∑ k : Fin 2048,
    ((∑ j : Fin 1024, X (ix2 p j) * G (ix2 j k)) *
      ((∑ j : Fin 1024, X (ix2 p j) * U (ix2 j k)) * Ideal.logistic (∑ j : Fin 1024, X (ix2 p j) * U (ix2 j k)))) *
    D (ix2 k q)

/-- Device `c`'s partial product at `(p, q)`, from the blocks it starts with. -/
def Pval (c : Dev nD) (p q : Fin 1024) : EReal :=
  partialAt (xIn (F := Ideal) m c) (gIn (F := Ideal) m c) (uIn (F := Ideal) m c) (dIn (F := Ideal) m c) p q

/-- Block `d` of an array cut along its columns into 8 blocks of 2048: its entry `(j, k)` is the whole array's entry
    `(j, 2048 d + k)`. -/
theorem idx_cols (d : Fin 8) (j : Fin 1024) (k : Fin 2048)
    (h : Layout.Tiles ⟨2, ![1024, 2048]⟩ ⟨2, ![1024, 16384]⟩ 1 8) :
    h.idx d (ix2 j k) = ix2 j (⟨d.val * 2048 + k.val, by omega⟩ : Fin 16384) := by
  funext a; apply Fin.ext
  match a with
  | ⟨0, _⟩ => rfl
  | ⟨1, _⟩ => rfl

/-- Block `d` of an array cut along its rows into 8 blocks of 2048: its entry `(k, q)` is the whole array's entry
    `(2048 d + k, q)`. -/
theorem idx_rows (d : Fin 8) (k : Fin 2048) (q : Fin 1024)
    (h : Layout.Tiles ⟨2, ![2048, 1024]⟩ ⟨2, ![16384, 1024]⟩ 0 8) :
    h.idx d (ix2 k q) = ix2 (⟨d.val * 2048 + k.val, by omega⟩ : Fin 16384) q := by
  funext a; apply Fin.ext
  match a with
  | ⟨0, _⟩ => rfl
  | ⟨1, _⟩ => rfl

/-- The sum over the eight devices of their partial products at `(p, q)` is the reference's result there. The
    reference's sum over the 16384 hidden coordinates is cut into the eight blocks of 2048; in block `d` the
    reference's operands are device `d`'s own blocks; and at each hidden coordinate `u = ∑ j, x (p, j) · wu (j, k)` is a
    real, a finite sum of products of reals, so `u · σ(u) = u / (1 + e^{-u})`. -/
theorem total_eq_ref
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg3)))
    (p q : Fin 1024) :
    ∑ d : Dev nD, Pval m d p q
      = Cert.ReferenceIdeal.RefSide.refOut
          (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1))
          (m' (((0 : Dev Cert.ReferenceIdeal.nD).tc : Thread Cert.ReferenceIdeal.nD Cert.ReferenceIdeal.τ).loc Cert.ReferenceIdeal.main_arg2))
          (m' (((0 : Dev Cert.ReferenceIdeal.nD).tc : Thread Cert.ReferenceIdeal.nD Cert.ReferenceIdeal.τ).loc Cert.ReferenceIdeal.main_arg3))
          (ix2 p q) := by
  rw [Cert.ReferenceIdeal.RefSide.refOut_apply, Cert.Algebra.block_sum]
  refine Finset.sum_congr rfl fun d _ => ?_
  unfold Pval partialAt
  refine Finset.sum_congr rfl fun k _ => ?_
  obtain ⟨f0, f1, f2, f3⟩ := finite_inputs m hpre d
  obtain ⟨a0, a1, a2, a3⟩ := hagree d
  have hX : ∀ j : Fin 1024, ∃ r : ℝ, xIn (F := Ideal) m d (ix2 p j) = (r : EReal) := fun j => by
    rw [xIn_apply]; exact f0 _
  have hU : ∀ j : Fin 1024, ∃ r : ℝ, uIn (F := Ideal) m d (ix2 j k) = (r : EReal) := fun j => by
    rw [uIn_apply]; exact f2 _
  rw [Cert.Algebra.gate_eq_of_coe _ _ _ (Cert.Algebra.sum_mul_coe _ _ hX hU)]
  simp only [xIn_apply, gIn_apply, uIn_apply, dIn_apply, a0, a1, a2, a3, Layout.block_apply, idx_cols, idx_rows]

/-- The same for any family `P` of per-device values indexed by natural row and column that agrees with the partial
    products at the row and column reduced modulo 1024. -/
theorem total_eq_ref_nat
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg3)))
    (P : Dev nD → ℕ → ℕ → EReal)
    (hP : ∀ d row q, P d row q
      = Pval m d ⟨row % 1024, Nat.mod_lt _ (by decide)⟩ ⟨q % 1024, Nat.mod_lt _ (by decide)⟩)
    (p q : Fin 1024) :
    ∑ d : Dev nD, P d p.val q.val
      = Cert.ReferenceIdeal.RefSide.refOut
          (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1))
          (m' (((0 : Dev Cert.ReferenceIdeal.nD).tc : Thread Cert.ReferenceIdeal.nD Cert.ReferenceIdeal.τ).loc Cert.ReferenceIdeal.main_arg2))
          (m' (((0 : Dev Cert.ReferenceIdeal.nD).tc : Thread Cert.ReferenceIdeal.nD Cert.ReferenceIdeal.τ).loc Cert.ReferenceIdeal.main_arg3))
          (ix2 p q) := by
  rw [← total_eq_ref m m' hpre hagree p q]
  refine Finset.sum_congr rfl fun d _ => ?_
  rw [hP]
  congr 1 <;> exact Fin.ext (Nat.mod_eq_of_lt (Fin.isLt _))

/-! ## The result the body leaves on a device is the reference's result -/

/-- Every row below 1024 lies in the range of its own butterfly: rows `[0, 384)`, `[384, 768)`, `[768, 1024)`. -/
theorem bOf_range (row : ℕ) (h : row < 1024) :
    TileValue.R0 (bOf row) ≤ row ∧ row < TileValue.R0 (bOf row) + TileValue.BR (bOf row) := by
  unfold bOf
  split_ifs with h1 h2
  · show 0 ≤ row ∧ row < 0 + 384
    omega
  · show 384 ≤ row ∧ row < 384 + 384
    omega
  · show 768 ≤ row ∧ row < 768 + 256
    omega

/-- What the body leaves on device `c` is the reference's result, entry by entry: at `(p, q)` it is the total of the
    butterfly that owns row `p`, as formed on the device that owns the row's quarter; that total is the sum over the
    eight devices of their own values at `(p, q)`, each of which is the device's partial product there, and the partial
    products add up to the reference's result. -/
theorem outFin_eq_ref
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg3)))
    (c : Dev nD) :
    outFin (F := Ideal) m c
      = Cert.ReferenceIdeal.RefSide.refOut
          (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1))
          (m' (((0 : Dev Cert.ReferenceIdeal.nD).tc : Thread Cert.ReferenceIdeal.nD Cert.ReferenceIdeal.τ).loc Cert.ReferenceIdeal.main_arg2))
          (m' (((0 : Dev Cert.ReferenceIdeal.nD).tc : Thread Cert.ReferenceIdeal.nD Cert.ReferenceIdeal.τ).loc Cert.ReferenceIdeal.main_arg3)) := by
  funext i
  obtain ⟨p, q, rfl⟩ : ∃ (p q : Fin 1024), i = ix2 p q := ⟨i 0, i 1, eq_ix2 i⟩
  show wire (F := Ideal) (Tot (F := Ideal) m (bOf p.val) c p.val q.val) = _
  rw [wire_ideal]
  unfold Tot
  rw [S3_total, ← total_eq_ref_nat m m' hpre hagree (TileValue.Pfun m) (fun _ _ _ => rfl) p q]
  refine Finset.sum_congr rfl fun d _ => ?_
  exact TileValue.S0_eq_Pfun m (bOf p.val) d p.val q.val (bOf_range p.val p.isLt) q.isLt

end Cert.KernelIdeal.Bridge

end
-- ==== Proof.Iface.lean ====
/-
  The contract between the body and the launch: the cells' names and levels, what a device owes at launch in the order
  it pays, the ghost state a body starts from, the pipeline's proof data, and the body obligation as one proposition.
-/
import proofs.«900524_g7700000000000525_dist_gated_mlp_tp_i_m1024_h2048_d1024_v7x_i8_f32_1_alg».proof.Proof.Sched

noncomputable section

namespace Cert.KernelIdeal.Iface

open Cert.KernelIdeal Cert.KernelIdeal.Gen Cert.KernelIdeal.Sched

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's cells: none its barrier cell, some (A, b, k) a DMA cell. -/
abbrev CIx : Type := Option (Fin 4 × Fin 3 × Fin 3)
def kcell (ck : Dev nD × CIx) : GSem nD τ sig :=
  match ck.2 with
  | none => barCell ck.1
  | some (A, b, k) => dcell A b k ck.1

/-! ## Levels: a barrier cell below every receive cell; receive cells in the order their waits come -/

def L (g : GSem nD τ sig) : Finset Unit := if g.1.2 = .tc then {()} else ∅
def lv (g : GSem nD τ sig) (_ : Unit) : ℕ :=
  match g.2 with
  | .reg s => if s = barS then 1 else 0
  | .dma q =>
    match dec q with
    | some (A, _, k) => if A = 1 then 2 + k.val else if A = 3 then (if k.val = 1 then 5 else if k.val = 0 then 6 else 0) else 0
    | none => 0

/-! ## What a device owes at launch, in the order it pays: four entry signals, then its fifteen blocks' arrivals -/

def pay (c : Dev nD) : Fin 19 → CellTallies nD τ sig Unit
  | ⟨0, _⟩ => tallyAt (barCell (Mesh.px 1 c)) () 1
  | ⟨1, _⟩ => tallyAt (barCell (Mesh.px 2 c)) () 1
  | ⟨2, _⟩ => tallyAt (barCell (Mesh.px 3 c)) () 1
  | ⟨3, _⟩ => tallyAt (barCell (Mesh.px 4 c)) () 1
  | ⟨4, _⟩ => tallyAt (dcell 1 0 0 (Mesh.px 3 c)) () (namt 1 0 0)
  | ⟨5, _⟩ => tallyAt (dcell 1 1 0 (Mesh.px 4 c)) () (namt 1 1 0)
  | ⟨6, _⟩ => tallyAt (dcell 1 2 0 (Mesh.px 1 c)) () (namt 1 2 0)
  | ⟨7, _⟩ => tallyAt (dcell 1 0 1 (Mesh.px 1 c)) () (namt 1 0 1)
  | ⟨8, _⟩ => tallyAt (dcell 1 1 1 (Mesh.px 3 c)) () (namt 1 1 1)
  | ⟨9, _⟩ => tallyAt (dcell 1 2 1 (Mesh.px 4 c)) () (namt 1 2 1)
  | ⟨10, _⟩ => tallyAt (dcell 1 0 2 (Mesh.px 4 c)) () (namt 1 0 2)
  | ⟨11, _⟩ => tallyAt (dcell 1 1 2 (Mesh.px 1 c)) () (namt 1 1 2)
  | ⟨12, _⟩ => tallyAt (dcell 1 2 2 (Mesh.px 2 c)) () (namt 1 2 2)
  | ⟨13, _⟩ => tallyAt (dcell 3 0 1 (Mesh.px 1 c)) () (namt 3 0 1)
  | ⟨14, _⟩ => tallyAt (dcell 3 1 1 (Mesh.px 3 c)) () (namt 3 1 1)
  | ⟨15, _⟩ => tallyAt (dcell 3 2 1 (Mesh.px 4 c)) () (namt 3 2 1)
  | ⟨16, _⟩ => tallyAt (dcell 3 0 0 (Mesh.px 3 c)) () (namt 3 0 0)
  | ⟨17, _⟩ => tallyAt (dcell 3 1 0 (Mesh.px 4 c)) () (namt 3 1 0)
  | ⟨18, _⟩ => tallyAt (dcell 3 2 0 (Mesh.px 1 c)) () (namt 3 2 0)
  | ⟨_ + 19, h⟩ => absurd h (Nat.not_lt.2 (Nat.le_add_left _ _))

/-- What is still owed after the first n payments: the later ones summed so that the next payment is the last summand. -/
def Orem (c : Dev nD) : ℕ → CellTallies nD τ sig Unit
  | n => if h : n < 19 then Orem c (n + 1) + pay c ⟨n, h⟩ else 0
termination_by n => 19 - n

theorem Orem_lt (c : Dev nD) (n : ℕ) (h : n < 19) : Orem c n = Orem c (n + 1) + pay c ⟨n, h⟩ := by
  rw [Orem, dif_pos h]
theorem Orem_done (c : Dev nD) : Orem c 19 = 0 := by rw [Orem, dif_neg (by decide)]

/-! ## The ghost state a body starts from -/

/-- Every cell's invariant at the names the launch allocated, and that every cell is at round 0 (persistent). -/
def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)

/-- Device c's positions on its own cells. -/
def positions (c : Dev nD) : sProp 𝕄 := bigSep Finset.univ fun ix : CIx => atPos ER (kcell (c, ix)) 0 ∅ 0

/-- The tokens of the duties device c pays: its partners' barrier duties, its partners' receive duties, its own send duties. -/
def payToks (c : Dev nD) : sProp 𝕄 :=
  iprop((bigSep Finset.univ fun j : Fin 4 => dutyTok ER (barCell (Mesh.px (j.val + 1) c)) 0 j)
    ∗ (bigSep Finset.univ fun bk : Fin 3 × Fin 3 => dutyTok ER (dcell 1 bk.1 bk.2 (Mesh.px (mask bk.1 bk.2) c)) 0 (0 : Fin 4))
    ∗ (bigSep Finset.univ fun bk : Fin 3 × Fin 2 => dutyTok ER (dcell 3 bk.1 bk.2.castSucc (Mesh.px (mask bk.1 bk.2.castSucc) c)) 0 (0 : Fin 4))
    ∗ (bigSep Finset.univ fun bk : Fin 3 × Fin 3 => dutyTok ER (dcell 0 bk.1 bk.2 c) 0 (0 : Fin 4))
    ∗ (bigSep Finset.univ fun bk : Fin 3 × Fin 2 => dutyTok ER (dcell 2 bk.1 bk.2.castSucc c) 0 (0 : Fin 4)))

/-- The credit a device is dealt at launch for what its partners owe it. -/
def creds (c : Dev nD) : sProp 𝕄 :=
  iprop(cred (tallyAt (barCell c) () 4)
    ∗ (bigSep Finset.univ fun bk : Fin 3 × Fin 3 => cred (tallyAt (dcell 1 bk.1 bk.2 c) () (namt 1 bk.1 bk.2)))
    ∗ (bigSep Finset.univ fun bk : Fin 3 × Fin 2 => cred (tallyAt (dcell 3 bk.1 bk.2.castSucc c) () (namt 3 bk.1 bk.2.castSucc))))

def ghost (K : Dev nD × CIx → ℕ) (c : Dev nD) : sProp 𝕄 := iprop(records m K ∗ positions c ∗ payToks c)

def start (c : Dev nD) : sProp 𝕄 := iprop((∃ K, ghost m K c) ∗ creds c ∗ levAts L lv)

/-- The three scratch buffers, whole, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scr c)
/-- After the body: the scratch buffers again, and the kernel's thirty-six own semaphores at zero, closed. -/
def Φ₁ (c : Dev nD) : sProp 𝕄 :=
  iprop(scr c ∗ bigSep Finset.univ fun x : Fin 4 × Fin 3 × Fin 3 => semVal (dcell x.1 x.2.1 x.2.2 c) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => gIn m c
    | ⟨2, _⟩ => uIn m c
    | ⟨3, _⟩ => dIn m c
    | ⟨4, _⟩ => outFin m c
    | ⟨_ + 5, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => Orem c 0
    | ⟨_ + 1, _⟩ => 0

abbrev 𝒱₀ : Variants := Variants.none

/-- The body obligation on device c: what the body's proof delivers and the launch consumes. -/
def BodyOb (c : Dev nD) : Prop := BodyObligation (dats (F := F) m ρ 0 c) (defs₀ (F := F)) 𝒱₀ () Set.univ

end Cert.KernelIdeal.Iface

end
-- ==== Proof.Stor.lean ====
/-
  The schedule's payloads are assertions an invariant can hold: each is a points-to at some contents, a pure fact about
  those contents, and reached-marks, joined by separating conjunction.
-/
import proofs.«900524_g7700000000000525_dist_gated_mlp_tp_i_m1024_h2048_d1024_v7x_i8_f32_1_alg».proof.Proof.Sched

noncomputable section

namespace Cert.KernelIdeal.Sched

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option synthInstance.maxHeartbeats 400000 in
instance barPay_storable (j : Fin 4) (c : Dev nD) : BI.Storable (upEmb : UEmb _ 𝕄) (barPay (F := F) j c) := by
  unfold barPay; split <;> infer_instance
instance rsRecvPay_storable (b k : Fin 3) (c : Dev nD) : BI.Storable (upEmb : UEmb _ 𝕄) (rsRecvPay m b k c) := by
  unfold rsRecvPay; split <;> infer_instance
instance rsSendPay_storable (b k : Fin 3) (c : Dev nD) : BI.Storable (upEmb : UEmb _ 𝕄) (rsSendPay (F := F) b k c) := by
  unfold rsSendPay; split <;> infer_instance
instance agRecvPay_storable (b k : Fin 3) (c : Dev nD) : BI.Storable (upEmb : UEmb _ 𝕄) (agRecvPay m b k c) := by
  unfold agRecvPay; split <;> infer_instance
instance agSendPay_storable (b k : Fin 3) (c : Dev nD) : BI.Storable (upEmb : UEmb _ 𝕄) (agSendPay (F := F) b k c) := by
  unfold agSendPay; split <;> infer_instance
instance dpay_storable (A : Fin 4) (b k : Fin 3) (c : Dev nD) : BI.Storable (upEmb : UEmb _ 𝕄) (dpay m A b k c) := by
  unfold dpay; split <;> infer_instance

/-- Every payload of the schedule can be stored. -/
instance rd_payload_storable (g : GSem nD τ sig) (r : ℕ) (d : Fin 4) : BI.Storable (upEmb : UEmb _ 𝕄) ((Rd m).payload g r d) := by
  unfold Rd; dsimp only
  split
  · split <;> infer_instance
  · split <;> infer_instance

end Cert.KernelIdeal.Sched

end
-- ==== Proof.Launch.lean ====
/-
  The launch: from the body obligation on every device to the run of @main on the mesh, every array named. The eight
  devices' thirty-seven cells each (a barrier cell and thirty-six DMA cells) are funded under one update; every cell's
  invariant is allocated for all devices at once and shared; the duty tokens are dealt to the devices that pay them,
  along the partner maps c xor mask; the launch credit is what the partners owe each device's cells.
-/
import proofs.«900524_g7700000000000525_dist_gated_mlp_tp_i_m1024_h2048_d1024_v7x_i8_f32_1_alg».proof.Proof.Iface
import proofs.«900524_g7700000000000525_dist_gated_mlp_tp_i_m1024_h2048_d1024_v7x_i8_f32_1_alg».proof.Proof.Stor
import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.Sched

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Iface

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores: the thirty-six DMA semaphores of its four semaphore arrays -/

abbrev OIx : Type := Fin 4 × Fin 3 × Fin 3
abbrev osem : OIx → SemLoc sig := fun x => .dma (dsem x.1 x.2.1 x.2.2)

theorem ownSemFacts : Pipeline.OwnSemFacts cfg0.spec osem := by decide

theorem share_eq (c : Dev nD) (w : Fin cfg0.W) : (dats m ρ 0 c).share w = fullShare := by unfold Dat.share; split <;> rfl

/-! ## The partner maps -/

theorem mask_lt : ∀ b k : Fin 3, mask b k < 8 := by decide

/-- c ↦ c xor mk, an involution of the mesh. -/
def pxE (mk : ℕ) (h : mk < 8) : Dev nD ≃ Dev nD := ⟨Mesh.px mk, Mesh.px mk, Mesh.px_px mk h, Mesh.px_px mk h⟩

/-! ## The cells and the duty tokens minted at launch -/

theorem dsem_inj {A A' : Fin 4} {b b' k k' : Fin 3} (h : dsem A b k = dsem A' b' k') : (A, b, k) = (A', b', k') := by
  have h' := congrArg dec h
  rw [dec_dsem, dec_dsem] at h'
  exact Option.some.inj h'

theorem kcell_injective : Function.Injective (kcell : Dev nD × CIx → GSem nD τ sig) := by
  rintro ⟨c, ix⟩ ⟨c', ix'⟩ h
  have h1 : c = c' := by
    have := congrArg (fun g : GSem nD τ sig => g.1.1) h
    cases ix <;> cases ix' <;> exact this
  subst h1
  cases ix with
  | none =>
    cases ix' with
    | none => rfl
    | some y =>
      have h2 : (SemLoc.reg barS : SemLoc sig) = SemLoc.dma (dsem y.1 y.2.1 y.2.2) := congrArg Prod.snd h
      cases h2
  | some x =>
    cases ix' with
    | none =>
      have h2 : (SemLoc.dma (dsem x.1 x.2.1 x.2.2) : SemLoc sig) = SemLoc.reg barS := congrArg Prod.snd h
      cases h2
    | some y =>
      have h2 : (SemLoc.dma (dsem x.1 x.2.1 x.2.2) : SemLoc sig) = SemLoc.dma (dsem y.1 y.2.1 y.2.2) := congrArg Prod.snd h
      have h3 : (x.1, x.2.1, x.2.2) = (y.1, y.2.1, y.2.2) := dsem_inj (SemLoc.dma.inj h2)
      have h4 : x = y := h3
      rw [h4]

def allCells : Finset (GSem nD τ sig) := Finset.univ.map ⟨kcell, kcell_injective⟩

/-- The duties with a token: the barrier cell's four, and duty 0 of each DMA cell in use. -/
abbrev TIx : Type := Fin 4 ⊕ (Fin 3 × Fin 3) ⊕ (Fin 3 × Fin 2) ⊕ (Fin 3 × Fin 3) ⊕ (Fin 3 × Fin 2)

def tkey : TIx → CIx × Fin 4
  | .inl j => (none, j)
  | .inr (.inl bk) => (some (1, bk.1, bk.2), 0)
  | .inr (.inr (.inl bk)) => (some (3, bk.1, bk.2.castSucc), 0)
  | .inr (.inr (.inr (.inl bk))) => (some (0, bk.1, bk.2), 0)
  | .inr (.inr (.inr (.inr bk))) => (some (2, bk.1, bk.2.castSucc), 0)

theorem tkey_injective : Function.Injective tkey := by decide

def tokOf (ct : Dev nD × TIx) : GSem nD τ sig × ℕ × Fin 4 := (kcell (ct.1, (tkey ct.2).1), 0, (tkey ct.2).2)

theorem tokOf_injective : Function.Injective tokOf := by
  rintro ⟨c, t⟩ ⟨c', t'⟩ h
  have h1 : (c, (tkey t).1) = (c', (tkey t').1) := kcell_injective (congrArg Prod.fst h)
  have h2 : (tkey t).2 = (tkey t').2 := congrArg (fun x : GSem nD τ sig × ℕ × Fin 4 => x.2.2) h
  have hc : c = c' := congrArg Prod.fst h1
  have hk : tkey t = tkey t' := Prod.ext (congrArg Prod.snd h1) h2
  rw [hc, tkey_injective hk]

def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

/-- The duty tokens of device c's own cells. -/
def toks (c : Dev nD) : sProp 𝕄 :=
  iprop((bigSep Finset.univ fun j : Fin 4 => dutyTok ER (barCell c) 0 j)
    ∗ (bigSep Finset.univ fun bk : Fin 3 × Fin 3 => dutyTok ER (dcell 1 bk.1 bk.2 c) 0 (0 : Fin 4))
    ∗ (bigSep Finset.univ fun bk : Fin 3 × Fin 2 => dutyTok ER (dcell 3 bk.1 bk.2.castSucc c) 0 (0 : Fin 4))
    ∗ (bigSep Finset.univ fun bk : Fin 3 × Fin 3 => dutyTok ER (dcell 0 bk.1 bk.2 c) 0 (0 : Fin 4))
    ∗ (bigSep Finset.univ fun bk : Fin 3 × Fin 2 => dutyTok ER (dcell 2 bk.1 bk.2.castSucc c) 0 (0 : Fin 4)))

theorem toks_eq (c : Dev nD) :
    (bigSep Finset.univ fun t : TIx => (dutyTok ER (tokOf (c, t)).1 (tokOf (c, t)).2.1 (tokOf (c, t)).2.2 : sProp 𝕄)) = toks c := by
  unfold toks
  rw [bigSep_univ_sum, bigSep_univ_sum, bigSep_univ_sum, bigSep_univ_sum]
  rfl

/-- What the launch element deals device c: its cells' round states, its positions and reached-marks, its cells' tokens. -/
def G (c : Dev nD) : sProp 𝕄 :=
  iprop((bigSep Finset.univ fun ix : CIx => roundState ER (Rd m) (kcell (c, ix)) 0)
    ∗ (bigSep Finset.univ fun ix : CIx => iprop(atPos ER (kcell (c, ix)) 0 ∅ 0 ∗ reached ER (kcell (c, ix)) 0)) ∗ toks c)

/-- What the global step makes of it. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun ix : CIx => Φ (kcell (c, ix)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells' invariants allocated at once, the tokens dealt to their payers -/

theorem bigSep_univ_option {α : Type} [Fintype α] (Φ : Option α → sProp 𝕄) :
    bigSep Finset.univ Φ = iprop((bigSep Finset.univ fun a : α => Φ (some a)) ∗ Φ none) := by
  rw [bigSep_univ_equiv (Equiv.optionEquivSumPUnit.{0, 0} α).symm Φ, bigSep_univ_sum, bigSep_univ_of_subsingleton PUnit.unit.{1}]
  rfl

/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun ix : CIx => semVal (kcell (c, ix)) 0 : sProp 𝕄) := by
  rw [unscopedSems0_eq, bigSep_univ_option]
  exact BI.Entails.refl _

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ix : CIx => iprop(∃ κ : ℕ, cellInv ER (Rd m) κ (kcell (c, ix))))
          ∗ (bigSep Finset.univ fun ix : CIx => iprop(atPos ER (kcell (c, ix)) 0 ∅ 0 ∗ reached ER (kcell (c, ix)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun ix : CIx => semVal (kcell (c, ix)) 0) ∗ bigSep Finset.univ fun ix : CIx => roundState ER (Rd m) (kcell (c, ix)) 0)
      ⊢ (|={Set.univ}=> bigSep Finset.univ fun ix : CIx => iprop(∃ κ : ℕ, cellInv ER (Rd m) κ (kcell (c, ix))) : sProp 𝕄) from by
        rw [← bigSep_sep']
        exact (bigSep_mono fun ix _ => (Rounds.body_intro ER (Rd m) (kcell (c, ix))).trans inv_alloc).trans (bigSep_fupd _ _)) $$ [Hv Hst] with Hinv
  · isplitl [Hv] <;> iassumption
  imodintro
  isplitl [Hinv]; · iexact Hinv
  isplitl [Hat]; · iexact Hat
  iexact Htok

instance records_persistent (K : Dev nD × CIx → ℕ) : BI.Persistent (records m K) := by unfold records; infer_instance

/-- The tokens dealt around: duty j of a barrier cell goes to the partner c xor (j+1); a receive cell's token to the
    partner under its stage's mask; a send cell's token stays. -/
theorem toks_around : (bigSep Finset.univ fun c : Dev nD => (toks c : sProp 𝕄)) ⊢ bigSep Finset.univ fun c : Dev nD => payToks c := by
  have h1 : (bigSep Finset.univ fun c : Dev nD => bigSep Finset.univ fun j : Fin 4 => (dutyTok ER (barCell c) 0 j : sProp 𝕄))
      = bigSep Finset.univ fun c : Dev nD => bigSep Finset.univ fun j : Fin 4 => (dutyTok ER (barCell (Mesh.px (j.val + 1) c)) 0 j : sProp 𝕄) := by
    rw [bigSep_univ_comm, bigSep_univ_comm (fun (c : Dev nD) (j : Fin 4) => (dutyTok ER (barCell (Mesh.px (j.val + 1) c)) 0 j : sProp 𝕄))]
    exact bigSep_congr fun j _ => bigSep_univ_equiv (pxE (j.val + 1) (by omega)) _
  have h2 : (bigSep Finset.univ fun c : Dev nD => bigSep Finset.univ fun bk : Fin 3 × Fin 3 => (dutyTok ER (dcell 1 bk.1 bk.2 c) 0 (0 : Fin 4) : sProp 𝕄))
      = bigSep Finset.univ fun c : Dev nD => bigSep Finset.univ fun bk : Fin 3 × Fin 3 => (dutyTok ER (dcell 1 bk.1 bk.2 (Mesh.px (mask bk.1 bk.2) c)) 0 (0 : Fin 4) : sProp 𝕄) := by
    rw [bigSep_univ_comm, bigSep_univ_comm (fun (c : Dev nD) (bk : Fin 3 × Fin 3) => (dutyTok ER (dcell 1 bk.1 bk.2 (Mesh.px (mask bk.1 bk.2) c)) 0 (0 : Fin 4) : sProp 𝕄))]
    exact bigSep_congr fun bk _ => bigSep_univ_equiv (pxE (mask bk.1 bk.2) (mask_lt _ _)) _
  have h3 : (bigSep Finset.univ fun c : Dev nD => bigSep Finset.univ fun bk : Fin 3 × Fin 2 => (dutyTok ER (dcell 3 bk.1 bk.2.castSucc c) 0 (0 : Fin 4) : sProp 𝕄))
      = bigSep Finset.univ fun c : Dev nD => bigSep Finset.univ fun bk : Fin 3 × Fin 2 => (dutyTok ER (dcell 3 bk.1 bk.2.castSucc (Mesh.px (mask bk.1 bk.2.castSucc) c)) 0 (0 : Fin 4) : sProp 𝕄) := by
    rw [bigSep_univ_comm, bigSep_univ_comm (fun (c : Dev nD) (bk : Fin 3 × Fin 2) => (dutyTok ER (dcell 3 bk.1 bk.2.castSucc (Mesh.px (mask bk.1 bk.2.castSucc) c)) 0 (0 : Fin 4) : sProp 𝕄))]
    exact bigSep_congr fun bk _ => bigSep_univ_equiv (pxE (mask bk.1 bk.2.castSucc) (mask_lt _ _)) _
  unfold toks payToks
  rw [bigSep_sep', bigSep_sep', bigSep_sep', bigSep_sep', bigSep_sep', bigSep_sep', bigSep_sep', bigSep_sep', h1, h2, h3]

theorem ghost_intro (K : Dev nD × CIx → ℕ) (c : Dev nD) : iprop(records m K ∗ (positions c ∗ payToks c)) ⊢ G' m c := by
  unfold G' ghost
  iintro ⟨HR, HP, HT⟩
  iexists K
  isplitl [HR]; · iexact HR
  isplitl [HP] <;> iassumption

theorem regroup :
    (bigSep Finset.univ fun c : Dev nD => iprop((bigSep Finset.univ fun ix : CIx => iprop(∃ κ : ℕ, cellInv ER (Rd m) κ (kcell (c, ix))))
          ∗ (bigSep Finset.univ fun ix : CIx => iprop(atPos ER (kcell (c, ix)) 0 ∅ 0 ∗ reached ER (kcell (c, ix)) 0)) ∗ toks c) : sProp 𝕄)
      ⊢ bigSep Finset.univ (G' m) := by
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun ix : CIx => (atPos ER (kcell (c, ix)) 0 ∅ 0 : sProp 𝕄)) (fun ix => reached ER (kcell (c, ix)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · (unfold positions; iexact Hat)
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Levels: every cell a device owes sits above the staging cells -/

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) : lv (barCell d) () = 1 := by
  unfold lv; dsimp only; exact if_pos rfl

theorem lv_dcell (A : Fin 4) (b k : Fin 3) (d : Dev nD) :
    lv (dcell A b k d) () = if A = 1 then 2 + k.val else if A = 3 then (if k.val = 1 then 5 else if k.val = 0 then 6 else 0) else 0 := by
  unfold lv; dsimp only; rw [dec_dsem]

theorem pay_pos {c : Dev nD} {i : Fin 19} {g : GSem nD τ sig} {u : Unit} (h : 0 < pay c i g u) : g.1.2 = .tc ∧ 0 < lv g () := by
  have key : ∀ (g₀ : GSem nD τ sig) (n : ℕ), g₀.1.2 = .tc → 0 < lv g₀ () → 0 < tallyAt g₀ () n g u → g.1.2 = .tc ∧ 0 < lv g () := by
    intro g₀ n h1 h2 h3
    obtain ⟨rfl, -⟩ := Pipeline.tallyAt_pos h3
    exact ⟨h1, h2⟩
  fin_cases i <;> first
    | exact key _ _ rfl (by rw [lv_bar]; exact Nat.one_pos) h
    | exact key _ _ rfl (by rw [lv_dcell]; decide) h

theorem Orem_pos (c : Dev nD) {g : GSem nD τ sig} {u : Unit} :
    ∀ (k n : ℕ), n + k = 19 → 0 < Orem c n g u → ∃ i : Fin 19, 0 < pay c i g u
  | 0, n, hn, h => by
    have hn' : n = 19 := by omega
    subst hn'
    rw [Orem_done, Pi.zero_apply, Finsupp.zero_apply] at h
    exact absurd h (Nat.lt_irrefl 0)
  | k + 1, n, hn, h => by
    have hlt : n < 19 := by omega
    rw [Orem_lt c n hlt] at h
    rcases Pipeline.add_pos_cases h with h | h
    · exact Orem_pos c k (n + 1) (by omega) h
    · exact ⟨_, h⟩

theorem mayWait_stage (c : Dev nD) (q : DmaSem sig) (hq : lv ((c : Thread nD τ), .dma q) () = 0) (O : CellTallies nD τ sig Unit)
    (hO : O = Orem c 0 ∨ O = 0) :
    (levAts L lv : sProp 𝕄) ⊢ MayWait (c : Thread nD τ) (.dma q) () O := by
  rcases hO with rfl | rfl
  · exact Pipeline.mayWait_of_levAts (by rw [L_tc]; exact Finset.mem_singleton_self _) fun g i hg => by
      obtain ⟨j, hj⟩ := Orem_pos c 19 0 rfl hg
      obtain ⟨h1, h2⟩ := pay_pos hj
      refine ⟨?_, ?_⟩
      · unfold L; rw [if_pos h1]; exact Finset.mem_singleton_self _
      · rw [hq]; exact h2
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The launch credit: each unit a device's cells are owed has exactly one payer -/

theorem launchCred_step (c : Dev nD) (n : ℕ) (h : n < 19) :
    (Pipeline.launchCred (fun d => Orem d n) c : sProp 𝕄)
      = iprop(Pipeline.launchCred (fun d => Orem d (n + 1)) c ∗ Pipeline.launchCred (fun d => pay d ⟨n, h⟩) c) := by
  rw [show (fun d : Dev nD => Orem d n) = fun d => Orem d (n + 1) + pay d ⟨n, h⟩ from funext fun d => Orem_lt d n h]
  exact Pipeline.launchCred_add _ _ c

/-- Every device owing n units on semaphore sm of its partner under mk, device c is dealt n units' credit on its own sm. -/
theorem cred_at (sm : SemLoc sig) (mk : ℕ) (hmk : mk < 8) (n : ℕ) (c : Dev nD) :
    (Pipeline.launchCred (fun d => tallyAt ((Mesh.px mk d : Thread nD τ), sm) () n) c : sProp 𝕄) ⊢ cred (tallyAt ((c : Thread nD τ), sm) () n) :=
  Pipeline.launchCred_tallyAt sm (Mesh.px mk) (Mesh.px mk) (Mesh.px_px mk hmk) (Mesh.px_px mk hmk) () n c

/-- The same, for the payment at position i of the devices' lists, once it is read as such a tally. -/
theorem cred_pay (i : Fin 19) (sm : SemLoc sig) (mk : ℕ) (hmk : mk < 8) (n : ℕ) (c : Dev nD)
    (h : ∀ d : Dev nD, pay d i = tallyAt ((Mesh.px mk d : Thread nD τ), sm) () n) :
    (Pipeline.launchCred (fun d => pay d i) c : sProp 𝕄) ⊢ cred (tallyAt ((c : Thread nD τ), sm) () n) := by
  rw [show (fun d : Dev nD => pay d i) = fun d => tallyAt ((Mesh.px mk d : Thread nD τ), sm) () n from funext h]
  exact cred_at sm mk hmk n c

theorem cred_join (g : GSem nD τ sig) (a b : ℕ) :
    iprop(cred (tallyAt g () a) ∗ cred (tallyAt g () b)) ⊢ (cred (tallyAt g () (a + b)) : sProp 𝕄) := by
  rw [← tallyAt_add]; exact (cred_add _ _).2

theorem bigSep_33 (Φ : Fin 3 × Fin 3 → sProp 𝕄) :
    bigSep Finset.univ Φ = iprop(Φ (0, 0) ∗ Φ (1, 0) ∗ Φ (2, 0) ∗ Φ (0, 1) ∗ Φ (1, 1) ∗ Φ (2, 1) ∗ Φ (0, 2) ∗ Φ (1, 2) ∗ Φ (2, 2)) :=
  bigSep_univ_eq_bigSepL [(0, 0), (1, 0), (2, 0), (0, 1), (1, 1), (2, 1), (0, 2), (1, 2), (2, 2)] (by decide) (by decide) Φ
theorem bigSep_32 (Φ : Fin 3 × Fin 2 → sProp 𝕄) :
    bigSep Finset.univ Φ = iprop(Φ (0, 1) ∗ Φ (1, 1) ∗ Φ (2, 1) ∗ Φ (0, 0) ∗ Φ (1, 0) ∗ Φ (2, 0)) :=
  bigSep_univ_eq_bigSepL [(0, 1), (1, 1), (2, 1), (0, 0), (1, 0), (2, 0)] (by decide) (by decide) Φ

theorem creds_intro (c : Dev nD) : (Pipeline.launchCred (fun d => Orem d 0) c : sProp 𝕄) ⊢ creds c := by
  rw [launchCred_step c 0 (by decide), launchCred_step c 1 (by decide), launchCred_step c 2 (by decide), launchCred_step c 3 (by decide),
    launchCred_step c 4 (by decide), launchCred_step c 5 (by decide), launchCred_step c 6 (by decide), launchCred_step c 7 (by decide),
    launchCred_step c 8 (by decide), launchCred_step c 9 (by decide), launchCred_step c 10 (by decide), launchCred_step c 11 (by decide),
    launchCred_step c 12 (by decide), launchCred_step c 13 (by decide), launchCred_step c 14 (by decide), launchCred_step c 15 (by decide),
    launchCred_step c 16 (by decide), launchCred_step c 17 (by decide), launchCred_step c 18 (by decide)]
  unfold creds
  rw [bigSep_33, bigSep_32]
  iintro ⟨⟨⟨⟨⟨⟨⟨⟨⟨⟨⟨⟨⟨⟨⟨⟨⟨⟨⟨-, H18⟩, H17⟩, H16⟩, H15⟩, H14⟩, H13⟩, H12⟩, H11⟩, H10⟩, H9⟩, H8⟩, H7⟩, H6⟩, H5⟩, H4⟩, H3⟩, H2⟩, H1⟩, H0⟩
  ihave C0 := (cred_pay (F := F) ⟨0, by first | decide | skip⟩ (.reg barS) 1 (by decide) 1 c (fun _ => rfl)) $$ H0
  ihave C1 := (cred_pay (F := F) ⟨1, by first | decide | skip⟩ (.reg barS) 2 (by decide) 1 c (fun _ => rfl)) $$ H1
  ihave C2 := (cred_pay (F := F) ⟨2, by first | decide | skip⟩ (.reg barS) 3 (by decide) 1 c (fun _ => rfl)) $$ H2
  ihave C3 := (cred_pay (F := F) ⟨3, by first | decide | skip⟩ (.reg barS) 4 (by decide) 1 c (fun _ => rfl)) $$ H3
  ihave C4 := (cred_pay (F := F) ⟨4, by first | decide | skip⟩ (.dma (dsem 1 0 0)) 3 (by decide) (namt 1 0 0) c (fun _ => rfl)) $$ H4
  ihave C5 := (cred_pay (F := F) ⟨5, by first | decide | skip⟩ (.dma (dsem 1 1 0)) 4 (by decide) (namt 1 1 0) c (fun _ => rfl)) $$ H5
  ihave C6 := (cred_pay (F := F) ⟨6, by first | decide | skip⟩ (.dma (dsem 1 2 0)) 1 (by decide) (namt 1 2 0) c (fun _ => rfl)) $$ H6
  ihave C7 := (cred_pay (F := F) ⟨7, by first | decide | skip⟩ (.dma (dsem 1 0 1)) 1 (by decide) (namt 1 0 1) c (fun _ => rfl)) $$ H7
  ihave C8 := (cred_pay (F := F) ⟨8, by first | decide | skip⟩ (.dma (dsem 1 1 1)) 3 (by decide) (namt 1 1 1) c (fun _ => rfl)) $$ H8
  ihave C9 := (cred_pay (F := F) ⟨9, by first | decide | skip⟩ (.dma (dsem 1 2 1)) 4 (by decide) (namt 1 2 1) c (fun _ => rfl)) $$ H9
  ihave C10 := (cred_pay (F := F) ⟨10, by first | decide | skip⟩ (.dma (dsem 1 0 2)) 4 (by decide) (namt 1 0 2) c (fun _ => rfl)) $$ H10
  ihave C11 := (cred_pay (F := F) ⟨11, by first | decide | skip⟩ (.dma (dsem 1 1 2)) 1 (by decide) (namt 1 1 2) c (fun _ => rfl)) $$ H11
  ihave C12 := (cred_pay (F := F) ⟨12, by first | decide | skip⟩ (.dma (dsem 1 2 2)) 2 (by decide) (namt 1 2 2) c (fun _ => rfl)) $$ H12
  ihave C13 := (cred_pay (F := F) ⟨13, by first | decide | skip⟩ (.dma (dsem 3 0 1)) 1 (by decide) (namt 3 0 1) c (fun _ => rfl)) $$ H13
  ihave C14 := (cred_pay (F := F) ⟨14, by first | decide | skip⟩ (.dma (dsem 3 1 1)) 3 (by decide) (namt 3 1 1) c (fun _ => rfl)) $$ H14
  ihave C15 := (cred_pay (F := F) ⟨15, by first | decide | skip⟩ (.dma (dsem 3 2 1)) 4 (by decide) (namt 3 2 1) c (fun _ => rfl)) $$ H15
  ihave C16 := (cred_pay (F := F) ⟨16, by first | decide | skip⟩ (.dma (dsem 3 0 0)) 3 (by decide) (namt 3 0 0) c (fun _ => rfl)) $$ H16
  ihave C17 := (cred_pay (F := F) ⟨17, by first | decide | skip⟩ (.dma (dsem 3 1 0)) 4 (by decide) (namt 3 1 0) c (fun _ => rfl)) $$ H17
  ihave C18 := (cred_pay (F := F) ⟨18, by first | decide | skip⟩ (.dma (dsem 3 2 0)) 1 (by decide) (namt 3 2 0) c (fun _ => rfl)) $$ H18
  isplitl [C0 C1 C2 C3]
  · ihave C01 := (cred_join (F := F) (barCell c) 1 1) $$ [C0 C1]
    · isplitl [C0] <;> iassumption
    ihave C012 := (cred_join (F := F) (barCell c) 2 1) $$ [C01 C2]
    · isplitl [C01] <;> iassumption
    ihave C0123 := (cred_join (F := F) (barCell c) 3 1) $$ [C012 C3]
    · isplitl [C012] <;> iassumption
    iexact C0123
  isplitl [C4 C5 C6 C7 C8 C9 C10 C11 C12]
  · isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    iexact C12
  · isplitl [C13]; · iexact C13
    isplitl [C14]; · iexact C14
    isplitl [C15]; · iexact C15
    isplitl [C16]; · iexact C16
    isplitl [C17]; · iexact C17
    iexact C18

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (fun d => Orem d 0) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scr Pipeline.ownSems0
  iintro ⟨Hr, Hz⟩
  isplitr; · iempintro
  isplitl [Hz] <;> iassumption

/-! ## The run -/

set_option maxRecDepth 8000 in
/-- On the mesh of eight devices, for any float values, from any memory with zero counters, given the body obligation
    on every device: every weakly fair execution of @main terminates, and every final state has each device's five
    arrays at the contents the proof data compute. -/
theorem run_main (hbody : ∀ c, BodyOb m ρ c) :
    θ_run defs (onTc (τ := τ) (main (F := F))) (Iface.s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := fun c => Orem c 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays after the run -/

/-- The result array's contents on device c: every row its butterfly's total as it came over the wire. -/
abbrev outArr (c : Dev nD) : Buf (Elt F) ((c.tc : Thread nD τ).loc main_v1) := Sched.outFin m c
theorem outArr_eq (c : Dev nD) : outArr m c = Sched.outFin m c := rfl

/-- The four argument arrays hold after the run what they held. -/
theorem final_args (c : Dev nD) :
    (dats m ρ 0 c).arrAt (0 : Fin 5) cfg0.N = m ((c.tc : Thread nD τ).loc main_arg0)
    ∧ (dats m ρ 0 c).arrAt (1 : Fin 5) cfg0.N = m ((c.tc : Thread nD τ).loc main_arg1)
    ∧ (dats m ρ 0 c).arrAt (2 : Fin 5) cfg0.N = m ((c.tc : Thread nD τ).loc main_arg2)
    ∧ (dats m ρ 0 c).arrAt (3 : Fin 5) cfg0.N = m ((c.tc : Thread nD τ).loc main_arg3) :=
  ⟨(dats (F := F) m ρ 0 c).arrAt_in (0 : Fin 5) rfl _, (dats (F := F) m ρ 0 c).arrAt_in (1 : Fin 5) rfl _,
    (dats (F := F) m ρ 0 c).arrAt_in (2 : Fin 5) rfl _, (dats (F := F) m ρ 0 c).arrAt_in (3 : Fin 5) rfl _⟩

/-- The result array after the run: the one write-back writes the whole array (the window's one block is the array, at
    offset zero), so reading the array back through the block gives what was written. -/
theorem final_out (c : Dev nD) : (dats m ρ 0 c).arrAt (4 : Fin 5) cfg0.N = outArr m c := by
  have h := (dats (F := F) m ρ 0 c).arrAt_succ (4 : Fin 5) t0_0
  rw [flush0_4 t0_0, if_pos rfl] at h
  refine h.trans ?_
  have hoff : (fun a => win0_4.index t0_0 a * win0_4.size a) = fun _ => 0 := funext fun a => Nat.zero_mul _
  have inb : ∀ a : Fin main_v1.ty.shape.rank, win0_4.index t0_0 a * win0_4.size a + main_v1.ty.shape.size a ≤ main_v1.ty.shape.size a := fun a => by
    have h0 : win0_4.index t0_0 a * win0_4.size a = 0 := Nat.zero_mul _
    rw [h0, Nat.zero_add]
  have hr := Memref.read_access_unit_zero (Elt F) main_v1 hoff inb
    (View.write (Elt F) ((cfg0.win 4).blk t0_0).view ((dats m ρ 0 c).arrAt 4 t0_0.val) ((dats m ρ 0 c).flushed 4 t0_0) Finset.univ)
  refine hr.symm.trans ?_
  exact View.read_write_univ _ _

/-- The run with every array named: on every device the result array ends holding the butterflies' totals and the four
    argument arrays end as they began. -/
theorem kernel_run (hbody : ∀ c, BodyOb m ρ c) :
    θ_run defs (onTc (τ := τ) (main (F := F))) ⟨m, fun _ => 0, ρ⟩
      (fun r => ∀ c : Dev nD,
        r.2.mem ((c.tc : Thread nD τ).loc main_v1) = outArr m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r hr c =>
    ⟨(hr c (4 : Fin 5)).trans (final_out m ρ c), (hr c (0 : Fin 5)).trans (final_args m ρ c).1, (hr c (1 : Fin 5)).trans (final_args m ρ c).2.1,
      (hr c (2 : Fin 5)).trans (final_args m ρ c).2.2.1, (hr c (3 : Fin 5)).trans (final_args m ρ c).2.2.2⟩) (run_main m ρ hbody)

/-- info: 'Cert.KernelIdeal.Launch.kernel_run' depends on axioms: [propext, Classical.choice, Quot.sound] -/
#guard_msgs in #print axioms kernel_run

end Cert.KernelIdeal.Launch

end
-- ==== Proof.Tables.lean ====
/-
  The schedule's tables cell by cell, the levels at each wait, and the rounds rules instantiated at this protocol's cells:
  the entry signal and the barrier wait, the remote copies of the exchange and of the gather, the waits on the device's
  own DMA cells and their closing.
-/
import proofs.«900524_g7700000000000525_dist_gated_mlp_tp_i_m1024_h2048_d1024_v7x_i8_f32_1_alg».proof.Proof.Iface
import Idealize.ShloMosaic.Lib.Pipeline.Value

noncomputable section

namespace Cert.KernelIdeal.Tables

open Cert.KernelIdeal Cert.KernelIdeal.Gen Cert.KernelIdeal.Sched

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule's tables, cell by cell

Every cell has the one round 0. A barrier cell has the four duties of one unit each; a DMA cell in use the one duty 0 of
its block's credit; every other cell, and every later round, no duty. -/

theorem duties_bar (c : Dev nD) : (Rd (F := F) m).duties (barCell c) 0 = Finset.univ := by
  dsimp only [Rd]
  rw [if_pos ⟨rfl, rfl⟩, if_pos rfl]

theorem duties_dcell (A : Fin 4) (b k : Fin 3) (c : Dev nD) (h : used A k) : (Rd (F := F) m).duties (dcell A b k c) 0 = {0} := by
  dsimp only [Rd]
  rw [if_pos ⟨rfl, rfl⟩, dec_dsem]
  exact if_pos h

/-- The exchange's cells are all in use; the gather's at stages 0 and 1. -/
@[sl_rounds] theorem duties_dcell0 (b k : Fin 3) (c : Dev nD) : (Rd (F := F) m).duties (dcell 0 b k c) 0 = {0} := duties_dcell m 0 b k c (Or.inl (by decide))
@[sl_rounds] theorem duties_dcell1 (b k : Fin 3) (c : Dev nD) : (Rd (F := F) m).duties (dcell 1 b k c) 0 = {0} := duties_dcell m 1 b k c (Or.inl (by decide))
@[sl_rounds] theorem duties_dcell2_0 (b : Fin 3) (c : Dev nD) : (Rd (F := F) m).duties (dcell 2 b 0 c) 0 = {0} := duties_dcell m 2 b 0 c (Or.inr (by decide))
@[sl_rounds] theorem duties_dcell2_1 (b : Fin 3) (c : Dev nD) : (Rd (F := F) m).duties (dcell 2 b 1 c) 0 = {0} := duties_dcell m 2 b 1 c (Or.inr (by decide))
@[sl_rounds] theorem duties_dcell3_0 (b : Fin 3) (c : Dev nD) : (Rd (F := F) m).duties (dcell 3 b 0 c) 0 = {0} := duties_dcell m 3 b 0 c (Or.inr (by decide))
@[sl_rounds] theorem duties_dcell3_1 (b : Fin 3) (c : Dev nD) : (Rd (F := F) m).duties (dcell 3 b 1 c) 0 = {0} := duties_dcell m 3 b 1 c (Or.inr (by decide))

theorem duties_unused (A : Fin 4) (b k : Fin 3) (c : Dev nD) (h : ¬ used A k) (r : ℕ) : (Rd (F := F) m).duties (dcell A b k c) r = ∅ := by
  dsimp only [Rd]
  split
  · rw [dec_dsem]; exact if_neg h
  · rfl

/-- The gather has no stage 2. -/
@[sl_rounds] theorem duties_dcell2_2 (b : Fin 3) (c : Dev nD) (r : ℕ) : (Rd (F := F) m).duties (dcell 2 b 2 c) r = ∅ := duties_unused m 2 b 2 c (by decide) r
@[sl_rounds] theorem duties_dcell3_2 (b : Fin 3) (c : Dev nD) (r : ℕ) : (Rd (F := F) m).duties (dcell 3 b 2 c) r = ∅ := duties_unused m 3 b 2 c (by decide) r

theorem duties_later (g : GSem nD τ sig) (r : ℕ) (hr : 1 ≤ r) : (Rd (F := F) m).duties g r = ∅ := by
  dsimp only [Rd]
  exact if_neg fun h => by omega

@[sl_rounds] theorem duties_succ (g : GSem nD τ sig) (r : ℕ) : (Rd (F := F) m).duties g (r + 1) = ∅ := duties_later m g (r + 1) (Nat.le_add_left 1 r)

@[sl_rounds] theorem amount_bar (c : Dev nD) (d : Fin 4) : (Rd (F := F) m).amount (barCell c) 0 d = 1 := rfl

@[sl_rounds] theorem amount_dcell (A : Fin 4) (b k : Fin 3) (c : Dev nD) (d : Fin 4) : (Rd (F := F) m).amount (dcell A b k c) 0 d = namt A b k := by
  dsimp only [Rd]
  rw [dec_dsem]

@[sl_rounds] theorem expect_bar (c : Dev nD) : (Rd (F := F) m).expect (barCell c) 0 = 4 := by
  unfold Schedule.expect Schedule.amountOf
  rw [duties_bar, Finset.sum_congr rfl fun d _ => amount_bar m c d, Finset.sum_const, Finset.card_univ, Fintype.card_fin, smul_eq_mul]

theorem expect_dcell (A : Fin 4) (b k : Fin 3) (c : Dev nD) (h : used A k) : (Rd (F := F) m).expect (dcell A b k c) 0 = namt A b k := by
  unfold Schedule.expect Schedule.amountOf
  rw [duties_dcell m A b k c h, Finset.sum_singleton, amount_dcell]

@[sl_rounds] theorem expect_dcell0 (b k : Fin 3) (c : Dev nD) : (Rd (F := F) m).expect (dcell 0 b k c) 0 = namt 0 b k := expect_dcell m 0 b k c (Or.inl (by decide))
@[sl_rounds] theorem expect_dcell1 (b k : Fin 3) (c : Dev nD) : (Rd (F := F) m).expect (dcell 1 b k c) 0 = namt 1 b k := expect_dcell m 1 b k c (Or.inl (by decide))
@[sl_rounds] theorem expect_dcell2_0 (b : Fin 3) (c : Dev nD) : (Rd (F := F) m).expect (dcell 2 b 0 c) 0 = namt 2 b 0 := expect_dcell m 2 b 0 c (Or.inr (by decide))
@[sl_rounds] theorem expect_dcell2_1 (b : Fin 3) (c : Dev nD) : (Rd (F := F) m).expect (dcell 2 b 1 c) 0 = namt 2 b 1 := expect_dcell m 2 b 1 c (Or.inr (by decide))
@[sl_rounds] theorem expect_dcell3_0 (b : Fin 3) (c : Dev nD) : (Rd (F := F) m).expect (dcell 3 b 0 c) 0 = namt 3 b 0 := expect_dcell m 3 b 0 c (Or.inr (by decide))
@[sl_rounds] theorem expect_dcell3_1 (b : Fin 3) (c : Dev nD) : (Rd (F := F) m).expect (dcell 3 b 1 c) 0 = namt 3 b 1 := expect_dcell m 3 b 1 c (Or.inr (by decide))

theorem payload_bar (c : Dev nD) (d : Fin 4) : (Rd (F := F) m).payload (barCell c) 0 d = barPay d c := by
  dsimp only [Rd]
  exact if_pos rfl

theorem payload_dcell (A : Fin 4) (b k : Fin 3) (c : Dev nD) (d : Fin 4) : (Rd (F := F) m).payload (dcell A b k c) 0 d = dpay m A b k c := by
  dsimp only [Rd]
  rw [dec_dsem]

theorem dpay_0 (b k : Fin 3) (c : Dev nD) : dpay m 0 b k c = rsSendPay b k c := rfl
theorem dpay_1 (b k : Fin 3) (c : Dev nD) : dpay m 1 b k c = rsRecvPay m b k c := rfl
theorem dpay_2 (b k : Fin 3) (c : Dev nD) : dpay m 2 b k c = agSendPay b k c := rfl
theorem dpay_3 (b k : Fin 3) (c : Dev nD) : dpay m 3 b k c = agRecvPay m b k c := rfl

theorem payload_rsSend (b k : Fin 3) (c : Dev nD) (d : Fin 4) : (Rd (F := F) m).payload (dcell 0 b k c) 0 d = rsSendPay b k c := payload_dcell m 0 b k c d
theorem payload_rsRecv (b k : Fin 3) (c : Dev nD) (d : Fin 4) : (Rd (F := F) m).payload (dcell 1 b k c) 0 d = rsRecvPay m b k c := payload_dcell m 1 b k c d
theorem payload_agSend (b k : Fin 3) (c : Dev nD) (d : Fin 4) : (Rd (F := F) m).payload (dcell 2 b k c) 0 d = agSendPay b k c := payload_dcell m 2 b k c d
theorem payload_agRecv (b k : Fin 3) (c : Dev nD) (d : Fin 4) : (Rd (F := F) m).payload (dcell 3 b k c) 0 d = agRecvPay m b k c := payload_dcell m 3 b k c d

/-- The rest of a DMA cell's round, no duty taken, is its one payload. -/
theorem rest_dcell (A : Fin 4) (b k : Fin 3) (c : Dev nD) (h : used A k) :
    bigSep ((Rd (F := F) m).duties (dcell A b k c) 0 \ ∅) (fun d => (Rd (F := F) m).payload (dcell A b k c) 0 d) = dpay m A b k c := by
  rw [Finset.sdiff_empty, duties_dcell m A b k c h, bigSep_singleton, payload_dcell]

/-- The rest of a barrier cell's round, no duty taken: the four partners' payloads. -/
theorem rest_bar (c : Dev nD) :
    bigSep ((Rd (F := F) m).duties (barCell c) 0 \ ∅) (fun d => (Rd (F := F) m).payload (barCell c) 0 d)
      = iprop(barPay 0 c ∗ barPay 1 c ∗ barPay 2 c ∗ barPay 3 c) := by
  rw [Finset.sdiff_empty, duties_bar, bigSep_univ_eq_bigSepL [0, 1, 2, 3] (by decide) (by decide), bigSepL_cons_cons, bigSepL_cons_cons, bigSepL_cons_cons, bigSepL_singleton,
    payload_bar, payload_bar, payload_bar, payload_bar]
  rfl

/-! ## Credits: a block's credit depends only on its shape and element type -/

theorem namt_0_eq_1 (b k : Fin 3) : namt 0 b k = namt 1 b k := rfl
theorem namt_2_eq_3 (b k : Fin 3) : namt 2 b k = namt 3 b k := rfl

theorem credit_r00 : rSlot00.view.dmaCredit = namt 1 0 0 := rfl
theorem credit_r01 : rSlot01.view.dmaCredit = namt 1 0 1 := rfl
theorem credit_r02 : rSlot02.view.dmaCredit = namt 1 0 2 := rfl
theorem credit_r10 : rSlot10.view.dmaCredit = namt 1 1 0 := rfl
theorem credit_r11 : rSlot11.view.dmaCredit = namt 1 1 1 := rfl
theorem credit_r12 : rSlot12.view.dmaCredit = namt 1 1 2 := rfl
theorem credit_r20 : rSlot20.view.dmaCredit = namt 1 2 0 := rfl
theorem credit_r21 : rSlot21.view.dmaCredit = namt 1 2 1 := rfl
theorem credit_r22 : rSlot22.view.dmaCredit = namt 1 2 2 := rfl
theorem credit_s00 : sSlot00.view.dmaCredit = namt 0 0 0 := rfl
theorem credit_s01 : sSlot01.view.dmaCredit = namt 0 0 1 := rfl
theorem credit_s02 : sSlot02.view.dmaCredit = namt 0 0 2 := rfl
theorem credit_s10 : sSlot10.view.dmaCredit = namt 0 1 0 := rfl
theorem credit_s11 : sSlot11.view.dmaCredit = namt 0 1 1 := rfl
theorem credit_s12 : sSlot12.view.dmaCredit = namt 0 1 2 := rfl
theorem credit_s20 : sSlot20.view.dmaCredit = namt 0 2 0 := rfl
theorem credit_s21 : sSlot21.view.dmaCredit = namt 0 2 1 := rfl
theorem credit_s22 : sSlot22.view.dmaCredit = namt 0 2 2 := rfl
theorem credit_a00 (c : Dev nD) : (aRows00 c).view.dmaCredit = namt 3 0 0 := rfl
theorem credit_a01 (c : Dev nD) : (aRows01 c).view.dmaCredit = namt 3 0 1 := rfl
theorem credit_a10 (c : Dev nD) : (aRows10 c).view.dmaCredit = namt 3 1 0 := rfl
theorem credit_a11 (c : Dev nD) : (aRows11 c).view.dmaCredit = namt 3 1 1 := rfl
theorem credit_a20 (c : Dev nD) : (aRows20 c).view.dmaCredit = namt 3 2 0 := rfl
theorem credit_a21 (c : Dev nD) : (aRows21 c).view.dmaCredit = namt 3 2 1 := rfl

/-! ## The barrier payloads spelt out

As the payer meets them: device c signals the barrier cell of its partner under the mask j + 1, and what it hands over are
its own receive slots and gather rows that this partner writes. As the owner meets them after its wait: the four partners'. -/

@[sl_rounds] theorem payload_bar_px1 (c : Dev nD) : (Rd (F := F) m).payload (barCell (Mesh.px 1 c)) 0 0 = iprop(
      ((∃ f, rSlot01.view.loc (c : Thread nD τ) ↦[rSlot01.view.set]{fullShare} f) ∗ reached ER (dcell 1 0 1 c) 0)
      ∗ ((∃ f, rSlot12.view.loc (c : Thread nD τ) ↦[rSlot12.view.set]{fullShare} f) ∗ reached ER (dcell 1 1 2 c) 0)
      ∗ ((∃ f, rSlot20.view.loc (c : Thread nD τ) ↦[rSlot20.view.set]{fullShare} f) ∗ reached ER (dcell 1 2 0 c) 0)
      ∗ ((∃ f, (aRows01 (Mesh.px 1 c)).view.loc (c : Thread nD τ) ↦[(aRows01 (Mesh.px 1 c)).view.set]{fullShare} f) ∗ reached ER (dcell 3 0 1 c) 0)
      ∗ ((∃ f, (aRows20 (Mesh.px 1 c)).view.loc (c : Thread nD τ) ↦[(aRows20 (Mesh.px 1 c)).view.set]{fullShare} f) ∗ reached ER (dcell 3 2 0 c) 0)) := by
  rw [payload_bar]; unfold barPay
  have h := Mesh.px1_px1 c
  generalize Mesh.px 1 (Mesh.px 1 c) = x at h ⊢
  subst h; rfl

@[sl_rounds] theorem payload_bar_px2 (c : Dev nD) : (Rd (F := F) m).payload (barCell (Mesh.px 2 c)) 0 1 = iprop(
      ((∃ f, rSlot22.view.loc (c : Thread nD τ) ↦[rSlot22.view.set]{fullShare} f) ∗ reached ER (dcell 1 2 2 c) 0)) := by
  rw [payload_bar]; unfold barPay
  have h := Mesh.px2_px2 c
  generalize Mesh.px 2 (Mesh.px 2 c) = x at h ⊢
  subst h; rfl

@[sl_rounds] theorem payload_bar_px3 (c : Dev nD) : (Rd (F := F) m).payload (barCell (Mesh.px 3 c)) 0 2 = iprop(
      ((∃ f, rSlot00.view.loc (c : Thread nD τ) ↦[rSlot00.view.set]{fullShare} f) ∗ reached ER (dcell 1 0 0 c) 0)
      ∗ ((∃ f, rSlot11.view.loc (c : Thread nD τ) ↦[rSlot11.view.set]{fullShare} f) ∗ reached ER (dcell 1 1 1 c) 0)
      ∗ ((∃ f, (aRows00 (Mesh.px 3 c)).view.loc (c : Thread nD τ) ↦[(aRows00 (Mesh.px 3 c)).view.set]{fullShare} f) ∗ reached ER (dcell 3 0 0 c) 0)
      ∗ ((∃ f, (aRows11 (Mesh.px 3 c)).view.loc (c : Thread nD τ) ↦[(aRows11 (Mesh.px 3 c)).view.set]{fullShare} f) ∗ reached ER (dcell 3 1 1 c) 0)) := by
  rw [payload_bar]; unfold barPay
  have h := Mesh.px3_px3 c
  generalize Mesh.px 3 (Mesh.px 3 c) = x at h ⊢
  subst h; rfl

@[sl_rounds] theorem payload_bar_px4 (c : Dev nD) : (Rd (F := F) m).payload (barCell (Mesh.px 4 c)) 0 3 = iprop(
      ((∃ f, rSlot02.view.loc (c : Thread nD τ) ↦[rSlot02.view.set]{fullShare} f) ∗ reached ER (dcell 1 0 2 c) 0)
      ∗ ((∃ f, rSlot10.view.loc (c : Thread nD τ) ↦[rSlot10.view.set]{fullShare} f) ∗ reached ER (dcell 1 1 0 c) 0)
      ∗ ((∃ f, rSlot21.view.loc (c : Thread nD τ) ↦[rSlot21.view.set]{fullShare} f) ∗ reached ER (dcell 1 2 1 c) 0)
      ∗ ((∃ f, (aRows10 (Mesh.px 4 c)).view.loc (c : Thread nD τ) ↦[(aRows10 (Mesh.px 4 c)).view.set]{fullShare} f) ∗ reached ER (dcell 3 1 0 c) 0)
      ∗ ((∃ f, (aRows21 (Mesh.px 4 c)).view.loc (c : Thread nD τ) ↦[(aRows21 (Mesh.px 4 c)).view.set]{fullShare} f) ∗ reached ER (dcell 3 2 1 c) 0)) := by
  rw [payload_bar]; unfold barPay
  have h := Mesh.px4_px4 c
  generalize Mesh.px 4 (Mesh.px 4 c) = x at h ⊢
  subst h; rfl

attribute [sl_rounds] duties_bar

@[sl_rounds] theorem bar_payloads (c : Dev nD) :
    bigSep (Finset.univ : Finset (Fin 4)) (fun d => (Rd (F := F) m).payload (barCell c) 0 d) = iprop(
      (((∃ f, rSlot01.view.loc (Mesh.px 1 c : Thread nD τ) ↦[rSlot01.view.set]{fullShare} f) ∗ reached ER (dcell 1 0 1 (Mesh.px 1 c)) 0)
        ∗ ((∃ f, rSlot12.view.loc (Mesh.px 1 c : Thread nD τ) ↦[rSlot12.view.set]{fullShare} f) ∗ reached ER (dcell 1 1 2 (Mesh.px 1 c)) 0)
        ∗ ((∃ f, rSlot20.view.loc (Mesh.px 1 c : Thread nD τ) ↦[rSlot20.view.set]{fullShare} f) ∗ reached ER (dcell 1 2 0 (Mesh.px 1 c)) 0)
        ∗ ((∃ f, (aRows01 c).view.loc (Mesh.px 1 c : Thread nD τ) ↦[(aRows01 c).view.set]{fullShare} f) ∗ reached ER (dcell 3 0 1 (Mesh.px 1 c)) 0)
        ∗ ((∃ f, (aRows20 c).view.loc (Mesh.px 1 c : Thread nD τ) ↦[(aRows20 c).view.set]{fullShare} f) ∗ reached ER (dcell 3 2 0 (Mesh.px 1 c)) 0))
      ∗ (((∃ f, rSlot22.view.loc (Mesh.px 2 c : Thread nD τ) ↦[rSlot22.view.set]{fullShare} f) ∗ reached ER (dcell 1 2 2 (Mesh.px 2 c)) 0))
      ∗ (((∃ f, rSlot00.view.loc (Mesh.px 3 c : Thread nD τ) ↦[rSlot00.view.set]{fullShare} f) ∗ reached ER (dcell 1 0 0 (Mesh.px 3 c)) 0)
        ∗ ((∃ f, rSlot11.view.loc (Mesh.px 3 c : Thread nD τ) ↦[rSlot11.view.set]{fullShare} f) ∗ reached ER (dcell 1 1 1 (Mesh.px 3 c)) 0)
        ∗ ((∃ f, (aRows00 c).view.loc (Mesh.px 3 c : Thread nD τ) ↦[(aRows00 c).view.set]{fullShare} f) ∗ reached ER (dcell 3 0 0 (Mesh.px 3 c)) 0)
        ∗ ((∃ f, (aRows11 c).view.loc (Mesh.px 3 c : Thread nD τ) ↦[(aRows11 c).view.set]{fullShare} f) ∗ reached ER (dcell 3 1 1 (Mesh.px 3 c)) 0))
      ∗ (((∃ f, rSlot02.view.loc (Mesh.px 4 c : Thread nD τ) ↦[rSlot02.view.set]{fullShare} f) ∗ reached ER (dcell 1 0 2 (Mesh.px 4 c)) 0)
        ∗ ((∃ f, rSlot10.view.loc (Mesh.px 4 c : Thread nD τ) ↦[rSlot10.view.set]{fullShare} f) ∗ reached ER (dcell 1 1 0 (Mesh.px 4 c)) 0)
        ∗ ((∃ f, rSlot21.view.loc (Mesh.px 4 c : Thread nD τ) ↦[rSlot21.view.set]{fullShare} f) ∗ reached ER (dcell 1 2 1 (Mesh.px 4 c)) 0)
        ∗ ((∃ f, (aRows10 c).view.loc (Mesh.px 4 c : Thread nD τ) ↦[(aRows10 c).view.set]{fullShare} f) ∗ reached ER (dcell 3 1 0 (Mesh.px 4 c)) 0)
        ∗ ((∃ f, (aRows21 c).view.loc (Mesh.px 4 c : Thread nD τ) ↦[(aRows21 c).view.set]{fullShare} f) ∗ reached ER (dcell 3 2 1 (Mesh.px 4 c)) 0))) := by
  have h := rest_bar m c
  rw [Finset.sdiff_empty, duties_bar] at h
  exact h

/-! ## Levels: what is still owed sits above the cell waited on

After n payments a device owes the later ones; each is owed on a cell whose level is known, and the levels rise with the
order of payment: the partners' barrier cells at 1, their exchange receive cells at 2, 3, 4 by stage, their gather receive
cells at 5 (stage 1) and 6 (stage 0). A wait on a cell whose level is at most b is allowed once everything still owed lies
above b. -/

theorem Orem_ge (c : Dev nD) (n : ℕ) (h : 19 ≤ n) : Iface.Orem c n = 0 := by
  rw [Iface.Orem, dif_neg (by omega)]

/-- The cell of the i-th payment. -/
def pcell (c : Dev nD) : Fin 19 → GSem nD τ sig
  | ⟨0, _⟩ => barCell (Mesh.px 1 c)
  | ⟨1, _⟩ => barCell (Mesh.px 2 c)
  | ⟨2, _⟩ => barCell (Mesh.px 3 c)
  | ⟨3, _⟩ => barCell (Mesh.px 4 c)
  | ⟨4, _⟩ => dcell 1 0 0 (Mesh.px 3 c)
  | ⟨5, _⟩ => dcell 1 1 0 (Mesh.px 4 c)
  | ⟨6, _⟩ => dcell 1 2 0 (Mesh.px 1 c)
  | ⟨7, _⟩ => dcell 1 0 1 (Mesh.px 1 c)
  | ⟨8, _⟩ => dcell 1 1 1 (Mesh.px 3 c)
  | ⟨9, _⟩ => dcell 1 2 1 (Mesh.px 4 c)
  | ⟨10, _⟩ => dcell 1 0 2 (Mesh.px 4 c)
  | ⟨11, _⟩ => dcell 1 1 2 (Mesh.px 1 c)
  | ⟨12, _⟩ => dcell 1 2 2 (Mesh.px 2 c)
  | ⟨13, _⟩ => dcell 3 0 1 (Mesh.px 1 c)
  | ⟨14, _⟩ => dcell 3 1 1 (Mesh.px 3 c)
  | ⟨15, _⟩ => dcell 3 2 1 (Mesh.px 4 c)
  | ⟨16, _⟩ => dcell 3 0 0 (Mesh.px 3 c)
  | ⟨17, _⟩ => dcell 3 1 0 (Mesh.px 4 c)
  | ⟨18, _⟩ => dcell 3 2 0 (Mesh.px 1 c)
  | ⟨_ + 19, h⟩ => absurd h (Nat.not_lt.2 (Nat.le_add_left _ _))

/-- The level of the i-th payment's cell. -/
def plev (i : Fin 19) : ℕ := if i.val < 4 then 1 else 2 + (i.val - 4) / 3

theorem pay_eq (c : Dev nD) (i : Fin 19) : ∃ a, Iface.pay c i = tallyAt (pcell c i) () a := by
  fin_cases i <;> exact ⟨_, rfl⟩

theorem pay_pos (c : Dev nD) (i : Fin 19) {g : GSem nD τ sig} {u : Unit} (h : 0 < Iface.pay c i g u) : g = pcell c i := by
  obtain ⟨a, ha⟩ := pay_eq c i
  rw [ha, tallyAt_apply] at h
  by_contra hn
  rw [if_neg (fun h' => hn h'.1)] at h
  exact Nat.lt_irrefl 0 h

theorem Orem_pos_aux (c : Dev nD) (g : GSem nD τ sig) (u : Unit) :
    ∀ (k n : ℕ), n + k = 19 → 0 < Iface.Orem c n g u → ∃ i : Fin 19, n ≤ i.val ∧ 0 < Iface.pay c i g u
  | 0, n, h, hp => by
    rw [Orem_ge c n (by omega)] at hp
    exact absurd hp (Nat.lt_irrefl 0)
  | k + 1, n, h, hp => by
    have hn : n < 19 := by omega
    rw [Iface.Orem_lt c n hn, Pi.add_apply, Finsupp.add_apply] at hp
    rcases Nat.eq_zero_or_pos (Iface.pay c ⟨n, hn⟩ g u) with h0 | h0
    · rw [h0, Nat.add_zero] at hp
      obtain ⟨i, hi, hpi⟩ := Orem_pos_aux c g u k (n + 1) (by omega) hp
      exact ⟨i, by omega, hpi⟩
    · exact ⟨⟨n, hn⟩, le_rfl, h0⟩

/-- Whatever is owed after n payments is owed on the cell of a later payment. -/
theorem Orem_pos (c : Dev nD) (n : ℕ) {g : GSem nD τ sig} {u : Unit} (h : 0 < Iface.Orem c n g u) : ∃ i : Fin 19, n ≤ i.val ∧ g = pcell c i := by
  by_cases hn : n ≤ 19
  · obtain ⟨i, hi, hp⟩ := Orem_pos_aux c g u (19 - n) n (by omega) h
    exact ⟨i, hi, pay_pos c i hp⟩
  · rw [Orem_ge c n (by omega)] at h
    exact absurd h (Nat.lt_irrefl 0)

theorem L_tc (c : Dev nD) (sm : SemLoc sig) : Iface.L ((c : Thread nD τ), sm) = {()} := if_pos rfl

theorem L_pcell (c : Dev nD) (i : Fin 19) : Iface.L (pcell c i) = {()} := by
  fin_cases i <;> exact if_pos rfl

theorem lv_pcell (c : Dev nD) (i : Fin 19) : Iface.lv (pcell c i) () = plev i := by
  fin_cases i <;> rfl

theorem lv_bar (c : Dev nD) : Iface.lv (barCell c) () = 1 := by
  show (if barS = barS then 1 else 0) = 1
  exact if_pos rfl

theorem lv_recv (b k : Fin 3) (c : Dev nD) : Iface.lv (dcell 1 b k c) () = 2 + k.val := by
  dsimp only [Iface.lv]
  rw [dec_dsem]
  exact if_pos rfl

theorem lv_gather1 (b : Fin 3) (c : Dev nD) : Iface.lv (dcell 3 b 1 c) () = 5 := by
  dsimp only [Iface.lv]
  rw [dec_dsem]
  rfl

/-- A wait on a cell at level at most b, everything still owed lying above b. -/
theorem mayWait_cut (c : Dev nD) (sm : SemLoc sig) (n b : ℕ) (hsm : Iface.lv ((c : Thread nD τ), sm) () ≤ b)
    (hn : ∀ i : Fin 19, n ≤ i.val → b < plev i) :
    (levAts Iface.L Iface.lv : sProp 𝕄) ⊢ MayWait (c : Thread nD τ) sm () (Iface.Orem c n) :=
  MayOwe.of_cut (L := Iface.L) (lev := Iface.lv) b
    (fun p hp => by rw [Finset.mem_singleton.mp hp, L_tc]; exact Finset.mem_singleton_self _)
    (fun g u hg => by obtain ⟨i, _, rfl⟩ := Orem_pos c n hg; rw [L_pcell]; exact Finset.mem_singleton_self _)
    (fun p hp => by rw [Finset.mem_singleton.mp hp]; exact hsm)
    (fun g u hg => by obtain ⟨i, hin, rfl⟩ := Orem_pos c n hg; rw [lv_pcell]; exact hn i hin)

/-- The barrier wait: the four entry signals paid, the fifteen blocks owed. -/
theorem mayWait_bar (c : Dev nD) : (levAts Iface.L Iface.lv : sProp 𝕄) ⊢ MayWait (c : Thread nD τ) (.reg barS) () (Iface.Orem c 4) :=
  mayWait_cut c (.reg barS) 4 1 (lv_bar c).le (by decide)

/-- The exchange's receive waits: at stage k the blocks of the stages up to k are paid. -/
theorem mayWait_rs0 (b : Fin 3) (c : Dev nD) : (levAts Iface.L Iface.lv : sProp 𝕄) ⊢ MayWait (c : Thread nD τ) (.dma (dsem 1 b 0)) () (Iface.Orem c 7) :=
  mayWait_cut c (.dma (dsem 1 b 0)) 7 2 (lv_recv b 0 c).le (by decide)
theorem mayWait_rs1 (b : Fin 3) (c : Dev nD) : (levAts Iface.L Iface.lv : sProp 𝕄) ⊢ MayWait (c : Thread nD τ) (.dma (dsem 1 b 1)) () (Iface.Orem c 10) :=
  mayWait_cut c (.dma (dsem 1 b 1)) 10 3 (lv_recv b 1 c).le (by decide)
theorem mayWait_rs2 (b : Fin 3) (c : Dev nD) : (levAts Iface.L Iface.lv : sProp 𝕄) ⊢ MayWait (c : Thread nD τ) (.dma (dsem 1 b 2)) () (Iface.Orem c 13) :=
  mayWait_cut c (.dma (dsem 1 b 2)) 13 4 (lv_recv b 2 c).le (by decide)

/-- The gather's stage-1 receive waits: only the stage-0 blocks are still owed. -/
theorem mayWait_ag1 (b : Fin 3) (c : Dev nD) : (levAts Iface.L Iface.lv : sProp 𝕄) ⊢ MayWait (c : Thread nD τ) (.dma (dsem 3 b 1)) () (Iface.Orem c 16) :=
  mayWait_cut c (.dma (dsem 3 b 1)) 16 5 (lv_gather1 b c).le (by decide)

/-- Everything paid: any wait is allowed. -/
theorem mayWait_done (c : Dev nD) (sm : SemLoc sig) : (emp : sProp 𝕄) ⊢ MayWait (c : Thread nD τ) sm () (Iface.Orem c 19) := by
  rw [Iface.Orem_done, MayWait_zero]
  exact BI.Entails.refl _

/-! ## The rules at this protocol's cells -/

section Rules

open Cert.KernelIdeal.Iface (𝒱₀)

/-- The entry signal to the partner under the mask mk, paying duty j of the partner's barrier cell. -/
theorem wp_signal_bar (c : Dev nD) (mk : ℕ) (j : Fin 4) {κ : ℕ} {α : Type} {Q : α → sProp 𝕄}
    {kk : PUnit → Prog (TpuEff nD τ sig (Elt F) Λ₀ .tc) α} {O₀ : CellTallies nD τ sig Unit} (O : CellTallies nD τ sig Unit)
    (hO : O₀ = O + tallyAt (barCell (Mesh.px mk c)) () 1) {W : Waits sig Unit} :
    iprop(cellInv ER (Rd (F := F) m) κ (barCell (Mesh.px mk c)) ∗ owes (c : Thread nD τ) O₀ W ∗ dutyTok ER (barCell (Mesh.px mk c)) 0 j
        ∗ barPay j (Mesh.px mk c) ∗ reached ER (barCell (Mesh.px mk c)) 0)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px mk c : Thread nD τ) barS 1) kk) Q) := by
  have h := Rounds.wp_signal 𝒱₀ ER (Rd (F := F) m) (c : Thread nD τ) none (defs := defs₀ (F := F)) (Γ := .empty) (dst := (Mesh.px mk c : Thread nD τ)) (sem := barS) (κ := κ) (d := j) (r := 0) (k' := 1)
    (k := kk) (Q := Q) (by rw [duties_bar]; exact Finset.mem_univ _) (amount_bar m (Mesh.px mk c) j) () O hO (W := W) (Es := Set.univ)
  rw [payload_bar] at h
  exact h

/-- The barrier wait: the four partners' payloads come with it. -/
theorem wp_wait_bar (c : Dev nD) {κ : ℕ} {α : Type} {Q : α → sProp 𝕄}
    {kk : PUnit → Prog (TpuEff nD τ sig (Elt F) Λ₀ .tc) α} {O : CellTallies nD τ sig Unit} {W : Waits sig Unit} :
    iprop(cellInv ER (Rd (F := F) m) κ (barCell c) ∗ cred (tallyAt (barCell c) () 4) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1
              ∗ (barPay 0 c ∗ barPay 1 c ∗ barPay 2 c ∗ barPay 3 c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 4) kk) Q) := by
  have h := Rounds.wp_wait_rest_token 𝒱₀ ER (Rd (F := F) m) (c : Thread nD τ) none (defs := defs₀ (F := F)) (Γ := .empty) (κ := κ) (k := kk) (Q := Q)
    (w := .semWait barS 4) (sm := .reg barS) (k' := 4)
    (wpE_semWait_eq 𝒱₀ (c : Thread nD τ) none Set.univ) (Set.mem_univ _) () (O := O) (W := W) (R := 0) (m := 0) (T := ∅)
    (by rw [expect_bar])
  rw [rest_bar] at h
  exact h

/-- A wait on one of the device's own DMA cells in use: its one payload comes with it. -/
theorem wp_wait_dcell (A : Fin 4) (b k : Fin 3) (c : Dev nD) (hu : used A k) {κ : ℕ} {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt A b k) {α : Type} {Q : α → sProp 𝕄}
    {kk : PUnit → Prog (TpuEff nD τ sig (Elt F) Λ₀ .tc) α} {O : CellTallies nD τ sig Unit} {W : Waits sig Unit} :
    iprop(cellInv ER (Rd (F := F) m) κ (dcell A b k c) ∗ cred (tallyAt (dcell A b k c) () (namt A b k)) ∗ owes (c : Thread nD τ) O W
        ∗ MayWait (c : Thread nD τ) (.dma (dsem A b k)) () O ∗ atPos ER (dcell A b k c) 0 ∅ 0)
      ⊢ iprop(((owes (c : Thread nD τ) O (insert (SemLoc.dma (dsem A b k), ()) W) ∗ atPos ER (dcell A b k c) 1 ∅ 0 ∗ reached ER (dcell A b k c) 1
              ∗ dpay m A b k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem A b k) src dst hsrc hdst) kk) Q) := by
  have h := Rounds.wp_wait_rest_token 𝒱₀ ER (Rd (F := F) m) (c : Thread nD τ) none (defs := defs₀ (F := F)) (Γ := .empty) (κ := κ) (k := kk) (Q := Q)
    (w := .waitDma2 (dsem A b k) src dst hsrc hdst) (sm := .dma (dsem A b k)) (k' := dst.view.dmaCredit)
    (wpE_waitDma2_eq 𝒱₀ (c : Thread nD τ) none Set.univ) (Set.mem_univ _) () (O := O) (W := W) (R := 0) (m := 0) (T := ∅)
    (by rw [expect_dcell m A b k c hu, hN, Nat.zero_add])
  rw [rest_dcell m A b k c hu, hN] at h
  exact h

/-- A DMA cell in use closes after its round; one not in use at once. -/
theorem close_dcell (A : Fin 4) (b k : Fin 3) (c : Dev nD) {κ : ℕ} :
    iprop(cellInv ER (Rd (F := F) m) κ (dcell A b k c) ∗ atPos ER (dcell A b k c) 1 ∅ 0) ⊢ iprop(|={Set.univ}=> semVal (dcell A b k c) 0) :=
  Rounds.cell_close ER (Rd (F := F) m) (Set.mem_univ κ) (fun h => h) (R := 1) (duties_later m (dcell A b k c))

theorem close_unused (A : Fin 4) (b k : Fin 3) (c : Dev nD) (hu : ¬ used A k) {κ : ℕ} :
    iprop(cellInv ER (Rd (F := F) m) κ (dcell A b k c) ∗ atPos ER (dcell A b k c) 0 ∅ 0) ⊢ iprop(|={Set.univ}=> semVal (dcell A b k c) 0) :=
  Rounds.cell_close ER (Rd (F := F) m) (Set.mem_univ κ) (fun h => h) (R := 0) (fun r _ => duties_unused m A b k c hu r)

/-- A remote copy from one of the device's views into the same-shaped view of the device c', departing on the cell (A₁, b, k)
    of c and landing on the cell (A₂, b, k) of c'. -/
theorem wp_send_cells {s : Shape} {e : EltTy} (c c' : Dev nD) (A₁ A₂ : Fin 4) (b k : Fin 3) (h₁ : used A₁ k) (h₂ : used A₂ k)
    {src : Memref sig .tc .vmem s e} {dst : Memref sig .tc .vmem s e}
    {hsc : (dst : Memref sig (Dev.tc c' : Thread nD τ).2.kind .vmem s e).view.ref.isScScratch = false}
    {hsrc : src.view.WordExact} {hdst : dst.view.WordExact}
    {hsem : DmaTarget.Typed .vmem (.dma (dsem A₂ b k)) (.remote (Dev.tc c' : Thread nD τ) dst (.dma (dsem A₁ b k)) hsc)}
    {α : Type} {Q : α → sProp 𝕄} {kk : PUnit → Prog (TpuEff nD τ sig (Elt F) Λ₀ .tc) α}
    {q : PosShare TreeShare} {fs : Buf (Elt F) (src.view.loc (c : Thread nD τ))} {fd : Buf (Elt F) (dst.view.loc (c' : Thread nD τ))}
    {κ₁ κ₂ : ℕ} (hN : dst.view.dmaCredit = namt A₂ b k) (hA : namt A₁ b k = namt A₂ b k)
    {O₀ : CellTallies nD τ sig Unit} (O : CellTallies nD τ sig Unit) (hO : O₀ = O + tallyAt (dcell A₂ b k c') () (namt A₂ b k)) {W : Waits sig Unit}
    (hpay₁ : (src.view.loc (c : Thread nD τ) ↦[src.view.set]{q} fs) ⊢ dpay m A₁ b k c)
    (hpay₂ : (dst.view.loc (c' : Thread nD τ) ↦[dst.view.set]{fullShare} (dst.view.write (Elt F) fd (src.view.read (Elt F) fs) Finset.univ))
      ⊢ dpay m A₂ b k c') :
    iprop(cellInv ER (Rd (F := F) m) κ₁ (dcell A₁ b k c) ∗ cellInv ER (Rd (F := F) m) κ₂ (dcell A₂ b k c')
        ∗ (src.view.loc (c : Thread nD τ) ↦[src.view.set]{q} fs) ∗ (dst.view.loc (c' : Thread nD τ) ↦[dst.view.set]{fullShare} fd)
        ∗ owes (c : Thread nD τ) O₀ W
        ∗ dutyTok ER (dcell A₁ b k c) 0 0 ∗ reached ER (dcell A₁ b k c) 0
        ∗ dutyTok ER (dcell A₂ b k c') 0 0 ∗ reached ER (dcell A₂ b k c') 0)
      ⊢ iprop(((cred (tallyAt (dcell A₁ b k c) () (namt A₁ b k)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc c' : Thread nD τ) dst (.dma (dsem A₁ b k)) hsc) (.dma (dsem A₂ b k)) hsrc hdst hsem) kk) Q) := by
  rw [hA]
  exact Rounds.wp_send_pointsTo 𝒱₀ ER (Rd (F := F) m) (c : Thread nD τ) none (defs := defs₀ (F := F)) (Γ := .empty) (c' := (Dev.tc c' : Thread nD τ)) (src := src) (dst := dst) (sS := .dma (dsem A₁ b k)) (sem := .dma (dsem A₂ b k))
    (q := q) (fs := fs) (fd := fd) (κ₁ := κ₁) (κ₂ := κ₂) (r₁ := 0) (r₂ := 0) (d₁ := 0) (d₂ := 0)
    (by rw [duties_dcell m A₁ b k c h₁]; exact Finset.mem_singleton_self _) (by rw [duties_dcell m A₂ b k c' h₂]; exact Finset.mem_singleton_self _)
    () () (namt A₂ b k) (by exact hN) ((amount_dcell m A₁ b k c 0).trans hA) (amount_dcell m A₂ b k c' 0) O hO (W := W)
    (by rw [payload_dcell]; exact hpay₁) (by rw [payload_dcell]; exact hpay₂)

end Rules

/-! ## The same rules, from the launch's records

The records hold every cell's invariant and that every cell is at round 0: the rules below take the records and find the
invariants and the reached rounds themselves. -/

section Records

open Cert.KernelIdeal.Iface (𝒱₀)

instance records_persistent (K : Dev nD × Iface.CIx → ℕ) : BI.Persistent (Iface.records (F := F) m K) := by
  unfold Iface.records; infer_instance

theorem records_inv (K : Dev nD × Iface.CIx → ℕ) (ck : Dev nD × Iface.CIx) :
    Iface.records (F := F) m K ⊢ cellInv ER (Rd (F := F) m) (K ck) (Iface.kcell ck) := by
  unfold Iface.records
  exact (BI.Entails.trans BI.sep_and BI.and_elimL).trans (BI.bigSep_elim (Finset.mem_univ ck))

theorem records_reached (K : Dev nD × Iface.CIx → ℕ) (ck : Dev nD × Iface.CIx) :
    Iface.records (F := F) m K ⊢ reached ER (Iface.kcell ck) 0 := by
  unfold Iface.records
  exact (BI.Entails.trans BI.sep_and BI.and_elimR).trans (BI.bigSep_elim (Finset.mem_univ ck))

theorem records_bar (K : Dev nD × Iface.CIx → ℕ) (c : Dev nD) :
    Iface.records (F := F) m K ⊢ cellInv ER (Rd (F := F) m) (K (c, none)) (barCell c) := records_inv m K (c, none)
theorem records_bar_reached (K : Dev nD × Iface.CIx → ℕ) (c : Dev nD) :
    Iface.records (F := F) m K ⊢ reached ER (barCell c) 0 := records_reached m K (c, none)
theorem records_dcell (K : Dev nD × Iface.CIx → ℕ) (A : Fin 4) (b k : Fin 3) (c : Dev nD) :
    Iface.records (F := F) m K ⊢ cellInv ER (Rd (F := F) m) (K (c, some (A, b, k))) (dcell A b k c) := records_inv m K (c, some (A, b, k))
theorem records_dcell_reached (K : Dev nD × Iface.CIx → ℕ) (A : Fin 4) (b k : Fin 3) (c : Dev nD) :
    Iface.records (F := F) m K ⊢ reached ER (dcell A b k c) 0 := records_reached m K (c, some (A, b, k))

/-- The entry signal, the payload stated at the partner (its owner). -/
theorem wp_sig (K : Dev nD × Iface.CIx → ℕ) (c : Dev nD) (mk : ℕ) (j : Fin 4) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px mk c)) () 1) W
        ∗ dutyTok ER (barCell (Mesh.px mk c)) 0 j ∗ barPay j (Mesh.px mk c))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px mk c : Thread nD τ) barS 1) kk) Q) := by
  iintro ⟨#Hrec, HO, Ht, Hp⟩
  iapply (wp_signal_bar m c mk j (κ := K (Mesh.px mk c, none)) O rfl)
  isplitr; · iapply (records_bar m K (Mesh.px mk c)); iexact Hrec
  isplitl [HO]; · iexact HO
  isplitl [Ht]; · iexact Ht
  isplitl [Hp]; · iexact Hp
  iapply (records_bar_reached m K (Mesh.px mk c)); iexact Hrec

/-- The barrier wait, the four entry signals paid. -/
theorem wp_barwait (K : Dev nD × Iface.CIx → ℕ) (c : Dev nD) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (barCell c) () 4) ∗ owes (c : Thread nD τ) (Iface.Orem c 4) W
        ∗ atPos ER (barCell c) 0 ∅ 0)
      ⊢ iprop(((owes (c : Thread nD τ) (Iface.Orem c 4) (insert (SemLoc.reg barS, ()) W) ∗ atPos ER (barCell c) 1 ∅ 0 ∗ reached ER (barCell c) 1
              ∗ (barPay 0 c ∗ barPay 1 c ∗ barPay 2 c ∗ barPay 3 c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 4) kk) Q) := by
  iintro ⟨#Hrec, #Hlev, Hc, HO, Hat⟩
  iapply (wp_wait_bar m c (κ := K (c, none)))
  isplitr; · iapply (records_bar m K c); iexact Hrec
  isplitl [Hc]; · iexact Hc
  isplitl [HO]; · iexact HO
  isplitr; · iapply (mayWait_bar c); iexact Hlev
  iexact Hat

/-- A wait on an own DMA cell in use, owing what is left after n payments, the level's cut given. -/
theorem wp_dwait (K : Dev nD × Iface.CIx → ℕ) (A : Fin 4) (b k : Fin 3) (c : Dev nD) (hu : used A k) (n : ℕ)
    (hlev : (levAts Iface.L Iface.lv : sProp 𝕄) ⊢ MayWait (c : Thread nD τ) (.dma (dsem A b k)) () (Iface.Orem c n))
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt A b k) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell A b k c) () (namt A b k)) ∗ owes (c : Thread nD τ) (Iface.Orem c n) W
        ∗ atPos ER (dcell A b k c) 0 ∅ 0)
      ⊢ iprop(((owes (c : Thread nD τ) (Iface.Orem c n) (insert (SemLoc.dma (dsem A b k), ()) W) ∗ atPos ER (dcell A b k c) 1 ∅ 0
              ∗ reached ER (dcell A b k c) 1 ∗ dpay m A b k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem A b k) src dst hsrc hdst) kk) Q) := by
  iintro ⟨#Hrec, #Hlev, Hc, HO, Hat⟩
  iapply (wp_wait_dcell m A b k c hu hN (κ := K (c, some (A, b, k))))
  isplitr; · iapply (records_dcell m K A b k c); iexact Hrec
  isplitl [Hc]; · iexact Hc
  isplitl [HO]; · iexact HO
  isplitr; · iapply hlev; iexact Hlev
  iexact Hat

/-- Closing an own DMA cell. -/
theorem close_used (K : Dev nD × Iface.CIx → ℕ) (A : Fin 4) (b k : Fin 3) (c : Dev nD) :
    iprop(Iface.records (F := F) m K ∗ atPos ER (dcell A b k c) 1 ∅ 0) ⊢ iprop(|={Set.univ}=> semVal (dcell A b k c) 0) := by
  iintro ⟨#Hrec, Hat⟩
  iapply (close_dcell m A b k c (κ := K (c, some (A, b, k))))
  isplitr; · iapply (records_dcell m K A b k c); iexact Hrec
  iexact Hat

theorem close_idle (K : Dev nD × Iface.CIx → ℕ) (A : Fin 4) (b k : Fin 3) (c : Dev nD) (hu : ¬ used A k) :
    iprop(Iface.records (F := F) m K ∗ atPos ER (dcell A b k c) 0 ∅ 0) ⊢ iprop(|={Set.univ}=> semVal (dcell A b k c) 0) := by
  iintro ⟨#Hrec, Hat⟩
  iapply (close_unused m A b k c hu (κ := K (c, some (A, b, k))))
  isplitr; · iapply (records_dcell m K A b k c); iexact Hrec
  iexact Hat

/-- A remote copy, the invariants and reached rounds from the records. -/
theorem wp_send_rec {s : Shape} {e : EltTy} (K : Dev nD × Iface.CIx → ℕ) (c c' : Dev nD) (A₁ A₂ : Fin 4) (b k : Fin 3) (h₁ : used A₁ k) (h₂ : used A₂ k)
    {src : Memref sig .tc .vmem s e} {dst : Memref sig .tc .vmem s e}
    {hsc : (dst : Memref sig (Dev.tc c' : Thread nD τ).2.kind .vmem s e).view.ref.isScScratch = false}
    {hsrc : src.view.WordExact} {hdst : dst.view.WordExact}
    {hsem : DmaTarget.Typed .vmem (.dma (dsem A₂ b k)) (.remote (Dev.tc c' : Thread nD τ) dst (.dma (dsem A₁ b k)) hsc)}
    {α : Type} {Q : α → sProp 𝕄} {kk : PUnit → Prog (TpuEff nD τ sig (Elt F) Λ₀ .tc) α}
    {q : PosShare TreeShare} {fs : Buf (Elt F) (src.view.loc (c : Thread nD τ))} {fd : Buf (Elt F) (dst.view.loc (c' : Thread nD τ))}
    (hN : dst.view.dmaCredit = namt A₂ b k) (hA : namt A₁ b k = namt A₂ b k)
    (O : CellTallies nD τ sig Unit) {W : Waits sig Unit}
    (hpay₁ : (src.view.loc (c : Thread nD τ) ↦[src.view.set]{q} fs) ⊢ dpay m A₁ b k c)
    (hpay₂ : (dst.view.loc (c' : Thread nD τ) ↦[dst.view.set]{fullShare} (dst.view.write (Elt F) fd (src.view.read (Elt F) fs) Finset.univ))
      ⊢ dpay m A₂ b k c') :
    iprop(Iface.records (F := F) m K
        ∗ (src.view.loc (c : Thread nD τ) ↦[src.view.set]{q} fs) ∗ (dst.view.loc (c' : Thread nD τ) ↦[dst.view.set]{fullShare} fd)
        ∗ owes (c : Thread nD τ) (O + tallyAt (dcell A₂ b k c') () (namt A₂ b k)) W
        ∗ dutyTok ER (dcell A₁ b k c) 0 0 ∗ dutyTok ER (dcell A₂ b k c') 0 0)
      ⊢ iprop(((cred (tallyAt (dcell A₁ b k c) () (namt A₁ b k)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc c' : Thread nD τ) dst (.dma (dsem A₁ b k)) hsc) (.dma (dsem A₂ b k)) hsrc hdst hsem) kk) Q) := by
  iintro ⟨#Hrec, Hs, Hd, HO, Ht₁, Ht₂⟩
  iapply (wp_send_cells m c c' A₁ A₂ b k h₁ h₂ hN hA O rfl hpay₁ hpay₂ (κ₁ := K (c, some (A₁, b, k))) (κ₂ := K (c', some (A₂, b, k))))
  isplitr; · iapply (records_dcell m K A₁ b k c); iexact Hrec
  isplitr; · iapply (records_dcell m K A₂ b k c'); iexact Hrec
  isplitl [Hs]; · iexact Hs
  isplitl [Hd]; · iexact Hd
  isplitl [HO]; · iexact HO
  isplitl [Ht₁]; · iexact Ht₁
  isplitr; · iapply (records_dcell_reached m K A₁ b k c); iexact Hrec
  isplitl [Ht₂]; · iexact Ht₂
  iapply (records_dcell_reached m K A₂ b k c'); iexact Hrec

end Records

/-! ## Reading a slot through its view: the slot's (row, column) is the buffer's (block, first row + row, column) -/

theorem rAt_eq (f : (cc0_scratch1 : Ref sig .tc).ty.Contents (Elt F)) (bb row q : ℕ) (hb : bb < 3) (hrow : row < 384) (hq : q < 1024) :
    rAt f bb row q = f (ix3 ⟨bb, hb⟩ ⟨row, hrow⟩ ⟨q, hq⟩) := by
  unfold rAt
  simp only [Nat.mod_eq_of_lt hb, Nat.mod_eq_of_lt hrow, Nat.mod_eq_of_lt hq]

theorem aAt_eq (f : (cc0_scratch2 : Ref sig .tc).ty.Contents (Elt F)) (row q : ℕ) (hrow : row < 1024) (hq : q < 1024) :
    aAt f row q = f (ix2 ⟨row, hrow⟩ ⟨q, hq⟩) := by
  unfold aAt
  simp only [Nat.mod_eq_of_lt hrow, Nat.mod_eq_of_lt hq]

/-- A block of H rows from row r0 of plane bb of a three-dimensional buffer, its unit axis squeezed away: where the block's
    (r, q) sits. -/
theorem emb_unit_squeeze {n0 n1 n2 H : ℕ} (bb r0 : ℕ)
    (inb : ∀ a, (![bb, r0, 0] : Fin 3 → ℕ) a + (⟨3, ![1, H, n2]⟩ : Shape).size a ≤ (⟨3, ![n0, n1, n2]⟩ : Shape).size a)
    (hn : (⟨2, ![H, n2]⟩ : Shape).numel = (⟨3, ![1, H, n2]⟩ : Shape).numel) (r q : ℕ) (hr : r < H) (hq : q < n2) :
    (Rect.unit (s := ⟨3, ![n0, n1, n2]⟩) ![bb, r0, 0] (⟨3, ![1, H, n2]⟩ : Shape).size inb).emb (Shape.reshapeEquiv hn (ix2 ⟨r, hr⟩ ⟨q, hq⟩))
      = ix3 ⟨bb, by have := inb 0; simp at this; omega⟩ ⟨r0 + r, by have := inb 1; simp at this; omega⟩ ⟨q, hq⟩ := by
  have hy : Shape.reshapeEquiv hn (ix2 ⟨r, hr⟩ ⟨q, hq⟩) = (ix3 ⟨0, Nat.one_pos⟩ ⟨r, hr⟩ ⟨q, hq⟩ : (⟨3, ![1, H, n2]⟩ : Shape).Idx) :=
    Shape.reshapeEquiv_eq_of_rowMajor _ (by
      rw [Shape.rowMajor_val_three, Shape.rowMajor_val_two]
      show (0 * H + r) * n2 + q = r * n2 + q
      rw [Nat.zero_mul, Nat.zero_add])
  rw [hy]
  funext a
  apply Fin.ext
  rw [Rect.emb_apply]
  fin_cases a <;> simp

theorem rAt_slot00 (f : (cc0_scratch1 : Ref sig .tc).ty.Contents (Elt F)) (r q : ℕ) (hr : r < 192) (hq : q < 1024) :
    rAt f 0 (0 + r) q = rSlot00.view.read (Elt F) f (ix2 ⟨r, hr⟩ ⟨q, hq⟩) := by
  rw [rAt_eq f 0 (0 + r) q (by decide) (by omega) hq, View.read_apply]
  exact congrArg f (emb_unit_squeeze 0 0 inb_S3x384x1024_S1x192x1024_0_0_0 squeezes_S1x192x1024_S192x1024.numel_eq r q hr hq).symm
theorem rAt_slot01 (f : (cc0_scratch1 : Ref sig .tc).ty.Contents (Elt F)) (r q : ℕ) (hr : r < 96) (hq : q < 1024) :
    rAt f 0 (192 + r) q = rSlot01.view.read (Elt F) f (ix2 ⟨r, hr⟩ ⟨q, hq⟩) := by
  rw [rAt_eq f 0 (192 + r) q (by decide) (by omega) hq, View.read_apply]
  exact congrArg f (emb_unit_squeeze 0 192 inb_S3x384x1024_S1x96x1024_0_192_0 squeezes_S1x96x1024_S96x1024.numel_eq r q hr hq).symm
theorem rAt_slot02 (f : (cc0_scratch1 : Ref sig .tc).ty.Contents (Elt F)) (r q : ℕ) (hr : r < 96) (hq : q < 1024) :
    rAt f 0 (288 + r) q = rSlot02.view.read (Elt F) f (ix2 ⟨r, hr⟩ ⟨q, hq⟩) := by
  rw [rAt_eq f 0 (288 + r) q (by decide) (by omega) hq, View.read_apply]
  exact congrArg f (emb_unit_squeeze 0 288 inb_S3x384x1024_S1x96x1024_0_288_0 squeezes_S1x96x1024_S96x1024.numel_eq r q hr hq).symm
theorem rAt_slot10 (f : (cc0_scratch1 : Ref sig .tc).ty.Contents (Elt F)) (r q : ℕ) (hr : r < 192) (hq : q < 1024) :
    rAt f 1 (0 + r) q = rSlot10.view.read (Elt F) f (ix2 ⟨r, hr⟩ ⟨q, hq⟩) := by
  rw [rAt_eq f 1 (0 + r) q (by decide) (by omega) hq, View.read_apply]
  exact congrArg f (emb_unit_squeeze 1 0 inb_S3x384x1024_S1x192x1024_1_0_0 squeezes_S1x192x1024_S192x1024.numel_eq r q hr hq).symm
theorem rAt_slot11 (f : (cc0_scratch1 : Ref sig .tc).ty.Contents (Elt F)) (r q : ℕ) (hr : r < 96) (hq : q < 1024) :
    rAt f 1 (192 + r) q = rSlot11.view.read (Elt F) f (ix2 ⟨r, hr⟩ ⟨q, hq⟩) := by
  rw [rAt_eq f 1 (192 + r) q (by decide) (by omega) hq, View.read_apply]
  exact congrArg f (emb_unit_squeeze 1 192 inb_S3x384x1024_S1x96x1024_1_192_0 squeezes_S1x96x1024_S96x1024.numel_eq r q hr hq).symm
theorem rAt_slot12 (f : (cc0_scratch1 : Ref sig .tc).ty.Contents (Elt F)) (r q : ℕ) (hr : r < 96) (hq : q < 1024) :
    rAt f 1 (288 + r) q = rSlot12.view.read (Elt F) f (ix2 ⟨r, hr⟩ ⟨q, hq⟩) := by
  rw [rAt_eq f 1 (288 + r) q (by decide) (by omega) hq, View.read_apply]
  exact congrArg f (emb_unit_squeeze 1 288 inb_S3x384x1024_S1x96x1024_1_288_0 squeezes_S1x96x1024_S96x1024.numel_eq r q hr hq).symm
theorem rAt_slot20 (f : (cc0_scratch1 : Ref sig .tc).ty.Contents (Elt F)) (r q : ℕ) (hr : r < 128) (hq : q < 1024) :
    rAt f 2 (0 + r) q = rSlot20.view.read (Elt F) f (ix2 ⟨r, hr⟩ ⟨q, hq⟩) := by
  rw [rAt_eq f 2 (0 + r) q (by decide) (by omega) hq, View.read_apply]
  exact congrArg f (emb_unit_squeeze 2 0 inb_S3x384x1024_S1x128x1024_2_0_0 squeezes_S1x128x1024_S128x1024.numel_eq r q hr hq).symm
theorem rAt_slot21 (f : (cc0_scratch1 : Ref sig .tc).ty.Contents (Elt F)) (r q : ℕ) (hr : r < 64) (hq : q < 1024) :
    rAt f 2 (128 + r) q = rSlot21.view.read (Elt F) f (ix2 ⟨r, hr⟩ ⟨q, hq⟩) := by
  rw [rAt_eq f 2 (128 + r) q (by decide) (by omega) hq, View.read_apply]
  exact congrArg f (emb_unit_squeeze 2 128 inb_S3x384x1024_S1x64x1024_2_128_0 squeezes_S1x64x1024_S64x1024.numel_eq r q hr hq).symm
theorem rAt_slot22 (f : (cc0_scratch1 : Ref sig .tc).ty.Contents (Elt F)) (r q : ℕ) (hr : r < 64) (hq : q < 1024) :
    rAt f 2 (192 + r) q = rSlot22.view.read (Elt F) f (ix2 ⟨r, hr⟩ ⟨q, hq⟩) := by
  rw [rAt_eq f 2 (192 + r) q (by decide) (by omega) hq, View.read_apply]
  exact congrArg f (emb_unit_squeeze 2 192 inb_S3x384x1024_S1x64x1024_2_192_0 squeezes_S1x64x1024_S64x1024.numel_eq r q hr hq).symm

/-- Rows of the gather buffer from a row given by an offset function whose first coordinate is row0 and second 0. -/
theorem emb_unit_rows {n0 n1 H : ℕ} (off : Fin 2 → ℕ) (row0 : ℕ) (hoff : off = ![row0, 0])
    (inb : ∀ a, off a + (⟨2, ![H, n1]⟩ : Shape).size a ≤ (⟨2, ![n0, n1]⟩ : Shape).size a) (r q : ℕ) (hr : r < H) (hq : q < n1) :
    (Rect.unit (s := ⟨2, ![n0, n1]⟩) off (⟨2, ![H, n1]⟩ : Shape).size inb).emb (ix2 ⟨r, hr⟩ ⟨q, hq⟩)
      = ix2 ⟨row0 + r, by subst hoff; have := inb 0; simp at this; omega⟩ ⟨q, hq⟩ := by
  subst hoff
  funext a
  apply Fin.ext
  rw [Rect.emb_apply]
  fin_cases a <;> simp

theorem off5_K1_0 (c : Dev nD) : k0_off5 c 0#32 3#32 1#32 = ![K1 0 c, 0] := by
  rw [Mesh.off5_a]; show _ = ![(k0_off3 c 0#32 3#32 1#32 96#32 0#32) 0, 0]; rw [Mesh.off3_c]; rfl
theorem off5_K1_1 (c : Dev nD) : k0_off5 c 384#32 4#32 3#32 = ![K1 1 c, 0] := by
  rw [Mesh.off5_b]; show _ = ![(k0_off3 c 384#32 4#32 3#32 96#32 0#32) 0, 0]; rw [Mesh.off3_d]; rfl
theorem off6_K1_2 (c : Dev nD) : k0_off6 c = ![K1 2 c, 0] := by
  rw [Mesh.off6]; show _ = ![(k0_off4 c 64#32 0#32) 0, 0]; rw [Mesh.off4_b]; rfl
theorem off7_K0_0 (c : Dev nD) : k0_off7 c 0#32 3#32 1#32 = ![K0 0 c, 0] := by
  rw [Mesh.off7_a]; show _ = ![(k0_off1 c 0#32 3#32 192#32 0#32) 0, 0]; rw [Mesh.off1_c]; rfl
theorem off7_K0_1 (c : Dev nD) : k0_off7 c 384#32 4#32 3#32 = ![K0 1 c, 0] := by
  rw [Mesh.off7_b]; show _ = ![(k0_off1 c 384#32 4#32 192#32 0#32) 0, 0]; rw [Mesh.off1_d]; rfl
theorem off8_K0_2 (c : Dev nD) : k0_off8 c = ![K0 2 c, 0] := by
  rw [Mesh.off8]; show _ = ![(k0_off2 c 128#32 0#32) 0, 0]; rw [Mesh.off2_b]; rfl

theorem K1_0_lt (c : Dev nD) : K1 0 c + 96 ≤ 1024 := by
  have := k0_off5_inb c 0 0; change (k0_off5 c 0#32 3#32 1#32) 0 + 96 ≤ 1024 at this; rw [off5_K1_0] at this; simpa using this
theorem K1_1_lt (c : Dev nD) : K1 1 c + 96 ≤ 1024 := by
  have := k0_off5_inb c 1 0; change (k0_off5 c 384#32 4#32 3#32) 0 + 96 ≤ 1024 at this; rw [off5_K1_1] at this; simpa using this
theorem K1_2_lt (c : Dev nD) : K1 2 c + 64 ≤ 1024 := by
  have := k0_off6_inb c 0; change (k0_off6 c) 0 + 64 ≤ 1024 at this; rw [off6_K1_2] at this; simpa using this
theorem K0_0_lt (c : Dev nD) : K0 0 c + 192 ≤ 1024 := by
  have := k0_off7_inb c 0 0; change (k0_off7 c 0#32 3#32 1#32) 0 + 192 ≤ 1024 at this; rw [off7_K0_0] at this; simpa using this
theorem K0_1_lt (c : Dev nD) : K0 1 c + 192 ≤ 1024 := by
  have := k0_off7_inb c 1 0; change (k0_off7 c 384#32 4#32 3#32) 0 + 192 ≤ 1024 at this; rw [off7_K0_1] at this; simpa using this
theorem K0_2_lt (c : Dev nD) : K0 2 c + 128 ≤ 1024 := by
  have := k0_off8_inb c 0; change (k0_off8 c) 0 + 128 ≤ 1024 at this; rw [off8_K0_2] at this; simpa using this

theorem aAt_rows01 (c : Dev nD) (f : (cc0_scratch2 : Ref sig .tc).ty.Contents (Elt F)) (r q : ℕ) (hr : r < 96) (hq : q < 1024) :
    aAt f (K1 0 c + r) q = (aRows01 c).view.read (Elt F) f (ix2 ⟨r, hr⟩ ⟨q, hq⟩) := by
  rw [aAt_eq f (K1 0 c + r) q (by have := K1_0_lt c; omega) hq, View.read_apply]
  exact congrArg f (emb_unit_rows _ (K1 0 c) (off5_K1_0 c) (k0_off5_inb c 0) r q hr hq).symm
theorem aAt_rows11 (c : Dev nD) (f : (cc0_scratch2 : Ref sig .tc).ty.Contents (Elt F)) (r q : ℕ) (hr : r < 96) (hq : q < 1024) :
    aAt f (K1 1 c + r) q = (aRows11 c).view.read (Elt F) f (ix2 ⟨r, hr⟩ ⟨q, hq⟩) := by
  rw [aAt_eq f (K1 1 c + r) q (by have := K1_1_lt c; omega) hq, View.read_apply]
  exact congrArg f (emb_unit_rows _ (K1 1 c) (off5_K1_1 c) (k0_off5_inb c 1) r q hr hq).symm
theorem aAt_rows21 (c : Dev nD) (f : (cc0_scratch2 : Ref sig .tc).ty.Contents (Elt F)) (r q : ℕ) (hr : r < 64) (hq : q < 1024) :
    aAt f (K1 2 c + r) q = (aRows21 c).view.read (Elt F) f (ix2 ⟨r, hr⟩ ⟨q, hq⟩) := by
  rw [aAt_eq f (K1 2 c + r) q (by have := K1_2_lt c; omega) hq, View.read_apply]
  exact congrArg f (emb_unit_rows _ (K1 2 c) (off6_K1_2 c) (k0_off6_inb c) r q hr hq).symm
theorem aAt_rows00 (c : Dev nD) (f : (cc0_scratch2 : Ref sig .tc).ty.Contents (Elt F)) (r q : ℕ) (hr : r < 192) (hq : q < 1024) :
    aAt f (K0 0 c + r) q = (aRows00 c).view.read (Elt F) f (ix2 ⟨r, hr⟩ ⟨q, hq⟩) := by
  rw [aAt_eq f (K0 0 c + r) q (by have := K0_0_lt c; omega) hq, View.read_apply]
  exact congrArg f (emb_unit_rows _ (K0 0 c) (off7_K0_0 c) (k0_off7_inb c 0) r q hr hq).symm
theorem aAt_rows10 (c : Dev nD) (f : (cc0_scratch2 : Ref sig .tc).ty.Contents (Elt F)) (r q : ℕ) (hr : r < 192) (hq : q < 1024) :
    aAt f (K0 1 c + r) q = (aRows10 c).view.read (Elt F) f (ix2 ⟨r, hr⟩ ⟨q, hq⟩) := by
  rw [aAt_eq f (K0 1 c + r) q (by have := K0_1_lt c; omega) hq, View.read_apply]
  exact congrArg f (emb_unit_rows _ (K0 1 c) (off7_K0_1 c) (k0_off7_inb c 1) r q hr hq).symm
theorem aAt_rows20 (c : Dev nD) (f : (cc0_scratch2 : Ref sig .tc).ty.Contents (Elt F)) (r q : ℕ) (hr : r < 128) (hq : q < 1024) :
    aAt f (K0 2 c + r) q = (aRows20 c).view.read (Elt F) f (ix2 ⟨r, hr⟩ ⟨q, hq⟩) := by
  rw [aAt_eq f (K0 2 c + r) q (by have := K0_2_lt c; omega) hq, View.read_apply]
  exact congrArg f (emb_unit_rows _ (K0 2 c) (off8_K0_2 c) (k0_off8_inb c) r q hr hq).symm

/-! ## The remote copies, block by block

Exchange stage k of butterfly b: the source slot holds the device's sum of the stage before (its own partial product at
stage 0) over the rows its partner keeps, narrowed; it lands in the partner's slot. Gather stage k: the device's rows of the
gather buffer hold the totals, and land in the same rows of the partner's. -/

section Sends

open Cert.KernelIdeal.Iface (𝒱₀)

local notation "WP[" c "]" => wp frame (wpE (defs₀ (F := F)) 𝒱₀ (c : Thread nD τ) none) Set.univ

theorem wp_rs_send00 (K : Dev nD × Iface.CIx → ℕ) (c : Dev nD)
    {hsc : (rSlot00 : Memref sig (Dev.tc (Mesh.px 3 c) : Thread nD τ).2.kind .vmem S192x1024 .bf16).view.ref.isScScratch = false}
    {hsrc : sSlot00.view.WordExact} {hdst : rSlot00.view.WordExact}
    {hsem : DmaTarget.Typed .vmem (.dma (dsem 1 0 0)) (.remote (Dev.tc (Mesh.px 3 c) : Thread nD τ) rSlot00 (.dma (dsem 0 0 0)) hsc)}
    {α : Type} {Q : α → sProp 𝕄} {kk : PUnit → Prog (TpuEff nD τ sig (Elt F) Λ₀ .tc) α}
    {fs : Buf (Elt F) (sSlot00.view.loc (c : Thread nD τ))} {fd : Buf (Elt F) (rSlot00.view.loc (Mesh.px 3 c : Thread nD τ))}
    (O : CellTallies nD τ sig Unit) {W : Waits sig Unit}
    (hfs : ∀ (r q : ℕ) (hr : r < 192) (hq : q < 1024), sSlot00.view.read (Elt F) fs (ix2 ⟨r, hr⟩ ⟨q, hq⟩) = tr (S0 m 0 c (K0 0 (Mesh.px 3 c) + r) q)) :
    iprop(Iface.records (F := F) m K
        ∗ (sSlot00.view.loc (c : Thread nD τ) ↦[sSlot00.view.set]{fullShare} fs)
        ∗ (rSlot00.view.loc (Mesh.px 3 c : Thread nD τ) ↦[rSlot00.view.set]{fullShare} fd)
        ∗ owes (c : Thread nD τ) (O + tallyAt (dcell 1 0 0 (Mesh.px 3 c)) () (namt 1 0 0)) W
        ∗ dutyTok ER (dcell 0 0 0 c) 0 0 ∗ dutyTok ER (dcell 1 0 0 (Mesh.px 3 c)) 0 0)
      ⊢ iprop(((cred (tallyAt (dcell 0 0 0 c) () (namt 0 0 0)) ∗ owes (c : Thread nD τ) O W) -∗ WP[c] (kk ⟨⟩) Q)
          -∗ WP[c] (.op (.enqueueDma sSlot00 (.remote (Dev.tc (Mesh.px 3 c) : Thread nD τ) rSlot00 (.dma (dsem 0 0 0)) hsc) (.dma (dsem 1 0 0)) hsrc hdst hsem) kk) Q) :=
  wp_send_rec m K c (Mesh.px 3 c) 0 1 0 0 (Or.inl (by decide)) (Or.inl (by decide)) credit_r00 rfl O
    (by show _ ⊢ iprop(∃ f, _)
        iintro H; iexists fs; iexact H)
    (by show _ ⊢ iprop(∃ f, _ ∗ ⌜_⌝)
        have h := Mesh.px3_px3 c
        generalize Mesh.px 3 (Mesh.px 3 c) = x at h ⊢
        subst h
        iintro H; iexists _; isplitl [H]; · iexact H
        ipureintro; intro r q hr hq
        rw [rAt_slot00 _ r q hr hq, View.read_write_univ]; exact hfs r q hr hq)

theorem wp_rs_send10 (K : Dev nD × Iface.CIx → ℕ) (c : Dev nD)
    {hsc : (rSlot10 : Memref sig (Dev.tc (Mesh.px 4 c) : Thread nD τ).2.kind .vmem S192x1024 .bf16).view.ref.isScScratch = false}
    {hsrc : sSlot10.view.WordExact} {hdst : rSlot10.view.WordExact}
    {hsem : DmaTarget.Typed .vmem (.dma (dsem 1 1 0)) (.remote (Dev.tc (Mesh.px 4 c) : Thread nD τ) rSlot10 (.dma (dsem 0 1 0)) hsc)}
    {α : Type} {Q : α → sProp 𝕄} {kk : PUnit → Prog (TpuEff nD τ sig (Elt F) Λ₀ .tc) α}
    {fs : Buf (Elt F) (sSlot10.view.loc (c : Thread nD τ))} {fd : Buf (Elt F) (rSlot10.view.loc (Mesh.px 4 c : Thread nD τ))}
    (O : CellTallies nD τ sig Unit) {W : Waits sig Unit}
    (hfs : ∀ (r q : ℕ) (hr : r < 192) (hq : q < 1024), sSlot10.view.read (Elt F) fs (ix2 ⟨r, hr⟩ ⟨q, hq⟩) = tr (S0 m 1 c (K0 1 (Mesh.px 4 c) + r) q)) :
    iprop(Iface.records (F := F) m K
        ∗ (sSlot10.view.loc (c : Thread nD τ) ↦[sSlot10.view.set]{fullShare} fs)
        ∗ (rSlot10.view.loc (Mesh.px 4 c : Thread nD τ) ↦[rSlot10.view.set]{fullShare} fd)
        ∗ owes (c : Thread nD τ) (O + tallyAt (dcell 1 1 0 (Mesh.px 4 c)) () (namt 1 1 0)) W
        ∗ dutyTok ER (dcell 0 1 0 c) 0 0 ∗ dutyTok ER (dcell 1 1 0 (Mesh.px 4 c)) 0 0)
      ⊢ iprop(((cred (tallyAt (dcell 0 1 0 c) () (namt 0 1 0)) ∗ owes (c : Thread nD τ) O W) -∗ WP[c] (kk ⟨⟩) Q)
          -∗ WP[c] (.op (.enqueueDma sSlot10 (.remote (Dev.tc (Mesh.px 4 c) : Thread nD τ) rSlot10 (.dma (dsem 0 1 0)) hsc) (.dma (dsem 1 1 0)) hsrc hdst hsem) kk) Q) :=
  wp_send_rec m K c (Mesh.px 4 c) 0 1 1 0 (Or.inl (by decide)) (Or.inl (by decide)) credit_r10 rfl O
    (by show _ ⊢ iprop(∃ f, _)
        iintro H; iexists fs; iexact H)
    (by show _ ⊢ iprop(∃ f, _ ∗ ⌜_⌝)
        have h := Mesh.px4_px4 c
        generalize Mesh.px 4 (Mesh.px 4 c) = x at h ⊢
        subst h
        iintro H; iexists _; isplitl [H]; · iexact H
        ipureintro; intro r q hr hq
        rw [rAt_slot10 _ r q hr hq, View.read_write_univ]; exact hfs r q hr hq)

theorem wp_rs_send20 (K : Dev nD × Iface.CIx → ℕ) (c : Dev nD)
    {hsc : (rSlot20 : Memref sig (Dev.tc (Mesh.px 1 c) : Thread nD τ).2.kind .vmem S128x1024 .bf16).view.ref.isScScratch = false}
    {hsrc : sSlot20.view.WordExact} {hdst : rSlot20.view.WordExact}
    {hsem : DmaTarget.Typed .vmem (.dma (dsem 1 2 0)) (.remote (Dev.tc (Mesh.px 1 c) : Thread nD τ) rSlot20 (.dma (dsem 0 2 0)) hsc)}
    {α : Type} {Q : α → sProp 𝕄} {kk : PUnit → Prog (TpuEff nD τ sig (Elt F) Λ₀ .tc) α}
    {fs : Buf (Elt F) (sSlot20.view.loc (c : Thread nD τ))} {fd : Buf (Elt F) (rSlot20.view.loc (Mesh.px 1 c : Thread nD τ))}
    (O : CellTallies nD τ sig Unit) {W : Waits sig Unit}
    (hfs : ∀ (r q : ℕ) (hr : r < 128) (hq : q < 1024), sSlot20.view.read (Elt F) fs (ix2 ⟨r, hr⟩ ⟨q, hq⟩) = tr (S0 m 2 c (K0 2 (Mesh.px 1 c) + r) q)) :
    iprop(Iface.records (F := F) m K
        ∗ (sSlot20.view.loc (c : Thread nD τ) ↦[sSlot20.view.set]{fullShare} fs)
        ∗ (rSlot20.view.loc (Mesh.px 1 c : Thread nD τ) ↦[rSlot20.view.set]{fullShare} fd)
        ∗ owes (c : Thread nD τ) (O + tallyAt (dcell 1 2 0 (Mesh.px 1 c)) () (namt 1 2 0)) W
        ∗ dutyTok ER (dcell 0 2 0 c) 0 0 ∗ dutyTok ER (dcell 1 2 0 (Mesh.px 1 c)) 0 0)
      ⊢ iprop(((cred (tallyAt (dcell 0 2 0 c) () (namt 0 2 0)) ∗ owes (c : Thread nD τ) O W) -∗ WP[c] (kk ⟨⟩) Q)
          -∗ WP[c] (.op (.enqueueDma sSlot20 (.remote (Dev.tc (Mesh.px 1 c) : Thread nD τ) rSlot20 (.dma (dsem 0 2 0)) hsc) (.dma (dsem 1 2 0)) hsrc hdst hsem) kk) Q) :=
  wp_send_rec m K c (Mesh.px 1 c) 0 1 2 0 (Or.inl (by decide)) (Or.inl (by decide)) credit_r20 rfl O
    (by show _ ⊢ iprop(∃ f, _)
        iintro H; iexists fs; iexact H)
    (by show _ ⊢ iprop(∃ f, _ ∗ ⌜_⌝)
        have h := Mesh.px1_px1 c
        generalize Mesh.px 1 (Mesh.px 1 c) = x at h ⊢
        subst h
        iintro H; iexists _; isplitl [H]; · iexact H
        ipureintro; intro r q hr hq
        rw [rAt_slot20 _ r q hr hq, View.read_write_univ]; exact hfs r q hr hq)

theorem wp_rs_send01 (K : Dev nD × Iface.CIx → ℕ) (c : Dev nD)
    {hsc : (rSlot01 : Memref sig (Dev.tc (Mesh.px 1 c) : Thread nD τ).2.kind .vmem S96x1024 .bf16).view.ref.isScScratch = false}
    {hsrc : sSlot01.view.WordExact} {hdst : rSlot01.view.WordExact}
    {hsem : DmaTarget.Typed .vmem (.dma (dsem 1 0 1)) (.remote (Dev.tc (Mesh.px 1 c) : Thread nD τ) rSlot01 (.dma (dsem 0 0 1)) hsc)}
    {α : Type} {Q : α → sProp 𝕄} {kk : PUnit → Prog (TpuEff nD τ sig (Elt F) Λ₀ .tc) α}
    {fs : Buf (Elt F) (sSlot01.view.loc (c : Thread nD τ))} {fd : Buf (Elt F) (rSlot01.view.loc (Mesh.px 1 c : Thread nD τ))}
    (O : CellTallies nD τ sig Unit) {W : Waits sig Unit}
    (hfs : ∀ (r q : ℕ) (hr : r < 96) (hq : q < 1024), sSlot01.view.read (Elt F) fs (ix2 ⟨r, hr⟩ ⟨q, hq⟩) = tr (S1 m 0 c (K1 0 (Mesh.px 1 c) + r) q)) :
    iprop(Iface.records (F := F) m K
        ∗ (sSlot01.view.loc (c : Thread nD τ) ↦[sSlot01.view.set]{fullShare} fs)
        ∗ (rSlot01.view.loc (Mesh.px 1 c : Thread nD τ) ↦[rSlot01.view.set]{fullShare} fd)
        ∗ owes (c : Thread nD τ) (O + tallyAt (dcell 1 0 1 (Mesh.px 1 c)) () (namt 1 0 1)) W
        ∗ dutyTok ER (dcell 0 0 1 c) 0 0 ∗ dutyTok ER (dcell 1 0 1 (Mesh.px 1 c)) 0 0)
      ⊢ iprop(((cred (tallyAt (dcell 0 0 1 c) () (namt 0 0 1)) ∗ owes (c : Thread nD τ) O W) -∗ WP[c] (kk ⟨⟩) Q)
          -∗ WP[c] (.op (.enqueueDma sSlot01 (.remote (Dev.tc (Mesh.px 1 c) : Thread nD τ) rSlot01 (.dma (dsem 0 0 1)) hsc) (.dma (dsem 1 0 1)) hsrc hdst hsem) kk) Q) :=
  wp_send_rec m K c (Mesh.px 1 c) 0 1 0 1 (Or.inl (by decide)) (Or.inl (by decide)) credit_r01 rfl O
    (by show _ ⊢ iprop(∃ f, _)
        iintro H; iexists fs; iexact H)
    (by show _ ⊢ iprop(∃ f, _ ∗ ⌜_⌝)
        have h := Mesh.px1_px1 c
        generalize Mesh.px 1 (Mesh.px 1 c) = x at h ⊢
        subst h
        iintro H; iexists _; isplitl [H]; · iexact H
        ipureintro; intro r q hr hq
        rw [rAt_slot01 _ r q hr hq, View.read_write_univ]; exact hfs r q hr hq)

theorem wp_rs_send11 (K : Dev nD × Iface.CIx → ℕ) (c : Dev nD)
    {hsc : (rSlot11 : Memref sig (Dev.tc (Mesh.px 3 c) : Thread nD τ).2.kind .vmem S96x1024 .bf16).view.ref.isScScratch = false}
    {hsrc : sSlot11.view.WordExact} {hdst : rSlot11.view.WordExact}
    {hsem : DmaTarget.Typed .vmem (.dma (dsem 1 1 1)) (.remote (Dev.tc (Mesh.px 3 c) : Thread nD τ) rSlot11 (.dma (dsem 0 1 1)) hsc)}
    {α : Type} {Q : α → sProp 𝕄} {kk : PUnit → Prog (TpuEff nD τ sig (Elt F) Λ₀ .tc) α}
    {fs : Buf (Elt F) (sSlot11.view.loc (c : Thread nD τ))} {fd : Buf (Elt F) (rSlot11.view.loc (Mesh.px 3 c : Thread nD τ))}
    (O : CellTallies nD τ sig Unit) {W : Waits sig Unit}
    (hfs : ∀ (r q : ℕ) (hr : r < 96) (hq : q < 1024), sSlot11.view.read (Elt F) fs (ix2 ⟨r, hr⟩ ⟨q, hq⟩) = tr (S1 m 1 c (K1 1 (Mesh.px 3 c) + r) q)) :
    iprop(Iface.records (F := F) m K
        ∗ (sSlot11.view.loc (c : Thread nD τ) ↦[sSlot11.view.set]{fullShare} fs)
        ∗ (rSlot11.view.loc (Mesh.px 3 c : Thread nD τ) ↦[rSlot11.view.set]{fullShare} fd)
        ∗ owes (c : Thread nD τ) (O + tallyAt (dcell 1 1 1 (Mesh.px 3 c)) () (namt 1 1 1)) W
        ∗ dutyTok ER (dcell 0 1 1 c) 0 0 ∗ dutyTok ER (dcell 1 1 1 (Mesh.px 3 c)) 0 0)
      ⊢ iprop(((cred (tallyAt (dcell 0 1 1 c) () (namt 0 1 1)) ∗ owes (c : Thread nD τ) O W) -∗ WP[c] (kk ⟨⟩) Q)
          -∗ WP[c] (.op (.enqueueDma sSlot11 (.remote (Dev.tc (Mesh.px 3 c) : Thread nD τ) rSlot11 (.dma (dsem 0 1 1)) hsc) (.dma (dsem 1 1 1)) hsrc hdst hsem) kk) Q) :=
  wp_send_rec m K c (Mesh.px 3 c) 0 1 1 1 (Or.inl (by decide)) (Or.inl (by decide)) credit_r11 rfl O
    (by show _ ⊢ iprop(∃ f, _)
        iintro H; iexists fs; iexact H)
    (by show _ ⊢ iprop(∃ f, _ ∗ ⌜_⌝)
        have h := Mesh.px3_px3 c
        generalize Mesh.px 3 (Mesh.px 3 c) = x at h ⊢
        subst h
        iintro H; iexists _; isplitl [H]; · iexact H
        ipureintro; intro r q hr hq
        rw [rAt_slot11 _ r q hr hq, View.read_write_univ]; exact hfs r q hr hq)

theorem wp_rs_send21 (K : Dev nD × Iface.CIx → ℕ) (c : Dev nD)
    {hsc : (rSlot21 : Memref sig (Dev.tc (Mesh.px 4 c) : Thread nD τ).2.kind .vmem S64x1024 .bf16).view.ref.isScScratch = false}
    {hsrc : sSlot21.view.WordExact} {hdst : rSlot21.view.WordExact}
    {hsem : DmaTarget.Typed .vmem (.dma (dsem 1 2 1)) (.remote (Dev.tc (Mesh.px 4 c) : Thread nD τ) rSlot21 (.dma (dsem 0 2 1)) hsc)}
    {α : Type} {Q : α → sProp 𝕄} {kk : PUnit → Prog (TpuEff nD τ sig (Elt F) Λ₀ .tc) α}
    {fs : Buf (Elt F) (sSlot21.view.loc (c : Thread nD τ))} {fd : Buf (Elt F) (rSlot21.view.loc (Mesh.px 4 c : Thread nD τ))}
    (O : CellTallies nD τ sig Unit) {W : Waits sig Unit}
    (hfs : ∀ (r q : ℕ) (hr : r < 64) (hq : q < 1024), sSlot21.view.read (Elt F) fs (ix2 ⟨r, hr⟩ ⟨q, hq⟩) = tr (S1 m 2 c (K1 2 (Mesh.px 4 c) + r) q)) :
    iprop(Iface.records (F := F) m K
        ∗ (sSlot21.view.loc (c : Thread nD τ) ↦[sSlot21.view.set]{fullShare} fs)
        ∗ (rSlot21.view.loc (Mesh.px 4 c : Thread nD τ) ↦[rSlot21.view.set]{fullShare} fd)
        ∗ owes (c : Thread nD τ) (O + tallyAt (dcell 1 2 1 (Mesh.px 4 c)) () (namt 1 2 1)) W
        ∗ dutyTok ER (dcell 0 2 1 c) 0 0 ∗ dutyTok ER (dcell 1 2 1 (Mesh.px 4 c)) 0 0)
      ⊢ iprop(((cred (tallyAt (dcell 0 2 1 c) () (namt 0 2 1)) ∗ owes (c : Thread nD τ) O W) -∗ WP[c] (kk ⟨⟩) Q)
          -∗ WP[c] (.op (.enqueueDma sSlot21 (.remote (Dev.tc (Mesh.px 4 c) : Thread nD τ) rSlot21 (.dma (dsem 0 2 1)) hsc) (.dma (dsem 1 2 1)) hsrc hdst hsem) kk) Q) :=
  wp_send_rec m K c (Mesh.px 4 c) 0 1 2 1 (Or.inl (by decide)) (Or.inl (by decide)) credit_r21 rfl O
    (by show _ ⊢ iprop(∃ f, _)
        iintro H; iexists fs; iexact H)
    (by show _ ⊢ iprop(∃ f, _ ∗ ⌜_⌝)
        have h := Mesh.px4_px4 c
        generalize Mesh.px 4 (Mesh.px 4 c) = x at h ⊢
        subst h
        iintro H; iexists _; isplitl [H]; · iexact H
        ipureintro; intro r q hr hq
        rw [rAt_slot21 _ r q hr hq, View.read_write_univ]; exact hfs r q hr hq)

theorem wp_rs_send02 (K : Dev nD × Iface.CIx → ℕ) (c : Dev nD)
    {hsc : (rSlot02 : Memref sig (Dev.tc (Mesh.px 4 c) : Thread nD τ).2.kind .vmem S96x1024 .bf16).view.ref.isScScratch = false}
    {hsrc : sSlot02.view.WordExact} {hdst : rSlot02.view.WordExact}
    {hsem : DmaTarget.Typed .vmem (.dma (dsem 1 0 2)) (.remote (Dev.tc (Mesh.px 4 c) : Thread nD τ) rSlot02 (.dma (dsem 0 0 2)) hsc)}
    {α : Type} {Q : α → sProp 𝕄} {kk : PUnit → Prog (TpuEff nD τ sig (Elt F) Λ₀ .tc) α}
    {fs : Buf (Elt F) (sSlot02.view.loc (c : Thread nD τ))} {fd : Buf (Elt F) (rSlot02.view.loc (Mesh.px 4 c : Thread nD τ))}
    (O : CellTallies nD τ sig Unit) {W : Waits sig Unit}
    (hfs : ∀ (r q : ℕ) (hr : r < 96) (hq : q < 1024), sSlot02.view.read (Elt F) fs (ix2 ⟨r, hr⟩ ⟨q, hq⟩) = tr (S2 m 0 c (K1 0 (Mesh.px 4 c) + r) q)) :
    iprop(Iface.records (F := F) m K
        ∗ (sSlot02.view.loc (c : Thread nD τ) ↦[sSlot02.view.set]{fullShare} fs)
        ∗ (rSlot02.view.loc (Mesh.px 4 c : Thread nD τ) ↦[rSlot02.view.set]{fullShare} fd)
        ∗ owes (c : Thread nD τ) (O + tallyAt (dcell 1 0 2 (Mesh.px 4 c)) () (namt 1 0 2)) W
        ∗ dutyTok ER (dcell 0 0 2 c) 0 0 ∗ dutyTok ER (dcell 1 0 2 (Mesh.px 4 c)) 0 0)
      ⊢ iprop(((cred (tallyAt (dcell 0 0 2 c) () (namt 0 0 2)) ∗ owes (c : Thread nD τ) O W) -∗ WP[c] (kk ⟨⟩) Q)
          -∗ WP[c] (.op (.enqueueDma sSlot02 (.remote (Dev.tc (Mesh.px 4 c) : Thread nD τ) rSlot02 (.dma (dsem 0 0 2)) hsc) (.dma (dsem 1 0 2)) hsrc hdst hsem) kk) Q) :=
  wp_send_rec m K c (Mesh.px 4 c) 0 1 0 2 (Or.inl (by decide)) (Or.inl (by decide)) credit_r02 rfl O
    (by show _ ⊢ iprop(∃ f, _)
        iintro H; iexists fs; iexact H)
    (by show _ ⊢ iprop(∃ f, _ ∗ ⌜_⌝)
        have h := Mesh.px4_px4 c
        generalize Mesh.px 4 (Mesh.px 4 c) = x at h ⊢
        subst h
        iintro H; iexists _; isplitl [H]; · iexact H
        ipureintro; intro r q hr hq
        rw [rAt_slot02 _ r q hr hq, View.read_write_univ]; exact hfs r q hr hq)

theorem wp_rs_send12 (K : Dev nD × Iface.CIx → ℕ) (c : Dev nD)
    {hsc : (rSlot12 : Memref sig (Dev.tc (Mesh.px 1 c) : Thread nD τ).2.kind .vmem S96x1024 .bf16).view.ref.isScScratch = false}
    {hsrc : sSlot12.view.WordExact} {hdst : rSlot12.view.WordExact}
    {hsem : DmaTarget.Typed .vmem (.dma (dsem 1 1 2)) (.remote (Dev.tc (Mesh.px 1 c) : Thread nD τ) rSlot12 (.dma (dsem 0 1 2)) hsc)}
    {α : Type} {Q : α → sProp 𝕄} {kk : PUnit → Prog (TpuEff nD τ sig (Elt F) Λ₀ .tc) α}
    {fs : Buf (Elt F) (sSlot12.view.loc (c : Thread nD τ))} {fd : Buf (Elt F) (rSlot12.view.loc (Mesh.px 1 c : Thread nD τ))}
    (O : CellTallies nD τ sig Unit) {W : Waits sig Unit}
    (hfs : ∀ (r q : ℕ) (hr : r < 96) (hq : q < 1024), sSlot12.view.read (Elt F) fs (ix2 ⟨r, hr⟩ ⟨q, hq⟩) = tr (S2 m 1 c (K1 1 (Mesh.px 1 c) + r) q)) :
    iprop(Iface.records (F := F) m K
        ∗ (sSlot12.view.loc (c : Thread nD τ) ↦[sSlot12.view.set]{fullShare} fs)
        ∗ (rSlot12.view.loc (Mesh.px 1 c : Thread nD τ) ↦[rSlot12.view.set]{fullShare} fd)
        ∗ owes (c : Thread nD τ) (O + tallyAt (dcell 1 1 2 (Mesh.px 1 c)) () (namt 1 1 2)) W
        ∗ dutyTok ER (dcell 0 1 2 c) 0 0 ∗ dutyTok ER (dcell 1 1 2 (Mesh.px 1 c)) 0 0)
      ⊢ iprop(((cred (tallyAt (dcell 0 1 2 c) () (namt 0 1 2)) ∗ owes (c : Thread nD τ) O W) -∗ WP[c] (kk ⟨⟩) Q)
          -∗ WP[c] (.op (.enqueueDma sSlot12 (.remote (Dev.tc (Mesh.px 1 c) : Thread nD τ) rSlot12 (.dma (dsem 0 1 2)) hsc) (.dma (dsem 1 1 2)) hsrc hdst hsem) kk) Q) :=
  wp_send_rec m K c (Mesh.px 1 c) 0 1 1 2 (Or.inl (by decide)) (Or.inl (by decide)) credit_r12 rfl O
    (by show _ ⊢ iprop(∃ f, _)
        iintro H; iexists fs; iexact H)
    (by show _ ⊢ iprop(∃ f, _ ∗ ⌜_⌝)
        have h := Mesh.px1_px1 c
        generalize Mesh.px 1 (Mesh.px 1 c) = x at h ⊢
        subst h
        iintro H; iexists _; isplitl [H]; · iexact H
        ipureintro; intro r q hr hq
        rw [rAt_slot12 _ r q hr hq, View.read_write_univ]; exact hfs r q hr hq)

theorem wp_rs_send22 (K : Dev nD × Iface.CIx → ℕ) (c : Dev nD)
    {hsc : (rSlot22 : Memref sig (Dev.tc (Mesh.px 2 c) : Thread nD τ).2.kind .vmem S64x1024 .bf16).view.ref.isScScratch = false}
    {hsrc : sSlot22.view.WordExact} {hdst : rSlot22.view.WordExact}
    {hsem : DmaTarget.Typed .vmem (.dma (dsem 1 2 2)) (.remote (Dev.tc (Mesh.px 2 c) : Thread nD τ) rSlot22 (.dma (dsem 0 2 2)) hsc)}
    {α : Type} {Q : α → sProp 𝕄} {kk : PUnit → Prog (TpuEff nD τ sig (Elt F) Λ₀ .tc) α}
    {fs : Buf (Elt F) (sSlot22.view.loc (c : Thread nD τ))} {fd : Buf (Elt F) (rSlot22.view.loc (Mesh.px 2 c : Thread nD τ))}
    (O : CellTallies nD τ sig Unit) {W : Waits sig Unit}
    (hfs : ∀ (r q : ℕ) (hr : r < 64) (hq : q < 1024), sSlot22.view.read (Elt F) fs (ix2 ⟨r, hr⟩ ⟨q, hq⟩) = tr (S2 m 2 c (K1 2 (Mesh.px 2 c) + r) q)) :
    iprop(Iface.records (F := F) m K
        ∗ (sSlot22.view.loc (c : Thread nD τ) ↦[sSlot22.view.set]{fullShare} fs)
        ∗ (rSlot22.view.loc (Mesh.px 2 c : Thread nD τ) ↦[rSlot22.view.set]{fullShare} fd)
        ∗ owes (c : Thread nD τ) (O + tallyAt (dcell 1 2 2 (Mesh.px 2 c)) () (namt 1 2 2)) W
        ∗ dutyTok ER (dcell 0 2 2 c) 0 0 ∗ dutyTok ER (dcell 1 2 2 (Mesh.px 2 c)) 0 0)
      ⊢ iprop(((cred (tallyAt (dcell 0 2 2 c) () (namt 0 2 2)) ∗ owes (c : Thread nD τ) O W) -∗ WP[c] (kk ⟨⟩) Q)
          -∗ WP[c] (.op (.enqueueDma sSlot22 (.remote (Dev.tc (Mesh.px 2 c) : Thread nD τ) rSlot22 (.dma (dsem 0 2 2)) hsc) (.dma (dsem 1 2 2)) hsrc hdst hsem) kk) Q) :=
  wp_send_rec m K c (Mesh.px 2 c) 0 1 2 2 (Or.inl (by decide)) (Or.inl (by decide)) credit_r22 rfl O
    (by show _ ⊢ iprop(∃ f, _)
        iintro H; iexists fs; iexact H)
    (by show _ ⊢ iprop(∃ f, _ ∗ ⌜_⌝)
        have h := Mesh.px2_px2 c
        generalize Mesh.px 2 (Mesh.px 2 c) = x at h ⊢
        subst h
        iintro H; iexists _; isplitl [H]; · iexact H
        ipureintro; intro r q hr hq
        rw [rAt_slot22 _ r q hr hq, View.read_write_univ]; exact hfs r q hr hq)

theorem wp_ag_send01 (K : Dev nD × Iface.CIx → ℕ) (c : Dev nD)
    {hsc : ((aRows01 c) : Memref sig (Dev.tc (Mesh.px 1 c) : Thread nD τ).2.kind .vmem S96x1024 .bf16).view.ref.isScScratch = false}
    {hsrc : (aRows01 c).view.WordExact} {hdst : (aRows01 c).view.WordExact}
    {hsem : DmaTarget.Typed .vmem (.dma (dsem 3 0 1)) (.remote (Dev.tc (Mesh.px 1 c) : Thread nD τ) (aRows01 c) (.dma (dsem 2 0 1)) hsc)}
    {α : Type} {Q : α → sProp 𝕄} {kk : PUnit → Prog (TpuEff nD τ sig (Elt F) Λ₀ .tc) α}
    {fs : Buf (Elt F) ((aRows01 c).view.loc (c : Thread nD τ))} {fd : Buf (Elt F) ((aRows01 c).view.loc (Mesh.px 1 c : Thread nD τ))}
    (O : CellTallies nD τ sig Unit) {W : Waits sig Unit}
    (hfs : ∀ (r q : ℕ) (hr : r < 96) (hq : q < 1024), (aRows01 c).view.read (Elt F) fs (ix2 ⟨r, hr⟩ ⟨q, hq⟩) = tr (S3 m 0 c (K1 0 c + r) q)) :
    iprop(Iface.records (F := F) m K
        ∗ ((aRows01 c).view.loc (c : Thread nD τ) ↦[(aRows01 c).view.set]{fullShare.left} fs)
        ∗ ((aRows01 c).view.loc (Mesh.px 1 c : Thread nD τ) ↦[(aRows01 c).view.set]{fullShare} fd)
        ∗ owes (c : Thread nD τ) (O + tallyAt (dcell 3 0 1 (Mesh.px 1 c)) () (namt 3 0 1)) W
        ∗ dutyTok ER (dcell 2 0 1 c) 0 0 ∗ dutyTok ER (dcell 3 0 1 (Mesh.px 1 c)) 0 0)
      ⊢ iprop(((cred (tallyAt (dcell 2 0 1 c) () (namt 2 0 1)) ∗ owes (c : Thread nD τ) O W) -∗ WP[c] (kk ⟨⟩) Q)
          -∗ WP[c] (.op (.enqueueDma (aRows01 c) (.remote (Dev.tc (Mesh.px 1 c) : Thread nD τ) (aRows01 c) (.dma (dsem 2 0 1)) hsc) (.dma (dsem 3 0 1)) hsrc hdst hsem) kk) Q) :=
  wp_send_rec m K c (Mesh.px 1 c) 2 3 0 1 (Or.inr (by decide)) (Or.inr (by decide)) (credit_a01 c) rfl O
    (by show _ ⊢ iprop(∃ f, _)
        iintro H; iexists fs; iexact H)
    (by show _ ⊢ iprop(∃ f, _ ∗ ⌜_⌝)
        have h := Mesh.px1_px1 c
        generalize Mesh.px 1 (Mesh.px 1 c) = x at h ⊢
        subst h
        iintro H; iexists _; isplitl [H]; · iexact H
        ipureintro; intro r q hr hq
        rw [aAt_rows01 _ _ r q hr hq, View.read_write_univ]; exact hfs r q hr hq)

theorem wp_ag_send11 (K : Dev nD × Iface.CIx → ℕ) (c : Dev nD)
    {hsc : ((aRows11 c) : Memref sig (Dev.tc (Mesh.px 3 c) : Thread nD τ).2.kind .vmem S96x1024 .bf16).view.ref.isScScratch = false}
    {hsrc : (aRows11 c).view.WordExact} {hdst : (aRows11 c).view.WordExact}
    {hsem : DmaTarget.Typed .vmem (.dma (dsem 3 1 1)) (.remote (Dev.tc (Mesh.px 3 c) : Thread nD τ) (aRows11 c) (.dma (dsem 2 1 1)) hsc)}
    {α : Type} {Q : α → sProp 𝕄} {kk : PUnit → Prog (TpuEff nD τ sig (Elt F) Λ₀ .tc) α}
    {fs : Buf (Elt F) ((aRows11 c).view.loc (c : Thread nD τ))} {fd : Buf (Elt F) ((aRows11 c).view.loc (Mesh.px 3 c : Thread nD τ))}
    (O : CellTallies nD τ sig Unit) {W : Waits sig Unit}
    (hfs : ∀ (r q : ℕ) (hr : r < 96) (hq : q < 1024), (aRows11 c).view.read (Elt F) fs (ix2 ⟨r, hr⟩ ⟨q, hq⟩) = tr (S3 m 1 c (K1 1 c + r) q)) :
    iprop(Iface.records (F := F) m K
        ∗ ((aRows11 c).view.loc (c : Thread nD τ) ↦[(aRows11 c).view.set]{fullShare.left} fs)
        ∗ ((aRows11 c).view.loc (Mesh.px 3 c : Thread nD τ) ↦[(aRows11 c).view.set]{fullShare} fd)
        ∗ owes (c : Thread nD τ) (O + tallyAt (dcell 3 1 1 (Mesh.px 3 c)) () (namt 3 1 1)) W
        ∗ dutyTok ER (dcell 2 1 1 c) 0 0 ∗ dutyTok ER (dcell 3 1 1 (Mesh.px 3 c)) 0 0)
      ⊢ iprop(((cred (tallyAt (dcell 2 1 1 c) () (namt 2 1 1)) ∗ owes (c : Thread nD τ) O W) -∗ WP[c] (kk ⟨⟩) Q)
          -∗ WP[c] (.op (.enqueueDma (aRows11 c) (.remote (Dev.tc (Mesh.px 3 c) : Thread nD τ) (aRows11 c) (.dma (dsem 2 1 1)) hsc) (.dma (dsem 3 1 1)) hsrc hdst hsem) kk) Q) :=
  wp_send_rec m K c (Mesh.px 3 c) 2 3 1 1 (Or.inr (by decide)) (Or.inr (by decide)) (credit_a11 c) rfl O
    (by show _ ⊢ iprop(∃ f, _)
        iintro H; iexists fs; iexact H)
    (by show _ ⊢ iprop(∃ f, _ ∗ ⌜_⌝)
        have h := Mesh.px3_px3 c
        generalize Mesh.px 3 (Mesh.px 3 c) = x at h ⊢
        subst h
        iintro H; iexists _; isplitl [H]; · iexact H
        ipureintro; intro r q hr hq
        rw [aAt_rows11 _ _ r q hr hq, View.read_write_univ]; exact hfs r q hr hq)

theorem wp_ag_send21 (K : Dev nD × Iface.CIx → ℕ) (c : Dev nD)
    {hsc : ((aRows21 c) : Memref sig (Dev.tc (Mesh.px 4 c) : Thread nD τ).2.kind .vmem S64x1024 .bf16).view.ref.isScScratch = false}
    {hsrc : (aRows21 c).view.WordExact} {hdst : (aRows21 c).view.WordExact}
    {hsem : DmaTarget.Typed .vmem (.dma (dsem 3 2 1)) (.remote (Dev.tc (Mesh.px 4 c) : Thread nD τ) (aRows21 c) (.dma (dsem 2 2 1)) hsc)}
    {α : Type} {Q : α → sProp 𝕄} {kk : PUnit → Prog (TpuEff nD τ sig (Elt F) Λ₀ .tc) α}
    {fs : Buf (Elt F) ((aRows21 c).view.loc (c : Thread nD τ))} {fd : Buf (Elt F) ((aRows21 c).view.loc (Mesh.px 4 c : Thread nD τ))}
    (O : CellTallies nD τ sig Unit) {W : Waits sig Unit}
    (hfs : ∀ (r q : ℕ) (hr : r < 64) (hq : q < 1024), (aRows21 c).view.read (Elt F) fs (ix2 ⟨r, hr⟩ ⟨q, hq⟩) = tr (S3 m 2 c (K1 2 c + r) q)) :
    iprop(Iface.records (F := F) m K
        ∗ ((aRows21 c).view.loc (c : Thread nD τ) ↦[(aRows21 c).view.set]{fullShare.left} fs)
        ∗ ((aRows21 c).view.loc (Mesh.px 4 c : Thread nD τ) ↦[(aRows21 c).view.set]{fullShare} fd)
        ∗ owes (c : Thread nD τ) (O + tallyAt (dcell 3 2 1 (Mesh.px 4 c)) () (namt 3 2 1)) W
        ∗ dutyTok ER (dcell 2 2 1 c) 0 0 ∗ dutyTok ER (dcell 3 2 1 (Mesh.px 4 c)) 0 0)
      ⊢ iprop(((cred (tallyAt (dcell 2 2 1 c) () (namt 2 2 1)) ∗ owes (c : Thread nD τ) O W) -∗ WP[c] (kk ⟨⟩) Q)
          -∗ WP[c] (.op (.enqueueDma (aRows21 c) (.remote (Dev.tc (Mesh.px 4 c) : Thread nD τ) (aRows21 c) (.dma (dsem 2 2 1)) hsc) (.dma (dsem 3 2 1)) hsrc hdst hsem) kk) Q) :=
  wp_send_rec m K c (Mesh.px 4 c) 2 3 2 1 (Or.inr (by decide)) (Or.inr (by decide)) (credit_a21 c) rfl O
    (by show _ ⊢ iprop(∃ f, _)
        iintro H; iexists fs; iexact H)
    (by show _ ⊢ iprop(∃ f, _ ∗ ⌜_⌝)
        have h := Mesh.px4_px4 c
        generalize Mesh.px 4 (Mesh.px 4 c) = x at h ⊢
        subst h
        iintro H; iexists _; isplitl [H]; · iexact H
        ipureintro; intro r q hr hq
        rw [aAt_rows21 _ _ r q hr hq, View.read_write_univ]; exact hfs r q hr hq)

theorem wp_ag_send00 (K : Dev nD × Iface.CIx → ℕ) (c : Dev nD)
    {hsc : ((aRows00 c) : Memref sig (Dev.tc (Mesh.px 3 c) : Thread nD τ).2.kind .vmem S192x1024 .bf16).view.ref.isScScratch = false}
    {hsrc : (aRows00 c).view.WordExact} {hdst : (aRows00 c).view.WordExact}
    {hsem : DmaTarget.Typed .vmem (.dma (dsem 3 0 0)) (.remote (Dev.tc (Mesh.px 3 c) : Thread nD τ) (aRows00 c) (.dma (dsem 2 0 0)) hsc)}
    {α : Type} {Q : α → sProp 𝕄} {kk : PUnit → Prog (TpuEff nD τ sig (Elt F) Λ₀ .tc) α}
    {fs : Buf (Elt F) ((aRows00 c).view.loc (c : Thread nD τ))} {fd : Buf (Elt F) ((aRows00 c).view.loc (Mesh.px 3 c : Thread nD τ))}
    (O : CellTallies nD τ sig Unit) {W : Waits sig Unit}
    (hfs : ∀ (r q : ℕ) (hr : r < 192) (hq : q < 1024), (aRows00 c).view.read (Elt F) fs (ix2 ⟨r, hr⟩ ⟨q, hq⟩) = tr (S3 m 0 (qOwn 0 c (K0 0 c + r)) (K0 0 c + r) q)) :
    iprop(Iface.records (F := F) m K
        ∗ ((aRows00 c).view.loc (c : Thread nD τ) ↦[(aRows00 c).view.set]{fullShare.right.left} fs)
        ∗ ((aRows00 c).view.loc (Mesh.px 3 c : Thread nD τ) ↦[(aRows00 c).view.set]{fullShare} fd)
        ∗ owes (c : Thread nD τ) (O + tallyAt (dcell 3 0 0 (Mesh.px 3 c)) () (namt 3 0 0)) W
        ∗ dutyTok ER (dcell 2 0 0 c) 0 0 ∗ dutyTok ER (dcell 3 0 0 (Mesh.px 3 c)) 0 0)
      ⊢ iprop(((cred (tallyAt (dcell 2 0 0 c) () (namt 2 0 0)) ∗ owes (c : Thread nD τ) O W) -∗ WP[c] (kk ⟨⟩) Q)
          -∗ WP[c] (.op (.enqueueDma (aRows00 c) (.remote (Dev.tc (Mesh.px 3 c) : Thread nD τ) (aRows00 c) (.dma (dsem 2 0 0)) hsc) (.dma (dsem 3 0 0)) hsrc hdst hsem) kk) Q) :=
  wp_send_rec m K c (Mesh.px 3 c) 2 3 0 0 (Or.inr (by decide)) (Or.inr (by decide)) (credit_a00 c) rfl O
    (by show _ ⊢ iprop(∃ f, _)
        iintro H; iexists fs; iexact H)
    (by show _ ⊢ iprop(∃ f, _ ∗ ⌜_⌝)
        have h := Mesh.px3_px3 c
        generalize Mesh.px 3 (Mesh.px 3 c) = x at h ⊢
        subst h
        iintro H; iexists _; isplitl [H]; · iexact H
        ipureintro; intro r q hr hq
        rw [aAt_rows00 _ _ r q hr hq, View.read_write_univ]; exact hfs r q hr hq)

theorem wp_ag_send10 (K : Dev nD × Iface.CIx → ℕ) (c : Dev nD)
    {hsc : ((aRows10 c) : Memref sig (Dev.tc (Mesh.px 4 c) : Thread nD τ).2.kind .vmem S192x1024 .bf16).view.ref.isScScratch = false}
    {hsrc : (aRows10 c).view.WordExact} {hdst : (aRows10 c).view.WordExact}
    {hsem : DmaTarget.Typed .vmem (.dma (dsem 3 1 0)) (.remote (Dev.tc (Mesh.px 4 c) : Thread nD τ) (aRows10 c) (.dma (dsem 2 1 0)) hsc)}
    {α : Type} {Q : α → sProp 𝕄} {kk : PUnit → Prog (TpuEff nD τ sig (Elt F) Λ₀ .tc) α}
    {fs : Buf (Elt F) ((aRows10 c).view.loc (c : Thread nD τ))} {fd : Buf (Elt F) ((aRows10 c).view.loc (Mesh.px 4 c : Thread nD τ))}
    (O : CellTallies nD τ sig Unit) {W : Waits sig Unit}
    (hfs : ∀ (r q : ℕ) (hr : r < 192) (hq : q < 1024), (aRows10 c).view.read (Elt F) fs (ix2 ⟨r, hr⟩ ⟨q, hq⟩) = tr (S3 m 1 (qOwn 1 c (K0 1 c + r)) (K0 1 c + r) q)) :
    iprop(Iface.records (F := F) m K
        ∗ ((aRows10 c).view.loc (c : Thread nD τ) ↦[(aRows10 c).view.set]{fullShare.right.left} fs)
        ∗ ((aRows10 c).view.loc (Mesh.px 4 c : Thread nD τ) ↦[(aRows10 c).view.set]{fullShare} fd)
        ∗ owes (c : Thread nD τ) (O + tallyAt (dcell 3 1 0 (Mesh.px 4 c)) () (namt 3 1 0)) W
        ∗ dutyTok ER (dcell 2 1 0 c) 0 0 ∗ dutyTok ER (dcell 3 1 0 (Mesh.px 4 c)) 0 0)
      ⊢ iprop(((cred (tallyAt (dcell 2 1 0 c) () (namt 2 1 0)) ∗ owes (c : Thread nD τ) O W) -∗ WP[c] (kk ⟨⟩) Q)
          -∗ WP[c] (.op (.enqueueDma (aRows10 c) (.remote (Dev.tc (Mesh.px 4 c) : Thread nD τ) (aRows10 c) (.dma (dsem 2 1 0)) hsc) (.dma (dsem 3 1 0)) hsrc hdst hsem) kk) Q) :=
  wp_send_rec m K c (Mesh.px 4 c) 2 3 1 0 (Or.inr (by decide)) (Or.inr (by decide)) (credit_a10 c) rfl O
    (by show _ ⊢ iprop(∃ f, _)
        iintro H; iexists fs; iexact H)
    (by show _ ⊢ iprop(∃ f, _ ∗ ⌜_⌝)
        have h := Mesh.px4_px4 c
        generalize Mesh.px 4 (Mesh.px 4 c) = x at h ⊢
        subst h
        iintro H; iexists _; isplitl [H]; · iexact H
        ipureintro; intro r q hr hq
        rw [aAt_rows10 _ _ r q hr hq, View.read_write_univ]; exact hfs r q hr hq)

theorem wp_ag_send20 (K : Dev nD × Iface.CIx → ℕ) (c : Dev nD)
    {hsc : ((aRows20 c) : Memref sig (Dev.tc (Mesh.px 1 c) : Thread nD τ).2.kind .vmem S128x1024 .bf16).view.ref.isScScratch = false}
    {hsrc : (aRows20 c).view.WordExact} {hdst : (aRows20 c).view.WordExact}
    {hsem : DmaTarget.Typed .vmem (.dma (dsem 3 2 0)) (.remote (Dev.tc (Mesh.px 1 c) : Thread nD τ) (aRows20 c) (.dma (dsem 2 2 0)) hsc)}
    {α : Type} {Q : α → sProp 𝕄} {kk : PUnit → Prog (TpuEff nD τ sig (Elt F) Λ₀ .tc) α}
    {fs : Buf (Elt F) ((aRows20 c).view.loc (c : Thread nD τ))} {fd : Buf (Elt F) ((aRows20 c).view.loc (Mesh.px 1 c : Thread nD τ))}
    (O : CellTallies nD τ sig Unit) {W : Waits sig Unit}
    (hfs : ∀ (r q : ℕ) (hr : r < 128) (hq : q < 1024), (aRows20 c).view.read (Elt F) fs (ix2 ⟨r, hr⟩ ⟨q, hq⟩) = tr (S3 m 2 (qOwn 2 c (K0 2 c + r)) (K0 2 c + r) q)) :
    iprop(Iface.records (F := F) m K
        ∗ ((aRows20 c).view.loc (c : Thread nD τ) ↦[(aRows20 c).view.set]{fullShare.right.left} fs)
        ∗ ((aRows20 c).view.loc (Mesh.px 1 c : Thread nD τ) ↦[(aRows20 c).view.set]{fullShare} fd)
        ∗ owes (c : Thread nD τ) (O + tallyAt (dcell 3 2 0 (Mesh.px 1 c)) () (namt 3 2 0)) W
        ∗ dutyTok ER (dcell 2 2 0 c) 0 0 ∗ dutyTok ER (dcell 3 2 0 (Mesh.px 1 c)) 0 0)
      ⊢ iprop(((cred (tallyAt (dcell 2 2 0 c) () (namt 2 2 0)) ∗ owes (c : Thread nD τ) O W) -∗ WP[c] (kk ⟨⟩) Q)
          -∗ WP[c] (.op (.enqueueDma (aRows20 c) (.remote (Dev.tc (Mesh.px 1 c) : Thread nD τ) (aRows20 c) (.dma (dsem 2 2 0)) hsc) (.dma (dsem 3 2 0)) hsrc hdst hsem) kk) Q) :=
  wp_send_rec m K c (Mesh.px 1 c) 2 3 2 0 (Or.inr (by decide)) (Or.inr (by decide)) (credit_a20 c) rfl O
    (by show _ ⊢ iprop(∃ f, _)
        iintro H; iexists fs; iexact H)
    (by show _ ⊢ iprop(∃ f, _ ∗ ⌜_⌝)
        have h := Mesh.px1_px1 c
        generalize Mesh.px 1 (Mesh.px 1 c) = x at h ⊢
        subst h
        iintro H; iexists _; isplitl [H]; · iexact H
        ipureintro; intro r q hr hq
        rw [aAt_rows20 _ _ r q hr hq, View.read_write_univ]; exact hfs r q hr hq)

end Sends

/-! ## The entry handshake from the records: the signals hand over buffers only, the wait's payloads spelt out -/

section Handshake

open Cert.KernelIdeal.Iface (𝒱₀)

theorem barPay_px1 (c : Dev nD) : (barPay 0 (Mesh.px 1 c) : sProp 𝕄) = iprop(
      ((∃ f, rSlot01.view.loc (c : Thread nD τ) ↦[rSlot01.view.set]{fullShare} f) ∗ reached ER (dcell 1 0 1 c) 0)
      ∗ ((∃ f, rSlot12.view.loc (c : Thread nD τ) ↦[rSlot12.view.set]{fullShare} f) ∗ reached ER (dcell 1 1 2 c) 0)
      ∗ ((∃ f, rSlot20.view.loc (c : Thread nD τ) ↦[rSlot20.view.set]{fullShare} f) ∗ reached ER (dcell 1 2 0 c) 0)
      ∗ ((∃ f, (aRows01 (Mesh.px 1 c)).view.loc (c : Thread nD τ) ↦[(aRows01 (Mesh.px 1 c)).view.set]{fullShare} f) ∗ reached ER (dcell 3 0 1 c) 0)
      ∗ ((∃ f, (aRows20 (Mesh.px 1 c)).view.loc (c : Thread nD τ) ↦[(aRows20 (Mesh.px 1 c)).view.set]{fullShare} f) ∗ reached ER (dcell 3 2 0 c) 0)) := by
  unfold barPay
  have h := Mesh.px1_px1 c
  generalize Mesh.px 1 (Mesh.px 1 c) = x at h ⊢
  subst h; rfl
theorem barPay_px2 (c : Dev nD) : (barPay 1 (Mesh.px 2 c) : sProp 𝕄) = iprop(
      ((∃ f, rSlot22.view.loc (c : Thread nD τ) ↦[rSlot22.view.set]{fullShare} f) ∗ reached ER (dcell 1 2 2 c) 0)) := by
  unfold barPay
  have h := Mesh.px2_px2 c
  generalize Mesh.px 2 (Mesh.px 2 c) = x at h ⊢
  subst h; rfl
theorem barPay_px3 (c : Dev nD) : (barPay 2 (Mesh.px 3 c) : sProp 𝕄) = iprop(
      ((∃ f, rSlot00.view.loc (c : Thread nD τ) ↦[rSlot00.view.set]{fullShare} f) ∗ reached ER (dcell 1 0 0 c) 0)
      ∗ ((∃ f, rSlot11.view.loc (c : Thread nD τ) ↦[rSlot11.view.set]{fullShare} f) ∗ reached ER (dcell 1 1 1 c) 0)
      ∗ ((∃ f, (aRows00 (Mesh.px 3 c)).view.loc (c : Thread nD τ) ↦[(aRows00 (Mesh.px 3 c)).view.set]{fullShare} f) ∗ reached ER (dcell 3 0 0 c) 0)
      ∗ ((∃ f, (aRows11 (Mesh.px 3 c)).view.loc (c : Thread nD τ) ↦[(aRows11 (Mesh.px 3 c)).view.set]{fullShare} f) ∗ reached ER (dcell 3 1 1 c) 0)) := by
  unfold barPay
  have h := Mesh.px3_px3 c
  generalize Mesh.px 3 (Mesh.px 3 c) = x at h ⊢
  subst h; rfl
theorem barPay_px4 (c : Dev nD) : (barPay 3 (Mesh.px 4 c) : sProp 𝕄) = iprop(
      ((∃ f, rSlot02.view.loc (c : Thread nD τ) ↦[rSlot02.view.set]{fullShare} f) ∗ reached ER (dcell 1 0 2 c) 0)
      ∗ ((∃ f, rSlot10.view.loc (c : Thread nD τ) ↦[rSlot10.view.set]{fullShare} f) ∗ reached ER (dcell 1 1 0 c) 0)
      ∗ ((∃ f, rSlot21.view.loc (c : Thread nD τ) ↦[rSlot21.view.set]{fullShare} f) ∗ reached ER (dcell 1 2 1 c) 0)
      ∗ ((∃ f, (aRows10 (Mesh.px 4 c)).view.loc (c : Thread nD τ) ↦[(aRows10 (Mesh.px 4 c)).view.set]{fullShare} f) ∗ reached ER (dcell 3 1 0 c) 0)
      ∗ ((∃ f, (aRows21 (Mesh.px 4 c)).view.loc (c : Thread nD τ) ↦[(aRows21 (Mesh.px 4 c)).view.set]{fullShare} f) ∗ reached ER (dcell 3 2 1 c) 0)) := by
  unfold barPay
  have h := Mesh.px4_px4 c
  generalize Mesh.px 4 (Mesh.px 4 c) = x at h ⊢
  subst h; rfl

/-- The signal to the partner under the mask 1: the device hands over its own slots (0,1), (1,2), (2,0) of the receive
    buffer and the rows of its gather buffer that this partner's quarter (butterfly 0) and half (butterfly 2) land in. -/
theorem wp_sig1 (K : Dev nD × Iface.CIx → ℕ) (c : Dev nD) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 1 c)) () 1) W
        ∗ dutyTok ER (barCell (Mesh.px 1 c)) 0 0
        ∗ (∃ f, rSlot01.view.loc (c : Thread nD τ) ↦[rSlot01.view.set]{fullShare} f)
        ∗ (∃ f, rSlot12.view.loc (c : Thread nD τ) ↦[rSlot12.view.set]{fullShare} f)
        ∗ (∃ f, rSlot20.view.loc (c : Thread nD τ) ↦[rSlot20.view.set]{fullShare} f)
        ∗ (∃ f, (aRows01 (Mesh.px 1 c)).view.loc (c : Thread nD τ) ↦[(aRows01 (Mesh.px 1 c)).view.set]{fullShare} f)
        ∗ (∃ f, (aRows20 (Mesh.px 1 c)).view.loc (c : Thread nD τ) ↦[(aRows20 (Mesh.px 1 c)).view.set]{fullShare} f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 1 c : Thread nD τ) barS 1) kk) Q) := by
  iintro ⟨#Hrec, HO, Ht, H1, H2, H3, H4, H5⟩
  iapply (wp_sig m K c 1 0 O)
  isplitr; · iexact Hrec
  isplitl [HO]; · iexact HO
  isplitl [Ht]; · iexact Ht
  rw [barPay_px1]
  isplitl [H1]
  · isplitl [H1]; · iexact H1
    iapply (records_dcell_reached m K 1 0 1 c); iexact Hrec
  isplitl [H2]
  · isplitl [H2]; · iexact H2
    iapply (records_dcell_reached m K 1 1 2 c); iexact Hrec
  isplitl [H3]
  · isplitl [H3]; · iexact H3
    iapply (records_dcell_reached m K 1 2 0 c); iexact Hrec
  isplitl [H4]
  · isplitl [H4]; · iexact H4
    iapply (records_dcell_reached m K 3 0 1 c); iexact Hrec
  isplitl [H5]; · iexact H5
  iapply (records_dcell_reached m K 3 2 0 c); iexact Hrec

/-- The signal to the partner under the mask 2: the slot (2,2). -/
theorem wp_sig2 (K : Dev nD × Iface.CIx → ℕ) (c : Dev nD) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 2 c)) () 1) W
        ∗ dutyTok ER (barCell (Mesh.px 2 c)) 0 1
        ∗ (∃ f, rSlot22.view.loc (c : Thread nD τ) ↦[rSlot22.view.set]{fullShare} f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 2 c : Thread nD τ) barS 1) kk) Q) := by
  iintro ⟨#Hrec, HO, Ht, H1⟩
  iapply (wp_sig m K c 2 1 O)
  isplitr; · iexact Hrec
  isplitl [HO]; · iexact HO
  isplitl [Ht]; · iexact Ht
  rw [barPay_px2]
  isplitl [H1]; · iexact H1
  iapply (records_dcell_reached m K 1 2 2 c); iexact Hrec

/-- The signal to the partner under the mask 3: the slots (0,0), (1,1) and the gather rows of butterflies 0 (half) and 1 (quarter). -/
theorem wp_sig3 (K : Dev nD × Iface.CIx → ℕ) (c : Dev nD) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 3 c)) () 1) W
        ∗ dutyTok ER (barCell (Mesh.px 3 c)) 0 2
        ∗ (∃ f, rSlot00.view.loc (c : Thread nD τ) ↦[rSlot00.view.set]{fullShare} f)
        ∗ (∃ f, rSlot11.view.loc (c : Thread nD τ) ↦[rSlot11.view.set]{fullShare} f)
        ∗ (∃ f, (aRows00 (Mesh.px 3 c)).view.loc (c : Thread nD τ) ↦[(aRows00 (Mesh.px 3 c)).view.set]{fullShare} f)
        ∗ (∃ f, (aRows11 (Mesh.px 3 c)).view.loc (c : Thread nD τ) ↦[(aRows11 (Mesh.px 3 c)).view.set]{fullShare} f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 3 c : Thread nD τ) barS 1) kk) Q) := by
  iintro ⟨#Hrec, HO, Ht, H1, H2, H3, H4⟩
  iapply (wp_sig m K c 3 2 O)
  isplitr; · iexact Hrec
  isplitl [HO]; · iexact HO
  isplitl [Ht]; · iexact Ht
  rw [barPay_px3]
  isplitl [H1]
  · isplitl [H1]; · iexact H1
    iapply (records_dcell_reached m K 1 0 0 c); iexact Hrec
  isplitl [H2]
  · isplitl [H2]; · iexact H2
    iapply (records_dcell_reached m K 1 1 1 c); iexact Hrec
  isplitl [H3]
  · isplitl [H3]; · iexact H3
    iapply (records_dcell_reached m K 3 0 0 c); iexact Hrec
  isplitl [H4]; · iexact H4
  iapply (records_dcell_reached m K 3 1 1 c); iexact Hrec

/-- The signal to the partner under the mask 4: the slots (0,2), (1,0), (2,1) and the gather rows of butterflies 1 (half) and 2 (quarter). -/
theorem wp_sig4 (K : Dev nD × Iface.CIx → ℕ) (c : Dev nD) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 4 c)) () 1) W
        ∗ dutyTok ER (barCell (Mesh.px 4 c)) 0 3
        ∗ (∃ f, rSlot02.view.loc (c : Thread nD τ) ↦[rSlot02.view.set]{fullShare} f)
        ∗ (∃ f, rSlot10.view.loc (c : Thread nD τ) ↦[rSlot10.view.set]{fullShare} f)
        ∗ (∃ f, rSlot21.view.loc (c : Thread nD τ) ↦[rSlot21.view.set]{fullShare} f)
        ∗ (∃ f, (aRows10 (Mesh.px 4 c)).view.loc (c : Thread nD τ) ↦[(aRows10 (Mesh.px 4 c)).view.set]{fullShare} f)
        ∗ (∃ f, (aRows21 (Mesh.px 4 c)).view.loc (c : Thread nD τ) ↦[(aRows21 (Mesh.px 4 c)).view.set]{fullShare} f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 4 c : Thread nD τ) barS 1) kk) Q) := by
  iintro ⟨#Hrec, HO, Ht, H1, H2, H3, H4, H5⟩
  iapply (wp_sig m K c 4 3 O)
  isplitr; · iexact Hrec
  isplitl [HO]; · iexact HO
  isplitl [Ht]; · iexact Ht
  rw [barPay_px4]
  isplitl [H1]
  · isplitl [H1]; · iexact H1
    iapply (records_dcell_reached m K 1 0 2 c); iexact Hrec
  isplitl [H2]
  · isplitl [H2]; · iexact H2
    iapply (records_dcell_reached m K 1 1 0 c); iexact Hrec
  isplitl [H3]
  · isplitl [H3]; · iexact H3
    iapply (records_dcell_reached m K 1 2 1 c); iexact Hrec
  isplitl [H4]
  · isplitl [H4]; · iexact H4
    iapply (records_dcell_reached m K 3 1 0 c); iexact Hrec
  isplitl [H5]; · iexact H5
  iapply (records_dcell_reached m K 3 2 1 c); iexact Hrec

end Handshake

/-! ## The waits on the device's own DMA cells, by stage -/

section Waits

open Cert.KernelIdeal.Iface (𝒱₀)

theorem mayWait_end (c : Dev nD) (sm : SemLoc sig) : (levAts Iface.L Iface.lv : sProp 𝕄) ⊢ MayWait (c : Thread nD τ) sm () (Iface.Orem c 19) := by
  rw [Iface.Orem_done, MayWait_zero]; iintro -; iempintro

/-- The exchange's receive waits: what has landed is the partner's sum of the stage before over the kept rows. -/
theorem wp_rs_recvwait0 (K : Dev nD × Iface.CIx → ℕ) (b : Fin 3) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 1 b 0) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 1 b 0 c) () (namt 1 b 0)) ∗ owes (c : Thread nD τ) (Iface.Orem c 7) W
        ∗ atPos ER (dcell 1 b 0 c) 0 ∅ 0)
      ⊢ iprop(((owes (c : Thread nD τ) (Iface.Orem c 7) (insert (SemLoc.dma (dsem 1 b 0), ()) W) ∗ atPos ER (dcell 1 b 0 c) 1 ∅ 0
              ∗ reached ER (dcell 1 b 0 c) 1 ∗ rsRecvPay m b 0 c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 1 b 0) src dst hsrc hdst) kk) Q) :=
  wp_dwait m K 1 b 0 c (Or.inl (by decide)) 7 (mayWait_rs0 b c) hN
theorem wp_rs_recvwait1 (K : Dev nD × Iface.CIx → ℕ) (b : Fin 3) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 1 b 1) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 1 b 1 c) () (namt 1 b 1)) ∗ owes (c : Thread nD τ) (Iface.Orem c 10) W
        ∗ atPos ER (dcell 1 b 1 c) 0 ∅ 0)
      ⊢ iprop(((owes (c : Thread nD τ) (Iface.Orem c 10) (insert (SemLoc.dma (dsem 1 b 1), ()) W) ∗ atPos ER (dcell 1 b 1 c) 1 ∅ 0
              ∗ reached ER (dcell 1 b 1 c) 1 ∗ rsRecvPay m b 1 c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 1 b 1) src dst hsrc hdst) kk) Q) :=
  wp_dwait m K 1 b 1 c (Or.inl (by decide)) 10 (mayWait_rs1 b c) hN
theorem wp_rs_recvwait2 (K : Dev nD × Iface.CIx → ℕ) (b : Fin 3) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 1 b 2) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 1 b 2 c) () (namt 1 b 2)) ∗ owes (c : Thread nD τ) (Iface.Orem c 13) W
        ∗ atPos ER (dcell 1 b 2 c) 0 ∅ 0)
      ⊢ iprop(((owes (c : Thread nD τ) (Iface.Orem c 13) (insert (SemLoc.dma (dsem 1 b 2), ()) W) ∗ atPos ER (dcell 1 b 2 c) 1 ∅ 0
              ∗ reached ER (dcell 1 b 2 c) 1 ∗ rsRecvPay m b 2 c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 1 b 2) src dst hsrc hdst) kk) Q) :=
  wp_dwait m K 1 b 2 c (Or.inl (by decide)) 13 (mayWait_rs2 b c) hN

/-- The gather's receive waits: stage 1 with the stage-0 blocks still owed, stage 0 with nothing owed. -/
theorem wp_ag_recvwait1 (K : Dev nD × Iface.CIx → ℕ) (b : Fin 3) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 3 b 1) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 3 b 1 c) () (namt 3 b 1)) ∗ owes (c : Thread nD τ) (Iface.Orem c 16) W
        ∗ atPos ER (dcell 3 b 1 c) 0 ∅ 0)
      ⊢ iprop(((owes (c : Thread nD τ) (Iface.Orem c 16) (insert (SemLoc.dma (dsem 3 b 1), ()) W) ∗ atPos ER (dcell 3 b 1 c) 1 ∅ 0
              ∗ reached ER (dcell 3 b 1 c) 1 ∗ agRecvPay m b 1 c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 3 b 1) src dst hsrc hdst) kk) Q) :=
  wp_dwait m K 3 b 1 c (Or.inr (by decide)) 16 (mayWait_ag1 b c) hN
theorem wp_ag_recvwait0 (K : Dev nD × Iface.CIx → ℕ) (b : Fin 3) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 3 b 0) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 3 b 0 c) () (namt 3 b 0)) ∗ owes (c : Thread nD τ) (Iface.Orem c 19) W
        ∗ atPos ER (dcell 3 b 0 c) 0 ∅ 0)
      ⊢ iprop(((owes (c : Thread nD τ) (Iface.Orem c 19) (insert (SemLoc.dma (dsem 3 b 0), ()) W) ∗ atPos ER (dcell 3 b 0 c) 1 ∅ 0
              ∗ reached ER (dcell 3 b 0 c) 1 ∗ agRecvPay m b 0 c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 3 b 0) src dst hsrc hdst) kk) Q) :=
  wp_dwait m K 3 b 0 c (Or.inr (by decide)) 19 (mayWait_end c _) hN

/-- The waits on the send cells, everything paid: the send slot, or the lent share of the gather rows, comes back. -/
theorem wp_rs_sendwait (K : Dev nD × Iface.CIx → ℕ) (b k : Fin 3) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 0 b k) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 0 b k c) () (namt 0 b k)) ∗ owes (c : Thread nD τ) (Iface.Orem c 19) W
        ∗ atPos ER (dcell 0 b k c) 0 ∅ 0)
      ⊢ iprop(((owes (c : Thread nD τ) (Iface.Orem c 19) (insert (SemLoc.dma (dsem 0 b k), ()) W) ∗ atPos ER (dcell 0 b k c) 1 ∅ 0
              ∗ reached ER (dcell 0 b k c) 1 ∗ rsSendPay b k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 0 b k) src dst hsrc hdst) kk) Q) :=
  wp_dwait m K 0 b k c (Or.inl (by decide)) 19 (mayWait_end c _) hN
theorem wp_ag_sendwait (K : Dev nD × Iface.CIx → ℕ) (b k : Fin 3) (hk : k.val < 2) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 2 b k) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 2 b k c) () (namt 2 b k)) ∗ owes (c : Thread nD τ) (Iface.Orem c 19) W
        ∗ atPos ER (dcell 2 b k c) 0 ∅ 0)
      ⊢ iprop(((owes (c : Thread nD τ) (Iface.Orem c 19) (insert (SemLoc.dma (dsem 2 b k), ()) W) ∗ atPos ER (dcell 2 b k c) 1 ∅ 0
              ∗ reached ER (dcell 2 b k c) 1 ∗ agSendPay b k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 2 b k) src dst hsrc hdst) kk) Q) :=
  wp_dwait m K 2 b k c (Or.inr hk) 19 (mayWait_end c _) hN

end Waits

/-! ## The same rules with the addressed device named by the program

The program addresses its partner by a device n it computes; n is the partner under the mask (hn). The premises stay at
the partner. -/

section Addressed

open Cert.KernelIdeal.Iface (𝒱₀)

local notation "WP[" c "]" => wp frame (wpE (defs₀ (F := F)) 𝒱₀ (c : Thread nD τ) none) Set.univ

theorem wp_sig1_at (K : Dev nD × Iface.CIx → ℕ) (c n : Dev nD) (hn : n = Mesh.px 1 c) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 1 c)) () 1) W
        ∗ dutyTok ER (barCell (Mesh.px 1 c)) 0 0
        ∗ (∃ f, rSlot01.view.loc (c : Thread nD τ) ↦[rSlot01.view.set]{fullShare} f)
        ∗ (∃ f, rSlot12.view.loc (c : Thread nD τ) ↦[rSlot12.view.set]{fullShare} f)
        ∗ (∃ f, rSlot20.view.loc (c : Thread nD τ) ↦[rSlot20.view.set]{fullShare} f)
        ∗ (∃ f, (aRows01 (Mesh.px 1 c)).view.loc (c : Thread nD τ) ↦[(aRows01 (Mesh.px 1 c)).view.set]{fullShare} f)
        ∗ (∃ f, (aRows20 (Mesh.px 1 c)).view.loc (c : Thread nD τ) ↦[(aRows20 (Mesh.px 1 c)).view.set]{fullShare} f))
      ⊢ iprop((owes (c : Thread nD τ) O W -∗ WP[c] (kk ⟨⟩) Q) -∗ WP[c] (.op (.semSignal (n : Thread nD τ) barS 1) kk) Q) := by
  subst hn; exact wp_sig1 m K c O

theorem wp_sig2_at (K : Dev nD × Iface.CIx → ℕ) (c n : Dev nD) (hn : n = Mesh.px 2 c) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 2 c)) () 1) W
        ∗ dutyTok ER (barCell (Mesh.px 2 c)) 0 1
        ∗ (∃ f, rSlot22.view.loc (c : Thread nD τ) ↦[rSlot22.view.set]{fullShare} f))
      ⊢ iprop((owes (c : Thread nD τ) O W -∗ WP[c] (kk ⟨⟩) Q) -∗ WP[c] (.op (.semSignal (n : Thread nD τ) barS 1) kk) Q) := by
  subst hn; exact wp_sig2 m K c O

theorem wp_sig3_at (K : Dev nD × Iface.CIx → ℕ) (c n : Dev nD) (hn : n = Mesh.px 3 c) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 3 c)) () 1) W
        ∗ dutyTok ER (barCell (Mesh.px 3 c)) 0 2
        ∗ (∃ f, rSlot00.view.loc (c : Thread nD τ) ↦[rSlot00.view.set]{fullShare} f)
        ∗ (∃ f, rSlot11.view.loc (c : Thread nD τ) ↦[rSlot11.view.set]{fullShare} f)
        ∗ (∃ f, (aRows00 (Mesh.px 3 c)).view.loc (c : Thread nD τ) ↦[(aRows00 (Mesh.px 3 c)).view.set]{fullShare} f)
        ∗ (∃ f, (aRows11 (Mesh.px 3 c)).view.loc (c : Thread nD τ) ↦[(aRows11 (Mesh.px 3 c)).view.set]{fullShare} f))
      ⊢ iprop((owes (c : Thread nD τ) O W -∗ WP[c] (kk ⟨⟩) Q) -∗ WP[c] (.op (.semSignal (n : Thread nD τ) barS 1) kk) Q) := by
  subst hn; exact wp_sig3 m K c O

theorem wp_sig4_at (K : Dev nD × Iface.CIx → ℕ) (c n : Dev nD) (hn : n = Mesh.px 4 c) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 4 c)) () 1) W
        ∗ dutyTok ER (barCell (Mesh.px 4 c)) 0 3
        ∗ (∃ f, rSlot02.view.loc (c : Thread nD τ) ↦[rSlot02.view.set]{fullShare} f)
        ∗ (∃ f, rSlot10.view.loc (c : Thread nD τ) ↦[rSlot10.view.set]{fullShare} f)
        ∗ (∃ f, rSlot21.view.loc (c : Thread nD τ) ↦[rSlot21.view.set]{fullShare} f)
        ∗ (∃ f, (aRows10 (Mesh.px 4 c)).view.loc (c : Thread nD τ) ↦[(aRows10 (Mesh.px 4 c)).view.set]{fullShare} f)
        ∗ (∃ f, (aRows21 (Mesh.px 4 c)).view.loc (c : Thread nD τ) ↦[(aRows21 (Mesh.px 4 c)).view.set]{fullShare} f))
      ⊢ iprop((owes (c : Thread nD τ) O W -∗ WP[c] (kk ⟨⟩) Q) -∗ WP[c] (.op (.semSignal (n : Thread nD τ) barS 1) kk) Q) := by
  subst hn; exact wp_sig4 m K c O

theorem wp_rs_send00_at (K : Dev nD × Iface.CIx → ℕ) (c n : Dev nD) (hn : n = Mesh.px 3 c)
    {hsc : (rSlot00 : Memref sig (Dev.tc n : Thread nD τ).2.kind .vmem S192x1024 .bf16).view.ref.isScScratch = false}
    {hsrc : sSlot00.view.WordExact} {hdst : rSlot00.view.WordExact}
    {hsem : DmaTarget.Typed .vmem (.dma (dsem 1 0 0)) (.remote (Dev.tc n : Thread nD τ) rSlot00 (.dma (dsem 0 0 0)) hsc)}
    {α : Type} {Q : α → sProp 𝕄} {kk : PUnit → Prog (TpuEff nD τ sig (Elt F) Λ₀ .tc) α}
    {fs : Buf (Elt F) (sSlot00.view.loc (c : Thread nD τ))} {fd : Buf (Elt F) (rSlot00.view.loc (Mesh.px 3 c : Thread nD τ))}
    (O : CellTallies nD τ sig Unit) {W : Waits sig Unit}
    (hfs : ∀ (r q : ℕ) (hr : r < 192) (hq : q < 1024), sSlot00.view.read (Elt F) fs (ix2 ⟨r, hr⟩ ⟨q, hq⟩) = tr (S0 m 0 c (K0 0 (Mesh.px 3 c) + r) q)) :
    iprop(Iface.records (F := F) m K
        ∗ (sSlot00.view.loc (c : Thread nD τ) ↦[sSlot00.view.set]{fullShare} fs)
        ∗ (rSlot00.view.loc (Mesh.px 3 c : Thread nD τ) ↦[rSlot00.view.set]{fullShare} fd)
        ∗ owes (c : Thread nD τ) (O + tallyAt (dcell 1 0 0 (Mesh.px 3 c)) () (namt 1 0 0)) W
        ∗ dutyTok ER (dcell 0 0 0 c) 0 0 ∗ dutyTok ER (dcell 1 0 0 (Mesh.px 3 c)) 0 0)
      ⊢ iprop(((cred (tallyAt (dcell 0 0 0 c) () (namt 0 0 0)) ∗ owes (c : Thread nD τ) O W) -∗ WP[c] (kk ⟨⟩) Q)
          -∗ WP[c] (.op (.enqueueDma sSlot00 (.remote (Dev.tc n : Thread nD τ) rSlot00 (.dma (dsem 0 0 0)) hsc) (.dma (dsem 1 0 0)) hsrc hdst hsem) kk) Q) := by
  subst hn; exact wp_rs_send00 m K c O hfs

theorem wp_rs_send10_at (K : Dev nD × Iface.CIx → ℕ) (c n : Dev nD) (hn : n = Mesh.px 4 c)
    {hsc : (rSlot10 : Memref sig (Dev.tc n : Thread nD τ).2.kind .vmem S192x1024 .bf16).view.ref.isScScratch = false}
    {hsrc : sSlot10.view.WordExact} {hdst : rSlot10.view.WordExact}
    {hsem : DmaTarget.Typed .vmem (.dma (dsem 1 1 0)) (.remote (Dev.tc n : Thread nD τ) rSlot10 (.dma (dsem 0 1 0)) hsc)}
    {α : Type} {Q : α → sProp 𝕄} {kk : PUnit → Prog (TpuEff nD τ sig (Elt F) Λ₀ .tc) α}
    {fs : Buf (Elt F) (sSlot10.view.loc (c : Thread nD τ))} {fd : Buf (Elt F) (rSlot10.view.loc (Mesh.px 4 c : Thread nD τ))}
    (O : CellTallies nD τ sig Unit) {W : Waits sig Unit}
    (hfs : ∀ (r q : ℕ) (hr : r < 192) (hq : q < 1024), sSlot10.view.read (Elt F) fs (ix2 ⟨r, hr⟩ ⟨q, hq⟩) = tr (S0 m 1 c (K0 1 (Mesh.px 4 c) + r) q)) :
    iprop(Iface.records (F := F) m K
        ∗ (sSlot10.view.loc (c : Thread nD τ) ↦[sSlot10.view.set]{fullShare} fs)
        ∗ (rSlot10.view.loc (Mesh.px 4 c : Thread nD τ) ↦[rSlot10.view.set]{fullShare} fd)
        ∗ owes (c : Thread nD τ) (O + tallyAt (dcell 1 1 0 (Mesh.px 4 c)) () (namt 1 1 0)) W
        ∗ dutyTok ER (dcell 0 1 0 c) 0 0 ∗ dutyTok ER (dcell 1 1 0 (Mesh.px 4 c)) 0 0)
      ⊢ iprop(((cred (tallyAt (dcell 0 1 0 c) () (namt 0 1 0)) ∗ owes (c : Thread nD τ) O W) -∗ WP[c] (kk ⟨⟩) Q)
          -∗ WP[c] (.op (.enqueueDma sSlot10 (.remote (Dev.tc n : Thread nD τ) rSlot10 (.dma (dsem 0 1 0)) hsc) (.dma (dsem 1 1 0)) hsrc hdst hsem) kk) Q) := by
  subst hn; exact wp_rs_send10 m K c O hfs

theorem wp_rs_send20_at (K : Dev nD × Iface.CIx → ℕ) (c n : Dev nD) (hn : n = Mesh.px 1 c)
    {hsc : (rSlot20 : Memref sig (Dev.tc n : Thread nD τ).2.kind .vmem S128x1024 .bf16).view.ref.isScScratch = false}
    {hsrc : sSlot20.view.WordExact} {hdst : rSlot20.view.WordExact}
    {hsem : DmaTarget.Typed .vmem (.dma (dsem 1 2 0)) (.remote (Dev.tc n : Thread nD τ) rSlot20 (.dma (dsem 0 2 0)) hsc)}
    {α : Type} {Q : α → sProp 𝕄} {kk : PUnit → Prog (TpuEff nD τ sig (Elt F) Λ₀ .tc) α}
    {fs : Buf (Elt F) (sSlot20.view.loc (c : Thread nD τ))} {fd : Buf (Elt F) (rSlot20.view.loc (Mesh.px 1 c : Thread nD τ))}
    (O : CellTallies nD τ sig Unit) {W : Waits sig Unit}
    (hfs : ∀ (r q : ℕ) (hr : r < 128) (hq : q < 1024), sSlot20.view.read (Elt F) fs (ix2 ⟨r, hr⟩ ⟨q, hq⟩) = tr (S0 m 2 c (K0 2 (Mesh.px 1 c) + r) q)) :
    iprop(Iface.records (F := F) m K
        ∗ (sSlot20.view.loc (c : Thread nD τ) ↦[sSlot20.view.set]{fullShare} fs)
        ∗ (rSlot20.view.loc (Mesh.px 1 c : Thread nD τ) ↦[rSlot20.view.set]{fullShare} fd)
        ∗ owes (c : Thread nD τ) (O + tallyAt (dcell 1 2 0 (Mesh.px 1 c)) () (namt 1 2 0)) W
        ∗ dutyTok ER (dcell 0 2 0 c) 0 0 ∗ dutyTok ER (dcell 1 2 0 (Mesh.px 1 c)) 0 0)
      ⊢ iprop(((cred (tallyAt (dcell 0 2 0 c) () (namt 0 2 0)) ∗ owes (c : Thread nD τ) O W) -∗ WP[c] (kk ⟨⟩) Q)
          -∗ WP[c] (.op (.enqueueDma sSlot20 (.remote (Dev.tc n : Thread nD τ) rSlot20 (.dma (dsem 0 2 0)) hsc) (.dma (dsem 1 2 0)) hsrc hdst hsem) kk) Q) := by
  subst hn; exact wp_rs_send20 m K c O hfs

theorem wp_rs_send01_at (K : Dev nD × Iface.CIx → ℕ) (c n : Dev nD) (hn : n = Mesh.px 1 c)
    {hsc : (rSlot01 : Memref sig (Dev.tc n : Thread nD τ).2.kind .vmem S96x1024 .bf16).view.ref.isScScratch = false}
    {hsrc : sSlot01.view.WordExact} {hdst : rSlot01.view.WordExact}
    {hsem : DmaTarget.Typed .vmem (.dma (dsem 1 0 1)) (.remote (Dev.tc n : Thread nD τ) rSlot01 (.dma (dsem 0 0 1)) hsc)}
    {α : Type} {Q : α → sProp 𝕄} {kk : PUnit → Prog (TpuEff nD τ sig (Elt F) Λ₀ .tc) α}
    {fs : Buf (Elt F) (sSlot01.view.loc (c : Thread nD τ))} {fd : Buf (Elt F) (rSlot01.view.loc (Mesh.px 1 c : Thread nD τ))}
    (O : CellTallies nD τ sig Unit) {W : Waits sig Unit}
    (hfs : ∀ (r q : ℕ) (hr : r < 96) (hq : q < 1024), sSlot01.view.read (Elt F) fs (ix2 ⟨r, hr⟩ ⟨q, hq⟩) = tr (S1 m 0 c (K1 0 (Mesh.px 1 c) + r) q)) :
    iprop(Iface.records (F := F) m K
        ∗ (sSlot01.view.loc (c : Thread nD τ) ↦[sSlot01.view.set]{fullShare} fs)
        ∗ (rSlot01.view.loc (Mesh.px 1 c : Thread nD τ) ↦[rSlot01.view.set]{fullShare} fd)
        ∗ owes (c : Thread nD τ) (O + tallyAt (dcell 1 0 1 (Mesh.px 1 c)) () (namt 1 0 1)) W
        ∗ dutyTok ER (dcell 0 0 1 c) 0 0 ∗ dutyTok ER (dcell 1 0 1 (Mesh.px 1 c)) 0 0)
      ⊢ iprop(((cred (tallyAt (dcell 0 0 1 c) () (namt 0 0 1)) ∗ owes (c : Thread nD τ) O W) -∗ WP[c] (kk ⟨⟩) Q)
          -∗ WP[c] (.op (.enqueueDma sSlot01 (.remote (Dev.tc n : Thread nD τ) rSlot01 (.dma (dsem 0 0 1)) hsc) (.dma (dsem 1 0 1)) hsrc hdst hsem) kk) Q) := by
  subst hn; exact wp_rs_send01 m K c O hfs

theorem wp_rs_send11_at (K : Dev nD × Iface.CIx → ℕ) (c n : Dev nD) (hn : n = Mesh.px 3 c)
    {hsc : (rSlot11 : Memref sig (Dev.tc n : Thread nD τ).2.kind .vmem S96x1024 .bf16).view.ref.isScScratch = false}
    {hsrc : sSlot11.view.WordExact} {hdst : rSlot11.view.WordExact}
    {hsem : DmaTarget.Typed .vmem (.dma (dsem 1 1 1)) (.remote (Dev.tc n : Thread nD τ) rSlot11 (.dma (dsem 0 1 1)) hsc)}
    {α : Type} {Q : α → sProp 𝕄} {kk : PUnit → Prog (TpuEff nD τ sig (Elt F) Λ₀ .tc) α}
    {fs : Buf (Elt F) (sSlot11.view.loc (c : Thread nD τ))} {fd : Buf (Elt F) (rSlot11.view.loc (Mesh.px 3 c : Thread nD τ))}
    (O : CellTallies nD τ sig Unit) {W : Waits sig Unit}
    (hfs : ∀ (r q : ℕ) (hr : r < 96) (hq : q < 1024), sSlot11.view.read (Elt F) fs (ix2 ⟨r, hr⟩ ⟨q, hq⟩) = tr (S1 m 1 c (K1 1 (Mesh.px 3 c) + r) q)) :
    iprop(Iface.records (F := F) m K
        ∗ (sSlot11.view.loc (c : Thread nD τ) ↦[sSlot11.view.set]{fullShare} fs)
        ∗ (rSlot11.view.loc (Mesh.px 3 c : Thread nD τ) ↦[rSlot11.view.set]{fullShare} fd)
        ∗ owes (c : Thread nD τ) (O + tallyAt (dcell 1 1 1 (Mesh.px 3 c)) () (namt 1 1 1)) W
        ∗ dutyTok ER (dcell 0 1 1 c) 0 0 ∗ dutyTok ER (dcell 1 1 1 (Mesh.px 3 c)) 0 0)
      ⊢ iprop(((cred (tallyAt (dcell 0 1 1 c) () (namt 0 1 1)) ∗ owes (c : Thread nD τ) O W) -∗ WP[c] (kk ⟨⟩) Q)
          -∗ WP[c] (.op (.enqueueDma sSlot11 (.remote (Dev.tc n : Thread nD τ) rSlot11 (.dma (dsem 0 1 1)) hsc) (.dma (dsem 1 1 1)) hsrc hdst hsem) kk) Q) := by
  subst hn; exact wp_rs_send11 m K c O hfs

theorem wp_rs_send21_at (K : Dev nD × Iface.CIx → ℕ) (c n : Dev nD) (hn : n = Mesh.px 4 c)
    {hsc : (rSlot21 : Memref sig (Dev.tc n : Thread nD τ).2.kind .vmem S64x1024 .bf16).view.ref.isScScratch = false}
    {hsrc : sSlot21.view.WordExact} {hdst : rSlot21.view.WordExact}
    {hsem : DmaTarget.Typed .vmem (.dma (dsem 1 2 1)) (.remote (Dev.tc n : Thread nD τ) rSlot21 (.dma (dsem 0 2 1)) hsc)}
    {α : Type} {Q : α → sProp 𝕄} {kk : PUnit → Prog (TpuEff nD τ sig (Elt F) Λ₀ .tc) α}
    {fs : Buf (Elt F) (sSlot21.view.loc (c : Thread nD τ))} {fd : Buf (Elt F) (rSlot21.view.loc (Mesh.px 4 c : Thread nD τ))}
    (O : CellTallies nD τ sig Unit) {W : Waits sig Unit}
    (hfs : ∀ (r q : ℕ) (hr : r < 64) (hq : q < 1024), sSlot21.view.read (Elt F) fs (ix2 ⟨r, hr⟩ ⟨q, hq⟩) = tr (S1 m 2 c (K1 2 (Mesh.px 4 c) + r) q)) :
    iprop(Iface.records (F := F) m K
        ∗ (sSlot21.view.loc (c : Thread nD τ) ↦[sSlot21.view.set]{fullShare} fs)
        ∗ (rSlot21.view.loc (Mesh.px 4 c : Thread nD τ) ↦[rSlot21.view.set]{fullShare} fd)
        ∗ owes (c : Thread nD τ) (O + tallyAt (dcell 1 2 1 (Mesh.px 4 c)) () (namt 1 2 1)) W
        ∗ dutyTok ER (dcell 0 2 1 c) 0 0 ∗ dutyTok ER (dcell 1 2 1 (Mesh.px 4 c)) 0 0)
      ⊢ iprop(((cred (tallyAt (dcell 0 2 1 c) () (namt 0 2 1)) ∗ owes (c : Thread nD τ) O W) -∗ WP[c] (kk ⟨⟩) Q)
          -∗ WP[c] (.op (.enqueueDma sSlot21 (.remote (Dev.tc n : Thread nD τ) rSlot21 (.dma (dsem 0 2 1)) hsc) (.dma (dsem 1 2 1)) hsrc hdst hsem) kk) Q) := by
  subst hn; exact wp_rs_send21 m K c O hfs

theorem wp_rs_send02_at (K : Dev nD × Iface.CIx → ℕ) (c n : Dev nD) (hn : n = Mesh.px 4 c)
    {hsc : (rSlot02 : Memref sig (Dev.tc n : Thread nD τ).2.kind .vmem S96x1024 .bf16).view.ref.isScScratch = false}
    {hsrc : sSlot02.view.WordExact} {hdst : rSlot02.view.WordExact}
    {hsem : DmaTarget.Typed .vmem (.dma (dsem 1 0 2)) (.remote (Dev.tc n : Thread nD τ) rSlot02 (.dma (dsem 0 0 2)) hsc)}
    {α : Type} {Q : α → sProp 𝕄} {kk : PUnit → Prog (TpuEff nD τ sig (Elt F) Λ₀ .tc) α}
    {fs : Buf (Elt F) (sSlot02.view.loc (c : Thread nD τ))} {fd : Buf (Elt F) (rSlot02.view.loc (Mesh.px 4 c : Thread nD τ))}
    (O : CellTallies nD τ sig Unit) {W : Waits sig Unit}
    (hfs : ∀ (r q : ℕ) (hr : r < 96) (hq : q < 1024), sSlot02.view.read (Elt F) fs (ix2 ⟨r, hr⟩ ⟨q, hq⟩) = tr (S2 m 0 c (K1 0 (Mesh.px 4 c) + r) q)) :
    iprop(Iface.records (F := F) m K
        ∗ (sSlot02.view.loc (c : Thread nD τ) ↦[sSlot02.view.set]{fullShare} fs)
        ∗ (rSlot02.view.loc (Mesh.px 4 c : Thread nD τ) ↦[rSlot02.view.set]{fullShare} fd)
        ∗ owes (c : Thread nD τ) (O + tallyAt (dcell 1 0 2 (Mesh.px 4 c)) () (namt 1 0 2)) W
        ∗ dutyTok ER (dcell 0 0 2 c) 0 0 ∗ dutyTok ER (dcell 1 0 2 (Mesh.px 4 c)) 0 0)
      ⊢ iprop(((cred (tallyAt (dcell 0 0 2 c) () (namt 0 0 2)) ∗ owes (c : Thread nD τ) O W) -∗ WP[c] (kk ⟨⟩) Q)
          -∗ WP[c] (.op (.enqueueDma sSlot02 (.remote (Dev.tc n : Thread nD τ) rSlot02 (.dma (dsem 0 0 2)) hsc) (.dma (dsem 1 0 2)) hsrc hdst hsem) kk) Q) := by
  subst hn; exact wp_rs_send02 m K c O hfs

theorem wp_rs_send12_at (K : Dev nD × Iface.CIx → ℕ) (c n : Dev nD) (hn : n = Mesh.px 1 c)
    {hsc : (rSlot12 : Memref sig (Dev.tc n : Thread nD τ).2.kind .vmem S96x1024 .bf16).view.ref.isScScratch = false}
    {hsrc : sSlot12.view.WordExact} {hdst : rSlot12.view.WordExact}
    {hsem : DmaTarget.Typed .vmem (.dma (dsem 1 1 2)) (.remote (Dev.tc n : Thread nD τ) rSlot12 (.dma (dsem 0 1 2)) hsc)}
    {α : Type} {Q : α → sProp 𝕄} {kk : PUnit → Prog (TpuEff nD τ sig (Elt F) Λ₀ .tc) α}
    {fs : Buf (Elt F) (sSlot12.view.loc (c : Thread nD τ))} {fd : Buf (Elt F) (rSlot12.view.loc (Mesh.px 1 c : Thread nD τ))}
    (O : CellTallies nD τ sig Unit) {W : Waits sig Unit}
    (hfs : ∀ (r q : ℕ) (hr : r < 96) (hq : q < 1024), sSlot12.view.read (Elt F) fs (ix2 ⟨r, hr⟩ ⟨q, hq⟩) = tr (S2 m 1 c (K1 1 (Mesh.px 1 c) + r) q)) :
    iprop(Iface.records (F := F) m K
        ∗ (sSlot12.view.loc (c : Thread nD τ) ↦[sSlot12.view.set]{fullShare} fs)
        ∗ (rSlot12.view.loc (Mesh.px 1 c : Thread nD τ) ↦[rSlot12.view.set]{fullShare} fd)
        ∗ owes (c : Thread nD τ) (O + tallyAt (dcell 1 1 2 (Mesh.px 1 c)) () (namt 1 1 2)) W
        ∗ dutyTok ER (dcell 0 1 2 c) 0 0 ∗ dutyTok ER (dcell 1 1 2 (Mesh.px 1 c)) 0 0)
      ⊢ iprop(((cred (tallyAt (dcell 0 1 2 c) () (namt 0 1 2)) ∗ owes (c : Thread nD τ) O W) -∗ WP[c] (kk ⟨⟩) Q)
          -∗ WP[c] (.op (.enqueueDma sSlot12 (.remote (Dev.tc n : Thread nD τ) rSlot12 (.dma (dsem 0 1 2)) hsc) (.dma (dsem 1 1 2)) hsrc hdst hsem) kk) Q) := by
  subst hn; exact wp_rs_send12 m K c O hfs

theorem wp_rs_send22_at (K : Dev nD × Iface.CIx → ℕ) (c n : Dev nD) (hn : n = Mesh.px 2 c)
    {hsc : (rSlot22 : Memref sig (Dev.tc n : Thread nD τ).2.kind .vmem S64x1024 .bf16).view.ref.isScScratch = false}
    {hsrc : sSlot22.view.WordExact} {hdst : rSlot22.view.WordExact}
    {hsem : DmaTarget.Typed .vmem (.dma (dsem 1 2 2)) (.remote (Dev.tc n : Thread nD τ) rSlot22 (.dma (dsem 0 2 2)) hsc)}
    {α : Type} {Q : α → sProp 𝕄} {kk : PUnit → Prog (TpuEff nD τ sig (Elt F) Λ₀ .tc) α}
    {fs : Buf (Elt F) (sSlot22.view.loc (c : Thread nD τ))} {fd : Buf (Elt F) (rSlot22.view.loc (Mesh.px 2 c : Thread nD τ))}
    (O : CellTallies nD τ sig Unit) {W : Waits sig Unit}
    (hfs : ∀ (r q : ℕ) (hr : r < 64) (hq : q < 1024), sSlot22.view.read (Elt F) fs (ix2 ⟨r, hr⟩ ⟨q, hq⟩) = tr (S2 m 2 c (K1 2 (Mesh.px 2 c) + r) q)) :
    iprop(Iface.records (F := F) m K
        ∗ (sSlot22.view.loc (c : Thread nD τ) ↦[sSlot22.view.set]{fullShare} fs)
        ∗ (rSlot22.view.loc (Mesh.px 2 c : Thread nD τ) ↦[rSlot22.view.set]{fullShare} fd)
        ∗ owes (c : Thread nD τ) (O + tallyAt (dcell 1 2 2 (Mesh.px 2 c)) () (namt 1 2 2)) W
        ∗ dutyTok ER (dcell 0 2 2 c) 0 0 ∗ dutyTok ER (dcell 1 2 2 (Mesh.px 2 c)) 0 0)
      ⊢ iprop(((cred (tallyAt (dcell 0 2 2 c) () (namt 0 2 2)) ∗ owes (c : Thread nD τ) O W) -∗ WP[c] (kk ⟨⟩) Q)
          -∗ WP[c] (.op (.enqueueDma sSlot22 (.remote (Dev.tc n : Thread nD τ) rSlot22 (.dma (dsem 0 2 2)) hsc) (.dma (dsem 1 2 2)) hsrc hdst hsem) kk) Q) := by
  subst hn; exact wp_rs_send22 m K c O hfs

theorem wp_ag_send01_at (K : Dev nD × Iface.CIx → ℕ) (c n : Dev nD) (hn : n = Mesh.px 1 c)
    {hsc : ((aRows01 c) : Memref sig (Dev.tc n : Thread nD τ).2.kind .vmem S96x1024 .bf16).view.ref.isScScratch = false}
    {hsrc : (aRows01 c).view.WordExact} {hdst : (aRows01 c).view.WordExact}
    {hsem : DmaTarget.Typed .vmem (.dma (dsem 3 0 1)) (.remote (Dev.tc n : Thread nD τ) (aRows01 c) (.dma (dsem 2 0 1)) hsc)}
    {α : Type} {Q : α → sProp 𝕄} {kk : PUnit → Prog (TpuEff nD τ sig (Elt F) Λ₀ .tc) α}
    {fs : Buf (Elt F) ((aRows01 c).view.loc (c : Thread nD τ))} {fd : Buf (Elt F) ((aRows01 c).view.loc (Mesh.px 1 c : Thread nD τ))}
    (O : CellTallies nD τ sig Unit) {W : Waits sig Unit}
    (hfs : ∀ (r q : ℕ) (hr : r < 96) (hq : q < 1024), (aRows01 c).view.read (Elt F) fs (ix2 ⟨r, hr⟩ ⟨q, hq⟩) = tr (S3 m 0 c (K1 0 c + r) q)) :
    iprop(Iface.records (F := F) m K
        ∗ ((aRows01 c).view.loc (c : Thread nD τ) ↦[(aRows01 c).view.set]{fullShare.left} fs)
        ∗ ((aRows01 c).view.loc (Mesh.px 1 c : Thread nD τ) ↦[(aRows01 c).view.set]{fullShare} fd)
        ∗ owes (c : Thread nD τ) (O + tallyAt (dcell 3 0 1 (Mesh.px 1 c)) () (namt 3 0 1)) W
        ∗ dutyTok ER (dcell 2 0 1 c) 0 0 ∗ dutyTok ER (dcell 3 0 1 (Mesh.px 1 c)) 0 0)
      ⊢ iprop(((cred (tallyAt (dcell 2 0 1 c) () (namt 2 0 1)) ∗ owes (c : Thread nD τ) O W) -∗ WP[c] (kk ⟨⟩) Q)
          -∗ WP[c] (.op (.enqueueDma (aRows01 c) (.remote (Dev.tc n : Thread nD τ) (aRows01 c) (.dma (dsem 2 0 1)) hsc) (.dma (dsem 3 0 1)) hsrc hdst hsem) kk) Q) := by
  subst hn; exact wp_ag_send01 m K c O hfs

theorem wp_ag_send11_at (K : Dev nD × Iface.CIx → ℕ) (c n : Dev nD) (hn : n = Mesh.px 3 c)
    {hsc : ((aRows11 c) : Memref sig (Dev.tc n : Thread nD τ).2.kind .vmem S96x1024 .bf16).view.ref.isScScratch = false}
    {hsrc : (aRows11 c).view.WordExact} {hdst : (aRows11 c).view.WordExact}
    {hsem : DmaTarget.Typed .vmem (.dma (dsem 3 1 1)) (.remote (Dev.tc n : Thread nD τ) (aRows11 c) (.dma (dsem 2 1 1)) hsc)}
    {α : Type} {Q : α → sProp 𝕄} {kk : PUnit → Prog (TpuEff nD τ sig (Elt F) Λ₀ .tc) α}
    {fs : Buf (Elt F) ((aRows11 c).view.loc (c : Thread nD τ))} {fd : Buf (Elt F) ((aRows11 c).view.loc (Mesh.px 3 c : Thread nD τ))}
    (O : CellTallies nD τ sig Unit) {W : Waits sig Unit}
    (hfs : ∀ (r q : ℕ) (hr : r < 96) (hq : q < 1024), (aRows11 c).view.read (Elt F) fs (ix2 ⟨r, hr⟩ ⟨q, hq⟩) = tr (S3 m 1 c (K1 1 c + r) q)) :
    iprop(Iface.records (F := F) m K
        ∗ ((aRows11 c).view.loc (c : Thread nD τ) ↦[(aRows11 c).view.set]{fullShare.left} fs)
        ∗ ((aRows11 c).view.loc (Mesh.px 3 c : Thread nD τ) ↦[(aRows11 c).view.set]{fullShare} fd)
        ∗ owes (c : Thread nD τ) (O + tallyAt (dcell 3 1 1 (Mesh.px 3 c)) () (namt 3 1 1)) W
        ∗ dutyTok ER (dcell 2 1 1 c) 0 0 ∗ dutyTok ER (dcell 3 1 1 (Mesh.px 3 c)) 0 0)
      ⊢ iprop(((cred (tallyAt (dcell 2 1 1 c) () (namt 2 1 1)) ∗ owes (c : Thread nD τ) O W) -∗ WP[c] (kk ⟨⟩) Q)
          -∗ WP[c] (.op (.enqueueDma (aRows11 c) (.remote (Dev.tc n : Thread nD τ) (aRows11 c) (.dma (dsem 2 1 1)) hsc) (.dma (dsem 3 1 1)) hsrc hdst hsem) kk) Q) := by
  subst hn; exact wp_ag_send11 m K c O hfs

theorem wp_ag_send21_at (K : Dev nD × Iface.CIx → ℕ) (c n : Dev nD) (hn : n = Mesh.px 4 c)
    {hsc : ((aRows21 c) : Memref sig (Dev.tc n : Thread nD τ).2.kind .vmem S64x1024 .bf16).view.ref.isScScratch = false}
    {hsrc : (aRows21 c).view.WordExact} {hdst : (aRows21 c).view.WordExact}
    {hsem : DmaTarget.Typed .vmem (.dma (dsem 3 2 1)) (.remote (Dev.tc n : Thread nD τ) (aRows21 c) (.dma (dsem 2 2 1)) hsc)}
    {α : Type} {Q : α → sProp 𝕄} {kk : PUnit → Prog (TpuEff nD τ sig (Elt F) Λ₀ .tc) α}
    {fs : Buf (Elt F) ((aRows21 c).view.loc (c : Thread nD τ))} {fd : Buf (Elt F) ((aRows21 c).view.loc (Mesh.px 4 c : Thread nD τ))}
    (O : CellTallies nD τ sig Unit) {W : Waits sig Unit}
    (hfs : ∀ (r q : ℕ) (hr : r < 64) (hq : q < 1024), (aRows21 c).view.read (Elt F) fs (ix2 ⟨r, hr⟩ ⟨q, hq⟩) = tr (S3 m 2 c (K1 2 c + r) q)) :
    iprop(Iface.records (F := F) m K
        ∗ ((aRows21 c).view.loc (c : Thread nD τ) ↦[(aRows21 c).view.set]{fullShare.left} fs)
        ∗ ((aRows21 c).view.loc (Mesh.px 4 c : Thread nD τ) ↦[(aRows21 c).view.set]{fullShare} fd)
        ∗ owes (c : Thread nD τ) (O + tallyAt (dcell 3 2 1 (Mesh.px 4 c)) () (namt 3 2 1)) W
        ∗ dutyTok ER (dcell 2 2 1 c) 0 0 ∗ dutyTok ER (dcell 3 2 1 (Mesh.px 4 c)) 0 0)
      ⊢ iprop(((cred (tallyAt (dcell 2 2 1 c) () (namt 2 2 1)) ∗ owes (c : Thread nD τ) O W) -∗ WP[c] (kk ⟨⟩) Q)
          -∗ WP[c] (.op (.enqueueDma (aRows21 c) (.remote (Dev.tc n : Thread nD τ) (aRows21 c) (.dma (dsem 2 2 1)) hsc) (.dma (dsem 3 2 1)) hsrc hdst hsem) kk) Q) := by
  subst hn; exact wp_ag_send21 m K c O hfs

theorem wp_ag_send00_at (K : Dev nD × Iface.CIx → ℕ) (c n : Dev nD) (hn : n = Mesh.px 3 c)
    {hsc : ((aRows00 c) : Memref sig (Dev.tc n : Thread nD τ).2.kind .vmem S192x1024 .bf16).view.ref.isScScratch = false}
    {hsrc : (aRows00 c).view.WordExact} {hdst : (aRows00 c).view.WordExact}
    {hsem : DmaTarget.Typed .vmem (.dma (dsem 3 0 0)) (.remote (Dev.tc n : Thread nD τ) (aRows00 c) (.dma (dsem 2 0 0)) hsc)}
    {α : Type} {Q : α → sProp 𝕄} {kk : PUnit → Prog (TpuEff nD τ sig (Elt F) Λ₀ .tc) α}
    {fs : Buf (Elt F) ((aRows00 c).view.loc (c : Thread nD τ))} {fd : Buf (Elt F) ((aRows00 c).view.loc (Mesh.px 3 c : Thread nD τ))}
    (O : CellTallies nD τ sig Unit) {W : Waits sig Unit}
    (hfs : ∀ (r q : ℕ) (hr : r < 192) (hq : q < 1024), (aRows00 c).view.read (Elt F) fs (ix2 ⟨r, hr⟩ ⟨q, hq⟩) = tr (S3 m 0 (qOwn 0 c (K0 0 c + r)) (K0 0 c + r) q)) :
    iprop(Iface.records (F := F) m K
        ∗ ((aRows00 c).view.loc (c : Thread nD τ) ↦[(aRows00 c).view.set]{fullShare.right.left} fs)
        ∗ ((aRows00 c).view.loc (Mesh.px 3 c : Thread nD τ) ↦[(aRows00 c).view.set]{fullShare} fd)
        ∗ owes (c : Thread nD τ) (O + tallyAt (dcell 3 0 0 (Mesh.px 3 c)) () (namt 3 0 0)) W
        ∗ dutyTok ER (dcell 2 0 0 c) 0 0 ∗ dutyTok ER (dcell 3 0 0 (Mesh.px 3 c)) 0 0)
      ⊢ iprop(((cred (tallyAt (dcell 2 0 0 c) () (namt 2 0 0)) ∗ owes (c : Thread nD τ) O W) -∗ WP[c] (kk ⟨⟩) Q)
          -∗ WP[c] (.op (.enqueueDma (aRows00 c) (.remote (Dev.tc n : Thread nD τ) (aRows00 c) (.dma (dsem 2 0 0)) hsc) (.dma (dsem 3 0 0)) hsrc hdst hsem) kk) Q) := by
  subst hn; exact wp_ag_send00 m K c O hfs

theorem wp_ag_send10_at (K : Dev nD × Iface.CIx → ℕ) (c n : Dev nD) (hn : n = Mesh.px 4 c)
    {hsc : ((aRows10 c) : Memref sig (Dev.tc n : Thread nD τ).2.kind .vmem S192x1024 .bf16).view.ref.isScScratch = false}
    {hsrc : (aRows10 c).view.WordExact} {hdst : (aRows10 c).view.WordExact}
    {hsem : DmaTarget.Typed .vmem (.dma (dsem 3 1 0)) (.remote (Dev.tc n : Thread nD τ) (aRows10 c) (.dma (dsem 2 1 0)) hsc)}
    {α : Type} {Q : α → sProp 𝕄} {kk : PUnit → Prog (TpuEff nD τ sig (Elt F) Λ₀ .tc) α}
    {fs : Buf (Elt F) ((aRows10 c).view.loc (c : Thread nD τ))} {fd : Buf (Elt F) ((aRows10 c).view.loc (Mesh.px 4 c : Thread nD τ))}
    (O : CellTallies nD τ sig Unit) {W : Waits sig Unit}
    (hfs : ∀ (r q : ℕ) (hr : r < 192) (hq : q < 1024), (aRows10 c).view.read (Elt F) fs (ix2 ⟨r, hr⟩ ⟨q, hq⟩) = tr (S3 m 1 (qOwn 1 c (K0 1 c + r)) (K0 1 c + r) q)) :
    iprop(Iface.records (F := F) m K
        ∗ ((aRows10 c).view.loc (c : Thread nD τ) ↦[(aRows10 c).view.set]{fullShare.right.left} fs)
        ∗ ((aRows10 c).view.loc (Mesh.px 4 c : Thread nD τ) ↦[(aRows10 c).view.set]{fullShare} fd)
        ∗ owes (c : Thread nD τ) (O + tallyAt (dcell 3 1 0 (Mesh.px 4 c)) () (namt 3 1 0)) W
        ∗ dutyTok ER (dcell 2 1 0 c) 0 0 ∗ dutyTok ER (dcell 3 1 0 (Mesh.px 4 c)) 0 0)
      ⊢ iprop(((cred (tallyAt (dcell 2 1 0 c) () (namt 2 1 0)) ∗ owes (c : Thread nD τ) O W) -∗ WP[c] (kk ⟨⟩) Q)
          -∗ WP[c] (.op (.enqueueDma (aRows10 c) (.remote (Dev.tc n : Thread nD τ) (aRows10 c) (.dma (dsem 2 1 0)) hsc) (.dma (dsem 3 1 0)) hsrc hdst hsem) kk) Q) := by
  subst hn; exact wp_ag_send10 m K c O hfs

theorem wp_ag_send20_at (K : Dev nD × Iface.CIx → ℕ) (c n : Dev nD) (hn : n = Mesh.px 1 c)
    {hsc : ((aRows20 c) : Memref sig (Dev.tc n : Thread nD τ).2.kind .vmem S128x1024 .bf16).view.ref.isScScratch = false}
    {hsrc : (aRows20 c).view.WordExact} {hdst : (aRows20 c).view.WordExact}
    {hsem : DmaTarget.Typed .vmem (.dma (dsem 3 2 0)) (.remote (Dev.tc n : Thread nD τ) (aRows20 c) (.dma (dsem 2 2 0)) hsc)}
    {α : Type} {Q : α → sProp 𝕄} {kk : PUnit → Prog (TpuEff nD τ sig (Elt F) Λ₀ .tc) α}
    {fs : Buf (Elt F) ((aRows20 c).view.loc (c : Thread nD τ))} {fd : Buf (Elt F) ((aRows20 c).view.loc (Mesh.px 1 c : Thread nD τ))}
    (O : CellTallies nD τ sig Unit) {W : Waits sig Unit}
    (hfs : ∀ (r q : ℕ) (hr : r < 128) (hq : q < 1024), (aRows20 c).view.read (Elt F) fs (ix2 ⟨r, hr⟩ ⟨q, hq⟩) = tr (S3 m 2 (qOwn 2 c (K0 2 c + r)) (K0 2 c + r) q)) :
    iprop(Iface.records (F := F) m K
        ∗ ((aRows20 c).view.loc (c : Thread nD τ) ↦[(aRows20 c).view.set]{fullShare.right.left} fs)
        ∗ ((aRows20 c).view.loc (Mesh.px 1 c : Thread nD τ) ↦[(aRows20 c).view.set]{fullShare} fd)
        ∗ owes (c : Thread nD τ) (O + tallyAt (dcell 3 2 0 (Mesh.px 1 c)) () (namt 3 2 0)) W
        ∗ dutyTok ER (dcell 2 2 0 c) 0 0 ∗ dutyTok ER (dcell 3 2 0 (Mesh.px 1 c)) 0 0)
      ⊢ iprop(((cred (tallyAt (dcell 2 2 0 c) () (namt 2 2 0)) ∗ owes (c : Thread nD τ) O W) -∗ WP[c] (kk ⟨⟩) Q)
          -∗ WP[c] (.op (.enqueueDma (aRows20 c) (.remote (Dev.tc n : Thread nD τ) (aRows20 c) (.dma (dsem 2 2 0)) hsc) (.dma (dsem 3 2 0)) hsrc hdst hsem) kk) Q) := by
  subst hn; exact wp_ag_send20 m K c O hfs

end Addressed

/-- info: 'Cert.KernelIdeal.Tables.wp_barwait' depends on axioms: [propext, Classical.choice, Quot.sound] -/
#guard_msgs in #print axioms wp_barwait

/-- info: 'Cert.KernelIdeal.Tables.wp_sig1' depends on axioms: [propext, Classical.choice, Quot.sound] -/
#guard_msgs in #print axioms wp_sig1

/-- info: 'Cert.KernelIdeal.Tables.wp_rs_send00' depends on axioms: [propext, Classical.choice, Quot.sound] -/
#guard_msgs in #print axioms wp_rs_send00

/-- info: 'Cert.KernelIdeal.Tables.wp_ag_send00' depends on axioms: [propext, Classical.choice, Quot.sound] -/
#guard_msgs in #print axioms wp_ag_send00

/-- info: 'Cert.KernelIdeal.Tables.wp_dwait' depends on axioms: [propext, Classical.choice, Quot.sound] -/
#guard_msgs in #print axioms wp_dwait

/-- info: 'Cert.KernelIdeal.Tables.close_used' depends on axioms: [propext, Classical.choice, Quot.sound] -/
#guard_msgs in #print axioms close_used

/-- info: 'Cert.KernelIdeal.Tables.wp_rs_send22_at' depends on axioms: [propext, Classical.choice, Quot.sound] -/
#guard_msgs in #print axioms wp_rs_send22_at

end Cert.KernelIdeal.Tables

end
-- ==== Proof.Mem.lean ====
/-
  Buffers, regions and rows. The three scratch buffers of a device are cut into the regions the protocol lends and
  returns: the send and the receive buffer into their nine slots (one per butterfly and stage) and a rest; the gather
  buffer, per butterfly, into the device's own quarter, its stage-1 partner's quarter and the other half. Stores, loads
  and landings are read row by row: a store of h whole rows at row o changes exactly the rows [o, o + h); a slot, seen
  through its slice with the unit axis dropped, reads plane b of the buffer at the slot's rows. The value steps of the
  body (narrow for the wire, widen and add, widen) are read element by element.
-/
import proofs.«900524_g7700000000000525_dist_gated_mlp_tp_i_m1024_h2048_d1024_v7x_i8_f32_1_alg».proof.Proof.Sched
import Idealize.ShloMosaic.Lib.ValueLayout
import Idealize.ShloMosaic.Lib.Pipeline.Value
import Idealize.ShloMosaic.Rules.PointsTo

noncomputable section

namespace Cert.KernelIdeal.Mem

open Cert.KernelIdeal Cert.KernelIdeal.Gen Cert.KernelIdeal.Sched

open Idealize.ShloMosaic
open Idealize.ShloMosaic.TcCoe
open Idealize.ShloMosaic.ValueIdx
open Idealize.SL Idealize.SL.RA Idealize.SL.BI
open PCS URA
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Small laws of the two-sided entailment -/

theorem bi_refl (P : sProp 𝕄) : P ⊣⊢ P := ⟨Entails.rfl, Entails.rfl⟩
theorem bi_trans {P Q R : sProp 𝕄} (h1 : P ⊣⊢ Q) (h2 : Q ⊣⊢ R) : P ⊣⊢ R := ⟨h1.1.trans h2.1, h2.2.trans h1.2⟩
theorem bi_sep {P P' Q Q' : sProp 𝕄} (h1 : P ⊣⊢ P') (h2 : Q ⊣⊢ Q') : iprop(P ∗ Q) ⊣⊢ iprop(P' ∗ Q') :=
  ⟨BI.sep_mono h1.1 h2.1, BI.sep_mono h1.2 h2.2⟩

/-- Putting a first set in front of a union already cut. -/
theorem pt_cons {ℓ : Loc nD τ sig} {q : PosShare TreeShare} {f : Buf (Elt F) ℓ} {A B : Finset (Idx ℓ)} (hd : Disjoint A B)
    {P : sProp 𝕄} (hB : ((ℓ ↦[B]{q} f) : sProp 𝕄) ⊣⊢ P) :
    ((ℓ ↦[A ∪ B]{q} f) : sProp 𝕄) ⊣⊢ iprop((ℓ ↦[A]{q} f) ∗ P) :=
  bi_trans (pointsTo_union hd) (bi_sep (bi_refl _) hB)

theorem pt_ex {ℓ : Loc nD τ sig} {q : PosShare TreeShare} {A : Finset (Idx ℓ)} (f : Buf (Elt F) ℓ) :
    ((ℓ ↦[A]{q} f) : sProp 𝕄) ⊢ iprop(∃ g, ℓ ↦[A]{q} g) := by
  iintro H; iexists f; iexact H

/-- Joining a first set, at its own contents, to a union already joined at some contents. -/
theorem pt_join_ex {ℓ : Loc nD τ sig} {q : PosShare TreeShare} {A B : Finset (Idx ℓ)} (hd : Disjoint A B)
    {P : sProp 𝕄} (f : Buf (Elt F) ℓ) (hB : P ⊢ (iprop(∃ g, ℓ ↦[B]{q} g) : sProp 𝕄)) :
    iprop((ℓ ↦[A]{q} f) ∗ P) ⊢ (iprop(∃ g, ℓ ↦[A ∪ B]{q} g) : sProp 𝕄) := by
  iintro ⟨HA, HP⟩
  ihave HB := hB $$ HP
  icases HB with ⟨%g, HB⟩
  iexists (B.piecewise g f)
  iapply (pointsTo_join hd)
  isplitl [HA]
  · iexact HA
  · iexact HB

/-- Two shares of one region, at whatever contents each was recorded with, are the composed share at the first's. -/
theorem pt_share_join {ℓ : Loc nD τ sig} {I : Finset (Idx ℓ)} {q q₁ q₂ : PosShare TreeShare} (hq : q ∈ q₁ ·? q₂)
    (f f' : Buf (Elt F) ℓ) :
    iprop((ℓ ↦[I]{q₁} f) ∗ (ℓ ↦[I]{q₂} f')) ⊢ ((ℓ ↦[I]{q} f) : sProp 𝕄) :=
  Laws.pure_elim _ pointsTo_agree fun h => by
    rw [pointsTo_congr (f := f') (g := f) (fun i hi => ((h i (Finset.mem_inter.mpr ⟨hi, hi⟩)).1).symm)]
    exact (pointsTo_share hq).2

/-- The two share facts the gather's lending uses. -/
theorem share_lr : fullShare ∈ fullShare.left ·? fullShare.right := PosShare.mem_left_op_right _
theorem share_rlr : fullShare.right ∈ fullShare.right.left ·? fullShare.right.right := PosShare.mem_left_op_right _

/-! ## Value steps, element by element -/

/-- What crosses the wire, widened again. -/
theorem extf_tr (e : F .f32) : FloatOps.extf .f32 bitsLt_bf16_f32 (tr e) = wire e := rfl

/-- Narrowing a tile for the wire and giving it a leading unit axis. -/
theorem narrow1_apply {h : ℕ} (v : (⟨2, ![h, 1024]⟩ : Shape).Idx → F .f32)
    (h1 : (⟨2, ![h, 1024]⟩ : Shape).ShapeCasts ⟨2, ![h, 1024]⟩)
    (h2 : (⟨2, ![h, 1024]⟩ : Shape).ShapeCasts ⟨3, ![1, h, 1024]⟩)
    (u : Fin 1) (r : Fin h) (q : Fin 1024) :
    shapeCast ⟨3, ![1, h, 1024]⟩ (truncf .bf16 (shapeCast ⟨2, ![h, 1024]⟩ v h1) bitsLt_bf16_f32) h2 (ix3 u r q)
      = tr (v (ix2 r q)) := by
  rw [shapeCast_ab_1ab_apply, shapeCast_self]
  rfl

/-- Narrowing a tile for the gather buffer. -/
theorem narrow0_apply {h : ℕ} (v : (⟨2, ![h, 1024]⟩ : Shape).Idx → F .f32)
    (h1 : (⟨2, ![h, 1024]⟩ : Shape).ShapeCasts ⟨2, ![h, 1024]⟩)
    (h2 : (⟨2, ![h, 1024]⟩ : Shape).ShapeCasts ⟨2, ![h, 1024]⟩)
    (i : (⟨2, ![h, 1024]⟩ : Shape).Idx) :
    shapeCast ⟨2, ![h, 1024]⟩ (truncf .bf16 (shapeCast ⟨2, ![h, 1024]⟩ v h1) bitsLt_bf16_f32) h2 i
      = tr (v i) := by
  rw [shapeCast_self, shapeCast_self]
  rfl

/-- Widening what came over the wire and adding it to the own tile. -/
theorem wadd_apply {h : ℕ} (a : (⟨2, ![h, 1024]⟩ : Shape).Idx → F .f32) (w : (⟨3, ![1, h, 1024]⟩ : Shape).Idx → F .bf16)
    (h1 : (⟨2, ![h, 1024]⟩ : Shape).ShapeCasts ⟨2, ![h, 1024]⟩)
    (h2 : (⟨3, ![1, h, 1024]⟩ : Shape).ShapeCasts ⟨2, ![h, 1024]⟩)
    (r : Fin h) (q : Fin 1024) :
    addf (shapeCast ⟨2, ![h, 1024]⟩ a h1) (extf .f32 (shapeCast ⟨2, ![h, 1024]⟩ w h2) bitsLt_bf16_f32) (ix2 r q)
      = FloatOps.addf (a (ix2 r q)) (FloatOps.extf .f32 bitsLt_bf16_f32 (w (ix3 0 r q))) := by
  show FloatOps.addf (shapeCast ⟨2, ![h, 1024]⟩ a h1 (ix2 r q))
      (FloatOps.extf .f32 bitsLt_bf16_f32 (shapeCast ⟨2, ![h, 1024]⟩ w h2 (ix2 r q))) = _
  rw [shapeCast_self, shapeCast_1ab_ab_apply]

/-- the tiles narrowed into the send slots -/
theorem pay2_apply (v : Vec F S192x1024 .f32) (u : Fin 1) (r : Fin 192) (q : Fin 1024) :
    k0_pay2 v (ix3 u r q) = tr (v (ix2 r q)) := narrow1_apply v _ _ u r q
theorem pay4_apply (v : Vec F S192x1024 .f32) (u : Fin 1) (r : Fin 192) (q : Fin 1024) :
    k0_pay4 v (ix3 u r q) = tr (v (ix2 r q)) := narrow1_apply v _ _ u r q
theorem pay9_apply (v : Vec F S128x1024 .f32) (u : Fin 1) (r : Fin 128) (q : Fin 1024) :
    k0_pay9 v (ix3 u r q) = tr (v (ix2 r q)) := narrow1_apply v _ _ u r q
theorem pay19_apply (v : Vec F S96x1024 .f32) (u : Fin 1) (r : Fin 96) (q : Fin 1024) :
    k0_pay19 v (ix3 u r q) = tr (v (ix2 r q)) := narrow1_apply v _ _ u r q
theorem pay20_apply (v : Vec F S96x1024 .f32) (u : Fin 1) (r : Fin 96) (q : Fin 1024) :
    k0_pay20 v (ix3 u r q) = tr (v (ix2 r q)) := narrow1_apply v _ _ u r q
theorem pay21_apply (v : Vec F S64x1024 .f32) (u : Fin 1) (r : Fin 64) (q : Fin 1024) :
    k0_pay21 v (ix3 u r q) = tr (v (ix2 r q)) := narrow1_apply v _ _ u r q
theorem pay25_apply (v : Vec F S96x1024 .f32) (u : Fin 1) (r : Fin 96) (q : Fin 1024) :
    k0_pay25 v (ix3 u r q) = tr (v (ix2 r q)) := narrow1_apply v _ _ u r q
theorem pay26_apply (v : Vec F S96x1024 .f32) (u : Fin 1) (r : Fin 96) (q : Fin 1024) :
    k0_pay26 v (ix3 u r q) = tr (v (ix2 r q)) := narrow1_apply v _ _ u r q
theorem pay27_apply (v : Vec F S64x1024 .f32) (u : Fin 1) (r : Fin 64) (q : Fin 1024) :
    k0_pay27 v (ix3 u r q) = tr (v (ix2 r q)) := narrow1_apply v _ _ u r q

/-- the totals narrowed into the gather buffer -/
theorem pay29_apply (v : Vec F S96x1024 .f32) (i : S96x1024.Idx) : k0_pay29 v i = tr (v i) := narrow0_apply v _ _ i
theorem pay31_apply (v : Vec F S96x1024 .f32) (i : S96x1024.Idx) : k0_pay31 v i = tr (v i) := narrow0_apply v _ _ i
theorem pay33_apply (v : Vec F S64x1024 .f32) (i : S64x1024.Idx) : k0_pay33 v i = tr (v i) := narrow0_apply v _ _ i

/-- the three steps of the first addition, as the body names them -/
theorem pay14_apply (v : Vec F S192x1024 .f32) : k0_pay14 v = v := shapeCast_self v _
theorem pay15_apply (v : Vec F S1x192x1024 .bf16) (r : Fin 192) (q : Fin 1024) :
    k0_pay15 v (ix2 r q) = FloatOps.extf .f32 bitsLt_bf16_f32 (v (ix3 0 r q)) := by
  show FloatOps.extf .f32 bitsLt_bf16_f32 (shapeCast S192x1024 v shapeCasts_S1x192x1024_S192x1024 (ix2 r q)) = _
  rw [shapeCast_1ab_ab_apply]
theorem pay16_apply (a w : FVec F S192x1024 .f32) (i : S192x1024.Idx) : k0_pay16 a w i = FloatOps.addf (a i) (w i) := rfl

/-- the received slot widened and added to the own rows -/
theorem pay17_apply (a : Vec F S192x1024 .f32) (w : Vec F S1x192x1024 .bf16) (r : Fin 192) (q : Fin 1024) :
    k0_pay17 a w (ix2 r q) = FloatOps.addf (a (ix2 r q)) (FloatOps.extf .f32 bitsLt_bf16_f32 (w (ix3 0 r q))) :=
  wadd_apply a w _ _ r q
theorem pay18_apply (a : Vec F S128x1024 .f32) (w : Vec F S1x128x1024 .bf16) (r : Fin 128) (q : Fin 1024) :
    k0_pay18 a w (ix2 r q) = FloatOps.addf (a (ix2 r q)) (FloatOps.extf .f32 bitsLt_bf16_f32 (w (ix3 0 r q))) :=
  wadd_apply a w _ _ r q
theorem pay22_apply (a : Vec F S96x1024 .f32) (w : Vec F S1x96x1024 .bf16) (r : Fin 96) (q : Fin 1024) :
    k0_pay22 a w (ix2 r q) = FloatOps.addf (a (ix2 r q)) (FloatOps.extf .f32 bitsLt_bf16_f32 (w (ix3 0 r q))) :=
  wadd_apply a w _ _ r q
theorem pay23_apply (a : Vec F S96x1024 .f32) (w : Vec F S1x96x1024 .bf16) (r : Fin 96) (q : Fin 1024) :
    k0_pay23 a w (ix2 r q) = FloatOps.addf (a (ix2 r q)) (FloatOps.extf .f32 bitsLt_bf16_f32 (w (ix3 0 r q))) :=
  wadd_apply a w _ _ r q
theorem pay24_apply (a : Vec F S64x1024 .f32) (w : Vec F S1x64x1024 .bf16) (r : Fin 64) (q : Fin 1024) :
    k0_pay24 a w (ix2 r q) = FloatOps.addf (a (ix2 r q)) (FloatOps.extf .f32 bitsLt_bf16_f32 (w (ix3 0 r q))) :=
  wadd_apply a w _ _ r q
theorem pay28_apply (a : Vec F S96x1024 .f32) (w : Vec F S1x96x1024 .bf16) (r : Fin 96) (q : Fin 1024) :
    k0_pay28 a w (ix2 r q) = FloatOps.addf (a (ix2 r q)) (FloatOps.extf .f32 bitsLt_bf16_f32 (w (ix3 0 r q))) :=
  wadd_apply a w _ _ r q
theorem pay30_apply (a : Vec F S96x1024 .f32) (w : Vec F S1x96x1024 .bf16) (r : Fin 96) (q : Fin 1024) :
    k0_pay30 a w (ix2 r q) = FloatOps.addf (a (ix2 r q)) (FloatOps.extf .f32 bitsLt_bf16_f32 (w (ix3 0 r q))) :=
  wadd_apply a w _ _ r q
theorem pay32_apply (a : Vec F S64x1024 .f32) (w : Vec F S1x64x1024 .bf16) (r : Fin 64) (q : Fin 1024) :
    k0_pay32 a w (ix2 r q) = FloatOps.addf (a (ix2 r q)) (FloatOps.extf .f32 bitsLt_bf16_f32 (w (ix3 0 r q))) :=
  wadd_apply a w _ _ r q

/-- the gathered rows widened -/
theorem pay34_apply (v : Vec F S192x1024 .bf16) (i : S192x1024.Idx) : k0_pay34 v i = FloatOps.extf .f32 bitsLt_bf16_f32 (v i) := rfl
theorem pay35_apply (v : Vec F S192x1024 .bf16) (i : S192x1024.Idx) : k0_pay35 v i = FloatOps.extf .f32 bitsLt_bf16_f32 (v i) := rfl
theorem pay36_apply (v : Vec F S128x1024 .bf16) (i : S128x1024.Idx) : k0_pay36 v i = FloatOps.extf .f32 bitsLt_bf16_f32 (v i) := rfl
theorem pay37_apply (v : Vec F S192x1024 .bf16) (i : S192x1024.Idx) : k0_pay37 v i = FloatOps.extf .f32 bitsLt_bf16_f32 (v i) := rfl
theorem pay38_apply (v : Vec F S192x1024 .bf16) (i : S192x1024.Idx) : k0_pay38 v i = FloatOps.extf .f32 bitsLt_bf16_f32 (v i) := rfl
theorem pay39_apply (v : Vec F S128x1024 .bf16) (i : S128x1024.Idx) : k0_pay39 v i = FloatOps.extf .f32 bitsLt_bf16_f32 (v i) := rfl

/-! ## Rows of the two [1024, 1024] buffers -/

/-- Where a unit-stride block of whole rows puts its element (r, q): at row o 0 + r, column q. -/
theorem unit2_emb {h : ℕ} (o : Fin 2 → ℕ) (inb : ∀ a, o a + (![h, 1024] : Fin 2 → ℕ) a ≤ S1024x1024.size a) (ho : o 1 = 0)
    (r q : ℕ) (hr : r < h) (hq : q < 1024) :
    (Rect.unit (s := S1024x1024) o ![h, 1024] inb).emb (ix2 ⟨r, hr⟩ ⟨q, hq⟩)
      = ix2 ⟨(o 0 + r) % 1024, Nat.mod_lt _ (by decide)⟩ ⟨q % 1024, Nat.mod_lt _ (by decide)⟩ := by
  have h0 : o 0 + h ≤ 1024 := inb 0
  funext a
  refine Fin.ext ?_
  match a with
  | ⟨0, _⟩ =>
    show o 0 + 1 * r = (o 0 + r) % 1024
    rw [Nat.mod_eq_of_lt (by omega)]; omega
  | ⟨1, _⟩ =>
    show o 1 + 1 * q = q % 1024
    rw [Nat.mod_eq_of_lt hq, ho]; omega

/-- A store of h whole rows at row o 0 into the result buffer: the rows written hold the payload, -/
theorem oAt_store {h : ℕ} (o : Fin 2 → ℕ) (inb : ∀ a, o a + (![h, 1024] : Fin 2 → ℕ) a ≤ S1024x1024.size a) (ho : o 1 = 0)
    (f : (cc0_stg4_0 : Ref sig .tc).ty.Contents (Elt F)) (v : (⟨2, ![h, 1024]⟩ : Shape).Idx → F .f32)
    (r q : ℕ) (hr : r < h) (hq : q < 1024) :
    oAt ((oM.access (Rect.unit (s := S1024x1024) o ![h, 1024] inb)).write (Elt F) f v Finset.univ) (o 0 + r) q
      = v (ix2 ⟨r, hr⟩ ⟨q, hq⟩) := by
  unfold oAt
  rw [← unit2_emb o inb ho r q hr hq]
  exact View.write_emb_of_mem (v := oM.access (Rect.unit (s := S1024x1024) o ![h, 1024] inb)) f v (Finset.mem_univ _)

/-- every other row what it held, -/
theorem oAt_store_miss {h : ℕ} (o : Fin 2 → ℕ) (inb : ∀ a, o a + (![h, 1024] : Fin 2 → ℕ) a ≤ S1024x1024.size a)
    (f : (cc0_stg4_0 : Ref sig .tc).ty.Contents (Elt F)) (v : (⟨2, ![h, 1024]⟩ : Shape).Idx → F .f32)
    (row q : ℕ) (hrow : row < 1024) (hmiss : row < o 0 ∨ o 0 + h ≤ row) :
    oAt ((oM.access (Rect.unit (s := S1024x1024) o ![h, 1024] inb)).write (Elt F) f v Finset.univ) row q
      = oAt f row q := by
  unfold oAt
  refine View.write_of_not_mem (v := oM.access (Rect.unit (s := S1024x1024) o ![h, 1024] inb)) (Val := Elt F) f v Finset.univ ?_
  rw [View.setOn_univ, View.set_slice_whole, Rect.mem_set_unit]
  intro hm
  have h0 : o 0 ≤ row % 1024 ∧ row % 1024 < o 0 + h := hm (0 : Fin 2)
  rw [Nat.mod_eq_of_lt hrow] at h0
  omega

/-- and a load of those rows reads them. -/
theorem oAt_load {h : ℕ} (o : Fin 2 → ℕ) (inb : ∀ a, o a + (![h, 1024] : Fin 2 → ℕ) a ≤ S1024x1024.size a) (ho : o 1 = 0)
    (f : (cc0_stg4_0 : Ref sig .tc).ty.Contents (Elt F)) (r q : ℕ) (hr : r < h) (hq : q < 1024) :
    (oM.view.readAt (Elt F) (Rect.unit (s := S1024x1024) o ![h, 1024] inb).toLoadRect f) (ix2 ⟨r, hr⟩ ⟨q, hq⟩)
      = oAt f (o 0 + r) q := by
  unfold oAt
  rw [← unit2_emb o inb ho r q hr hq]
  rfl

/-- The same three facts for the gather buffer. -/
theorem aAt_store {h : ℕ} (o : Fin 2 → ℕ) (inb : ∀ a, o a + (![h, 1024] : Fin 2 → ℕ) a ≤ S1024x1024.size a) (ho : o 1 = 0)
    (f : (cc0_scratch2 : Ref sig .tc).ty.Contents (Elt F)) (v : (⟨2, ![h, 1024]⟩ : Shape).Idx → F .bf16)
    (r q : ℕ) (hr : r < h) (hq : q < 1024) :
    aAt ((aM.access (Rect.unit (s := S1024x1024) o ![h, 1024] inb)).write (Elt F) f v Finset.univ) (o 0 + r) q
      = v (ix2 ⟨r, hr⟩ ⟨q, hq⟩) := by
  unfold aAt
  rw [← unit2_emb o inb ho r q hr hq]
  exact View.write_emb_of_mem (v := aM.access (Rect.unit (s := S1024x1024) o ![h, 1024] inb)) f v (Finset.mem_univ _)

theorem aAt_store_miss {h : ℕ} (o : Fin 2 → ℕ) (inb : ∀ a, o a + (![h, 1024] : Fin 2 → ℕ) a ≤ S1024x1024.size a)
    (f : (cc0_scratch2 : Ref sig .tc).ty.Contents (Elt F)) (v : (⟨2, ![h, 1024]⟩ : Shape).Idx → F .bf16)
    (row q : ℕ) (hrow : row < 1024) (hmiss : row < o 0 ∨ o 0 + h ≤ row) :
    aAt ((aM.access (Rect.unit (s := S1024x1024) o ![h, 1024] inb)).write (Elt F) f v Finset.univ) row q
      = aAt f row q := by
  unfold aAt
  refine View.write_of_not_mem (v := aM.access (Rect.unit (s := S1024x1024) o ![h, 1024] inb)) (Val := Elt F) f v Finset.univ ?_
  rw [View.setOn_univ, View.set_slice_whole, Rect.mem_set_unit]
  intro hm
  have h0 : o 0 ≤ row % 1024 ∧ row % 1024 < o 0 + h := hm (0 : Fin 2)
  rw [Nat.mod_eq_of_lt hrow] at h0
  omega

theorem aAt_load {h : ℕ} (o : Fin 2 → ℕ) (inb : ∀ a, o a + (![h, 1024] : Fin 2 → ℕ) a ≤ S1024x1024.size a) (ho : o 1 = 0)
    (f : (cc0_scratch2 : Ref sig .tc).ty.Contents (Elt F)) (r q : ℕ) (hr : r < h) (hq : q < 1024) :
    (aM.view.readAt (Elt F) (Rect.unit (s := S1024x1024) o ![h, 1024] inb).toLoadRect f) (ix2 ⟨r, hr⟩ ⟨q, hq⟩)
      = aAt f (o 0 + r) q := by
  unfold aAt
  rw [← unit2_emb o inb ho r q hr hq]
  rfl

/-- A slice of the gather buffer read as a view (the source of a gathered block). -/
theorem aAt_read {h : ℕ} (o : Fin 2 → ℕ) (inb : ∀ a, o a + (![h, 1024] : Fin 2 → ℕ) a ≤ S1024x1024.size a) (ho : o 1 = 0)
    (f : (cc0_scratch2 : Ref sig .tc).ty.Contents (Elt F)) (r q : ℕ) (hr : r < h) (hq : q < 1024) :
    (aM.access (Rect.unit (s := S1024x1024) o ![h, 1024] inb)).read (Elt F) f (ix2 ⟨r, hr⟩ ⟨q, hq⟩)
      = aAt f (o 0 + r) q := aAt_load o inb ho f r q hr hq

/-- A gathered block as it lands: the destination rows hold what the source rows held. -/
theorem aAt_landing {h : ℕ} (o : Fin 2 → ℕ) (inb : ∀ a, o a + (![h, 1024] : Fin 2 → ℕ) a ≤ S1024x1024.size a) (ho : o 1 = 0)
    (fd fs : (cc0_scratch2 : Ref sig .tc).ty.Contents (Elt F)) (r q : ℕ) (hr : r < h) (hq : q < 1024) :
    aAt ((aM.access (Rect.unit (s := S1024x1024) o ![h, 1024] inb)).write (Elt F) fd
        ((aM.access (Rect.unit (s := S1024x1024) o ![h, 1024] inb)).read (Elt F) fs) Finset.univ) (o 0 + r) q
      = aAt fs (o 0 + r) q := by
  rw [aAt_store o inb ho fd _ r q hr hq, aAt_read o inb ho fs r q hr hq]

/-! ## Rows of the send and receive buffers -/

/-- The send buffer read by natural coordinates, as the receive buffer is. -/
def sAt (f : (cc0_scratch0 : Ref sig .tc).ty.Contents (Elt F)) (b r q : ℕ) : F .bf16 :=
  f (ix3 ⟨b % 3, Nat.mod_lt _ (by decide)⟩ ⟨r % 384, Nat.mod_lt _ (by decide)⟩ ⟨q % 1024, Nat.mod_lt _ (by decide)⟩)

/-- Where a block of h whole rows of plane b, from row soff, puts its element (0, r, q). -/
theorem unit3_emb {b soff h : ℕ}
    (inb : ∀ a, (![b, soff, 0] : Fin 3 → ℕ) a + (![1, h, 1024] : Fin 3 → ℕ) a ≤ S3x384x1024.size a)
    (u : Fin 1) (r q : ℕ) (hr : r < h) (hq : q < 1024) :
    (Rect.unit (s := S3x384x1024) ![b, soff, 0] ![1, h, 1024] inb).emb (ix3 u ⟨r, hr⟩ ⟨q, hq⟩)
      = ix3 ⟨b % 3, Nat.mod_lt _ (by decide)⟩ ⟨(soff + r) % 384, Nat.mod_lt _ (by decide)⟩ ⟨q % 1024, Nat.mod_lt _ (by decide)⟩ := by
  have h0 : b + 1 ≤ 3 := inb 0
  have h1 : soff + h ≤ 384 := inb 1
  have hu : u.val = 0 := by omega
  funext a
  refine Fin.ext ?_
  match a with
  | ⟨0, _⟩ =>
    show b + 1 * u.val = b % 3
    rw [Nat.mod_eq_of_lt (by omega), hu]; omega
  | ⟨1, _⟩ =>
    show soff + 1 * r = (soff + r) % 384
    rw [Nat.mod_eq_of_lt (by omega)]; omega
  | ⟨2, _⟩ =>
    show 0 + 1 * q = q % 1024
    rw [Nat.mod_eq_of_lt hq]; omega

/-- A load of a slot's rows from the receive buffer reads them. -/
theorem rAt_load {b soff h : ℕ}
    (inb : ∀ a, (![b, soff, 0] : Fin 3 → ℕ) a + (![1, h, 1024] : Fin 3 → ℕ) a ≤ S3x384x1024.size a)
    (f : (cc0_scratch1 : Ref sig .tc).ty.Contents (Elt F)) (u : Fin 1) (r q : ℕ) (hr : r < h) (hq : q < 1024) :
    (rM.view.readAt (Elt F) (Rect.unit (s := S3x384x1024) ![b, soff, 0] ![1, h, 1024] inb).toLoadRect f) (ix3 u ⟨r, hr⟩ ⟨q, hq⟩)
      = rAt f b (soff + r) q := by
  unfold rAt
  rw [← unit3_emb inb u r q hr hq]
  rfl

/-- A store of a slot's rows into the send buffer: the rows hold the payload. -/
theorem sAt_store {b soff h : ℕ}
    (inb : ∀ a, (![b, soff, 0] : Fin 3 → ℕ) a + (![1, h, 1024] : Fin 3 → ℕ) a ≤ S3x384x1024.size a)
    (f : (cc0_scratch0 : Ref sig .tc).ty.Contents (Elt F)) (v : (⟨3, ![1, h, 1024]⟩ : Shape).Idx → F .bf16)
    (r q : ℕ) (hr : r < h) (hq : q < 1024) :
    sAt ((sM.access (Rect.unit (s := S3x384x1024) ![b, soff, 0] ![1, h, 1024] inb)).write (Elt F) f v Finset.univ) b (soff + r) q
      = v (ix3 0 ⟨r, hr⟩ ⟨q, hq⟩) := by
  unfold sAt
  rw [← unit3_emb inb 0 r q hr hq]
  exact View.write_emb_of_mem (v := sM.access (Rect.unit (s := S3x384x1024) ![b, soff, 0] ![1, h, 1024] inb)) f v (Finset.mem_univ _)

/-- A send slot as the copy's source reads the send buffer's rows, -/
theorem sSlot_read {b soff h : ℕ}
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩)
    (f : (cc0_scratch0 : Ref sig .tc).ty.Contents (Elt F)) (r q : ℕ) (hr : r < h) (hq : q < 1024) :
    ((sM.slice (Rect.unit (s := S3x384x1024) ![b, soff, 0] ![1, h, 1024] inb) (fun _ => rfl)).squeeze ⟨2, ![h, 1024]⟩ hsq).view.read (Elt F) f
        (ix2 ⟨r, hr⟩ ⟨q, hq⟩) = sAt f b (soff + r) q := by
  unfold sAt
  rw [← unit3_emb inb ⟨0, Nat.one_pos⟩ r q hr hq, ← reshapeEquiv_ix2_1ab hsq.numel_eq]
  rfl

/-- and a receive slot as its destination holds what lands. -/
theorem rSlot_write {b soff h : ℕ}
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩)
    (f : (cc0_scratch1 : Ref sig .tc).ty.Contents (Elt F)) (w : (⟨2, ![h, 1024]⟩ : Shape).Idx → F .bf16)
    (r q : ℕ) (hr : r < h) (hq : q < 1024) :
    rAt (((rM.slice (Rect.unit (s := S3x384x1024) ![b, soff, 0] ![1, h, 1024] inb) (fun _ => rfl)).squeeze ⟨2, ![h, 1024]⟩ hsq).view.write (Elt F) f w
        Finset.univ) b (soff + r) q = w (ix2 ⟨r, hr⟩ ⟨q, hq⟩) := by
  unfold rAt
  rw [← unit3_emb inb ⟨0, Nat.one_pos⟩ r q hr hq, ← reshapeEquiv_ix2_1ab hsq.numel_eq]
  exact View.write_emb_of_mem
    (v := ((rM.slice (Rect.unit (s := S3x384x1024) ![b, soff, 0] ![1, h, 1024] inb) (fun _ => rfl)).squeeze ⟨2, ![h, 1024]⟩ hsq).view)
    f w (Finset.mem_univ _)

theorem rSlot_read {b soff h : ℕ}
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩)
    (f : (cc0_scratch1 : Ref sig .tc).ty.Contents (Elt F)) (r q : ℕ) (hr : r < h) (hq : q < 1024) :
    ((rM.slice (Rect.unit (s := S3x384x1024) ![b, soff, 0] ![1, h, 1024] inb) (fun _ => rfl)).squeeze ⟨2, ![h, 1024]⟩ hsq).view.read (Elt F) f
        (ix2 ⟨r, hr⟩ ⟨q, hq⟩) = rAt f b (soff + r) q := by
  unfold rAt
  rw [← unit3_emb inb ⟨0, Nat.one_pos⟩ r q hr hq, ← reshapeEquiv_ix2_1ab hsq.numel_eq]
  rfl

/-- A block as it lands in a receive slot: the slot's rows hold what the sender's slot held. -/
theorem slot_landing {b soff h : ℕ}
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩)
    (fd : (cc0_scratch1 : Ref sig .tc).ty.Contents (Elt F)) (fs : (cc0_scratch0 : Ref sig .tc).ty.Contents (Elt F))
    (r q : ℕ) (hr : r < h) (hq : q < 1024) :
    rAt (((rM.slice (Rect.unit (s := S3x384x1024) ![b, soff, 0] ![1, h, 1024] inb) (fun _ => rfl)).squeeze ⟨2, ![h, 1024]⟩ hsq).view.write (Elt F) fd
        (((sM.slice (Rect.unit (s := S3x384x1024) ![b, soff, 0] ![1, h, 1024] inb) (fun _ => rfl)).squeeze ⟨2, ![h, 1024]⟩ hsq).view.read (Elt F) fs)
        Finset.univ) b (soff + r) q = sAt fs b (soff + r) q := by
  rw [rSlot_write inb hsq fd _ r q hr hq, sSlot_read inb hsq fs r q hr hq]

/-- The nine landings, slot by slot. -/
theorem landing00 (fd : (cc0_scratch1 : Ref sig .tc).ty.Contents (Elt F)) (fs : (cc0_scratch0 : Ref sig .tc).ty.Contents (Elt F))
    (r q : ℕ) (hr : r < 192) (hq : q < 1024) :
    rAt (rSlot00.view.write (Elt F) fd (sSlot00.view.read (Elt F) fs) Finset.univ) 0 (0 + r) q = sAt fs 0 (0 + r) q :=
  slot_landing _ _ fd fs r q hr hq
theorem landing10 (fd : (cc0_scratch1 : Ref sig .tc).ty.Contents (Elt F)) (fs : (cc0_scratch0 : Ref sig .tc).ty.Contents (Elt F))
    (r q : ℕ) (hr : r < 192) (hq : q < 1024) :
    rAt (rSlot10.view.write (Elt F) fd (sSlot10.view.read (Elt F) fs) Finset.univ) 1 (0 + r) q = sAt fs 1 (0 + r) q :=
  slot_landing _ _ fd fs r q hr hq
theorem landing20 (fd : (cc0_scratch1 : Ref sig .tc).ty.Contents (Elt F)) (fs : (cc0_scratch0 : Ref sig .tc).ty.Contents (Elt F))
    (r q : ℕ) (hr : r < 128) (hq : q < 1024) :
    rAt (rSlot20.view.write (Elt F) fd (sSlot20.view.read (Elt F) fs) Finset.univ) 2 (0 + r) q = sAt fs 2 (0 + r) q :=
  slot_landing _ _ fd fs r q hr hq
theorem landing01 (fd : (cc0_scratch1 : Ref sig .tc).ty.Contents (Elt F)) (fs : (cc0_scratch0 : Ref sig .tc).ty.Contents (Elt F))
    (r q : ℕ) (hr : r < 96) (hq : q < 1024) :
    rAt (rSlot01.view.write (Elt F) fd (sSlot01.view.read (Elt F) fs) Finset.univ) 0 (192 + r) q = sAt fs 0 (192 + r) q :=
  slot_landing _ _ fd fs r q hr hq
theorem landing11 (fd : (cc0_scratch1 : Ref sig .tc).ty.Contents (Elt F)) (fs : (cc0_scratch0 : Ref sig .tc).ty.Contents (Elt F))
    (r q : ℕ) (hr : r < 96) (hq : q < 1024) :
    rAt (rSlot11.view.write (Elt F) fd (sSlot11.view.read (Elt F) fs) Finset.univ) 1 (192 + r) q = sAt fs 1 (192 + r) q :=
  slot_landing _ _ fd fs r q hr hq
theorem landing21 (fd : (cc0_scratch1 : Ref sig .tc).ty.Contents (Elt F)) (fs : (cc0_scratch0 : Ref sig .tc).ty.Contents (Elt F))
    (r q : ℕ) (hr : r < 64) (hq : q < 1024) :
    rAt (rSlot21.view.write (Elt F) fd (sSlot21.view.read (Elt F) fs) Finset.univ) 2 (128 + r) q = sAt fs 2 (128 + r) q :=
  slot_landing _ _ fd fs r q hr hq
theorem landing02 (fd : (cc0_scratch1 : Ref sig .tc).ty.Contents (Elt F)) (fs : (cc0_scratch0 : Ref sig .tc).ty.Contents (Elt F))
    (r q : ℕ) (hr : r < 96) (hq : q < 1024) :
    rAt (rSlot02.view.write (Elt F) fd (sSlot02.view.read (Elt F) fs) Finset.univ) 0 (288 + r) q = sAt fs 0 (288 + r) q :=
  slot_landing _ _ fd fs r q hr hq
theorem landing12 (fd : (cc0_scratch1 : Ref sig .tc).ty.Contents (Elt F)) (fs : (cc0_scratch0 : Ref sig .tc).ty.Contents (Elt F))
    (r q : ℕ) (hr : r < 96) (hq : q < 1024) :
    rAt (rSlot12.view.write (Elt F) fd (sSlot12.view.read (Elt F) fs) Finset.univ) 1 (288 + r) q = sAt fs 1 (288 + r) q :=
  slot_landing _ _ fd fs r q hr hq
theorem landing22 (fd : (cc0_scratch1 : Ref sig .tc).ty.Contents (Elt F)) (fs : (cc0_scratch0 : Ref sig .tc).ty.Contents (Elt F))
    (r q : ℕ) (hr : r < 64) (hq : q < 1024) :
    rAt (rSlot22.view.write (Elt F) fd (sSlot22.view.read (Elt F) fs) Finset.univ) 2 (192 + r) q = sAt fs 2 (192 + r) q :=
  slot_landing _ _ fd fs r q hr hq

/-! ## Regions of the gather buffer -/

/-- The elements of a [1024, 1024] buffer in rows [o, o + h). -/
def aSet (o h : ℕ) : Finset S1024x1024.Idx := Finset.univ.filter fun i => o ≤ (i 0).val ∧ (i 0).val < o + h

theorem mem_aSet {o h : ℕ} {i : S1024x1024.Idx} : i ∈ aSet o h ↔ o ≤ (i 0).val ∧ (i 0).val < o + h := by
  simp only [aSet, Finset.mem_filter, Finset.mem_univ, true_and]

theorem unit2_set {h : ℕ} (o : Fin 2 → ℕ) (inb : ∀ a, o a + (![h, 1024] : Fin 2 → ℕ) a ≤ S1024x1024.size a) (ho : o 1 = 0) :
    (Rect.unit (s := S1024x1024) o ![h, 1024] inb).set = aSet (o 0) h := by
  ext i
  rw [Rect.mem_set_unit, mem_aSet]
  constructor
  · intro hm; exact hm 0
  · intro hm a
    match a with
    | ⟨0, _⟩ => exact hm
    | ⟨1, _⟩ =>
      show o 1 ≤ (i 1).val ∧ (i 1).val < o 1 + 1024
      rw [ho]; exact ⟨Nat.zero_le _, by have := idx2_lt1 i; omega⟩

theorem aSet_disjoint {o h o' h' : ℕ} (hd : o + h ≤ o' ∨ o' + h' ≤ o) : Disjoint (aSet o h) (aSet o' h') := by
  rw [Finset.disjoint_left]; intro i h1 h2; rw [mem_aSet] at h1 h2; omega

theorem aSet_univ : aSet 0 1024 = Finset.univ := by
  ext i; rw [mem_aSet]; simp only [Finset.mem_univ, iff_true]; exact ⟨Nat.zero_le _, by have := idx2_lt0 i; omega⟩

theorem aSet_half (Hh Qh H Q P : ℕ) (hh : Hh = Qh + Qh) (hQ : (Q = H ∧ P = H + Qh) ∨ (Q = H + Qh ∧ P = H)) :
    aSet H Hh = aSet Q Qh ∪ aSet P Qh := by
  ext i; simp only [Finset.mem_union, mem_aSet]; omega

/-- The element of row `row`, column `q` lies in a row range that holds the row. -/
theorem idx_mem_aSet {o h row q : ℕ} (h1 : o ≤ row) (h2 : row < o + h) (hb : o + h ≤ 1024) :
    (ix2 (⟨row % 1024, Nat.mod_lt _ (by decide)⟩ : Fin 1024) (⟨q % 1024, Nat.mod_lt _ (by decide)⟩ : Fin 1024)) ∈ aSet o h := by
  rw [mem_aSet]
  show o ≤ row % 1024 ∧ row % 1024 < o + h
  rw [Nat.mod_eq_of_lt (by omega)]; exact ⟨h1, h2⟩

theorem idx_not_mem_aSet {o h row q : ℕ} (hrow : row < 1024) (hm : row < o ∨ o + h ≤ row) :
    (ix2 (⟨row % 1024, Nat.mod_lt _ (by decide)⟩ : Fin 1024) (⟨q % 1024, Nat.mod_lt _ (by decide)⟩ : Fin 1024)) ∉ aSet o h := by
  rw [mem_aSet]
  show ¬ (o ≤ row % 1024 ∧ row % 1024 < o + h)
  rw [Nat.mod_eq_of_lt hrow]; omega

/-- The first row of the quarter device d keeps in butterfly b, and of the half it keeps, as the gather's slices name them. -/
abbrev qRow (b : Fin 3) (d : Dev nD) : ℕ :=
  match b with
  | 0 => (k0_off5 d 0#32 3#32 1#32) 0 | 1 => (k0_off5 d 384#32 4#32 3#32) 0 | 2 => (k0_off6 d) 0
abbrev hRow (b : Fin 3) (d : Dev nD) : ℕ :=
  match b with
  | 0 => (k0_off7 d 0#32 3#32 1#32) 0 | 1 => (k0_off7 d 384#32 4#32 3#32) 0 | 2 => (k0_off8 d) 0

theorem qRow_eq_K1 (b : Fin 3) (d : Dev nD) : qRow b d = K1 b d := by
  match b with
  | 0 => exact congrFun (Rows.ag1_own_b0 d) 0
  | 1 => exact congrFun (Rows.ag1_own_b1 d) 0
  | 2 => exact congrFun (Rows.ag1_own_b2 d) 0
theorem hRow_eq_K0 (b : Fin 3) (d : Dev nD) : hRow b d = K0 b d := by
  match b with
  | 0 => exact congrFun (Rows.ag0_own_b0 d) 0
  | 1 => exact congrFun (Rows.ag0_own_b1 d) 0
  | 2 => exact congrFun (Rows.ag0_own_b2 d) 0

/-- Per butterfly: the own half and the other half are the two halves of the range, the own quarter and the
    partner's quarter the two halves of the own half. -/
theorem rows_all (c : Dev nD) :
    ((hRow 0 c = 0 ∧ hRow 0 (Mesh.px 3 c) = 192) ∨ (hRow 0 c = 192 ∧ hRow 0 (Mesh.px 3 c) = 0))
    ∧ ((qRow 0 c = hRow 0 c ∧ qRow 0 (Mesh.px 1 c) = hRow 0 c + 96) ∨ (qRow 0 c = hRow 0 c + 96 ∧ qRow 0 (Mesh.px 1 c) = hRow 0 c))
    ∧ ((hRow 1 c = 384 ∧ hRow 1 (Mesh.px 4 c) = 576) ∨ (hRow 1 c = 576 ∧ hRow 1 (Mesh.px 4 c) = 384))
    ∧ ((qRow 1 c = hRow 1 c ∧ qRow 1 (Mesh.px 3 c) = hRow 1 c + 96) ∨ (qRow 1 c = hRow 1 c + 96 ∧ qRow 1 (Mesh.px 3 c) = hRow 1 c))
    ∧ ((hRow 2 c = 768 ∧ hRow 2 (Mesh.px 1 c) = 896) ∨ (hRow 2 c = 896 ∧ hRow 2 (Mesh.px 1 c) = 768))
    ∧ ((qRow 2 c = hRow 2 c ∧ qRow 2 (Mesh.px 4 c) = hRow 2 c + 64) ∨ (qRow 2 c = hRow 2 c + 64 ∧ qRow 2 (Mesh.px 4 c) = hRow 2 c)) := by
  revert c; decide +kernel

theorem aRows01_set (d : Dev nD) : (aRows01 d).view.set = aSet (qRow 0 d) 96 := by
  simp only [Memref.view_slice, Memref.view_whole, View.set_slice_whole]
  exact unit2_set _ _ (by rw [Mesh.off5_a]; rfl)
theorem aRows11_set (d : Dev nD) : (aRows11 d).view.set = aSet (qRow 1 d) 96 := by
  simp only [Memref.view_slice, Memref.view_whole, View.set_slice_whole]
  exact unit2_set _ _ (by rw [Mesh.off5_b]; rfl)
theorem aRows21_set (d : Dev nD) : (aRows21 d).view.set = aSet (qRow 2 d) 64 := by
  simp only [Memref.view_slice, Memref.view_whole, View.set_slice_whole]
  exact unit2_set _ _ (by rw [Mesh.off6]; rfl)
theorem aRows00_set (d : Dev nD) : (aRows00 d).view.set = aSet (hRow 0 d) 192 := by
  simp only [Memref.view_slice, Memref.view_whole, View.set_slice_whole]
  exact unit2_set _ _ (by rw [Mesh.off7_a]; rfl)
theorem aRows10_set (d : Dev nD) : (aRows10 d).view.set = aSet (hRow 1 d) 192 := by
  simp only [Memref.view_slice, Memref.view_whole, View.set_slice_whole]
  exact unit2_set _ _ (by rw [Mesh.off7_b]; rfl)
theorem aRows20_set (d : Dev nD) : (aRows20 d).view.set = aSet (hRow 2 d) 128 := by
  simp only [Memref.view_slice, Memref.view_whole, View.set_slice_whole]
  exact unit2_set _ _ (by rw [Mesh.off8]; rfl)

/-- Row ranges named by their first rows are disjoint when the arithmetic in the context says so. -/
local macro "adisj" : tactic =>
  `(tactic| (rw [Finset.disjoint_left]; intro i h1 h2; simp only [Finset.mem_union, mem_aSet] at h1 h2; omega))

/-- The nine regions of the gather buffer, as they tile it. -/
theorem aSet_tiling (c : Dev nD) :
    aSet 0 1024 = aSet (qRow 0 c) 96 ∪ (aSet (qRow 1 c) 96 ∪ (aSet (qRow 2 c) 64 ∪ (aSet (qRow 0 (Mesh.px 1 c)) 96
      ∪ (aSet (qRow 1 (Mesh.px 3 c)) 96 ∪ (aSet (qRow 2 (Mesh.px 4 c)) 64 ∪ (aSet (hRow 0 (Mesh.px 3 c)) 192
      ∪ (aSet (hRow 1 (Mesh.px 4 c)) 192 ∪ aSet (hRow 2 (Mesh.px 1 c)) 128))))))) := by
  obtain ⟨hH0, hQ0, hH1, hQ1, hH2, hQ2⟩ := rows_all c
  ext i; simp only [Finset.mem_union, mem_aSet]; have := idx2_lt0 i; omega

/-- The whole gather buffer is its nine regions: per butterfly the own quarter, the partner's quarter, the other half. -/
theorem abuf_split (c : Dev nD) (q : PosShare TreeShare) (f : Buf (Elt F) ((c : Thread nD τ).loc cc0_scratch2)) :
    ((((c : Thread nD τ).loc cc0_scratch2) ↦{q} f) : sProp 𝕄) ⊣⊢
      iprop(((aRows01 c).view.loc (c : Thread nD τ) ↦[(aRows01 c).view.set]{q} f)
        ∗ ((aRows11 c).view.loc (c : Thread nD τ) ↦[(aRows11 c).view.set]{q} f)
        ∗ ((aRows21 c).view.loc (c : Thread nD τ) ↦[(aRows21 c).view.set]{q} f)
        ∗ ((aRows01 (Mesh.px 1 c)).view.loc (c : Thread nD τ) ↦[(aRows01 (Mesh.px 1 c)).view.set]{q} f)
        ∗ ((aRows11 (Mesh.px 3 c)).view.loc (c : Thread nD τ) ↦[(aRows11 (Mesh.px 3 c)).view.set]{q} f)
        ∗ ((aRows21 (Mesh.px 4 c)).view.loc (c : Thread nD τ) ↦[(aRows21 (Mesh.px 4 c)).view.set]{q} f)
        ∗ ((aRows00 (Mesh.px 3 c)).view.loc (c : Thread nD τ) ↦[(aRows00 (Mesh.px 3 c)).view.set]{q} f)
        ∗ ((aRows10 (Mesh.px 4 c)).view.loc (c : Thread nD τ) ↦[(aRows10 (Mesh.px 4 c)).view.set]{q} f)
        ∗ ((aRows20 (Mesh.px 1 c)).view.loc (c : Thread nD τ) ↦[(aRows20 (Mesh.px 1 c)).view.set]{q} f)) := by
  obtain ⟨hH0, hQ0, hH1, hQ1, hH2, hQ2⟩ := rows_all c
  rw [aRows01_set, aRows11_set, aRows21_set, aRows01_set, aRows11_set, aRows21_set, aRows00_set, aRows10_set, aRows20_set]
  have h0 : ((((c : Thread nD τ).loc cc0_scratch2) ↦{q} f) : sProp 𝕄)
      = (((c : Thread nD τ).loc cc0_scratch2) ↦[aSet 0 1024]{q} f) := by rw [aSet_univ]
  rw [h0, aSet_tiling c]
  exact pt_cons (by adisj) (pt_cons (by adisj) (pt_cons (by adisj) (pt_cons (by adisj) (pt_cons (by adisj)
    (pt_cons (by adisj) (pt_cons (by adisj) (pt_cons (by adisj) (bi_refl _))))))))

/-- Nine regions at their own contents are the whole buffer at some contents. -/
theorem abuf_join (c : Dev nD) (q : PosShare TreeShare) (f1 f2 f3 f4 f5 f6 f7 f8 f9 : Buf (Elt F) ((c : Thread nD τ).loc cc0_scratch2)) :
    iprop(((aRows01 c).view.loc (c : Thread nD τ) ↦[(aRows01 c).view.set]{q} f1)
        ∗ ((aRows11 c).view.loc (c : Thread nD τ) ↦[(aRows11 c).view.set]{q} f2)
        ∗ ((aRows21 c).view.loc (c : Thread nD τ) ↦[(aRows21 c).view.set]{q} f3)
        ∗ ((aRows01 (Mesh.px 1 c)).view.loc (c : Thread nD τ) ↦[(aRows01 (Mesh.px 1 c)).view.set]{q} f4)
        ∗ ((aRows11 (Mesh.px 3 c)).view.loc (c : Thread nD τ) ↦[(aRows11 (Mesh.px 3 c)).view.set]{q} f5)
        ∗ ((aRows21 (Mesh.px 4 c)).view.loc (c : Thread nD τ) ↦[(aRows21 (Mesh.px 4 c)).view.set]{q} f6)
        ∗ ((aRows00 (Mesh.px 3 c)).view.loc (c : Thread nD τ) ↦[(aRows00 (Mesh.px 3 c)).view.set]{q} f7)
        ∗ ((aRows10 (Mesh.px 4 c)).view.loc (c : Thread nD τ) ↦[(aRows10 (Mesh.px 4 c)).view.set]{q} f8)
        ∗ ((aRows20 (Mesh.px 1 c)).view.loc (c : Thread nD τ) ↦[(aRows20 (Mesh.px 1 c)).view.set]{q} f9))
      ⊢ (iprop(∃ f, ((c : Thread nD τ).loc cc0_scratch2) ↦{q} f) : sProp 𝕄) := by
  obtain ⟨hH0, hQ0, hH1, hQ1, hH2, hQ2⟩ := rows_all c
  rw [aRows01_set, aRows11_set, aRows21_set, aRows01_set, aRows11_set, aRows21_set, aRows00_set, aRows10_set, aRows20_set]
  have h9 := pt_ex (F := F) (ℓ := (c : Thread nD τ).loc cc0_scratch2) (q := q) (A := aSet (hRow 2 (Mesh.px 1 c)) 128) f9
  have h8 := pt_join_ex (ℓ := (c : Thread nD τ).loc cc0_scratch2) (A := aSet (hRow 1 (Mesh.px 4 c)) 192) (by adisj) f8 h9
  have h7 := pt_join_ex (ℓ := (c : Thread nD τ).loc cc0_scratch2) (A := aSet (hRow 0 (Mesh.px 3 c)) 192) (by adisj) f7 h8
  have h6 := pt_join_ex (ℓ := (c : Thread nD τ).loc cc0_scratch2) (A := aSet (qRow 2 (Mesh.px 4 c)) 64) (by adisj) f6 h7
  have h5 := pt_join_ex (ℓ := (c : Thread nD τ).loc cc0_scratch2) (A := aSet (qRow 1 (Mesh.px 3 c)) 96) (by adisj) f5 h6
  have h4 := pt_join_ex (ℓ := (c : Thread nD τ).loc cc0_scratch2) (A := aSet (qRow 0 (Mesh.px 1 c)) 96) (by adisj) f4 h5
  have h3 := pt_join_ex (ℓ := (c : Thread nD τ).loc cc0_scratch2) (A := aSet (qRow 2 c) 64) (by adisj) f3 h4
  have h2 := pt_join_ex (ℓ := (c : Thread nD τ).loc cc0_scratch2) (A := aSet (qRow 1 c) 96) (by adisj) f2 h3
  have h1 := pt_join_ex (ℓ := (c : Thread nD τ).loc cc0_scratch2) (A := aSet (qRow 0 c) 96) (by adisj) f1 h2
  rw [← aSet_tiling c, aSet_univ] at h1
  exact h1

/-! ## A kept half is the own quarter and the landed quarter -/

theorem aHalf_split_b0 (c : Dev nD) (q : PosShare TreeShare) (f : Buf (Elt F) ((c : Thread nD τ).loc cc0_scratch2)) :
    (((aRows00 c).view.loc (c : Thread nD τ) ↦[(aRows00 c).view.set]{q} f) : sProp 𝕄) ⊣⊢
      iprop(((aRows01 c).view.loc (c : Thread nD τ) ↦[(aRows01 c).view.set]{q} f)
        ∗ ((aRows01 (Mesh.px 1 c)).view.loc (c : Thread nD τ) ↦[(aRows01 (Mesh.px 1 c)).view.set]{q} f)) := by
  obtain ⟨hH0, hQ0, hH1, hQ1, hH2, hQ2⟩ := rows_all c
  rw [aRows01_set, aRows01_set, aRows00_set, aSet_half 192 96 _ _ _ rfl hQ0]
  exact pointsTo_union (ℓ := (c : Thread nD τ).loc cc0_scratch2) (aSet_disjoint (by omega))
theorem aHalf_split_b1 (c : Dev nD) (q : PosShare TreeShare) (f : Buf (Elt F) ((c : Thread nD τ).loc cc0_scratch2)) :
    (((aRows10 c).view.loc (c : Thread nD τ) ↦[(aRows10 c).view.set]{q} f) : sProp 𝕄) ⊣⊢
      iprop(((aRows11 c).view.loc (c : Thread nD τ) ↦[(aRows11 c).view.set]{q} f)
        ∗ ((aRows11 (Mesh.px 3 c)).view.loc (c : Thread nD τ) ↦[(aRows11 (Mesh.px 3 c)).view.set]{q} f)) := by
  obtain ⟨hH0, hQ0, hH1, hQ1, hH2, hQ2⟩ := rows_all c
  rw [aRows11_set, aRows11_set, aRows10_set, aSet_half 192 96 _ _ _ rfl hQ1]
  exact pointsTo_union (ℓ := (c : Thread nD τ).loc cc0_scratch2) (aSet_disjoint (by omega))
theorem aHalf_split_b2 (c : Dev nD) (q : PosShare TreeShare) (f : Buf (Elt F) ((c : Thread nD τ).loc cc0_scratch2)) :
    (((aRows20 c).view.loc (c : Thread nD τ) ↦[(aRows20 c).view.set]{q} f) : sProp 𝕄) ⊣⊢
      iprop(((aRows21 c).view.loc (c : Thread nD τ) ↦[(aRows21 c).view.set]{q} f)
        ∗ ((aRows21 (Mesh.px 4 c)).view.loc (c : Thread nD τ) ↦[(aRows21 (Mesh.px 4 c)).view.set]{q} f)) := by
  obtain ⟨hH0, hQ0, hH1, hQ1, hH2, hQ2⟩ := rows_all c
  rw [aRows21_set, aRows21_set, aRows20_set, aSet_half 128 64 _ _ _ rfl hQ2]
  exact pointsTo_union (ℓ := (c : Thread nD τ).loc cc0_scratch2) (aSet_disjoint (by omega))

/-- Two disjoint row ranges at their own contents are their union at contents that read as each on its rows. -/
theorem aSet_merge (c : Dev nD) (q : PosShare TreeShare) (f1 f2 : Buf (Elt F) ((c : Thread nD τ).loc cc0_scratch2))
    (Q P Qh : ℕ) (hd : Q + Qh ≤ P ∨ P + Qh ≤ Q) (hb : Q + Qh ≤ 1024) (hb' : P + Qh ≤ 1024) :
    iprop((((c : Thread nD τ).loc cc0_scratch2) ↦[aSet Q Qh]{q} f1) ∗ (((c : Thread nD τ).loc cc0_scratch2) ↦[aSet P Qh]{q} f2))
      ⊢ (iprop(∃ g, (((c : Thread nD τ).loc cc0_scratch2) ↦[aSet Q Qh ∪ aSet P Qh]{q} g)
          ∗ ⌜(∀ r q' : ℕ, r < Qh → q' < 1024 → aAt g (Q + r) q' = aAt f1 (Q + r) q')
            ∧ (∀ r q' : ℕ, r < Qh → q' < 1024 → aAt g (P + r) q' = aAt f2 (P + r) q')⌝) : sProp 𝕄) := by
  iintro H
  iexists ((aSet P Qh).piecewise f2 f1)
  isplitl [H]
  · iapply (pointsTo_join (aSet_disjoint hd))
    iexact H
  · ipureintro
    constructor
    · intro r q' hr hq'
      unfold aAt
      exact Finset.piecewise_eq_of_notMem _ _ _ (idx_not_mem_aSet (by omega) (by omega))
    · intro r q' hr hq'
      unfold aAt
      exact Finset.piecewise_eq_of_mem _ _ _ (idx_mem_aSet (by omega) (by omega) hb')

theorem aHalf_merge_b0 (c : Dev nD) (q : PosShare TreeShare) (f1 f2 : Buf (Elt F) ((c : Thread nD τ).loc cc0_scratch2)) :
    iprop(((aRows01 c).view.loc (c : Thread nD τ) ↦[(aRows01 c).view.set]{q} f1)
        ∗ ((aRows01 (Mesh.px 1 c)).view.loc (c : Thread nD τ) ↦[(aRows01 (Mesh.px 1 c)).view.set]{q} f2))
      ⊢ (iprop(∃ g, ((aRows00 c).view.loc (c : Thread nD τ) ↦[(aRows00 c).view.set]{q} g)
          ∗ ⌜(∀ r q' : ℕ, r < 96 → q' < 1024 → aAt g (qRow 0 c + r) q' = aAt f1 (qRow 0 c + r) q')
            ∧ (∀ r q' : ℕ, r < 96 → q' < 1024 → aAt g (qRow 0 (Mesh.px 1 c) + r) q' = aAt f2 (qRow 0 (Mesh.px 1 c) + r) q')⌝) : sProp 𝕄) := by
  obtain ⟨hH0, hQ0, hH1, hQ1, hH2, hQ2⟩ := rows_all c
  rw [aRows01_set, aRows01_set, aRows00_set, aSet_half 192 96 _ _ _ rfl hQ0]
  exact aSet_merge c q f1 f2 _ _ 96 (by omega) (by omega) (by omega)
theorem aHalf_merge_b1 (c : Dev nD) (q : PosShare TreeShare) (f1 f2 : Buf (Elt F) ((c : Thread nD τ).loc cc0_scratch2)) :
    iprop(((aRows11 c).view.loc (c : Thread nD τ) ↦[(aRows11 c).view.set]{q} f1)
        ∗ ((aRows11 (Mesh.px 3 c)).view.loc (c : Thread nD τ) ↦[(aRows11 (Mesh.px 3 c)).view.set]{q} f2))
      ⊢ (iprop(∃ g, ((aRows10 c).view.loc (c : Thread nD τ) ↦[(aRows10 c).view.set]{q} g)
          ∗ ⌜(∀ r q' : ℕ, r < 96 → q' < 1024 → aAt g (qRow 1 c + r) q' = aAt f1 (qRow 1 c + r) q')
            ∧ (∀ r q' : ℕ, r < 96 → q' < 1024 → aAt g (qRow 1 (Mesh.px 3 c) + r) q' = aAt f2 (qRow 1 (Mesh.px 3 c) + r) q')⌝) : sProp 𝕄) := by
  obtain ⟨hH0, hQ0, hH1, hQ1, hH2, hQ2⟩ := rows_all c
  rw [aRows11_set, aRows11_set, aRows10_set, aSet_half 192 96 _ _ _ rfl hQ1]
  exact aSet_merge c q f1 f2 _ _ 96 (by omega) (by omega) (by omega)
theorem aHalf_merge_b2 (c : Dev nD) (q : PosShare TreeShare) (f1 f2 : Buf (Elt F) ((c : Thread nD τ).loc cc0_scratch2)) :
    iprop(((aRows21 c).view.loc (c : Thread nD τ) ↦[(aRows21 c).view.set]{q} f1)
        ∗ ((aRows21 (Mesh.px 4 c)).view.loc (c : Thread nD τ) ↦[(aRows21 (Mesh.px 4 c)).view.set]{q} f2))
      ⊢ (iprop(∃ g, ((aRows20 c).view.loc (c : Thread nD τ) ↦[(aRows20 c).view.set]{q} g)
          ∗ ⌜(∀ r q' : ℕ, r < 64 → q' < 1024 → aAt g (qRow 2 c + r) q' = aAt f1 (qRow 2 c + r) q')
            ∧ (∀ r q' : ℕ, r < 64 → q' < 1024 → aAt g (qRow 2 (Mesh.px 4 c) + r) q' = aAt f2 (qRow 2 (Mesh.px 4 c) + r) q')⌝) : sProp 𝕄) := by
  obtain ⟨hH0, hQ0, hH1, hQ1, hH2, hQ2⟩ := rows_all c
  rw [aRows21_set, aRows21_set, aRows20_set, aSet_half 128 64 _ _ _ rfl hQ2]
  exact aSet_merge c q f1 f2 _ _ 64 (by omega) (by omega) (by omega)

/-! ## What a store or a load through the whole gather buffer touches: the slice of the same rows -/

/-- The rows a store or load at the kept quarter's offset touches are the device's own quarter; -/
theorem aacc_q0 (c : Dev nD) : (aM.access (Rect.unit (s := S1024x1024) (k0_off3 c 0#32 3#32 1#32 96#32 0#32) S96x1024.size (k0_off3_inb c 2))).set
    = (aRows01 c).view.set := by
  rw [aRows01_set]
  exact (View.set_slice_whole _ _).trans ((unit2_set _ _ (by rw [Mesh.off3_c]; rfl)).trans (congrArg (fun o => aSet o 96) (qRow_eq_K1 0 c).symm))
theorem aacc_q1 (c : Dev nD) : (aM.access (Rect.unit (s := S1024x1024) (k0_off3 c 384#32 4#32 3#32 96#32 0#32) S96x1024.size (k0_off3_inb c 3))).set
    = (aRows11 c).view.set := by
  rw [aRows11_set]
  exact (View.set_slice_whole _ _).trans ((unit2_set _ _ (by rw [Mesh.off3_d]; rfl)).trans (congrArg (fun o => aSet o 96) (qRow_eq_K1 1 c).symm))
theorem aacc_q2 (c : Dev nD) : (aM.access (Rect.unit (s := S1024x1024) (k0_off4 c 64#32 0#32) S64x1024.size (k0_off4_inb c 1))).set
    = (aRows21 c).view.set := by
  rw [aRows21_set]
  exact (View.set_slice_whole _ _).trans ((unit2_set _ _ (by rw [Mesh.off4_b]; rfl)).trans (congrArg (fun o => aSet o 64) (qRow_eq_K1 2 c).symm))
/-- at the kept half's offset, the device's own half; -/
theorem aacc_h0 (c : Dev nD) : (aM.access (Rect.unit (s := S1024x1024) (k0_off9 c 0#32 3#32 1#32) S192x1024.size (k0_off9_inb c 0))).set
    = (aRows00 c).view.set := by
  rw [aRows00_set]
  exact (View.set_slice_whole _ _).trans ((unit2_set _ _ (by rw [Mesh.off9_a]; rfl)).trans (congrArg (fun o => aSet o 192) (congrFun (Rows.ag0_read_b0 c) 0)))
theorem aacc_h1 (c : Dev nD) : (aM.access (Rect.unit (s := S1024x1024) (k0_off9 c 384#32 4#32 3#32) S192x1024.size (k0_off9_inb c 1))).set
    = (aRows10 c).view.set := by
  rw [aRows10_set]
  exact (View.set_slice_whole _ _).trans ((unit2_set _ _ (by rw [Mesh.off9_b]; rfl)).trans (congrArg (fun o => aSet o 192) (congrFun (Rows.ag0_read_b1 c) 0)))
theorem aacc_h2 (c : Dev nD) : (aM.access (Rect.unit (s := S1024x1024) (k0_off10 c) S128x1024.size (k0_off10_inb c))).set
    = (aRows20 c).view.set := by
  rw [aRows20_set]
  exact (View.set_slice_whole _ _).trans ((unit2_set _ _ (by rw [Mesh.off10]; rfl)).trans (congrArg (fun o => aSet o 128) (congrFun (Rows.ag0_read_b2 c) 0)))
/-- at the other half's offset, the half the stage-0 partner gathers in. -/
theorem aacc_o0 (c : Dev nD) : (aM.access (Rect.unit (s := S1024x1024) (k0_off11 c 0#32 3#32 1#32) S192x1024.size (k0_off11_inb c 0))).set
    = (aRows00 (Mesh.px 3 c)).view.set := by
  rw [aRows00_set]
  exact (View.set_slice_whole _ _).trans ((unit2_set _ _ (by rw [Mesh.off11_a]; rfl)).trans (congrArg (fun o => aSet o 192) (congrFun (Rows.ag0_recv_b0 c) 0)))
theorem aacc_o1 (c : Dev nD) : (aM.access (Rect.unit (s := S1024x1024) (k0_off11 c 384#32 4#32 3#32) S192x1024.size (k0_off11_inb c 1))).set
    = (aRows10 (Mesh.px 4 c)).view.set := by
  rw [aRows10_set]
  exact (View.set_slice_whole _ _).trans ((unit2_set _ _ (by rw [Mesh.off11_b]; rfl)).trans (congrArg (fun o => aSet o 192) (congrFun (Rows.ag0_recv_b1 c) 0)))
theorem aacc_o2 (c : Dev nD) : (aM.access (Rect.unit (s := S1024x1024) (k0_off12 c) S128x1024.size (k0_off12_inb c))).set
    = (aRows20 (Mesh.px 1 c)).view.set := by
  rw [aRows20_set]
  exact (View.set_slice_whole _ _).trans ((unit2_set _ _ (by rw [Mesh.off12]; rfl)).trans (congrArg (fun o => aSet o 128) (congrFun (Rows.ag0_recv_b2 c) 0)))

/-! ## Regions of the send and the receive buffer -/

/-- The elements of a [3, 384, 1024] buffer in plane b, rows [o, o + h). -/
def sSet (b o h : ℕ) : Finset S3x384x1024.Idx :=
  Finset.univ.filter fun i => (i 0).val = b ∧ o ≤ (i 1).val ∧ (i 1).val < o + h

theorem mem_sSet {b o h : ℕ} {i : S3x384x1024.Idx} : i ∈ sSet b o h ↔ (i 0).val = b ∧ o ≤ (i 1).val ∧ (i 1).val < o + h := by
  simp only [sSet, Finset.mem_filter, Finset.mem_univ, true_and]

theorem unit3_set {b soff h : ℕ}
    (inb : ∀ a, (![b, soff, 0] : Fin 3 → ℕ) a + (![1, h, 1024] : Fin 3 → ℕ) a ≤ S3x384x1024.size a) :
    (Rect.unit (s := S3x384x1024) ![b, soff, 0] ![1, h, 1024] inb).set = sSet b soff h := by
  ext i
  rw [Rect.mem_set_unit, mem_sSet]
  constructor
  · intro hm
    have h0 : b ≤ (i 0).val ∧ (i 0).val < b + 1 := hm 0
    have h1 : soff ≤ (i 1).val ∧ (i 1).val < soff + h := hm 1
    omega
  · intro hm a
    match a with
    | ⟨0, _⟩ =>
      show b ≤ (i 0).val ∧ (i 0).val < b + 1
      omega
    | ⟨1, _⟩ =>
      show soff ≤ (i 1).val ∧ (i 1).val < soff + h
      omega
    | ⟨2, _⟩ =>
      show 0 ≤ (i 2).val ∧ (i 2).val < 0 + 1024
      have : (i 2).val < 1024 := (i 2).isLt
      omega

/-- A slot's elements are those its rectangle of the whole buffer touches. -/
theorem slot_set_eq (M : Memref sig .tc .vmem S3x384x1024 .bf16) (r : Rect S3x384x1024) (hr : ∀ a, r.stride a = 1) (s' : Shape)
    (hsq : r.shape.Squeezes s') : ((M.slice r hr).squeeze s' hsq).view.set = (M.access r).set := View.set_reshape _ _

/-- What the nine slots leave of their buffer: the last rows of plane 2. -/
def slotRest : Finset S3x384x1024.Idx := sSet 2 256 128

local macro "slot_set" : tactic =>
  `(tactic| (simp only [Memref.view_squeeze, Memref.view_slice, Memref.view_whole, View.set_reshape, View.set_slice_whole]; exact unit3_set _))

theorem rSlot00_set : rSlot00.view.set = sSet 0 0 192 := by slot_set
theorem rSlot01_set : rSlot01.view.set = sSet 0 192 96 := by slot_set
theorem rSlot02_set : rSlot02.view.set = sSet 0 288 96 := by slot_set
theorem rSlot10_set : rSlot10.view.set = sSet 1 0 192 := by slot_set
theorem rSlot11_set : rSlot11.view.set = sSet 1 192 96 := by slot_set
theorem rSlot12_set : rSlot12.view.set = sSet 1 288 96 := by slot_set
theorem rSlot20_set : rSlot20.view.set = sSet 2 0 128 := by slot_set
theorem rSlot21_set : rSlot21.view.set = sSet 2 128 64 := by slot_set
theorem rSlot22_set : rSlot22.view.set = sSet 2 192 64 := by slot_set
theorem sSlot00_set : sSlot00.view.set = sSet 0 0 192 := by slot_set
theorem sSlot01_set : sSlot01.view.set = sSet 0 192 96 := by slot_set
theorem sSlot02_set : sSlot02.view.set = sSet 0 288 96 := by slot_set
theorem sSlot10_set : sSlot10.view.set = sSet 1 0 192 := by slot_set
theorem sSlot11_set : sSlot11.view.set = sSet 1 192 96 := by slot_set
theorem sSlot12_set : sSlot12.view.set = sSet 1 288 96 := by slot_set
theorem sSlot20_set : sSlot20.view.set = sSet 2 0 128 := by slot_set
theorem sSlot21_set : sSlot21.view.set = sSet 2 128 64 := by slot_set
theorem sSlot22_set : sSlot22.view.set = sSet 2 192 64 := by slot_set

/-- The nine slots and the rest tile the buffer. -/
theorem sSet_tiling :
    (Finset.univ : Finset S3x384x1024.Idx) = sSet 0 0 192 ∪ (sSet 0 192 96 ∪ (sSet 0 288 96 ∪ (sSet 1 0 192 ∪ (sSet 1 192 96
      ∪ (sSet 1 288 96 ∪ (sSet 2 0 128 ∪ (sSet 2 128 64 ∪ (sSet 2 192 64 ∪ slotRest)))))))) := by
  ext i
  simp only [Finset.mem_union, mem_sSet, slotRest, Finset.mem_univ, true_iff]
  have h0 : (i 0).val < 3 := (i 0).isLt
  have h1 : (i 1).val < 384 := (i 1).isLt
  omega

local macro "sdisj" : tactic =>
  `(tactic| (rw [Finset.disjoint_left]; intro i h1 h2; simp only [Finset.mem_union, mem_sSet, slotRest] at h1 h2; omega))

/-- The receive buffer is its nine slots and the rest. -/
theorem rbuf_split (c : Dev nD) (q : PosShare TreeShare) (f : Buf (Elt F) ((c : Thread nD τ).loc cc0_scratch1)) :
    ((((c : Thread nD τ).loc cc0_scratch1) ↦{q} f) : sProp 𝕄) ⊣⊢
      iprop((rSlot00.view.loc (c : Thread nD τ) ↦[rSlot00.view.set]{q} f)
        ∗ (rSlot01.view.loc (c : Thread nD τ) ↦[rSlot01.view.set]{q} f)
        ∗ (rSlot02.view.loc (c : Thread nD τ) ↦[rSlot02.view.set]{q} f)
        ∗ (rSlot10.view.loc (c : Thread nD τ) ↦[rSlot10.view.set]{q} f)
        ∗ (rSlot11.view.loc (c : Thread nD τ) ↦[rSlot11.view.set]{q} f)
        ∗ (rSlot12.view.loc (c : Thread nD τ) ↦[rSlot12.view.set]{q} f)
        ∗ (rSlot20.view.loc (c : Thread nD τ) ↦[rSlot20.view.set]{q} f)
        ∗ (rSlot21.view.loc (c : Thread nD τ) ↦[rSlot21.view.set]{q} f)
        ∗ (rSlot22.view.loc (c : Thread nD τ) ↦[rSlot22.view.set]{q} f)
        ∗ (((c : Thread nD τ).loc cc0_scratch1) ↦[slotRest]{q} f)) := by
  rw [rSlot00_set, rSlot01_set, rSlot02_set, rSlot10_set, rSlot11_set, rSlot12_set, rSlot20_set, rSlot21_set, rSlot22_set]
  have h0 : ((((c : Thread nD τ).loc cc0_scratch1) ↦{q} f) : sProp 𝕄)
      = (((c : Thread nD τ).loc cc0_scratch1) ↦[(Finset.univ : Finset S3x384x1024.Idx)]{q} f) := rfl
  rw [h0, sSet_tiling]
  exact pt_cons (by sdisj) (pt_cons (by sdisj) (pt_cons (by sdisj) (pt_cons (by sdisj) (pt_cons (by sdisj)
    (pt_cons (by sdisj) (pt_cons (by sdisj) (pt_cons (by sdisj) (pt_cons (by sdisj) (bi_refl _)))))))))

/-- The send buffer likewise. -/
theorem sbuf_split (c : Dev nD) (q : PosShare TreeShare) (f : Buf (Elt F) ((c : Thread nD τ).loc cc0_scratch0)) :
    ((((c : Thread nD τ).loc cc0_scratch0) ↦{q} f) : sProp 𝕄) ⊣⊢
      iprop((sSlot00.view.loc (c : Thread nD τ) ↦[sSlot00.view.set]{q} f)
        ∗ (sSlot01.view.loc (c : Thread nD τ) ↦[sSlot01.view.set]{q} f)
        ∗ (sSlot02.view.loc (c : Thread nD τ) ↦[sSlot02.view.set]{q} f)
        ∗ (sSlot10.view.loc (c : Thread nD τ) ↦[sSlot10.view.set]{q} f)
        ∗ (sSlot11.view.loc (c : Thread nD τ) ↦[sSlot11.view.set]{q} f)
        ∗ (sSlot12.view.loc (c : Thread nD τ) ↦[sSlot12.view.set]{q} f)
        ∗ (sSlot20.view.loc (c : Thread nD τ) ↦[sSlot20.view.set]{q} f)
        ∗ (sSlot21.view.loc (c : Thread nD τ) ↦[sSlot21.view.set]{q} f)
        ∗ (sSlot22.view.loc (c : Thread nD τ) ↦[sSlot22.view.set]{q} f)
        ∗ (((c : Thread nD τ).loc cc0_scratch0) ↦[slotRest]{q} f)) := by
  rw [sSlot00_set, sSlot01_set, sSlot02_set, sSlot10_set, sSlot11_set, sSlot12_set, sSlot20_set, sSlot21_set, sSlot22_set]
  have h0 : ((((c : Thread nD τ).loc cc0_scratch0) ↦{q} f) : sProp 𝕄)
      = (((c : Thread nD τ).loc cc0_scratch0) ↦[(Finset.univ : Finset S3x384x1024.Idx)]{q} f) := rfl
  rw [h0, sSet_tiling]
  exact pt_cons (by sdisj) (pt_cons (by sdisj) (pt_cons (by sdisj) (pt_cons (by sdisj) (pt_cons (by sdisj)
    (pt_cons (by sdisj) (pt_cons (by sdisj) (pt_cons (by sdisj) (pt_cons (by sdisj) (bi_refl _)))))))))

/-- Nine slots and the rest, each at its own contents, are the whole receive buffer at some contents. -/
theorem rbuf_join (c : Dev nD) (q : PosShare TreeShare)
    (f1 f2 f3 f4 f5 f6 f7 f8 f9 f10 : Buf (Elt F) ((c : Thread nD τ).loc cc0_scratch1)) :
    iprop((rSlot00.view.loc (c : Thread nD τ) ↦[rSlot00.view.set]{q} f1)
        ∗ (rSlot01.view.loc (c : Thread nD τ) ↦[rSlot01.view.set]{q} f2)
        ∗ (rSlot02.view.loc (c : Thread nD τ) ↦[rSlot02.view.set]{q} f3)
        ∗ (rSlot10.view.loc (c : Thread nD τ) ↦[rSlot10.view.set]{q} f4)
        ∗ (rSlot11.view.loc (c : Thread nD τ) ↦[rSlot11.view.set]{q} f5)
        ∗ (rSlot12.view.loc (c : Thread nD τ) ↦[rSlot12.view.set]{q} f6)
        ∗ (rSlot20.view.loc (c : Thread nD τ) ↦[rSlot20.view.set]{q} f7)
        ∗ (rSlot21.view.loc (c : Thread nD τ) ↦[rSlot21.view.set]{q} f8)
        ∗ (rSlot22.view.loc (c : Thread nD τ) ↦[rSlot22.view.set]{q} f9)
        ∗ (((c : Thread nD τ).loc cc0_scratch1) ↦[slotRest]{q} f10))
      ⊢ (iprop(∃ f, ((c : Thread nD τ).loc cc0_scratch1) ↦{q} f) : sProp 𝕄) := by
  rw [rSlot00_set, rSlot01_set, rSlot02_set, rSlot10_set, rSlot11_set, rSlot12_set, rSlot20_set, rSlot21_set, rSlot22_set]
  have h10 := pt_ex (F := F) (ℓ := (c : Thread nD τ).loc cc0_scratch1) (q := q) (A := slotRest) f10
  have h9 := pt_join_ex (ℓ := (c : Thread nD τ).loc cc0_scratch1) (A := sSet 2 192 64) (by sdisj) f9 h10
  have h8 := pt_join_ex (ℓ := (c : Thread nD τ).loc cc0_scratch1) (A := sSet 2 128 64) (by sdisj) f8 h9
  have h7 := pt_join_ex (ℓ := (c : Thread nD τ).loc cc0_scratch1) (A := sSet 2 0 128) (by sdisj) f7 h8
  have h6 := pt_join_ex (ℓ := (c : Thread nD τ).loc cc0_scratch1) (A := sSet 1 288 96) (by sdisj) f6 h7
  have h5 := pt_join_ex (ℓ := (c : Thread nD τ).loc cc0_scratch1) (A := sSet 1 192 96) (by sdisj) f5 h6
  have h4 := pt_join_ex (ℓ := (c : Thread nD τ).loc cc0_scratch1) (A := sSet 1 0 192) (by sdisj) f4 h5
  have h3 := pt_join_ex (ℓ := (c : Thread nD τ).loc cc0_scratch1) (A := sSet 0 288 96) (by sdisj) f3 h4
  have h2 := pt_join_ex (ℓ := (c : Thread nD τ).loc cc0_scratch1) (A := sSet 0 192 96) (by sdisj) f2 h3
  have h1 := pt_join_ex (ℓ := (c : Thread nD τ).loc cc0_scratch1) (A := sSet 0 0 192) (by sdisj) f1 h2
  rw [← sSet_tiling] at h1
  exact h1

theorem sbuf_join (c : Dev nD) (q : PosShare TreeShare)
    (f1 f2 f3 f4 f5 f6 f7 f8 f9 f10 : Buf (Elt F) ((c : Thread nD τ).loc cc0_scratch0)) :
    iprop((sSlot00.view.loc (c : Thread nD τ) ↦[sSlot00.view.set]{q} f1)
        ∗ (sSlot01.view.loc (c : Thread nD τ) ↦[sSlot01.view.set]{q} f2)
        ∗ (sSlot02.view.loc (c : Thread nD τ) ↦[sSlot02.view.set]{q} f3)
        ∗ (sSlot10.view.loc (c : Thread nD τ) ↦[sSlot10.view.set]{q} f4)
        ∗ (sSlot11.view.loc (c : Thread nD τ) ↦[sSlot11.view.set]{q} f5)
        ∗ (sSlot12.view.loc (c : Thread nD τ) ↦[sSlot12.view.set]{q} f6)
        ∗ (sSlot20.view.loc (c : Thread nD τ) ↦[sSlot20.view.set]{q} f7)
        ∗ (sSlot21.view.loc (c : Thread nD τ) ↦[sSlot21.view.set]{q} f8)
        ∗ (sSlot22.view.loc (c : Thread nD τ) ↦[sSlot22.view.set]{q} f9)
        ∗ (((c : Thread nD τ).loc cc0_scratch0) ↦[slotRest]{q} f10))
      ⊢ (iprop(∃ f, ((c : Thread nD τ).loc cc0_scratch0) ↦{q} f) : sProp 𝕄) := by
  rw [sSlot00_set, sSlot01_set, sSlot02_set, sSlot10_set, sSlot11_set, sSlot12_set, sSlot20_set, sSlot21_set, sSlot22_set]
  have h10 := pt_ex (F := F) (ℓ := (c : Thread nD τ).loc cc0_scratch0) (q := q) (A := slotRest) f10
  have h9 := pt_join_ex (ℓ := (c : Thread nD τ).loc cc0_scratch0) (A := sSet 2 192 64) (by sdisj) f9 h10
  have h8 := pt_join_ex (ℓ := (c : Thread nD τ).loc cc0_scratch0) (A := sSet 2 128 64) (by sdisj) f8 h9
  have h7 := pt_join_ex (ℓ := (c : Thread nD τ).loc cc0_scratch0) (A := sSet 2 0 128) (by sdisj) f7 h8
  have h6 := pt_join_ex (ℓ := (c : Thread nD τ).loc cc0_scratch0) (A := sSet 1 288 96) (by sdisj) f6 h7
  have h5 := pt_join_ex (ℓ := (c : Thread nD τ).loc cc0_scratch0) (A := sSet 1 192 96) (by sdisj) f5 h6
  have h4 := pt_join_ex (ℓ := (c : Thread nD τ).loc cc0_scratch0) (A := sSet 1 0 192) (by sdisj) f4 h5
  have h3 := pt_join_ex (ℓ := (c : Thread nD τ).loc cc0_scratch0) (A := sSet 0 288 96) (by sdisj) f3 h4
  have h2 := pt_join_ex (ℓ := (c : Thread nD τ).loc cc0_scratch0) (A := sSet 0 192 96) (by sdisj) f2 h3
  have h1 := pt_join_ex (ℓ := (c : Thread nD τ).loc cc0_scratch0) (A := sSet 0 0 192) (by sdisj) f1 h2
  rw [← sSet_tiling] at h1
  exact h1

/-- A load or store through the whole buffer at a slot's rectangle touches the slot's elements only. -/
theorem racc_subset {b soff h : ℕ}
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    (rM.access (Rect.unit (s := S3x384x1024) ![b, soff, 0] ![1, h, 1024] inb)).set
      ⊆ ((rM.slice (Rect.unit (s := S3x384x1024) ![b, soff, 0] ![1, h, 1024] inb) (fun _ => rfl)).squeeze ⟨2, ![h, 1024]⟩ hsq).view.set :=
  fun i hi => by rw [slot_set_eq]; exact hi
theorem sacc_subset {b soff h : ℕ}
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    (sM.access (Rect.unit (s := S3x384x1024) ![b, soff, 0] ![1, h, 1024] inb)).set
      ⊆ ((sM.slice (Rect.unit (s := S3x384x1024) ![b, soff, 0] ![1, h, 1024] inb) (fun _ => rfl)).squeeze ⟨2, ![h, 1024]⟩ hsq).view.set :=
  fun i hi => by rw [slot_set_eq]; exact hi

/-- instances, as the body spells them -/
example : (rM.access (Rect.unit (s := S3x384x1024) ![0, 192, 0] S1x96x1024.size inb_S3x384x1024_S1x96x1024_0_192_0)).set ⊆ rSlot01.view.set :=
  racc_subset _ _
example : (sM.access (Rect.unit (s := S3x384x1024) ![2, 128, 0] S1x64x1024.size inb_S3x384x1024_S1x64x1024_2_128_0)).set ⊆ sSlot21.view.set :=
  sacc_subset _ _

/-! ## The body's steps, row by row

Each lemma reads the buffer a store leaves, at the rows it wrote, in terms of what the loads before it read. The
payloads are spelt as the printed body's value chains, so a payload name unfolds to them. -/

/-- Stage k of a reduce-scatter: the kept rows hold A, the receive slot the partner's B narrowed for the wire; after
    the sum is stored the rows hold A + wire B. -/
theorem rs_add_rows {h b soff : ℕ} (o : Fin 2 → ℕ) (inb : ∀ a, o a + (![h, 1024] : Fin 2 → ℕ) a ≤ S1024x1024.size a) (ho : o 1 = 0)
    (inb3 : ∀ a, (![b, soff, 0] : Fin 3 → ℕ) a + (![1, h, 1024] : Fin 3 → ℕ) a ≤ S3x384x1024.size a)
    (h1 : (⟨2, ![h, 1024]⟩ : Shape).ShapeCasts ⟨2, ![h, 1024]⟩)
    (h2 : (⟨3, ![1, h, 1024]⟩ : Shape).ShapeCasts ⟨2, ![h, 1024]⟩)
    (fo : (cc0_stg4_0 : Ref sig .tc).ty.Contents (Elt F)) (fr : (cc0_scratch1 : Ref sig .tc).ty.Contents (Elt F))
    (A B : ℕ → ℕ → F .f32)
    (hA : ∀ r q : ℕ, r < h → q < 1024 → oAt fo (o 0 + r) q = A r q)
    (hB : ∀ r q : ℕ, r < h → q < 1024 → rAt fr b (soff + r) q = tr (B r q))
    (r q : ℕ) (hr : r < h) (hq : q < 1024) :
    oAt ((oM.access (Rect.unit (s := S1024x1024) o ![h, 1024] inb)).write (Elt F) fo
        (addf (shapeCast ⟨2, ![h, 1024]⟩ (oM.view.readAt (Elt F) (Rect.unit (s := S1024x1024) o ![h, 1024] inb).toLoadRect fo) h1)
          (extf .f32 (shapeCast ⟨2, ![h, 1024]⟩
            (rM.view.readAt (Elt F) (Rect.unit (s := S3x384x1024) ![b, soff, 0] ![1, h, 1024] inb3).toLoadRect fr) h2) bitsLt_bf16_f32))
        Finset.univ) (o 0 + r) q
      = FloatOps.addf (A r q) (wire (B r q)) := by
  rw [oAt_store o inb ho fo _ r q hr hq, wadd_apply _ _ h1 h2 ⟨r, hr⟩ ⟨q, hq⟩, oAt_load o inb ho fo r q hr hq,
    rAt_load inb3 fr 0 r q hr hq, hA r q hr hq, hB r q hr hq]
  rfl

/-- Filling a send slot: the slot's rows hold the result buffer's rows narrowed for the wire. -/
theorem narrow_rows {h b soff : ℕ} (o : Fin 2 → ℕ) (inb : ∀ a, o a + (![h, 1024] : Fin 2 → ℕ) a ≤ S1024x1024.size a) (ho : o 1 = 0)
    (inb3 : ∀ a, (![b, soff, 0] : Fin 3 → ℕ) a + (![1, h, 1024] : Fin 3 → ℕ) a ≤ S3x384x1024.size a)
    (h1 : (⟨2, ![h, 1024]⟩ : Shape).ShapeCasts ⟨2, ![h, 1024]⟩)
    (h2 : (⟨2, ![h, 1024]⟩ : Shape).ShapeCasts ⟨3, ![1, h, 1024]⟩)
    (fo : (cc0_stg4_0 : Ref sig .tc).ty.Contents (Elt F)) (fs : (cc0_scratch0 : Ref sig .tc).ty.Contents (Elt F))
    (r q : ℕ) (hr : r < h) (hq : q < 1024) :
    sAt ((sM.access (Rect.unit (s := S3x384x1024) ![b, soff, 0] ![1, h, 1024] inb3)).write (Elt F) fs
        (shapeCast ⟨3, ![1, h, 1024]⟩ (truncf .bf16 (shapeCast ⟨2, ![h, 1024]⟩
          (oM.view.readAt (Elt F) (Rect.unit (s := S1024x1024) o ![h, 1024] inb).toLoadRect fo) h1) bitsLt_bf16_f32) h2)
        Finset.univ) b (soff + r) q
      = tr (oAt fo (o 0 + r) q) := by
  rw [sAt_store inb3 fs _ r q hr hq, narrow1_apply _ h1 h2 0 ⟨r, hr⟩ ⟨q, hq⟩, oAt_load o inb ho fo r q hr hq]

/-- Filling the gather buffer: its rows hold the result buffer's rows narrowed. -/
theorem gather_fill_rows {h : ℕ} (o : Fin 2 → ℕ) (inb : ∀ a, o a + (![h, 1024] : Fin 2 → ℕ) a ≤ S1024x1024.size a) (ho : o 1 = 0)
    (h1 : (⟨2, ![h, 1024]⟩ : Shape).ShapeCasts ⟨2, ![h, 1024]⟩)
    (h2 : (⟨2, ![h, 1024]⟩ : Shape).ShapeCasts ⟨2, ![h, 1024]⟩)
    (fo : (cc0_stg4_0 : Ref sig .tc).ty.Contents (Elt F)) (fa : (cc0_scratch2 : Ref sig .tc).ty.Contents (Elt F))
    (r q : ℕ) (hr : r < h) (hq : q < 1024) :
    aAt ((aM.access (Rect.unit (s := S1024x1024) o ![h, 1024] inb)).write (Elt F) fa
        (shapeCast ⟨2, ![h, 1024]⟩ (truncf .bf16 (shapeCast ⟨2, ![h, 1024]⟩
          (oM.view.readAt (Elt F) (Rect.unit (s := S1024x1024) o ![h, 1024] inb).toLoadRect fo) h1) bitsLt_bf16_f32) h2)
        Finset.univ) (o 0 + r) q
      = tr (oAt fo (o 0 + r) q) := by
  rw [aAt_store o inb ho fa _ r q hr hq, narrow0_apply _ h1 h2, oAt_load o inb ho fo r q hr hq]

/-- Reading the gathered rows back: the result buffer's rows hold the gather buffer's rows widened. -/
theorem widen_rows {h : ℕ} (o : Fin 2 → ℕ) (inb : ∀ a, o a + (![h, 1024] : Fin 2 → ℕ) a ≤ S1024x1024.size a) (ho : o 1 = 0)
    (fo : (cc0_stg4_0 : Ref sig .tc).ty.Contents (Elt F)) (fa : (cc0_scratch2 : Ref sig .tc).ty.Contents (Elt F))
    (r q : ℕ) (hr : r < h) (hq : q < 1024) :
    oAt ((oM.access (Rect.unit (s := S1024x1024) o ![h, 1024] inb)).write (Elt F) fo
        (extf .f32 (aM.view.readAt (Elt F) (Rect.unit (s := S1024x1024) o ![h, 1024] inb).toLoadRect fa) bitsLt_bf16_f32)
        Finset.univ) (o 0 + r) q
      = FloatOps.extf .f32 bitsLt_bf16_f32 (aAt fa (o 0 + r) q) := by
  rw [oAt_store o inb ho fo _ r q hr hq]
  show FloatOps.extf .f32 bitsLt_bf16_f32 (aM.view.readAt (Elt F) (Rect.unit (s := S1024x1024) o ![h, 1024] inb).toLoadRect fa (ix2 ⟨r, hr⟩ ⟨q, hq⟩)) = _
  rw [aAt_load o inb ho fa r q hr hq]

/-- instances: the payload names unfold to the chains above -/
example (c : Dev nD) (fo : (cc0_stg4_0 : Ref sig .tc).ty.Contents (Elt F)) (fr : (cc0_scratch1 : Ref sig .tc).ty.Contents (Elt F))
    (A B : ℕ → ℕ → F .f32)
    (hA : ∀ r q : ℕ, r < 192 → q < 1024 → oAt fo ((k0_off1 c 384#32 4#32 192#32 0#32) 0 + r) q = A r q)
    (hB : ∀ r q : ℕ, r < 192 → q < 1024 → rAt fr 1 (0 + r) q = tr (B r q)) (r q : ℕ) (hr : r < 192) (hq : q < 1024) :
    oAt ((oM.access (Rect.unit (s := S1024x1024) (k0_off1 c 384#32 4#32 192#32 0#32) S192x1024.size (k0_off1_inb c 3))).write (Elt F) fo
        (k0_pay17 (oM.view.readAt (Elt F) (Rect.unit (s := S1024x1024) (k0_off1 c 384#32 4#32 192#32 0#32) S192x1024.size (k0_off1_inb c 3)).toLoadRect fo)
          (rM.view.readAt (Elt F) (Rect.unit (s := S3x384x1024) ![1, 0, 0] S1x192x1024.size inb_S3x384x1024_S1x192x1024_1_0_0).toLoadRect fr))
        Finset.univ) ((k0_off1 c 384#32 4#32 192#32 0#32) 0 + r) q
      = FloatOps.addf (A r q) (wire (B r q)) :=
  rs_add_rows _ _ (by rw [Mesh.off1_d]; rfl) _ _ _ fo fr A B hA hB r q hr hq

/-- info: 'Cert.KernelIdeal.Mem.abuf_split' depends on axioms: [propext, Classical.choice, Quot.sound] -/
#guard_msgs in #print axioms abuf_split
/-- info: 'Cert.KernelIdeal.Mem.rbuf_split' depends on axioms: [propext, Classical.choice, Quot.sound] -/
#guard_msgs in #print axioms rbuf_split
/-- info: 'Cert.KernelIdeal.Mem.rbuf_join' depends on axioms: [propext, Classical.choice, Quot.sound] -/
#guard_msgs in #print axioms rbuf_join
/-- info: 'Cert.KernelIdeal.Mem.abuf_join' depends on axioms: [propext, Classical.choice, Quot.sound] -/
#guard_msgs in #print axioms abuf_join

end Cert.KernelIdeal.Mem

end
-- ==== Proof.BodyKit.lean ====
/-
  What the body's proof uses throughout: the staging buffers as the pipeline hands them over, the ghost state's big
  products written out cell by cell, each cell's invariant and reached-mark read off the records, and the entry
  handshake's four signals and its wait at this protocol's cells.
-/
import proofs.«900524_g7700000000000525_dist_gated_mlp_tp_i_m1024_h2048_d1024_v7x_i8_f32_1_alg».proof.Proof.Iface
import proofs.«900524_g7700000000000525_dist_gated_mlp_tp_i_m1024_h2048_d1024_v7x_i8_f32_1_alg».proof.Proof.Tables
import proofs.«900524_g7700000000000525_dist_gated_mlp_tp_i_m1024_h2048_d1024_v7x_i8_f32_1_alg».proof.Proof.Mem
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen Cert.KernelIdeal.Sched Cert.KernelIdeal.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The ghost state's big products written out -/

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_33 (Φ : Fin 3 × Fin 3 → sProp 𝕄) : bigSep Finset.univ Φ = bigSepL [((0 : Fin 3), (0 : Fin 3)), ((0 : Fin 3), (1 : Fin 3)), ((0 : Fin 3), (2 : Fin 3)), ((1 : Fin 3), (0 : Fin 3)), ((1 : Fin 3), (1 : Fin 3)), ((1 : Fin 3), (2 : Fin 3)), ((2 : Fin 3), (0 : Fin 3)), ((2 : Fin 3), (1 : Fin 3)), ((2 : Fin 3), (2 : Fin 3))] Φ := bigSep_univ_eq_bigSepL _ (by decide) (by decide) Φ
omit [FloatOps F] in
theorem bigSep_32 (Φ : Fin 3 × Fin 2 → sProp 𝕄) : bigSep Finset.univ Φ = bigSepL [((0 : Fin 3), (0 : Fin 2)), ((0 : Fin 3), (1 : Fin 2)), ((1 : Fin 3), (0 : Fin 2)), ((1 : Fin 3), (1 : Fin 2)), ((2 : Fin 3), (0 : Fin 2)), ((2 : Fin 3), (1 : Fin 2))] Φ := bigSep_univ_eq_bigSepL _ (by decide) (by decide) Φ
omit [FloatOps F] in
theorem bigSep_cix (Φ : CIx → sProp 𝕄) : bigSep Finset.univ Φ = bigSepL [(none : CIx), some ((0 : Fin 4), (0 : Fin 3), (0 : Fin 3)), some ((0 : Fin 4), (0 : Fin 3), (1 : Fin 3)), some ((0 : Fin 4), (0 : Fin 3), (2 : Fin 3)), some ((0 : Fin 4), (1 : Fin 3), (0 : Fin 3)), some ((0 : Fin 4), (1 : Fin 3), (1 : Fin 3)), some ((0 : Fin 4), (1 : Fin 3), (2 : Fin 3)), some ((0 : Fin 4), (2 : Fin 3), (0 : Fin 3)), some ((0 : Fin 4), (2 : Fin 3), (1 : Fin 3)), some ((0 : Fin 4), (2 : Fin 3), (2 : Fin 3)), some ((1 : Fin 4), (0 : Fin 3), (0 : Fin 3)), some ((1 : Fin 4), (0 : Fin 3), (1 : Fin 3)), some ((1 : Fin 4), (0 : Fin 3), (2 : Fin 3)), some ((1 : Fin 4), (1 : Fin 3), (0 : Fin 3)), some ((1 : Fin 4), (1 : Fin 3), (1 : Fin 3)), some ((1 : Fin 4), (1 : Fin 3), (2 : Fin 3)), some ((1 : Fin 4), (2 : Fin 3), (0 : Fin 3)), some ((1 : Fin 4), (2 : Fin 3), (1 : Fin 3)), some ((1 : Fin 4), (2 : Fin 3), (2 : Fin 3)), some ((2 : Fin 4), (0 : Fin 3), (0 : Fin 3)), some ((2 : Fin 4), (0 : Fin 3), (1 : Fin 3)), some ((2 : Fin 4), (0 : Fin 3), (2 : Fin 3)), some ((2 : Fin 4), (1 : Fin 3), (0 : Fin 3)), some ((2 : Fin 4), (1 : Fin 3), (1 : Fin 3)), some ((2 : Fin 4), (1 : Fin 3), (2 : Fin 3)), some ((2 : Fin 4), (2 : Fin 3), (0 : Fin 3)), some ((2 : Fin 4), (2 : Fin 3), (1 : Fin 3)), some ((2 : Fin 4), (2 : Fin 3), (2 : Fin 3)), some ((3 : Fin 4), (0 : Fin 3), (0 : Fin 3)), some ((3 : Fin 4), (0 : Fin 3), (1 : Fin 3)), some ((3 : Fin 4), (0 : Fin 3), (2 : Fin 3)), some ((3 : Fin 4), (1 : Fin 3), (0 : Fin 3)), some ((3 : Fin 4), (1 : Fin 3), (1 : Fin 3)), some ((3 : Fin 4), (1 : Fin 3), (2 : Fin 3)), some ((3 : Fin 4), (2 : Fin 3), (0 : Fin 3)), some ((3 : Fin 4), (2 : Fin 3), (1 : Fin 3)), some ((3 : Fin 4), (2 : Fin 3), (2 : Fin 3))] Φ := bigSep_univ_eq_bigSepL _ (by decide) (by decide) Φ

omit [FloatOps F] in
theorem payToks_eq (c : Dev nD) : (payToks c : sProp 𝕄) = iprop((dutyTok ER (barCell (Mesh.px 1 c)) 0 (0 : Fin 4) ∗ dutyTok ER (barCell (Mesh.px 2 c)) 0 (1 : Fin 4) ∗ dutyTok ER (barCell (Mesh.px 3 c)) 0 (2 : Fin 4) ∗ dutyTok ER (barCell (Mesh.px 4 c)) 0 (3 : Fin 4))
    ∗ (dutyTok ER (dcell 1 0 0 (Mesh.px 3 c)) 0 (0 : Fin 4) ∗ dutyTok ER (dcell 1 0 1 (Mesh.px 1 c)) 0 (0 : Fin 4) ∗ dutyTok ER (dcell 1 0 2 (Mesh.px 4 c)) 0 (0 : Fin 4) ∗ dutyTok ER (dcell 1 1 0 (Mesh.px 4 c)) 0 (0 : Fin 4) ∗ dutyTok ER (dcell 1 1 1 (Mesh.px 3 c)) 0 (0 : Fin 4) ∗ dutyTok ER (dcell 1 1 2 (Mesh.px 1 c)) 0 (0 : Fin 4) ∗ dutyTok ER (dcell 1 2 0 (Mesh.px 1 c)) 0 (0 : Fin 4) ∗ dutyTok ER (dcell 1 2 1 (Mesh.px 4 c)) 0 (0 : Fin 4) ∗ dutyTok ER (dcell 1 2 2 (Mesh.px 2 c)) 0 (0 : Fin 4))
    ∗ (dutyTok ER (dcell 3 0 0 (Mesh.px 3 c)) 0 (0 : Fin 4) ∗ dutyTok ER (dcell 3 0 1 (Mesh.px 1 c)) 0 (0 : Fin 4) ∗ dutyTok ER (dcell 3 1 0 (Mesh.px 4 c)) 0 (0 : Fin 4) ∗ dutyTok ER (dcell 3 1 1 (Mesh.px 3 c)) 0 (0 : Fin 4) ∗ dutyTok ER (dcell 3 2 0 (Mesh.px 1 c)) 0 (0 : Fin 4) ∗ dutyTok ER (dcell 3 2 1 (Mesh.px 4 c)) 0 (0 : Fin 4))
    ∗ (dutyTok ER (dcell 0 0 0 c) 0 (0 : Fin 4) ∗ dutyTok ER (dcell 0 0 1 c) 0 (0 : Fin 4) ∗ dutyTok ER (dcell 0 0 2 c) 0 (0 : Fin 4) ∗ dutyTok ER (dcell 0 1 0 c) 0 (0 : Fin 4) ∗ dutyTok ER (dcell 0 1 1 c) 0 (0 : Fin 4) ∗ dutyTok ER (dcell 0 1 2 c) 0 (0 : Fin 4) ∗ dutyTok ER (dcell 0 2 0 c) 0 (0 : Fin 4) ∗ dutyTok ER (dcell 0 2 1 c) 0 (0 : Fin 4) ∗ dutyTok ER (dcell 0 2 2 c) 0 (0 : Fin 4))
    ∗ (dutyTok ER (dcell 2 0 0 c) 0 (0 : Fin 4) ∗ dutyTok ER (dcell 2 0 1 c) 0 (0 : Fin 4) ∗ dutyTok ER (dcell 2 1 0 c) 0 (0 : Fin 4) ∗ dutyTok ER (dcell 2 1 1 c) 0 (0 : Fin 4) ∗ dutyTok ER (dcell 2 2 0 c) 0 (0 : Fin 4) ∗ dutyTok ER (dcell 2 2 1 c) 0 (0 : Fin 4))) := by
  unfold payToks
  rw [bigSep_fin4, bigSep_33, bigSep_32, bigSep_33, bigSep_32]
  simp only [bigSepL_cons_cons, bigSepL_singleton]
  rfl

omit [FloatOps F] in
theorem positions_eq (c : Dev nD) : (positions c : sProp 𝕄) = iprop(atPos ER (barCell c) 0 ∅ 0 ∗ atPos ER (dcell 0 0 0 c) 0 ∅ 0 ∗ atPos ER (dcell 0 0 1 c) 0 ∅ 0 ∗ atPos ER (dcell 0 0 2 c) 0 ∅ 0 ∗ atPos ER (dcell 0 1 0 c) 0 ∅ 0 ∗ atPos ER (dcell 0 1 1 c) 0 ∅ 0 ∗ atPos ER (dcell 0 1 2 c) 0 ∅ 0 ∗ atPos ER (dcell 0 2 0 c) 0 ∅ 0 ∗ atPos ER (dcell 0 2 1 c) 0 ∅ 0 ∗ atPos ER (dcell 0 2 2 c) 0 ∅ 0 ∗ atPos ER (dcell 1 0 0 c) 0 ∅ 0 ∗ atPos ER (dcell 1 0 1 c) 0 ∅ 0 ∗ atPos ER (dcell 1 0 2 c) 0 ∅ 0 ∗ atPos ER (dcell 1 1 0 c) 0 ∅ 0 ∗ atPos ER (dcell 1 1 1 c) 0 ∅ 0 ∗ atPos ER (dcell 1 1 2 c) 0 ∅ 0 ∗ atPos ER (dcell 1 2 0 c) 0 ∅ 0 ∗ atPos ER (dcell 1 2 1 c) 0 ∅ 0 ∗ atPos ER (dcell 1 2 2 c) 0 ∅ 0 ∗ atPos ER (dcell 2 0 0 c) 0 ∅ 0 ∗ atPos ER (dcell 2 0 1 c) 0 ∅ 0 ∗ atPos ER (dcell 2 0 2 c) 0 ∅ 0 ∗ atPos ER (dcell 2 1 0 c) 0 ∅ 0 ∗ atPos ER (dcell 2 1 1 c) 0 ∅ 0 ∗ atPos ER (dcell 2 1 2 c) 0 ∅ 0 ∗ atPos ER (dcell 2 2 0 c) 0 ∅ 0 ∗ atPos ER (dcell 2 2 1 c) 0 ∅ 0 ∗ atPos ER (dcell 2 2 2 c) 0 ∅ 0 ∗ atPos ER (dcell 3 0 0 c) 0 ∅ 0 ∗ atPos ER (dcell 3 0 1 c) 0 ∅ 0 ∗ atPos ER (dcell 3 0 2 c) 0 ∅ 0 ∗ atPos ER (dcell 3 1 0 c) 0 ∅ 0 ∗ atPos ER (dcell 3 1 1 c) 0 ∅ 0 ∗ atPos ER (dcell 3 1 2 c) 0 ∅ 0 ∗ atPos ER (dcell 3 2 0 c) 0 ∅ 0 ∗ atPos ER (dcell 3 2 1 c) 0 ∅ 0 ∗ atPos ER (dcell 3 2 2 c) 0 ∅ 0) := by
  unfold positions
  rw [bigSep_cix]
  simp only [bigSepL_cons_cons, bigSepL_singleton]
  rfl

omit [FloatOps F] in
theorem creds_eq (c : Dev nD) : (creds c : sProp 𝕄) = iprop(cred (tallyAt (barCell c) () 4)
    ∗ (cred (tallyAt (dcell 1 0 0 c) () (namt 1 0 0)) ∗ cred (tallyAt (dcell 1 0 1 c) () (namt 1 0 1)) ∗ cred (tallyAt (dcell 1 0 2 c) () (namt 1 0 2)) ∗ cred (tallyAt (dcell 1 1 0 c) () (namt 1 1 0)) ∗ cred (tallyAt (dcell 1 1 1 c) () (namt 1 1 1)) ∗ cred (tallyAt (dcell 1 1 2 c) () (namt 1 1 2)) ∗ cred (tallyAt (dcell 1 2 0 c) () (namt 1 2 0)) ∗ cred (tallyAt (dcell 1 2 1 c) () (namt 1 2 1)) ∗ cred (tallyAt (dcell 1 2 2 c) () (namt 1 2 2)))
    ∗ (cred (tallyAt (dcell 3 0 0 c) () (namt 3 0 0)) ∗ cred (tallyAt (dcell 3 0 1 c) () (namt 3 0 1)) ∗ cred (tallyAt (dcell 3 1 0 c) () (namt 3 1 0)) ∗ cred (tallyAt (dcell 3 1 1 c) () (namt 3 1 1)) ∗ cred (tallyAt (dcell 3 2 0 c) () (namt 3 2 0)) ∗ cred (tallyAt (dcell 3 2 1 c) () (namt 3 2 1)))) := by
  unfold creds
  rw [bigSep_33, bigSep_32]
  simp only [bigSepL_cons_cons, bigSepL_singleton]
  rfl

section Inv
variable (m : (ℓ : Loc nD τ sig) → Buf (Elt F) ℓ) (K : Dev nD × CIx → ℕ)
instance records_persistent : BI.Persistent (records (F := F) m K) := by unfold records; infer_instance
theorem inv_at (ck : Dev nD × CIx) : records (F := F) m K ⊢ cellInv ER (Rd m) (K ck) (kcell ck) := by
  have h : (bigSep Finset.univ fun ck : Dev nD × CIx => (cellInv ER (Rd m) (K ck) (kcell ck) : sProp 𝕄)) ⊢ cellInv ER (Rd m) (K ck) (kcell ck) := bigSep_elim (Finset.mem_univ ck)
  unfold records
  iintro ⟨HI, HR⟩
  iapply h
  iexact HI
theorem reached_at (ck : Dev nD × CIx) : records (F := F) m K ⊢ reached ER (kcell ck) 0 := by
  have h : (bigSep Finset.univ fun ck : Dev nD × CIx => (reached ER (kcell ck) 0 : sProp 𝕄)) ⊢ reached ER (kcell ck) 0 := bigSep_elim (Finset.mem_univ ck)
  unfold records
  iintro ⟨HI, HR⟩
  iapply h
  iexact HR
theorem inv_bar (d : Dev nD) : records (F := F) m K ⊢ cellInv ER (Rd m) (K (d, none)) (barCell d) := inv_at m K (d, none)
theorem inv_d (A : Fin 4) (b k : Fin 3) (d : Dev nD) : records (F := F) m K ⊢ cellInv ER (Rd m) (K (d, some (A, b, k))) (dcell A b k d) := inv_at m K (d, some (A, b, k))
theorem reached_bar (d : Dev nD) : records (F := F) m K ⊢ reached ER (barCell d) 0 := reached_at m K (d, none)
theorem reached_d (A : Fin 4) (b k : Fin 3) (d : Dev nD) : records (F := F) m K ⊢ reached ER (dcell A b k d) 0 := reached_at m K (d, some (A, b, k))
end Inv

section Sig
variable (m : (ℓ : Loc nD τ sig) → Buf (Elt F) ℓ) (K : Dev nD × CIx → ℕ)

/-- The entry signal to the partner under the mask 1: the device hands over its receive slots and gather rows that this partner writes. -/
theorem sig0 (c : Dev nD) (O : CellTallies nD τ sig Unit) {W : Waits sig Unit} {α : Type} {Q : α → sProp 𝕄}
    {kk : PUnit → Prog (TpuEff nD τ sig (Elt F) Λ₀ .tc) α} (f1 : Buf (Elt F) (rSlot01.view.loc (c : Thread nD τ))) (f2 : Buf (Elt F) (rSlot12.view.loc (c : Thread nD τ))) (f3 : Buf (Elt F) (rSlot20.view.loc (c : Thread nD τ))) (f4 : Buf (Elt F) ((aRows01 (Mesh.px 1 c)).view.loc (c : Thread nD τ))) (f5 : Buf (Elt F) ((aRows20 (Mesh.px 1 c)).view.loc (c : Thread nD τ))) :
    iprop(records m K ∗ owes (c : Thread nD τ) (O + tallyAt (barCell (Mesh.px 1 c)) () 1) W ∗ dutyTok ER (barCell (Mesh.px 1 c)) 0 (0 : Fin 4)
        ∗ (rSlot01.view.loc (c : Thread nD τ) ↦[rSlot01.view.set]{fullShare} f1)
        ∗ (rSlot12.view.loc (c : Thread nD τ) ↦[rSlot12.view.set]{fullShare} f2)
        ∗ (rSlot20.view.loc (c : Thread nD τ) ↦[rSlot20.view.set]{fullShare} f3)
        ∗ ((aRows01 (Mesh.px 1 c)).view.loc (c : Thread nD τ) ↦[(aRows01 (Mesh.px 1 c)).view.set]{fullShare} f4)
        ∗ ((aRows20 (Mesh.px 1 c)).view.loc (c : Thread nD τ) ↦[(aRows20 (Mesh.px 1 c)).view.set]{fullShare} f5))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 1 c : Thread nD τ) barS 1) kk) Q) := by
  iintro ⟨#Hrec, HO, Ht, H1, H2, H3, H4, H5⟩
  iapply (Tables.wp_signal_bar m c 1 0 (κ := K (Mesh.px 1 c, none)) O rfl) $$ [HO Ht H1 H2 H3 H4 H5]
  isplitr; · iapply (inv_bar m K (Mesh.px 1 c)); iexact Hrec
  isplitl [HO]; · iexact HO
  isplitl [Ht]; · iexact Ht
  isplitl [H1 H2 H3 H4 H5]
  · rw [← Tables.payload_bar m (Mesh.px 1 c) 0, Tables.payload_bar_px1]
    isplitl [H1]
    · isplitl [H1]; · iexists f1; iexact H1
      iapply (reached_d m K 1 0 1 c); iexact Hrec
    isplitl [H2]
    · isplitl [H2]; · iexists f2; iexact H2
      iapply (reached_d m K 1 1 2 c); iexact Hrec
    isplitl [H3]
    · isplitl [H3]; · iexists f3; iexact H3
      iapply (reached_d m K 1 2 0 c); iexact Hrec
    isplitl [H4]
    · isplitl [H4]; · iexists f4; iexact H4
      iapply (reached_d m K 3 0 1 c); iexact Hrec
    · isplitl [H5]; · iexists f5; iexact H5
      iapply (reached_d m K 3 2 0 c); iexact Hrec
  · iapply (reached_bar m K (Mesh.px 1 c)); iexact Hrec

/-- The entry signal to the partner under the mask 2: the device hands over its receive slots and gather rows that this partner writes. -/
theorem sig1 (c : Dev nD) (O : CellTallies nD τ sig Unit) {W : Waits sig Unit} {α : Type} {Q : α → sProp 𝕄}
    {kk : PUnit → Prog (TpuEff nD τ sig (Elt F) Λ₀ .tc) α} (f1 : Buf (Elt F) (rSlot22.view.loc (c : Thread nD τ))) :
    iprop(records m K ∗ owes (c : Thread nD τ) (O + tallyAt (barCell (Mesh.px 2 c)) () 1) W ∗ dutyTok ER (barCell (Mesh.px 2 c)) 0 (1 : Fin 4)
        ∗ (rSlot22.view.loc (c : Thread nD τ) ↦[rSlot22.view.set]{fullShare} f1))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 2 c : Thread nD τ) barS 1) kk) Q) := by
  iintro ⟨#Hrec, HO, Ht, H1⟩
  iapply (Tables.wp_signal_bar m c 2 1 (κ := K (Mesh.px 2 c, none)) O rfl) $$ [HO Ht H1]
  isplitr; · iapply (inv_bar m K (Mesh.px 2 c)); iexact Hrec
  isplitl [HO]; · iexact HO
  isplitl [Ht]; · iexact Ht
  isplitl [H1]
  · rw [← Tables.payload_bar m (Mesh.px 2 c) 1, Tables.payload_bar_px2]
    · isplitl [H1]; · iexists f1; iexact H1
      iapply (reached_d m K 1 2 2 c); iexact Hrec
  · iapply (reached_bar m K (Mesh.px 2 c)); iexact Hrec

/-- The entry signal to the partner under the mask 3: the device hands over its receive slots and gather rows that this partner writes. -/
theorem sig2 (c : Dev nD) (O : CellTallies nD τ sig Unit) {W : Waits sig Unit} {α : Type} {Q : α → sProp 𝕄}
    {kk : PUnit → Prog (TpuEff nD τ sig (Elt F) Λ₀ .tc) α} (f1 : Buf (Elt F) (rSlot00.view.loc (c : Thread nD τ))) (f2 : Buf (Elt F) (rSlot11.view.loc (c : Thread nD τ))) (f3 : Buf (Elt F) ((aRows00 (Mesh.px 3 c)).view.loc (c : Thread nD τ))) (f4 : Buf (Elt F) ((aRows11 (Mesh.px 3 c)).view.loc (c : Thread nD τ))) :
    iprop(records m K ∗ owes (c : Thread nD τ) (O + tallyAt (barCell (Mesh.px 3 c)) () 1) W ∗ dutyTok ER (barCell (Mesh.px 3 c)) 0 (2 : Fin 4)
        ∗ (rSlot00.view.loc (c : Thread nD τ) ↦[rSlot00.view.set]{fullShare} f1)
        ∗ (rSlot11.view.loc (c : Thread nD τ) ↦[rSlot11.view.set]{fullShare} f2)
        ∗ ((aRows00 (Mesh.px 3 c)).view.loc (c : Thread nD τ) ↦[(aRows00 (Mesh.px 3 c)).view.set]{fullShare} f3)
        ∗ ((aRows11 (Mesh.px 3 c)).view.loc (c : Thread nD τ) ↦[(aRows11 (Mesh.px 3 c)).view.set]{fullShare} f4))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 3 c : Thread nD τ) barS 1) kk) Q) := by
  iintro ⟨#Hrec, HO, Ht, H1, H2, H3, H4⟩
  iapply (Tables.wp_signal_bar m c 3 2 (κ := K (Mesh.px 3 c, none)) O rfl) $$ [HO Ht H1 H2 H3 H4]
  isplitr; · iapply (inv_bar m K (Mesh.px 3 c)); iexact Hrec
  isplitl [HO]; · iexact HO
  isplitl [Ht]; · iexact Ht
  isplitl [H1 H2 H3 H4]
  · rw [← Tables.payload_bar m (Mesh.px 3 c) 2, Tables.payload_bar_px3]
    isplitl [H1]
    · isplitl [H1]; · iexists f1; iexact H1
      iapply (reached_d m K 1 0 0 c); iexact Hrec
    isplitl [H2]
    · isplitl [H2]; · iexists f2; iexact H2
      iapply (reached_d m K 1 1 1 c); iexact Hrec
    isplitl [H3]
    · isplitl [H3]; · iexists f3; iexact H3
      iapply (reached_d m K 3 0 0 c); iexact Hrec
    · isplitl [H4]; · iexists f4; iexact H4
      iapply (reached_d m K 3 1 1 c); iexact Hrec
  · iapply (reached_bar m K (Mesh.px 3 c)); iexact Hrec

/-- The entry signal to the partner under the mask 4: the device hands over its receive slots and gather rows that this partner writes. -/
theorem sig3 (c : Dev nD) (O : CellTallies nD τ sig Unit) {W : Waits sig Unit} {α : Type} {Q : α → sProp 𝕄}
    {kk : PUnit → Prog (TpuEff nD τ sig (Elt F) Λ₀ .tc) α} (f1 : Buf (Elt F) (rSlot02.view.loc (c : Thread nD τ))) (f2 : Buf (Elt F) (rSlot10.view.loc (c : Thread nD τ))) (f3 : Buf (Elt F) (rSlot21.view.loc (c : Thread nD τ))) (f4 : Buf (Elt F) ((aRows10 (Mesh.px 4 c)).view.loc (c : Thread nD τ))) (f5 : Buf (Elt F) ((aRows21 (Mesh.px 4 c)).view.loc (c : Thread nD τ))) :
    iprop(records m K ∗ owes (c : Thread nD τ) (O + tallyAt (barCell (Mesh.px 4 c)) () 1) W ∗ dutyTok ER (barCell (Mesh.px 4 c)) 0 (3 : Fin 4)
        ∗ (rSlot02.view.loc (c : Thread nD τ) ↦[rSlot02.view.set]{fullShare} f1)
        ∗ (rSlot10.view.loc (c : Thread nD τ) ↦[rSlot10.view.set]{fullShare} f2)
        ∗ (rSlot21.view.loc (c : Thread nD τ) ↦[rSlot21.view.set]{fullShare} f3)
        ∗ ((aRows10 (Mesh.px 4 c)).view.loc (c : Thread nD τ) ↦[(aRows10 (Mesh.px 4 c)).view.set]{fullShare} f4)
        ∗ ((aRows21 (Mesh.px 4 c)).view.loc (c : Thread nD τ) ↦[(aRows21 (Mesh.px 4 c)).view.set]{fullShare} f5))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 4 c : Thread nD τ) barS 1) kk) Q) := by
  iintro ⟨#Hrec, HO, Ht, H1, H2, H3, H4, H5⟩
  iapply (Tables.wp_signal_bar m c 4 3 (κ := K (Mesh.px 4 c, none)) O rfl) $$ [HO Ht H1 H2 H3 H4 H5]
  isplitr; · iapply (inv_bar m K (Mesh.px 4 c)); iexact Hrec
  isplitl [HO]; · iexact HO
  isplitl [Ht]; · iexact Ht
  isplitl [H1 H2 H3 H4 H5]
  · rw [← Tables.payload_bar m (Mesh.px 4 c) 3, Tables.payload_bar_px4]
    isplitl [H1]
    · isplitl [H1]; · iexists f1; iexact H1
      iapply (reached_d m K 1 0 2 c); iexact Hrec
    isplitl [H2]
    · isplitl [H2]; · iexists f2; iexact H2
      iapply (reached_d m K 1 1 0 c); iexact Hrec
    isplitl [H3]
    · isplitl [H3]; · iexists f3; iexact H3
      iapply (reached_d m K 1 2 1 c); iexact Hrec
    isplitl [H4]
    · isplitl [H4]; · iexists f4; iexact H4
      iapply (reached_d m K 3 1 0 c); iexact Hrec
    · isplitl [H5]; · iexists f5; iexact H5
      iapply (reached_d m K 3 2 1 c); iexact Hrec
  · iapply (reached_bar m K (Mesh.px 4 c)); iexact Hrec

end Sig

section BarWait
variable (m : (ℓ : Loc nD τ sig) → Buf (Elt F) ℓ) (K : Dev nD × CIx → ℕ)
/-- The barrier wait, owing the fifteen arrivals: the four partners' slots and gather rows come with it. -/
theorem barwait (c : Dev nD) {W : Waits sig Unit} {α : Type} {Q : α → sProp 𝕄}
    {kk : PUnit → Prog (TpuEff nD τ sig (Elt F) Λ₀ .tc) α} :
    iprop(records m K ∗ levAts L lv ∗ cred (tallyAt (barCell c) () 4) ∗ owes (c : Thread nD τ) (Orem c 4) W ∗ atPos ER (barCell c) 0 ∅ 0)
      ⊢ iprop(((owes (c : Thread nD τ) (Orem c 4) (insert (SemLoc.reg barS, ()) W) ∗ atPos ER (barCell c) 1 ∅ 0
              ∗ ((((∃ f, rSlot01.view.loc (Mesh.px 1 c : Thread nD τ) ↦[rSlot01.view.set]{fullShare} f) ∗ reached ER (dcell 1 0 1 (Mesh.px 1 c)) 0)
          ∗ ((∃ f, rSlot12.view.loc (Mesh.px 1 c : Thread nD τ) ↦[rSlot12.view.set]{fullShare} f) ∗ reached ER (dcell 1 1 2 (Mesh.px 1 c)) 0)
          ∗ ((∃ f, rSlot20.view.loc (Mesh.px 1 c : Thread nD τ) ↦[rSlot20.view.set]{fullShare} f) ∗ reached ER (dcell 1 2 0 (Mesh.px 1 c)) 0)
          ∗ ((∃ f, (aRows01 c).view.loc (Mesh.px 1 c : Thread nD τ) ↦[(aRows01 c).view.set]{fullShare} f) ∗ reached ER (dcell 3 0 1 (Mesh.px 1 c)) 0)
          ∗ ((∃ f, (aRows20 c).view.loc (Mesh.px 1 c : Thread nD τ) ↦[(aRows20 c).view.set]{fullShare} f) ∗ reached ER (dcell 3 2 0 (Mesh.px 1 c)) 0))
               ∗ (((∃ f, rSlot22.view.loc (Mesh.px 2 c : Thread nD τ) ↦[rSlot22.view.set]{fullShare} f) ∗ reached ER (dcell 1 2 2 (Mesh.px 2 c)) 0))
               ∗ (((∃ f, rSlot00.view.loc (Mesh.px 3 c : Thread nD τ) ↦[rSlot00.view.set]{fullShare} f) ∗ reached ER (dcell 1 0 0 (Mesh.px 3 c)) 0)
          ∗ ((∃ f, rSlot11.view.loc (Mesh.px 3 c : Thread nD τ) ↦[rSlot11.view.set]{fullShare} f) ∗ reached ER (dcell 1 1 1 (Mesh.px 3 c)) 0)
          ∗ ((∃ f, (aRows00 c).view.loc (Mesh.px 3 c : Thread nD τ) ↦[(aRows00 c).view.set]{fullShare} f) ∗ reached ER (dcell 3 0 0 (Mesh.px 3 c)) 0)
          ∗ ((∃ f, (aRows11 c).view.loc (Mesh.px 3 c : Thread nD τ) ↦[(aRows11 c).view.set]{fullShare} f) ∗ reached ER (dcell 3 1 1 (Mesh.px 3 c)) 0))
               ∗ (((∃ f, rSlot02.view.loc (Mesh.px 4 c : Thread nD τ) ↦[rSlot02.view.set]{fullShare} f) ∗ reached ER (dcell 1 0 2 (Mesh.px 4 c)) 0)
          ∗ ((∃ f, rSlot10.view.loc (Mesh.px 4 c : Thread nD τ) ↦[rSlot10.view.set]{fullShare} f) ∗ reached ER (dcell 1 1 0 (Mesh.px 4 c)) 0)
          ∗ ((∃ f, rSlot21.view.loc (Mesh.px 4 c : Thread nD τ) ↦[rSlot21.view.set]{fullShare} f) ∗ reached ER (dcell 1 2 1 (Mesh.px 4 c)) 0)
          ∗ ((∃ f, (aRows10 c).view.loc (Mesh.px 4 c : Thread nD τ) ↦[(aRows10 c).view.set]{fullShare} f) ∗ reached ER (dcell 3 1 0 (Mesh.px 4 c)) 0)
          ∗ ((∃ f, (aRows21 c).view.loc (Mesh.px 4 c : Thread nD τ) ↦[(aRows21 c).view.set]{fullShare} f) ∗ reached ER (dcell 3 2 1 (Mesh.px 4 c)) 0))))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 4) kk) Q) := by
  iintro ⟨#Hrec, #Hlev, Hc, HO, Hat⟩ Hk
  iapply (Tables.wp_wait_bar m c (κ := K (c, none))) $$ [Hc HO Hat]
  · isplitr; · iapply (inv_bar m K c); iexact Hrec
    isplitl [Hc]; · iexact Hc
    isplitl [HO]; · iexact HO
    isplitr; · iapply (Tables.mayWait_bar c); iexact Hlev
    iexact Hat
  iintro ⟨HO, Hat, -, Hpay⟩
  iapply Hk
  isplitl [HO]; · iexact HO
  isplitl [Hat]; · iexact Hat
  unfold barPay
  iexact Hpay
end BarWait

theorem Orem_0_4 (c : Dev nD) : Orem c 0 = Orem c 4 + tallyAt (barCell (Mesh.px 4 c)) () 1 + tallyAt (barCell (Mesh.px 3 c)) () 1
    + tallyAt (barCell (Mesh.px 2 c)) () 1 + tallyAt (barCell (Mesh.px 1 c)) () 1 := by
  rw [Orem_lt c 0 (by decide), Orem_lt c 1 (by decide), Orem_lt c 2 (by decide), Orem_lt c 3 (by decide)]
  rfl

end Cert.KernelIdeal.Body

end
-- ==== Proof.Cuts.lean ====
/-
  Cuts through a device's run of the body, as assertions at a symbolic device: what it holds after the entry handshake and
  the first three departures, before the second and the third exchange stage, just before its first all-gather transfer,
  and once every arrival has been waited for and the result is complete with the first two departures of the exchange
  already waited. Each phase is proved from one cut to the next.
-/
import proofs.«900524_g7700000000000525_dist_gated_mlp_tp_i_m1024_h2048_d1024_v7x_i8_f32_1_alg».proof.Proof.Iface
import proofs.«900524_g7700000000000525_dist_gated_mlp_tp_i_m1024_h2048_d1024_v7x_i8_f32_1_alg».proof.Proof.Stor
import proofs.«900524_g7700000000000525_dist_gated_mlp_tp_i_m1024_h2048_d1024_v7x_i8_f32_1_alg».proof.Proof.Mem

noncomputable section

namespace Cert.KernelIdeal.Cuts

open Cert.KernelIdeal Cert.KernelIdeal.Gen Cert.KernelIdeal.Sched Cert.KernelIdeal.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! Every whole buffer is held through its memref's view (location xM.view.loc c, all its elements). -/

local notation "𝕄" => MT nD τ sig Unit (Elt F) ℕ UU ℕ

/-- The send buffer comes back whole once its nine slots, lent to the departures, have been returned. -/
def sbufBack (c : Dev nD) : sProp 𝕄 :=
  iprop((rsSendPay 0 0 c ∗ rsSendPay 0 1 c ∗ rsSendPay 0 2 c ∗ rsSendPay 1 0 c ∗ rsSendPay 1 1 c ∗ rsSendPay 1 2 c ∗ rsSendPay 2 0 c ∗ rsSendPay 2 1 c ∗ rsSendPay 2 2 c)
    -∗ ∃ f : Buf (Elt F) ((sM : Memref sig .tc .vmem S3x384x1024 .bf16).view.loc (c : Thread nD τ)), ((sM : Memref sig .tc .vmem S3x384x1024 .bf16).view.loc (c : Thread nD τ)) ↦{fullShare} f)

/-- The receive buffer comes back whole once its nine slots, handed to the partners at entry, have come back. -/
def rbufBack (c : Dev nD) : sProp 𝕄 :=
  iprop(((∃ f, rSlot00.view.loc (c : Thread nD τ) ↦[rSlot00.view.set]{fullShare} f) ∗ (∃ f, rSlot01.view.loc (c : Thread nD τ) ↦[rSlot01.view.set]{fullShare} f) ∗ (∃ f, rSlot02.view.loc (c : Thread nD τ) ↦[rSlot02.view.set]{fullShare} f) ∗ (∃ f, rSlot10.view.loc (c : Thread nD τ) ↦[rSlot10.view.set]{fullShare} f) ∗ (∃ f, rSlot11.view.loc (c : Thread nD τ) ↦[rSlot11.view.set]{fullShare} f) ∗ (∃ f, rSlot12.view.loc (c : Thread nD τ) ↦[rSlot12.view.set]{fullShare} f) ∗ (∃ f, rSlot20.view.loc (c : Thread nD τ) ↦[rSlot20.view.set]{fullShare} f) ∗ (∃ f, rSlot21.view.loc (c : Thread nD τ) ↦[rSlot21.view.set]{fullShare} f) ∗ (∃ f, rSlot22.view.loc (c : Thread nD τ) ↦[rSlot22.view.set]{fullShare} f))
    -∗ ∃ f : Buf (Elt F) ((rM : Memref sig .tc .vmem S3x384x1024 .bf16).view.loc (c : Thread nD τ)), ((rM : Memref sig .tc .vmem S3x384x1024 .bf16).view.loc (c : Thread nD τ)) ↦{fullShare} f)

/-- The gather buffer comes back whole once the shares lent to its six departures have been returned. -/
def abufBack (c : Dev nD) : sProp 𝕄 :=
  iprop((agSendPay 0 0 c ∗ agSendPay 0 1 c ∗ agSendPay 1 0 c ∗ agSendPay 1 1 c ∗ agSendPay 2 0 c ∗ agSendPay 2 1 c)
    -∗ ∃ f : Buf (Elt F) ((aM : Memref sig .tc .vmem S1024x1024 .bf16).view.loc (c : Thread nD τ)), ((aM : Memref sig .tc .vmem S1024x1024 .bf16).view.loc (c : Thread nD τ)) ↦{fullShare} f)

variable (m : (ℓ : Loc nD τ sig) → Buf (Elt F) ℓ) (K : Dev nD × CIx → ℕ)

/-- Between the sixth and the seventh printed part: the entry handshake is over and the three stage-0 blocks are on
    their way (seven payments made, no arrival waited yet); the kept halves of butterflies 0 and 1 hold the device's own
    product (butterfly 2's kept tile is computed next, from the value the sixth part hands on). -/
def PreR0 (c : Dev nD) (W : Waits sig Unit) : sProp 𝕄 :=
  iprop(records m K
    ∗ levAts L lv
    ∗ atPos ER (barCell c) 1 ∅ 0
    ∗ atPos ER (dcell 1 0 0 c) 0 ∅ 0
    ∗ atPos ER (dcell 1 0 1 c) 0 ∅ 0
    ∗ atPos ER (dcell 1 0 2 c) 0 ∅ 0
    ∗ atPos ER (dcell 1 1 0 c) 0 ∅ 0
    ∗ atPos ER (dcell 1 1 1 c) 0 ∅ 0
    ∗ atPos ER (dcell 1 1 2 c) 0 ∅ 0
    ∗ atPos ER (dcell 1 2 0 c) 0 ∅ 0
    ∗ atPos ER (dcell 1 2 1 c) 0 ∅ 0
    ∗ atPos ER (dcell 1 2 2 c) 0 ∅ 0
    ∗ atPos ER (dcell 0 0 0 c) 0 ∅ 0
    ∗ atPos ER (dcell 0 0 1 c) 0 ∅ 0
    ∗ atPos ER (dcell 0 0 2 c) 0 ∅ 0
    ∗ atPos ER (dcell 0 1 0 c) 0 ∅ 0
    ∗ atPos ER (dcell 0 1 1 c) 0 ∅ 0
    ∗ atPos ER (dcell 0 1 2 c) 0 ∅ 0
    ∗ atPos ER (dcell 0 2 0 c) 0 ∅ 0
    ∗ atPos ER (dcell 0 2 1 c) 0 ∅ 0
    ∗ atPos ER (dcell 0 2 2 c) 0 ∅ 0
    ∗ atPos ER (dcell 2 0 0 c) 0 ∅ 0
    ∗ atPos ER (dcell 2 0 1 c) 0 ∅ 0
    ∗ atPos ER (dcell 2 0 2 c) 0 ∅ 0
    ∗ atPos ER (dcell 2 1 0 c) 0 ∅ 0
    ∗ atPos ER (dcell 2 1 1 c) 0 ∅ 0
    ∗ atPos ER (dcell 2 1 2 c) 0 ∅ 0
    ∗ atPos ER (dcell 2 2 0 c) 0 ∅ 0
    ∗ atPos ER (dcell 2 2 1 c) 0 ∅ 0
    ∗ atPos ER (dcell 2 2 2 c) 0 ∅ 0
    ∗ atPos ER (dcell 3 0 0 c) 0 ∅ 0
    ∗ atPos ER (dcell 3 0 1 c) 0 ∅ 0
    ∗ atPos ER (dcell 3 0 2 c) 0 ∅ 0
    ∗ atPos ER (dcell 3 1 0 c) 0 ∅ 0
    ∗ atPos ER (dcell 3 1 1 c) 0 ∅ 0
    ∗ atPos ER (dcell 3 1 2 c) 0 ∅ 0
    ∗ atPos ER (dcell 3 2 0 c) 0 ∅ 0
    ∗ atPos ER (dcell 3 2 1 c) 0 ∅ 0
    ∗ atPos ER (dcell 3 2 2 c) 0 ∅ 0
    ∗ dutyTok ER (dcell 1 0 1 (Mesh.px 1 c)) 0 (0 : Fin 4)
    ∗ dutyTok ER (dcell 1 0 2 (Mesh.px 4 c)) 0 (0 : Fin 4)
    ∗ dutyTok ER (dcell 1 1 1 (Mesh.px 3 c)) 0 (0 : Fin 4)
    ∗ dutyTok ER (dcell 1 1 2 (Mesh.px 1 c)) 0 (0 : Fin 4)
    ∗ dutyTok ER (dcell 1 2 1 (Mesh.px 4 c)) 0 (0 : Fin 4)
    ∗ dutyTok ER (dcell 1 2 2 (Mesh.px 2 c)) 0 (0 : Fin 4)
    ∗ dutyTok ER (dcell 0 0 1 c) 0 (0 : Fin 4)
    ∗ dutyTok ER (dcell 0 0 2 c) 0 (0 : Fin 4)
    ∗ dutyTok ER (dcell 0 1 1 c) 0 (0 : Fin 4)
    ∗ dutyTok ER (dcell 0 1 2 c) 0 (0 : Fin 4)
    ∗ dutyTok ER (dcell 0 2 1 c) 0 (0 : Fin 4)
    ∗ dutyTok ER (dcell 0 2 2 c) 0 (0 : Fin 4)
    ∗ dutyTok ER (dcell 3 0 0 (Mesh.px 3 c)) 0 (0 : Fin 4)
    ∗ dutyTok ER (dcell 3 0 1 (Mesh.px 1 c)) 0 (0 : Fin 4)
    ∗ dutyTok ER (dcell 3 1 0 (Mesh.px 4 c)) 0 (0 : Fin 4)
    ∗ dutyTok ER (dcell 3 1 1 (Mesh.px 3 c)) 0 (0 : Fin 4)
    ∗ dutyTok ER (dcell 3 2 0 (Mesh.px 1 c)) 0 (0 : Fin 4)
    ∗ dutyTok ER (dcell 3 2 1 (Mesh.px 4 c)) 0 (0 : Fin 4)
    ∗ dutyTok ER (dcell 2 0 0 c) 0 (0 : Fin 4)
    ∗ dutyTok ER (dcell 2 0 1 c) 0 (0 : Fin 4)
    ∗ dutyTok ER (dcell 2 1 0 c) 0 (0 : Fin 4)
    ∗ dutyTok ER (dcell 2 1 1 c) 0 (0 : Fin 4)
    ∗ dutyTok ER (dcell 2 2 0 c) 0 (0 : Fin 4)
    ∗ dutyTok ER (dcell 2 2 1 c) 0 (0 : Fin 4)
    ∗ cred (tallyAt (dcell 1 0 0 c) () (namt 1 0 0))
    ∗ cred (tallyAt (dcell 1 0 1 c) () (namt 1 0 1))
    ∗ cred (tallyAt (dcell 1 0 2 c) () (namt 1 0 2))
    ∗ cred (tallyAt (dcell 1 1 0 c) () (namt 1 1 0))
    ∗ cred (tallyAt (dcell 1 1 1 c) () (namt 1 1 1))
    ∗ cred (tallyAt (dcell 1 1 2 c) () (namt 1 1 2))
    ∗ cred (tallyAt (dcell 1 2 0 c) () (namt 1 2 0))
    ∗ cred (tallyAt (dcell 1 2 1 c) () (namt 1 2 1))
    ∗ cred (tallyAt (dcell 1 2 2 c) () (namt 1 2 2))
    ∗ cred (tallyAt (dcell 3 0 0 c) () (namt 3 0 0))
    ∗ cred (tallyAt (dcell 3 0 1 c) () (namt 3 0 1))
    ∗ cred (tallyAt (dcell 3 1 0 c) () (namt 3 1 0))
    ∗ cred (tallyAt (dcell 3 1 1 c) () (namt 3 1 1))
    ∗ cred (tallyAt (dcell 3 2 0 c) () (namt 3 2 0))
    ∗ cred (tallyAt (dcell 3 2 1 c) () (namt 3 2 1))
    ∗ cred (tallyAt (dcell 0 0 0 c) () (namt 0 0 0))
    ∗ cred (tallyAt (dcell 0 1 0 c) () (namt 0 1 0))
    ∗ cred (tallyAt (dcell 0 2 0 c) () (namt 0 2 0))
    ∗ owes (c : Thread nD τ) (Orem c 7) W
    ∗ (((xM : Memref sig .tc .vmem S1024x1024 .f32).view.loc (c : Thread nD τ)) ↦{fullShare} xIn m c)
    ∗ (((gM : Memref sig .tc .vmem S1024x2048 .f32).view.loc (c : Thread nD τ)) ↦{fullShare} gIn m c)
    ∗ (((uM : Memref sig .tc .vmem S1024x2048 .f32).view.loc (c : Thread nD τ)) ↦{fullShare} uIn m c)
    ∗ (((dM : Memref sig .tc .vmem S2048x1024 .f32).view.loc (c : Thread nD τ)) ↦{fullShare} dIn m c)
    ∗ (∃ fo : Buf (Elt F) ((oM : Memref sig .tc .vmem S1024x1024 .f32).view.loc (c : Thread nD τ)), (((oM : Memref sig .tc .vmem S1024x1024 .f32).view.loc (c : Thread nD τ)) ↦{fullShare} fo) ∗ ⌜(∀ r q : ℕ, r < 192 → q < 1024 → oAt fo (K0 0 c + r) q = S0 m 0 c (K0 0 c + r) q) ∧ (∀ r q : ℕ, r < 192 → q < 1024 → oAt fo (K0 1 c + r) q = S0 m 1 c (K0 1 c + r) q)⌝)
    ∗ sbufBack c
    ∗ (∃ f, sSlot01.view.loc (c : Thread nD τ) ↦[sSlot01.view.set]{fullShare} f)
    ∗ (∃ f, sSlot02.view.loc (c : Thread nD τ) ↦[sSlot02.view.set]{fullShare} f)
    ∗ (∃ f, sSlot11.view.loc (c : Thread nD τ) ↦[sSlot11.view.set]{fullShare} f)
    ∗ (∃ f, sSlot12.view.loc (c : Thread nD τ) ↦[sSlot12.view.set]{fullShare} f)
    ∗ (∃ f, sSlot21.view.loc (c : Thread nD τ) ↦[sSlot21.view.set]{fullShare} f)
    ∗ (∃ f, sSlot22.view.loc (c : Thread nD τ) ↦[sSlot22.view.set]{fullShare} f)
    ∗ rbufBack c
    ∗ (∃ f, (aRows01 c).view.loc (c : Thread nD τ) ↦[(aRows01 c).view.set]{fullShare} f)
    ∗ (∃ f, (aRows11 c).view.loc (c : Thread nD τ) ↦[(aRows11 c).view.set]{fullShare} f)
    ∗ (∃ f, (aRows21 c).view.loc (c : Thread nD τ) ↦[(aRows21 c).view.set]{fullShare} f)
    ∗ (∃ f, rSlot01.view.loc ((Mesh.px 1 c) : Thread nD τ) ↦[rSlot01.view.set]{fullShare} f)
    ∗ (∃ f, rSlot02.view.loc ((Mesh.px 4 c) : Thread nD τ) ↦[rSlot02.view.set]{fullShare} f)
    ∗ (∃ f, rSlot11.view.loc ((Mesh.px 3 c) : Thread nD τ) ↦[rSlot11.view.set]{fullShare} f)
    ∗ (∃ f, rSlot12.view.loc ((Mesh.px 1 c) : Thread nD τ) ↦[rSlot12.view.set]{fullShare} f)
    ∗ (∃ f, rSlot21.view.loc ((Mesh.px 4 c) : Thread nD τ) ↦[rSlot21.view.set]{fullShare} f)
    ∗ (∃ f, rSlot22.view.loc ((Mesh.px 2 c) : Thread nD τ) ↦[rSlot22.view.set]{fullShare} f)
    ∗ (∃ f, (aRows01 c).view.loc ((Mesh.px 1 c) : Thread nD τ) ↦[(aRows01 c).view.set]{fullShare} f)
    ∗ (∃ f, (aRows11 c).view.loc ((Mesh.px 3 c) : Thread nD τ) ↦[(aRows11 c).view.set]{fullShare} f)
    ∗ (∃ f, (aRows21 c).view.loc ((Mesh.px 4 c) : Thread nD τ) ↦[(aRows21 c).view.set]{fullShare} f)
    ∗ (∃ f, (aRows00 c).view.loc ((Mesh.px 3 c) : Thread nD τ) ↦[(aRows00 c).view.set]{fullShare} f)
    ∗ (∃ f, (aRows10 c).view.loc ((Mesh.px 4 c) : Thread nD τ) ↦[(aRows10 c).view.set]{fullShare} f)
    ∗ (∃ f, (aRows20 c).view.loc ((Mesh.px 1 c) : Thread nD τ) ↦[(aRows20 c).view.set]{fullShare} f))

/-- Between the ninth and the tenth printed part: exchange stage 0 is over (its three arrivals waited and added: the kept
    halves of the result buffer hold the sums after one stage), seven payments are made, and butterfly 0's quarter for
    stage 1 already stands narrowed in its send slot, not yet sent. -/
def PreS1 (c : Dev nD) (W : Waits sig Unit) : sProp 𝕄 :=
  iprop(records m K
    ∗ levAts L lv
    ∗ atPos ER (barCell c) 1 ∅ 0
    ∗ atPos ER (dcell 1 0 0 c) 1 ∅ 0
    ∗ atPos ER (dcell 1 0 1 c) 0 ∅ 0
    ∗ atPos ER (dcell 1 0 2 c) 0 ∅ 0
    ∗ atPos ER (dcell 1 1 0 c) 1 ∅ 0
    ∗ atPos ER (dcell 1 1 1 c) 0 ∅ 0
    ∗ atPos ER (dcell 1 1 2 c) 0 ∅ 0
    ∗ atPos ER (dcell 1 2 0 c) 1 ∅ 0
    ∗ atPos ER (dcell 1 2 1 c) 0 ∅ 0
    ∗ atPos ER (dcell 1 2 2 c) 0 ∅ 0
    ∗ atPos ER (dcell 0 0 0 c) 0 ∅ 0
    ∗ atPos ER (dcell 0 0 1 c) 0 ∅ 0
    ∗ atPos ER (dcell 0 0 2 c) 0 ∅ 0
    ∗ atPos ER (dcell 0 1 0 c) 0 ∅ 0
    ∗ atPos ER (dcell 0 1 1 c) 0 ∅ 0
    ∗ atPos ER (dcell 0 1 2 c) 0 ∅ 0
    ∗ atPos ER (dcell 0 2 0 c) 0 ∅ 0
    ∗ atPos ER (dcell 0 2 1 c) 0 ∅ 0
    ∗ atPos ER (dcell 0 2 2 c) 0 ∅ 0
    ∗ atPos ER (dcell 2 0 0 c) 0 ∅ 0
    ∗ atPos ER (dcell 2 0 1 c) 0 ∅ 0
    ∗ atPos ER (dcell 2 0 2 c) 0 ∅ 0
    ∗ atPos ER (dcell 2 1 0 c) 0 ∅ 0
    ∗ atPos ER (dcell 2 1 1 c) 0 ∅ 0
    ∗ atPos ER (dcell 2 1 2 c) 0 ∅ 0
    ∗ atPos ER (dcell 2 2 0 c) 0 ∅ 0
    ∗ atPos ER (dcell 2 2 1 c) 0 ∅ 0
    ∗ atPos ER (dcell 2 2 2 c) 0 ∅ 0
    ∗ atPos ER (dcell 3 0 0 c) 0 ∅ 0
    ∗ atPos ER (dcell 3 0 1 c) 0 ∅ 0
    ∗ atPos ER (dcell 3 0 2 c) 0 ∅ 0
    ∗ atPos ER (dcell 3 1 0 c) 0 ∅ 0
    ∗ atPos ER (dcell 3 1 1 c) 0 ∅ 0
    ∗ atPos ER (dcell 3 1 2 c) 0 ∅ 0
    ∗ atPos ER (dcell 3 2 0 c) 0 ∅ 0
    ∗ atPos ER (dcell 3 2 1 c) 0 ∅ 0
    ∗ atPos ER (dcell 3 2 2 c) 0 ∅ 0
    ∗ dutyTok ER (dcell 1 0 1 (Mesh.px 1 c)) 0 (0 : Fin 4)
    ∗ dutyTok ER (dcell 1 0 2 (Mesh.px 4 c)) 0 (0 : Fin 4)
    ∗ dutyTok ER (dcell 1 1 1 (Mesh.px 3 c)) 0 (0 : Fin 4)
    ∗ dutyTok ER (dcell 1 1 2 (Mesh.px 1 c)) 0 (0 : Fin 4)
    ∗ dutyTok ER (dcell 1 2 1 (Mesh.px 4 c)) 0 (0 : Fin 4)
    ∗ dutyTok ER (dcell 1 2 2 (Mesh.px 2 c)) 0 (0 : Fin 4)
    ∗ dutyTok ER (dcell 0 0 1 c) 0 (0 : Fin 4)
    ∗ dutyTok ER (dcell 0 0 2 c) 0 (0 : Fin 4)
    ∗ dutyTok ER (dcell 0 1 1 c) 0 (0 : Fin 4)
    ∗ dutyTok ER (dcell 0 1 2 c) 0 (0 : Fin 4)
    ∗ dutyTok ER (dcell 0 2 1 c) 0 (0 : Fin 4)
    ∗ dutyTok ER (dcell 0 2 2 c) 0 (0 : Fin 4)
    ∗ dutyTok ER (dcell 3 0 0 (Mesh.px 3 c)) 0 (0 : Fin 4)
    ∗ dutyTok ER (dcell 3 0 1 (Mesh.px 1 c)) 0 (0 : Fin 4)
    ∗ dutyTok ER (dcell 3 1 0 (Mesh.px 4 c)) 0 (0 : Fin 4)
    ∗ dutyTok ER (dcell 3 1 1 (Mesh.px 3 c)) 0 (0 : Fin 4)
    ∗ dutyTok ER (dcell 3 2 0 (Mesh.px 1 c)) 0 (0 : Fin 4)
    ∗ dutyTok ER (dcell 3 2 1 (Mesh.px 4 c)) 0 (0 : Fin 4)
    ∗ dutyTok ER (dcell 2 0 0 c) 0 (0 : Fin 4)
    ∗ dutyTok ER (dcell 2 0 1 c) 0 (0 : Fin 4)
    ∗ dutyTok ER (dcell 2 1 0 c) 0 (0 : Fin 4)
    ∗ dutyTok ER (dcell 2 1 1 c) 0 (0 : Fin 4)
    ∗ dutyTok ER (dcell 2 2 0 c) 0 (0 : Fin 4)
    ∗ dutyTok ER (dcell 2 2 1 c) 0 (0 : Fin 4)
    ∗ cred (tallyAt (dcell 1 0 1 c) () (namt 1 0 1))
    ∗ cred (tallyAt (dcell 1 0 2 c) () (namt 1 0 2))
    ∗ cred (tallyAt (dcell 1 1 1 c) () (namt 1 1 1))
    ∗ cred (tallyAt (dcell 1 1 2 c) () (namt 1 1 2))
    ∗ cred (tallyAt (dcell 1 2 1 c) () (namt 1 2 1))
    ∗ cred (tallyAt (dcell 1 2 2 c) () (namt 1 2 2))
    ∗ cred (tallyAt (dcell 3 0 0 c) () (namt 3 0 0))
    ∗ cred (tallyAt (dcell 3 0 1 c) () (namt 3 0 1))
    ∗ cred (tallyAt (dcell 3 1 0 c) () (namt 3 1 0))
    ∗ cred (tallyAt (dcell 3 1 1 c) () (namt 3 1 1))
    ∗ cred (tallyAt (dcell 3 2 0 c) () (namt 3 2 0))
    ∗ cred (tallyAt (dcell 3 2 1 c) () (namt 3 2 1))
    ∗ cred (tallyAt (dcell 0 0 0 c) () (namt 0 0 0))
    ∗ cred (tallyAt (dcell 0 1 0 c) () (namt 0 1 0))
    ∗ cred (tallyAt (dcell 0 2 0 c) () (namt 0 2 0))
    ∗ owes (c : Thread nD τ) (Orem c 7) W
    ∗ (((xM : Memref sig .tc .vmem S1024x1024 .f32).view.loc (c : Thread nD τ)) ↦{fullShare} xIn m c)
    ∗ (((gM : Memref sig .tc .vmem S1024x2048 .f32).view.loc (c : Thread nD τ)) ↦{fullShare} gIn m c)
    ∗ (((uM : Memref sig .tc .vmem S1024x2048 .f32).view.loc (c : Thread nD τ)) ↦{fullShare} uIn m c)
    ∗ (((dM : Memref sig .tc .vmem S2048x1024 .f32).view.loc (c : Thread nD τ)) ↦{fullShare} dIn m c)
    ∗ (∃ fo : Buf (Elt F) ((oM : Memref sig .tc .vmem S1024x1024 .f32).view.loc (c : Thread nD τ)), (((oM : Memref sig .tc .vmem S1024x1024 .f32).view.loc (c : Thread nD τ)) ↦{fullShare} fo) ∗ ⌜(∀ r q : ℕ, r < 192 → q < 1024 → oAt fo (K0 0 c + r) q = S1 m 0 c (K0 0 c + r) q) ∧ (∀ r q : ℕ, r < 192 → q < 1024 → oAt fo (K0 1 c + r) q = S1 m 1 c (K0 1 c + r) q) ∧ (∀ r q : ℕ, r < 128 → q < 1024 → oAt fo (K0 2 c + r) q = S1 m 2 c (K0 2 c + r) q)⌝)
    ∗ sbufBack c
    ∗ (∃ f, (sSlot01.view.loc (c : Thread nD τ) ↦[sSlot01.view.set]{fullShare} f) ∗ ⌜∀ r q : ℕ, r < 96 → q < 1024 → Mem.sAt f 0 (192 + r) q = tr (S1 m 0 c ((k0_off3 c 0#32 3#32 1#32 0#32 96#32) 0 + r) q)⌝)
    ∗ (∃ f, sSlot02.view.loc (c : Thread nD τ) ↦[sSlot02.view.set]{fullShare} f)
    ∗ (∃ f, sSlot11.view.loc (c : Thread nD τ) ↦[sSlot11.view.set]{fullShare} f)
    ∗ (∃ f, sSlot12.view.loc (c : Thread nD τ) ↦[sSlot12.view.set]{fullShare} f)
    ∗ (∃ f, sSlot21.view.loc (c : Thread nD τ) ↦[sSlot21.view.set]{fullShare} f)
    ∗ (∃ f, sSlot22.view.loc (c : Thread nD τ) ↦[sSlot22.view.set]{fullShare} f)
    ∗ rbufBack c
    ∗ (∃ f, rSlot00.view.loc (c : Thread nD τ) ↦[rSlot00.view.set]{fullShare} f)
    ∗ (∃ f, rSlot10.view.loc (c : Thread nD τ) ↦[rSlot10.view.set]{fullShare} f)
    ∗ (∃ f, rSlot20.view.loc (c : Thread nD τ) ↦[rSlot20.view.set]{fullShare} f)
    ∗ (∃ f, (aRows01 c).view.loc (c : Thread nD τ) ↦[(aRows01 c).view.set]{fullShare} f)
    ∗ (∃ f, (aRows11 c).view.loc (c : Thread nD τ) ↦[(aRows11 c).view.set]{fullShare} f)
    ∗ (∃ f, (aRows21 c).view.loc (c : Thread nD τ) ↦[(aRows21 c).view.set]{fullShare} f)
    ∗ (∃ f, rSlot01.view.loc ((Mesh.px 1 c) : Thread nD τ) ↦[rSlot01.view.set]{fullShare} f)
    ∗ (∃ f, rSlot02.view.loc ((Mesh.px 4 c) : Thread nD τ) ↦[rSlot02.view.set]{fullShare} f)
    ∗ (∃ f, rSlot11.view.loc ((Mesh.px 3 c) : Thread nD τ) ↦[rSlot11.view.set]{fullShare} f)
    ∗ (∃ f, rSlot12.view.loc ((Mesh.px 1 c) : Thread nD τ) ↦[rSlot12.view.set]{fullShare} f)
    ∗ (∃ f, rSlot21.view.loc ((Mesh.px 4 c) : Thread nD τ) ↦[rSlot21.view.set]{fullShare} f)
    ∗ (∃ f, rSlot22.view.loc ((Mesh.px 2 c) : Thread nD τ) ↦[rSlot22.view.set]{fullShare} f)
    ∗ (∃ f, (aRows01 c).view.loc ((Mesh.px 1 c) : Thread nD τ) ↦[(aRows01 c).view.set]{fullShare} f)
    ∗ (∃ f, (aRows11 c).view.loc ((Mesh.px 3 c) : Thread nD τ) ↦[(aRows11 c).view.set]{fullShare} f)
    ∗ (∃ f, (aRows21 c).view.loc ((Mesh.px 4 c) : Thread nD τ) ↦[(aRows21 c).view.set]{fullShare} f)
    ∗ (∃ f, (aRows00 c).view.loc ((Mesh.px 3 c) : Thread nD τ) ↦[(aRows00 c).view.set]{fullShare} f)
    ∗ (∃ f, (aRows10 c).view.loc ((Mesh.px 4 c) : Thread nD τ) ↦[(aRows10 c).view.set]{fullShare} f)
    ∗ (∃ f, (aRows20 c).view.loc ((Mesh.px 1 c) : Thread nD τ) ↦[(aRows20 c).view.set]{fullShare} f))

/-- Between the thirteenth and the fourteenth printed part: stage 1 is over (the kept quarters hold the sums after two
    stages), ten payments are made, and butterfly 0's kept quarter already stands narrowed in its stage-2 send slot. -/
def PreS2 (c : Dev nD) (W : Waits sig Unit) : sProp 𝕄 :=
  iprop(records m K
    ∗ levAts L lv
    ∗ atPos ER (barCell c) 1 ∅ 0
    ∗ atPos ER (dcell 1 0 0 c) 1 ∅ 0
    ∗ atPos ER (dcell 1 0 1 c) 1 ∅ 0
    ∗ atPos ER (dcell 1 0 2 c) 0 ∅ 0
    ∗ atPos ER (dcell 1 1 0 c) 1 ∅ 0
    ∗ atPos ER (dcell 1 1 1 c) 1 ∅ 0
    ∗ atPos ER (dcell 1 1 2 c) 0 ∅ 0
    ∗ atPos ER (dcell 1 2 0 c) 1 ∅ 0
    ∗ atPos ER (dcell 1 2 1 c) 1 ∅ 0
    ∗ atPos ER (dcell 1 2 2 c) 0 ∅ 0
    ∗ atPos ER (dcell 0 0 0 c) 0 ∅ 0
    ∗ atPos ER (dcell 0 0 1 c) 0 ∅ 0
    ∗ atPos ER (dcell 0 0 2 c) 0 ∅ 0
    ∗ atPos ER (dcell 0 1 0 c) 0 ∅ 0
    ∗ atPos ER (dcell 0 1 1 c) 0 ∅ 0
    ∗ atPos ER (dcell 0 1 2 c) 0 ∅ 0
    ∗ atPos ER (dcell 0 2 0 c) 0 ∅ 0
    ∗ atPos ER (dcell 0 2 1 c) 0 ∅ 0
    ∗ atPos ER (dcell 0 2 2 c) 0 ∅ 0
    ∗ atPos ER (dcell 2 0 0 c) 0 ∅ 0
    ∗ atPos ER (dcell 2 0 1 c) 0 ∅ 0
    ∗ atPos ER (dcell 2 0 2 c) 0 ∅ 0
    ∗ atPos ER (dcell 2 1 0 c) 0 ∅ 0
    ∗ atPos ER (dcell 2 1 1 c) 0 ∅ 0
    ∗ atPos ER (dcell 2 1 2 c) 0 ∅ 0
    ∗ atPos ER (dcell 2 2 0 c) 0 ∅ 0
    ∗ atPos ER (dcell 2 2 1 c) 0 ∅ 0
    ∗ atPos ER (dcell 2 2 2 c) 0 ∅ 0
    ∗ atPos ER (dcell 3 0 0 c) 0 ∅ 0
    ∗ atPos ER (dcell 3 0 1 c) 0 ∅ 0
    ∗ atPos ER (dcell 3 0 2 c) 0 ∅ 0
    ∗ atPos ER (dcell 3 1 0 c) 0 ∅ 0
    ∗ atPos ER (dcell 3 1 1 c) 0 ∅ 0
    ∗ atPos ER (dcell 3 1 2 c) 0 ∅ 0
    ∗ atPos ER (dcell 3 2 0 c) 0 ∅ 0
    ∗ atPos ER (dcell 3 2 1 c) 0 ∅ 0
    ∗ atPos ER (dcell 3 2 2 c) 0 ∅ 0
    ∗ dutyTok ER (dcell 1 0 2 (Mesh.px 4 c)) 0 (0 : Fin 4)
    ∗ dutyTok ER (dcell 1 1 2 (Mesh.px 1 c)) 0 (0 : Fin 4)
    ∗ dutyTok ER (dcell 1 2 2 (Mesh.px 2 c)) 0 (0 : Fin 4)
    ∗ dutyTok ER (dcell 0 0 2 c) 0 (0 : Fin 4)
    ∗ dutyTok ER (dcell 0 1 2 c) 0 (0 : Fin 4)
    ∗ dutyTok ER (dcell 0 2 2 c) 0 (0 : Fin 4)
    ∗ dutyTok ER (dcell 3 0 0 (Mesh.px 3 c)) 0 (0 : Fin 4)
    ∗ dutyTok ER (dcell 3 0 1 (Mesh.px 1 c)) 0 (0 : Fin 4)
    ∗ dutyTok ER (dcell 3 1 0 (Mesh.px 4 c)) 0 (0 : Fin 4)
    ∗ dutyTok ER (dcell 3 1 1 (Mesh.px 3 c)) 0 (0 : Fin 4)
    ∗ dutyTok ER (dcell 3 2 0 (Mesh.px 1 c)) 0 (0 : Fin 4)
    ∗ dutyTok ER (dcell 3 2 1 (Mesh.px 4 c)) 0 (0 : Fin 4)
    ∗ dutyTok ER (dcell 2 0 0 c) 0 (0 : Fin 4)
    ∗ dutyTok ER (dcell 2 0 1 c) 0 (0 : Fin 4)
    ∗ dutyTok ER (dcell 2 1 0 c) 0 (0 : Fin 4)
    ∗ dutyTok ER (dcell 2 1 1 c) 0 (0 : Fin 4)
    ∗ dutyTok ER (dcell 2 2 0 c) 0 (0 : Fin 4)
    ∗ dutyTok ER (dcell 2 2 1 c) 0 (0 : Fin 4)
    ∗ cred (tallyAt (dcell 1 0 2 c) () (namt 1 0 2))
    ∗ cred (tallyAt (dcell 1 1 2 c) () (namt 1 1 2))
    ∗ cred (tallyAt (dcell 1 2 2 c) () (namt 1 2 2))
    ∗ cred (tallyAt (dcell 3 0 0 c) () (namt 3 0 0))
    ∗ cred (tallyAt (dcell 3 0 1 c) () (namt 3 0 1))
    ∗ cred (tallyAt (dcell 3 1 0 c) () (namt 3 1 0))
    ∗ cred (tallyAt (dcell 3 1 1 c) () (namt 3 1 1))
    ∗ cred (tallyAt (dcell 3 2 0 c) () (namt 3 2 0))
    ∗ cred (tallyAt (dcell 3 2 1 c) () (namt 3 2 1))
    ∗ cred (tallyAt (dcell 0 0 0 c) () (namt 0 0 0))
    ∗ cred (tallyAt (dcell 0 0 1 c) () (namt 0 0 1))
    ∗ cred (tallyAt (dcell 0 1 0 c) () (namt 0 1 0))
    ∗ cred (tallyAt (dcell 0 1 1 c) () (namt 0 1 1))
    ∗ cred (tallyAt (dcell 0 2 0 c) () (namt 0 2 0))
    ∗ cred (tallyAt (dcell 0 2 1 c) () (namt 0 2 1))
    ∗ owes (c : Thread nD τ) (Orem c 10) W
    ∗ (((xM : Memref sig .tc .vmem S1024x1024 .f32).view.loc (c : Thread nD τ)) ↦{fullShare} xIn m c)
    ∗ (((gM : Memref sig .tc .vmem S1024x2048 .f32).view.loc (c : Thread nD τ)) ↦{fullShare} gIn m c)
    ∗ (((uM : Memref sig .tc .vmem S1024x2048 .f32).view.loc (c : Thread nD τ)) ↦{fullShare} uIn m c)
    ∗ (((dM : Memref sig .tc .vmem S2048x1024 .f32).view.loc (c : Thread nD τ)) ↦{fullShare} dIn m c)
    ∗ (∃ fo : Buf (Elt F) ((oM : Memref sig .tc .vmem S1024x1024 .f32).view.loc (c : Thread nD τ)), (((oM : Memref sig .tc .vmem S1024x1024 .f32).view.loc (c : Thread nD τ)) ↦{fullShare} fo) ∗ ⌜(∀ r q : ℕ, r < 96 → q < 1024 → oAt fo (K1 0 c + r) q = S2 m 0 c (K1 0 c + r) q) ∧ (∀ r q : ℕ, r < 96 → q < 1024 → oAt fo (K1 1 c + r) q = S2 m 1 c (K1 1 c + r) q) ∧ (∀ r q : ℕ, r < 64 → q < 1024 → oAt fo (K1 2 c + r) q = S2 m 2 c (K1 2 c + r) q)⌝)
    ∗ sbufBack c
    ∗ (∃ f, (sSlot02.view.loc (c : Thread nD τ) ↦[sSlot02.view.set]{fullShare} f) ∗ ⌜∀ r q : ℕ, r < 96 → q < 1024 → Mem.sAt f 0 (288 + r) q = tr (S2 m 0 c (K1 0 c + r) q)⌝)
    ∗ (∃ f, sSlot12.view.loc (c : Thread nD τ) ↦[sSlot12.view.set]{fullShare} f)
    ∗ (∃ f, sSlot22.view.loc (c : Thread nD τ) ↦[sSlot22.view.set]{fullShare} f)
    ∗ rbufBack c
    ∗ (∃ f, rSlot00.view.loc (c : Thread nD τ) ↦[rSlot00.view.set]{fullShare} f)
    ∗ (∃ f, rSlot01.view.loc (c : Thread nD τ) ↦[rSlot01.view.set]{fullShare} f)
    ∗ (∃ f, rSlot10.view.loc (c : Thread nD τ) ↦[rSlot10.view.set]{fullShare} f)
    ∗ (∃ f, rSlot11.view.loc (c : Thread nD τ) ↦[rSlot11.view.set]{fullShare} f)
    ∗ (∃ f, rSlot20.view.loc (c : Thread nD τ) ↦[rSlot20.view.set]{fullShare} f)
    ∗ (∃ f, rSlot21.view.loc (c : Thread nD τ) ↦[rSlot21.view.set]{fullShare} f)
    ∗ (∃ f, (aRows01 c).view.loc (c : Thread nD τ) ↦[(aRows01 c).view.set]{fullShare} f)
    ∗ (∃ f, (aRows11 c).view.loc (c : Thread nD τ) ↦[(aRows11 c).view.set]{fullShare} f)
    ∗ (∃ f, (aRows21 c).view.loc (c : Thread nD τ) ↦[(aRows21 c).view.set]{fullShare} f)
    ∗ (∃ f, rSlot02.view.loc ((Mesh.px 4 c) : Thread nD τ) ↦[rSlot02.view.set]{fullShare} f)
    ∗ (∃ f, rSlot12.view.loc ((Mesh.px 1 c) : Thread nD τ) ↦[rSlot12.view.set]{fullShare} f)
    ∗ (∃ f, rSlot22.view.loc ((Mesh.px 2 c) : Thread nD τ) ↦[rSlot22.view.set]{fullShare} f)
    ∗ (∃ f, (aRows01 c).view.loc ((Mesh.px 1 c) : Thread nD τ) ↦[(aRows01 c).view.set]{fullShare} f)
    ∗ (∃ f, (aRows11 c).view.loc ((Mesh.px 3 c) : Thread nD τ) ↦[(aRows11 c).view.set]{fullShare} f)
    ∗ (∃ f, (aRows21 c).view.loc ((Mesh.px 4 c) : Thread nD τ) ↦[(aRows21 c).view.set]{fullShare} f)
    ∗ (∃ f, (aRows00 c).view.loc ((Mesh.px 3 c) : Thread nD τ) ↦[(aRows00 c).view.set]{fullShare} f)
    ∗ (∃ f, (aRows10 c).view.loc ((Mesh.px 4 c) : Thread nD τ) ↦[(aRows10 c).view.set]{fullShare} f)
    ∗ (∃ f, (aRows20 c).view.loc ((Mesh.px 1 c) : Thread nD τ) ↦[(aRows20 c).view.set]{fullShare} f))

/-- Just before the first all-gather transfer: the exchange is over. The barrier cell and the nine exchange receive
    cells are at round 1, everything else at round 0; the gather's twelve duty tokens, its six receive credits and the
    nine exchange departures' credits are in hand; thirteen payments are made. The inputs are unchanged; the result
    buffer holds anything (the gather rewrites every row); the receive buffer is whole again; the device's own three
    quarters of the gather buffer hold its totals narrowed for the wire; its partners' rows that it will write are in
    hand. -/
def PreAG (c : Dev nD) (W : Waits sig Unit) : sProp 𝕄 :=
  iprop(records m K
    ∗ levAts L lv
    ∗ atPos ER (barCell c) 1 ∅ 0
    ∗ atPos ER (dcell 1 0 0 c) 1 ∅ 0
    ∗ atPos ER (dcell 1 0 1 c) 1 ∅ 0
    ∗ atPos ER (dcell 1 0 2 c) 1 ∅ 0
    ∗ atPos ER (dcell 1 1 0 c) 1 ∅ 0
    ∗ atPos ER (dcell 1 1 1 c) 1 ∅ 0
    ∗ atPos ER (dcell 1 1 2 c) 1 ∅ 0
    ∗ atPos ER (dcell 1 2 0 c) 1 ∅ 0
    ∗ atPos ER (dcell 1 2 1 c) 1 ∅ 0
    ∗ atPos ER (dcell 1 2 2 c) 1 ∅ 0
    ∗ atPos ER (dcell 0 0 0 c) 0 ∅ 0
    ∗ atPos ER (dcell 0 0 1 c) 0 ∅ 0
    ∗ atPos ER (dcell 0 0 2 c) 0 ∅ 0
    ∗ atPos ER (dcell 0 1 0 c) 0 ∅ 0
    ∗ atPos ER (dcell 0 1 1 c) 0 ∅ 0
    ∗ atPos ER (dcell 0 1 2 c) 0 ∅ 0
    ∗ atPos ER (dcell 0 2 0 c) 0 ∅ 0
    ∗ atPos ER (dcell 0 2 1 c) 0 ∅ 0
    ∗ atPos ER (dcell 0 2 2 c) 0 ∅ 0
    ∗ atPos ER (dcell 2 0 0 c) 0 ∅ 0
    ∗ atPos ER (dcell 2 0 1 c) 0 ∅ 0
    ∗ atPos ER (dcell 2 0 2 c) 0 ∅ 0
    ∗ atPos ER (dcell 2 1 0 c) 0 ∅ 0
    ∗ atPos ER (dcell 2 1 1 c) 0 ∅ 0
    ∗ atPos ER (dcell 2 1 2 c) 0 ∅ 0
    ∗ atPos ER (dcell 2 2 0 c) 0 ∅ 0
    ∗ atPos ER (dcell 2 2 1 c) 0 ∅ 0
    ∗ atPos ER (dcell 2 2 2 c) 0 ∅ 0
    ∗ atPos ER (dcell 3 0 0 c) 0 ∅ 0
    ∗ atPos ER (dcell 3 0 1 c) 0 ∅ 0
    ∗ atPos ER (dcell 3 0 2 c) 0 ∅ 0
    ∗ atPos ER (dcell 3 1 0 c) 0 ∅ 0
    ∗ atPos ER (dcell 3 1 1 c) 0 ∅ 0
    ∗ atPos ER (dcell 3 1 2 c) 0 ∅ 0
    ∗ atPos ER (dcell 3 2 0 c) 0 ∅ 0
    ∗ atPos ER (dcell 3 2 1 c) 0 ∅ 0
    ∗ atPos ER (dcell 3 2 2 c) 0 ∅ 0
    ∗ dutyTok ER (dcell 3 0 0 (Mesh.px 3 c)) 0 (0 : Fin 4)
    ∗ dutyTok ER (dcell 3 0 1 (Mesh.px 1 c)) 0 (0 : Fin 4)
    ∗ dutyTok ER (dcell 3 1 0 (Mesh.px 4 c)) 0 (0 : Fin 4)
    ∗ dutyTok ER (dcell 3 1 1 (Mesh.px 3 c)) 0 (0 : Fin 4)
    ∗ dutyTok ER (dcell 3 2 0 (Mesh.px 1 c)) 0 (0 : Fin 4)
    ∗ dutyTok ER (dcell 3 2 1 (Mesh.px 4 c)) 0 (0 : Fin 4)
    ∗ dutyTok ER (dcell 2 0 0 c) 0 (0 : Fin 4)
    ∗ dutyTok ER (dcell 2 0 1 c) 0 (0 : Fin 4)
    ∗ dutyTok ER (dcell 2 1 0 c) 0 (0 : Fin 4)
    ∗ dutyTok ER (dcell 2 1 1 c) 0 (0 : Fin 4)
    ∗ dutyTok ER (dcell 2 2 0 c) 0 (0 : Fin 4)
    ∗ dutyTok ER (dcell 2 2 1 c) 0 (0 : Fin 4)
    ∗ cred (tallyAt (dcell 3 0 0 c) () (namt 3 0 0))
    ∗ cred (tallyAt (dcell 3 0 1 c) () (namt 3 0 1))
    ∗ cred (tallyAt (dcell 3 1 0 c) () (namt 3 1 0))
    ∗ cred (tallyAt (dcell 3 1 1 c) () (namt 3 1 1))
    ∗ cred (tallyAt (dcell 3 2 0 c) () (namt 3 2 0))
    ∗ cred (tallyAt (dcell 3 2 1 c) () (namt 3 2 1))
    ∗ cred (tallyAt (dcell 0 0 0 c) () (namt 0 0 0))
    ∗ cred (tallyAt (dcell 0 0 1 c) () (namt 0 0 1))
    ∗ cred (tallyAt (dcell 0 0 2 c) () (namt 0 0 2))
    ∗ cred (tallyAt (dcell 0 1 0 c) () (namt 0 1 0))
    ∗ cred (tallyAt (dcell 0 1 1 c) () (namt 0 1 1))
    ∗ cred (tallyAt (dcell 0 1 2 c) () (namt 0 1 2))
    ∗ cred (tallyAt (dcell 0 2 0 c) () (namt 0 2 0))
    ∗ cred (tallyAt (dcell 0 2 1 c) () (namt 0 2 1))
    ∗ cred (tallyAt (dcell 0 2 2 c) () (namt 0 2 2))
    ∗ owes (c : Thread nD τ) (Orem c 13) W
    ∗ (((xM : Memref sig .tc .vmem S1024x1024 .f32).view.loc (c : Thread nD τ)) ↦{fullShare} xIn m c)
    ∗ (((gM : Memref sig .tc .vmem S1024x2048 .f32).view.loc (c : Thread nD τ)) ↦{fullShare} gIn m c)
    ∗ (((uM : Memref sig .tc .vmem S1024x2048 .f32).view.loc (c : Thread nD τ)) ↦{fullShare} uIn m c)
    ∗ (((dM : Memref sig .tc .vmem S2048x1024 .f32).view.loc (c : Thread nD τ)) ↦{fullShare} dIn m c)
    ∗ (∃ fo : Buf (Elt F) ((oM : Memref sig .tc .vmem S1024x1024 .f32).view.loc (c : Thread nD τ)), ((oM : Memref sig .tc .vmem S1024x1024 .f32).view.loc (c : Thread nD τ)) ↦{fullShare} fo)
    ∗ sbufBack c
    ∗ (∃ f : Buf (Elt F) ((rM : Memref sig .tc .vmem S3x384x1024 .bf16).view.loc (c : Thread nD τ)), ((rM : Memref sig .tc .vmem S3x384x1024 .bf16).view.loc (c : Thread nD τ)) ↦{fullShare} f)
    ∗ (∃ f, ((aRows01 c).view.loc (c : Thread nD τ) ↦[(aRows01 c).view.set]{fullShare} f) ∗ ⌜∀ r q : ℕ, r < 96 → q < 1024 → aAt f (K1 0 c + r) q = tr (S3 m 0 c (K1 0 c + r) q)⌝)
    ∗ (∃ f, ((aRows11 c).view.loc (c : Thread nD τ) ↦[(aRows11 c).view.set]{fullShare} f) ∗ ⌜∀ r q : ℕ, r < 96 → q < 1024 → aAt f (K1 1 c + r) q = tr (S3 m 1 c (K1 1 c + r) q)⌝)
    ∗ (∃ f, ((aRows21 c).view.loc (c : Thread nD τ) ↦[(aRows21 c).view.set]{fullShare} f) ∗ ⌜∀ r q : ℕ, r < 64 → q < 1024 → aAt f (K1 2 c + r) q = tr (S3 m 2 c (K1 2 c + r) q)⌝)
    ∗ (∃ f, (aRows01 c).view.loc ((Mesh.px 1 c) : Thread nD τ) ↦[(aRows01 c).view.set]{fullShare} f)
    ∗ (∃ f, (aRows11 c).view.loc ((Mesh.px 3 c) : Thread nD τ) ↦[(aRows11 c).view.set]{fullShare} f)
    ∗ (∃ f, (aRows21 c).view.loc ((Mesh.px 4 c) : Thread nD τ) ↦[(aRows21 c).view.set]{fullShare} f)
    ∗ (∃ f, (aRows00 c).view.loc ((Mesh.px 3 c) : Thread nD τ) ↦[(aRows00 c).view.set]{fullShare} f)
    ∗ (∃ f, (aRows10 c).view.loc ((Mesh.px 4 c) : Thread nD τ) ↦[(aRows10 c).view.set]{fullShare} f)
    ∗ (∃ f, (aRows20 c).view.loc ((Mesh.px 1 c) : Thread nD τ) ↦[(aRows20 c).view.set]{fullShare} f))

/-- After the last arrival and the first two departures' waits: every receive cell is at round 1, the result is
    complete, nineteen payments are made, and thirteen departures remain to be waited for. -/
def PreSendWaits (c : Dev nD) (W : Waits sig Unit) : sProp 𝕄 :=
  iprop(records m K
    ∗ levAts L lv
    ∗ atPos ER (barCell c) 1 ∅ 0
    ∗ atPos ER (dcell 1 0 0 c) 1 ∅ 0
    ∗ atPos ER (dcell 1 0 1 c) 1 ∅ 0
    ∗ atPos ER (dcell 1 0 2 c) 1 ∅ 0
    ∗ atPos ER (dcell 1 1 0 c) 1 ∅ 0
    ∗ atPos ER (dcell 1 1 1 c) 1 ∅ 0
    ∗ atPos ER (dcell 1 1 2 c) 1 ∅ 0
    ∗ atPos ER (dcell 1 2 0 c) 1 ∅ 0
    ∗ atPos ER (dcell 1 2 1 c) 1 ∅ 0
    ∗ atPos ER (dcell 1 2 2 c) 1 ∅ 0
    ∗ atPos ER (dcell 3 0 0 c) 1 ∅ 0
    ∗ atPos ER (dcell 3 0 1 c) 1 ∅ 0
    ∗ atPos ER (dcell 3 0 2 c) 0 ∅ 0
    ∗ atPos ER (dcell 3 1 0 c) 1 ∅ 0
    ∗ atPos ER (dcell 3 1 1 c) 1 ∅ 0
    ∗ atPos ER (dcell 3 1 2 c) 0 ∅ 0
    ∗ atPos ER (dcell 3 2 0 c) 1 ∅ 0
    ∗ atPos ER (dcell 3 2 1 c) 1 ∅ 0
    ∗ atPos ER (dcell 3 2 2 c) 0 ∅ 0
    ∗ atPos ER (dcell 0 0 0 c) 1 ∅ 0
    ∗ atPos ER (dcell 0 0 1 c) 0 ∅ 0
    ∗ atPos ER (dcell 0 0 2 c) 0 ∅ 0
    ∗ atPos ER (dcell 0 1 0 c) 1 ∅ 0
    ∗ atPos ER (dcell 0 1 1 c) 0 ∅ 0
    ∗ atPos ER (dcell 0 1 2 c) 0 ∅ 0
    ∗ atPos ER (dcell 0 2 0 c) 0 ∅ 0
    ∗ atPos ER (dcell 0 2 1 c) 0 ∅ 0
    ∗ atPos ER (dcell 0 2 2 c) 0 ∅ 0
    ∗ atPos ER (dcell 2 0 0 c) 0 ∅ 0
    ∗ atPos ER (dcell 2 0 1 c) 0 ∅ 0
    ∗ atPos ER (dcell 2 0 2 c) 0 ∅ 0
    ∗ atPos ER (dcell 2 1 0 c) 0 ∅ 0
    ∗ atPos ER (dcell 2 1 1 c) 0 ∅ 0
    ∗ atPos ER (dcell 2 1 2 c) 0 ∅ 0
    ∗ atPos ER (dcell 2 2 0 c) 0 ∅ 0
    ∗ atPos ER (dcell 2 2 1 c) 0 ∅ 0
    ∗ atPos ER (dcell 2 2 2 c) 0 ∅ 0
    ∗ cred (tallyAt (dcell 0 0 1 c) () (namt 0 0 1))
    ∗ cred (tallyAt (dcell 0 0 2 c) () (namt 0 0 2))
    ∗ cred (tallyAt (dcell 0 1 1 c) () (namt 0 1 1))
    ∗ cred (tallyAt (dcell 0 1 2 c) () (namt 0 1 2))
    ∗ cred (tallyAt (dcell 0 2 0 c) () (namt 0 2 0))
    ∗ cred (tallyAt (dcell 0 2 1 c) () (namt 0 2 1))
    ∗ cred (tallyAt (dcell 0 2 2 c) () (namt 0 2 2))
    ∗ cred (tallyAt (dcell 2 0 0 c) () (namt 2 0 0))
    ∗ cred (tallyAt (dcell 2 0 1 c) () (namt 2 0 1))
    ∗ cred (tallyAt (dcell 2 1 0 c) () (namt 2 1 0))
    ∗ cred (tallyAt (dcell 2 1 1 c) () (namt 2 1 1))
    ∗ cred (tallyAt (dcell 2 2 0 c) () (namt 2 2 0))
    ∗ cred (tallyAt (dcell 2 2 1 c) () (namt 2 2 1))
    ∗ owes (c : Thread nD τ) (Orem c 19) W
    ∗ (((xM : Memref sig .tc .vmem S1024x1024 .f32).view.loc (c : Thread nD τ)) ↦{fullShare} xIn m c)
    ∗ (((gM : Memref sig .tc .vmem S1024x2048 .f32).view.loc (c : Thread nD τ)) ↦{fullShare} gIn m c)
    ∗ (((uM : Memref sig .tc .vmem S1024x2048 .f32).view.loc (c : Thread nD τ)) ↦{fullShare} uIn m c)
    ∗ (((dM : Memref sig .tc .vmem S2048x1024 .f32).view.loc (c : Thread nD τ)) ↦{fullShare} dIn m c)
    ∗ (((oM : Memref sig .tc .vmem S1024x1024 .f32).view.loc (c : Thread nD τ)) ↦{fullShare} outFin m c)
    ∗ sbufBack c
    ∗ rsSendPay 0 0 c
    ∗ rsSendPay 1 0 c
    ∗ (∃ f : Buf (Elt F) ((rM : Memref sig .tc .vmem S3x384x1024 .bf16).view.loc (c : Thread nD τ)), ((rM : Memref sig .tc .vmem S3x384x1024 .bf16).view.loc (c : Thread nD τ)) ↦{fullShare} f)
    ∗ abufBack c)

end Cert.KernelIdeal.Cuts

end
-- ==== Proof.BodyPost.lean ====
/-
  The body obligation's precondition and postcondition at a device, named: the pipeline's proof data before the point with
  the five staging buffers at what the windows fetched, and after it with the result buffer at the all-reduced rows.
-/
import proofs.«900524_g7700000000000525_dist_gated_mlp_tp_i_m1024_h2048_d1024_v7x_i8_f32_1_alg».proof.Proof.Iface
import proofs.«900524_g7700000000000525_dist_gated_mlp_tp_i_m1024_h2048_d1024_v7x_i8_f32_1_alg».proof.Proof.Tables
import proofs.«900524_g7700000000000525_dist_gated_mlp_tp_i_m1024_h2048_d1024_v7x_i8_f32_1_alg».proof.Proof.Mem
import proofs.«900524_g7700000000000525_dist_gated_mlp_tp_i_m1024_h2048_d1024_v7x_i8_f32_1_alg».proof.Proof.BodyKit
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen Cert.KernelIdeal.Sched Cert.KernelIdeal.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Ob

variable (m : (ℓ : Loc nD τ sig) → Buf (Elt F) ℓ) (ρ : Dev nD → PrngReg)

set_option maxRecDepth 4000 in
def bodyPre' (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ
    ∗ stg c cc0_stg0_0 (xIn m c) ∗ stg c cc0_stg1_0 (gIn m c) ∗ stg c cc0_stg2_0 (uIn m c) ∗ stg c cc0_stg3_0 (dIn m c)
    ∗ stg c cc0_stg4_0 (outFin m c))

end Ob

end Cert.KernelIdeal.Body

end
-- ==== Proof.BodyR0.lean ====
/-
  Exchange stage 0's arrivals on one device: from the state once the three stage-0 blocks are on their way (the kept
  halves of butterflies 0 and 1 hold the device's own product) to the state before stage 1. The kept tile of butterfly 2
  is stored; then, butterfly by butterfly, the device waits for the partner's half, adds it as it came over the wire to
  its own kept rows; last it narrows the quarter of butterfly 0 it sends at stage 1 into its send slot.
-/
import proofs.«900524_g7700000000000525_dist_gated_mlp_tp_i_m1024_h2048_d1024_v7x_i8_f32_1_alg».proof.Proof.Cuts
import proofs.«900524_g7700000000000525_dist_gated_mlp_tp_i_m1024_h2048_d1024_v7x_i8_f32_1_alg».proof.Proof.BodyKit

noncomputable section

namespace Cert.KernelIdeal.Body

open Cert.KernelIdeal Cert.KernelIdeal.Gen Cert.KernelIdeal.Sched Cert.KernelIdeal.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

namespace R0

/-! ## Regions: a slot's rows through the slot's own view and through an access to the buffer -/

theorem slot_set_eq {b soff h : ℕ} (M : Memref sig .tc .vmem S3x384x1024 .bf16)
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    ((M.slice (Rect.unit (s := S3x384x1024) ![b, soff, 0] ![1, h, 1024] inb) (fun _ => rfl)).squeeze ⟨2, ![h, 1024]⟩ hsq).view.set
      = (M.access (Rect.unit (s := S3x384x1024) ![b, soff, 0] ![1, h, 1024] inb)).set :=
  View.set_reshape _ _

theorem slot_load_sub {b soff h : ℕ} (M : Memref sig .tc .vmem S3x384x1024 .bf16)
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    M.view.setOn (Rect.unit (s := S3x384x1024) ![b, soff, 0] ![1, h, 1024] inb).toLoadRect.set
      ⊆ ((M.slice (Rect.unit (s := S3x384x1024) ![b, soff, 0] ![1, h, 1024] inb) (fun _ => rfl)).squeeze ⟨2, ![h, 1024]⟩ hsq).view.set := by
  rw [slot_set_eq M inb hsq, View.set_slice]
  exact Finset.Subset.refl _

theorem slot_store_sub {b soff h : ℕ} (M : Memref sig .tc .vmem S3x384x1024 .bf16)
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    (M.access (Rect.unit (s := S3x384x1024) ![b, soff, 0] ![1, h, 1024] inb)).setOn Finset.univ
      ⊆ ((M.slice (Rect.unit (s := S3x384x1024) ![b, soff, 0] ![1, h, 1024] inb) (fun _ => rfl)).squeeze ⟨2, ![h, 1024]⟩ hsq).view.set := by
  rw [slot_set_eq M inb hsq, View.setOn_univ]

/-! ## Rows: the three kept halves lie in their butterflies' ranges; the quarter sent at stage 1 lies in the kept half -/

theorem K0_ranges (c : Dev nD) : K0 0 c + 192 ≤ 384 ∧ 384 ≤ K0 1 c ∧ K0 1 c + 192 ≤ 768 ∧ 768 ≤ K0 2 c ∧ K0 2 c + 128 ≤ 1024 := by
  revert c; decide +kernel

theorem sentq_in_half (c : Dev nD) :
    (k0_off3 c 0#32 3#32 1#32 0#32 96#32) 0 = K0 0 c ∨ (k0_off3 c 0#32 3#32 1#32 0#32 96#32) 0 = K0 0 c + 96 := by
  revert c; decide +kernel

theorem off1c_col (c : Dev nD) : (k0_off1 c 0#32 3#32 192#32 0#32) 1 = 0 := by rw [Mesh.off1_c]; rfl
theorem off1d_col (c : Dev nD) : (k0_off1 c 384#32 4#32 192#32 0#32) 1 = 0 := by rw [Mesh.off1_d]; rfl
theorem off2b_col (c : Dev nD) : (k0_off2 c 128#32 0#32) 1 = 0 := by rw [Mesh.off2_b]; rfl
theorem off3a_col (c : Dev nD) : (k0_off3 c 0#32 3#32 1#32 0#32 96#32) 1 = 0 := by rw [Mesh.off3_a]; rfl

/-! ## Values, row by row -/

omit [FloatOps F] in
theorem hz2 : (![0, 0] : Fin 2 → Nat) = fun _ => 0 := funext fun a => by fin_cases a <;> rfl

theorem read_g (f : (cc0_stg1_0 : Ref sig .tc).ty.Contents (Elt F)) :
    (gM : Memref sig .tc .vmem S1024x2048 .f32).view.readAt (Elt F) (Rect.unit (s := S1024x2048) ![0, 0] S1024x2048.size inb_S1024x2048_S1024x2048_0_0).toLoadRect f = f :=
  Memref.readAt_unit_zero (Elt F) cc0_stg1_0 hz2 _ f
theorem read_u (f : (cc0_stg2_0 : Ref sig .tc).ty.Contents (Elt F)) :
    (uM : Memref sig .tc .vmem S1024x2048 .f32).view.readAt (Elt F) (Rect.unit (s := S1024x2048) ![0, 0] S1024x2048.size inb_S1024x2048_S1024x2048_0_0).toLoadRect f = f :=
  Memref.readAt_unit_zero (Elt F) cc0_stg2_0 hz2 _ f
theorem read_d (f : (cc0_stg3_0 : Ref sig .tc).ty.Contents (Elt F)) :
    (dM : Memref sig .tc .vmem S2048x1024 .f32).view.readAt (Elt F) (Rect.unit (s := S2048x1024) ![0, 0] S2048x1024.size inb_S2048x1024_S2048x1024_0_0).toLoadRect f = f :=
  Memref.readAt_unit_zero (Elt F) cc0_stg3_0 hz2 _ f

/-- A row of the half of butterfly 2 a device keeps at stage 0 holds its own product, read off the kept tile. -/
theorem S0_kept2 (m : (ℓ : Loc nD τ sig) → Buf (Elt F) ℓ) (c : Dev nD) (r q : ℕ) (hr : r < 128) (hq : q < 1024) :
    S0 m 2 c (K0 2 c + r) q = tK2 m c (ix2 ⟨r, hr⟩ ⟨q, hq⟩) := by
  show (if (k0_off2 c 0#32 128#32) 0 ≤ (k0_off2 c 128#32 0#32) 0 + r ∧ (k0_off2 c 128#32 0#32) 0 + r < (k0_off2 c 0#32 128#32) 0 + 128
         then at128 (tS2 m c) ((k0_off2 c 128#32 0#32) 0 + r - (k0_off2 c 0#32 128#32) 0) q else at128 (tK2 m c) ((k0_off2 c 128#32 0#32) 0 + r - (k0_off2 c 128#32 0#32) 0) q) = _
  have hd := Rows.half_disj_b2 c
  rw [if_neg (by omega), Nat.add_sub_cancel_left]
  unfold at128
  congr 1
  simp only [Nat.mod_eq_of_lt hr, Nat.mod_eq_of_lt hq]

/-- The kept tile of butterfly 2, stored from the value the part before hands on: its rows hold the device's own product. -/
theorem kept2_rows (m : (ℓ : Loc nD τ sig) → Buf (Elt F) ℓ) (c : Dev nD) (v184 : FVec F S128x1024 .f32)
    (hv : v184 = k0_pay12 (xRows128 m c (k0_off2 c 128#32 0#32) (k0_off2_inb c 1)))
    (fo : (cc0_stg4_0 : Ref sig .tc).ty.Contents (Elt F)) :
    ∀ r q : ℕ, r < 128 → q < 1024 →
      oAt (((oM : Memref sig .tc .vmem S1024x1024 .f32).access (Rect.unit (s := S1024x1024) (k0_off2 c 128#32 0#32) S128x1024.size (k0_off2_inb c 1))).write (Elt F) fo
        (k0_pay13 v184 ((gM : Memref sig .tc .vmem S1024x2048 .f32).view.readAt (Elt F) (Rect.unit (s := S1024x2048) ![0, 0] S1024x2048.size inb_S1024x2048_S1024x2048_0_0).toLoadRect (gIn m c))
          ((uM : Memref sig .tc .vmem S1024x2048 .f32).view.readAt (Elt F) (Rect.unit (s := S1024x2048) ![0, 0] S1024x2048.size inb_S1024x2048_S1024x2048_0_0).toLoadRect (uIn m c))
          ((dM : Memref sig .tc .vmem S2048x1024 .f32).view.readAt (Elt F) (Rect.unit (s := S2048x1024) ![0, 0] S2048x1024.size inb_S2048x1024_S2048x1024_0_0).toLoadRect (dIn m c))) Finset.univ) (K0 2 c + r) q
        = S0 m 2 c (K0 2 c + r) q := by
  intro r q hr hq
  rw [S0_kept2 m c r q hr hq]
  refine (Mem.oAt_store (k0_off2 c 128#32 0#32) (k0_off2_inb c 1) (off2b_col c) fo _ r q hr hq).trans ?_
  rw [read_g, read_u, read_d, hv]
  rfl

/-- A send slot after the device's rows of the result buffer are stored into it narrowed: it holds those rows narrowed. -/
theorem sent_rows {b soff h : ℕ}
    (inb3 : ∀ a, (![b, soff, 0] : Fin 3 → ℕ) a + (![1, h, 1024] : Fin 3 → ℕ) a ≤ S3x384x1024.size a)
    (o : Fin 2 → ℕ) (inb2 : ∀ a, o a + (![h, 1024] : Fin 2 → ℕ) a ≤ S1024x1024.size a) (ho : o 1 = 0)
    (pay : ((⟨2, ![h, 1024]⟩ : Shape).Idx → F .f32) → ((⟨3, ![1, h, 1024]⟩ : Shape).Idx → F .bf16))
    (hpay : ∀ (v : (⟨2, ![h, 1024]⟩ : Shape).Idx → F .f32) (u : Fin 1) (r : Fin h) (q : Fin 1024), pay v (ix3 u r q) = tr (v (ix2 r q)))
    (fo : (cc0_stg4_0 : Ref sig .tc).ty.Contents (Elt F)) (fs : (cc0_scratch0 : Ref sig .tc).ty.Contents (Elt F))
    (val : ℕ → ℕ → F .f32) (hfo : ∀ r q : ℕ, r < h → q < 1024 → oAt fo (o 0 + r) q = val r q) :
    ∀ r q : ℕ, r < h → q < 1024 →
      Mem.sAt ((sM.access (Rect.unit (s := S3x384x1024) ![b, soff, 0] ![1, h, 1024] inb3)).write (Elt F) fs
        (pay (oM.view.readAt (Elt F) (Rect.unit (s := S1024x1024) o ![h, 1024] inb2).toLoadRect fo)) Finset.univ) b (soff + r) q = tr (val r q) := by
  intro r q hr hq
  refine (Mem.sAt_store inb3 fs _ r q hr hq).trans ?_
  refine (hpay _ 0 ⟨r, hr⟩ ⟨q, hq⟩).trans ?_
  exact congrArg tr ((Mem.oAt_load o inb2 ho fo r q hr hq).trans (hfo r q hr hq))

/-- The kept rows after the partner's rows, as they came over the wire, are added to them. -/
theorem added_rows {b soff h : ℕ}
    (inb3 : ∀ a, (![b, soff, 0] : Fin 3 → ℕ) a + (![1, h, 1024] : Fin 3 → ℕ) a ≤ S3x384x1024.size a)
    (o : Fin 2 → ℕ) (inb2 : ∀ a, o a + (![h, 1024] : Fin 2 → ℕ) a ≤ S1024x1024.size a) (ho : o 1 = 0)
    (pay : ((⟨2, ![h, 1024]⟩ : Shape).Idx → F .f32) → ((⟨3, ![1, h, 1024]⟩ : Shape).Idx → F .bf16) → ((⟨2, ![h, 1024]⟩ : Shape).Idx → F .f32))
    (hpay : ∀ (a : (⟨2, ![h, 1024]⟩ : Shape).Idx → F .f32) (w : (⟨3, ![1, h, 1024]⟩ : Shape).Idx → F .bf16) (r : Fin h) (q : Fin 1024),
      pay a w (ix2 r q) = FloatOps.addf (a (ix2 r q)) (FloatOps.extf .f32 bitsLt_bf16_f32 (w (ix3 0 r q))))
    (fo : (cc0_stg4_0 : Ref sig .tc).ty.Contents (Elt F)) (fr : (cc0_scratch1 : Ref sig .tc).ty.Contents (Elt F))
    (own part : ℕ → ℕ → F .f32)
    (hfo : ∀ r q : ℕ, r < h → q < 1024 → oAt fo (o 0 + r) q = own r q)
    (hfr : ∀ r q : ℕ, r < h → q < 1024 → rAt fr b (soff + r) q = tr (part r q)) :
    ∀ r q : ℕ, r < h → q < 1024 →
      oAt ((oM.access (Rect.unit (s := S1024x1024) o ![h, 1024] inb2)).write (Elt F) fo
        (pay (oM.view.readAt (Elt F) (Rect.unit (s := S1024x1024) o ![h, 1024] inb2).toLoadRect fo)
          (rM.view.readAt (Elt F) (Rect.unit (s := S3x384x1024) ![b, soff, 0] ![1, h, 1024] inb3).toLoadRect fr)) Finset.univ) (o 0 + r) q
        = FloatOps.addf (own r q) (wire (part r q)) := by
  intro r q hr hq
  refine (Mem.oAt_store o inb2 ho fo _ r q hr hq).trans ?_
  refine (hpay _ _ ⟨r, hr⟩ ⟨q, hq⟩).trans ?_
  have e1 := (Mem.oAt_load o inb2 ho fo r q hr hq).trans (hfo r q hr hq)
  have e2 := (Mem.rAt_load inb3 fr 0 r q hr hq).trans (hfr r q hr hq)
  rw [e1, e2]
  rfl

/-- Rows a store does not touch keep a fact about them. -/
theorem kept_rows {h h' : ℕ} (o : Fin 2 → ℕ) (inb : ∀ a, o a + (![h, 1024] : Fin 2 → ℕ) a ≤ S1024x1024.size a)
    (fo : (cc0_stg4_0 : Ref sig .tc).ty.Contents (Elt F)) (v : (⟨2, ![h, 1024]⟩ : Shape).Idx → F .f32)
    (base : ℕ) (val : ℕ → ℕ → F .f32) (hb : base + h' ≤ 1024) (hmiss : base + h' ≤ o 0 ∨ o 0 + h ≤ base)
    (hfo : ∀ r q : ℕ, r < h' → q < 1024 → oAt fo (base + r) q = val r q) :
    ∀ r q : ℕ, r < h' → q < 1024 →
      oAt ((oM.access (Rect.unit (s := S1024x1024) o ![h, 1024] inb)).write (Elt F) fo v Finset.univ) (base + r) q = val r q := by
  intro r q hr hq
  refine (Mem.oAt_store_miss o inb fo v (base + r) q (by omega) (by omega)).trans (hfo r q hr hq)

/-- The first addition's three named steps are one widen-and-add. -/
theorem pay16_14_15 (a : Vec F S192x1024 .f32) (w : Vec F S1x192x1024 .bf16) (r : Fin 192) (q : Fin 1024) :
    k0_pay16 (k0_pay14 a) (k0_pay15 w) (ix2 r q) = FloatOps.addf (a (ix2 r q)) (FloatOps.extf .f32 bitsLt_bf16_f32 (w (ix3 0 r q))) := by
  rw [Mem.pay16_apply, Mem.pay14_apply, Mem.pay15_apply]

/-- The contents of a held region may be forgotten but for a fact about them. -/
theorem pt_forget {ℓ : Loc nD τ sig} {S : Finset (Idx ℓ)} {q : PosShare TreeShare} (f : Buf (Elt F) ℓ) (φ : Buf (Elt F) ℓ → Prop) (h : φ f) :
    ((ℓ ↦[S]{q} f) : sProp 𝕄) ⊢ iprop(∃ g, (ℓ ↦[S]{q} g) ∗ ⌜φ g⌝) := by
  iintro H
  iexists f
  isplitl [H]; · iexact H
  ipureintro; exact h

/-- What the arrivals of stage 0 hand the device. -/
theorem got0 (m : (ℓ : Loc nD τ sig) → Buf (Elt F) ℓ) (c : Dev nD) : rsRecvPay m 0 0 c ⊢ (iprop(∃ f, (rSlot00.view.loc (c : Thread nD τ) ↦[rSlot00.view.set]{fullShare} f) ∗ ⌜∀ r q : ℕ, r < 192 → q < 1024 → rAt f 0 (0 + r) q = tr (S0 m 0 (Mesh.px 3 c) (K0 0 c + r) q)⌝) : sProp 𝕄) :=
  BI.Entails.refl _
theorem got1 (m : (ℓ : Loc nD τ sig) → Buf (Elt F) ℓ) (c : Dev nD) : rsRecvPay m 1 0 c ⊢ (iprop(∃ f, (rSlot10.view.loc (c : Thread nD τ) ↦[rSlot10.view.set]{fullShare} f) ∗ ⌜∀ r q : ℕ, r < 192 → q < 1024 → rAt f 1 (0 + r) q = tr (S0 m 1 (Mesh.px 4 c) (K0 1 c + r) q)⌝) : sProp 𝕄) :=
  BI.Entails.refl _
theorem got2 (m : (ℓ : Loc nD τ sig) → Buf (Elt F) ℓ) (c : Dev nD) : rsRecvPay m 2 0 c ⊢ (iprop(∃ f, (rSlot20.view.loc (c : Thread nD τ) ↦[rSlot20.view.set]{fullShare} f) ∗ ⌜∀ r q : ℕ, r < 128 → q < 1024 → rAt f 2 (0 + r) q = tr (S0 m 2 (Mesh.px 1 c) (K0 2 c + r) q)⌝) : sProp 𝕄) :=
  BI.Entails.refl _

/-! ## What the stage changes -/

/-- After the arrivals of stage 0: the three receive cells at round 1, still seven payments made, the three weight
    buffers as they were, the kept halves of the result buffer holding the sums after one stage, butterfly 0's quarter for
    stage 1 narrowed in its send slot, and the three receive slots back. -/
def R0Post (m : (ℓ : Loc nD τ sig) → Buf (Elt F) ℓ) (c : Dev nD) (W : Waits sig Unit) : sProp 𝕄 :=
  iprop(atPos ER (dcell 1 0 0 c) 1 ∅ 0 ∗ atPos ER (dcell 1 1 0 c) 1 ∅ 0 ∗ atPos ER (dcell 1 2 0 c) 1 ∅ 0
    ∗ owes (c : Thread nD τ) (Orem c 7) W
    ∗ (((gM : Memref sig .tc .vmem S1024x2048 .f32).view.loc (c : Thread nD τ)) ↦{fullShare} gIn m c)
    ∗ (((uM : Memref sig .tc .vmem S1024x2048 .f32).view.loc (c : Thread nD τ)) ↦{fullShare} uIn m c)
    ∗ (((dM : Memref sig .tc .vmem S2048x1024 .f32).view.loc (c : Thread nD τ)) ↦{fullShare} dIn m c)
    ∗ (∃ fo : Buf (Elt F) ((oM : Memref sig .tc .vmem S1024x1024 .f32).view.loc (c : Thread nD τ)), (((oM : Memref sig .tc .vmem S1024x1024 .f32).view.loc (c : Thread nD τ)) ↦{fullShare} fo) ∗ ⌜(∀ r q : ℕ, r < 192 → q < 1024 → oAt fo (K0 0 c + r) q = S1 m 0 c (K0 0 c + r) q) ∧ (∀ r q : ℕ, r < 192 → q < 1024 → oAt fo (K0 1 c + r) q = S1 m 1 c (K0 1 c + r) q) ∧ (∀ r q : ℕ, r < 128 → q < 1024 → oAt fo (K0 2 c + r) q = S1 m 2 c (K0 2 c + r) q)⌝)
    ∗ (∃ f, (sSlot01.view.loc (c : Thread nD τ) ↦[sSlot01.view.set]{fullShare} f) ∗ ⌜∀ r q : ℕ, r < 96 → q < 1024 → Mem.sAt f 0 (192 + r) q = tr (S1 m 0 c ((k0_off3 c 0#32 3#32 1#32 0#32 96#32) 0 + r) q)⌝)
    ∗ (∃ f, rSlot00.view.loc (c : Thread nD τ) ↦[rSlot00.view.set]{fullShare} f)
    ∗ (∃ f, rSlot10.view.loc (c : Thread nD τ) ↦[rSlot10.view.set]{fullShare} f)
    ∗ (∃ f, rSlot20.view.loc (c : Thread nD τ) ↦[rSlot20.view.set]{fullShare} f))

/-! ## The stage, step by step -/

set_option maxRecDepth 8192 in
set_option maxHeartbeats 4000000 in
/-- The arrivals of stage 0 over what they touch: the kept tile of butterfly 2 is stored; for each butterfly the wait for
    the partner's half, the addition into the kept rows; then butterfly 0's stage-1 quarter narrowed into its slot. -/
theorem r0_core (m : (ℓ : Loc nD τ sig) → Buf (Elt F) ℓ) (K : Dev nD × CIx → ℕ) (c : Dev nD) (W : Waits sig Unit)
    (v2 v33 v51 v89 v127 : BitVec 32) (v17 v19 v21 : BitVec 1) (v184 : FVec F S128x1024 .f32)
    (hv : v184 = k0_pay12 (xRows128 m c (k0_off2 c 128#32 0#32) (k0_off2_inb c 1))) {α : Type}
    (kk : (v208 v227 : BitVec 32) → (Σ' (v246 : BitVec 32) (v256 : BitVec 32), BitVec 1) → Prog (TpuEff nD τ sig (Elt F) Λ₀ .tc) α) (Q : α → sProp 𝕄) :
    iprop(records m K ∗ levAts L lv
        ∗ atPos ER (dcell 1 0 0 c) 0 ∅ 0 ∗ atPos ER (dcell 1 1 0 c) 0 ∅ 0 ∗ atPos ER (dcell 1 2 0 c) 0 ∅ 0
        ∗ cred (tallyAt (dcell 1 0 0 c) () (namt 1 0 0)) ∗ cred (tallyAt (dcell 1 1 0 c) () (namt 1 1 0)) ∗ cred (tallyAt (dcell 1 2 0 c) () (namt 1 2 0))
        ∗ owes (c : Thread nD τ) (Orem c 7) W
        ∗ (((gM : Memref sig .tc .vmem S1024x2048 .f32).view.loc (c : Thread nD τ)) ↦{fullShare} gIn m c)
        ∗ (((uM : Memref sig .tc .vmem S1024x2048 .f32).view.loc (c : Thread nD τ)) ↦{fullShare} uIn m c)
        ∗ (((dM : Memref sig .tc .vmem S2048x1024 .f32).view.loc (c : Thread nD τ)) ↦{fullShare} dIn m c)
        ∗ (∃ fo : Buf (Elt F) ((oM : Memref sig .tc .vmem S1024x1024 .f32).view.loc (c : Thread nD τ)), (((oM : Memref sig .tc .vmem S1024x1024 .f32).view.loc (c : Thread nD τ)) ↦{fullShare} fo) ∗ ⌜(∀ r q : ℕ, r < 192 → q < 1024 → oAt fo (K0 0 c + r) q = S0 m 0 c (K0 0 c + r) q) ∧ (∀ r q : ℕ, r < 192 → q < 1024 → oAt fo (K0 1 c + r) q = S0 m 1 c (K0 1 c + r) q)⌝)
        ∗ (∃ f, sSlot01.view.loc (c : Thread nD τ) ↦[sSlot01.view.set]{fullShare} f))
      ⊢ iprop((R0Post m c (insert (SemLoc.dma (dsem 1 2 0), ()) (insert (SemLoc.dma (dsem 1 1 0), ()) (insert (SemLoc.dma (dsem 1 0 0), ()) W)))
            -∗ wp frame (wpE (defs₀ (F := F)) 𝒱₀ (c : Thread nD τ) none) Set.univ (kk (Scalar.addi 0#32 (Scalar.select v17 192#32 0#32)) (Scalar.addi 384#32 (Scalar.select v19 192#32 0#32)) (⟨Scalar.addi 768#32 (Scalar.select v21 128#32 0#32), Scalar.xori v2 1#32, Scalar.cmpi .sgt v2 (Scalar.xori v2 1#32)⟩ : Σ' (v246 : BitVec 32) (v256 : BitVec 32), BitVec 1)) Q)
          -∗ wp frame (wpE (defs₀ (F := F)) 𝒱₀ (c : Thread nD τ) none) Set.univ (do
          let ⟨v208, v211, v214⟩ : Σ' (v208 : BitVec 32) (v211 : FVec F S192x1024 .f32), FVec F S192x1024 .f32 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v33 v51 v184
          let v227 : BitVec 32 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v19 v89 v127 v208 v211 v214
          let r ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v21 v208
          kk v208 v227 r) Q) := by
  iintro ⟨#Hrec, #Hlev, P0, P1, P2, Cr0, Cr1, Cr2, HO, Hg, Hu, Hd, ⟨%fo, Hout, %hfo⟩, ⟨%fs, Hs⟩⟩
  iintro Hk
  obtain ⟨hfo0, hfo1⟩ := hfo
  have hK := K0_ranges c
  -- the seventh part: the kept tile of butterfly 2 goes into the result buffer
  simp only [k0_part7_eq_skeleton]
  unfold k0_part7_skel
  simp only [Prog.lift, Prog.bind_op, Prog.bind_ret, Prog.pure_eq_ret]
  iapply (wp_load 𝒱₀ (c : Thread nD τ) none Set.univ (m := gM) (Finset.subset_univ _)) $$ Hg; iintro Hg
  iapply (wp_load 𝒱₀ (c : Thread nD τ) none Set.univ (m := uM) (Finset.subset_univ _)) $$ Hu; iintro Hu
  iapply (wp_load 𝒱₀ (c : Thread nD τ) none Set.univ (m := dM) (Finset.subset_univ _)) $$ Hd; iintro Hd
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off2 c 128#32 0#32) S128x1024.size (k0_off2_inb c 1)) (Mk := Finset.univ)
      (Finset.subset_univ _)) $$ Hout; iintro Hout
  have hk2 := kept2_rows m c v184 hv fo
  icases (pt_forget _ (fun g : Buf (Elt F) ((oM : Memref sig .tc .vmem S1024x1024 .f32).view.loc (c : Thread nD τ)) =>
      (∀ r q : ℕ, r < 192 → q < 1024 → oAt g (K0 0 c + r) q = S0 m 0 c (K0 0 c + r) q)
      ∧ (∀ r q : ℕ, r < 192 → q < 1024 → oAt g (K0 1 c + r) q = S0 m 1 c (K0 1 c + r) q)
      ∧ (∀ r q : ℕ, r < 128 → q < 1024 → oAt g (K0 2 c + r) q = S0 m 2 c (K0 2 c + r) q))
    ⟨kept_rows (h' := 192) (k0_off2 c 128#32 0#32) (k0_off2_inb c 1) fo _ (K0 0 c) _ (by omega) (Or.inl (by show K0 0 c + 192 ≤ K0 2 c; omega)) hfo0,
      kept_rows (h' := 192) (k0_off2 c 128#32 0#32) (k0_off2_inb c 1) fo _ (K0 1 c) _ (by omega) (Or.inl (by show K0 1 c + 192 ≤ K0 2 c; omega)) hfo1,
      hk2⟩) $$ Hout with ⟨%fo1, Hout, %hfo'⟩
  obtain ⟨hA0, hA1, hA2⟩ := hfo'
  -- butterfly 0: the partner's half has arrived
  iapply (Tables.wp_rs_recvwait0 m K 0 c Tables.credit_r00) $$ [Cr0 HO P0]
  · isplitr; · iexact Hrec
    isplitr; · iexact Hlev
    isplitl [Cr0]; · iexact Cr0
    isplitl [HO]; · iexact HO
    iexact P0
  iintro ⟨HO, P0, -, Hg0⟩
  ihave Hg0' := (got0 m c) $$ Hg0
  icases Hg0' with ⟨%fr0, Hr0, %hfr0⟩
  iapply (wp_load 𝒱₀ (c : Thread nD τ) none Set.univ (m := oM) (Finset.subset_univ _)) $$ Hout; iintro Hout
  iapply (wp_load 𝒱₀ (c : Thread nD τ) none Set.univ (m := rM) (slot_load_sub rM inb_S3x384x1024_S1x192x1024_0_0_0 squeezes_S1x192x1024_S192x1024)) $$ Hr0; iintro Hr0
  -- the eighth part: it is added, as it came over the wire, to the device's own rows
  simp only [k0_part8_eq_skeleton]
  unfold k0_part8_skel
  simp only [Prog.lift, Prog.bind_op, Prog.bind_ret, Prog.pure_eq_ret]
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off1 c 0#32 3#32 192#32 0#32) S192x1024.size (k0_off1_inb c 2)) (Mk := Finset.univ)
      (Finset.subset_univ _)) $$ Hout; iintro Hout
  have ht0 := added_rows inb_S3x384x1024_S1x192x1024_0_0_0 (k0_off1 c 0#32 3#32 192#32 0#32) (k0_off1_inb c 2) (off1c_col c)
    (fun a w => k0_pay16 (k0_pay14 a) (k0_pay15 w)) pay16_14_15 fo1 fr0
    (fun r q => S0 m 0 c (K0 0 c + r) q) (fun r q => S0 m 0 (Mesh.px 3 c) (K0 0 c + r) q) hA0 hfr0
  icases (pt_forget _ (fun g : Buf (Elt F) ((oM : Memref sig .tc .vmem S1024x1024 .f32).view.loc (c : Thread nD τ)) =>
      (∀ r q : ℕ, r < 192 → q < 1024 → oAt g (K0 0 c + r) q = S1 m 0 c (K0 0 c + r) q)
      ∧ (∀ r q : ℕ, r < 192 → q < 1024 → oAt g (K0 1 c + r) q = S0 m 1 c (K0 1 c + r) q)
      ∧ (∀ r q : ℕ, r < 128 → q < 1024 → oAt g (K0 2 c + r) q = S0 m 2 c (K0 2 c + r) q))
    ⟨ht0,
      kept_rows (h' := 192) (k0_off1 c 0#32 3#32 192#32 0#32) (k0_off1_inb c 2) fo1 _ (K0 1 c) _ (by omega) (Or.inr (by show K0 0 c + 192 ≤ K0 1 c; omega)) hA1,
      kept_rows (h' := 128) (k0_off1 c 0#32 3#32 192#32 0#32) (k0_off1_inb c 2) fo1 _ (K0 2 c) _ (by omega) (Or.inr (by show K0 0 c + 192 ≤ K0 2 c; omega)) hA2⟩) $$ Hout with ⟨%fo2, Hout, %hfo''⟩
  obtain ⟨hB0, hB1, hB2⟩ := hfo''
  -- butterfly 1
  iapply (Tables.wp_rs_recvwait0 m K 1 c Tables.credit_r10) $$ [Cr1 HO P1]
  · isplitr; · iexact Hrec
    isplitr; · iexact Hlev
    isplitl [Cr1]; · iexact Cr1
    isplitl [HO]; · iexact HO
    iexact P1
  iintro ⟨HO, P1, -, Hg1⟩
  ihave Hg1' := (got1 m c) $$ Hg1
  icases Hg1' with ⟨%fr1, Hr1, %hfr1⟩
  iapply (wp_load 𝒱₀ (c : Thread nD τ) none Set.univ (m := oM) (Finset.subset_univ _)) $$ Hout; iintro Hout
  iapply (wp_load 𝒱₀ (c : Thread nD τ) none Set.univ (m := rM) (slot_load_sub rM inb_S3x384x1024_S1x192x1024_1_0_0 squeezes_S1x192x1024_S192x1024)) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off1 c 384#32 4#32 192#32 0#32) S192x1024.size (k0_off1_inb c 3)) (Mk := Finset.univ)
      (Finset.subset_univ _)) $$ Hout; iintro Hout
  have ht1 := added_rows inb_S3x384x1024_S1x192x1024_1_0_0 (k0_off1 c 384#32 4#32 192#32 0#32) (k0_off1_inb c 3) (off1d_col c) k0_pay17 Mem.pay17_apply fo2 fr1
    (fun r q => S0 m 1 c (K0 1 c + r) q) (fun r q => S0 m 1 (Mesh.px 4 c) (K0 1 c + r) q) hB1 hfr1
  icases (pt_forget _ (fun g : Buf (Elt F) ((oM : Memref sig .tc .vmem S1024x1024 .f32).view.loc (c : Thread nD τ)) =>
      (∀ r q : ℕ, r < 192 → q < 1024 → oAt g (K0 0 c + r) q = S1 m 0 c (K0 0 c + r) q)
      ∧ (∀ r q : ℕ, r < 192 → q < 1024 → oAt g (K0 1 c + r) q = S1 m 1 c (K0 1 c + r) q)
      ∧ (∀ r q : ℕ, r < 128 → q < 1024 → oAt g (K0 2 c + r) q = S0 m 2 c (K0 2 c + r) q))
    ⟨kept_rows (h' := 192) (k0_off1 c 384#32 4#32 192#32 0#32) (k0_off1_inb c 3) fo2 _ (K0 0 c) _ (by omega) (Or.inl (by show K0 0 c + 192 ≤ K0 1 c; omega)) hB0,
      ht1,
      kept_rows (h' := 128) (k0_off1 c 384#32 4#32 192#32 0#32) (k0_off1_inb c 3) fo2 _ (K0 2 c) _ (by omega) (Or.inr (by show K0 1 c + 192 ≤ K0 2 c; omega)) hB2⟩) $$ Hout with ⟨%fo3, Hout, %hfo3⟩
  obtain ⟨hC0, hC1, hC2⟩ := hfo3
  -- the ninth part: butterfly 2
  simp only [k0_part9_eq_skeleton]
  unfold k0_part9_skel
  simp only [Prog.lift, Prog.bind_op, Prog.bind_ret, Prog.pure_eq_ret]
  iapply (Tables.wp_rs_recvwait0 m K 2 c Tables.credit_r20) $$ [Cr2 HO P2]
  · isplitr; · iexact Hrec
    isplitr; · iexact Hlev
    isplitl [Cr2]; · iexact Cr2
    isplitl [HO]; · iexact HO
    iexact P2
  iintro ⟨HO, P2, -, Hg2⟩
  ihave Hg2' := (got2 m c) $$ Hg2
  icases Hg2' with ⟨%fr2, Hr2, %hfr2⟩
  iapply (wp_load 𝒱₀ (c : Thread nD τ) none Set.univ (m := oM) (Finset.subset_univ _)) $$ Hout; iintro Hout
  iapply (wp_load 𝒱₀ (c : Thread nD τ) none Set.univ (m := rM) (slot_load_sub rM inb_S3x384x1024_S1x128x1024_2_0_0 squeezes_S1x128x1024_S128x1024)) $$ Hr2; iintro Hr2
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off2 c 128#32 0#32) S128x1024.size (k0_off2_inb c 1)) (Mk := Finset.univ)
      (Finset.subset_univ _)) $$ Hout; iintro Hout
  have ht2 := added_rows inb_S3x384x1024_S1x128x1024_2_0_0 (k0_off2 c 128#32 0#32) (k0_off2_inb c 1) (off2b_col c) k0_pay18 Mem.pay18_apply fo3 fr2
    (fun r q => S0 m 2 c (K0 2 c + r) q) (fun r q => S0 m 2 (Mesh.px 1 c) (K0 2 c + r) q) hC2 hfr2
  icases (pt_forget _ (fun g : Buf (Elt F) ((oM : Memref sig .tc .vmem S1024x1024 .f32).view.loc (c : Thread nD τ)) =>
      (∀ r q : ℕ, r < 192 → q < 1024 → oAt g (K0 0 c + r) q = S1 m 0 c (K0 0 c + r) q)
      ∧ (∀ r q : ℕ, r < 192 → q < 1024 → oAt g (K0 1 c + r) q = S1 m 1 c (K0 1 c + r) q)
      ∧ (∀ r q : ℕ, r < 128 → q < 1024 → oAt g (K0 2 c + r) q = S1 m 2 c (K0 2 c + r) q))
    ⟨kept_rows (h' := 192) (k0_off2 c 128#32 0#32) (k0_off2_inb c 1) fo3 _ (K0 0 c) _ (by omega) (Or.inl (by show K0 0 c + 192 ≤ K0 2 c; omega)) hC0,
      kept_rows (h' := 192) (k0_off2 c 128#32 0#32) (k0_off2_inb c 1) fo3 _ (K0 1 c) _ (by omega) (Or.inl (by show K0 1 c + 192 ≤ K0 2 c; omega)) hC1,
      ht2⟩) $$ Hout with ⟨%fo4, Hout, %hfo4⟩
  obtain ⟨hD0, hD1, hD2⟩ := hfo4
  -- butterfly 0's quarter for stage 1 is read and narrowed into its send slot
  iapply (wp_load 𝒱₀ (c : Thread nD τ) none Set.univ (m := oM) (Finset.subset_univ _)) $$ Hout; iintro Hout
  iapply (wp_load 𝒱₀ (c : Thread nD τ) none Set.univ (m := sM) (slot_load_sub sM inb_S3x384x1024_S1x96x1024_0_192_0 squeezes_S1x96x1024_S96x1024)) $$ Hs; iintro Hs
  iapply (wp_store 𝒱₀ (c : Thread nD τ) none Set.univ (m := sM) (r := Rect.unit (s := S3x384x1024) ![0, 192, 0] S1x96x1024.size inb_S3x384x1024_S1x96x1024_0_192_0) (Mk := Finset.univ)
      (slot_store_sub sM inb_S3x384x1024_S1x96x1024_0_192_0 squeezes_S1x96x1024_S96x1024)) $$ Hs; iintro Hs
  have hq : ∀ r q : ℕ, r < 96 → q < 1024 → oAt fo4 ((k0_off3 c 0#32 3#32 1#32 0#32 96#32) 0 + r) q = S1 m 0 c ((k0_off3 c 0#32 3#32 1#32 0#32 96#32) 0 + r) q := by
    intro r q hr hq
    rcases sentq_in_half c with e | e
    · rw [e]; exact hD0 r q (by omega) hq
    · rw [e, Nat.add_assoc]; exact hD0 (96 + r) q (by omega) hq
  have hs := sent_rows inb_S3x384x1024_S1x96x1024_0_192_0 (k0_off3 c 0#32 3#32 1#32 0#32 96#32) (k0_off3_inb c 0) (off3a_col c) k0_pay19 Mem.pay19_apply fo4 fs
    (fun r q => S1 m 0 c ((k0_off3 c 0#32 3#32 1#32 0#32 96#32) 0 + r) q) hq
  -- the stage is over
  iapply Hk
  unfold R0Post
  isplitl [P0]; · iexact P0
  isplitl [P1]; · iexact P1
  isplitl [P2]; · iexact P2
  isplitl [HO]; · iexact HO
  isplitl [Hg]; · iexact Hg
  isplitl [Hu]; · iexact Hu
  isplitl [Hd]; · iexact Hd
  isplitl [Hout]
  · iexists _
    isplitl [Hout]; · iexact Hout
    ipureintro; exact ⟨hD0, hD1, hD2⟩
  isplitl [Hs]
  · iexists _
    isplitl [Hs]; · iexact Hs
    ipureintro; exact hs
  isplitl [Hr0]; · iexists _; iexact Hr0
  isplitl [Hr1]; · iexists _; iexact Hr1
  iexists _; iexact Hr2

end R0

open R0

/-! ## The stage between the two cuts -/

set_option maxRecDepth 8192 in
set_option maxHeartbeats 4000000 in
/-- The arrivals of exchange stage 0 from the cut before them to the cut before stage 1: what they do not touch is carried
    across. -/
theorem r0 (m : (ℓ : Loc nD τ sig) → Buf (Elt F) ℓ) (K : Dev nD × CIx → ℕ) (c : Dev nD) (W : Waits sig Unit)
    (v2 v33 v51 v89 v127 : BitVec 32) (v17 v19 v21 : BitVec 1) (v184 : FVec F S128x1024 .f32)
    (hv : v184 = k0_pay12 (xRows128 m c (k0_off2 c 128#32 0#32) (k0_off2_inb c 1))) {α : Type}
    (kk : (v208 v227 : BitVec 32) → (Σ' (v246 : BitVec 32) (v256 : BitVec 32), BitVec 1) → Prog (TpuEff nD τ sig (Elt F) Λ₀ .tc) α) (Q : α → sProp 𝕄) :
    iprop(Cuts.PreR0 m K c W ∗ (∀ (v208 v227 : BitVec 32) (r : Σ' (v246 : BitVec 32) (v256 : BitVec 32), BitVec 1) (W' : Waits sig Unit),
          Cuts.PreS1 m K c W' -∗ wp frame (wpE (defs₀ (F := F)) 𝒱₀ (c : Thread nD τ) none) Set.univ (kk v208 v227 r) Q))
      ⊢ wp frame (wpE (defs₀ (F := F)) 𝒱₀ (c : Thread nD τ) none) Set.univ (do
          let ⟨v208, v211, v214⟩ : Σ' (v208 : BitVec 32) (v211 : FVec F S192x1024 .f32), FVec F S192x1024 .f32 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v33 v51 v184
          let v227 : BitVec 32 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v19 v89 v127 v208 v211 v214
          let r ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v21 v208
          kk v208 v227 r) Q := by
  unfold Cuts.PreR0
  iintro ⟨⟨#Hrec, #Hlev, A2, P0, A4, A5, P1, A7, A8, P2, A10, A11, A12, A13, A14, A15, A16, A17, A18, A19, A20, A21, A22, A23, A24, A25, A26, A27, A28, A29, A30, A31, A32, A33, A34, A35, A36, A37, A38, A39, A40, A41, A42, A43, A44, A45, A46, A47, A48, A49, A50, A51, A52, A53, A54, A55, A56, A57, A58, A59, A60, A61, A62, Cr0, A64, A65, Cr1, A67, A68, Cr2, A70, A71, A72, A73, A74, A75, A76, A77, A78, A79, A80, HO, A82, Hg, Hu, Hd, Hout, A87, Hs, A89, A90, A91, A92, A93, A94, A95, A96, A97, A98, A99, A100, A101, A102, A103, A104, A105, A106, A107, A108, A109⟩, Hk⟩
  iapply (r0_core m K c W v2 v33 v51 v89 v127 v17 v19 v21 v184 hv kk Q) $$ [P0 P1 P2 Cr0 Cr1 Cr2 HO Hg Hu Hd Hout Hs]
  · isplitr; · iexact Hrec
    isplitr; · iexact Hlev
    isplitl [P0]; · iexact P0
    isplitl [P1]; · iexact P1
    isplitl [P2]; · iexact P2
    isplitl [Cr0]; · iexact Cr0
    isplitl [Cr1]; · iexact Cr1
    isplitl [Cr2]; · iexact Cr2
    isplitl [HO]; · iexact HO
    isplitl [Hg]; · iexact Hg
    isplitl [Hu]; · iexact Hu
    isplitl [Hd]; · iexact Hd
    isplitl [Hout]; · iexact Hout
    iexact Hs
  unfold R0Post
  iintro ⟨P0, P1, P2, HO, Hg, Hu, Hd, Hout, Hs, Hr0, Hr1, Hr2⟩
  iapply Hk $$ %(Scalar.addi 0#32 (Scalar.select v17 192#32 0#32)) %(Scalar.addi 384#32 (Scalar.select v19 192#32 0#32)) %(⟨Scalar.addi 768#32 (Scalar.select v21 128#32 0#32), Scalar.xori v2 1#32, Scalar.cmpi .sgt v2 (Scalar.xori v2 1#32)⟩ : Σ' (v246 : BitVec 32) (v256 : BitVec 32), BitVec 1) %(insert (SemLoc.dma (dsem 1 2 0), ()) (insert (SemLoc.dma (dsem 1 1 0), ()) (insert (SemLoc.dma (dsem 1 0 0), ()) W)))
  unfold Cuts.PreS1
  iframe
  isplitr; · iexact Hrec
  iexact Hlev

/-- info: 'Cert.KernelIdeal.Body.r0' depends on axioms: [propext, Classical.choice, Quot.sound] -/
#guard_msgs in #print axioms r0

end Cert.KernelIdeal.Body

end
-- ==== Proof.BodyS1.lean ====
import proofs.«900524_g7700000000000525_dist_gated_mlp_tp_i_m1024_h2048_d1024_v7x_i8_f32_1_alg».proof.Proof.Cuts
import proofs.«900524_g7700000000000525_dist_gated_mlp_tp_i_m1024_h2048_d1024_v7x_i8_f32_1_alg».proof.Proof.Tables
import proofs.«900524_g7700000000000525_dist_gated_mlp_tp_i_m1024_h2048_d1024_v7x_i8_f32_1_alg».proof.Proof.BodyKit
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen Cert.KernelIdeal.Sched Cert.KernelIdeal.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

/-! # The body, exchange stage 1

From the cut after stage 0 to the cut after stage 1: each butterfly's quarter to send is narrowed into its send slot and
copied into the partner's receive slot; then, butterfly by butterfly, the partner's quarter is waited for, widened and
added to the kept quarter of the result buffer, whose rows then hold the sums after two stages. -/

/-! ## What is owed, and the semaphores as the protocol names them -/

theorem Orem_7_10 (c : Dev nD) : Orem c 7 = Orem c 10 + tallyAt (dcell 1 2 1 (Mesh.px 4 c)) () (namt 1 2 1) + tallyAt (dcell 1 1 1 (Mesh.px 3 c)) () (namt 1 1 1)
    + tallyAt (dcell 1 0 1 (Mesh.px 1 c)) () (namt 1 0 1) := by
  rw [Orem_lt c 7 (by decide), Orem_lt c 8 (by decide), Orem_lt c 9 (by decide)]
  rfl

theorem sem_s01 : semAt cc0_scratch3 0 1 inb_S3x3_S1x1_0_1 = dsem 0 0 1 := by decide
theorem sem_s11 : semAt cc0_scratch3 1 1 inb_S3x3_S1x1_1_1 = dsem 0 1 1 := by decide
theorem sem_s21 : semAt cc0_scratch3 2 1 inb_S3x3_S1x1_2_1 = dsem 0 2 1 := by decide
theorem sem_r01 : semAt cc0_scratch4 0 1 inb_S3x3_S1x1_0_1 = dsem 1 0 1 := by decide
theorem sem_r11 : semAt cc0_scratch4 1 1 inb_S3x3_S1x1_1_1 = dsem 1 1 1 := by decide
theorem sem_r21 : semAt cc0_scratch4 2 1 inb_S3x3_S1x1_2_1 = dsem 1 2 1 := by decide

/-! ## The rules at the program's spelling -/

/-- The stage-1 copy of butterfly 0, at whatever spelling of the partner and of the two semaphores the program has. -/
theorem send1_b0 (m : (ℓ : Loc nD τ sig) → Buf (Elt F) ℓ) (K : Dev nD × CIx → ℕ) (c d : Dev nD) (hd : d = Mesh.px 1 c)
    (sS sR : DmaSem sig) (hS : sS = dsem 0 0 1) (hR : sR = dsem 1 0 1)
    {hsc : (rSlot01 : Memref sig (Dev.tc d : Thread nD τ).2.kind .vmem S96x1024 .bf16).view.ref.isScScratch = false}
    {hsrc : sSlot01.view.WordExact} {hdst : rSlot01.view.WordExact}
    {hsem : DmaTarget.Typed .vmem (.dma sR) (.remote (Dev.tc d : Thread nD τ) rSlot01 (.dma sS) hsc)}
    {α : Type} {Q : α → sProp 𝕄} {kk : PUnit → Prog (TpuEff nD τ sig (Elt F) Λ₀ .tc) α}
    {fs : Buf (Elt F) (sSlot01.view.loc (c : Thread nD τ))} {fd : Buf (Elt F) (rSlot01.view.loc (Mesh.px 1 c : Thread nD τ))}
    (O : CellTallies nD τ sig Unit) {W : Waits sig Unit}
    (hfs : ∀ (r q : ℕ) (hr : r < 96) (hq : q < 1024), sSlot01.view.read (Elt F) fs (ix2 ⟨r, hr⟩ ⟨q, hq⟩) = tr (S1 m 0 c (K1 0 (Mesh.px 1 c) + r) q)) :
    iprop(records (F := F) m K
        ∗ (sSlot01.view.loc (c : Thread nD τ) ↦[sSlot01.view.set]{fullShare} fs)
        ∗ (rSlot01.view.loc (Mesh.px 1 c : Thread nD τ) ↦[rSlot01.view.set]{fullShare} fd)
        ∗ owes (c : Thread nD τ) (O + tallyAt (dcell 1 0 1 (Mesh.px 1 c)) () (namt 1 0 1)) W
        ∗ dutyTok ER (dcell 0 0 1 c) 0 0 ∗ dutyTok ER (dcell 1 0 1 (Mesh.px 1 c)) 0 0)
      ⊢ iprop(((cred (tallyAt (dcell 0 0 1 c) () (namt 0 0 1)) ∗ owes (c : Thread nD τ) O W) -∗ WP[c] (kk ⟨⟩) Q)
          -∗ WP[c] (.op (.enqueueDma sSlot01 (.remote (Dev.tc d : Thread nD τ) rSlot01 (.dma sS) hsc) (.dma sR) hsrc hdst hsem) kk) Q) := by
  subst hd hS hR
  exact Tables.wp_rs_send01 m K c O hfs

/-- The stage-1 copy of butterfly 1, at whatever spelling of the partner and of the two semaphores the program has. -/
theorem send1_b1 (m : (ℓ : Loc nD τ sig) → Buf (Elt F) ℓ) (K : Dev nD × CIx → ℕ) (c d : Dev nD) (hd : d = Mesh.px 3 c)
    (sS sR : DmaSem sig) (hS : sS = dsem 0 1 1) (hR : sR = dsem 1 1 1)
    {hsc : (rSlot11 : Memref sig (Dev.tc d : Thread nD τ).2.kind .vmem S96x1024 .bf16).view.ref.isScScratch = false}
    {hsrc : sSlot11.view.WordExact} {hdst : rSlot11.view.WordExact}
    {hsem : DmaTarget.Typed .vmem (.dma sR) (.remote (Dev.tc d : Thread nD τ) rSlot11 (.dma sS) hsc)}
    {α : Type} {Q : α → sProp 𝕄} {kk : PUnit → Prog (TpuEff nD τ sig (Elt F) Λ₀ .tc) α}
    {fs : Buf (Elt F) (sSlot11.view.loc (c : Thread nD τ))} {fd : Buf (Elt F) (rSlot11.view.loc (Mesh.px 3 c : Thread nD τ))}
    (O : CellTallies nD τ sig Unit) {W : Waits sig Unit}
    (hfs : ∀ (r q : ℕ) (hr : r < 96) (hq : q < 1024), sSlot11.view.read (Elt F) fs (ix2 ⟨r, hr⟩ ⟨q, hq⟩) = tr (S1 m 1 c (K1 1 (Mesh.px 3 c) + r) q)) :
    iprop(records (F := F) m K
        ∗ (sSlot11.view.loc (c : Thread nD τ) ↦[sSlot11.view.set]{fullShare} fs)
        ∗ (rSlot11.view.loc (Mesh.px 3 c : Thread nD τ) ↦[rSlot11.view.set]{fullShare} fd)
        ∗ owes (c : Thread nD τ) (O + tallyAt (dcell 1 1 1 (Mesh.px 3 c)) () (namt 1 1 1)) W
        ∗ dutyTok ER (dcell 0 1 1 c) 0 0 ∗ dutyTok ER (dcell 1 1 1 (Mesh.px 3 c)) 0 0)
      ⊢ iprop(((cred (tallyAt (dcell 0 1 1 c) () (namt 0 1 1)) ∗ owes (c : Thread nD τ) O W) -∗ WP[c] (kk ⟨⟩) Q)
          -∗ WP[c] (.op (.enqueueDma sSlot11 (.remote (Dev.tc d : Thread nD τ) rSlot11 (.dma sS) hsc) (.dma sR) hsrc hdst hsem) kk) Q) := by
  subst hd hS hR
  exact Tables.wp_rs_send11 m K c O hfs

/-- The stage-1 copy of butterfly 2, at whatever spelling of the partner and of the two semaphores the program has. -/
theorem send1_b2 (m : (ℓ : Loc nD τ sig) → Buf (Elt F) ℓ) (K : Dev nD × CIx → ℕ) (c d : Dev nD) (hd : d = Mesh.px 4 c)
    (sS sR : DmaSem sig) (hS : sS = dsem 0 2 1) (hR : sR = dsem 1 2 1)
    {hsc : (rSlot21 : Memref sig (Dev.tc d : Thread nD τ).2.kind .vmem S64x1024 .bf16).view.ref.isScScratch = false}
    {hsrc : sSlot21.view.WordExact} {hdst : rSlot21.view.WordExact}
    {hsem : DmaTarget.Typed .vmem (.dma sR) (.remote (Dev.tc d : Thread nD τ) rSlot21 (.dma sS) hsc)}
    {α : Type} {Q : α → sProp 𝕄} {kk : PUnit → Prog (TpuEff nD τ sig (Elt F) Λ₀ .tc) α}
    {fs : Buf (Elt F) (sSlot21.view.loc (c : Thread nD τ))} {fd : Buf (Elt F) (rSlot21.view.loc (Mesh.px 4 c : Thread nD τ))}
    (O : CellTallies nD τ sig Unit) {W : Waits sig Unit}
    (hfs : ∀ (r q : ℕ) (hr : r < 64) (hq : q < 1024), sSlot21.view.read (Elt F) fs (ix2 ⟨r, hr⟩ ⟨q, hq⟩) = tr (S1 m 2 c (K1 2 (Mesh.px 4 c) + r) q)) :
    iprop(records (F := F) m K
        ∗ (sSlot21.view.loc (c : Thread nD τ) ↦[sSlot21.view.set]{fullShare} fs)
        ∗ (rSlot21.view.loc (Mesh.px 4 c : Thread nD τ) ↦[rSlot21.view.set]{fullShare} fd)
        ∗ owes (c : Thread nD τ) (O + tallyAt (dcell 1 2 1 (Mesh.px 4 c)) () (namt 1 2 1)) W
        ∗ dutyTok ER (dcell 0 2 1 c) 0 0 ∗ dutyTok ER (dcell 1 2 1 (Mesh.px 4 c)) 0 0)
      ⊢ iprop(((cred (tallyAt (dcell 0 2 1 c) () (namt 0 2 1)) ∗ owes (c : Thread nD τ) O W) -∗ WP[c] (kk ⟨⟩) Q)
          -∗ WP[c] (.op (.enqueueDma sSlot21 (.remote (Dev.tc d : Thread nD τ) rSlot21 (.dma sS) hsc) (.dma sR) hsrc hdst hsem) kk) Q) := by
  subst hd hS hR
  exact Tables.wp_rs_send21 m K c O hfs

/-- The stage-1 arrival of butterfly 0: the wait hands over the receive slot, holding the partner's sums of stage 0 over the kept quarter, narrowed. -/
theorem wait1_b0 (m : (ℓ : Loc nD τ sig) → Buf (Elt F) ℓ) (K : Dev nD × CIx → ℕ) (c : Dev nD) (sR : DmaSem sig) (hR : sR = dsem 1 0 1)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 1 0 1) {α : Type} {Q : α → sProp 𝕄}
    {kk : PUnit → Prog (TpuEff nD τ sig (Elt F) Λ₀ .tc) α} {W : Waits sig Unit} :
    iprop(records (F := F) m K ∗ levAts L lv ∗ cred (tallyAt (dcell 1 0 1 c) () (namt 1 0 1)) ∗ owes (c : Thread nD τ) (Orem c 10) W
        ∗ atPos ER (dcell 1 0 1 c) 0 ∅ 0)
      ⊢ iprop(((owes (c : Thread nD τ) (Orem c 10) (insert (SemLoc.dma (dsem 1 0 1), ()) W) ∗ atPos ER (dcell 1 0 1 c) 1 ∅ 0
              ∗ reached ER (dcell 1 0 1 c) 1
              ∗ (∃ f, (rSlot01.view.loc (c : Thread nD τ) ↦[rSlot01.view.set]{fullShare} f)
                  ∗ ⌜∀ r q : ℕ, r < 96 → q < 1024 → rAt f 0 (192 + r) q = tr (S1 m 0 (Mesh.px 1 c) (K1 0 c + r) q)⌝))
            -∗ WP[c] (kk ⟨⟩) Q)
          -∗ WP[c] (.op (.waitDma2 sR src dst hsrc hdst) kk) Q) := by
  subst hR
  exact Tables.wp_rs_recvwait1 m K 0 c hN

/-- The stage-1 arrival of butterfly 1: the wait hands over the receive slot, holding the partner's sums of stage 0 over the kept quarter, narrowed. -/
theorem wait1_b1 (m : (ℓ : Loc nD τ sig) → Buf (Elt F) ℓ) (K : Dev nD × CIx → ℕ) (c : Dev nD) (sR : DmaSem sig) (hR : sR = dsem 1 1 1)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 1 1 1) {α : Type} {Q : α → sProp 𝕄}
    {kk : PUnit → Prog (TpuEff nD τ sig (Elt F) Λ₀ .tc) α} {W : Waits sig Unit} :
    iprop(records (F := F) m K ∗ levAts L lv ∗ cred (tallyAt (dcell 1 1 1 c) () (namt 1 1 1)) ∗ owes (c : Thread nD τ) (Orem c 10) W
        ∗ atPos ER (dcell 1 1 1 c) 0 ∅ 0)
      ⊢ iprop(((owes (c : Thread nD τ) (Orem c 10) (insert (SemLoc.dma (dsem 1 1 1), ()) W) ∗ atPos ER (dcell 1 1 1 c) 1 ∅ 0
              ∗ reached ER (dcell 1 1 1 c) 1
              ∗ (∃ f, (rSlot11.view.loc (c : Thread nD τ) ↦[rSlot11.view.set]{fullShare} f)
                  ∗ ⌜∀ r q : ℕ, r < 96 → q < 1024 → rAt f 1 (192 + r) q = tr (S1 m 1 (Mesh.px 3 c) (K1 1 c + r) q)⌝))
            -∗ WP[c] (kk ⟨⟩) Q)
          -∗ WP[c] (.op (.waitDma2 sR src dst hsrc hdst) kk) Q) := by
  subst hR
  exact Tables.wp_rs_recvwait1 m K 1 c hN

/-- The stage-1 arrival of butterfly 2: the wait hands over the receive slot, holding the partner's sums of stage 0 over the kept quarter, narrowed. -/
theorem wait1_b2 (m : (ℓ : Loc nD τ sig) → Buf (Elt F) ℓ) (K : Dev nD × CIx → ℕ) (c : Dev nD) (sR : DmaSem sig) (hR : sR = dsem 1 2 1)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 1 2 1) {α : Type} {Q : α → sProp 𝕄}
    {kk : PUnit → Prog (TpuEff nD τ sig (Elt F) Λ₀ .tc) α} {W : Waits sig Unit} :
    iprop(records (F := F) m K ∗ levAts L lv ∗ cred (tallyAt (dcell 1 2 1 c) () (namt 1 2 1)) ∗ owes (c : Thread nD τ) (Orem c 10) W
        ∗ atPos ER (dcell 1 2 1 c) 0 ∅ 0)
      ⊢ iprop(((owes (c : Thread nD τ) (Orem c 10) (insert (SemLoc.dma (dsem 1 2 1), ()) W) ∗ atPos ER (dcell 1 2 1 c) 1 ∅ 0
              ∗ reached ER (dcell 1 2 1 c) 1
              ∗ (∃ f, (rSlot21.view.loc (c : Thread nD τ) ↦[rSlot21.view.set]{fullShare} f)
                  ∗ ⌜∀ r q : ℕ, r < 64 → q < 1024 → rAt f 2 (128 + r) q = tr (S1 m 2 (Mesh.px 4 c) (K1 2 c + r) q)⌝))
            -∗ WP[c] (kk ⟨⟩) Q)
          -∗ WP[c] (.op (.waitDma2 sR src dst hsrc hdst) kk) Q) := by
  subst hR
  exact Tables.wp_rs_recvwait1 m K 2 c hN

/-! ## Rows -/

/-- Butterfly 0: the quarter sent lies in the kept half and is the quarter the partner keeps; so does the kept quarter. -/
theorem rows_b0 (c : Dev nD) :
    K0 0 c ≤ (k0_off3 c 0#32 3#32 1#32 0#32 96#32) 0 ∧ (k0_off3 c 0#32 3#32 1#32 0#32 96#32) 0 + 96 ≤ K0 0 c + 192 ∧ (k0_off3 c 0#32 3#32 1#32 0#32 96#32) 0 = K1 0 (Mesh.px 1 c) ∧ (k0_off3 c 0#32 3#32 1#32 0#32 96#32) 1 = 0
      ∧ K0 0 c ≤ K1 0 c ∧ K1 0 c + 96 ≤ K0 0 c + 192 ∧ (k0_off3 c 0#32 3#32 1#32 96#32 0#32) 0 = K1 0 c ∧ (k0_off3 c 0#32 3#32 1#32 96#32 0#32) 1 = 0 ∧ K1 0 c + 96 ≤ 384 := by
  revert c; decide +kernel
theorem rows_b1 (c : Dev nD) :
    K0 1 c ≤ (k0_off3 c 384#32 4#32 3#32 0#32 96#32) 0 ∧ (k0_off3 c 384#32 4#32 3#32 0#32 96#32) 0 + 96 ≤ K0 1 c + 192 ∧ (k0_off3 c 384#32 4#32 3#32 0#32 96#32) 0 = K1 1 (Mesh.px 3 c) ∧ (k0_off3 c 384#32 4#32 3#32 0#32 96#32) 1 = 0
      ∧ K0 1 c ≤ K1 1 c ∧ K1 1 c + 96 ≤ K0 1 c + 192 ∧ (k0_off3 c 384#32 4#32 3#32 96#32 0#32) 0 = K1 1 c ∧ (k0_off3 c 384#32 4#32 3#32 96#32 0#32) 1 = 0 ∧ 384 ≤ K1 1 c ∧ K1 1 c + 96 ≤ 768 := by
  revert c; decide +kernel
theorem rows_b2 (c : Dev nD) :
    K0 2 c ≤ (k0_off4 c 0#32 64#32) 0 ∧ (k0_off4 c 0#32 64#32) 0 + 64 ≤ K0 2 c + 128 ∧ (k0_off4 c 0#32 64#32) 0 = K1 2 (Mesh.px 4 c) ∧ (k0_off4 c 0#32 64#32) 1 = 0
      ∧ K0 2 c ≤ K1 2 c ∧ K1 2 c + 64 ≤ K0 2 c + 128 ∧ (k0_off4 c 64#32 0#32) 0 = K1 2 c ∧ (k0_off4 c 64#32 0#32) 1 = 0 ∧ 768 ≤ K1 2 c ∧ K1 2 c + 64 ≤ 1024 := by
  revert c; decide +kernel

/-! ## Values -/

section Values
variable (m : (ℓ : Loc nD τ sig) → Buf (Elt F) ℓ)

/-- Butterfly 0's send slot, filled before the cut, holds the quarter the partner keeps. -/
theorem sendval_b0 (c : Dev nD) (fs : (cc0_scratch0 : Ref sig .tc).ty.Contents (Elt F))
    (hs : ∀ r q : ℕ, r < 96 → q < 1024 → Mem.sAt fs 0 (192 + r) q = tr (S1 m 0 c ((k0_off3 c 0#32 3#32 1#32 0#32 96#32) 0 + r) q)) :
    ∀ (r q : ℕ) (hr : r < 96) (hq : q < 1024), sSlot01.view.read (Elt F) fs (ix2 ⟨r, hr⟩ ⟨q, hq⟩) = tr (S1 m 0 c (K1 0 (Mesh.px 1 c) + r) q) := by
  intro r q hr hq
  obtain ⟨-, -, h3, -⟩ := rows_b0 c
  refine (Mem.sSlot_read inb_S3x384x1024_S1x96x1024_0_192_0 squeezes_S1x96x1024_S96x1024 fs r q hr hq).trans ?_
  rw [hs r q hr hq, h3]

/-- Butterfly 1's send slot, once the quarter to send is narrowed into it. -/
theorem sendval_b1 (c : Dev nD) (fo : (cc0_stg4_0 : Ref sig .tc).ty.Contents (Elt F)) (fs : (cc0_scratch0 : Ref sig .tc).ty.Contents (Elt F))
    (hfo : ∀ r q : ℕ, r < 192 → q < 1024 → oAt fo (K0 1 c + r) q = S1 m 1 c (K0 1 c + r) q) :
    ∀ (r q : ℕ) (hr : r < 96) (hq : q < 1024),
      sSlot11.view.read (Elt F) ((sM.access (Rect.unit (s := S3x384x1024) ![1, 192, 0] S1x96x1024.size inb_S3x384x1024_S1x96x1024_1_192_0)).write (Elt F) fs
          (k0_pay20 (oM.view.readAt (Elt F) (Rect.unit (s := S1024x1024) (k0_off3 c 384#32 4#32 3#32 0#32 96#32) S96x1024.size (k0_off3_inb c 1)).toLoadRect fo)) Finset.univ)
        (ix2 ⟨r, hr⟩ ⟨q, hq⟩) = tr (S1 m 1 c (K1 1 (Mesh.px 3 c) + r) q) := by
  intro r q hr hq
  obtain ⟨h1, h2, h3, h4, -⟩ := rows_b1 c
  refine (Mem.sSlot_read inb_S3x384x1024_S1x96x1024_1_192_0 squeezes_S1x96x1024_S96x1024 _ r q hr hq).trans ?_
  refine (Mem.narrow_rows (k0_off3 c 384#32 4#32 3#32 0#32 96#32) (k0_off3_inb c 1) h4 inb_S3x384x1024_S1x96x1024_1_192_0 _ _ fo fs r q hr hq).trans ?_
  have h := hfo ((k0_off3 c 384#32 4#32 3#32 0#32 96#32) 0 - K0 1 c + r) q (by omega) hq
  rw [show K0 1 c + ((k0_off3 c 384#32 4#32 3#32 0#32 96#32) 0 - K0 1 c + r) = (k0_off3 c 384#32 4#32 3#32 0#32 96#32) 0 + r by omega] at h
  rw [h, h3]

/-- Butterfly 2's send slot, once the quarter to send is narrowed into it. -/
theorem sendval_b2 (c : Dev nD) (fo : (cc0_stg4_0 : Ref sig .tc).ty.Contents (Elt F)) (fs : (cc0_scratch0 : Ref sig .tc).ty.Contents (Elt F))
    (hfo : ∀ r q : ℕ, r < 128 → q < 1024 → oAt fo (K0 2 c + r) q = S1 m 2 c (K0 2 c + r) q) :
    ∀ (r q : ℕ) (hr : r < 64) (hq : q < 1024),
      sSlot21.view.read (Elt F) ((sM.access (Rect.unit (s := S3x384x1024) ![2, 128, 0] S1x64x1024.size inb_S3x384x1024_S1x64x1024_2_128_0)).write (Elt F) fs
          (k0_pay21 (oM.view.readAt (Elt F) (Rect.unit (s := S1024x1024) (k0_off4 c 0#32 64#32) S64x1024.size (k0_off4_inb c 0)).toLoadRect fo)) Finset.univ)
        (ix2 ⟨r, hr⟩ ⟨q, hq⟩) = tr (S1 m 2 c (K1 2 (Mesh.px 4 c) + r) q) := by
  intro r q hr hq
  obtain ⟨h1, h2, h3, h4, -⟩ := rows_b2 c
  refine (Mem.sSlot_read inb_S3x384x1024_S1x64x1024_2_128_0 squeezes_S1x64x1024_S64x1024 _ r q hr hq).trans ?_
  refine (Mem.narrow_rows (k0_off4 c 0#32 64#32) (k0_off4_inb c 0) h4 inb_S3x384x1024_S1x64x1024_2_128_0 _ _ fo fs r q hr hq).trans ?_
  have h := hfo ((k0_off4 c 0#32 64#32) 0 - K0 2 c + r) q (by omega) hq
  rw [show K0 2 c + ((k0_off4 c 0#32 64#32) 0 - K0 2 c + r) = (k0_off4 c 0#32 64#32) 0 + r by omega] at h
  rw [h, h3]

end Values

/-- Rows inside rows: a fact about the rows [k0, k0 + H) read at the rows [k1, k1 + Q) they contain. -/
theorem sub_rows {A : ℕ → ℕ → F .f32} {f : (cc0_stg4_0 : Ref sig .tc).ty.Contents (Elt F)} {k0 k1 H Q : ℕ}
    (h : ∀ r q : ℕ, r < H → q < 1024 → oAt f (k0 + r) q = A (k0 + r) q) (h1 : k0 ≤ k1) (h2 : k1 + Q ≤ k0 + H) :
    ∀ r q : ℕ, r < Q → q < 1024 → oAt f (k1 + r) q = A (k1 + r) q := by
  intro r q hr hq
  have h' := h (k1 - k0 + r) q (by omega) hq
  rwa [show k0 + (k1 - k0 + r) = k1 + r by omega] at h'

/-- Butterfly 0's stage-2 send slot, once its kept quarter is narrowed into it. -/
theorem slot02_val (m : (ℓ : Loc nD τ sig) → Buf (Elt F) ℓ) (c : Dev nD) (fo : (cc0_stg4_0 : Ref sig .tc).ty.Contents (Elt F)) (fs : (cc0_scratch0 : Ref sig .tc).ty.Contents (Elt F))
    (h0 : ∀ r q : ℕ, r < 96 → q < 1024 → oAt fo (K1 0 c + r) q = S2 m 0 c (K1 0 c + r) q) :
    ∀ r q : ℕ, r < 96 → q < 1024 →
      Mem.sAt ((sM.access (Rect.unit (s := S3x384x1024) ![0, 288, 0] S1x96x1024.size inb_S3x384x1024_S1x96x1024_0_288_0)).write (Elt F) fs
          (k0_pay25 ((oM : Memref sig .tc .vmem S1024x1024 .f32).view.readAt (Elt F) (Rect.unit (s := S1024x1024) (k0_off3 c 0#32 3#32 1#32 96#32 0#32) S96x1024.size (k0_off3_inb c 2)).toLoadRect fo)) Finset.univ)
        0 (288 + r) q = tr (S2 m 0 c (K1 0 c + r) q) := by
  intro r q hr hq
  obtain ⟨-, -, -, -, -, -, e0, e1, -⟩ := rows_b0 c
  refine (Mem.narrow_rows (k0_off3 c 0#32 3#32 1#32 96#32 0#32) (k0_off3_inb c 2) e1 inb_S3x384x1024_S1x96x1024_0_288_0 _ _ fo fs r q hr hq).trans ?_
  rw [e0, h0 r q hr hq]

/-- Butterfly 0: once the partner's quarter is widened and added, the kept quarter holds the sums after two stages; the
    other butterflies' rows are as they were. -/
theorem out_b0 (m : (ℓ : Loc nD τ sig) → Buf (Elt F) ℓ) (c : Dev nD) (fo : (cc0_stg4_0 : Ref sig .tc).ty.Contents (Elt F)) (fr : (cc0_scratch1 : Ref sig .tc).ty.Contents (Elt F))
    (A1 A2 : ℕ → ℕ → F .f32)
    (h0 : ∀ r q : ℕ, r < 96 → q < 1024 → oAt fo (K1 0 c + r) q = S1 m 0 c (K1 0 c + r) q)
    (h1 : ∀ r q : ℕ, r < 96 → q < 1024 → oAt fo (K1 1 c + r) q = A1 r q)
    (h2 : ∀ r q : ℕ, r < 64 → q < 1024 → oAt fo (K1 2 c + r) q = A2 r q)
    (hr : ∀ r q : ℕ, r < 96 → q < 1024 → rAt fr 0 (192 + r) q = tr (S1 m 0 (Mesh.px 1 c) (K1 0 c + r) q)) :
    (((oM : Memref sig .tc .vmem S1024x1024 .f32).view.loc (c : Thread nD τ) ↦{fullShare} (oM : Memref sig .tc .vmem S1024x1024 .f32).view.writes (Elt F) fo
        [⟨Rect.unit (s := S1024x1024) (k0_off3 c 0#32 3#32 1#32 96#32 0#32) S96x1024.size (k0_off3_inb c 2),
          k0_pay22 ((oM : Memref sig .tc .vmem S1024x1024 .f32).view.readAt (Elt F) (Rect.unit (s := S1024x1024) (k0_off3 c 0#32 3#32 1#32 96#32 0#32) S96x1024.size (k0_off3_inb c 2)).toLoadRect fo)
            ((rM : Memref sig .tc .vmem S3x384x1024 .bf16).view.readAt (Elt F) (Rect.unit (s := S3x384x1024) ![0, 192, 0] S1x96x1024.size inb_S3x384x1024_S1x96x1024_0_192_0).toLoadRect fr)⟩]) : sProp 𝕄)
      ⊢ iprop(∃ fo' : (cc0_stg4_0 : Ref sig .tc).ty.Contents (Elt F), ((oM : Memref sig .tc .vmem S1024x1024 .f32).view.loc (c : Thread nD τ) ↦{fullShare} fo') ∗ ⌜(∀ r q : ℕ, r < 96 → q < 1024 → oAt fo' (K1 0 c + r) q = S2 m 0 c (K1 0 c + r) q)
        ∧ (∀ r q : ℕ, r < 96 → q < 1024 → oAt fo' (K1 1 c + r) q = A1 r q)
        ∧ (∀ r q : ℕ, r < 64 → q < 1024 → oAt fo' (K1 2 c + r) q = A2 r q)⌝) := by
  iintro H
  iexists _
  isplitl [H]
  · iexact H
  · ipureintro
    obtain ⟨-, -, -, -, -, -, k07, -, k09⟩ := rows_b0 c
    obtain ⟨-, -, -, -, -, -, k17, -, k18, k19⟩ := rows_b1 c
    obtain ⟨-, -, -, -, -, -, k27, -, k28, k29⟩ := rows_b2 c
    have e0 : (k0_off3 c 0#32 3#32 1#32 96#32 0#32) 0 = K1 0 c := k07
    have e1 : (k0_off3 c 0#32 3#32 1#32 96#32 0#32) 1 = 0 := (rows_b0 c).2.2.2.2.2.2.2.1
    refine ⟨fun r q hr' hq => ?_, fun r q hr' hq => ?_, fun r q hr' hq => ?_⟩
    · have h := Mem.rs_add_rows (k0_off3 c 0#32 3#32 1#32 96#32 0#32) (k0_off3_inb c 2) e1 inb_S3x384x1024_S1x96x1024_0_192_0 shapeCasts_S96x1024_S96x1024 shapeCasts_S1x96x1024_S96x1024 fo fr
        (fun r q => S1 m 0 c (K1 0 c + r) q) (fun r q => S1 m 0 (Mesh.px 1 c) (K1 0 c + r) q)
        (fun r q hr hq => by rw [e0]; exact h0 r q hr hq) hr r q hr' hq
      rw [e0] at h
      exact h
    · rw [← h1 r q hr' hq]
      exact Mem.oAt_store_miss (k0_off3 c 0#32 3#32 1#32 96#32 0#32) (k0_off3_inb c 2) fo _ (K1 1 c + r) q (by omega) (by omega)
    · rw [← h2 r q hr' hq]
      exact Mem.oAt_store_miss (k0_off3 c 0#32 3#32 1#32 96#32 0#32) (k0_off3_inb c 2) fo _ (K1 2 c + r) q (by omega) (by omega)

/-- Butterfly 1: once the partner's quarter is widened and added, the kept quarter holds the sums after two stages; the
    other butterflies' rows are as they were. -/
theorem out_b1 (m : (ℓ : Loc nD τ sig) → Buf (Elt F) ℓ) (c : Dev nD) (fo : (cc0_stg4_0 : Ref sig .tc).ty.Contents (Elt F)) (fr : (cc0_scratch1 : Ref sig .tc).ty.Contents (Elt F))
    (A0 A2 : ℕ → ℕ → F .f32)
    (h0 : ∀ r q : ℕ, r < 96 → q < 1024 → oAt fo (K1 0 c + r) q = A0 r q)
    (h1 : ∀ r q : ℕ, r < 96 → q < 1024 → oAt fo (K1 1 c + r) q = S1 m 1 c (K1 1 c + r) q)
    (h2 : ∀ r q : ℕ, r < 64 → q < 1024 → oAt fo (K1 2 c + r) q = A2 r q)
    (hr : ∀ r q : ℕ, r < 96 → q < 1024 → rAt fr 1 (192 + r) q = tr (S1 m 1 (Mesh.px 3 c) (K1 1 c + r) q)) :
    (((oM : Memref sig .tc .vmem S1024x1024 .f32).view.loc (c : Thread nD τ) ↦{fullShare} (oM : Memref sig .tc .vmem S1024x1024 .f32).view.writes (Elt F) fo
        [⟨Rect.unit (s := S1024x1024) (k0_off3 c 384#32 4#32 3#32 96#32 0#32) S96x1024.size (k0_off3_inb c 3),
          k0_pay23 ((oM : Memref sig .tc .vmem S1024x1024 .f32).view.readAt (Elt F) (Rect.unit (s := S1024x1024) (k0_off3 c 384#32 4#32 3#32 96#32 0#32) S96x1024.size (k0_off3_inb c 3)).toLoadRect fo)
            ((rM : Memref sig .tc .vmem S3x384x1024 .bf16).view.readAt (Elt F) (Rect.unit (s := S3x384x1024) ![1, 192, 0] S1x96x1024.size inb_S3x384x1024_S1x96x1024_1_192_0).toLoadRect fr)⟩]) : sProp 𝕄)
      ⊢ iprop(∃ fo' : (cc0_stg4_0 : Ref sig .tc).ty.Contents (Elt F), ((oM : Memref sig .tc .vmem S1024x1024 .f32).view.loc (c : Thread nD τ) ↦{fullShare} fo') ∗ ⌜(∀ r q : ℕ, r < 96 → q < 1024 → oAt fo' (K1 0 c + r) q = A0 r q)
        ∧ (∀ r q : ℕ, r < 96 → q < 1024 → oAt fo' (K1 1 c + r) q = S2 m 1 c (K1 1 c + r) q)
        ∧ (∀ r q : ℕ, r < 64 → q < 1024 → oAt fo' (K1 2 c + r) q = A2 r q)⌝) := by
  iintro H
  iexists _
  isplitl [H]
  · iexact H
  · ipureintro
    obtain ⟨-, -, -, -, -, -, k07, -, k09⟩ := rows_b0 c
    obtain ⟨-, -, -, -, -, -, k17, -, k18, k19⟩ := rows_b1 c
    obtain ⟨-, -, -, -, -, -, k27, -, k28, k29⟩ := rows_b2 c
    have e0 : (k0_off3 c 384#32 4#32 3#32 96#32 0#32) 0 = K1 1 c := k17
    have e1 : (k0_off3 c 384#32 4#32 3#32 96#32 0#32) 1 = 0 := (rows_b1 c).2.2.2.2.2.2.2.1
    refine ⟨fun r q hr' hq => ?_, fun r q hr' hq => ?_, fun r q hr' hq => ?_⟩
    · rw [← h0 r q hr' hq]
      exact Mem.oAt_store_miss (k0_off3 c 384#32 4#32 3#32 96#32 0#32) (k0_off3_inb c 3) fo _ (K1 0 c + r) q (by omega) (by omega)
    · have h := Mem.rs_add_rows (k0_off3 c 384#32 4#32 3#32 96#32 0#32) (k0_off3_inb c 3) e1 inb_S3x384x1024_S1x96x1024_1_192_0 shapeCasts_S96x1024_S96x1024 shapeCasts_S1x96x1024_S96x1024 fo fr
        (fun r q => S1 m 1 c (K1 1 c + r) q) (fun r q => S1 m 1 (Mesh.px 3 c) (K1 1 c + r) q)
        (fun r q hr hq => by rw [e0]; exact h1 r q hr hq) hr r q hr' hq
      rw [e0] at h
      exact h
    · rw [← h2 r q hr' hq]
      exact Mem.oAt_store_miss (k0_off3 c 384#32 4#32 3#32 96#32 0#32) (k0_off3_inb c 3) fo _ (K1 2 c + r) q (by omega) (by omega)

/-- Butterfly 2: once the partner's quarter is widened and added, the kept quarter holds the sums after two stages; the
    other butterflies' rows are as they were. -/
theorem out_b2 (m : (ℓ : Loc nD τ sig) → Buf (Elt F) ℓ) (c : Dev nD) (fo : (cc0_stg4_0 : Ref sig .tc).ty.Contents (Elt F)) (fr : (cc0_scratch1 : Ref sig .tc).ty.Contents (Elt F))
    (A0 A1 : ℕ → ℕ → F .f32)
    (h0 : ∀ r q : ℕ, r < 96 → q < 1024 → oAt fo (K1 0 c + r) q = A0 r q)
    (h1 : ∀ r q : ℕ, r < 96 → q < 1024 → oAt fo (K1 1 c + r) q = A1 r q)
    (h2 : ∀ r q : ℕ, r < 64 → q < 1024 → oAt fo (K1 2 c + r) q = S1 m 2 c (K1 2 c + r) q)
    (hr : ∀ r q : ℕ, r < 64 → q < 1024 → rAt fr 2 (128 + r) q = tr (S1 m 2 (Mesh.px 4 c) (K1 2 c + r) q)) :
    (((oM : Memref sig .tc .vmem S1024x1024 .f32).view.loc (c : Thread nD τ) ↦{fullShare} (oM : Memref sig .tc .vmem S1024x1024 .f32).view.writes (Elt F) fo
        [⟨Rect.unit (s := S1024x1024) (k0_off4 c 64#32 0#32) S64x1024.size (k0_off4_inb c 1),
          k0_pay24 ((oM : Memref sig .tc .vmem S1024x1024 .f32).view.readAt (Elt F) (Rect.unit (s := S1024x1024) (k0_off4 c 64#32 0#32) S64x1024.size (k0_off4_inb c 1)).toLoadRect fo)
            ((rM : Memref sig .tc .vmem S3x384x1024 .bf16).view.readAt (Elt F) (Rect.unit (s := S3x384x1024) ![2, 128, 0] S1x64x1024.size inb_S3x384x1024_S1x64x1024_2_128_0).toLoadRect fr)⟩]) : sProp 𝕄)
      ⊢ iprop(∃ fo' : (cc0_stg4_0 : Ref sig .tc).ty.Contents (Elt F), ((oM : Memref sig .tc .vmem S1024x1024 .f32).view.loc (c : Thread nD τ) ↦{fullShare} fo') ∗ ⌜(∀ r q : ℕ, r < 96 → q < 1024 → oAt fo' (K1 0 c + r) q = A0 r q)
        ∧ (∀ r q : ℕ, r < 96 → q < 1024 → oAt fo' (K1 1 c + r) q = A1 r q)
        ∧ (∀ r q : ℕ, r < 64 → q < 1024 → oAt fo' (K1 2 c + r) q = S2 m 2 c (K1 2 c + r) q)⌝) := by
  iintro H
  iexists _
  isplitl [H]
  · iexact H
  · ipureintro
    obtain ⟨-, -, -, -, -, -, k07, -, k09⟩ := rows_b0 c
    obtain ⟨-, -, -, -, -, -, k17, -, k18, k19⟩ := rows_b1 c
    obtain ⟨-, -, -, -, -, -, k27, -, k28, k29⟩ := rows_b2 c
    have e0 : (k0_off4 c 64#32 0#32) 0 = K1 2 c := k27
    have e1 : (k0_off4 c 64#32 0#32) 1 = 0 := (rows_b2 c).2.2.2.2.2.2.2.1
    refine ⟨fun r q hr' hq => ?_, fun r q hr' hq => ?_, fun r q hr' hq => ?_⟩
    · rw [← h0 r q hr' hq]
      exact Mem.oAt_store_miss (k0_off4 c 64#32 0#32) (k0_off4_inb c 1) fo _ (K1 0 c + r) q (by omega) (by omega)
    · rw [← h1 r q hr' hq]
      exact Mem.oAt_store_miss (k0_off4 c 64#32 0#32) (k0_off4_inb c 1) fo _ (K1 1 c + r) q (by omega) (by omega)
    · have h := Mem.rs_add_rows (k0_off4 c 64#32 0#32) (k0_off4_inb c 1) e1 inb_S3x384x1024_S1x64x1024_2_128_0 shapeCasts_S64x1024_S64x1024 shapeCasts_S1x64x1024_S64x1024 fo fr
        (fun r q => S1 m 2 c (K1 2 c + r) q) (fun r q => S1 m 2 (Mesh.px 4 c) (K1 2 c + r) q)
        (fun r q hr hq => by rw [e0]; exact h2 r q hr hq) hr r q hr' hq
      rw [e0] at h
      exact h

set_option maxRecDepth 8192 in
set_option maxHeartbeats 4000000 in
theorem stage1 (m : (ℓ : Loc nD τ sig) → Buf (Elt F) ℓ) (K : Dev nD × CIx → ℕ) (c : Dev nD) (W : Waits sig Unit)
    (v2 v208 v227 v246 v256 : BitVec 32) (v257 : BitVec 1) {α : Type}
    (kk : (v277 : BitVec 32) → (v278 : BitVec 1) → (v298 : BitVec 32) → (v299 : BitVec 1) → (v328 v347 c1_i32_309 : BitVec 32) →
      (Σ' (v366 : BitVec 32), BitVec 32) → Prog (TpuEff nD τ sig (Elt F) Λ₀ .tc) α) (Q : α → sProp 𝕄) :
    iprop(Cuts.PreS1 m K c W ∗ (∀ W', Cuts.PreS2 m K c W' -∗ ∀ v277 v278 v298 v299 v328 v347 c1 r, WP[c] (kk v277 v278 v298 v299 v328 v347 c1 r) Q))
      ⊢ WP[c] (do
          let ⟨v277, v278, v298, v299⟩ : Σ' (v277 : BitVec 32) (v278 : BitVec 1) (v298 : BitVec 32), BitVec 1 ← k0_part10 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v227 v246
          let v328 : BitVec 32 ← k0_part11 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v208 v256 v257 v298
          let ⟨v347, c1_i32_309⟩ : Σ' (v347 : BitVec 32), BitVec 32 ← k0_part12 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v227 v277 v278 v328
          let r : Σ' (v366 : BitVec 32), BitVec 32 ← k0_part13 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v246 v298 v299 v328 c1_i32_309
          kk v277 v278 v298 v299 v328 v347 c1_i32_309 r) Q := by
  unfold Cuts.PreS1
  iintro ⟨⟨#Hrec, #Hlev, Pbar, P100, P101, P102, P110, P111, P112, P120, P121, P122, P000, P001, P002, P010, P011, P012, P020, P021, P022, P200, P201, P202, P210, P211, P212, P220, P221, P222, P300, P301, P302, P310, P311, P312, P320, P321, P322, Tr01, Tr02, Tr11, Tr12, Tr21, Tr22, Ts01, Ts02, Ts11, Ts12, Ts21, Ts22, Ta00, Ta01, Ta10, Ta11, Ta20, Ta21, Tg00, Tg01, Tg10, Tg11, Tg20, Tg21, Cr01, Cr02, Cr11, Cr12, Cr21, Cr22, Ca00, Ca01, Ca10, Ca11, Ca20, Ca21, Cs00, Cs10, Cs20, HO, Hx, Hg, Hu, Hd, ⟨%fo, Hout, %hfo⟩, Hsb, ⟨%fs01, S01, %hs01⟩, ⟨%fs02, S02⟩, ⟨%fs11, S11⟩, S12, ⟨%fs21, S21⟩, S22, Hrb, R00, R10, R20, A01, A11, A21, ⟨%q101, Q101⟩, Q102, ⟨%q111, Q111⟩, Q112, ⟨%q121, Q121⟩, Q122, Htail⟩, Hk⟩
  obtain ⟨-, -, -, -, k04, k05, -⟩ := rows_b0 c
  obtain ⟨-, -, -, -, k14, k15, -⟩ := rows_b1 c
  obtain ⟨-, -, -, -, k24, k25, -⟩ := rows_b2 c
  have i0 : ∀ r q : ℕ, r < 96 → q < 1024 → oAt fo (K1 0 c + r) q = S1 m 0 c (K1 0 c + r) q := sub_rows hfo.1 k04 k05
  have i1 : ∀ r q : ℕ, r < 96 → q < 1024 → oAt fo (K1 1 c + r) q = S1 m 1 c (K1 1 c + r) q := sub_rows hfo.2.1 k14 k15
  have i2 : ∀ r q : ℕ, r < 64 → q < 1024 → oAt fo (K1 2 c + r) q = S1 m 2 c (K1 2 c + r) q := sub_rows hfo.2.2 k24 k25
  sl_exec
  rw [Orem_7_10]
  -- butterfly 0: the quarter narrowed before the cut goes to the partner under the mask 1
  iapply (send1_b0 m K c _ (Mesh.dev8_eq c) _ _ sem_s01 sem_r01 (Orem c 10 + tallyAt (dcell 1 2 1 (Mesh.px 4 c)) () (namt 1 2 1) + tallyAt (dcell 1 1 1 (Mesh.px 3 c)) () (namt 1 1 1)) (sendval_b0 m c fs01 hs01)) $$ [S01 Q101 HO Ts01 Tr01]
  · isplitr; · iexact Hrec
    isplitl [S01]; · iexact S01
    isplitl [Q101]; · iexact Q101
    isplitl [HO]; · iexact HO
    isplitl [Ts01]; · iexact Ts01
    iexact Tr01
  iintro ⟨Cs01, HO⟩
  -- butterfly 1: narrow the quarter to send, copy it to the partner under the mask 3
  sl_exec
  unfold stage1.sl.S11_w1
  iapply (send1_b1 m K c _ (Mesh.dev9_eq c) _ _ sem_s11 sem_r11 (Orem c 10 + tallyAt (dcell 1 2 1 (Mesh.px 4 c)) () (namt 1 2 1)) (sendval_b1 m c fo fs11 hfo.2.1)) $$ [S11 Q111 HO Ts11 Tr11]
  · isplitr; · iexact Hrec
    isplitl [S11]; · iexact S11
    isplitl [Q111]; · iexact Q111
    isplitl [HO]; · iexact HO
    isplitl [Ts11]; · iexact Ts11
    iexact Tr11
  iintro ⟨Cs11, HO⟩
  -- butterfly 2: narrow the quarter to send, copy it to the partner under the mask 4
  sl_exec
  unfold stage1.sl.S21_w1
  iapply (send1_b2 m K c _ (Mesh.dev10_eq c) _ _ sem_s21 sem_r21 (Orem c 10) (sendval_b2 m c fo fs21 hfo.2.2)) $$ [S21 Q121 HO Ts21 Tr21]
  · isplitr; · iexact Hrec
    isplitl [S21]; · iexact S21
    isplitl [Q121]; · iexact Q121
    isplitl [HO]; · iexact HO
    isplitl [Ts21]; · iexact Ts21
    iexact Tr21
  iintro ⟨Cs21, HO⟩
  sl_exec
  -- butterfly 0: the partner's quarter has arrived; widen it and add it to the kept quarter
  iapply (wait1_b0 m K c _ sem_r01 Tables.credit_r01) $$ [Cr01 HO P101]
  · isplitr; · iexact Hrec
    isplitr; · iexact Hlev
    isplitl [Cr01]; · iexact Cr01
    isplitl [HO]; · iexact HO
    iexact P101
  iintro ⟨HO, P101, -, ⟨%fr01, R01, %hr01⟩⟩
  sl_exec
  icases (out_b0 m c fo fr01 (fun r q => S1 m 1 c (K1 1 c + r) q) (fun r q => S1 m 2 c (K1 2 c + r) q) i0 i1 i2 hr01) $$ Hout with ⟨%fo1, Hout, %hI1⟩
  -- butterfly 1: the partner's quarter has arrived; widen it and add it to the kept quarter
  iapply (wait1_b1 m K c _ sem_r11 Tables.credit_r11) $$ [Cr11 HO P111]
  · isplitr; · iexact Hrec
    isplitr; · iexact Hlev
    isplitl [Cr11]; · iexact Cr11
    isplitl [HO]; · iexact HO
    iexact P111
  iintro ⟨HO, P111, -, ⟨%fr11, R11, %hr11⟩⟩
  sl_exec
  icases (out_b1 m c fo1 fr11 (fun r q => S2 m 0 c (K1 0 c + r) q) (fun r q => S1 m 2 c (K1 2 c + r) q) hI1.1 hI1.2.1 hI1.2.2 hr11) $$ Hout with ⟨%fo2, Hout, %hI2⟩
  -- butterfly 2: the partner's quarter has arrived; widen it and add it to the kept quarter
  iapply (wait1_b2 m K c _ sem_r21 Tables.credit_r21) $$ [Cr21 HO P121]
  · isplitr; · iexact Hrec
    isplitr; · iexact Hlev
    isplitl [Cr21]; · iexact Cr21
    isplitl [HO]; · iexact HO
    iexact P121
  iintro ⟨HO, P121, -, ⟨%fr21, R21, %hr21⟩⟩
  set_option sl_exec.maxSteps 4 in sl_exec
  icases (out_b2 m c fo2 fr21 (fun r q => S2 m 0 c (K1 0 c + r) q) (fun r q => S2 m 1 c (K1 1 c + r) q) hI2.1 hI2.2.1 hI2.2.2 hr21) $$ Hout with ⟨%fo3, Hout, %hI3⟩
  -- butterfly 0's kept quarter, narrowed into its stage-2 send slot
  sl_exec
  have hout3 := hI3
  have hs02 := slot02_val m c fo3 fs02 hI3.1
  -- the cut after stage 1
  ispecialize Hk $$ %(insert (SemLoc.dma (dsem 1 2 1), ()) (insert (SemLoc.dma (dsem 1 1 1), ()) (insert (SemLoc.dma (dsem 1 0 1), ()) W))) [Pbar P100 P101 P102 P110 P111 P112 P120 P121 P122 P000 P001 P002 P010 P011 P012 P020 P021 P022 P200 P201 P202 P210 P211 P212 P220 P221 P222 P300 P301 P302 P310 P311 P312 P320 P321 P322 Tr02 Tr12 Tr22 Ts02 Ts12 Ts22 Ta00 Ta01 Ta10 Ta11 Ta20 Ta21 Tg00 Tg01 Tg10 Tg11 Tg20 Tg21 Cr02 Cr12 Cr22 Ca00 Ca01 Ca10 Ca11 Ca20 Ca21 Cs00 Cs01 Cs10 Cs11 Cs20 Cs21 HO Hx Hg Hu Hd Hout Hsb S02 S12 S22 Hrb R00 R01 R10 R11 R20 R21 A01 A11 A21 Q102 Q112 Q122 Htail]
  · unfold Cuts.PreS2
    isplitr; · iexact Hrec
    isplitr; · iexact Hlev
    isplitl [Pbar]; · iexact Pbar
    isplitl [P100]; · iexact P100
    isplitl [P101]; · iexact P101
    isplitl [P102]; · iexact P102
    isplitl [P110]; · iexact P110
    isplitl [P111]; · iexact P111
    isplitl [P112]; · iexact P112
    isplitl [P120]; · iexact P120
    isplitl [P121]; · iexact P121
    isplitl [P122]; · iexact P122
    isplitl [P000]; · iexact P000
    isplitl [P001]; · iexact P001
    isplitl [P002]; · iexact P002
    isplitl [P010]; · iexact P010
    isplitl [P011]; · iexact P011
    isplitl [P012]; · iexact P012
    isplitl [P020]; · iexact P020
    isplitl [P021]; · iexact P021
    isplitl [P022]; · iexact P022
    isplitl [P200]; · iexact P200
    isplitl [P201]; · iexact P201
    isplitl [P202]; · iexact P202
    isplitl [P210]; · iexact P210
    isplitl [P211]; · iexact P211
    isplitl [P212]; · iexact P212
    isplitl [P220]; · iexact P220
    isplitl [P221]; · iexact P221
    isplitl [P222]; · iexact P222
    isplitl [P300]; · iexact P300
    isplitl [P301]; · iexact P301
    isplitl [P302]; · iexact P302
    isplitl [P310]; · iexact P310
    isplitl [P311]; · iexact P311
    isplitl [P312]; · iexact P312
    isplitl [P320]; · iexact P320
    isplitl [P321]; · iexact P321
    isplitl [P322]; · iexact P322
    isplitl [Tr02]; · iexact Tr02
    isplitl [Tr12]; · iexact Tr12
    isplitl [Tr22]; · iexact Tr22
    isplitl [Ts02]; · iexact Ts02
    isplitl [Ts12]; · iexact Ts12
    isplitl [Ts22]; · iexact Ts22
    isplitl [Ta00]; · iexact Ta00
    isplitl [Ta01]; · iexact Ta01
    isplitl [Ta10]; · iexact Ta10
    isplitl [Ta11]; · iexact Ta11
    isplitl [Ta20]; · iexact Ta20
    isplitl [Ta21]; · iexact Ta21
    isplitl [Tg00]; · iexact Tg00
    isplitl [Tg01]; · iexact Tg01
    isplitl [Tg10]; · iexact Tg10
    isplitl [Tg11]; · iexact Tg11
    isplitl [Tg20]; · iexact Tg20
    isplitl [Tg21]; · iexact Tg21
    isplitl [Cr02]; · iexact Cr02
    isplitl [Cr12]; · iexact Cr12
    isplitl [Cr22]; · iexact Cr22
    isplitl [Ca00]; · iexact Ca00
    isplitl [Ca01]; · iexact Ca01
    isplitl [Ca10]; · iexact Ca10
    isplitl [Ca11]; · iexact Ca11
    isplitl [Ca20]; · iexact Ca20
    isplitl [Ca21]; · iexact Ca21
    isplitl [Cs00]; · iexact Cs00
    isplitl [Cs01]; · iexact Cs01
    isplitl [Cs10]; · iexact Cs10
    isplitl [Cs11]; · iexact Cs11
    isplitl [Cs20]; · iexact Cs20
    isplitl [Cs21]; · iexact Cs21
    isplitl [HO]; · iexact HO
    isplitl [Hx]; · iexact Hx
    isplitl [Hg]; · iexact Hg
    isplitl [Hu]; · iexact Hu
    isplitl [Hd]; · iexact Hd
    isplitl [Hout]
    · iexists _; isplitl [Hout]; · iexact Hout
      ipureintro; exact hout3
    isplitl [Hsb]; · iexact Hsb
    isplitl [S02]
    · iexists _; isplitl [S02]; · iexact S02
      ipureintro; exact hs02
    isplitl [S12]; · iexact S12
    isplitl [S22]; · iexact S22
    isplitl [Hrb]; · iexact Hrb
    isplitl [R00]; · iexact R00
    isplitl [R01]; · iexists fr01; iexact R01
    isplitl [R10]; · iexact R10
    isplitl [R11]; · iexists fr11; iexact R11
    isplitl [R20]; · iexact R20
    isplitl [R21]; · iexists fr21; iexact R21
    isplitl [A01]; · iexact A01
    isplitl [A11]; · iexact A11
    isplitl [A21]; · iexact A21
    isplitl [Q102]; · iexact Q102
    isplitl [Q112]; · iexact Q112
    isplitl [Q122]; · iexact Q122
    iexact Htail
  iapply Hk

/-- info: 'Cert.KernelIdeal.Body.stage1' depends on axioms: [propext, Classical.choice, Quot.sound] -/
#guard_msgs in #print axioms stage1

end Cert.KernelIdeal.Body

end
-- ==== Proof.BodyS2.lean ====
/-
  Exchange stage 2 on one device: from the state before it (the kept quarters of the result buffer hold the sums after two
  stages; butterfly 0's quarter stands narrowed in its send slot) to the state before the all-gather. For each butterfly
  the device sends its kept quarter, narrowed, into the partner's receive slot; then, butterfly by butterfly, it waits for
  the partner's quarter, adds it as it came over the wire to its own rows, and stores the total, narrowed, into its own
  quarter of the gather buffer.
-/
import proofs.«900524_g7700000000000525_dist_gated_mlp_tp_i_m1024_h2048_d1024_v7x_i8_f32_1_alg».proof.Proof.Cuts
import proofs.«900524_g7700000000000525_dist_gated_mlp_tp_i_m1024_h2048_d1024_v7x_i8_f32_1_alg».proof.Proof.BodyKit

noncomputable section

namespace Cert.KernelIdeal.Body

open Cert.KernelIdeal Cert.KernelIdeal.Gen Cert.KernelIdeal.Sched Cert.KernelIdeal.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

namespace S2

/-! ## Regions: a slot's rows through the slot's own view and through an access to the buffer -/

theorem slot_set_eq {b soff h : ℕ} (M : Memref sig .tc .vmem S3x384x1024 .bf16)
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    ((M.slice (Rect.unit (s := S3x384x1024) ![b, soff, 0] ![1, h, 1024] inb) (fun _ => rfl)).squeeze ⟨2, ![h, 1024]⟩ hsq).view.set
      = (M.access (Rect.unit (s := S3x384x1024) ![b, soff, 0] ![1, h, 1024] inb)).set :=
  View.set_reshape _ _

theorem slot_load_sub {b soff h : ℕ} (M : Memref sig .tc .vmem S3x384x1024 .bf16)
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    M.view.setOn (Rect.unit (s := S3x384x1024) ![b, soff, 0] ![1, h, 1024] inb).toLoadRect.set
      ⊆ ((M.slice (Rect.unit (s := S3x384x1024) ![b, soff, 0] ![1, h, 1024] inb) (fun _ => rfl)).squeeze ⟨2, ![h, 1024]⟩ hsq).view.set := by
  rw [slot_set_eq M inb hsq, View.set_slice]
  exact Finset.Subset.refl _

theorem slot_store_sub {b soff h : ℕ} (M : Memref sig .tc .vmem S3x384x1024 .bf16)
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    (M.access (Rect.unit (s := S3x384x1024) ![b, soff, 0] ![1, h, 1024] inb)).setOn Finset.univ
      ⊆ ((M.slice (Rect.unit (s := S3x384x1024) ![b, soff, 0] ![1, h, 1024] inb) (fun _ => rfl)).squeeze ⟨2, ![h, 1024]⟩ hsq).view.set := by
  rw [slot_set_eq M inb hsq, View.setOn_univ]

/-- The device's own quarter of the gather buffer, through the rows the body stores to: the same rows, the offset spelt twice. -/
theorem arows_store_sub {h : ℕ} (o o' : Fin 2 → ℕ) (ho : o' = o) (inb : ∀ a, o a + (![h, 1024] : Fin 2 → ℕ) a ≤ S1024x1024.size a)
    (inb' : ∀ a, o' a + (![h, 1024] : Fin 2 → ℕ) a ≤ S1024x1024.size a) :
    (aM.access (Rect.unit (s := S1024x1024) o ![h, 1024] inb)).setOn Finset.univ
      ⊆ (aM.slice (Rect.unit (s := S1024x1024) o' ![h, 1024] inb') (fun _ => rfl)).view.set := by
  subst ho
  rw [View.setOn_univ]

theorem arows_load_sub {h : ℕ} (o o' : Fin 2 → ℕ) (ho : o' = o) (inb : ∀ a, o a + (![h, 1024] : Fin 2 → ℕ) a ≤ S1024x1024.size a)
    (inb' : ∀ a, o' a + (![h, 1024] : Fin 2 → ℕ) a ≤ S1024x1024.size a) :
    aM.view.setOn (Rect.unit (s := S1024x1024) o ![h, 1024] inb).toLoadRect.set
      ⊆ (aM.slice (Rect.unit (s := S1024x1024) o' ![h, 1024] inb') (fun _ => rfl)).view.set := by
  subst ho
  exact Finset.subset_of_eq (View.set_slice aM.view _).symm

/-! ## Rows: the three kept quarters lie in their butterflies' ranges; a stage-2 partner keeps the same quarter -/

theorem K1_ranges (c : Dev nD) : K1 0 c + 96 ≤ 384 ∧ 384 ≤ K1 1 c ∧ K1 1 c + 96 ≤ 768 ∧ 768 ≤ K1 2 c ∧ K1 2 c + 64 ≤ 1024 := by
  revert c; decide +kernel

theorem K1_px0 (c : Dev nD) : K1 0 (Mesh.px 4 c) = K1 0 c := congrFun (Rows.rs2_b0 c) 0
theorem K1_px1 (c : Dev nD) : K1 1 (Mesh.px 1 c) = K1 1 c := congrFun (Rows.rs2_b1 c) 0
theorem K1_px2 (c : Dev nD) : K1 2 (Mesh.px 2 c) = K1 2 c := congrFun (Rows.rs2_b2 c) 0

theorem off3c_col (c : Dev nD) : (k0_off3 c 0#32 3#32 1#32 96#32 0#32) 1 = 0 := by rw [Mesh.off3_c]; rfl
theorem off3d_col (c : Dev nD) : (k0_off3 c 384#32 4#32 3#32 96#32 0#32) 1 = 0 := by rw [Mesh.off3_d]; rfl
theorem off4b_col (c : Dev nD) : (k0_off4 c 64#32 0#32) 1 = 0 := by rw [Mesh.off4_b]; rfl

/-! ## Values, row by row -/

/-- A send slot after the device's rows of the result buffer are stored into it narrowed: it holds those rows narrowed. -/
theorem sent_rows {b soff h : ℕ}
    (inb3 : ∀ a, (![b, soff, 0] : Fin 3 → ℕ) a + (![1, h, 1024] : Fin 3 → ℕ) a ≤ S3x384x1024.size a)
    (o : Fin 2 → ℕ) (inb2 : ∀ a, o a + (![h, 1024] : Fin 2 → ℕ) a ≤ S1024x1024.size a) (ho : o 1 = 0)
    (pay : ((⟨2, ![h, 1024]⟩ : Shape).Idx → F .f32) → ((⟨3, ![1, h, 1024]⟩ : Shape).Idx → F .bf16))
    (hpay : ∀ (v : (⟨2, ![h, 1024]⟩ : Shape).Idx → F .f32) (u : Fin 1) (r : Fin h) (q : Fin 1024), pay v (ix3 u r q) = tr (v (ix2 r q)))
    (fo : (cc0_stg4_0 : Ref sig .tc).ty.Contents (Elt F)) (fs : (cc0_scratch0 : Ref sig .tc).ty.Contents (Elt F))
    (val : ℕ → ℕ → F .f32) (hfo : ∀ r q : ℕ, r < h → q < 1024 → oAt fo (o 0 + r) q = val r q) :
    ∀ r q : ℕ, r < h → q < 1024 →
      Mem.sAt ((sM.access (Rect.unit (s := S3x384x1024) ![b, soff, 0] ![1, h, 1024] inb3)).write (Elt F) fs
        (pay (oM.view.readAt (Elt F) (Rect.unit (s := S1024x1024) o ![h, 1024] inb2).toLoadRect fo)) Finset.univ) b (soff + r) q = tr (val r q) := by
  intro r q hr hq
  refine (Mem.sAt_store inb3 fs _ r q hr hq).trans ?_
  refine (hpay _ 0 ⟨r, hr⟩ ⟨q, hq⟩).trans ?_
  exact congrArg tr ((Mem.oAt_load o inb2 ho fo r q hr hq).trans (hfo r q hr hq))

/-- The kept rows after the partner's rows, as they came over the wire, are added to them. -/
theorem added_rows {b soff h : ℕ}
    (inb3 : ∀ a, (![b, soff, 0] : Fin 3 → ℕ) a + (![1, h, 1024] : Fin 3 → ℕ) a ≤ S3x384x1024.size a)
    (o : Fin 2 → ℕ) (inb2 : ∀ a, o a + (![h, 1024] : Fin 2 → ℕ) a ≤ S1024x1024.size a) (ho : o 1 = 0)
    (pay : ((⟨2, ![h, 1024]⟩ : Shape).Idx → F .f32) → ((⟨3, ![1, h, 1024]⟩ : Shape).Idx → F .bf16) → ((⟨2, ![h, 1024]⟩ : Shape).Idx → F .f32))
    (hpay : ∀ (a : (⟨2, ![h, 1024]⟩ : Shape).Idx → F .f32) (w : (⟨3, ![1, h, 1024]⟩ : Shape).Idx → F .bf16) (r : Fin h) (q : Fin 1024),
      pay a w (ix2 r q) = FloatOps.addf (a (ix2 r q)) (FloatOps.extf .f32 bitsLt_bf16_f32 (w (ix3 0 r q))))
    (fo : (cc0_stg4_0 : Ref sig .tc).ty.Contents (Elt F)) (fr : (cc0_scratch1 : Ref sig .tc).ty.Contents (Elt F))
    (own part : ℕ → ℕ → F .f32)
    (hfo : ∀ r q : ℕ, r < h → q < 1024 → oAt fo (o 0 + r) q = own r q)
    (hfr : ∀ r q : ℕ, r < h → q < 1024 → rAt fr b (soff + r) q = tr (part r q)) :
    ∀ r q : ℕ, r < h → q < 1024 →
      oAt ((oM.access (Rect.unit (s := S1024x1024) o ![h, 1024] inb2)).write (Elt F) fo
        (pay (oM.view.readAt (Elt F) (Rect.unit (s := S1024x1024) o ![h, 1024] inb2).toLoadRect fo)
          (rM.view.readAt (Elt F) (Rect.unit (s := S3x384x1024) ![b, soff, 0] ![1, h, 1024] inb3).toLoadRect fr)) Finset.univ) (o 0 + r) q
        = FloatOps.addf (own r q) (wire (part r q)) := by
  intro r q hr hq
  refine (Mem.oAt_store o inb2 ho fo _ r q hr hq).trans ?_
  refine (hpay _ _ ⟨r, hr⟩ ⟨q, hq⟩).trans ?_
  have e1 := (Mem.oAt_load o inb2 ho fo r q hr hq).trans (hfo r q hr hq)
  have e2 := (Mem.rAt_load inb3 fr 0 r q hr hq).trans (hfr r q hr hq)
  rw [e1, e2]
  rfl

/-- The device's quarter of the gather buffer after its rows of the result buffer are stored into it narrowed. -/
theorem gathered_rows {h : ℕ}
    (o : Fin 2 → ℕ) (inb2 : ∀ a, o a + (![h, 1024] : Fin 2 → ℕ) a ≤ S1024x1024.size a) (ho : o 1 = 0)
    (pay : ((⟨2, ![h, 1024]⟩ : Shape).Idx → F .f32) → ((⟨2, ![h, 1024]⟩ : Shape).Idx → F .bf16))
    (hpay : ∀ (v : (⟨2, ![h, 1024]⟩ : Shape).Idx → F .f32) (i : (⟨2, ![h, 1024]⟩ : Shape).Idx), pay v i = tr (v i))
    (fo : (cc0_stg4_0 : Ref sig .tc).ty.Contents (Elt F)) (fa : (cc0_scratch2 : Ref sig .tc).ty.Contents (Elt F))
    (val : ℕ → ℕ → F .f32) (hfo : ∀ r q : ℕ, r < h → q < 1024 → oAt fo (o 0 + r) q = val r q) :
    ∀ r q : ℕ, r < h → q < 1024 →
      aAt ((aM.access (Rect.unit (s := S1024x1024) o ![h, 1024] inb2)).write (Elt F) fa
        (pay (oM.view.readAt (Elt F) (Rect.unit (s := S1024x1024) o ![h, 1024] inb2).toLoadRect fo)) Finset.univ) (o 0 + r) q = tr (val r q) := by
  intro r q hr hq
  refine (Mem.aAt_store o inb2 ho fa _ r q hr hq).trans ?_
  refine (hpay _ _).trans ?_
  exact congrArg tr ((Mem.oAt_load o inb2 ho fo r q hr hq).trans (hfo r q hr hq))

/-- Rows a store does not touch keep a fact about them. -/
theorem kept_rows {h h' : ℕ} (o : Fin 2 → ℕ) (inb : ∀ a, o a + (![h, 1024] : Fin 2 → ℕ) a ≤ S1024x1024.size a)
    (fo : (cc0_stg4_0 : Ref sig .tc).ty.Contents (Elt F)) (v : (⟨2, ![h, 1024]⟩ : Shape).Idx → F .f32)
    (base : ℕ) (val : ℕ → ℕ → F .f32) (hb : base + h' ≤ 1024) (hmiss : base + h' ≤ o 0 ∨ o 0 + h ≤ base)
    (hfo : ∀ r q : ℕ, r < h' → q < 1024 → oAt fo (base + r) q = val r q) :
    ∀ r q : ℕ, r < h' → q < 1024 →
      oAt ((oM.access (Rect.unit (s := S1024x1024) o ![h, 1024] inb)).write (Elt F) fo v Finset.univ) (base + r) q = val r q := by
  intro r q hr hq
  refine (Mem.oAt_store_miss o inb fo v (base + r) q (by omega) (by omega)).trans (hfo r q hr hq)

/-! ## Payloads -/

/-- The device's stage-2 block of butterfly 0, landed in the partner's slot, is what the partner's receive cell promises it. -/
theorem land0 (c : Dev nD) (fs : Buf (Elt F) (sSlot02.view.loc (c : Thread nD τ))) (fd : Buf (Elt F) (rSlot02.view.loc (Mesh.px 4 c : Thread nD τ)))
    (hfs : ∀ r q : ℕ, r < 96 → q < 1024 → Mem.sAt fs 0 (288 + r) q = tr (S2 m 0 c (K1 0 c + r) q)) :
    (rSlot02.view.loc (Mesh.px 4 c : Thread nD τ) ↦[rSlot02.view.set]{fullShare} (rSlot02.view.write (Elt F) fd (sSlot02.view.read (Elt F) fs) Finset.univ) : sProp 𝕄)
      ⊢ dpay m 1 0 2 (Mesh.px 4 c) := by
  show _ ⊢ iprop(∃ f, (rSlot02.view.loc (Mesh.px 4 c : Thread nD τ) ↦[rSlot02.view.set]{fullShare} f) ∗ ⌜∀ r q : ℕ, r < 96 → q < 1024 → rAt f 0 (288 + r) q = tr (S2 m 0 (Mesh.px 4 (Mesh.px 4 c)) (K1 0 (Mesh.px 4 c) + r) q)⌝)
  iintro H
  iexists _
  isplitl [H]; · iexact H
  ipureintro
  intro r q hr hq
  rw [Mem.landing02 fd fs r q hr hq, hfs r q hr hq, Mesh.px4_px4, K1_px0]

theorem land1 (c : Dev nD) (fs : Buf (Elt F) (sSlot12.view.loc (c : Thread nD τ))) (fd : Buf (Elt F) (rSlot12.view.loc (Mesh.px 1 c : Thread nD τ)))
    (hfs : ∀ r q : ℕ, r < 96 → q < 1024 → Mem.sAt fs 1 (288 + r) q = tr (S2 m 1 c (K1 1 c + r) q)) :
    (rSlot12.view.loc (Mesh.px 1 c : Thread nD τ) ↦[rSlot12.view.set]{fullShare} (rSlot12.view.write (Elt F) fd (sSlot12.view.read (Elt F) fs) Finset.univ) : sProp 𝕄)
      ⊢ dpay m 1 1 2 (Mesh.px 1 c) := by
  show _ ⊢ iprop(∃ f, (rSlot12.view.loc (Mesh.px 1 c : Thread nD τ) ↦[rSlot12.view.set]{fullShare} f) ∗ ⌜∀ r q : ℕ, r < 96 → q < 1024 → rAt f 1 (288 + r) q = tr (S2 m 1 (Mesh.px 1 (Mesh.px 1 c)) (K1 1 (Mesh.px 1 c) + r) q)⌝)
  iintro H
  iexists _
  isplitl [H]; · iexact H
  ipureintro
  intro r q hr hq
  rw [Mem.landing12 fd fs r q hr hq, hfs r q hr hq, Mesh.px1_px1, K1_px1]

theorem land2 (c : Dev nD) (fs : Buf (Elt F) (sSlot22.view.loc (c : Thread nD τ))) (fd : Buf (Elt F) (rSlot22.view.loc (Mesh.px 2 c : Thread nD τ)))
    (hfs : ∀ r q : ℕ, r < 64 → q < 1024 → Mem.sAt fs 2 (192 + r) q = tr (S2 m 2 c (K1 2 c + r) q)) :
    (rSlot22.view.loc (Mesh.px 2 c : Thread nD τ) ↦[rSlot22.view.set]{fullShare} (rSlot22.view.write (Elt F) fd (sSlot22.view.read (Elt F) fs) Finset.univ) : sProp 𝕄)
      ⊢ dpay m 1 2 2 (Mesh.px 2 c) := by
  show _ ⊢ iprop(∃ f, (rSlot22.view.loc (Mesh.px 2 c : Thread nD τ) ↦[rSlot22.view.set]{fullShare} f) ∗ ⌜∀ r q : ℕ, r < 64 → q < 1024 → rAt f 2 (192 + r) q = tr (S2 m 2 (Mesh.px 2 (Mesh.px 2 c)) (K1 2 (Mesh.px 2 c) + r) q)⌝)
  iintro H
  iexists _
  isplitl [H]; · iexact H
  ipureintro
  intro r q hr hq
  rw [Mem.landing22 fd fs r q hr hq, hfs r q hr hq, Mesh.px2_px2, K1_px2]

/-- A send slot handed to its departure. -/
theorem lend0 (c : Dev nD) (fs : Buf (Elt F) (sSlot02.view.loc (c : Thread nD τ))) :
    (sSlot02.view.loc (c : Thread nD τ) ↦[sSlot02.view.set]{fullShare} fs : sProp 𝕄) ⊢ dpay m 0 0 2 c := by
  show _ ⊢ iprop(∃ f, sSlot02.view.loc (c : Thread nD τ) ↦[sSlot02.view.set]{fullShare} f)
  iintro H; iexists fs; iexact H
theorem lend1 (c : Dev nD) (fs : Buf (Elt F) (sSlot12.view.loc (c : Thread nD τ))) :
    (sSlot12.view.loc (c : Thread nD τ) ↦[sSlot12.view.set]{fullShare} fs : sProp 𝕄) ⊢ dpay m 0 1 2 c := by
  show _ ⊢ iprop(∃ f, sSlot12.view.loc (c : Thread nD τ) ↦[sSlot12.view.set]{fullShare} f)
  iintro H; iexists fs; iexact H
theorem lend2 (c : Dev nD) (fs : Buf (Elt F) (sSlot22.view.loc (c : Thread nD τ))) :
    (sSlot22.view.loc (c : Thread nD τ) ↦[sSlot22.view.set]{fullShare} fs : sProp 𝕄) ⊢ dpay m 0 2 2 c := by
  show _ ⊢ iprop(∃ f, sSlot22.view.loc (c : Thread nD τ) ↦[sSlot22.view.set]{fullShare} f)
  iintro H; iexists fs; iexact H

/-- What the arrivals of stage 2 hand the device. -/
theorem got0 (c : Dev nD) : dpay m 1 0 2 c ⊢ (iprop(∃ f, (rSlot02.view.loc (c : Thread nD τ) ↦[rSlot02.view.set]{fullShare} f) ∗ ⌜∀ r q : ℕ, r < 96 → q < 1024 → rAt f 0 (288 + r) q = tr (S2 m 0 (Mesh.px 4 c) (K1 0 c + r) q)⌝) : sProp 𝕄) :=
  BI.Entails.refl _
theorem got1 (c : Dev nD) : dpay m 1 1 2 c ⊢ (iprop(∃ f, (rSlot12.view.loc (c : Thread nD τ) ↦[rSlot12.view.set]{fullShare} f) ∗ ⌜∀ r q : ℕ, r < 96 → q < 1024 → rAt f 1 (288 + r) q = tr (S2 m 1 (Mesh.px 1 c) (K1 1 c + r) q)⌝) : sProp 𝕄) :=
  BI.Entails.refl _
theorem got2 (c : Dev nD) : dpay m 1 2 2 c ⊢ (iprop(∃ f, (rSlot22.view.loc (c : Thread nD τ) ↦[rSlot22.view.set]{fullShare} f) ∗ ⌜∀ r q : ℕ, r < 64 → q < 1024 → rAt f 2 (192 + r) q = tr (S2 m 2 (Mesh.px 2 c) (K1 2 c + r) q)⌝) : sProp 𝕄) :=
  BI.Entails.refl _

/-! ## The remote copy, addressed by a device id that is the partner's -/

theorem wp_send_to {s : Shape} {e : EltTy} (c n c' : Dev nD) (hn : n = c') (A₁ A₂ : Fin 4) (b k : Fin 3) (h₁ : used A₁ k) (h₂ : used A₂ k)
    {src : Memref sig .tc .vmem s e} {dst : Memref sig .tc .vmem s e}
    {hsc : (dst : Memref sig (Dev.tc n : Thread nD τ).2.kind .vmem s e).view.ref.isScScratch = false}
    {hsrc : src.view.WordExact} {hdst : dst.view.WordExact}
    {hsem : DmaTarget.Typed .vmem (.dma (dsem A₂ b k)) (.remote (Dev.tc n : Thread nD τ) dst (.dma (dsem A₁ b k)) hsc)}
    {α : Type} {Q : α → sProp 𝕄} {kk : PUnit → Prog (TpuEff nD τ sig (Elt F) Λ₀ .tc) α}
    {q : PosShare TreeShare} {fs : Buf (Elt F) (src.view.loc (c : Thread nD τ))} {fd : Buf (Elt F) (dst.view.loc (c' : Thread nD τ))}
    {κ₁ κ₂ : ℕ} (hN : dst.view.dmaCredit = namt A₂ b k) (hA : namt A₁ b k = namt A₂ b k)
    {O₀ : CellTallies nD τ sig Unit} (O : CellTallies nD τ sig Unit) (hO : O₀ = O + tallyAt (dcell A₂ b k c') () (namt A₂ b k)) {W : Waits sig Unit}
    (hpay₁ : (src.view.loc (c : Thread nD τ) ↦[src.view.set]{q} fs) ⊢ dpay m A₁ b k c)
    (hpay₂ : (dst.view.loc (c' : Thread nD τ) ↦[dst.view.set]{fullShare} (dst.view.write (Elt F) fd (src.view.read (Elt F) fs) Finset.univ))
      ⊢ dpay m A₂ b k c') :
    iprop(cellInv ER (Rd (F := F) m) κ₁ (dcell A₁ b k c) ∗ cellInv ER (Rd (F := F) m) κ₂ (dcell A₂ b k c')
        ∗ (src.view.loc (c : Thread nD τ) ↦[src.view.set]{q} fs) ∗ (dst.view.loc (c' : Thread nD τ) ↦[dst.view.set]{fullShare} fd)
        ∗ owes (c : Thread nD τ) O₀ W
        ∗ dutyTok ER (dcell A₁ b k c) 0 0 ∗ reached ER (dcell A₁ b k c) 0
        ∗ dutyTok ER (dcell A₂ b k c') 0 0 ∗ reached ER (dcell A₂ b k c') 0)
      ⊢ iprop(((cred (tallyAt (dcell A₁ b k c) () (namt A₁ b k)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma (dsem A₁ b k)) hsc) (.dma (dsem A₂ b k)) hsrc hdst hsem) kk) Q) := by
  subst hn
  exact Tables.wp_send_cells m c n A₁ A₂ b k h₁ h₂ hN hA O hO hpay₁ hpay₂

/-- The contents of a held region may be forgotten but for a fact about them. -/
theorem pt_forget {ℓ : Loc nD τ sig} {S : Finset (Idx ℓ)} {q : PosShare TreeShare} (f : Buf (Elt F) ℓ) (φ : Buf (Elt F) ℓ → Prop) (h : φ f) :
    ((ℓ ↦[S]{q} f) : sProp 𝕄) ⊢ iprop(∃ g, (ℓ ↦[S]{q} g) ∗ ⌜φ g⌝) := by
  iintro H
  iexists f
  isplitl [H]; · iexact H
  ipureintro; exact h

/-! ## What the stage changes -/

/-- After exchange stage 2: the three receive cells at round 1, the three departures' credits, thirteen payments made, the
    result buffer at some contents, the three receive slots back, and the device's three quarters of the gather buffer
    holding its totals narrowed for the wire. -/
def S2Post (c : Dev nD) (W : Waits sig Unit) : sProp 𝕄 :=
  iprop(atPos ER (dcell 1 0 2 c) 1 ∅ 0 ∗ atPos ER (dcell 1 1 2 c) 1 ∅ 0 ∗ atPos ER (dcell 1 2 2 c) 1 ∅ 0
    ∗ cred (tallyAt (dcell 0 0 2 c) () (namt 0 0 2)) ∗ cred (tallyAt (dcell 0 1 2 c) () (namt 0 1 2)) ∗ cred (tallyAt (dcell 0 2 2 c) () (namt 0 2 2))
    ∗ owes (c : Thread nD τ) (Orem c 13) W
    ∗ (∃ fo : Buf (Elt F) ((oM : Memref sig .tc .vmem S1024x1024 .f32).view.loc (c : Thread nD τ)), ((oM : Memref sig .tc .vmem S1024x1024 .f32).view.loc (c : Thread nD τ)) ↦{fullShare} fo)
    ∗ (∃ f, rSlot02.view.loc (c : Thread nD τ) ↦[rSlot02.view.set]{fullShare} f)
    ∗ (∃ f, rSlot12.view.loc (c : Thread nD τ) ↦[rSlot12.view.set]{fullShare} f)
    ∗ (∃ f, rSlot22.view.loc (c : Thread nD τ) ↦[rSlot22.view.set]{fullShare} f)
    ∗ (∃ f, ((aRows01 c).view.loc (c : Thread nD τ) ↦[(aRows01 c).view.set]{fullShare} f) ∗ ⌜∀ r q : ℕ, r < 96 → q < 1024 → aAt f (K1 0 c + r) q = tr (S3 m 0 c (K1 0 c + r) q)⌝)
    ∗ (∃ f, ((aRows11 c).view.loc (c : Thread nD τ) ↦[(aRows11 c).view.set]{fullShare} f) ∗ ⌜∀ r q : ℕ, r < 96 → q < 1024 → aAt f (K1 1 c + r) q = tr (S3 m 1 c (K1 1 c + r) q)⌝)
    ∗ (∃ f, ((aRows21 c).view.loc (c : Thread nD τ) ↦[(aRows21 c).view.set]{fullShare} f) ∗ ⌜∀ r q : ℕ, r < 64 → q < 1024 → aAt f (K1 2 c + r) q = tr (S3 m 2 c (K1 2 c + r) q)⌝))

/-! ## The stage, step by step -/

set_option maxRecDepth 8192 in
set_option maxHeartbeats 4000000 in
/-- Exchange stage 2 over what it touches: the three remote copies of the kept quarters, then for each butterfly the wait
    for the partner's quarter, the addition into the result buffer and the narrowed total into the gather buffer. -/
theorem s2_core (c : Dev nD) (W : Waits sig Unit) (v2 v328 v347 v366 v376 : BitVec 32) {α : Type}
    (kk : BitVec 32 → Prog (TpuEff nD τ sig (Elt F) Λ₀ .tc) α) (Q : α → sProp 𝕄) :
    iprop(records m K ∗ levAts L lv
        ∗ atPos ER (dcell 1 0 2 c) 0 ∅ 0 ∗ atPos ER (dcell 1 1 2 c) 0 ∅ 0 ∗ atPos ER (dcell 1 2 2 c) 0 ∅ 0
        ∗ dutyTok ER (dcell 1 0 2 (Mesh.px 4 c)) 0 (0 : Fin 4) ∗ dutyTok ER (dcell 1 1 2 (Mesh.px 1 c)) 0 (0 : Fin 4) ∗ dutyTok ER (dcell 1 2 2 (Mesh.px 2 c)) 0 (0 : Fin 4)
        ∗ dutyTok ER (dcell 0 0 2 c) 0 (0 : Fin 4) ∗ dutyTok ER (dcell 0 1 2 c) 0 (0 : Fin 4) ∗ dutyTok ER (dcell 0 2 2 c) 0 (0 : Fin 4)
        ∗ cred (tallyAt (dcell 1 0 2 c) () (namt 1 0 2)) ∗ cred (tallyAt (dcell 1 1 2 c) () (namt 1 1 2)) ∗ cred (tallyAt (dcell 1 2 2 c) () (namt 1 2 2))
        ∗ owes (c : Thread nD τ) (Orem c 10) W
        ∗ (∃ fo : Buf (Elt F) ((oM : Memref sig .tc .vmem S1024x1024 .f32).view.loc (c : Thread nD τ)), (((oM : Memref sig .tc .vmem S1024x1024 .f32).view.loc (c : Thread nD τ)) ↦{fullShare} fo) ∗ ⌜(∀ r q : ℕ, r < 96 → q < 1024 → oAt fo (K1 0 c + r) q = S2 m 0 c (K1 0 c + r) q) ∧ (∀ r q : ℕ, r < 96 → q < 1024 → oAt fo (K1 1 c + r) q = S2 m 1 c (K1 1 c + r) q) ∧ (∀ r q : ℕ, r < 64 → q < 1024 → oAt fo (K1 2 c + r) q = S2 m 2 c (K1 2 c + r) q)⌝)
        ∗ (∃ f, (sSlot02.view.loc (c : Thread nD τ) ↦[sSlot02.view.set]{fullShare} f) ∗ ⌜∀ r q : ℕ, r < 96 → q < 1024 → Mem.sAt f 0 (288 + r) q = tr (S2 m 0 c (K1 0 c + r) q)⌝)
        ∗ (∃ f, sSlot12.view.loc (c : Thread nD τ) ↦[sSlot12.view.set]{fullShare} f)
        ∗ (∃ f, sSlot22.view.loc (c : Thread nD τ) ↦[sSlot22.view.set]{fullShare} f)
        ∗ (∃ f, (aRows01 c).view.loc (c : Thread nD τ) ↦[(aRows01 c).view.set]{fullShare} f)
        ∗ (∃ f, (aRows11 c).view.loc (c : Thread nD τ) ↦[(aRows11 c).view.set]{fullShare} f)
        ∗ (∃ f, (aRows21 c).view.loc (c : Thread nD τ) ↦[(aRows21 c).view.set]{fullShare} f)
        ∗ (∃ f, rSlot02.view.loc ((Mesh.px 4 c) : Thread nD τ) ↦[rSlot02.view.set]{fullShare} f)
        ∗ (∃ f, rSlot12.view.loc ((Mesh.px 1 c) : Thread nD τ) ↦[rSlot12.view.set]{fullShare} f)
        ∗ (∃ f, rSlot22.view.loc ((Mesh.px 2 c) : Thread nD τ) ↦[rSlot22.view.set]{fullShare} f))
      ⊢ iprop((S2Post m c (insert (SemLoc.dma (dsem 1 2 2), ()) (insert (SemLoc.dma (dsem 1 1 2), ()) (insert (SemLoc.dma (dsem 1 0 2), ()) W)))
            -∗ wp frame (wpE (defs₀ (F := F)) 𝒱₀ (c : Thread nD τ) none) Set.univ (kk (Scalar.xori v2 1#32)) Q)
          -∗ wp frame (wpE (defs₀ (F := F)) 𝒱₀ (c : Thread nD τ) none) Set.univ (do
          let ⟨v394, v412, v419⟩ : Σ' (v394 : BitVec 32) (v412 : BitVec 32), FVec F S1x64x1024 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v347 v366
          k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v376 v412 v419
          k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v347 v394
          let v505 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v366 v412
          kk v505) Q) := by
  iintro ⟨#Hrec, #Hlev, P0, P1, P2, Tr0, Tr1, Tr2, Ts0, Ts1, Ts2, Cr0, Cr1, Cr2, HO, ⟨%fo, Hout, %hfo⟩, ⟨%fs0, Hs0, %hfs0⟩, ⟨%fs1, Hs1⟩, ⟨%fs2, Hs2⟩,
    ⟨%fa0, Ha0⟩, ⟨%fa1, Ha1⟩, ⟨%fa2, Ha2⟩, ⟨%fd0, Hd0⟩, ⟨%fd1, Hd1⟩, ⟨%fd2, Hd2⟩⟩
  iintro Hk
  obtain ⟨hfo0, hfo1, hfo2⟩ := hfo
  have hK := K1_ranges c
  ihave #IS0 := (inv_d m K 0 0 2 c) $$ Hrec
  ihave #IS1 := (inv_d m K 0 1 2 c) $$ Hrec
  ihave #IS2 := (inv_d m K 0 2 2 c) $$ Hrec
  ihave #IP0 := (inv_d m K 1 0 2 (Mesh.px 4 c)) $$ Hrec
  ihave #IP1 := (inv_d m K 1 1 2 (Mesh.px 1 c)) $$ Hrec
  ihave #IP2 := (inv_d m K 1 2 2 (Mesh.px 2 c)) $$ Hrec
  ihave #IR0 := (inv_d m K 1 0 2 c) $$ Hrec
  ihave #IR1 := (inv_d m K 1 1 2 c) $$ Hrec
  ihave #IR2 := (inv_d m K 1 2 2 c) $$ Hrec
  ihave #RS0 := (reached_d m K 0 0 2 c) $$ Hrec
  ihave #RS1 := (reached_d m K 0 1 2 c) $$ Hrec
  ihave #RS2 := (reached_d m K 0 2 2 c) $$ Hrec
  ihave #RP0 := (reached_d m K 1 0 2 (Mesh.px 4 c)) $$ Hrec
  ihave #RP1 := (reached_d m K 1 1 2 (Mesh.px 1 c)) $$ Hrec
  ihave #RP2 := (reached_d m K 1 2 2 (Mesh.px 2 c)) $$ Hrec
  -- the fourteenth part
  simp only [k0_part14_eq_skeleton]
  unfold k0_part14_skel
  simp only [Prog.lift, Prog.bind_op, Prog.bind_ret, Prog.pure_eq_ret]
  -- butterfly 0's quarter, already narrowed in its slot, departs for the partner under the mask 4
  iapply (wp_send_to m c _ (Mesh.px 4 c) (Mesh.dev11_eq c) 0 1 0 2 (Or.inl (by decide)) (Or.inl (by decide)) (fs := fs0) (fd := fd0)
      Tables.credit_r02 rfl (Orem c 11) (Orem_lt c 10 (by decide)) (lend0 m c fs0) (land0 m c fs0 fd0 hfs0)) $$ [Hs0 Hd0 HO Ts0 Tr0]
  · isplitr; · iexact IS0
    isplitr; · iexact IP0
    isplitl [Hs0]; · iexact Hs0
    isplitl [Hd0]; · iexact Hd0
    isplitl [HO]; · iexact HO
    isplitl [Ts0]; · iexact Ts0
    isplitr; · iexact RS0
    isplitl [Tr0]; · iexact Tr0
    iexact RP0
  iintro ⟨Cs0, HO⟩
  -- butterfly 1: the kept quarter is read, narrowed into its slot, and departs for the partner under the mask 1
  iapply (wp_load 𝒱₀ (c : Thread nD τ) none Set.univ (m := oM) (Finset.subset_univ _)) $$ Hout; iintro Hout
  iapply (wp_load 𝒱₀ (c : Thread nD τ) none Set.univ (m := sM) (slot_load_sub sM inb_S3x384x1024_S1x96x1024_1_288_0 squeezes_S1x96x1024_S96x1024)) $$ Hs1; iintro Hs1
  iapply (wp_store 𝒱₀ (c : Thread nD τ) none Set.univ (m := sM) (r := Rect.unit (s := S3x384x1024) ![1, 288, 0] S1x96x1024.size inb_S3x384x1024_S1x96x1024_1_288_0) (Mk := Finset.univ)
      (slot_store_sub sM inb_S3x384x1024_S1x96x1024_1_288_0 squeezes_S1x96x1024_S96x1024)) $$ Hs1; iintro Hs1
  have hs1 := sent_rows inb_S3x384x1024_S1x96x1024_1_288_0 (k0_off3 c 384#32 4#32 3#32 96#32 0#32) (k0_off3_inb c 3) (off3d_col c) k0_pay26 Mem.pay26_apply fo fs1
    (fun r q => S2 m 1 c (K1 1 c + r) q) hfo1
  iapply (wp_send_to m c _ (Mesh.px 1 c) (Mesh.dev12_eq c) 0 1 1 2 (Or.inl (by decide)) (Or.inl (by decide)) (fd := fd1)
      Tables.credit_r12 rfl (Orem c 12) (Orem_lt c 11 (by decide)) (lend1 m c _) (land1 m c _ fd1 hs1)) $$ [Hs1 Hd1 HO Ts1 Tr1]
  · isplitr; · iexact IS1
    isplitr; · iexact IP1
    isplitl [Hs1]; · iexact Hs1
    isplitl [Hd1]; · iexact Hd1
    isplitl [HO]; · iexact HO
    isplitl [Ts1]; · iexact Ts1
    isplitr; · iexact RS1
    isplitl [Tr1]; · iexact Tr1
    iexact RP1
  iintro ⟨Cs1, HO⟩
  -- butterfly 2: the kept quarter is read and narrowed
  iapply (wp_load 𝒱₀ (c : Thread nD τ) none Set.univ (m := oM) (Finset.subset_univ _)) $$ Hout; iintro Hout
  iapply (wp_load 𝒱₀ (c : Thread nD τ) none Set.univ (m := sM) (slot_load_sub sM inb_S3x384x1024_S1x64x1024_2_192_0 squeezes_S1x64x1024_S64x1024)) $$ Hs2; iintro Hs2
  -- the fifteenth part
  simp only [k0_part15_eq_skeleton]
  unfold k0_part15_skel
  simp only [Prog.lift, Prog.bind_op, Prog.bind_ret, Prog.pure_eq_ret]
  iapply (wp_store 𝒱₀ (c : Thread nD τ) none Set.univ (m := sM) (r := Rect.unit (s := S3x384x1024) ![2, 192, 0] S1x64x1024.size inb_S3x384x1024_S1x64x1024_2_192_0) (Mk := Finset.univ)
      (slot_store_sub sM inb_S3x384x1024_S1x64x1024_2_192_0 squeezes_S1x64x1024_S64x1024)) $$ Hs2; iintro Hs2
  have hs2 := sent_rows inb_S3x384x1024_S1x64x1024_2_192_0 (k0_off4 c 64#32 0#32) (k0_off4_inb c 1) (off4b_col c) k0_pay27 Mem.pay27_apply fo fs2
    (fun r q => S2 m 2 c (K1 2 c + r) q) hfo2
  iapply (wp_send_to m c _ (Mesh.px 2 c) (Mesh.dev13_eq c) 0 1 2 2 (Or.inl (by decide)) (Or.inl (by decide)) (fd := fd2)
      Tables.credit_r22 rfl (Orem c 13) (Orem_lt c 12 (by decide)) (lend2 m c _) (land2 m c _ fd2 hs2)) $$ [Hs2 Hd2 HO Ts2 Tr2]
  · isplitr; · iexact IS2
    isplitr; · iexact IP2
    isplitl [Hs2]; · iexact Hs2
    isplitl [Hd2]; · iexact Hd2
    isplitl [HO]; · iexact HO
    isplitl [Ts2]; · iexact Ts2
    isplitr; · iexact RS2
    isplitl [Tr2]; · iexact Tr2
    iexact RP2
  iintro ⟨Cs2, HO⟩
  -- butterfly 0: the partner's quarter has arrived
  iapply (Tables.wp_wait_dcell m 1 0 2 c (Or.inl (by decide)) Tables.credit_r02) $$ [Cr0 HO P0]
  · isplitr; · iexact IR0
    isplitl [Cr0]; · iexact Cr0
    isplitl [HO]; · iexact HO
    isplitr; · iapply (Tables.mayWait_rs2 0 c); iexact Hlev
    iexact P0
  iintro ⟨HO, P0, -, Hg0⟩
  ihave Hg0' := (got0 m c) $$ Hg0
  icases Hg0' with ⟨%fr0, Hr0, %hfr0⟩
  -- it is added, as it came over the wire, to the device's own rows
  iapply (wp_load 𝒱₀ (c : Thread nD τ) none Set.univ (m := oM) (Finset.subset_univ _)) $$ Hout; iintro Hout
  iapply (wp_load 𝒱₀ (c : Thread nD τ) none Set.univ (m := rM) (slot_load_sub rM inb_S3x384x1024_S1x96x1024_0_288_0 squeezes_S1x96x1024_S96x1024)) $$ Hr0; iintro Hr0
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off3 c 0#32 3#32 1#32 96#32 0#32) S96x1024.size (k0_off3_inb c 2)) (Mk := Finset.univ)
      (Finset.subset_univ _)) $$ Hout; iintro Hout
  have ht0 := added_rows inb_S3x384x1024_S1x96x1024_0_288_0 (k0_off3 c 0#32 3#32 1#32 96#32 0#32) (k0_off3_inb c 2) (off3c_col c) k0_pay28 Mem.pay28_apply fo fr0
    (fun r q => S2 m 0 c (K1 0 c + r) q) (fun r q => S2 m 0 (Mesh.px 4 c) (K1 0 c + r) q) hfo0 hfr0
  icases (pt_forget _ (fun g : Buf (Elt F) ((oM : Memref sig .tc .vmem S1024x1024 .f32).view.loc (c : Thread nD τ)) =>
      (∀ r q : ℕ, r < 96 → q < 1024 → oAt g (K1 0 c + r) q = S3 m 0 c (K1 0 c + r) q)
      ∧ (∀ r q : ℕ, r < 96 → q < 1024 → oAt g (K1 1 c + r) q = S2 m 1 c (K1 1 c + r) q)
      ∧ (∀ r q : ℕ, r < 64 → q < 1024 → oAt g (K1 2 c + r) q = S2 m 2 c (K1 2 c + r) q))
    ⟨ht0,
      kept_rows (h' := 96) (k0_off3 c 0#32 3#32 1#32 96#32 0#32) (k0_off3_inb c 2) fo _ (K1 1 c) _ (by omega) (Or.inr (by show K1 0 c + 96 ≤ K1 1 c; omega)) hfo1,
      kept_rows (h' := 64) (k0_off3 c 0#32 3#32 1#32 96#32 0#32) (k0_off3_inb c 2) fo _ (K1 2 c) _ (by omega) (Or.inr (by show K1 0 c + 96 ≤ K1 2 c; omega)) hfo2⟩) $$ Hout with ⟨%fo1, Hout, %hfo'⟩
  obtain ⟨hA0, hB1, hB2⟩ := hfo'
  -- the sixteenth part: the total, narrowed, goes into the device's quarter of the gather buffer
  simp only [k0_part16_eq_skeleton]
  unfold k0_part16_skel
  simp only [Prog.lift, Prog.bind_op, Prog.bind_ret, Prog.pure_eq_ret]
  iapply (wp_load 𝒱₀ (c : Thread nD τ) none Set.univ (m := oM) (Finset.subset_univ _)) $$ Hout; iintro Hout
  iapply (wp_load 𝒱₀ (c : Thread nD τ) none Set.univ (m := aM)
      (arows_load_sub (k0_off3 c 0#32 3#32 1#32 96#32 0#32) (k0_off5 c 0#32 3#32 1#32) (Rows.ag1_own_b0 c) (k0_off3_inb c 2) (k0_off5_inb c 0))) $$ Ha0; iintro Ha0
  iapply (wp_store 𝒱₀ (c : Thread nD τ) none Set.univ (m := aM) (r := Rect.unit (s := S1024x1024) (k0_off3 c 0#32 3#32 1#32 96#32 0#32) S96x1024.size (k0_off3_inb c 2)) (Mk := Finset.univ)
      (arows_store_sub (k0_off3 c 0#32 3#32 1#32 96#32 0#32) (k0_off5 c 0#32 3#32 1#32) (Rows.ag1_own_b0 c) (k0_off3_inb c 2) (k0_off5_inb c 0))) $$ Ha0; iintro Ha0
  have hg0 := gathered_rows (k0_off3 c 0#32 3#32 1#32 96#32 0#32) (k0_off3_inb c 2) (off3c_col c) k0_pay29 Mem.pay29_apply fo1 fa0 (fun r q => S3 m 0 c (K1 0 c + r) q) hA0
  -- butterfly 1
  iapply (Tables.wp_wait_dcell m 1 1 2 c (Or.inl (by decide)) Tables.credit_r12) $$ [Cr1 HO P1]
  · isplitr; · iexact IR1
    isplitl [Cr1]; · iexact Cr1
    isplitl [HO]; · iexact HO
    isplitr; · iapply (Tables.mayWait_rs2 1 c); iexact Hlev
    iexact P1
  iintro ⟨HO, P1, -, Hg1⟩
  ihave Hg1' := (got1 m c) $$ Hg1
  icases Hg1' with ⟨%fr1, Hr1, %hfr1⟩
  iapply (wp_load 𝒱₀ (c : Thread nD τ) none Set.univ (m := oM) (Finset.subset_univ _)) $$ Hout; iintro Hout
  iapply (wp_load 𝒱₀ (c : Thread nD τ) none Set.univ (m := rM) (slot_load_sub rM inb_S3x384x1024_S1x96x1024_1_288_0 squeezes_S1x96x1024_S96x1024)) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off3 c 384#32 4#32 3#32 96#32 0#32) S96x1024.size (k0_off3_inb c 3)) (Mk := Finset.univ)
      (Finset.subset_univ _)) $$ Hout; iintro Hout
  have ht1 := added_rows inb_S3x384x1024_S1x96x1024_1_288_0 (k0_off3 c 384#32 4#32 3#32 96#32 0#32) (k0_off3_inb c 3) (off3d_col c) k0_pay30 Mem.pay30_apply fo1 fr1
    (fun r q => S2 m 1 c (K1 1 c + r) q) (fun r q => S2 m 1 (Mesh.px 1 c) (K1 1 c + r) q) hB1 hfr1
  icases (pt_forget _ (fun g : Buf (Elt F) ((oM : Memref sig .tc .vmem S1024x1024 .f32).view.loc (c : Thread nD τ)) =>
      (∀ r q : ℕ, r < 96 → q < 1024 → oAt g (K1 1 c + r) q = S3 m 1 c (K1 1 c + r) q)
      ∧ (∀ r q : ℕ, r < 64 → q < 1024 → oAt g (K1 2 c + r) q = S2 m 2 c (K1 2 c + r) q))
    ⟨ht1,
      kept_rows (h' := 64) (k0_off3 c 384#32 4#32 3#32 96#32 0#32) (k0_off3_inb c 3) fo1 _ (K1 2 c) _ (by omega) (Or.inr (by show K1 1 c + 96 ≤ K1 2 c; omega)) hB2⟩) $$ Hout with ⟨%fo2, Hout, %hfo''⟩
  obtain ⟨hA1, hC2⟩ := hfo''
  iapply (wp_load 𝒱₀ (c : Thread nD τ) none Set.univ (m := oM) (Finset.subset_univ _)) $$ Hout; iintro Hout
  iapply (wp_load 𝒱₀ (c : Thread nD τ) none Set.univ (m := aM)
      (arows_load_sub (k0_off3 c 384#32 4#32 3#32 96#32 0#32) (k0_off5 c 384#32 4#32 3#32) (Rows.ag1_own_b1 c) (k0_off3_inb c 3) (k0_off5_inb c 1))) $$ Ha1; iintro Ha1
  iapply (wp_store 𝒱₀ (c : Thread nD τ) none Set.univ (m := aM) (r := Rect.unit (s := S1024x1024) (k0_off3 c 384#32 4#32 3#32 96#32 0#32) S96x1024.size (k0_off3_inb c 3)) (Mk := Finset.univ)
      (arows_store_sub (k0_off3 c 384#32 4#32 3#32 96#32 0#32) (k0_off5 c 384#32 4#32 3#32) (Rows.ag1_own_b1 c) (k0_off3_inb c 3) (k0_off5_inb c 1))) $$ Ha1; iintro Ha1
  have hg1 := gathered_rows (k0_off3 c 384#32 4#32 3#32 96#32 0#32) (k0_off3_inb c 3) (off3d_col c) k0_pay31 Mem.pay31_apply fo2 fa1 (fun r q => S3 m 1 c (K1 1 c + r) q) hA1
  -- the seventeenth part: butterfly 2
  simp only [k0_part17_eq_skeleton]
  unfold k0_part17_skel
  simp only [Prog.lift, Prog.bind_op, Prog.bind_ret, Prog.pure_eq_ret]
  iapply (Tables.wp_wait_dcell m 1 2 2 c (Or.inl (by decide)) Tables.credit_r22) $$ [Cr2 HO P2]
  · isplitr; · iexact IR2
    isplitl [Cr2]; · iexact Cr2
    isplitl [HO]; · iexact HO
    isplitr; · iapply (Tables.mayWait_rs2 2 c); iexact Hlev
    iexact P2
  iintro ⟨HO, P2, -, Hg2⟩
  ihave Hg2' := (got2 m c) $$ Hg2
  icases Hg2' with ⟨%fr2, Hr2, %hfr2⟩
  iapply (wp_load 𝒱₀ (c : Thread nD τ) none Set.univ (m := oM) (Finset.subset_univ _)) $$ Hout; iintro Hout
  iapply (wp_load 𝒱₀ (c : Thread nD τ) none Set.univ (m := rM) (slot_load_sub rM inb_S3x384x1024_S1x64x1024_2_192_0 squeezes_S1x64x1024_S64x1024)) $$ Hr2; iintro Hr2
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off4 c 64#32 0#32) S64x1024.size (k0_off4_inb c 1)) (Mk := Finset.univ)
      (Finset.subset_univ _)) $$ Hout; iintro Hout
  have ht2 := added_rows inb_S3x384x1024_S1x64x1024_2_192_0 (k0_off4 c 64#32 0#32) (k0_off4_inb c 1) (off4b_col c) k0_pay32 Mem.pay32_apply fo2 fr2
    (fun r q => S2 m 2 c (K1 2 c + r) q) (fun r q => S2 m 2 (Mesh.px 2 c) (K1 2 c + r) q) hC2 hfr2
  icases (pt_forget _ (fun g : Buf (Elt F) ((oM : Memref sig .tc .vmem S1024x1024 .f32).view.loc (c : Thread nD τ)) =>
      ∀ r q : ℕ, r < 64 → q < 1024 → oAt g (K1 2 c + r) q = S3 m 2 c (K1 2 c + r) q) ht2) $$ Hout with ⟨%fo3, Hout, %hA2⟩
  iapply (wp_load 𝒱₀ (c : Thread nD τ) none Set.univ (m := oM) (Finset.subset_univ _)) $$ Hout; iintro Hout
  iapply (wp_load 𝒱₀ (c : Thread nD τ) none Set.univ (m := aM)
      (arows_load_sub (k0_off4 c 64#32 0#32) (k0_off6 c) (Rows.ag1_own_b2 c) (k0_off4_inb c 1) (k0_off6_inb c))) $$ Ha2; iintro Ha2
  iapply (wp_store 𝒱₀ (c : Thread nD τ) none Set.univ (m := aM) (r := Rect.unit (s := S1024x1024) (k0_off4 c 64#32 0#32) S64x1024.size (k0_off4_inb c 1)) (Mk := Finset.univ)
      (arows_store_sub (k0_off4 c 64#32 0#32) (k0_off6 c) (Rows.ag1_own_b2 c) (k0_off4_inb c 1) (k0_off6_inb c))) $$ Ha2; iintro Ha2
  have hg2 := gathered_rows (k0_off4 c 64#32 0#32) (k0_off4_inb c 1) (off4b_col c) k0_pay33 Mem.pay33_apply fo3 fa2 (fun r q => S3 m 2 c (K1 2 c + r) q) hA2
  -- the stage is over
  iapply Hk
  unfold S2Post
  isplitl [P0]; · iexact P0
  isplitl [P1]; · iexact P1
  isplitl [P2]; · iexact P2
  isplitl [Cs0]; · iexact Cs0
  isplitl [Cs1]; · iexact Cs1
  isplitl [Cs2]; · iexact Cs2
  isplitl [HO]; · iexact HO
  isplitl [Hout]; · iexists _; iexact Hout
  isplitl [Hr0]; · iexists _; iexact Hr0
  isplitl [Hr1]; · iexists _; iexact Hr1
  isplitl [Hr2]; · iexists _; iexact Hr2
  isplitl [Ha0]
  · iexists _
    isplitl [Ha0]; · iexact Ha0
    ipureintro; exact hg0
  isplitl [Ha1]
  · iexists _
    isplitl [Ha1]; · iexact Ha1
    ipureintro; exact hg1
  · iexists _
    isplitl [Ha2]; · iexact Ha2
    ipureintro; exact hg2

end S2

open S2

/-! ## The stage between the two cuts -/

set_option maxRecDepth 8192 in
set_option maxHeartbeats 4000000 in
/-- Exchange stage 2 from the cut before it to the cut before the all-gather: what the stage does not touch is carried
    across; the receive buffer comes back whole from its nine slots. -/
theorem s2 (c : Dev nD) (W : Waits sig Unit) (v2 v328 v347 v366 v376 : BitVec 32) {α : Type}
    (kk : BitVec 32 → Prog (TpuEff nD τ sig (Elt F) Λ₀ .tc) α) (Q : α → sProp 𝕄) :
    iprop(Cuts.PreS2 m K c W ∗ (∀ (r : BitVec 32) (W' : Waits sig Unit), Cuts.PreAG m K c W' -∗ wp frame (wpE (defs₀ (F := F)) 𝒱₀ (c : Thread nD τ) none) Set.univ (kk r) Q))
      ⊢ wp frame (wpE (defs₀ (F := F)) 𝒱₀ (c : Thread nD τ) none) Set.univ (do
          let ⟨v394, v412, v419⟩ : Σ' (v394 : BitVec 32) (v412 : BitVec 32), FVec F S1x64x1024 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v347 v366
          k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v376 v412 v419
          k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v347 v394
          let v505 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v366 v412
          kk v505) Q := by
  unfold Cuts.PreS2
  iintro ⟨⟨#Hrec, #Hlev, A2, A3, A4, P0, A6, A7, P1, A9, A10, P2, A12, A13, A14, A15, A16, A17, A18, A19, A20, A21, A22, A23, A24, A25, A26, A27, A28, A29, A30, A31, A32, A33, A34, A35, A36, A37, A38, Tr0, Tr1, Tr2, Ts0, Ts1, Ts2, A45, A46, A47, A48, A49, A50, A51, A52, A53, A54, A55, A56, Cr0, Cr1, Cr2, A60, A61, A62, A63, A64, A65, A66, A67, A68, A69, A70, A71, HO, A73, A74, A75, A76, Hout, A78, Hs0, Hs1, Hs2, Hrb, R00, R01, R10, R11, R20, R21, Ha0, Ha1, Ha2, Hd0, Hd1, Hd2, A95, A96, A97, A98, A99, A100⟩, Hk⟩
  iapply (s2_core m K c W v2 v328 v347 v366 v376 kk Q) $$ [P0 P1 P2 Tr0 Tr1 Tr2 Ts0 Ts1 Ts2 Cr0 Cr1 Cr2 HO Hout Hs0 Hs1 Hs2 Ha0 Ha1 Ha2 Hd0 Hd1 Hd2]
  · isplitr; · iexact Hrec
    isplitr; · iexact Hlev
    isplitl [P0]; · iexact P0
    isplitl [P1]; · iexact P1
    isplitl [P2]; · iexact P2
    isplitl [Tr0]; · iexact Tr0
    isplitl [Tr1]; · iexact Tr1
    isplitl [Tr2]; · iexact Tr2
    isplitl [Ts0]; · iexact Ts0
    isplitl [Ts1]; · iexact Ts1
    isplitl [Ts2]; · iexact Ts2
    isplitl [Cr0]; · iexact Cr0
    isplitl [Cr1]; · iexact Cr1
    isplitl [Cr2]; · iexact Cr2
    isplitl [HO]; · iexact HO
    isplitl [Hout]; · iexact Hout
    isplitl [Hs0]; · iexact Hs0
    isplitl [Hs1]; · iexact Hs1
    isplitl [Hs2]; · iexact Hs2
    isplitl [Ha0]; · iexact Ha0
    isplitl [Ha1]; · iexact Ha1
    isplitl [Ha2]; · iexact Ha2
    isplitl [Hd0]; · iexact Hd0
    isplitl [Hd1]; · iexact Hd1
    iexact Hd2
  unfold S2Post
  iintro ⟨P0, P1, P2, Cs0, Cs1, Cs2, HO, Hout, Hr0, Hr1, Hr2, Ha0, Ha1, Ha2⟩
  unfold Cuts.rbufBack
  ihave Hrbuf := Hrb $$ [R00 R01 Hr0 R10 R11 Hr1 R20 R21 Hr2]
  · isplitl [R00]; · iexact R00
    isplitl [R01]; · iexact R01
    isplitl [Hr0]; · iexact Hr0
    isplitl [R10]; · iexact R10
    isplitl [R11]; · iexact R11
    isplitl [Hr1]; · iexact Hr1
    isplitl [R20]; · iexact R20
    isplitl [R21]; · iexact R21
    iexact Hr2
  iapply Hk $$ %(Scalar.xori v2 1#32) %(insert (SemLoc.dma (dsem 1 2 2), ()) (insert (SemLoc.dma (dsem 1 1 2), ()) (insert (SemLoc.dma (dsem 1 0 2), ()) W)))
  unfold Cuts.PreAG
  iframe
  isplitr; · iexact Hrec
  iexact Hlev

/-- info: 'Cert.KernelIdeal.Body.s2' depends on axioms: [propext, Classical.choice, Quot.sound] -/
#guard_msgs in #print axioms s2

end Cert.KernelIdeal.Body

end
-- ==== Proof.BodyAG.lean ====
/-
  The all-gather phases of a device's run of the body, at a symbolic device.

  After the exchange every device holds, in its own quarter of each butterfly's rows of the gather buffer, the total of
  those rows narrowed for the wire. The gather undoes the exchange's halvings: at stage 1 a device sends its quarter to
  the partner it last exchanged with and receives that partner's quarter, so that it holds a whole kept half; at stage 0
  it sends the half to its first partner and receives the other half. A quarter or half that is both sent on and read
  is held by shares: the left half of a quarter's share goes with the stage-1 copy, the left half of what is left goes
  with the stage-0 copy of the half, and the remainder is what the device reads through. Each half is read back,
  widened and stored into the result: the kept halves after the stage-0 copies have left, the other halves as they
  arrive. At the end every row of the result holds its butterfly's total as it came over the wire, and the pieces of
  the gather buffer still in hand, with the shares the six copies will return, are the whole buffer.

  One lemma per printed part of the body, each over the resources that part touches and any continuation; the theorem
  `body_ag` chains them from the state before the first gather transfer to the state where every arrival has been
  waited for.
-/
import proofs.«900524_g7700000000000525_dist_gated_mlp_tp_i_m1024_h2048_d1024_v7x_i8_f32_1_alg».proof.Proof.Iface
import proofs.«900524_g7700000000000525_dist_gated_mlp_tp_i_m1024_h2048_d1024_v7x_i8_f32_1_alg».proof.Proof.Stor
import proofs.«900524_g7700000000000525_dist_gated_mlp_tp_i_m1024_h2048_d1024_v7x_i8_f32_1_alg».proof.Proof.Tables
import proofs.«900524_g7700000000000525_dist_gated_mlp_tp_i_m1024_h2048_d1024_v7x_i8_f32_1_alg».proof.Proof.Cuts
import proofs.«900524_g7700000000000525_dist_gated_mlp_tp_i_m1024_h2048_d1024_v7x_i8_f32_1_alg».proof.Proof.Mem
import proofs.«900524_g7700000000000525_dist_gated_mlp_tp_i_m1024_h2048_d1024_v7x_i8_f32_1_alg».proof.Proof.Gen.KernelIdeal.Skeleton
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen Cert.KernelIdeal.Sched Cert.KernelIdeal.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Opening the ghost records -/

instance records_persistent_ag (m : (ℓ : Loc nD τ sig) → Buf (Elt F) ℓ) (K : Dev nD × CIx → ℕ) : BI.Persistent (records (F := F) m K) := by unfold records; infer_instance

section Inv
variable (m : (ℓ : Loc nD τ sig) → Buf (Elt F) ℓ) (K : Dev nD × CIx → ℕ)
theorem ag_inv_at (ck : Dev nD × CIx) : records (F := F) m K ⊢ cellInv ER (Rd m) (K ck) (kcell ck) := by
  have h : (bigSep Finset.univ fun ck : Dev nD × CIx => (cellInv ER (Rd m) (K ck) (kcell ck) : sProp 𝕄)) ⊢ cellInv ER (Rd m) (K ck) (kcell ck) := bigSep_elim (Finset.mem_univ ck)
  unfold records
  iintro ⟨HI, HR⟩
  iapply h
  iexact HI
theorem ag_reached_at (ck : Dev nD × CIx) : records (F := F) m K ⊢ reached ER (kcell ck) 0 := by
  have h : (bigSep Finset.univ fun ck : Dev nD × CIx => (reached ER (kcell ck) 0 : sProp 𝕄)) ⊢ reached ER (kcell ck) 0 := bigSep_elim (Finset.mem_univ ck)
  unfold records
  iintro ⟨HI, HR⟩
  iapply h
  iexact HR
theorem ag_inv_d (A : Fin 4) (b k : Fin 3) (d : Dev nD) : records (F := F) m K ⊢ cellInv ER (Rd m) (K (d, some (A, b, k))) (dcell A b k d) := ag_inv_at m K (d, some (A, b, k))
theorem ag_reached_d (A : Fin 4) (b k : Fin 3) (d : Dev nD) : records (F := F) m K ⊢ reached ER (dcell A b k d) 0 := ag_reached_at m K (d, some (A, b, k))
end Inv

/-! ## The remote copy at a device the program spells by its own chain -/

theorem wp_send_at (m : (ℓ : Loc nD τ sig) → Buf (Elt F) ℓ) {s : Shape} {e : EltTy} (c c' dv : Dev nD) (hdv : dv = c') (A₁ A₂ : Fin 4) (b k : Fin 3) (h₁ : used A₁ k) (h₂ : used A₂ k)
    {src : Memref sig .tc .vmem s e} {dst : Memref sig .tc .vmem s e}
    {hsc : (dst : Memref sig (Dev.tc dv : Thread nD τ).2.kind .vmem s e).view.ref.isScScratch = false}
    {hsrc : src.view.WordExact} {hdst : dst.view.WordExact}
    {hsem : DmaTarget.Typed .vmem (.dma (dsem A₂ b k)) (.remote (Dev.tc dv : Thread nD τ) dst (.dma (dsem A₁ b k)) hsc)}
    {α : Type} {Q : α → sProp 𝕄} {kk : PUnit → Prog (TpuEff nD τ sig (Elt F) Λ₀ .tc) α}
    {q : PosShare TreeShare} {fs : Buf (Elt F) (src.view.loc (c : Thread nD τ))} {fd : Buf (Elt F) (dst.view.loc (c' : Thread nD τ))}
    {κ₁ κ₂ : ℕ} (hN : dst.view.dmaCredit = namt A₂ b k) (hA : namt A₁ b k = namt A₂ b k)
    {O₀ : CellTallies nD τ sig Unit} (O : CellTallies nD τ sig Unit) (hO : O₀ = O + tallyAt (dcell A₂ b k c') () (namt A₂ b k)) {W : Waits sig Unit}
    (hpay₁ : (src.view.loc (c : Thread nD τ) ↦[src.view.set]{q} fs) ⊢ dpay m A₁ b k c)
    (hpay₂ : (dst.view.loc (c' : Thread nD τ) ↦[dst.view.set]{fullShare} (dst.view.write (Elt F) fd (src.view.read (Elt F) fs) Finset.univ))
      ⊢ dpay m A₂ b k c') :
    iprop(cellInv ER (Rd (F := F) m) κ₁ (dcell A₁ b k c) ∗ cellInv ER (Rd (F := F) m) κ₂ (dcell A₂ b k c')
        ∗ (src.view.loc (c : Thread nD τ) ↦[src.view.set]{q} fs) ∗ (dst.view.loc (c' : Thread nD τ) ↦[dst.view.set]{fullShare} fd)
        ∗ owes (c : Thread nD τ) O₀ W
        ∗ dutyTok ER (dcell A₁ b k c) 0 0 ∗ reached ER (dcell A₁ b k c) 0
        ∗ dutyTok ER (dcell A₂ b k c') 0 0 ∗ reached ER (dcell A₂ b k c') 0)
      ⊢ iprop(((cred (tallyAt (dcell A₁ b k c) () (namt A₁ b k)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc dv : Thread nD τ) dst (.dma (dsem A₁ b k)) hsc) (.dma (dsem A₂ b k)) hsrc hdst hsem) kk) Q) := by
  subst hdv
  exact Tables.wp_send_cells m c dv A₁ A₂ b k h₁ h₂ hN hA O hO hpay₁ hpay₂

/-- A kept half merged from the own quarter and the landed quarter reads, at each of its rows, the total of the device whose
    quarter holds the row. -/
theorem half_value_b0 (m : (ℓ : Loc nD τ sig) → Buf (Elt F) ℓ) (c : Dev nD) (g fq fl : Buf (Elt F) ((c : Thread nD τ).loc cc0_scratch2))
    (hq : ∀ r q : ℕ, r < 96 → q < 1024 → aAt fq (K1 0 c + r) q = tr (S3 m 0 c (K1 0 c + r) q))
    (hl : ∀ r q : ℕ, r < 96 → q < 1024 → aAt fl (K1 0 (Mesh.px 1 c) + r) q = tr (S3 m 0 (Mesh.px 1 c) (K1 0 (Mesh.px 1 c) + r) q))
    (hg : (∀ r q' : ℕ, r < 96 → q' < 1024 → aAt g (Mem.qRow 0 c + r) q' = aAt fq (Mem.qRow 0 c + r) q')
      ∧ (∀ r q' : ℕ, r < 96 → q' < 1024 → aAt g (Mem.qRow 0 (Mesh.px 1 c) + r) q' = aAt fl (Mem.qRow 0 (Mesh.px 1 c) + r) q'))
    (r q : ℕ) (hr : r < 192) (hq' : q < 1024) :
    aAt g (K0 0 c + r) q = tr (S3 m 0 (qOwn 0 c (K0 0 c + r)) (K0 0 c + r) q) := by
  obtain ⟨hH0, hQ0, hH1, hQ1, hH2, hQ2⟩ := Mem.rows_all c
  rw [Mem.qRow_eq_K1, Mem.qRow_eq_K1] at hg
  rw [Mem.hRow_eq_K0, Mem.qRow_eq_K1, Mem.qRow_eq_K1] at hQ0
  have hQh : Qh 0 = 96 := rfl
  have hmask : mask 0 1 = 1 := rfl
  unfold qOwn
  rw [hQh, hmask]
  rcases hQ0 with ⟨h1, h2⟩ | ⟨h1, h2⟩
  · by_cases hr' : r < 96
    · rw [if_pos (by omega), show K0 0 c + r = K1 0 c + r by omega, hg.1 r q hr' hq', hq r q hr' hq']
    · rw [if_neg (by omega), show K0 0 c + r = K1 0 (Mesh.px 1 c) + (r - 96) by omega, hg.2 (r - 96) q (by omega) hq', hl (r - 96) q (by omega) hq']
  · by_cases hr' : r < 96
    · rw [if_neg (by omega), show K0 0 c + r = K1 0 (Mesh.px 1 c) + r by omega, hg.2 r q hr' hq', hl r q hr' hq']
    · rw [if_pos (by omega), show K0 0 c + r = K1 0 c + (r - 96) by omega, hg.1 (r - 96) q (by omega) hq', hq (r - 96) q (by omega) hq']

/-- A kept half merged from the own quarter and the landed quarter reads, at each of its rows, the total of the device whose
    quarter holds the row. -/
theorem half_value_b1 (m : (ℓ : Loc nD τ sig) → Buf (Elt F) ℓ) (c : Dev nD) (g fq fl : Buf (Elt F) ((c : Thread nD τ).loc cc0_scratch2))
    (hq : ∀ r q : ℕ, r < 96 → q < 1024 → aAt fq (K1 1 c + r) q = tr (S3 m 1 c (K1 1 c + r) q))
    (hl : ∀ r q : ℕ, r < 96 → q < 1024 → aAt fl (K1 1 (Mesh.px 3 c) + r) q = tr (S3 m 1 (Mesh.px 3 c) (K1 1 (Mesh.px 3 c) + r) q))
    (hg : (∀ r q' : ℕ, r < 96 → q' < 1024 → aAt g (Mem.qRow 1 c + r) q' = aAt fq (Mem.qRow 1 c + r) q')
      ∧ (∀ r q' : ℕ, r < 96 → q' < 1024 → aAt g (Mem.qRow 1 (Mesh.px 3 c) + r) q' = aAt fl (Mem.qRow 1 (Mesh.px 3 c) + r) q'))
    (r q : ℕ) (hr : r < 192) (hq' : q < 1024) :
    aAt g (K0 1 c + r) q = tr (S3 m 1 (qOwn 1 c (K0 1 c + r)) (K0 1 c + r) q) := by
  obtain ⟨hH0, hQ0, hH1, hQ1, hH2, hQ2⟩ := Mem.rows_all c
  rw [Mem.qRow_eq_K1, Mem.qRow_eq_K1] at hg
  rw [Mem.hRow_eq_K0, Mem.qRow_eq_K1, Mem.qRow_eq_K1] at hQ1
  have hQh : Qh 1 = 96 := rfl
  have hmask : mask 1 1 = 3 := rfl
  unfold qOwn
  rw [hQh, hmask]
  rcases hQ1 with ⟨h1, h2⟩ | ⟨h1, h2⟩
  · by_cases hr' : r < 96
    · rw [if_pos (by omega), show K0 1 c + r = K1 1 c + r by omega, hg.1 r q hr' hq', hq r q hr' hq']
    · rw [if_neg (by omega), show K0 1 c + r = K1 1 (Mesh.px 3 c) + (r - 96) by omega, hg.2 (r - 96) q (by omega) hq', hl (r - 96) q (by omega) hq']
  · by_cases hr' : r < 96
    · rw [if_neg (by omega), show K0 1 c + r = K1 1 (Mesh.px 3 c) + r by omega, hg.2 r q hr' hq', hl r q hr' hq']
    · rw [if_pos (by omega), show K0 1 c + r = K1 1 c + (r - 96) by omega, hg.1 (r - 96) q (by omega) hq', hq (r - 96) q (by omega) hq']

/-- A kept half merged from the own quarter and the landed quarter reads, at each of its rows, the total of the device whose
    quarter holds the row. -/
theorem half_value_b2 (m : (ℓ : Loc nD τ sig) → Buf (Elt F) ℓ) (c : Dev nD) (g fq fl : Buf (Elt F) ((c : Thread nD τ).loc cc0_scratch2))
    (hq : ∀ r q : ℕ, r < 64 → q < 1024 → aAt fq (K1 2 c + r) q = tr (S3 m 2 c (K1 2 c + r) q))
    (hl : ∀ r q : ℕ, r < 64 → q < 1024 → aAt fl (K1 2 (Mesh.px 4 c) + r) q = tr (S3 m 2 (Mesh.px 4 c) (K1 2 (Mesh.px 4 c) + r) q))
    (hg : (∀ r q' : ℕ, r < 64 → q' < 1024 → aAt g (Mem.qRow 2 c + r) q' = aAt fq (Mem.qRow 2 c + r) q')
      ∧ (∀ r q' : ℕ, r < 64 → q' < 1024 → aAt g (Mem.qRow 2 (Mesh.px 4 c) + r) q' = aAt fl (Mem.qRow 2 (Mesh.px 4 c) + r) q'))
    (r q : ℕ) (hr : r < 128) (hq' : q < 1024) :
    aAt g (K0 2 c + r) q = tr (S3 m 2 (qOwn 2 c (K0 2 c + r)) (K0 2 c + r) q) := by
  obtain ⟨hH0, hQ0, hH1, hQ1, hH2, hQ2⟩ := Mem.rows_all c
  rw [Mem.qRow_eq_K1, Mem.qRow_eq_K1] at hg
  rw [Mem.hRow_eq_K0, Mem.qRow_eq_K1, Mem.qRow_eq_K1] at hQ2
  have hQh : Qh 2 = 64 := rfl
  have hmask : mask 2 1 = 4 := rfl
  unfold qOwn
  rw [hQh, hmask]
  rcases hQ2 with ⟨h1, h2⟩ | ⟨h1, h2⟩
  · by_cases hr' : r < 64
    · rw [if_pos (by omega), show K0 2 c + r = K1 2 c + r by omega, hg.1 r q hr' hq', hq r q hr' hq']
    · rw [if_neg (by omega), show K0 2 c + r = K1 2 (Mesh.px 4 c) + (r - 64) by omega, hg.2 (r - 64) q (by omega) hq', hl (r - 64) q (by omega) hq']
  · by_cases hr' : r < 64
    · rw [if_neg (by omega), show K0 2 c + r = K1 2 (Mesh.px 4 c) + r by omega, hg.2 r q hr' hq', hl r q hr' hq']
    · rw [if_pos (by omega), show K0 2 c + r = K1 2 c + (r - 64) by omega, hg.1 (r - 64) q (by omega) hq', hq (r - 64) q (by omega) hq']

theorem ag_pay_s1_b0 (m : (ℓ : Loc nD τ sig) → Buf (Elt F) ℓ) (c : Dev nD) (fq : Buf (Elt F) ((aRows01 c).view.loc (c : Thread nD τ))) :
    (((aRows01 c).view.loc (c : Thread nD τ) ↦[(aRows01 c).view.set]{fullShare.left} fq) : sProp 𝕄) ⊢ dpay m 2 0 1 c := by
  show _ ⊢ (iprop(∃ f, (aRows01 c).view.loc (c : Thread nD τ) ↦[(aRows01 c).view.set]{fullShare.left} f) : sProp 𝕄)
  exact Mem.pt_ex fq

theorem ag_r1_open_b0 (m : (ℓ : Loc nD τ sig) → Buf (Elt F) ℓ) (c : Dev nD) :
    dpay (F := F) m 3 0 1 c = iprop(∃ f, ((aRows01 (Mesh.px 1 c)).view.loc (c : Thread nD τ) ↦[(aRows01 (Mesh.px 1 c)).view.set]{fullShare} f)
      ∗ ⌜∀ r q : ℕ, r < 96 → q < 1024 → aAt f (K1 0 (Mesh.px 1 c) + r) q = tr (S3 m 0 (Mesh.px 1 c) (K1 0 (Mesh.px 1 c) + r) q)⌝) := rfl
theorem ag_r0_open_b0 (m : (ℓ : Loc nD τ sig) → Buf (Elt F) ℓ) (c : Dev nD) :
    dpay (F := F) m 3 0 0 c = iprop(∃ f, ((aRows00 (Mesh.px 3 c)).view.loc (c : Thread nD τ) ↦[(aRows00 (Mesh.px 3 c)).view.set]{fullShare} f)
      ∗ ⌜∀ r q : ℕ, r < 192 → q < 1024 → aAt f (K0 0 (Mesh.px 3 c) + r) q = tr (S3 m 0 (qOwn 0 (Mesh.px 3 c) (K0 0 (Mesh.px 3 c) + r)) (K0 0 (Mesh.px 3 c) + r) q)⌝) := rfl

theorem ag_pay_r1_b0 (m : (ℓ : Loc nD τ sig) → Buf (Elt F) ℓ) (c : Dev nD) (fq : Buf (Elt F) ((aRows01 c).view.loc (c : Thread nD τ)))
    (fp : Buf (Elt F) ((aRows01 c).view.loc ((Mesh.px 1 c) : Thread nD τ)))
    (hq : ∀ r q : ℕ, r < 96 → q < 1024 → aAt fq (K1 0 c + r) q = tr (S3 m 0 c (K1 0 c + r) q)) :
    (((aRows01 c).view.loc ((Mesh.px 1 c) : Thread nD τ) ↦[(aRows01 c).view.set]{fullShare}
        ((aRows01 c).view.write (Elt F) fp ((aRows01 c).view.read (Elt F) fq) Finset.univ)) : sProp 𝕄) ⊢ dpay m 3 0 1 (Mesh.px 1 c) := by
  rw [ag_r1_open_b0 m (Mesh.px 1 c), Mesh.px1_px1]
  iintro H
  iexists _
  isplitl [H]
  · iexact H
  ipureintro
  intro r q hr hq'
  rw [← hq r q hr hq', ← Mem.qRow_eq_K1 0 c]
  exact Mem.aAt_landing (k0_off5 c 0#32 3#32 1#32) (k0_off5_inb c 0) (by rw [Mesh.off5_a]; rfl) fp fq r q hr hq'

theorem ag_pay_s0_b0 (m : (ℓ : Loc nD τ sig) → Buf (Elt F) ℓ) (c : Dev nD) (g : Buf (Elt F) ((c : Thread nD τ).loc cc0_scratch2)) :
    (((aRows00 c).view.loc (c : Thread nD τ) ↦[(aRows00 c).view.set]{fullShare.right.left} g) : sProp 𝕄) ⊢ dpay m 2 0 0 c := by
  show _ ⊢ (iprop(∃ f, (aRows00 c).view.loc (c : Thread nD τ) ↦[(aRows00 c).view.set]{fullShare.right.left} f) : sProp 𝕄)
  exact Mem.pt_ex g

theorem ag_pay_r0_b0 (m : (ℓ : Loc nD τ sig) → Buf (Elt F) ℓ) (c : Dev nD) (g fq fl : Buf (Elt F) ((c : Thread nD τ).loc cc0_scratch2))
    (fh : Buf (Elt F) ((aRows00 c).view.loc ((Mesh.px 3 c) : Thread nD τ)))
    (hq : ∀ r q : ℕ, r < 96 → q < 1024 → aAt fq (K1 0 c + r) q = tr (S3 m 0 c (K1 0 c + r) q))
    (hl : ∀ r q : ℕ, r < 96 → q < 1024 → aAt fl (K1 0 (Mesh.px 1 c) + r) q = tr (S3 m 0 (Mesh.px 1 c) (K1 0 (Mesh.px 1 c) + r) q))
    (hg : (∀ r q' : ℕ, r < 96 → q' < 1024 → aAt g (Mem.qRow 0 c + r) q' = aAt fq (Mem.qRow 0 c + r) q')
      ∧ (∀ r q' : ℕ, r < 96 → q' < 1024 → aAt g (Mem.qRow 0 (Mesh.px 1 c) + r) q' = aAt fl (Mem.qRow 0 (Mesh.px 1 c) + r) q')) :
    (((aRows00 c).view.loc ((Mesh.px 3 c) : Thread nD τ) ↦[(aRows00 c).view.set]{fullShare}
        ((aRows00 c).view.write (Elt F) fh ((aRows00 c).view.read (Elt F) g) Finset.univ)) : sProp 𝕄) ⊢ dpay m 3 0 0 (Mesh.px 3 c) := by
  rw [ag_r0_open_b0 m (Mesh.px 3 c), Mesh.px3_px3]
  iintro H
  iexists _
  isplitl [H]
  · iexact H
  ipureintro
  intro r q hr hq'
  have hland := Mem.aAt_landing (k0_off7 c 0#32 3#32 1#32) (k0_off7_inb c 0) (by rw [Mesh.off7_a]; rfl) fh g r q hr hq'
  rw [show (k0_off7 c 0#32 3#32 1#32) 0 = K0 0 c from Mem.hRow_eq_K0 0 c] at hland
  rw [hland]
  exact half_value_b0 m c g fq fl hq hl hg r q hr hq'

theorem ag_pay_s1_b1 (m : (ℓ : Loc nD τ sig) → Buf (Elt F) ℓ) (c : Dev nD) (fq : Buf (Elt F) ((aRows11 c).view.loc (c : Thread nD τ))) :
    (((aRows11 c).view.loc (c : Thread nD τ) ↦[(aRows11 c).view.set]{fullShare.left} fq) : sProp 𝕄) ⊢ dpay m 2 1 1 c := by
  show _ ⊢ (iprop(∃ f, (aRows11 c).view.loc (c : Thread nD τ) ↦[(aRows11 c).view.set]{fullShare.left} f) : sProp 𝕄)
  exact Mem.pt_ex fq

theorem ag_r1_open_b1 (m : (ℓ : Loc nD τ sig) → Buf (Elt F) ℓ) (c : Dev nD) :
    dpay (F := F) m 3 1 1 c = iprop(∃ f, ((aRows11 (Mesh.px 3 c)).view.loc (c : Thread nD τ) ↦[(aRows11 (Mesh.px 3 c)).view.set]{fullShare} f)
      ∗ ⌜∀ r q : ℕ, r < 96 → q < 1024 → aAt f (K1 1 (Mesh.px 3 c) + r) q = tr (S3 m 1 (Mesh.px 3 c) (K1 1 (Mesh.px 3 c) + r) q)⌝) := rfl
theorem ag_r0_open_b1 (m : (ℓ : Loc nD τ sig) → Buf (Elt F) ℓ) (c : Dev nD) :
    dpay (F := F) m 3 1 0 c = iprop(∃ f, ((aRows10 (Mesh.px 4 c)).view.loc (c : Thread nD τ) ↦[(aRows10 (Mesh.px 4 c)).view.set]{fullShare} f)
      ∗ ⌜∀ r q : ℕ, r < 192 → q < 1024 → aAt f (K0 1 (Mesh.px 4 c) + r) q = tr (S3 m 1 (qOwn 1 (Mesh.px 4 c) (K0 1 (Mesh.px 4 c) + r)) (K0 1 (Mesh.px 4 c) + r) q)⌝) := rfl

theorem ag_pay_r1_b1 (m : (ℓ : Loc nD τ sig) → Buf (Elt F) ℓ) (c : Dev nD) (fq : Buf (Elt F) ((aRows11 c).view.loc (c : Thread nD τ)))
    (fp : Buf (Elt F) ((aRows11 c).view.loc ((Mesh.px 3 c) : Thread nD τ)))
    (hq : ∀ r q : ℕ, r < 96 → q < 1024 → aAt fq (K1 1 c + r) q = tr (S3 m 1 c (K1 1 c + r) q)) :
    (((aRows11 c).view.loc ((Mesh.px 3 c) : Thread nD τ) ↦[(aRows11 c).view.set]{fullShare}
        ((aRows11 c).view.write (Elt F) fp ((aRows11 c).view.read (Elt F) fq) Finset.univ)) : sProp 𝕄) ⊢ dpay m 3 1 1 (Mesh.px 3 c) := by
  rw [ag_r1_open_b1 m (Mesh.px 3 c), Mesh.px3_px3]
  iintro H
  iexists _
  isplitl [H]
  · iexact H
  ipureintro
  intro r q hr hq'
  rw [← hq r q hr hq', ← Mem.qRow_eq_K1 1 c]
  exact Mem.aAt_landing (k0_off5 c 384#32 4#32 3#32) (k0_off5_inb c 1) (by rw [Mesh.off5_b]; rfl) fp fq r q hr hq'

theorem ag_pay_s0_b1 (m : (ℓ : Loc nD τ sig) → Buf (Elt F) ℓ) (c : Dev nD) (g : Buf (Elt F) ((c : Thread nD τ).loc cc0_scratch2)) :
    (((aRows10 c).view.loc (c : Thread nD τ) ↦[(aRows10 c).view.set]{fullShare.right.left} g) : sProp 𝕄) ⊢ dpay m 2 1 0 c := by
  show _ ⊢ (iprop(∃ f, (aRows10 c).view.loc (c : Thread nD τ) ↦[(aRows10 c).view.set]{fullShare.right.left} f) : sProp 𝕄)
  exact Mem.pt_ex g

theorem ag_pay_r0_b1 (m : (ℓ : Loc nD τ sig) → Buf (Elt F) ℓ) (c : Dev nD) (g fq fl : Buf (Elt F) ((c : Thread nD τ).loc cc0_scratch2))
    (fh : Buf (Elt F) ((aRows10 c).view.loc ((Mesh.px 4 c) : Thread nD τ)))
    (hq : ∀ r q : ℕ, r < 96 → q < 1024 → aAt fq (K1 1 c + r) q = tr (S3 m 1 c (K1 1 c + r) q))
    (hl : ∀ r q : ℕ, r < 96 → q < 1024 → aAt fl (K1 1 (Mesh.px 3 c) + r) q = tr (S3 m 1 (Mesh.px 3 c) (K1 1 (Mesh.px 3 c) + r) q))
    (hg : (∀ r q' : ℕ, r < 96 → q' < 1024 → aAt g (Mem.qRow 1 c + r) q' = aAt fq (Mem.qRow 1 c + r) q')
      ∧ (∀ r q' : ℕ, r < 96 → q' < 1024 → aAt g (Mem.qRow 1 (Mesh.px 3 c) + r) q' = aAt fl (Mem.qRow 1 (Mesh.px 3 c) + r) q')) :
    (((aRows10 c).view.loc ((Mesh.px 4 c) : Thread nD τ) ↦[(aRows10 c).view.set]{fullShare}
        ((aRows10 c).view.write (Elt F) fh ((aRows10 c).view.read (Elt F) g) Finset.univ)) : sProp 𝕄) ⊢ dpay m 3 1 0 (Mesh.px 4 c) := by
  rw [ag_r0_open_b1 m (Mesh.px 4 c), Mesh.px4_px4]
  iintro H
  iexists _
  isplitl [H]
  · iexact H
  ipureintro
  intro r q hr hq'
  have hland := Mem.aAt_landing (k0_off7 c 384#32 4#32 3#32) (k0_off7_inb c 1) (by rw [Mesh.off7_b]; rfl) fh g r q hr hq'
  rw [show (k0_off7 c 384#32 4#32 3#32) 0 = K0 1 c from Mem.hRow_eq_K0 1 c] at hland
  rw [hland]
  exact half_value_b1 m c g fq fl hq hl hg r q hr hq'

theorem ag_pay_s1_b2 (m : (ℓ : Loc nD τ sig) → Buf (Elt F) ℓ) (c : Dev nD) (fq : Buf (Elt F) ((aRows21 c).view.loc (c : Thread nD τ))) :
    (((aRows21 c).view.loc (c : Thread nD τ) ↦[(aRows21 c).view.set]{fullShare.left} fq) : sProp 𝕄) ⊢ dpay m 2 2 1 c := by
  show _ ⊢ (iprop(∃ f, (aRows21 c).view.loc (c : Thread nD τ) ↦[(aRows21 c).view.set]{fullShare.left} f) : sProp 𝕄)
  exact Mem.pt_ex fq

theorem ag_r1_open_b2 (m : (ℓ : Loc nD τ sig) → Buf (Elt F) ℓ) (c : Dev nD) :
    dpay (F := F) m 3 2 1 c = iprop(∃ f, ((aRows21 (Mesh.px 4 c)).view.loc (c : Thread nD τ) ↦[(aRows21 (Mesh.px 4 c)).view.set]{fullShare} f)
      ∗ ⌜∀ r q : ℕ, r < 64 → q < 1024 → aAt f (K1 2 (Mesh.px 4 c) + r) q = tr (S3 m 2 (Mesh.px 4 c) (K1 2 (Mesh.px 4 c) + r) q)⌝) := rfl
theorem ag_r0_open_b2 (m : (ℓ : Loc nD τ sig) → Buf (Elt F) ℓ) (c : Dev nD) :
    dpay (F := F) m 3 2 0 c = iprop(∃ f, ((aRows20 (Mesh.px 1 c)).view.loc (c : Thread nD τ) ↦[(aRows20 (Mesh.px 1 c)).view.set]{fullShare} f)
      ∗ ⌜∀ r q : ℕ, r < 128 → q < 1024 → aAt f (K0 2 (Mesh.px 1 c) + r) q = tr (S3 m 2 (qOwn 2 (Mesh.px 1 c) (K0 2 (Mesh.px 1 c) + r)) (K0 2 (Mesh.px 1 c) + r) q)⌝) := rfl

theorem ag_pay_r1_b2 (m : (ℓ : Loc nD τ sig) → Buf (Elt F) ℓ) (c : Dev nD) (fq : Buf (Elt F) ((aRows21 c).view.loc (c : Thread nD τ)))
    (fp : Buf (Elt F) ((aRows21 c).view.loc ((Mesh.px 4 c) : Thread nD τ)))
    (hq : ∀ r q : ℕ, r < 64 → q < 1024 → aAt fq (K1 2 c + r) q = tr (S3 m 2 c (K1 2 c + r) q)) :
    (((aRows21 c).view.loc ((Mesh.px 4 c) : Thread nD τ) ↦[(aRows21 c).view.set]{fullShare}
        ((aRows21 c).view.write (Elt F) fp ((aRows21 c).view.read (Elt F) fq) Finset.univ)) : sProp 𝕄) ⊢ dpay m 3 2 1 (Mesh.px 4 c) := by
  rw [ag_r1_open_b2 m (Mesh.px 4 c), Mesh.px4_px4]
  iintro H
  iexists _
  isplitl [H]
  · iexact H
  ipureintro
  intro r q hr hq'
  rw [← hq r q hr hq', ← Mem.qRow_eq_K1 2 c]
  exact Mem.aAt_landing (k0_off6 c) (k0_off6_inb c) (by rw [Mesh.off6]; rfl) fp fq r q hr hq'

theorem ag_pay_s0_b2 (m : (ℓ : Loc nD τ sig) → Buf (Elt F) ℓ) (c : Dev nD) (g : Buf (Elt F) ((c : Thread nD τ).loc cc0_scratch2)) :
    (((aRows20 c).view.loc (c : Thread nD τ) ↦[(aRows20 c).view.set]{fullShare.right.left} g) : sProp 𝕄) ⊢ dpay m 2 2 0 c := by
  show _ ⊢ (iprop(∃ f, (aRows20 c).view.loc (c : Thread nD τ) ↦[(aRows20 c).view.set]{fullShare.right.left} f) : sProp 𝕄)
  exact Mem.pt_ex g

theorem ag_pay_r0_b2 (m : (ℓ : Loc nD τ sig) → Buf (Elt F) ℓ) (c : Dev nD) (g fq fl : Buf (Elt F) ((c : Thread nD τ).loc cc0_scratch2))
    (fh : Buf (Elt F) ((aRows20 c).view.loc ((Mesh.px 1 c) : Thread nD τ)))
    (hq : ∀ r q : ℕ, r < 64 → q < 1024 → aAt fq (K1 2 c + r) q = tr (S3 m 2 c (K1 2 c + r) q))
    (hl : ∀ r q : ℕ, r < 64 → q < 1024 → aAt fl (K1 2 (Mesh.px 4 c) + r) q = tr (S3 m 2 (Mesh.px 4 c) (K1 2 (Mesh.px 4 c) + r) q))
    (hg : (∀ r q' : ℕ, r < 64 → q' < 1024 → aAt g (Mem.qRow 2 c + r) q' = aAt fq (Mem.qRow 2 c + r) q')
      ∧ (∀ r q' : ℕ, r < 64 → q' < 1024 → aAt g (Mem.qRow 2 (Mesh.px 4 c) + r) q' = aAt fl (Mem.qRow 2 (Mesh.px 4 c) + r) q')) :
    (((aRows20 c).view.loc ((Mesh.px 1 c) : Thread nD τ) ↦[(aRows20 c).view.set]{fullShare}
        ((aRows20 c).view.write (Elt F) fh ((aRows20 c).view.read (Elt F) g) Finset.univ)) : sProp 𝕄) ⊢ dpay m 3 2 0 (Mesh.px 1 c) := by
  rw [ag_r0_open_b2 m (Mesh.px 1 c), Mesh.px1_px1]
  iintro H
  iexists _
  isplitl [H]
  · iexact H
  ipureintro
  intro r q hr hq'
  have hland := Mem.aAt_landing (k0_off8 c) (k0_off8_inb c) (by rw [Mesh.off8]; rfl) fh g r q hr hq'
  rw [show (k0_off8 c) 0 = K0 2 c from Mem.hRow_eq_K0 2 c] at hland
  rw [hland]
  exact half_value_b2 m c g fq fl hq hl hg r q hr hq'

/-- A block of whole rows loaded from the gather buffer reads, entry by entry, what the buffer's rows hold. -/
theorem ag_load_fact {h : ℕ} (o : Fin 2 → ℕ) (inb : ∀ a, o a + (![h, 1024] : Fin 2 → ℕ) a ≤ S1024x1024.size a) (ho : o 1 = 0)
    (g : (cc0_scratch2 : Ref sig .tc).ty.Contents (Elt F)) (k0 : ℕ) (hk : o 0 = k0) (T : ℕ → ℕ → F .bf16)
    (hg : ∀ r q : ℕ, r < h → q < 1024 → aAt g (k0 + r) q = T r q) :
    ∀ (r q : ℕ) (hr : r < h) (hq : q < 1024),
      ((aM : Memref sig .tc .vmem S1024x1024 .bf16).view.readAt (Elt F) (Rect.unit (s := S1024x1024) o ![h, 1024] inb).toLoadRect g) (ix2 ⟨r, hr⟩ ⟨q, hq⟩) = T r q := by
  intro r q hr hq
  rw [Mem.aAt_load o inb ho g r q hr hq, hk]
  exact hg r q hr hq

/-- The other half of butterfly 0 as a slice of the gather buffer at the device's own offset. -/
abbrev aOth0 (c : Dev nD) : Memref sig .tc .vmem S192x1024 .bf16 := aM.slice (Rect.unit (s := S1024x1024) (k0_off11 c 0#32 3#32 1#32) S192x1024.size (k0_off11_inb c 0)) (fun _ => rfl)
/-- Named by the stage-0 partner's slice or by the device's own offset of it, the other half is one set of rows. -/
theorem ag_oh_conv_b0 (c : Dev nD) (q : PosShare TreeShare) (f : Buf (Elt F) ((c : Thread nD τ).loc cc0_scratch2)) :
    (((aRows00 (Mesh.px 3 c)).view.loc (c : Thread nD τ) ↦[(aRows00 (Mesh.px 3 c)).view.set]{q} f) : sProp 𝕄)
      = ((aOth0 c).view.loc (c : Thread nD τ) ↦[(aOth0 c).view.set]{q} f) := by
  show _ = ((aM : Memref sig .tc .vmem S1024x1024 .bf16).view.loc (c : Thread nD τ) ↦[(aM.access (Rect.unit (s := S1024x1024) (k0_off11 c 0#32 3#32 1#32) S192x1024.size (k0_off11_inb c 0))).set]{q} f)
  rw [Mem.aacc_o0 c]

/-- The other half of butterfly 1 as a slice of the gather buffer at the device's own offset. -/
abbrev aOth1 (c : Dev nD) : Memref sig .tc .vmem S192x1024 .bf16 := aM.slice (Rect.unit (s := S1024x1024) (k0_off11 c 384#32 4#32 3#32) S192x1024.size (k0_off11_inb c 1)) (fun _ => rfl)
/-- Named by the stage-0 partner's slice or by the device's own offset of it, the other half is one set of rows. -/
theorem ag_oh_conv_b1 (c : Dev nD) (q : PosShare TreeShare) (f : Buf (Elt F) ((c : Thread nD τ).loc cc0_scratch2)) :
    (((aRows10 (Mesh.px 4 c)).view.loc (c : Thread nD τ) ↦[(aRows10 (Mesh.px 4 c)).view.set]{q} f) : sProp 𝕄)
      = ((aOth1 c).view.loc (c : Thread nD τ) ↦[(aOth1 c).view.set]{q} f) := by
  show _ = ((aM : Memref sig .tc .vmem S1024x1024 .bf16).view.loc (c : Thread nD τ) ↦[(aM.access (Rect.unit (s := S1024x1024) (k0_off11 c 384#32 4#32 3#32) S192x1024.size (k0_off11_inb c 1))).set]{q} f)
  rw [Mem.aacc_o1 c]

/-- The other half of butterfly 2 as a slice of the gather buffer at the device's own offset. -/
abbrev aOth2 (c : Dev nD) : Memref sig .tc .vmem S128x1024 .bf16 := aM.slice (Rect.unit (s := S1024x1024) (k0_off12 c) S128x1024.size (k0_off12_inb c)) (fun _ => rfl)
/-- Named by the stage-0 partner's slice or by the device's own offset of it, the other half is one set of rows. -/
theorem ag_oh_conv_b2 (c : Dev nD) (q : PosShare TreeShare) (f : Buf (Elt F) ((c : Thread nD τ).loc cc0_scratch2)) :
    (((aRows20 (Mesh.px 1 c)).view.loc (c : Thread nD τ) ↦[(aRows20 (Mesh.px 1 c)).view.set]{q} f) : sProp 𝕄)
      = ((aOth2 c).view.loc (c : Thread nD τ) ↦[(aOth2 c).view.set]{q} f) := by
  show _ = ((aM : Memref sig .tc .vmem S1024x1024 .bf16).view.loc (c : Thread nD τ) ↦[(aM.access (Rect.unit (s := S1024x1024) (k0_off12 c) S128x1024.size (k0_off12_inb c))).set]{q} f)
  rw [Mem.aacc_o2 c]

/-- What an arriving half says of the rows it fills: each holds the total of the device whose quarter the row lies in, narrowed for the wire. -/
def OthFact (m : (ℓ : Loc nD τ sig) → Buf (Elt F) ℓ) (b : Fin 3) (d : Dev nD) (hn : ℕ) (f : (cc0_scratch2 : Ref sig .tc).ty.Contents (Elt F)) : Prop :=
  ∀ r q : ℕ, r < hn → q < 1024 → aAt f (K0 b d + r) q = tr (S3 m b (qOwn b d (K0 b d + r)) (K0 b d + r) q)

/-- The wait for the other half of butterfly 0: its rows of the gather buffer come with it, holding the totals. -/
theorem wp_wait_ag0_b0 (m : (ℓ : Loc nD τ sig) → Buf (Elt F) ℓ) (c : Dev nD) {κ : ℕ} {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 3 0 0) {α : Type} {Q : α → sProp 𝕄}
    {kk : PUnit → Prog (TpuEff nD τ sig (Elt F) Λ₀ .tc) α} {O : CellTallies nD τ sig Unit} {W : Waits sig Unit} :
    iprop(cellInv ER (Rd (F := F) m) κ (dcell 3 0 0 c) ∗ cred (tallyAt (dcell 3 0 0 c) () (namt 3 0 0)) ∗ owes (c : Thread nD τ) O W
        ∗ MayWait (c : Thread nD τ) (.dma (dsem 3 0 0)) () O ∗ atPos ER (dcell 3 0 0 c) 0 ∅ 0)
      ⊢ iprop(((owes (c : Thread nD τ) O (insert (SemLoc.dma (dsem 3 0 0), ()) W) ∗ atPos ER (dcell 3 0 0 c) 1 ∅ 0 ∗ reached ER (dcell 3 0 0 c) 1
              ∗ (∃ f, ((aRows00 (Mesh.px 3 c)).view.loc (c : Thread nD τ) ↦[(aRows00 (Mesh.px 3 c)).view.set]{fullShare} f) ∗ ⌜OthFact m 0 (Mesh.px 3 c) 192 f⌝))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 3 0 0) src dst hsrc hdst) kk) Q) :=
  Tables.wp_wait_dcell m 3 0 0 c (Or.inr (by decide)) hN

/-- The wait for the other half of butterfly 1: its rows of the gather buffer come with it, holding the totals. -/
theorem wp_wait_ag0_b1 (m : (ℓ : Loc nD τ sig) → Buf (Elt F) ℓ) (c : Dev nD) {κ : ℕ} {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 3 1 0) {α : Type} {Q : α → sProp 𝕄}
    {kk : PUnit → Prog (TpuEff nD τ sig (Elt F) Λ₀ .tc) α} {O : CellTallies nD τ sig Unit} {W : Waits sig Unit} :
    iprop(cellInv ER (Rd (F := F) m) κ (dcell 3 1 0 c) ∗ cred (tallyAt (dcell 3 1 0 c) () (namt 3 1 0)) ∗ owes (c : Thread nD τ) O W
        ∗ MayWait (c : Thread nD τ) (.dma (dsem 3 1 0)) () O ∗ atPos ER (dcell 3 1 0 c) 0 ∅ 0)
      ⊢ iprop(((owes (c : Thread nD τ) O (insert (SemLoc.dma (dsem 3 1 0), ()) W) ∗ atPos ER (dcell 3 1 0 c) 1 ∅ 0 ∗ reached ER (dcell 3 1 0 c) 1
              ∗ (∃ f, ((aRows10 (Mesh.px 4 c)).view.loc (c : Thread nD τ) ↦[(aRows10 (Mesh.px 4 c)).view.set]{fullShare} f) ∗ ⌜OthFact m 1 (Mesh.px 4 c) 192 f⌝))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 3 1 0) src dst hsrc hdst) kk) Q) :=
  Tables.wp_wait_dcell m 3 1 0 c (Or.inr (by decide)) hN

/-- The wait for the other half of butterfly 2: its rows of the gather buffer come with it, holding the totals. -/
theorem wp_wait_ag0_b2 (m : (ℓ : Loc nD τ sig) → Buf (Elt F) ℓ) (c : Dev nD) {κ : ℕ} {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 3 2 0) {α : Type} {Q : α → sProp 𝕄}
    {kk : PUnit → Prog (TpuEff nD τ sig (Elt F) Λ₀ .tc) α} {O : CellTallies nD τ sig Unit} {W : Waits sig Unit} :
    iprop(cellInv ER (Rd (F := F) m) κ (dcell 3 2 0 c) ∗ cred (tallyAt (dcell 3 2 0 c) () (namt 3 2 0)) ∗ owes (c : Thread nD τ) O W
        ∗ MayWait (c : Thread nD τ) (.dma (dsem 3 2 0)) () O ∗ atPos ER (dcell 3 2 0 c) 0 ∅ 0)
      ⊢ iprop(((owes (c : Thread nD τ) O (insert (SemLoc.dma (dsem 3 2 0), ()) W) ∗ atPos ER (dcell 3 2 0 c) 1 ∅ 0 ∗ reached ER (dcell 3 2 0 c) 1
              ∗ (∃ f, ((aRows20 (Mesh.px 1 c)).view.loc (c : Thread nD τ) ↦[(aRows20 (Mesh.px 1 c)).view.set]{fullShare} f) ∗ ⌜OthFact m 2 (Mesh.px 1 c) 128 f⌝))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 3 2 0) src dst hsrc hdst) kk) Q) :=
  Tables.wp_wait_dcell m 3 2 0 c (Or.inr (by decide)) hN

namespace AGEnd

/-! ## The result buffer, row by row -/

/-- An entry of a buffer is its entry at the natural coordinates of the index. -/
theorem at_eq_oAt (f : (cc0_stg4_0 : Ref sig .tc).ty.Contents (Elt F)) (i : S1024x1024.Idx) : f i = oAt f (i 0).val (i 1).val := by
  unfold oAt
  congr 1
  funext a
  match a with
  | ⟨0, _⟩ => exact Fin.ext (Nat.mod_eq_of_lt (i 0).isLt).symm
  | ⟨1, _⟩ => exact Fin.ext (Nat.mod_eq_of_lt (i 1).isLt).symm

/-- A listed store of whole rows that misses the row leaves the entry as it was; -/
theorem oAt_writes_miss {h : ℕ} (o : Fin 2 → ℕ) (inb : ∀ a, o a + (![h, 1024] : Fin 2 → ℕ) a ≤ S1024x1024.size a)
    (f : (cc0_stg4_0 : Ref sig .tc).ty.Contents (Elt F)) (v : (⟨2, ![h, 1024]⟩ : Shape).Idx → F .f32) (L : List (View.Piece (Elt F) S1024x1024 .f32))
    (p q : ℕ) (hp : p < 1024) (hm : p < o 0 ∨ o 0 + h ≤ p) :
    oAt ((oM : Memref sig .tc .vmem S1024x1024 .f32).view.writes (Elt F) f (⟨Rect.unit (s := S1024x1024) o ![h, 1024] inb, v⟩ :: L)) p q
      = oAt ((oM : Memref sig .tc .vmem S1024x1024 .f32).view.writes (Elt F) f L) p q :=
  Mem.oAt_store_miss o inb ((oM : Memref sig .tc .vmem S1024x1024 .f32).view.writes (Elt F) f L) v p q hp hm

/-- one that covers the row leaves its payload there. -/
theorem oAt_writes_hit {h : ℕ} (o : Fin 2 → ℕ) (inb : ∀ a, o a + (![h, 1024] : Fin 2 → ℕ) a ≤ S1024x1024.size a) (ho : o 1 = 0)
    (f : (cc0_stg4_0 : Ref sig .tc).ty.Contents (Elt F)) (v : (⟨2, ![h, 1024]⟩ : Shape).Idx → F .f32) (L : List (View.Piece (Elt F) S1024x1024 .f32))
    (p q : ℕ) (h1 : o 0 ≤ p) (h2 : p < o 0 + h) (hq : q < 1024) :
    oAt ((oM : Memref sig .tc .vmem S1024x1024 .f32).view.writes (Elt F) f (⟨Rect.unit (s := S1024x1024) o ![h, 1024] inb, v⟩ :: L)) p q
      = v (ix2 ⟨p - o 0, by omega⟩ ⟨q, hq⟩) := by
  have h3 := Mem.oAt_store o inb ho ((oM : Memref sig .tc .vmem S1024x1024 .f32).view.writes (Elt F) f L) v (p - o 0) q (by omega) hq
  rw [show o 0 + (p - o 0) = p by omega] at h3
  exact h3

/-- A row of the device's own half carries the total formed where its quarter is kept; -/
theorem Tot_own (m : (ℓ : Loc nD τ sig) → Buf (Elt F) ℓ) (b : Fin 3) (c : Dev nD) (p q : ℕ) (hb : bOf p = b) (h1 : K0 b c ≤ p) (h2 : p < K0 b c + Hh b) :
    Tot m (bOf p) c p q = S3 m b (qOwn b c p) p q := by
  rw [hb]; unfold Tot hOwn; rw [if_pos ⟨h1, h2⟩]

/-- a row of the other half the total formed on the stage-0 partner's side. -/
theorem Tot_other (m : (ℓ : Loc nD τ sig) → Buf (Elt F) ℓ) (b : Fin 3) (c : Dev nD) (p q : ℕ) (hb : bOf p = b) (hn : ¬ (K0 b c ≤ p ∧ p < K0 b c + Hh b)) :
    Tot m (bOf p) c p q = S3 m b (qOwn b (Mesh.px (mask b 0) c) p) p q := by
  rw [hb]; unfold Tot hOwn; rw [if_neg hn]

theorem c9a (c : Dev nD) : (k0_off9 c 0#32 3#32 1#32) 1 = 0 := by rw [Mesh.off9_a]; rfl
theorem c9b (c : Dev nD) : (k0_off9 c 384#32 4#32 3#32) 1 = 0 := by rw [Mesh.off9_b]; rfl
theorem c10 (c : Dev nD) : (k0_off10 c) 1 = 0 := by rw [Mesh.off10]; rfl
theorem c11a (c : Dev nD) : (k0_off11 c 0#32 3#32 1#32) 1 = 0 := by rw [Mesh.off11_a]; rfl
theorem c11b (c : Dev nD) : (k0_off11 c 384#32 4#32 3#32) 1 = 0 := by rw [Mesh.off11_b]; rfl
theorem c12 (c : Dev nD) : (k0_off12 c) 1 = 0 := by rw [Mesh.off12]; rfl

end AGEnd

open AGEnd

namespace AGEnd

/-- What a departure of the gather returns, spelt out. -/
theorem agSend00 (c : Dev nD) : (agSendPay (F := F) 0 0 c : sProp 𝕄) = iprop(∃ f, (aRows00 c).view.loc (c : Thread nD τ) ↦[(aRows00 c).view.set]{fullShare.right.left} f) := rfl
theorem agSend01 (c : Dev nD) : (agSendPay (F := F) 0 1 c : sProp 𝕄) = iprop(∃ f, (aRows01 c).view.loc (c : Thread nD τ) ↦[(aRows01 c).view.set]{fullShare.left} f) := rfl
theorem agSend10 (c : Dev nD) : (agSendPay (F := F) 1 0 c : sProp 𝕄) = iprop(∃ f, (aRows10 c).view.loc (c : Thread nD τ) ↦[(aRows10 c).view.set]{fullShare.right.left} f) := rfl
theorem agSend11 (c : Dev nD) : (agSendPay (F := F) 1 1 c : sProp 𝕄) = iprop(∃ f, (aRows11 c).view.loc (c : Thread nD τ) ↦[(aRows11 c).view.set]{fullShare.left} f) := rfl
theorem agSend20 (c : Dev nD) : (agSendPay (F := F) 2 0 c : sProp 𝕄) = iprop(∃ f, (aRows20 c).view.loc (c : Thread nD τ) ↦[(aRows20 c).view.set]{fullShare.right.left} f) := rfl
theorem agSend21 (c : Dev nD) : (agSendPay (F := F) 2 1 c : sProp 𝕄) = iprop(∃ f, (aRows21 c).view.loc (c : Thread nD τ) ↦[(aRows21 c).view.set]{fullShare.left} f) := rfl

/-- A region that splits in two: its two lent shares and the two parts' left shares make the two parts whole. -/
theorem quarters_back {ℓ : Loc nD τ sig} {Ih Iq Ip : Finset (Idx ℓ)}
    (hsplit : ∀ f : Buf (Elt F) ℓ, ((ℓ ↦[Ih]{fullShare.right} f) : sProp 𝕄) ⊢ iprop((ℓ ↦[Iq]{fullShare.right} f) ∗ (ℓ ↦[Ip]{fullShare.right} f)))
    (h0 gr0 q0 fl0 : Buf (Elt F) ℓ) :
    iprop((ℓ ↦[Ih]{fullShare.right.left} h0) ∗ (ℓ ↦[Ih]{fullShare.right.right} gr0) ∗ (ℓ ↦[Iq]{fullShare.left} q0) ∗ (ℓ ↦[Ip]{fullShare.left} fl0))
      ⊢ (iprop((ℓ ↦[Iq]{fullShare} q0) ∗ (ℓ ↦[Ip]{fullShare} fl0)) : sProp 𝕄) := by
  iintro ⟨A, B, C, D⟩
  ihave H := (Mem.pt_share_join (F := F) (ℓ := ℓ) (I := Ih) Mem.share_rlr h0 gr0) $$ [A B]
  · isplitl [A] <;> iassumption
  ihave H := (hsplit h0) $$ H
  icases H with ⟨Qr, Pr⟩
  isplitl [C Qr]
  · iapply (Mem.pt_share_join (F := F) (ℓ := ℓ) (I := Iq) Mem.share_lr q0 h0); isplitl [C] <;> iassumption
  · iapply (Mem.pt_share_join (F := F) (ℓ := ℓ) (I := Ip) Mem.share_lr fl0 h0); isplitl [D] <;> iassumption

/-- The nine regions, each whole, are the gather buffer at some contents. -/
theorem nine_back (c : Dev nD) (f1 f2 f3 f4 f5 f6 f7 f8 f9 : Buf (Elt F) ((c : Thread nD τ).loc cc0_scratch2)) :
    iprop(((aRows01 c).view.loc (c : Thread nD τ) ↦[(aRows01 c).view.set]{fullShare} f1)
        ∗ ((aRows11 c).view.loc (c : Thread nD τ) ↦[(aRows11 c).view.set]{fullShare} f2)
        ∗ ((aRows21 c).view.loc (c : Thread nD τ) ↦[(aRows21 c).view.set]{fullShare} f3)
        ∗ ((aRows01 (Mesh.px 1 c)).view.loc (c : Thread nD τ) ↦[(aRows01 (Mesh.px 1 c)).view.set]{fullShare} f4)
        ∗ ((aRows11 (Mesh.px 3 c)).view.loc (c : Thread nD τ) ↦[(aRows11 (Mesh.px 3 c)).view.set]{fullShare} f5)
        ∗ ((aRows21 (Mesh.px 4 c)).view.loc (c : Thread nD τ) ↦[(aRows21 (Mesh.px 4 c)).view.set]{fullShare} f6)
        ∗ ((aRows00 (Mesh.px 3 c)).view.loc (c : Thread nD τ) ↦[(aRows00 (Mesh.px 3 c)).view.set]{fullShare} f7)
        ∗ ((aRows10 (Mesh.px 4 c)).view.loc (c : Thread nD τ) ↦[(aRows10 (Mesh.px 4 c)).view.set]{fullShare} f8)
        ∗ ((aRows20 (Mesh.px 1 c)).view.loc (c : Thread nD τ) ↦[(aRows20 (Mesh.px 1 c)).view.set]{fullShare} f9))
      ⊢ (iprop(∃ f : Buf (Elt F) ((aM : Memref sig .tc .vmem S1024x1024 .bf16).view.loc (c : Thread nD τ)), ((aM : Memref sig .tc .vmem S1024x1024 .bf16).view.loc (c : Thread nD τ)) ↦{fullShare} f) : sProp 𝕄) :=
  Mem.abuf_join c fullShare f1 f2 f3 f4 f5 f6 f7 f8 f9

end AGEnd

/-- The result buffer after the six stores: every row holds its butterfly's total as it came over the wire. -/
theorem out_final (m : (ℓ : Loc nD τ sig) → Buf (Elt F) ℓ) (c : Dev nD) (fo : Buf (Elt F) ((oM : Memref sig .tc .vmem S1024x1024 .f32).view.loc (c : Thread nD τ)))
    (V0 V1 Z0 Z1 : S192x1024.Idx → F .bf16) (V2 Z2 : S128x1024.Idx → F .bf16)
    (hV0 : ∀ (r q : ℕ) (hr : r < 192) (hq : q < 1024), V0 (ix2 ⟨r, hr⟩ ⟨q, hq⟩) = tr (S3 m 0 (qOwn 0 c (K0 0 c + r)) (K0 0 c + r) q))
    (hV1 : ∀ (r q : ℕ) (hr : r < 192) (hq : q < 1024), V1 (ix2 ⟨r, hr⟩ ⟨q, hq⟩) = tr (S3 m 1 (qOwn 1 c (K0 1 c + r)) (K0 1 c + r) q))
    (hV2 : ∀ (r q : ℕ) (hr : r < 128) (hq : q < 1024), V2 (ix2 ⟨r, hr⟩ ⟨q, hq⟩) = tr (S3 m 2 (qOwn 2 c (K0 2 c + r)) (K0 2 c + r) q))
    (hZ0 : ∀ (r q : ℕ) (hr : r < 192) (hq : q < 1024), Z0 (ix2 ⟨r, hr⟩ ⟨q, hq⟩) = tr (S3 m 0 (qOwn 0 (Mesh.px 3 c) (K0 0 (Mesh.px 3 c) + r)) (K0 0 (Mesh.px 3 c) + r) q))
    (hZ1 : ∀ (r q : ℕ) (hr : r < 192) (hq : q < 1024), Z1 (ix2 ⟨r, hr⟩ ⟨q, hq⟩) = tr (S3 m 1 (qOwn 1 (Mesh.px 4 c) (K0 1 (Mesh.px 4 c) + r)) (K0 1 (Mesh.px 4 c) + r) q))
    (hZ2 : ∀ (r q : ℕ) (hr : r < 128) (hq : q < 1024), Z2 (ix2 ⟨r, hr⟩ ⟨q, hq⟩) = tr (S3 m 2 (qOwn 2 (Mesh.px 1 c) (K0 2 (Mesh.px 1 c) + r)) (K0 2 (Mesh.px 1 c) + r) q)) :
    (oM : Memref sig .tc .vmem S1024x1024 .f32).view.writes (Elt F) fo
      [⟨Rect.unit (s := S1024x1024) (k0_off12 c) S128x1024.size (k0_off12_inb c), k0_pay39 Z2⟩,
        ⟨Rect.unit (s := S1024x1024) (k0_off11 c 384#32 4#32 3#32) S192x1024.size (k0_off11_inb c 1), k0_pay38 Z1⟩,
        ⟨Rect.unit (s := S1024x1024) (k0_off11 c 0#32 3#32 1#32) S192x1024.size (k0_off11_inb c 0), k0_pay37 Z0⟩,
        ⟨Rect.unit (s := S1024x1024) (k0_off10 c) S128x1024.size (k0_off10_inb c), k0_pay36 V2⟩,
        ⟨Rect.unit (s := S1024x1024) (k0_off9 c 384#32 4#32 3#32) S192x1024.size (k0_off9_inb c 1), k0_pay35 V1⟩,
        ⟨Rect.unit (s := S1024x1024) (k0_off9 c 0#32 3#32 1#32) S192x1024.size (k0_off9_inb c 0), k0_pay34 V0⟩]
      = outFin m c := by
  funext i
  refine (at_eq_oAt _ i).trans ?_
  show _ = wire (Tot m (bOf (i 0).val) c (i 0).val (i 1).val)
  have hp : (i 0).val < 1024 := (i 0).isLt
  have hq : (i 1).val < 1024 := (i 1).isLt
  generalize (i 0).val = p at hp ⊢
  generalize (i 1).val = q at hq ⊢
  have A0 : (k0_off9 c 0#32 3#32 1#32) 0 = K0 0 c := (congrFun (Rows.ag0_read_b0 c) 0).trans (Mem.hRow_eq_K0 0 c)
  have A1 : (k0_off9 c 384#32 4#32 3#32) 0 = K0 1 c := (congrFun (Rows.ag0_read_b1 c) 0).trans (Mem.hRow_eq_K0 1 c)
  have A2 : (k0_off10 c) 0 = K0 2 c := (congrFun (Rows.ag0_read_b2 c) 0).trans (Mem.hRow_eq_K0 2 c)
  have B0 : (k0_off11 c 0#32 3#32 1#32) 0 = K0 0 (Mesh.px 3 c) := (congrFun (Rows.ag0_recv_b0 c) 0).trans (Mem.hRow_eq_K0 0 (Mesh.px 3 c))
  have B1 : (k0_off11 c 384#32 4#32 3#32) 0 = K0 1 (Mesh.px 4 c) := (congrFun (Rows.ag0_recv_b1 c) 0).trans (Mem.hRow_eq_K0 1 (Mesh.px 4 c))
  have B2 : (k0_off12 c) 0 = K0 2 (Mesh.px 1 c) := (congrFun (Rows.ag0_recv_b2 c) 0).trans (Mem.hRow_eq_K0 2 (Mesh.px 1 c))
  obtain ⟨hH0, -, hH1, -, hH2, -⟩ := Mem.rows_all c
  rw [Mem.hRow_eq_K0, Mem.hRow_eq_K0] at hH0 hH1 hH2
  by_cases h0 : K0 0 c ≤ p ∧ p < K0 0 c + 192
  · -- a row of the own half of butterfly 0
    refine (oAt_writes_miss (k0_off12 c) (k0_off12_inb c) fo _ _ p q hp (by rw [B2]; omega)).trans ?_
    refine (oAt_writes_miss (k0_off11 c 384#32 4#32 3#32) (k0_off11_inb c 1) fo _ _ p q hp (by rw [B1]; omega)).trans ?_
    refine (oAt_writes_miss (k0_off11 c 0#32 3#32 1#32) (k0_off11_inb c 0) fo _ _ p q hp (by rw [B0]; omega)).trans ?_
    refine (oAt_writes_miss (k0_off10 c) (k0_off10_inb c) fo _ _ p q hp (by rw [A2]; omega)).trans ?_
    refine (oAt_writes_miss (k0_off9 c 384#32 4#32 3#32) (k0_off9_inb c 1) fo _ _ p q hp (by rw [A1]; omega)).trans ?_
    refine (oAt_writes_hit (k0_off9 c 0#32 3#32 1#32) (k0_off9_inb c 0) (c9a c) fo _ [] p q (by rw [A0]; exact h0.1) (by rw [A0]; exact h0.2) hq).trans ?_
    have hr : p - (k0_off9 c 0#32 3#32 1#32) 0 < 192 := by rw [A0]; omega
    have hrow : K0 0 c + (p - (k0_off9 c 0#32 3#32 1#32) 0) = p := by rw [A0]; omega
    refine ((Mem.pay34_apply V0 _).trans (congrArg (FloatOps.extf .f32 bitsLt_bf16_f32) (hV0 _ q hr hq))).trans ?_
    rw [hrow, Tot_own m 0 c p q (if_pos (by omega)) h0.1 h0.2]
    rfl
  by_cases h1 : K0 1 c ≤ p ∧ p < K0 1 c + 192
  · -- a row of the own half of butterfly 1
    refine (oAt_writes_miss (k0_off12 c) (k0_off12_inb c) fo _ _ p q hp (by rw [B2]; omega)).trans ?_
    refine (oAt_writes_miss (k0_off11 c 384#32 4#32 3#32) (k0_off11_inb c 1) fo _ _ p q hp (by rw [B1]; omega)).trans ?_
    refine (oAt_writes_miss (k0_off11 c 0#32 3#32 1#32) (k0_off11_inb c 0) fo _ _ p q hp (by rw [B0]; omega)).trans ?_
    refine (oAt_writes_miss (k0_off10 c) (k0_off10_inb c) fo _ _ p q hp (by rw [A2]; omega)).trans ?_
    refine (oAt_writes_hit (k0_off9 c 384#32 4#32 3#32) (k0_off9_inb c 1) (c9b c) fo _ _ p q (by rw [A1]; exact h1.1) (by rw [A1]; exact h1.2) hq).trans ?_
    have hr : p - (k0_off9 c 384#32 4#32 3#32) 0 < 192 := by rw [A1]; omega
    have hrow : K0 1 c + (p - (k0_off9 c 384#32 4#32 3#32) 0) = p := by rw [A1]; omega
    refine ((Mem.pay35_apply V1 _).trans (congrArg (FloatOps.extf .f32 bitsLt_bf16_f32) (hV1 _ q hr hq))).trans ?_
    rw [hrow, Tot_own m 1 c p q (by unfold bOf; rw [if_neg (by omega), if_pos (by omega)]) h1.1 h1.2]
    rfl
  by_cases h2 : K0 2 c ≤ p ∧ p < K0 2 c + 128
  · -- a row of the own half of butterfly 2
    refine (oAt_writes_miss (k0_off12 c) (k0_off12_inb c) fo _ _ p q hp (by rw [B2]; omega)).trans ?_
    refine (oAt_writes_miss (k0_off11 c 384#32 4#32 3#32) (k0_off11_inb c 1) fo _ _ p q hp (by rw [B1]; omega)).trans ?_
    refine (oAt_writes_miss (k0_off11 c 0#32 3#32 1#32) (k0_off11_inb c 0) fo _ _ p q hp (by rw [B0]; omega)).trans ?_
    refine (oAt_writes_hit (k0_off10 c) (k0_off10_inb c) (c10 c) fo _ _ p q (by rw [A2]; exact h2.1) (by rw [A2]; exact h2.2) hq).trans ?_
    have hr : p - (k0_off10 c) 0 < 128 := by rw [A2]; omega
    have hrow : K0 2 c + (p - (k0_off10 c) 0) = p := by rw [A2]; omega
    refine ((Mem.pay36_apply V2 _).trans (congrArg (FloatOps.extf .f32 bitsLt_bf16_f32) (hV2 _ q hr hq))).trans ?_
    rw [hrow, Tot_own m 2 c p q (by unfold bOf; rw [if_neg (by omega), if_neg (by omega)]) h2.1 h2.2]
    rfl
  by_cases h3 : K0 0 (Mesh.px 3 c) ≤ p ∧ p < K0 0 (Mesh.px 3 c) + 192
  · -- a row of the other half of butterfly 0
    refine (oAt_writes_miss (k0_off12 c) (k0_off12_inb c) fo _ _ p q hp (by rw [B2]; omega)).trans ?_
    refine (oAt_writes_miss (k0_off11 c 384#32 4#32 3#32) (k0_off11_inb c 1) fo _ _ p q hp (by rw [B1]; omega)).trans ?_
    refine (oAt_writes_hit (k0_off11 c 0#32 3#32 1#32) (k0_off11_inb c 0) (c11a c) fo _ _ p q (by rw [B0]; exact h3.1) (by rw [B0]; exact h3.2) hq).trans ?_
    have hr : p - (k0_off11 c 0#32 3#32 1#32) 0 < 192 := by rw [B0]; omega
    have hrow : K0 0 (Mesh.px 3 c) + (p - (k0_off11 c 0#32 3#32 1#32) 0) = p := by rw [B0]; omega
    refine ((Mem.pay37_apply Z0 _).trans (congrArg (FloatOps.extf .f32 bitsLt_bf16_f32) (hZ0 _ q hr hq))).trans ?_
    rw [hrow, Tot_other m 0 c p q (if_pos (by omega)) h0]
    rfl
  by_cases h4 : K0 1 (Mesh.px 4 c) ≤ p ∧ p < K0 1 (Mesh.px 4 c) + 192
  · -- a row of the other half of butterfly 1
    refine (oAt_writes_miss (k0_off12 c) (k0_off12_inb c) fo _ _ p q hp (by rw [B2]; omega)).trans ?_
    refine (oAt_writes_hit (k0_off11 c 384#32 4#32 3#32) (k0_off11_inb c 1) (c11b c) fo _ _ p q (by rw [B1]; exact h4.1) (by rw [B1]; exact h4.2) hq).trans ?_
    have hr : p - (k0_off11 c 384#32 4#32 3#32) 0 < 192 := by rw [B1]; omega
    have hrow : K0 1 (Mesh.px 4 c) + (p - (k0_off11 c 384#32 4#32 3#32) 0) = p := by rw [B1]; omega
    refine ((Mem.pay38_apply Z1 _).trans (congrArg (FloatOps.extf .f32 bitsLt_bf16_f32) (hZ1 _ q hr hq))).trans ?_
    rw [hrow, Tot_other m 1 c p q (by unfold bOf; rw [if_neg (by omega), if_pos (by omega)]) h1]
    rfl
  · -- what is left: a row of the other half of butterfly 2
    have h5 : K0 2 (Mesh.px 1 c) ≤ p ∧ p < K0 2 (Mesh.px 1 c) + 128 := by omega
    refine (oAt_writes_hit (k0_off12 c) (k0_off12_inb c) (c12 c) fo _ _ p q (by rw [B2]; exact h5.1) (by rw [B2]; exact h5.2) hq).trans ?_
    have hr : p - (k0_off12 c) 0 < 128 := by rw [B2]; omega
    have hrow : K0 2 (Mesh.px 1 c) + (p - (k0_off12 c) 0) = p := by rw [B2]; omega
    refine ((Mem.pay39_apply Z2 _).trans (congrArg (FloatOps.extf .f32 bitsLt_bf16_f32) (hZ2 _ q hr hq))).trans ?_
    rw [hrow, Tot_other m 2 c p q (by unfold bOf; rw [if_neg (by omega), if_neg (by omega)]) h2]
    rfl

/-- The gather buffer comes back whole: what the device still holds of its nine regions, and the shares its six departures return. -/
theorem abuf_back (c : Dev nD) (fl0 fl1 fl2 gr0 gr1 gr2 fz0 fz1 fz2 : Buf (Elt F) ((c : Thread nD τ).loc cc0_scratch2)) :
    iprop(((aRows01 (Mesh.px 1 c)).view.loc (c : Thread nD τ) ↦[(aRows01 (Mesh.px 1 c)).view.set]{fullShare.left} fl0)
        ∗ ((aRows11 (Mesh.px 3 c)).view.loc (c : Thread nD τ) ↦[(aRows11 (Mesh.px 3 c)).view.set]{fullShare.left} fl1)
        ∗ ((aRows21 (Mesh.px 4 c)).view.loc (c : Thread nD τ) ↦[(aRows21 (Mesh.px 4 c)).view.set]{fullShare.left} fl2)
        ∗ ((aRows00 c).view.loc (c : Thread nD τ) ↦[(aRows00 c).view.set]{fullShare.right.right} gr0)
        ∗ ((aRows10 c).view.loc (c : Thread nD τ) ↦[(aRows10 c).view.set]{fullShare.right.right} gr1)
        ∗ ((aRows20 c).view.loc (c : Thread nD τ) ↦[(aRows20 c).view.set]{fullShare.right.right} gr2)
        ∗ ((aRows00 (Mesh.px 3 c)).view.loc (c : Thread nD τ) ↦[(aRows00 (Mesh.px 3 c)).view.set]{fullShare} fz0)
        ∗ ((aRows10 (Mesh.px 4 c)).view.loc (c : Thread nD τ) ↦[(aRows10 (Mesh.px 4 c)).view.set]{fullShare} fz1)
        ∗ ((aRows20 (Mesh.px 1 c)).view.loc (c : Thread nD τ) ↦[(aRows20 (Mesh.px 1 c)).view.set]{fullShare} fz2))
      ⊢ (Cuts.abufBack c : sProp 𝕄) := by
  unfold Cuts.abufBack
  rw [agSend00, agSend01, agSend10, agSend11, agSend20, agSend21]
  iintro ⟨L0, L1, L2, G0, G1, G2, Z0, Z1, Z2⟩
  iintro ⟨⟨%h0, S00⟩, ⟨%q0, S01⟩, ⟨%h1, S10⟩, ⟨%q1, S11⟩, ⟨%h2, S20⟩, ⟨%q2, S21⟩⟩
  -- per butterfly: the kept half is the own quarter and the landed quarter
  ihave B0 := (quarters_back (F := F) (ℓ := (c : Thread nD τ).loc cc0_scratch2) (Ih := (aRows00 c).view.set) (Iq := (aRows01 c).view.set) (Ip := (aRows01 (Mesh.px 1 c)).view.set)
      (fun f => (Mem.aHalf_split_b0 c fullShare.right f).1) h0 gr0 q0 fl0) $$ [S00 G0 S01 L0]
  · isplitl [S00]; · iexact S00
    isplitl [G0]; · iexact G0
    isplitl [S01]; · iexact S01
    iexact L0
  icases B0 with ⟨Q0, P0⟩
  ihave B1 := (quarters_back (F := F) (ℓ := (c : Thread nD τ).loc cc0_scratch2) (Ih := (aRows10 c).view.set) (Iq := (aRows11 c).view.set) (Ip := (aRows11 (Mesh.px 3 c)).view.set)
      (fun f => (Mem.aHalf_split_b1 c fullShare.right f).1) h1 gr1 q1 fl1) $$ [S10 G1 S11 L1]
  · isplitl [S10]; · iexact S10
    isplitl [G1]; · iexact G1
    isplitl [S11]; · iexact S11
    iexact L1
  icases B1 with ⟨Q1, P1⟩
  ihave B2 := (quarters_back (F := F) (ℓ := (c : Thread nD τ).loc cc0_scratch2) (Ih := (aRows20 c).view.set) (Iq := (aRows21 c).view.set) (Ip := (aRows21 (Mesh.px 4 c)).view.set)
      (fun f => (Mem.aHalf_split_b2 c fullShare.right f).1) h2 gr2 q2 fl2) $$ [S20 G2 S21 L2]
  · isplitl [S20]; · iexact S20
    isplitl [G2]; · iexact G2
    isplitl [S21]; · iexact S21
    iexact L2
  icases B2 with ⟨Q2, P2⟩
  -- the nine regions, each whole again, are the buffer
  iapply (nine_back c q0 q1 q2 fl0 fl1 fl2 fz0 fz1 fz2)
  isplitl [Q0]; · iexact Q0
  isplitl [Q1]; · iexact Q1
  isplitl [Q2]; · iexact Q2
  isplitl [P0]; · iexact P0
  isplitl [P1]; · iexact P1
  isplitl [P2]; · iexact P2
  isplitl [Z0]; · iexact Z0
  isplitl [Z1]; · iexact Z1
  iexact Z2

/-- Part 18: the three own quarters leave for the stage-1 partners (the left half of each quarter's share lent), and the
    first partner's quarter arrives. -/
theorem ag_part18 (m : (ℓ : Loc nD τ sig) → Buf (Elt F) ℓ) (K : Dev nD × CIx → ℕ) (c : Dev nD) (W : Waits sig Unit)
    (v2 : BitVec 32) (v257 : BitVec 1) (v505 : BitVec 32) {α : Type}
    (kk : (Σ' (v514 : BitVec 32) (v523 : BitVec 32), BitVec 32) → Prog (TpuEff nD τ sig (Elt F) Λ₀ .tc) α) (Q : α → sProp 𝕄)
    (fq0 : Buf (Elt F) ((aRows01 c).view.loc (c : Thread nD τ))) (fq1 : Buf (Elt F) ((aRows11 c).view.loc (c : Thread nD τ))) (fq2 : Buf (Elt F) ((aRows21 c).view.loc (c : Thread nD τ)))
    (fp0 : Buf (Elt F) ((aRows01 c).view.loc ((Mesh.px 1 c) : Thread nD τ))) (fp1 : Buf (Elt F) ((aRows11 c).view.loc ((Mesh.px 3 c) : Thread nD τ))) (fp2 : Buf (Elt F) ((aRows21 c).view.loc ((Mesh.px 4 c) : Thread nD τ)))
    (hq0 : ∀ r q : ℕ, r < 96 → q < 1024 → aAt fq0 (K1 0 c + r) q = tr (S3 m 0 c (K1 0 c + r) q))
    (hq1 : ∀ r q : ℕ, r < 96 → q < 1024 → aAt fq1 (K1 1 c + r) q = tr (S3 m 1 c (K1 1 c + r) q))
    (hq2 : ∀ r q : ℕ, r < 64 → q < 1024 → aAt fq2 (K1 2 c + r) q = tr (S3 m 2 c (K1 2 c + r) q)) :
    iprop(records m K ∗ levAts L lv ∗ owes (c : Thread nD τ) (Orem c 13) W
        ∗ dutyTok ER (dcell 2 0 1 c) 0 (0 : Fin 4) ∗ dutyTok ER (dcell 2 1 1 c) 0 (0 : Fin 4) ∗ dutyTok ER (dcell 2 2 1 c) 0 (0 : Fin 4)
        ∗ dutyTok ER (dcell 3 0 1 (Mesh.px 1 c)) 0 (0 : Fin 4) ∗ dutyTok ER (dcell 3 1 1 (Mesh.px 3 c)) 0 (0 : Fin 4) ∗ dutyTok ER (dcell 3 2 1 (Mesh.px 4 c)) 0 (0 : Fin 4)
        ∗ ((aRows01 c).view.loc (c : Thread nD τ) ↦[(aRows01 c).view.set]{fullShare} fq0)
        ∗ ((aRows11 c).view.loc (c : Thread nD τ) ↦[(aRows11 c).view.set]{fullShare} fq1)
        ∗ ((aRows21 c).view.loc (c : Thread nD τ) ↦[(aRows21 c).view.set]{fullShare} fq2)
        ∗ ((aRows01 c).view.loc ((Mesh.px 1 c) : Thread nD τ) ↦[(aRows01 c).view.set]{fullShare} fp0)
        ∗ ((aRows11 c).view.loc ((Mesh.px 3 c) : Thread nD τ) ↦[(aRows11 c).view.set]{fullShare} fp1)
        ∗ ((aRows21 c).view.loc ((Mesh.px 4 c) : Thread nD τ) ↦[(aRows21 c).view.set]{fullShare} fp2)
        ∗ cred (tallyAt (dcell 3 0 1 c) () (namt 3 0 1)) ∗ atPos ER (dcell 3 0 1 c) 0 ∅ 0
        ∗ (∀ r, iprop(cred (tallyAt (dcell 2 0 1 c) () (namt 2 0 1)) ∗ cred (tallyAt (dcell 2 1 1 c) () (namt 2 1 1)) ∗ cred (tallyAt (dcell 2 2 1 c) () (namt 2 2 1))
            ∗ ((aRows01 c).view.loc (c : Thread nD τ) ↦[(aRows01 c).view.set]{fullShare.right} fq0)
            ∗ ((aRows11 c).view.loc (c : Thread nD τ) ↦[(aRows11 c).view.set]{fullShare.right} fq1)
            ∗ ((aRows21 c).view.loc (c : Thread nD τ) ↦[(aRows21 c).view.set]{fullShare.right} fq2)
            ∗ owes (c : Thread nD τ) (Orem c 16) (insert (SemLoc.dma (dsem 3 0 1), ()) W)
            ∗ atPos ER (dcell 3 0 1 c) 1 ∅ 0 ∗ dpay m 3 0 1 c)
          -∗ wp frame (wpE (defs₀ (F := F)) 𝒱₀ (c : Thread nD τ) none) Set.univ (kk r) Q))
      ⊢ wp frame (wpE (defs₀ (F := F)) 𝒱₀ (c : Thread nD τ) none) Set.univ (k0_part18 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v257 v505 >>= kk) Q := by
  iintro ⟨#Hrec, #Hlev, HO, Tg01, Tg11, Tg21, Ta01, Ta11, Ta21, AQ0, AQ1, AQ2, AP0, AP1, AP2, Ca01, P301, Hk⟩
  sl_unfold [k0_part18]
  sl_exec
  -- stage 1, butterfly 0: the own quarter goes to c xor 1; the left half of its share is lent
  ihave AQs := (pointsTo_share (ℓ := (aRows01 c).view.loc (c : Thread nD τ)) (I := (aRows01 c).view.set) (f := fq0) Mem.share_lr).1 $$ AQ0
  icases AQs with ⟨AQ0l, AQ0r⟩
  ihave #HIs := (ag_inv_d m K 2 0 1 c) $$ Hrec
  ihave #HIr := (ag_inv_d m K 3 0 1 (Mesh.px 1 c)) $$ Hrec
  ihave #HRs := (ag_reached_d m K 2 0 1 c) $$ Hrec
  ihave #HRr := (ag_reached_d m K 3 0 1 (Mesh.px 1 c)) $$ Hrec
  iapply (wp_send_at m c (Mesh.px 1 c) _ (Mesh.dev14_eq c) 2 3 0 1 (Or.inr (by decide)) (Or.inr (by decide))
      (src := aRows01 c) (dst := aRows01 c) (q := fullShare.left) (fs := fq0) (fd := fp0)
      (κ₁ := K (c, some (2, 0, 1))) (κ₂ := K (Mesh.px 1 c, some (3, 0, 1)))
      (Tables.credit_a01 c) (Tables.namt_2_eq_3 0 1) (Orem c 14) (Orem_lt c 13 (by decide))
      (ag_pay_s1_b0 m c fq0) (ag_pay_r1_b0 m c fq0 fp0 hq0)) $$ [HO Tg01 Ta01 AQ0l AP0]
  · isplitr; · iexact HIs
    isplitr; · iexact HIr
    isplitl [AQ0l]; · iexact AQ0l
    isplitl [AP0]; · iexact AP0
    isplitl [HO]; · iexact HO
    isplitl [Tg01]; · iexact Tg01
    isplitr; · iexact HRs
    isplitl [Ta01]; · iexact Ta01
    iexact HRr
  iintro ⟨Cg01, HO⟩
  iclear HIs HIr HRs HRr
  sl_exec
  -- stage 1, butterfly 1: the own quarter goes to c xor 3; the left half of its share is lent
  ihave AQs := (pointsTo_share (ℓ := (aRows11 c).view.loc (c : Thread nD τ)) (I := (aRows11 c).view.set) (f := fq1) Mem.share_lr).1 $$ AQ1
  icases AQs with ⟨AQ1l, AQ1r⟩
  ihave #HIs := (ag_inv_d m K 2 1 1 c) $$ Hrec
  ihave #HIr := (ag_inv_d m K 3 1 1 (Mesh.px 3 c)) $$ Hrec
  ihave #HRs := (ag_reached_d m K 2 1 1 c) $$ Hrec
  ihave #HRr := (ag_reached_d m K 3 1 1 (Mesh.px 3 c)) $$ Hrec
  iapply (wp_send_at m c (Mesh.px 3 c) _ (Mesh.dev15_eq c) 2 3 1 1 (Or.inr (by decide)) (Or.inr (by decide))
      (src := aRows11 c) (dst := aRows11 c) (q := fullShare.left) (fs := fq1) (fd := fp1)
      (κ₁ := K (c, some (2, 1, 1))) (κ₂ := K (Mesh.px 3 c, some (3, 1, 1)))
      (Tables.credit_a11 c) (Tables.namt_2_eq_3 1 1) (Orem c 15) (Orem_lt c 14 (by decide))
      (ag_pay_s1_b1 m c fq1) (ag_pay_r1_b1 m c fq1 fp1 hq1)) $$ [HO Tg11 Ta11 AQ1l AP1]
  · isplitr; · iexact HIs
    isplitr; · iexact HIr
    isplitl [AQ1l]; · iexact AQ1l
    isplitl [AP1]; · iexact AP1
    isplitl [HO]; · iexact HO
    isplitl [Tg11]; · iexact Tg11
    isplitr; · iexact HRs
    isplitl [Ta11]; · iexact Ta11
    iexact HRr
  iintro ⟨Cg11, HO⟩
  iclear HIs HIr HRs HRr
  sl_exec
  -- stage 1, butterfly 2: the own quarter goes to c xor 4; the left half of its share is lent
  ihave AQs := (pointsTo_share (ℓ := (aRows21 c).view.loc (c : Thread nD τ)) (I := (aRows21 c).view.set) (f := fq2) Mem.share_lr).1 $$ AQ2
  icases AQs with ⟨AQ2l, AQ2r⟩
  ihave #HIs := (ag_inv_d m K 2 2 1 c) $$ Hrec
  ihave #HIr := (ag_inv_d m K 3 2 1 (Mesh.px 4 c)) $$ Hrec
  ihave #HRs := (ag_reached_d m K 2 2 1 c) $$ Hrec
  ihave #HRr := (ag_reached_d m K 3 2 1 (Mesh.px 4 c)) $$ Hrec
  iapply (wp_send_at m c (Mesh.px 4 c) _ (Mesh.dev16_eq c) 2 3 2 1 (Or.inr (by decide)) (Or.inr (by decide))
      (src := aRows21 c) (dst := aRows21 c) (q := fullShare.left) (fs := fq2) (fd := fp2)
      (κ₁ := K (c, some (2, 2, 1))) (κ₂ := K (Mesh.px 4 c, some (3, 2, 1)))
      (Tables.credit_a21 c) (Tables.namt_2_eq_3 2 1) (Orem c 16) (Orem_lt c 15 (by decide))
      (ag_pay_s1_b2 m c fq2) (ag_pay_r1_b2 m c fq2 fp2 hq2)) $$ [HO Tg21 Ta21 AQ2l AP2]
  · isplitr; · iexact HIs
    isplitr; · iexact HIr
    isplitl [AQ2l]; · iexact AQ2l
    isplitl [AP2]; · iexact AP2
    isplitl [HO]; · iexact HO
    isplitl [Tg21]; · iexact Tg21
    isplitr; · iexact HRs
    isplitl [Ta21]; · iexact Ta21
    iexact HRr
  iintro ⟨Cg21, HO⟩
  iclear HIs HIr HRs HRr
  sl_exec
  -- the partner's quarter of butterfly 0 arrives
  ihave #HIw := (ag_inv_d m K 3 0 1 c) $$ Hrec
  iapply (Tables.wp_wait_dcell m 3 0 1 c (Or.inr (by decide)) (Tables.credit_a01 c)) $$ [Ca01 HO P301]
  · isplitr; · iexact HIw
    isplitl [Ca01]; · iexact Ca01
    isplitl [HO]; · iexact HO
    isplitr; · iapply (Tables.mayWait_ag1 0 c); iexact Hlev
    iexact P301
  iintro ⟨HO, P301, -, Hpay0⟩
  iclear HIw
  sl_exec
  iapply Hk $$ %_
  isplitl [Cg01]; · iexact Cg01
  isplitl [Cg11]; · iexact Cg11
  isplitl [Cg21]; · iexact Cg21
  isplitl [AQ0r]; · iexact AQ0r
  isplitl [AQ1r]; · iexact AQ1r
  isplitl [AQ2r]; · iexact AQ2r
  isplitl [HO]; · iexact HO
  isplitl [P301]; · iexact P301
  iexact Hpay0

/-- Part 19: the other two partners' quarters arrive, and butterfly 0's kept half leaves for the stage-0 partner. -/
theorem ag_part19 (m : (ℓ : Loc nD τ sig) → Buf (Elt F) ℓ) (K : Dev nD × CIx → ℕ) (c : Dev nD) (W : Waits sig Unit)
    (v2 : BitVec 32) (v278 v299 : BitVec 1) (v328 v347 v366 v514 v523 v538 : BitVec 32) {α : Type}
    (kk : (Σ' (v539 : BitVec 32) (v547 : BitVec 32) (v555 : BitVec 32) (v556 : BitVec 32), BitVec 32) → Prog (TpuEff nD τ sig (Elt F) Λ₀ .tc) α) (Q : α → sProp 𝕄)
    (fq0 : Buf (Elt F) ((aRows01 c).view.loc (c : Thread nD τ))) (fh0 : Buf (Elt F) ((aRows00 c).view.loc ((Mesh.px 3 c) : Thread nD τ)))
    (hq0 : ∀ r q : ℕ, r < 96 → q < 1024 → aAt fq0 (K1 0 c + r) q = tr (S3 m 0 c (K1 0 c + r) q)) :
    iprop(records m K ∗ levAts L lv ∗ owes (c : Thread nD τ) (Orem c 16) W
        ∗ cred (tallyAt (dcell 3 1 1 c) () (namt 3 1 1)) ∗ atPos ER (dcell 3 1 1 c) 0 ∅ 0
        ∗ cred (tallyAt (dcell 3 2 1 c) () (namt 3 2 1)) ∗ atPos ER (dcell 3 2 1 c) 0 ∅ 0
        ∗ ((aRows01 c).view.loc (c : Thread nD τ) ↦[(aRows01 c).view.set]{fullShare.right} fq0) ∗ dpay m 3 0 1 c
        ∗ dutyTok ER (dcell 2 0 0 c) 0 (0 : Fin 4) ∗ dutyTok ER (dcell 3 0 0 (Mesh.px 3 c)) 0 (0 : Fin 4)
        ∗ ((aRows00 c).view.loc ((Mesh.px 3 c) : Thread nD τ) ↦[(aRows00 c).view.set]{fullShare} fh0)
        ∗ (∀ r, iprop(atPos ER (dcell 3 1 1 c) 1 ∅ 0 ∗ atPos ER (dcell 3 2 1 c) 1 ∅ 0 ∗ dpay m 3 1 1 c ∗ dpay m 3 2 1 c
            ∗ owes (c : Thread nD τ) (Orem c 17) (insert (SemLoc.dma (dsem 3 2 1), ()) (insert (SemLoc.dma (dsem 3 1 1), ()) W))
            ∗ cred (tallyAt (dcell 2 0 0 c) () (namt 2 0 0))
            ∗ (∃ g, ((aRows00 c).view.loc (c : Thread nD τ) ↦[(aRows00 c).view.set]{fullShare.right.right} g) ∗ ⌜∀ r q : ℕ, r < 192 → q < 1024 → aAt g (K0 0 c + r) q = tr (S3 m 0 (qOwn 0 c (K0 0 c + r)) (K0 0 c + r) q)⌝)
            ∗ (∃ f, (aRows01 (Mesh.px 1 c)).view.loc (c : Thread nD τ) ↦[(aRows01 (Mesh.px 1 c)).view.set]{fullShare.left} f))
          -∗ wp frame (wpE (defs₀ (F := F)) 𝒱₀ (c : Thread nD τ) none) Set.univ (kk r) Q))
      ⊢ wp frame (wpE (defs₀ (F := F)) 𝒱₀ (c : Thread nD τ) none) Set.univ (k0_part19 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v278 v299 v328 v347 v366 v514 v523 v538 >>= kk) Q := by
  iintro ⟨#Hrec, #Hlev, HO, Ca11, P311, Ca21, P321, AQ0r, Hpay0, Tg00, Ta00, AH0, Hk⟩
  sl_unfold [k0_part19]
  sl_exec
  -- the partner's quarter of butterfly 1 arrives
  ihave #HIw := (ag_inv_d m K 3 1 1 c) $$ Hrec
  iapply (Tables.wp_wait_dcell m 3 1 1 c (Or.inr (by decide)) (Tables.credit_a11 c)) $$ [Ca11 HO P311]
  · isplitr; · iexact HIw
    isplitl [Ca11]; · iexact Ca11
    isplitl [HO]; · iexact HO
    isplitr; · iapply (Tables.mayWait_ag1 1 c); iexact Hlev
    iexact P311
  iintro ⟨HO, P311, -, Hpay1⟩
  iclear HIw
  sl_exec
  -- the partner's quarter of butterfly 2 arrives
  ihave #HIw := (ag_inv_d m K 3 2 1 c) $$ Hrec
  iapply (Tables.wp_wait_dcell m 3 2 1 c (Or.inr (by decide)) (Tables.credit_a21 c)) $$ [Ca21 HO P321]
  · isplitr; · iexact HIw
    isplitl [Ca21]; · iexact Ca21
    isplitl [HO]; · iexact HO
    isplitr; · iapply (Tables.mayWait_ag1 2 c); iexact Hlev
    iexact P321
  iintro ⟨HO, P321, -, Hpay2⟩
  iclear HIw
  sl_exec
  ihave Hp := (Entails.of_eq (ag_r1_open_b0 m c)) $$ Hpay0
  icases Hp with ⟨%fl0, AL0, %hl0⟩
  -- stage 0, butterfly 0: the kept half (own quarter and landed quarter) goes to c xor 3; the left half of the right share of each is lent
  ihave X1 := (pointsTo_share (ℓ := (aRows01 c).view.loc (c : Thread nD τ)) (I := (aRows01 c).view.set) (f := fq0) Mem.share_rlr).1 $$ AQ0r
  icases X1 with ⟨AQ0rl, AQ0rr⟩
  ihave X2 := (pointsTo_share (ℓ := (aRows01 (Mesh.px 1 c)).view.loc (c : Thread nD τ)) (I := (aRows01 (Mesh.px 1 c)).view.set) (f := fl0) Mem.share_lr).1 $$ AL0
  icases X2 with ⟨AL0l, AL0r⟩
  ihave X3 := (pointsTo_share (ℓ := (aRows01 (Mesh.px 1 c)).view.loc (c : Thread nD τ)) (I := (aRows01 (Mesh.px 1 c)).view.set) (f := fl0) Mem.share_rlr).1 $$ AL0r
  icases X3 with ⟨AL0rl, AL0rr⟩
  ihave X4 := (Mem.aHalf_merge_b0 c fullShare.right.left fq0 fl0) $$ [AQ0rl AL0rl]
  · isplitl [AQ0rl]; · iexact AQ0rl
    iexact AL0rl
  icases X4 with ⟨%gs0, AHs0, %hgs0⟩
  ihave #HIs := (ag_inv_d m K 2 0 0 c) $$ Hrec
  ihave #HIr := (ag_inv_d m K 3 0 0 (Mesh.px 3 c)) $$ Hrec
  ihave #HRs := (ag_reached_d m K 2 0 0 c) $$ Hrec
  ihave #HRr := (ag_reached_d m K 3 0 0 (Mesh.px 3 c)) $$ Hrec
  iapply (wp_send_at m c (Mesh.px 3 c) _ (Mesh.dev17_eq c) 2 3 0 0 (Or.inr (by decide)) (Or.inr (by decide))
      (src := aRows00 c) (dst := aRows00 c) (q := fullShare.right.left) (fs := gs0) (fd := fh0)
      (κ₁ := K (c, some (2, 0, 0))) (κ₂ := K (Mesh.px 3 c, some (3, 0, 0)))
      (Tables.credit_a00 c) (Tables.namt_2_eq_3 0 0) (Orem c 17) (Orem_lt c 16 (by decide))
      (ag_pay_s0_b0 m c gs0) (ag_pay_r0_b0 m c gs0 fq0 fl0 fh0 hq0 hl0 hgs0)) $$ [HO Tg00 Ta00 AHs0 AH0]
  · isplitr; · iexact HIs
    isplitr; · iexact HIr
    isplitl [AHs0]; · iexact AHs0
    isplitl [AH0]; · iexact AH0
    isplitl [HO]; · iexact HO
    isplitl [Tg00]; · iexact Tg00
    isplitr; · iexact HRs
    isplitl [Ta00]; · iexact Ta00
    iexact HRr
  iintro ⟨Cg00, HO⟩
  iclear HIs HIr HRs HRr
  ihave X5 := (Mem.aHalf_merge_b0 c fullShare.right.right fq0 fl0) $$ [AQ0rr AL0rr]
  · isplitl [AQ0rr]; · iexact AQ0rr
    iexact AL0rr
  icases X5 with ⟨%gr0, AHr0, %hgr0⟩
  have hvr0 := half_value_b0 m c gr0 fq0 fl0 hq0 hl0 hgr0
  sl_exec
  iapply Hk $$ %_
  isplitl [P311]; · iexact P311
  isplitl [P321]; · iexact P321
  isplitl [Hpay1]; · iexact Hpay1
  isplitl [Hpay2]; · iexact Hpay2
  isplitl [HO]; · iexact HO
  isplitl [Cg00]; · iexact Cg00
  isplitl [AHr0]
  · iexists gr0; isplitl [AHr0]; · iexact AHr0
    ipureintro; exact hvr0
  iexists fl0; iexact AL0l

/-- Part 20: the kept halves of butterflies 1 and 2 leave for their stage-0 partners, and the three kept halves are read
    back from the gather buffer, widened, and stored into the result. -/
theorem ag_part20 (m : (ℓ : Loc nD τ sig) → Buf (Elt F) ℓ) (K : Dev nD × CIx → ℕ) (c : Dev nD) (W : Waits sig Unit)
    (v2 v539 v547 v555 v565 : BitVec 32) {α : Type}
    (kk : BitVec 32 → Prog (TpuEff nD τ sig (Elt F) Λ₀ .tc) α) (Q : α → sProp 𝕄)
    (fq1 : Buf (Elt F) ((aRows11 c).view.loc (c : Thread nD τ))) (fq2 : Buf (Elt F) ((aRows21 c).view.loc (c : Thread nD τ))) (fh1 : Buf (Elt F) ((aRows10 c).view.loc ((Mesh.px 4 c) : Thread nD τ))) (fh2 : Buf (Elt F) ((aRows20 c).view.loc ((Mesh.px 1 c) : Thread nD τ)))
    (fo : Buf (Elt F) ((oM : Memref sig .tc .vmem S1024x1024 .f32).view.loc (c : Thread nD τ)))
    (hq1 : ∀ r q : ℕ, r < 96 → q < 1024 → aAt fq1 (K1 1 c + r) q = tr (S3 m 1 c (K1 1 c + r) q))
    (hq2 : ∀ r q : ℕ, r < 64 → q < 1024 → aAt fq2 (K1 2 c + r) q = tr (S3 m 2 c (K1 2 c + r) q)) :
    iprop(records m K ∗ levAts L lv ∗ owes (c : Thread nD τ) (Orem c 17) W
        ∗ ((aRows11 c).view.loc (c : Thread nD τ) ↦[(aRows11 c).view.set]{fullShare.right} fq1) ∗ dpay m 3 1 1 c
        ∗ dutyTok ER (dcell 2 1 0 c) 0 (0 : Fin 4) ∗ dutyTok ER (dcell 3 1 0 (Mesh.px 4 c)) 0 (0 : Fin 4)
        ∗ ((aRows10 c).view.loc ((Mesh.px 4 c) : Thread nD τ) ↦[(aRows10 c).view.set]{fullShare} fh1)
        ∗ ((aRows21 c).view.loc (c : Thread nD τ) ↦[(aRows21 c).view.set]{fullShare.right} fq2) ∗ dpay m 3 2 1 c
        ∗ dutyTok ER (dcell 2 2 0 c) 0 (0 : Fin 4) ∗ dutyTok ER (dcell 3 2 0 (Mesh.px 1 c)) 0 (0 : Fin 4)
        ∗ ((aRows20 c).view.loc ((Mesh.px 1 c) : Thread nD τ) ↦[(aRows20 c).view.set]{fullShare} fh2)
        ∗ (∃ g, ((aRows00 c).view.loc (c : Thread nD τ) ↦[(aRows00 c).view.set]{fullShare.right.right} g) ∗ ⌜∀ r q : ℕ, r < 192 → q < 1024 → aAt g (K0 0 c + r) q = tr (S3 m 0 (qOwn 0 c (K0 0 c + r)) (K0 0 c + r) q)⌝)
        ∗ (((oM : Memref sig .tc .vmem S1024x1024 .f32).view.loc (c : Thread nD τ)) ↦{fullShare} fo)
        ∗ (∀ r, iprop(owes (c : Thread nD τ) (Orem c 19) W
            ∗ cred (tallyAt (dcell 2 1 0 c) () (namt 2 1 0)) ∗ cred (tallyAt (dcell 2 2 0 c) () (namt 2 2 0))
            ∗ (∃ f, (aRows11 (Mesh.px 3 c)).view.loc (c : Thread nD τ) ↦[(aRows11 (Mesh.px 3 c)).view.set]{fullShare.left} f) ∗ (∃ f, (aRows21 (Mesh.px 4 c)).view.loc (c : Thread nD τ) ↦[(aRows21 (Mesh.px 4 c)).view.set]{fullShare.left} f)
            ∗ (∃ g, (aRows00 c).view.loc (c : Thread nD τ) ↦[(aRows00 c).view.set]{fullShare.right.right} g) ∗ (∃ g, (aRows10 c).view.loc (c : Thread nD τ) ↦[(aRows10 c).view.set]{fullShare.right.right} g) ∗ (∃ g, (aRows20 c).view.loc (c : Thread nD τ) ↦[(aRows20 c).view.set]{fullShare.right.right} g)
            ∗ (∃ (V0 V1 : S192x1024.Idx → F .bf16) (V2 : S128x1024.Idx → F .bf16),
                (((oM : Memref sig .tc .vmem S1024x1024 .f32).view.loc (c : Thread nD τ)) ↦{fullShare}
                  (oM : Memref sig .tc .vmem S1024x1024 .f32).view.writes (Elt F) fo
                    [⟨Rect.unit (s := S1024x1024) (k0_off10 c) S128x1024.size (k0_off10_inb c), k0_pay36 V2⟩, ⟨Rect.unit (s := S1024x1024) (k0_off9 c 384#32 4#32 3#32) S192x1024.size (k0_off9_inb c 1), k0_pay35 V1⟩, ⟨Rect.unit (s := S1024x1024) (k0_off9 c 0#32 3#32 1#32) S192x1024.size (k0_off9_inb c 0), k0_pay34 V0⟩])
                ∗ ⌜(∀ (r q : ℕ) (hr : r < 192) (hq : q < 1024), V0 (ix2 ⟨r, hr⟩ ⟨q, hq⟩) = tr (S3 m 0 (qOwn 0 c (K0 0 c + r)) (K0 0 c + r) q)) ∧ (∀ (r q : ℕ) (hr : r < 192) (hq : q < 1024), V1 (ix2 ⟨r, hr⟩ ⟨q, hq⟩) = tr (S3 m 1 (qOwn 1 c (K0 1 c + r)) (K0 1 c + r) q)) ∧ (∀ (r q : ℕ) (hr : r < 128) (hq : q < 1024), V2 (ix2 ⟨r, hr⟩ ⟨q, hq⟩) = tr (S3 m 2 (qOwn 2 c (K0 2 c + r)) (K0 2 c + r) q))⌝))
          -∗ wp frame (wpE (defs₀ (F := F)) 𝒱₀ (c : Thread nD τ) none) Set.univ (kk r) Q))
      ⊢ wp frame (wpE (defs₀ (F := F)) 𝒱₀ (c : Thread nD τ) none) Set.univ (k0_part20 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v539 v547 v555 v565 >>= kk) Q := by
  iintro ⟨#Hrec, #Hlev, HO, AQ1r, Hpay1, Tg10, Ta10, AH1, AQ2r, Hpay2, Tg20, Ta20, AH2, ⟨%gr0, AHr0, %hvr0⟩, Hout, Hk⟩
  have hinc_h0 : (aM.access (Rect.unit (s := S1024x1024) (k0_off9 c 0#32 3#32 1#32) S192x1024.size (k0_off9_inb c 0))).set ⊆ (aRows00 c).view.set := (Mem.aacc_h0 c).subset
  have hinc_h1 : (aM.access (Rect.unit (s := S1024x1024) (k0_off9 c 384#32 4#32 3#32) S192x1024.size (k0_off9_inb c 1))).set ⊆ (aRows10 c).view.set := (Mem.aacc_h1 c).subset
  have hinc_h2 : (aM.access (Rect.unit (s := S1024x1024) (k0_off10 c) S128x1024.size (k0_off10_inb c))).set ⊆ (aRows20 c).view.set := (Mem.aacc_h2 c).subset
  sl_unfold [k0_part20]
  sl_exec
  ihave Hp := (Entails.of_eq (ag_r1_open_b1 m c)) $$ Hpay1
  icases Hp with ⟨%fl1, AL1, %hl1⟩
  -- stage 0, butterfly 1: the kept half (own quarter and landed quarter) goes to c xor 4; the left half of the right share of each is lent
  ihave X1 := (pointsTo_share (ℓ := (aRows11 c).view.loc (c : Thread nD τ)) (I := (aRows11 c).view.set) (f := fq1) Mem.share_rlr).1 $$ AQ1r
  icases X1 with ⟨AQ1rl, AQ1rr⟩
  ihave X2 := (pointsTo_share (ℓ := (aRows11 (Mesh.px 3 c)).view.loc (c : Thread nD τ)) (I := (aRows11 (Mesh.px 3 c)).view.set) (f := fl1) Mem.share_lr).1 $$ AL1
  icases X2 with ⟨AL1l, AL1r⟩
  ihave X3 := (pointsTo_share (ℓ := (aRows11 (Mesh.px 3 c)).view.loc (c : Thread nD τ)) (I := (aRows11 (Mesh.px 3 c)).view.set) (f := fl1) Mem.share_rlr).1 $$ AL1r
  icases X3 with ⟨AL1rl, AL1rr⟩
  ihave X4 := (Mem.aHalf_merge_b1 c fullShare.right.left fq1 fl1) $$ [AQ1rl AL1rl]
  · isplitl [AQ1rl]; · iexact AQ1rl
    iexact AL1rl
  icases X4 with ⟨%gs1, AHs1, %hgs1⟩
  ihave #HIs := (ag_inv_d m K 2 1 0 c) $$ Hrec
  ihave #HIr := (ag_inv_d m K 3 1 0 (Mesh.px 4 c)) $$ Hrec
  ihave #HRs := (ag_reached_d m K 2 1 0 c) $$ Hrec
  ihave #HRr := (ag_reached_d m K 3 1 0 (Mesh.px 4 c)) $$ Hrec
  iapply (wp_send_at m c (Mesh.px 4 c) _ (Mesh.dev18_eq c) 2 3 1 0 (Or.inr (by decide)) (Or.inr (by decide))
      (src := aRows10 c) (dst := aRows10 c) (q := fullShare.right.left) (fs := gs1) (fd := fh1)
      (κ₁ := K (c, some (2, 1, 0))) (κ₂ := K (Mesh.px 4 c, some (3, 1, 0)))
      (Tables.credit_a10 c) (Tables.namt_2_eq_3 1 0) (Orem c 18) (Orem_lt c 17 (by decide))
      (ag_pay_s0_b1 m c gs1) (ag_pay_r0_b1 m c gs1 fq1 fl1 fh1 hq1 hl1 hgs1)) $$ [HO Tg10 Ta10 AHs1 AH1]
  · isplitr; · iexact HIs
    isplitr; · iexact HIr
    isplitl [AHs1]; · iexact AHs1
    isplitl [AH1]; · iexact AH1
    isplitl [HO]; · iexact HO
    isplitl [Tg10]; · iexact Tg10
    isplitr; · iexact HRs
    isplitl [Ta10]; · iexact Ta10
    iexact HRr
  iintro ⟨Cg10, HO⟩
  iclear HIs HIr HRs HRr
  ihave X5 := (Mem.aHalf_merge_b1 c fullShare.right.right fq1 fl1) $$ [AQ1rr AL1rr]
  · isplitl [AQ1rr]; · iexact AQ1rr
    iexact AL1rr
  icases X5 with ⟨%gr1, AHr1, %hgr1⟩
  have hvr1 := half_value_b1 m c gr1 fq1 fl1 hq1 hl1 hgr1
  sl_exec
  ihave Hp := (Entails.of_eq (ag_r1_open_b2 m c)) $$ Hpay2
  icases Hp with ⟨%fl2, AL2, %hl2⟩
  -- stage 0, butterfly 2: the kept half (own quarter and landed quarter) goes to c xor 1; the left half of the right share of each is lent
  ihave X1 := (pointsTo_share (ℓ := (aRows21 c).view.loc (c : Thread nD τ)) (I := (aRows21 c).view.set) (f := fq2) Mem.share_rlr).1 $$ AQ2r
  icases X1 with ⟨AQ2rl, AQ2rr⟩
  ihave X2 := (pointsTo_share (ℓ := (aRows21 (Mesh.px 4 c)).view.loc (c : Thread nD τ)) (I := (aRows21 (Mesh.px 4 c)).view.set) (f := fl2) Mem.share_lr).1 $$ AL2
  icases X2 with ⟨AL2l, AL2r⟩
  ihave X3 := (pointsTo_share (ℓ := (aRows21 (Mesh.px 4 c)).view.loc (c : Thread nD τ)) (I := (aRows21 (Mesh.px 4 c)).view.set) (f := fl2) Mem.share_rlr).1 $$ AL2r
  icases X3 with ⟨AL2rl, AL2rr⟩
  ihave X4 := (Mem.aHalf_merge_b2 c fullShare.right.left fq2 fl2) $$ [AQ2rl AL2rl]
  · isplitl [AQ2rl]; · iexact AQ2rl
    iexact AL2rl
  icases X4 with ⟨%gs2, AHs2, %hgs2⟩
  ihave #HIs := (ag_inv_d m K 2 2 0 c) $$ Hrec
  ihave #HIr := (ag_inv_d m K 3 2 0 (Mesh.px 1 c)) $$ Hrec
  ihave #HRs := (ag_reached_d m K 2 2 0 c) $$ Hrec
  ihave #HRr := (ag_reached_d m K 3 2 0 (Mesh.px 1 c)) $$ Hrec
  iapply (wp_send_at m c (Mesh.px 1 c) _ (Mesh.dev19_eq c) 2 3 2 0 (Or.inr (by decide)) (Or.inr (by decide))
      (src := aRows20 c) (dst := aRows20 c) (q := fullShare.right.left) (fs := gs2) (fd := fh2)
      (κ₁ := K (c, some (2, 2, 0))) (κ₂ := K (Mesh.px 1 c, some (3, 2, 0)))
      (Tables.credit_a20 c) (Tables.namt_2_eq_3 2 0) (Orem c 19) (Orem_lt c 18 (by decide))
      (ag_pay_s0_b2 m c gs2) (ag_pay_r0_b2 m c gs2 fq2 fl2 fh2 hq2 hl2 hgs2)) $$ [HO Tg20 Ta20 AHs2 AH2]
  · isplitr; · iexact HIs
    isplitr; · iexact HIr
    isplitl [AHs2]; · iexact AHs2
    isplitl [AH2]; · iexact AH2
    isplitl [HO]; · iexact HO
    isplitl [Tg20]; · iexact Tg20
    isplitr; · iexact HRs
    isplitl [Ta20]; · iexact Ta20
    iexact HRr
  iintro ⟨Cg20, HO⟩
  iclear HIs HIr HRs HRr
  ihave X5 := (Mem.aHalf_merge_b2 c fullShare.right.right fq2 fl2) $$ [AQ2rr AL2rr]
  · isplitl [AQ2rr]; · iexact AQ2rr
    iexact AL2rr
  icases X5 with ⟨%gr2, AHr2, %hgr2⟩
  have hvr2 := half_value_b2 m c gr2 fq2 fl2 hq2 hl2 hgr2
  sl_exec
  iapply Hk $$ %_
  isplitl [HO]; · iexact HO
  isplitl [Cg10]; · iexact Cg10
  isplitl [Cg20]; · iexact Cg20
  isplitl [AL1l]; · iexists fl1; iexact AL1l
  isplitl [AL2l]; · iexists fl2; iexact AL2l
  isplitl [AHr0]; · iexists gr0; iexact AHr0
  isplitl [AHr1]; · iexists gr1; iexact AHr1
  isplitl [AHr2]; · iexists gr2; iexact AHr2
  iexists (ag_part20.sl.v584 c gr0), (ag_part20.sl.v589 c gr1), (ag_part20.sl.v594 c gr2)
  isplitl [Hout]; · iexact Hout
  ipureintro
  refine ⟨?_, ?_, ?_⟩
  · exact ag_load_fact (k0_off9 c 0#32 3#32 1#32) (k0_off9_inb c 0) (by rw [Mesh.off9_a]; rfl) gr0 (K0 0 c) ((congrFun (Rows.ag0_read_b0 c) 0).trans (Mem.hRow_eq_K0 0 c)) _ hvr0
  · exact ag_load_fact (k0_off9 c 384#32 4#32 3#32) (k0_off9_inb c 1) (by rw [Mesh.off9_b]; rfl) gr1 (K0 1 c) ((congrFun (Rows.ag0_read_b1 c) 0).trans (Mem.hRow_eq_K0 1 c)) _ hvr1
  · exact ag_load_fact (k0_off10 c) (k0_off10_inb c) (by rw [Mesh.off10]; rfl) gr2 (K0 2 c) ((congrFun (Rows.ag0_read_b2 c) 0).trans (Mem.hRow_eq_K0 2 c)) _ hvr2

/-- Part 21: the other halves of butterflies 0 and 1 arrive and are widened into the result. -/
theorem ag_part21 (m : (ℓ : Loc nD τ sig) → Buf (Elt F) ℓ) (K : Dev nD × CIx → ℕ) (c : Dev nD) (W : Waits sig Unit)
    (v17 v19 : BitVec 1) (v539 v547 v556 v565 v574 : BitVec 32) {α : Type}
    (kk : BitVec 32 → Prog (TpuEff nD τ sig (Elt F) Λ₀ .tc) α) (Q : α → sProp 𝕄)
    (f : Buf (Elt F) ((oM : Memref sig .tc .vmem S1024x1024 .f32).view.loc (c : Thread nD τ)))
    (O : CellTallies nD τ sig Unit) (hO : O = 0) :
    iprop(records m K ∗ levAts L lv ∗ owes (c : Thread nD τ) O W
        ∗ cred (tallyAt (dcell 3 0 0 c) () (namt 3 0 0)) ∗ atPos ER (dcell 3 0 0 c) 0 ∅ 0
        ∗ cred (tallyAt (dcell 3 1 0 c) () (namt 3 1 0)) ∗ atPos ER (dcell 3 1 0 c) 0 ∅ 0
        ∗ (((oM : Memref sig .tc .vmem S1024x1024 .f32).view.loc (c : Thread nD τ)) ↦{fullShare} f)
        ∗ (∀ r, iprop(owes (c : Thread nD τ) O (insert (SemLoc.dma (dsem 3 1 0), ()) (insert (SemLoc.dma (dsem 3 0 0), ()) W))
            ∗ atPos ER (dcell 3 0 0 c) 1 ∅ 0 ∗ atPos ER (dcell 3 1 0 c) 1 ∅ 0
            ∗ (∃ f, (aRows00 (Mesh.px 3 c)).view.loc (c : Thread nD τ) ↦[(aRows00 (Mesh.px 3 c)).view.set]{fullShare} f) ∗ (∃ f, (aRows10 (Mesh.px 4 c)).view.loc (c : Thread nD τ) ↦[(aRows10 (Mesh.px 4 c)).view.set]{fullShare} f)
            ∗ (∃ (Z0 Z1 : S192x1024.Idx → F .bf16),
                (((oM : Memref sig .tc .vmem S1024x1024 .f32).view.loc (c : Thread nD τ)) ↦{fullShare}
                  (oM : Memref sig .tc .vmem S1024x1024 .f32).view.writes (Elt F) f [⟨Rect.unit (s := S1024x1024) (k0_off11 c 384#32 4#32 3#32) S192x1024.size (k0_off11_inb c 1), k0_pay38 Z1⟩, ⟨Rect.unit (s := S1024x1024) (k0_off11 c 0#32 3#32 1#32) S192x1024.size (k0_off11_inb c 0), k0_pay37 Z0⟩])
                ∗ ⌜(∀ (r q : ℕ) (hr : r < 192) (hq : q < 1024), Z0 (ix2 ⟨r, hr⟩ ⟨q, hq⟩) = tr (S3 m 0 (qOwn 0 (Mesh.px 3 c) (K0 0 (Mesh.px 3 c) + r)) (K0 0 (Mesh.px 3 c) + r) q)) ∧ (∀ (r q : ℕ) (hr : r < 192) (hq : q < 1024), Z1 (ix2 ⟨r, hr⟩ ⟨q, hq⟩) = tr (S3 m 1 (qOwn 1 (Mesh.px 4 c) (K0 1 (Mesh.px 4 c) + r)) (K0 1 (Mesh.px 4 c) + r) q))⌝))
          -∗ wp frame (wpE (defs₀ (F := F)) 𝒱₀ (c : Thread nD τ) none) Set.univ (kk r) Q))
      ⊢ wp frame (wpE (defs₀ (F := F)) 𝒱₀ (c : Thread nD τ) none) Set.univ (k0_part21 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v17 v19 v539 v547 v556 v565 v574 >>= kk) Q := by
  iintro ⟨#Hrec, #Hlev, HO, Ca00, P300, Ca10, P310, Hout, Hk⟩
  have hinc_o0 : (aM.access (Rect.unit (s := S1024x1024) (k0_off11 c 0#32 3#32 1#32) S192x1024.size (k0_off11_inb c 0))).set ⊆ (aOth0 c).view.set := Finset.Subset.refl _
  have hinc_o1 : (aM.access (Rect.unit (s := S1024x1024) (k0_off11 c 384#32 4#32 3#32) S192x1024.size (k0_off11_inb c 1))).set ⊆ (aOth1 c).view.set := Finset.Subset.refl _
  sl_unfold [k0_part21]
  sl_exec
  -- the other half of butterfly 0 arrives from c xor 3; everything is paid, so any wait is allowed
  ihave #HIw := (ag_inv_d m K 3 0 0 c) $$ Hrec
  iapply (wp_wait_ag0_b0 m c (Tables.credit_a00 c)) $$ [Ca00 HO P300]
  · isplitr; · iexact HIw
    isplitl [Ca00]; · iexact Ca00
    isplitl [HO]; · iexact HO
    isplitr; · rw [hO, MayWait_zero]; iempintro
    iexact P300
  iintro ⟨HO, P300, -, ⟨%fz0, AO0, %hz0⟩⟩
  iclear HIw
  ihave AO0 := (Entails.of_eq (ag_oh_conv_b0 c fullShare fz0)) $$ AO0
  sl_exec
  -- the other half of butterfly 1 arrives from c xor 4; everything is paid, so any wait is allowed
  ihave #HIw := (ag_inv_d m K 3 1 0 c) $$ Hrec
  iapply (wp_wait_ag0_b1 m c (Tables.credit_a10 c)) $$ [Ca10 HO P310]
  · isplitr; · iexact HIw
    isplitl [Ca10]; · iexact Ca10
    isplitl [HO]; · iexact HO
    isplitr; · rw [hO, MayWait_zero]; iempintro
    iexact P310
  iintro ⟨HO, P310, -, ⟨%fz1, AO1, %hz1⟩⟩
  iclear HIw
  ihave AO1 := (Entails.of_eq (ag_oh_conv_b1 c fullShare fz1)) $$ AO1
  sl_exec
  iapply Hk $$ %_
  isplitl [HO]; · iexact HO
  isplitl [P300]; · iexact P300
  isplitl [P310]; · iexact P310
  isplitl [AO0]
  · iexists fz0
    iapply (Entails.of_eq (ag_oh_conv_b0 c fullShare fz0).symm)
    iexact AO0
  isplitl [AO1]
  · iexists fz1
    iapply (Entails.of_eq (ag_oh_conv_b1 c fullShare fz1).symm)
    iexact AO1
  iexists (ag_part21.sl.v607 c fz0), (ag_part21.sl.v620 c fz1)
  isplitl [Hout]; · iexact Hout
  ipureintro
  refine ⟨?_, ?_⟩
  · exact ag_load_fact (k0_off11 c 0#32 3#32 1#32) (k0_off11_inb c 0) (by rw [Mesh.off11_a]; rfl) fz0 (K0 0 (Mesh.px 3 c)) ((congrFun (Rows.ag0_recv_b0 c) 0).trans (Mem.hRow_eq_K0 0 (Mesh.px 3 c))) _ hz0
  · exact ag_load_fact (k0_off11 c 384#32 4#32 3#32) (k0_off11_inb c 1) (by rw [Mesh.off11_b]; rfl) fz1 (K0 1 (Mesh.px 4 c)) ((congrFun (Rows.ag0_recv_b1 c) 0).trans (Mem.hRow_eq_K0 1 (Mesh.px 4 c))) _ hz1

/-- Part 22: the other half of butterfly 2 arrives and is widened into the result; the exchange's first two departures have left. -/
theorem ag_part22 (m : (ℓ : Loc nD τ sig) → Buf (Elt F) ℓ) (K : Dev nD × CIx → ℕ) (c : Dev nD) (W : Waits sig Unit)
    (v21 : BitVec 1) (v555 v624 : BitVec 32) {α : Type}
    (kk : PUnit.{1} → Prog (TpuEff nD τ sig (Elt F) Λ₀ .tc) α) (Q : α → sProp 𝕄)
    (f : Buf (Elt F) ((oM : Memref sig .tc .vmem S1024x1024 .f32).view.loc (c : Thread nD τ)))
    (O : CellTallies nD τ sig Unit) (hO : O = 0) :
    iprop(records m K ∗ levAts L lv ∗ owes (c : Thread nD τ) O W
        ∗ cred (tallyAt (dcell 3 2 0 c) () (namt 3 2 0)) ∗ atPos ER (dcell 3 2 0 c) 0 ∅ 0
        ∗ cred (tallyAt (dcell 0 0 0 c) () (namt 0 0 0)) ∗ atPos ER (dcell 0 0 0 c) 0 ∅ 0
        ∗ cred (tallyAt (dcell 0 1 0 c) () (namt 0 1 0)) ∗ atPos ER (dcell 0 1 0 c) 0 ∅ 0
        ∗ (((oM : Memref sig .tc .vmem S1024x1024 .f32).view.loc (c : Thread nD τ)) ↦{fullShare} f)
        ∗ (∀ r, iprop(owes (c : Thread nD τ) O (insert (SemLoc.dma (dsem 0 1 0), ()) (insert (SemLoc.dma (dsem 0 0 0), ()) (insert (SemLoc.dma (dsem 3 2 0), ()) W)))
            ∗ atPos ER (dcell 3 2 0 c) 1 ∅ 0 ∗ atPos ER (dcell 0 0 0 c) 1 ∅ 0 ∗ atPos ER (dcell 0 1 0 c) 1 ∅ 0
            ∗ (∃ f, (aRows20 (Mesh.px 1 c)).view.loc (c : Thread nD τ) ↦[(aRows20 (Mesh.px 1 c)).view.set]{fullShare} f) ∗ dpay m 0 0 0 c ∗ dpay m 0 1 0 c
            ∗ (∃ (Z2 : S128x1024.Idx → F .bf16),
                (((oM : Memref sig .tc .vmem S1024x1024 .f32).view.loc (c : Thread nD τ)) ↦{fullShare}
                  (oM : Memref sig .tc .vmem S1024x1024 .f32).view.writes (Elt F) f [⟨Rect.unit (s := S1024x1024) (k0_off12 c) S128x1024.size (k0_off12_inb c), k0_pay39 Z2⟩])
                ∗ ⌜(∀ (r q : ℕ) (hr : r < 128) (hq : q < 1024), Z2 (ix2 ⟨r, hr⟩ ⟨q, hq⟩) = tr (S3 m 2 (qOwn 2 (Mesh.px 1 c) (K0 2 (Mesh.px 1 c) + r)) (K0 2 (Mesh.px 1 c) + r) q))⌝))
          -∗ wp frame (wpE (defs₀ (F := F)) 𝒱₀ (c : Thread nD τ) none) Set.univ (kk r) Q))
      ⊢ wp frame (wpE (defs₀ (F := F)) 𝒱₀ (c : Thread nD τ) none) Set.univ (k0_part22 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v21 v555 v624 >>= kk) Q := by
  iintro ⟨#Hrec, #Hlev, HO, Ca20, P320, Cs00, P000, Cs10, P010, Hout, Hk⟩
  have hinc_o2 : (aM.access (Rect.unit (s := S1024x1024) (k0_off12 c) S128x1024.size (k0_off12_inb c))).set ⊆ (aOth2 c).view.set := Finset.Subset.refl _
  sl_unfold [k0_part22]
  sl_exec
  -- the other half of butterfly 2 arrives from c xor 1; everything is paid, so any wait is allowed
  ihave #HIw := (ag_inv_d m K 3 2 0 c) $$ Hrec
  iapply (wp_wait_ag0_b2 m c (Tables.credit_a20 c)) $$ [Ca20 HO P320]
  · isplitr; · iexact HIw
    isplitl [Ca20]; · iexact Ca20
    isplitl [HO]; · iexact HO
    isplitr; · rw [hO, MayWait_zero]; iempintro
    iexact P320
  iintro ⟨HO, P320, -, ⟨%fz2, AO2, %hz2⟩⟩
  iclear HIw
  ihave AO2 := (Entails.of_eq (ag_oh_conv_b2 c fullShare fz2)) $$ AO2
  sl_exec
  -- the exchange's first departure of butterfly 0 has left: its send slot comes back
  ihave #HIw := (ag_inv_d m K 0 0 0 c) $$ Hrec
  iapply (Tables.wp_wait_dcell m 0 0 0 c (Or.inl (by decide)) Tables.credit_s00) $$ [Cs00 HO P000]
  · isplitr; · iexact HIw
    isplitl [Cs00]; · iexact Cs00
    isplitl [HO]; · iexact HO
    isplitr; · rw [hO, MayWait_zero]; iempintro
    iexact P000
  iintro ⟨HO, P000, -, Hsp0⟩
  iclear HIw
  sl_exec
  -- the exchange's first departure of butterfly 1 has left: its send slot comes back
  ihave #HIw := (ag_inv_d m K 0 1 0 c) $$ Hrec
  iapply (Tables.wp_wait_dcell m 0 1 0 c (Or.inl (by decide)) Tables.credit_s10) $$ [Cs10 HO P010]
  · isplitr; · iexact HIw
    isplitl [Cs10]; · iexact Cs10
    isplitl [HO]; · iexact HO
    isplitr; · rw [hO, MayWait_zero]; iempintro
    iexact P010
  iintro ⟨HO, P010, -, Hsp1⟩
  iclear HIw
  sl_exec
  iapply Hk $$ %_
  isplitl [HO]; · iexact HO
  isplitl [P320]; · iexact P320
  isplitl [P000]; · iexact P000
  isplitl [P010]; · iexact P010
  isplitl [AO2]
  · iexists fz2
    iapply (Entails.of_eq (ag_oh_conv_b2 c fullShare fz2).symm)
    iexact AO2
  isplitl [Hsp0]; · iexact Hsp0
  isplitl [Hsp1]; · iexact Hsp1
  iexists (ag_part22.sl.v633 c fz2)
  isplitl [Hout]; · iexact Hout
  ipureintro
  exact ag_load_fact (k0_off12 c) (k0_off12_inb c) (by rw [Mesh.off12]; rfl) fz2 (K0 2 (Mesh.px 1 c)) ((congrFun (Rows.ag0_recv_b2 c) 0).trans (Mem.hRow_eq_K0 2 (Mesh.px 1 c))) _ hz2

set_option maxRecDepth 8192 in
/-- The all-gather: from the state just before the first gather transfer to the state where every arrival has been
    waited for and the result is complete. The five printed parts in order; then the result buffer's contents are the
    totals row by row, and the gather buffer's pieces and lent shares are what it takes to have it back whole. -/
theorem body_ag (m : (ℓ : Loc nD τ sig) → Buf (Elt F) ℓ) (K : Dev nD × CIx → ℕ) (c : Dev nD) (W : Waits sig Unit)
    (v2 : BitVec 32) (v17 v19 v21 v257 v278 v299 : BitVec 1) (v328 v347 v366 v505 : BitVec 32)
    {α : Type} (kk : PUnit.{1} → Prog (TpuEff nD τ sig (Elt F) Λ₀ .tc) α) (Q : α → sProp 𝕄) :
    iprop(Cuts.PreAG m K c W ∗ (∀ W', Cuts.PreSendWaits m K c W' -∗ wp frame (wpE (defs₀ (F := F)) 𝒱₀ (c : Thread nD τ) none) Set.univ (kk ⟨⟩) Q))
      ⊢ wp frame (wpE (defs₀ (F := F)) 𝒱₀ (c : Thread nD τ) none) Set.univ
          (do let ⟨v514, v523, v538⟩ : Σ' (v514 : BitVec 32) (v523 : BitVec 32), BitVec 32 ← k0_part18 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v257 v505
              let ⟨v539, v547, v555, v556, v565⟩ : Σ' (v539 : BitVec 32) (v547 : BitVec 32) (v555 : BitVec 32) (v556 : BitVec 32), BitVec 32 ← k0_part19 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v278 v299 v328 v347 v366 v514 v523 v538
              let v574 : BitVec 32 ← k0_part20 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v539 v547 v555 v565
              let v624 : BitVec 32 ← k0_part21 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v17 v19 v539 v547 v556 v565 v574
              let u ← k0_part22 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v21 v555 v624
              kk u) Q := by
  unfold Cuts.PreAG
  iintro ⟨⟨#Hrec, #Hlev, Pbar, P100, P101, P102, P110, P111, P112, P120, P121, P122, P000, P001, P002, P010, P011, P012, P020, P021, P022, P200, P201, P202, P210, P211, P212, P220, P221, P222, P300, P301, P302, P310, P311, P312, P320, P321, P322, Ta00, Ta01, Ta10, Ta11, Ta20, Ta21, Tg00, Tg01, Tg10, Tg11, Tg20, Tg21, Ca00, Ca01, Ca10, Ca11, Ca20, Ca21, Cs00, Cs01, Cs02, Cs10, Cs11, Cs12, Cs20, Cs21, Cs22, HO, Hx, Hg, Hu, Hd, ⟨%fo, Hout⟩, Hsb, ⟨%fr, Hr⟩, ⟨%fq0, AQ0, %hq0⟩, ⟨%fq1, AQ1, %hq1⟩, ⟨%fq2, AQ2, %hq2⟩, ⟨%fp0, AP0⟩, ⟨%fp1, AP1⟩, ⟨%fp2, AP2⟩, ⟨%fh0, AH0⟩, ⟨%fh1, AH1⟩, ⟨%fh2, AH2⟩⟩, Hk⟩
  -- part 18
  iapply (ag_part18 m K c W v2 v257 v505 _ Q fq0 fq1 fq2 fp0 fp1 fp2 hq0 hq1 hq2)
  isplitr; · iexact Hrec
  isplitr; · iexact Hlev
  isplitl [HO]; · iexact HO
  isplitl [Tg01]; · iexact Tg01
  isplitl [Tg11]; · iexact Tg11
  isplitl [Tg21]; · iexact Tg21
  isplitl [Ta01]; · iexact Ta01
  isplitl [Ta11]; · iexact Ta11
  isplitl [Ta21]; · iexact Ta21
  isplitl [AQ0]; · iexact AQ0
  isplitl [AQ1]; · iexact AQ1
  isplitl [AQ2]; · iexact AQ2
  isplitl [AP0]; · iexact AP0
  isplitl [AP1]; · iexact AP1
  isplitl [AP2]; · iexact AP2
  isplitl [Ca01]; · iexact Ca01
  isplitl [P301]; · iexact P301
  iintro %r ⟨Cg01, Cg11, Cg21, AQ0r, AQ1r, AQ2r, HO, P301, Hpay0⟩
  obtain ⟨v514, v523, v538⟩ := r
  -- part 19
  iapply (ag_part19 m K c (insert (SemLoc.dma (dsem 3 0 1), ()) W) v2 v278 v299 v328 v347 v366 v514 v523 v538 _ Q fq0 fh0 hq0)
  isplitr; · iexact Hrec
  isplitr; · iexact Hlev
  isplitl [HO]; · iexact HO
  isplitl [Ca11]; · iexact Ca11
  isplitl [P311]; · iexact P311
  isplitl [Ca21]; · iexact Ca21
  isplitl [P321]; · iexact P321
  isplitl [AQ0r]; · iexact AQ0r
  isplitl [Hpay0]; · iexact Hpay0
  isplitl [Tg00]; · iexact Tg00
  isplitl [Ta00]; · iexact Ta00
  isplitl [AH0]; · iexact AH0
  iintro %r ⟨P311, P321, Hpay1, Hpay2, HO, Cg00, RH0, ⟨%fl0, AL0l⟩⟩
  obtain ⟨v539, v547, v555, v556, v565⟩ := r
  -- part 20
  iapply (ag_part20 m K c (insert (SemLoc.dma (dsem 3 2 1), ()) (insert (SemLoc.dma (dsem 3 1 1), ()) (insert (SemLoc.dma (dsem 3 0 1), ()) W))) v2 v539 v547 v555 v565 _ Q fq1 fq2 fh1 fh2 fo hq1 hq2)
  isplitr; · iexact Hrec
  isplitr; · iexact Hlev
  isplitl [HO]; · iexact HO
  isplitl [AQ1r]; · iexact AQ1r
  isplitl [Hpay1]; · iexact Hpay1
  isplitl [Tg10]; · iexact Tg10
  isplitl [Ta10]; · iexact Ta10
  isplitl [AH1]; · iexact AH1
  isplitl [AQ2r]; · iexact AQ2r
  isplitl [Hpay2]; · iexact Hpay2
  isplitl [Tg20]; · iexact Tg20
  isplitl [Ta20]; · iexact Ta20
  isplitl [AH2]; · iexact AH2
  isplitl [RH0]; · iexact RH0
  isplitl [Hout]; · iexact Hout
  iintro %v574 ⟨HO, Cg10, Cg20, ⟨%fl1, AL1l⟩, ⟨%fl2, AL2l⟩, ⟨%gr0, AHr0⟩, ⟨%gr1, AHr1⟩, ⟨%gr2, AHr2⟩, ⟨%V0, %V1, %V2, Hout, %hV⟩⟩
  -- part 21
  iapply (ag_part21 m K c (insert (SemLoc.dma (dsem 3 2 1), ()) (insert (SemLoc.dma (dsem 3 1 1), ()) (insert (SemLoc.dma (dsem 3 0 1), ()) W))) v17 v19 v539 v547 v556 v565 v574 _ Q ((oM : Memref sig .tc .vmem S1024x1024 .f32).view.writes (Elt F) fo [⟨Rect.unit (s := S1024x1024) (k0_off10 c) S128x1024.size (k0_off10_inb c), k0_pay36 V2⟩, ⟨Rect.unit (s := S1024x1024) (k0_off9 c 384#32 4#32 3#32) S192x1024.size (k0_off9_inb c 1), k0_pay35 V1⟩, ⟨Rect.unit (s := S1024x1024) (k0_off9 c 0#32 3#32 1#32) S192x1024.size (k0_off9_inb c 0), k0_pay34 V0⟩]) (Orem c 19) (Orem_done c))
  isplitr; · iexact Hrec
  isplitr; · iexact Hlev
  isplitl [HO]; · iexact HO
  isplitl [Ca00]; · iexact Ca00
  isplitl [P300]; · iexact P300
  isplitl [Ca10]; · iexact Ca10
  isplitl [P310]; · iexact P310
  isplitl [Hout]; · iexact Hout
  iintro %v624 ⟨HO, P300, P310, ⟨%fz0, AO0⟩, ⟨%fz1, AO1⟩, ⟨%Z0, %Z1, Hout, %hZ⟩⟩
  -- part 22
  iapply (ag_part22 m K c (insert (SemLoc.dma (dsem 3 1 0), ()) (insert (SemLoc.dma (dsem 3 0 0), ()) (insert (SemLoc.dma (dsem 3 2 1), ()) (insert (SemLoc.dma (dsem 3 1 1), ()) (insert (SemLoc.dma (dsem 3 0 1), ()) W))))) v21 v555 v624 _ Q ((oM : Memref sig .tc .vmem S1024x1024 .f32).view.writes (Elt F) ((oM : Memref sig .tc .vmem S1024x1024 .f32).view.writes (Elt F) fo [⟨Rect.unit (s := S1024x1024) (k0_off10 c) S128x1024.size (k0_off10_inb c), k0_pay36 V2⟩, ⟨Rect.unit (s := S1024x1024) (k0_off9 c 384#32 4#32 3#32) S192x1024.size (k0_off9_inb c 1), k0_pay35 V1⟩, ⟨Rect.unit (s := S1024x1024) (k0_off9 c 0#32 3#32 1#32) S192x1024.size (k0_off9_inb c 0), k0_pay34 V0⟩]) [⟨Rect.unit (s := S1024x1024) (k0_off11 c 384#32 4#32 3#32) S192x1024.size (k0_off11_inb c 1), k0_pay38 Z1⟩, ⟨Rect.unit (s := S1024x1024) (k0_off11 c 0#32 3#32 1#32) S192x1024.size (k0_off11_inb c 0), k0_pay37 Z0⟩]) (Orem c 19) (Orem_done c))
  isplitr; · iexact Hrec
  isplitr; · iexact Hlev
  isplitl [HO]; · iexact HO
  isplitl [Ca20]; · iexact Ca20
  isplitl [P320]; · iexact P320
  isplitl [Cs00]; · iexact Cs00
  isplitl [P000]; · iexact P000
  isplitl [Cs10]; · iexact Cs10
  isplitl [P010]; · iexact P010
  isplitl [Hout]; · iexact Hout
  iintro %u ⟨HO, P320, P000, P010, ⟨%fz2, AO2⟩, Hsp0, Hsp1, ⟨%Z2, Hout, %hZ2⟩⟩
  -- the result is complete, and the gather buffer can be had back
  have hout : (oM : Memref sig .tc .vmem S1024x1024 .f32).view.writes (Elt F) ((oM : Memref sig .tc .vmem S1024x1024 .f32).view.writes (Elt F) ((oM : Memref sig .tc .vmem S1024x1024 .f32).view.writes (Elt F) fo [⟨Rect.unit (s := S1024x1024) (k0_off10 c) S128x1024.size (k0_off10_inb c), k0_pay36 V2⟩, ⟨Rect.unit (s := S1024x1024) (k0_off9 c 384#32 4#32 3#32) S192x1024.size (k0_off9_inb c 1), k0_pay35 V1⟩, ⟨Rect.unit (s := S1024x1024) (k0_off9 c 0#32 3#32 1#32) S192x1024.size (k0_off9_inb c 0), k0_pay34 V0⟩]) [⟨Rect.unit (s := S1024x1024) (k0_off11 c 384#32 4#32 3#32) S192x1024.size (k0_off11_inb c 1), k0_pay38 Z1⟩, ⟨Rect.unit (s := S1024x1024) (k0_off11 c 0#32 3#32 1#32) S192x1024.size (k0_off11_inb c 0), k0_pay37 Z0⟩]) [⟨Rect.unit (s := S1024x1024) (k0_off12 c) S128x1024.size (k0_off12_inb c), k0_pay39 Z2⟩] = outFin m c := by
    rw [← View.writes_append, ← View.writes_append]
    simp only [List.cons_append, List.nil_append]
    exact out_final m c fo V0 V1 Z0 Z1 V2 Z2 hV.1 hV.2.1 hV.2.2 hZ.1 hZ.2 hZ2
  ihave Hsp0 := (Entails.of_eq (Tables.dpay_0 m 0 0 c)) $$ Hsp0
  ihave Hsp1 := (Entails.of_eq (Tables.dpay_0 m 1 0 c)) $$ Hsp1
  iapply Hk $$ %_
  unfold Cuts.PreSendWaits
  isplitr; · iexact Hrec
  isplitr; · iexact Hlev
  isplitl [Pbar]; · iexact Pbar
  isplitl [P100]; · iexact P100
  isplitl [P101]; · iexact P101
  isplitl [P102]; · iexact P102
  isplitl [P110]; · iexact P110
  isplitl [P111]; · iexact P111
  isplitl [P112]; · iexact P112
  isplitl [P120]; · iexact P120
  isplitl [P121]; · iexact P121
  isplitl [P122]; · iexact P122
  isplitl [P300]; · iexact P300
  isplitl [P301]; · iexact P301
  isplitl [P302]; · iexact P302
  isplitl [P310]; · iexact P310
  isplitl [P311]; · iexact P311
  isplitl [P312]; · iexact P312
  isplitl [P320]; · iexact P320
  isplitl [P321]; · iexact P321
  isplitl [P322]; · iexact P322
  isplitl [P000]; · iexact P000
  isplitl [P001]; · iexact P001
  isplitl [P002]; · iexact P002
  isplitl [P010]; · iexact P010
  isplitl [P011]; · iexact P011
  isplitl [P012]; · iexact P012
  isplitl [P020]; · iexact P020
  isplitl [P021]; · iexact P021
  isplitl [P022]; · iexact P022
  isplitl [P200]; · iexact P200
  isplitl [P201]; · iexact P201
  isplitl [P202]; · iexact P202
  isplitl [P210]; · iexact P210
  isplitl [P211]; · iexact P211
  isplitl [P212]; · iexact P212
  isplitl [P220]; · iexact P220
  isplitl [P221]; · iexact P221
  isplitl [P222]; · iexact P222
  isplitl [Cs01]; · iexact Cs01
  isplitl [Cs02]; · iexact Cs02
  isplitl [Cs11]; · iexact Cs11
  isplitl [Cs12]; · iexact Cs12
  isplitl [Cs20]; · iexact Cs20
  isplitl [Cs21]; · iexact Cs21
  isplitl [Cs22]; · iexact Cs22
  isplitl [Cg00]; · iexact Cg00
  isplitl [Cg01]; · iexact Cg01
  isplitl [Cg10]; · iexact Cg10
  isplitl [Cg11]; · iexact Cg11
  isplitl [Cg20]; · iexact Cg20
  isplitl [Cg21]; · iexact Cg21
  isplitl [HO]; · iexact HO
  isplitl [Hx]; · iexact Hx
  isplitl [Hg]; · iexact Hg
  isplitl [Hu]; · iexact Hu
  isplitl [Hd]; · iexact Hd
  isplitl [Hout]; · rw [← hout]; iexact Hout
  isplitl [Hsb]; · iexact Hsb
  isplitl [Hsp0]; · iexact Hsp0
  isplitl [Hsp1]; · iexact Hsp1
  isplitl [Hr]; · iexists fr; iexact Hr
  iapply (abuf_back c fl0 fl1 fl2 gr0 gr1 gr2 fz0 fz1 fz2)
  isplitl [AL0l]; · iexact AL0l
  isplitl [AL1l]; · iexact AL1l
  isplitl [AL2l]; · iexact AL2l
  isplitl [AHr0]; · iexact AHr0
  isplitl [AHr1]; · iexact AHr1
  isplitl [AHr2]; · iexact AHr2
  isplitl [AO0]; · iexact AO0
  isplitl [AO1]; · iexact AO1
  iexact AO2

end Cert.KernelIdeal.Body

end
-- ==== Proof.BodyTail.lean ====
/-
  The closing stretch of a device's run of the body: from the state after the last arrival (every receive cell at
  round 1, the result complete, the first two departures of the exchange waited for) to the body's end.

  Thirteen departures are still out: seven of the exchange and the six of the gather. Everything the device owed is
  paid, so no wait can be held up by a debt; each wait moves the device's own send cell to round 1 and hands back what
  the departure was lent: a slot of the send buffer, or a share of rows of the gather buffer. With all nine slots back
  the send buffer is whole again, and with all six shares back so is the gather buffer. Every one of the device's
  thirty-six DMA cells has then run its one round (or, for the gather's unused third stage, has none), so each closes:
  its counter is zero and the device's own again. What remains is what the body must end with: the three scratch
  buffers whole, the thirty-six counters at zero, nothing owed, and the five staged windows at the inputs and the result.

  The program is first put in the form "wait, then the rest" by definitional unfolding (`part23_nf` … `tail2_nf`), so
  that each wait's rule meets it as written; what a gather cell hands back is named in each rule's statement as the
  points-to it is (`wait_own_as`).
-/
import proofs.«900524_g7700000000000525_dist_gated_mlp_tp_i_m1024_h2048_d1024_v7x_i8_f32_1_alg».proof.Proof.Iface
import proofs.«900524_g7700000000000525_dist_gated_mlp_tp_i_m1024_h2048_d1024_v7x_i8_f32_1_alg».proof.Proof.Stor
import proofs.«900524_g7700000000000525_dist_gated_mlp_tp_i_m1024_h2048_d1024_v7x_i8_f32_1_alg».proof.Proof.Tables
import proofs.«900524_g7700000000000525_dist_gated_mlp_tp_i_m1024_h2048_d1024_v7x_i8_f32_1_alg».proof.Proof.Cuts
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen Cert.KernelIdeal.Sched Cert.KernelIdeal.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option Elab.async false

/-- The body's last lines on device `c`: the waits for the gather's departures at (1, 0) and (2, 0). -/
abbrev tail2Prog (c : Dev nD) : Prog (TpuEff nD τ sig (Elt F) Λ₀ .tc) PUnit := do
  let v710 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
  let v707 : DmaSems sig S1x1 := cc0_scratch5.slice (Rect.unit (s := S3x3) ![1, 0] S1x1.size inb_S3x3_S1x1_1_0)
  let v708 : DmaSems sig S_ := v707.squeeze S_ squeezes_S1x1_S_
  let v709 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
  Prog.lift (.waitDma2 v708.sem v710 v709 ((Memref.isWhole_whole cc0_scratch2).wordExact_slice rfl _ (k0_off7_wordsbf16 c 1)) ((Memref.isWhole_whole cc0_scratch2).wordExact_slice rfl _ (k0_off7_wordsbf16 c 1)))
  let v711 : DmaSems sig S1x1 := cc0_scratch5.slice (Rect.unit (s := S3x3) ![2, 0] S1x1.size inb_S3x3_S1x1_2_0)
  let v712 : DmaSems sig S_ := v711.squeeze S_ squeezes_S1x1_S_
  let v713 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
  let v714 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
  Prog.lift (.waitDma2 v712.sem v714 v713 ((Memref.isWhole_whole cc0_scratch2).wordExact_slice rfl _ (k0_off8_wordsbf16 c)) ((Memref.isWhole_whole cc0_scratch2).wordExact_slice rfl _ (k0_off8_wordsbf16 c)))
  pure ⟨⟩

/-- The closing stretch of the body on device `c`: the waits for the thirteen departures not yet waited for. -/
abbrev tailProg (c : Dev nD) : Prog (TpuEff nD τ sig (Elt F) Λ₀ .tc) PUnit := do
  k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
  k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
  k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c
  tail2Prog c

set_option maxRecDepth 65536 in
/-- The body at a point's staging buffers is its first twenty-two parts followed by `tailProg` at the device the first part read. -/
theorem cc0_body_tail :
    cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
      = (do
      let ⟨d0, v2, v17, v19, v21, v23, v24, c384_i32⟩ : Σ' (d0 : Dev nD) (v2 : BitVec 32) (v17 : BitVec 1) (v19 : BitVec 1) (v21 : BitVec 1) (v23 : BitVec 32) (v24 : BitVec 32), BitVec 32 ← k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
      let ⟨v25, v27, v29, v31, v33, v51⟩ : Σ' (v25 : BitVec 32) (v27 : BitVec 32) (v29 : BitVec 32) (v31 : BitVec 32) (v33 : BitVec 32), BitVec 32 ← k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v17 v19 v21 v23 v24 c384_i32
      let v86 : FVec F S192x1024 .f32 ← k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v25 v51
      let ⟨v89, v112, v115, v117, cst_95⟩ : Σ' (v89 : BitVec 32) (v112 : FVec F S128x1024 .f32) (v115 : FVec F S128x2048 .f32) (v117 : FVec F S1024x2048 .f32), FVec F S128x2048 .f32 ← k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v27 v86
      let ⟨v127, v149⟩ : Σ' (v127 : BitVec 32), Vec F S192x1024 .f32 ← k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v27 v29 v112 v115 v117 cst_95
      let v184 : FVec F S128x1024 .f32 ← k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v29 v31 v33 v149
      let ⟨v208, v211, v214⟩ : Σ' (v208 : BitVec 32) (v211 : FVec F S192x1024 .f32), FVec F S192x1024 .f32 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v17 v33 v51 v184
      let v227 : BitVec 32 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v19 v89 v127 v208 v211 v214
      let ⟨v246, v256, v257⟩ : Σ' (v246 : BitVec 32) (v256 : BitVec 32), BitVec 1 ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v21 v208
      let ⟨v277, v278, v298, v299⟩ : Σ' (v277 : BitVec 32) (v278 : BitVec 1) (v298 : BitVec 32), BitVec 1 ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v227 v246
      let v328 : BitVec 32 ← k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v208 v256 v257 v298
      let ⟨v347, c1_i32_309⟩ : Σ' (v347 : BitVec 32), BitVec 32 ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v227 v277 v278 v328
      let ⟨v366, v376⟩ : Σ' (v366 : BitVec 32), BitVec 32 ← k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v246 v298 v299 v328 c1_i32_309
      let ⟨v394, v412, v419⟩ : Σ' (v394 : BitVec 32) (v412 : BitVec 32), FVec F S1x64x1024 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v347 v366
      k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v328 v376 v412 v419
      k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v328 v347 v394
      let v505 : BitVec 32 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v366 v412
      let ⟨v514, v523, v538⟩ : Σ' (v514 : BitVec 32) (v523 : BitVec 32), BitVec 32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v257 v505
      let ⟨v539, v547, v555, v556, v565⟩ : Σ' (v539 : BitVec 32) (v547 : BitVec 32) (v555 : BitVec 32) (v556 : BitVec 32), BitVec 32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v278 v299 v328 v347 v366 v514 v523 v538
      let v574 : BitVec 32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v539 v547 v555 v565
      let v624 : BitVec 32 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v17 v19 v539 v547 v556 v565 v574
      k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v21 v555 v624
      tailProg d0) := rfl

set_option maxRecDepth 65536 in
theorem part23_nf (c : Dev nD) {α : Type} (kk : PUnit → Prog (TpuEff nD τ sig (Elt F) Λ₀ .tc) α) :
    (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 >>= kk)
      = (.op (.waitDma2 (((((cc0_scratch3).slice (Rect.unit (s := S3x3) ![2, 0] S1x1.size inb_S3x3_S1x1_2_0) : DmaSems sig S1x1)).squeeze S_ squeezes_S1x1_S_ : DmaSems sig S_)).sem ((((((Memref.whole cc0_scratch1 : Memref sig .tc .vmem S3x384x1024 .bf16)).slice (Rect.unit (s := S3x384x1024) ![2, 0, 0] S1x128x1024.size inb_S3x384x1024_S1x128x1024_2_0_0) (fun _ => rfl) : Memref sig .tc .vmem S1x128x1024 .bf16)).squeeze S128x1024 squeezes_S1x128x1024_S128x1024 : Memref sig .tc .vmem S128x1024 .bf16)) ((((((Memref.whole cc0_scratch0 : Memref sig .tc .vmem S3x384x1024 .bf16)).slice (Rect.unit (s := S3x384x1024) ![2, 0, 0] S1x128x1024.size inb_S3x384x1024_S1x128x1024_2_0_0) (fun _ => rfl) : Memref sig .tc .vmem S1x128x1024 .bf16)).squeeze S128x1024 squeezes_S1x128x1024_S128x1024 : Memref sig .tc .vmem S128x1024 .bf16)) (((Memref.isWhole_whole cc0_scratch1).wordExact_slice rfl _ wordsbf16_S3x384x1024_S1x128x1024_2_0_0).reshape _ _) (((Memref.isWhole_whole cc0_scratch0).wordExact_slice rfl _ wordsbf16_S3x384x1024_S1x128x1024_2_0_0).reshape _ _)) fun _ =>
        .op (.waitDma2 (((((cc0_scratch3).slice (Rect.unit (s := S3x3) ![0, 1] S1x1.size inb_S3x3_S1x1_0_1) : DmaSems sig S1x1)).squeeze S_ squeezes_S1x1_S_ : DmaSems sig S_)).sem ((((((Memref.whole cc0_scratch1 : Memref sig .tc .vmem S3x384x1024 .bf16)).slice (Rect.unit (s := S3x384x1024) ![0, 192, 0] S1x96x1024.size inb_S3x384x1024_S1x96x1024_0_192_0) (fun _ => rfl) : Memref sig .tc .vmem S1x96x1024 .bf16)).squeeze S96x1024 squeezes_S1x96x1024_S96x1024 : Memref sig .tc .vmem S96x1024 .bf16)) ((((((Memref.whole cc0_scratch0 : Memref sig .tc .vmem S3x384x1024 .bf16)).slice (Rect.unit (s := S3x384x1024) ![0, 192, 0] S1x96x1024.size inb_S3x384x1024_S1x96x1024_0_192_0) (fun _ => rfl) : Memref sig .tc .vmem S1x96x1024 .bf16)).squeeze S96x1024 squeezes_S1x96x1024_S96x1024 : Memref sig .tc .vmem S96x1024 .bf16)) (((Memref.isWhole_whole cc0_scratch1).wordExact_slice rfl _ wordsbf16_S3x384x1024_S1x96x1024_0_192_0).reshape _ _) (((Memref.isWhole_whole cc0_scratch0).wordExact_slice rfl _ wordsbf16_S3x384x1024_S1x96x1024_0_192_0).reshape _ _)) fun _ =>
        .op (.waitDma2 (((((cc0_scratch3).slice (Rect.unit (s := S3x3) ![1, 1] S1x1.size inb_S3x3_S1x1_1_1) : DmaSems sig S1x1)).squeeze S_ squeezes_S1x1_S_ : DmaSems sig S_)).sem ((((((Memref.whole cc0_scratch1 : Memref sig .tc .vmem S3x384x1024 .bf16)).slice (Rect.unit (s := S3x384x1024) ![1, 192, 0] S1x96x1024.size inb_S3x384x1024_S1x96x1024_1_192_0) (fun _ => rfl) : Memref sig .tc .vmem S1x96x1024 .bf16)).squeeze S96x1024 squeezes_S1x96x1024_S96x1024 : Memref sig .tc .vmem S96x1024 .bf16)) ((((((Memref.whole cc0_scratch0 : Memref sig .tc .vmem S3x384x1024 .bf16)).slice (Rect.unit (s := S3x384x1024) ![1, 192, 0] S1x96x1024.size inb_S3x384x1024_S1x96x1024_1_192_0) (fun _ => rfl) : Memref sig .tc .vmem S1x96x1024 .bf16)).squeeze S96x1024 squeezes_S1x96x1024_S96x1024 : Memref sig .tc .vmem S96x1024 .bf16)) (((Memref.isWhole_whole cc0_scratch1).wordExact_slice rfl _ wordsbf16_S3x384x1024_S1x96x1024_1_192_0).reshape _ _) (((Memref.isWhole_whole cc0_scratch0).wordExact_slice rfl _ wordsbf16_S3x384x1024_S1x96x1024_1_192_0).reshape _ _)) fun _ =>
        kk ⟨⟩ : Prog (TpuEff nD τ sig (Elt F) Λ₀ .tc) α) := rfl

set_option maxRecDepth 65536 in
theorem part24_nf (c : Dev nD) {α : Type} (kk : PUnit → Prog (TpuEff nD τ sig (Elt F) Λ₀ .tc) α) :
    (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 >>= kk)
      = (.op (.waitDma2 (((((cc0_scratch3).slice (Rect.unit (s := S3x3) ![2, 1] S1x1.size inb_S3x3_S1x1_2_1) : DmaSems sig S1x1)).squeeze S_ squeezes_S1x1_S_ : DmaSems sig S_)).sem ((((((Memref.whole cc0_scratch1 : Memref sig .tc .vmem S3x384x1024 .bf16)).slice (Rect.unit (s := S3x384x1024) ![2, 128, 0] S1x64x1024.size inb_S3x384x1024_S1x64x1024_2_128_0) (fun _ => rfl) : Memref sig .tc .vmem S1x64x1024 .bf16)).squeeze S64x1024 squeezes_S1x64x1024_S64x1024 : Memref sig .tc .vmem S64x1024 .bf16)) ((((((Memref.whole cc0_scratch0 : Memref sig .tc .vmem S3x384x1024 .bf16)).slice (Rect.unit (s := S3x384x1024) ![2, 128, 0] S1x64x1024.size inb_S3x384x1024_S1x64x1024_2_128_0) (fun _ => rfl) : Memref sig .tc .vmem S1x64x1024 .bf16)).squeeze S64x1024 squeezes_S1x64x1024_S64x1024 : Memref sig .tc .vmem S64x1024 .bf16)) (((Memref.isWhole_whole cc0_scratch1).wordExact_slice rfl _ wordsbf16_S3x384x1024_S1x64x1024_2_128_0).reshape _ _) (((Memref.isWhole_whole cc0_scratch0).wordExact_slice rfl _ wordsbf16_S3x384x1024_S1x64x1024_2_128_0).reshape _ _)) fun _ =>
        .op (.waitDma2 (((((cc0_scratch3).slice (Rect.unit (s := S3x3) ![0, 2] S1x1.size inb_S3x3_S1x1_0_2) : DmaSems sig S1x1)).squeeze S_ squeezes_S1x1_S_ : DmaSems sig S_)).sem ((((((Memref.whole cc0_scratch1 : Memref sig .tc .vmem S3x384x1024 .bf16)).slice (Rect.unit (s := S3x384x1024) ![0, 288, 0] S1x96x1024.size inb_S3x384x1024_S1x96x1024_0_288_0) (fun _ => rfl) : Memref sig .tc .vmem S1x96x1024 .bf16)).squeeze S96x1024 squeezes_S1x96x1024_S96x1024 : Memref sig .tc .vmem S96x1024 .bf16)) ((((((Memref.whole cc0_scratch0 : Memref sig .tc .vmem S3x384x1024 .bf16)).slice (Rect.unit (s := S3x384x1024) ![0, 288, 0] S1x96x1024.size inb_S3x384x1024_S1x96x1024_0_288_0) (fun _ => rfl) : Memref sig .tc .vmem S1x96x1024 .bf16)).squeeze S96x1024 squeezes_S1x96x1024_S96x1024 : Memref sig .tc .vmem S96x1024 .bf16)) (((Memref.isWhole_whole cc0_scratch1).wordExact_slice rfl _ wordsbf16_S3x384x1024_S1x96x1024_0_288_0).reshape _ _) (((Memref.isWhole_whole cc0_scratch0).wordExact_slice rfl _ wordsbf16_S3x384x1024_S1x96x1024_0_288_0).reshape _ _)) fun _ =>
        .op (.waitDma2 (((((cc0_scratch3).slice (Rect.unit (s := S3x3) ![1, 2] S1x1.size inb_S3x3_S1x1_1_2) : DmaSems sig S1x1)).squeeze S_ squeezes_S1x1_S_ : DmaSems sig S_)).sem ((((((Memref.whole cc0_scratch1 : Memref sig .tc .vmem S3x384x1024 .bf16)).slice (Rect.unit (s := S3x384x1024) ![1, 288, 0] S1x96x1024.size inb_S3x384x1024_S1x96x1024_1_288_0) (fun _ => rfl) : Memref sig .tc .vmem S1x96x1024 .bf16)).squeeze S96x1024 squeezes_S1x96x1024_S96x1024 : Memref sig .tc .vmem S96x1024 .bf16)) ((((((Memref.whole cc0_scratch0 : Memref sig .tc .vmem S3x384x1024 .bf16)).slice (Rect.unit (s := S3x384x1024) ![1, 288, 0] S1x96x1024.size inb_S3x384x1024_S1x96x1024_1_288_0) (fun _ => rfl) : Memref sig .tc .vmem S1x96x1024 .bf16)).squeeze S96x1024 squeezes_S1x96x1024_S96x1024 : Memref sig .tc .vmem S96x1024 .bf16)) (((Memref.isWhole_whole cc0_scratch1).wordExact_slice rfl _ wordsbf16_S3x384x1024_S1x96x1024_1_288_0).reshape _ _) (((Memref.isWhole_whole cc0_scratch0).wordExact_slice rfl _ wordsbf16_S3x384x1024_S1x96x1024_1_288_0).reshape _ _)) fun _ =>
        kk ⟨⟩ : Prog (TpuEff nD τ sig (Elt F) Λ₀ .tc) α) := rfl

set_option maxRecDepth 65536 in
theorem part25_nf (c : Dev nD) {α : Type} (kk : PUnit → Prog (TpuEff nD τ sig (Elt F) Λ₀ .tc) α) :
    (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c >>= kk)
      = (.op (.waitDma2 (((((cc0_scratch3).slice (Rect.unit (s := S3x3) ![2, 2] S1x1.size inb_S3x3_S1x1_2_2) : DmaSems sig S1x1)).squeeze S_ squeezes_S1x1_S_ : DmaSems sig S_)).sem ((((((Memref.whole cc0_scratch1 : Memref sig .tc .vmem S3x384x1024 .bf16)).slice (Rect.unit (s := S3x384x1024) ![2, 192, 0] S1x64x1024.size inb_S3x384x1024_S1x64x1024_2_192_0) (fun _ => rfl) : Memref sig .tc .vmem S1x64x1024 .bf16)).squeeze S64x1024 squeezes_S1x64x1024_S64x1024 : Memref sig .tc .vmem S64x1024 .bf16)) ((((((Memref.whole cc0_scratch0 : Memref sig .tc .vmem S3x384x1024 .bf16)).slice (Rect.unit (s := S3x384x1024) ![2, 192, 0] S1x64x1024.size inb_S3x384x1024_S1x64x1024_2_192_0) (fun _ => rfl) : Memref sig .tc .vmem S1x64x1024 .bf16)).squeeze S64x1024 squeezes_S1x64x1024_S64x1024 : Memref sig .tc .vmem S64x1024 .bf16)) (((Memref.isWhole_whole cc0_scratch1).wordExact_slice rfl _ wordsbf16_S3x384x1024_S1x64x1024_2_192_0).reshape _ _) (((Memref.isWhole_whole cc0_scratch0).wordExact_slice rfl _ wordsbf16_S3x384x1024_S1x64x1024_2_192_0).reshape _ _)) fun _ =>
        .op (.waitDma2 (((((cc0_scratch5).slice (Rect.unit (s := S3x3) ![0, 1] S1x1.size inb_S3x3_S1x1_0_1) : DmaSems sig S1x1)).squeeze S_ squeezes_S1x1_S_ : DmaSems sig S_)).sem ((((Memref.whole cc0_scratch2 : Memref sig .tc .vmem S1024x1024 .bf16)).slice (Rect.unit (s := S1024x1024) (k0_off5 (c) 0#32 3#32 1#32) S96x1024.size (k0_off5_inb (c) 0)) (fun _ => rfl) : Memref sig .tc .vmem S96x1024 .bf16)) ((((Memref.whole cc0_scratch2 : Memref sig .tc .vmem S1024x1024 .bf16)).slice (Rect.unit (s := S1024x1024) (k0_off5 (c) 0#32 3#32 1#32) S96x1024.size (k0_off5_inb (c) 0)) (fun _ => rfl) : Memref sig .tc .vmem S96x1024 .bf16)) ((Memref.isWhole_whole cc0_scratch2).wordExact_slice rfl _ (k0_off5_wordsbf16 (c) 0)) ((Memref.isWhole_whole cc0_scratch2).wordExact_slice rfl _ (k0_off5_wordsbf16 (c) 0))) fun _ =>
        .op (.waitDma2 (((((cc0_scratch5).slice (Rect.unit (s := S3x3) ![1, 1] S1x1.size inb_S3x3_S1x1_1_1) : DmaSems sig S1x1)).squeeze S_ squeezes_S1x1_S_ : DmaSems sig S_)).sem ((((Memref.whole cc0_scratch2 : Memref sig .tc .vmem S1024x1024 .bf16)).slice (Rect.unit (s := S1024x1024) (k0_off5 (c) 384#32 4#32 3#32) S96x1024.size (k0_off5_inb (c) 1)) (fun _ => rfl) : Memref sig .tc .vmem S96x1024 .bf16)) ((((Memref.whole cc0_scratch2 : Memref sig .tc .vmem S1024x1024 .bf16)).slice (Rect.unit (s := S1024x1024) (k0_off5 (c) 384#32 4#32 3#32) S96x1024.size (k0_off5_inb (c) 1)) (fun _ => rfl) : Memref sig .tc .vmem S96x1024 .bf16)) ((Memref.isWhole_whole cc0_scratch2).wordExact_slice rfl _ (k0_off5_wordsbf16 (c) 1)) ((Memref.isWhole_whole cc0_scratch2).wordExact_slice rfl _ (k0_off5_wordsbf16 (c) 1))) fun _ =>
        .op (.waitDma2 (((((cc0_scratch5).slice (Rect.unit (s := S3x3) ![2, 1] S1x1.size inb_S3x3_S1x1_2_1) : DmaSems sig S1x1)).squeeze S_ squeezes_S1x1_S_ : DmaSems sig S_)).sem ((((Memref.whole cc0_scratch2 : Memref sig .tc .vmem S1024x1024 .bf16)).slice (Rect.unit (s := S1024x1024) (k0_off6 (c)) S64x1024.size (k0_off6_inb (c))) (fun _ => rfl) : Memref sig .tc .vmem S64x1024 .bf16)) ((((Memref.whole cc0_scratch2 : Memref sig .tc .vmem S1024x1024 .bf16)).slice (Rect.unit (s := S1024x1024) (k0_off6 (c)) S64x1024.size (k0_off6_inb (c))) (fun _ => rfl) : Memref sig .tc .vmem S64x1024 .bf16)) ((Memref.isWhole_whole cc0_scratch2).wordExact_slice rfl _ (k0_off6_wordsbf16 (c))) ((Memref.isWhole_whole cc0_scratch2).wordExact_slice rfl _ (k0_off6_wordsbf16 (c)))) fun _ =>
        .op (.waitDma2 (((((cc0_scratch5).slice (Rect.unit (s := S3x3) ![0, 0] S1x1.size inb_S3x3_S1x1_0_0) : DmaSems sig S1x1)).squeeze S_ squeezes_S1x1_S_ : DmaSems sig S_)).sem ((((Memref.whole cc0_scratch2 : Memref sig .tc .vmem S1024x1024 .bf16)).slice (Rect.unit (s := S1024x1024) (k0_off7 (c) 0#32 3#32 1#32) S192x1024.size (k0_off7_inb (c) 0)) (fun _ => rfl) : Memref sig .tc .vmem S192x1024 .bf16)) ((((Memref.whole cc0_scratch2 : Memref sig .tc .vmem S1024x1024 .bf16)).slice (Rect.unit (s := S1024x1024) (k0_off7 (c) 0#32 3#32 1#32) S192x1024.size (k0_off7_inb (c) 0)) (fun _ => rfl) : Memref sig .tc .vmem S192x1024 .bf16)) ((Memref.isWhole_whole cc0_scratch2).wordExact_slice rfl _ (k0_off7_wordsbf16 (c) 0)) ((Memref.isWhole_whole cc0_scratch2).wordExact_slice rfl _ (k0_off7_wordsbf16 (c) 0))) fun _ =>
        kk ⟨⟩ : Prog (TpuEff nD τ sig (Elt F) Λ₀ .tc) α) := rfl

set_option maxRecDepth 65536 in
theorem tail2_nf (c : Dev nD) :
    tail2Prog (F := F) c
      = (.op (.waitDma2 (((((cc0_scratch5).slice (Rect.unit (s := S3x3) ![1, 0] S1x1.size inb_S3x3_S1x1_1_0) : DmaSems sig S1x1)).squeeze S_ squeezes_S1x1_S_ : DmaSems sig S_)).sem ((((Memref.whole cc0_scratch2 : Memref sig .tc .vmem S1024x1024 .bf16)).slice (Rect.unit (s := S1024x1024) (k0_off7 (c) 384#32 4#32 3#32) S192x1024.size (k0_off7_inb (c) 1)) (fun _ => rfl) : Memref sig .tc .vmem S192x1024 .bf16)) ((((Memref.whole cc0_scratch2 : Memref sig .tc .vmem S1024x1024 .bf16)).slice (Rect.unit (s := S1024x1024) (k0_off7 (c) 384#32 4#32 3#32) S192x1024.size (k0_off7_inb (c) 1)) (fun _ => rfl) : Memref sig .tc .vmem S192x1024 .bf16)) ((Memref.isWhole_whole cc0_scratch2).wordExact_slice rfl _ (k0_off7_wordsbf16 (c) 1)) ((Memref.isWhole_whole cc0_scratch2).wordExact_slice rfl _ (k0_off7_wordsbf16 (c) 1))) fun _ =>
        .op (.waitDma2 (((((cc0_scratch5).slice (Rect.unit (s := S3x3) ![2, 0] S1x1.size inb_S3x3_S1x1_2_0) : DmaSems sig S1x1)).squeeze S_ squeezes_S1x1_S_ : DmaSems sig S_)).sem ((((Memref.whole cc0_scratch2 : Memref sig .tc .vmem S1024x1024 .bf16)).slice (Rect.unit (s := S1024x1024) (k0_off8 (c)) S128x1024.size (k0_off8_inb (c))) (fun _ => rfl) : Memref sig .tc .vmem S128x1024 .bf16)) ((((Memref.whole cc0_scratch2 : Memref sig .tc .vmem S1024x1024 .bf16)).slice (Rect.unit (s := S1024x1024) (k0_off8 (c)) S128x1024.size (k0_off8_inb (c))) (fun _ => rfl) : Memref sig .tc .vmem S128x1024 .bf16)) ((Memref.isWhole_whole cc0_scratch2).wordExact_slice rfl _ (k0_off8_wordsbf16 (c))) ((Memref.isWhole_whole cc0_scratch2).wordExact_slice rfl _ (k0_off8_wordsbf16 (c)))) fun _ =>
        Prog.ret ⟨⟩ : Prog (TpuEff nD τ sig (Elt F) Λ₀ .tc) PUnit) := rfl

section Inv
variable (m : (ℓ : Loc nD τ sig) → Buf (Elt F) ℓ) (K : Dev nD × CIx → ℕ)
/-- A cell's invariant, out of the records. -/
theorem inv_own (A : Fin 4) (b k : Fin 3) (d : Dev nD) :
    records (F := F) m K ⊢ cellInv ER (Rd m) (K (d, some (A, b, k))) (dcell A b k d) := by
  have h : (bigSep Finset.univ fun ck : Dev nD × CIx => (cellInv ER (Rd m) (K ck) (kcell ck) : sProp 𝕄))
      ⊢ cellInv ER (Rd m) (K (d, some (A, b, k))) (kcell (d, some (A, b, k))) := bigSep_elim (Finset.mem_univ _)
  unfold records
  iintro ⟨HI, HR⟩
  iapply h
  iexact HI
instance records_pers : BI.Persistent (records (F := F) m K) := by unfold records; infer_instance
end Inv

omit [FloatOps F] in
/-- A product over the thirty-six places (array, butterfly, stage), written out. -/
theorem bigSep_433 (Φ : Fin 4 × Fin 3 × Fin 3 → sProp 𝕄) :
    bigSep Finset.univ Φ = bigSepL [((0 : Fin 4), (0 : Fin 3), (0 : Fin 3)), ((0 : Fin 4), (0 : Fin 3), (1 : Fin 3)), ((0 : Fin 4), (0 : Fin 3), (2 : Fin 3)), ((0 : Fin 4), (1 : Fin 3), (0 : Fin 3)), ((0 : Fin 4), (1 : Fin 3), (1 : Fin 3)), ((0 : Fin 4), (1 : Fin 3), (2 : Fin 3)), ((0 : Fin 4), (2 : Fin 3), (0 : Fin 3)), ((0 : Fin 4), (2 : Fin 3), (1 : Fin 3)), ((0 : Fin 4), (2 : Fin 3), (2 : Fin 3)), ((1 : Fin 4), (0 : Fin 3), (0 : Fin 3)), ((1 : Fin 4), (0 : Fin 3), (1 : Fin 3)), ((1 : Fin 4), (0 : Fin 3), (2 : Fin 3)), ((1 : Fin 4), (1 : Fin 3), (0 : Fin 3)), ((1 : Fin 4), (1 : Fin 3), (1 : Fin 3)), ((1 : Fin 4), (1 : Fin 3), (2 : Fin 3)), ((1 : Fin 4), (2 : Fin 3), (0 : Fin 3)), ((1 : Fin 4), (2 : Fin 3), (1 : Fin 3)), ((1 : Fin 4), (2 : Fin 3), (2 : Fin 3)), ((2 : Fin 4), (0 : Fin 3), (0 : Fin 3)), ((2 : Fin 4), (0 : Fin 3), (1 : Fin 3)), ((2 : Fin 4), (0 : Fin 3), (2 : Fin 3)), ((2 : Fin 4), (1 : Fin 3), (0 : Fin 3)), ((2 : Fin 4), (1 : Fin 3), (1 : Fin 3)), ((2 : Fin 4), (1 : Fin 3), (2 : Fin 3)), ((2 : Fin 4), (2 : Fin 3), (0 : Fin 3)), ((2 : Fin 4), (2 : Fin 3), (1 : Fin 3)), ((2 : Fin 4), (2 : Fin 3), (2 : Fin 3)), ((3 : Fin 4), (0 : Fin 3), (0 : Fin 3)), ((3 : Fin 4), (0 : Fin 3), (1 : Fin 3)), ((3 : Fin 4), (0 : Fin 3), (2 : Fin 3)), ((3 : Fin 4), (1 : Fin 3), (0 : Fin 3)), ((3 : Fin 4), (1 : Fin 3), (1 : Fin 3)), ((3 : Fin 4), (1 : Fin 3), (2 : Fin 3)), ((3 : Fin 4), (2 : Fin 3), (0 : Fin 3)), ((3 : Fin 4), (2 : Fin 3), (1 : Fin 3)), ((3 : Fin 4), (2 : Fin 3), (2 : Fin 3))] Φ :=
  bigSep_univ_eq_bigSepL _ (by decide) (by decide) Φ

omit [FloatOps F] in
/-- The thirty-six counters at zero, written out. -/
theorem semVals_eq (c : Dev nD) :
    (bigSep Finset.univ fun x : Fin 4 × Fin 3 × Fin 3 => (semVal (dcell x.1 x.2.1 x.2.2 c) 0 : sProp 𝕄))
      = iprop(semVal (dcell 0 0 0 c) 0 ∗ semVal (dcell 0 0 1 c) 0 ∗ semVal (dcell 0 0 2 c) 0 ∗ semVal (dcell 0 1 0 c) 0 ∗ semVal (dcell 0 1 1 c) 0 ∗ semVal (dcell 0 1 2 c) 0 ∗ semVal (dcell 0 2 0 c) 0 ∗ semVal (dcell 0 2 1 c) 0 ∗ semVal (dcell 0 2 2 c) 0 ∗ semVal (dcell 1 0 0 c) 0 ∗ semVal (dcell 1 0 1 c) 0 ∗ semVal (dcell 1 0 2 c) 0 ∗ semVal (dcell 1 1 0 c) 0 ∗ semVal (dcell 1 1 1 c) 0 ∗ semVal (dcell 1 1 2 c) 0 ∗ semVal (dcell 1 2 0 c) 0 ∗ semVal (dcell 1 2 1 c) 0 ∗ semVal (dcell 1 2 2 c) 0 ∗ semVal (dcell 2 0 0 c) 0 ∗ semVal (dcell 2 0 1 c) 0 ∗ semVal (dcell 2 0 2 c) 0 ∗ semVal (dcell 2 1 0 c) 0 ∗ semVal (dcell 2 1 1 c) 0 ∗ semVal (dcell 2 1 2 c) 0 ∗ semVal (dcell 2 2 0 c) 0 ∗ semVal (dcell 2 2 1 c) 0 ∗ semVal (dcell 2 2 2 c) 0 ∗ semVal (dcell 3 0 0 c) 0 ∗ semVal (dcell 3 0 1 c) 0 ∗ semVal (dcell 3 0 2 c) 0 ∗ semVal (dcell 3 1 0 c) 0 ∗ semVal (dcell 3 1 1 c) 0 ∗ semVal (dcell 3 1 2 c) 0 ∗ semVal (dcell 3 2 0 c) 0 ∗ semVal (dcell 3 2 1 c) 0 ∗ semVal (dcell 3 2 2 c) 0) := by
  rw [bigSep_433]
  simp only [bigSepL_cons_cons, bigSepL_singleton]
  rfl

/-! The semaphore at (b, k) of the exchange's and of the gather's send arrays is the cell's. -/
theorem sem_000 : semAt cc0_scratch3 0 0 inb_S3x3_S1x1_0_0 = dsem 0 0 0 := by decide
theorem sem_001 : semAt cc0_scratch3 0 1 inb_S3x3_S1x1_0_1 = dsem 0 0 1 := by decide
theorem sem_002 : semAt cc0_scratch3 0 2 inb_S3x3_S1x1_0_2 = dsem 0 0 2 := by decide
theorem sem_010 : semAt cc0_scratch3 1 0 inb_S3x3_S1x1_1_0 = dsem 0 1 0 := by decide
theorem sem_011 : semAt cc0_scratch3 1 1 inb_S3x3_S1x1_1_1 = dsem 0 1 1 := by decide
theorem sem_012 : semAt cc0_scratch3 1 2 inb_S3x3_S1x1_1_2 = dsem 0 1 2 := by decide
theorem sem_020 : semAt cc0_scratch3 2 0 inb_S3x3_S1x1_2_0 = dsem 0 2 0 := by decide
theorem sem_021 : semAt cc0_scratch3 2 1 inb_S3x3_S1x1_2_1 = dsem 0 2 1 := by decide
theorem sem_022 : semAt cc0_scratch3 2 2 inb_S3x3_S1x1_2_2 = dsem 0 2 2 := by decide
theorem sem_200 : semAt cc0_scratch5 0 0 inb_S3x3_S1x1_0_0 = dsem 2 0 0 := by decide
theorem sem_201 : semAt cc0_scratch5 0 1 inb_S3x3_S1x1_0_1 = dsem 2 0 1 := by decide
theorem sem_210 : semAt cc0_scratch5 1 0 inb_S3x3_S1x1_1_0 = dsem 2 1 0 := by decide
theorem sem_211 : semAt cc0_scratch5 1 1 inb_S3x3_S1x1_1_1 = dsem 2 1 1 := by decide
theorem sem_220 : semAt cc0_scratch5 2 0 inb_S3x3_S1x1_2_0 = dsem 2 2 0 := by decide
theorem sem_221 : semAt cc0_scratch5 2 1 inb_S3x3_S1x1_2_1 = dsem 2 2 1 := by decide

/-! What a departure of the gather returns, spelt out: the share of its rows lent to the copy. -/
theorem agS00 (m : (ℓ : Loc nD τ sig) → Buf (Elt F) ℓ) (c : Dev nD) : (dpay m 2 0 0 c : sProp 𝕄) = iprop(∃ f, (aRows00 c).view.loc (c : Thread nD τ) ↦[(aRows00 c).view.set]{fullShare.right.left} f) := rfl
theorem agP00 (c : Dev nD) : (agSendPay (F := F) 0 0 c : sProp 𝕄) = iprop(∃ f, (aRows00 c).view.loc (c : Thread nD τ) ↦[(aRows00 c).view.set]{fullShare.right.left} f) := rfl
theorem agS01 (m : (ℓ : Loc nD τ sig) → Buf (Elt F) ℓ) (c : Dev nD) : (dpay m 2 0 1 c : sProp 𝕄) = iprop(∃ f, (aRows01 c).view.loc (c : Thread nD τ) ↦[(aRows01 c).view.set]{fullShare.left} f) := rfl
theorem agP01 (c : Dev nD) : (agSendPay (F := F) 0 1 c : sProp 𝕄) = iprop(∃ f, (aRows01 c).view.loc (c : Thread nD τ) ↦[(aRows01 c).view.set]{fullShare.left} f) := rfl
theorem agS10 (m : (ℓ : Loc nD τ sig) → Buf (Elt F) ℓ) (c : Dev nD) : (dpay m 2 1 0 c : sProp 𝕄) = iprop(∃ f, (aRows10 c).view.loc (c : Thread nD τ) ↦[(aRows10 c).view.set]{fullShare.right.left} f) := rfl
theorem agP10 (c : Dev nD) : (agSendPay (F := F) 1 0 c : sProp 𝕄) = iprop(∃ f, (aRows10 c).view.loc (c : Thread nD τ) ↦[(aRows10 c).view.set]{fullShare.right.left} f) := rfl
theorem agS11 (m : (ℓ : Loc nD τ sig) → Buf (Elt F) ℓ) (c : Dev nD) : (dpay m 2 1 1 c : sProp 𝕄) = iprop(∃ f, (aRows11 c).view.loc (c : Thread nD τ) ↦[(aRows11 c).view.set]{fullShare.left} f) := rfl
theorem agP11 (c : Dev nD) : (agSendPay (F := F) 1 1 c : sProp 𝕄) = iprop(∃ f, (aRows11 c).view.loc (c : Thread nD τ) ↦[(aRows11 c).view.set]{fullShare.left} f) := rfl
theorem agS20 (m : (ℓ : Loc nD τ sig) → Buf (Elt F) ℓ) (c : Dev nD) : (dpay m 2 2 0 c : sProp 𝕄) = iprop(∃ f, (aRows20 c).view.loc (c : Thread nD τ) ↦[(aRows20 c).view.set]{fullShare.right.left} f) := rfl
theorem agP20 (c : Dev nD) : (agSendPay (F := F) 2 0 c : sProp 𝕄) = iprop(∃ f, (aRows20 c).view.loc (c : Thread nD τ) ↦[(aRows20 c).view.set]{fullShare.right.left} f) := rfl
theorem agS21 (m : (ℓ : Loc nD τ sig) → Buf (Elt F) ℓ) (c : Dev nD) : (dpay m 2 2 1 c : sProp 𝕄) = iprop(∃ f, (aRows21 c).view.loc (c : Thread nD τ) ↦[(aRows21 c).view.set]{fullShare.left} f) := rfl
theorem agP21 (c : Dev nD) : (agSendPay (F := F) 2 1 c : sProp 𝕄) = iprop(∃ f, (aRows21 c).view.loc (c : Thread nD τ) ↦[(aRows21 c).view.set]{fullShare.left} f) := rfl

section Steps
variable (m : (ℓ : Loc nD τ sig) → Buf (Elt F) ℓ) (K : Dev nD × CIx → ℕ)

/-- A wait on one of the device's own DMA cells in use, with nothing owed: nothing stands in its way; the cell moves to
    round 1 and hands back what its departure lent. The semaphore is the program's own spelling, equal to the cell's. -/
theorem wait_own (A : Fin 4) (b k : Fin 3) (c : Dev nD) (hu : used A k) {sS : DmaSem sig} (hS : sS = dsem A b k)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt A b k) {α : Type} {Q : α → sProp 𝕄}
    {kk : PUnit → Prog (TpuEff nD τ sig (Elt F) Λ₀ .tc) α} {O : CellTallies nD τ sig Unit} (hO : O = 0) {W : Waits sig Unit} :
    iprop(records m K ∗ cred (tallyAt (dcell A b k c) () (namt A b k)) ∗ owes (c : Thread nD τ) O W ∗ atPos ER (dcell A b k c) 0 ∅ 0)
      ⊢ iprop(((owes (c : Thread nD τ) O (insert (SemLoc.dma (dsem A b k), ()) W) ∗ atPos ER (dcell A b k c) 1 ∅ 0 ∗ dpay m A b k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src dst hsrc hdst) kk) Q) := by
  subst hS
  iintro ⟨#Hrec, C, HO, P⟩ Hk
  iapply (Tables.wp_wait_dcell m A b k c hu (κ := K (c, some (A, b, k))) (hN := hN)) $$ [C HO P]
  · isplitr; · iapply (inv_own m K A b k c); iexact Hrec
    isplitl [C]; · iexact C
    isplitl [HO]; · iexact HO
    isplitr; · rw [hO, MayWait_zero]; iempintro
    iexact P
  iintro ⟨HO, P, -, S⟩
  iapply Hk
  isplitl [HO]; · iexact HO
  isplitl [P]; · iexact P
  iexact S

/-- The same with what the cell hands back named by the caller. -/
theorem wait_own_as (A : Fin 4) (b k : Fin 3) (c : Dev nD) (hu : used A k) {sS : DmaSem sig} (hS : sS = dsem A b k)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt A b k) {α : Type} {Q : α → sProp 𝕄}
    {kk : PUnit → Prog (TpuEff nD τ sig (Elt F) Λ₀ .tc) α} {O : CellTallies nD τ sig Unit} (hO : O = 0) {W : Waits sig Unit}
    (P : sProp 𝕄) (hP : dpay m A b k c = P) :
    iprop(records m K ∗ cred (tallyAt (dcell A b k c) () (namt A b k)) ∗ owes (c : Thread nD τ) O W ∗ atPos ER (dcell A b k c) 0 ∅ 0)
      ⊢ iprop(((owes (c : Thread nD τ) O (insert (SemLoc.dma (dsem A b k), ()) W) ∗ atPos ER (dcell A b k c) 1 ∅ 0 ∗ P)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src dst hsrc hdst) kk) Q) := by
  subst hP
  exact wait_own m K A b k c hu hS hN hO

set_option maxRecDepth 8192 in
/-- The twenty-third part: the waits for the exchange's departures at (2, 0), (0, 1), (1, 1). -/
theorem part23_run (c : Dev nD) (W : Waits sig Unit) (O : CellTallies nD τ sig Unit) (hO : O = 0) {α : Type} (kk : PUnit → Prog (TpuEff nD τ sig (Elt F) Λ₀ .tc) α) (Q : α → sProp 𝕄) :
    iprop(records m K ∗ owes (c : Thread nD τ) O W
        ∗ cred (tallyAt (dcell 0 2 0 c) () (namt 0 2 0)) ∗ atPos ER (dcell 0 2 0 c) 0 ∅ 0
        ∗ cred (tallyAt (dcell 0 0 1 c) () (namt 0 0 1)) ∗ atPos ER (dcell 0 0 1 c) 0 ∅ 0
        ∗ cred (tallyAt (dcell 0 1 1 c) () (namt 0 1 1)) ∗ atPos ER (dcell 0 1 1 c) 0 ∅ 0)
      ⊢ iprop(((∃ W' : Waits sig Unit, owes (c : Thread nD τ) O W'
              ∗ atPos ER (dcell 0 2 0 c) 1 ∅ 0 ∗ rsSendPay 2 0 c
              ∗ atPos ER (dcell 0 0 1 c) 1 ∅ 0 ∗ rsSendPay 0 1 c
              ∗ atPos ER (dcell 0 1 1 c) 1 ∅ 0 ∗ rsSendPay 1 1 c)
            -∗ wp frame (wpE (defs₀ (F := F)) 𝒱₀ (c : Thread nD τ) none) Set.univ (kk ⟨⟩) Q)
          -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 >>= kk) Q) := by
  rw [part23_nf c]
  iintro ⟨#Hrec, HO, C0, P0, C1, P1, C2, P2⟩ Hk
  iapply (wait_own_as m K 0 2 0 c (Or.inl (by decide)) sem_020 (hN := Tables.credit_s20) hO _ (Tables.dpay_0 m 2 0 c)) $$ [C0 HO P0]
  · isplitr; · iexact Hrec
    isplitl [C0]; · iexact C0
    isplitl [HO]; · iexact HO
    iexact P0
  iintro ⟨HO, P0, S0⟩
  iapply (wait_own_as m K 0 0 1 c (Or.inl (by decide)) sem_001 (hN := Tables.credit_s01) hO _ (Tables.dpay_0 m 0 1 c)) $$ [C1 HO P1]
  · isplitr; · iexact Hrec
    isplitl [C1]; · iexact C1
    isplitl [HO]; · iexact HO
    iexact P1
  iintro ⟨HO, P1, S1⟩
  iapply (wait_own_as m K 0 1 1 c (Or.inl (by decide)) sem_011 (hN := Tables.credit_s11) hO _ (Tables.dpay_0 m 1 1 c)) $$ [C2 HO P2]
  · isplitr; · iexact Hrec
    isplitl [C2]; · iexact C2
    isplitl [HO]; · iexact HO
    iexact P2
  iintro ⟨HO, P2, S2⟩
  iapply Hk
  iexists _
  isplitl [HO]; · iexact HO
  isplitl [P0]; · iexact P0
  isplitl [S0]; · iexact S0
  isplitl [P1]; · iexact P1
  isplitl [S1]; · iexact S1
  isplitl [P2]; · iexact P2
  iexact S2

set_option maxRecDepth 8192 in
/-- The twenty-fourth part: the waits for the exchange's departures at (2, 1), (0, 2), (1, 2). -/
theorem part24_run (c : Dev nD) (W : Waits sig Unit) (O : CellTallies nD τ sig Unit) (hO : O = 0) {α : Type} (kk : PUnit → Prog (TpuEff nD τ sig (Elt F) Λ₀ .tc) α) (Q : α → sProp 𝕄) :
    iprop(records m K ∗ owes (c : Thread nD τ) O W
        ∗ cred (tallyAt (dcell 0 2 1 c) () (namt 0 2 1)) ∗ atPos ER (dcell 0 2 1 c) 0 ∅ 0
        ∗ cred (tallyAt (dcell 0 0 2 c) () (namt 0 0 2)) ∗ atPos ER (dcell 0 0 2 c) 0 ∅ 0
        ∗ cred (tallyAt (dcell 0 1 2 c) () (namt 0 1 2)) ∗ atPos ER (dcell 0 1 2 c) 0 ∅ 0)
      ⊢ iprop(((∃ W' : Waits sig Unit, owes (c : Thread nD τ) O W'
              ∗ atPos ER (dcell 0 2 1 c) 1 ∅ 0 ∗ rsSendPay 2 1 c
              ∗ atPos ER (dcell 0 0 2 c) 1 ∅ 0 ∗ rsSendPay 0 2 c
              ∗ atPos ER (dcell 0 1 2 c) 1 ∅ 0 ∗ rsSendPay 1 2 c)
            -∗ wp frame (wpE (defs₀ (F := F)) 𝒱₀ (c : Thread nD τ) none) Set.univ (kk ⟨⟩) Q)
          -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 >>= kk) Q) := by
  rw [part24_nf c]
  iintro ⟨#Hrec, HO, C0, P0, C1, P1, C2, P2⟩ Hk
  iapply (wait_own_as m K 0 2 1 c (Or.inl (by decide)) sem_021 (hN := Tables.credit_s21) hO _ (Tables.dpay_0 m 2 1 c)) $$ [C0 HO P0]
  · isplitr; · iexact Hrec
    isplitl [C0]; · iexact C0
    isplitl [HO]; · iexact HO
    iexact P0
  iintro ⟨HO, P0, S0⟩
  iapply (wait_own_as m K 0 0 2 c (Or.inl (by decide)) sem_002 (hN := Tables.credit_s02) hO _ (Tables.dpay_0 m 0 2 c)) $$ [C1 HO P1]
  · isplitr; · iexact Hrec
    isplitl [C1]; · iexact C1
    isplitl [HO]; · iexact HO
    iexact P1
  iintro ⟨HO, P1, S1⟩
  iapply (wait_own_as m K 0 1 2 c (Or.inl (by decide)) sem_012 (hN := Tables.credit_s12) hO _ (Tables.dpay_0 m 1 2 c)) $$ [C2 HO P2]
  · isplitr; · iexact Hrec
    isplitl [C2]; · iexact C2
    isplitl [HO]; · iexact HO
    iexact P2
  iintro ⟨HO, P2, S2⟩
  iapply Hk
  iexists _
  isplitl [HO]; · iexact HO
  isplitl [P0]; · iexact P0
  isplitl [S0]; · iexact S0
  isplitl [P1]; · iexact P1
  isplitl [S1]; · iexact S1
  isplitl [P2]; · iexact P2
  iexact S2

set_option maxRecDepth 8192 in
/-- The twenty-fifth part: the wait for the exchange's last departure, at (2, 2), and for the gather's departures at (0, 1), (1, 1), (2, 1), (0, 0). -/
theorem part25_run (c : Dev nD) (W : Waits sig Unit) (O : CellTallies nD τ sig Unit) (hO : O = 0) {α : Type} (kk : PUnit → Prog (TpuEff nD τ sig (Elt F) Λ₀ .tc) α) (Q : α → sProp 𝕄) :
    iprop(records m K ∗ owes (c : Thread nD τ) O W
        ∗ cred (tallyAt (dcell 0 2 2 c) () (namt 0 2 2)) ∗ atPos ER (dcell 0 2 2 c) 0 ∅ 0
        ∗ cred (tallyAt (dcell 2 0 1 c) () (namt 2 0 1)) ∗ atPos ER (dcell 2 0 1 c) 0 ∅ 0
        ∗ cred (tallyAt (dcell 2 1 1 c) () (namt 2 1 1)) ∗ atPos ER (dcell 2 1 1 c) 0 ∅ 0
        ∗ cred (tallyAt (dcell 2 2 1 c) () (namt 2 2 1)) ∗ atPos ER (dcell 2 2 1 c) 0 ∅ 0
        ∗ cred (tallyAt (dcell 2 0 0 c) () (namt 2 0 0)) ∗ atPos ER (dcell 2 0 0 c) 0 ∅ 0)
      ⊢ iprop(((∃ W' : Waits sig Unit, owes (c : Thread nD τ) O W'
              ∗ atPos ER (dcell 0 2 2 c) 1 ∅ 0 ∗ rsSendPay 2 2 c
              ∗ atPos ER (dcell 2 0 1 c) 1 ∅ 0 ∗ (∃ f, (aRows01 c).view.loc (c : Thread nD τ) ↦[(aRows01 c).view.set]{fullShare.left} f)
              ∗ atPos ER (dcell 2 1 1 c) 1 ∅ 0 ∗ (∃ f, (aRows11 c).view.loc (c : Thread nD τ) ↦[(aRows11 c).view.set]{fullShare.left} f)
              ∗ atPos ER (dcell 2 2 1 c) 1 ∅ 0 ∗ (∃ f, (aRows21 c).view.loc (c : Thread nD τ) ↦[(aRows21 c).view.set]{fullShare.left} f)
              ∗ atPos ER (dcell 2 0 0 c) 1 ∅ 0 ∗ (∃ f, (aRows00 c).view.loc (c : Thread nD τ) ↦[(aRows00 c).view.set]{fullShare.right.left} f))
            -∗ wp frame (wpE (defs₀ (F := F)) 𝒱₀ (c : Thread nD τ) none) Set.univ (kk ⟨⟩) Q)
          -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c >>= kk) Q) := by
  rw [part25_nf c]
  iintro ⟨#Hrec, HO, C0, P0, C1, P1, C2, P2, C3, P3, C4, P4⟩ Hk
  iapply (wait_own_as m K 0 2 2 c (Or.inl (by decide)) sem_022 (hN := Tables.credit_s22) hO _ (Tables.dpay_0 m 2 2 c)) $$ [C0 HO P0]
  · isplitr; · iexact Hrec
    isplitl [C0]; · iexact C0
    isplitl [HO]; · iexact HO
    iexact P0
  iintro ⟨HO, P0, S0⟩
  iapply (wait_own_as m K 2 0 1 c (Or.inr (by decide)) sem_201 (hN := ((Tables.credit_a01 c).trans (Tables.namt_2_eq_3 0 1).symm)) hO _ (agS01 m c)) $$ [C1 HO P1]
  · isplitr; · iexact Hrec
    isplitl [C1]; · iexact C1
    isplitl [HO]; · iexact HO
    iexact P1
  iintro ⟨HO, P1, S1⟩
  iapply (wait_own_as m K 2 1 1 c (Or.inr (by decide)) sem_211 (hN := ((Tables.credit_a11 c).trans (Tables.namt_2_eq_3 1 1).symm)) hO _ (agS11 m c)) $$ [C2 HO P2]
  · isplitr; · iexact Hrec
    isplitl [C2]; · iexact C2
    isplitl [HO]; · iexact HO
    iexact P2
  iintro ⟨HO, P2, S2⟩
  iapply (wait_own_as m K 2 2 1 c (Or.inr (by decide)) sem_221 (hN := ((Tables.credit_a21 c).trans (Tables.namt_2_eq_3 2 1).symm)) hO _ (agS21 m c)) $$ [C3 HO P3]
  · isplitr; · iexact Hrec
    isplitl [C3]; · iexact C3
    isplitl [HO]; · iexact HO
    iexact P3
  iintro ⟨HO, P3, S3⟩
  iapply (wait_own_as m K 2 0 0 c (Or.inr (by decide)) sem_200 (hN := ((Tables.credit_a00 c).trans (Tables.namt_2_eq_3 0 0).symm)) hO _ (agS00 m c)) $$ [C4 HO P4]
  · isplitr; · iexact Hrec
    isplitl [C4]; · iexact C4
    isplitl [HO]; · iexact HO
    iexact P4
  iintro ⟨HO, P4, S4⟩
  iapply Hk
  iexists _
  isplitl [HO]; · iexact HO
  isplitl [P0]; · iexact P0
  isplitl [S0]; · iexact S0
  isplitl [P1]; · iexact P1
  isplitl [S1]; · iexact S1
  isplitl [P2]; · iexact P2
  isplitl [S2]; · iexact S2
  isplitl [P3]; · iexact P3
  isplitl [S3]; · iexact S3
  isplitl [P4]; · iexact P4
  iexact S4

set_option maxRecDepth 8192 in
/-- The body's last lines: the waits for the gather's departures at (1, 0) and (2, 0). -/
theorem tail2_run (c : Dev nD) (W : Waits sig Unit) (O : CellTallies nD τ sig Unit) (hO : O = 0) (Q : PUnit → sProp 𝕄) :
    iprop(records m K ∗ owes (c : Thread nD τ) O W
        ∗ cred (tallyAt (dcell 2 1 0 c) () (namt 2 1 0)) ∗ atPos ER (dcell 2 1 0 c) 0 ∅ 0
        ∗ cred (tallyAt (dcell 2 2 0 c) () (namt 2 2 0)) ∗ atPos ER (dcell 2 2 0 c) 0 ∅ 0)
      ⊢ iprop(((∃ W' : Waits sig Unit, owes (c : Thread nD τ) O W'
              ∗ atPos ER (dcell 2 1 0 c) 1 ∅ 0 ∗ (∃ f, (aRows10 c).view.loc (c : Thread nD τ) ↦[(aRows10 c).view.set]{fullShare.right.left} f)
              ∗ atPos ER (dcell 2 2 0 c) 1 ∅ 0 ∗ (∃ f, (aRows20 c).view.loc (c : Thread nD τ) ↦[(aRows20 c).view.set]{fullShare.right.left} f))
            -∗ wp frame (wpE (defs₀ (F := F)) 𝒱₀ (c : Thread nD τ) none) Set.univ (.ret ⟨⟩) Q)
          -∗ wp frame (wpE (defs₀ (F := F)) 𝒱₀ (c : Thread nD τ) none) Set.univ (tail2Prog (F := F) c) Q) := by
  rw [tail2_nf c]
  iintro ⟨#Hrec, HO, C0, P0, C1, P1⟩ Hk
  iapply (wait_own_as m K 2 1 0 c (Or.inr (by decide)) sem_210 (hN := ((Tables.credit_a10 c).trans (Tables.namt_2_eq_3 1 0).symm)) hO _ (agS10 m c)) $$ [C0 HO P0]
  · isplitr; · iexact Hrec
    isplitl [C0]; · iexact C0
    isplitl [HO]; · iexact HO
    iexact P0
  iintro ⟨HO, P0, S0⟩
  iapply (wait_own_as m K 2 2 0 c (Or.inr (by decide)) sem_220 (hN := ((Tables.credit_a20 c).trans (Tables.namt_2_eq_3 2 0).symm)) hO _ (agS20 m c)) $$ [C1 HO P1]
  · isplitr; · iexact Hrec
    isplitl [C1]; · iexact C1
    isplitl [HO]; · iexact HO
    iexact P1
  iintro ⟨HO, P1, S1⟩
  iapply Hk
  iexists _
  isplitl [HO]; · iexact HO
  isplitl [P0]; · iexact P0
  isplitl [S0]; · iexact S0
  isplitl [P1]; · iexact P1
  iexact S1

/-- The nine cells of an array in use close after their rounds: their counters are zero and the device's own again. -/
theorem close_full (A : Fin 4) (c : Dev nD) :
    iprop(records m K ∗ atPos ER (dcell A 0 0 c) 1 ∅ 0 ∗ atPos ER (dcell A 0 1 c) 1 ∅ 0 ∗ atPos ER (dcell A 0 2 c) 1 ∅ 0 ∗ atPos ER (dcell A 1 0 c) 1 ∅ 0 ∗ atPos ER (dcell A 1 1 c) 1 ∅ 0 ∗ atPos ER (dcell A 1 2 c) 1 ∅ 0 ∗ atPos ER (dcell A 2 0 c) 1 ∅ 0 ∗ atPos ER (dcell A 2 1 c) 1 ∅ 0 ∗ atPos ER (dcell A 2 2 c) 1 ∅ 0)
      ⊢ iprop(|={Set.univ}=> (semVal (dcell A 0 0 c) 0 ∗ semVal (dcell A 0 1 c) 0 ∗ semVal (dcell A 0 2 c) 0 ∗ semVal (dcell A 1 0 c) 0 ∗ semVal (dcell A 1 1 c) 0 ∗ semVal (dcell A 1 2 c) 0 ∗ semVal (dcell A 2 0 c) 0 ∗ semVal (dcell A 2 1 c) 0 ∗ semVal (dcell A 2 2 c) 0)) := by
  iintro ⟨#Hrec, P00, P01, P02, P10, P11, P12, P20, P21, P22⟩
  imod (Tables.close_dcell m A 0 0 c (κ := K (c, some (A, 0, 0)))) $$ [P00] with Z00
  · isplitr; · iapply (inv_own m K A 0 0 c); iexact Hrec
    iexact P00
  imod (Tables.close_dcell m A 0 1 c (κ := K (c, some (A, 0, 1)))) $$ [P01] with Z01
  · isplitr; · iapply (inv_own m K A 0 1 c); iexact Hrec
    iexact P01
  imod (Tables.close_dcell m A 0 2 c (κ := K (c, some (A, 0, 2)))) $$ [P02] with Z02
  · isplitr; · iapply (inv_own m K A 0 2 c); iexact Hrec
    iexact P02
  imod (Tables.close_dcell m A 1 0 c (κ := K (c, some (A, 1, 0)))) $$ [P10] with Z10
  · isplitr; · iapply (inv_own m K A 1 0 c); iexact Hrec
    iexact P10
  imod (Tables.close_dcell m A 1 1 c (κ := K (c, some (A, 1, 1)))) $$ [P11] with Z11
  · isplitr; · iapply (inv_own m K A 1 1 c); iexact Hrec
    iexact P11
  imod (Tables.close_dcell m A 1 2 c (κ := K (c, some (A, 1, 2)))) $$ [P12] with Z12
  · isplitr; · iapply (inv_own m K A 1 2 c); iexact Hrec
    iexact P12
  imod (Tables.close_dcell m A 2 0 c (κ := K (c, some (A, 2, 0)))) $$ [P20] with Z20
  · isplitr; · iapply (inv_own m K A 2 0 c); iexact Hrec
    iexact P20
  imod (Tables.close_dcell m A 2 1 c (κ := K (c, some (A, 2, 1)))) $$ [P21] with Z21
  · isplitr; · iapply (inv_own m K A 2 1 c); iexact Hrec
    iexact P21
  imod (Tables.close_dcell m A 2 2 c (κ := K (c, some (A, 2, 2)))) $$ [P22] with Z22
  · isplitr; · iapply (inv_own m K A 2 2 c); iexact Hrec
    iexact P22
  imodintro
  isplitl [Z00]; · iexact Z00
  isplitl [Z01]; · iexact Z01
  isplitl [Z02]; · iexact Z02
  isplitl [Z10]; · iexact Z10
  isplitl [Z11]; · iexact Z11
  isplitl [Z12]; · iexact Z12
  isplitl [Z20]; · iexact Z20
  isplitl [Z21]; · iexact Z21
  iexact Z22

/-- The nine cells of an array whose last stage is not in use close: the six in use after their round, the three others at once. -/
theorem close_part (A : Fin 4) (hu : ¬ used A 2) (c : Dev nD) :
    iprop(records m K ∗ atPos ER (dcell A 0 0 c) 1 ∅ 0 ∗ atPos ER (dcell A 0 1 c) 1 ∅ 0 ∗ atPos ER (dcell A 0 2 c) 0 ∅ 0 ∗ atPos ER (dcell A 1 0 c) 1 ∅ 0 ∗ atPos ER (dcell A 1 1 c) 1 ∅ 0 ∗ atPos ER (dcell A 1 2 c) 0 ∅ 0 ∗ atPos ER (dcell A 2 0 c) 1 ∅ 0 ∗ atPos ER (dcell A 2 1 c) 1 ∅ 0 ∗ atPos ER (dcell A 2 2 c) 0 ∅ 0)
      ⊢ iprop(|={Set.univ}=> (semVal (dcell A 0 0 c) 0 ∗ semVal (dcell A 0 1 c) 0 ∗ semVal (dcell A 0 2 c) 0 ∗ semVal (dcell A 1 0 c) 0 ∗ semVal (dcell A 1 1 c) 0 ∗ semVal (dcell A 1 2 c) 0 ∗ semVal (dcell A 2 0 c) 0 ∗ semVal (dcell A 2 1 c) 0 ∗ semVal (dcell A 2 2 c) 0)) := by
  iintro ⟨#Hrec, P00, P01, P02, P10, P11, P12, P20, P21, P22⟩
  imod (Tables.close_dcell m A 0 0 c (κ := K (c, some (A, 0, 0)))) $$ [P00] with Z00
  · isplitr; · iapply (inv_own m K A 0 0 c); iexact Hrec
    iexact P00
  imod (Tables.close_dcell m A 0 1 c (κ := K (c, some (A, 0, 1)))) $$ [P01] with Z01
  · isplitr; · iapply (inv_own m K A 0 1 c); iexact Hrec
    iexact P01
  imod (Tables.close_unused m A 0 2 c hu (κ := K (c, some (A, 0, 2)))) $$ [P02] with Z02
  · isplitr; · iapply (inv_own m K A 0 2 c); iexact Hrec
    iexact P02
  imod (Tables.close_dcell m A 1 0 c (κ := K (c, some (A, 1, 0)))) $$ [P10] with Z10
  · isplitr; · iapply (inv_own m K A 1 0 c); iexact Hrec
    iexact P10
  imod (Tables.close_dcell m A 1 1 c (κ := K (c, some (A, 1, 1)))) $$ [P11] with Z11
  · isplitr; · iapply (inv_own m K A 1 1 c); iexact Hrec
    iexact P11
  imod (Tables.close_unused m A 1 2 c hu (κ := K (c, some (A, 1, 2)))) $$ [P12] with Z12
  · isplitr; · iapply (inv_own m K A 1 2 c); iexact Hrec
    iexact P12
  imod (Tables.close_dcell m A 2 0 c (κ := K (c, some (A, 2, 0)))) $$ [P20] with Z20
  · isplitr; · iapply (inv_own m K A 2 0 c); iexact Hrec
    iexact P20
  imod (Tables.close_dcell m A 2 1 c (κ := K (c, some (A, 2, 1)))) $$ [P21] with Z21
  · isplitr; · iapply (inv_own m K A 2 1 c); iexact Hrec
    iexact P21
  imod (Tables.close_unused m A 2 2 c hu (κ := K (c, some (A, 2, 2)))) $$ [P22] with Z22
  · isplitr; · iapply (inv_own m K A 2 2 c); iexact Hrec
    iexact P22
  imodintro
  isplitl [Z00]; · iexact Z00
  isplitl [Z01]; · iexact Z01
  isplitl [Z02]; · iexact Z02
  isplitl [Z10]; · iexact Z10
  isplitl [Z11]; · iexact Z11
  isplitl [Z12]; · iexact Z12
  isplitl [Z20]; · iexact Z20
  isplitl [Z21]; · iexact Z21
  iexact Z22

/-- What the body ends with on device `c`: the scratch buffers whole, its thirty-six DMA semaphores at zero and closed,
    nothing owed, and the five staged windows at the inputs and at the result. -/
def TailPost (c : Dev nD) : sProp 𝕄 :=
  iprop(Φ₁ (F := F) c
    ∗ (∃ W' : Waits sig Unit, owes (c : Thread nD τ) 0 W')
    ∗ (((c : Thread nD τ).loc cc0_stg0_0) ↦{fullShare} xIn m c)
    ∗ (((c : Thread nD τ).loc cc0_stg1_0) ↦{fullShare} gIn m c)
    ∗ (((c : Thread nD τ).loc cc0_stg2_0) ↦{fullShare} uIn m c)
    ∗ (((c : Thread nD τ).loc cc0_stg3_0) ↦{fullShare} dIn m c)
    ∗ (((c : Thread nD τ).loc cc0_stg4_0) ↦{fullShare} outFin m c))

set_option maxRecDepth 8192 in
/-- From the state after the last arrival to the end of the body: the thirteen departures still out are waited for, each
    handing back the slot or the share it was lent; the send buffer and the gather buffer are whole again; every one of the
    device's thirty-six DMA cells closes with its counter at zero. -/
theorem tail (c : Dev nD) (W : Waits sig Unit) (Kt : PUnit → sProp 𝕄) :
    iprop(Cuts.PreSendWaits m K c W ∗ (TailPost m c -∗ Kt ⟨⟩))
      ⊢ wp frame (wpE (defs₀ (F := F)) 𝒱₀ (c : Thread nD τ) none) Set.univ (tailProg (F := F) c) Kt := by
  unfold Cuts.PreSendWaits Cuts.sbufBack Cuts.abufBack
  rw [agP00, agP01, agP10, agP11, agP20, agP21]
  iintro ⟨⟨#Hrec, #Hlev, Pbar, P100, P101, P102, P110, P111, P112, P120, P121, P122, P300, P301, P302, P310, P311, P312, P320, P321, P322,
    P000, P001, P002, P010, P011, P012, P020, P021, P022, P200, P201, P202, P210, P211, P212, P220, P221, P222,
    C001, C002, C011, C012, C020, C021, C022, C200, C201, C210, C211, C220, C221, HO, Hx, Hg, Hu, Hd, Hout, Hsb, S00, S10, Hr, Hab⟩, Hk⟩
  iapply (part23_run m K c W (Orem c 19) (Iface.Orem_done c) _ Kt) $$ [HO C020 P020 C001 P001 C011 P011]
  · isplitr; · iexact Hrec
    isplitl [HO]; · iexact HO
    isplitl [C020]; · iexact C020
    isplitl [P020]; · iexact P020
    isplitl [C001]; · iexact C001
    isplitl [P001]; · iexact P001
    isplitl [C011]; · iexact C011
    iexact P011
  iintro ⟨%W1, HO, P020, S20, P001, S01, P011, S11⟩
  iapply (part24_run m K c W1 (Orem c 19) (Iface.Orem_done c) _ Kt) $$ [HO C021 P021 C002 P002 C012 P012]
  · isplitr; · iexact Hrec
    isplitl [HO]; · iexact HO
    isplitl [C021]; · iexact C021
    isplitl [P021]; · iexact P021
    isplitl [C002]; · iexact C002
    isplitl [P002]; · iexact P002
    isplitl [C012]; · iexact C012
    iexact P012
  iintro ⟨%W2, HO, P021, S21, P002, S02, P012, S12⟩
  iapply (part25_run m K c W2 (Orem c 19) (Iface.Orem_done c) _ Kt) $$ [HO C022 P022 C201 P201 C211 P211 C221 P221 C200 P200]
  · isplitr; · iexact Hrec
    isplitl [HO]; · iexact HO
    isplitl [C022]; · iexact C022
    isplitl [P022]; · iexact P022
    isplitl [C201]; · iexact C201
    isplitl [P201]; · iexact P201
    isplitl [C211]; · iexact C211
    isplitl [P211]; · iexact P211
    isplitl [C221]; · iexact C221
    isplitl [P221]; · iexact P221
    isplitl [C200]; · iexact C200
    iexact P200
  iintro ⟨%W3, HO, P022, S22, P201, G01, P211, G11, P221, G21, P200, G00⟩
  iapply (tail2_run m K c W3 (Orem c 19) (Iface.Orem_done c) Kt) $$ [HO C210 P210 C220 P220]
  · isplitr; · iexact Hrec
    isplitl [HO]; · iexact HO
    isplitl [C210]; · iexact C210
    isplitl [P210]; · iexact P210
    isplitl [C220]; · iexact C220
    iexact P220
  iintro ⟨%W4, HO, P210, G10, P220, G20⟩
  imod (close_full m K 0 c) $$ [P000 P001 P002 P010 P011 P012 P020 P021 P022] with ⟨Z000, Z001, Z002, Z010, Z011, Z012, Z020, Z021, Z022⟩
  · isplitr; · iexact Hrec
    isplitl [P000]; · iexact P000
    isplitl [P001]; · iexact P001
    isplitl [P002]; · iexact P002
    isplitl [P010]; · iexact P010
    isplitl [P011]; · iexact P011
    isplitl [P012]; · iexact P012
    isplitl [P020]; · iexact P020
    isplitl [P021]; · iexact P021
    iexact P022
  imod (close_full m K 1 c) $$ [P100 P101 P102 P110 P111 P112 P120 P121 P122] with ⟨Z100, Z101, Z102, Z110, Z111, Z112, Z120, Z121, Z122⟩
  · isplitr; · iexact Hrec
    isplitl [P100]; · iexact P100
    isplitl [P101]; · iexact P101
    isplitl [P102]; · iexact P102
    isplitl [P110]; · iexact P110
    isplitl [P111]; · iexact P111
    isplitl [P112]; · iexact P112
    isplitl [P120]; · iexact P120
    isplitl [P121]; · iexact P121
    iexact P122
  imod (close_part m K 2 (by decide) c) $$ [P200 P201 P202 P210 P211 P212 P220 P221 P222] with ⟨Z200, Z201, Z202, Z210, Z211, Z212, Z220, Z221, Z222⟩
  · isplitr; · iexact Hrec
    isplitl [P200]; · iexact P200
    isplitl [P201]; · iexact P201
    isplitl [P202]; · iexact P202
    isplitl [P210]; · iexact P210
    isplitl [P211]; · iexact P211
    isplitl [P212]; · iexact P212
    isplitl [P220]; · iexact P220
    isplitl [P221]; · iexact P221
    iexact P222
  imod (close_part m K 3 (by decide) c) $$ [P300 P301 P302 P310 P311 P312 P320 P321 P322] with ⟨Z300, Z301, Z302, Z310, Z311, Z312, Z320, Z321, Z322⟩
  · isplitr; · iexact Hrec
    isplitl [P300]; · iexact P300
    isplitl [P301]; · iexact P301
    isplitl [P302]; · iexact P302
    isplitl [P310]; · iexact P310
    isplitl [P311]; · iexact P311
    isplitl [P312]; · iexact P312
    isplitl [P320]; · iexact P320
    isplitl [P321]; · iexact P321
    iexact P322
  iapply (le_wp_ret _ _)
  iapply Hk
  unfold TailPost Φ₁ scr
  rw [semVals_eq]
  isplitl [Hsb S00 S01 S02 S10 S11 S12 S20 S21 S22 Hr Hab G00 G01 G10 G11 G20 G21 Z000 Z001 Z002 Z010 Z011 Z012 Z020 Z021 Z022 Z100 Z101 Z102 Z110 Z111 Z112 Z120 Z121 Z122 Z200 Z201 Z202 Z210 Z211 Z212 Z220 Z221 Z222 Z300 Z301 Z302 Z310 Z311 Z312 Z320 Z321 Z322]
  · isplitl [Hsb S00 S01 S02 S10 S11 S12 S20 S21 S22 Hr Hab G00 G01 G10 G11 G20 G21]
    · isplitl [Hsb S00 S01 S02 S10 S11 S12 S20 S21 S22]
      · iapply Hsb
        isplitl [S00]; · iexact S00
        isplitl [S01]; · iexact S01
        isplitl [S02]; · iexact S02
        isplitl [S10]; · iexact S10
        isplitl [S11]; · iexact S11
        isplitl [S12]; · iexact S12
        isplitl [S20]; · iexact S20
        isplitl [S21]; · iexact S21
        iexact S22
      isplitl [Hr]; · iexact Hr
      iapply Hab
      isplitl [G00]; · iexact G00
      isplitl [G01]; · iexact G01
      isplitl [G10]; · iexact G10
      isplitl [G11]; · iexact G11
      isplitl [G20]; · iexact G20
      iexact G21
    isplitl [Z000]; · iexact Z000
    isplitl [Z001]; · iexact Z001
    isplitl [Z002]; · iexact Z002
    isplitl [Z010]; · iexact Z010
    isplitl [Z011]; · iexact Z011
    isplitl [Z012]; · iexact Z012
    isplitl [Z020]; · iexact Z020
    isplitl [Z021]; · iexact Z021
    isplitl [Z022]; · iexact Z022
    isplitl [Z100]; · iexact Z100
    isplitl [Z101]; · iexact Z101
    isplitl [Z102]; · iexact Z102
    isplitl [Z110]; · iexact Z110
    isplitl [Z111]; · iexact Z111
    isplitl [Z112]; · iexact Z112
    isplitl [Z120]; · iexact Z120
    isplitl [Z121]; · iexact Z121
    isplitl [Z122]; · iexact Z122
    isplitl [Z200]; · iexact Z200
    isplitl [Z201]; · iexact Z201
    isplitl [Z202]; · iexact Z202
    isplitl [Z210]; · iexact Z210
    isplitl [Z211]; · iexact Z211
    isplitl [Z212]; · iexact Z212
    isplitl [Z220]; · iexact Z220
    isplitl [Z221]; · iexact Z221
    isplitl [Z222]; · iexact Z222
    isplitl [Z300]; · iexact Z300
    isplitl [Z301]; · iexact Z301
    isplitl [Z302]; · iexact Z302
    isplitl [Z310]; · iexact Z310
    isplitl [Z311]; · iexact Z311
    isplitl [Z312]; · iexact Z312
    isplitl [Z320]; · iexact Z320
    isplitl [Z321]; · iexact Z321
    iexact Z322
  isplitl [HO]
  · iexists W4
    rw [← Iface.Orem_done c]
    iexact HO
  isplitl [Hx]; · iexact Hx
  isplitl [Hg]; · iexact Hg
  isplitl [Hu]; · iexact Hu
  isplitl [Hd]; · iexact Hd
  iexact Hout

end Steps

end Cert.KernelIdeal.Body

/-- info: 'Cert.KernelIdeal.Body.tail' depends on axioms: [propext, Classical.choice, Quot.sound] -/
#guard_msgs in #print axioms Cert.KernelIdeal.Body.tail

end
-- ==== Proof.BodyCompose.lean ====
import proofs.«900524_g7700000000000525_dist_gated_mlp_tp_i_m1024_h2048_d1024_v7x_i8_f32_1_alg».proof.Proof.Cuts
import proofs.«900524_g7700000000000525_dist_gated_mlp_tp_i_m1024_h2048_d1024_v7x_i8_f32_1_alg».proof.Proof.BodyPost
import proofs.«900524_g7700000000000525_dist_gated_mlp_tp_i_m1024_h2048_d1024_v7x_i8_f32_1_alg».proof.Proof.BodyR0
import proofs.«900524_g7700000000000525_dist_gated_mlp_tp_i_m1024_h2048_d1024_v7x_i8_f32_1_alg».proof.Proof.BodyS1
import proofs.«900524_g7700000000000525_dist_gated_mlp_tp_i_m1024_h2048_d1024_v7x_i8_f32_1_alg».proof.Proof.BodyS2
import proofs.«900524_g7700000000000525_dist_gated_mlp_tp_i_m1024_h2048_d1024_v7x_i8_f32_1_alg».proof.Proof.BodyAG
import proofs.«900524_g7700000000000525_dist_gated_mlp_tp_i_m1024_h2048_d1024_v7x_i8_f32_1_alg».proof.Proof.BodyTail
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen Cert.KernelIdeal.Sched Cert.KernelIdeal.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

/-! # The body from the cut after the stage-0 copies to its end

The phases are proved each from its cut to the next, over a continuation program; here they are put end to end along
the body's root sequence, and what the last phase leaves is restated as what the body owes the pipeline. -/

section Compose
variable (m : (ℓ : Loc nD τ sig) → Buf (Elt F) ℓ) (ρ : Dev nD → PrngReg) (K : Dev nD × CIx → ℕ)

/-- What the last phase leaves is what the body owes the pipeline: the scratch buffers and closed semaphores, nothing
    owed any more, the four inputs as they were and the result. -/
theorem tailPost_bodyPost (c : Dev nD) : TailPost m c ⊢ bodyPost m ρ c := by
  unfold TailPost bodyPost Dat.owesAt Pipeline.owesWithin
  rw [show (dats m ρ 0 c).owed t0_0.succ = 0 from rfl]
  iintro ⟨HΦ, ⟨%W, HO⟩, Hx, Hg, Hu, Hd, Ho⟩
  isplitl [HΦ]; · iexact HΦ
  isplitl [HO]
  · iexists W
    isplitr
    · ipureintro; exact fun _ _ => Or.inl trivial
    · iexact HO
  isplitl [Hx]
  · iexists _; isplitr; · (ipureintro; rfl)
    iexact Hx
  isplitl [Hg]
  · iexists _; isplitr; · (ipureintro; rfl)
    iexact Hg
  isplitl [Hu]
  · iexists _; isplitr; · (ipureintro; rfl)
    iexact Hu
  isplitl [Hd]
  · iexists _; isplitr; · (ipureintro; rfl)
    iexact Hd
  iexists _; isplitr; · (ipureintro; rfl)
  iexact Ho

set_option maxRecDepth 8192 in
set_option maxHeartbeats 4000000 in
/-- From the cut after the stage-0 copies to the end of the body: the phases in order, each from its cut to the next. -/
theorem from_R0 (c : Dev nD) (W : Waits sig Unit) (v2 v33 v51 v89 v127 : BitVec 32) (v17 v19 v21 : BitVec 1) (v184 : FVec F S128x1024 .f32)
    (hv : v184 = k0_pay12 (xRows128 m c (k0_off2 c 128#32 0#32) (k0_off2_inb c 1))) (Kt : PUnit → sProp 𝕄) :
    iprop(Cuts.PreR0 m K c W ∗ (bodyPost m ρ c -∗ Kt ⟨⟩))
      ⊢ WP[c] (do
          let ⟨v208, v211, v214⟩ : Σ' (v208 : BitVec 32) (v211 : FVec F S192x1024 .f32), FVec F S192x1024 .f32 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v33 v51 v184
          let v227 : BitVec 32 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v19 v89 v127 v208 v211 v214
          let ⟨v246, v256, v257⟩ : Σ' (v246 : BitVec 32) (v256 : BitVec 32), BitVec 1 ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v21 v208
          let ⟨v277, v278, v298, v299⟩ : Σ' (v277 : BitVec 32) (v278 : BitVec 1) (v298 : BitVec 32), BitVec 1 ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v227 v246
          let v328 : BitVec 32 ← k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v208 v256 v257 v298
          let ⟨v347, c1_i32_309⟩ : Σ' (v347 : BitVec 32), BitVec 32 ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v227 v277 v278 v328
          let ⟨v366, v376⟩ : Σ' (v366 : BitVec 32), BitVec 32 ← k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v246 v298 v299 v328 c1_i32_309
          let ⟨v394, v412, v419⟩ : Σ' (v394 : BitVec 32) (v412 : BitVec 32), FVec F S1x64x1024 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v347 v366
          k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v376 v412 v419
          k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v347 v394
          let v505 : BitVec 32 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v366 v412
          let ⟨v514, v523, v538⟩ : Σ' (v514 : BitVec 32) (v523 : BitVec 32), BitVec 32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v257 v505
          let ⟨v539, v547, v555, v556, v565⟩ : Σ' (v539 : BitVec 32) (v547 : BitVec 32) (v555 : BitVec 32) (v556 : BitVec 32), BitVec 32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v278 v299 v328 v347 v366 v514 v523 v538
          let v574 : BitVec 32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v539 v547 v555 v565
          let v624 : BitVec 32 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v19 v539 v547 v556 v565 v574
          k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v21 v555 v624
          k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
          k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
          k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c
          let c0_i32_685 : BitVec 32 := 0#32
          let v710 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
          let v707 : DmaSems sig S1x1 := cc0_scratch5.slice (Rect.unit (s := S3x3) ![1, 0] S1x1.size inb_S3x3_S1x1_1_0)
          let v708 : DmaSems sig S_ := v707.squeeze S_ squeezes_S1x1_S_
          let v709 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
          Prog.lift (.waitDma2 v708.sem v710 v709 ((Memref.isWhole_whole (cc0_scratch2 : Ref sig .tc)).wordExact_slice rfl _ (k0_off7_wordsbf16 c 1)) ((Memref.isWhole_whole (cc0_scratch2 : Ref sig .tc)).wordExact_slice rfl _ (k0_off7_wordsbf16 c 1)))
          let c2_i32_686 : BitVec 32 := 2#32
          let c0_i32_687 : BitVec 32 := 0#32
          let c2_i32_688 : BitVec 32 := 2#32
          let c0_i32_689 : BitVec 32 := 0#32
          let c0_i32_690 : BitVec 32 := 0#32
          let v711 : DmaSems sig S1x1 := cc0_scratch5.slice (Rect.unit (s := S3x3) ![2, 0] S1x1.size inb_S3x3_S1x1_2_0)
          let v712 : DmaSems sig S_ := v711.squeeze S_ squeezes_S1x1_S_
          let c0_i32_691 : BitVec 32 := 0#32
          let v713 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
          let c0_i32_692 : BitVec 32 := 0#32
          let v714 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
          Prog.lift (.waitDma2 v712.sem v714 v713 ((Memref.isWhole_whole (cc0_scratch2 : Ref sig .tc)).wordExact_slice rfl _ (k0_off8_wordsbf16 c)) ((Memref.isWhole_whole (cc0_scratch2 : Ref sig .tc)).wordExact_slice rfl _ (k0_off8_wordsbf16 c)))
          pure ⟨⟩) Kt := by
  iintro ⟨Hpre, HK⟩
  -- stage 0's arrivals
  iapply (r0 m K c W v2 v33 v51 v89 v127 v17 v19 v21 v184 hv (fun (v208 v227 : BitVec 32) (r : Σ' (v246 : BitVec 32) (v256 : BitVec 32), BitVec 1) => match r with
      | ⟨v246, v256, v257⟩ => do
        let ⟨v277, v278, v298, v299⟩ : Σ' (v277 : BitVec 32) (v278 : BitVec 1) (v298 : BitVec 32), BitVec 1 ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v227 v246
        let v328 : BitVec 32 ← k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v208 v256 v257 v298
        let ⟨v347, c1_i32_309⟩ : Σ' (v347 : BitVec 32), BitVec 32 ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v227 v277 v278 v328
        let ⟨v366, v376⟩ : Σ' (v366 : BitVec 32), BitVec 32 ← k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v246 v298 v299 v328 c1_i32_309
        let ⟨v394, v412, v419⟩ : Σ' (v394 : BitVec 32) (v412 : BitVec 32), FVec F S1x64x1024 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v347 v366
        k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v376 v412 v419
        k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v347 v394
        let v505 : BitVec 32 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v366 v412
        let ⟨v514, v523, v538⟩ : Σ' (v514 : BitVec 32) (v523 : BitVec 32), BitVec 32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v257 v505
        let ⟨v539, v547, v555, v556, v565⟩ : Σ' (v539 : BitVec 32) (v547 : BitVec 32) (v555 : BitVec 32) (v556 : BitVec 32), BitVec 32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v278 v299 v328 v347 v366 v514 v523 v538
        let v574 : BitVec 32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v539 v547 v555 v565
        let v624 : BitVec 32 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v19 v539 v547 v556 v565 v574
        k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v21 v555 v624
        k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c
        let c0_i32_685 : BitVec 32 := 0#32
        let v710 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        let v707 : DmaSems sig S1x1 := cc0_scratch5.slice (Rect.unit (s := S3x3) ![1, 0] S1x1.size inb_S3x3_S1x1_1_0)
        let v708 : DmaSems sig S_ := v707.squeeze S_ squeezes_S1x1_S_
        let v709 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        Prog.lift (.waitDma2 v708.sem v710 v709 ((Memref.isWhole_whole (cc0_scratch2 : Ref sig .tc)).wordExact_slice rfl _ (k0_off7_wordsbf16 c 1)) ((Memref.isWhole_whole (cc0_scratch2 : Ref sig .tc)).wordExact_slice rfl _ (k0_off7_wordsbf16 c 1)))
        let c2_i32_686 : BitVec 32 := 2#32
        let c0_i32_687 : BitVec 32 := 0#32
        let c2_i32_688 : BitVec 32 := 2#32
        let c0_i32_689 : BitVec 32 := 0#32
        let c0_i32_690 : BitVec 32 := 0#32
        let v711 : DmaSems sig S1x1 := cc0_scratch5.slice (Rect.unit (s := S3x3) ![2, 0] S1x1.size inb_S3x3_S1x1_2_0)
        let v712 : DmaSems sig S_ := v711.squeeze S_ squeezes_S1x1_S_
        let c0_i32_691 : BitVec 32 := 0#32
        let v713 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        let c0_i32_692 : BitVec 32 := 0#32
        let v714 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        Prog.lift (.waitDma2 v712.sem v714 v713 ((Memref.isWhole_whole (cc0_scratch2 : Ref sig .tc)).wordExact_slice rfl _ (k0_off8_wordsbf16 c)) ((Memref.isWhole_whole (cc0_scratch2 : Ref sig .tc)).wordExact_slice rfl _ (k0_off8_wordsbf16 c)))
        pure ⟨⟩) Kt)
  isplitl [Hpre]; · iexact Hpre
  iintro %v208 %v227 %r %W1 H1
  obtain ⟨v246, v256, v257⟩ := r
  -- stage 1
  iapply (stage1 m K c W1 v2 v208 v227 v246 v256 v257 (fun (v277 : BitVec 32) (v278 : BitVec 1) (v298 : BitVec 32) (v299 : BitVec 1) (v328 v347 c1_i32_309 : BitVec 32) (r : Σ' (v366 : BitVec 32), BitVec 32) => match r with
      | ⟨v366, v376⟩ => do
        let ⟨v394, v412, v419⟩ : Σ' (v394 : BitVec 32) (v412 : BitVec 32), FVec F S1x64x1024 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v347 v366
        k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v376 v412 v419
        k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v347 v394
        let v505 : BitVec 32 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v366 v412
        let ⟨v514, v523, v538⟩ : Σ' (v514 : BitVec 32) (v523 : BitVec 32), BitVec 32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v257 v505
        let ⟨v539, v547, v555, v556, v565⟩ : Σ' (v539 : BitVec 32) (v547 : BitVec 32) (v555 : BitVec 32) (v556 : BitVec 32), BitVec 32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v278 v299 v328 v347 v366 v514 v523 v538
        let v574 : BitVec 32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v539 v547 v555 v565
        let v624 : BitVec 32 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v19 v539 v547 v556 v565 v574
        k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v21 v555 v624
        k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c
        let c0_i32_685 : BitVec 32 := 0#32
        let v710 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        let v707 : DmaSems sig S1x1 := cc0_scratch5.slice (Rect.unit (s := S3x3) ![1, 0] S1x1.size inb_S3x3_S1x1_1_0)
        let v708 : DmaSems sig S_ := v707.squeeze S_ squeezes_S1x1_S_
        let v709 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        Prog.lift (.waitDma2 v708.sem v710 v709 ((Memref.isWhole_whole (cc0_scratch2 : Ref sig .tc)).wordExact_slice rfl _ (k0_off7_wordsbf16 c 1)) ((Memref.isWhole_whole (cc0_scratch2 : Ref sig .tc)).wordExact_slice rfl _ (k0_off7_wordsbf16 c 1)))
        let c2_i32_686 : BitVec 32 := 2#32
        let c0_i32_687 : BitVec 32 := 0#32
        let c2_i32_688 : BitVec 32 := 2#32
        let c0_i32_689 : BitVec 32 := 0#32
        let c0_i32_690 : BitVec 32 := 0#32
        let v711 : DmaSems sig S1x1 := cc0_scratch5.slice (Rect.unit (s := S3x3) ![2, 0] S1x1.size inb_S3x3_S1x1_2_0)
        let v712 : DmaSems sig S_ := v711.squeeze S_ squeezes_S1x1_S_
        let c0_i32_691 : BitVec 32 := 0#32
        let v713 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        let c0_i32_692 : BitVec 32 := 0#32
        let v714 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        Prog.lift (.waitDma2 v712.sem v714 v713 ((Memref.isWhole_whole (cc0_scratch2 : Ref sig .tc)).wordExact_slice rfl _ (k0_off8_wordsbf16 c)) ((Memref.isWhole_whole (cc0_scratch2 : Ref sig .tc)).wordExact_slice rfl _ (k0_off8_wordsbf16 c)))
        pure ⟨⟩) Kt)
  isplitl [H1]; · iexact H1
  iintro %W2 H2 %v277 %v278 %v298 %v299 %v328 %v347 %c1 %r
  obtain ⟨v366, v376⟩ := r
  -- stage 2
  iapply (s2 m K c W2 v2 v328 v347 v366 v376 (fun (v505 : BitVec 32) => do
        let ⟨v514, v523, v538⟩ : Σ' (v514 : BitVec 32) (v523 : BitVec 32), BitVec 32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v257 v505
        let ⟨v539, v547, v555, v556, v565⟩ : Σ' (v539 : BitVec 32) (v547 : BitVec 32) (v555 : BitVec 32) (v556 : BitVec 32), BitVec 32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v278 v299 v328 v347 v366 v514 v523 v538
        let v574 : BitVec 32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v539 v547 v555 v565
        let v624 : BitVec 32 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v19 v539 v547 v556 v565 v574
        k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v21 v555 v624
        k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c
        let c0_i32_685 : BitVec 32 := 0#32
        let v710 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        let v707 : DmaSems sig S1x1 := cc0_scratch5.slice (Rect.unit (s := S3x3) ![1, 0] S1x1.size inb_S3x3_S1x1_1_0)
        let v708 : DmaSems sig S_ := v707.squeeze S_ squeezes_S1x1_S_
        let v709 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        Prog.lift (.waitDma2 v708.sem v710 v709 ((Memref.isWhole_whole (cc0_scratch2 : Ref sig .tc)).wordExact_slice rfl _ (k0_off7_wordsbf16 c 1)) ((Memref.isWhole_whole (cc0_scratch2 : Ref sig .tc)).wordExact_slice rfl _ (k0_off7_wordsbf16 c 1)))
        let c2_i32_686 : BitVec 32 := 2#32
        let c0_i32_687 : BitVec 32 := 0#32
        let c2_i32_688 : BitVec 32 := 2#32
        let c0_i32_689 : BitVec 32 := 0#32
        let c0_i32_690 : BitVec 32 := 0#32
        let v711 : DmaSems sig S1x1 := cc0_scratch5.slice (Rect.unit (s := S3x3) ![2, 0] S1x1.size inb_S3x3_S1x1_2_0)
        let v712 : DmaSems sig S_ := v711.squeeze S_ squeezes_S1x1_S_
        let c0_i32_691 : BitVec 32 := 0#32
        let v713 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        let c0_i32_692 : BitVec 32 := 0#32
        let v714 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        Prog.lift (.waitDma2 v712.sem v714 v713 ((Memref.isWhole_whole (cc0_scratch2 : Ref sig .tc)).wordExact_slice rfl _ (k0_off8_wordsbf16 c)) ((Memref.isWhole_whole (cc0_scratch2 : Ref sig .tc)).wordExact_slice rfl _ (k0_off8_wordsbf16 c)))
        pure ⟨⟩) Kt)
  isplitl [H2]; · iexact H2
  iintro %v505 %W3 H3
  -- the all-gather
  iapply (body_ag m K c W3 v2 v17 v19 v21 v257 v278 v299 v328 v347 v366 v505 (fun (_ : PUnit.{1}) => do
        k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c
        let c0_i32_685 : BitVec 32 := 0#32
        let v710 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        let v707 : DmaSems sig S1x1 := cc0_scratch5.slice (Rect.unit (s := S3x3) ![1, 0] S1x1.size inb_S3x3_S1x1_1_0)
        let v708 : DmaSems sig S_ := v707.squeeze S_ squeezes_S1x1_S_
        let v709 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        Prog.lift (.waitDma2 v708.sem v710 v709 ((Memref.isWhole_whole (cc0_scratch2 : Ref sig .tc)).wordExact_slice rfl _ (k0_off7_wordsbf16 c 1)) ((Memref.isWhole_whole (cc0_scratch2 : Ref sig .tc)).wordExact_slice rfl _ (k0_off7_wordsbf16 c 1)))
        let c2_i32_686 : BitVec 32 := 2#32
        let c0_i32_687 : BitVec 32 := 0#32
        let c2_i32_688 : BitVec 32 := 2#32
        let c0_i32_689 : BitVec 32 := 0#32
        let c0_i32_690 : BitVec 32 := 0#32
        let v711 : DmaSems sig S1x1 := cc0_scratch5.slice (Rect.unit (s := S3x3) ![2, 0] S1x1.size inb_S3x3_S1x1_2_0)
        let v712 : DmaSems sig S_ := v711.squeeze S_ squeezes_S1x1_S_
        let c0_i32_691 : BitVec 32 := 0#32
        let v713 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        let c0_i32_692 : BitVec 32 := 0#32
        let v714 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        Prog.lift (.waitDma2 v712.sem v714 v713 ((Memref.isWhole_whole (cc0_scratch2 : Ref sig .tc)).wordExact_slice rfl _ (k0_off8_wordsbf16 c)) ((Memref.isWhole_whole (cc0_scratch2 : Ref sig .tc)).wordExact_slice rfl _ (k0_off8_wordsbf16 c)))
        pure ⟨⟩) Kt)
  isplitl [H3]; · iexact H3
  iintro %W4 H4
  -- the departures' waits
  iapply (tail m K c W4 Kt)
  isplitl [H4]; · iexact H4
  iintro HT
  iapply HK
  iapply (tailPost_bodyPost m ρ c)
  iexact HT

/-- info: 'Cert.KernelIdeal.Body.from_R0' depends on axioms: [propext, Classical.choice, Quot.sound] -/
#guard_msgs in #print axioms from_R0

end Compose

end Cert.KernelIdeal.Body

end
-- ==== Proof.Body.lean ====
/-
  The body obligation at a symbolic device. The device's run of the first six printed parts is stepped here: the entry
  handshake (four signals that hand the partners the device's receive slots and gather rows, and the wait that returns
  theirs), the six tiles of its own product, and the three stage-0 blocks narrowed and sent with what they hold stated
  row by row. It stops between the sixth and the seventh part at the cut PreR0; from there the later phases, each proved
  from one cut to the next, carry the run to the obligation's post.
-/
import proofs.«900524_g7700000000000525_dist_gated_mlp_tp_i_m1024_h2048_d1024_v7x_i8_f32_1_alg».proof.Proof.Iface
import proofs.«900524_g7700000000000525_dist_gated_mlp_tp_i_m1024_h2048_d1024_v7x_i8_f32_1_alg».proof.Proof.Tables
import proofs.«900524_g7700000000000525_dist_gated_mlp_tp_i_m1024_h2048_d1024_v7x_i8_f32_1_alg».proof.Proof.Mem
import proofs.«900524_g7700000000000525_dist_gated_mlp_tp_i_m1024_h2048_d1024_v7x_i8_f32_1_alg».proof.Proof.Rows
import proofs.«900524_g7700000000000525_dist_gated_mlp_tp_i_m1024_h2048_d1024_v7x_i8_f32_1_alg».proof.Proof.BodyKit
import proofs.«900524_g7700000000000525_dist_gated_mlp_tp_i_m1024_h2048_d1024_v7x_i8_f32_1_alg».proof.Proof.Cuts
import proofs.«900524_g7700000000000525_dist_gated_mlp_tp_i_m1024_h2048_d1024_v7x_i8_f32_1_alg».proof.Proof.BodyPost
import proofs.«900524_g7700000000000525_dist_gated_mlp_tp_i_m1024_h2048_d1024_v7x_i8_f32_1_alg».proof.Proof.BodyCompose
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen Cert.KernelIdeal.Sched Cert.KernelIdeal.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

namespace Pre

section Vals
variable (m : (ℓ : Loc nD τ sig) → Buf (Elt F) ℓ)

/-! ## Values: a device's own partial product, tile by tile -/

omit [FloatOps F] in
theorem hz2 : (![0, 0] : Fin 2 → Nat) = fun _ => 0 := funext fun a => by fin_cases a <;> rfl

theorem read_g (f : (cc0_stg1_0 : Ref sig .tc).ty.Contents (Elt F)) :
    (gM : Memref sig .tc .vmem S1024x2048 .f32).view.readAt (Elt F) (Rect.unit (s := S1024x2048) ![0, 0] S1024x2048.size inb_S1024x2048_S1024x2048_0_0).toLoadRect f = f :=
  Memref.readAt_unit_zero (Elt F) cc0_stg1_0 hz2 _ f
theorem read_u (f : (cc0_stg2_0 : Ref sig .tc).ty.Contents (Elt F)) :
    (uM : Memref sig .tc .vmem S1024x2048 .f32).view.readAt (Elt F) (Rect.unit (s := S1024x2048) ![0, 0] S1024x2048.size inb_S1024x2048_S1024x2048_0_0).toLoadRect f = f :=
  Memref.readAt_unit_zero (Elt F) cc0_stg2_0 hz2 _ f
theorem read_d (f : (cc0_stg3_0 : Ref sig .tc).ty.Contents (Elt F)) :
    (dM : Memref sig .tc .vmem S2048x1024 .f32).view.readAt (Elt F) (Rect.unit (s := S2048x1024) ![0, 0] S2048x1024.size inb_S2048x1024_S2048x1024_0_0).toLoadRect f = f :=
  Memref.readAt_unit_zero (Elt F) cc0_stg3_0 hz2 _ f

/-- The tile of butterfly 0 a device sends at stage 0, as the body computes it from what it loads. -/
theorem tile_S0 (c : Dev nD) :
    k0_pay1 ((xM : Memref sig .tc .vmem S1024x1024 .f32).view.readAt (Elt F) (Rect.unit (s := S1024x1024) (k0_off1 c 0#32 3#32 0#32 192#32) S192x1024.size (k0_off1_inb c 0)).toLoadRect (xIn m c))
      ((gM : Memref sig .tc .vmem S1024x2048 .f32).view.readAt (Elt F) (Rect.unit (s := S1024x2048) ![0, 0] S1024x2048.size inb_S1024x2048_S1024x2048_0_0).toLoadRect (gIn m c))
      ((uM : Memref sig .tc .vmem S1024x2048 .f32).view.readAt (Elt F) (Rect.unit (s := S1024x2048) ![0, 0] S1024x2048.size inb_S1024x2048_S1024x2048_0_0).toLoadRect (uIn m c))
      ((dM : Memref sig .tc .vmem S2048x1024 .f32).view.readAt (Elt F) (Rect.unit (s := S2048x1024) ![0, 0] S2048x1024.size inb_S2048x1024_S2048x1024_0_0).toLoadRect (dIn m c))
      = tS0 m c := by
  rw [read_g, read_u, read_d]; rfl

/-- A row of the half of butterfly 0 a device sends at stage 0 holds its own product off that tile. -/
theorem S0_sent0 (c : Dev nD) (r q : ℕ) (hr : r < 192) (hq : q < 1024) :
    S0 m 0 c ((k0_off1 c 0#32 3#32 0#32 192#32) 0 + r) q = tS0 m c (ix2 ⟨r, hr⟩ ⟨q, hq⟩) := by
  show (if (k0_off1 c 0#32 3#32 0#32 192#32) 0 ≤ (k0_off1 c 0#32 3#32 0#32 192#32) 0 + r ∧ (k0_off1 c 0#32 3#32 0#32 192#32) 0 + r < (k0_off1 c 0#32 3#32 0#32 192#32) 0 + 192
         then at192 (tS0 m c) ((k0_off1 c 0#32 3#32 0#32 192#32) 0 + r - (k0_off1 c 0#32 3#32 0#32 192#32) 0) q else _) = _
  rw [if_pos ⟨Nat.le_add_right _ _, Nat.add_lt_add_left hr _⟩, Nat.add_sub_cancel_left]
  unfold at192
  congr 1
  simp only [Nat.mod_eq_of_lt hr, Nat.mod_eq_of_lt hq]

theorem K0_px_b0 (c : Dev nD) : K0 0 (Mesh.px 3 c) = (k0_off1 c 0#32 3#32 0#32 192#32) 0 := by
  show (k0_off1 (Mesh.px 3 c) 0#32 3#32 192#32 0#32) 0 = _
  rw [← Rows.rs0_b0' c]

/-- A row of the half of butterfly 0 a device sends at stage 0 holds its own product off that tile. -/
theorem S0_sent0' (c : Dev nD) (r q : ℕ) (hr : r < 192) (hq : q < 1024) :
    S0 m 0 c ((k0_off1 c 0#32 3#32 0#32 192#32) 0 + r) q = tS0 m c (ix2 ⟨r, hr⟩ ⟨q, hq⟩) := by
  show (if (k0_off1 c 0#32 3#32 0#32 192#32) 0 ≤ (k0_off1 c 0#32 3#32 0#32 192#32) 0 + r ∧ (k0_off1 c 0#32 3#32 0#32 192#32) 0 + r < (k0_off1 c 0#32 3#32 0#32 192#32) 0 + 192
         then at192 (tS0 m c) ((k0_off1 c 0#32 3#32 0#32 192#32) 0 + r - (k0_off1 c 0#32 3#32 0#32 192#32) 0) q else _) = _
  rw [if_pos ⟨Nat.le_add_right _ _, Nat.add_lt_add_left hr _⟩, Nat.add_sub_cancel_left]
  unfold at192
  congr 1
  simp only [Nat.mod_eq_of_lt hr, Nat.mod_eq_of_lt hq]

theorem K0_px_b0' (c : Dev nD) : K0 0 (Mesh.px 3 c) = (k0_off1 c 0#32 3#32 0#32 192#32) 0 := by
  show (k0_off1 (Mesh.px 3 c) 0#32 3#32 192#32 0#32) 0 = _
  rw [← Rows.rs0_b0' c]

/-- What the send slot of butterfly 0, stage 0 holds when it leaves: the device's own product over the rows its partner
    keeps, narrowed for the wire. -/
theorem sent00 (c : Dev nD) (fs : (cc0_scratch0 : Ref sig .tc).ty.Contents (Elt F))
    (P : FVec F S192x1024 .f32) (L : List (View.Piece (Elt F) S1024x1024 .f32)) (hP : P = tS0 m c)
    (r q : ℕ) (hr : r < 192) (hq : q < 1024) :
    sSlot00.view.read (Elt F)
        (((sM : Memref sig .tc .vmem S3x384x1024 .bf16).access (Rect.unit (s := S3x384x1024) ![0, 0, 0] S1x192x1024.size inb_S3x384x1024_S1x192x1024_0_0_0)).write (Elt F) fs
          (k0_pay2 ((oM : Memref sig .tc .vmem S1024x1024 .f32).view.readCov
            (⟨(Rect.unit (s := S1024x1024) (k0_off1 c 0#32 3#32 0#32 192#32) S192x1024.size (k0_off1_inb c 0)), P⟩ :: L)
            (Rect.unit (s := S1024x1024) (k0_off1 c 0#32 3#32 0#32 192#32) S192x1024.size (k0_off1_inb c 0)).toLoadRect)) Finset.univ)
        (ix2 ⟨r, hr⟩ ⟨q, hq⟩)
      = tr (S0 m 0 c (K0 0 (Mesh.px 3 c) + r) q) := by
  have ho : (k0_off1 c 0#32 3#32 0#32 192#32) 1 = 0 := by rw [Mesh.off1_a]; rfl
  rw [K0_px_b0', S0_sent0' m c r q hr hq, ← hP]
  refine (Mem.sSlot_read inb_S3x384x1024_S1x192x1024_0_0_0 squeezes_S1x192x1024_S192x1024 _ r q hr hq).trans ?_
  refine (Mem.narrow_rows (k0_off1 c 0#32 3#32 0#32 192#32) (k0_off1_inb c 0) ho inb_S3x384x1024_S1x192x1024_0_0_0
    shapeCasts_S192x1024_S192x1024 shapeCasts_S192x1024_S1x192x1024 _ fs r q hr hq).trans ?_
  exact congrArg tr (Mem.oAt_store (k0_off1 c 0#32 3#32 0#32 192#32) (k0_off1_inb c 0) ho _ _ r q hr hq)

/-- A row of the half of butterfly 1 a device sends at stage 0 holds its own product off that tile. -/
theorem S0_sent1' (c : Dev nD) (r q : ℕ) (hr : r < 192) (hq : q < 1024) :
    S0 m 1 c ((k0_off1 c 384#32 4#32 0#32 192#32) 0 + r) q = tS1 m c (ix2 ⟨r, hr⟩ ⟨q, hq⟩) := by
  show (if (k0_off1 c 384#32 4#32 0#32 192#32) 0 ≤ (k0_off1 c 384#32 4#32 0#32 192#32) 0 + r ∧ (k0_off1 c 384#32 4#32 0#32 192#32) 0 + r < (k0_off1 c 384#32 4#32 0#32 192#32) 0 + 192
         then at192 (tS1 m c) ((k0_off1 c 384#32 4#32 0#32 192#32) 0 + r - (k0_off1 c 384#32 4#32 0#32 192#32) 0) q else _) = _
  rw [if_pos ⟨Nat.le_add_right _ _, Nat.add_lt_add_left hr _⟩, Nat.add_sub_cancel_left]
  unfold at192
  congr 1
  simp only [Nat.mod_eq_of_lt hr, Nat.mod_eq_of_lt hq]

theorem K0_px_b1' (c : Dev nD) : K0 1 (Mesh.px 4 c) = (k0_off1 c 384#32 4#32 0#32 192#32) 0 := by
  show (k0_off1 (Mesh.px 4 c) 384#32 4#32 192#32 0#32) 0 = _
  rw [← Rows.rs0_b1' c]

/-- What the send slot of butterfly 1, stage 0 holds when it leaves: the device's own product over the rows its partner
    keeps, narrowed for the wire. -/
theorem sent10 (c : Dev nD) (fs : (cc0_scratch0 : Ref sig .tc).ty.Contents (Elt F))
    (P : FVec F S192x1024 .f32) (L : List (View.Piece (Elt F) S1024x1024 .f32)) (hP : P = tS1 m c)
    (r q : ℕ) (hr : r < 192) (hq : q < 1024) :
    sSlot10.view.read (Elt F)
        (((sM : Memref sig .tc .vmem S3x384x1024 .bf16).access (Rect.unit (s := S3x384x1024) ![1, 0, 0] S1x192x1024.size inb_S3x384x1024_S1x192x1024_1_0_0)).write (Elt F) fs
          (k0_pay4 ((oM : Memref sig .tc .vmem S1024x1024 .f32).view.readCov
            (⟨(Rect.unit (s := S1024x1024) (k0_off1 c 384#32 4#32 0#32 192#32) S192x1024.size (k0_off1_inb c 1)), P⟩ :: L)
            (Rect.unit (s := S1024x1024) (k0_off1 c 384#32 4#32 0#32 192#32) S192x1024.size (k0_off1_inb c 1)).toLoadRect)) Finset.univ)
        (ix2 ⟨r, hr⟩ ⟨q, hq⟩)
      = tr (S0 m 1 c (K0 1 (Mesh.px 4 c) + r) q) := by
  have ho : (k0_off1 c 384#32 4#32 0#32 192#32) 1 = 0 := by rw [Mesh.off1_b]; rfl
  rw [K0_px_b1', S0_sent1' m c r q hr hq, ← hP]
  refine (Mem.sSlot_read inb_S3x384x1024_S1x192x1024_1_0_0 squeezes_S1x192x1024_S192x1024 _ r q hr hq).trans ?_
  refine (Mem.narrow_rows (k0_off1 c 384#32 4#32 0#32 192#32) (k0_off1_inb c 1) ho inb_S3x384x1024_S1x192x1024_1_0_0
    shapeCasts_S192x1024_S192x1024 shapeCasts_S192x1024_S1x192x1024 _ fs r q hr hq).trans ?_
  exact congrArg tr (Mem.oAt_store (k0_off1 c 384#32 4#32 0#32 192#32) (k0_off1_inb c 1) ho _ _ r q hr hq)

/-- A row of the half of butterfly 2 a device sends at stage 0 holds its own product off that tile. -/
theorem S0_sent2' (c : Dev nD) (r q : ℕ) (hr : r < 128) (hq : q < 1024) :
    S0 m 2 c ((k0_off2 c 0#32 128#32) 0 + r) q = tS2 m c (ix2 ⟨r, hr⟩ ⟨q, hq⟩) := by
  show (if (k0_off2 c 0#32 128#32) 0 ≤ (k0_off2 c 0#32 128#32) 0 + r ∧ (k0_off2 c 0#32 128#32) 0 + r < (k0_off2 c 0#32 128#32) 0 + 128
         then at128 (tS2 m c) ((k0_off2 c 0#32 128#32) 0 + r - (k0_off2 c 0#32 128#32) 0) q else _) = _
  rw [if_pos ⟨Nat.le_add_right _ _, Nat.add_lt_add_left hr _⟩, Nat.add_sub_cancel_left]
  unfold at128
  congr 1
  simp only [Nat.mod_eq_of_lt hr, Nat.mod_eq_of_lt hq]

theorem K0_px_b2' (c : Dev nD) : K0 2 (Mesh.px 1 c) = (k0_off2 c 0#32 128#32) 0 := by
  show (k0_off2 (Mesh.px 1 c) 128#32 0#32) 0 = _
  rw [← Rows.rs0_b2' c]

/-- What the send slot of butterfly 2, stage 0 holds when it leaves: the device's own product over the rows its partner
    keeps, narrowed for the wire. -/
theorem sent20 (c : Dev nD) (fs : (cc0_scratch0 : Ref sig .tc).ty.Contents (Elt F))
    (P : FVec F S128x1024 .f32) (L : List (View.Piece (Elt F) S1024x1024 .f32)) (hP : P = tS2 m c)
    (r q : ℕ) (hr : r < 128) (hq : q < 1024) :
    sSlot20.view.read (Elt F)
        (((sM : Memref sig .tc .vmem S3x384x1024 .bf16).access (Rect.unit (s := S3x384x1024) ![2, 0, 0] S1x128x1024.size inb_S3x384x1024_S1x128x1024_2_0_0)).write (Elt F) fs
          (k0_pay9 ((oM : Memref sig .tc .vmem S1024x1024 .f32).view.readCov
            (⟨(Rect.unit (s := S1024x1024) (k0_off2 c 0#32 128#32) S128x1024.size (k0_off2_inb c 0)), P⟩ :: L)
            (Rect.unit (s := S1024x1024) (k0_off2 c 0#32 128#32) S128x1024.size (k0_off2_inb c 0)).toLoadRect)) Finset.univ)
        (ix2 ⟨r, hr⟩ ⟨q, hq⟩)
      = tr (S0 m 2 c (K0 2 (Mesh.px 1 c) + r) q) := by
  have ho : (k0_off2 c 0#32 128#32) 1 = 0 := by rw [Mesh.off2_a]; rfl
  rw [K0_px_b2', S0_sent2' m c r q hr hq, ← hP]
  refine (Mem.sSlot_read inb_S3x384x1024_S1x128x1024_2_0_0 squeezes_S1x128x1024_S128x1024 _ r q hr hq).trans ?_
  refine (Mem.narrow_rows (k0_off2 c 0#32 128#32) (k0_off2_inb c 0) ho inb_S3x384x1024_S1x128x1024_2_0_0
    shapeCasts_S128x1024_S128x1024 shapeCasts_S128x1024_S1x128x1024 _ fs r q hr hq).trans ?_
  exact congrArg tr (Mem.oAt_store (k0_off2 c 0#32 128#32) (k0_off2_inb c 0) ho _ _ r q hr hq)

/-- The tiles of butterflies 1 and 2 sent at stage 0, as the body computes them from what it loads. -/
theorem tile_S1 (c : Dev nD) :
    k0_pay3 ((xM : Memref sig .tc .vmem S1024x1024 .f32).view.readAt (Elt F) (Rect.unit (s := S1024x1024) (k0_off1 c 384#32 4#32 0#32 192#32) S192x1024.size (k0_off1_inb c 1)).toLoadRect (xIn m c))
      ((gM : Memref sig .tc .vmem S1024x2048 .f32).view.readAt (Elt F) (Rect.unit (s := S1024x2048) ![0, 0] S1024x2048.size inb_S1024x2048_S1024x2048_0_0).toLoadRect (gIn m c))
      ((uM : Memref sig .tc .vmem S1024x2048 .f32).view.readAt (Elt F) (Rect.unit (s := S1024x2048) ![0, 0] S1024x2048.size inb_S1024x2048_S1024x2048_0_0).toLoadRect (uIn m c))
      ((dM : Memref sig .tc .vmem S2048x1024 .f32).view.readAt (Elt F) (Rect.unit (s := S2048x1024) ![0, 0] S2048x1024.size inb_S2048x1024_S2048x1024_0_0).toLoadRect (dIn m c))
      = tS1 m c := by
  rw [read_g, read_u, read_d]; rfl

theorem tile_S2 (c : Dev nD) :
    k0_pay8 (k0_pay5 ((xM : Memref sig .tc .vmem S1024x1024 .f32).view.readAt (Elt F) (Rect.unit (s := S1024x1024) (k0_off2 c 0#32 128#32) S128x1024.size (k0_off2_inb c 0)).toLoadRect (xIn m c)))
      (k0_pay6 ((xM : Memref sig .tc .vmem S1024x1024 .f32).view.readAt (Elt F) (Rect.unit (s := S1024x1024) (k0_off2 c 0#32 128#32) S128x1024.size (k0_off2_inb c 0)).toLoadRect (xIn m c))
        ((gM : Memref sig .tc .vmem S1024x2048 .f32).view.readAt (Elt F) (Rect.unit (s := S1024x2048) ![0, 0] S1024x2048.size inb_S1024x2048_S1024x2048_0_0).toLoadRect (gIn m c)))
      (k0_pay7 ((uM : Memref sig .tc .vmem S1024x2048 .f32).view.readAt (Elt F) (Rect.unit (s := S1024x2048) ![0, 0] S1024x2048.size inb_S1024x2048_S1024x2048_0_0).toLoadRect (uIn m c)))
      (constant S128x2048 .f32 0x00000000#32)
      ((dM : Memref sig .tc .vmem S2048x1024 .f32).view.readAt (Elt F) (Rect.unit (s := S2048x1024) ![0, 0] S2048x1024.size inb_S2048x1024_S2048x1024_0_0).toLoadRect (dIn m c))
      = tS2 m c := by
  rw [read_g, read_u, read_d]; rfl
end Vals

section Vals4
variable (m : (ℓ : Loc nD τ sig) → Buf (Elt F) ℓ)

/-- Reading a row that the last listed piece does not touch reads through it. -/
theorem oAt_skip {h : ℕ} (o : Fin 2 → ℕ) (inb : ∀ a, o a + (![h, 1024] : Fin 2 → ℕ) a ≤ S1024x1024.size a)
    (f : (cc0_stg4_0 : Ref sig .tc).ty.Contents (Elt F)) (P : (⟨2, ![h, 1024]⟩ : Shape).Idx → F .f32) (L : List (View.Piece (Elt F) S1024x1024 .f32))
    (row q : ℕ) (hrow : row < 1024) (hmiss : row < o 0 ∨ o 0 + h ≤ row) :
    oAt ((oM : Memref sig .tc .vmem S1024x1024 .f32).view.writes (Elt F) f (⟨Rect.unit (s := S1024x1024) o ![h, 1024] inb, P⟩ :: L)) row q
      = oAt ((oM : Memref sig .tc .vmem S1024x1024 .f32).view.writes (Elt F) f L) row q :=
  Mem.oAt_store_miss o inb _ P row q hrow hmiss

/-- A row of the half of butterfly 0 a device keeps at stage 0 holds its own product off the kept tile. -/
theorem S0_kept0 (c : Dev nD) (r q : ℕ) (hr : r < 192) (hq : q < 1024) :
    S0 m 0 c (K0 0 c + r) q = tK0 m c (ix2 ⟨r, hr⟩ ⟨q, hq⟩) := by
  show (if (k0_off1 c 0#32 3#32 0#32 192#32) 0 ≤ (k0_off1 c 0#32 3#32 192#32 0#32) 0 + r ∧ (k0_off1 c 0#32 3#32 192#32 0#32) 0 + r < (k0_off1 c 0#32 3#32 0#32 192#32) 0 + 192
         then at192 (tS0 m c) ((k0_off1 c 0#32 3#32 192#32 0#32) 0 + r - (k0_off1 c 0#32 3#32 0#32 192#32) 0) q else at192 (tK0 m c) ((k0_off1 c 0#32 3#32 192#32 0#32) 0 + r - (k0_off1 c 0#32 3#32 192#32 0#32) 0) q) = _
  have hd := Rows.half_disj_b0 c
  rw [if_neg (by omega), Nat.add_sub_cancel_left]
  unfold at192
  congr 1
  simp only [Nat.mod_eq_of_lt hr, Nat.mod_eq_of_lt hq]

/-- The stage-0 sum of butterfly 0 as the body forms it: the kept rows of the result buffer plus the arrived slot, widened. -/
theorem add00 (c : Dev nD) (fo1 : (cc0_stg4_0 : Ref sig .tc).ty.Contents (Elt F)) (L : List (View.Piece (Elt F) S1024x1024 .f32))
    (fr : (cc0_scratch1 : Ref sig .tc).ty.Contents (Elt F))
    (hfr : ∀ r q : ℕ, r < 192 → q < 1024 → rAt fr 0 (0 + r) q = tr (S0 m 0 (Mesh.px 3 c) (K0 0 c + r) q))
    (hL : ∀ r q : ℕ, r < 192 → q < 1024 → oAt ((oM : Memref sig .tc .vmem S1024x1024 .f32).view.writes (Elt F) (oM : Memref sig .tc .vmem S1024x1024 .f32).view.junk L) (K0 0 c + r) q = S0 m 0 c (K0 0 c + r) q)
    (r q : ℕ) (hr : r < 192) (hq : q < 1024) :
    oAt (((oM : Memref sig .tc .vmem S1024x1024 .f32).access (Rect.unit (s := S1024x1024) (k0_off1 c 0#32 3#32 192#32 0#32) S192x1024.size (k0_off1_inb c 2))).write (Elt F) fo1
        (k0_pay16 (k0_pay14 ((oM : Memref sig .tc .vmem S1024x1024 .f32).view.readCov L (Rect.unit (s := S1024x1024) (k0_off1 c 0#32 3#32 192#32 0#32) S192x1024.size (k0_off1_inb c 2)).toLoadRect)) (k0_pay15 ((rM : Memref sig .tc .vmem S3x384x1024 .bf16).view.readAt (Elt F) (Rect.unit (s := S3x384x1024) ![0, 0, 0] S1x192x1024.size inb_S3x384x1024_S1x192x1024_0_0_0).toLoadRect fr))) Finset.univ)
      (K0 0 c + r) q = S1 m 0 c (K0 0 c + r) q := by
  have ho : (k0_off1 c 0#32 3#32 192#32 0#32) 1 = 0 := by rw [Mesh.off1_c]; rfl
  show oAt _ ((k0_off1 c 0#32 3#32 192#32 0#32) 0 + r) q = FloatOps.addf (S0 m 0 c ((k0_off1 c 0#32 3#32 192#32 0#32) 0 + r) q) (wire (S0 m 0 (Mesh.px 3 c) ((k0_off1 c 0#32 3#32 192#32 0#32) 0 + r) q))
  rw [Mem.oAt_store (k0_off1 c 0#32 3#32 192#32 0#32) (k0_off1_inb c 2) ho fo1 _ r q hr hq]
  rw [Mem.pay16_apply, Mem.pay14_apply, Mem.pay15_apply]
  rw [show ((oM : Memref sig .tc .vmem S1024x1024 .f32).view.readCov L (Rect.unit (s := S1024x1024) (k0_off1 c 0#32 3#32 192#32 0#32) S192x1024.size (k0_off1_inb c 2)).toLoadRect) (ix2 ⟨r, hr⟩ ⟨q, hq⟩)
        = oAt ((oM : Memref sig .tc .vmem S1024x1024 .f32).view.writes (Elt F) (oM : Memref sig .tc .vmem S1024x1024 .f32).view.junk L) ((k0_off1 c 0#32 3#32 192#32 0#32) 0 + r) q from
      Mem.oAt_load (k0_off1 c 0#32 3#32 192#32 0#32) (k0_off1_inb c 2) ho _ r q hr hq,
    Mem.rAt_load inb_S3x384x1024_S1x192x1024_0_0_0 fr 0 r q hr hq]
  rw [show oAt ((oM : Memref sig .tc .vmem S1024x1024 .f32).view.writes (Elt F) (oM : Memref sig .tc .vmem S1024x1024 .f32).view.junk L) ((k0_off1 c 0#32 3#32 192#32 0#32) 0 + r) q = S0 m 0 c ((k0_off1 c 0#32 3#32 192#32 0#32) 0 + r) q from hL r q hr hq,
    hfr r q hr hq]
  rfl

/-- A row of the half of butterfly 1 a device keeps at stage 0 holds its own product off the kept tile. -/
theorem S0_kept1 (c : Dev nD) (r q : ℕ) (hr : r < 192) (hq : q < 1024) :
    S0 m 1 c (K0 1 c + r) q = tK1 m c (ix2 ⟨r, hr⟩ ⟨q, hq⟩) := by
  show (if (k0_off1 c 384#32 4#32 0#32 192#32) 0 ≤ (k0_off1 c 384#32 4#32 192#32 0#32) 0 + r ∧ (k0_off1 c 384#32 4#32 192#32 0#32) 0 + r < (k0_off1 c 384#32 4#32 0#32 192#32) 0 + 192
         then at192 (tS1 m c) ((k0_off1 c 384#32 4#32 192#32 0#32) 0 + r - (k0_off1 c 384#32 4#32 0#32 192#32) 0) q else at192 (tK1 m c) ((k0_off1 c 384#32 4#32 192#32 0#32) 0 + r - (k0_off1 c 384#32 4#32 192#32 0#32) 0) q) = _
  have hd := Rows.half_disj_b1 c
  rw [if_neg (by omega), Nat.add_sub_cancel_left]
  unfold at192
  congr 1
  simp only [Nat.mod_eq_of_lt hr, Nat.mod_eq_of_lt hq]

/-- The stage-0 sum of butterfly 1 as the body forms it: the kept rows of the result buffer plus the arrived slot, widened. -/
theorem add10 (c : Dev nD) (fo1 : (cc0_stg4_0 : Ref sig .tc).ty.Contents (Elt F)) (L : List (View.Piece (Elt F) S1024x1024 .f32))
    (fr : (cc0_scratch1 : Ref sig .tc).ty.Contents (Elt F))
    (hfr : ∀ r q : ℕ, r < 192 → q < 1024 → rAt fr 1 (0 + r) q = tr (S0 m 1 (Mesh.px 4 c) (K0 1 c + r) q))
    (hL : ∀ r q : ℕ, r < 192 → q < 1024 → oAt ((oM : Memref sig .tc .vmem S1024x1024 .f32).view.writes (Elt F) (oM : Memref sig .tc .vmem S1024x1024 .f32).view.junk L) (K0 1 c + r) q = S0 m 1 c (K0 1 c + r) q)
    (r q : ℕ) (hr : r < 192) (hq : q < 1024) :
    oAt (((oM : Memref sig .tc .vmem S1024x1024 .f32).access (Rect.unit (s := S1024x1024) (k0_off1 c 384#32 4#32 192#32 0#32) S192x1024.size (k0_off1_inb c 3))).write (Elt F) fo1
        (k0_pay17 ((oM : Memref sig .tc .vmem S1024x1024 .f32).view.readCov L (Rect.unit (s := S1024x1024) (k0_off1 c 384#32 4#32 192#32 0#32) S192x1024.size (k0_off1_inb c 3)).toLoadRect) ((rM : Memref sig .tc .vmem S3x384x1024 .bf16).view.readAt (Elt F) (Rect.unit (s := S3x384x1024) ![1, 0, 0] S1x192x1024.size inb_S3x384x1024_S1x192x1024_1_0_0).toLoadRect fr)) Finset.univ)
      (K0 1 c + r) q = S1 m 1 c (K0 1 c + r) q := by
  have ho : (k0_off1 c 384#32 4#32 192#32 0#32) 1 = 0 := by rw [Mesh.off1_d]; rfl
  show oAt _ ((k0_off1 c 384#32 4#32 192#32 0#32) 0 + r) q = FloatOps.addf (S0 m 1 c ((k0_off1 c 384#32 4#32 192#32 0#32) 0 + r) q) (wire (S0 m 1 (Mesh.px 4 c) ((k0_off1 c 384#32 4#32 192#32 0#32) 0 + r) q))
  rw [Mem.oAt_store (k0_off1 c 384#32 4#32 192#32 0#32) (k0_off1_inb c 3) ho fo1 _ r q hr hq]
  rw [Mem.pay17_apply]
  rw [show ((oM : Memref sig .tc .vmem S1024x1024 .f32).view.readCov L (Rect.unit (s := S1024x1024) (k0_off1 c 384#32 4#32 192#32 0#32) S192x1024.size (k0_off1_inb c 3)).toLoadRect) (ix2 ⟨r, hr⟩ ⟨q, hq⟩)
        = oAt ((oM : Memref sig .tc .vmem S1024x1024 .f32).view.writes (Elt F) (oM : Memref sig .tc .vmem S1024x1024 .f32).view.junk L) ((k0_off1 c 384#32 4#32 192#32 0#32) 0 + r) q from
      Mem.oAt_load (k0_off1 c 384#32 4#32 192#32 0#32) (k0_off1_inb c 3) ho _ r q hr hq,
    Mem.rAt_load inb_S3x384x1024_S1x192x1024_1_0_0 fr 0 r q hr hq]
  rw [show oAt ((oM : Memref sig .tc .vmem S1024x1024 .f32).view.writes (Elt F) (oM : Memref sig .tc .vmem S1024x1024 .f32).view.junk L) ((k0_off1 c 384#32 4#32 192#32 0#32) 0 + r) q = S0 m 1 c ((k0_off1 c 384#32 4#32 192#32 0#32) 0 + r) q from hL r q hr hq,
    hfr r q hr hq]
  rfl

/-- A row of the half of butterfly 2 a device keeps at stage 0 holds its own product off the kept tile. -/
theorem S0_kept2 (c : Dev nD) (r q : ℕ) (hr : r < 128) (hq : q < 1024) :
    S0 m 2 c (K0 2 c + r) q = tK2 m c (ix2 ⟨r, hr⟩ ⟨q, hq⟩) := by
  show (if (k0_off2 c 0#32 128#32) 0 ≤ (k0_off2 c 128#32 0#32) 0 + r ∧ (k0_off2 c 128#32 0#32) 0 + r < (k0_off2 c 0#32 128#32) 0 + 128
         then at128 (tS2 m c) ((k0_off2 c 128#32 0#32) 0 + r - (k0_off2 c 0#32 128#32) 0) q else at128 (tK2 m c) ((k0_off2 c 128#32 0#32) 0 + r - (k0_off2 c 128#32 0#32) 0) q) = _
  have hd := Rows.half_disj_b2 c
  rw [if_neg (by omega), Nat.add_sub_cancel_left]
  unfold at128
  congr 1
  simp only [Nat.mod_eq_of_lt hr, Nat.mod_eq_of_lt hq]

/-- The stage-0 sum of butterfly 2 as the body forms it: the kept rows of the result buffer plus the arrived slot, widened. -/
theorem add20 (c : Dev nD) (fo1 : (cc0_stg4_0 : Ref sig .tc).ty.Contents (Elt F)) (L : List (View.Piece (Elt F) S1024x1024 .f32))
    (fr : (cc0_scratch1 : Ref sig .tc).ty.Contents (Elt F))
    (hfr : ∀ r q : ℕ, r < 128 → q < 1024 → rAt fr 2 (0 + r) q = tr (S0 m 2 (Mesh.px 1 c) (K0 2 c + r) q))
    (hL : ∀ r q : ℕ, r < 128 → q < 1024 → oAt ((oM : Memref sig .tc .vmem S1024x1024 .f32).view.writes (Elt F) (oM : Memref sig .tc .vmem S1024x1024 .f32).view.junk L) (K0 2 c + r) q = S0 m 2 c (K0 2 c + r) q)
    (r q : ℕ) (hr : r < 128) (hq : q < 1024) :
    oAt (((oM : Memref sig .tc .vmem S1024x1024 .f32).access (Rect.unit (s := S1024x1024) (k0_off2 c 128#32 0#32) S128x1024.size (k0_off2_inb c 1))).write (Elt F) fo1
        (k0_pay18 ((oM : Memref sig .tc .vmem S1024x1024 .f32).view.readCov L (Rect.unit (s := S1024x1024) (k0_off2 c 128#32 0#32) S128x1024.size (k0_off2_inb c 1)).toLoadRect) ((rM : Memref sig .tc .vmem S3x384x1024 .bf16).view.readAt (Elt F) (Rect.unit (s := S3x384x1024) ![2, 0, 0] S1x128x1024.size inb_S3x384x1024_S1x128x1024_2_0_0).toLoadRect fr)) Finset.univ)
      (K0 2 c + r) q = S1 m 2 c (K0 2 c + r) q := by
  have ho : (k0_off2 c 128#32 0#32) 1 = 0 := by rw [Mesh.off2_b]; rfl
  show oAt _ ((k0_off2 c 128#32 0#32) 0 + r) q = FloatOps.addf (S0 m 2 c ((k0_off2 c 128#32 0#32) 0 + r) q) (wire (S0 m 2 (Mesh.px 1 c) ((k0_off2 c 128#32 0#32) 0 + r) q))
  rw [Mem.oAt_store (k0_off2 c 128#32 0#32) (k0_off2_inb c 1) ho fo1 _ r q hr hq]
  rw [Mem.pay18_apply]
  rw [show ((oM : Memref sig .tc .vmem S1024x1024 .f32).view.readCov L (Rect.unit (s := S1024x1024) (k0_off2 c 128#32 0#32) S128x1024.size (k0_off2_inb c 1)).toLoadRect) (ix2 ⟨r, hr⟩ ⟨q, hq⟩)
        = oAt ((oM : Memref sig .tc .vmem S1024x1024 .f32).view.writes (Elt F) (oM : Memref sig .tc .vmem S1024x1024 .f32).view.junk L) ((k0_off2 c 128#32 0#32) 0 + r) q from
      Mem.oAt_load (k0_off2 c 128#32 0#32) (k0_off2_inb c 1) ho _ r q hr hq,
    Mem.rAt_load inb_S3x384x1024_S1x128x1024_2_0_0 fr 0 r q hr hq]
  rw [show oAt ((oM : Memref sig .tc .vmem S1024x1024 .f32).view.writes (Elt F) (oM : Memref sig .tc .vmem S1024x1024 .f32).view.junk L) ((k0_off2 c 128#32 0#32) 0 + r) q = S0 m 2 c ((k0_off2 c 128#32 0#32) 0 + r) q from hL r q hr hq,
    hfr r q hr hq]
  rfl

end Vals4

section Vals5
variable (m : (ℓ : Loc nD τ sig) → Buf (Elt F) ℓ)

/-- The kept tiles of butterflies 0 and 1, as the body computes them from what it loads. -/
theorem tile_K0 (c : Dev nD) :
    k0_pay10 ((xM : Memref sig .tc .vmem S1024x1024 .f32).view.readAt (Elt F) (Rect.unit (s := S1024x1024) (k0_off1 c 0#32 3#32 192#32 0#32) S192x1024.size (k0_off1_inb c 2)).toLoadRect (xIn m c)) ((gM : Memref sig .tc .vmem S1024x2048 .f32).view.readAt (Elt F) (Rect.unit (s := S1024x2048) ![0, 0] S1024x2048.size inb_S1024x2048_S1024x2048_0_0).toLoadRect (gIn m c)) ((uM : Memref sig .tc .vmem S1024x2048 .f32).view.readAt (Elt F) (Rect.unit (s := S1024x2048) ![0, 0] S1024x2048.size inb_S1024x2048_S1024x2048_0_0).toLoadRect (uIn m c)) ((dM : Memref sig .tc .vmem S2048x1024 .f32).view.readAt (Elt F) (Rect.unit (s := S2048x1024) ![0, 0] S2048x1024.size inb_S2048x1024_S2048x1024_0_0).toLoadRect (dIn m c)) = tK0 m c := by
  rw [read_g, read_u, read_d]; rfl
theorem tile_K1 (c : Dev nD) :
    k0_pay11 ((xM : Memref sig .tc .vmem S1024x1024 .f32).view.readAt (Elt F) (Rect.unit (s := S1024x1024) (k0_off1 c 384#32 4#32 192#32 0#32) S192x1024.size (k0_off1_inb c 3)).toLoadRect (xIn m c)) ((gM : Memref sig .tc .vmem S1024x2048 .f32).view.readAt (Elt F) (Rect.unit (s := S1024x2048) ![0, 0] S1024x2048.size inb_S1024x2048_S1024x2048_0_0).toLoadRect (gIn m c)) ((uM : Memref sig .tc .vmem S1024x2048 .f32).view.readAt (Elt F) (Rect.unit (s := S1024x2048) ![0, 0] S1024x2048.size inb_S1024x2048_S1024x2048_0_0).toLoadRect (uIn m c)) ((dM : Memref sig .tc .vmem S2048x1024 .f32).view.readAt (Elt F) (Rect.unit (s := S2048x1024) ![0, 0] S2048x1024.size inb_S2048x1024_S2048x1024_0_0).toLoadRect (dIn m c)) = tK1 m c := by
  rw [read_g, read_u, read_d]; rfl

/-- After the two kept tiles are stored, the kept halves of butterflies 0 and 1 hold the device's own product. -/
theorem kept_out0 (c : Dev nD) (f : (cc0_stg4_0 : Ref sig .tc).ty.Contents (Elt F)) (P1 P0 : FVec F S192x1024 .f32)
    (L : List (View.Piece (Elt F) S1024x1024 .f32)) (hP0 : P0 = tK0 m c) (r q : ℕ) (hr : r < 192) (hq : q < 1024) :
    oAt ((oM : Memref sig .tc .vmem S1024x1024 .f32).view.writes (Elt F) f
        (⟨(Rect.unit (s := S1024x1024) (k0_off1 c 384#32 4#32 192#32 0#32) S192x1024.size (k0_off1_inb c 3)), P1⟩ :: ⟨(Rect.unit (s := S1024x1024) (k0_off1 c 0#32 3#32 192#32 0#32) S192x1024.size (k0_off1_inb c 2)), P0⟩ :: L)) (K0 0 c + r) q = S0 m 0 c (K0 0 c + r) q := by
  have h0 := Rows.half_range_b0 c
  have h1 := Rows.half_range_b1 c
  have ho : (k0_off1 c 0#32 3#32 192#32 0#32) 1 = 0 := by rw [Mesh.off1_c]; rfl
  rw [S0_kept0 m c r q hr hq, ← hP0]
  show oAt _ ((k0_off1 c 0#32 3#32 192#32 0#32) 0 + r) q = _
  rw [oAt_skip (k0_off1 c 384#32 4#32 192#32 0#32) (k0_off1_inb c 3) f P1 _ _ q (by omega) (Or.inl (by omega))]
  exact Mem.oAt_store (k0_off1 c 0#32 3#32 192#32 0#32) (k0_off1_inb c 2) ho _ _ r q hr hq
theorem kept_out1 (c : Dev nD) (f : (cc0_stg4_0 : Ref sig .tc).ty.Contents (Elt F)) (P1 : FVec F S192x1024 .f32)
    (L : List (View.Piece (Elt F) S1024x1024 .f32)) (hP1 : P1 = tK1 m c) (r q : ℕ) (hr : r < 192) (hq : q < 1024) :
    oAt ((oM : Memref sig .tc .vmem S1024x1024 .f32).view.writes (Elt F) f
        (⟨(Rect.unit (s := S1024x1024) (k0_off1 c 384#32 4#32 192#32 0#32) S192x1024.size (k0_off1_inb c 3)), P1⟩ :: L)) (K0 1 c + r) q = S0 m 1 c (K0 1 c + r) q := by
  have ho : (k0_off1 c 384#32 4#32 192#32 0#32) 1 = 0 := by rw [Mesh.off1_d]; rfl
  rw [S0_kept1 m c r q hr hq, ← hP1]
  exact Mem.oAt_store (k0_off1 c 384#32 4#32 192#32 0#32) (k0_off1_inb c 3) ho _ _ r q hr hq

end Vals5

section Sends
variable (m : (ℓ : Loc nD τ sig) → Buf (Elt F) ℓ) (K : Dev nD × CIx → ℕ)

theorem send00 (c n : Dev nD) (hn : n = Mesh.px 3 c)
    {hsc : (rSlot00 : Memref sig (Dev.tc n : Thread nD τ).2.kind .vmem S192x1024 .bf16).view.ref.isScScratch = false}
    {hsrc : sSlot00.view.WordExact} {hdst : rSlot00.view.WordExact}
    {hsem : DmaTarget.Typed .vmem (.dma (dsem 1 0 0)) (.remote (Dev.tc n : Thread nD τ) rSlot00 (.dma (dsem 0 0 0)) hsc)}
    {α : Type} {Q : α → sProp 𝕄} {kk : PUnit → Prog (TpuEff nD τ sig (Elt F) Λ₀ .tc) α}
    {fs : Buf (Elt F) (sSlot00.view.loc (c : Thread nD τ))} {fd : Buf (Elt F) (rSlot00.view.loc (Mesh.px 3 c : Thread nD τ))}
    (O : CellTallies nD τ sig Unit) {W : Waits sig Unit}
    (hfs : ∀ (r q : ℕ) (hr : r < 192) (hq : q < 1024), sSlot00.view.read (Elt F) fs (ix2 ⟨r, hr⟩ ⟨q, hq⟩) = tr (S0 m 0 c (K0 0 (Mesh.px 3 c) + r) q)) :
    iprop(records (F := F) m K
        ∗ (sSlot00.view.loc (c : Thread nD τ) ↦[sSlot00.view.set]{fullShare} fs)
        ∗ (rSlot00.view.loc (Mesh.px 3 c : Thread nD τ) ↦[rSlot00.view.set]{fullShare} fd)
        ∗ owes (c : Thread nD τ) (O + tallyAt (dcell 1 0 0 (Mesh.px 3 c)) () (namt 1 0 0)) W
        ∗ dutyTok ER (dcell 0 0 0 c) 0 0 ∗ dutyTok ER (dcell 1 0 0 (Mesh.px 3 c)) 0 0)
      ⊢ iprop(((cred (tallyAt (dcell 0 0 0 c) () (namt 0 0 0)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sSlot00 (.remote (Dev.tc n : Thread nD τ) rSlot00 (.dma (dsem 0 0 0)) hsc) (.dma (dsem 1 0 0)) hsrc hdst hsem) kk) Q) := by
  subst hn
  exact Tables.wp_rs_send00 m K c O hfs

theorem send10 (c n : Dev nD) (hn : n = Mesh.px 4 c)
    {hsc : (rSlot10 : Memref sig (Dev.tc n : Thread nD τ).2.kind .vmem S192x1024 .bf16).view.ref.isScScratch = false}
    {hsrc : sSlot10.view.WordExact} {hdst : rSlot10.view.WordExact}
    {hsem : DmaTarget.Typed .vmem (.dma (dsem 1 1 0)) (.remote (Dev.tc n : Thread nD τ) rSlot10 (.dma (dsem 0 1 0)) hsc)}
    {α : Type} {Q : α → sProp 𝕄} {kk : PUnit → Prog (TpuEff nD τ sig (Elt F) Λ₀ .tc) α}
    {fs : Buf (Elt F) (sSlot10.view.loc (c : Thread nD τ))} {fd : Buf (Elt F) (rSlot10.view.loc (Mesh.px 4 c : Thread nD τ))}
    (O : CellTallies nD τ sig Unit) {W : Waits sig Unit}
    (hfs : ∀ (r q : ℕ) (hr : r < 192) (hq : q < 1024), sSlot10.view.read (Elt F) fs (ix2 ⟨r, hr⟩ ⟨q, hq⟩) = tr (S0 m 1 c (K0 1 (Mesh.px 4 c) + r) q)) :
    iprop(records (F := F) m K
        ∗ (sSlot10.view.loc (c : Thread nD τ) ↦[sSlot10.view.set]{fullShare} fs)
        ∗ (rSlot10.view.loc (Mesh.px 4 c : Thread nD τ) ↦[rSlot10.view.set]{fullShare} fd)
        ∗ owes (c : Thread nD τ) (O + tallyAt (dcell 1 1 0 (Mesh.px 4 c)) () (namt 1 1 0)) W
        ∗ dutyTok ER (dcell 0 1 0 c) 0 0 ∗ dutyTok ER (dcell 1 1 0 (Mesh.px 4 c)) 0 0)
      ⊢ iprop(((cred (tallyAt (dcell 0 1 0 c) () (namt 0 1 0)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sSlot10 (.remote (Dev.tc n : Thread nD τ) rSlot10 (.dma (dsem 0 1 0)) hsc) (.dma (dsem 1 1 0)) hsrc hdst hsem) kk) Q) := by
  subst hn
  exact Tables.wp_rs_send10 m K c O hfs

theorem send20 (c n : Dev nD) (hn : n = Mesh.px 1 c)
    {hsc : (rSlot20 : Memref sig (Dev.tc n : Thread nD τ).2.kind .vmem S128x1024 .bf16).view.ref.isScScratch = false}
    {hsrc : sSlot20.view.WordExact} {hdst : rSlot20.view.WordExact}
    {hsem : DmaTarget.Typed .vmem (.dma (dsem 1 2 0)) (.remote (Dev.tc n : Thread nD τ) rSlot20 (.dma (dsem 0 2 0)) hsc)}
    {α : Type} {Q : α → sProp 𝕄} {kk : PUnit → Prog (TpuEff nD τ sig (Elt F) Λ₀ .tc) α}
    {fs : Buf (Elt F) (sSlot20.view.loc (c : Thread nD τ))} {fd : Buf (Elt F) (rSlot20.view.loc (Mesh.px 1 c : Thread nD τ))}
    (O : CellTallies nD τ sig Unit) {W : Waits sig Unit}
    (hfs : ∀ (r q : ℕ) (hr : r < 128) (hq : q < 1024), sSlot20.view.read (Elt F) fs (ix2 ⟨r, hr⟩ ⟨q, hq⟩) = tr (S0 m 2 c (K0 2 (Mesh.px 1 c) + r) q)) :
    iprop(records (F := F) m K
        ∗ (sSlot20.view.loc (c : Thread nD τ) ↦[sSlot20.view.set]{fullShare} fs)
        ∗ (rSlot20.view.loc (Mesh.px 1 c : Thread nD τ) ↦[rSlot20.view.set]{fullShare} fd)
        ∗ owes (c : Thread nD τ) (O + tallyAt (dcell 1 2 0 (Mesh.px 1 c)) () (namt 1 2 0)) W
        ∗ dutyTok ER (dcell 0 2 0 c) 0 0 ∗ dutyTok ER (dcell 1 2 0 (Mesh.px 1 c)) 0 0)
      ⊢ iprop(((cred (tallyAt (dcell 0 2 0 c) () (namt 0 2 0)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sSlot20 (.remote (Dev.tc n : Thread nD τ) rSlot20 (.dma (dsem 0 2 0)) hsc) (.dma (dsem 1 2 0)) hsrc hdst hsem) kk) Q) := by
  subst hn
  exact Tables.wp_rs_send20 m K c O hfs

theorem send00p (c n : Dev nD) (hn : n = Mesh.px 3 c)
    {hsc : (rSlot00 : Memref sig (Dev.tc n : Thread nD τ).2.kind .vmem S192x1024 .bf16).view.ref.isScScratch = false}
    {hsrc : sSlot00.view.WordExact} {hdst : rSlot00.view.WordExact}
    {hsem : DmaTarget.Typed .vmem (.dma (dsem 1 0 0)) (.remote (Dev.tc n : Thread nD τ) rSlot00 (.dma (dsem 0 0 0)) hsc)}
    {α : Type} {Q : α → sProp 𝕄} {kk : PUnit → Prog (TpuEff nD τ sig (Elt F) Λ₀ .tc) α}
    {fs : Buf (Elt F) (sSlot00.view.loc (c : Thread nD τ))} {fd : Buf (Elt F) (rSlot00.view.loc (Mesh.px 3 c : Thread nD τ))}
    (O : CellTallies nD τ sig Unit) {W : Waits sig Unit} :
    iprop(records (F := F) m K
        ∗ (sSlot00.view.loc (c : Thread nD τ) ↦[sSlot00.view.set]{fullShare} fs)
        ∗ (rSlot00.view.loc (Mesh.px 3 c : Thread nD τ) ↦[rSlot00.view.set]{fullShare} fd)
        ∗ owes (c : Thread nD τ) (O + tallyAt (dcell 1 0 0 (Mesh.px 3 c)) () (namt 1 0 0)) W
        ∗ dutyTok ER (dcell 0 0 0 c) 0 0 ∗ dutyTok ER (dcell 1 0 0 (Mesh.px 3 c)) 0 0
        ∗ ⌜∀ (r q : ℕ) (hr : r < 192) (hq : q < 1024), sSlot00.view.read (Elt F) fs (ix2 ⟨r, hr⟩ ⟨q, hq⟩) = tr (S0 m 0 c (K0 0 (Mesh.px 3 c) + r) q)⌝)
      ⊢ iprop(((cred (tallyAt (dcell 0 0 0 c) () (namt 0 0 0)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sSlot00 (.remote (Dev.tc n : Thread nD τ) rSlot00 (.dma (dsem 0 0 0)) hsc) (.dma (dsem 1 0 0)) hsrc hdst hsem) kk) Q) := by
  iintro ⟨#Hrec, Hs, Hd, HO, T1, T2, %hfs⟩
  iapply (send00 m K c n hn O hfs)
  isplitr; · iexact Hrec
  isplitl [Hs]; · iexact Hs
  isplitl [Hd]; · iexact Hd
  isplitl [HO]; · iexact HO
  isplitl [T1]; · iexact T1
  iexact T2

theorem send10p (c n : Dev nD) (hn : n = Mesh.px 4 c)
    {hsc : (rSlot10 : Memref sig (Dev.tc n : Thread nD τ).2.kind .vmem S192x1024 .bf16).view.ref.isScScratch = false}
    {hsrc : sSlot10.view.WordExact} {hdst : rSlot10.view.WordExact}
    {hsem : DmaTarget.Typed .vmem (.dma (dsem 1 1 0)) (.remote (Dev.tc n : Thread nD τ) rSlot10 (.dma (dsem 0 1 0)) hsc)}
    {α : Type} {Q : α → sProp 𝕄} {kk : PUnit → Prog (TpuEff nD τ sig (Elt F) Λ₀ .tc) α}
    {fs : Buf (Elt F) (sSlot10.view.loc (c : Thread nD τ))} {fd : Buf (Elt F) (rSlot10.view.loc (Mesh.px 4 c : Thread nD τ))}
    (O : CellTallies nD τ sig Unit) {W : Waits sig Unit} :
    iprop(records (F := F) m K
        ∗ (sSlot10.view.loc (c : Thread nD τ) ↦[sSlot10.view.set]{fullShare} fs)
        ∗ (rSlot10.view.loc (Mesh.px 4 c : Thread nD τ) ↦[rSlot10.view.set]{fullShare} fd)
        ∗ owes (c : Thread nD τ) (O + tallyAt (dcell 1 1 0 (Mesh.px 4 c)) () (namt 1 1 0)) W
        ∗ dutyTok ER (dcell 0 1 0 c) 0 0 ∗ dutyTok ER (dcell 1 1 0 (Mesh.px 4 c)) 0 0
        ∗ ⌜∀ (r q : ℕ) (hr : r < 192) (hq : q < 1024), sSlot10.view.read (Elt F) fs (ix2 ⟨r, hr⟩ ⟨q, hq⟩) = tr (S0 m 1 c (K0 1 (Mesh.px 4 c) + r) q)⌝)
      ⊢ iprop(((cred (tallyAt (dcell 0 1 0 c) () (namt 0 1 0)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sSlot10 (.remote (Dev.tc n : Thread nD τ) rSlot10 (.dma (dsem 0 1 0)) hsc) (.dma (dsem 1 1 0)) hsrc hdst hsem) kk) Q) := by
  iintro ⟨#Hrec, Hs, Hd, HO, T1, T2, %hfs⟩
  iapply (send10 m K c n hn O hfs)
  isplitr; · iexact Hrec
  isplitl [Hs]; · iexact Hs
  isplitl [Hd]; · iexact Hd
  isplitl [HO]; · iexact HO
  isplitl [T1]; · iexact T1
  iexact T2

theorem send20p (c n : Dev nD) (hn : n = Mesh.px 1 c)
    {hsc : (rSlot20 : Memref sig (Dev.tc n : Thread nD τ).2.kind .vmem S128x1024 .bf16).view.ref.isScScratch = false}
    {hsrc : sSlot20.view.WordExact} {hdst : rSlot20.view.WordExact}
    {hsem : DmaTarget.Typed .vmem (.dma (dsem 1 2 0)) (.remote (Dev.tc n : Thread nD τ) rSlot20 (.dma (dsem 0 2 0)) hsc)}
    {α : Type} {Q : α → sProp 𝕄} {kk : PUnit → Prog (TpuEff nD τ sig (Elt F) Λ₀ .tc) α}
    {fs : Buf (Elt F) (sSlot20.view.loc (c : Thread nD τ))} {fd : Buf (Elt F) (rSlot20.view.loc (Mesh.px 1 c : Thread nD τ))}
    (O : CellTallies nD τ sig Unit) {W : Waits sig Unit} :
    iprop(records (F := F) m K
        ∗ (sSlot20.view.loc (c : Thread nD τ) ↦[sSlot20.view.set]{fullShare} fs)
        ∗ (rSlot20.view.loc (Mesh.px 1 c : Thread nD τ) ↦[rSlot20.view.set]{fullShare} fd)
        ∗ owes (c : Thread nD τ) (O + tallyAt (dcell 1 2 0 (Mesh.px 1 c)) () (namt 1 2 0)) W
        ∗ dutyTok ER (dcell 0 2 0 c) 0 0 ∗ dutyTok ER (dcell 1 2 0 (Mesh.px 1 c)) 0 0
        ∗ ⌜∀ (r q : ℕ) (hr : r < 128) (hq : q < 1024), sSlot20.view.read (Elt F) fs (ix2 ⟨r, hr⟩ ⟨q, hq⟩) = tr (S0 m 2 c (K0 2 (Mesh.px 1 c) + r) q)⌝)
      ⊢ iprop(((cred (tallyAt (dcell 0 2 0 c) () (namt 0 2 0)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sSlot20 (.remote (Dev.tc n : Thread nD τ) rSlot20 (.dma (dsem 0 2 0)) hsc) (.dma (dsem 1 2 0)) hsrc hdst hsem) kk) Q) := by
  iintro ⟨#Hrec, Hs, Hd, HO, T1, T2, %hfs⟩
  iapply (send20 m K c n hn O hfs)
  isplitr; · iexact Hrec
  isplitl [Hs]; · iexact Hs
  isplitl [Hd]; · iexact Hd
  isplitl [HO]; · iexact HO
  isplitl [T1]; · iexact T1
  iexact T2

end Sends

section OremSteps
theorem Orem_4 (c : Dev nD) : Orem c 4 = Orem c 5 + tallyAt (dcell 1 0 0 (Mesh.px 3 c)) () (namt 1 0 0) := by rw [Orem_lt c 4 (by decide)]; rfl
theorem Orem_5 (c : Dev nD) : Orem c 5 = Orem c 6 + tallyAt (dcell 1 1 0 (Mesh.px 4 c)) () (namt 1 1 0) := by rw [Orem_lt c 5 (by decide)]; rfl
theorem Orem_6 (c : Dev nD) : Orem c 6 = Orem c 7 + tallyAt (dcell 1 2 0 (Mesh.px 1 c)) () (namt 1 2 0) := by rw [Orem_lt c 6 (by decide)]; rfl
end OremSteps

/-- The send buffer's rest, held apart, turns the nine slots' return into the whole buffer. -/
theorem mk_sbufBack (c : Dev nD) (fR : Buf (Elt F) ((c : Thread nD τ).loc cc0_scratch0)) :
    ((((c : Thread nD τ).loc cc0_scratch0) ↦[Mem.slotRest]{fullShare} fR) : sProp 𝕄) ⊢ Cuts.sbufBack c := by
  unfold Cuts.sbufBack rsSendPay
  iintro Hrest ⟨⟨%f00, H00⟩, ⟨%f01, H01⟩, ⟨%f02, H02⟩, ⟨%f10, H10⟩, ⟨%f11, H11⟩, ⟨%f12, H12⟩, ⟨%f20, H20⟩, ⟨%f21, H21⟩, ⟨%f22, H22⟩⟩
  ihave H := (Mem.sbuf_join c fullShare f00 f01 f02 f10 f11 f12 f20 f21 f22 fR) $$ [H00 H01 H02 H10 H11 H12 H20 H21 H22 Hrest]
  · isplitl [H00]; · iexact H00
    isplitl [H01]; · iexact H01
    isplitl [H02]; · iexact H02
    isplitl [H10]; · iexact H10
    isplitl [H11]; · iexact H11
    isplitl [H12]; · iexact H12
    isplitl [H20]; · iexact H20
    isplitl [H21]; · iexact H21
    isplitl [H22]; · iexact H22
    iexact Hrest
  iexact H

/-- The receive buffer's rest, held apart, turns the nine slots' return into the whole buffer. -/
theorem mk_rbufBack (c : Dev nD) (fR : Buf (Elt F) ((c : Thread nD τ).loc cc0_scratch1)) :
    ((((c : Thread nD τ).loc cc0_scratch1) ↦[Mem.slotRest]{fullShare} fR) : sProp 𝕄) ⊢ Cuts.rbufBack c := by
  unfold Cuts.rbufBack
  iintro Hrest ⟨⟨%f00, H00⟩, ⟨%f01, H01⟩, ⟨%f02, H02⟩, ⟨%f10, H10⟩, ⟨%f11, H11⟩, ⟨%f12, H12⟩, ⟨%f20, H20⟩, ⟨%f21, H21⟩, ⟨%f22, H22⟩⟩
  ihave H := (Mem.rbuf_join c fullShare f00 f01 f02 f10 f11 f12 f20 f21 f22 fR) $$ [H00 H01 H02 H10 H11 H12 H20 H21 H22 Hrest]
  · isplitl [H00]; · iexact H00
    isplitl [H01]; · iexact H01
    isplitl [H02]; · iexact H02
    isplitl [H10]; · iexact H10
    isplitl [H11]; · iexact H11
    isplitl [H12]; · iexact H12
    isplitl [H20]; · iexact H20
    isplitl [H21]; · iexact H21
    isplitl [H22]; · iexact H22
    iexact Hrest
  iexact H

section Ob
variable (m : (ℓ : Loc nD τ sig) → Buf (Elt F) ℓ) (ρ : Dev nD → PrngReg)

section Body
variable (K : Dev nD × CIx → ℕ)

def bodyPre (c : Dev nD) : sProp 𝕄 :=
  iprop(((records m K ∗ positions c ∗ payToks c) ∗ creds c ∗ levAts L lv ∗ scr c)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

set_option maxRecDepth 8192 in
set_option maxHeartbeats 4000000 in
/-- The first six parts, from the obligation's precondition with the ghost state opened to the cut PreR0, and on. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6) Kt := by
  unfold bodyPre scr
  rw [payToks_eq, positions_eq, creds_eq]
  iintro ⟨⟨⟨⟨#Hrec, ⟨Pbar, P000, P001, P002, P010, P011, P012, P020, P021, P022, P100, P101, P102, P110, P111, P112, P120, P121, P122, P200, P201, P202, P210, P211, P212, P220, P221, P222, P300, P301, P302, P310, P311, P312, P320, P321, P322⟩, ⟨⟨Tb0, Tb1, Tb2, Tb3⟩, ⟨Tr00, Tr01, Tr02, Tr10, Tr11, Tr12, Tr20, Tr21, Tr22⟩, ⟨Ta00, Ta01, Ta10, Ta11, Ta20, Ta21⟩, ⟨Ts00, Ts01, Ts02, Ts10, Ts11, Ts12, Ts20, Ts21, Ts22⟩, ⟨Tg00, Tg01, Tg10, Tg11, Tg20, Tg21⟩⟩⟩, ⟨Cbar, ⟨Cr00, Cr01, Cr02, Cr10, Cr11, Cr12, Cr20, Cr21, Cr22⟩, ⟨Ca00, Ca01, Ca10, Ca11, Ca20, Ca21⟩⟩, #Hlev, ⟨%fs, Hs⟩, ⟨%fr, Hr⟩, ⟨%fa, Ha⟩⟩,
    Ho, ⟨%d0, %g0, %hg0, Hx⟩, ⟨%d1, %g1, %hg1, Hg⟩, ⟨%d2, %g2, %hg2, Hu⟩, ⟨%d3, %g3, %hg3, Hd⟩, ⟨%d4, %g4, %hg4, Hout⟩⟩, Hk⟩
  unfold Dat.owesAt Pipeline.owesWithin
  icases Ho with ⟨%W, %hW, HO⟩
  rw [show (dats m ρ 0 c).owed t0_0.castSucc = Orem c 0 from rfl, Orem_0_4]
  have hx : g0 = xIn m c := by rw [hg0]; unfold Dat.before; rw [if_pos (Gen.fetch0_0 t0_0)]; rfl
  have hg : g1 = gIn m c := by rw [hg1]; unfold Dat.before; rw [if_pos (Gen.fetch0_1 t0_0)]; rfl
  have hu : g2 = uIn m c := by rw [hg2]; unfold Dat.before; rw [if_pos (Gen.fetch0_2 t0_0)]; rfl
  have hd : g3 = dIn m c := by rw [hg3]; unfold Dat.before; rw [if_pos (Gen.fetch0_3 t0_0)]; rfl
  ihave HR := ((Mem.rbuf_split c fullShare fr).1) $$ Hr
  icases HR with ⟨R00, R01, R02, R10, R11, R12, R20, R21, R22, Rrest⟩
  ihave HA := ((Mem.abuf_split c fullShare fa).1) $$ Ha
  icases HA with ⟨AQ0, AQ1, AQ2, AP0, AP1, AP2, AH0, AH1, AH2⟩
  ihave HS := ((Mem.sbuf_split c fullShare fs).1) $$ Hs
  icases HS with ⟨S00, S01, S02, S10, S11, S12, S20, S21, S22, Srest⟩
  ihave Hx := (show ((((c : Thread nD τ).loc cc0_stg0_0) ↦{fullShare} g0 : sProp 𝕄)) ⊢ ((xM : Memref sig .tc .vmem S1024x1024 .f32).view.loc (c : Thread nD τ) ↦{fullShare} g0) from Entails.rfl) $$ Hx
  ihave Hg := (show ((((c : Thread nD τ).loc cc0_stg1_0) ↦{fullShare} g1 : sProp 𝕄)) ⊢ ((gM : Memref sig .tc .vmem S1024x2048 .f32).view.loc (c : Thread nD τ) ↦{fullShare} g1) from Entails.rfl) $$ Hg
  ihave Hu := (show ((((c : Thread nD τ).loc cc0_stg2_0) ↦{fullShare} g2 : sProp 𝕄)) ⊢ ((uM : Memref sig .tc .vmem S1024x2048 .f32).view.loc (c : Thread nD τ) ↦{fullShare} g2) from Entails.rfl) $$ Hu
  ihave Hd := (show ((((c : Thread nD τ).loc cc0_stg3_0) ↦{fullShare} g3 : sProp 𝕄)) ⊢ ((dM : Memref sig .tc .vmem S2048x1024 .f32).view.loc (c : Thread nD τ) ↦{fullShare} g3) from Entails.rfl) $$ Hd
  ihave Hout := (show ((((c : Thread nD τ).loc cc0_stg4_0) ↦{fullShare} g4 : sProp 𝕄)) ⊢ ((oM : Memref sig .tc .vmem S1024x1024 .f32).view.loc (c : Thread nD τ) ↦{fullShare} g4) from Entails.rfl) $$ Hout
  subst hx hg hu hd
  sl_unfold [cc0_body]
  sl_exec_parts
  iapply (sig0 m K c (Orem c 4 + tallyAt (barCell (Mesh.px 4 c)) () 1 + tallyAt (barCell (Mesh.px 3 c)) () 1 + tallyAt (barCell (Mesh.px 2 c)) () 1) fr fr fr fa fa) $$ [HO Tb0 R01 R12 R20 AP0 AH2]
  · isplitr; · iexact Hrec
    isplitl [HO]; · iexact HO
    isplitl [Tb0]; · iexact Tb0
    isplitl [R01]; · iexact R01
    isplitl [R12]; · iexact R12
    isplitl [R20]; · iexact R20
    isplitl [AP0]; · iexact AP0
    iexact AH2
  iintro HO
  sl_exec_parts
  iapply (sig1 m K c (Orem c 4 + tallyAt (barCell (Mesh.px 4 c)) () 1 + tallyAt (barCell (Mesh.px 3 c)) () 1) fr) $$ [HO Tb1 R22]
  · isplitr; · iexact Hrec
    isplitl [HO]; · iexact HO
    isplitl [Tb1]; · iexact Tb1
    iexact R22
  iintro HO
  sl_exec_parts
  iapply (sig2 m K c (Orem c 4 + tallyAt (barCell (Mesh.px 4 c)) () 1) fr fr fa fa) $$ [HO Tb2 R00 R11 AH0 AP1]
  · isplitr; · iexact Hrec
    isplitl [HO]; · iexact HO
    isplitl [Tb2]; · iexact Tb2
    isplitl [R00]; · iexact R00
    isplitl [R11]; · iexact R11
    isplitl [AH0]; · iexact AH0
    iexact AP1
  iintro HO
  sl_exec_parts
  iapply (sig3 m K c (Orem c 4) fr fr fr fa fa) $$ [HO Tb3 R02 R10 R21 AH1 AP2]
  · isplitr; · iexact Hrec
    isplitl [HO]; · iexact HO
    isplitl [Tb3]; · iexact Tb3
    isplitl [R02]; · iexact R02
    isplitl [R10]; · iexact R10
    isplitl [R21]; · iexact R21
    isplitl [AH1]; · iexact AH1
    iexact AP2
  iintro HO
  sl_exec_parts
  iapply (barwait m K c) $$ [Cbar HO Pbar]
  · isplitr; · iexact Hrec
    isplitr; · iexact Hlev
    isplitl [Cbar]; · iexact Cbar
    isplitl [HO]; · iexact HO
    iexact Pbar
  iintro ⟨HO, Pbar, ⟨⟨⟨⟨%q101, Q101⟩, -⟩, ⟨⟨%q112, Q112⟩, -⟩, ⟨⟨%q120, Q120⟩, -⟩, ⟨⟨%q301, Q301⟩, -⟩, ⟨⟨%q320, Q320⟩, -⟩⟩, ⟨⟨⟨%q122, Q122⟩, -⟩⟩, ⟨⟨⟨%q100, Q100⟩, -⟩, ⟨⟨%q111, Q111⟩, -⟩, ⟨⟨%q300, Q300⟩, -⟩, ⟨⟨%q311, Q311⟩, -⟩⟩, ⟨⟨⟨%q102, Q102⟩, -⟩, ⟨⟨%q110, Q110⟩, -⟩, ⟨⟨%q121, Q121⟩, -⟩, ⟨⟨%q310, Q310⟩, -⟩, ⟨⟨%q321, Q321⟩, -⟩⟩⟩⟩
  sl_exec_parts
  rw [Orem_4]
  iapply (send00p m K c _ (Mesh.dev5_eq c) (Orem c 5)) $$ [S00 Q100 HO Ts00 Tr00]
  · isplitr; · iexact Hrec
    isplitl [S00]; · iexact S00
    isplitl [Q100]; · iexact Q100
    isplitl [HO]; · iexact HO
    isplitl [Ts00]; · iexact Ts00
    isplitl [Tr00]; · iexact Tr00
    ipureintro; intro r q hr hq
    sl_unfold_run_names
    exact sent00 m c _ _ _ (tile_S0 m c) r q hr hq
  iintro ⟨Cs00, HO⟩
  sl_exec_parts
  rw [Orem_5]
  iapply (send10p m K c _ (Mesh.dev6_eq c) (Orem c 6)) $$ [S10 Q110 HO Ts10 Tr10]
  · isplitr; · iexact Hrec
    isplitl [S10]; · iexact S10
    isplitl [Q110]; · iexact Q110
    isplitl [HO]; · iexact HO
    isplitl [Ts10]; · iexact Ts10
    isplitl [Tr10]; · iexact Tr10
    ipureintro; intro r q hr hq
    sl_unfold_run_names
    exact sent10 m c _ _ _ (tile_S1 m c) r q hr hq
  iintro ⟨Cs10, HO⟩
  sl_exec_parts
  rw [Orem_6]
  iapply (send20p m K c _ (Mesh.dev7_eq c) (Orem c 7)) $$ [S20 Q120 HO Ts20 Tr20]
  · isplitr; · iexact Hrec
    isplitl [S20]; · iexact S20
    isplitl [Q120]; · iexact Q120
    isplitl [HO]; · iexact HO
    isplitl [Ts20]; · iexact Ts20
    isplitl [Tr20]; · iexact Tr20
    ipureintro; intro r q hr hq
    sl_unfold_run_names
    exact sent20 m c _ _ _ (tile_S2 m c) r q hr hq
  iintro ⟨Cs20, HO⟩
  set_option sl_exec.maxSteps 17 in sl_exec_parts
  iapply (from_R0 m ρ K c (insert (SemLoc.reg barS, ()) W) _ _ _ _ _ _ _ _ (sound_body.sl.r_5 m c) (by sl_unfold_run_names; rfl) Kt)
  isplitr [Hk]
  · unfold Cuts.PreR0
    isplitr; · iexact Hrec
    isplitr; · iexact Hlev
    isplitl [Pbar]; · iexact Pbar
    isplitl [P100]; · iexact P100
    isplitl [P101]; · iexact P101
    isplitl [P102]; · iexact P102
    isplitl [P110]; · iexact P110
    isplitl [P111]; · iexact P111
    isplitl [P112]; · iexact P112
    isplitl [P120]; · iexact P120
    isplitl [P121]; · iexact P121
    isplitl [P122]; · iexact P122
    isplitl [P000]; · iexact P000
    isplitl [P001]; · iexact P001
    isplitl [P002]; · iexact P002
    isplitl [P010]; · iexact P010
    isplitl [P011]; · iexact P011
    isplitl [P012]; · iexact P012
    isplitl [P020]; · iexact P020
    isplitl [P021]; · iexact P021
    isplitl [P022]; · iexact P022
    isplitl [P200]; · iexact P200
    isplitl [P201]; · iexact P201
    isplitl [P202]; · iexact P202
    isplitl [P210]; · iexact P210
    isplitl [P211]; · iexact P211
    isplitl [P212]; · iexact P212
    isplitl [P220]; · iexact P220
    isplitl [P221]; · iexact P221
    isplitl [P222]; · iexact P222
    isplitl [P300]; · iexact P300
    isplitl [P301]; · iexact P301
    isplitl [P302]; · iexact P302
    isplitl [P310]; · iexact P310
    isplitl [P311]; · iexact P311
    isplitl [P312]; · iexact P312
    isplitl [P320]; · iexact P320
    isplitl [P321]; · iexact P321
    isplitl [P322]; · iexact P322
    isplitl [Tr01]; · iexact Tr01
    isplitl [Tr02]; · iexact Tr02
    isplitl [Tr11]; · iexact Tr11
    isplitl [Tr12]; · iexact Tr12
    isplitl [Tr21]; · iexact Tr21
    isplitl [Tr22]; · iexact Tr22
    isplitl [Ts01]; · iexact Ts01
    isplitl [Ts02]; · iexact Ts02
    isplitl [Ts11]; · iexact Ts11
    isplitl [Ts12]; · iexact Ts12
    isplitl [Ts21]; · iexact Ts21
    isplitl [Ts22]; · iexact Ts22
    isplitl [Ta00]; · iexact Ta00
    isplitl [Ta01]; · iexact Ta01
    isplitl [Ta10]; · iexact Ta10
    isplitl [Ta11]; · iexact Ta11
    isplitl [Ta20]; · iexact Ta20
    isplitl [Ta21]; · iexact Ta21
    isplitl [Tg00]; · iexact Tg00
    isplitl [Tg01]; · iexact Tg01
    isplitl [Tg10]; · iexact Tg10
    isplitl [Tg11]; · iexact Tg11
    isplitl [Tg20]; · iexact Tg20
    isplitl [Tg21]; · iexact Tg21
    isplitl [Cr00]; · iexact Cr00
    isplitl [Cr01]; · iexact Cr01
    isplitl [Cr02]; · iexact Cr02
    isplitl [Cr10]; · iexact Cr10
    isplitl [Cr11]; · iexact Cr11
    isplitl [Cr12]; · iexact Cr12
    isplitl [Cr20]; · iexact Cr20
    isplitl [Cr21]; · iexact Cr21
    isplitl [Cr22]; · iexact Cr22
    isplitl [Ca00]; · iexact Ca00
    isplitl [Ca01]; · iexact Ca01
    isplitl [Ca10]; · iexact Ca10
    isplitl [Ca11]; · iexact Ca11
    isplitl [Ca20]; · iexact Ca20
    isplitl [Ca21]; · iexact Ca21
    isplitl [Cs00]; · iexact Cs00
    isplitl [Cs10]; · iexact Cs10
    isplitl [Cs20]; · iexact Cs20
    isplitl [HO]; · iexact HO
    isplitl [Hx]; · iexact Hx
    isplitl [Hg]; · iexact Hg
    isplitl [Hu]; · iexact Hu
    isplitl [Hd]; · iexact Hd
    isplitl [Hout]
    · iexists _
      isplitl [Hout]; · iexact Hout
      ipureintro
      sl_unfold_run_names
      exact ⟨fun r q hr hq => kept_out0 m c g4 _ _ _ (tile_K0 m c) r q hr hq, fun r q hr hq => kept_out1 m c g4 _ _ (tile_K1 m c) r q hr hq⟩
    isplitl [Srest]; · (iapply (mk_sbufBack c fs); iexact Srest)
    isplitl [S01]; · (iexists _; iexact S01)
    isplitl [S02]; · (iexists _; iexact S02)
    isplitl [S11]; · (iexists _; iexact S11)
    isplitl [S12]; · (iexists _; iexact S12)
    isplitl [S21]; · (iexists _; iexact S21)
    isplitl [S22]; · (iexists _; iexact S22)
    isplitl [Rrest]; · (iapply (mk_rbufBack c fr); iexact Rrest)
    isplitl [AQ0]; · (iexists _; iexact AQ0)
    isplitl [AQ1]; · (iexists _; iexact AQ1)
    isplitl [AQ2]; · (iexists _; iexact AQ2)
    isplitl [Q101]; · (iexists _; iexact Q101)
    isplitl [Q102]; · (iexists _; iexact Q102)
    isplitl [Q111]; · (iexists _; iexact Q111)
    isplitl [Q112]; · (iexists _; iexact Q112)
    isplitl [Q121]; · (iexists _; iexact Q121)
    isplitl [Q122]; · (iexists _; iexact Q122)
    isplitl [Q301]; · (iexists _; iexact Q301)
    isplitl [Q311]; · (iexists _; iexact Q311)
    isplitl [Q321]; · (iexists _; iexact Q321)
    isplitl [Q300]; · (iexists _; iexact Q300)
    isplitl [Q310]; · (iexists _; iexact Q310)
    iexists _; iexact Q320
  · iexact Hk
end Body
end Ob

end Pre

section Ob
variable (m : (ℓ : Loc nD τ sig) → Buf (Elt F) ℓ) (ρ : Dev nD → PrngReg)

set_option maxRecDepth 8192 in
/-- The body obligation on device c. -/
theorem body_ob (c : Dev nD) : Iface.BodyOb m ρ c := fun t => by
  rw [Gen.fin_N0 t]
  rw [Gen.bigSep_W0, Gen.bigSep_W0]
  simp only [owns_whole_eq]
  show bodyPre' m ρ c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6) (fun _ => bodyPost m ρ c)
  unfold bodyPre' Φ₀ start ghost
  iintro ⟨⟨⟨⟨%K, Hgh⟩, Hcr, Hlv⟩, Hscr⟩, Ho, Hx, Hg, Hu, Hd, Hout⟩
  iapply (Pre.sound_body m ρ K c fun _ => bodyPost m ρ c)
  unfold Pre.bodyPre
  isplitr []
  · isplitl [Hgh Hcr Hlv Hscr]
    · isplitl [Hgh]; · iexact Hgh
      isplitl [Hcr]; · iexact Hcr
      isplitl [Hlv]; · iexact Hlv
      iexact Hscr
    isplitl [Ho]; · iexact Ho
    isplitl [Hx]; · iexact Hx
    isplitl [Hg]; · iexact Hg
    isplitl [Hu]; · iexact Hu
    isplitl [Hd]; · iexact Hd
    iexact Hout
  · iintro H; iexact H

end Ob

/-- info: 'Cert.KernelIdeal.Body.body_ob' depends on axioms: [propext, Classical.choice, Quot.sound] -/
#guard_msgs in #print axioms body_ob

end Cert.KernelIdeal.Body

end
-- ==== Proof.KMesh.lean ====
import proofs.«900524_g7700000000000525_dist_gated_mlp_tp_i_m1024_h2048_d1024_v7x_i8_f32_1_alg».proof.Proof.Gen.Kernel

/-! # The mesh arithmetic

Every device id and every row offset the kernel computes is an integer chain over the device's own
index `c ∈ {0,…,7}`.  Here each chain is given its closed form:

* a device id is `c xor m` for a mask `m ∈ {1,2,3,4}` (`px m c`);
* `c > c xor m` holds exactly when the highest bit of `m` is set in `c`, so every row offset is a
  base plus a choice made by one bit of `c` per stage (`hi j c` is bit `j` of `c`).

The three butterflies own the row ranges 0..384, 384..768, 768..1024; their masks are
(3,1,4), (4,3,1), (1,4,2), so the deciding bits are (1,0,2), (2,1,0), (0,2,1).
All statements are decided over the eight devices. -/

set_option Elab.async false

namespace Cert.Kernel.Mesh

open Idealize.ShloMosaic Idealize.SL.Sem
open Cert.Kernel Cert.Kernel.Gen

/-- The partner of device `c` under the mask `m`: `c xor m`, kept inside the mesh. -/
def px (m : ℕ) (c : Dev nD) : Dev nD := ⟨(c.val ^^^ m) % 8, Nat.mod_lt _ (by decide)⟩

/-- Bit `j` of the device index. -/
def hi (j : ℕ) (c : Dev nD) : Bool := c.val.testBit j

theorem px_val (m : ℕ) (c : Dev nD) : (px m c).val = (c.val ^^^ m) % 8 := rfl

/-! ## The partner map -/

/-- `xor` with a mask is an involution. -/
theorem px_px (m : ℕ) (hm : m < 8) (c : Dev nD) : px m (px m c) = c := by
  have h : ∀ m : Fin 8, ∀ c : Dev nD, px m.val (px m.val c) = c := by decide +kernel
  exact h ⟨m, hm⟩ c

/-- A nonzero mask moves every device. -/
theorem px_ne (m : ℕ) (h0 : 0 < m) (hm : m < 8) (c : Dev nD) : px m c ≠ c := by
  have h : ∀ m : Fin 8, 0 < m.val → ∀ c : Dev nD, px m.val c ≠ c := by decide +kernel
  exact h ⟨m, hm⟩ h0 c

/-- Two masks compose to their `xor`. -/
theorem px_comp (a b : ℕ) (ha : a < 8) (hb : b < 8) (c : Dev nD) : px a (px b c) = px (a ^^^ b) c := by
  have h : ∀ a b : Fin 8, ∀ c : Dev nD, px a.val (px b.val c) = px (a.val ^^^ b.val) c := by
    decide +kernel
  exact h ⟨a, ha⟩ ⟨b, hb⟩ c

theorem px_inj (m : ℕ) (hm : m < 8) {c c' : Dev nD} (h : px m c = px m c') : c = c' := by
  have := congrArg (px m) h
  rwa [px_px m hm, px_px m hm] at this

theorem px_eq_iff (m : ℕ) (hm : m < 8) (c c' : Dev nD) : px m c = c' ↔ c = px m c' :=
  ⟨fun h => by rw [← h, px_px m hm], fun h => by rw [h, px_px m hm]⟩

theorem px_zero (c : Dev nD) : px 0 c = c := by
  revert c; decide +kernel

@[simp] theorem px1_px1 (c : Dev nD) : px 1 (px 1 c) = c := px_px 1 (by decide) c
theorem px1_ne (c : Dev nD) : px 1 c ≠ c := px_ne 1 (by decide) (by decide) c
theorem ne_px1 (c : Dev nD) : c ≠ px 1 c := fun h => px1_ne c h.symm
@[simp] theorem px2_px2 (c : Dev nD) : px 2 (px 2 c) = c := px_px 2 (by decide) c
theorem px2_ne (c : Dev nD) : px 2 c ≠ c := px_ne 2 (by decide) (by decide) c
theorem ne_px2 (c : Dev nD) : c ≠ px 2 c := fun h => px2_ne c h.symm
@[simp] theorem px3_px3 (c : Dev nD) : px 3 (px 3 c) = c := px_px 3 (by decide) c
theorem px3_ne (c : Dev nD) : px 3 c ≠ c := px_ne 3 (by decide) (by decide) c
theorem ne_px3 (c : Dev nD) : c ≠ px 3 c := fun h => px3_ne c h.symm
@[simp] theorem px4_px4 (c : Dev nD) : px 4 (px 4 c) = c := px_px 4 (by decide) c
theorem px4_ne (c : Dev nD) : px 4 c ≠ c := px_ne 4 (by decide) (by decide) c
theorem ne_px4 (c : Dev nD) : c ≠ px 4 c := fun h => px4_ne c h.symm

/-! ## Bits of a partner -/

/-- Bit `j` of `c xor m` is bit `j` of `c`, flipped when bit `j` of `m` is set. -/
theorem hi_px (j m : ℕ) (hj : j < 3) (hm : m < 8) (c : Dev nD) :
    hi j (px m c) = (hi j c ^^ m.testBit j) := by
  have h : ∀ j : Fin 3, ∀ m : Fin 8, ∀ c : Dev nD,
      hi j.val (px m.val c) = (hi j.val c ^^ m.val.testBit j.val) := by decide +kernel
  exact h ⟨j, hj⟩ ⟨m, hm⟩ c

@[simp] theorem hi0_px1 (c : Dev nD) : hi 0 (px 1 c) = !hi 0 c := by
  revert c; decide +kernel
@[simp] theorem hi1_px1 (c : Dev nD) : hi 1 (px 1 c) = hi 1 c := by
  revert c; decide +kernel
@[simp] theorem hi2_px1 (c : Dev nD) : hi 2 (px 1 c) = hi 2 c := by
  revert c; decide +kernel
@[simp] theorem hi0_px2 (c : Dev nD) : hi 0 (px 2 c) = hi 0 c := by
  revert c; decide +kernel
@[simp] theorem hi1_px2 (c : Dev nD) : hi 1 (px 2 c) = !hi 1 c := by
  revert c; decide +kernel
@[simp] theorem hi2_px2 (c : Dev nD) : hi 2 (px 2 c) = hi 2 c := by
  revert c; decide +kernel
@[simp] theorem hi0_px3 (c : Dev nD) : hi 0 (px 3 c) = !hi 0 c := by
  revert c; decide +kernel
@[simp] theorem hi1_px3 (c : Dev nD) : hi 1 (px 3 c) = !hi 1 c := by
  revert c; decide +kernel
@[simp] theorem hi2_px3 (c : Dev nD) : hi 2 (px 3 c) = hi 2 c := by
  revert c; decide +kernel
@[simp] theorem hi0_px4 (c : Dev nD) : hi 0 (px 4 c) = hi 0 c := by
  revert c; decide +kernel
@[simp] theorem hi1_px4 (c : Dev nD) : hi 1 (px 4 c) = hi 1 c := by
  revert c; decide +kernel
@[simp] theorem hi2_px4 (c : Dev nD) : hi 2 (px 4 c) = !hi 2 c := by
  revert c; decide +kernel

/-- A device is its three bits. -/
theorem ext_hi {c c' : Dev nD} (h0 : hi 0 c = hi 0 c') (h1 : hi 1 c = hi 1 c') (h2 : hi 2 c = hi 2 c') :
    c = c' := by
  revert c c'; decide +kernel

/-- The index from its bits. -/
theorem val_eq_bits (c : Dev nD) :
    c.val = (if hi 2 c then 4 else 0) + (if hi 1 c then 2 else 0) + (if hi 0 c then 1 else 0) := by
  revert c; decide +kernel

/-! ## The device ids -/

/-- barrier signal: the addressed device is `c xor 1`. -/
theorem dev1_eq_of (c : Dev nD) (h : k0_dev1 c < nD) : (⟨k0_dev1 c, h⟩ : Dev nD) = px 1 c := by
  revert c; decide +kernel
@[sl_canon] theorem dev1_eq (c : Dev nD) : (⟨k0_dev1 c, k0_dev1_lt c⟩ : Dev nD) = px 1 c :=
  dev1_eq_of c _

/-- barrier signal: the addressed device is `c xor 2`. -/
theorem dev2_eq_of (c : Dev nD) (h : k0_dev2 c < nD) : (⟨k0_dev2 c, h⟩ : Dev nD) = px 2 c := by
  revert c; decide +kernel
@[sl_canon] theorem dev2_eq (c : Dev nD) : (⟨k0_dev2 c, k0_dev2_lt c⟩ : Dev nD) = px 2 c :=
  dev2_eq_of c _

/-- barrier signal: the addressed device is `c xor 3`. -/
theorem dev3_eq_of (c : Dev nD) (h : k0_dev3 c < nD) : (⟨k0_dev3 c, h⟩ : Dev nD) = px 3 c := by
  revert c; decide +kernel
@[sl_canon] theorem dev3_eq (c : Dev nD) : (⟨k0_dev3 c, k0_dev3_lt c⟩ : Dev nD) = px 3 c :=
  dev3_eq_of c _

/-- barrier signal: the addressed device is `c xor 4`. -/
theorem dev4_eq_of (c : Dev nD) (h : k0_dev4 c < nD) : (⟨k0_dev4 c, h⟩ : Dev nD) = px 4 c := by
  revert c; decide +kernel
@[sl_canon] theorem dev4_eq (c : Dev nD) : (⟨k0_dev4 c, k0_dev4_lt c⟩ : Dev nD) = px 4 c :=
  dev4_eq_of c _

/-- reduce-scatter stage 0, butterfly 0: the addressed device is `c xor 3`. -/
theorem dev5_eq_of (c : Dev nD) (h : k0_dev5 c < nD) : (⟨k0_dev5 c, h⟩ : Dev nD) = px 3 c := by
  revert c; decide +kernel
@[sl_canon] theorem dev5_eq (c : Dev nD) : (⟨k0_dev5 c, k0_dev5_lt c⟩ : Dev nD) = px 3 c :=
  dev5_eq_of c _

/-- reduce-scatter stage 0, butterfly 1: the addressed device is `c xor 4`. -/
theorem dev6_eq_of (c : Dev nD) (h : k0_dev6 c < nD) : (⟨k0_dev6 c, h⟩ : Dev nD) = px 4 c := by
  revert c; decide +kernel
@[sl_canon] theorem dev6_eq (c : Dev nD) : (⟨k0_dev6 c, k0_dev6_lt c⟩ : Dev nD) = px 4 c :=
  dev6_eq_of c _

/-- reduce-scatter stage 0, butterfly 2: the addressed device is `c xor 1`. -/
theorem dev7_eq_of (c : Dev nD) (h : k0_dev7 c < nD) : (⟨k0_dev7 c, h⟩ : Dev nD) = px 1 c := by
  revert c; decide +kernel
@[sl_canon] theorem dev7_eq (c : Dev nD) : (⟨k0_dev7 c, k0_dev7_lt c⟩ : Dev nD) = px 1 c :=
  dev7_eq_of c _

/-- reduce-scatter stage 1, butterfly 0: the addressed device is `c xor 1`. -/
theorem dev8_eq_of (c : Dev nD) (h : k0_dev8 c < nD) : (⟨k0_dev8 c, h⟩ : Dev nD) = px 1 c := by
  revert c; decide +kernel
@[sl_canon] theorem dev8_eq (c : Dev nD) : (⟨k0_dev8 c, k0_dev8_lt c⟩ : Dev nD) = px 1 c :=
  dev8_eq_of c _

/-- reduce-scatter stage 1, butterfly 1: the addressed device is `c xor 3`. -/
theorem dev9_eq_of (c : Dev nD) (h : k0_dev9 c < nD) : (⟨k0_dev9 c, h⟩ : Dev nD) = px 3 c := by
  revert c; decide +kernel
@[sl_canon] theorem dev9_eq (c : Dev nD) : (⟨k0_dev9 c, k0_dev9_lt c⟩ : Dev nD) = px 3 c :=
  dev9_eq_of c _

/-- reduce-scatter stage 1, butterfly 2: the addressed device is `c xor 4`. -/
theorem dev10_eq_of (c : Dev nD) (h : k0_dev10 c < nD) : (⟨k0_dev10 c, h⟩ : Dev nD) = px 4 c := by
  revert c; decide +kernel
@[sl_canon] theorem dev10_eq (c : Dev nD) : (⟨k0_dev10 c, k0_dev10_lt c⟩ : Dev nD) = px 4 c :=
  dev10_eq_of c _

/-- pairwise exchange (stage 2), butterfly 0: the addressed device is `c xor 4`. -/
theorem dev11_eq_of (c : Dev nD) (h : k0_dev11 c < nD) : (⟨k0_dev11 c, h⟩ : Dev nD) = px 4 c := by
  revert c; decide +kernel
@[sl_canon] theorem dev11_eq (c : Dev nD) : (⟨k0_dev11 c, k0_dev11_lt c⟩ : Dev nD) = px 4 c :=
  dev11_eq_of c _

/-- pairwise exchange (stage 2), butterfly 1: the addressed device is `c xor 1`. -/
theorem dev12_eq_of (c : Dev nD) (h : k0_dev12 c < nD) : (⟨k0_dev12 c, h⟩ : Dev nD) = px 1 c := by
  revert c; decide +kernel
@[sl_canon] theorem dev12_eq (c : Dev nD) : (⟨k0_dev12 c, k0_dev12_lt c⟩ : Dev nD) = px 1 c :=
  dev12_eq_of c _

/-- pairwise exchange (stage 2), butterfly 2: the addressed device is `c xor 2`. -/
theorem dev13_eq_of (c : Dev nD) (h : k0_dev13 c < nD) : (⟨k0_dev13 c, h⟩ : Dev nD) = px 2 c := by
  revert c; decide +kernel
@[sl_canon] theorem dev13_eq (c : Dev nD) : (⟨k0_dev13 c, k0_dev13_lt c⟩ : Dev nD) = px 2 c :=
  dev13_eq_of c _

/-- all-gather stage 1, butterfly 0: the addressed device is `c xor 1`. -/
theorem dev14_eq_of (c : Dev nD) (h : k0_dev14 c < nD) : (⟨k0_dev14 c, h⟩ : Dev nD) = px 1 c := by
  revert c; decide +kernel
@[sl_canon] theorem dev14_eq (c : Dev nD) : (⟨k0_dev14 c, k0_dev14_lt c⟩ : Dev nD) = px 1 c :=
  dev14_eq_of c _

/-- all-gather stage 1, butterfly 1: the addressed device is `c xor 3`. -/
theorem dev15_eq_of (c : Dev nD) (h : k0_dev15 c < nD) : (⟨k0_dev15 c, h⟩ : Dev nD) = px 3 c := by
  revert c; decide +kernel
@[sl_canon] theorem dev15_eq (c : Dev nD) : (⟨k0_dev15 c, k0_dev15_lt c⟩ : Dev nD) = px 3 c :=
  dev15_eq_of c _

/-- all-gather stage 1, butterfly 2: the addressed device is `c xor 4`. -/
theorem dev16_eq_of (c : Dev nD) (h : k0_dev16 c < nD) : (⟨k0_dev16 c, h⟩ : Dev nD) = px 4 c := by
  revert c; decide +kernel
@[sl_canon] theorem dev16_eq (c : Dev nD) : (⟨k0_dev16 c, k0_dev16_lt c⟩ : Dev nD) = px 4 c :=
  dev16_eq_of c _

/-- all-gather stage 0, butterfly 0: the addressed device is `c xor 3`. -/
theorem dev17_eq_of (c : Dev nD) (h : k0_dev17 c < nD) : (⟨k0_dev17 c, h⟩ : Dev nD) = px 3 c := by
  revert c; decide +kernel
@[sl_canon] theorem dev17_eq (c : Dev nD) : (⟨k0_dev17 c, k0_dev17_lt c⟩ : Dev nD) = px 3 c :=
  dev17_eq_of c _

/-- all-gather stage 0, butterfly 1: the addressed device is `c xor 4`. -/
theorem dev18_eq_of (c : Dev nD) (h : k0_dev18 c < nD) : (⟨k0_dev18 c, h⟩ : Dev nD) = px 4 c := by
  revert c; decide +kernel
@[sl_canon] theorem dev18_eq (c : Dev nD) : (⟨k0_dev18 c, k0_dev18_lt c⟩ : Dev nD) = px 4 c :=
  dev18_eq_of c _

/-- all-gather stage 0, butterfly 2: the addressed device is `c xor 1`. -/
theorem dev19_eq_of (c : Dev nD) (h : k0_dev19 c < nD) : (⟨k0_dev19 c, h⟩ : Dev nD) = px 1 c := by
  revert c; decide +kernel
@[sl_canon] theorem dev19_eq (c : Dev nD) : (⟨k0_dev19 c, k0_dev19_lt c⟩ : Dev nD) = px 1 c :=
  dev19_eq_of c _

/-! ## The row offsets

Each is `![row, 0]`: the column offset is always 0. -/

/-- butterfly 0 (rows 0..384), the half sent at stage 0. -/
theorem off1_a (c : Dev nD) : k0_off1 c 0#32 3#32 0#32 192#32 = ![if hi 1 c then 0 else 192, 0] := by
  revert c; decide +kernel

/-- butterfly 1 (rows 384..768), the half sent at stage 0. -/
theorem off1_b (c : Dev nD) : k0_off1 c 384#32 4#32 0#32 192#32 = ![if hi 2 c then 384 else 576, 0] := by
  revert c; decide +kernel

/-- butterfly 0, the half kept at stage 0. -/
theorem off1_c (c : Dev nD) : k0_off1 c 0#32 3#32 192#32 0#32 = ![if hi 1 c then 192 else 0, 0] := by
  revert c; decide +kernel

/-- butterfly 1, the half kept at stage 0. -/
theorem off1_d (c : Dev nD) : k0_off1 c 384#32 4#32 192#32 0#32 = ![if hi 2 c then 576 else 384, 0] := by
  revert c; decide +kernel

/-- butterfly 2 (rows 768..1024), the half sent at stage 0. -/
theorem off2_a (c : Dev nD) : k0_off2 c 0#32 128#32 = ![if hi 0 c then 768 else 896, 0] := by
  revert c; decide +kernel

/-- butterfly 2, the half kept at stage 0. -/
theorem off2_b (c : Dev nD) : k0_off2 c 128#32 0#32 = ![if hi 0 c then 896 else 768, 0] := by
  revert c; decide +kernel

/-- butterfly 0, the quarter sent at stage 1 (inside the half kept at stage 0). -/
theorem off3_a (c : Dev nD) : k0_off3 c 0#32 3#32 1#32 0#32 96#32 = ![(if hi 1 c then 192 else 0) + (if hi 0 c then 0 else 96), 0] := by
  revert c; decide +kernel

/-- butterfly 1, the quarter sent at stage 1. -/
theorem off3_b (c : Dev nD) : k0_off3 c 384#32 4#32 3#32 0#32 96#32 = ![(if hi 2 c then 576 else 384) + (if hi 1 c then 0 else 96), 0] := by
  revert c; decide +kernel

/-- butterfly 0, the quarter kept at stage 1 (exchanged whole at stage 2). -/
theorem off3_c (c : Dev nD) : k0_off3 c 0#32 3#32 1#32 96#32 0#32 = ![(if hi 1 c then 192 else 0) + (if hi 0 c then 96 else 0), 0] := by
  revert c; decide +kernel

/-- butterfly 1, the quarter kept at stage 1. -/
theorem off3_d (c : Dev nD) : k0_off3 c 384#32 4#32 3#32 96#32 0#32 = ![(if hi 2 c then 576 else 384) + (if hi 1 c then 96 else 0), 0] := by
  revert c; decide +kernel

/-- butterfly 2, the quarter sent at stage 1. -/
theorem off4_a (c : Dev nD) : k0_off4 c 0#32 64#32 = ![(if hi 0 c then 896 else 768) + (if hi 2 c then 0 else 64), 0] := by
  revert c; decide +kernel

/-- butterfly 2, the quarter kept at stage 1. -/
theorem off4_b (c : Dev nD) : k0_off4 c 64#32 0#32 = ![(if hi 0 c then 896 else 768) + (if hi 2 c then 64 else 0), 0] := by
  revert c; decide +kernel

/-- butterfly 0, the kept quarter, as the all-gather stage 1 slice. -/
theorem off5_a (c : Dev nD) : k0_off5 c 0#32 3#32 1#32 = ![(if hi 1 c then 192 else 0) + (if hi 0 c then 96 else 0), 0] := by
  revert c; decide +kernel

/-- butterfly 1, the kept quarter, as the all-gather stage 1 slice. -/
theorem off5_b (c : Dev nD) : k0_off5 c 384#32 4#32 3#32 = ![(if hi 2 c then 576 else 384) + (if hi 1 c then 96 else 0), 0] := by
  revert c; decide +kernel

/-- butterfly 2, the kept quarter, as the all-gather stage 1 slice. -/
theorem off6 (c : Dev nD) : k0_off6 c = ![(if hi 0 c then 896 else 768) + (if hi 2 c then 64 else 0), 0] := by
  revert c; decide +kernel

/-- butterfly 0, the half kept at stage 0, as the all-gather stage 0 slice. -/
theorem off7_a (c : Dev nD) : k0_off7 c 0#32 3#32 1#32 = ![if hi 1 c then 192 else 0, 0] := by
  revert c; decide +kernel

/-- butterfly 1, the half kept at stage 0, as the all-gather stage 0 slice. -/
theorem off7_b (c : Dev nD) : k0_off7 c 384#32 4#32 3#32 = ![if hi 2 c then 576 else 384, 0] := by
  revert c; decide +kernel

/-- butterfly 2, the half kept at stage 0, as the all-gather stage 0 slice. -/
theorem off8 (c : Dev nD) : k0_off8 c = ![if hi 0 c then 896 else 768, 0] := by
  revert c; decide +kernel

/-- butterfly 0, the half kept at stage 0, read back after the all-gather. -/
theorem off9_a (c : Dev nD) : k0_off9 c 0#32 3#32 1#32 = ![if hi 1 c then 192 else 0, 0] := by
  revert c; decide +kernel

/-- butterfly 1, the half kept at stage 0, read back after the all-gather. -/
theorem off9_b (c : Dev nD) : k0_off9 c 384#32 4#32 3#32 = ![if hi 2 c then 576 else 384, 0] := by
  revert c; decide +kernel

/-- butterfly 2, the half kept at stage 0, read back after the all-gather. -/
theorem off10 (c : Dev nD) : k0_off10 c = ![if hi 0 c then 896 else 768, 0] := by
  revert c; decide +kernel

/-- butterfly 0, the other half, received at all-gather stage 0. -/
theorem off11_a (c : Dev nD) : k0_off11 c 0#32 3#32 1#32 = ![if hi 1 c then 0 else 192, 0] := by
  revert c; decide +kernel

/-- butterfly 1, the other half, received at all-gather stage 0. -/
theorem off11_b (c : Dev nD) : k0_off11 c 384#32 4#32 3#32 = ![if hi 2 c then 384 else 576, 0] := by
  revert c; decide +kernel

/-- butterfly 2, the other half, received at all-gather stage 0. -/
theorem off12 (c : Dev nD) : k0_off12 c = ![if hi 0 c then 768 else 896, 0] := by
  revert c; decide +kernel

end Cert.Kernel.Mesh
-- ==== Proof.KVals.lean ====
/-
  The all-reduce's protocol as a schedule of rounds: every cell has one round; a device's barrier cell has four duties
  of one unit (one per partner c xor 1, 2, 3, 4); each of the fifteen send cells and fifteen receive cells one duty of
  its block's credit. Values are stated row by row: S0 is a device's own partial product, S1, S2, S3 the sums after
  the three exchange stages of a butterfly.
-/
import proofs.«900524_g7700000000000525_dist_gated_mlp_tp_i_m1024_h2048_d1024_v7x_i8_f32_1_alg».proof.Defs
import proofs.«900524_g7700000000000525_dist_gated_mlp_tp_i_m1024_h2048_d1024_v7x_i8_f32_1_alg».proof.Proof.Gen.Kernel
import proofs.«900524_g7700000000000525_dist_gated_mlp_tp_i_m1024_h2048_d1024_v7x_i8_f32_1_alg».proof.Proof.Gen.Kernel.Skeleton
import proofs.«900524_g7700000000000525_dist_gated_mlp_tp_i_m1024_h2048_d1024_v7x_i8_f32_1_alg».proof.Proof.Gen.Kernel.Launch
import proofs.«900524_g7700000000000525_dist_gated_mlp_tp_i_m1024_h2048_d1024_v7x_i8_f32_1_alg».proof.Proof.Gen.Kernel.Points
import proofs.«900524_g7700000000000525_dist_gated_mlp_tp_i_m1024_h2048_d1024_v7x_i8_f32_1_alg».proof.Proof.KMesh
import Idealize.ShloMosaic.Lib.Pipeline.Launch
import Idealize.ShloMosaic.Lib.Pipeline.Kit
import Idealize.ShloMosaic.Lib.ValueIdx
import Idealize.ShloMosaic.Lib.Tactic

noncomputable section

namespace Cert.Kernel.Sched

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties Fin 4) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners -/

/-! ## Buffers -/

abbrev xM : Memref sig .tc .vmem S1024x1024 .f32 := Memref.whole cc0_stg0_0
abbrev gM : Memref sig .tc .vmem S1024x2048 .f32 := Memref.whole cc0_stg1_0
abbrev uM : Memref sig .tc .vmem S1024x2048 .f32 := Memref.whole cc0_stg2_0
abbrev dM : Memref sig .tc .vmem S2048x1024 .f32 := Memref.whole cc0_stg3_0
abbrev oM : Memref sig .tc .vmem S1024x1024 .f32 := Memref.whole cc0_stg4_0
/-- the send staging buffer, the receive buffer, the gather buffer -/
abbrev sM : Memref sig .tc .vmem S3x384x1024 .bf16 := Memref.whole cc0_scratch0
abbrev rM : Memref sig .tc .vmem S3x384x1024 .bf16 := Memref.whole cc0_scratch1
abbrev aM : Memref sig .tc .vmem S1024x1024 .bf16 := Memref.whole cc0_scratch2

abbrev barS : Sem sig := (SemArray.scalar (sig.barrier 0 rfl) : Sems sig S_).sem

/-- The DMA semaphore of a 3×3 semaphore array at (b, k). -/
abbrev semAt (A : DmaSems sig S3x3) (b k : ℕ) (h : ∀ a, (![b, k] : Fin 2 → Nat) a + S1x1.size a ≤ S3x3.size a) : DmaSem sig :=
  ((A.slice (Rect.unit (s := S3x3) ![b, k] S1x1.size h)).squeeze S_ squeezes_S1x1_S_).sem

/-! ## What each device starts from: its blocks of the four inputs, as staged -/

variable (m : (ℓ : Loc nD τ sig) → Buf (Elt F) ℓ)

def xIn (c : Dev nD) : (cc0_stg0_0 : Ref sig .tc).ty.Contents (Elt F) :=
  (win0_0.blk (0 : Fin 1)).view.read (Elt F) (m ((c : Thread nD τ).loc main_arg0))
def gIn (c : Dev nD) : (cc0_stg1_0 : Ref sig .tc).ty.Contents (Elt F) :=
  (win0_1.blk (0 : Fin 1)).view.read (Elt F) (m ((c : Thread nD τ).loc main_arg1))
def uIn (c : Dev nD) : (cc0_stg2_0 : Ref sig .tc).ty.Contents (Elt F) :=
  (win0_2.blk (0 : Fin 1)).view.read (Elt F) (m ((c : Thread nD τ).loc main_arg2))
def dIn (c : Dev nD) : (cc0_stg3_0 : Ref sig .tc).ty.Contents (Elt F) :=
  (win0_3.blk (0 : Fin 1)).view.read (Elt F) (m ((c : Thread nD τ).loc main_arg3))

/-- Rows [o 0, o 0 + 192) of x, as a load reads them. -/
def xRows192 (c : Dev nD) (o : Fin 2 → Nat) (h : ∀ a, o a + S192x1024.size a ≤ S1024x1024.size a) : Vec F S192x1024 .f32 :=
  (xM : Memref sig .tc .vmem S1024x1024 .f32).view.readAt (Elt F) (Rect.unit (s := S1024x1024) o S192x1024.size h).toLoadRect (xIn m c)
def xRows128 (c : Dev nD) (o : Fin 2 → Nat) (h : ∀ a, o a + S128x1024.size a ≤ S1024x1024.size a) : Vec F S128x1024 .f32 :=
  (xM : Memref sig .tc .vmem S1024x1024 .f32).view.readAt (Elt F) (Rect.unit (s := S1024x1024) o S128x1024.size h).toLoadRect (xIn m c)

/-! ## The six tiles of a device's partial product, as the body's payloads compute them -/

/-- butterfly 0: the half sent at stage 0, the half kept -/
def tS0 (c : Dev nD) : FVec F S192x1024 .f32 := k0_pay1 (xRows192 m c (k0_off1 c 0#32 3#32 0#32 192#32) (k0_off1_inb c 0)) (gIn m c) (uIn m c) (dIn m c)
def tK0 (c : Dev nD) : FVec F S192x1024 .f32 := k0_pay10 (xRows192 m c (k0_off1 c 0#32 3#32 192#32 0#32) (k0_off1_inb c 2)) (gIn m c) (uIn m c) (dIn m c)
/-- butterfly 1 -/
def tS1 (c : Dev nD) : FVec F S192x1024 .f32 := k0_pay3 (xRows192 m c (k0_off1 c 384#32 4#32 0#32 192#32) (k0_off1_inb c 1)) (gIn m c) (uIn m c) (dIn m c)
def tK1 (c : Dev nD) : FVec F S192x1024 .f32 := k0_pay11 (xRows192 m c (k0_off1 c 384#32 4#32 192#32 0#32) (k0_off1_inb c 3)) (gIn m c) (uIn m c) (dIn m c)
/-- butterfly 2 -/
def tS2 (c : Dev nD) : FVec F S128x1024 .f32 :=
  k0_pay8 (k0_pay5 (xRows128 m c (k0_off2 c 0#32 128#32) (k0_off2_inb c 0))) (k0_pay6 (xRows128 m c (k0_off2 c 0#32 128#32) (k0_off2_inb c 0)) (gIn m c))
    (k0_pay7 (uIn m c)) (constant S128x2048 .f32 0x00000000#32) (dIn m c)
def tK2 (c : Dev nD) : FVec F S128x1024 .f32 :=
  k0_pay13 (k0_pay12 (xRows128 m c (k0_off2 c 128#32 0#32) (k0_off2_inb c 1))) (gIn m c) (uIn m c) (dIn m c)

/-! ## Values row by row -/

/-- An entry of a 192-row tile at a row and column given as naturals (reduced into range: total, no side proof). -/
def at192 (v : FVec F S192x1024 .f32) (r q : ℕ) : F .f32 := v (ix2 ⟨r % 192, Nat.mod_lt _ (by decide)⟩ ⟨q % 1024, Nat.mod_lt _ (by decide)⟩)
def at128 (v : FVec F S128x1024 .f32) (r q : ℕ) : F .f32 := v (ix2 ⟨r % 128, Nat.mod_lt _ (by decide)⟩ ⟨q % 1024, Nat.mod_lt _ (by decide)⟩)

/-- The three butterflies' masks by stage, the first row and the half-height of each. -/
def mask : Fin 3 → Fin 3 → ℕ := ![![3, 1, 4], ![4, 3, 1], ![1, 4, 2]]

/-- Device c's own partial product at (row, col), for a row of butterfly b's range: read off the tile that holds the row. -/
def S0 (b : Fin 3) (c : Dev nD) (row q : ℕ) : F .f32 :=
  match b with
  | 0 => if (k0_off1 c 0#32 3#32 0#32 192#32) 0 ≤ row ∧ row < (k0_off1 c 0#32 3#32 0#32 192#32) 0 + 192
         then at192 (tS0 m c) (row - (k0_off1 c 0#32 3#32 0#32 192#32) 0) q else at192 (tK0 m c) (row - (k0_off1 c 0#32 3#32 192#32 0#32) 0) q
  | 1 => if (k0_off1 c 384#32 4#32 0#32 192#32) 0 ≤ row ∧ row < (k0_off1 c 384#32 4#32 0#32 192#32) 0 + 192
         then at192 (tS1 m c) (row - (k0_off1 c 384#32 4#32 0#32 192#32) 0) q else at192 (tK1 m c) (row - (k0_off1 c 384#32 4#32 192#32 0#32) 0) q
  | 2 => if (k0_off2 c 0#32 128#32) 0 ≤ row ∧ row < (k0_off2 c 0#32 128#32) 0 + 128
         then at128 (tS2 m c) (row - (k0_off2 c 0#32 128#32) 0) q else at128 (tK2 m c) (row - (k0_off2 c 128#32 0#32) 0) q

/-- What a value becomes when it crosses the wire: narrowed to bf16 and widened again. -/
def wire (e : F .f32) : F .f32 := FloatOps.extf .f32 bitsLt_bf16_f32 (FloatOps.truncf .bf16 bitsLt_bf16_f32 e)

/-- The sums after one, two and three exchange stages of butterfly b on device c (own value plus the partner's over the wire). -/
def S1 (b : Fin 3) (c : Dev nD) (row q : ℕ) : F .f32 := FloatOps.addf (S0 m b c row q) (wire (S0 m b (Mesh.px (mask b 0) c) row q))
def S2 (b : Fin 3) (c : Dev nD) (row q : ℕ) : F .f32 := FloatOps.addf (S1 m b c row q) (wire (S1 m b (Mesh.px (mask b 1) c) row q))
def S3 (b : Fin 3) (c : Dev nD) (row q : ℕ) : F .f32 := FloatOps.addf (S2 m b c row q) (wire (S2 m b (Mesh.px (mask b 2) c) row q))

end Cert.Kernel.Sched

end
-- ==== Proof.KRows.lean ====
import proofs.«900524_g7700000000000525_dist_gated_mlp_tp_i_m1024_h2048_d1024_v7x_i8_f32_1_alg».proof.Proof.KMesh

/-! # Rows: who holds which rows

Pure facts about the row offsets of the protocol, relating a device `c` to its partner `px m c`.
A reduce-scatter stage exchanges complementary halves (quarters): what the partner sends is what I
keep.  An all-gather stage sends back what was kept: what the partner sends is what I sent away at
the matching reduce-scatter stage.  The last section records that the pieces tile their range.
All statements are decided over the eight devices. -/

set_option Elab.async false

namespace Cert.Kernel.Rows

open Idealize.ShloMosaic Idealize.SL.Sem
open Cert.Kernel Cert.Kernel.Gen Cert.Kernel.Mesh

/-! ## Reduce-scatter: what the partner sends is what I keep -/

/-- Butterfly 0, stage 0 (mask 3): the half the partner sends is the half I keep. -/
theorem rs0_b0 (c : Dev nD) :
    k0_off1 (px 3 c) 0#32 3#32 0#32 192#32 = k0_off1 c 0#32 3#32 192#32 0#32 := by
  revert c; decide +kernel

/-- Butterfly 0, stage 0: the half I send is the half the partner keeps. -/
theorem rs0_b0' (c : Dev nD) :
    k0_off1 c 0#32 3#32 0#32 192#32 = k0_off1 (px 3 c) 0#32 3#32 192#32 0#32 := by
  revert c; decide +kernel

/-- Butterfly 1, stage 0 (mask 4): the half the partner sends is the half I keep. -/
theorem rs0_b1 (c : Dev nD) :
    k0_off1 (px 4 c) 384#32 4#32 0#32 192#32 = k0_off1 c 384#32 4#32 192#32 0#32 := by
  revert c; decide +kernel

/-- Butterfly 1, stage 0: the half I send is the half the partner keeps. -/
theorem rs0_b1' (c : Dev nD) :
    k0_off1 c 384#32 4#32 0#32 192#32 = k0_off1 (px 4 c) 384#32 4#32 192#32 0#32 := by
  revert c; decide +kernel

/-- Butterfly 2, stage 0 (mask 1): the half the partner sends is the half I keep. -/
theorem rs0_b2 (c : Dev nD) :
    k0_off2 (px 1 c) 0#32 128#32 = k0_off2 c 128#32 0#32 := by
  revert c; decide +kernel

/-- Butterfly 2, stage 0: the half I send is the half the partner keeps. -/
theorem rs0_b2' (c : Dev nD) :
    k0_off2 c 0#32 128#32 = k0_off2 (px 1 c) 128#32 0#32 := by
  revert c; decide +kernel

/-- Butterfly 0, stage 1 (mask 1): the quarter the partner sends is the quarter I keep. -/
theorem rs1_b0 (c : Dev nD) :
    k0_off3 (px 1 c) 0#32 3#32 1#32 0#32 96#32 = k0_off3 c 0#32 3#32 1#32 96#32 0#32 := by
  revert c; decide +kernel

/-- Butterfly 0, stage 1: the quarter I send is the quarter the partner keeps. -/
theorem rs1_b0' (c : Dev nD) :
    k0_off3 c 0#32 3#32 1#32 0#32 96#32 = k0_off3 (px 1 c) 0#32 3#32 1#32 96#32 0#32 := by
  revert c; decide +kernel

/-- Butterfly 1, stage 1 (mask 3): the quarter the partner sends is the quarter I keep. -/
theorem rs1_b1 (c : Dev nD) :
    k0_off3 (px 3 c) 384#32 4#32 3#32 0#32 96#32 = k0_off3 c 384#32 4#32 3#32 96#32 0#32 := by
  revert c; decide +kernel

/-- Butterfly 1, stage 1: the quarter I send is the quarter the partner keeps. -/
theorem rs1_b1' (c : Dev nD) :
    k0_off3 c 384#32 4#32 3#32 0#32 96#32 = k0_off3 (px 3 c) 384#32 4#32 3#32 96#32 0#32 := by
  revert c; decide +kernel

/-- Butterfly 2, stage 1 (mask 4): the quarter the partner sends is the quarter I keep. -/
theorem rs1_b2 (c : Dev nD) :
    k0_off4 (px 4 c) 0#32 64#32 = k0_off4 c 64#32 0#32 := by
  revert c; decide +kernel

/-- Butterfly 2, stage 1: the quarter I send is the quarter the partner keeps. -/
theorem rs1_b2' (c : Dev nD) :
    k0_off4 c 0#32 64#32 = k0_off4 (px 4 c) 64#32 0#32 := by
  revert c; decide +kernel

/-- Butterfly 0, stage 2 (mask 4): the partner holds the same quarter as I do. -/
theorem rs2_b0 (c : Dev nD) :
    k0_off3 (px 4 c) 0#32 3#32 1#32 96#32 0#32 = k0_off3 c 0#32 3#32 1#32 96#32 0#32 := by
  revert c; decide +kernel

/-- Butterfly 1, stage 2 (mask 1): the partner holds the same quarter as I do. -/
theorem rs2_b1 (c : Dev nD) :
    k0_off3 (px 1 c) 384#32 4#32 3#32 96#32 0#32 = k0_off3 c 384#32 4#32 3#32 96#32 0#32 := by
  revert c; decide +kernel

/-- Butterfly 2, stage 2 (mask 2): the partner holds the same quarter as I do. -/
theorem rs2_b2 (c : Dev nD) :
    k0_off4 (px 2 c) 64#32 0#32 = k0_off4 c 64#32 0#32 := by
  revert c; decide +kernel

/-! ## All-gather, stage 1: quarters -/

/-- Butterfly 0: the slice I send is my kept quarter. -/
theorem ag1_own_b0 (c : Dev nD) :
    k0_off5 c 0#32 3#32 1#32 = k0_off3 c 0#32 3#32 1#32 96#32 0#32 := by
  revert c; decide +kernel

/-- Butterfly 0 (mask 1): the slice the partner sends is the quarter I sent away at stage 1. -/
theorem ag1_px_b0 (c : Dev nD) :
    k0_off5 (px 1 c) 0#32 3#32 1#32 = k0_off3 c 0#32 3#32 1#32 0#32 96#32 := by
  revert c; decide +kernel

/-- Butterfly 1: the slice I send is my kept quarter. -/
theorem ag1_own_b1 (c : Dev nD) :
    k0_off5 c 384#32 4#32 3#32 = k0_off3 c 384#32 4#32 3#32 96#32 0#32 := by
  revert c; decide +kernel

/-- Butterfly 1 (mask 3): the slice the partner sends is the quarter I sent away at stage 1. -/
theorem ag1_px_b1 (c : Dev nD) :
    k0_off5 (px 3 c) 384#32 4#32 3#32 = k0_off3 c 384#32 4#32 3#32 0#32 96#32 := by
  revert c; decide +kernel

/-- Butterfly 2: the slice I send is my kept quarter. -/
theorem ag1_own_b2 (c : Dev nD) :
    k0_off6 c = k0_off4 c 64#32 0#32 := by
  revert c; decide +kernel

/-- Butterfly 2 (mask 4): the slice the partner sends is the quarter I sent away at stage 1. -/
theorem ag1_px_b2 (c : Dev nD) :
    k0_off6 (px 4 c) = k0_off4 c 0#32 64#32 := by
  revert c; decide +kernel

/-- Butterfly 0: the partner's quarter, in my bits. -/
theorem off5_a_px1 (c : Dev nD) :
    k0_off5 (px 1 c) 0#32 3#32 1#32 = ![(if hi 1 c then 192 else 0) + (if hi 0 c then 0 else 96), 0] := by
  revert c; decide +kernel

/-- Butterfly 1: the partner's quarter, in my bits. -/
theorem off5_b_px3 (c : Dev nD) :
    k0_off5 (px 3 c) 384#32 4#32 3#32 = ![(if hi 2 c then 576 else 384) + (if hi 1 c then 0 else 96), 0] := by
  revert c; decide +kernel

/-- Butterfly 2: the partner's quarter, in my bits. -/
theorem off6_px4 (c : Dev nD) :
    k0_off6 (px 4 c) = ![(if hi 0 c then 896 else 768) + (if hi 2 c then 0 else 64), 0] := by
  revert c; decide +kernel

/-! ## All-gather, stage 0: halves -/

/-- Butterfly 0: the slice I send is the half I kept at stage 0. -/
theorem ag0_own_b0 (c : Dev nD) :
    k0_off7 c 0#32 3#32 1#32 = k0_off1 c 0#32 3#32 192#32 0#32 := by
  revert c; decide +kernel

/-- Butterfly 0: the rows read back are the same half. -/
theorem ag0_read_b0 (c : Dev nD) :
    k0_off9 c 0#32 3#32 1#32 = k0_off7 c 0#32 3#32 1#32 := by
  revert c; decide +kernel

/-- Butterfly 0 (mask 3): the half received is the one the partner sends. -/
theorem ag0_recv_b0 (c : Dev nD) :
    k0_off11 c 0#32 3#32 1#32 = k0_off7 (px 3 c) 0#32 3#32 1#32 := by
  revert c; decide +kernel

/-- Butterfly 0: the half received is the half I sent away at stage 0. -/
theorem ag0_recv_b0' (c : Dev nD) :
    k0_off11 c 0#32 3#32 1#32 = k0_off1 c 0#32 3#32 0#32 192#32 := by
  revert c; decide +kernel

/-- Butterfly 0: the partner's half is the half I sent away at stage 0. -/
theorem ag0_px_b0 (c : Dev nD) :
    k0_off7 (px 3 c) 0#32 3#32 1#32 = k0_off1 c 0#32 3#32 0#32 192#32 := by
  revert c; decide +kernel

/-- Butterfly 1: the slice I send is the half I kept at stage 0. -/
theorem ag0_own_b1 (c : Dev nD) :
    k0_off7 c 384#32 4#32 3#32 = k0_off1 c 384#32 4#32 192#32 0#32 := by
  revert c; decide +kernel

/-- Butterfly 1: the rows read back are the same half. -/
theorem ag0_read_b1 (c : Dev nD) :
    k0_off9 c 384#32 4#32 3#32 = k0_off7 c 384#32 4#32 3#32 := by
  revert c; decide +kernel

/-- Butterfly 1 (mask 4): the half received is the one the partner sends. -/
theorem ag0_recv_b1 (c : Dev nD) :
    k0_off11 c 384#32 4#32 3#32 = k0_off7 (px 4 c) 384#32 4#32 3#32 := by
  revert c; decide +kernel

/-- Butterfly 1: the half received is the half I sent away at stage 0. -/
theorem ag0_recv_b1' (c : Dev nD) :
    k0_off11 c 384#32 4#32 3#32 = k0_off1 c 384#32 4#32 0#32 192#32 := by
  revert c; decide +kernel

/-- Butterfly 1: the partner's half is the half I sent away at stage 0. -/
theorem ag0_px_b1 (c : Dev nD) :
    k0_off7 (px 4 c) 384#32 4#32 3#32 = k0_off1 c 384#32 4#32 0#32 192#32 := by
  revert c; decide +kernel

/-- Butterfly 2: the slice I send is the half I kept at stage 0. -/
theorem ag0_own_b2 (c : Dev nD) :
    k0_off8 c = k0_off2 c 128#32 0#32 := by
  revert c; decide +kernel

/-- Butterfly 2: the rows read back are the same half. -/
theorem ag0_read_b2 (c : Dev nD) :
    k0_off10 c = k0_off8 c := by
  revert c; decide +kernel

/-- Butterfly 2 (mask 1): the half received is the one the partner sends. -/
theorem ag0_recv_b2 (c : Dev nD) :
    k0_off12 c = k0_off8 (px 1 c) := by
  revert c; decide +kernel

/-- Butterfly 2: the half received is the half I sent away at stage 0. -/
theorem ag0_recv_b2' (c : Dev nD) :
    k0_off12 c = k0_off2 c 0#32 128#32 := by
  revert c; decide +kernel

/-- Butterfly 2: the partner's half is the half I sent away at stage 0. -/
theorem ag0_px_b2 (c : Dev nD) :
    k0_off8 (px 1 c) = k0_off2 c 0#32 128#32 := by
  revert c; decide +kernel

/-- Butterfly 0: the partner's half, in my bits. -/
theorem off7_a_px3 (c : Dev nD) :
    k0_off7 (px 3 c) 0#32 3#32 1#32 = ![if hi 1 c then 0 else 192, 0] := by
  revert c; decide +kernel

/-- Butterfly 1: the partner's half, in my bits. -/
theorem off7_b_px4 (c : Dev nD) :
    k0_off7 (px 4 c) 384#32 4#32 3#32 = ![if hi 2 c then 384 else 576, 0] := by
  revert c; decide +kernel

/-- Butterfly 2: the partner's half, in my bits. -/
theorem off8_px1 (c : Dev nD) :
    k0_off8 (px 1 c) = ![if hi 0 c then 768 else 896, 0] := by
  revert c; decide +kernel

/-! ## Tiling

Row bases as naturals (component 0).  For butterfly `b` with range `[R, R + B)`: the sent half `S₀` and
the kept half `K₀` (each `B/2` rows) tile the range; the sent quarter `S₁` and the kept quarter `K₁`
(each `B/4` rows) tile the kept half. -/

/-- Butterfly 0: the two halves are the two halves of `[0, 384)`, in one order or the other. -/
theorem half_cases_b0 (c : Dev nD) :
    ((k0_off1 c 0#32 3#32 0#32 192#32) 0 = 0 ∧ (k0_off1 c 0#32 3#32 192#32 0#32) 0 = 192) ∨
    ((k0_off1 c 0#32 3#32 0#32 192#32) 0 = 192 ∧ (k0_off1 c 0#32 3#32 192#32 0#32) 0 = 0) := by
  revert c; decide +kernel

/-- Butterfly 0: the two quarters are the two halves of the kept half. -/
theorem quarter_cases_b0 (c : Dev nD) :
    ((k0_off3 c 0#32 3#32 1#32 0#32 96#32) 0 = (k0_off1 c 0#32 3#32 192#32 0#32) 0 ∧ (k0_off3 c 0#32 3#32 1#32 96#32 0#32) 0 = (k0_off1 c 0#32 3#32 192#32 0#32) 0 + 96) ∨
    ((k0_off3 c 0#32 3#32 1#32 0#32 96#32) 0 = (k0_off1 c 0#32 3#32 192#32 0#32) 0 + 96 ∧ (k0_off3 c 0#32 3#32 1#32 96#32 0#32) 0 = (k0_off1 c 0#32 3#32 192#32 0#32) 0) := by
  revert c; decide +kernel

/-- Butterfly 0: both halves lie inside `[0, 384)`. -/
theorem half_range_b0 (c : Dev nD) :
    0 ≤ (k0_off1 c 0#32 3#32 0#32 192#32) 0 ∧ (k0_off1 c 0#32 3#32 0#32 192#32) 0 + 192 ≤ 384 ∧
    0 ≤ (k0_off1 c 0#32 3#32 192#32 0#32) 0 ∧ (k0_off1 c 0#32 3#32 192#32 0#32) 0 + 192 ≤ 384 := by
  revert c; decide +kernel

/-- Butterfly 0: the two halves are disjoint. -/
theorem half_disj_b0 (c : Dev nD) :
    (k0_off1 c 0#32 3#32 0#32 192#32) 0 + 192 ≤ (k0_off1 c 0#32 3#32 192#32 0#32) 0 ∨
    (k0_off1 c 0#32 3#32 192#32 0#32) 0 + 192 ≤ (k0_off1 c 0#32 3#32 0#32 192#32) 0 := by
  revert c; decide +kernel

/-- Butterfly 0: both quarters lie inside the kept half. -/
theorem quarter_range_b0 (c : Dev nD) :
    (k0_off1 c 0#32 3#32 192#32 0#32) 0 ≤ (k0_off3 c 0#32 3#32 1#32 0#32 96#32) 0 ∧ (k0_off3 c 0#32 3#32 1#32 0#32 96#32) 0 + 96 ≤ (k0_off1 c 0#32 3#32 192#32 0#32) 0 + 192 ∧
    (k0_off1 c 0#32 3#32 192#32 0#32) 0 ≤ (k0_off3 c 0#32 3#32 1#32 96#32 0#32) 0 ∧ (k0_off3 c 0#32 3#32 1#32 96#32 0#32) 0 + 96 ≤ (k0_off1 c 0#32 3#32 192#32 0#32) 0 + 192 := by
  revert c; decide +kernel

/-- Butterfly 0: the two quarters are disjoint. -/
theorem quarter_disj_b0 (c : Dev nD) :
    (k0_off3 c 0#32 3#32 1#32 0#32 96#32) 0 + 96 ≤ (k0_off3 c 0#32 3#32 1#32 96#32 0#32) 0 ∨
    (k0_off3 c 0#32 3#32 1#32 96#32 0#32) 0 + 96 ≤ (k0_off3 c 0#32 3#32 1#32 0#32 96#32) 0 := by
  revert c; decide +kernel

/-- Butterfly 1: the two halves are the two halves of `[384, 768)`, in one order or the other. -/
theorem half_cases_b1 (c : Dev nD) :
    ((k0_off1 c 384#32 4#32 0#32 192#32) 0 = 384 ∧ (k0_off1 c 384#32 4#32 192#32 0#32) 0 = 576) ∨
    ((k0_off1 c 384#32 4#32 0#32 192#32) 0 = 576 ∧ (k0_off1 c 384#32 4#32 192#32 0#32) 0 = 384) := by
  revert c; decide +kernel

/-- Butterfly 1: the two quarters are the two halves of the kept half. -/
theorem quarter_cases_b1 (c : Dev nD) :
    ((k0_off3 c 384#32 4#32 3#32 0#32 96#32) 0 = (k0_off1 c 384#32 4#32 192#32 0#32) 0 ∧ (k0_off3 c 384#32 4#32 3#32 96#32 0#32) 0 = (k0_off1 c 384#32 4#32 192#32 0#32) 0 + 96) ∨
    ((k0_off3 c 384#32 4#32 3#32 0#32 96#32) 0 = (k0_off1 c 384#32 4#32 192#32 0#32) 0 + 96 ∧ (k0_off3 c 384#32 4#32 3#32 96#32 0#32) 0 = (k0_off1 c 384#32 4#32 192#32 0#32) 0) := by
  revert c; decide +kernel

/-- Butterfly 1: both halves lie inside `[384, 768)`. -/
theorem half_range_b1 (c : Dev nD) :
    384 ≤ (k0_off1 c 384#32 4#32 0#32 192#32) 0 ∧ (k0_off1 c 384#32 4#32 0#32 192#32) 0 + 192 ≤ 768 ∧
    384 ≤ (k0_off1 c 384#32 4#32 192#32 0#32) 0 ∧ (k0_off1 c 384#32 4#32 192#32 0#32) 0 + 192 ≤ 768 := by
  revert c; decide +kernel

/-- Butterfly 1: the two halves are disjoint. -/
theorem half_disj_b1 (c : Dev nD) :
    (k0_off1 c 384#32 4#32 0#32 192#32) 0 + 192 ≤ (k0_off1 c 384#32 4#32 192#32 0#32) 0 ∨
    (k0_off1 c 384#32 4#32 192#32 0#32) 0 + 192 ≤ (k0_off1 c 384#32 4#32 0#32 192#32) 0 := by
  revert c; decide +kernel

/-- Butterfly 1: both quarters lie inside the kept half. -/
theorem quarter_range_b1 (c : Dev nD) :
    (k0_off1 c 384#32 4#32 192#32 0#32) 0 ≤ (k0_off3 c 384#32 4#32 3#32 0#32 96#32) 0 ∧ (k0_off3 c 384#32 4#32 3#32 0#32 96#32) 0 + 96 ≤ (k0_off1 c 384#32 4#32 192#32 0#32) 0 + 192 ∧
    (k0_off1 c 384#32 4#32 192#32 0#32) 0 ≤ (k0_off3 c 384#32 4#32 3#32 96#32 0#32) 0 ∧ (k0_off3 c 384#32 4#32 3#32 96#32 0#32) 0 + 96 ≤ (k0_off1 c 384#32 4#32 192#32 0#32) 0 + 192 := by
  revert c; decide +kernel

/-- Butterfly 1: the two quarters are disjoint. -/
theorem quarter_disj_b1 (c : Dev nD) :
    (k0_off3 c 384#32 4#32 3#32 0#32 96#32) 0 + 96 ≤ (k0_off3 c 384#32 4#32 3#32 96#32 0#32) 0 ∨
    (k0_off3 c 384#32 4#32 3#32 96#32 0#32) 0 + 96 ≤ (k0_off3 c 384#32 4#32 3#32 0#32 96#32) 0 := by
  revert c; decide +kernel

/-- Butterfly 2: the two halves are the two halves of `[768, 1024)`, in one order or the other. -/
theorem half_cases_b2 (c : Dev nD) :
    ((k0_off2 c 0#32 128#32) 0 = 768 ∧ (k0_off2 c 128#32 0#32) 0 = 896) ∨
    ((k0_off2 c 0#32 128#32) 0 = 896 ∧ (k0_off2 c 128#32 0#32) 0 = 768) := by
  revert c; decide +kernel

/-- Butterfly 2: the two quarters are the two halves of the kept half. -/
theorem quarter_cases_b2 (c : Dev nD) :
    ((k0_off4 c 0#32 64#32) 0 = (k0_off2 c 128#32 0#32) 0 ∧ (k0_off4 c 64#32 0#32) 0 = (k0_off2 c 128#32 0#32) 0 + 64) ∨
    ((k0_off4 c 0#32 64#32) 0 = (k0_off2 c 128#32 0#32) 0 + 64 ∧ (k0_off4 c 64#32 0#32) 0 = (k0_off2 c 128#32 0#32) 0) := by
  revert c; decide +kernel

/-- Butterfly 2: both halves lie inside `[768, 1024)`. -/
theorem half_range_b2 (c : Dev nD) :
    768 ≤ (k0_off2 c 0#32 128#32) 0 ∧ (k0_off2 c 0#32 128#32) 0 + 128 ≤ 1024 ∧
    768 ≤ (k0_off2 c 128#32 0#32) 0 ∧ (k0_off2 c 128#32 0#32) 0 + 128 ≤ 1024 := by
  revert c; decide +kernel

/-- Butterfly 2: the two halves are disjoint. -/
theorem half_disj_b2 (c : Dev nD) :
    (k0_off2 c 0#32 128#32) 0 + 128 ≤ (k0_off2 c 128#32 0#32) 0 ∨
    (k0_off2 c 128#32 0#32) 0 + 128 ≤ (k0_off2 c 0#32 128#32) 0 := by
  revert c; decide +kernel

/-- Butterfly 2: both quarters lie inside the kept half. -/
theorem quarter_range_b2 (c : Dev nD) :
    (k0_off2 c 128#32 0#32) 0 ≤ (k0_off4 c 0#32 64#32) 0 ∧ (k0_off4 c 0#32 64#32) 0 + 64 ≤ (k0_off2 c 128#32 0#32) 0 + 128 ∧
    (k0_off2 c 128#32 0#32) 0 ≤ (k0_off4 c 64#32 0#32) 0 ∧ (k0_off4 c 64#32 0#32) 0 + 64 ≤ (k0_off2 c 128#32 0#32) 0 + 128 := by
  revert c; decide +kernel

/-- Butterfly 2: the two quarters are disjoint. -/
theorem quarter_disj_b2 (c : Dev nD) :
    (k0_off4 c 0#32 64#32) 0 + 64 ≤ (k0_off4 c 64#32 0#32) 0 ∨
    (k0_off4 c 64#32 0#32) 0 + 64 ≤ (k0_off4 c 0#32 64#32) 0 := by
  revert c; decide +kernel

end Cert.Kernel.Rows
-- ==== Proof.KSched.lean ====
/-
  The all-reduce's protocol as a schedule of rounds. Every cell has one round. A device's barrier cell has four duties of
  one unit, one per partner (c xor 1, 2, 3, 4): a partner's entry signal hands over the partner's receive slots and gather
  rows that c will write. Each send cell and each receive cell in use has one duty of its block's credit: an arrival hands
  the owner its slot holding the partner's sum of the stage before, narrowed for the wire; a departure hands back what
  was lent.
-/
import proofs.«900524_g7700000000000525_dist_gated_mlp_tp_i_m1024_h2048_d1024_v7x_i8_f32_1_alg».proof.Proof.KVals
import proofs.«900524_g7700000000000525_dist_gated_mlp_tp_i_m1024_h2048_d1024_v7x_i8_f32_1_alg».proof.Proof.KRows

noncomputable section

namespace Cert.Kernel.Sched

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The slots of the send and receive buffers, and the gather buffer's rows a device sends -/

abbrev sSlot00 : Memref sig .tc .vmem S192x1024 .bf16 := (sM.slice (Rect.unit (s := S3x384x1024) ![0, 0, 0] S1x192x1024.size inb_S3x384x1024_S1x192x1024_0_0_0) (fun _ => rfl)).squeeze S192x1024 squeezes_S1x192x1024_S192x1024
abbrev rSlot00 : Memref sig .tc .vmem S192x1024 .bf16 := (rM.slice (Rect.unit (s := S3x384x1024) ![0, 0, 0] S1x192x1024.size inb_S3x384x1024_S1x192x1024_0_0_0) (fun _ => rfl)).squeeze S192x1024 squeezes_S1x192x1024_S192x1024
abbrev sSlot10 : Memref sig .tc .vmem S192x1024 .bf16 := (sM.slice (Rect.unit (s := S3x384x1024) ![1, 0, 0] S1x192x1024.size inb_S3x384x1024_S1x192x1024_1_0_0) (fun _ => rfl)).squeeze S192x1024 squeezes_S1x192x1024_S192x1024
abbrev rSlot10 : Memref sig .tc .vmem S192x1024 .bf16 := (rM.slice (Rect.unit (s := S3x384x1024) ![1, 0, 0] S1x192x1024.size inb_S3x384x1024_S1x192x1024_1_0_0) (fun _ => rfl)).squeeze S192x1024 squeezes_S1x192x1024_S192x1024
abbrev sSlot20 : Memref sig .tc .vmem S128x1024 .bf16 := (sM.slice (Rect.unit (s := S3x384x1024) ![2, 0, 0] S1x128x1024.size inb_S3x384x1024_S1x128x1024_2_0_0) (fun _ => rfl)).squeeze S128x1024 squeezes_S1x128x1024_S128x1024
abbrev rSlot20 : Memref sig .tc .vmem S128x1024 .bf16 := (rM.slice (Rect.unit (s := S3x384x1024) ![2, 0, 0] S1x128x1024.size inb_S3x384x1024_S1x128x1024_2_0_0) (fun _ => rfl)).squeeze S128x1024 squeezes_S1x128x1024_S128x1024
abbrev sSlot01 : Memref sig .tc .vmem S96x1024 .bf16 := (sM.slice (Rect.unit (s := S3x384x1024) ![0, 192, 0] S1x96x1024.size inb_S3x384x1024_S1x96x1024_0_192_0) (fun _ => rfl)).squeeze S96x1024 squeezes_S1x96x1024_S96x1024
abbrev rSlot01 : Memref sig .tc .vmem S96x1024 .bf16 := (rM.slice (Rect.unit (s := S3x384x1024) ![0, 192, 0] S1x96x1024.size inb_S3x384x1024_S1x96x1024_0_192_0) (fun _ => rfl)).squeeze S96x1024 squeezes_S1x96x1024_S96x1024
abbrev sSlot11 : Memref sig .tc .vmem S96x1024 .bf16 := (sM.slice (Rect.unit (s := S3x384x1024) ![1, 192, 0] S1x96x1024.size inb_S3x384x1024_S1x96x1024_1_192_0) (fun _ => rfl)).squeeze S96x1024 squeezes_S1x96x1024_S96x1024
abbrev rSlot11 : Memref sig .tc .vmem S96x1024 .bf16 := (rM.slice (Rect.unit (s := S3x384x1024) ![1, 192, 0] S1x96x1024.size inb_S3x384x1024_S1x96x1024_1_192_0) (fun _ => rfl)).squeeze S96x1024 squeezes_S1x96x1024_S96x1024
abbrev sSlot21 : Memref sig .tc .vmem S64x1024 .bf16 := (sM.slice (Rect.unit (s := S3x384x1024) ![2, 128, 0] S1x64x1024.size inb_S3x384x1024_S1x64x1024_2_128_0) (fun _ => rfl)).squeeze S64x1024 squeezes_S1x64x1024_S64x1024
abbrev rSlot21 : Memref sig .tc .vmem S64x1024 .bf16 := (rM.slice (Rect.unit (s := S3x384x1024) ![2, 128, 0] S1x64x1024.size inb_S3x384x1024_S1x64x1024_2_128_0) (fun _ => rfl)).squeeze S64x1024 squeezes_S1x64x1024_S64x1024
abbrev sSlot02 : Memref sig .tc .vmem S96x1024 .bf16 := (sM.slice (Rect.unit (s := S3x384x1024) ![0, 288, 0] S1x96x1024.size inb_S3x384x1024_S1x96x1024_0_288_0) (fun _ => rfl)).squeeze S96x1024 squeezes_S1x96x1024_S96x1024
abbrev rSlot02 : Memref sig .tc .vmem S96x1024 .bf16 := (rM.slice (Rect.unit (s := S3x384x1024) ![0, 288, 0] S1x96x1024.size inb_S3x384x1024_S1x96x1024_0_288_0) (fun _ => rfl)).squeeze S96x1024 squeezes_S1x96x1024_S96x1024
abbrev sSlot12 : Memref sig .tc .vmem S96x1024 .bf16 := (sM.slice (Rect.unit (s := S3x384x1024) ![1, 288, 0] S1x96x1024.size inb_S3x384x1024_S1x96x1024_1_288_0) (fun _ => rfl)).squeeze S96x1024 squeezes_S1x96x1024_S96x1024
abbrev rSlot12 : Memref sig .tc .vmem S96x1024 .bf16 := (rM.slice (Rect.unit (s := S3x384x1024) ![1, 288, 0] S1x96x1024.size inb_S3x384x1024_S1x96x1024_1_288_0) (fun _ => rfl)).squeeze S96x1024 squeezes_S1x96x1024_S96x1024
abbrev sSlot22 : Memref sig .tc .vmem S64x1024 .bf16 := (sM.slice (Rect.unit (s := S3x384x1024) ![2, 192, 0] S1x64x1024.size inb_S3x384x1024_S1x64x1024_2_192_0) (fun _ => rfl)).squeeze S64x1024 squeezes_S1x64x1024_S64x1024
abbrev rSlot22 : Memref sig .tc .vmem S64x1024 .bf16 := (rM.slice (Rect.unit (s := S3x384x1024) ![2, 192, 0] S1x64x1024.size inb_S3x384x1024_S1x64x1024_2_192_0) (fun _ => rfl)).squeeze S64x1024 squeezes_S1x64x1024_S64x1024
abbrev aRows01 (c : Dev nD) : Memref sig .tc .vmem S96x1024 .bf16 := aM.slice (Rect.unit (s := S1024x1024) (k0_off5 c 0#32 3#32 1#32) S96x1024.size (k0_off5_inb c 0)) (fun _ => rfl)
abbrev aRows11 (c : Dev nD) : Memref sig .tc .vmem S96x1024 .bf16 := aM.slice (Rect.unit (s := S1024x1024) (k0_off5 c 384#32 4#32 3#32) S96x1024.size (k0_off5_inb c 1)) (fun _ => rfl)
abbrev aRows21 (c : Dev nD) : Memref sig .tc .vmem S64x1024 .bf16 := aM.slice (Rect.unit (s := S1024x1024) (k0_off6 c) S64x1024.size (k0_off6_inb c)) (fun _ => rfl)
abbrev aRows00 (c : Dev nD) : Memref sig .tc .vmem S192x1024 .bf16 := aM.slice (Rect.unit (s := S1024x1024) (k0_off7 c 0#32 3#32 1#32) S192x1024.size (k0_off7_inb c 0)) (fun _ => rfl)
abbrev aRows10 (c : Dev nD) : Memref sig .tc .vmem S192x1024 .bf16 := aM.slice (Rect.unit (s := S1024x1024) (k0_off7 c 384#32 4#32 3#32) S192x1024.size (k0_off7_inb c 1)) (fun _ => rfl)
abbrev aRows20 (c : Dev nD) : Memref sig .tc .vmem S128x1024 .bf16 := aM.slice (Rect.unit (s := S1024x1024) (k0_off8 c) S128x1024.size (k0_off8_inb c)) (fun _ => rfl)

/-! ## Cells -/

abbrev barCell (c : Dev nD) : GSem nD τ sig := ((c : Thread nD τ), .reg barS)
/-- The DMA semaphore at (b, k) of array A: 0 the exchange's send semaphores, 1 its receive semaphores, 2 the gather's send, 3 its receive. -/
def dsem (A : Fin 4) (b k : Fin 3) : DmaSem sig := ⟨5 + 9 * A.val + 3 * b.val + k.val, by show 5 + 9 * A.val + 3 * b.val + k.val < 41; have := A.isLt; have := b.isLt; have := k.isLt; omega⟩
abbrev dcell (A : Fin 4) (b k : Fin 3) (c : Dev nD) : GSem nD τ sig := ((c : Thread nD τ), .dma (dsem A b k))

theorem semAt_eq :
    semAt cc0_scratch3 0 0 inb_S3x3_S1x1_0_0 = dsem 0 0 0 ∧ semAt cc0_scratch3 0 1 inb_S3x3_S1x1_0_1 = dsem 0 0 1 ∧ semAt cc0_scratch3 0 2 inb_S3x3_S1x1_0_2 = dsem 0 0 2
    ∧ semAt cc0_scratch3 1 0 inb_S3x3_S1x1_1_0 = dsem 0 1 0 ∧ semAt cc0_scratch3 1 1 inb_S3x3_S1x1_1_1 = dsem 0 1 1 ∧ semAt cc0_scratch3 1 2 inb_S3x3_S1x1_1_2 = dsem 0 1 2
    ∧ semAt cc0_scratch3 2 0 inb_S3x3_S1x1_2_0 = dsem 0 2 0 ∧ semAt cc0_scratch3 2 1 inb_S3x3_S1x1_2_1 = dsem 0 2 1 ∧ semAt cc0_scratch3 2 2 inb_S3x3_S1x1_2_2 = dsem 0 2 2
    ∧ semAt cc0_scratch4 0 0 inb_S3x3_S1x1_0_0 = dsem 1 0 0 ∧ semAt cc0_scratch4 0 1 inb_S3x3_S1x1_0_1 = dsem 1 0 1 ∧ semAt cc0_scratch4 0 2 inb_S3x3_S1x1_0_2 = dsem 1 0 2
    ∧ semAt cc0_scratch4 1 0 inb_S3x3_S1x1_1_0 = dsem 1 1 0 ∧ semAt cc0_scratch4 1 1 inb_S3x3_S1x1_1_1 = dsem 1 1 1 ∧ semAt cc0_scratch4 1 2 inb_S3x3_S1x1_1_2 = dsem 1 1 2
    ∧ semAt cc0_scratch4 2 0 inb_S3x3_S1x1_2_0 = dsem 1 2 0 ∧ semAt cc0_scratch4 2 1 inb_S3x3_S1x1_2_1 = dsem 1 2 1 ∧ semAt cc0_scratch4 2 2 inb_S3x3_S1x1_2_2 = dsem 1 2 2
    ∧ semAt cc0_scratch5 0 0 inb_S3x3_S1x1_0_0 = dsem 2 0 0 ∧ semAt cc0_scratch5 0 1 inb_S3x3_S1x1_0_1 = dsem 2 0 1
    ∧ semAt cc0_scratch5 1 0 inb_S3x3_S1x1_1_0 = dsem 2 1 0 ∧ semAt cc0_scratch5 1 1 inb_S3x3_S1x1_1_1 = dsem 2 1 1
    ∧ semAt cc0_scratch5 2 0 inb_S3x3_S1x1_2_0 = dsem 2 2 0 ∧ semAt cc0_scratch5 2 1 inb_S3x3_S1x1_2_1 = dsem 2 2 1
    ∧ semAt cc0_scratch6 0 0 inb_S3x3_S1x1_0_0 = dsem 3 0 0 ∧ semAt cc0_scratch6 0 1 inb_S3x3_S1x1_0_1 = dsem 3 0 1
    ∧ semAt cc0_scratch6 1 0 inb_S3x3_S1x1_1_0 = dsem 3 1 0 ∧ semAt cc0_scratch6 1 1 inb_S3x3_S1x1_1_1 = dsem 3 1 1
    ∧ semAt cc0_scratch6 2 0 inb_S3x3_S1x1_2_0 = dsem 3 2 0 ∧ semAt cc0_scratch6 2 1 inb_S3x3_S1x1_2_1 = dsem 3 2 1 := by
  decide

/-! ## Rows -/

/-- Butterfly b's first row, its half and quarter heights. -/
def R0 : Fin 3 → ℕ := ![0, 384, 768]
def Hh : Fin 3 → ℕ := ![192, 192, 128]
def Qh : Fin 3 → ℕ := ![96, 96, 64]
/-- The first row of the half device c keeps after stage 0, and of the quarter it keeps after stage 1. -/
def K0 (b : Fin 3) (c : Dev nD) : ℕ :=
  match b with
  | 0 => (k0_off1 c 0#32 3#32 192#32 0#32) 0 | 1 => (k0_off1 c 384#32 4#32 192#32 0#32) 0 | 2 => (k0_off2 c 128#32 0#32) 0
def K1 (b : Fin 3) (c : Dev nD) : ℕ :=
  match b with
  | 0 => (k0_off3 c 0#32 3#32 1#32 96#32 0#32) 0 | 1 => (k0_off3 c 384#32 4#32 3#32 96#32 0#32) 0 | 2 => (k0_off4 c 64#32 0#32) 0
/-- The device whose kept quarter holds the row, among d and its stage-1 partner; among c's half and its stage-0 partner's. -/
def qOwn (b : Fin 3) (d : Dev nD) (row : ℕ) : Dev nD := if K1 b d ≤ row ∧ row < K1 b d + Qh b then d else Mesh.px (mask b 1) d
def hOwn (b : Fin 3) (c : Dev nD) (row : ℕ) : Dev nD := if K0 b c ≤ row ∧ row < K0 b c + Hh b then c else Mesh.px (mask b 0) c
/-- The butterfly a row belongs to. -/
def bOf (row : ℕ) : Fin 3 := if row < 384 then 0 else if row < 768 then 1 else 2

/-- The total of butterfly b at (row, q) as it reaches device c: the sum formed on the device that owns the row's quarter. -/
def Tot (b : Fin 3) (c : Dev nD) (row q : ℕ) : F .f32 := S3 m b (qOwn b (hOwn b c row) row) row q

/-! ## Reading buffers by natural coordinates (reduced into range: total) -/

def rAt (f : (cc0_scratch1 : Ref sig .tc).ty.Contents (Elt F)) (b r q : ℕ) : F .bf16 :=
  f (ix3 ⟨b % 3, Nat.mod_lt _ (by decide)⟩ ⟨r % 384, Nat.mod_lt _ (by decide)⟩ ⟨q % 1024, Nat.mod_lt _ (by decide)⟩)
def aAt (f : (cc0_scratch2 : Ref sig .tc).ty.Contents (Elt F)) (r q : ℕ) : F .bf16 :=
  f (ix2 ⟨r % 1024, Nat.mod_lt _ (by decide)⟩ ⟨q % 1024, Nat.mod_lt _ (by decide)⟩)
def oAt (f : (cc0_stg4_0 : Ref sig .tc).ty.Contents (Elt F)) (r q : ℕ) : F .f32 :=
  f (ix2 ⟨r % 1024, Nat.mod_lt _ (by decide)⟩ ⟨q % 1024, Nat.mod_lt _ (by decide)⟩)

def tr (e : F .f32) : F .bf16 := FloatOps.truncf .bf16 bitsLt_bf16_f32 e

/-- The result on device c: every row holds its butterfly's total, as it came over the wire. -/
def outFin (c : Dev nD) : (cc0_stg4_0 : Ref sig .tc).ty.Contents (Elt F) :=
  fun i => wire (Tot m (bOf (i 0).val) c (i 0).val (i 1).val)

/-! ## Payloads -/

/-- What the arrival of partner's block at (b, k) of the exchange hands device c: its receive slot, holding the partner's
    sum of the stage before over the rows c keeps, narrowed for the wire. -/
def rsRecvPay (b k : Fin 3) (c : Dev nD) : sProp 𝕄 :=
  match b, k with
  | 0, 0 => iprop(∃ f, (rSlot00.view.loc (c : Thread nD τ) ↦[rSlot00.view.set]{fullShare} f) ∗ ⌜∀ r q : ℕ, r < 192 → q < 1024 → rAt f 0 (0 + r) q = tr (S0 m 0 (Mesh.px 3 c) (K0 0 c + r) q)⌝)
  | 0, 1 => iprop(∃ f, (rSlot01.view.loc (c : Thread nD τ) ↦[rSlot01.view.set]{fullShare} f) ∗ ⌜∀ r q : ℕ, r < 96 → q < 1024 → rAt f 0 (192 + r) q = tr (S1 m 0 (Mesh.px 1 c) (K1 0 c + r) q)⌝)
  | 0, 2 => iprop(∃ f, (rSlot02.view.loc (c : Thread nD τ) ↦[rSlot02.view.set]{fullShare} f) ∗ ⌜∀ r q : ℕ, r < 96 → q < 1024 → rAt f 0 (288 + r) q = tr (S2 m 0 (Mesh.px 4 c) (K1 0 c + r) q)⌝)
  | 1, 0 => iprop(∃ f, (rSlot10.view.loc (c : Thread nD τ) ↦[rSlot10.view.set]{fullShare} f) ∗ ⌜∀ r q : ℕ, r < 192 → q < 1024 → rAt f 1 (0 + r) q = tr (S0 m 1 (Mesh.px 4 c) (K0 1 c + r) q)⌝)
  | 1, 1 => iprop(∃ f, (rSlot11.view.loc (c : Thread nD τ) ↦[rSlot11.view.set]{fullShare} f) ∗ ⌜∀ r q : ℕ, r < 96 → q < 1024 → rAt f 1 (192 + r) q = tr (S1 m 1 (Mesh.px 3 c) (K1 1 c + r) q)⌝)
  | 1, 2 => iprop(∃ f, (rSlot12.view.loc (c : Thread nD τ) ↦[rSlot12.view.set]{fullShare} f) ∗ ⌜∀ r q : ℕ, r < 96 → q < 1024 → rAt f 1 (288 + r) q = tr (S2 m 1 (Mesh.px 1 c) (K1 1 c + r) q)⌝)
  | 2, 0 => iprop(∃ f, (rSlot20.view.loc (c : Thread nD τ) ↦[rSlot20.view.set]{fullShare} f) ∗ ⌜∀ r q : ℕ, r < 128 → q < 1024 → rAt f 2 (0 + r) q = tr (S0 m 2 (Mesh.px 1 c) (K0 2 c + r) q)⌝)
  | 2, 1 => iprop(∃ f, (rSlot21.view.loc (c : Thread nD τ) ↦[rSlot21.view.set]{fullShare} f) ∗ ⌜∀ r q : ℕ, r < 64 → q < 1024 → rAt f 2 (128 + r) q = tr (S1 m 2 (Mesh.px 4 c) (K1 2 c + r) q)⌝)
  | 2, 2 => iprop(∃ f, (rSlot22.view.loc (c : Thread nD τ) ↦[rSlot22.view.set]{fullShare} f) ∗ ⌜∀ r q : ℕ, r < 64 → q < 1024 → rAt f 2 (192 + r) q = tr (S2 m 2 (Mesh.px 2 c) (K1 2 c + r) q)⌝)

/-- What the departure of its own block hands c back: the send slot. -/
def rsSendPay (b k : Fin 3) (c : Dev nD) : sProp 𝕄 :=
  match b, k with
  | 0, 0 => iprop(∃ f, sSlot00.view.loc (c : Thread nD τ) ↦[sSlot00.view.set]{fullShare} f)
  | 0, 1 => iprop(∃ f, sSlot01.view.loc (c : Thread nD τ) ↦[sSlot01.view.set]{fullShare} f)
  | 0, 2 => iprop(∃ f, sSlot02.view.loc (c : Thread nD τ) ↦[sSlot02.view.set]{fullShare} f)
  | 1, 0 => iprop(∃ f, sSlot10.view.loc (c : Thread nD τ) ↦[sSlot10.view.set]{fullShare} f)
  | 1, 1 => iprop(∃ f, sSlot11.view.loc (c : Thread nD τ) ↦[sSlot11.view.set]{fullShare} f)
  | 1, 2 => iprop(∃ f, sSlot12.view.loc (c : Thread nD τ) ↦[sSlot12.view.set]{fullShare} f)
  | 2, 0 => iprop(∃ f, sSlot20.view.loc (c : Thread nD τ) ↦[sSlot20.view.set]{fullShare} f)
  | 2, 1 => iprop(∃ f, sSlot21.view.loc (c : Thread nD τ) ↦[sSlot21.view.set]{fullShare} f)
  | 2, 2 => iprop(∃ f, sSlot22.view.loc (c : Thread nD τ) ↦[sSlot22.view.set]{fullShare} f)

/-- What the arrival of a gathered block hands c: the partner's rows of the gather buffer, holding the totals. -/
def agRecvPay (b k : Fin 3) (c : Dev nD) : sProp 𝕄 :=
  match b, k with
  | 0, 0 => iprop(∃ f, ((aRows00 (Mesh.px 3 c)).view.loc (c : Thread nD τ) ↦[(aRows00 (Mesh.px 3 c)).view.set]{fullShare} f) ∗ ⌜∀ r q : ℕ, r < 192 → q < 1024 → aAt f (K0 0 (Mesh.px 3 c) + r) q = tr (S3 m 0 (qOwn 0 (Mesh.px 3 c) (K0 0 (Mesh.px 3 c) + r)) (K0 0 (Mesh.px 3 c) + r) q)⌝)
  | 0, 1 => iprop(∃ f, ((aRows01 (Mesh.px 1 c)).view.loc (c : Thread nD τ) ↦[(aRows01 (Mesh.px 1 c)).view.set]{fullShare} f) ∗ ⌜∀ r q : ℕ, r < 96 → q < 1024 → aAt f (K1 0 (Mesh.px 1 c) + r) q = tr (S3 m 0 (Mesh.px 1 c) (K1 0 (Mesh.px 1 c) + r) q)⌝)
  | 1, 0 => iprop(∃ f, ((aRows10 (Mesh.px 4 c)).view.loc (c : Thread nD τ) ↦[(aRows10 (Mesh.px 4 c)).view.set]{fullShare} f) ∗ ⌜∀ r q : ℕ, r < 192 → q < 1024 → aAt f (K0 1 (Mesh.px 4 c) + r) q = tr (S3 m 1 (qOwn 1 (Mesh.px 4 c) (K0 1 (Mesh.px 4 c) + r)) (K0 1 (Mesh.px 4 c) + r) q)⌝)
  | 1, 1 => iprop(∃ f, ((aRows11 (Mesh.px 3 c)).view.loc (c : Thread nD τ) ↦[(aRows11 (Mesh.px 3 c)).view.set]{fullShare} f) ∗ ⌜∀ r q : ℕ, r < 96 → q < 1024 → aAt f (K1 1 (Mesh.px 3 c) + r) q = tr (S3 m 1 (Mesh.px 3 c) (K1 1 (Mesh.px 3 c) + r) q)⌝)
  | 2, 0 => iprop(∃ f, ((aRows20 (Mesh.px 1 c)).view.loc (c : Thread nD τ) ↦[(aRows20 (Mesh.px 1 c)).view.set]{fullShare} f) ∗ ⌜∀ r q : ℕ, r < 128 → q < 1024 → aAt f (K0 2 (Mesh.px 1 c) + r) q = tr (S3 m 2 (qOwn 2 (Mesh.px 1 c) (K0 2 (Mesh.px 1 c) + r)) (K0 2 (Mesh.px 1 c) + r) q)⌝)
  | 2, 1 => iprop(∃ f, ((aRows21 (Mesh.px 4 c)).view.loc (c : Thread nD τ) ↦[(aRows21 (Mesh.px 4 c)).view.set]{fullShare} f) ∗ ⌜∀ r q : ℕ, r < 64 → q < 1024 → aAt f (K1 2 (Mesh.px 4 c) + r) q = tr (S3 m 2 (Mesh.px 4 c) (K1 2 (Mesh.px 4 c) + r) q)⌝)
  | _, _ => iprop(emp)
/-- What the departure of its own gathered rows hands c back: the share of those rows it lent. -/
def agSendPay (b k : Fin 3) (c : Dev nD) : sProp 𝕄 :=
  match b, k with
  | 0, 0 => iprop(∃ f, (aRows00 c).view.loc (c : Thread nD τ) ↦[(aRows00 c).view.set]{fullShare.right.left} f)
  | 0, 1 => iprop(∃ f, (aRows01 c).view.loc (c : Thread nD τ) ↦[(aRows01 c).view.set]{fullShare.left} f)
  | 1, 0 => iprop(∃ f, (aRows10 c).view.loc (c : Thread nD τ) ↦[(aRows10 c).view.set]{fullShare.right.left} f)
  | 1, 1 => iprop(∃ f, (aRows11 c).view.loc (c : Thread nD τ) ↦[(aRows11 c).view.set]{fullShare.left} f)
  | 2, 0 => iprop(∃ f, (aRows20 c).view.loc (c : Thread nD τ) ↦[(aRows20 c).view.set]{fullShare.right.left} f)
  | 2, 1 => iprop(∃ f, (aRows21 c).view.loc (c : Thread nD τ) ↦[(aRows21 c).view.set]{fullShare.left} f)
  | _, _ => iprop(emp)

/-- What the entry signal of partner c xor (j+1) hands c: the partner's receive slots and gather rows that c writes,
    and that the partner's receive cells for them are at round 0. -/
def barPay (j : Fin 4) (c : Dev nD) : sProp 𝕄 :=
  match j with
  | 0 => iprop(((∃ f, rSlot01.view.loc (Mesh.px 1 c : Thread nD τ) ↦[rSlot01.view.set]{fullShare} f) ∗ reached ER (dcell 1 0 1 (Mesh.px 1 c)) 0)
      ∗ ((∃ f, rSlot12.view.loc (Mesh.px 1 c : Thread nD τ) ↦[rSlot12.view.set]{fullShare} f) ∗ reached ER (dcell 1 1 2 (Mesh.px 1 c)) 0)
      ∗ ((∃ f, rSlot20.view.loc (Mesh.px 1 c : Thread nD τ) ↦[rSlot20.view.set]{fullShare} f) ∗ reached ER (dcell 1 2 0 (Mesh.px 1 c)) 0)
      ∗ ((∃ f, (aRows01 c).view.loc (Mesh.px 1 c : Thread nD τ) ↦[(aRows01 c).view.set]{fullShare} f) ∗ reached ER (dcell 3 0 1 (Mesh.px 1 c)) 0)
      ∗ ((∃ f, (aRows20 c).view.loc (Mesh.px 1 c : Thread nD τ) ↦[(aRows20 c).view.set]{fullShare} f) ∗ reached ER (dcell 3 2 0 (Mesh.px 1 c)) 0))
  | 1 => iprop(((∃ f, rSlot22.view.loc (Mesh.px 2 c : Thread nD τ) ↦[rSlot22.view.set]{fullShare} f) ∗ reached ER (dcell 1 2 2 (Mesh.px 2 c)) 0))
  | 2 => iprop(((∃ f, rSlot00.view.loc (Mesh.px 3 c : Thread nD τ) ↦[rSlot00.view.set]{fullShare} f) ∗ reached ER (dcell 1 0 0 (Mesh.px 3 c)) 0)
      ∗ ((∃ f, rSlot11.view.loc (Mesh.px 3 c : Thread nD τ) ↦[rSlot11.view.set]{fullShare} f) ∗ reached ER (dcell 1 1 1 (Mesh.px 3 c)) 0)
      ∗ ((∃ f, (aRows00 c).view.loc (Mesh.px 3 c : Thread nD τ) ↦[(aRows00 c).view.set]{fullShare} f) ∗ reached ER (dcell 3 0 0 (Mesh.px 3 c)) 0)
      ∗ ((∃ f, (aRows11 c).view.loc (Mesh.px 3 c : Thread nD τ) ↦[(aRows11 c).view.set]{fullShare} f) ∗ reached ER (dcell 3 1 1 (Mesh.px 3 c)) 0))
  | 3 => iprop(((∃ f, rSlot02.view.loc (Mesh.px 4 c : Thread nD τ) ↦[rSlot02.view.set]{fullShare} f) ∗ reached ER (dcell 1 0 2 (Mesh.px 4 c)) 0)
      ∗ ((∃ f, rSlot10.view.loc (Mesh.px 4 c : Thread nD τ) ↦[rSlot10.view.set]{fullShare} f) ∗ reached ER (dcell 1 1 0 (Mesh.px 4 c)) 0)
      ∗ ((∃ f, rSlot21.view.loc (Mesh.px 4 c : Thread nD τ) ↦[rSlot21.view.set]{fullShare} f) ∗ reached ER (dcell 1 2 1 (Mesh.px 4 c)) 0)
      ∗ ((∃ f, (aRows10 c).view.loc (Mesh.px 4 c : Thread nD τ) ↦[(aRows10 c).view.set]{fullShare} f) ∗ reached ER (dcell 3 1 0 (Mesh.px 4 c)) 0)
      ∗ ((∃ f, (aRows21 c).view.loc (Mesh.px 4 c : Thread nD τ) ↦[(aRows21 c).view.set]{fullShare} f) ∗ reached ER (dcell 3 2 1 (Mesh.px 4 c)) 0))

/-- A DMA semaphore's place (array, b, k), if it is one of the protocol's. -/
def dec (q : DmaSem sig) : Option (Fin 4 × Fin 3 × Fin 3) :=
  if 5 ≤ q.val then some (⟨(q.val - 5) / 9 % 4, Nat.mod_lt _ (by decide)⟩, ⟨(q.val - 5) % 9 / 3 % 3, Nat.mod_lt _ (by decide)⟩, ⟨(q.val - 5) % 3, Nat.mod_lt _ (by decide)⟩) else none

theorem dec_dsem : ∀ (A : Fin 4) (b k : Fin 3), dec (dsem A b k) = some (A, b, k) := by decide

def dpay (A : Fin 4) (b k : Fin 3) (c : Dev nD) : sProp 𝕄 :=
  match A with
  | 0 => rsSendPay b k c | 1 => rsRecvPay m b k c | 2 => agSendPay b k c | 3 => agRecvPay m b k c

/-- The credit of a block of the exchange at (b, k), and of a gathered block. -/
def namt (A : Fin 4) (b k : Fin 3) : ℕ :=
  if A.val < 2 then
    (match b, k with
      | 0, 0 => rSlot00.view.dmaCredit | 1, 0 => rSlot10.view.dmaCredit | 2, 0 => rSlot20.view.dmaCredit
      | 0, 1 => rSlot01.view.dmaCredit | 1, 1 => rSlot11.view.dmaCredit | 2, 1 => rSlot21.view.dmaCredit
      | 0, 2 => rSlot02.view.dmaCredit | 1, 2 => rSlot12.view.dmaCredit | 2, 2 => rSlot22.view.dmaCredit)
  else
    (match b, k with
      | 0, 0 => (aRows00 0).view.dmaCredit | 1, 0 => (aRows10 0).view.dmaCredit | 2, 0 => (aRows20 0).view.dmaCredit
      | 0, 1 => (aRows01 0).view.dmaCredit | 1, 1 => (aRows11 0).view.dmaCredit | 2, 1 => (aRows21 0).view.dmaCredit
      | _, _ => 1)

theorem namt_pos (A : Fin 4) (b k : Fin 3) : 0 < namt A b k := by
  unfold namt
  split
  · fin_cases b <;> fin_cases k <;> exact View.dmaCredit_pos _ (by decide)
  · fin_cases b <;> fin_cases k <;> first | exact View.dmaCredit_pos _ (by decide) | exact Nat.one_pos

/-- Which DMA cells the protocol uses: every cell of the exchange, the gather's at stages 0 and 1. -/
def used (A : Fin 4) (k : Fin 3) : Prop := A.val < 2 ∨ k.val < 2
instance (A : Fin 4) (k : Fin 3) : Decidable (used A k) := by unfold used; infer_instance

/-- One round. A TensorCore's barrier cell has four duties of one unit; each DMA cell in use one duty of its block's credit. -/
def Rd : Rounds.Schedule (GSem nD τ sig) (Fin 4) 𝕄 where
  duties g r :=
    if r = 0 ∧ g.1.2 = .tc then
      (match g.2 with
        | .reg s => if s = barS then Finset.univ else ∅
        | .dma q => match dec q with | some (A, _, k) => if used A k then {0} else ∅ | none => ∅)
    else ∅
  unitless _ := False
  amount g _ _ :=
    match g.2 with
    | .reg _ => 1
    | .dma q => match dec q with | some (A, b, k) => namt A b k | none => 1
  payload g _ d :=
    match g.2 with
    | .reg s => if s = barS then barPay d g.1.1 else iprop(emp)
    | .dma q => match dec q with | some (A, b, k) => dpay m A b k g.1.1 | none => iprop(emp)
  amount_pos g _ _ _ := by
    split
    · exact Nat.one_pos
    · split
      · exact namt_pos _ _ _
      · exact Nat.one_pos

end Cert.Kernel.Sched

end
-- ==== Proof.KIface.lean ====
/-
  The contract between the body and the launch: the cells' names and levels, what a device owes at launch in the order
  it pays, the ghost state a body starts from, the pipeline's proof data, and the body obligation as one proposition.
-/
import proofs.«900524_g7700000000000525_dist_gated_mlp_tp_i_m1024_h2048_d1024_v7x_i8_f32_1_alg».proof.Proof.KSched

noncomputable section

namespace Cert.Kernel.Iface

open Cert.Kernel Cert.Kernel.Gen Cert.Kernel.Sched

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's cells: none its barrier cell, some (A, b, k) a DMA cell. -/
abbrev CIx : Type := Option (Fin 4 × Fin 3 × Fin 3)
def kcell (ck : Dev nD × CIx) : GSem nD τ sig :=
  match ck.2 with
  | none => barCell ck.1
  | some (A, b, k) => dcell A b k ck.1

/-! ## Levels: a barrier cell below every receive cell; receive cells in the order their waits come -/

def L (g : GSem nD τ sig) : Finset Unit := if g.1.2 = .tc then {()} else ∅
def lv (g : GSem nD τ sig) (_ : Unit) : ℕ :=
  match g.2 with
  | .reg s => if s = barS then 1 else 0
  | .dma q =>
    match dec q with
    | some (A, _, k) => if A = 1 then 2 + k.val else if A = 3 then (if k.val = 1 then 5 else if k.val = 0 then 6 else 0) else 0
    | none => 0

/-! ## What a device owes at launch, in the order it pays: four entry signals, then its fifteen blocks' arrivals -/

def pay (c : Dev nD) : Fin 19 → CellTallies nD τ sig Unit
  | ⟨0, _⟩ => tallyAt (barCell (Mesh.px 1 c)) () 1
  | ⟨1, _⟩ => tallyAt (barCell (Mesh.px 2 c)) () 1
  | ⟨2, _⟩ => tallyAt (barCell (Mesh.px 3 c)) () 1
  | ⟨3, _⟩ => tallyAt (barCell (Mesh.px 4 c)) () 1
  | ⟨4, _⟩ => tallyAt (dcell 1 0 0 (Mesh.px 3 c)) () (namt 1 0 0)
  | ⟨5, _⟩ => tallyAt (dcell 1 1 0 (Mesh.px 4 c)) () (namt 1 1 0)
  | ⟨6, _⟩ => tallyAt (dcell 1 2 0 (Mesh.px 1 c)) () (namt 1 2 0)
  | ⟨7, _⟩ => tallyAt (dcell 1 0 1 (Mesh.px 1 c)) () (namt 1 0 1)
  | ⟨8, _⟩ => tallyAt (dcell 1 1 1 (Mesh.px 3 c)) () (namt 1 1 1)
  | ⟨9, _⟩ => tallyAt (dcell 1 2 1 (Mesh.px 4 c)) () (namt 1 2 1)
  | ⟨10, _⟩ => tallyAt (dcell 1 0 2 (Mesh.px 4 c)) () (namt 1 0 2)
  | ⟨11, _⟩ => tallyAt (dcell 1 1 2 (Mesh.px 1 c)) () (namt 1 1 2)
  | ⟨12, _⟩ => tallyAt (dcell 1 2 2 (Mesh.px 2 c)) () (namt 1 2 2)
  | ⟨13, _⟩ => tallyAt (dcell 3 0 1 (Mesh.px 1 c)) () (namt 3 0 1)
  | ⟨14, _⟩ => tallyAt (dcell 3 1 1 (Mesh.px 3 c)) () (namt 3 1 1)
  | ⟨15, _⟩ => tallyAt (dcell 3 2 1 (Mesh.px 4 c)) () (namt 3 2 1)
  | ⟨16, _⟩ => tallyAt (dcell 3 0 0 (Mesh.px 3 c)) () (namt 3 0 0)
  | ⟨17, _⟩ => tallyAt (dcell 3 1 0 (Mesh.px 4 c)) () (namt 3 1 0)
  | ⟨18, _⟩ => tallyAt (dcell 3 2 0 (Mesh.px 1 c)) () (namt 3 2 0)
  | ⟨_ + 19, h⟩ => absurd h (Nat.not_lt.2 (Nat.le_add_left _ _))

/-- What is still owed after the first n payments: the later ones summed so that the next payment is the last summand. -/
def Orem (c : Dev nD) : ℕ → CellTallies nD τ sig Unit
  | n => if h : n < 19 then Orem c (n + 1) + pay c ⟨n, h⟩ else 0
termination_by n => 19 - n

theorem Orem_lt (c : Dev nD) (n : ℕ) (h : n < 19) : Orem c n = Orem c (n + 1) + pay c ⟨n, h⟩ := by
  rw [Orem, dif_pos h]
theorem Orem_done (c : Dev nD) : Orem c 19 = 0 := by rw [Orem, dif_neg (by decide)]

/-! ## The ghost state a body starts from -/

/-- Every cell's invariant at the names the launch allocated, and that every cell is at round 0 (persistent). -/
def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)

/-- Device c's positions on its own cells. -/
def positions (c : Dev nD) : sProp 𝕄 := bigSep Finset.univ fun ix : CIx => atPos ER (kcell (c, ix)) 0 ∅ 0

/-- The tokens of the duties device c pays: its partners' barrier duties, its partners' receive duties, its own send duties. -/
def payToks (c : Dev nD) : sProp 𝕄 :=
  iprop((bigSep Finset.univ fun j : Fin 4 => dutyTok ER (barCell (Mesh.px (j.val + 1) c)) 0 j)
    ∗ (bigSep Finset.univ fun bk : Fin 3 × Fin 3 => dutyTok ER (dcell 1 bk.1 bk.2 (Mesh.px (mask bk.1 bk.2) c)) 0 (0 : Fin 4))
    ∗ (bigSep Finset.univ fun bk : Fin 3 × Fin 2 => dutyTok ER (dcell 3 bk.1 bk.2.castSucc (Mesh.px (mask bk.1 bk.2.castSucc) c)) 0 (0 : Fin 4))
    ∗ (bigSep Finset.univ fun bk : Fin 3 × Fin 3 => dutyTok ER (dcell 0 bk.1 bk.2 c) 0 (0 : Fin 4))
    ∗ (bigSep Finset.univ fun bk : Fin 3 × Fin 2 => dutyTok ER (dcell 2 bk.1 bk.2.castSucc c) 0 (0 : Fin 4)))

/-- The credit a device is dealt at launch for what its partners owe it. -/
def creds (c : Dev nD) : sProp 𝕄 :=
  iprop(cred (tallyAt (barCell c) () 4)
    ∗ (bigSep Finset.univ fun bk : Fin 3 × Fin 3 => cred (tallyAt (dcell 1 bk.1 bk.2 c) () (namt 1 bk.1 bk.2)))
    ∗ (bigSep Finset.univ fun bk : Fin 3 × Fin 2 => cred (tallyAt (dcell 3 bk.1 bk.2.castSucc c) () (namt 3 bk.1 bk.2.castSucc))))

def ghost (K : Dev nD × CIx → ℕ) (c : Dev nD) : sProp 𝕄 := iprop(records m K ∗ positions c ∗ payToks c)

def start (c : Dev nD) : sProp 𝕄 := iprop((∃ K, ghost m K c) ∗ creds c ∗ levAts L lv)

/-- The three scratch buffers, whole, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scr c)
/-- After the body: the scratch buffers again, and the kernel's thirty-six own semaphores at zero, closed. -/
def Φ₁ (c : Dev nD) : sProp 𝕄 :=
  iprop(scr c ∗ bigSep Finset.univ fun x : Fin 4 × Fin 3 × Fin 3 => semVal (dcell x.1 x.2.1 x.2.2 c) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => gIn m c
    | ⟨2, _⟩ => uIn m c
    | ⟨3, _⟩ => dIn m c
    | ⟨4, _⟩ => outFin m c
    | ⟨_ + 5, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => Orem c 0
    | ⟨_ + 1, _⟩ => 0

abbrev 𝒱₀ : Variants := Variants.none

/-- The body obligation on device c: what the body's proof delivers and the launch consumes. -/
def BodyOb (c : Dev nD) : Prop := BodyObligation (dats (F := F) m ρ 0 c) (defs₀ (F := F)) 𝒱₀ () Set.univ

end Cert.Kernel.Iface

end
-- ==== Proof.KStor.lean ====
/-
  The schedule's payloads are assertions an invariant can hold: each is a points-to at some contents, a pure fact about
  those contents, and reached-marks, joined by separating conjunction.
-/
import proofs.«900524_g7700000000000525_dist_gated_mlp_tp_i_m1024_h2048_d1024_v7x_i8_f32_1_alg».proof.Proof.KSched

noncomputable section

namespace Cert.Kernel.Sched

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option synthInstance.maxHeartbeats 400000 in
instance barPay_storable (j : Fin 4) (c : Dev nD) : BI.Storable (upEmb : UEmb _ 𝕄) (barPay (F := F) j c) := by
  unfold barPay; split <;> infer_instance
instance rsRecvPay_storable (b k : Fin 3) (c : Dev nD) : BI.Storable (upEmb : UEmb _ 𝕄) (rsRecvPay m b k c) := by
  unfold rsRecvPay; split <;> infer_instance
instance rsSendPay_storable (b k : Fin 3) (c : Dev nD) : BI.Storable (upEmb : UEmb _ 𝕄) (rsSendPay (F := F) b k c) := by
  unfold rsSendPay; split <;> infer_instance
instance agRecvPay_storable (b k : Fin 3) (c : Dev nD) : BI.Storable (upEmb : UEmb _ 𝕄) (agRecvPay m b k c) := by
  unfold agRecvPay; split <;> infer_instance
instance agSendPay_storable (b k : Fin 3) (c : Dev nD) : BI.Storable (upEmb : UEmb _ 𝕄) (agSendPay (F := F) b k c) := by
  unfold agSendPay; split <;> infer_instance
instance dpay_storable (A : Fin 4) (b k : Fin 3) (c : Dev nD) : BI.Storable (upEmb : UEmb _ 𝕄) (dpay m A b k c) := by
  unfold dpay; split <;> infer_instance

/-- Every payload of the schedule can be stored. -/
instance rd_payload_storable (g : GSem nD τ sig) (r : ℕ) (d : Fin 4) : BI.Storable (upEmb : UEmb _ 𝕄) ((Rd m).payload g r d) := by
  unfold Rd; dsimp only
  split
  · split <;> infer_instance
  · split <;> infer_instance

end Cert.Kernel.Sched

end
-- ==== Proof.KLaunch.lean ====
/-
  The launch: from the body obligation on every device to the run of @main on the mesh, every array named. The eight
  devices' thirty-seven cells each (a barrier cell and thirty-six DMA cells) are funded under one update; every cell's
  invariant is allocated for all devices at once and shared; the duty tokens are dealt to the devices that pay them,
  along the partner maps c xor mask; the launch credit is what the partners owe each device's cells.
-/
import proofs.«900524_g7700000000000525_dist_gated_mlp_tp_i_m1024_h2048_d1024_v7x_i8_f32_1_alg».proof.Proof.KIface
import proofs.«900524_g7700000000000525_dist_gated_mlp_tp_i_m1024_h2048_d1024_v7x_i8_f32_1_alg».proof.Proof.KStor
import Idealize.ShloMosaic.Lib.Pipeline.Launch
import Idealize.ShloMosaic.Lib.Pipeline.Kit
import Idealize.ShloMosaic.Lib.Tactic

noncomputable section

namespace Cert.Kernel.Launch

open Cert.Kernel Cert.Kernel.Gen Cert.Kernel.Sched

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Iface

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores: the thirty-six DMA semaphores of its four semaphore arrays -/

abbrev OIx : Type := Fin 4 × Fin 3 × Fin 3
abbrev osem : OIx → SemLoc sig := fun x => .dma (dsem x.1 x.2.1 x.2.2)

theorem ownSemFacts : Pipeline.OwnSemFacts cfg0.spec osem := by decide

theorem share_eq (c : Dev nD) (w : Fin cfg0.W) : (dats m ρ 0 c).share w = fullShare := by unfold Dat.share; split <;> rfl

/-! ## The partner maps -/

theorem mask_lt : ∀ b k : Fin 3, mask b k < 8 := by decide

/-- c ↦ c xor mk, an involution of the mesh. -/
def pxE (mk : ℕ) (h : mk < 8) : Dev nD ≃ Dev nD := ⟨Mesh.px mk, Mesh.px mk, Mesh.px_px mk h, Mesh.px_px mk h⟩

/-! ## The cells and the duty tokens minted at launch -/

theorem dsem_inj {A A' : Fin 4} {b b' k k' : Fin 3} (h : dsem A b k = dsem A' b' k') : (A, b, k) = (A', b', k') := by
  have h' := congrArg dec h
  rw [dec_dsem, dec_dsem] at h'
  exact Option.some.inj h'

theorem kcell_injective : Function.Injective (kcell : Dev nD × CIx → GSem nD τ sig) := by
  rintro ⟨c, ix⟩ ⟨c', ix'⟩ h
  have h1 : c = c' := by
    have := congrArg (fun g : GSem nD τ sig => g.1.1) h
    cases ix <;> cases ix' <;> exact this
  subst h1
  cases ix with
  | none =>
    cases ix' with
    | none => rfl
    | some y =>
      have h2 : (SemLoc.reg barS : SemLoc sig) = SemLoc.dma (dsem y.1 y.2.1 y.2.2) := congrArg Prod.snd h
      cases h2
  | some x =>
    cases ix' with
    | none =>
      have h2 : (SemLoc.dma (dsem x.1 x.2.1 x.2.2) : SemLoc sig) = SemLoc.reg barS := congrArg Prod.snd h
      cases h2
    | some y =>
      have h2 : (SemLoc.dma (dsem x.1 x.2.1 x.2.2) : SemLoc sig) = SemLoc.dma (dsem y.1 y.2.1 y.2.2) := congrArg Prod.snd h
      have h3 : (x.1, x.2.1, x.2.2) = (y.1, y.2.1, y.2.2) := dsem_inj (SemLoc.dma.inj h2)
      have h4 : x = y := h3
      rw [h4]

def allCells : Finset (GSem nD τ sig) := Finset.univ.map ⟨kcell, kcell_injective⟩

/-- The duties with a token: the barrier cell's four, and duty 0 of each DMA cell in use. -/
abbrev TIx : Type := Fin 4 ⊕ (Fin 3 × Fin 3) ⊕ (Fin 3 × Fin 2) ⊕ (Fin 3 × Fin 3) ⊕ (Fin 3 × Fin 2)

def tkey : TIx → CIx × Fin 4
  | .inl j => (none, j)
  | .inr (.inl bk) => (some (1, bk.1, bk.2), 0)
  | .inr (.inr (.inl bk)) => (some (3, bk.1, bk.2.castSucc), 0)
  | .inr (.inr (.inr (.inl bk))) => (some (0, bk.1, bk.2), 0)
  | .inr (.inr (.inr (.inr bk))) => (some (2, bk.1, bk.2.castSucc), 0)

theorem tkey_injective : Function.Injective tkey := by decide

def tokOf (ct : Dev nD × TIx) : GSem nD τ sig × ℕ × Fin 4 := (kcell (ct.1, (tkey ct.2).1), 0, (tkey ct.2).2)

theorem tokOf_injective : Function.Injective tokOf := by
  rintro ⟨c, t⟩ ⟨c', t'⟩ h
  have h1 : (c, (tkey t).1) = (c', (tkey t').1) := kcell_injective (congrArg Prod.fst h)
  have h2 : (tkey t).2 = (tkey t').2 := congrArg (fun x : GSem nD τ sig × ℕ × Fin 4 => x.2.2) h
  have hc : c = c' := congrArg Prod.fst h1
  have hk : tkey t = tkey t' := Prod.ext (congrArg Prod.snd h1) h2
  rw [hc, tkey_injective hk]

def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

/-- The duty tokens of device c's own cells. -/
def toks (c : Dev nD) : sProp 𝕄 :=
  iprop((bigSep Finset.univ fun j : Fin 4 => dutyTok ER (barCell c) 0 j)
    ∗ (bigSep Finset.univ fun bk : Fin 3 × Fin 3 => dutyTok ER (dcell 1 bk.1 bk.2 c) 0 (0 : Fin 4))
    ∗ (bigSep Finset.univ fun bk : Fin 3 × Fin 2 => dutyTok ER (dcell 3 bk.1 bk.2.castSucc c) 0 (0 : Fin 4))
    ∗ (bigSep Finset.univ fun bk : Fin 3 × Fin 3 => dutyTok ER (dcell 0 bk.1 bk.2 c) 0 (0 : Fin 4))
    ∗ (bigSep Finset.univ fun bk : Fin 3 × Fin 2 => dutyTok ER (dcell 2 bk.1 bk.2.castSucc c) 0 (0 : Fin 4)))

theorem toks_eq (c : Dev nD) :
    (bigSep Finset.univ fun t : TIx => (dutyTok ER (tokOf (c, t)).1 (tokOf (c, t)).2.1 (tokOf (c, t)).2.2 : sProp 𝕄)) = toks c := by
  unfold toks
  rw [bigSep_univ_sum, bigSep_univ_sum, bigSep_univ_sum, bigSep_univ_sum]
  rfl

/-- What the launch element deals device c: its cells' round states, its positions and reached-marks, its cells' tokens. -/
def G (c : Dev nD) : sProp 𝕄 :=
  iprop((bigSep Finset.univ fun ix : CIx => roundState ER (Rd m) (kcell (c, ix)) 0)
    ∗ (bigSep Finset.univ fun ix : CIx => iprop(atPos ER (kcell (c, ix)) 0 ∅ 0 ∗ reached ER (kcell (c, ix)) 0)) ∗ toks c)

/-- What the global step makes of it. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun ix : CIx => Φ (kcell (c, ix)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells' invariants allocated at once, the tokens dealt to their payers -/

theorem bigSep_univ_option {α : Type} [Fintype α] (Φ : Option α → sProp 𝕄) :
    bigSep Finset.univ Φ = iprop((bigSep Finset.univ fun a : α => Φ (some a)) ∗ Φ none) := by
  rw [bigSep_univ_equiv (Equiv.optionEquivSumPUnit.{0, 0} α).symm Φ, bigSep_univ_sum, bigSep_univ_of_subsingleton PUnit.unit.{1}]
  rfl

/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun ix : CIx => semVal (kcell (c, ix)) 0 : sProp 𝕄) := by
  rw [unscopedSems0_eq, bigSep_univ_option]
  exact BI.Entails.refl _

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ix : CIx => iprop(∃ κ : ℕ, cellInv ER (Rd m) κ (kcell (c, ix))))
          ∗ (bigSep Finset.univ fun ix : CIx => iprop(atPos ER (kcell (c, ix)) 0 ∅ 0 ∗ reached ER (kcell (c, ix)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun ix : CIx => semVal (kcell (c, ix)) 0) ∗ bigSep Finset.univ fun ix : CIx => roundState ER (Rd m) (kcell (c, ix)) 0)
      ⊢ (|={Set.univ}=> bigSep Finset.univ fun ix : CIx => iprop(∃ κ : ℕ, cellInv ER (Rd m) κ (kcell (c, ix))) : sProp 𝕄) from by
        rw [← bigSep_sep']
        exact (bigSep_mono fun ix _ => (Rounds.body_intro ER (Rd m) (kcell (c, ix))).trans inv_alloc).trans (bigSep_fupd _ _)) $$ [Hv Hst] with Hinv
  · isplitl [Hv] <;> iassumption
  imodintro
  isplitl [Hinv]; · iexact Hinv
  isplitl [Hat]; · iexact Hat
  iexact Htok

instance records_persistent (K : Dev nD × CIx → ℕ) : BI.Persistent (records m K) := by unfold records; infer_instance

/-- The tokens dealt around: duty j of a barrier cell goes to the partner c xor (j+1); a receive cell's token to the
    partner under its stage's mask; a send cell's token stays. -/
theorem toks_around : (bigSep Finset.univ fun c : Dev nD => (toks c : sProp 𝕄)) ⊢ bigSep Finset.univ fun c : Dev nD => payToks c := by
  have h1 : (bigSep Finset.univ fun c : Dev nD => bigSep Finset.univ fun j : Fin 4 => (dutyTok ER (barCell c) 0 j : sProp 𝕄))
      = bigSep Finset.univ fun c : Dev nD => bigSep Finset.univ fun j : Fin 4 => (dutyTok ER (barCell (Mesh.px (j.val + 1) c)) 0 j : sProp 𝕄) := by
    rw [bigSep_univ_comm, bigSep_univ_comm (fun (c : Dev nD) (j : Fin 4) => (dutyTok ER (barCell (Mesh.px (j.val + 1) c)) 0 j : sProp 𝕄))]
    exact bigSep_congr fun j _ => bigSep_univ_equiv (pxE (j.val + 1) (by omega)) _
  have h2 : (bigSep Finset.univ fun c : Dev nD => bigSep Finset.univ fun bk : Fin 3 × Fin 3 => (dutyTok ER (dcell 1 bk.1 bk.2 c) 0 (0 : Fin 4) : sProp 𝕄))
      = bigSep Finset.univ fun c : Dev nD => bigSep Finset.univ fun bk : Fin 3 × Fin 3 => (dutyTok ER (dcell 1 bk.1 bk.2 (Mesh.px (mask bk.1 bk.2) c)) 0 (0 : Fin 4) : sProp 𝕄) := by
    rw [bigSep_univ_comm, bigSep_univ_comm (fun (c : Dev nD) (bk : Fin 3 × Fin 3) => (dutyTok ER (dcell 1 bk.1 bk.2 (Mesh.px (mask bk.1 bk.2) c)) 0 (0 : Fin 4) : sProp 𝕄))]
    exact bigSep_congr fun bk _ => bigSep_univ_equiv (pxE (mask bk.1 bk.2) (mask_lt _ _)) _
  have h3 : (bigSep Finset.univ fun c : Dev nD => bigSep Finset.univ fun bk : Fin 3 × Fin 2 => (dutyTok ER (dcell 3 bk.1 bk.2.castSucc c) 0 (0 : Fin 4) : sProp 𝕄))
      = bigSep Finset.univ fun c : Dev nD => bigSep Finset.univ fun bk : Fin 3 × Fin 2 => (dutyTok ER (dcell 3 bk.1 bk.2.castSucc (Mesh.px (mask bk.1 bk.2.castSucc) c)) 0 (0 : Fin 4) : sProp 𝕄) := by
    rw [bigSep_univ_comm, bigSep_univ_comm (fun (c : Dev nD) (bk : Fin 3 × Fin 2) => (dutyTok ER (dcell 3 bk.1 bk.2.castSucc (Mesh.px (mask bk.1 bk.2.castSucc) c)) 0 (0 : Fin 4) : sProp 𝕄))]
    exact bigSep_congr fun bk _ => bigSep_univ_equiv (pxE (mask bk.1 bk.2.castSucc) (mask_lt _ _)) _
  unfold toks payToks
  rw [bigSep_sep', bigSep_sep', bigSep_sep', bigSep_sep', bigSep_sep', bigSep_sep', bigSep_sep', bigSep_sep', h1, h2, h3]

theorem ghost_intro (K : Dev nD × CIx → ℕ) (c : Dev nD) : iprop(records m K ∗ (positions c ∗ payToks c)) ⊢ G' m c := by
  unfold G' ghost
  iintro ⟨HR, HP, HT⟩
  iexists K
  isplitl [HR]; · iexact HR
  isplitl [HP] <;> iassumption

theorem regroup :
    (bigSep Finset.univ fun c : Dev nD => iprop((bigSep Finset.univ fun ix : CIx => iprop(∃ κ : ℕ, cellInv ER (Rd m) κ (kcell (c, ix))))
          ∗ (bigSep Finset.univ fun ix : CIx => iprop(atPos ER (kcell (c, ix)) 0 ∅ 0 ∗ reached ER (kcell (c, ix)) 0)) ∗ toks c) : sProp 𝕄)
      ⊢ bigSep Finset.univ (G' m) := by
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun ix : CIx => (atPos ER (kcell (c, ix)) 0 ∅ 0 : sProp 𝕄)) (fun ix => reached ER (kcell (c, ix)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · (unfold positions; iexact Hat)
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Levels: every cell a device owes sits above the staging cells -/

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) : lv (barCell d) () = 1 := by
  unfold lv; dsimp only; exact if_pos rfl

theorem lv_dcell (A : Fin 4) (b k : Fin 3) (d : Dev nD) :
    lv (dcell A b k d) () = if A = 1 then 2 + k.val else if A = 3 then (if k.val = 1 then 5 else if k.val = 0 then 6 else 0) else 0 := by
  unfold lv; dsimp only; rw [dec_dsem]

theorem pay_pos {c : Dev nD} {i : Fin 19} {g : GSem nD τ sig} {u : Unit} (h : 0 < pay c i g u) : g.1.2 = .tc ∧ 0 < lv g () := by
  have key : ∀ (g₀ : GSem nD τ sig) (n : ℕ), g₀.1.2 = .tc → 0 < lv g₀ () → 0 < tallyAt g₀ () n g u → g.1.2 = .tc ∧ 0 < lv g () := by
    intro g₀ n h1 h2 h3
    obtain ⟨rfl, -⟩ := Pipeline.tallyAt_pos h3
    exact ⟨h1, h2⟩
  fin_cases i <;> first
    | exact key _ _ rfl (by rw [lv_bar]; exact Nat.one_pos) h
    | exact key _ _ rfl (by rw [lv_dcell]; decide) h

theorem Orem_pos (c : Dev nD) {g : GSem nD τ sig} {u : Unit} :
    ∀ (k n : ℕ), n + k = 19 → 0 < Orem c n g u → ∃ i : Fin 19, 0 < pay c i g u
  | 0, n, hn, h => by
    have hn' : n = 19 := by omega
    subst hn'
    rw [Orem_done, Pi.zero_apply, Finsupp.zero_apply] at h
    exact absurd h (Nat.lt_irrefl 0)
  | k + 1, n, hn, h => by
    have hlt : n < 19 := by omega
    rw [Orem_lt c n hlt] at h
    rcases Pipeline.add_pos_cases h with h | h
    · exact Orem_pos c k (n + 1) (by omega) h
    · exact ⟨_, h⟩

theorem mayWait_stage (c : Dev nD) (q : DmaSem sig) (hq : lv ((c : Thread nD τ), .dma q) () = 0) (O : CellTallies nD τ sig Unit)
    (hO : O = Orem c 0 ∨ O = 0) :
    (levAts L lv : sProp 𝕄) ⊢ MayWait (c : Thread nD τ) (.dma q) () O := by
  rcases hO with rfl | rfl
  · exact Pipeline.mayWait_of_levAts (by rw [L_tc]; exact Finset.mem_singleton_self _) fun g i hg => by
      obtain ⟨j, hj⟩ := Orem_pos c 19 0 rfl hg
      obtain ⟨h1, h2⟩ := pay_pos hj
      refine ⟨?_, ?_⟩
      · unfold L; rw [if_pos h1]; exact Finset.mem_singleton_self _
      · rw [hq]; exact h2
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The launch credit: each unit a device's cells are owed has exactly one payer -/

theorem launchCred_step (c : Dev nD) (n : ℕ) (h : n < 19) :
    (Pipeline.launchCred (fun d => Orem d n) c : sProp 𝕄)
      = iprop(Pipeline.launchCred (fun d => Orem d (n + 1)) c ∗ Pipeline.launchCred (fun d => pay d ⟨n, h⟩) c) := by
  rw [show (fun d : Dev nD => Orem d n) = fun d => Orem d (n + 1) + pay d ⟨n, h⟩ from funext fun d => Orem_lt d n h]
  exact Pipeline.launchCred_add _ _ c

/-- Every device owing n units on semaphore sm of its partner under mk, device c is dealt n units' credit on its own sm. -/
theorem cred_at (sm : SemLoc sig) (mk : ℕ) (hmk : mk < 8) (n : ℕ) (c : Dev nD) :
    (Pipeline.launchCred (fun d => tallyAt ((Mesh.px mk d : Thread nD τ), sm) () n) c : sProp 𝕄) ⊢ cred (tallyAt ((c : Thread nD τ), sm) () n) :=
  Pipeline.launchCred_tallyAt sm (Mesh.px mk) (Mesh.px mk) (Mesh.px_px mk hmk) (Mesh.px_px mk hmk) () n c

/-- The same, for the payment at position i of the devices' lists, once it is read as such a tally. -/
theorem cred_pay (i : Fin 19) (sm : SemLoc sig) (mk : ℕ) (hmk : mk < 8) (n : ℕ) (c : Dev nD)
    (h : ∀ d : Dev nD, pay d i = tallyAt ((Mesh.px mk d : Thread nD τ), sm) () n) :
    (Pipeline.launchCred (fun d => pay d i) c : sProp 𝕄) ⊢ cred (tallyAt ((c : Thread nD τ), sm) () n) := by
  rw [show (fun d : Dev nD => pay d i) = fun d => tallyAt ((Mesh.px mk d : Thread nD τ), sm) () n from funext h]
  exact cred_at sm mk hmk n c

theorem cred_join (g : GSem nD τ sig) (a b : ℕ) :
    iprop(cred (tallyAt g () a) ∗ cred (tallyAt g () b)) ⊢ (cred (tallyAt g () (a + b)) : sProp 𝕄) := by
  rw [← tallyAt_add]; exact (cred_add _ _).2

theorem bigSep_33 (Φ : Fin 3 × Fin 3 → sProp 𝕄) :
    bigSep Finset.univ Φ = iprop(Φ (0, 0) ∗ Φ (1, 0) ∗ Φ (2, 0) ∗ Φ (0, 1) ∗ Φ (1, 1) ∗ Φ (2, 1) ∗ Φ (0, 2) ∗ Φ (1, 2) ∗ Φ (2, 2)) :=
  bigSep_univ_eq_bigSepL [(0, 0), (1, 0), (2, 0), (0, 1), (1, 1), (2, 1), (0, 2), (1, 2), (2, 2)] (by decide) (by decide) Φ
theorem bigSep_32 (Φ : Fin 3 × Fin 2 → sProp 𝕄) :
    bigSep Finset.univ Φ = iprop(Φ (0, 1) ∗ Φ (1, 1) ∗ Φ (2, 1) ∗ Φ (0, 0) ∗ Φ (1, 0) ∗ Φ (2, 0)) :=
  bigSep_univ_eq_bigSepL [(0, 1), (1, 1), (2, 1), (0, 0), (1, 0), (2, 0)] (by decide) (by decide) Φ

theorem creds_intro (c : Dev nD) : (Pipeline.launchCred (fun d => Orem d 0) c : sProp 𝕄) ⊢ creds c := by
  rw [launchCred_step c 0 (by decide), launchCred_step c 1 (by decide), launchCred_step c 2 (by decide), launchCred_step c 3 (by decide),
    launchCred_step c 4 (by decide), launchCred_step c 5 (by decide), launchCred_step c 6 (by decide), launchCred_step c 7 (by decide),
    launchCred_step c 8 (by decide), launchCred_step c 9 (by decide), launchCred_step c 10 (by decide), launchCred_step c 11 (by decide),
    launchCred_step c 12 (by decide), launchCred_step c 13 (by decide), launchCred_step c 14 (by decide), launchCred_step c 15 (by decide),
    launchCred_step c 16 (by decide), launchCred_step c 17 (by decide), launchCred_step c 18 (by decide)]
  unfold creds
  rw [bigSep_33, bigSep_32]
  iintro ⟨⟨⟨⟨⟨⟨⟨⟨⟨⟨⟨⟨⟨⟨⟨⟨⟨⟨⟨-, H18⟩, H17⟩, H16⟩, H15⟩, H14⟩, H13⟩, H12⟩, H11⟩, H10⟩, H9⟩, H8⟩, H7⟩, H6⟩, H5⟩, H4⟩, H3⟩, H2⟩, H1⟩, H0⟩
  ihave C0 := (cred_pay (F := F) ⟨0, by first | decide | skip⟩ (.reg barS) 1 (by decide) 1 c (fun _ => rfl)) $$ H0
  ihave C1 := (cred_pay (F := F) ⟨1, by first | decide | skip⟩ (.reg barS) 2 (by decide) 1 c (fun _ => rfl)) $$ H1
  ihave C2 := (cred_pay (F := F) ⟨2, by first | decide | skip⟩ (.reg barS) 3 (by decide) 1 c (fun _ => rfl)) $$ H2
  ihave C3 := (cred_pay (F := F) ⟨3, by first | decide | skip⟩ (.reg barS) 4 (by decide) 1 c (fun _ => rfl)) $$ H3
  ihave C4 := (cred_pay (F := F) ⟨4, by first | decide | skip⟩ (.dma (dsem 1 0 0)) 3 (by decide) (namt 1 0 0) c (fun _ => rfl)) $$ H4
  ihave C5 := (cred_pay (F := F) ⟨5, by first | decide | skip⟩ (.dma (dsem 1 1 0)) 4 (by decide) (namt 1 1 0) c (fun _ => rfl)) $$ H5
  ihave C6 := (cred_pay (F := F) ⟨6, by first | decide | skip⟩ (.dma (dsem 1 2 0)) 1 (by decide) (namt 1 2 0) c (fun _ => rfl)) $$ H6
  ihave C7 := (cred_pay (F := F) ⟨7, by first | decide | skip⟩ (.dma (dsem 1 0 1)) 1 (by decide) (namt 1 0 1) c (fun _ => rfl)) $$ H7
  ihave C8 := (cred_pay (F := F) ⟨8, by first | decide | skip⟩ (.dma (dsem 1 1 1)) 3 (by decide) (namt 1 1 1) c (fun _ => rfl)) $$ H8
  ihave C9 := (cred_pay (F := F) ⟨9, by first | decide | skip⟩ (.dma (dsem 1 2 1)) 4 (by decide) (namt 1 2 1) c (fun _ => rfl)) $$ H9
  ihave C10 := (cred_pay (F := F) ⟨10, by first | decide | skip⟩ (.dma (dsem 1 0 2)) 4 (by decide) (namt 1 0 2) c (fun _ => rfl)) $$ H10
  ihave C11 := (cred_pay (F := F) ⟨11, by first | decide | skip⟩ (.dma (dsem 1 1 2)) 1 (by decide) (namt 1 1 2) c (fun _ => rfl)) $$ H11
  ihave C12 := (cred_pay (F := F) ⟨12, by first | decide | skip⟩ (.dma (dsem 1 2 2)) 2 (by decide) (namt 1 2 2) c (fun _ => rfl)) $$ H12
  ihave C13 := (cred_pay (F := F) ⟨13, by first | decide | skip⟩ (.dma (dsem 3 0 1)) 1 (by decide) (namt 3 0 1) c (fun _ => rfl)) $$ H13
  ihave C14 := (cred_pay (F := F) ⟨14, by first | decide | skip⟩ (.dma (dsem 3 1 1)) 3 (by decide) (namt 3 1 1) c (fun _ => rfl)) $$ H14
  ihave C15 := (cred_pay (F := F) ⟨15, by first | decide | skip⟩ (.dma (dsem 3 2 1)) 4 (by decide) (namt 3 2 1) c (fun _ => rfl)) $$ H15
  ihave C16 := (cred_pay (F := F) ⟨16, by first | decide | skip⟩ (.dma (dsem 3 0 0)) 3 (by decide) (namt 3 0 0) c (fun _ => rfl)) $$ H16
  ihave C17 := (cred_pay (F := F) ⟨17, by first | decide | skip⟩ (.dma (dsem 3 1 0)) 4 (by decide) (namt 3 1 0) c (fun _ => rfl)) $$ H17
  ihave C18 := (cred_pay (F := F) ⟨18, by first | decide | skip⟩ (.dma (dsem 3 2 0)) 1 (by decide) (namt 3 2 0) c (fun _ => rfl)) $$ H18
  isplitl [C0 C1 C2 C3]
  · ihave C01 := (cred_join (F := F) (barCell c) 1 1) $$ [C0 C1]
    · isplitl [C0] <;> iassumption
    ihave C012 := (cred_join (F := F) (barCell c) 2 1) $$ [C01 C2]
    · isplitl [C01] <;> iassumption
    ihave C0123 := (cred_join (F := F) (barCell c) 3 1) $$ [C012 C3]
    · isplitl [C012] <;> iassumption
    iexact C0123
  isplitl [C4 C5 C6 C7 C8 C9 C10 C11 C12]
  · isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    iexact C12
  · isplitl [C13]; · iexact C13
    isplitl [C14]; · iexact C14
    isplitl [C15]; · iexact C15
    isplitl [C16]; · iexact C16
    isplitl [C17]; · iexact C17
    iexact C18

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (fun d => Orem d 0) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scr Pipeline.ownSems0
  iintro ⟨Hr, Hz⟩
  isplitr; · iempintro
  isplitl [Hz] <;> iassumption

/-! ## The run -/

set_option maxRecDepth 8000 in
/-- On the mesh of eight devices, for any float values, from any memory with zero counters, given the body obligation
    on every device: every weakly fair execution of @main terminates, and every final state has each device's five
    arrays at the contents the proof data compute. -/
theorem run_main (hbody : ∀ c, BodyOb m ρ c) :
    θ_run defs (onTc (τ := τ) (main (F := F))) (Iface.s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := fun c => Orem c 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays after the run -/

/-- The result array's contents on device c: every row its butterfly's total as it came over the wire. -/
abbrev outArr (c : Dev nD) : Buf (Elt F) ((c.tc : Thread nD τ).loc main_v1) := Sched.outFin m c
theorem outArr_eq (c : Dev nD) : outArr m c = Sched.outFin m c := rfl

/-- The four argument arrays hold after the run what they held. -/
theorem final_args (c : Dev nD) :
    (dats m ρ 0 c).arrAt (0 : Fin 5) cfg0.N = m ((c.tc : Thread nD τ).loc main_arg0)
    ∧ (dats m ρ 0 c).arrAt (1 : Fin 5) cfg0.N = m ((c.tc : Thread nD τ).loc main_arg1)
    ∧ (dats m ρ 0 c).arrAt (2 : Fin 5) cfg0.N = m ((c.tc : Thread nD τ).loc main_arg2)
    ∧ (dats m ρ 0 c).arrAt (3 : Fin 5) cfg0.N = m ((c.tc : Thread nD τ).loc main_arg3) :=
  ⟨(dats (F := F) m ρ 0 c).arrAt_in (0 : Fin 5) rfl _, (dats (F := F) m ρ 0 c).arrAt_in (1 : Fin 5) rfl _,
    (dats (F := F) m ρ 0 c).arrAt_in (2 : Fin 5) rfl _, (dats (F := F) m ρ 0 c).arrAt_in (3 : Fin 5) rfl _⟩

/-- The result array after the run: the one write-back writes the whole array (the window's one block is the array, at
    offset zero), so reading the array back through the block gives what was written. -/
theorem final_out (c : Dev nD) : (dats m ρ 0 c).arrAt (4 : Fin 5) cfg0.N = outArr m c := by
  have h := (dats (F := F) m ρ 0 c).arrAt_succ (4 : Fin 5) t0_0
  rw [flush0_4 t0_0, if_pos rfl] at h
  refine h.trans ?_
  have hoff : (fun a => win0_4.index t0_0 a * win0_4.size a) = fun _ => 0 := funext fun a => Nat.zero_mul _
  have inb : ∀ a : Fin main_v1.ty.shape.rank, win0_4.index t0_0 a * win0_4.size a + main_v1.ty.shape.size a ≤ main_v1.ty.shape.size a := fun a => by
    have h0 : win0_4.index t0_0 a * win0_4.size a = 0 := Nat.zero_mul _
    rw [h0, Nat.zero_add]
  have hr := Memref.read_access_unit_zero (Elt F) main_v1 hoff inb
    (View.write (Elt F) ((cfg0.win 4).blk t0_0).view ((dats m ρ 0 c).arrAt 4 t0_0.val) ((dats m ρ 0 c).flushed 4 t0_0) Finset.univ)
  refine hr.symm.trans ?_
  exact View.read_write_univ _ _

/-- The run with every array named: on every device the result array ends holding the butterflies' totals and the four
    argument arrays end as they began. -/
theorem kernel_run (hbody : ∀ c, BodyOb m ρ c) :
    θ_run defs (onTc (τ := τ) (main (F := F))) ⟨m, fun _ => 0, ρ⟩
      (fun r => ∀ c : Dev nD,
        r.2.mem ((c.tc : Thread nD τ).loc main_v1) = outArr m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r hr c =>
    ⟨(hr c (4 : Fin 5)).trans (final_out m ρ c), (hr c (0 : Fin 5)).trans (final_args m ρ c).1, (hr c (1 : Fin 5)).trans (final_args m ρ c).2.1,
      (hr c (2 : Fin 5)).trans (final_args m ρ c).2.2.1, (hr c (3 : Fin 5)).trans (final_args m ρ c).2.2.2⟩) (run_main m ρ hbody)

/-- info: 'Cert.Kernel.Launch.kernel_run' depends on axioms: [propext, Classical.choice, Quot.sound] -/
#guard_msgs in #print axioms kernel_run

end Cert.Kernel.Launch

end
-- ==== Proof.KTables.lean ====
/-
  The schedule's tables cell by cell, the levels at each wait, and the rounds rules instantiated at this protocol's cells:
  the entry signal and the barrier wait, the remote copies of the exchange and of the gather, the waits on the device's
  own DMA cells and their closing.
-/
import proofs.«900524_g7700000000000525_dist_gated_mlp_tp_i_m1024_h2048_d1024_v7x_i8_f32_1_alg».proof.Proof.KIface
import Idealize.ShloMosaic.Lib.Pipeline.Value

noncomputable section

namespace Cert.Kernel.Tables

open Cert.Kernel Cert.Kernel.Gen Cert.Kernel.Sched

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule's tables, cell by cell

Every cell has the one round 0. A barrier cell has the four duties of one unit each; a DMA cell in use the one duty 0 of
its block's credit; every other cell, and every later round, no duty. -/

theorem duties_bar (c : Dev nD) : (Rd (F := F) m).duties (barCell c) 0 = Finset.univ := by
  dsimp only [Rd]
  rw [if_pos ⟨rfl, rfl⟩, if_pos rfl]

theorem duties_dcell (A : Fin 4) (b k : Fin 3) (c : Dev nD) (h : used A k) : (Rd (F := F) m).duties (dcell A b k c) 0 = {0} := by
  dsimp only [Rd]
  rw [if_pos ⟨rfl, rfl⟩, dec_dsem]
  exact if_pos h

/-- The exchange's cells are all in use; the gather's at stages 0 and 1. -/
@[sl_rounds] theorem duties_dcell0 (b k : Fin 3) (c : Dev nD) : (Rd (F := F) m).duties (dcell 0 b k c) 0 = {0} := duties_dcell m 0 b k c (Or.inl (by decide))
@[sl_rounds] theorem duties_dcell1 (b k : Fin 3) (c : Dev nD) : (Rd (F := F) m).duties (dcell 1 b k c) 0 = {0} := duties_dcell m 1 b k c (Or.inl (by decide))
@[sl_rounds] theorem duties_dcell2_0 (b : Fin 3) (c : Dev nD) : (Rd (F := F) m).duties (dcell 2 b 0 c) 0 = {0} := duties_dcell m 2 b 0 c (Or.inr (by decide))
@[sl_rounds] theorem duties_dcell2_1 (b : Fin 3) (c : Dev nD) : (Rd (F := F) m).duties (dcell 2 b 1 c) 0 = {0} := duties_dcell m 2 b 1 c (Or.inr (by decide))
@[sl_rounds] theorem duties_dcell3_0 (b : Fin 3) (c : Dev nD) : (Rd (F := F) m).duties (dcell 3 b 0 c) 0 = {0} := duties_dcell m 3 b 0 c (Or.inr (by decide))
@[sl_rounds] theorem duties_dcell3_1 (b : Fin 3) (c : Dev nD) : (Rd (F := F) m).duties (dcell 3 b 1 c) 0 = {0} := duties_dcell m 3 b 1 c (Or.inr (by decide))

theorem duties_unused (A : Fin 4) (b k : Fin 3) (c : Dev nD) (h : ¬ used A k) (r : ℕ) : (Rd (F := F) m).duties (dcell A b k c) r = ∅ := by
  dsimp only [Rd]
  split
  · rw [dec_dsem]; exact if_neg h
  · rfl

/-- The gather has no stage 2. -/
@[sl_rounds] theorem duties_dcell2_2 (b : Fin 3) (c : Dev nD) (r : ℕ) : (Rd (F := F) m).duties (dcell 2 b 2 c) r = ∅ := duties_unused m 2 b 2 c (by decide) r
@[sl_rounds] theorem duties_dcell3_2 (b : Fin 3) (c : Dev nD) (r : ℕ) : (Rd (F := F) m).duties (dcell 3 b 2 c) r = ∅ := duties_unused m 3 b 2 c (by decide) r

theorem duties_later (g : GSem nD τ sig) (r : ℕ) (hr : 1 ≤ r) : (Rd (F := F) m).duties g r = ∅ := by
  dsimp only [Rd]
  exact if_neg fun h => by omega

@[sl_rounds] theorem duties_succ (g : GSem nD τ sig) (r : ℕ) : (Rd (F := F) m).duties g (r + 1) = ∅ := duties_later m g (r + 1) (Nat.le_add_left 1 r)

@[sl_rounds] theorem amount_bar (c : Dev nD) (d : Fin 4) : (Rd (F := F) m).amount (barCell c) 0 d = 1 := rfl

@[sl_rounds] theorem amount_dcell (A : Fin 4) (b k : Fin 3) (c : Dev nD) (d : Fin 4) : (Rd (F := F) m).amount (dcell A b k c) 0 d = namt A b k := by
  dsimp only [Rd]
  rw [dec_dsem]

@[sl_rounds] theorem expect_bar (c : Dev nD) : (Rd (F := F) m).expect (barCell c) 0 = 4 := by
  unfold Schedule.expect Schedule.amountOf
  rw [duties_bar, Finset.sum_congr rfl fun d _ => amount_bar m c d, Finset.sum_const, Finset.card_univ, Fintype.card_fin, smul_eq_mul]

theorem expect_dcell (A : Fin 4) (b k : Fin 3) (c : Dev nD) (h : used A k) : (Rd (F := F) m).expect (dcell A b k c) 0 = namt A b k := by
  unfold Schedule.expect Schedule.amountOf
  rw [duties_dcell m A b k c h, Finset.sum_singleton, amount_dcell]

@[sl_rounds] theorem expect_dcell0 (b k : Fin 3) (c : Dev nD) : (Rd (F := F) m).expect (dcell 0 b k c) 0 = namt 0 b k := expect_dcell m 0 b k c (Or.inl (by decide))
@[sl_rounds] theorem expect_dcell1 (b k : Fin 3) (c : Dev nD) : (Rd (F := F) m).expect (dcell 1 b k c) 0 = namt 1 b k := expect_dcell m 1 b k c (Or.inl (by decide))
@[sl_rounds] theorem expect_dcell2_0 (b : Fin 3) (c : Dev nD) : (Rd (F := F) m).expect (dcell 2 b 0 c) 0 = namt 2 b 0 := expect_dcell m 2 b 0 c (Or.inr (by decide))
@[sl_rounds] theorem expect_dcell2_1 (b : Fin 3) (c : Dev nD) : (Rd (F := F) m).expect (dcell 2 b 1 c) 0 = namt 2 b 1 := expect_dcell m 2 b 1 c (Or.inr (by decide))
@[sl_rounds] theorem expect_dcell3_0 (b : Fin 3) (c : Dev nD) : (Rd (F := F) m).expect (dcell 3 b 0 c) 0 = namt 3 b 0 := expect_dcell m 3 b 0 c (Or.inr (by decide))
@[sl_rounds] theorem expect_dcell3_1 (b : Fin 3) (c : Dev nD) : (Rd (F := F) m).expect (dcell 3 b 1 c) 0 = namt 3 b 1 := expect_dcell m 3 b 1 c (Or.inr (by decide))

theorem payload_bar (c : Dev nD) (d : Fin 4) : (Rd (F := F) m).payload (barCell c) 0 d = barPay d c := by
  dsimp only [Rd]
  exact if_pos rfl

theorem payload_dcell (A : Fin 4) (b k : Fin 3) (c : Dev nD) (d : Fin 4) : (Rd (F := F) m).payload (dcell A b k c) 0 d = dpay m A b k c := by
  dsimp only [Rd]
  rw [dec_dsem]

theorem dpay_0 (b k : Fin 3) (c : Dev nD) : dpay m 0 b k c = rsSendPay b k c := rfl
theorem dpay_1 (b k : Fin 3) (c : Dev nD) : dpay m 1 b k c = rsRecvPay m b k c := rfl
theorem dpay_2 (b k : Fin 3) (c : Dev nD) : dpay m 2 b k c = agSendPay b k c := rfl
theorem dpay_3 (b k : Fin 3) (c : Dev nD) : dpay m 3 b k c = agRecvPay m b k c := rfl

theorem payload_rsSend (b k : Fin 3) (c : Dev nD) (d : Fin 4) : (Rd (F := F) m).payload (dcell 0 b k c) 0 d = rsSendPay b k c := payload_dcell m 0 b k c d
theorem payload_rsRecv (b k : Fin 3) (c : Dev nD) (d : Fin 4) : (Rd (F := F) m).payload (dcell 1 b k c) 0 d = rsRecvPay m b k c := payload_dcell m 1 b k c d
theorem payload_agSend (b k : Fin 3) (c : Dev nD) (d : Fin 4) : (Rd (F := F) m).payload (dcell 2 b k c) 0 d = agSendPay b k c := payload_dcell m 2 b k c d
theorem payload_agRecv (b k : Fin 3) (c : Dev nD) (d : Fin 4) : (Rd (F := F) m).payload (dcell 3 b k c) 0 d = agRecvPay m b k c := payload_dcell m 3 b k c d

/-- The rest of a DMA cell's round, no duty taken, is its one payload. -/
theorem rest_dcell (A : Fin 4) (b k : Fin 3) (c : Dev nD) (h : used A k) :
    bigSep ((Rd (F := F) m).duties (dcell A b k c) 0 \ ∅) (fun d => (Rd (F := F) m).payload (dcell A b k c) 0 d) = dpay m A b k c := by
  rw [Finset.sdiff_empty, duties_dcell m A b k c h, bigSep_singleton, payload_dcell]

/-- The rest of a barrier cell's round, no duty taken: the four partners' payloads. -/
theorem rest_bar (c : Dev nD) :
    bigSep ((Rd (F := F) m).duties (barCell c) 0 \ ∅) (fun d => (Rd (F := F) m).payload (barCell c) 0 d)
      = iprop(barPay 0 c ∗ barPay 1 c ∗ barPay 2 c ∗ barPay 3 c) := by
  rw [Finset.sdiff_empty, duties_bar, bigSep_univ_eq_bigSepL [0, 1, 2, 3] (by decide) (by decide), bigSepL_cons_cons, bigSepL_cons_cons, bigSepL_cons_cons, bigSepL_singleton,
    payload_bar, payload_bar, payload_bar, payload_bar]
  rfl

/-! ## Credits: a block's credit depends only on its shape and element type -/

theorem namt_0_eq_1 (b k : Fin 3) : namt 0 b k = namt 1 b k := rfl
theorem namt_2_eq_3 (b k : Fin 3) : namt 2 b k = namt 3 b k := rfl

theorem credit_r00 : rSlot00.view.dmaCredit = namt 1 0 0 := rfl
theorem credit_r01 : rSlot01.view.dmaCredit = namt 1 0 1 := rfl
theorem credit_r02 : rSlot02.view.dmaCredit = namt 1 0 2 := rfl
theorem credit_r10 : rSlot10.view.dmaCredit = namt 1 1 0 := rfl
theorem credit_r11 : rSlot11.view.dmaCredit = namt 1 1 1 := rfl
theorem credit_r12 : rSlot12.view.dmaCredit = namt 1 1 2 := rfl
theorem credit_r20 : rSlot20.view.dmaCredit = namt 1 2 0 := rfl
theorem credit_r21 : rSlot21.view.dmaCredit = namt 1 2 1 := rfl
theorem credit_r22 : rSlot22.view.dmaCredit = namt 1 2 2 := rfl
theorem credit_s00 : sSlot00.view.dmaCredit = namt 0 0 0 := rfl
theorem credit_s01 : sSlot01.view.dmaCredit = namt 0 0 1 := rfl
theorem credit_s02 : sSlot02.view.dmaCredit = namt 0 0 2 := rfl
theorem credit_s10 : sSlot10.view.dmaCredit = namt 0 1 0 := rfl
theorem credit_s11 : sSlot11.view.dmaCredit = namt 0 1 1 := rfl
theorem credit_s12 : sSlot12.view.dmaCredit = namt 0 1 2 := rfl
theorem credit_s20 : sSlot20.view.dmaCredit = namt 0 2 0 := rfl
theorem credit_s21 : sSlot21.view.dmaCredit = namt 0 2 1 := rfl
theorem credit_s22 : sSlot22.view.dmaCredit = namt 0 2 2 := rfl
theorem credit_a00 (c : Dev nD) : (aRows00 c).view.dmaCredit = namt 3 0 0 := rfl
theorem credit_a01 (c : Dev nD) : (aRows01 c).view.dmaCredit = namt 3 0 1 := rfl
theorem credit_a10 (c : Dev nD) : (aRows10 c).view.dmaCredit = namt 3 1 0 := rfl
theorem credit_a11 (c : Dev nD) : (aRows11 c).view.dmaCredit = namt 3 1 1 := rfl
theorem credit_a20 (c : Dev nD) : (aRows20 c).view.dmaCredit = namt 3 2 0 := rfl
theorem credit_a21 (c : Dev nD) : (aRows21 c).view.dmaCredit = namt 3 2 1 := rfl

/-! ## The barrier payloads spelt out

As the payer meets them: device c signals the barrier cell of its partner under the mask j + 1, and what it hands over are
its own receive slots and gather rows that this partner writes. As the owner meets them after its wait: the four partners'. -/

@[sl_rounds] theorem payload_bar_px1 (c : Dev nD) : (Rd (F := F) m).payload (barCell (Mesh.px 1 c)) 0 0 = iprop(
      ((∃ f, rSlot01.view.loc (c : Thread nD τ) ↦[rSlot01.view.set]{fullShare} f) ∗ reached ER (dcell 1 0 1 c) 0)
      ∗ ((∃ f, rSlot12.view.loc (c : Thread nD τ) ↦[rSlot12.view.set]{fullShare} f) ∗ reached ER (dcell 1 1 2 c) 0)
      ∗ ((∃ f, rSlot20.view.loc (c : Thread nD τ) ↦[rSlot20.view.set]{fullShare} f) ∗ reached ER (dcell 1 2 0 c) 0)
      ∗ ((∃ f, (aRows01 (Mesh.px 1 c)).view.loc (c : Thread nD τ) ↦[(aRows01 (Mesh.px 1 c)).view.set]{fullShare} f) ∗ reached ER (dcell 3 0 1 c) 0)
      ∗ ((∃ f, (aRows20 (Mesh.px 1 c)).view.loc (c : Thread nD τ) ↦[(aRows20 (Mesh.px 1 c)).view.set]{fullShare} f) ∗ reached ER (dcell 3 2 0 c) 0)) := by
  rw [payload_bar]; unfold barPay
  have h := Mesh.px1_px1 c
  generalize Mesh.px 1 (Mesh.px 1 c) = x at h ⊢
  subst h; rfl

@[sl_rounds] theorem payload_bar_px2 (c : Dev nD) : (Rd (F := F) m).payload (barCell (Mesh.px 2 c)) 0 1 = iprop(
      ((∃ f, rSlot22.view.loc (c : Thread nD τ) ↦[rSlot22.view.set]{fullShare} f) ∗ reached ER (dcell 1 2 2 c) 0)) := by
  rw [payload_bar]; unfold barPay
  have h := Mesh.px2_px2 c
  generalize Mesh.px 2 (Mesh.px 2 c) = x at h ⊢
  subst h; rfl

@[sl_rounds] theorem payload_bar_px3 (c : Dev nD) : (Rd (F := F) m).payload (barCell (Mesh.px 3 c)) 0 2 = iprop(
      ((∃ f, rSlot00.view.loc (c : Thread nD τ) ↦[rSlot00.view.set]{fullShare} f) ∗ reached ER (dcell 1 0 0 c) 0)
      ∗ ((∃ f, rSlot11.view.loc (c : Thread nD τ) ↦[rSlot11.view.set]{fullShare} f) ∗ reached ER (dcell 1 1 1 c) 0)
      ∗ ((∃ f, (aRows00 (Mesh.px 3 c)).view.loc (c : Thread nD τ) ↦[(aRows00 (Mesh.px 3 c)).view.set]{fullShare} f) ∗ reached ER (dcell 3 0 0 c) 0)
      ∗ ((∃ f, (aRows11 (Mesh.px 3 c)).view.loc (c : Thread nD τ) ↦[(aRows11 (Mesh.px 3 c)).view.set]{fullShare} f) ∗ reached ER (dcell 3 1 1 c) 0)) := by
  rw [payload_bar]; unfold barPay
  have h := Mesh.px3_px3 c
  generalize Mesh.px 3 (Mesh.px 3 c) = x at h ⊢
  subst h; rfl

@[sl_rounds] theorem payload_bar_px4 (c : Dev nD) : (Rd (F := F) m).payload (barCell (Mesh.px 4 c)) 0 3 = iprop(
      ((∃ f, rSlot02.view.loc (c : Thread nD τ) ↦[rSlot02.view.set]{fullShare} f) ∗ reached ER (dcell 1 0 2 c) 0)
      ∗ ((∃ f, rSlot10.view.loc (c : Thread nD τ) ↦[rSlot10.view.set]{fullShare} f) ∗ reached ER (dcell 1 1 0 c) 0)
      ∗ ((∃ f, rSlot21.view.loc (c : Thread nD τ) ↦[rSlot21.view.set]{fullShare} f) ∗ reached ER (dcell 1 2 1 c) 0)
      ∗ ((∃ f, (aRows10 (Mesh.px 4 c)).view.loc (c : Thread nD τ) ↦[(aRows10 (Mesh.px 4 c)).view.set]{fullShare} f) ∗ reached ER (dcell 3 1 0 c) 0)
      ∗ ((∃ f, (aRows21 (Mesh.px 4 c)).view.loc (c : Thread nD τ) ↦[(aRows21 (Mesh.px 4 c)).view.set]{fullShare} f) ∗ reached ER (dcell 3 2 1 c) 0)) := by
  rw [payload_bar]; unfold barPay
  have h := Mesh.px4_px4 c
  generalize Mesh.px 4 (Mesh.px 4 c) = x at h ⊢
  subst h; rfl

attribute [sl_rounds] duties_bar

@[sl_rounds] theorem bar_payloads (c : Dev nD) :
    bigSep (Finset.univ : Finset (Fin 4)) (fun d => (Rd (F := F) m).payload (barCell c) 0 d) = iprop(
      (((∃ f, rSlot01.view.loc (Mesh.px 1 c : Thread nD τ) ↦[rSlot01.view.set]{fullShare} f) ∗ reached ER (dcell 1 0 1 (Mesh.px 1 c)) 0)
        ∗ ((∃ f, rSlot12.view.loc (Mesh.px 1 c : Thread nD τ) ↦[rSlot12.view.set]{fullShare} f) ∗ reached ER (dcell 1 1 2 (Mesh.px 1 c)) 0)
        ∗ ((∃ f, rSlot20.view.loc (Mesh.px 1 c : Thread nD τ) ↦[rSlot20.view.set]{fullShare} f) ∗ reached ER (dcell 1 2 0 (Mesh.px 1 c)) 0)
        ∗ ((∃ f, (aRows01 c).view.loc (Mesh.px 1 c : Thread nD τ) ↦[(aRows01 c).view.set]{fullShare} f) ∗ reached ER (dcell 3 0 1 (Mesh.px 1 c)) 0)
        ∗ ((∃ f, (aRows20 c).view.loc (Mesh.px 1 c : Thread nD τ) ↦[(aRows20 c).view.set]{fullShare} f) ∗ reached ER (dcell 3 2 0 (Mesh.px 1 c)) 0))
      ∗ (((∃ f, rSlot22.view.loc (Mesh.px 2 c : Thread nD τ) ↦[rSlot22.view.set]{fullShare} f) ∗ reached ER (dcell 1 2 2 (Mesh.px 2 c)) 0))
      ∗ (((∃ f, rSlot00.view.loc (Mesh.px 3 c : Thread nD τ) ↦[rSlot00.view.set]{fullShare} f) ∗ reached ER (dcell 1 0 0 (Mesh.px 3 c)) 0)
        ∗ ((∃ f, rSlot11.view.loc (Mesh.px 3 c : Thread nD τ) ↦[rSlot11.view.set]{fullShare} f) ∗ reached ER (dcell 1 1 1 (Mesh.px 3 c)) 0)
        ∗ ((∃ f, (aRows00 c).view.loc (Mesh.px 3 c : Thread nD τ) ↦[(aRows00 c).view.set]{fullShare} f) ∗ reached ER (dcell 3 0 0 (Mesh.px 3 c)) 0)
        ∗ ((∃ f, (aRows11 c).view.loc (Mesh.px 3 c : Thread nD τ) ↦[(aRows11 c).view.set]{fullShare} f) ∗ reached ER (dcell 3 1 1 (Mesh.px 3 c)) 0))
      ∗ (((∃ f, rSlot02.view.loc (Mesh.px 4 c : Thread nD τ) ↦[rSlot02.view.set]{fullShare} f) ∗ reached ER (dcell 1 0 2 (Mesh.px 4 c)) 0)
        ∗ ((∃ f, rSlot10.view.loc (Mesh.px 4 c : Thread nD τ) ↦[rSlot10.view.set]{fullShare} f) ∗ reached ER (dcell 1 1 0 (Mesh.px 4 c)) 0)
        ∗ ((∃ f, rSlot21.view.loc (Mesh.px 4 c : Thread nD τ) ↦[rSlot21.view.set]{fullShare} f) ∗ reached ER (dcell 1 2 1 (Mesh.px 4 c)) 0)
        ∗ ((∃ f, (aRows10 c).view.loc (Mesh.px 4 c : Thread nD τ) ↦[(aRows10 c).view.set]{fullShare} f) ∗ reached ER (dcell 3 1 0 (Mesh.px 4 c)) 0)
        ∗ ((∃ f, (aRows21 c).view.loc (Mesh.px 4 c : Thread nD τ) ↦[(aRows21 c).view.set]{fullShare} f) ∗ reached ER (dcell 3 2 1 (Mesh.px 4 c)) 0))) := by
  have h := rest_bar m c
  rw [Finset.sdiff_empty, duties_bar] at h
  exact h

/-! ## Levels: what is still owed sits above the cell waited on

After n payments a device owes the later ones; each is owed on a cell whose level is known, and the levels rise with the
order of payment: the partners' barrier cells at 1, their exchange receive cells at 2, 3, 4 by stage, their gather receive
cells at 5 (stage 1) and 6 (stage 0). A wait on a cell whose level is at most b is allowed once everything still owed lies
above b. -/

theorem Orem_ge (c : Dev nD) (n : ℕ) (h : 19 ≤ n) : Iface.Orem c n = 0 := by
  rw [Iface.Orem, dif_neg (by omega)]

/-- The cell of the i-th payment. -/
def pcell (c : Dev nD) : Fin 19 → GSem nD τ sig
  | ⟨0, _⟩ => barCell (Mesh.px 1 c)
  | ⟨1, _⟩ => barCell (Mesh.px 2 c)
  | ⟨2, _⟩ => barCell (Mesh.px 3 c)
  | ⟨3, _⟩ => barCell (Mesh.px 4 c)
  | ⟨4, _⟩ => dcell 1 0 0 (Mesh.px 3 c)
  | ⟨5, _⟩ => dcell 1 1 0 (Mesh.px 4 c)
  | ⟨6, _⟩ => dcell 1 2 0 (Mesh.px 1 c)
  | ⟨7, _⟩ => dcell 1 0 1 (Mesh.px 1 c)
  | ⟨8, _⟩ => dcell 1 1 1 (Mesh.px 3 c)
  | ⟨9, _⟩ => dcell 1 2 1 (Mesh.px 4 c)
  | ⟨10, _⟩ => dcell 1 0 2 (Mesh.px 4 c)
  | ⟨11, _⟩ => dcell 1 1 2 (Mesh.px 1 c)
  | ⟨12, _⟩ => dcell 1 2 2 (Mesh.px 2 c)
  | ⟨13, _⟩ => dcell 3 0 1 (Mesh.px 1 c)
  | ⟨14, _⟩ => dcell 3 1 1 (Mesh.px 3 c)
  | ⟨15, _⟩ => dcell 3 2 1 (Mesh.px 4 c)
  | ⟨16, _⟩ => dcell 3 0 0 (Mesh.px 3 c)
  | ⟨17, _⟩ => dcell 3 1 0 (Mesh.px 4 c)
  | ⟨18, _⟩ => dcell 3 2 0 (Mesh.px 1 c)
  | ⟨_ + 19, h⟩ => absurd h (Nat.not_lt.2 (Nat.le_add_left _ _))

/-- The level of the i-th payment's cell. -/
def plev (i : Fin 19) : ℕ := if i.val < 4 then 1 else 2 + (i.val - 4) / 3

theorem pay_eq (c : Dev nD) (i : Fin 19) : ∃ a, Iface.pay c i = tallyAt (pcell c i) () a := by
  fin_cases i <;> exact ⟨_, rfl⟩

theorem pay_pos (c : Dev nD) (i : Fin 19) {g : GSem nD τ sig} {u : Unit} (h : 0 < Iface.pay c i g u) : g = pcell c i := by
  obtain ⟨a, ha⟩ := pay_eq c i
  rw [ha, tallyAt_apply] at h
  by_contra hn
  rw [if_neg (fun h' => hn h'.1)] at h
  exact Nat.lt_irrefl 0 h

theorem Orem_pos_aux (c : Dev nD) (g : GSem nD τ sig) (u : Unit) :
    ∀ (k n : ℕ), n + k = 19 → 0 < Iface.Orem c n g u → ∃ i : Fin 19, n ≤ i.val ∧ 0 < Iface.pay c i g u
  | 0, n, h, hp => by
    rw [Orem_ge c n (by omega)] at hp
    exact absurd hp (Nat.lt_irrefl 0)
  | k + 1, n, h, hp => by
    have hn : n < 19 := by omega
    rw [Iface.Orem_lt c n hn, Pi.add_apply, Finsupp.add_apply] at hp
    rcases Nat.eq_zero_or_pos (Iface.pay c ⟨n, hn⟩ g u) with h0 | h0
    · rw [h0, Nat.add_zero] at hp
      obtain ⟨i, hi, hpi⟩ := Orem_pos_aux c g u k (n + 1) (by omega) hp
      exact ⟨i, by omega, hpi⟩
    · exact ⟨⟨n, hn⟩, le_rfl, h0⟩

/-- Whatever is owed after n payments is owed on the cell of a later payment. -/
theorem Orem_pos (c : Dev nD) (n : ℕ) {g : GSem nD τ sig} {u : Unit} (h : 0 < Iface.Orem c n g u) : ∃ i : Fin 19, n ≤ i.val ∧ g = pcell c i := by
  by_cases hn : n ≤ 19
  · obtain ⟨i, hi, hp⟩ := Orem_pos_aux c g u (19 - n) n (by omega) h
    exact ⟨i, hi, pay_pos c i hp⟩
  · rw [Orem_ge c n (by omega)] at h
    exact absurd h (Nat.lt_irrefl 0)

theorem L_tc (c : Dev nD) (sm : SemLoc sig) : Iface.L ((c : Thread nD τ), sm) = {()} := if_pos rfl

theorem L_pcell (c : Dev nD) (i : Fin 19) : Iface.L (pcell c i) = {()} := by
  fin_cases i <;> exact if_pos rfl

theorem lv_pcell (c : Dev nD) (i : Fin 19) : Iface.lv (pcell c i) () = plev i := by
  fin_cases i <;> rfl

theorem lv_bar (c : Dev nD) : Iface.lv (barCell c) () = 1 := by
  show (if barS = barS then 1 else 0) = 1
  exact if_pos rfl

theorem lv_recv (b k : Fin 3) (c : Dev nD) : Iface.lv (dcell 1 b k c) () = 2 + k.val := by
  dsimp only [Iface.lv]
  rw [dec_dsem]
  exact if_pos rfl

theorem lv_gather1 (b : Fin 3) (c : Dev nD) : Iface.lv (dcell 3 b 1 c) () = 5 := by
  dsimp only [Iface.lv]
  rw [dec_dsem]
  rfl

/-- A wait on a cell at level at most b, everything still owed lying above b. -/
theorem mayWait_cut (c : Dev nD) (sm : SemLoc sig) (n b : ℕ) (hsm : Iface.lv ((c : Thread nD τ), sm) () ≤ b)
    (hn : ∀ i : Fin 19, n ≤ i.val → b < plev i) :
    (levAts Iface.L Iface.lv : sProp 𝕄) ⊢ MayWait (c : Thread nD τ) sm () (Iface.Orem c n) :=
  MayOwe.of_cut (L := Iface.L) (lev := Iface.lv) b
    (fun p hp => by rw [Finset.mem_singleton.mp hp, L_tc]; exact Finset.mem_singleton_self _)
    (fun g u hg => by obtain ⟨i, _, rfl⟩ := Orem_pos c n hg; rw [L_pcell]; exact Finset.mem_singleton_self _)
    (fun p hp => by rw [Finset.mem_singleton.mp hp]; exact hsm)
    (fun g u hg => by obtain ⟨i, hin, rfl⟩ := Orem_pos c n hg; rw [lv_pcell]; exact hn i hin)

/-- The barrier wait: the four entry signals paid, the fifteen blocks owed. -/
theorem mayWait_bar (c : Dev nD) : (levAts Iface.L Iface.lv : sProp 𝕄) ⊢ MayWait (c : Thread nD τ) (.reg barS) () (Iface.Orem c 4) :=
  mayWait_cut c (.reg barS) 4 1 (lv_bar c).le (by decide)

/-- The exchange's receive waits: at stage k the blocks of the stages up to k are paid. -/
theorem mayWait_rs0 (b : Fin 3) (c : Dev nD) : (levAts Iface.L Iface.lv : sProp 𝕄) ⊢ MayWait (c : Thread nD τ) (.dma (dsem 1 b 0)) () (Iface.Orem c 7) :=
  mayWait_cut c (.dma (dsem 1 b 0)) 7 2 (lv_recv b 0 c).le (by decide)
theorem mayWait_rs1 (b : Fin 3) (c : Dev nD) : (levAts Iface.L Iface.lv : sProp 𝕄) ⊢ MayWait (c : Thread nD τ) (.dma (dsem 1 b 1)) () (Iface.Orem c 10) :=
  mayWait_cut c (.dma (dsem 1 b 1)) 10 3 (lv_recv b 1 c).le (by decide)
theorem mayWait_rs2 (b : Fin 3) (c : Dev nD) : (levAts Iface.L Iface.lv : sProp 𝕄) ⊢ MayWait (c : Thread nD τ) (.dma (dsem 1 b 2)) () (Iface.Orem c 13) :=
  mayWait_cut c (.dma (dsem 1 b 2)) 13 4 (lv_recv b 2 c).le (by decide)

/-- The gather's stage-1 receive waits: only the stage-0 blocks are still owed. -/
theorem mayWait_ag1 (b : Fin 3) (c : Dev nD) : (levAts Iface.L Iface.lv : sProp 𝕄) ⊢ MayWait (c : Thread nD τ) (.dma (dsem 3 b 1)) () (Iface.Orem c 16) :=
  mayWait_cut c (.dma (dsem 3 b 1)) 16 5 (lv_gather1 b c).le (by decide)

/-- Everything paid: any wait is allowed. -/
theorem mayWait_done (c : Dev nD) (sm : SemLoc sig) : (emp : sProp 𝕄) ⊢ MayWait (c : Thread nD τ) sm () (Iface.Orem c 19) := by
  rw [Iface.Orem_done, MayWait_zero]
  exact BI.Entails.refl _

/-! ## The rules at this protocol's cells -/

section Rules

open Cert.Kernel.Iface (𝒱₀)

/-- The entry signal to the partner under the mask mk, paying duty j of the partner's barrier cell. -/
theorem wp_signal_bar (c : Dev nD) (mk : ℕ) (j : Fin 4) {κ : ℕ} {α : Type} {Q : α → sProp 𝕄}
    {kk : PUnit → Prog (TpuEff nD τ sig (Elt F) Λ₀ .tc) α} {O₀ : CellTallies nD τ sig Unit} (O : CellTallies nD τ sig Unit)
    (hO : O₀ = O + tallyAt (barCell (Mesh.px mk c)) () 1) {W : Waits sig Unit} :
    iprop(cellInv ER (Rd (F := F) m) κ (barCell (Mesh.px mk c)) ∗ owes (c : Thread nD τ) O₀ W ∗ dutyTok ER (barCell (Mesh.px mk c)) 0 j
        ∗ barPay j (Mesh.px mk c) ∗ reached ER (barCell (Mesh.px mk c)) 0)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px mk c : Thread nD τ) barS 1) kk) Q) := by
  have h := Rounds.wp_signal 𝒱₀ ER (Rd (F := F) m) (c : Thread nD τ) none (defs := defs₀ (F := F)) (Γ := .empty) (dst := (Mesh.px mk c : Thread nD τ)) (sem := barS) (κ := κ) (d := j) (r := 0) (k' := 1)
    (k := kk) (Q := Q) (by rw [duties_bar]; exact Finset.mem_univ _) (amount_bar m (Mesh.px mk c) j) () O hO (W := W) (Es := Set.univ)
  rw [payload_bar] at h
  exact h

/-- The barrier wait: the four partners' payloads come with it. -/
theorem wp_wait_bar (c : Dev nD) {κ : ℕ} {α : Type} {Q : α → sProp 𝕄}
    {kk : PUnit → Prog (TpuEff nD τ sig (Elt F) Λ₀ .tc) α} {O : CellTallies nD τ sig Unit} {W : Waits sig Unit} :
    iprop(cellInv ER (Rd (F := F) m) κ (barCell c) ∗ cred (tallyAt (barCell c) () 4) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1
              ∗ (barPay 0 c ∗ barPay 1 c ∗ barPay 2 c ∗ barPay 3 c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 4) kk) Q) := by
  have h := Rounds.wp_wait_rest_token 𝒱₀ ER (Rd (F := F) m) (c : Thread nD τ) none (defs := defs₀ (F := F)) (Γ := .empty) (κ := κ) (k := kk) (Q := Q)
    (w := .semWait barS 4) (sm := .reg barS) (k' := 4)
    (wpE_semWait_eq 𝒱₀ (c : Thread nD τ) none Set.univ) (Set.mem_univ _) () (O := O) (W := W) (R := 0) (m := 0) (T := ∅)
    (by rw [expect_bar])
  rw [rest_bar] at h
  exact h

/-- A wait on one of the device's own DMA cells in use: its one payload comes with it. -/
theorem wp_wait_dcell (A : Fin 4) (b k : Fin 3) (c : Dev nD) (hu : used A k) {κ : ℕ} {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt A b k) {α : Type} {Q : α → sProp 𝕄}
    {kk : PUnit → Prog (TpuEff nD τ sig (Elt F) Λ₀ .tc) α} {O : CellTallies nD τ sig Unit} {W : Waits sig Unit} :
    iprop(cellInv ER (Rd (F := F) m) κ (dcell A b k c) ∗ cred (tallyAt (dcell A b k c) () (namt A b k)) ∗ owes (c : Thread nD τ) O W
        ∗ MayWait (c : Thread nD τ) (.dma (dsem A b k)) () O ∗ atPos ER (dcell A b k c) 0 ∅ 0)
      ⊢ iprop(((owes (c : Thread nD τ) O (insert (SemLoc.dma (dsem A b k), ()) W) ∗ atPos ER (dcell A b k c) 1 ∅ 0 ∗ reached ER (dcell A b k c) 1
              ∗ dpay m A b k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem A b k) src dst hsrc hdst) kk) Q) := by
  have h := Rounds.wp_wait_rest_token 𝒱₀ ER (Rd (F := F) m) (c : Thread nD τ) none (defs := defs₀ (F := F)) (Γ := .empty) (κ := κ) (k := kk) (Q := Q)
    (w := .waitDma2 (dsem A b k) src dst hsrc hdst) (sm := .dma (dsem A b k)) (k' := dst.view.dmaCredit)
    (wpE_waitDma2_eq 𝒱₀ (c : Thread nD τ) none Set.univ) (Set.mem_univ _) () (O := O) (W := W) (R := 0) (m := 0) (T := ∅)
    (by rw [expect_dcell m A b k c hu, hN, Nat.zero_add])
  rw [rest_dcell m A b k c hu, hN] at h
  exact h

/-- A DMA cell in use closes after its round; one not in use at once. -/
theorem close_dcell (A : Fin 4) (b k : Fin 3) (c : Dev nD) {κ : ℕ} :
    iprop(cellInv ER (Rd (F := F) m) κ (dcell A b k c) ∗ atPos ER (dcell A b k c) 1 ∅ 0) ⊢ iprop(|={Set.univ}=> semVal (dcell A b k c) 0) :=
  Rounds.cell_close ER (Rd (F := F) m) (Set.mem_univ κ) (fun h => h) (R := 1) (duties_later m (dcell A b k c))

theorem close_unused (A : Fin 4) (b k : Fin 3) (c : Dev nD) (hu : ¬ used A k) {κ : ℕ} :
    iprop(cellInv ER (Rd (F := F) m) κ (dcell A b k c) ∗ atPos ER (dcell A b k c) 0 ∅ 0) ⊢ iprop(|={Set.univ}=> semVal (dcell A b k c) 0) :=
  Rounds.cell_close ER (Rd (F := F) m) (Set.mem_univ κ) (fun h => h) (R := 0) (fun r _ => duties_unused m A b k c hu r)

/-- A remote copy from one of the device's views into the same-shaped view of the device c', departing on the cell (A₁, b, k)
    of c and landing on the cell (A₂, b, k) of c'. -/
theorem wp_send_cells {s : Shape} {e : EltTy} (c c' : Dev nD) (A₁ A₂ : Fin 4) (b k : Fin 3) (h₁ : used A₁ k) (h₂ : used A₂ k)
    {src : Memref sig .tc .vmem s e} {dst : Memref sig .tc .vmem s e}
    {hsc : (dst : Memref sig (Dev.tc c' : Thread nD τ).2.kind .vmem s e).view.ref.isScScratch = false}
    {hsrc : src.view.WordExact} {hdst : dst.view.WordExact}
    {hsem : DmaTarget.Typed .vmem (.dma (dsem A₂ b k)) (.remote (Dev.tc c' : Thread nD τ) dst (.dma (dsem A₁ b k)) hsc)}
    {α : Type} {Q : α → sProp 𝕄} {kk : PUnit → Prog (TpuEff nD τ sig (Elt F) Λ₀ .tc) α}
    {q : PosShare TreeShare} {fs : Buf (Elt F) (src.view.loc (c : Thread nD τ))} {fd : Buf (Elt F) (dst.view.loc (c' : Thread nD τ))}
    {κ₁ κ₂ : ℕ} (hN : dst.view.dmaCredit = namt A₂ b k) (hA : namt A₁ b k = namt A₂ b k)
    {O₀ : CellTallies nD τ sig Unit} (O : CellTallies nD τ sig Unit) (hO : O₀ = O + tallyAt (dcell A₂ b k c') () (namt A₂ b k)) {W : Waits sig Unit}
    (hpay₁ : (src.view.loc (c : Thread nD τ) ↦[src.view.set]{q} fs) ⊢ dpay m A₁ b k c)
    (hpay₂ : (dst.view.loc (c' : Thread nD τ) ↦[dst.view.set]{fullShare} (dst.view.write (Elt F) fd (src.view.read (Elt F) fs) Finset.univ))
      ⊢ dpay m A₂ b k c') :
    iprop(cellInv ER (Rd (F := F) m) κ₁ (dcell A₁ b k c) ∗ cellInv ER (Rd (F := F) m) κ₂ (dcell A₂ b k c')
        ∗ (src.view.loc (c : Thread nD τ) ↦[src.view.set]{q} fs) ∗ (dst.view.loc (c' : Thread nD τ) ↦[dst.view.set]{fullShare} fd)
        ∗ owes (c : Thread nD τ) O₀ W
        ∗ dutyTok ER (dcell A₁ b k c) 0 0 ∗ reached ER (dcell A₁ b k c) 0
        ∗ dutyTok ER (dcell A₂ b k c') 0 0 ∗ reached ER (dcell A₂ b k c') 0)
      ⊢ iprop(((cred (tallyAt (dcell A₁ b k c) () (namt A₁ b k)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc c' : Thread nD τ) dst (.dma (dsem A₁ b k)) hsc) (.dma (dsem A₂ b k)) hsrc hdst hsem) kk) Q) := by
  rw [hA]
  exact Rounds.wp_send_pointsTo 𝒱₀ ER (Rd (F := F) m) (c : Thread nD τ) none (defs := defs₀ (F := F)) (Γ := .empty) (c' := (Dev.tc c' : Thread nD τ)) (src := src) (dst := dst) (sS := .dma (dsem A₁ b k)) (sem := .dma (dsem A₂ b k))
    (q := q) (fs := fs) (fd := fd) (κ₁ := κ₁) (κ₂ := κ₂) (r₁ := 0) (r₂ := 0) (d₁ := 0) (d₂ := 0)
    (by rw [duties_dcell m A₁ b k c h₁]; exact Finset.mem_singleton_self _) (by rw [duties_dcell m A₂ b k c' h₂]; exact Finset.mem_singleton_self _)
    () () (namt A₂ b k) (by exact hN) ((amount_dcell m A₁ b k c 0).trans hA) (amount_dcell m A₂ b k c' 0) O hO (W := W)
    (by rw [payload_dcell]; exact hpay₁) (by rw [payload_dcell]; exact hpay₂)

end Rules

/-! ## The same rules, from the launch's records

The records hold every cell's invariant and that every cell is at round 0: the rules below take the records and find the
invariants and the reached rounds themselves. -/

section Records

open Cert.Kernel.Iface (𝒱₀)

instance records_persistent (K : Dev nD × Iface.CIx → ℕ) : BI.Persistent (Iface.records (F := F) m K) := by
  unfold Iface.records; infer_instance

theorem records_inv (K : Dev nD × Iface.CIx → ℕ) (ck : Dev nD × Iface.CIx) :
    Iface.records (F := F) m K ⊢ cellInv ER (Rd (F := F) m) (K ck) (Iface.kcell ck) := by
  unfold Iface.records
  exact (BI.Entails.trans BI.sep_and BI.and_elimL).trans (BI.bigSep_elim (Finset.mem_univ ck))

theorem records_reached (K : Dev nD × Iface.CIx → ℕ) (ck : Dev nD × Iface.CIx) :
    Iface.records (F := F) m K ⊢ reached ER (Iface.kcell ck) 0 := by
  unfold Iface.records
  exact (BI.Entails.trans BI.sep_and BI.and_elimR).trans (BI.bigSep_elim (Finset.mem_univ ck))

theorem records_bar (K : Dev nD × Iface.CIx → ℕ) (c : Dev nD) :
    Iface.records (F := F) m K ⊢ cellInv ER (Rd (F := F) m) (K (c, none)) (barCell c) := records_inv m K (c, none)
theorem records_bar_reached (K : Dev nD × Iface.CIx → ℕ) (c : Dev nD) :
    Iface.records (F := F) m K ⊢ reached ER (barCell c) 0 := records_reached m K (c, none)
theorem records_dcell (K : Dev nD × Iface.CIx → ℕ) (A : Fin 4) (b k : Fin 3) (c : Dev nD) :
    Iface.records (F := F) m K ⊢ cellInv ER (Rd (F := F) m) (K (c, some (A, b, k))) (dcell A b k c) := records_inv m K (c, some (A, b, k))
theorem records_dcell_reached (K : Dev nD × Iface.CIx → ℕ) (A : Fin 4) (b k : Fin 3) (c : Dev nD) :
    Iface.records (F := F) m K ⊢ reached ER (dcell A b k c) 0 := records_reached m K (c, some (A, b, k))

/-- The entry signal, the payload stated at the partner (its owner). -/
theorem wp_sig (K : Dev nD × Iface.CIx → ℕ) (c : Dev nD) (mk : ℕ) (j : Fin 4) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px mk c)) () 1) W
        ∗ dutyTok ER (barCell (Mesh.px mk c)) 0 j ∗ barPay j (Mesh.px mk c))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px mk c : Thread nD τ) barS 1) kk) Q) := by
  iintro ⟨#Hrec, HO, Ht, Hp⟩
  iapply (wp_signal_bar m c mk j (κ := K (Mesh.px mk c, none)) O rfl)
  isplitr; · iapply (records_bar m K (Mesh.px mk c)); iexact Hrec
  isplitl [HO]; · iexact HO
  isplitl [Ht]; · iexact Ht
  isplitl [Hp]; · iexact Hp
  iapply (records_bar_reached m K (Mesh.px mk c)); iexact Hrec

/-- The barrier wait, the four entry signals paid. -/
theorem wp_barwait (K : Dev nD × Iface.CIx → ℕ) (c : Dev nD) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (barCell c) () 4) ∗ owes (c : Thread nD τ) (Iface.Orem c 4) W
        ∗ atPos ER (barCell c) 0 ∅ 0)
      ⊢ iprop(((owes (c : Thread nD τ) (Iface.Orem c 4) (insert (SemLoc.reg barS, ()) W) ∗ atPos ER (barCell c) 1 ∅ 0 ∗ reached ER (barCell c) 1
              ∗ (barPay 0 c ∗ barPay 1 c ∗ barPay 2 c ∗ barPay 3 c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 4) kk) Q) := by
  iintro ⟨#Hrec, #Hlev, Hc, HO, Hat⟩
  iapply (wp_wait_bar m c (κ := K (c, none)))
  isplitr; · iapply (records_bar m K c); iexact Hrec
  isplitl [Hc]; · iexact Hc
  isplitl [HO]; · iexact HO
  isplitr; · iapply (mayWait_bar c); iexact Hlev
  iexact Hat

/-- A wait on an own DMA cell in use, owing what is left after n payments, the level's cut given. -/
theorem wp_dwait (K : Dev nD × Iface.CIx → ℕ) (A : Fin 4) (b k : Fin 3) (c : Dev nD) (hu : used A k) (n : ℕ)
    (hlev : (levAts Iface.L Iface.lv : sProp 𝕄) ⊢ MayWait (c : Thread nD τ) (.dma (dsem A b k)) () (Iface.Orem c n))
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt A b k) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell A b k c) () (namt A b k)) ∗ owes (c : Thread nD τ) (Iface.Orem c n) W
        ∗ atPos ER (dcell A b k c) 0 ∅ 0)
      ⊢ iprop(((owes (c : Thread nD τ) (Iface.Orem c n) (insert (SemLoc.dma (dsem A b k), ()) W) ∗ atPos ER (dcell A b k c) 1 ∅ 0
              ∗ reached ER (dcell A b k c) 1 ∗ dpay m A b k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem A b k) src dst hsrc hdst) kk) Q) := by
  iintro ⟨#Hrec, #Hlev, Hc, HO, Hat⟩
  iapply (wp_wait_dcell m A b k c hu hN (κ := K (c, some (A, b, k))))
  isplitr; · iapply (records_dcell m K A b k c); iexact Hrec
  isplitl [Hc]; · iexact Hc
  isplitl [HO]; · iexact HO
  isplitr; · iapply hlev; iexact Hlev
  iexact Hat

/-- Closing an own DMA cell. -/
theorem close_used (K : Dev nD × Iface.CIx → ℕ) (A : Fin 4) (b k : Fin 3) (c : Dev nD) :
    iprop(Iface.records (F := F) m K ∗ atPos ER (dcell A b k c) 1 ∅ 0) ⊢ iprop(|={Set.univ}=> semVal (dcell A b k c) 0) := by
  iintro ⟨#Hrec, Hat⟩
  iapply (close_dcell m A b k c (κ := K (c, some (A, b, k))))
  isplitr; · iapply (records_dcell m K A b k c); iexact Hrec
  iexact Hat

theorem close_idle (K : Dev nD × Iface.CIx → ℕ) (A : Fin 4) (b k : Fin 3) (c : Dev nD) (hu : ¬ used A k) :
    iprop(Iface.records (F := F) m K ∗ atPos ER (dcell A b k c) 0 ∅ 0) ⊢ iprop(|={Set.univ}=> semVal (dcell A b k c) 0) := by
  iintro ⟨#Hrec, Hat⟩
  iapply (close_unused m A b k c hu (κ := K (c, some (A, b, k))))
  isplitr; · iapply (records_dcell m K A b k c); iexact Hrec
  iexact Hat

/-- A remote copy, the invariants and reached rounds from the records. -/
theorem wp_send_rec {s : Shape} {e : EltTy} (K : Dev nD × Iface.CIx → ℕ) (c c' : Dev nD) (A₁ A₂ : Fin 4) (b k : Fin 3) (h₁ : used A₁ k) (h₂ : used A₂ k)
    {src : Memref sig .tc .vmem s e} {dst : Memref sig .tc .vmem s e}
    {hsc : (dst : Memref sig (Dev.tc c' : Thread nD τ).2.kind .vmem s e).view.ref.isScScratch = false}
    {hsrc : src.view.WordExact} {hdst : dst.view.WordExact}
    {hsem : DmaTarget.Typed .vmem (.dma (dsem A₂ b k)) (.remote (Dev.tc c' : Thread nD τ) dst (.dma (dsem A₁ b k)) hsc)}
    {α : Type} {Q : α → sProp 𝕄} {kk : PUnit → Prog (TpuEff nD τ sig (Elt F) Λ₀ .tc) α}
    {q : PosShare TreeShare} {fs : Buf (Elt F) (src.view.loc (c : Thread nD τ))} {fd : Buf (Elt F) (dst.view.loc (c' : Thread nD τ))}
    (hN : dst.view.dmaCredit = namt A₂ b k) (hA : namt A₁ b k = namt A₂ b k)
    (O : CellTallies nD τ sig Unit) {W : Waits sig Unit}
    (hpay₁ : (src.view.loc (c : Thread nD τ) ↦[src.view.set]{q} fs) ⊢ dpay m A₁ b k c)
    (hpay₂ : (dst.view.loc (c' : Thread nD τ) ↦[dst.view.set]{fullShare} (dst.view.write (Elt F) fd (src.view.read (Elt F) fs) Finset.univ))
      ⊢ dpay m A₂ b k c') :
    iprop(Iface.records (F := F) m K
        ∗ (src.view.loc (c : Thread nD τ) ↦[src.view.set]{q} fs) ∗ (dst.view.loc (c' : Thread nD τ) ↦[dst.view.set]{fullShare} fd)
        ∗ owes (c : Thread nD τ) (O + tallyAt (dcell A₂ b k c') () (namt A₂ b k)) W
        ∗ dutyTok ER (dcell A₁ b k c) 0 0 ∗ dutyTok ER (dcell A₂ b k c') 0 0)
      ⊢ iprop(((cred (tallyAt (dcell A₁ b k c) () (namt A₁ b k)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc c' : Thread nD τ) dst (.dma (dsem A₁ b k)) hsc) (.dma (dsem A₂ b k)) hsrc hdst hsem) kk) Q) := by
  iintro ⟨#Hrec, Hs, Hd, HO, Ht₁, Ht₂⟩
  iapply (wp_send_cells m c c' A₁ A₂ b k h₁ h₂ hN hA O rfl hpay₁ hpay₂ (κ₁ := K (c, some (A₁, b, k))) (κ₂ := K (c', some (A₂, b, k))))
  isplitr; · iapply (records_dcell m K A₁ b k c); iexact Hrec
  isplitr; · iapply (records_dcell m K A₂ b k c'); iexact Hrec
  isplitl [Hs]; · iexact Hs
  isplitl [Hd]; · iexact Hd
  isplitl [HO]; · iexact HO
  isplitl [Ht₁]; · iexact Ht₁
  isplitr; · iapply (records_dcell_reached m K A₁ b k c); iexact Hrec
  isplitl [Ht₂]; · iexact Ht₂
  iapply (records_dcell_reached m K A₂ b k c'); iexact Hrec

end Records

/-! ## Reading a slot through its view: the slot's (row, column) is the buffer's (block, first row + row, column) -/

theorem rAt_eq (f : (cc0_scratch1 : Ref sig .tc).ty.Contents (Elt F)) (bb row q : ℕ) (hb : bb < 3) (hrow : row < 384) (hq : q < 1024) :
    rAt f bb row q = f (ix3 ⟨bb, hb⟩ ⟨row, hrow⟩ ⟨q, hq⟩) := by
  unfold rAt
  simp only [Nat.mod_eq_of_lt hb, Nat.mod_eq_of_lt hrow, Nat.mod_eq_of_lt hq]

theorem aAt_eq (f : (cc0_scratch2 : Ref sig .tc).ty.Contents (Elt F)) (row q : ℕ) (hrow : row < 1024) (hq : q < 1024) :
    aAt f row q = f (ix2 ⟨row, hrow⟩ ⟨q, hq⟩) := by
  unfold aAt
  simp only [Nat.mod_eq_of_lt hrow, Nat.mod_eq_of_lt hq]

/-- A block of H rows from row r0 of plane bb of a three-dimensional buffer, its unit axis squeezed away: where the block's
    (r, q) sits. -/
theorem emb_unit_squeeze {n0 n1 n2 H : ℕ} (bb r0 : ℕ)
    (inb : ∀ a, (![bb, r0, 0] : Fin 3 → ℕ) a + (⟨3, ![1, H, n2]⟩ : Shape).size a ≤ (⟨3, ![n0, n1, n2]⟩ : Shape).size a)
    (hn : (⟨2, ![H, n2]⟩ : Shape).numel = (⟨3, ![1, H, n2]⟩ : Shape).numel) (r q : ℕ) (hr : r < H) (hq : q < n2) :
    (Rect.unit (s := ⟨3, ![n0, n1, n2]⟩) ![bb, r0, 0] (⟨3, ![1, H, n2]⟩ : Shape).size inb).emb (Shape.reshapeEquiv hn (ix2 ⟨r, hr⟩ ⟨q, hq⟩))
      = ix3 ⟨bb, by have := inb 0; simp at this; omega⟩ ⟨r0 + r, by have := inb 1; simp at this; omega⟩ ⟨q, hq⟩ := by
  have hy : Shape.reshapeEquiv hn (ix2 ⟨r, hr⟩ ⟨q, hq⟩) = (ix3 ⟨0, Nat.one_pos⟩ ⟨r, hr⟩ ⟨q, hq⟩ : (⟨3, ![1, H, n2]⟩ : Shape).Idx) :=
    Shape.reshapeEquiv_eq_of_rowMajor _ (by
      rw [Shape.rowMajor_val_three, Shape.rowMajor_val_two]
      show (0 * H + r) * n2 + q = r * n2 + q
      rw [Nat.zero_mul, Nat.zero_add])
  rw [hy]
  funext a
  apply Fin.ext
  rw [Rect.emb_apply]
  fin_cases a <;> simp

theorem rAt_slot00 (f : (cc0_scratch1 : Ref sig .tc).ty.Contents (Elt F)) (r q : ℕ) (hr : r < 192) (hq : q < 1024) :
    rAt f 0 (0 + r) q = rSlot00.view.read (Elt F) f (ix2 ⟨r, hr⟩ ⟨q, hq⟩) := by
  rw [rAt_eq f 0 (0 + r) q (by decide) (by omega) hq, View.read_apply]
  exact congrArg f (emb_unit_squeeze 0 0 inb_S3x384x1024_S1x192x1024_0_0_0 squeezes_S1x192x1024_S192x1024.numel_eq r q hr hq).symm
theorem rAt_slot01 (f : (cc0_scratch1 : Ref sig .tc).ty.Contents (Elt F)) (r q : ℕ) (hr : r < 96) (hq : q < 1024) :
    rAt f 0 (192 + r) q = rSlot01.view.read (Elt F) f (ix2 ⟨r, hr⟩ ⟨q, hq⟩) := by
  rw [rAt_eq f 0 (192 + r) q (by decide) (by omega) hq, View.read_apply]
  exact congrArg f (emb_unit_squeeze 0 192 inb_S3x384x1024_S1x96x1024_0_192_0 squeezes_S1x96x1024_S96x1024.numel_eq r q hr hq).symm
theorem rAt_slot02 (f : (cc0_scratch1 : Ref sig .tc).ty.Contents (Elt F)) (r q : ℕ) (hr : r < 96) (hq : q < 1024) :
    rAt f 0 (288 + r) q = rSlot02.view.read (Elt F) f (ix2 ⟨r, hr⟩ ⟨q, hq⟩) := by
  rw [rAt_eq f 0 (288 + r) q (by decide) (by omega) hq, View.read_apply]
  exact congrArg f (emb_unit_squeeze 0 288 inb_S3x384x1024_S1x96x1024_0_288_0 squeezes_S1x96x1024_S96x1024.numel_eq r q hr hq).symm
theorem rAt_slot10 (f : (cc0_scratch1 : Ref sig .tc).ty.Contents (Elt F)) (r q : ℕ) (hr : r < 192) (hq : q < 1024) :
    rAt f 1 (0 + r) q = rSlot10.view.read (Elt F) f (ix2 ⟨r, hr⟩ ⟨q, hq⟩) := by
  rw [rAt_eq f 1 (0 + r) q (by decide) (by omega) hq, View.read_apply]
  exact congrArg f (emb_unit_squeeze 1 0 inb_S3x384x1024_S1x192x1024_1_0_0 squeezes_S1x192x1024_S192x1024.numel_eq r q hr hq).symm
theorem rAt_slot11 (f : (cc0_scratch1 : Ref sig .tc).ty.Contents (Elt F)) (r q : ℕ) (hr : r < 96) (hq : q < 1024) :
    rAt f 1 (192 + r) q = rSlot11.view.read (Elt F) f (ix2 ⟨r, hr⟩ ⟨q, hq⟩) := by
  rw [rAt_eq f 1 (192 + r) q (by decide) (by omega) hq, View.read_apply]
  exact congrArg f (emb_unit_squeeze 1 192 inb_S3x384x1024_S1x96x1024_1_192_0 squeezes_S1x96x1024_S96x1024.numel_eq r q hr hq).symm
theorem rAt_slot12 (f : (cc0_scratch1 : Ref sig .tc).ty.Contents (Elt F)) (r q : ℕ) (hr : r < 96) (hq : q < 1024) :
    rAt f 1 (288 + r) q = rSlot12.view.read (Elt F) f (ix2 ⟨r, hr⟩ ⟨q, hq⟩) := by
  rw [rAt_eq f 1 (288 + r) q (by decide) (by omega) hq, View.read_apply]
  exact congrArg f (emb_unit_squeeze 1 288 inb_S3x384x1024_S1x96x1024_1_288_0 squeezes_S1x96x1024_S96x1024.numel_eq r q hr hq).symm
theorem rAt_slot20 (f : (cc0_scratch1 : Ref sig .tc).ty.Contents (Elt F)) (r q : ℕ) (hr : r < 128) (hq : q < 1024) :
    rAt f 2 (0 + r) q = rSlot20.view.read (Elt F) f (ix2 ⟨r, hr⟩ ⟨q, hq⟩) := by
  rw [rAt_eq f 2 (0 + r) q (by decide) (by omega) hq, View.read_apply]
  exact congrArg f (emb_unit_squeeze 2 0 inb_S3x384x1024_S1x128x1024_2_0_0 squeezes_S1x128x1024_S128x1024.numel_eq r q hr hq).symm
theorem rAt_slot21 (f : (cc0_scratch1 : Ref sig .tc).ty.Contents (Elt F)) (r q : ℕ) (hr : r < 64) (hq : q < 1024) :
    rAt f 2 (128 + r) q = rSlot21.view.read (Elt F) f (ix2 ⟨r, hr⟩ ⟨q, hq⟩) := by
  rw [rAt_eq f 2 (128 + r) q (by decide) (by omega) hq, View.read_apply]
  exact congrArg f (emb_unit_squeeze 2 128 inb_S3x384x1024_S1x64x1024_2_128_0 squeezes_S1x64x1024_S64x1024.numel_eq r q hr hq).symm
theorem rAt_slot22 (f : (cc0_scratch1 : Ref sig .tc).ty.Contents (Elt F)) (r q : ℕ) (hr : r < 64) (hq : q < 1024) :
    rAt f 2 (192 + r) q = rSlot22.view.read (Elt F) f (ix2 ⟨r, hr⟩ ⟨q, hq⟩) := by
  rw [rAt_eq f 2 (192 + r) q (by decide) (by omega) hq, View.read_apply]
  exact congrArg f (emb_unit_squeeze 2 192 inb_S3x384x1024_S1x64x1024_2_192_0 squeezes_S1x64x1024_S64x1024.numel_eq r q hr hq).symm

/-- Rows of the gather buffer from a row given by an offset function whose first coordinate is row0 and second 0. -/
theorem emb_unit_rows {n0 n1 H : ℕ} (off : Fin 2 → ℕ) (row0 : ℕ) (hoff : off = ![row0, 0])
    (inb : ∀ a, off a + (⟨2, ![H, n1]⟩ : Shape).size a ≤ (⟨2, ![n0, n1]⟩ : Shape).size a) (r q : ℕ) (hr : r < H) (hq : q < n1) :
    (Rect.unit (s := ⟨2, ![n0, n1]⟩) off (⟨2, ![H, n1]⟩ : Shape).size inb).emb (ix2 ⟨r, hr⟩ ⟨q, hq⟩)
      = ix2 ⟨row0 + r, by subst hoff; have := inb 0; simp at this; omega⟩ ⟨q, hq⟩ := by
  subst hoff
  funext a
  apply Fin.ext
  rw [Rect.emb_apply]
  fin_cases a <;> simp

theorem off5_K1_0 (c : Dev nD) : k0_off5 c 0#32 3#32 1#32 = ![K1 0 c, 0] := by
  rw [Mesh.off5_a]; show _ = ![(k0_off3 c 0#32 3#32 1#32 96#32 0#32) 0, 0]; rw [Mesh.off3_c]; rfl
theorem off5_K1_1 (c : Dev nD) : k0_off5 c 384#32 4#32 3#32 = ![K1 1 c, 0] := by
  rw [Mesh.off5_b]; show _ = ![(k0_off3 c 384#32 4#32 3#32 96#32 0#32) 0, 0]; rw [Mesh.off3_d]; rfl
theorem off6_K1_2 (c : Dev nD) : k0_off6 c = ![K1 2 c, 0] := by
  rw [Mesh.off6]; show _ = ![(k0_off4 c 64#32 0#32) 0, 0]; rw [Mesh.off4_b]; rfl
theorem off7_K0_0 (c : Dev nD) : k0_off7 c 0#32 3#32 1#32 = ![K0 0 c, 0] := by
  rw [Mesh.off7_a]; show _ = ![(k0_off1 c 0#32 3#32 192#32 0#32) 0, 0]; rw [Mesh.off1_c]; rfl
theorem off7_K0_1 (c : Dev nD) : k0_off7 c 384#32 4#32 3#32 = ![K0 1 c, 0] := by
  rw [Mesh.off7_b]; show _ = ![(k0_off1 c 384#32 4#32 192#32 0#32) 0, 0]; rw [Mesh.off1_d]; rfl
theorem off8_K0_2 (c : Dev nD) : k0_off8 c = ![K0 2 c, 0] := by
  rw [Mesh.off8]; show _ = ![(k0_off2 c 128#32 0#32) 0, 0]; rw [Mesh.off2_b]; rfl

theorem K1_0_lt (c : Dev nD) : K1 0 c + 96 ≤ 1024 := by
  have := k0_off5_inb c 0 0; change (k0_off5 c 0#32 3#32 1#32) 0 + 96 ≤ 1024 at this; rw [off5_K1_0] at this; simpa using this
theorem K1_1_lt (c : Dev nD) : K1 1 c + 96 ≤ 1024 := by
  have := k0_off5_inb c 1 0; change (k0_off5 c 384#32 4#32 3#32) 0 + 96 ≤ 1024 at this; rw [off5_K1_1] at this; simpa using this
theorem K1_2_lt (c : Dev nD) : K1 2 c + 64 ≤ 1024 := by
  have := k0_off6_inb c 0; change (k0_off6 c) 0 + 64 ≤ 1024 at this; rw [off6_K1_2] at this; simpa using this
theorem K0_0_lt (c : Dev nD) : K0 0 c + 192 ≤ 1024 := by
  have := k0_off7_inb c 0 0; change (k0_off7 c 0#32 3#32 1#32) 0 + 192 ≤ 1024 at this; rw [off7_K0_0] at this; simpa using this
theorem K0_1_lt (c : Dev nD) : K0 1 c + 192 ≤ 1024 := by
  have := k0_off7_inb c 1 0; change (k0_off7 c 384#32 4#32 3#32) 0 + 192 ≤ 1024 at this; rw [off7_K0_1] at this; simpa using this
theorem K0_2_lt (c : Dev nD) : K0 2 c + 128 ≤ 1024 := by
  have := k0_off8_inb c 0; change (k0_off8 c) 0 + 128 ≤ 1024 at this; rw [off8_K0_2] at this; simpa using this

theorem aAt_rows01 (c : Dev nD) (f : (cc0_scratch2 : Ref sig .tc).ty.Contents (Elt F)) (r q : ℕ) (hr : r < 96) (hq : q < 1024) :
    aAt f (K1 0 c + r) q = (aRows01 c).view.read (Elt F) f (ix2 ⟨r, hr⟩ ⟨q, hq⟩) := by
  rw [aAt_eq f (K1 0 c + r) q (by have := K1_0_lt c; omega) hq, View.read_apply]
  exact congrArg f (emb_unit_rows _ (K1 0 c) (off5_K1_0 c) (k0_off5_inb c 0) r q hr hq).symm
theorem aAt_rows11 (c : Dev nD) (f : (cc0_scratch2 : Ref sig .tc).ty.Contents (Elt F)) (r q : ℕ) (hr : r < 96) (hq : q < 1024) :
    aAt f (K1 1 c + r) q = (aRows11 c).view.read (Elt F) f (ix2 ⟨r, hr⟩ ⟨q, hq⟩) := by
  rw [aAt_eq f (K1 1 c + r) q (by have := K1_1_lt c; omega) hq, View.read_apply]
  exact congrArg f (emb_unit_rows _ (K1 1 c) (off5_K1_1 c) (k0_off5_inb c 1) r q hr hq).symm
theorem aAt_rows21 (c : Dev nD) (f : (cc0_scratch2 : Ref sig .tc).ty.Contents (Elt F)) (r q : ℕ) (hr : r < 64) (hq : q < 1024) :
    aAt f (K1 2 c + r) q = (aRows21 c).view.read (Elt F) f (ix2 ⟨r, hr⟩ ⟨q, hq⟩) := by
  rw [aAt_eq f (K1 2 c + r) q (by have := K1_2_lt c; omega) hq, View.read_apply]
  exact congrArg f (emb_unit_rows _ (K1 2 c) (off6_K1_2 c) (k0_off6_inb c) r q hr hq).symm
theorem aAt_rows00 (c : Dev nD) (f : (cc0_scratch2 : Ref sig .tc).ty.Contents (Elt F)) (r q : ℕ) (hr : r < 192) (hq : q < 1024) :
    aAt f (K0 0 c + r) q = (aRows00 c).view.read (Elt F) f (ix2 ⟨r, hr⟩ ⟨q, hq⟩) := by
  rw [aAt_eq f (K0 0 c + r) q (by have := K0_0_lt c; omega) hq, View.read_apply]
  exact congrArg f (emb_unit_rows _ (K0 0 c) (off7_K0_0 c) (k0_off7_inb c 0) r q hr hq).symm
theorem aAt_rows10 (c : Dev nD) (f : (cc0_scratch2 : Ref sig .tc).ty.Contents (Elt F)) (r q : ℕ) (hr : r < 192) (hq : q < 1024) :
    aAt f (K0 1 c + r) q = (aRows10 c).view.read (Elt F) f (ix2 ⟨r, hr⟩ ⟨q, hq⟩) := by
  rw [aAt_eq f (K0 1 c + r) q (by have := K0_1_lt c; omega) hq, View.read_apply]
  exact congrArg f (emb_unit_rows _ (K0 1 c) (off7_K0_1 c) (k0_off7_inb c 1) r q hr hq).symm
theorem aAt_rows20 (c : Dev nD) (f : (cc0_scratch2 : Ref sig .tc).ty.Contents (Elt F)) (r q : ℕ) (hr : r < 128) (hq : q < 1024) :
    aAt f (K0 2 c + r) q = (aRows20 c).view.read (Elt F) f (ix2 ⟨r, hr⟩ ⟨q, hq⟩) := by
  rw [aAt_eq f (K0 2 c + r) q (by have := K0_2_lt c; omega) hq, View.read_apply]
  exact congrArg f (emb_unit_rows _ (K0 2 c) (off8_K0_2 c) (k0_off8_inb c) r q hr hq).symm

/-! ## The remote copies, block by block

Exchange stage k of butterfly b: the source slot holds the device's sum of the stage before (its own partial product at
stage 0) over the rows its partner keeps, narrowed; it lands in the partner's slot. Gather stage k: the device's rows of the
gather buffer hold the totals, and land in the same rows of the partner's. -/

section Sends

open Cert.Kernel.Iface (𝒱₀)

local notation "WP[" c "]" => wp frame (wpE (defs₀ (F := F)) 𝒱₀ (c : Thread nD τ) none) Set.univ

theorem wp_rs_send00 (K : Dev nD × Iface.CIx → ℕ) (c : Dev nD)
    {hsc : (rSlot00 : Memref sig (Dev.tc (Mesh.px 3 c) : Thread nD τ).2.kind .vmem S192x1024 .bf16).view.ref.isScScratch = false}
    {hsrc : sSlot00.view.WordExact} {hdst : rSlot00.view.WordExact}
    {hsem : DmaTarget.Typed .vmem (.dma (dsem 1 0 0)) (.remote (Dev.tc (Mesh.px 3 c) : Thread nD τ) rSlot00 (.dma (dsem 0 0 0)) hsc)}
    {α : Type} {Q : α → sProp 𝕄} {kk : PUnit → Prog (TpuEff nD τ sig (Elt F) Λ₀ .tc) α}
    {fs : Buf (Elt F) (sSlot00.view.loc (c : Thread nD τ))} {fd : Buf (Elt F) (rSlot00.view.loc (Mesh.px 3 c : Thread nD τ))}
    (O : CellTallies nD τ sig Unit) {W : Waits sig Unit}
    (hfs : ∀ (r q : ℕ) (hr : r < 192) (hq : q < 1024), sSlot00.view.read (Elt F) fs (ix2 ⟨r, hr⟩ ⟨q, hq⟩) = tr (S0 m 0 c (K0 0 (Mesh.px 3 c) + r) q)) :
    iprop(Iface.records (F := F) m K
        ∗ (sSlot00.view.loc (c : Thread nD τ) ↦[sSlot00.view.set]{fullShare} fs)
        ∗ (rSlot00.view.loc (Mesh.px 3 c : Thread nD τ) ↦[rSlot00.view.set]{fullShare} fd)
        ∗ owes (c : Thread nD τ) (O + tallyAt (dcell 1 0 0 (Mesh.px 3 c)) () (namt 1 0 0)) W
        ∗ dutyTok ER (dcell 0 0 0 c) 0 0 ∗ dutyTok ER (dcell 1 0 0 (Mesh.px 3 c)) 0 0)
      ⊢ iprop(((cred (tallyAt (dcell 0 0 0 c) () (namt 0 0 0)) ∗ owes (c : Thread nD τ) O W) -∗ WP[c] (kk ⟨⟩) Q)
          -∗ WP[c] (.op (.enqueueDma sSlot00 (.remote (Dev.tc (Mesh.px 3 c) : Thread nD τ) rSlot00 (.dma (dsem 0 0 0)) hsc) (.dma (dsem 1 0 0)) hsrc hdst hsem) kk) Q) :=
  wp_send_rec m K c (Mesh.px 3 c) 0 1 0 0 (Or.inl (by decide)) (Or.inl (by decide)) credit_r00 rfl O
    (by show _ ⊢ iprop(∃ f, _)
        iintro H; iexists fs; iexact H)
    (by show _ ⊢ iprop(∃ f, _ ∗ ⌜_⌝)
        have h := Mesh.px3_px3 c
        generalize Mesh.px 3 (Mesh.px 3 c) = x at h ⊢
        subst h
        iintro H; iexists _; isplitl [H]; · iexact H
        ipureintro; intro r q hr hq
        rw [rAt_slot00 _ r q hr hq, View.read_write_univ]; exact hfs r q hr hq)

theorem wp_rs_send10 (K : Dev nD × Iface.CIx → ℕ) (c : Dev nD)
    {hsc : (rSlot10 : Memref sig (Dev.tc (Mesh.px 4 c) : Thread nD τ).2.kind .vmem S192x1024 .bf16).view.ref.isScScratch = false}
    {hsrc : sSlot10.view.WordExact} {hdst : rSlot10.view.WordExact}
    {hsem : DmaTarget.Typed .vmem (.dma (dsem 1 1 0)) (.remote (Dev.tc (Mesh.px 4 c) : Thread nD τ) rSlot10 (.dma (dsem 0 1 0)) hsc)}
    {α : Type} {Q : α → sProp 𝕄} {kk : PUnit → Prog (TpuEff nD τ sig (Elt F) Λ₀ .tc) α}
    {fs : Buf (Elt F) (sSlot10.view.loc (c : Thread nD τ))} {fd : Buf (Elt F) (rSlot10.view.loc (Mesh.px 4 c : Thread nD τ))}
    (O : CellTallies nD τ sig Unit) {W : Waits sig Unit}
    (hfs : ∀ (r q : ℕ) (hr : r < 192) (hq : q < 1024), sSlot10.view.read (Elt F) fs (ix2 ⟨r, hr⟩ ⟨q, hq⟩) = tr (S0 m 1 c (K0 1 (Mesh.px 4 c) + r) q)) :
    iprop(Iface.records (F := F) m K
        ∗ (sSlot10.view.loc (c : Thread nD τ) ↦[sSlot10.view.set]{fullShare} fs)
        ∗ (rSlot10.view.loc (Mesh.px 4 c : Thread nD τ) ↦[rSlot10.view.set]{fullShare} fd)
        ∗ owes (c : Thread nD τ) (O + tallyAt (dcell 1 1 0 (Mesh.px 4 c)) () (namt 1 1 0)) W
        ∗ dutyTok ER (dcell 0 1 0 c) 0 0 ∗ dutyTok ER (dcell 1 1 0 (Mesh.px 4 c)) 0 0)
      ⊢ iprop(((cred (tallyAt (dcell 0 1 0 c) () (namt 0 1 0)) ∗ owes (c : Thread nD τ) O W) -∗ WP[c] (kk ⟨⟩) Q)
          -∗ WP[c] (.op (.enqueueDma sSlot10 (.remote (Dev.tc (Mesh.px 4 c) : Thread nD τ) rSlot10 (.dma (dsem 0 1 0)) hsc) (.dma (dsem 1 1 0)) hsrc hdst hsem) kk) Q) :=
  wp_send_rec m K c (Mesh.px 4 c) 0 1 1 0 (Or.inl (by decide)) (Or.inl (by decide)) credit_r10 rfl O
    (by show _ ⊢ iprop(∃ f, _)
        iintro H; iexists fs; iexact H)
    (by show _ ⊢ iprop(∃ f, _ ∗ ⌜_⌝)
        have h := Mesh.px4_px4 c
        generalize Mesh.px 4 (Mesh.px 4 c) = x at h ⊢
        subst h
        iintro H; iexists _; isplitl [H]; · iexact H
        ipureintro; intro r q hr hq
        rw [rAt_slot10 _ r q hr hq, View.read_write_univ]; exact hfs r q hr hq)

theorem wp_rs_send20 (K : Dev nD × Iface.CIx → ℕ) (c : Dev nD)
    {hsc : (rSlot20 : Memref sig (Dev.tc (Mesh.px 1 c) : Thread nD τ).2.kind .vmem S128x1024 .bf16).view.ref.isScScratch = false}
    {hsrc : sSlot20.view.WordExact} {hdst : rSlot20.view.WordExact}
    {hsem : DmaTarget.Typed .vmem (.dma (dsem 1 2 0)) (.remote (Dev.tc (Mesh.px 1 c) : Thread nD τ) rSlot20 (.dma (dsem 0 2 0)) hsc)}
    {α : Type} {Q : α → sProp 𝕄} {kk : PUnit → Prog (TpuEff nD τ sig (Elt F) Λ₀ .tc) α}
    {fs : Buf (Elt F) (sSlot20.view.loc (c : Thread nD τ))} {fd : Buf (Elt F) (rSlot20.view.loc (Mesh.px 1 c : Thread nD τ))}
    (O : CellTallies nD τ sig Unit) {W : Waits sig Unit}
    (hfs : ∀ (r q : ℕ) (hr : r < 128) (hq : q < 1024), sSlot20.view.read (Elt F) fs (ix2 ⟨r, hr⟩ ⟨q, hq⟩) = tr (S0 m 2 c (K0 2 (Mesh.px 1 c) + r) q)) :
    iprop(Iface.records (F := F) m K
        ∗ (sSlot20.view.loc (c : Thread nD τ) ↦[sSlot20.view.set]{fullShare} fs)
        ∗ (rSlot20.view.loc (Mesh.px 1 c : Thread nD τ) ↦[rSlot20.view.set]{fullShare} fd)
        ∗ owes (c : Thread nD τ) (O + tallyAt (dcell 1 2 0 (Mesh.px 1 c)) () (namt 1 2 0)) W
        ∗ dutyTok ER (dcell 0 2 0 c) 0 0 ∗ dutyTok ER (dcell 1 2 0 (Mesh.px 1 c)) 0 0)
      ⊢ iprop(((cred (tallyAt (dcell 0 2 0 c) () (namt 0 2 0)) ∗ owes (c : Thread nD τ) O W) -∗ WP[c] (kk ⟨⟩) Q)
          -∗ WP[c] (.op (.enqueueDma sSlot20 (.remote (Dev.tc (Mesh.px 1 c) : Thread nD τ) rSlot20 (.dma (dsem 0 2 0)) hsc) (.dma (dsem 1 2 0)) hsrc hdst hsem) kk) Q) :=
  wp_send_rec m K c (Mesh.px 1 c) 0 1 2 0 (Or.inl (by decide)) (Or.inl (by decide)) credit_r20 rfl O
    (by show _ ⊢ iprop(∃ f, _)
        iintro H; iexists fs; iexact H)
    (by show _ ⊢ iprop(∃ f, _ ∗ ⌜_⌝)
        have h := Mesh.px1_px1 c
        generalize Mesh.px 1 (Mesh.px 1 c) = x at h ⊢
        subst h
        iintro H; iexists _; isplitl [H]; · iexact H
        ipureintro; intro r q hr hq
        rw [rAt_slot20 _ r q hr hq, View.read_write_univ]; exact hfs r q hr hq)

theorem wp_rs_send01 (K : Dev nD × Iface.CIx → ℕ) (c : Dev nD)
    {hsc : (rSlot01 : Memref sig (Dev.tc (Mesh.px 1 c) : Thread nD τ).2.kind .vmem S96x1024 .bf16).view.ref.isScScratch = false}
    {hsrc : sSlot01.view.WordExact} {hdst : rSlot01.view.WordExact}
    {hsem : DmaTarget.Typed .vmem (.dma (dsem 1 0 1)) (.remote (Dev.tc (Mesh.px 1 c) : Thread nD τ) rSlot01 (.dma (dsem 0 0 1)) hsc)}
    {α : Type} {Q : α → sProp 𝕄} {kk : PUnit → Prog (TpuEff nD τ sig (Elt F) Λ₀ .tc) α}
    {fs : Buf (Elt F) (sSlot01.view.loc (c : Thread nD τ))} {fd : Buf (Elt F) (rSlot01.view.loc (Mesh.px 1 c : Thread nD τ))}
    (O : CellTallies nD τ sig Unit) {W : Waits sig Unit}
    (hfs : ∀ (r q : ℕ) (hr : r < 96) (hq : q < 1024), sSlot01.view.read (Elt F) fs (ix2 ⟨r, hr⟩ ⟨q, hq⟩) = tr (S1 m 0 c (K1 0 (Mesh.px 1 c) + r) q)) :
    iprop(Iface.records (F := F) m K
        ∗ (sSlot01.view.loc (c : Thread nD τ) ↦[sSlot01.view.set]{fullShare} fs)
        ∗ (rSlot01.view.loc (Mesh.px 1 c : Thread nD τ) ↦[rSlot01.view.set]{fullShare} fd)
        ∗ owes (c : Thread nD τ) (O + tallyAt (dcell 1 0 1 (Mesh.px 1 c)) () (namt 1 0 1)) W
        ∗ dutyTok ER (dcell 0 0 1 c) 0 0 ∗ dutyTok ER (dcell 1 0 1 (Mesh.px 1 c)) 0 0)
      ⊢ iprop(((cred (tallyAt (dcell 0 0 1 c) () (namt 0 0 1)) ∗ owes (c : Thread nD τ) O W) -∗ WP[c] (kk ⟨⟩) Q)
          -∗ WP[c] (.op (.enqueueDma sSlot01 (.remote (Dev.tc (Mesh.px 1 c) : Thread nD τ) rSlot01 (.dma (dsem 0 0 1)) hsc) (.dma (dsem 1 0 1)) hsrc hdst hsem) kk) Q) :=
  wp_send_rec m K c (Mesh.px 1 c) 0 1 0 1 (Or.inl (by decide)) (Or.inl (by decide)) credit_r01 rfl O
    (by show _ ⊢ iprop(∃ f, _)
        iintro H; iexists fs; iexact H)
    (by show _ ⊢ iprop(∃ f, _ ∗ ⌜_⌝)
        have h := Mesh.px1_px1 c
        generalize Mesh.px 1 (Mesh.px 1 c) = x at h ⊢
        subst h
        iintro H; iexists _; isplitl [H]; · iexact H
        ipureintro; intro r q hr hq
        rw [rAt_slot01 _ r q hr hq, View.read_write_univ]; exact hfs r q hr hq)

theorem wp_rs_send11 (K : Dev nD × Iface.CIx → ℕ) (c : Dev nD)
    {hsc : (rSlot11 : Memref sig (Dev.tc (Mesh.px 3 c) : Thread nD τ).2.kind .vmem S96x1024 .bf16).view.ref.isScScratch = false}
    {hsrc : sSlot11.view.WordExact} {hdst : rSlot11.view.WordExact}
    {hsem : DmaTarget.Typed .vmem (.dma (dsem 1 1 1)) (.remote (Dev.tc (Mesh.px 3 c) : Thread nD τ) rSlot11 (.dma (dsem 0 1 1)) hsc)}
    {α : Type} {Q : α → sProp 𝕄} {kk : PUnit → Prog (TpuEff nD τ sig (Elt F) Λ₀ .tc) α}
    {fs : Buf (Elt F) (sSlot11.view.loc (c : Thread nD τ))} {fd : Buf (Elt F) (rSlot11.view.loc (Mesh.px 3 c : Thread nD τ))}
    (O : CellTallies nD τ sig Unit) {W : Waits sig Unit}
    (hfs : ∀ (r q : ℕ) (hr : r < 96) (hq : q < 1024), sSlot11.view.read (Elt F) fs (ix2 ⟨r, hr⟩ ⟨q, hq⟩) = tr (S1 m 1 c (K1 1 (Mesh.px 3 c) + r) q)) :
    iprop(Iface.records (F := F) m K
        ∗ (sSlot11.view.loc (c : Thread nD τ) ↦[sSlot11.view.set]{fullShare} fs)
        ∗ (rSlot11.view.loc (Mesh.px 3 c : Thread nD τ) ↦[rSlot11.view.set]{fullShare} fd)
        ∗ owes (c : Thread nD τ) (O + tallyAt (dcell 1 1 1 (Mesh.px 3 c)) () (namt 1 1 1)) W
        ∗ dutyTok ER (dcell 0 1 1 c) 0 0 ∗ dutyTok ER (dcell 1 1 1 (Mesh.px 3 c)) 0 0)
      ⊢ iprop(((cred (tallyAt (dcell 0 1 1 c) () (namt 0 1 1)) ∗ owes (c : Thread nD τ) O W) -∗ WP[c] (kk ⟨⟩) Q)
          -∗ WP[c] (.op (.enqueueDma sSlot11 (.remote (Dev.tc (Mesh.px 3 c) : Thread nD τ) rSlot11 (.dma (dsem 0 1 1)) hsc) (.dma (dsem 1 1 1)) hsrc hdst hsem) kk) Q) :=
  wp_send_rec m K c (Mesh.px 3 c) 0 1 1 1 (Or.inl (by decide)) (Or.inl (by decide)) credit_r11 rfl O
    (by show _ ⊢ iprop(∃ f, _)
        iintro H; iexists fs; iexact H)
    (by show _ ⊢ iprop(∃ f, _ ∗ ⌜_⌝)
        have h := Mesh.px3_px3 c
        generalize Mesh.px 3 (Mesh.px 3 c) = x at h ⊢
        subst h
        iintro H; iexists _; isplitl [H]; · iexact H
        ipureintro; intro r q hr hq
        rw [rAt_slot11 _ r q hr hq, View.read_write_univ]; exact hfs r q hr hq)

theorem wp_rs_send21 (K : Dev nD × Iface.CIx → ℕ) (c : Dev nD)
    {hsc : (rSlot21 : Memref sig (Dev.tc (Mesh.px 4 c) : Thread nD τ).2.kind .vmem S64x1024 .bf16).view.ref.isScScratch = false}
    {hsrc : sSlot21.view.WordExact} {hdst : rSlot21.view.WordExact}
    {hsem : DmaTarget.Typed .vmem (.dma (dsem 1 2 1)) (.remote (Dev.tc (Mesh.px 4 c) : Thread nD τ) rSlot21 (.dma (dsem 0 2 1)) hsc)}
    {α : Type} {Q : α → sProp 𝕄} {kk : PUnit → Prog (TpuEff nD τ sig (Elt F) Λ₀ .tc) α}
    {fs : Buf (Elt F) (sSlot21.view.loc (c : Thread nD τ))} {fd : Buf (Elt F) (rSlot21.view.loc (Mesh.px 4 c : Thread nD τ))}
    (O : CellTallies nD τ sig Unit) {W : Waits sig Unit}
    (hfs : ∀ (r q : ℕ) (hr : r < 64) (hq : q < 1024), sSlot21.view.read (Elt F) fs (ix2 ⟨r, hr⟩ ⟨q, hq⟩) = tr (S1 m 2 c (K1 2 (Mesh.px 4 c) + r) q)) :
    iprop(Iface.records (F := F) m K
        ∗ (sSlot21.view.loc (c : Thread nD τ) ↦[sSlot21.view.set]{fullShare} fs)
        ∗ (rSlot21.view.loc (Mesh.px 4 c : Thread nD τ) ↦[rSlot21.view.set]{fullShare} fd)
        ∗ owes (c : Thread nD τ) (O + tallyAt (dcell 1 2 1 (Mesh.px 4 c)) () (namt 1 2 1)) W
        ∗ dutyTok ER (dcell 0 2 1 c) 0 0 ∗ dutyTok ER (dcell 1 2 1 (Mesh.px 4 c)) 0 0)
      ⊢ iprop(((cred (tallyAt (dcell 0 2 1 c) () (namt 0 2 1)) ∗ owes (c : Thread nD τ) O W) -∗ WP[c] (kk ⟨⟩) Q)
          -∗ WP[c] (.op (.enqueueDma sSlot21 (.remote (Dev.tc (Mesh.px 4 c) : Thread nD τ) rSlot21 (.dma (dsem 0 2 1)) hsc) (.dma (dsem 1 2 1)) hsrc hdst hsem) kk) Q) :=
  wp_send_rec m K c (Mesh.px 4 c) 0 1 2 1 (Or.inl (by decide)) (Or.inl (by decide)) credit_r21 rfl O
    (by show _ ⊢ iprop(∃ f, _)
        iintro H; iexists fs; iexact H)
    (by show _ ⊢ iprop(∃ f, _ ∗ ⌜_⌝)
        have h := Mesh.px4_px4 c
        generalize Mesh.px 4 (Mesh.px 4 c) = x at h ⊢
        subst h
        iintro H; iexists _; isplitl [H]; · iexact H
        ipureintro; intro r q hr hq
        rw [rAt_slot21 _ r q hr hq, View.read_write_univ]; exact hfs r q hr hq)

theorem wp_rs_send02 (K : Dev nD × Iface.CIx → ℕ) (c : Dev nD)
    {hsc : (rSlot02 : Memref sig (Dev.tc (Mesh.px 4 c) : Thread nD τ).2.kind .vmem S96x1024 .bf16).view.ref.isScScratch = false}
    {hsrc : sSlot02.view.WordExact} {hdst : rSlot02.view.WordExact}
    {hsem : DmaTarget.Typed .vmem (.dma (dsem 1 0 2)) (.remote (Dev.tc (Mesh.px 4 c) : Thread nD τ) rSlot02 (.dma (dsem 0 0 2)) hsc)}
    {α : Type} {Q : α → sProp 𝕄} {kk : PUnit → Prog (TpuEff nD τ sig (Elt F) Λ₀ .tc) α}
    {fs : Buf (Elt F) (sSlot02.view.loc (c : Thread nD τ))} {fd : Buf (Elt F) (rSlot02.view.loc (Mesh.px 4 c : Thread nD τ))}
    (O : CellTallies nD τ sig Unit) {W : Waits sig Unit}
    (hfs : ∀ (r q : ℕ) (hr : r < 96) (hq : q < 1024), sSlot02.view.read (Elt F) fs (ix2 ⟨r, hr⟩ ⟨q, hq⟩) = tr (S2 m 0 c (K1 0 (Mesh.px 4 c) + r) q)) :
    iprop(Iface.records (F := F) m K
        ∗ (sSlot02.view.loc (c : Thread nD τ) ↦[sSlot02.view.set]{fullShare} fs)
        ∗ (rSlot02.view.loc (Mesh.px 4 c : Thread nD τ) ↦[rSlot02.view.set]{fullShare} fd)
        ∗ owes (c : Thread nD τ) (O + tallyAt (dcell 1 0 2 (Mesh.px 4 c)) () (namt 1 0 2)) W
        ∗ dutyTok ER (dcell 0 0 2 c) 0 0 ∗ dutyTok ER (dcell 1 0 2 (Mesh.px 4 c)) 0 0)
      ⊢ iprop(((cred (tallyAt (dcell 0 0 2 c) () (namt 0 0 2)) ∗ owes (c : Thread nD τ) O W) -∗ WP[c] (kk ⟨⟩) Q)
          -∗ WP[c] (.op (.enqueueDma sSlot02 (.remote (Dev.tc (Mesh.px 4 c) : Thread nD τ) rSlot02 (.dma (dsem 0 0 2)) hsc) (.dma (dsem 1 0 2)) hsrc hdst hsem) kk) Q) :=
  wp_send_rec m K c (Mesh.px 4 c) 0 1 0 2 (Or.inl (by decide)) (Or.inl (by decide)) credit_r02 rfl O
    (by show _ ⊢ iprop(∃ f, _)
        iintro H; iexists fs; iexact H)
    (by show _ ⊢ iprop(∃ f, _ ∗ ⌜_⌝)
        have h := Mesh.px4_px4 c
        generalize Mesh.px 4 (Mesh.px 4 c) = x at h ⊢
        subst h
        iintro H; iexists _; isplitl [H]; · iexact H
        ipureintro; intro r q hr hq
        rw [rAt_slot02 _ r q hr hq, View.read_write_univ]; exact hfs r q hr hq)

theorem wp_rs_send12 (K : Dev nD × Iface.CIx → ℕ) (c : Dev nD)
    {hsc : (rSlot12 : Memref sig (Dev.tc (Mesh.px 1 c) : Thread nD τ).2.kind .vmem S96x1024 .bf16).view.ref.isScScratch = false}
    {hsrc : sSlot12.view.WordExact} {hdst : rSlot12.view.WordExact}
    {hsem : DmaTarget.Typed .vmem (.dma (dsem 1 1 2)) (.remote (Dev.tc (Mesh.px 1 c) : Thread nD τ) rSlot12 (.dma (dsem 0 1 2)) hsc)}
    {α : Type} {Q : α → sProp 𝕄} {kk : PUnit → Prog (TpuEff nD τ sig (Elt F) Λ₀ .tc) α}
    {fs : Buf (Elt F) (sSlot12.view.loc (c : Thread nD τ))} {fd : Buf (Elt F) (rSlot12.view.loc (Mesh.px 1 c : Thread nD τ))}
    (O : CellTallies nD τ sig Unit) {W : Waits sig Unit}
    (hfs : ∀ (r q : ℕ) (hr : r < 96) (hq : q < 1024), sSlot12.view.read (Elt F) fs (ix2 ⟨r, hr⟩ ⟨q, hq⟩) = tr (S2 m 1 c (K1 1 (Mesh.px 1 c) + r) q)) :
    iprop(Iface.records (F := F) m K
        ∗ (sSlot12.view.loc (c : Thread nD τ) ↦[sSlot12.view.set]{fullShare} fs)
        ∗ (rSlot12.view.loc (Mesh.px 1 c : Thread nD τ) ↦[rSlot12.view.set]{fullShare} fd)
        ∗ owes (c : Thread nD τ) (O + tallyAt (dcell 1 1 2 (Mesh.px 1 c)) () (namt 1 1 2)) W
        ∗ dutyTok ER (dcell 0 1 2 c) 0 0 ∗ dutyTok ER (dcell 1 1 2 (Mesh.px 1 c)) 0 0)
      ⊢ iprop(((cred (tallyAt (dcell 0 1 2 c) () (namt 0 1 2)) ∗ owes (c : Thread nD τ) O W) -∗ WP[c] (kk ⟨⟩) Q)
          -∗ WP[c] (.op (.enqueueDma sSlot12 (.remote (Dev.tc (Mesh.px 1 c) : Thread nD τ) rSlot12 (.dma (dsem 0 1 2)) hsc) (.dma (dsem 1 1 2)) hsrc hdst hsem) kk) Q) :=
  wp_send_rec m K c (Mesh.px 1 c) 0 1 1 2 (Or.inl (by decide)) (Or.inl (by decide)) credit_r12 rfl O
    (by show _ ⊢ iprop(∃ f, _)
        iintro H; iexists fs; iexact H)
    (by show _ ⊢ iprop(∃ f, _ ∗ ⌜_⌝)
        have h := Mesh.px1_px1 c
        generalize Mesh.px 1 (Mesh.px 1 c) = x at h ⊢
        subst h
        iintro H; iexists _; isplitl [H]; · iexact H
        ipureintro; intro r q hr hq
        rw [rAt_slot12 _ r q hr hq, View.read_write_univ]; exact hfs r q hr hq)

theorem wp_rs_send22 (K : Dev nD × Iface.CIx → ℕ) (c : Dev nD)
    {hsc : (rSlot22 : Memref sig (Dev.tc (Mesh.px 2 c) : Thread nD τ).2.kind .vmem S64x1024 .bf16).view.ref.isScScratch = false}
    {hsrc : sSlot22.view.WordExact} {hdst : rSlot22.view.WordExact}
    {hsem : DmaTarget.Typed .vmem (.dma (dsem 1 2 2)) (.remote (Dev.tc (Mesh.px 2 c) : Thread nD τ) rSlot22 (.dma (dsem 0 2 2)) hsc)}
    {α : Type} {Q : α → sProp 𝕄} {kk : PUnit → Prog (TpuEff nD τ sig (Elt F) Λ₀ .tc) α}
    {fs : Buf (Elt F) (sSlot22.view.loc (c : Thread nD τ))} {fd : Buf (Elt F) (rSlot22.view.loc (Mesh.px 2 c : Thread nD τ))}
    (O : CellTallies nD τ sig Unit) {W : Waits sig Unit}
    (hfs : ∀ (r q : ℕ) (hr : r < 64) (hq : q < 1024), sSlot22.view.read (Elt F) fs (ix2 ⟨r, hr⟩ ⟨q, hq⟩) = tr (S2 m 2 c (K1 2 (Mesh.px 2 c) + r) q)) :
    iprop(Iface.records (F := F) m K
        ∗ (sSlot22.view.loc (c : Thread nD τ) ↦[sSlot22.view.set]{fullShare} fs)
        ∗ (rSlot22.view.loc (Mesh.px 2 c : Thread nD τ) ↦[rSlot22.view.set]{fullShare} fd)
        ∗ owes (c : Thread nD τ) (O + tallyAt (dcell 1 2 2 (Mesh.px 2 c)) () (namt 1 2 2)) W
        ∗ dutyTok ER (dcell 0 2 2 c) 0 0 ∗ dutyTok ER (dcell 1 2 2 (Mesh.px 2 c)) 0 0)
      ⊢ iprop(((cred (tallyAt (dcell 0 2 2 c) () (namt 0 2 2)) ∗ owes (c : Thread nD τ) O W) -∗ WP[c] (kk ⟨⟩) Q)
          -∗ WP[c] (.op (.enqueueDma sSlot22 (.remote (Dev.tc (Mesh.px 2 c) : Thread nD τ) rSlot22 (.dma (dsem 0 2 2)) hsc) (.dma (dsem 1 2 2)) hsrc hdst hsem) kk) Q) :=
  wp_send_rec m K c (Mesh.px 2 c) 0 1 2 2 (Or.inl (by decide)) (Or.inl (by decide)) credit_r22 rfl O
    (by show _ ⊢ iprop(∃ f, _)
        iintro H; iexists fs; iexact H)
    (by show _ ⊢ iprop(∃ f, _ ∗ ⌜_⌝)
        have h := Mesh.px2_px2 c
        generalize Mesh.px 2 (Mesh.px 2 c) = x at h ⊢
        subst h
        iintro H; iexists _; isplitl [H]; · iexact H
        ipureintro; intro r q hr hq
        rw [rAt_slot22 _ r q hr hq, View.read_write_univ]; exact hfs r q hr hq)

theorem wp_ag_send01 (K : Dev nD × Iface.CIx → ℕ) (c : Dev nD)
    {hsc : ((aRows01 c) : Memref sig (Dev.tc (Mesh.px 1 c) : Thread nD τ).2.kind .vmem S96x1024 .bf16).view.ref.isScScratch = false}
    {hsrc : (aRows01 c).view.WordExact} {hdst : (aRows01 c).view.WordExact}
    {hsem : DmaTarget.Typed .vmem (.dma (dsem 3 0 1)) (.remote (Dev.tc (Mesh.px 1 c) : Thread nD τ) (aRows01 c) (.dma (dsem 2 0 1)) hsc)}
    {α : Type} {Q : α → sProp 𝕄} {kk : PUnit → Prog (TpuEff nD τ sig (Elt F) Λ₀ .tc) α}
    {fs : Buf (Elt F) ((aRows01 c).view.loc (c : Thread nD τ))} {fd : Buf (Elt F) ((aRows01 c).view.loc (Mesh.px 1 c : Thread nD τ))}
    (O : CellTallies nD τ sig Unit) {W : Waits sig Unit}
    (hfs : ∀ (r q : ℕ) (hr : r < 96) (hq : q < 1024), (aRows01 c).view.read (Elt F) fs (ix2 ⟨r, hr⟩ ⟨q, hq⟩) = tr (S3 m 0 c (K1 0 c + r) q)) :
    iprop(Iface.records (F := F) m K
        ∗ ((aRows01 c).view.loc (c : Thread nD τ) ↦[(aRows01 c).view.set]{fullShare.left} fs)
        ∗ ((aRows01 c).view.loc (Mesh.px 1 c : Thread nD τ) ↦[(aRows01 c).view.set]{fullShare} fd)
        ∗ owes (c : Thread nD τ) (O + tallyAt (dcell 3 0 1 (Mesh.px 1 c)) () (namt 3 0 1)) W
        ∗ dutyTok ER (dcell 2 0 1 c) 0 0 ∗ dutyTok ER (dcell 3 0 1 (Mesh.px 1 c)) 0 0)
      ⊢ iprop(((cred (tallyAt (dcell 2 0 1 c) () (namt 2 0 1)) ∗ owes (c : Thread nD τ) O W) -∗ WP[c] (kk ⟨⟩) Q)
          -∗ WP[c] (.op (.enqueueDma (aRows01 c) (.remote (Dev.tc (Mesh.px 1 c) : Thread nD τ) (aRows01 c) (.dma (dsem 2 0 1)) hsc) (.dma (dsem 3 0 1)) hsrc hdst hsem) kk) Q) :=
  wp_send_rec m K c (Mesh.px 1 c) 2 3 0 1 (Or.inr (by decide)) (Or.inr (by decide)) (credit_a01 c) rfl O
    (by show _ ⊢ iprop(∃ f, _)
        iintro H; iexists fs; iexact H)
    (by show _ ⊢ iprop(∃ f, _ ∗ ⌜_⌝)
        have h := Mesh.px1_px1 c
        generalize Mesh.px 1 (Mesh.px 1 c) = x at h ⊢
        subst h
        iintro H; iexists _; isplitl [H]; · iexact H
        ipureintro; intro r q hr hq
        rw [aAt_rows01 _ _ r q hr hq, View.read_write_univ]; exact hfs r q hr hq)

theorem wp_ag_send11 (K : Dev nD × Iface.CIx → ℕ) (c : Dev nD)
    {hsc : ((aRows11 c) : Memref sig (Dev.tc (Mesh.px 3 c) : Thread nD τ).2.kind .vmem S96x1024 .bf16).view.ref.isScScratch = false}
    {hsrc : (aRows11 c).view.WordExact} {hdst : (aRows11 c).view.WordExact}
    {hsem : DmaTarget.Typed .vmem (.dma (dsem 3 1 1)) (.remote (Dev.tc (Mesh.px 3 c) : Thread nD τ) (aRows11 c) (.dma (dsem 2 1 1)) hsc)}
    {α : Type} {Q : α → sProp 𝕄} {kk : PUnit → Prog (TpuEff nD τ sig (Elt F) Λ₀ .tc) α}
    {fs : Buf (Elt F) ((aRows11 c).view.loc (c : Thread nD τ))} {fd : Buf (Elt F) ((aRows11 c).view.loc (Mesh.px 3 c : Thread nD τ))}
    (O : CellTallies nD τ sig Unit) {W : Waits sig Unit}
    (hfs : ∀ (r q : ℕ) (hr : r < 96) (hq : q < 1024), (aRows11 c).view.read (Elt F) fs (ix2 ⟨r, hr⟩ ⟨q, hq⟩) = tr (S3 m 1 c (K1 1 c + r) q)) :
    iprop(Iface.records (F := F) m K
        ∗ ((aRows11 c).view.loc (c : Thread nD τ) ↦[(aRows11 c).view.set]{fullShare.left} fs)
        ∗ ((aRows11 c).view.loc (Mesh.px 3 c : Thread nD τ) ↦[(aRows11 c).view.set]{fullShare} fd)
        ∗ owes (c : Thread nD τ) (O + tallyAt (dcell 3 1 1 (Mesh.px 3 c)) () (namt 3 1 1)) W
        ∗ dutyTok ER (dcell 2 1 1 c) 0 0 ∗ dutyTok ER (dcell 3 1 1 (Mesh.px 3 c)) 0 0)
      ⊢ iprop(((cred (tallyAt (dcell 2 1 1 c) () (namt 2 1 1)) ∗ owes (c : Thread nD τ) O W) -∗ WP[c] (kk ⟨⟩) Q)
          -∗ WP[c] (.op (.enqueueDma (aRows11 c) (.remote (Dev.tc (Mesh.px 3 c) : Thread nD τ) (aRows11 c) (.dma (dsem 2 1 1)) hsc) (.dma (dsem 3 1 1)) hsrc hdst hsem) kk) Q) :=
  wp_send_rec m K c (Mesh.px 3 c) 2 3 1 1 (Or.inr (by decide)) (Or.inr (by decide)) (credit_a11 c) rfl O
    (by show _ ⊢ iprop(∃ f, _)
        iintro H; iexists fs; iexact H)
    (by show _ ⊢ iprop(∃ f, _ ∗ ⌜_⌝)
        have h := Mesh.px3_px3 c
        generalize Mesh.px 3 (Mesh.px 3 c) = x at h ⊢
        subst h
        iintro H; iexists _; isplitl [H]; · iexact H
        ipureintro; intro r q hr hq
        rw [aAt_rows11 _ _ r q hr hq, View.read_write_univ]; exact hfs r q hr hq)

theorem wp_ag_send21 (K : Dev nD × Iface.CIx → ℕ) (c : Dev nD)
    {hsc : ((aRows21 c) : Memref sig (Dev.tc (Mesh.px 4 c) : Thread nD τ).2.kind .vmem S64x1024 .bf16).view.ref.isScScratch = false}
    {hsrc : (aRows21 c).view.WordExact} {hdst : (aRows21 c).view.WordExact}
    {hsem : DmaTarget.Typed .vmem (.dma (dsem 3 2 1)) (.remote (Dev.tc (Mesh.px 4 c) : Thread nD τ) (aRows21 c) (.dma (dsem 2 2 1)) hsc)}
    {α : Type} {Q : α → sProp 𝕄} {kk : PUnit → Prog (TpuEff nD τ sig (Elt F) Λ₀ .tc) α}
    {fs : Buf (Elt F) ((aRows21 c).view.loc (c : Thread nD τ))} {fd : Buf (Elt F) ((aRows21 c).view.loc (Mesh.px 4 c : Thread nD τ))}
    (O : CellTallies nD τ sig Unit) {W : Waits sig Unit}
    (hfs : ∀ (r q : ℕ) (hr : r < 64) (hq : q < 1024), (aRows21 c).view.read (Elt F) fs (ix2 ⟨r, hr⟩ ⟨q, hq⟩) = tr (S3 m 2 c (K1 2 c + r) q)) :
    iprop(Iface.records (F := F) m K
        ∗ ((aRows21 c).view.loc (c : Thread nD τ) ↦[(aRows21 c).view.set]{fullShare.left} fs)
        ∗ ((aRows21 c).view.loc (Mesh.px 4 c : Thread nD τ) ↦[(aRows21 c).view.set]{fullShare} fd)
        ∗ owes (c : Thread nD τ) (O + tallyAt (dcell 3 2 1 (Mesh.px 4 c)) () (namt 3 2 1)) W
        ∗ dutyTok ER (dcell 2 2 1 c) 0 0 ∗ dutyTok ER (dcell 3 2 1 (Mesh.px 4 c)) 0 0)
      ⊢ iprop(((cred (tallyAt (dcell 2 2 1 c) () (namt 2 2 1)) ∗ owes (c : Thread nD τ) O W) -∗ WP[c] (kk ⟨⟩) Q)
          -∗ WP[c] (.op (.enqueueDma (aRows21 c) (.remote (Dev.tc (Mesh.px 4 c) : Thread nD τ) (aRows21 c) (.dma (dsem 2 2 1)) hsc) (.dma (dsem 3 2 1)) hsrc hdst hsem) kk) Q) :=
  wp_send_rec m K c (Mesh.px 4 c) 2 3 2 1 (Or.inr (by decide)) (Or.inr (by decide)) (credit_a21 c) rfl O
    (by show _ ⊢ iprop(∃ f, _)
        iintro H; iexists fs; iexact H)
    (by show _ ⊢ iprop(∃ f, _ ∗ ⌜_⌝)
        have h := Mesh.px4_px4 c
        generalize Mesh.px 4 (Mesh.px 4 c) = x at h ⊢
        subst h
        iintro H; iexists _; isplitl [H]; · iexact H
        ipureintro; intro r q hr hq
        rw [aAt_rows21 _ _ r q hr hq, View.read_write_univ]; exact hfs r q hr hq)

theorem wp_ag_send00 (K : Dev nD × Iface.CIx → ℕ) (c : Dev nD)
    {hsc : ((aRows00 c) : Memref sig (Dev.tc (Mesh.px 3 c) : Thread nD τ).2.kind .vmem S192x1024 .bf16).view.ref.isScScratch = false}
    {hsrc : (aRows00 c).view.WordExact} {hdst : (aRows00 c).view.WordExact}
    {hsem : DmaTarget.Typed .vmem (.dma (dsem 3 0 0)) (.remote (Dev.tc (Mesh.px 3 c) : Thread nD τ) (aRows00 c) (.dma (dsem 2 0 0)) hsc)}
    {α : Type} {Q : α → sProp 𝕄} {kk : PUnit → Prog (TpuEff nD τ sig (Elt F) Λ₀ .tc) α}
    {fs : Buf (Elt F) ((aRows00 c).view.loc (c : Thread nD τ))} {fd : Buf (Elt F) ((aRows00 c).view.loc (Mesh.px 3 c : Thread nD τ))}
    (O : CellTallies nD τ sig Unit) {W : Waits sig Unit}
    (hfs : ∀ (r q : ℕ) (hr : r < 192) (hq : q < 1024), (aRows00 c).view.read (Elt F) fs (ix2 ⟨r, hr⟩ ⟨q, hq⟩) = tr (S3 m 0 (qOwn 0 c (K0 0 c + r)) (K0 0 c + r) q)) :
    iprop(Iface.records (F := F) m K
        ∗ ((aRows00 c).view.loc (c : Thread nD τ) ↦[(aRows00 c).view.set]{fullShare.right.left} fs)
        ∗ ((aRows00 c).view.loc (Mesh.px 3 c : Thread nD τ) ↦[(aRows00 c).view.set]{fullShare} fd)
        ∗ owes (c : Thread nD τ) (O + tallyAt (dcell 3 0 0 (Mesh.px 3 c)) () (namt 3 0 0)) W
        ∗ dutyTok ER (dcell 2 0 0 c) 0 0 ∗ dutyTok ER (dcell 3 0 0 (Mesh.px 3 c)) 0 0)
      ⊢ iprop(((cred (tallyAt (dcell 2 0 0 c) () (namt 2 0 0)) ∗ owes (c : Thread nD τ) O W) -∗ WP[c] (kk ⟨⟩) Q)
          -∗ WP[c] (.op (.enqueueDma (aRows00 c) (.remote (Dev.tc (Mesh.px 3 c) : Thread nD τ) (aRows00 c) (.dma (dsem 2 0 0)) hsc) (.dma (dsem 3 0 0)) hsrc hdst hsem) kk) Q) :=
  wp_send_rec m K c (Mesh.px 3 c) 2 3 0 0 (Or.inr (by decide)) (Or.inr (by decide)) (credit_a00 c) rfl O
    (by show _ ⊢ iprop(∃ f, _)
        iintro H; iexists fs; iexact H)
    (by show _ ⊢ iprop(∃ f, _ ∗ ⌜_⌝)
        have h := Mesh.px3_px3 c
        generalize Mesh.px 3 (Mesh.px 3 c) = x at h ⊢
        subst h
        iintro H; iexists _; isplitl [H]; · iexact H
        ipureintro; intro r q hr hq
        rw [aAt_rows00 _ _ r q hr hq, View.read_write_univ]; exact hfs r q hr hq)

theorem wp_ag_send10 (K : Dev nD × Iface.CIx → ℕ) (c : Dev nD)
    {hsc : ((aRows10 c) : Memref sig (Dev.tc (Mesh.px 4 c) : Thread nD τ).2.kind .vmem S192x1024 .bf16).view.ref.isScScratch = false}
    {hsrc : (aRows10 c).view.WordExact} {hdst : (aRows10 c).view.WordExact}
    {hsem : DmaTarget.Typed .vmem (.dma (dsem 3 1 0)) (.remote (Dev.tc (Mesh.px 4 c) : Thread nD τ) (aRows10 c) (.dma (dsem 2 1 0)) hsc)}
    {α : Type} {Q : α → sProp 𝕄} {kk : PUnit → Prog (TpuEff nD τ sig (Elt F) Λ₀ .tc) α}
    {fs : Buf (Elt F) ((aRows10 c).view.loc (c : Thread nD τ))} {fd : Buf (Elt F) ((aRows10 c).view.loc (Mesh.px 4 c : Thread nD τ))}
    (O : CellTallies nD τ sig Unit) {W : Waits sig Unit}
    (hfs : ∀ (r q : ℕ) (hr : r < 192) (hq : q < 1024), (aRows10 c).view.read (Elt F) fs (ix2 ⟨r, hr⟩ ⟨q, hq⟩) = tr (S3 m 1 (qOwn 1 c (K0 1 c + r)) (K0 1 c + r) q)) :
    iprop(Iface.records (F := F) m K
        ∗ ((aRows10 c).view.loc (c : Thread nD τ) ↦[(aRows10 c).view.set]{fullShare.right.left} fs)
        ∗ ((aRows10 c).view.loc (Mesh.px 4 c : Thread nD τ) ↦[(aRows10 c).view.set]{fullShare} fd)
        ∗ owes (c : Thread nD τ) (O + tallyAt (dcell 3 1 0 (Mesh.px 4 c)) () (namt 3 1 0)) W
        ∗ dutyTok ER (dcell 2 1 0 c) 0 0 ∗ dutyTok ER (dcell 3 1 0 (Mesh.px 4 c)) 0 0)
      ⊢ iprop(((cred (tallyAt (dcell 2 1 0 c) () (namt 2 1 0)) ∗ owes (c : Thread nD τ) O W) -∗ WP[c] (kk ⟨⟩) Q)
          -∗ WP[c] (.op (.enqueueDma (aRows10 c) (.remote (Dev.tc (Mesh.px 4 c) : Thread nD τ) (aRows10 c) (.dma (dsem 2 1 0)) hsc) (.dma (dsem 3 1 0)) hsrc hdst hsem) kk) Q) :=
  wp_send_rec m K c (Mesh.px 4 c) 2 3 1 0 (Or.inr (by decide)) (Or.inr (by decide)) (credit_a10 c) rfl O
    (by show _ ⊢ iprop(∃ f, _)
        iintro H; iexists fs; iexact H)
    (by show _ ⊢ iprop(∃ f, _ ∗ ⌜_⌝)
        have h := Mesh.px4_px4 c
        generalize Mesh.px 4 (Mesh.px 4 c) = x at h ⊢
        subst h
        iintro H; iexists _; isplitl [H]; · iexact H
        ipureintro; intro r q hr hq
        rw [aAt_rows10 _ _ r q hr hq, View.read_write_univ]; exact hfs r q hr hq)

theorem wp_ag_send20 (K : Dev nD × Iface.CIx → ℕ) (c : Dev nD)
    {hsc : ((aRows20 c) : Memref sig (Dev.tc (Mesh.px 1 c) : Thread nD τ).2.kind .vmem S128x1024 .bf16).view.ref.isScScratch = false}
    {hsrc : (aRows20 c).view.WordExact} {hdst : (aRows20 c).view.WordExact}
    {hsem : DmaTarget.Typed .vmem (.dma (dsem 3 2 0)) (.remote (Dev.tc (Mesh.px 1 c) : Thread nD τ) (aRows20 c) (.dma (dsem 2 2 0)) hsc)}
    {α : Type} {Q : α → sProp 𝕄} {kk : PUnit → Prog (TpuEff nD τ sig (Elt F) Λ₀ .tc) α}
    {fs : Buf (Elt F) ((aRows20 c).view.loc (c : Thread nD τ))} {fd : Buf (Elt F) ((aRows20 c).view.loc (Mesh.px 1 c : Thread nD τ))}
    (O : CellTallies nD τ sig Unit) {W : Waits sig Unit}
    (hfs : ∀ (r q : ℕ) (hr : r < 128) (hq : q < 1024), (aRows20 c).view.read (Elt F) fs (ix2 ⟨r, hr⟩ ⟨q, hq⟩) = tr (S3 m 2 (qOwn 2 c (K0 2 c + r)) (K0 2 c + r) q)) :
    iprop(Iface.records (F := F) m K
        ∗ ((aRows20 c).view.loc (c : Thread nD τ) ↦[(aRows20 c).view.set]{fullShare.right.left} fs)
        ∗ ((aRows20 c).view.loc (Mesh.px 1 c : Thread nD τ) ↦[(aRows20 c).view.set]{fullShare} fd)
        ∗ owes (c : Thread nD τ) (O + tallyAt (dcell 3 2 0 (Mesh.px 1 c)) () (namt 3 2 0)) W
        ∗ dutyTok ER (dcell 2 2 0 c) 0 0 ∗ dutyTok ER (dcell 3 2 0 (Mesh.px 1 c)) 0 0)
      ⊢ iprop(((cred (tallyAt (dcell 2 2 0 c) () (namt 2 2 0)) ∗ owes (c : Thread nD τ) O W) -∗ WP[c] (kk ⟨⟩) Q)
          -∗ WP[c] (.op (.enqueueDma (aRows20 c) (.remote (Dev.tc (Mesh.px 1 c) : Thread nD τ) (aRows20 c) (.dma (dsem 2 2 0)) hsc) (.dma (dsem 3 2 0)) hsrc hdst hsem) kk) Q) :=
  wp_send_rec m K c (Mesh.px 1 c) 2 3 2 0 (Or.inr (by decide)) (Or.inr (by decide)) (credit_a20 c) rfl O
    (by show _ ⊢ iprop(∃ f, _)
        iintro H; iexists fs; iexact H)
    (by show _ ⊢ iprop(∃ f, _ ∗ ⌜_⌝)
        have h := Mesh.px1_px1 c
        generalize Mesh.px 1 (Mesh.px 1 c) = x at h ⊢
        subst h
        iintro H; iexists _; isplitl [H]; · iexact H
        ipureintro; intro r q hr hq
        rw [aAt_rows20 _ _ r q hr hq, View.read_write_univ]; exact hfs r q hr hq)

end Sends

/-! ## The entry handshake from the records: the signals hand over buffers only, the wait's payloads spelt out -/

section Handshake

open Cert.Kernel.Iface (𝒱₀)

theorem barPay_px1 (c : Dev nD) : (barPay 0 (Mesh.px 1 c) : sProp 𝕄) = iprop(
      ((∃ f, rSlot01.view.loc (c : Thread nD τ) ↦[rSlot01.view.set]{fullShare} f) ∗ reached ER (dcell 1 0 1 c) 0)
      ∗ ((∃ f, rSlot12.view.loc (c : Thread nD τ) ↦[rSlot12.view.set]{fullShare} f) ∗ reached ER (dcell 1 1 2 c) 0)
      ∗ ((∃ f, rSlot20.view.loc (c : Thread nD τ) ↦[rSlot20.view.set]{fullShare} f) ∗ reached ER (dcell 1 2 0 c) 0)
      ∗ ((∃ f, (aRows01 (Mesh.px 1 c)).view.loc (c : Thread nD τ) ↦[(aRows01 (Mesh.px 1 c)).view.set]{fullShare} f) ∗ reached ER (dcell 3 0 1 c) 0)
      ∗ ((∃ f, (aRows20 (Mesh.px 1 c)).view.loc (c : Thread nD τ) ↦[(aRows20 (Mesh.px 1 c)).view.set]{fullShare} f) ∗ reached ER (dcell 3 2 0 c) 0)) := by
  unfold barPay
  have h := Mesh.px1_px1 c
  generalize Mesh.px 1 (Mesh.px 1 c) = x at h ⊢
  subst h; rfl
theorem barPay_px2 (c : Dev nD) : (barPay 1 (Mesh.px 2 c) : sProp 𝕄) = iprop(
      ((∃ f, rSlot22.view.loc (c : Thread nD τ) ↦[rSlot22.view.set]{fullShare} f) ∗ reached ER (dcell 1 2 2 c) 0)) := by
  unfold barPay
  have h := Mesh.px2_px2 c
  generalize Mesh.px 2 (Mesh.px 2 c) = x at h ⊢
  subst h; rfl
theorem barPay_px3 (c : Dev nD) : (barPay 2 (Mesh.px 3 c) : sProp 𝕄) = iprop(
      ((∃ f, rSlot00.view.loc (c : Thread nD τ) ↦[rSlot00.view.set]{fullShare} f) ∗ reached ER (dcell 1 0 0 c) 0)
      ∗ ((∃ f, rSlot11.view.loc (c : Thread nD τ) ↦[rSlot11.view.set]{fullShare} f) ∗ reached ER (dcell 1 1 1 c) 0)
      ∗ ((∃ f, (aRows00 (Mesh.px 3 c)).view.loc (c : Thread nD τ) ↦[(aRows00 (Mesh.px 3 c)).view.set]{fullShare} f) ∗ reached ER (dcell 3 0 0 c) 0)
      ∗ ((∃ f, (aRows11 (Mesh.px 3 c)).view.loc (c : Thread nD τ) ↦[(aRows11 (Mesh.px 3 c)).view.set]{fullShare} f) ∗ reached ER (dcell 3 1 1 c) 0)) := by
  unfold barPay
  have h := Mesh.px3_px3 c
  generalize Mesh.px 3 (Mesh.px 3 c) = x at h ⊢
  subst h; rfl
theorem barPay_px4 (c : Dev nD) : (barPay 3 (Mesh.px 4 c) : sProp 𝕄) = iprop(
      ((∃ f, rSlot02.view.loc (c : Thread nD τ) ↦[rSlot02.view.set]{fullShare} f) ∗ reached ER (dcell 1 0 2 c) 0)
      ∗ ((∃ f, rSlot10.view.loc (c : Thread nD τ) ↦[rSlot10.view.set]{fullShare} f) ∗ reached ER (dcell 1 1 0 c) 0)
      ∗ ((∃ f, rSlot21.view.loc (c : Thread nD τ) ↦[rSlot21.view.set]{fullShare} f) ∗ reached ER (dcell 1 2 1 c) 0)
      ∗ ((∃ f, (aRows10 (Mesh.px 4 c)).view.loc (c : Thread nD τ) ↦[(aRows10 (Mesh.px 4 c)).view.set]{fullShare} f) ∗ reached ER (dcell 3 1 0 c) 0)
      ∗ ((∃ f, (aRows21 (Mesh.px 4 c)).view.loc (c : Thread nD τ) ↦[(aRows21 (Mesh.px 4 c)).view.set]{fullShare} f) ∗ reached ER (dcell 3 2 1 c) 0)) := by
  unfold barPay
  have h := Mesh.px4_px4 c
  generalize Mesh.px 4 (Mesh.px 4 c) = x at h ⊢
  subst h; rfl

/-- The signal to the partner under the mask 1: the device hands over its own slots (0,1), (1,2), (2,0) of the receive
    buffer and the rows of its gather buffer that this partner's quarter (butterfly 0) and half (butterfly 2) land in. -/
theorem wp_sig1 (K : Dev nD × Iface.CIx → ℕ) (c : Dev nD) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 1 c)) () 1) W
        ∗ dutyTok ER (barCell (Mesh.px 1 c)) 0 0
        ∗ (∃ f, rSlot01.view.loc (c : Thread nD τ) ↦[rSlot01.view.set]{fullShare} f)
        ∗ (∃ f, rSlot12.view.loc (c : Thread nD τ) ↦[rSlot12.view.set]{fullShare} f)
        ∗ (∃ f, rSlot20.view.loc (c : Thread nD τ) ↦[rSlot20.view.set]{fullShare} f)
        ∗ (∃ f, (aRows01 (Mesh.px 1 c)).view.loc (c : Thread nD τ) ↦[(aRows01 (Mesh.px 1 c)).view.set]{fullShare} f)
        ∗ (∃ f, (aRows20 (Mesh.px 1 c)).view.loc (c : Thread nD τ) ↦[(aRows20 (Mesh.px 1 c)).view.set]{fullShare} f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 1 c : Thread nD τ) barS 1) kk) Q) := by
  iintro ⟨#Hrec, HO, Ht, H1, H2, H3, H4, H5⟩
  iapply (wp_sig m K c 1 0 O)
  isplitr; · iexact Hrec
  isplitl [HO]; · iexact HO
  isplitl [Ht]; · iexact Ht
  rw [barPay_px1]
  isplitl [H1]
  · isplitl [H1]; · iexact H1
    iapply (records_dcell_reached m K 1 0 1 c); iexact Hrec
  isplitl [H2]
  · isplitl [H2]; · iexact H2
    iapply (records_dcell_reached m K 1 1 2 c); iexact Hrec
  isplitl [H3]
  · isplitl [H3]; · iexact H3
    iapply (records_dcell_reached m K 1 2 0 c); iexact Hrec
  isplitl [H4]
  · isplitl [H4]; · iexact H4
    iapply (records_dcell_reached m K 3 0 1 c); iexact Hrec
  isplitl [H5]; · iexact H5
  iapply (records_dcell_reached m K 3 2 0 c); iexact Hrec

/-- The signal to the partner under the mask 2: the slot (2,2). -/
theorem wp_sig2 (K : Dev nD × Iface.CIx → ℕ) (c : Dev nD) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 2 c)) () 1) W
        ∗ dutyTok ER (barCell (Mesh.px 2 c)) 0 1
        ∗ (∃ f, rSlot22.view.loc (c : Thread nD τ) ↦[rSlot22.view.set]{fullShare} f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 2 c : Thread nD τ) barS 1) kk) Q) := by
  iintro ⟨#Hrec, HO, Ht, H1⟩
  iapply (wp_sig m K c 2 1 O)
  isplitr; · iexact Hrec
  isplitl [HO]; · iexact HO
  isplitl [Ht]; · iexact Ht
  rw [barPay_px2]
  isplitl [H1]; · iexact H1
  iapply (records_dcell_reached m K 1 2 2 c); iexact Hrec

/-- The signal to the partner under the mask 3: the slots (0,0), (1,1) and the gather rows of butterflies 0 (half) and 1 (quarter). -/
theorem wp_sig3 (K : Dev nD × Iface.CIx → ℕ) (c : Dev nD) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 3 c)) () 1) W
        ∗ dutyTok ER (barCell (Mesh.px 3 c)) 0 2
        ∗ (∃ f, rSlot00.view.loc (c : Thread nD τ) ↦[rSlot00.view.set]{fullShare} f)
        ∗ (∃ f, rSlot11.view.loc (c : Thread nD τ) ↦[rSlot11.view.set]{fullShare} f)
        ∗ (∃ f, (aRows00 (Mesh.px 3 c)).view.loc (c : Thread nD τ) ↦[(aRows00 (Mesh.px 3 c)).view.set]{fullShare} f)
        ∗ (∃ f, (aRows11 (Mesh.px 3 c)).view.loc (c : Thread nD τ) ↦[(aRows11 (Mesh.px 3 c)).view.set]{fullShare} f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 3 c : Thread nD τ) barS 1) kk) Q) := by
  iintro ⟨#Hrec, HO, Ht, H1, H2, H3, H4⟩
  iapply (wp_sig m K c 3 2 O)
  isplitr; · iexact Hrec
  isplitl [HO]; · iexact HO
  isplitl [Ht]; · iexact Ht
  rw [barPay_px3]
  isplitl [H1]
  · isplitl [H1]; · iexact H1
    iapply (records_dcell_reached m K 1 0 0 c); iexact Hrec
  isplitl [H2]
  · isplitl [H2]; · iexact H2
    iapply (records_dcell_reached m K 1 1 1 c); iexact Hrec
  isplitl [H3]
  · isplitl [H3]; · iexact H3
    iapply (records_dcell_reached m K 3 0 0 c); iexact Hrec
  isplitl [H4]; · iexact H4
  iapply (records_dcell_reached m K 3 1 1 c); iexact Hrec

/-- The signal to the partner under the mask 4: the slots (0,2), (1,0), (2,1) and the gather rows of butterflies 1 (half) and 2 (quarter). -/
theorem wp_sig4 (K : Dev nD × Iface.CIx → ℕ) (c : Dev nD) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 4 c)) () 1) W
        ∗ dutyTok ER (barCell (Mesh.px 4 c)) 0 3
        ∗ (∃ f, rSlot02.view.loc (c : Thread nD τ) ↦[rSlot02.view.set]{fullShare} f)
        ∗ (∃ f, rSlot10.view.loc (c : Thread nD τ) ↦[rSlot10.view.set]{fullShare} f)
        ∗ (∃ f, rSlot21.view.loc (c : Thread nD τ) ↦[rSlot21.view.set]{fullShare} f)
        ∗ (∃ f, (aRows10 (Mesh.px 4 c)).view.loc (c : Thread nD τ) ↦[(aRows10 (Mesh.px 4 c)).view.set]{fullShare} f)
        ∗ (∃ f, (aRows21 (Mesh.px 4 c)).view.loc (c : Thread nD τ) ↦[(aRows21 (Mesh.px 4 c)).view.set]{fullShare} f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 4 c : Thread nD τ) barS 1) kk) Q) := by
  iintro ⟨#Hrec, HO, Ht, H1, H2, H3, H4, H5⟩
  iapply (wp_sig m K c 4 3 O)
  isplitr; · iexact Hrec
  isplitl [HO]; · iexact HO
  isplitl [Ht]; · iexact Ht
  rw [barPay_px4]
  isplitl [H1]
  · isplitl [H1]; · iexact H1
    iapply (records_dcell_reached m K 1 0 2 c); iexact Hrec
  isplitl [H2]
  · isplitl [H2]; · iexact H2
    iapply (records_dcell_reached m K 1 1 0 c); iexact Hrec
  isplitl [H3]
  · isplitl [H3]; · iexact H3
    iapply (records_dcell_reached m K 1 2 1 c); iexact Hrec
  isplitl [H4]
  · isplitl [H4]; · iexact H4
    iapply (records_dcell_reached m K 3 1 0 c); iexact Hrec
  isplitl [H5]; · iexact H5
  iapply (records_dcell_reached m K 3 2 1 c); iexact Hrec

end Handshake

/-! ## The waits on the device's own DMA cells, by stage -/

section Waits

open Cert.Kernel.Iface (𝒱₀)

theorem mayWait_end (c : Dev nD) (sm : SemLoc sig) : (levAts Iface.L Iface.lv : sProp 𝕄) ⊢ MayWait (c : Thread nD τ) sm () (Iface.Orem c 19) := by
  rw [Iface.Orem_done, MayWait_zero]; iintro -; iempintro

/-- The exchange's receive waits: what has landed is the partner's sum of the stage before over the kept rows. -/
theorem wp_rs_recvwait0 (K : Dev nD × Iface.CIx → ℕ) (b : Fin 3) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 1 b 0) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 1 b 0 c) () (namt 1 b 0)) ∗ owes (c : Thread nD τ) (Iface.Orem c 7) W
        ∗ atPos ER (dcell 1 b 0 c) 0 ∅ 0)
      ⊢ iprop(((owes (c : Thread nD τ) (Iface.Orem c 7) (insert (SemLoc.dma (dsem 1 b 0), ()) W) ∗ atPos ER (dcell 1 b 0 c) 1 ∅ 0
              ∗ reached ER (dcell 1 b 0 c) 1 ∗ rsRecvPay m b 0 c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 1 b 0) src dst hsrc hdst) kk) Q) :=
  wp_dwait m K 1 b 0 c (Or.inl (by decide)) 7 (mayWait_rs0 b c) hN
theorem wp_rs_recvwait1 (K : Dev nD × Iface.CIx → ℕ) (b : Fin 3) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 1 b 1) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 1 b 1 c) () (namt 1 b 1)) ∗ owes (c : Thread nD τ) (Iface.Orem c 10) W
        ∗ atPos ER (dcell 1 b 1 c) 0 ∅ 0)
      ⊢ iprop(((owes (c : Thread nD τ) (Iface.Orem c 10) (insert (SemLoc.dma (dsem 1 b 1), ()) W) ∗ atPos ER (dcell 1 b 1 c) 1 ∅ 0
              ∗ reached ER (dcell 1 b 1 c) 1 ∗ rsRecvPay m b 1 c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 1 b 1) src dst hsrc hdst) kk) Q) :=
  wp_dwait m K 1 b 1 c (Or.inl (by decide)) 10 (mayWait_rs1 b c) hN
theorem wp_rs_recvwait2 (K : Dev nD × Iface.CIx → ℕ) (b : Fin 3) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 1 b 2) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 1 b 2 c) () (namt 1 b 2)) ∗ owes (c : Thread nD τ) (Iface.Orem c 13) W
        ∗ atPos ER (dcell 1 b 2 c) 0 ∅ 0)
      ⊢ iprop(((owes (c : Thread nD τ) (Iface.Orem c 13) (insert (SemLoc.dma (dsem 1 b 2), ()) W) ∗ atPos ER (dcell 1 b 2 c) 1 ∅ 0
              ∗ reached ER (dcell 1 b 2 c) 1 ∗ rsRecvPay m b 2 c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 1 b 2) src dst hsrc hdst) kk) Q) :=
  wp_dwait m K 1 b 2 c (Or.inl (by decide)) 13 (mayWait_rs2 b c) hN

/-- The gather's receive waits: stage 1 with the stage-0 blocks still owed, stage 0 with nothing owed. -/
theorem wp_ag_recvwait1 (K : Dev nD × Iface.CIx → ℕ) (b : Fin 3) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 3 b 1) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 3 b 1 c) () (namt 3 b 1)) ∗ owes (c : Thread nD τ) (Iface.Orem c 16) W
        ∗ atPos ER (dcell 3 b 1 c) 0 ∅ 0)
      ⊢ iprop(((owes (c : Thread nD τ) (Iface.Orem c 16) (insert (SemLoc.dma (dsem 3 b 1), ()) W) ∗ atPos ER (dcell 3 b 1 c) 1 ∅ 0
              ∗ reached ER (dcell 3 b 1 c) 1 ∗ agRecvPay m b 1 c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 3 b 1) src dst hsrc hdst) kk) Q) :=
  wp_dwait m K 3 b 1 c (Or.inr (by decide)) 16 (mayWait_ag1 b c) hN
theorem wp_ag_recvwait0 (K : Dev nD × Iface.CIx → ℕ) (b : Fin 3) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 3 b 0) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 3 b 0 c) () (namt 3 b 0)) ∗ owes (c : Thread nD τ) (Iface.Orem c 19) W
        ∗ atPos ER (dcell 3 b 0 c) 0 ∅ 0)
      ⊢ iprop(((owes (c : Thread nD τ) (Iface.Orem c 19) (insert (SemLoc.dma (dsem 3 b 0), ()) W) ∗ atPos ER (dcell 3 b 0 c) 1 ∅ 0
              ∗ reached ER (dcell 3 b 0 c) 1 ∗ agRecvPay m b 0 c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 3 b 0) src dst hsrc hdst) kk) Q) :=
  wp_dwait m K 3 b 0 c (Or.inr (by decide)) 19 (mayWait_end c _) hN

/-- The waits on the send cells, everything paid: the send slot, or the lent share of the gather rows, comes back. -/
theorem wp_rs_sendwait (K : Dev nD × Iface.CIx → ℕ) (b k : Fin 3) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 0 b k) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 0 b k c) () (namt 0 b k)) ∗ owes (c : Thread nD τ) (Iface.Orem c 19) W
        ∗ atPos ER (dcell 0 b k c) 0 ∅ 0)
      ⊢ iprop(((owes (c : Thread nD τ) (Iface.Orem c 19) (insert (SemLoc.dma (dsem 0 b k), ()) W) ∗ atPos ER (dcell 0 b k c) 1 ∅ 0
              ∗ reached ER (dcell 0 b k c) 1 ∗ rsSendPay b k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 0 b k) src dst hsrc hdst) kk) Q) :=
  wp_dwait m K 0 b k c (Or.inl (by decide)) 19 (mayWait_end c _) hN
theorem wp_ag_sendwait (K : Dev nD × Iface.CIx → ℕ) (b k : Fin 3) (hk : k.val < 2) (c : Dev nD) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 2 b k) {α : Type} {Q : α → sProp 𝕄}
    {kk : PUnit → Prog (TpuEff nD τ sig (Elt F) Λ₀ .tc) α} {W : Waits sig Unit} :
    iprop(Iface.records (F := F) m K ∗ levAts Iface.L Iface.lv ∗ cred (tallyAt (dcell 2 b k c) () (namt 2 b k)) ∗ owes (c : Thread nD τ) (Iface.Orem c 19) W
        ∗ atPos ER (dcell 2 b k c) 0 ∅ 0)
      ⊢ iprop(((owes (c : Thread nD τ) (Iface.Orem c 19) (insert (SemLoc.dma (dsem 2 b k), ()) W) ∗ atPos ER (dcell 2 b k c) 1 ∅ 0
              ∗ reached ER (dcell 2 b k c) 1 ∗ agSendPay b k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 2 b k) src dst hsrc hdst) kk) Q) :=
  wp_dwait m K 2 b k c (Or.inr hk) 19 (mayWait_end c _) hN

end Waits

/-! ## The same rules with the addressed device named by the program

The program addresses its partner by a device n it computes; n is the partner under the mask (hn). The premises stay at
the partner. -/

section Addressed

open Cert.Kernel.Iface (𝒱₀)

local notation "WP[" c "]" => wp frame (wpE (defs₀ (F := F)) 𝒱₀ (c : Thread nD τ) none) Set.univ

theorem wp_sig1_at (K : Dev nD × Iface.CIx → ℕ) (c n : Dev nD) (hn : n = Mesh.px 1 c) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 1 c)) () 1) W
        ∗ dutyTok ER (barCell (Mesh.px 1 c)) 0 0
        ∗ (∃ f, rSlot01.view.loc (c : Thread nD τ) ↦[rSlot01.view.set]{fullShare} f)
        ∗ (∃ f, rSlot12.view.loc (c : Thread nD τ) ↦[rSlot12.view.set]{fullShare} f)
        ∗ (∃ f, rSlot20.view.loc (c : Thread nD τ) ↦[rSlot20.view.set]{fullShare} f)
        ∗ (∃ f, (aRows01 (Mesh.px 1 c)).view.loc (c : Thread nD τ) ↦[(aRows01 (Mesh.px 1 c)).view.set]{fullShare} f)
        ∗ (∃ f, (aRows20 (Mesh.px 1 c)).view.loc (c : Thread nD τ) ↦[(aRows20 (Mesh.px 1 c)).view.set]{fullShare} f))
      ⊢ iprop((owes (c : Thread nD τ) O W -∗ WP[c] (kk ⟨⟩) Q) -∗ WP[c] (.op (.semSignal (n : Thread nD τ) barS 1) kk) Q) := by
  subst hn; exact wp_sig1 m K c O

theorem wp_sig2_at (K : Dev nD × Iface.CIx → ℕ) (c n : Dev nD) (hn : n = Mesh.px 2 c) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 2 c)) () 1) W
        ∗ dutyTok ER (barCell (Mesh.px 2 c)) 0 1
        ∗ (∃ f, rSlot22.view.loc (c : Thread nD τ) ↦[rSlot22.view.set]{fullShare} f))
      ⊢ iprop((owes (c : Thread nD τ) O W -∗ WP[c] (kk ⟨⟩) Q) -∗ WP[c] (.op (.semSignal (n : Thread nD τ) barS 1) kk) Q) := by
  subst hn; exact wp_sig2 m K c O

theorem wp_sig3_at (K : Dev nD × Iface.CIx → ℕ) (c n : Dev nD) (hn : n = Mesh.px 3 c) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 3 c)) () 1) W
        ∗ dutyTok ER (barCell (Mesh.px 3 c)) 0 2
        ∗ (∃ f, rSlot00.view.loc (c : Thread nD τ) ↦[rSlot00.view.set]{fullShare} f)
        ∗ (∃ f, rSlot11.view.loc (c : Thread nD τ) ↦[rSlot11.view.set]{fullShare} f)
        ∗ (∃ f, (aRows00 (Mesh.px 3 c)).view.loc (c : Thread nD τ) ↦[(aRows00 (Mesh.px 3 c)).view.set]{fullShare} f)
        ∗ (∃ f, (aRows11 (Mesh.px 3 c)).view.loc (c : Thread nD τ) ↦[(aRows11 (Mesh.px 3 c)).view.set]{fullShare} f))
      ⊢ iprop((owes (c : Thread nD τ) O W -∗ WP[c] (kk ⟨⟩) Q) -∗ WP[c] (.op (.semSignal (n : Thread nD τ) barS 1) kk) Q) := by
  subst hn; exact wp_sig3 m K c O

theorem wp_sig4_at (K : Dev nD × Iface.CIx → ℕ) (c n : Dev nD) (hn : n = Mesh.px 4 c) {α : Type} {Q : α → sProp 𝕄}
    {kk : PUnit → Prog (TpuEff nD τ sig (Elt F) Λ₀ .tc) α} (O : CellTallies nD τ sig Unit) {W : Waits sig Unit} :
    iprop(Iface.records (F := F) m K ∗ owes (c : Thread nD τ) (O + tallyAt (barCell (Mesh.px 4 c)) () 1) W
        ∗ dutyTok ER (barCell (Mesh.px 4 c)) 0 3
        ∗ (∃ f, rSlot02.view.loc (c : Thread nD τ) ↦[rSlot02.view.set]{fullShare} f)
        ∗ (∃ f, rSlot10.view.loc (c : Thread nD τ) ↦[rSlot10.view.set]{fullShare} f)
        ∗ (∃ f, rSlot21.view.loc (c : Thread nD τ) ↦[rSlot21.view.set]{fullShare} f)
        ∗ (∃ f, (aRows10 (Mesh.px 4 c)).view.loc (c : Thread nD τ) ↦[(aRows10 (Mesh.px 4 c)).view.set]{fullShare} f)
        ∗ (∃ f, (aRows21 (Mesh.px 4 c)).view.loc (c : Thread nD τ) ↦[(aRows21 (Mesh.px 4 c)).view.set]{fullShare} f))
      ⊢ iprop((owes (c : Thread nD τ) O W -∗ WP[c] (kk ⟨⟩) Q) -∗ WP[c] (.op (.semSignal (n : Thread nD τ) barS 1) kk) Q) := by
  subst hn; exact wp_sig4 m K c O

theorem wp_rs_send00_at (K : Dev nD × Iface.CIx → ℕ) (c n : Dev nD) (hn : n = Mesh.px 3 c)
    {hsc : (rSlot00 : Memref sig (Dev.tc n : Thread nD τ).2.kind .vmem S192x1024 .bf16).view.ref.isScScratch = false}
    {hsrc : sSlot00.view.WordExact} {hdst : rSlot00.view.WordExact}
    {hsem : DmaTarget.Typed .vmem (.dma (dsem 1 0 0)) (.remote (Dev.tc n : Thread nD τ) rSlot00 (.dma (dsem 0 0 0)) hsc)}
    {α : Type} {Q : α → sProp 𝕄} {kk : PUnit → Prog (TpuEff nD τ sig (Elt F) Λ₀ .tc) α}
    {fs : Buf (Elt F) (sSlot00.view.loc (c : Thread nD τ))} {fd : Buf (Elt F) (rSlot00.view.loc (Mesh.px 3 c : Thread nD τ))}
    (O : CellTallies nD τ sig Unit) {W : Waits sig Unit}
    (hfs : ∀ (r q : ℕ) (hr : r < 192) (hq : q < 1024), sSlot00.view.read (Elt F) fs (ix2 ⟨r, hr⟩ ⟨q, hq⟩) = tr (S0 m 0 c (K0 0 (Mesh.px 3 c) + r) q)) :
    iprop(Iface.records (F := F) m K
        ∗ (sSlot00.view.loc (c : Thread nD τ) ↦[sSlot00.view.set]{fullShare} fs)
        ∗ (rSlot00.view.loc (Mesh.px 3 c : Thread nD τ) ↦[rSlot00.view.set]{fullShare} fd)
        ∗ owes (c : Thread nD τ) (O + tallyAt (dcell 1 0 0 (Mesh.px 3 c)) () (namt 1 0 0)) W
        ∗ dutyTok ER (dcell 0 0 0 c) 0 0 ∗ dutyTok ER (dcell 1 0 0 (Mesh.px 3 c)) 0 0)
      ⊢ iprop(((cred (tallyAt (dcell 0 0 0 c) () (namt 0 0 0)) ∗ owes (c : Thread nD τ) O W) -∗ WP[c] (kk ⟨⟩) Q)
          -∗ WP[c] (.op (.enqueueDma sSlot00 (.remote (Dev.tc n : Thread nD τ) rSlot00 (.dma (dsem 0 0 0)) hsc) (.dma (dsem 1 0 0)) hsrc hdst hsem) kk) Q) := by
  subst hn; exact wp_rs_send00 m K c O hfs

theorem wp_rs_send10_at (K : Dev nD × Iface.CIx → ℕ) (c n : Dev nD) (hn : n = Mesh.px 4 c)
    {hsc : (rSlot10 : Memref sig (Dev.tc n : Thread nD τ).2.kind .vmem S192x1024 .bf16).view.ref.isScScratch = false}
    {hsrc : sSlot10.view.WordExact} {hdst : rSlot10.view.WordExact}
    {hsem : DmaTarget.Typed .vmem (.dma (dsem 1 1 0)) (.remote (Dev.tc n : Thread nD τ) rSlot10 (.dma (dsem 0 1 0)) hsc)}
    {α : Type} {Q : α → sProp 𝕄} {kk : PUnit → Prog (TpuEff nD τ sig (Elt F) Λ₀ .tc) α}
    {fs : Buf (Elt F) (sSlot10.view.loc (c : Thread nD τ))} {fd : Buf (Elt F) (rSlot10.view.loc (Mesh.px 4 c : Thread nD τ))}
    (O : CellTallies nD τ sig Unit) {W : Waits sig Unit}
    (hfs : ∀ (r q : ℕ) (hr : r < 192) (hq : q < 1024), sSlot10.view.read (Elt F) fs (ix2 ⟨r, hr⟩ ⟨q, hq⟩) = tr (S0 m 1 c (K0 1 (Mesh.px 4 c) + r) q)) :
    iprop(Iface.records (F := F) m K
        ∗ (sSlot10.view.loc (c : Thread nD τ) ↦[sSlot10.view.set]{fullShare} fs)
        ∗ (rSlot10.view.loc (Mesh.px 4 c : Thread nD τ) ↦[rSlot10.view.set]{fullShare} fd)
        ∗ owes (c : Thread nD τ) (O + tallyAt (dcell 1 1 0 (Mesh.px 4 c)) () (namt 1 1 0)) W
        ∗ dutyTok ER (dcell 0 1 0 c) 0 0 ∗ dutyTok ER (dcell 1 1 0 (Mesh.px 4 c)) 0 0)
      ⊢ iprop(((cred (tallyAt (dcell 0 1 0 c) () (namt 0 1 0)) ∗ owes (c : Thread nD τ) O W) -∗ WP[c] (kk ⟨⟩) Q)
          -∗ WP[c] (.op (.enqueueDma sSlot10 (.remote (Dev.tc n : Thread nD τ) rSlot10 (.dma (dsem 0 1 0)) hsc) (.dma (dsem 1 1 0)) hsrc hdst hsem) kk) Q) := by
  subst hn; exact wp_rs_send10 m K c O hfs

theorem wp_rs_send20_at (K : Dev nD × Iface.CIx → ℕ) (c n : Dev nD) (hn : n = Mesh.px 1 c)
    {hsc : (rSlot20 : Memref sig (Dev.tc n : Thread nD τ).2.kind .vmem S128x1024 .bf16).view.ref.isScScratch = false}
    {hsrc : sSlot20.view.WordExact} {hdst : rSlot20.view.WordExact}
    {hsem : DmaTarget.Typed .vmem (.dma (dsem 1 2 0)) (.remote (Dev.tc n : Thread nD τ) rSlot20 (.dma (dsem 0 2 0)) hsc)}
    {α : Type} {Q : α → sProp 𝕄} {kk : PUnit → Prog (TpuEff nD τ sig (Elt F) Λ₀ .tc) α}
    {fs : Buf (Elt F) (sSlot20.view.loc (c : Thread nD τ))} {fd : Buf (Elt F) (rSlot20.view.loc (Mesh.px 1 c : Thread nD τ))}
    (O : CellTallies nD τ sig Unit) {W : Waits sig Unit}
    (hfs : ∀ (r q : ℕ) (hr : r < 128) (hq : q < 1024), sSlot20.view.read (Elt F) fs (ix2 ⟨r, hr⟩ ⟨q, hq⟩) = tr (S0 m 2 c (K0 2 (Mesh.px 1 c) + r) q)) :
    iprop(Iface.records (F := F) m K
        ∗ (sSlot20.view.loc (c : Thread nD τ) ↦[sSlot20.view.set]{fullShare} fs)
        ∗ (rSlot20.view.loc (Mesh.px 1 c : Thread nD τ) ↦[rSlot20.view.set]{fullShare} fd)
        ∗ owes (c : Thread nD τ) (O + tallyAt (dcell 1 2 0 (Mesh.px 1 c)) () (namt 1 2 0)) W
        ∗ dutyTok ER (dcell 0 2 0 c) 0 0 ∗ dutyTok ER (dcell 1 2 0 (Mesh.px 1 c)) 0 0)
      ⊢ iprop(((cred (tallyAt (dcell 0 2 0 c) () (namt 0 2 0)) ∗ owes (c : Thread nD τ) O W) -∗ WP[c] (kk ⟨⟩) Q)
          -∗ WP[c] (.op (.enqueueDma sSlot20 (.remote (Dev.tc n : Thread nD τ) rSlot20 (.dma (dsem 0 2 0)) hsc) (.dma (dsem 1 2 0)) hsrc hdst hsem) kk) Q) := by
  subst hn; exact wp_rs_send20 m K c O hfs

theorem wp_rs_send01_at (K : Dev nD × Iface.CIx → ℕ) (c n : Dev nD) (hn : n = Mesh.px 1 c)
    {hsc : (rSlot01 : Memref sig (Dev.tc n : Thread nD τ).2.kind .vmem S96x1024 .bf16).view.ref.isScScratch = false}
    {hsrc : sSlot01.view.WordExact} {hdst : rSlot01.view.WordExact}
    {hsem : DmaTarget.Typed .vmem (.dma (dsem 1 0 1)) (.remote (Dev.tc n : Thread nD τ) rSlot01 (.dma (dsem 0 0 1)) hsc)}
    {α : Type} {Q : α → sProp 𝕄} {kk : PUnit → Prog (TpuEff nD τ sig (Elt F) Λ₀ .tc) α}
    {fs : Buf (Elt F) (sSlot01.view.loc (c : Thread nD τ))} {fd : Buf (Elt F) (rSlot01.view.loc (Mesh.px 1 c : Thread nD τ))}
    (O : CellTallies nD τ sig Unit) {W : Waits sig Unit}
    (hfs : ∀ (r q : ℕ) (hr : r < 96) (hq : q < 1024), sSlot01.view.read (Elt F) fs (ix2 ⟨r, hr⟩ ⟨q, hq⟩) = tr (S1 m 0 c (K1 0 (Mesh.px 1 c) + r) q)) :
    iprop(Iface.records (F := F) m K
        ∗ (sSlot01.view.loc (c : Thread nD τ) ↦[sSlot01.view.set]{fullShare} fs)
        ∗ (rSlot01.view.loc (Mesh.px 1 c : Thread nD τ) ↦[rSlot01.view.set]{fullShare} fd)
        ∗ owes (c : Thread nD τ) (O + tallyAt (dcell 1 0 1 (Mesh.px 1 c)) () (namt 1 0 1)) W
        ∗ dutyTok ER (dcell 0 0 1 c) 0 0 ∗ dutyTok ER (dcell 1 0 1 (Mesh.px 1 c)) 0 0)
      ⊢ iprop(((cred (tallyAt (dcell 0 0 1 c) () (namt 0 0 1)) ∗ owes (c : Thread nD τ) O W) -∗ WP[c] (kk ⟨⟩) Q)
          -∗ WP[c] (.op (.enqueueDma sSlot01 (.remote (Dev.tc n : Thread nD τ) rSlot01 (.dma (dsem 0 0 1)) hsc) (.dma (dsem 1 0 1)) hsrc hdst hsem) kk) Q) := by
  subst hn; exact wp_rs_send01 m K c O hfs

theorem wp_rs_send11_at (K : Dev nD × Iface.CIx → ℕ) (c n : Dev nD) (hn : n = Mesh.px 3 c)
    {hsc : (rSlot11 : Memref sig (Dev.tc n : Thread nD τ).2.kind .vmem S96x1024 .bf16).view.ref.isScScratch = false}
    {hsrc : sSlot11.view.WordExact} {hdst : rSlot11.view.WordExact}
    {hsem : DmaTarget.Typed .vmem (.dma (dsem 1 1 1)) (.remote (Dev.tc n : Thread nD τ) rSlot11 (.dma (dsem 0 1 1)) hsc)}
    {α : Type} {Q : α → sProp 𝕄} {kk : PUnit → Prog (TpuEff nD τ sig (Elt F) Λ₀ .tc) α}
    {fs : Buf (Elt F) (sSlot11.view.loc (c : Thread nD τ))} {fd : Buf (Elt F) (rSlot11.view.loc (Mesh.px 3 c : Thread nD τ))}
    (O : CellTallies nD τ sig Unit) {W : Waits sig Unit}
    (hfs : ∀ (r q : ℕ) (hr : r < 96) (hq : q < 1024), sSlot11.view.read (Elt F) fs (ix2 ⟨r, hr⟩ ⟨q, hq⟩) = tr (S1 m 1 c (K1 1 (Mesh.px 3 c) + r) q)) :
    iprop(Iface.records (F := F) m K
        ∗ (sSlot11.view.loc (c : Thread nD τ) ↦[sSlot11.view.set]{fullShare} fs)
        ∗ (rSlot11.view.loc (Mesh.px 3 c : Thread nD τ) ↦[rSlot11.view.set]{fullShare} fd)
        ∗ owes (c : Thread nD τ) (O + tallyAt (dcell 1 1 1 (Mesh.px 3 c)) () (namt 1 1 1)) W
        ∗ dutyTok ER (dcell 0 1 1 c) 0 0 ∗ dutyTok ER (dcell 1 1 1 (Mesh.px 3 c)) 0 0)
      ⊢ iprop(((cred (tallyAt (dcell 0 1 1 c) () (namt 0 1 1)) ∗ owes (c : Thread nD τ) O W) -∗ WP[c] (kk ⟨⟩) Q)
          -∗ WP[c] (.op (.enqueueDma sSlot11 (.remote (Dev.tc n : Thread nD τ) rSlot11 (.dma (dsem 0 1 1)) hsc) (.dma (dsem 1 1 1)) hsrc hdst hsem) kk) Q) := by
  subst hn; exact wp_rs_send11 m K c O hfs

theorem wp_rs_send21_at (K : Dev nD × Iface.CIx → ℕ) (c n : Dev nD) (hn : n = Mesh.px 4 c)
    {hsc : (rSlot21 : Memref sig (Dev.tc n : Thread nD τ).2.kind .vmem S64x1024 .bf16).view.ref.isScScratch = false}
    {hsrc : sSlot21.view.WordExact} {hdst : rSlot21.view.WordExact}
    {hsem : DmaTarget.Typed .vmem (.dma (dsem 1 2 1)) (.remote (Dev.tc n : Thread nD τ) rSlot21 (.dma (dsem 0 2 1)) hsc)}
    {α : Type} {Q : α → sProp 𝕄} {kk : PUnit → Prog (TpuEff nD τ sig (Elt F) Λ₀ .tc) α}
    {fs : Buf (Elt F) (sSlot21.view.loc (c : Thread nD τ))} {fd : Buf (Elt F) (rSlot21.view.loc (Mesh.px 4 c : Thread nD τ))}
    (O : CellTallies nD τ sig Unit) {W : Waits sig Unit}
    (hfs : ∀ (r q : ℕ) (hr : r < 64) (hq : q < 1024), sSlot21.view.read (Elt F) fs (ix2 ⟨r, hr⟩ ⟨q, hq⟩) = tr (S1 m 2 c (K1 2 (Mesh.px 4 c) + r) q)) :
    iprop(Iface.records (F := F) m K
        ∗ (sSlot21.view.loc (c : Thread nD τ) ↦[sSlot21.view.set]{fullShare} fs)
        ∗ (rSlot21.view.loc (Mesh.px 4 c : Thread nD τ) ↦[rSlot21.view.set]{fullShare} fd)
        ∗ owes (c : Thread nD τ) (O + tallyAt (dcell 1 2 1 (Mesh.px 4 c)) () (namt 1 2 1)) W
        ∗ dutyTok ER (dcell 0 2 1 c) 0 0 ∗ dutyTok ER (dcell 1 2 1 (Mesh.px 4 c)) 0 0)
      ⊢ iprop(((cred (tallyAt (dcell 0 2 1 c) () (namt 0 2 1)) ∗ owes (c : Thread nD τ) O W) -∗ WP[c] (kk ⟨⟩) Q)
          -∗ WP[c] (.op (.enqueueDma sSlot21 (.remote (Dev.tc n : Thread nD τ) rSlot21 (.dma (dsem 0 2 1)) hsc) (.dma (dsem 1 2 1)) hsrc hdst hsem) kk) Q) := by
  subst hn; exact wp_rs_send21 m K c O hfs

theorem wp_rs_send02_at (K : Dev nD × Iface.CIx → ℕ) (c n : Dev nD) (hn : n = Mesh.px 4 c)
    {hsc : (rSlot02 : Memref sig (Dev.tc n : Thread nD τ).2.kind .vmem S96x1024 .bf16).view.ref.isScScratch = false}
    {hsrc : sSlot02.view.WordExact} {hdst : rSlot02.view.WordExact}
    {hsem : DmaTarget.Typed .vmem (.dma (dsem 1 0 2)) (.remote (Dev.tc n : Thread nD τ) rSlot02 (.dma (dsem 0 0 2)) hsc)}
    {α : Type} {Q : α → sProp 𝕄} {kk : PUnit → Prog (TpuEff nD τ sig (Elt F) Λ₀ .tc) α}
    {fs : Buf (Elt F) (sSlot02.view.loc (c : Thread nD τ))} {fd : Buf (Elt F) (rSlot02.view.loc (Mesh.px 4 c : Thread nD τ))}
    (O : CellTallies nD τ sig Unit) {W : Waits sig Unit}
    (hfs : ∀ (r q : ℕ) (hr : r < 96) (hq : q < 1024), sSlot02.view.read (Elt F) fs (ix2 ⟨r, hr⟩ ⟨q, hq⟩) = tr (S2 m 0 c (K1 0 (Mesh.px 4 c) + r) q)) :
    iprop(Iface.records (F := F) m K
        ∗ (sSlot02.view.loc (c : Thread nD τ) ↦[sSlot02.view.set]{fullShare} fs)
        ∗ (rSlot02.view.loc (Mesh.px 4 c : Thread nD τ) ↦[rSlot02.view.set]{fullShare} fd)
        ∗ owes (c : Thread nD τ) (O + tallyAt (dcell 1 0 2 (Mesh.px 4 c)) () (namt 1 0 2)) W
        ∗ dutyTok ER (dcell 0 0 2 c) 0 0 ∗ dutyTok ER (dcell 1 0 2 (Mesh.px 4 c)) 0 0)
      ⊢ iprop(((cred (tallyAt (dcell 0 0 2 c) () (namt 0 0 2)) ∗ owes (c : Thread nD τ) O W) -∗ WP[c] (kk ⟨⟩) Q)
          -∗ WP[c] (.op (.enqueueDma sSlot02 (.remote (Dev.tc n : Thread nD τ) rSlot02 (.dma (dsem 0 0 2)) hsc) (.dma (dsem 1 0 2)) hsrc hdst hsem) kk) Q) := by
  subst hn; exact wp_rs_send02 m K c O hfs

theorem wp_rs_send12_at (K : Dev nD × Iface.CIx → ℕ) (c n : Dev nD) (hn : n = Mesh.px 1 c)
    {hsc : (rSlot12 : Memref sig (Dev.tc n : Thread nD τ).2.kind .vmem S96x1024 .bf16).view.ref.isScScratch = false}
    {hsrc : sSlot12.view.WordExact} {hdst : rSlot12.view.WordExact}
    {hsem : DmaTarget.Typed .vmem (.dma (dsem 1 1 2)) (.remote (Dev.tc n : Thread nD τ) rSlot12 (.dma (dsem 0 1 2)) hsc)}
    {α : Type} {Q : α → sProp 𝕄} {kk : PUnit → Prog (TpuEff nD τ sig (Elt F) Λ₀ .tc) α}
    {fs : Buf (Elt F) (sSlot12.view.loc (c : Thread nD τ))} {fd : Buf (Elt F) (rSlot12.view.loc (Mesh.px 1 c : Thread nD τ))}
    (O : CellTallies nD τ sig Unit) {W : Waits sig Unit}
    (hfs : ∀ (r q : ℕ) (hr : r < 96) (hq : q < 1024), sSlot12.view.read (Elt F) fs (ix2 ⟨r, hr⟩ ⟨q, hq⟩) = tr (S2 m 1 c (K1 1 (Mesh.px 1 c) + r) q)) :
    iprop(Iface.records (F := F) m K
        ∗ (sSlot12.view.loc (c : Thread nD τ) ↦[sSlot12.view.set]{fullShare} fs)
        ∗ (rSlot12.view.loc (Mesh.px 1 c : Thread nD τ) ↦[rSlot12.view.set]{fullShare} fd)
        ∗ owes (c : Thread nD τ) (O + tallyAt (dcell 1 1 2 (Mesh.px 1 c)) () (namt 1 1 2)) W
        ∗ dutyTok ER (dcell 0 1 2 c) 0 0 ∗ dutyTok ER (dcell 1 1 2 (Mesh.px 1 c)) 0 0)
      ⊢ iprop(((cred (tallyAt (dcell 0 1 2 c) () (namt 0 1 2)) ∗ owes (c : Thread nD τ) O W) -∗ WP[c] (kk ⟨⟩) Q)
          -∗ WP[c] (.op (.enqueueDma sSlot12 (.remote (Dev.tc n : Thread nD τ) rSlot12 (.dma (dsem 0 1 2)) hsc) (.dma (dsem 1 1 2)) hsrc hdst hsem) kk) Q) := by
  subst hn; exact wp_rs_send12 m K c O hfs

theorem wp_rs_send22_at (K : Dev nD × Iface.CIx → ℕ) (c n : Dev nD) (hn : n = Mesh.px 2 c)
    {hsc : (rSlot22 : Memref sig (Dev.tc n : Thread nD τ).2.kind .vmem S64x1024 .bf16).view.ref.isScScratch = false}
    {hsrc : sSlot22.view.WordExact} {hdst : rSlot22.view.WordExact}
    {hsem : DmaTarget.Typed .vmem (.dma (dsem 1 2 2)) (.remote (Dev.tc n : Thread nD τ) rSlot22 (.dma (dsem 0 2 2)) hsc)}
    {α : Type} {Q : α → sProp 𝕄} {kk : PUnit → Prog (TpuEff nD τ sig (Elt F) Λ₀ .tc) α}
    {fs : Buf (Elt F) (sSlot22.view.loc (c : Thread nD τ))} {fd : Buf (Elt F) (rSlot22.view.loc (Mesh.px 2 c : Thread nD τ))}
    (O : CellTallies nD τ sig Unit) {W : Waits sig Unit}
    (hfs : ∀ (r q : ℕ) (hr : r < 64) (hq : q < 1024), sSlot22.view.read (Elt F) fs (ix2 ⟨r, hr⟩ ⟨q, hq⟩) = tr (S2 m 2 c (K1 2 (Mesh.px 2 c) + r) q)) :
    iprop(Iface.records (F := F) m K
        ∗ (sSlot22.view.loc (c : Thread nD τ) ↦[sSlot22.view.set]{fullShare} fs)
        ∗ (rSlot22.view.loc (Mesh.px 2 c : Thread nD τ) ↦[rSlot22.view.set]{fullShare} fd)
        ∗ owes (c : Thread nD τ) (O + tallyAt (dcell 1 2 2 (Mesh.px 2 c)) () (namt 1 2 2)) W
        ∗ dutyTok ER (dcell 0 2 2 c) 0 0 ∗ dutyTok ER (dcell 1 2 2 (Mesh.px 2 c)) 0 0)
      ⊢ iprop(((cred (tallyAt (dcell 0 2 2 c) () (namt 0 2 2)) ∗ owes (c : Thread nD τ) O W) -∗ WP[c] (kk ⟨⟩) Q)
          -∗ WP[c] (.op (.enqueueDma sSlot22 (.remote (Dev.tc n : Thread nD τ) rSlot22 (.dma (dsem 0 2 2)) hsc) (.dma (dsem 1 2 2)) hsrc hdst hsem) kk) Q) := by
  subst hn; exact wp_rs_send22 m K c O hfs

theorem wp_ag_send01_at (K : Dev nD × Iface.CIx → ℕ) (c n : Dev nD) (hn : n = Mesh.px 1 c)
    {hsc : ((aRows01 c) : Memref sig (Dev.tc n : Thread nD τ).2.kind .vmem S96x1024 .bf16).view.ref.isScScratch = false}
    {hsrc : (aRows01 c).view.WordExact} {hdst : (aRows01 c).view.WordExact}
    {hsem : DmaTarget.Typed .vmem (.dma (dsem 3 0 1)) (.remote (Dev.tc n : Thread nD τ) (aRows01 c) (.dma (dsem 2 0 1)) hsc)}
    {α : Type} {Q : α → sProp 𝕄} {kk : PUnit → Prog (TpuEff nD τ sig (Elt F) Λ₀ .tc) α}
    {fs : Buf (Elt F) ((aRows01 c).view.loc (c : Thread nD τ))} {fd : Buf (Elt F) ((aRows01 c).view.loc (Mesh.px 1 c : Thread nD τ))}
    (O : CellTallies nD τ sig Unit) {W : Waits sig Unit}
    (hfs : ∀ (r q : ℕ) (hr : r < 96) (hq : q < 1024), (aRows01 c).view.read (Elt F) fs (ix2 ⟨r, hr⟩ ⟨q, hq⟩) = tr (S3 m 0 c (K1 0 c + r) q)) :
    iprop(Iface.records (F := F) m K
        ∗ ((aRows01 c).view.loc (c : Thread nD τ) ↦[(aRows01 c).view.set]{fullShare.left} fs)
        ∗ ((aRows01 c).view.loc (Mesh.px 1 c : Thread nD τ) ↦[(aRows01 c).view.set]{fullShare} fd)
        ∗ owes (c : Thread nD τ) (O + tallyAt (dcell 3 0 1 (Mesh.px 1 c)) () (namt 3 0 1)) W
        ∗ dutyTok ER (dcell 2 0 1 c) 0 0 ∗ dutyTok ER (dcell 3 0 1 (Mesh.px 1 c)) 0 0)
      ⊢ iprop(((cred (tallyAt (dcell 2 0 1 c) () (namt 2 0 1)) ∗ owes (c : Thread nD τ) O W) -∗ WP[c] (kk ⟨⟩) Q)
          -∗ WP[c] (.op (.enqueueDma (aRows01 c) (.remote (Dev.tc n : Thread nD τ) (aRows01 c) (.dma (dsem 2 0 1)) hsc) (.dma (dsem 3 0 1)) hsrc hdst hsem) kk) Q) := by
  subst hn; exact wp_ag_send01 m K c O hfs

theorem wp_ag_send11_at (K : Dev nD × Iface.CIx → ℕ) (c n : Dev nD) (hn : n = Mesh.px 3 c)
    {hsc : ((aRows11 c) : Memref sig (Dev.tc n : Thread nD τ).2.kind .vmem S96x1024 .bf16).view.ref.isScScratch = false}
    {hsrc : (aRows11 c).view.WordExact} {hdst : (aRows11 c).view.WordExact}
    {hsem : DmaTarget.Typed .vmem (.dma (dsem 3 1 1)) (.remote (Dev.tc n : Thread nD τ) (aRows11 c) (.dma (dsem 2 1 1)) hsc)}
    {α : Type} {Q : α → sProp 𝕄} {kk : PUnit → Prog (TpuEff nD τ sig (Elt F) Λ₀ .tc) α}
    {fs : Buf (Elt F) ((aRows11 c).view.loc (c : Thread nD τ))} {fd : Buf (Elt F) ((aRows11 c).view.loc (Mesh.px 3 c : Thread nD τ))}
    (O : CellTallies nD τ sig Unit) {W : Waits sig Unit}
    (hfs : ∀ (r q : ℕ) (hr : r < 96) (hq : q < 1024), (aRows11 c).view.read (Elt F) fs (ix2 ⟨r, hr⟩ ⟨q, hq⟩) = tr (S3 m 1 c (K1 1 c + r) q)) :
    iprop(Iface.records (F := F) m K
        ∗ ((aRows11 c).view.loc (c : Thread nD τ) ↦[(aRows11 c).view.set]{fullShare.left} fs)
        ∗ ((aRows11 c).view.loc (Mesh.px 3 c : Thread nD τ) ↦[(aRows11 c).view.set]{fullShare} fd)
        ∗ owes (c : Thread nD τ) (O + tallyAt (dcell 3 1 1 (Mesh.px 3 c)) () (namt 3 1 1)) W
        ∗ dutyTok ER (dcell 2 1 1 c) 0 0 ∗ dutyTok ER (dcell 3 1 1 (Mesh.px 3 c)) 0 0)
      ⊢ iprop(((cred (tallyAt (dcell 2 1 1 c) () (namt 2 1 1)) ∗ owes (c : Thread nD τ) O W) -∗ WP[c] (kk ⟨⟩) Q)
          -∗ WP[c] (.op (.enqueueDma (aRows11 c) (.remote (Dev.tc n : Thread nD τ) (aRows11 c) (.dma (dsem 2 1 1)) hsc) (.dma (dsem 3 1 1)) hsrc hdst hsem) kk) Q) := by
  subst hn; exact wp_ag_send11 m K c O hfs

theorem wp_ag_send21_at (K : Dev nD × Iface.CIx → ℕ) (c n : Dev nD) (hn : n = Mesh.px 4 c)
    {hsc : ((aRows21 c) : Memref sig (Dev.tc n : Thread nD τ).2.kind .vmem S64x1024 .bf16).view.ref.isScScratch = false}
    {hsrc : (aRows21 c).view.WordExact} {hdst : (aRows21 c).view.WordExact}
    {hsem : DmaTarget.Typed .vmem (.dma (dsem 3 2 1)) (.remote (Dev.tc n : Thread nD τ) (aRows21 c) (.dma (dsem 2 2 1)) hsc)}
    {α : Type} {Q : α → sProp 𝕄} {kk : PUnit → Prog (TpuEff nD τ sig (Elt F) Λ₀ .tc) α}
    {fs : Buf (Elt F) ((aRows21 c).view.loc (c : Thread nD τ))} {fd : Buf (Elt F) ((aRows21 c).view.loc (Mesh.px 4 c : Thread nD τ))}
    (O : CellTallies nD τ sig Unit) {W : Waits sig Unit}
    (hfs : ∀ (r q : ℕ) (hr : r < 64) (hq : q < 1024), (aRows21 c).view.read (Elt F) fs (ix2 ⟨r, hr⟩ ⟨q, hq⟩) = tr (S3 m 2 c (K1 2 c + r) q)) :
    iprop(Iface.records (F := F) m K
        ∗ ((aRows21 c).view.loc (c : Thread nD τ) ↦[(aRows21 c).view.set]{fullShare.left} fs)
        ∗ ((aRows21 c).view.loc (Mesh.px 4 c : Thread nD τ) ↦[(aRows21 c).view.set]{fullShare} fd)
        ∗ owes (c : Thread nD τ) (O + tallyAt (dcell 3 2 1 (Mesh.px 4 c)) () (namt 3 2 1)) W
        ∗ dutyTok ER (dcell 2 2 1 c) 0 0 ∗ dutyTok ER (dcell 3 2 1 (Mesh.px 4 c)) 0 0)
      ⊢ iprop(((cred (tallyAt (dcell 2 2 1 c) () (namt 2 2 1)) ∗ owes (c : Thread nD τ) O W) -∗ WP[c] (kk ⟨⟩) Q)
          -∗ WP[c] (.op (.enqueueDma (aRows21 c) (.remote (Dev.tc n : Thread nD τ) (aRows21 c) (.dma (dsem 2 2 1)) hsc) (.dma (dsem 3 2 1)) hsrc hdst hsem) kk) Q) := by
  subst hn; exact wp_ag_send21 m K c O hfs

theorem wp_ag_send00_at (K : Dev nD × Iface.CIx → ℕ) (c n : Dev nD) (hn : n = Mesh.px 3 c)
    {hsc : ((aRows00 c) : Memref sig (Dev.tc n : Thread nD τ).2.kind .vmem S192x1024 .bf16).view.ref.isScScratch = false}
    {hsrc : (aRows00 c).view.WordExact} {hdst : (aRows00 c).view.WordExact}
    {hsem : DmaTarget.Typed .vmem (.dma (dsem 3 0 0)) (.remote (Dev.tc n : Thread nD τ) (aRows00 c) (.dma (dsem 2 0 0)) hsc)}
    {α : Type} {Q : α → sProp 𝕄} {kk : PUnit → Prog (TpuEff nD τ sig (Elt F) Λ₀ .tc) α}
    {fs : Buf (Elt F) ((aRows00 c).view.loc (c : Thread nD τ))} {fd : Buf (Elt F) ((aRows00 c).view.loc (Mesh.px 3 c : Thread nD τ))}
    (O : CellTallies nD τ sig Unit) {W : Waits sig Unit}
    (hfs : ∀ (r q : ℕ) (hr : r < 192) (hq : q < 1024), (aRows00 c).view.read (Elt F) fs (ix2 ⟨r, hr⟩ ⟨q, hq⟩) = tr (S3 m 0 (qOwn 0 c (K0 0 c + r)) (K0 0 c + r) q)) :
    iprop(Iface.records (F := F) m K
        ∗ ((aRows00 c).view.loc (c : Thread nD τ) ↦[(aRows00 c).view.set]{fullShare.right.left} fs)
        ∗ ((aRows00 c).view.loc (Mesh.px 3 c : Thread nD τ) ↦[(aRows00 c).view.set]{fullShare} fd)
        ∗ owes (c : Thread nD τ) (O + tallyAt (dcell 3 0 0 (Mesh.px 3 c)) () (namt 3 0 0)) W
        ∗ dutyTok ER (dcell 2 0 0 c) 0 0 ∗ dutyTok ER (dcell 3 0 0 (Mesh.px 3 c)) 0 0)
      ⊢ iprop(((cred (tallyAt (dcell 2 0 0 c) () (namt 2 0 0)) ∗ owes (c : Thread nD τ) O W) -∗ WP[c] (kk ⟨⟩) Q)
          -∗ WP[c] (.op (.enqueueDma (aRows00 c) (.remote (Dev.tc n : Thread nD τ) (aRows00 c) (.dma (dsem 2 0 0)) hsc) (.dma (dsem 3 0 0)) hsrc hdst hsem) kk) Q) := by
  subst hn; exact wp_ag_send00 m K c O hfs

theorem wp_ag_send10_at (K : Dev nD × Iface.CIx → ℕ) (c n : Dev nD) (hn : n = Mesh.px 4 c)
    {hsc : ((aRows10 c) : Memref sig (Dev.tc n : Thread nD τ).2.kind .vmem S192x1024 .bf16).view.ref.isScScratch = false}
    {hsrc : (aRows10 c).view.WordExact} {hdst : (aRows10 c).view.WordExact}
    {hsem : DmaTarget.Typed .vmem (.dma (dsem 3 1 0)) (.remote (Dev.tc n : Thread nD τ) (aRows10 c) (.dma (dsem 2 1 0)) hsc)}
    {α : Type} {Q : α → sProp 𝕄} {kk : PUnit → Prog (TpuEff nD τ sig (Elt F) Λ₀ .tc) α}
    {fs : Buf (Elt F) ((aRows10 c).view.loc (c : Thread nD τ))} {fd : Buf (Elt F) ((aRows10 c).view.loc (Mesh.px 4 c : Thread nD τ))}
    (O : CellTallies nD τ sig Unit) {W : Waits sig Unit}
    (hfs : ∀ (r q : ℕ) (hr : r < 192) (hq : q < 1024), (aRows10 c).view.read (Elt F) fs (ix2 ⟨r, hr⟩ ⟨q, hq⟩) = tr (S3 m 1 (qOwn 1 c (K0 1 c + r)) (K0 1 c + r) q)) :
    iprop(Iface.records (F := F) m K
        ∗ ((aRows10 c).view.loc (c : Thread nD τ) ↦[(aRows10 c).view.set]{fullShare.right.left} fs)
        ∗ ((aRows10 c).view.loc (Mesh.px 4 c : Thread nD τ) ↦[(aRows10 c).view.set]{fullShare} fd)
        ∗ owes (c : Thread nD τ) (O + tallyAt (dcell 3 1 0 (Mesh.px 4 c)) () (namt 3 1 0)) W
        ∗ dutyTok ER (dcell 2 1 0 c) 0 0 ∗ dutyTok ER (dcell 3 1 0 (Mesh.px 4 c)) 0 0)
      ⊢ iprop(((cred (tallyAt (dcell 2 1 0 c) () (namt 2 1 0)) ∗ owes (c : Thread nD τ) O W) -∗ WP[c] (kk ⟨⟩) Q)
          -∗ WP[c] (.op (.enqueueDma (aRows10 c) (.remote (Dev.tc n : Thread nD τ) (aRows10 c) (.dma (dsem 2 1 0)) hsc) (.dma (dsem 3 1 0)) hsrc hdst hsem) kk) Q) := by
  subst hn; exact wp_ag_send10 m K c O hfs

theorem wp_ag_send20_at (K : Dev nD × Iface.CIx → ℕ) (c n : Dev nD) (hn : n = Mesh.px 1 c)
    {hsc : ((aRows20 c) : Memref sig (Dev.tc n : Thread nD τ).2.kind .vmem S128x1024 .bf16).view.ref.isScScratch = false}
    {hsrc : (aRows20 c).view.WordExact} {hdst : (aRows20 c).view.WordExact}
    {hsem : DmaTarget.Typed .vmem (.dma (dsem 3 2 0)) (.remote (Dev.tc n : Thread nD τ) (aRows20 c) (.dma (dsem 2 2 0)) hsc)}
    {α : Type} {Q : α → sProp 𝕄} {kk : PUnit → Prog (TpuEff nD τ sig (Elt F) Λ₀ .tc) α}
    {fs : Buf (Elt F) ((aRows20 c).view.loc (c : Thread nD τ))} {fd : Buf (Elt F) ((aRows20 c).view.loc (Mesh.px 1 c : Thread nD τ))}
    (O : CellTallies nD τ sig Unit) {W : Waits sig Unit}
    (hfs : ∀ (r q : ℕ) (hr : r < 128) (hq : q < 1024), (aRows20 c).view.read (Elt F) fs (ix2 ⟨r, hr⟩ ⟨q, hq⟩) = tr (S3 m 2 (qOwn 2 c (K0 2 c + r)) (K0 2 c + r) q)) :
    iprop(Iface.records (F := F) m K
        ∗ ((aRows20 c).view.loc (c : Thread nD τ) ↦[(aRows20 c).view.set]{fullShare.right.left} fs)
        ∗ ((aRows20 c).view.loc (Mesh.px 1 c : Thread nD τ) ↦[(aRows20 c).view.set]{fullShare} fd)
        ∗ owes (c : Thread nD τ) (O + tallyAt (dcell 3 2 0 (Mesh.px 1 c)) () (namt 3 2 0)) W
        ∗ dutyTok ER (dcell 2 2 0 c) 0 0 ∗ dutyTok ER (dcell 3 2 0 (Mesh.px 1 c)) 0 0)
      ⊢ iprop(((cred (tallyAt (dcell 2 2 0 c) () (namt 2 2 0)) ∗ owes (c : Thread nD τ) O W) -∗ WP[c] (kk ⟨⟩) Q)
          -∗ WP[c] (.op (.enqueueDma (aRows20 c) (.remote (Dev.tc n : Thread nD τ) (aRows20 c) (.dma (dsem 2 2 0)) hsc) (.dma (dsem 3 2 0)) hsrc hdst hsem) kk) Q) := by
  subst hn; exact wp_ag_send20 m K c O hfs

end Addressed

/-- info: 'Cert.Kernel.Tables.wp_barwait' depends on axioms: [propext, Classical.choice, Quot.sound] -/
#guard_msgs in #print axioms wp_barwait

/-- info: 'Cert.Kernel.Tables.wp_sig1' depends on axioms: [propext, Classical.choice, Quot.sound] -/
#guard_msgs in #print axioms wp_sig1

/-- info: 'Cert.Kernel.Tables.wp_rs_send00' depends on axioms: [propext, Classical.choice, Quot.sound] -/
#guard_msgs in #print axioms wp_rs_send00

/-- info: 'Cert.Kernel.Tables.wp_ag_send00' depends on axioms: [propext, Classical.choice, Quot.sound] -/
#guard_msgs in #print axioms wp_ag_send00

/-- info: 'Cert.Kernel.Tables.wp_dwait' depends on axioms: [propext, Classical.choice, Quot.sound] -/
#guard_msgs in #print axioms wp_dwait

/-- info: 'Cert.Kernel.Tables.close_used' depends on axioms: [propext, Classical.choice, Quot.sound] -/
#guard_msgs in #print axioms close_used

/-- info: 'Cert.Kernel.Tables.wp_rs_send22_at' depends on axioms: [propext, Classical.choice, Quot.sound] -/
#guard_msgs in #print axioms wp_rs_send22_at

end Cert.Kernel.Tables

end
-- ==== Proof.KMem.lean ====
/-
  Buffers, regions and rows. The three scratch buffers of a device are cut into the regions the protocol lends and
  returns: the send and the receive buffer into their nine slots (one per butterfly and stage) and a rest; the gather
  buffer, per butterfly, into the device's own quarter, its stage-1 partner's quarter and the other half. Stores, loads
  and landings are read row by row: a store of h whole rows at row o changes exactly the rows [o, o + h); a slot, seen
  through its slice with the unit axis dropped, reads plane b of the buffer at the slot's rows. The value steps of the
  body (narrow for the wire, widen and add, widen) are read element by element.
-/
import proofs.«900524_g7700000000000525_dist_gated_mlp_tp_i_m1024_h2048_d1024_v7x_i8_f32_1_alg».proof.Proof.KSched
import Idealize.ShloMosaic.Lib.ValueLayout
import Idealize.ShloMosaic.Lib.Pipeline.Value
import Idealize.ShloMosaic.Rules.PointsTo

noncomputable section

namespace Cert.Kernel.Mem

open Cert.Kernel Cert.Kernel.Gen Cert.Kernel.Sched

open Idealize.ShloMosaic
open Idealize.ShloMosaic.TcCoe
open Idealize.ShloMosaic.ValueIdx
open Idealize.SL Idealize.SL.RA Idealize.SL.BI
open PCS URA
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Small laws of the two-sided entailment -/

theorem bi_refl (P : sProp 𝕄) : P ⊣⊢ P := ⟨Entails.rfl, Entails.rfl⟩
theorem bi_trans {P Q R : sProp 𝕄} (h1 : P ⊣⊢ Q) (h2 : Q ⊣⊢ R) : P ⊣⊢ R := ⟨h1.1.trans h2.1, h2.2.trans h1.2⟩
theorem bi_sep {P P' Q Q' : sProp 𝕄} (h1 : P ⊣⊢ P') (h2 : Q ⊣⊢ Q') : iprop(P ∗ Q) ⊣⊢ iprop(P' ∗ Q') :=
  ⟨BI.sep_mono h1.1 h2.1, BI.sep_mono h1.2 h2.2⟩

/-- Putting a first set in front of a union already cut. -/
theorem pt_cons {ℓ : Loc nD τ sig} {q : PosShare TreeShare} {f : Buf (Elt F) ℓ} {A B : Finset (Idx ℓ)} (hd : Disjoint A B)
    {P : sProp 𝕄} (hB : ((ℓ ↦[B]{q} f) : sProp 𝕄) ⊣⊢ P) :
    ((ℓ ↦[A ∪ B]{q} f) : sProp 𝕄) ⊣⊢ iprop((ℓ ↦[A]{q} f) ∗ P) :=
  bi_trans (pointsTo_union hd) (bi_sep (bi_refl _) hB)

theorem pt_ex {ℓ : Loc nD τ sig} {q : PosShare TreeShare} {A : Finset (Idx ℓ)} (f : Buf (Elt F) ℓ) :
    ((ℓ ↦[A]{q} f) : sProp 𝕄) ⊢ iprop(∃ g, ℓ ↦[A]{q} g) := by
  iintro H; iexists f; iexact H

/-- Joining a first set, at its own contents, to a union already joined at some contents. -/
theorem pt_join_ex {ℓ : Loc nD τ sig} {q : PosShare TreeShare} {A B : Finset (Idx ℓ)} (hd : Disjoint A B)
    {P : sProp 𝕄} (f : Buf (Elt F) ℓ) (hB : P ⊢ (iprop(∃ g, ℓ ↦[B]{q} g) : sProp 𝕄)) :
    iprop((ℓ ↦[A]{q} f) ∗ P) ⊢ (iprop(∃ g, ℓ ↦[A ∪ B]{q} g) : sProp 𝕄) := by
  iintro ⟨HA, HP⟩
  ihave HB := hB $$ HP
  icases HB with ⟨%g, HB⟩
  iexists (B.piecewise g f)
  iapply (pointsTo_join hd)
  isplitl [HA]
  · iexact HA
  · iexact HB

/-- Two shares of one region, at whatever contents each was recorded with, are the composed share at the first's. -/
theorem pt_share_join {ℓ : Loc nD τ sig} {I : Finset (Idx ℓ)} {q q₁ q₂ : PosShare TreeShare} (hq : q ∈ q₁ ·? q₂)
    (f f' : Buf (Elt F) ℓ) :
    iprop((ℓ ↦[I]{q₁} f) ∗ (ℓ ↦[I]{q₂} f')) ⊢ ((ℓ ↦[I]{q} f) : sProp 𝕄) :=
  Laws.pure_elim _ pointsTo_agree fun h => by
    rw [pointsTo_congr (f := f') (g := f) (fun i hi => ((h i (Finset.mem_inter.mpr ⟨hi, hi⟩)).1).symm)]
    exact (pointsTo_share hq).2

/-- The two share facts the gather's lending uses. -/
theorem share_lr : fullShare ∈ fullShare.left ·? fullShare.right := PosShare.mem_left_op_right _
theorem share_rlr : fullShare.right ∈ fullShare.right.left ·? fullShare.right.right := PosShare.mem_left_op_right _

/-! ## Value steps, element by element -/

/-- What crosses the wire, widened again. -/
theorem extf_tr (e : F .f32) : FloatOps.extf .f32 bitsLt_bf16_f32 (tr e) = wire e := rfl

/-- Narrowing a tile for the wire and giving it a leading unit axis. -/
theorem narrow1_apply {h : ℕ} (v : (⟨2, ![h, 1024]⟩ : Shape).Idx → F .f32)
    (h1 : (⟨2, ![h, 1024]⟩ : Shape).ShapeCasts ⟨2, ![h, 1024]⟩)
    (h2 : (⟨2, ![h, 1024]⟩ : Shape).ShapeCasts ⟨3, ![1, h, 1024]⟩)
    (u : Fin 1) (r : Fin h) (q : Fin 1024) :
    shapeCast ⟨3, ![1, h, 1024]⟩ (truncf .bf16 (shapeCast ⟨2, ![h, 1024]⟩ v h1) bitsLt_bf16_f32) h2 (ix3 u r q)
      = tr (v (ix2 r q)) := by
  rw [shapeCast_ab_1ab_apply, shapeCast_self]
  rfl

/-- Narrowing a tile for the gather buffer. -/
theorem narrow0_apply {h : ℕ} (v : (⟨2, ![h, 1024]⟩ : Shape).Idx → F .f32)
    (h1 : (⟨2, ![h, 1024]⟩ : Shape).ShapeCasts ⟨2, ![h, 1024]⟩)
    (h2 : (⟨2, ![h, 1024]⟩ : Shape).ShapeCasts ⟨2, ![h, 1024]⟩)
    (i : (⟨2, ![h, 1024]⟩ : Shape).Idx) :
    shapeCast ⟨2, ![h, 1024]⟩ (truncf .bf16 (shapeCast ⟨2, ![h, 1024]⟩ v h1) bitsLt_bf16_f32) h2 i
      = tr (v i) := by
  rw [shapeCast_self, shapeCast_self]
  rfl

/-- Widening what came over the wire and adding it to the own tile. -/
theorem wadd_apply {h : ℕ} (a : (⟨2, ![h, 1024]⟩ : Shape).Idx → F .f32) (w : (⟨3, ![1, h, 1024]⟩ : Shape).Idx → F .bf16)
    (h1 : (⟨2, ![h, 1024]⟩ : Shape).ShapeCasts ⟨2, ![h, 1024]⟩)
    (h2 : (⟨3, ![1, h, 1024]⟩ : Shape).ShapeCasts ⟨2, ![h, 1024]⟩)
    (r : Fin h) (q : Fin 1024) :
    addf (shapeCast ⟨2, ![h, 1024]⟩ a h1) (extf .f32 (shapeCast ⟨2, ![h, 1024]⟩ w h2) bitsLt_bf16_f32) (ix2 r q)
      = FloatOps.addf (a (ix2 r q)) (FloatOps.extf .f32 bitsLt_bf16_f32 (w (ix3 0 r q))) := by
  show FloatOps.addf (shapeCast ⟨2, ![h, 1024]⟩ a h1 (ix2 r q))
      (FloatOps.extf .f32 bitsLt_bf16_f32 (shapeCast ⟨2, ![h, 1024]⟩ w h2 (ix2 r q))) = _
  rw [shapeCast_self, shapeCast_1ab_ab_apply]

/-- the tiles narrowed into the send slots -/
theorem pay2_apply (v : Vec F S192x1024 .f32) (u : Fin 1) (r : Fin 192) (q : Fin 1024) :
    k0_pay2 v (ix3 u r q) = tr (v (ix2 r q)) := narrow1_apply v _ _ u r q
theorem pay4_apply (v : Vec F S192x1024 .f32) (u : Fin 1) (r : Fin 192) (q : Fin 1024) :
    k0_pay4 v (ix3 u r q) = tr (v (ix2 r q)) := narrow1_apply v _ _ u r q
theorem pay9_apply (v : Vec F S128x1024 .f32) (u : Fin 1) (r : Fin 128) (q : Fin 1024) :
    k0_pay9 v (ix3 u r q) = tr (v (ix2 r q)) := narrow1_apply v _ _ u r q
theorem pay19_apply (v : Vec F S96x1024 .f32) (u : Fin 1) (r : Fin 96) (q : Fin 1024) :
    k0_pay19 v (ix3 u r q) = tr (v (ix2 r q)) := narrow1_apply v _ _ u r q
theorem pay20_apply (v : Vec F S96x1024 .f32) (u : Fin 1) (r : Fin 96) (q : Fin 1024) :
    k0_pay20 v (ix3 u r q) = tr (v (ix2 r q)) := narrow1_apply v _ _ u r q
theorem pay21_apply (v : Vec F S64x1024 .f32) (u : Fin 1) (r : Fin 64) (q : Fin 1024) :
    k0_pay21 v (ix3 u r q) = tr (v (ix2 r q)) := narrow1_apply v _ _ u r q
theorem pay25_apply (v : Vec F S96x1024 .f32) (u : Fin 1) (r : Fin 96) (q : Fin 1024) :
    k0_pay25 v (ix3 u r q) = tr (v (ix2 r q)) := narrow1_apply v _ _ u r q
theorem pay26_apply (v : Vec F S96x1024 .f32) (u : Fin 1) (r : Fin 96) (q : Fin 1024) :
    k0_pay26 v (ix3 u r q) = tr (v (ix2 r q)) := narrow1_apply v _ _ u r q
theorem pay27_apply (v : Vec F S64x1024 .f32) (u : Fin 1) (r : Fin 64) (q : Fin 1024) :
    k0_pay27 v (ix3 u r q) = tr (v (ix2 r q)) := narrow1_apply v _ _ u r q

/-- the totals narrowed into the gather buffer -/
theorem pay29_apply (v : Vec F S96x1024 .f32) (i : S96x1024.Idx) : k0_pay29 v i = tr (v i) := narrow0_apply v _ _ i
theorem pay31_apply (v : Vec F S96x1024 .f32) (i : S96x1024.Idx) : k0_pay31 v i = tr (v i) := narrow0_apply v _ _ i
theorem pay33_apply (v : Vec F S64x1024 .f32) (i : S64x1024.Idx) : k0_pay33 v i = tr (v i) := narrow0_apply v _ _ i

/-- the three steps of the first addition, as the body names them -/
theorem pay14_apply (v : Vec F S192x1024 .f32) : k0_pay14 v = v := shapeCast_self v _
theorem pay15_apply (v : Vec F S1x192x1024 .bf16) (r : Fin 192) (q : Fin 1024) :
    k0_pay15 v (ix2 r q) = FloatOps.extf .f32 bitsLt_bf16_f32 (v (ix3 0 r q)) := by
  show FloatOps.extf .f32 bitsLt_bf16_f32 (shapeCast S192x1024 v shapeCasts_S1x192x1024_S192x1024 (ix2 r q)) = _
  rw [shapeCast_1ab_ab_apply]
theorem pay16_apply (a w : FVec F S192x1024 .f32) (i : S192x1024.Idx) : k0_pay16 a w i = FloatOps.addf (a i) (w i) := rfl

/-- the received slot widened and added to the own rows -/
theorem pay17_apply (a : Vec F S192x1024 .f32) (w : Vec F S1x192x1024 .bf16) (r : Fin 192) (q : Fin 1024) :
    k0_pay17 a w (ix2 r q) = FloatOps.addf (a (ix2 r q)) (FloatOps.extf .f32 bitsLt_bf16_f32 (w (ix3 0 r q))) :=
  wadd_apply a w _ _ r q
theorem pay18_apply (a : Vec F S128x1024 .f32) (w : Vec F S1x128x1024 .bf16) (r : Fin 128) (q : Fin 1024) :
    k0_pay18 a w (ix2 r q) = FloatOps.addf (a (ix2 r q)) (FloatOps.extf .f32 bitsLt_bf16_f32 (w (ix3 0 r q))) :=
  wadd_apply a w _ _ r q
theorem pay22_apply (a : Vec F S96x1024 .f32) (w : Vec F S1x96x1024 .bf16) (r : Fin 96) (q : Fin 1024) :
    k0_pay22 a w (ix2 r q) = FloatOps.addf (a (ix2 r q)) (FloatOps.extf .f32 bitsLt_bf16_f32 (w (ix3 0 r q))) :=
  wadd_apply a w _ _ r q
theorem pay23_apply (a : Vec F S96x1024 .f32) (w : Vec F S1x96x1024 .bf16) (r : Fin 96) (q : Fin 1024) :
    k0_pay23 a w (ix2 r q) = FloatOps.addf (a (ix2 r q)) (FloatOps.extf .f32 bitsLt_bf16_f32 (w (ix3 0 r q))) :=
  wadd_apply a w _ _ r q
theorem pay24_apply (a : Vec F S64x1024 .f32) (w : Vec F S1x64x1024 .bf16) (r : Fin 64) (q : Fin 1024) :
    k0_pay24 a w (ix2 r q) = FloatOps.addf (a (ix2 r q)) (FloatOps.extf .f32 bitsLt_bf16_f32 (w (ix3 0 r q))) :=
  wadd_apply a w _ _ r q
theorem pay28_apply (a : Vec F S96x1024 .f32) (w : Vec F S1x96x1024 .bf16) (r : Fin 96) (q : Fin 1024) :
    k0_pay28 a w (ix2 r q) = FloatOps.addf (a (ix2 r q)) (FloatOps.extf .f32 bitsLt_bf16_f32 (w (ix3 0 r q))) :=
  wadd_apply a w _ _ r q
theorem pay30_apply (a : Vec F S96x1024 .f32) (w : Vec F S1x96x1024 .bf16) (r : Fin 96) (q : Fin 1024) :
    k0_pay30 a w (ix2 r q) = FloatOps.addf (a (ix2 r q)) (FloatOps.extf .f32 bitsLt_bf16_f32 (w (ix3 0 r q))) :=
  wadd_apply a w _ _ r q
theorem pay32_apply (a : Vec F S64x1024 .f32) (w : Vec F S1x64x1024 .bf16) (r : Fin 64) (q : Fin 1024) :
    k0_pay32 a w (ix2 r q) = FloatOps.addf (a (ix2 r q)) (FloatOps.extf .f32 bitsLt_bf16_f32 (w (ix3 0 r q))) :=
  wadd_apply a w _ _ r q

/-- the gathered rows widened -/
theorem pay34_apply (v : Vec F S192x1024 .bf16) (i : S192x1024.Idx) : k0_pay34 v i = FloatOps.extf .f32 bitsLt_bf16_f32 (v i) := rfl
theorem pay35_apply (v : Vec F S192x1024 .bf16) (i : S192x1024.Idx) : k0_pay35 v i = FloatOps.extf .f32 bitsLt_bf16_f32 (v i) := rfl
theorem pay36_apply (v : Vec F S128x1024 .bf16) (i : S128x1024.Idx) : k0_pay36 v i = FloatOps.extf .f32 bitsLt_bf16_f32 (v i) := rfl
theorem pay37_apply (v : Vec F S192x1024 .bf16) (i : S192x1024.Idx) : k0_pay37 v i = FloatOps.extf .f32 bitsLt_bf16_f32 (v i) := rfl
theorem pay38_apply (v : Vec F S192x1024 .bf16) (i : S192x1024.Idx) : k0_pay38 v i = FloatOps.extf .f32 bitsLt_bf16_f32 (v i) := rfl
theorem pay39_apply (v : Vec F S128x1024 .bf16) (i : S128x1024.Idx) : k0_pay39 v i = FloatOps.extf .f32 bitsLt_bf16_f32 (v i) := rfl

/-! ## Rows of the two [1024, 1024] buffers -/

/-- Where a unit-stride block of whole rows puts its element (r, q): at row o 0 + r, column q. -/
theorem unit2_emb {h : ℕ} (o : Fin 2 → ℕ) (inb : ∀ a, o a + (![h, 1024] : Fin 2 → ℕ) a ≤ S1024x1024.size a) (ho : o 1 = 0)
    (r q : ℕ) (hr : r < h) (hq : q < 1024) :
    (Rect.unit (s := S1024x1024) o ![h, 1024] inb).emb (ix2 ⟨r, hr⟩ ⟨q, hq⟩)
      = ix2 ⟨(o 0 + r) % 1024, Nat.mod_lt _ (by decide)⟩ ⟨q % 1024, Nat.mod_lt _ (by decide)⟩ := by
  have h0 : o 0 + h ≤ 1024 := inb 0
  funext a
  refine Fin.ext ?_
  match a with
  | ⟨0, _⟩ =>
    show o 0 + 1 * r = (o 0 + r) % 1024
    rw [Nat.mod_eq_of_lt (by omega)]; omega
  | ⟨1, _⟩ =>
    show o 1 + 1 * q = q % 1024
    rw [Nat.mod_eq_of_lt hq, ho]; omega

/-- A store of h whole rows at row o 0 into the result buffer: the rows written hold the payload, -/
theorem oAt_store {h : ℕ} (o : Fin 2 → ℕ) (inb : ∀ a, o a + (![h, 1024] : Fin 2 → ℕ) a ≤ S1024x1024.size a) (ho : o 1 = 0)
    (f : (cc0_stg4_0 : Ref sig .tc).ty.Contents (Elt F)) (v : (⟨2, ![h, 1024]⟩ : Shape).Idx → F .f32)
    (r q : ℕ) (hr : r < h) (hq : q < 1024) :
    oAt ((oM.access (Rect.unit (s := S1024x1024) o ![h, 1024] inb)).write (Elt F) f v Finset.univ) (o 0 + r) q
      = v (ix2 ⟨r, hr⟩ ⟨q, hq⟩) := by
  unfold oAt
  rw [← unit2_emb o inb ho r q hr hq]
  exact View.write_emb_of_mem (v := oM.access (Rect.unit (s := S1024x1024) o ![h, 1024] inb)) f v (Finset.mem_univ _)

/-- every other row what it held, -/
theorem oAt_store_miss {h : ℕ} (o : Fin 2 → ℕ) (inb : ∀ a, o a + (![h, 1024] : Fin 2 → ℕ) a ≤ S1024x1024.size a)
    (f : (cc0_stg4_0 : Ref sig .tc).ty.Contents (Elt F)) (v : (⟨2, ![h, 1024]⟩ : Shape).Idx → F .f32)
    (row q : ℕ) (hrow : row < 1024) (hmiss : row < o 0 ∨ o 0 + h ≤ row) :
    oAt ((oM.access (Rect.unit (s := S1024x1024) o ![h, 1024] inb)).write (Elt F) f v Finset.univ) row q
      = oAt f row q := by
  unfold oAt
  refine View.write_of_not_mem (v := oM.access (Rect.unit (s := S1024x1024) o ![h, 1024] inb)) (Val := Elt F) f v Finset.univ ?_
  rw [View.setOn_univ, View.set_slice_whole, Rect.mem_set_unit]
  intro hm
  have h0 : o 0 ≤ row % 1024 ∧ row % 1024 < o 0 + h := hm (0 : Fin 2)
  rw [Nat.mod_eq_of_lt hrow] at h0
  omega

/-- and a load of those rows reads them. -/
theorem oAt_load {h : ℕ} (o : Fin 2 → ℕ) (inb : ∀ a, o a + (![h, 1024] : Fin 2 → ℕ) a ≤ S1024x1024.size a) (ho : o 1 = 0)
    (f : (cc0_stg4_0 : Ref sig .tc).ty.Contents (Elt F)) (r q : ℕ) (hr : r < h) (hq : q < 1024) :
    (oM.view.readAt (Elt F) (Rect.unit (s := S1024x1024) o ![h, 1024] inb).toLoadRect f) (ix2 ⟨r, hr⟩ ⟨q, hq⟩)
      = oAt f (o 0 + r) q := by
  unfold oAt
  rw [← unit2_emb o inb ho r q hr hq]
  rfl

/-- The same three facts for the gather buffer. -/
theorem aAt_store {h : ℕ} (o : Fin 2 → ℕ) (inb : ∀ a, o a + (![h, 1024] : Fin 2 → ℕ) a ≤ S1024x1024.size a) (ho : o 1 = 0)
    (f : (cc0_scratch2 : Ref sig .tc).ty.Contents (Elt F)) (v : (⟨2, ![h, 1024]⟩ : Shape).Idx → F .bf16)
    (r q : ℕ) (hr : r < h) (hq : q < 1024) :
    aAt ((aM.access (Rect.unit (s := S1024x1024) o ![h, 1024] inb)).write (Elt F) f v Finset.univ) (o 0 + r) q
      = v (ix2 ⟨r, hr⟩ ⟨q, hq⟩) := by
  unfold aAt
  rw [← unit2_emb o inb ho r q hr hq]
  exact View.write_emb_of_mem (v := aM.access (Rect.unit (s := S1024x1024) o ![h, 1024] inb)) f v (Finset.mem_univ _)

theorem aAt_store_miss {h : ℕ} (o : Fin 2 → ℕ) (inb : ∀ a, o a + (![h, 1024] : Fin 2 → ℕ) a ≤ S1024x1024.size a)
    (f : (cc0_scratch2 : Ref sig .tc).ty.Contents (Elt F)) (v : (⟨2, ![h, 1024]⟩ : Shape).Idx → F .bf16)
    (row q : ℕ) (hrow : row < 1024) (hmiss : row < o 0 ∨ o 0 + h ≤ row) :
    aAt ((aM.access (Rect.unit (s := S1024x1024) o ![h, 1024] inb)).write (Elt F) f v Finset.univ) row q
      = aAt f row q := by
  unfold aAt
  refine View.write_of_not_mem (v := aM.access (Rect.unit (s := S1024x1024) o ![h, 1024] inb)) (Val := Elt F) f v Finset.univ ?_
  rw [View.setOn_univ, View.set_slice_whole, Rect.mem_set_unit]
  intro hm
  have h0 : o 0 ≤ row % 1024 ∧ row % 1024 < o 0 + h := hm (0 : Fin 2)
  rw [Nat.mod_eq_of_lt hrow] at h0
  omega

theorem aAt_load {h : ℕ} (o : Fin 2 → ℕ) (inb : ∀ a, o a + (![h, 1024] : Fin 2 → ℕ) a ≤ S1024x1024.size a) (ho : o 1 = 0)
    (f : (cc0_scratch2 : Ref sig .tc).ty.Contents (Elt F)) (r q : ℕ) (hr : r < h) (hq : q < 1024) :
    (aM.view.readAt (Elt F) (Rect.unit (s := S1024x1024) o ![h, 1024] inb).toLoadRect f) (ix2 ⟨r, hr⟩ ⟨q, hq⟩)
      = aAt f (o 0 + r) q := by
  unfold aAt
  rw [← unit2_emb o inb ho r q hr hq]
  rfl

/-- A slice of the gather buffer read as a view (the source of a gathered block). -/
theorem aAt_read {h : ℕ} (o : Fin 2 → ℕ) (inb : ∀ a, o a + (![h, 1024] : Fin 2 → ℕ) a ≤ S1024x1024.size a) (ho : o 1 = 0)
    (f : (cc0_scratch2 : Ref sig .tc).ty.Contents (Elt F)) (r q : ℕ) (hr : r < h) (hq : q < 1024) :
    (aM.access (Rect.unit (s := S1024x1024) o ![h, 1024] inb)).read (Elt F) f (ix2 ⟨r, hr⟩ ⟨q, hq⟩)
      = aAt f (o 0 + r) q := aAt_load o inb ho f r q hr hq

/-- A gathered block as it lands: the destination rows hold what the source rows held. -/
theorem aAt_landing {h : ℕ} (o : Fin 2 → ℕ) (inb : ∀ a, o a + (![h, 1024] : Fin 2 → ℕ) a ≤ S1024x1024.size a) (ho : o 1 = 0)
    (fd fs : (cc0_scratch2 : Ref sig .tc).ty.Contents (Elt F)) (r q : ℕ) (hr : r < h) (hq : q < 1024) :
    aAt ((aM.access (Rect.unit (s := S1024x1024) o ![h, 1024] inb)).write (Elt F) fd
        ((aM.access (Rect.unit (s := S1024x1024) o ![h, 1024] inb)).read (Elt F) fs) Finset.univ) (o 0 + r) q
      = aAt fs (o 0 + r) q := by
  rw [aAt_store o inb ho fd _ r q hr hq, aAt_read o inb ho fs r q hr hq]

/-! ## Rows of the send and receive buffers -/

/-- The send buffer read by natural coordinates, as the receive buffer is. -/
def sAt (f : (cc0_scratch0 : Ref sig .tc).ty.Contents (Elt F)) (b r q : ℕ) : F .bf16 :=
  f (ix3 ⟨b % 3, Nat.mod_lt _ (by decide)⟩ ⟨r % 384, Nat.mod_lt _ (by decide)⟩ ⟨q % 1024, Nat.mod_lt _ (by decide)⟩)

/-- Where a block of h whole rows of plane b, from row soff, puts its element (0, r, q). -/
theorem unit3_emb {b soff h : ℕ}
    (inb : ∀ a, (![b, soff, 0] : Fin 3 → ℕ) a + (![1, h, 1024] : Fin 3 → ℕ) a ≤ S3x384x1024.size a)
    (u : Fin 1) (r q : ℕ) (hr : r < h) (hq : q < 1024) :
    (Rect.unit (s := S3x384x1024) ![b, soff, 0] ![1, h, 1024] inb).emb (ix3 u ⟨r, hr⟩ ⟨q, hq⟩)
      = ix3 ⟨b % 3, Nat.mod_lt _ (by decide)⟩ ⟨(soff + r) % 384, Nat.mod_lt _ (by decide)⟩ ⟨q % 1024, Nat.mod_lt _ (by decide)⟩ := by
  have h0 : b + 1 ≤ 3 := inb 0
  have h1 : soff + h ≤ 384 := inb 1
  have hu : u.val = 0 := by omega
  funext a
  refine Fin.ext ?_
  match a with
  | ⟨0, _⟩ =>
    show b + 1 * u.val = b % 3
    rw [Nat.mod_eq_of_lt (by omega), hu]; omega
  | ⟨1, _⟩ =>
    show soff + 1 * r = (soff + r) % 384
    rw [Nat.mod_eq_of_lt (by omega)]; omega
  | ⟨2, _⟩ =>
    show 0 + 1 * q = q % 1024
    rw [Nat.mod_eq_of_lt hq]; omega

/-- A load of a slot's rows from the receive buffer reads them. -/
theorem rAt_load {b soff h : ℕ}
    (inb : ∀ a, (![b, soff, 0] : Fin 3 → ℕ) a + (![1, h, 1024] : Fin 3 → ℕ) a ≤ S3x384x1024.size a)
    (f : (cc0_scratch1 : Ref sig .tc).ty.Contents (Elt F)) (u : Fin 1) (r q : ℕ) (hr : r < h) (hq : q < 1024) :
    (rM.view.readAt (Elt F) (Rect.unit (s := S3x384x1024) ![b, soff, 0] ![1, h, 1024] inb).toLoadRect f) (ix3 u ⟨r, hr⟩ ⟨q, hq⟩)
      = rAt f b (soff + r) q := by
  unfold rAt
  rw [← unit3_emb inb u r q hr hq]
  rfl

/-- A store of a slot's rows into the send buffer: the rows hold the payload. -/
theorem sAt_store {b soff h : ℕ}
    (inb : ∀ a, (![b, soff, 0] : Fin 3 → ℕ) a + (![1, h, 1024] : Fin 3 → ℕ) a ≤ S3x384x1024.size a)
    (f : (cc0_scratch0 : Ref sig .tc).ty.Contents (Elt F)) (v : (⟨3, ![1, h, 1024]⟩ : Shape).Idx → F .bf16)
    (r q : ℕ) (hr : r < h) (hq : q < 1024) :
    sAt ((sM.access (Rect.unit (s := S3x384x1024) ![b, soff, 0] ![1, h, 1024] inb)).write (Elt F) f v Finset.univ) b (soff + r) q
      = v (ix3 0 ⟨r, hr⟩ ⟨q, hq⟩) := by
  unfold sAt
  rw [← unit3_emb inb 0 r q hr hq]
  exact View.write_emb_of_mem (v := sM.access (Rect.unit (s := S3x384x1024) ![b, soff, 0] ![1, h, 1024] inb)) f v (Finset.mem_univ _)

/-- A send slot as the copy's source reads the send buffer's rows, -/
theorem sSlot_read {b soff h : ℕ}
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩)
    (f : (cc0_scratch0 : Ref sig .tc).ty.Contents (Elt F)) (r q : ℕ) (hr : r < h) (hq : q < 1024) :
    ((sM.slice (Rect.unit (s := S3x384x1024) ![b, soff, 0] ![1, h, 1024] inb) (fun _ => rfl)).squeeze ⟨2, ![h, 1024]⟩ hsq).view.read (Elt F) f
        (ix2 ⟨r, hr⟩ ⟨q, hq⟩) = sAt f b (soff + r) q := by
  unfold sAt
  rw [← unit3_emb inb ⟨0, Nat.one_pos⟩ r q hr hq, ← reshapeEquiv_ix2_1ab hsq.numel_eq]
  rfl

/-- and a receive slot as its destination holds what lands. -/
theorem rSlot_write {b soff h : ℕ}
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩)
    (f : (cc0_scratch1 : Ref sig .tc).ty.Contents (Elt F)) (w : (⟨2, ![h, 1024]⟩ : Shape).Idx → F .bf16)
    (r q : ℕ) (hr : r < h) (hq : q < 1024) :
    rAt (((rM.slice (Rect.unit (s := S3x384x1024) ![b, soff, 0] ![1, h, 1024] inb) (fun _ => rfl)).squeeze ⟨2, ![h, 1024]⟩ hsq).view.write (Elt F) f w
        Finset.univ) b (soff + r) q = w (ix2 ⟨r, hr⟩ ⟨q, hq⟩) := by
  unfold rAt
  rw [← unit3_emb inb ⟨0, Nat.one_pos⟩ r q hr hq, ← reshapeEquiv_ix2_1ab hsq.numel_eq]
  exact View.write_emb_of_mem
    (v := ((rM.slice (Rect.unit (s := S3x384x1024) ![b, soff, 0] ![1, h, 1024] inb) (fun _ => rfl)).squeeze ⟨2, ![h, 1024]⟩ hsq).view)
    f w (Finset.mem_univ _)

theorem rSlot_read {b soff h : ℕ}
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩)
    (f : (cc0_scratch1 : Ref sig .tc).ty.Contents (Elt F)) (r q : ℕ) (hr : r < h) (hq : q < 1024) :
    ((rM.slice (Rect.unit (s := S3x384x1024) ![b, soff, 0] ![1, h, 1024] inb) (fun _ => rfl)).squeeze ⟨2, ![h, 1024]⟩ hsq).view.read (Elt F) f
        (ix2 ⟨r, hr⟩ ⟨q, hq⟩) = rAt f b (soff + r) q := by
  unfold rAt
  rw [← unit3_emb inb ⟨0, Nat.one_pos⟩ r q hr hq, ← reshapeEquiv_ix2_1ab hsq.numel_eq]
  rfl

/-- A block as it lands in a receive slot: the slot's rows hold what the sender's slot held. -/
theorem slot_landing {b soff h : ℕ}
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩)
    (fd : (cc0_scratch1 : Ref sig .tc).ty.Contents (Elt F)) (fs : (cc0_scratch0 : Ref sig .tc).ty.Contents (Elt F))
    (r q : ℕ) (hr : r < h) (hq : q < 1024) :
    rAt (((rM.slice (Rect.unit (s := S3x384x1024) ![b, soff, 0] ![1, h, 1024] inb) (fun _ => rfl)).squeeze ⟨2, ![h, 1024]⟩ hsq).view.write (Elt F) fd
        (((sM.slice (Rect.unit (s := S3x384x1024) ![b, soff, 0] ![1, h, 1024] inb) (fun _ => rfl)).squeeze ⟨2, ![h, 1024]⟩ hsq).view.read (Elt F) fs)
        Finset.univ) b (soff + r) q = sAt fs b (soff + r) q := by
  rw [rSlot_write inb hsq fd _ r q hr hq, sSlot_read inb hsq fs r q hr hq]

/-- The nine landings, slot by slot. -/
theorem landing00 (fd : (cc0_scratch1 : Ref sig .tc).ty.Contents (Elt F)) (fs : (cc0_scratch0 : Ref sig .tc).ty.Contents (Elt F))
    (r q : ℕ) (hr : r < 192) (hq : q < 1024) :
    rAt (rSlot00.view.write (Elt F) fd (sSlot00.view.read (Elt F) fs) Finset.univ) 0 (0 + r) q = sAt fs 0 (0 + r) q :=
  slot_landing _ _ fd fs r q hr hq
theorem landing10 (fd : (cc0_scratch1 : Ref sig .tc).ty.Contents (Elt F)) (fs : (cc0_scratch0 : Ref sig .tc).ty.Contents (Elt F))
    (r q : ℕ) (hr : r < 192) (hq : q < 1024) :
    rAt (rSlot10.view.write (Elt F) fd (sSlot10.view.read (Elt F) fs) Finset.univ) 1 (0 + r) q = sAt fs 1 (0 + r) q :=
  slot_landing _ _ fd fs r q hr hq
theorem landing20 (fd : (cc0_scratch1 : Ref sig .tc).ty.Contents (Elt F)) (fs : (cc0_scratch0 : Ref sig .tc).ty.Contents (Elt F))
    (r q : ℕ) (hr : r < 128) (hq : q < 1024) :
    rAt (rSlot20.view.write (Elt F) fd (sSlot20.view.read (Elt F) fs) Finset.univ) 2 (0 + r) q = sAt fs 2 (0 + r) q :=
  slot_landing _ _ fd fs r q hr hq
theorem landing01 (fd : (cc0_scratch1 : Ref sig .tc).ty.Contents (Elt F)) (fs : (cc0_scratch0 : Ref sig .tc).ty.Contents (Elt F))
    (r q : ℕ) (hr : r < 96) (hq : q < 1024) :
    rAt (rSlot01.view.write (Elt F) fd (sSlot01.view.read (Elt F) fs) Finset.univ) 0 (192 + r) q = sAt fs 0 (192 + r) q :=
  slot_landing _ _ fd fs r q hr hq
theorem landing11 (fd : (cc0_scratch1 : Ref sig .tc).ty.Contents (Elt F)) (fs : (cc0_scratch0 : Ref sig .tc).ty.Contents (Elt F))
    (r q : ℕ) (hr : r < 96) (hq : q < 1024) :
    rAt (rSlot11.view.write (Elt F) fd (sSlot11.view.read (Elt F) fs) Finset.univ) 1 (192 + r) q = sAt fs 1 (192 + r) q :=
  slot_landing _ _ fd fs r q hr hq
theorem landing21 (fd : (cc0_scratch1 : Ref sig .tc).ty.Contents (Elt F)) (fs : (cc0_scratch0 : Ref sig .tc).ty.Contents (Elt F))
    (r q : ℕ) (hr : r < 64) (hq : q < 1024) :
    rAt (rSlot21.view.write (Elt F) fd (sSlot21.view.read (Elt F) fs) Finset.univ) 2 (128 + r) q = sAt fs 2 (128 + r) q :=
  slot_landing _ _ fd fs r q hr hq
theorem landing02 (fd : (cc0_scratch1 : Ref sig .tc).ty.Contents (Elt F)) (fs : (cc0_scratch0 : Ref sig .tc).ty.Contents (Elt F))
    (r q : ℕ) (hr : r < 96) (hq : q < 1024) :
    rAt (rSlot02.view.write (Elt F) fd (sSlot02.view.read (Elt F) fs) Finset.univ) 0 (288 + r) q = sAt fs 0 (288 + r) q :=
  slot_landing _ _ fd fs r q hr hq
theorem landing12 (fd : (cc0_scratch1 : Ref sig .tc).ty.Contents (Elt F)) (fs : (cc0_scratch0 : Ref sig .tc).ty.Contents (Elt F))
    (r q : ℕ) (hr : r < 96) (hq : q < 1024) :
    rAt (rSlot12.view.write (Elt F) fd (sSlot12.view.read (Elt F) fs) Finset.univ) 1 (288 + r) q = sAt fs 1 (288 + r) q :=
  slot_landing _ _ fd fs r q hr hq
theorem landing22 (fd : (cc0_scratch1 : Ref sig .tc).ty.Contents (Elt F)) (fs : (cc0_scratch0 : Ref sig .tc).ty.Contents (Elt F))
    (r q : ℕ) (hr : r < 64) (hq : q < 1024) :
    rAt (rSlot22.view.write (Elt F) fd (sSlot22.view.read (Elt F) fs) Finset.univ) 2 (192 + r) q = sAt fs 2 (192 + r) q :=
  slot_landing _ _ fd fs r q hr hq

/-! ## Regions of the gather buffer -/

/-- The elements of a [1024, 1024] buffer in rows [o, o + h). -/
def aSet (o h : ℕ) : Finset S1024x1024.Idx := Finset.univ.filter fun i => o ≤ (i 0).val ∧ (i 0).val < o + h

theorem mem_aSet {o h : ℕ} {i : S1024x1024.Idx} : i ∈ aSet o h ↔ o ≤ (i 0).val ∧ (i 0).val < o + h := by
  simp only [aSet, Finset.mem_filter, Finset.mem_univ, true_and]

theorem unit2_set {h : ℕ} (o : Fin 2 → ℕ) (inb : ∀ a, o a + (![h, 1024] : Fin 2 → ℕ) a ≤ S1024x1024.size a) (ho : o 1 = 0) :
    (Rect.unit (s := S1024x1024) o ![h, 1024] inb).set = aSet (o 0) h := by
  ext i
  rw [Rect.mem_set_unit, mem_aSet]
  constructor
  · intro hm; exact hm 0
  · intro hm a
    match a with
    | ⟨0, _⟩ => exact hm
    | ⟨1, _⟩ =>
      show o 1 ≤ (i 1).val ∧ (i 1).val < o 1 + 1024
      rw [ho]; exact ⟨Nat.zero_le _, by have := idx2_lt1 i; omega⟩

theorem aSet_disjoint {o h o' h' : ℕ} (hd : o + h ≤ o' ∨ o' + h' ≤ o) : Disjoint (aSet o h) (aSet o' h') := by
  rw [Finset.disjoint_left]; intro i h1 h2; rw [mem_aSet] at h1 h2; omega

theorem aSet_univ : aSet 0 1024 = Finset.univ := by
  ext i; rw [mem_aSet]; simp only [Finset.mem_univ, iff_true]; exact ⟨Nat.zero_le _, by have := idx2_lt0 i; omega⟩

theorem aSet_half (Hh Qh H Q P : ℕ) (hh : Hh = Qh + Qh) (hQ : (Q = H ∧ P = H + Qh) ∨ (Q = H + Qh ∧ P = H)) :
    aSet H Hh = aSet Q Qh ∪ aSet P Qh := by
  ext i; simp only [Finset.mem_union, mem_aSet]; omega

/-- The element of row `row`, column `q` lies in a row range that holds the row. -/
theorem idx_mem_aSet {o h row q : ℕ} (h1 : o ≤ row) (h2 : row < o + h) (hb : o + h ≤ 1024) :
    (ix2 (⟨row % 1024, Nat.mod_lt _ (by decide)⟩ : Fin 1024) (⟨q % 1024, Nat.mod_lt _ (by decide)⟩ : Fin 1024)) ∈ aSet o h := by
  rw [mem_aSet]
  show o ≤ row % 1024 ∧ row % 1024 < o + h
  rw [Nat.mod_eq_of_lt (by omega)]; exact ⟨h1, h2⟩

theorem idx_not_mem_aSet {o h row q : ℕ} (hrow : row < 1024) (hm : row < o ∨ o + h ≤ row) :
    (ix2 (⟨row % 1024, Nat.mod_lt _ (by decide)⟩ : Fin 1024) (⟨q % 1024, Nat.mod_lt _ (by decide)⟩ : Fin 1024)) ∉ aSet o h := by
  rw [mem_aSet]
  show ¬ (o ≤ row % 1024 ∧ row % 1024 < o + h)
  rw [Nat.mod_eq_of_lt hrow]; omega

/-- The first row of the quarter device d keeps in butterfly b, and of the half it keeps, as the gather's slices name them. -/
abbrev qRow (b : Fin 3) (d : Dev nD) : ℕ :=
  match b with
  | 0 => (k0_off5 d 0#32 3#32 1#32) 0 | 1 => (k0_off5 d 384#32 4#32 3#32) 0 | 2 => (k0_off6 d) 0
abbrev hRow (b : Fin 3) (d : Dev nD) : ℕ :=
  match b with
  | 0 => (k0_off7 d 0#32 3#32 1#32) 0 | 1 => (k0_off7 d 384#32 4#32 3#32) 0 | 2 => (k0_off8 d) 0

theorem qRow_eq_K1 (b : Fin 3) (d : Dev nD) : qRow b d = K1 b d := by
  match b with
  | 0 => exact congrFun (Rows.ag1_own_b0 d) 0
  | 1 => exact congrFun (Rows.ag1_own_b1 d) 0
  | 2 => exact congrFun (Rows.ag1_own_b2 d) 0
theorem hRow_eq_K0 (b : Fin 3) (d : Dev nD) : hRow b d = K0 b d := by
  match b with
  | 0 => exact congrFun (Rows.ag0_own_b0 d) 0
  | 1 => exact congrFun (Rows.ag0_own_b1 d) 0
  | 2 => exact congrFun (Rows.ag0_own_b2 d) 0

/-- Per butterfly: the own half and the other half are the two halves of the range, the own quarter and the
    partner's quarter the two halves of the own half. -/
theorem rows_all (c : Dev nD) :
    ((hRow 0 c = 0 ∧ hRow 0 (Mesh.px 3 c) = 192) ∨ (hRow 0 c = 192 ∧ hRow 0 (Mesh.px 3 c) = 0))
    ∧ ((qRow 0 c = hRow 0 c ∧ qRow 0 (Mesh.px 1 c) = hRow 0 c + 96) ∨ (qRow 0 c = hRow 0 c + 96 ∧ qRow 0 (Mesh.px 1 c) = hRow 0 c))
    ∧ ((hRow 1 c = 384 ∧ hRow 1 (Mesh.px 4 c) = 576) ∨ (hRow 1 c = 576 ∧ hRow 1 (Mesh.px 4 c) = 384))
    ∧ ((qRow 1 c = hRow 1 c ∧ qRow 1 (Mesh.px 3 c) = hRow 1 c + 96) ∨ (qRow 1 c = hRow 1 c + 96 ∧ qRow 1 (Mesh.px 3 c) = hRow 1 c))
    ∧ ((hRow 2 c = 768 ∧ hRow 2 (Mesh.px 1 c) = 896) ∨ (hRow 2 c = 896 ∧ hRow 2 (Mesh.px 1 c) = 768))
    ∧ ((qRow 2 c = hRow 2 c ∧ qRow 2 (Mesh.px 4 c) = hRow 2 c + 64) ∨ (qRow 2 c = hRow 2 c + 64 ∧ qRow 2 (Mesh.px 4 c) = hRow 2 c)) := by
  revert c; decide +kernel

theorem aRows01_set (d : Dev nD) : (aRows01 d).view.set = aSet (qRow 0 d) 96 := by
  simp only [Memref.view_slice, Memref.view_whole, View.set_slice_whole]
  exact unit2_set _ _ (by rw [Mesh.off5_a]; rfl)
theorem aRows11_set (d : Dev nD) : (aRows11 d).view.set = aSet (qRow 1 d) 96 := by
  simp only [Memref.view_slice, Memref.view_whole, View.set_slice_whole]
  exact unit2_set _ _ (by rw [Mesh.off5_b]; rfl)
theorem aRows21_set (d : Dev nD) : (aRows21 d).view.set = aSet (qRow 2 d) 64 := by
  simp only [Memref.view_slice, Memref.view_whole, View.set_slice_whole]
  exact unit2_set _ _ (by rw [Mesh.off6]; rfl)
theorem aRows00_set (d : Dev nD) : (aRows00 d).view.set = aSet (hRow 0 d) 192 := by
  simp only [Memref.view_slice, Memref.view_whole, View.set_slice_whole]
  exact unit2_set _ _ (by rw [Mesh.off7_a]; rfl)
theorem aRows10_set (d : Dev nD) : (aRows10 d).view.set = aSet (hRow 1 d) 192 := by
  simp only [Memref.view_slice, Memref.view_whole, View.set_slice_whole]
  exact unit2_set _ _ (by rw [Mesh.off7_b]; rfl)
theorem aRows20_set (d : Dev nD) : (aRows20 d).view.set = aSet (hRow 2 d) 128 := by
  simp only [Memref.view_slice, Memref.view_whole, View.set_slice_whole]
  exact unit2_set _ _ (by rw [Mesh.off8]; rfl)

/-- Row ranges named by their first rows are disjoint when the arithmetic in the context says so. -/
local macro "adisj" : tactic =>
  `(tactic| (rw [Finset.disjoint_left]; intro i h1 h2; simp only [Finset.mem_union, mem_aSet] at h1 h2; omega))

/-- The nine regions of the gather buffer, as they tile it. -/
theorem aSet_tiling (c : Dev nD) :
    aSet 0 1024 = aSet (qRow 0 c) 96 ∪ (aSet (qRow 1 c) 96 ∪ (aSet (qRow 2 c) 64 ∪ (aSet (qRow 0 (Mesh.px 1 c)) 96
      ∪ (aSet (qRow 1 (Mesh.px 3 c)) 96 ∪ (aSet (qRow 2 (Mesh.px 4 c)) 64 ∪ (aSet (hRow 0 (Mesh.px 3 c)) 192
      ∪ (aSet (hRow 1 (Mesh.px 4 c)) 192 ∪ aSet (hRow 2 (Mesh.px 1 c)) 128))))))) := by
  obtain ⟨hH0, hQ0, hH1, hQ1, hH2, hQ2⟩ := rows_all c
  ext i; simp only [Finset.mem_union, mem_aSet]; have := idx2_lt0 i; omega

/-- The whole gather buffer is its nine regions: per butterfly the own quarter, the partner's quarter, the other half. -/
theorem abuf_split (c : Dev nD) (q : PosShare TreeShare) (f : Buf (Elt F) ((c : Thread nD τ).loc cc0_scratch2)) :
    ((((c : Thread nD τ).loc cc0_scratch2) ↦{q} f) : sProp 𝕄) ⊣⊢
      iprop(((aRows01 c).view.loc (c : Thread nD τ) ↦[(aRows01 c).view.set]{q} f)
        ∗ ((aRows11 c).view.loc (c : Thread nD τ) ↦[(aRows11 c).view.set]{q} f)
        ∗ ((aRows21 c).view.loc (c : Thread nD τ) ↦[(aRows21 c).view.set]{q} f)
        ∗ ((aRows01 (Mesh.px 1 c)).view.loc (c : Thread nD τ) ↦[(aRows01 (Mesh.px 1 c)).view.set]{q} f)
        ∗ ((aRows11 (Mesh.px 3 c)).view.loc (c : Thread nD τ) ↦[(aRows11 (Mesh.px 3 c)).view.set]{q} f)
        ∗ ((aRows21 (Mesh.px 4 c)).view.loc (c : Thread nD τ) ↦[(aRows21 (Mesh.px 4 c)).view.set]{q} f)
        ∗ ((aRows00 (Mesh.px 3 c)).view.loc (c : Thread nD τ) ↦[(aRows00 (Mesh.px 3 c)).view.set]{q} f)
        ∗ ((aRows10 (Mesh.px 4 c)).view.loc (c : Thread nD τ) ↦[(aRows10 (Mesh.px 4 c)).view.set]{q} f)
        ∗ ((aRows20 (Mesh.px 1 c)).view.loc (c : Thread nD τ) ↦[(aRows20 (Mesh.px 1 c)).view.set]{q} f)) := by
  obtain ⟨hH0, hQ0, hH1, hQ1, hH2, hQ2⟩ := rows_all c
  rw [aRows01_set, aRows11_set, aRows21_set, aRows01_set, aRows11_set, aRows21_set, aRows00_set, aRows10_set, aRows20_set]
  have h0 : ((((c : Thread nD τ).loc cc0_scratch2) ↦{q} f) : sProp 𝕄)
      = (((c : Thread nD τ).loc cc0_scratch2) ↦[aSet 0 1024]{q} f) := by rw [aSet_univ]
  rw [h0, aSet_tiling c]
  exact pt_cons (by adisj) (pt_cons (by adisj) (pt_cons (by adisj) (pt_cons (by adisj) (pt_cons (by adisj)
    (pt_cons (by adisj) (pt_cons (by adisj) (pt_cons (by adisj) (bi_refl _))))))))

/-- Nine regions at their own contents are the whole buffer at some contents. -/
theorem abuf_join (c : Dev nD) (q : PosShare TreeShare) (f1 f2 f3 f4 f5 f6 f7 f8 f9 : Buf (Elt F) ((c : Thread nD τ).loc cc0_scratch2)) :
    iprop(((aRows01 c).view.loc (c : Thread nD τ) ↦[(aRows01 c).view.set]{q} f1)
        ∗ ((aRows11 c).view.loc (c : Thread nD τ) ↦[(aRows11 c).view.set]{q} f2)
        ∗ ((aRows21 c).view.loc (c : Thread nD τ) ↦[(aRows21 c).view.set]{q} f3)
        ∗ ((aRows01 (Mesh.px 1 c)).view.loc (c : Thread nD τ) ↦[(aRows01 (Mesh.px 1 c)).view.set]{q} f4)
        ∗ ((aRows11 (Mesh.px 3 c)).view.loc (c : Thread nD τ) ↦[(aRows11 (Mesh.px 3 c)).view.set]{q} f5)
        ∗ ((aRows21 (Mesh.px 4 c)).view.loc (c : Thread nD τ) ↦[(aRows21 (Mesh.px 4 c)).view.set]{q} f6)
        ∗ ((aRows00 (Mesh.px 3 c)).view.loc (c : Thread nD τ) ↦[(aRows00 (Mesh.px 3 c)).view.set]{q} f7)
        ∗ ((aRows10 (Mesh.px 4 c)).view.loc (c : Thread nD τ) ↦[(aRows10 (Mesh.px 4 c)).view.set]{q} f8)
        ∗ ((aRows20 (Mesh.px 1 c)).view.loc (c : Thread nD τ) ↦[(aRows20 (Mesh.px 1 c)).view.set]{q} f9))
      ⊢ (iprop(∃ f, ((c : Thread nD τ).loc cc0_scratch2) ↦{q} f) : sProp 𝕄) := by
  obtain ⟨hH0, hQ0, hH1, hQ1, hH2, hQ2⟩ := rows_all c
  rw [aRows01_set, aRows11_set, aRows21_set, aRows01_set, aRows11_set, aRows21_set, aRows00_set, aRows10_set, aRows20_set]
  have h9 := pt_ex (F := F) (ℓ := (c : Thread nD τ).loc cc0_scratch2) (q := q) (A := aSet (hRow 2 (Mesh.px 1 c)) 128) f9
  have h8 := pt_join_ex (ℓ := (c : Thread nD τ).loc cc0_scratch2) (A := aSet (hRow 1 (Mesh.px 4 c)) 192) (by adisj) f8 h9
  have h7 := pt_join_ex (ℓ := (c : Thread nD τ).loc cc0_scratch2) (A := aSet (hRow 0 (Mesh.px 3 c)) 192) (by adisj) f7 h8
  have h6 := pt_join_ex (ℓ := (c : Thread nD τ).loc cc0_scratch2) (A := aSet (qRow 2 (Mesh.px 4 c)) 64) (by adisj) f6 h7
  have h5 := pt_join_ex (ℓ := (c : Thread nD τ).loc cc0_scratch2) (A := aSet (qRow 1 (Mesh.px 3 c)) 96) (by adisj) f5 h6
  have h4 := pt_join_ex (ℓ := (c : Thread nD τ).loc cc0_scratch2) (A := aSet (qRow 0 (Mesh.px 1 c)) 96) (by adisj) f4 h5
  have h3 := pt_join_ex (ℓ := (c : Thread nD τ).loc cc0_scratch2) (A := aSet (qRow 2 c) 64) (by adisj) f3 h4
  have h2 := pt_join_ex (ℓ := (c : Thread nD τ).loc cc0_scratch2) (A := aSet (qRow 1 c) 96) (by adisj) f2 h3
  have h1 := pt_join_ex (ℓ := (c : Thread nD τ).loc cc0_scratch2) (A := aSet (qRow 0 c) 96) (by adisj) f1 h2
  rw [← aSet_tiling c, aSet_univ] at h1
  exact h1

/-! ## A kept half is the own quarter and the landed quarter -/

theorem aHalf_split_b0 (c : Dev nD) (q : PosShare TreeShare) (f : Buf (Elt F) ((c : Thread nD τ).loc cc0_scratch2)) :
    (((aRows00 c).view.loc (c : Thread nD τ) ↦[(aRows00 c).view.set]{q} f) : sProp 𝕄) ⊣⊢
      iprop(((aRows01 c).view.loc (c : Thread nD τ) ↦[(aRows01 c).view.set]{q} f)
        ∗ ((aRows01 (Mesh.px 1 c)).view.loc (c : Thread nD τ) ↦[(aRows01 (Mesh.px 1 c)).view.set]{q} f)) := by
  obtain ⟨hH0, hQ0, hH1, hQ1, hH2, hQ2⟩ := rows_all c
  rw [aRows01_set, aRows01_set, aRows00_set, aSet_half 192 96 _ _ _ rfl hQ0]
  exact pointsTo_union (ℓ := (c : Thread nD τ).loc cc0_scratch2) (aSet_disjoint (by omega))
theorem aHalf_split_b1 (c : Dev nD) (q : PosShare TreeShare) (f : Buf (Elt F) ((c : Thread nD τ).loc cc0_scratch2)) :
    (((aRows10 c).view.loc (c : Thread nD τ) ↦[(aRows10 c).view.set]{q} f) : sProp 𝕄) ⊣⊢
      iprop(((aRows11 c).view.loc (c : Thread nD τ) ↦[(aRows11 c).view.set]{q} f)
        ∗ ((aRows11 (Mesh.px 3 c)).view.loc (c : Thread nD τ) ↦[(aRows11 (Mesh.px 3 c)).view.set]{q} f)) := by
  obtain ⟨hH0, hQ0, hH1, hQ1, hH2, hQ2⟩ := rows_all c
  rw [aRows11_set, aRows11_set, aRows10_set, aSet_half 192 96 _ _ _ rfl hQ1]
  exact pointsTo_union (ℓ := (c : Thread nD τ).loc cc0_scratch2) (aSet_disjoint (by omega))
theorem aHalf_split_b2 (c : Dev nD) (q : PosShare TreeShare) (f : Buf (Elt F) ((c : Thread nD τ).loc cc0_scratch2)) :
    (((aRows20 c).view.loc (c : Thread nD τ) ↦[(aRows20 c).view.set]{q} f) : sProp 𝕄) ⊣⊢
      iprop(((aRows21 c).view.loc (c : Thread nD τ) ↦[(aRows21 c).view.set]{q} f)
        ∗ ((aRows21 (Mesh.px 4 c)).view.loc (c : Thread nD τ) ↦[(aRows21 (Mesh.px 4 c)).view.set]{q} f)) := by
  obtain ⟨hH0, hQ0, hH1, hQ1, hH2, hQ2⟩ := rows_all c
  rw [aRows21_set, aRows21_set, aRows20_set, aSet_half 128 64 _ _ _ rfl hQ2]
  exact pointsTo_union (ℓ := (c : Thread nD τ).loc cc0_scratch2) (aSet_disjoint (by omega))

/-- Two disjoint row ranges at their own contents are their union at contents that read as each on its rows. -/
theorem aSet_merge (c : Dev nD) (q : PosShare TreeShare) (f1 f2 : Buf (Elt F) ((c : Thread nD τ).loc cc0_scratch2))
    (Q P Qh : ℕ) (hd : Q + Qh ≤ P ∨ P + Qh ≤ Q) (hb : Q + Qh ≤ 1024) (hb' : P + Qh ≤ 1024) :
    iprop((((c : Thread nD τ).loc cc0_scratch2) ↦[aSet Q Qh]{q} f1) ∗ (((c : Thread nD τ).loc cc0_scratch2) ↦[aSet P Qh]{q} f2))
      ⊢ (iprop(∃ g, (((c : Thread nD τ).loc cc0_scratch2) ↦[aSet Q Qh ∪ aSet P Qh]{q} g)
          ∗ ⌜(∀ r q' : ℕ, r < Qh → q' < 1024 → aAt g (Q + r) q' = aAt f1 (Q + r) q')
            ∧ (∀ r q' : ℕ, r < Qh → q' < 1024 → aAt g (P + r) q' = aAt f2 (P + r) q')⌝) : sProp 𝕄) := by
  iintro H
  iexists ((aSet P Qh).piecewise f2 f1)
  isplitl [H]
  · iapply (pointsTo_join (aSet_disjoint hd))
    iexact H
  · ipureintro
    constructor
    · intro r q' hr hq'
      unfold aAt
      exact Finset.piecewise_eq_of_notMem _ _ _ (idx_not_mem_aSet (by omega) (by omega))
    · intro r q' hr hq'
      unfold aAt
      exact Finset.piecewise_eq_of_mem _ _ _ (idx_mem_aSet (by omega) (by omega) hb')

theorem aHalf_merge_b0 (c : Dev nD) (q : PosShare TreeShare) (f1 f2 : Buf (Elt F) ((c : Thread nD τ).loc cc0_scratch2)) :
    iprop(((aRows01 c).view.loc (c : Thread nD τ) ↦[(aRows01 c).view.set]{q} f1)
        ∗ ((aRows01 (Mesh.px 1 c)).view.loc (c : Thread nD τ) ↦[(aRows01 (Mesh.px 1 c)).view.set]{q} f2))
      ⊢ (iprop(∃ g, ((aRows00 c).view.loc (c : Thread nD τ) ↦[(aRows00 c).view.set]{q} g)
          ∗ ⌜(∀ r q' : ℕ, r < 96 → q' < 1024 → aAt g (qRow 0 c + r) q' = aAt f1 (qRow 0 c + r) q')
            ∧ (∀ r q' : ℕ, r < 96 → q' < 1024 → aAt g (qRow 0 (Mesh.px 1 c) + r) q' = aAt f2 (qRow 0 (Mesh.px 1 c) + r) q')⌝) : sProp 𝕄) := by
  obtain ⟨hH0, hQ0, hH1, hQ1, hH2, hQ2⟩ := rows_all c
  rw [aRows01_set, aRows01_set, aRows00_set, aSet_half 192 96 _ _ _ rfl hQ0]
  exact aSet_merge c q f1 f2 _ _ 96 (by omega) (by omega) (by omega)
theorem aHalf_merge_b1 (c : Dev nD) (q : PosShare TreeShare) (f1 f2 : Buf (Elt F) ((c : Thread nD τ).loc cc0_scratch2)) :
    iprop(((aRows11 c).view.loc (c : Thread nD τ) ↦[(aRows11 c).view.set]{q} f1)
        ∗ ((aRows11 (Mesh.px 3 c)).view.loc (c : Thread nD τ) ↦[(aRows11 (Mesh.px 3 c)).view.set]{q} f2))
      ⊢ (iprop(∃ g, ((aRows10 c).view.loc (c : Thread nD τ) ↦[(aRows10 c).view.set]{q} g)
          ∗ ⌜(∀ r q' : ℕ, r < 96 → q' < 1024 → aAt g (qRow 1 c + r) q' = aAt f1 (qRow 1 c + r) q')
            ∧ (∀ r q' : ℕ, r < 96 → q' < 1024 → aAt g (qRow 1 (Mesh.px 3 c) + r) q' = aAt f2 (qRow 1 (Mesh.px 3 c) + r) q')⌝) : sProp 𝕄) := by
  obtain ⟨hH0, hQ0, hH1, hQ1, hH2, hQ2⟩ := rows_all c
  rw [aRows11_set, aRows11_set, aRows10_set, aSet_half 192 96 _ _ _ rfl hQ1]
  exact aSet_merge c q f1 f2 _ _ 96 (by omega) (by omega) (by omega)
theorem aHalf_merge_b2 (c : Dev nD) (q : PosShare TreeShare) (f1 f2 : Buf (Elt F) ((c : Thread nD τ).loc cc0_scratch2)) :
    iprop(((aRows21 c).view.loc (c : Thread nD τ) ↦[(aRows21 c).view.set]{q} f1)
        ∗ ((aRows21 (Mesh.px 4 c)).view.loc (c : Thread nD τ) ↦[(aRows21 (Mesh.px 4 c)).view.set]{q} f2))
      ⊢ (iprop(∃ g, ((aRows20 c).view.loc (c : Thread nD τ) ↦[(aRows20 c).view.set]{q} g)
          ∗ ⌜(∀ r q' : ℕ, r < 64 → q' < 1024 → aAt g (qRow 2 c + r) q' = aAt f1 (qRow 2 c + r) q')
            ∧ (∀ r q' : ℕ, r < 64 → q' < 1024 → aAt g (qRow 2 (Mesh.px 4 c) + r) q' = aAt f2 (qRow 2 (Mesh.px 4 c) + r) q')⌝) : sProp 𝕄) := by
  obtain ⟨hH0, hQ0, hH1, hQ1, hH2, hQ2⟩ := rows_all c
  rw [aRows21_set, aRows21_set, aRows20_set, aSet_half 128 64 _ _ _ rfl hQ2]
  exact aSet_merge c q f1 f2 _ _ 64 (by omega) (by omega) (by omega)

/-! ## What a store or a load through the whole gather buffer touches: the slice of the same rows -/

/-- The rows a store or load at the kept quarter's offset touches are the device's own quarter; -/
theorem aacc_q0 (c : Dev nD) : (aM.access (Rect.unit (s := S1024x1024) (k0_off3 c 0#32 3#32 1#32 96#32 0#32) S96x1024.size (k0_off3_inb c 2))).set
    = (aRows01 c).view.set := by
  rw [aRows01_set]
  exact (View.set_slice_whole _ _).trans ((unit2_set _ _ (by rw [Mesh.off3_c]; rfl)).trans (congrArg (fun o => aSet o 96) (qRow_eq_K1 0 c).symm))
theorem aacc_q1 (c : Dev nD) : (aM.access (Rect.unit (s := S1024x1024) (k0_off3 c 384#32 4#32 3#32 96#32 0#32) S96x1024.size (k0_off3_inb c 3))).set
    = (aRows11 c).view.set := by
  rw [aRows11_set]
  exact (View.set_slice_whole _ _).trans ((unit2_set _ _ (by rw [Mesh.off3_d]; rfl)).trans (congrArg (fun o => aSet o 96) (qRow_eq_K1 1 c).symm))
theorem aacc_q2 (c : Dev nD) : (aM.access (Rect.unit (s := S1024x1024) (k0_off4 c 64#32 0#32) S64x1024.size (k0_off4_inb c 1))).set
    = (aRows21 c).view.set := by
  rw [aRows21_set]
  exact (View.set_slice_whole _ _).trans ((unit2_set _ _ (by rw [Mesh.off4_b]; rfl)).trans (congrArg (fun o => aSet o 64) (qRow_eq_K1 2 c).symm))
/-- at the kept half's offset, the device's own half; -/
theorem aacc_h0 (c : Dev nD) : (aM.access (Rect.unit (s := S1024x1024) (k0_off9 c 0#32 3#32 1#32) S192x1024.size (k0_off9_inb c 0))).set
    = (aRows00 c).view.set := by
  rw [aRows00_set]
  exact (View.set_slice_whole _ _).trans ((unit2_set _ _ (by rw [Mesh.off9_a]; rfl)).trans (congrArg (fun o => aSet o 192) (congrFun (Rows.ag0_read_b0 c) 0)))
theorem aacc_h1 (c : Dev nD) : (aM.access (Rect.unit (s := S1024x1024) (k0_off9 c 384#32 4#32 3#32) S192x1024.size (k0_off9_inb c 1))).set
    = (aRows10 c).view.set := by
  rw [aRows10_set]
  exact (View.set_slice_whole _ _).trans ((unit2_set _ _ (by rw [Mesh.off9_b]; rfl)).trans (congrArg (fun o => aSet o 192) (congrFun (Rows.ag0_read_b1 c) 0)))
theorem aacc_h2 (c : Dev nD) : (aM.access (Rect.unit (s := S1024x1024) (k0_off10 c) S128x1024.size (k0_off10_inb c))).set
    = (aRows20 c).view.set := by
  rw [aRows20_set]
  exact (View.set_slice_whole _ _).trans ((unit2_set _ _ (by rw [Mesh.off10]; rfl)).trans (congrArg (fun o => aSet o 128) (congrFun (Rows.ag0_read_b2 c) 0)))
/-- at the other half's offset, the half the stage-0 partner gathers in. -/
theorem aacc_o0 (c : Dev nD) : (aM.access (Rect.unit (s := S1024x1024) (k0_off11 c 0#32 3#32 1#32) S192x1024.size (k0_off11_inb c 0))).set
    = (aRows00 (Mesh.px 3 c)).view.set := by
  rw [aRows00_set]
  exact (View.set_slice_whole _ _).trans ((unit2_set _ _ (by rw [Mesh.off11_a]; rfl)).trans (congrArg (fun o => aSet o 192) (congrFun (Rows.ag0_recv_b0 c) 0)))
theorem aacc_o1 (c : Dev nD) : (aM.access (Rect.unit (s := S1024x1024) (k0_off11 c 384#32 4#32 3#32) S192x1024.size (k0_off11_inb c 1))).set
    = (aRows10 (Mesh.px 4 c)).view.set := by
  rw [aRows10_set]
  exact (View.set_slice_whole _ _).trans ((unit2_set _ _ (by rw [Mesh.off11_b]; rfl)).trans (congrArg (fun o => aSet o 192) (congrFun (Rows.ag0_recv_b1 c) 0)))
theorem aacc_o2 (c : Dev nD) : (aM.access (Rect.unit (s := S1024x1024) (k0_off12 c) S128x1024.size (k0_off12_inb c))).set
    = (aRows20 (Mesh.px 1 c)).view.set := by
  rw [aRows20_set]
  exact (View.set_slice_whole _ _).trans ((unit2_set _ _ (by rw [Mesh.off12]; rfl)).trans (congrArg (fun o => aSet o 128) (congrFun (Rows.ag0_recv_b2 c) 0)))

/-! ## Regions of the send and the receive buffer -/

/-- The elements of a [3, 384, 1024] buffer in plane b, rows [o, o + h). -/
def sSet (b o h : ℕ) : Finset S3x384x1024.Idx :=
  Finset.univ.filter fun i => (i 0).val = b ∧ o ≤ (i 1).val ∧ (i 1).val < o + h

theorem mem_sSet {b o h : ℕ} {i : S3x384x1024.Idx} : i ∈ sSet b o h ↔ (i 0).val = b ∧ o ≤ (i 1).val ∧ (i 1).val < o + h := by
  simp only [sSet, Finset.mem_filter, Finset.mem_univ, true_and]

theorem unit3_set {b soff h : ℕ}
    (inb : ∀ a, (![b, soff, 0] : Fin 3 → ℕ) a + (![1, h, 1024] : Fin 3 → ℕ) a ≤ S3x384x1024.size a) :
    (Rect.unit (s := S3x384x1024) ![b, soff, 0] ![1, h, 1024] inb).set = sSet b soff h := by
  ext i
  rw [Rect.mem_set_unit, mem_sSet]
  constructor
  · intro hm
    have h0 : b ≤ (i 0).val ∧ (i 0).val < b + 1 := hm 0
    have h1 : soff ≤ (i 1).val ∧ (i 1).val < soff + h := hm 1
    omega
  · intro hm a
    match a with
    | ⟨0, _⟩ =>
      show b ≤ (i 0).val ∧ (i 0).val < b + 1
      omega
    | ⟨1, _⟩ =>
      show soff ≤ (i 1).val ∧ (i 1).val < soff + h
      omega
    | ⟨2, _⟩ =>
      show 0 ≤ (i 2).val ∧ (i 2).val < 0 + 1024
      have : (i 2).val < 1024 := (i 2).isLt
      omega

/-- A slot's elements are those its rectangle of the whole buffer touches. -/
theorem slot_set_eq (M : Memref sig .tc .vmem S3x384x1024 .bf16) (r : Rect S3x384x1024) (hr : ∀ a, r.stride a = 1) (s' : Shape)
    (hsq : r.shape.Squeezes s') : ((M.slice r hr).squeeze s' hsq).view.set = (M.access r).set := View.set_reshape _ _

/-- What the nine slots leave of their buffer: the last rows of plane 2. -/
def slotRest : Finset S3x384x1024.Idx := sSet 2 256 128

local macro "slot_set" : tactic =>
  `(tactic| (simp only [Memref.view_squeeze, Memref.view_slice, Memref.view_whole, View.set_reshape, View.set_slice_whole]; exact unit3_set _))

theorem rSlot00_set : rSlot00.view.set = sSet 0 0 192 := by slot_set
theorem rSlot01_set : rSlot01.view.set = sSet 0 192 96 := by slot_set
theorem rSlot02_set : rSlot02.view.set = sSet 0 288 96 := by slot_set
theorem rSlot10_set : rSlot10.view.set = sSet 1 0 192 := by slot_set
theorem rSlot11_set : rSlot11.view.set = sSet 1 192 96 := by slot_set
theorem rSlot12_set : rSlot12.view.set = sSet 1 288 96 := by slot_set
theorem rSlot20_set : rSlot20.view.set = sSet 2 0 128 := by slot_set
theorem rSlot21_set : rSlot21.view.set = sSet 2 128 64 := by slot_set
theorem rSlot22_set : rSlot22.view.set = sSet 2 192 64 := by slot_set
theorem sSlot00_set : sSlot00.view.set = sSet 0 0 192 := by slot_set
theorem sSlot01_set : sSlot01.view.set = sSet 0 192 96 := by slot_set
theorem sSlot02_set : sSlot02.view.set = sSet 0 288 96 := by slot_set
theorem sSlot10_set : sSlot10.view.set = sSet 1 0 192 := by slot_set
theorem sSlot11_set : sSlot11.view.set = sSet 1 192 96 := by slot_set
theorem sSlot12_set : sSlot12.view.set = sSet 1 288 96 := by slot_set
theorem sSlot20_set : sSlot20.view.set = sSet 2 0 128 := by slot_set
theorem sSlot21_set : sSlot21.view.set = sSet 2 128 64 := by slot_set
theorem sSlot22_set : sSlot22.view.set = sSet 2 192 64 := by slot_set

/-- The nine slots and the rest tile the buffer. -/
theorem sSet_tiling :
    (Finset.univ : Finset S3x384x1024.Idx) = sSet 0 0 192 ∪ (sSet 0 192 96 ∪ (sSet 0 288 96 ∪ (sSet 1 0 192 ∪ (sSet 1 192 96
      ∪ (sSet 1 288 96 ∪ (sSet 2 0 128 ∪ (sSet 2 128 64 ∪ (sSet 2 192 64 ∪ slotRest)))))))) := by
  ext i
  simp only [Finset.mem_union, mem_sSet, slotRest, Finset.mem_univ, true_iff]
  have h0 : (i 0).val < 3 := (i 0).isLt
  have h1 : (i 1).val < 384 := (i 1).isLt
  omega

local macro "sdisj" : tactic =>
  `(tactic| (rw [Finset.disjoint_left]; intro i h1 h2; simp only [Finset.mem_union, mem_sSet, slotRest] at h1 h2; omega))

/-- The receive buffer is its nine slots and the rest. -/
theorem rbuf_split (c : Dev nD) (q : PosShare TreeShare) (f : Buf (Elt F) ((c : Thread nD τ).loc cc0_scratch1)) :
    ((((c : Thread nD τ).loc cc0_scratch1) ↦{q} f) : sProp 𝕄) ⊣⊢
      iprop((rSlot00.view.loc (c : Thread nD τ) ↦[rSlot00.view.set]{q} f)
        ∗ (rSlot01.view.loc (c : Thread nD τ) ↦[rSlot01.view.set]{q} f)
        ∗ (rSlot02.view.loc (c : Thread nD τ) ↦[rSlot02.view.set]{q} f)
        ∗ (rSlot10.view.loc (c : Thread nD τ) ↦[rSlot10.view.set]{q} f)
        ∗ (rSlot11.view.loc (c : Thread nD τ) ↦[rSlot11.view.set]{q} f)
        ∗ (rSlot12.view.loc (c : Thread nD τ) ↦[rSlot12.view.set]{q} f)
        ∗ (rSlot20.view.loc (c : Thread nD τ) ↦[rSlot20.view.set]{q} f)
        ∗ (rSlot21.view.loc (c : Thread nD τ) ↦[rSlot21.view.set]{q} f)
        ∗ (rSlot22.view.loc (c : Thread nD τ) ↦[rSlot22.view.set]{q} f)
        ∗ (((c : Thread nD τ).loc cc0_scratch1) ↦[slotRest]{q} f)) := by
  rw [rSlot00_set, rSlot01_set, rSlot02_set, rSlot10_set, rSlot11_set, rSlot12_set, rSlot20_set, rSlot21_set, rSlot22_set]
  have h0 : ((((c : Thread nD τ).loc cc0_scratch1) ↦{q} f) : sProp 𝕄)
      = (((c : Thread nD τ).loc cc0_scratch1) ↦[(Finset.univ : Finset S3x384x1024.Idx)]{q} f) := rfl
  rw [h0, sSet_tiling]
  exact pt_cons (by sdisj) (pt_cons (by sdisj) (pt_cons (by sdisj) (pt_cons (by sdisj) (pt_cons (by sdisj)
    (pt_cons (by sdisj) (pt_cons (by sdisj) (pt_cons (by sdisj) (pt_cons (by sdisj) (bi_refl _)))))))))

/-- The send buffer likewise. -/
theorem sbuf_split (c : Dev nD) (q : PosShare TreeShare) (f : Buf (Elt F) ((c : Thread nD τ).loc cc0_scratch0)) :
    ((((c : Thread nD τ).loc cc0_scratch0) ↦{q} f) : sProp 𝕄) ⊣⊢
      iprop((sSlot00.view.loc (c : Thread nD τ) ↦[sSlot00.view.set]{q} f)
        ∗ (sSlot01.view.loc (c : Thread nD τ) ↦[sSlot01.view.set]{q} f)
        ∗ (sSlot02.view.loc (c : Thread nD τ) ↦[sSlot02.view.set]{q} f)
        ∗ (sSlot10.view.loc (c : Thread nD τ) ↦[sSlot10.view.set]{q} f)
        ∗ (sSlot11.view.loc (c : Thread nD τ) ↦[sSlot11.view.set]{q} f)
        ∗ (sSlot12.view.loc (c : Thread nD τ) ↦[sSlot12.view.set]{q} f)
        ∗ (sSlot20.view.loc (c : Thread nD τ) ↦[sSlot20.view.set]{q} f)
        ∗ (sSlot21.view.loc (c : Thread nD τ) ↦[sSlot21.view.set]{q} f)
        ∗ (sSlot22.view.loc (c : Thread nD τ) ↦[sSlot22.view.set]{q} f)
        ∗ (((c : Thread nD τ).loc cc0_scratch0) ↦[slotRest]{q} f)) := by
  rw [sSlot00_set, sSlot01_set, sSlot02_set, sSlot10_set, sSlot11_set, sSlot12_set, sSlot20_set, sSlot21_set, sSlot22_set]
  have h0 : ((((c : Thread nD τ).loc cc0_scratch0) ↦{q} f) : sProp 𝕄)
      = (((c : Thread nD τ).loc cc0_scratch0) ↦[(Finset.univ : Finset S3x384x1024.Idx)]{q} f) := rfl
  rw [h0, sSet_tiling]
  exact pt_cons (by sdisj) (pt_cons (by sdisj) (pt_cons (by sdisj) (pt_cons (by sdisj) (pt_cons (by sdisj)
    (pt_cons (by sdisj) (pt_cons (by sdisj) (pt_cons (by sdisj) (pt_cons (by sdisj) (bi_refl _)))))))))

/-- Nine slots and the rest, each at its own contents, are the whole receive buffer at some contents. -/
theorem rbuf_join (c : Dev nD) (q : PosShare TreeShare)
    (f1 f2 f3 f4 f5 f6 f7 f8 f9 f10 : Buf (Elt F) ((c : Thread nD τ).loc cc0_scratch1)) :
    iprop((rSlot00.view.loc (c : Thread nD τ) ↦[rSlot00.view.set]{q} f1)
        ∗ (rSlot01.view.loc (c : Thread nD τ) ↦[rSlot01.view.set]{q} f2)
        ∗ (rSlot02.view.loc (c : Thread nD τ) ↦[rSlot02.view.set]{q} f3)
        ∗ (rSlot10.view.loc (c : Thread nD τ) ↦[rSlot10.view.set]{q} f4)
        ∗ (rSlot11.view.loc (c : Thread nD τ) ↦[rSlot11.view.set]{q} f5)
        ∗ (rSlot12.view.loc (c : Thread nD τ) ↦[rSlot12.view.set]{q} f6)
        ∗ (rSlot20.view.loc (c : Thread nD τ) ↦[rSlot20.view.set]{q} f7)
        ∗ (rSlot21.view.loc (c : Thread nD τ) ↦[rSlot21.view.set]{q} f8)
        ∗ (rSlot22.view.loc (c : Thread nD τ) ↦[rSlot22.view.set]{q} f9)
        ∗ (((c : Thread nD τ).loc cc0_scratch1) ↦[slotRest]{q} f10))
      ⊢ (iprop(∃ f, ((c : Thread nD τ).loc cc0_scratch1) ↦{q} f) : sProp 𝕄) := by
  rw [rSlot00_set, rSlot01_set, rSlot02_set, rSlot10_set, rSlot11_set, rSlot12_set, rSlot20_set, rSlot21_set, rSlot22_set]
  have h10 := pt_ex (F := F) (ℓ := (c : Thread nD τ).loc cc0_scratch1) (q := q) (A := slotRest) f10
  have h9 := pt_join_ex (ℓ := (c : Thread nD τ).loc cc0_scratch1) (A := sSet 2 192 64) (by sdisj) f9 h10
  have h8 := pt_join_ex (ℓ := (c : Thread nD τ).loc cc0_scratch1) (A := sSet 2 128 64) (by sdisj) f8 h9
  have h7 := pt_join_ex (ℓ := (c : Thread nD τ).loc cc0_scratch1) (A := sSet 2 0 128) (by sdisj) f7 h8
  have h6 := pt_join_ex (ℓ := (c : Thread nD τ).loc cc0_scratch1) (A := sSet 1 288 96) (by sdisj) f6 h7
  have h5 := pt_join_ex (ℓ := (c : Thread nD τ).loc cc0_scratch1) (A := sSet 1 192 96) (by sdisj) f5 h6
  have h4 := pt_join_ex (ℓ := (c : Thread nD τ).loc cc0_scratch1) (A := sSet 1 0 192) (by sdisj) f4 h5
  have h3 := pt_join_ex (ℓ := (c : Thread nD τ).loc cc0_scratch1) (A := sSet 0 288 96) (by sdisj) f3 h4
  have h2 := pt_join_ex (ℓ := (c : Thread nD τ).loc cc0_scratch1) (A := sSet 0 192 96) (by sdisj) f2 h3
  have h1 := pt_join_ex (ℓ := (c : Thread nD τ).loc cc0_scratch1) (A := sSet 0 0 192) (by sdisj) f1 h2
  rw [← sSet_tiling] at h1
  exact h1

theorem sbuf_join (c : Dev nD) (q : PosShare TreeShare)
    (f1 f2 f3 f4 f5 f6 f7 f8 f9 f10 : Buf (Elt F) ((c : Thread nD τ).loc cc0_scratch0)) :
    iprop((sSlot00.view.loc (c : Thread nD τ) ↦[sSlot00.view.set]{q} f1)
        ∗ (sSlot01.view.loc (c : Thread nD τ) ↦[sSlot01.view.set]{q} f2)
        ∗ (sSlot02.view.loc (c : Thread nD τ) ↦[sSlot02.view.set]{q} f3)
        ∗ (sSlot10.view.loc (c : Thread nD τ) ↦[sSlot10.view.set]{q} f4)
        ∗ (sSlot11.view.loc (c : Thread nD τ) ↦[sSlot11.view.set]{q} f5)
        ∗ (sSlot12.view.loc (c : Thread nD τ) ↦[sSlot12.view.set]{q} f6)
        ∗ (sSlot20.view.loc (c : Thread nD τ) ↦[sSlot20.view.set]{q} f7)
        ∗ (sSlot21.view.loc (c : Thread nD τ) ↦[sSlot21.view.set]{q} f8)
        ∗ (sSlot22.view.loc (c : Thread nD τ) ↦[sSlot22.view.set]{q} f9)
        ∗ (((c : Thread nD τ).loc cc0_scratch0) ↦[slotRest]{q} f10))
      ⊢ (iprop(∃ f, ((c : Thread nD τ).loc cc0_scratch0) ↦{q} f) : sProp 𝕄) := by
  rw [sSlot00_set, sSlot01_set, sSlot02_set, sSlot10_set, sSlot11_set, sSlot12_set, sSlot20_set, sSlot21_set, sSlot22_set]
  have h10 := pt_ex (F := F) (ℓ := (c : Thread nD τ).loc cc0_scratch0) (q := q) (A := slotRest) f10
  have h9 := pt_join_ex (ℓ := (c : Thread nD τ).loc cc0_scratch0) (A := sSet 2 192 64) (by sdisj) f9 h10
  have h8 := pt_join_ex (ℓ := (c : Thread nD τ).loc cc0_scratch0) (A := sSet 2 128 64) (by sdisj) f8 h9
  have h7 := pt_join_ex (ℓ := (c : Thread nD τ).loc cc0_scratch0) (A := sSet 2 0 128) (by sdisj) f7 h8
  have h6 := pt_join_ex (ℓ := (c : Thread nD τ).loc cc0_scratch0) (A := sSet 1 288 96) (by sdisj) f6 h7
  have h5 := pt_join_ex (ℓ := (c : Thread nD τ).loc cc0_scratch0) (A := sSet 1 192 96) (by sdisj) f5 h6
  have h4 := pt_join_ex (ℓ := (c : Thread nD τ).loc cc0_scratch0) (A := sSet 1 0 192) (by sdisj) f4 h5
  have h3 := pt_join_ex (ℓ := (c : Thread nD τ).loc cc0_scratch0) (A := sSet 0 288 96) (by sdisj) f3 h4
  have h2 := pt_join_ex (ℓ := (c : Thread nD τ).loc cc0_scratch0) (A := sSet 0 192 96) (by sdisj) f2 h3
  have h1 := pt_join_ex (ℓ := (c : Thread nD τ).loc cc0_scratch0) (A := sSet 0 0 192) (by sdisj) f1 h2
  rw [← sSet_tiling] at h1
  exact h1

/-- A load or store through the whole buffer at a slot's rectangle touches the slot's elements only. -/
theorem racc_subset {b soff h : ℕ}
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    (rM.access (Rect.unit (s := S3x384x1024) ![b, soff, 0] ![1, h, 1024] inb)).set
      ⊆ ((rM.slice (Rect.unit (s := S3x384x1024) ![b, soff, 0] ![1, h, 1024] inb) (fun _ => rfl)).squeeze ⟨2, ![h, 1024]⟩ hsq).view.set :=
  fun i hi => by rw [slot_set_eq]; exact hi
theorem sacc_subset {b soff h : ℕ}
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    (sM.access (Rect.unit (s := S3x384x1024) ![b, soff, 0] ![1, h, 1024] inb)).set
      ⊆ ((sM.slice (Rect.unit (s := S3x384x1024) ![b, soff, 0] ![1, h, 1024] inb) (fun _ => rfl)).squeeze ⟨2, ![h, 1024]⟩ hsq).view.set :=
  fun i hi => by rw [slot_set_eq]; exact hi

/-- instances, as the body spells them -/
example : (rM.access (Rect.unit (s := S3x384x1024) ![0, 192, 0] S1x96x1024.size inb_S3x384x1024_S1x96x1024_0_192_0)).set ⊆ rSlot01.view.set :=
  racc_subset _ _
example : (sM.access (Rect.unit (s := S3x384x1024) ![2, 128, 0] S1x64x1024.size inb_S3x384x1024_S1x64x1024_2_128_0)).set ⊆ sSlot21.view.set :=
  sacc_subset _ _

/-! ## The body's steps, row by row

Each lemma reads the buffer a store leaves, at the rows it wrote, in terms of what the loads before it read. The
payloads are spelt as the printed body's value chains, so a payload name unfolds to them. -/

/-- Stage k of a reduce-scatter: the kept rows hold A, the receive slot the partner's B narrowed for the wire; after
    the sum is stored the rows hold A + wire B. -/
theorem rs_add_rows {h b soff : ℕ} (o : Fin 2 → ℕ) (inb : ∀ a, o a + (![h, 1024] : Fin 2 → ℕ) a ≤ S1024x1024.size a) (ho : o 1 = 0)
    (inb3 : ∀ a, (![b, soff, 0] : Fin 3 → ℕ) a + (![1, h, 1024] : Fin 3 → ℕ) a ≤ S3x384x1024.size a)
    (h1 : (⟨2, ![h, 1024]⟩ : Shape).ShapeCasts ⟨2, ![h, 1024]⟩)
    (h2 : (⟨3, ![1, h, 1024]⟩ : Shape).ShapeCasts ⟨2, ![h, 1024]⟩)
    (fo : (cc0_stg4_0 : Ref sig .tc).ty.Contents (Elt F)) (fr : (cc0_scratch1 : Ref sig .tc).ty.Contents (Elt F))
    (A B : ℕ → ℕ → F .f32)
    (hA : ∀ r q : ℕ, r < h → q < 1024 → oAt fo (o 0 + r) q = A r q)
    (hB : ∀ r q : ℕ, r < h → q < 1024 → rAt fr b (soff + r) q = tr (B r q))
    (r q : ℕ) (hr : r < h) (hq : q < 1024) :
    oAt ((oM.access (Rect.unit (s := S1024x1024) o ![h, 1024] inb)).write (Elt F) fo
        (addf (shapeCast ⟨2, ![h, 1024]⟩ (oM.view.readAt (Elt F) (Rect.unit (s := S1024x1024) o ![h, 1024] inb).toLoadRect fo) h1)
          (extf .f32 (shapeCast ⟨2, ![h, 1024]⟩
            (rM.view.readAt (Elt F) (Rect.unit (s := S3x384x1024) ![b, soff, 0] ![1, h, 1024] inb3).toLoadRect fr) h2) bitsLt_bf16_f32))
        Finset.univ) (o 0 + r) q
      = FloatOps.addf (A r q) (wire (B r q)) := by
  rw [oAt_store o inb ho fo _ r q hr hq, wadd_apply _ _ h1 h2 ⟨r, hr⟩ ⟨q, hq⟩, oAt_load o inb ho fo r q hr hq,
    rAt_load inb3 fr 0 r q hr hq, hA r q hr hq, hB r q hr hq]
  rfl

/-- Filling a send slot: the slot's rows hold the result buffer's rows narrowed for the wire. -/
theorem narrow_rows {h b soff : ℕ} (o : Fin 2 → ℕ) (inb : ∀ a, o a + (![h, 1024] : Fin 2 → ℕ) a ≤ S1024x1024.size a) (ho : o 1 = 0)
    (inb3 : ∀ a, (![b, soff, 0] : Fin 3 → ℕ) a + (![1, h, 1024] : Fin 3 → ℕ) a ≤ S3x384x1024.size a)
    (h1 : (⟨2, ![h, 1024]⟩ : Shape).ShapeCasts ⟨2, ![h, 1024]⟩)
    (h2 : (⟨2, ![h, 1024]⟩ : Shape).ShapeCasts ⟨3, ![1, h, 1024]⟩)
    (fo : (cc0_stg4_0 : Ref sig .tc).ty.Contents (Elt F)) (fs : (cc0_scratch0 : Ref sig .tc).ty.Contents (Elt F))
    (r q : ℕ) (hr : r < h) (hq : q < 1024) :
    sAt ((sM.access (Rect.unit (s := S3x384x1024) ![b, soff, 0] ![1, h, 1024] inb3)).write (Elt F) fs
        (shapeCast ⟨3, ![1, h, 1024]⟩ (truncf .bf16 (shapeCast ⟨2, ![h, 1024]⟩
          (oM.view.readAt (Elt F) (Rect.unit (s := S1024x1024) o ![h, 1024] inb).toLoadRect fo) h1) bitsLt_bf16_f32) h2)
        Finset.univ) b (soff + r) q
      = tr (oAt fo (o 0 + r) q) := by
  rw [sAt_store inb3 fs _ r q hr hq, narrow1_apply _ h1 h2 0 ⟨r, hr⟩ ⟨q, hq⟩, oAt_load o inb ho fo r q hr hq]

/-- Filling the gather buffer: its rows hold the result buffer's rows narrowed. -/
theorem gather_fill_rows {h : ℕ} (o : Fin 2 → ℕ) (inb : ∀ a, o a + (![h, 1024] : Fin 2 → ℕ) a ≤ S1024x1024.size a) (ho : o 1 = 0)
    (h1 : (⟨2, ![h, 1024]⟩ : Shape).ShapeCasts ⟨2, ![h, 1024]⟩)
    (h2 : (⟨2, ![h, 1024]⟩ : Shape).ShapeCasts ⟨2, ![h, 1024]⟩)
    (fo : (cc0_stg4_0 : Ref sig .tc).ty.Contents (Elt F)) (fa : (cc0_scratch2 : Ref sig .tc).ty.Contents (Elt F))
    (r q : ℕ) (hr : r < h) (hq : q < 1024) :
    aAt ((aM.access (Rect.unit (s := S1024x1024) o ![h, 1024] inb)).write (Elt F) fa
        (shapeCast ⟨2, ![h, 1024]⟩ (truncf .bf16 (shapeCast ⟨2, ![h, 1024]⟩
          (oM.view.readAt (Elt F) (Rect.unit (s := S1024x1024) o ![h, 1024] inb).toLoadRect fo) h1) bitsLt_bf16_f32) h2)
        Finset.univ) (o 0 + r) q
      = tr (oAt fo (o 0 + r) q) := by
  rw [aAt_store o inb ho fa _ r q hr hq, narrow0_apply _ h1 h2, oAt_load o inb ho fo r q hr hq]

/-- Reading the gathered rows back: the result buffer's rows hold the gather buffer's rows widened. -/
theorem widen_rows {h : ℕ} (o : Fin 2 → ℕ) (inb : ∀ a, o a + (![h, 1024] : Fin 2 → ℕ) a ≤ S1024x1024.size a) (ho : o 1 = 0)
    (fo : (cc0_stg4_0 : Ref sig .tc).ty.Contents (Elt F)) (fa : (cc0_scratch2 : Ref sig .tc).ty.Contents (Elt F))
    (r q : ℕ) (hr : r < h) (hq : q < 1024) :
    oAt ((oM.access (Rect.unit (s := S1024x1024) o ![h, 1024] inb)).write (Elt F) fo
        (extf .f32 (aM.view.readAt (Elt F) (Rect.unit (s := S1024x1024) o ![h, 1024] inb).toLoadRect fa) bitsLt_bf16_f32)
        Finset.univ) (o 0 + r) q
      = FloatOps.extf .f32 bitsLt_bf16_f32 (aAt fa (o 0 + r) q) := by
  rw [oAt_store o inb ho fo _ r q hr hq]
  show FloatOps.extf .f32 bitsLt_bf16_f32 (aM.view.readAt (Elt F) (Rect.unit (s := S1024x1024) o ![h, 1024] inb).toLoadRect fa (ix2 ⟨r, hr⟩ ⟨q, hq⟩)) = _
  rw [aAt_load o inb ho fa r q hr hq]

/-- instances: the payload names unfold to the chains above -/
example (c : Dev nD) (fo : (cc0_stg4_0 : Ref sig .tc).ty.Contents (Elt F)) (fr : (cc0_scratch1 : Ref sig .tc).ty.Contents (Elt F))
    (A B : ℕ → ℕ → F .f32)
    (hA : ∀ r q : ℕ, r < 192 → q < 1024 → oAt fo ((k0_off1 c 384#32 4#32 192#32 0#32) 0 + r) q = A r q)
    (hB : ∀ r q : ℕ, r < 192 → q < 1024 → rAt fr 1 (0 + r) q = tr (B r q)) (r q : ℕ) (hr : r < 192) (hq : q < 1024) :
    oAt ((oM.access (Rect.unit (s := S1024x1024) (k0_off1 c 384#32 4#32 192#32 0#32) S192x1024.size (k0_off1_inb c 3))).write (Elt F) fo
        (k0_pay17 (oM.view.readAt (Elt F) (Rect.unit (s := S1024x1024) (k0_off1 c 384#32 4#32 192#32 0#32) S192x1024.size (k0_off1_inb c 3)).toLoadRect fo)
          (rM.view.readAt (Elt F) (Rect.unit (s := S3x384x1024) ![1, 0, 0] S1x192x1024.size inb_S3x384x1024_S1x192x1024_1_0_0).toLoadRect fr))
        Finset.univ) ((k0_off1 c 384#32 4#32 192#32 0#32) 0 + r) q
      = FloatOps.addf (A r q) (wire (B r q)) :=
  rs_add_rows _ _ (by rw [Mesh.off1_d]; rfl) _ _ _ fo fr A B hA hB r q hr hq

/-- info: 'Cert.Kernel.Mem.abuf_split' depends on axioms: [propext, Classical.choice, Quot.sound] -/
#guard_msgs in #print axioms abuf_split
/-- info: 'Cert.Kernel.Mem.rbuf_split' depends on axioms: [propext, Classical.choice, Quot.sound] -/
#guard_msgs in #print axioms rbuf_split
/-- info: 'Cert.Kernel.Mem.rbuf_join' depends on axioms: [propext, Classical.choice, Quot.sound] -/
#guard_msgs in #print axioms rbuf_join
/-- info: 'Cert.Kernel.Mem.abuf_join' depends on axioms: [propext, Classical.choice, Quot.sound] -/
#guard_msgs in #print axioms abuf_join

end Cert.Kernel.Mem

end
-- ==== Proof.KBodyKit.lean ====
/-
  What the body's proof uses throughout: the staging buffers as the pipeline hands them over, the ghost state's big
  products written out cell by cell, each cell's invariant and reached-mark read off the records, and the entry
  handshake's four signals and its wait at this protocol's cells.
-/
import proofs.«900524_g7700000000000525_dist_gated_mlp_tp_i_m1024_h2048_d1024_v7x_i8_f32_1_alg».proof.Proof.KIface
import proofs.«900524_g7700000000000525_dist_gated_mlp_tp_i_m1024_h2048_d1024_v7x_i8_f32_1_alg».proof.Proof.KTables
import proofs.«900524_g7700000000000525_dist_gated_mlp_tp_i_m1024_h2048_d1024_v7x_i8_f32_1_alg».proof.Proof.KMem
import Idealize.ShloMosaic.Lib.Pipeline.Launch
import Idealize.ShloMosaic.Lib.Pipeline.Kit
import Idealize.ShloMosaic.Lib.Tactic

noncomputable section

namespace Cert.Kernel.Body

open Cert.Kernel Cert.Kernel.Gen Cert.Kernel.Sched Cert.Kernel.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The ghost state's big products written out -/

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_33 (Φ : Fin 3 × Fin 3 → sProp 𝕄) : bigSep Finset.univ Φ = bigSepL [((0 : Fin 3), (0 : Fin 3)), ((0 : Fin 3), (1 : Fin 3)), ((0 : Fin 3), (2 : Fin 3)), ((1 : Fin 3), (0 : Fin 3)), ((1 : Fin 3), (1 : Fin 3)), ((1 : Fin 3), (2 : Fin 3)), ((2 : Fin 3), (0 : Fin 3)), ((2 : Fin 3), (1 : Fin 3)), ((2 : Fin 3), (2 : Fin 3))] Φ := bigSep_univ_eq_bigSepL _ (by decide) (by decide) Φ
omit [FloatOps F] in
theorem bigSep_32 (Φ : Fin 3 × Fin 2 → sProp 𝕄) : bigSep Finset.univ Φ = bigSepL [((0 : Fin 3), (0 : Fin 2)), ((0 : Fin 3), (1 : Fin 2)), ((1 : Fin 3), (0 : Fin 2)), ((1 : Fin 3), (1 : Fin 2)), ((2 : Fin 3), (0 : Fin 2)), ((2 : Fin 3), (1 : Fin 2))] Φ := bigSep_univ_eq_bigSepL _ (by decide) (by decide) Φ
omit [FloatOps F] in
theorem bigSep_cix (Φ : CIx → sProp 𝕄) : bigSep Finset.univ Φ = bigSepL [(none : CIx), some ((0 : Fin 4), (0 : Fin 3), (0 : Fin 3)), some ((0 : Fin 4), (0 : Fin 3), (1 : Fin 3)), some ((0 : Fin 4), (0 : Fin 3), (2 : Fin 3)), some ((0 : Fin 4), (1 : Fin 3), (0 : Fin 3)), some ((0 : Fin 4), (1 : Fin 3), (1 : Fin 3)), some ((0 : Fin 4), (1 : Fin 3), (2 : Fin 3)), some ((0 : Fin 4), (2 : Fin 3), (0 : Fin 3)), some ((0 : Fin 4), (2 : Fin 3), (1 : Fin 3)), some ((0 : Fin 4), (2 : Fin 3), (2 : Fin 3)), some ((1 : Fin 4), (0 : Fin 3), (0 : Fin 3)), some ((1 : Fin 4), (0 : Fin 3), (1 : Fin 3)), some ((1 : Fin 4), (0 : Fin 3), (2 : Fin 3)), some ((1 : Fin 4), (1 : Fin 3), (0 : Fin 3)), some ((1 : Fin 4), (1 : Fin 3), (1 : Fin 3)), some ((1 : Fin 4), (1 : Fin 3), (2 : Fin 3)), some ((1 : Fin 4), (2 : Fin 3), (0 : Fin 3)), some ((1 : Fin 4), (2 : Fin 3), (1 : Fin 3)), some ((1 : Fin 4), (2 : Fin 3), (2 : Fin 3)), some ((2 : Fin 4), (0 : Fin 3), (0 : Fin 3)), some ((2 : Fin 4), (0 : Fin 3), (1 : Fin 3)), some ((2 : Fin 4), (0 : Fin 3), (2 : Fin 3)), some ((2 : Fin 4), (1 : Fin 3), (0 : Fin 3)), some ((2 : Fin 4), (1 : Fin 3), (1 : Fin 3)), some ((2 : Fin 4), (1 : Fin 3), (2 : Fin 3)), some ((2 : Fin 4), (2 : Fin 3), (0 : Fin 3)), some ((2 : Fin 4), (2 : Fin 3), (1 : Fin 3)), some ((2 : Fin 4), (2 : Fin 3), (2 : Fin 3)), some ((3 : Fin 4), (0 : Fin 3), (0 : Fin 3)), some ((3 : Fin 4), (0 : Fin 3), (1 : Fin 3)), some ((3 : Fin 4), (0 : Fin 3), (2 : Fin 3)), some ((3 : Fin 4), (1 : Fin 3), (0 : Fin 3)), some ((3 : Fin 4), (1 : Fin 3), (1 : Fin 3)), some ((3 : Fin 4), (1 : Fin 3), (2 : Fin 3)), some ((3 : Fin 4), (2 : Fin 3), (0 : Fin 3)), some ((3 : Fin 4), (2 : Fin 3), (1 : Fin 3)), some ((3 : Fin 4), (2 : Fin 3), (2 : Fin 3))] Φ := bigSep_univ_eq_bigSepL _ (by decide) (by decide) Φ

omit [FloatOps F] in
theorem payToks_eq (c : Dev nD) : (payToks c : sProp 𝕄) = iprop((dutyTok ER (barCell (Mesh.px 1 c)) 0 (0 : Fin 4) ∗ dutyTok ER (barCell (Mesh.px 2 c)) 0 (1 : Fin 4) ∗ dutyTok ER (barCell (Mesh.px 3 c)) 0 (2 : Fin 4) ∗ dutyTok ER (barCell (Mesh.px 4 c)) 0 (3 : Fin 4))
    ∗ (dutyTok ER (dcell 1 0 0 (Mesh.px 3 c)) 0 (0 : Fin 4) ∗ dutyTok ER (dcell 1 0 1 (Mesh.px 1 c)) 0 (0 : Fin 4) ∗ dutyTok ER (dcell 1 0 2 (Mesh.px 4 c)) 0 (0 : Fin 4) ∗ dutyTok ER (dcell 1 1 0 (Mesh.px 4 c)) 0 (0 : Fin 4) ∗ dutyTok ER (dcell 1 1 1 (Mesh.px 3 c)) 0 (0 : Fin 4) ∗ dutyTok ER (dcell 1 1 2 (Mesh.px 1 c)) 0 (0 : Fin 4) ∗ dutyTok ER (dcell 1 2 0 (Mesh.px 1 c)) 0 (0 : Fin 4) ∗ dutyTok ER (dcell 1 2 1 (Mesh.px 4 c)) 0 (0 : Fin 4) ∗ dutyTok ER (dcell 1 2 2 (Mesh.px 2 c)) 0 (0 : Fin 4))
    ∗ (dutyTok ER (dcell 3 0 0 (Mesh.px 3 c)) 0 (0 : Fin 4) ∗ dutyTok ER (dcell 3 0 1 (Mesh.px 1 c)) 0 (0 : Fin 4) ∗ dutyTok ER (dcell 3 1 0 (Mesh.px 4 c)) 0 (0 : Fin 4) ∗ dutyTok ER (dcell 3 1 1 (Mesh.px 3 c)) 0 (0 : Fin 4) ∗ dutyTok ER (dcell 3 2 0 (Mesh.px 1 c)) 0 (0 : Fin 4) ∗ dutyTok ER (dcell 3 2 1 (Mesh.px 4 c)) 0 (0 : Fin 4))
    ∗ (dutyTok ER (dcell 0 0 0 c) 0 (0 : Fin 4) ∗ dutyTok ER (dcell 0 0 1 c) 0 (0 : Fin 4) ∗ dutyTok ER (dcell 0 0 2 c) 0 (0 : Fin 4) ∗ dutyTok ER (dcell 0 1 0 c) 0 (0 : Fin 4) ∗ dutyTok ER (dcell 0 1 1 c) 0 (0 : Fin 4) ∗ dutyTok ER (dcell 0 1 2 c) 0 (0 : Fin 4) ∗ dutyTok ER (dcell 0 2 0 c) 0 (0 : Fin 4) ∗ dutyTok ER (dcell 0 2 1 c) 0 (0 : Fin 4) ∗ dutyTok ER (dcell 0 2 2 c) 0 (0 : Fin 4))
    ∗ (dutyTok ER (dcell 2 0 0 c) 0 (0 : Fin 4) ∗ dutyTok ER (dcell 2 0 1 c) 0 (0 : Fin 4) ∗ dutyTok ER (dcell 2 1 0 c) 0 (0 : Fin 4) ∗ dutyTok ER (dcell 2 1 1 c) 0 (0 : Fin 4) ∗ dutyTok ER (dcell 2 2 0 c) 0 (0 : Fin 4) ∗ dutyTok ER (dcell 2 2 1 c) 0 (0 : Fin 4))) := by
  unfold payToks
  rw [bigSep_fin4, bigSep_33, bigSep_32, bigSep_33, bigSep_32]
  simp only [bigSepL_cons_cons, bigSepL_singleton]
  rfl

omit [FloatOps F] in
theorem positions_eq (c : Dev nD) : (positions c : sProp 𝕄) = iprop(atPos ER (barCell c) 0 ∅ 0 ∗ atPos ER (dcell 0 0 0 c) 0 ∅ 0 ∗ atPos ER (dcell 0 0 1 c) 0 ∅ 0 ∗ atPos ER (dcell 0 0 2 c) 0 ∅ 0 ∗ atPos ER (dcell 0 1 0 c) 0 ∅ 0 ∗ atPos ER (dcell 0 1 1 c) 0 ∅ 0 ∗ atPos ER (dcell 0 1 2 c) 0 ∅ 0 ∗ atPos ER (dcell 0 2 0 c) 0 ∅ 0 ∗ atPos ER (dcell 0 2 1 c) 0 ∅ 0 ∗ atPos ER (dcell 0 2 2 c) 0 ∅ 0 ∗ atPos ER (dcell 1 0 0 c) 0 ∅ 0 ∗ atPos ER (dcell 1 0 1 c) 0 ∅ 0 ∗ atPos ER (dcell 1 0 2 c) 0 ∅ 0 ∗ atPos ER (dcell 1 1 0 c) 0 ∅ 0 ∗ atPos ER (dcell 1 1 1 c) 0 ∅ 0 ∗ atPos ER (dcell 1 1 2 c) 0 ∅ 0 ∗ atPos ER (dcell 1 2 0 c) 0 ∅ 0 ∗ atPos ER (dcell 1 2 1 c) 0 ∅ 0 ∗ atPos ER (dcell 1 2 2 c) 0 ∅ 0 ∗ atPos ER (dcell 2 0 0 c) 0 ∅ 0 ∗ atPos ER (dcell 2 0 1 c) 0 ∅ 0 ∗ atPos ER (dcell 2 0 2 c) 0 ∅ 0 ∗ atPos ER (dcell 2 1 0 c) 0 ∅ 0 ∗ atPos ER (dcell 2 1 1 c) 0 ∅ 0 ∗ atPos ER (dcell 2 1 2 c) 0 ∅ 0 ∗ atPos ER (dcell 2 2 0 c) 0 ∅ 0 ∗ atPos ER (dcell 2 2 1 c) 0 ∅ 0 ∗ atPos ER (dcell 2 2 2 c) 0 ∅ 0 ∗ atPos ER (dcell 3 0 0 c) 0 ∅ 0 ∗ atPos ER (dcell 3 0 1 c) 0 ∅ 0 ∗ atPos ER (dcell 3 0 2 c) 0 ∅ 0 ∗ atPos ER (dcell 3 1 0 c) 0 ∅ 0 ∗ atPos ER (dcell 3 1 1 c) 0 ∅ 0 ∗ atPos ER (dcell 3 1 2 c) 0 ∅ 0 ∗ atPos ER (dcell 3 2 0 c) 0 ∅ 0 ∗ atPos ER (dcell 3 2 1 c) 0 ∅ 0 ∗ atPos ER (dcell 3 2 2 c) 0 ∅ 0) := by
  unfold positions
  rw [bigSep_cix]
  simp only [bigSepL_cons_cons, bigSepL_singleton]
  rfl

omit [FloatOps F] in
theorem creds_eq (c : Dev nD) : (creds c : sProp 𝕄) = iprop(cred (tallyAt (barCell c) () 4)
    ∗ (cred (tallyAt (dcell 1 0 0 c) () (namt 1 0 0)) ∗ cred (tallyAt (dcell 1 0 1 c) () (namt 1 0 1)) ∗ cred (tallyAt (dcell 1 0 2 c) () (namt 1 0 2)) ∗ cred (tallyAt (dcell 1 1 0 c) () (namt 1 1 0)) ∗ cred (tallyAt (dcell 1 1 1 c) () (namt 1 1 1)) ∗ cred (tallyAt (dcell 1 1 2 c) () (namt 1 1 2)) ∗ cred (tallyAt (dcell 1 2 0 c) () (namt 1 2 0)) ∗ cred (tallyAt (dcell 1 2 1 c) () (namt 1 2 1)) ∗ cred (tallyAt (dcell 1 2 2 c) () (namt 1 2 2)))
    ∗ (cred (tallyAt (dcell 3 0 0 c) () (namt 3 0 0)) ∗ cred (tallyAt (dcell 3 0 1 c) () (namt 3 0 1)) ∗ cred (tallyAt (dcell 3 1 0 c) () (namt 3 1 0)) ∗ cred (tallyAt (dcell 3 1 1 c) () (namt 3 1 1)) ∗ cred (tallyAt (dcell 3 2 0 c) () (namt 3 2 0)) ∗ cred (tallyAt (dcell 3 2 1 c) () (namt 3 2 1)))) := by
  unfold creds
  rw [bigSep_33, bigSep_32]
  simp only [bigSepL_cons_cons, bigSepL_singleton]
  rfl

section Inv
variable (m : (ℓ : Loc nD τ sig) → Buf (Elt F) ℓ) (K : Dev nD × CIx → ℕ)
instance records_persistent : BI.Persistent (records (F := F) m K) := by unfold records; infer_instance
theorem inv_at (ck : Dev nD × CIx) : records (F := F) m K ⊢ cellInv ER (Rd m) (K ck) (kcell ck) := by
  have h : (bigSep Finset.univ fun ck : Dev nD × CIx => (cellInv ER (Rd m) (K ck) (kcell ck) : sProp 𝕄)) ⊢ cellInv ER (Rd m) (K ck) (kcell ck) := bigSep_elim (Finset.mem_univ ck)
  unfold records
  iintro ⟨HI, HR⟩
  iapply h
  iexact HI
theorem reached_at (ck : Dev nD × CIx) : records (F := F) m K ⊢ reached ER (kcell ck) 0 := by
  have h : (bigSep Finset.univ fun ck : Dev nD × CIx => (reached ER (kcell ck) 0 : sProp 𝕄)) ⊢ reached ER (kcell ck) 0 := bigSep_elim (Finset.mem_univ ck)
  unfold records
  iintro ⟨HI, HR⟩
  iapply h
  iexact HR
theorem inv_bar (d : Dev nD) : records (F := F) m K ⊢ cellInv ER (Rd m) (K (d, none)) (barCell d) := inv_at m K (d, none)
theorem inv_d (A : Fin 4) (b k : Fin 3) (d : Dev nD) : records (F := F) m K ⊢ cellInv ER (Rd m) (K (d, some (A, b, k))) (dcell A b k d) := inv_at m K (d, some (A, b, k))
theorem reached_bar (d : Dev nD) : records (F := F) m K ⊢ reached ER (barCell d) 0 := reached_at m K (d, none)
theorem reached_d (A : Fin 4) (b k : Fin 3) (d : Dev nD) : records (F := F) m K ⊢ reached ER (dcell A b k d) 0 := reached_at m K (d, some (A, b, k))
end Inv

section Sig
variable (m : (ℓ : Loc nD τ sig) → Buf (Elt F) ℓ) (K : Dev nD × CIx → ℕ)

/-- The entry signal to the partner under the mask 1: the device hands over its receive slots and gather rows that this partner writes. -/
theorem sig0 (c : Dev nD) (O : CellTallies nD τ sig Unit) {W : Waits sig Unit} {α : Type} {Q : α → sProp 𝕄}
    {kk : PUnit → Prog (TpuEff nD τ sig (Elt F) Λ₀ .tc) α} (f1 : Buf (Elt F) (rSlot01.view.loc (c : Thread nD τ))) (f2 : Buf (Elt F) (rSlot12.view.loc (c : Thread nD τ))) (f3 : Buf (Elt F) (rSlot20.view.loc (c : Thread nD τ))) (f4 : Buf (Elt F) ((aRows01 (Mesh.px 1 c)).view.loc (c : Thread nD τ))) (f5 : Buf (Elt F) ((aRows20 (Mesh.px 1 c)).view.loc (c : Thread nD τ))) :
    iprop(records m K ∗ owes (c : Thread nD τ) (O + tallyAt (barCell (Mesh.px 1 c)) () 1) W ∗ dutyTok ER (barCell (Mesh.px 1 c)) 0 (0 : Fin 4)
        ∗ (rSlot01.view.loc (c : Thread nD τ) ↦[rSlot01.view.set]{fullShare} f1)
        ∗ (rSlot12.view.loc (c : Thread nD τ) ↦[rSlot12.view.set]{fullShare} f2)
        ∗ (rSlot20.view.loc (c : Thread nD τ) ↦[rSlot20.view.set]{fullShare} f3)
        ∗ ((aRows01 (Mesh.px 1 c)).view.loc (c : Thread nD τ) ↦[(aRows01 (Mesh.px 1 c)).view.set]{fullShare} f4)
        ∗ ((aRows20 (Mesh.px 1 c)).view.loc (c : Thread nD τ) ↦[(aRows20 (Mesh.px 1 c)).view.set]{fullShare} f5))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 1 c : Thread nD τ) barS 1) kk) Q) := by
  iintro ⟨#Hrec, HO, Ht, H1, H2, H3, H4, H5⟩
  iapply (Tables.wp_signal_bar m c 1 0 (κ := K (Mesh.px 1 c, none)) O rfl) $$ [HO Ht H1 H2 H3 H4 H5]
  isplitr; · iapply (inv_bar m K (Mesh.px 1 c)); iexact Hrec
  isplitl [HO]; · iexact HO
  isplitl [Ht]; · iexact Ht
  isplitl [H1 H2 H3 H4 H5]
  · rw [← Tables.payload_bar m (Mesh.px 1 c) 0, Tables.payload_bar_px1]
    isplitl [H1]
    · isplitl [H1]; · iexists f1; iexact H1
      iapply (reached_d m K 1 0 1 c); iexact Hrec
    isplitl [H2]
    · isplitl [H2]; · iexists f2; iexact H2
      iapply (reached_d m K 1 1 2 c); iexact Hrec
    isplitl [H3]
    · isplitl [H3]; · iexists f3; iexact H3
      iapply (reached_d m K 1 2 0 c); iexact Hrec
    isplitl [H4]
    · isplitl [H4]; · iexists f4; iexact H4
      iapply (reached_d m K 3 0 1 c); iexact Hrec
    · isplitl [H5]; · iexists f5; iexact H5
      iapply (reached_d m K 3 2 0 c); iexact Hrec
  · iapply (reached_bar m K (Mesh.px 1 c)); iexact Hrec

/-- The entry signal to the partner under the mask 2: the device hands over its receive slots and gather rows that this partner writes. -/
theorem sig1 (c : Dev nD) (O : CellTallies nD τ sig Unit) {W : Waits sig Unit} {α : Type} {Q : α → sProp 𝕄}
    {kk : PUnit → Prog (TpuEff nD τ sig (Elt F) Λ₀ .tc) α} (f1 : Buf (Elt F) (rSlot22.view.loc (c : Thread nD τ))) :
    iprop(records m K ∗ owes (c : Thread nD τ) (O + tallyAt (barCell (Mesh.px 2 c)) () 1) W ∗ dutyTok ER (barCell (Mesh.px 2 c)) 0 (1 : Fin 4)
        ∗ (rSlot22.view.loc (c : Thread nD τ) ↦[rSlot22.view.set]{fullShare} f1))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 2 c : Thread nD τ) barS 1) kk) Q) := by
  iintro ⟨#Hrec, HO, Ht, H1⟩
  iapply (Tables.wp_signal_bar m c 2 1 (κ := K (Mesh.px 2 c, none)) O rfl) $$ [HO Ht H1]
  isplitr; · iapply (inv_bar m K (Mesh.px 2 c)); iexact Hrec
  isplitl [HO]; · iexact HO
  isplitl [Ht]; · iexact Ht
  isplitl [H1]
  · rw [← Tables.payload_bar m (Mesh.px 2 c) 1, Tables.payload_bar_px2]
    · isplitl [H1]; · iexists f1; iexact H1
      iapply (reached_d m K 1 2 2 c); iexact Hrec
  · iapply (reached_bar m K (Mesh.px 2 c)); iexact Hrec

/-- The entry signal to the partner under the mask 3: the device hands over its receive slots and gather rows that this partner writes. -/
theorem sig2 (c : Dev nD) (O : CellTallies nD τ sig Unit) {W : Waits sig Unit} {α : Type} {Q : α → sProp 𝕄}
    {kk : PUnit → Prog (TpuEff nD τ sig (Elt F) Λ₀ .tc) α} (f1 : Buf (Elt F) (rSlot00.view.loc (c : Thread nD τ))) (f2 : Buf (Elt F) (rSlot11.view.loc (c : Thread nD τ))) (f3 : Buf (Elt F) ((aRows00 (Mesh.px 3 c)).view.loc (c : Thread nD τ))) (f4 : Buf (Elt F) ((aRows11 (Mesh.px 3 c)).view.loc (c : Thread nD τ))) :
    iprop(records m K ∗ owes (c : Thread nD τ) (O + tallyAt (barCell (Mesh.px 3 c)) () 1) W ∗ dutyTok ER (barCell (Mesh.px 3 c)) 0 (2 : Fin 4)
        ∗ (rSlot00.view.loc (c : Thread nD τ) ↦[rSlot00.view.set]{fullShare} f1)
        ∗ (rSlot11.view.loc (c : Thread nD τ) ↦[rSlot11.view.set]{fullShare} f2)
        ∗ ((aRows00 (Mesh.px 3 c)).view.loc (c : Thread nD τ) ↦[(aRows00 (Mesh.px 3 c)).view.set]{fullShare} f3)
        ∗ ((aRows11 (Mesh.px 3 c)).view.loc (c : Thread nD τ) ↦[(aRows11 (Mesh.px 3 c)).view.set]{fullShare} f4))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 3 c : Thread nD τ) barS 1) kk) Q) := by
  iintro ⟨#Hrec, HO, Ht, H1, H2, H3, H4⟩
  iapply (Tables.wp_signal_bar m c 3 2 (κ := K (Mesh.px 3 c, none)) O rfl) $$ [HO Ht H1 H2 H3 H4]
  isplitr; · iapply (inv_bar m K (Mesh.px 3 c)); iexact Hrec
  isplitl [HO]; · iexact HO
  isplitl [Ht]; · iexact Ht
  isplitl [H1 H2 H3 H4]
  · rw [← Tables.payload_bar m (Mesh.px 3 c) 2, Tables.payload_bar_px3]
    isplitl [H1]
    · isplitl [H1]; · iexists f1; iexact H1
      iapply (reached_d m K 1 0 0 c); iexact Hrec
    isplitl [H2]
    · isplitl [H2]; · iexists f2; iexact H2
      iapply (reached_d m K 1 1 1 c); iexact Hrec
    isplitl [H3]
    · isplitl [H3]; · iexists f3; iexact H3
      iapply (reached_d m K 3 0 0 c); iexact Hrec
    · isplitl [H4]; · iexists f4; iexact H4
      iapply (reached_d m K 3 1 1 c); iexact Hrec
  · iapply (reached_bar m K (Mesh.px 3 c)); iexact Hrec

/-- The entry signal to the partner under the mask 4: the device hands over its receive slots and gather rows that this partner writes. -/
theorem sig3 (c : Dev nD) (O : CellTallies nD τ sig Unit) {W : Waits sig Unit} {α : Type} {Q : α → sProp 𝕄}
    {kk : PUnit → Prog (TpuEff nD τ sig (Elt F) Λ₀ .tc) α} (f1 : Buf (Elt F) (rSlot02.view.loc (c : Thread nD τ))) (f2 : Buf (Elt F) (rSlot10.view.loc (c : Thread nD τ))) (f3 : Buf (Elt F) (rSlot21.view.loc (c : Thread nD τ))) (f4 : Buf (Elt F) ((aRows10 (Mesh.px 4 c)).view.loc (c : Thread nD τ))) (f5 : Buf (Elt F) ((aRows21 (Mesh.px 4 c)).view.loc (c : Thread nD τ))) :
    iprop(records m K ∗ owes (c : Thread nD τ) (O + tallyAt (barCell (Mesh.px 4 c)) () 1) W ∗ dutyTok ER (barCell (Mesh.px 4 c)) 0 (3 : Fin 4)
        ∗ (rSlot02.view.loc (c : Thread nD τ) ↦[rSlot02.view.set]{fullShare} f1)
        ∗ (rSlot10.view.loc (c : Thread nD τ) ↦[rSlot10.view.set]{fullShare} f2)
        ∗ (rSlot21.view.loc (c : Thread nD τ) ↦[rSlot21.view.set]{fullShare} f3)
        ∗ ((aRows10 (Mesh.px 4 c)).view.loc (c : Thread nD τ) ↦[(aRows10 (Mesh.px 4 c)).view.set]{fullShare} f4)
        ∗ ((aRows21 (Mesh.px 4 c)).view.loc (c : Thread nD τ) ↦[(aRows21 (Mesh.px 4 c)).view.set]{fullShare} f5))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Mesh.px 4 c : Thread nD τ) barS 1) kk) Q) := by
  iintro ⟨#Hrec, HO, Ht, H1, H2, H3, H4, H5⟩
  iapply (Tables.wp_signal_bar m c 4 3 (κ := K (Mesh.px 4 c, none)) O rfl) $$ [HO Ht H1 H2 H3 H4 H5]
  isplitr; · iapply (inv_bar m K (Mesh.px 4 c)); iexact Hrec
  isplitl [HO]; · iexact HO
  isplitl [Ht]; · iexact Ht
  isplitl [H1 H2 H3 H4 H5]
  · rw [← Tables.payload_bar m (Mesh.px 4 c) 3, Tables.payload_bar_px4]
    isplitl [H1]
    · isplitl [H1]; · iexists f1; iexact H1
      iapply (reached_d m K 1 0 2 c); iexact Hrec
    isplitl [H2]
    · isplitl [H2]; · iexists f2; iexact H2
      iapply (reached_d m K 1 1 0 c); iexact Hrec
    isplitl [H3]
    · isplitl [H3]; · iexists f3; iexact H3
      iapply (reached_d m K 1 2 1 c); iexact Hrec
    isplitl [H4]
    · isplitl [H4]; · iexists f4; iexact H4
      iapply (reached_d m K 3 1 0 c); iexact Hrec
    · isplitl [H5]; · iexists f5; iexact H5
      iapply (reached_d m K 3 2 1 c); iexact Hrec
  · iapply (reached_bar m K (Mesh.px 4 c)); iexact Hrec

end Sig

section BarWait
variable (m : (ℓ : Loc nD τ sig) → Buf (Elt F) ℓ) (K : Dev nD × CIx → ℕ)
/-- The barrier wait, owing the fifteen arrivals: the four partners' slots and gather rows come with it. -/
theorem barwait (c : Dev nD) {W : Waits sig Unit} {α : Type} {Q : α → sProp 𝕄}
    {kk : PUnit → Prog (TpuEff nD τ sig (Elt F) Λ₀ .tc) α} :
    iprop(records m K ∗ levAts L lv ∗ cred (tallyAt (barCell c) () 4) ∗ owes (c : Thread nD τ) (Orem c 4) W ∗ atPos ER (barCell c) 0 ∅ 0)
      ⊢ iprop(((owes (c : Thread nD τ) (Orem c 4) (insert (SemLoc.reg barS, ()) W) ∗ atPos ER (barCell c) 1 ∅ 0
              ∗ ((((∃ f, rSlot01.view.loc (Mesh.px 1 c : Thread nD τ) ↦[rSlot01.view.set]{fullShare} f) ∗ reached ER (dcell 1 0 1 (Mesh.px 1 c)) 0)
          ∗ ((∃ f, rSlot12.view.loc (Mesh.px 1 c : Thread nD τ) ↦[rSlot12.view.set]{fullShare} f) ∗ reached ER (dcell 1 1 2 (Mesh.px 1 c)) 0)
          ∗ ((∃ f, rSlot20.view.loc (Mesh.px 1 c : Thread nD τ) ↦[rSlot20.view.set]{fullShare} f) ∗ reached ER (dcell 1 2 0 (Mesh.px 1 c)) 0)
          ∗ ((∃ f, (aRows01 c).view.loc (Mesh.px 1 c : Thread nD τ) ↦[(aRows01 c).view.set]{fullShare} f) ∗ reached ER (dcell 3 0 1 (Mesh.px 1 c)) 0)
          ∗ ((∃ f, (aRows20 c).view.loc (Mesh.px 1 c : Thread nD τ) ↦[(aRows20 c).view.set]{fullShare} f) ∗ reached ER (dcell 3 2 0 (Mesh.px 1 c)) 0))
               ∗ (((∃ f, rSlot22.view.loc (Mesh.px 2 c : Thread nD τ) ↦[rSlot22.view.set]{fullShare} f) ∗ reached ER (dcell 1 2 2 (Mesh.px 2 c)) 0))
               ∗ (((∃ f, rSlot00.view.loc (Mesh.px 3 c : Thread nD τ) ↦[rSlot00.view.set]{fullShare} f) ∗ reached ER (dcell 1 0 0 (Mesh.px 3 c)) 0)
          ∗ ((∃ f, rSlot11.view.loc (Mesh.px 3 c : Thread nD τ) ↦[rSlot11.view.set]{fullShare} f) ∗ reached ER (dcell 1 1 1 (Mesh.px 3 c)) 0)
          ∗ ((∃ f, (aRows00 c).view.loc (Mesh.px 3 c : Thread nD τ) ↦[(aRows00 c).view.set]{fullShare} f) ∗ reached ER (dcell 3 0 0 (Mesh.px 3 c)) 0)
          ∗ ((∃ f, (aRows11 c).view.loc (Mesh.px 3 c : Thread nD τ) ↦[(aRows11 c).view.set]{fullShare} f) ∗ reached ER (dcell 3 1 1 (Mesh.px 3 c)) 0))
               ∗ (((∃ f, rSlot02.view.loc (Mesh.px 4 c : Thread nD τ) ↦[rSlot02.view.set]{fullShare} f) ∗ reached ER (dcell 1 0 2 (Mesh.px 4 c)) 0)
          ∗ ((∃ f, rSlot10.view.loc (Mesh.px 4 c : Thread nD τ) ↦[rSlot10.view.set]{fullShare} f) ∗ reached ER (dcell 1 1 0 (Mesh.px 4 c)) 0)
          ∗ ((∃ f, rSlot21.view.loc (Mesh.px 4 c : Thread nD τ) ↦[rSlot21.view.set]{fullShare} f) ∗ reached ER (dcell 1 2 1 (Mesh.px 4 c)) 0)
          ∗ ((∃ f, (aRows10 c).view.loc (Mesh.px 4 c : Thread nD τ) ↦[(aRows10 c).view.set]{fullShare} f) ∗ reached ER (dcell 3 1 0 (Mesh.px 4 c)) 0)
          ∗ ((∃ f, (aRows21 c).view.loc (Mesh.px 4 c : Thread nD τ) ↦[(aRows21 c).view.set]{fullShare} f) ∗ reached ER (dcell 3 2 1 (Mesh.px 4 c)) 0))))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 4) kk) Q) := by
  iintro ⟨#Hrec, #Hlev, Hc, HO, Hat⟩ Hk
  iapply (Tables.wp_wait_bar m c (κ := K (c, none))) $$ [Hc HO Hat]
  · isplitr; · iapply (inv_bar m K c); iexact Hrec
    isplitl [Hc]; · iexact Hc
    isplitl [HO]; · iexact HO
    isplitr; · iapply (Tables.mayWait_bar c); iexact Hlev
    iexact Hat
  iintro ⟨HO, Hat, -, Hpay⟩
  iapply Hk
  isplitl [HO]; · iexact HO
  isplitl [Hat]; · iexact Hat
  unfold barPay
  iexact Hpay
end BarWait

theorem Orem_0_4 (c : Dev nD) : Orem c 0 = Orem c 4 + tallyAt (barCell (Mesh.px 4 c)) () 1 + tallyAt (barCell (Mesh.px 3 c)) () 1
    + tallyAt (barCell (Mesh.px 2 c)) () 1 + tallyAt (barCell (Mesh.px 1 c)) () 1 := by
  rw [Orem_lt c 0 (by decide), Orem_lt c 1 (by decide), Orem_lt c 2 (by decide), Orem_lt c 3 (by decide)]
  rfl

end Cert.Kernel.Body

end
-- ==== Proof.KCuts.lean ====
/-
  Cuts through a device's run of the body, as assertions at a symbolic device: what it holds after the entry handshake and
  the first three departures, before the second and the third exchange stage, just before its first all-gather transfer,
  and once every arrival has been waited for and the result is complete with the first two departures of the exchange
  already waited. Each phase is proved from one cut to the next.
-/
import proofs.«900524_g7700000000000525_dist_gated_mlp_tp_i_m1024_h2048_d1024_v7x_i8_f32_1_alg».proof.Proof.KIface
import proofs.«900524_g7700000000000525_dist_gated_mlp_tp_i_m1024_h2048_d1024_v7x_i8_f32_1_alg».proof.Proof.KStor
import proofs.«900524_g7700000000000525_dist_gated_mlp_tp_i_m1024_h2048_d1024_v7x_i8_f32_1_alg».proof.Proof.KMem

noncomputable section

namespace Cert.Kernel.Cuts

open Cert.Kernel Cert.Kernel.Gen Cert.Kernel.Sched Cert.Kernel.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! Every whole buffer is held through its memref's view (location xM.view.loc c, all its elements). -/

local notation "𝕄" => MT nD τ sig Unit (Elt F) ℕ UU ℕ

/-- The send buffer comes back whole once its nine slots, lent to the departures, have been returned. -/
def sbufBack (c : Dev nD) : sProp 𝕄 :=
  iprop((rsSendPay 0 0 c ∗ rsSendPay 0 1 c ∗ rsSendPay 0 2 c ∗ rsSendPay 1 0 c ∗ rsSendPay 1 1 c ∗ rsSendPay 1 2 c ∗ rsSendPay 2 0 c ∗ rsSendPay 2 1 c ∗ rsSendPay 2 2 c)
    -∗ ∃ f : Buf (Elt F) ((sM : Memref sig .tc .vmem S3x384x1024 .bf16).view.loc (c : Thread nD τ)), ((sM : Memref sig .tc .vmem S3x384x1024 .bf16).view.loc (c : Thread nD τ)) ↦{fullShare} f)

/-- The receive buffer comes back whole once its nine slots, handed to the partners at entry, have come back. -/
def rbufBack (c : Dev nD) : sProp 𝕄 :=
  iprop(((∃ f, rSlot00.view.loc (c : Thread nD τ) ↦[rSlot00.view.set]{fullShare} f) ∗ (∃ f, rSlot01.view.loc (c : Thread nD τ) ↦[rSlot01.view.set]{fullShare} f) ∗ (∃ f, rSlot02.view.loc (c : Thread nD τ) ↦[rSlot02.view.set]{fullShare} f) ∗ (∃ f, rSlot10.view.loc (c : Thread nD τ) ↦[rSlot10.view.set]{fullShare} f) ∗ (∃ f, rSlot11.view.loc (c : Thread nD τ) ↦[rSlot11.view.set]{fullShare} f) ∗ (∃ f, rSlot12.view.loc (c : Thread nD τ) ↦[rSlot12.view.set]{fullShare} f) ∗ (∃ f, rSlot20.view.loc (c : Thread nD τ) ↦[rSlot20.view.set]{fullShare} f) ∗ (∃ f, rSlot21.view.loc (c : Thread nD τ) ↦[rSlot21.view.set]{fullShare} f) ∗ (∃ f, rSlot22.view.loc (c : Thread nD τ) ↦[rSlot22.view.set]{fullShare} f))
    -∗ ∃ f : Buf (Elt F) ((rM : Memref sig .tc .vmem S3x384x1024 .bf16).view.loc (c : Thread nD τ)), ((rM : Memref sig .tc .vmem S3x384x1024 .bf16).view.loc (c : Thread nD τ)) ↦{fullShare} f)

/-- The gather buffer comes back whole once the shares lent to its six departures have been returned. -/
def abufBack (c : Dev nD) : sProp 𝕄 :=
  iprop((agSendPay 0 0 c ∗ agSendPay 0 1 c ∗ agSendPay 1 0 c ∗ agSendPay 1 1 c ∗ agSendPay 2 0 c ∗ agSendPay 2 1 c)
    -∗ ∃ f : Buf (Elt F) ((aM : Memref sig .tc .vmem S1024x1024 .bf16).view.loc (c : Thread nD τ)), ((aM : Memref sig .tc .vmem S1024x1024 .bf16).view.loc (c : Thread nD τ)) ↦{fullShare} f)

variable (m : (ℓ : Loc nD τ sig) → Buf (Elt F) ℓ) (K : Dev nD × CIx → ℕ)

/-- Between the sixth and the seventh printed part: the entry handshake is over and the three stage-0 blocks are on
    their way (seven payments made, no arrival waited yet); the kept halves of butterflies 0 and 1 hold the device's own
    product (butterfly 2's kept tile is computed next, from the value the sixth part hands on). -/
def PreR0 (c : Dev nD) (W : Waits sig Unit) : sProp 𝕄 :=
  iprop(records m K
    ∗ levAts L lv
    ∗ atPos ER (barCell c) 1 ∅ 0
    ∗ atPos ER (dcell 1 0 0 c) 0 ∅ 0
    ∗ atPos ER (dcell 1 0 1 c) 0 ∅ 0
    ∗ atPos ER (dcell 1 0 2 c) 0 ∅ 0
    ∗ atPos ER (dcell 1 1 0 c) 0 ∅ 0
    ∗ atPos ER (dcell 1 1 1 c) 0 ∅ 0
    ∗ atPos ER (dcell 1 1 2 c) 0 ∅ 0
    ∗ atPos ER (dcell 1 2 0 c) 0 ∅ 0
    ∗ atPos ER (dcell 1 2 1 c) 0 ∅ 0
    ∗ atPos ER (dcell 1 2 2 c) 0 ∅ 0
    ∗ atPos ER (dcell 0 0 0 c) 0 ∅ 0
    ∗ atPos ER (dcell 0 0 1 c) 0 ∅ 0
    ∗ atPos ER (dcell 0 0 2 c) 0 ∅ 0
    ∗ atPos ER (dcell 0 1 0 c) 0 ∅ 0
    ∗ atPos ER (dcell 0 1 1 c) 0 ∅ 0
    ∗ atPos ER (dcell 0 1 2 c) 0 ∅ 0
    ∗ atPos ER (dcell 0 2 0 c) 0 ∅ 0
    ∗ atPos ER (dcell 0 2 1 c) 0 ∅ 0
    ∗ atPos ER (dcell 0 2 2 c) 0 ∅ 0
    ∗ atPos ER (dcell 2 0 0 c) 0 ∅ 0
    ∗ atPos ER (dcell 2 0 1 c) 0 ∅ 0
    ∗ atPos ER (dcell 2 0 2 c) 0 ∅ 0
    ∗ atPos ER (dcell 2 1 0 c) 0 ∅ 0
    ∗ atPos ER (dcell 2 1 1 c) 0 ∅ 0
    ∗ atPos ER (dcell 2 1 2 c) 0 ∅ 0
    ∗ atPos ER (dcell 2 2 0 c) 0 ∅ 0
    ∗ atPos ER (dcell 2 2 1 c) 0 ∅ 0
    ∗ atPos ER (dcell 2 2 2 c) 0 ∅ 0
    ∗ atPos ER (dcell 3 0 0 c) 0 ∅ 0
    ∗ atPos ER (dcell 3 0 1 c) 0 ∅ 0
    ∗ atPos ER (dcell 3 0 2 c) 0 ∅ 0
    ∗ atPos ER (dcell 3 1 0 c) 0 ∅ 0
    ∗ atPos ER (dcell 3 1 1 c) 0 ∅ 0
    ∗ atPos ER (dcell 3 1 2 c) 0 ∅ 0
    ∗ atPos ER (dcell 3 2 0 c) 0 ∅ 0
    ∗ atPos ER (dcell 3 2 1 c) 0 ∅ 0
    ∗ atPos ER (dcell 3 2 2 c) 0 ∅ 0
    ∗ dutyTok ER (dcell 1 0 1 (Mesh.px 1 c)) 0 (0 : Fin 4)
    ∗ dutyTok ER (dcell 1 0 2 (Mesh.px 4 c)) 0 (0 : Fin 4)
    ∗ dutyTok ER (dcell 1 1 1 (Mesh.px 3 c)) 0 (0 : Fin 4)
    ∗ dutyTok ER (dcell 1 1 2 (Mesh.px 1 c)) 0 (0 : Fin 4)
    ∗ dutyTok ER (dcell 1 2 1 (Mesh.px 4 c)) 0 (0 : Fin 4)
    ∗ dutyTok ER (dcell 1 2 2 (Mesh.px 2 c)) 0 (0 : Fin 4)
    ∗ dutyTok ER (dcell 0 0 1 c) 0 (0 : Fin 4)
    ∗ dutyTok ER (dcell 0 0 2 c) 0 (0 : Fin 4)
    ∗ dutyTok ER (dcell 0 1 1 c) 0 (0 : Fin 4)
    ∗ dutyTok ER (dcell 0 1 2 c) 0 (0 : Fin 4)
    ∗ dutyTok ER (dcell 0 2 1 c) 0 (0 : Fin 4)
    ∗ dutyTok ER (dcell 0 2 2 c) 0 (0 : Fin 4)
    ∗ dutyTok ER (dcell 3 0 0 (Mesh.px 3 c)) 0 (0 : Fin 4)
    ∗ dutyTok ER (dcell 3 0 1 (Mesh.px 1 c)) 0 (0 : Fin 4)
    ∗ dutyTok ER (dcell 3 1 0 (Mesh.px 4 c)) 0 (0 : Fin 4)
    ∗ dutyTok ER (dcell 3 1 1 (Mesh.px 3 c)) 0 (0 : Fin 4)
    ∗ dutyTok ER (dcell 3 2 0 (Mesh.px 1 c)) 0 (0 : Fin 4)
    ∗ dutyTok ER (dcell 3 2 1 (Mesh.px 4 c)) 0 (0 : Fin 4)
    ∗ dutyTok ER (dcell 2 0 0 c) 0 (0 : Fin 4)
    ∗ dutyTok ER (dcell 2 0 1 c) 0 (0 : Fin 4)
    ∗ dutyTok ER (dcell 2 1 0 c) 0 (0 : Fin 4)
    ∗ dutyTok ER (dcell 2 1 1 c) 0 (0 : Fin 4)
    ∗ dutyTok ER (dcell 2 2 0 c) 0 (0 : Fin 4)
    ∗ dutyTok ER (dcell 2 2 1 c) 0 (0 : Fin 4)
    ∗ cred (tallyAt (dcell 1 0 0 c) () (namt 1 0 0))
    ∗ cred (tallyAt (dcell 1 0 1 c) () (namt 1 0 1))
    ∗ cred (tallyAt (dcell 1 0 2 c) () (namt 1 0 2))
    ∗ cred (tallyAt (dcell 1 1 0 c) () (namt 1 1 0))
    ∗ cred (tallyAt (dcell 1 1 1 c) () (namt 1 1 1))
    ∗ cred (tallyAt (dcell 1 1 2 c) () (namt 1 1 2))
    ∗ cred (tallyAt (dcell 1 2 0 c) () (namt 1 2 0))
    ∗ cred (tallyAt (dcell 1 2 1 c) () (namt 1 2 1))
    ∗ cred (tallyAt (dcell 1 2 2 c) () (namt 1 2 2))
    ∗ cred (tallyAt (dcell 3 0 0 c) () (namt 3 0 0))
    ∗ cred (tallyAt (dcell 3 0 1 c) () (namt 3 0 1))
    ∗ cred (tallyAt (dcell 3 1 0 c) () (namt 3 1 0))
    ∗ cred (tallyAt (dcell 3 1 1 c) () (namt 3 1 1))
    ∗ cred (tallyAt (dcell 3 2 0 c) () (namt 3 2 0))
    ∗ cred (tallyAt (dcell 3 2 1 c) () (namt 3 2 1))
    ∗ cred (tallyAt (dcell 0 0 0 c) () (namt 0 0 0))
    ∗ cred (tallyAt (dcell 0 1 0 c) () (namt 0 1 0))
    ∗ cred (tallyAt (dcell 0 2 0 c) () (namt 0 2 0))
    ∗ owes (c : Thread nD τ) (Orem c 7) W
    ∗ (((xM : Memref sig .tc .vmem S1024x1024 .f32).view.loc (c : Thread nD τ)) ↦{fullShare} xIn m c)
    ∗ (((gM : Memref sig .tc .vmem S1024x2048 .f32).view.loc (c : Thread nD τ)) ↦{fullShare} gIn m c)
    ∗ (((uM : Memref sig .tc .vmem S1024x2048 .f32).view.loc (c : Thread nD τ)) ↦{fullShare} uIn m c)
    ∗ (((dM : Memref sig .tc .vmem S2048x1024 .f32).view.loc (c : Thread nD τ)) ↦{fullShare} dIn m c)
    ∗ (∃ fo : Buf (Elt F) ((oM : Memref sig .tc .vmem S1024x1024 .f32).view.loc (c : Thread nD τ)), (((oM : Memref sig .tc .vmem S1024x1024 .f32).view.loc (c : Thread nD τ)) ↦{fullShare} fo) ∗ ⌜(∀ r q : ℕ, r < 192 → q < 1024 → oAt fo (K0 0 c + r) q = S0 m 0 c (K0 0 c + r) q) ∧ (∀ r q : ℕ, r < 192 → q < 1024 → oAt fo (K0 1 c + r) q = S0 m 1 c (K0 1 c + r) q)⌝)
    ∗ sbufBack c
    ∗ (∃ f, sSlot01.view.loc (c : Thread nD τ) ↦[sSlot01.view.set]{fullShare} f)
    ∗ (∃ f, sSlot02.view.loc (c : Thread nD τ) ↦[sSlot02.view.set]{fullShare} f)
    ∗ (∃ f, sSlot11.view.loc (c : Thread nD τ) ↦[sSlot11.view.set]{fullShare} f)
    ∗ (∃ f, sSlot12.view.loc (c : Thread nD τ) ↦[sSlot12.view.set]{fullShare} f)
    ∗ (∃ f, sSlot21.view.loc (c : Thread nD τ) ↦[sSlot21.view.set]{fullShare} f)
    ∗ (∃ f, sSlot22.view.loc (c : Thread nD τ) ↦[sSlot22.view.set]{fullShare} f)
    ∗ rbufBack c
    ∗ (∃ f, (aRows01 c).view.loc (c : Thread nD τ) ↦[(aRows01 c).view.set]{fullShare} f)
    ∗ (∃ f, (aRows11 c).view.loc (c : Thread nD τ) ↦[(aRows11 c).view.set]{fullShare} f)
    ∗ (∃ f, (aRows21 c).view.loc (c : Thread nD τ) ↦[(aRows21 c).view.set]{fullShare} f)
    ∗ (∃ f, rSlot01.view.loc ((Mesh.px 1 c) : Thread nD τ) ↦[rSlot01.view.set]{fullShare} f)
    ∗ (∃ f, rSlot02.view.loc ((Mesh.px 4 c) : Thread nD τ) ↦[rSlot02.view.set]{fullShare} f)
    ∗ (∃ f, rSlot11.view.loc ((Mesh.px 3 c) : Thread nD τ) ↦[rSlot11.view.set]{fullShare} f)
    ∗ (∃ f, rSlot12.view.loc ((Mesh.px 1 c) : Thread nD τ) ↦[rSlot12.view.set]{fullShare} f)
    ∗ (∃ f, rSlot21.view.loc ((Mesh.px 4 c) : Thread nD τ) ↦[rSlot21.view.set]{fullShare} f)
    ∗ (∃ f, rSlot22.view.loc ((Mesh.px 2 c) : Thread nD τ) ↦[rSlot22.view.set]{fullShare} f)
    ∗ (∃ f, (aRows01 c).view.loc ((Mesh.px 1 c) : Thread nD τ) ↦[(aRows01 c).view.set]{fullShare} f)
    ∗ (∃ f, (aRows11 c).view.loc ((Mesh.px 3 c) : Thread nD τ) ↦[(aRows11 c).view.set]{fullShare} f)
    ∗ (∃ f, (aRows21 c).view.loc ((Mesh.px 4 c) : Thread nD τ) ↦[(aRows21 c).view.set]{fullShare} f)
    ∗ (∃ f, (aRows00 c).view.loc ((Mesh.px 3 c) : Thread nD τ) ↦[(aRows00 c).view.set]{fullShare} f)
    ∗ (∃ f, (aRows10 c).view.loc ((Mesh.px 4 c) : Thread nD τ) ↦[(aRows10 c).view.set]{fullShare} f)
    ∗ (∃ f, (aRows20 c).view.loc ((Mesh.px 1 c) : Thread nD τ) ↦[(aRows20 c).view.set]{fullShare} f))

/-- Between the ninth and the tenth printed part: exchange stage 0 is over (its three arrivals waited and added: the kept
    halves of the result buffer hold the sums after one stage), seven payments are made, and butterfly 0's quarter for
    stage 1 already stands narrowed in its send slot, not yet sent. -/
def PreS1 (c : Dev nD) (W : Waits sig Unit) : sProp 𝕄 :=
  iprop(records m K
    ∗ levAts L lv
    ∗ atPos ER (barCell c) 1 ∅ 0
    ∗ atPos ER (dcell 1 0 0 c) 1 ∅ 0
    ∗ atPos ER (dcell 1 0 1 c) 0 ∅ 0
    ∗ atPos ER (dcell 1 0 2 c) 0 ∅ 0
    ∗ atPos ER (dcell 1 1 0 c) 1 ∅ 0
    ∗ atPos ER (dcell 1 1 1 c) 0 ∅ 0
    ∗ atPos ER (dcell 1 1 2 c) 0 ∅ 0
    ∗ atPos ER (dcell 1 2 0 c) 1 ∅ 0
    ∗ atPos ER (dcell 1 2 1 c) 0 ∅ 0
    ∗ atPos ER (dcell 1 2 2 c) 0 ∅ 0
    ∗ atPos ER (dcell 0 0 0 c) 0 ∅ 0
    ∗ atPos ER (dcell 0 0 1 c) 0 ∅ 0
    ∗ atPos ER (dcell 0 0 2 c) 0 ∅ 0
    ∗ atPos ER (dcell 0 1 0 c) 0 ∅ 0
    ∗ atPos ER (dcell 0 1 1 c) 0 ∅ 0
    ∗ atPos ER (dcell 0 1 2 c) 0 ∅ 0
    ∗ atPos ER (dcell 0 2 0 c) 0 ∅ 0
    ∗ atPos ER (dcell 0 2 1 c) 0 ∅ 0
    ∗ atPos ER (dcell 0 2 2 c) 0 ∅ 0
    ∗ atPos ER (dcell 2 0 0 c) 0 ∅ 0
    ∗ atPos ER (dcell 2 0 1 c) 0 ∅ 0
    ∗ atPos ER (dcell 2 0 2 c) 0 ∅ 0
    ∗ atPos ER (dcell 2 1 0 c) 0 ∅ 0
    ∗ atPos ER (dcell 2 1 1 c) 0 ∅ 0
    ∗ atPos ER (dcell 2 1 2 c) 0 ∅ 0
    ∗ atPos ER (dcell 2 2 0 c) 0 ∅ 0
    ∗ atPos ER (dcell 2 2 1 c) 0 ∅ 0
    ∗ atPos ER (dcell 2 2 2 c) 0 ∅ 0
    ∗ atPos ER (dcell 3 0 0 c) 0 ∅ 0
    ∗ atPos ER (dcell 3 0 1 c) 0 ∅ 0
    ∗ atPos ER (dcell 3 0 2 c) 0 ∅ 0
    ∗ atPos ER (dcell 3 1 0 c) 0 ∅ 0
    ∗ atPos ER (dcell 3 1 1 c) 0 ∅ 0
    ∗ atPos ER (dcell 3 1 2 c) 0 ∅ 0
    ∗ atPos ER (dcell 3 2 0 c) 0 ∅ 0
    ∗ atPos ER (dcell 3 2 1 c) 0 ∅ 0
    ∗ atPos ER (dcell 3 2 2 c) 0 ∅ 0
    ∗ dutyTok ER (dcell 1 0 1 (Mesh.px 1 c)) 0 (0 : Fin 4)
    ∗ dutyTok ER (dcell 1 0 2 (Mesh.px 4 c)) 0 (0 : Fin 4)
    ∗ dutyTok ER (dcell 1 1 1 (Mesh.px 3 c)) 0 (0 : Fin 4)
    ∗ dutyTok ER (dcell 1 1 2 (Mesh.px 1 c)) 0 (0 : Fin 4)
    ∗ dutyTok ER (dcell 1 2 1 (Mesh.px 4 c)) 0 (0 : Fin 4)
    ∗ dutyTok ER (dcell 1 2 2 (Mesh.px 2 c)) 0 (0 : Fin 4)
    ∗ dutyTok ER (dcell 0 0 1 c) 0 (0 : Fin 4)
    ∗ dutyTok ER (dcell 0 0 2 c) 0 (0 : Fin 4)
    ∗ dutyTok ER (dcell 0 1 1 c) 0 (0 : Fin 4)
    ∗ dutyTok ER (dcell 0 1 2 c) 0 (0 : Fin 4)
    ∗ dutyTok ER (dcell 0 2 1 c) 0 (0 : Fin 4)
    ∗ dutyTok ER (dcell 0 2 2 c) 0 (0 : Fin 4)
    ∗ dutyTok ER (dcell 3 0 0 (Mesh.px 3 c)) 0 (0 : Fin 4)
    ∗ dutyTok ER (dcell 3 0 1 (Mesh.px 1 c)) 0 (0 : Fin 4)
    ∗ dutyTok ER (dcell 3 1 0 (Mesh.px 4 c)) 0 (0 : Fin 4)
    ∗ dutyTok ER (dcell 3 1 1 (Mesh.px 3 c)) 0 (0 : Fin 4)
    ∗ dutyTok ER (dcell 3 2 0 (Mesh.px 1 c)) 0 (0 : Fin 4)
    ∗ dutyTok ER (dcell 3 2 1 (Mesh.px 4 c)) 0 (0 : Fin 4)
    ∗ dutyTok ER (dcell 2 0 0 c) 0 (0 : Fin 4)
    ∗ dutyTok ER (dcell 2 0 1 c) 0 (0 : Fin 4)
    ∗ dutyTok ER (dcell 2 1 0 c) 0 (0 : Fin 4)
    ∗ dutyTok ER (dcell 2 1 1 c) 0 (0 : Fin 4)
    ∗ dutyTok ER (dcell 2 2 0 c) 0 (0 : Fin 4)
    ∗ dutyTok ER (dcell 2 2 1 c) 0 (0 : Fin 4)
    ∗ cred (tallyAt (dcell 1 0 1 c) () (namt 1 0 1))
    ∗ cred (tallyAt (dcell 1 0 2 c) () (namt 1 0 2))
    ∗ cred (tallyAt (dcell 1 1 1 c) () (namt 1 1 1))
    ∗ cred (tallyAt (dcell 1 1 2 c) () (namt 1 1 2))
    ∗ cred (tallyAt (dcell 1 2 1 c) () (namt 1 2 1))
    ∗ cred (tallyAt (dcell 1 2 2 c) () (namt 1 2 2))
    ∗ cred (tallyAt (dcell 3 0 0 c) () (namt 3 0 0))
    ∗ cred (tallyAt (dcell 3 0 1 c) () (namt 3 0 1))
    ∗ cred (tallyAt (dcell 3 1 0 c) () (namt 3 1 0))
    ∗ cred (tallyAt (dcell 3 1 1 c) () (namt 3 1 1))
    ∗ cred (tallyAt (dcell 3 2 0 c) () (namt 3 2 0))
    ∗ cred (tallyAt (dcell 3 2 1 c) () (namt 3 2 1))
    ∗ cred (tallyAt (dcell 0 0 0 c) () (namt 0 0 0))
    ∗ cred (tallyAt (dcell 0 1 0 c) () (namt 0 1 0))
    ∗ cred (tallyAt (dcell 0 2 0 c) () (namt 0 2 0))
    ∗ owes (c : Thread nD τ) (Orem c 7) W
    ∗ (((xM : Memref sig .tc .vmem S1024x1024 .f32).view.loc (c : Thread nD τ)) ↦{fullShare} xIn m c)
    ∗ (((gM : Memref sig .tc .vmem S1024x2048 .f32).view.loc (c : Thread nD τ)) ↦{fullShare} gIn m c)
    ∗ (((uM : Memref sig .tc .vmem S1024x2048 .f32).view.loc (c : Thread nD τ)) ↦{fullShare} uIn m c)
    ∗ (((dM : Memref sig .tc .vmem S2048x1024 .f32).view.loc (c : Thread nD τ)) ↦{fullShare} dIn m c)
    ∗ (∃ fo : Buf (Elt F) ((oM : Memref sig .tc .vmem S1024x1024 .f32).view.loc (c : Thread nD τ)), (((oM : Memref sig .tc .vmem S1024x1024 .f32).view.loc (c : Thread nD τ)) ↦{fullShare} fo) ∗ ⌜(∀ r q : ℕ, r < 192 → q < 1024 → oAt fo (K0 0 c + r) q = S1 m 0 c (K0 0 c + r) q) ∧ (∀ r q : ℕ, r < 192 → q < 1024 → oAt fo (K0 1 c + r) q = S1 m 1 c (K0 1 c + r) q) ∧ (∀ r q : ℕ, r < 128 → q < 1024 → oAt fo (K0 2 c + r) q = S1 m 2 c (K0 2 c + r) q)⌝)
    ∗ sbufBack c
    ∗ (∃ f, (sSlot01.view.loc (c : Thread nD τ) ↦[sSlot01.view.set]{fullShare} f) ∗ ⌜∀ r q : ℕ, r < 96 → q < 1024 → Mem.sAt f 0 (192 + r) q = tr (S1 m 0 c ((k0_off3 c 0#32 3#32 1#32 0#32 96#32) 0 + r) q)⌝)
    ∗ (∃ f, sSlot02.view.loc (c : Thread nD τ) ↦[sSlot02.view.set]{fullShare} f)
    ∗ (∃ f, sSlot11.view.loc (c : Thread nD τ) ↦[sSlot11.view.set]{fullShare} f)
    ∗ (∃ f, sSlot12.view.loc (c : Thread nD τ) ↦[sSlot12.view.set]{fullShare} f)
    ∗ (∃ f, sSlot21.view.loc (c : Thread nD τ) ↦[sSlot21.view.set]{fullShare} f)
    ∗ (∃ f, sSlot22.view.loc (c : Thread nD τ) ↦[sSlot22.view.set]{fullShare} f)
    ∗ rbufBack c
    ∗ (∃ f, rSlot00.view.loc (c : Thread nD τ) ↦[rSlot00.view.set]{fullShare} f)
    ∗ (∃ f, rSlot10.view.loc (c : Thread nD τ) ↦[rSlot10.view.set]{fullShare} f)
    ∗ (∃ f, rSlot20.view.loc (c : Thread nD τ) ↦[rSlot20.view.set]{fullShare} f)
    ∗ (∃ f, (aRows01 c).view.loc (c : Thread nD τ) ↦[(aRows01 c).view.set]{fullShare} f)
    ∗ (∃ f, (aRows11 c).view.loc (c : Thread nD τ) ↦[(aRows11 c).view.set]{fullShare} f)
    ∗ (∃ f, (aRows21 c).view.loc (c : Thread nD τ) ↦[(aRows21 c).view.set]{fullShare} f)
    ∗ (∃ f, rSlot01.view.loc ((Mesh.px 1 c) : Thread nD τ) ↦[rSlot01.view.set]{fullShare} f)
    ∗ (∃ f, rSlot02.view.loc ((Mesh.px 4 c) : Thread nD τ) ↦[rSlot02.view.set]{fullShare} f)
    ∗ (∃ f, rSlot11.view.loc ((Mesh.px 3 c) : Thread nD τ) ↦[rSlot11.view.set]{fullShare} f)
    ∗ (∃ f, rSlot12.view.loc ((Mesh.px 1 c) : Thread nD τ) ↦[rSlot12.view.set]{fullShare} f)
    ∗ (∃ f, rSlot21.view.loc ((Mesh.px 4 c) : Thread nD τ) ↦[rSlot21.view.set]{fullShare} f)
    ∗ (∃ f, rSlot22.view.loc ((Mesh.px 2 c) : Thread nD τ) ↦[rSlot22.view.set]{fullShare} f)
    ∗ (∃ f, (aRows01 c).view.loc ((Mesh.px 1 c) : Thread nD τ) ↦[(aRows01 c).view.set]{fullShare} f)
    ∗ (∃ f, (aRows11 c).view.loc ((Mesh.px 3 c) : Thread nD τ) ↦[(aRows11 c).view.set]{fullShare} f)
    ∗ (∃ f, (aRows21 c).view.loc ((Mesh.px 4 c) : Thread nD τ) ↦[(aRows21 c).view.set]{fullShare} f)
    ∗ (∃ f, (aRows00 c).view.loc ((Mesh.px 3 c) : Thread nD τ) ↦[(aRows00 c).view.set]{fullShare} f)
    ∗ (∃ f, (aRows10 c).view.loc ((Mesh.px 4 c) : Thread nD τ) ↦[(aRows10 c).view.set]{fullShare} f)
    ∗ (∃ f, (aRows20 c).view.loc ((Mesh.px 1 c) : Thread nD τ) ↦[(aRows20 c).view.set]{fullShare} f))

/-- Between the thirteenth and the fourteenth printed part: stage 1 is over (the kept quarters hold the sums after two
    stages), ten payments are made, and butterfly 0's kept quarter already stands narrowed in its stage-2 send slot. -/
def PreS2 (c : Dev nD) (W : Waits sig Unit) : sProp 𝕄 :=
  iprop(records m K
    ∗ levAts L lv
    ∗ atPos ER (barCell c) 1 ∅ 0
    ∗ atPos ER (dcell 1 0 0 c) 1 ∅ 0
    ∗ atPos ER (dcell 1 0 1 c) 1 ∅ 0
    ∗ atPos ER (dcell 1 0 2 c) 0 ∅ 0
    ∗ atPos ER (dcell 1 1 0 c) 1 ∅ 0
    ∗ atPos ER (dcell 1 1 1 c) 1 ∅ 0
    ∗ atPos ER (dcell 1 1 2 c) 0 ∅ 0
    ∗ atPos ER (dcell 1 2 0 c) 1 ∅ 0
    ∗ atPos ER (dcell 1 2 1 c) 1 ∅ 0
    ∗ atPos ER (dcell 1 2 2 c) 0 ∅ 0
    ∗ atPos ER (dcell 0 0 0 c) 0 ∅ 0
    ∗ atPos ER (dcell 0 0 1 c) 0 ∅ 0
    ∗ atPos ER (dcell 0 0 2 c) 0 ∅ 0
    ∗ atPos ER (dcell 0 1 0 c) 0 ∅ 0
    ∗ atPos ER (dcell 0 1 1 c) 0 ∅ 0
    ∗ atPos ER (dcell 0 1 2 c) 0 ∅ 0
    ∗ atPos ER (dcell 0 2 0 c) 0 ∅ 0
    ∗ atPos ER (dcell 0 2 1 c) 0 ∅ 0
    ∗ atPos ER (dcell 0 2 2 c) 0 ∅ 0
    ∗ atPos ER (dcell 2 0 0 c) 0 ∅ 0
    ∗ atPos ER (dcell 2 0 1 c) 0 ∅ 0
    ∗ atPos ER (dcell 2 0 2 c) 0 ∅ 0
    ∗ atPos ER (dcell 2 1 0 c) 0 ∅ 0
    ∗ atPos ER (dcell 2 1 1 c) 0 ∅ 0
    ∗ atPos ER (dcell 2 1 2 c) 0 ∅ 0
    ∗ atPos ER (dcell 2 2 0 c) 0 ∅ 0
    ∗ atPos ER (dcell 2 2 1 c) 0 ∅ 0
    ∗ atPos ER (dcell 2 2 2 c) 0 ∅ 0
    ∗ atPos ER (dcell 3 0 0 c) 0 ∅ 0
    ∗ atPos ER (dcell 3 0 1 c) 0 ∅ 0
    ∗ atPos ER (dcell 3 0 2 c) 0 ∅ 0
    ∗ atPos ER (dcell 3 1 0 c) 0 ∅ 0
    ∗ atPos ER (dcell 3 1 1 c) 0 ∅ 0
    ∗ atPos ER (dcell 3 1 2 c) 0 ∅ 0
    ∗ atPos ER (dcell 3 2 0 c) 0 ∅ 0
    ∗ atPos ER (dcell 3 2 1 c) 0 ∅ 0
    ∗ atPos ER (dcell 3 2 2 c) 0 ∅ 0
    ∗ dutyTok ER (dcell 1 0 2 (Mesh.px 4 c)) 0 (0 : Fin 4)
    ∗ dutyTok ER (dcell 1 1 2 (Mesh.px 1 c)) 0 (0 : Fin 4)
    ∗ dutyTok ER (dcell 1 2 2 (Mesh.px 2 c)) 0 (0 : Fin 4)
    ∗ dutyTok ER (dcell 0 0 2 c) 0 (0 : Fin 4)
    ∗ dutyTok ER (dcell 0 1 2 c) 0 (0 : Fin 4)
    ∗ dutyTok ER (dcell 0 2 2 c) 0 (0 : Fin 4)
    ∗ dutyTok ER (dcell 3 0 0 (Mesh.px 3 c)) 0 (0 : Fin 4)
    ∗ dutyTok ER (dcell 3 0 1 (Mesh.px 1 c)) 0 (0 : Fin 4)
    ∗ dutyTok ER (dcell 3 1 0 (Mesh.px 4 c)) 0 (0 : Fin 4)
    ∗ dutyTok ER (dcell 3 1 1 (Mesh.px 3 c)) 0 (0 : Fin 4)
    ∗ dutyTok ER (dcell 3 2 0 (Mesh.px 1 c)) 0 (0 : Fin 4)
    ∗ dutyTok ER (dcell 3 2 1 (Mesh.px 4 c)) 0 (0 : Fin 4)
    ∗ dutyTok ER (dcell 2 0 0 c) 0 (0 : Fin 4)
    ∗ dutyTok ER (dcell 2 0 1 c) 0 (0 : Fin 4)
    ∗ dutyTok ER (dcell 2 1 0 c) 0 (0 : Fin 4)
    ∗ dutyTok ER (dcell 2 1 1 c) 0 (0 : Fin 4)
    ∗ dutyTok ER (dcell 2 2 0 c) 0 (0 : Fin 4)
    ∗ dutyTok ER (dcell 2 2 1 c) 0 (0 : Fin 4)
    ∗ cred (tallyAt (dcell 1 0 2 c) () (namt 1 0 2))
    ∗ cred (tallyAt (dcell 1 1 2 c) () (namt 1 1 2))
    ∗ cred (tallyAt (dcell 1 2 2 c) () (namt 1 2 2))
    ∗ cred (tallyAt (dcell 3 0 0 c) () (namt 3 0 0))
    ∗ cred (tallyAt (dcell 3 0 1 c) () (namt 3 0 1))
    ∗ cred (tallyAt (dcell 3 1 0 c) () (namt 3 1 0))
    ∗ cred (tallyAt (dcell 3 1 1 c) () (namt 3 1 1))
    ∗ cred (tallyAt (dcell 3 2 0 c) () (namt 3 2 0))
    ∗ cred (tallyAt (dcell 3 2 1 c) () (namt 3 2 1))
    ∗ cred (tallyAt (dcell 0 0 0 c) () (namt 0 0 0))
    ∗ cred (tallyAt (dcell 0 0 1 c) () (namt 0 0 1))
    ∗ cred (tallyAt (dcell 0 1 0 c) () (namt 0 1 0))
    ∗ cred (tallyAt (dcell 0 1 1 c) () (namt 0 1 1))
    ∗ cred (tallyAt (dcell 0 2 0 c) () (namt 0 2 0))
    ∗ cred (tallyAt (dcell 0 2 1 c) () (namt 0 2 1))
    ∗ owes (c : Thread nD τ) (Orem c 10) W
    ∗ (((xM : Memref sig .tc .vmem S1024x1024 .f32).view.loc (c : Thread nD τ)) ↦{fullShare} xIn m c)
    ∗ (((gM : Memref sig .tc .vmem S1024x2048 .f32).view.loc (c : Thread nD τ)) ↦{fullShare} gIn m c)
    ∗ (((uM : Memref sig .tc .vmem S1024x2048 .f32).view.loc (c : Thread nD τ)) ↦{fullShare} uIn m c)
    ∗ (((dM : Memref sig .tc .vmem S2048x1024 .f32).view.loc (c : Thread nD τ)) ↦{fullShare} dIn m c)
    ∗ (∃ fo : Buf (Elt F) ((oM : Memref sig .tc .vmem S1024x1024 .f32).view.loc (c : Thread nD τ)), (((oM : Memref sig .tc .vmem S1024x1024 .f32).view.loc (c : Thread nD τ)) ↦{fullShare} fo) ∗ ⌜(∀ r q : ℕ, r < 96 → q < 1024 → oAt fo (K1 0 c + r) q = S2 m 0 c (K1 0 c + r) q) ∧ (∀ r q : ℕ, r < 96 → q < 1024 → oAt fo (K1 1 c + r) q = S2 m 1 c (K1 1 c + r) q) ∧ (∀ r q : ℕ, r < 64 → q < 1024 → oAt fo (K1 2 c + r) q = S2 m 2 c (K1 2 c + r) q)⌝)
    ∗ sbufBack c
    ∗ (∃ f, (sSlot02.view.loc (c : Thread nD τ) ↦[sSlot02.view.set]{fullShare} f) ∗ ⌜∀ r q : ℕ, r < 96 → q < 1024 → Mem.sAt f 0 (288 + r) q = tr (S2 m 0 c (K1 0 c + r) q)⌝)
    ∗ (∃ f, sSlot12.view.loc (c : Thread nD τ) ↦[sSlot12.view.set]{fullShare} f)
    ∗ (∃ f, sSlot22.view.loc (c : Thread nD τ) ↦[sSlot22.view.set]{fullShare} f)
    ∗ rbufBack c
    ∗ (∃ f, rSlot00.view.loc (c : Thread nD τ) ↦[rSlot00.view.set]{fullShare} f)
    ∗ (∃ f, rSlot01.view.loc (c : Thread nD τ) ↦[rSlot01.view.set]{fullShare} f)
    ∗ (∃ f, rSlot10.view.loc (c : Thread nD τ) ↦[rSlot10.view.set]{fullShare} f)
    ∗ (∃ f, rSlot11.view.loc (c : Thread nD τ) ↦[rSlot11.view.set]{fullShare} f)
    ∗ (∃ f, rSlot20.view.loc (c : Thread nD τ) ↦[rSlot20.view.set]{fullShare} f)
    ∗ (∃ f, rSlot21.view.loc (c : Thread nD τ) ↦[rSlot21.view.set]{fullShare} f)
    ∗ (∃ f, (aRows01 c).view.loc (c : Thread nD τ) ↦[(aRows01 c).view.set]{fullShare} f)
    ∗ (∃ f, (aRows11 c).view.loc (c : Thread nD τ) ↦[(aRows11 c).view.set]{fullShare} f)
    ∗ (∃ f, (aRows21 c).view.loc (c : Thread nD τ) ↦[(aRows21 c).view.set]{fullShare} f)
    ∗ (∃ f, rSlot02.view.loc ((Mesh.px 4 c) : Thread nD τ) ↦[rSlot02.view.set]{fullShare} f)
    ∗ (∃ f, rSlot12.view.loc ((Mesh.px 1 c) : Thread nD τ) ↦[rSlot12.view.set]{fullShare} f)
    ∗ (∃ f, rSlot22.view.loc ((Mesh.px 2 c) : Thread nD τ) ↦[rSlot22.view.set]{fullShare} f)
    ∗ (∃ f, (aRows01 c).view.loc ((Mesh.px 1 c) : Thread nD τ) ↦[(aRows01 c).view.set]{fullShare} f)
    ∗ (∃ f, (aRows11 c).view.loc ((Mesh.px 3 c) : Thread nD τ) ↦[(aRows11 c).view.set]{fullShare} f)
    ∗ (∃ f, (aRows21 c).view.loc ((Mesh.px 4 c) : Thread nD τ) ↦[(aRows21 c).view.set]{fullShare} f)
    ∗ (∃ f, (aRows00 c).view.loc ((Mesh.px 3 c) : Thread nD τ) ↦[(aRows00 c).view.set]{fullShare} f)
    ∗ (∃ f, (aRows10 c).view.loc ((Mesh.px 4 c) : Thread nD τ) ↦[(aRows10 c).view.set]{fullShare} f)
    ∗ (∃ f, (aRows20 c).view.loc ((Mesh.px 1 c) : Thread nD τ) ↦[(aRows20 c).view.set]{fullShare} f))

/-- Just before the first all-gather transfer: the exchange is over. The barrier cell and the nine exchange receive
    cells are at round 1, everything else at round 0; the gather's twelve duty tokens, its six receive credits and the
    nine exchange departures' credits are in hand; thirteen payments are made. The inputs are unchanged; the result
    buffer holds anything (the gather rewrites every row); the receive buffer is whole again; the device's own three
    quarters of the gather buffer hold its totals narrowed for the wire; its partners' rows that it will write are in
    hand. -/
def PreAG (c : Dev nD) (W : Waits sig Unit) : sProp 𝕄 :=
  iprop(records m K
    ∗ levAts L lv
    ∗ atPos ER (barCell c) 1 ∅ 0
    ∗ atPos ER (dcell 1 0 0 c) 1 ∅ 0
    ∗ atPos ER (dcell 1 0 1 c) 1 ∅ 0
    ∗ atPos ER (dcell 1 0 2 c) 1 ∅ 0
    ∗ atPos ER (dcell 1 1 0 c) 1 ∅ 0
    ∗ atPos ER (dcell 1 1 1 c) 1 ∅ 0
    ∗ atPos ER (dcell 1 1 2 c) 1 ∅ 0
    ∗ atPos ER (dcell 1 2 0 c) 1 ∅ 0
    ∗ atPos ER (dcell 1 2 1 c) 1 ∅ 0
    ∗ atPos ER (dcell 1 2 2 c) 1 ∅ 0
    ∗ atPos ER (dcell 0 0 0 c) 0 ∅ 0
    ∗ atPos ER (dcell 0 0 1 c) 0 ∅ 0
    ∗ atPos ER (dcell 0 0 2 c) 0 ∅ 0
    ∗ atPos ER (dcell 0 1 0 c) 0 ∅ 0
    ∗ atPos ER (dcell 0 1 1 c) 0 ∅ 0
    ∗ atPos ER (dcell 0 1 2 c) 0 ∅ 0
    ∗ atPos ER (dcell 0 2 0 c) 0 ∅ 0
    ∗ atPos ER (dcell 0 2 1 c) 0 ∅ 0
    ∗ atPos ER (dcell 0 2 2 c) 0 ∅ 0
    ∗ atPos ER (dcell 2 0 0 c) 0 ∅ 0
    ∗ atPos ER (dcell 2 0 1 c) 0 ∅ 0
    ∗ atPos ER (dcell 2 0 2 c) 0 ∅ 0
    ∗ atPos ER (dcell 2 1 0 c) 0 ∅ 0
    ∗ atPos ER (dcell 2 1 1 c) 0 ∅ 0
    ∗ atPos ER (dcell 2 1 2 c) 0 ∅ 0
    ∗ atPos ER (dcell 2 2 0 c) 0 ∅ 0
    ∗ atPos ER (dcell 2 2 1 c) 0 ∅ 0
    ∗ atPos ER (dcell 2 2 2 c) 0 ∅ 0
    ∗ atPos ER (dcell 3 0 0 c) 0 ∅ 0
    ∗ atPos ER (dcell 3 0 1 c) 0 ∅ 0
    ∗ atPos ER (dcell 3 0 2 c) 0 ∅ 0
    ∗ atPos ER (dcell 3 1 0 c) 0 ∅ 0
    ∗ atPos ER (dcell 3 1 1 c) 0 ∅ 0
    ∗ atPos ER (dcell 3 1 2 c) 0 ∅ 0
    ∗ atPos ER (dcell 3 2 0 c) 0 ∅ 0
    ∗ atPos ER (dcell 3 2 1 c) 0 ∅ 0
    ∗ atPos ER (dcell 3 2 2 c) 0 ∅ 0
    ∗ dutyTok ER (dcell 3 0 0 (Mesh.px 3 c)) 0 (0 : Fin 4)
    ∗ dutyTok ER (dcell 3 0 1 (Mesh.px 1 c)) 0 (0 : Fin 4)
    ∗ dutyTok ER (dcell 3 1 0 (Mesh.px 4 c)) 0 (0 : Fin 4)
    ∗ dutyTok ER (dcell 3 1 1 (Mesh.px 3 c)) 0 (0 : Fin 4)
    ∗ dutyTok ER (dcell 3 2 0 (Mesh.px 1 c)) 0 (0 : Fin 4)
    ∗ dutyTok ER (dcell 3 2 1 (Mesh.px 4 c)) 0 (0 : Fin 4)
    ∗ dutyTok ER (dcell 2 0 0 c) 0 (0 : Fin 4)
    ∗ dutyTok ER (dcell 2 0 1 c) 0 (0 : Fin 4)
    ∗ dutyTok ER (dcell 2 1 0 c) 0 (0 : Fin 4)
    ∗ dutyTok ER (dcell 2 1 1 c) 0 (0 : Fin 4)
    ∗ dutyTok ER (dcell 2 2 0 c) 0 (0 : Fin 4)
    ∗ dutyTok ER (dcell 2 2 1 c) 0 (0 : Fin 4)
    ∗ cred (tallyAt (dcell 3 0 0 c) () (namt 3 0 0))
    ∗ cred (tallyAt (dcell 3 0 1 c) () (namt 3 0 1))
    ∗ cred (tallyAt (dcell 3 1 0 c) () (namt 3 1 0))
    ∗ cred (tallyAt (dcell 3 1 1 c) () (namt 3 1 1))
    ∗ cred (tallyAt (dcell 3 2 0 c) () (namt 3 2 0))
    ∗ cred (tallyAt (dcell 3 2 1 c) () (namt 3 2 1))
    ∗ cred (tallyAt (dcell 0 0 0 c) () (namt 0 0 0))
    ∗ cred (tallyAt (dcell 0 0 1 c) () (namt 0 0 1))
    ∗ cred (tallyAt (dcell 0 0 2 c) () (namt 0 0 2))
    ∗ cred (tallyAt (dcell 0 1 0 c) () (namt 0 1 0))
    ∗ cred (tallyAt (dcell 0 1 1 c) () (namt 0 1 1))
    ∗ cred (tallyAt (dcell 0 1 2 c) () (namt 0 1 2))
    ∗ cred (tallyAt (dcell 0 2 0 c) () (namt 0 2 0))
    ∗ cred (tallyAt (dcell 0 2 1 c) () (namt 0 2 1))
    ∗ cred (tallyAt (dcell 0 2 2 c) () (namt 0 2 2))
    ∗ owes (c : Thread nD τ) (Orem c 13) W
    ∗ (((xM : Memref sig .tc .vmem S1024x1024 .f32).view.loc (c : Thread nD τ)) ↦{fullShare} xIn m c)
    ∗ (((gM : Memref sig .tc .vmem S1024x2048 .f32).view.loc (c : Thread nD τ)) ↦{fullShare} gIn m c)
    ∗ (((uM : Memref sig .tc .vmem S1024x2048 .f32).view.loc (c : Thread nD τ)) ↦{fullShare} uIn m c)
    ∗ (((dM : Memref sig .tc .vmem S2048x1024 .f32).view.loc (c : Thread nD τ)) ↦{fullShare} dIn m c)
    ∗ (∃ fo : Buf (Elt F) ((oM : Memref sig .tc .vmem S1024x1024 .f32).view.loc (c : Thread nD τ)), ((oM : Memref sig .tc .vmem S1024x1024 .f32).view.loc (c : Thread nD τ)) ↦{fullShare} fo)
    ∗ sbufBack c
    ∗ (∃ f : Buf (Elt F) ((rM : Memref sig .tc .vmem S3x384x1024 .bf16).view.loc (c : Thread nD τ)), ((rM : Memref sig .tc .vmem S3x384x1024 .bf16).view.loc (c : Thread nD τ)) ↦{fullShare} f)
    ∗ (∃ f, ((aRows01 c).view.loc (c : Thread nD τ) ↦[(aRows01 c).view.set]{fullShare} f) ∗ ⌜∀ r q : ℕ, r < 96 → q < 1024 → aAt f (K1 0 c + r) q = tr (S3 m 0 c (K1 0 c + r) q)⌝)
    ∗ (∃ f, ((aRows11 c).view.loc (c : Thread nD τ) ↦[(aRows11 c).view.set]{fullShare} f) ∗ ⌜∀ r q : ℕ, r < 96 → q < 1024 → aAt f (K1 1 c + r) q = tr (S3 m 1 c (K1 1 c + r) q)⌝)
    ∗ (∃ f, ((aRows21 c).view.loc (c : Thread nD τ) ↦[(aRows21 c).view.set]{fullShare} f) ∗ ⌜∀ r q : ℕ, r < 64 → q < 1024 → aAt f (K1 2 c + r) q = tr (S3 m 2 c (K1 2 c + r) q)⌝)
    ∗ (∃ f, (aRows01 c).view.loc ((Mesh.px 1 c) : Thread nD τ) ↦[(aRows01 c).view.set]{fullShare} f)
    ∗ (∃ f, (aRows11 c).view.loc ((Mesh.px 3 c) : Thread nD τ) ↦[(aRows11 c).view.set]{fullShare} f)
    ∗ (∃ f, (aRows21 c).view.loc ((Mesh.px 4 c) : Thread nD τ) ↦[(aRows21 c).view.set]{fullShare} f)
    ∗ (∃ f, (aRows00 c).view.loc ((Mesh.px 3 c) : Thread nD τ) ↦[(aRows00 c).view.set]{fullShare} f)
    ∗ (∃ f, (aRows10 c).view.loc ((Mesh.px 4 c) : Thread nD τ) ↦[(aRows10 c).view.set]{fullShare} f)
    ∗ (∃ f, (aRows20 c).view.loc ((Mesh.px 1 c) : Thread nD τ) ↦[(aRows20 c).view.set]{fullShare} f))

/-- After the last arrival and the first two departures' waits: every receive cell is at round 1, the result is
    complete, nineteen payments are made, and thirteen departures remain to be waited for. -/
def PreSendWaits (c : Dev nD) (W : Waits sig Unit) : sProp 𝕄 :=
  iprop(records m K
    ∗ levAts L lv
    ∗ atPos ER (barCell c) 1 ∅ 0
    ∗ atPos ER (dcell 1 0 0 c) 1 ∅ 0
    ∗ atPos ER (dcell 1 0 1 c) 1 ∅ 0
    ∗ atPos ER (dcell 1 0 2 c) 1 ∅ 0
    ∗ atPos ER (dcell 1 1 0 c) 1 ∅ 0
    ∗ atPos ER (dcell 1 1 1 c) 1 ∅ 0
    ∗ atPos ER (dcell 1 1 2 c) 1 ∅ 0
    ∗ atPos ER (dcell 1 2 0 c) 1 ∅ 0
    ∗ atPos ER (dcell 1 2 1 c) 1 ∅ 0
    ∗ atPos ER (dcell 1 2 2 c) 1 ∅ 0
    ∗ atPos ER (dcell 3 0 0 c) 1 ∅ 0
    ∗ atPos ER (dcell 3 0 1 c) 1 ∅ 0
    ∗ atPos ER (dcell 3 0 2 c) 0 ∅ 0
    ∗ atPos ER (dcell 3 1 0 c) 1 ∅ 0
    ∗ atPos ER (dcell 3 1 1 c) 1 ∅ 0
    ∗ atPos ER (dcell 3 1 2 c) 0 ∅ 0
    ∗ atPos ER (dcell 3 2 0 c) 1 ∅ 0
    ∗ atPos ER (dcell 3 2 1 c) 1 ∅ 0
    ∗ atPos ER (dcell 3 2 2 c) 0 ∅ 0
    ∗ atPos ER (dcell 0 0 0 c) 1 ∅ 0
    ∗ atPos ER (dcell 0 0 1 c) 0 ∅ 0
    ∗ atPos ER (dcell 0 0 2 c) 0 ∅ 0
    ∗ atPos ER (dcell 0 1 0 c) 1 ∅ 0
    ∗ atPos ER (dcell 0 1 1 c) 0 ∅ 0
    ∗ atPos ER (dcell 0 1 2 c) 0 ∅ 0
    ∗ atPos ER (dcell 0 2 0 c) 0 ∅ 0
    ∗ atPos ER (dcell 0 2 1 c) 0 ∅ 0
    ∗ atPos ER (dcell 0 2 2 c) 0 ∅ 0
    ∗ atPos ER (dcell 2 0 0 c) 0 ∅ 0
    ∗ atPos ER (dcell 2 0 1 c) 0 ∅ 0
    ∗ atPos ER (dcell 2 0 2 c) 0 ∅ 0
    ∗ atPos ER (dcell 2 1 0 c) 0 ∅ 0
    ∗ atPos ER (dcell 2 1 1 c) 0 ∅ 0
    ∗ atPos ER (dcell 2 1 2 c) 0 ∅ 0
    ∗ atPos ER (dcell 2 2 0 c) 0 ∅ 0
    ∗ atPos ER (dcell 2 2 1 c) 0 ∅ 0
    ∗ atPos ER (dcell 2 2 2 c) 0 ∅ 0
    ∗ cred (tallyAt (dcell 0 0 1 c) () (namt 0 0 1))
    ∗ cred (tallyAt (dcell 0 0 2 c) () (namt 0 0 2))
    ∗ cred (tallyAt (dcell 0 1 1 c) () (namt 0 1 1))
    ∗ cred (tallyAt (dcell 0 1 2 c) () (namt 0 1 2))
    ∗ cred (tallyAt (dcell 0 2 0 c) () (namt 0 2 0))
    ∗ cred (tallyAt (dcell 0 2 1 c) () (namt 0 2 1))
    ∗ cred (tallyAt (dcell 0 2 2 c) () (namt 0 2 2))
    ∗ cred (tallyAt (dcell 2 0 0 c) () (namt 2 0 0))
    ∗ cred (tallyAt (dcell 2 0 1 c) () (namt 2 0 1))
    ∗ cred (tallyAt (dcell 2 1 0 c) () (namt 2 1 0))
    ∗ cred (tallyAt (dcell 2 1 1 c) () (namt 2 1 1))
    ∗ cred (tallyAt (dcell 2 2 0 c) () (namt 2 2 0))
    ∗ cred (tallyAt (dcell 2 2 1 c) () (namt 2 2 1))
    ∗ owes (c : Thread nD τ) (Orem c 19) W
    ∗ (((xM : Memref sig .tc .vmem S1024x1024 .f32).view.loc (c : Thread nD τ)) ↦{fullShare} xIn m c)
    ∗ (((gM : Memref sig .tc .vmem S1024x2048 .f32).view.loc (c : Thread nD τ)) ↦{fullShare} gIn m c)
    ∗ (((uM : Memref sig .tc .vmem S1024x2048 .f32).view.loc (c : Thread nD τ)) ↦{fullShare} uIn m c)
    ∗ (((dM : Memref sig .tc .vmem S2048x1024 .f32).view.loc (c : Thread nD τ)) ↦{fullShare} dIn m c)
    ∗ (((oM : Memref sig .tc .vmem S1024x1024 .f32).view.loc (c : Thread nD τ)) ↦{fullShare} outFin m c)
    ∗ sbufBack c
    ∗ rsSendPay 0 0 c
    ∗ rsSendPay 1 0 c
    ∗ (∃ f : Buf (Elt F) ((rM : Memref sig .tc .vmem S3x384x1024 .bf16).view.loc (c : Thread nD τ)), ((rM : Memref sig .tc .vmem S3x384x1024 .bf16).view.loc (c : Thread nD τ)) ↦{fullShare} f)
    ∗ abufBack c)

end Cert.Kernel.Cuts

end
-- ==== Proof.KBodyPost.lean ====
/-
  The body obligation's precondition and postcondition at a device, named: the pipeline's proof data before the point with
  the five staging buffers at what the windows fetched, and after it with the result buffer at the all-reduced rows.
-/
import proofs.«900524_g7700000000000525_dist_gated_mlp_tp_i_m1024_h2048_d1024_v7x_i8_f32_1_alg».proof.Proof.KIface
import proofs.«900524_g7700000000000525_dist_gated_mlp_tp_i_m1024_h2048_d1024_v7x_i8_f32_1_alg».proof.Proof.KTables
import proofs.«900524_g7700000000000525_dist_gated_mlp_tp_i_m1024_h2048_d1024_v7x_i8_f32_1_alg».proof.Proof.KMem
import proofs.«900524_g7700000000000525_dist_gated_mlp_tp_i_m1024_h2048_d1024_v7x_i8_f32_1_alg».proof.Proof.KBodyKit
import Idealize.ShloMosaic.Lib.Pipeline.Launch
import Idealize.ShloMosaic.Lib.Pipeline.Kit
import Idealize.ShloMosaic.Lib.Tactic

noncomputable section

namespace Cert.Kernel.Body

open Cert.Kernel Cert.Kernel.Gen Cert.Kernel.Sched Cert.Kernel.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Ob

variable (m : (ℓ : Loc nD τ sig) → Buf (Elt F) ℓ) (ρ : Dev nD → PrngReg)

set_option maxRecDepth 4000 in
def bodyPre' (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ
    ∗ stg c cc0_stg0_0 (xIn m c) ∗ stg c cc0_stg1_0 (gIn m c) ∗ stg c cc0_stg2_0 (uIn m c) ∗ stg c cc0_stg3_0 (dIn m c)
    ∗ stg c cc0_stg4_0 (outFin m c))

end Ob

end Cert.Kernel.Body

end
-- ==== Proof.KBodyR0.lean ====
/-
  Exchange stage 0's arrivals on one device: from the state once the three stage-0 blocks are on their way (the kept
  halves of butterflies 0 and 1 hold the device's own product) to the state before stage 1. The kept tile of butterfly 2
  is stored; then, butterfly by butterfly, the device waits for the partner's half, adds it as it came over the wire to
  its own kept rows; last it narrows the quarter of butterfly 0 it sends at stage 1 into its send slot.
-/
import proofs.«900524_g7700000000000525_dist_gated_mlp_tp_i_m1024_h2048_d1024_v7x_i8_f32_1_alg».proof.Proof.KCuts
import proofs.«900524_g7700000000000525_dist_gated_mlp_tp_i_m1024_h2048_d1024_v7x_i8_f32_1_alg».proof.Proof.KBodyKit

noncomputable section

namespace Cert.Kernel.Body

open Cert.Kernel Cert.Kernel.Gen Cert.Kernel.Sched Cert.Kernel.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

namespace R0

/-! ## Regions: a slot's rows through the slot's own view and through an access to the buffer -/

theorem slot_set_eq {b soff h : ℕ} (M : Memref sig .tc .vmem S3x384x1024 .bf16)
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    ((M.slice (Rect.unit (s := S3x384x1024) ![b, soff, 0] ![1, h, 1024] inb) (fun _ => rfl)).squeeze ⟨2, ![h, 1024]⟩ hsq).view.set
      = (M.access (Rect.unit (s := S3x384x1024) ![b, soff, 0] ![1, h, 1024] inb)).set :=
  View.set_reshape _ _

theorem slot_load_sub {b soff h : ℕ} (M : Memref sig .tc .vmem S3x384x1024 .bf16)
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    M.view.setOn (Rect.unit (s := S3x384x1024) ![b, soff, 0] ![1, h, 1024] inb).toLoadRect.set
      ⊆ ((M.slice (Rect.unit (s := S3x384x1024) ![b, soff, 0] ![1, h, 1024] inb) (fun _ => rfl)).squeeze ⟨2, ![h, 1024]⟩ hsq).view.set := by
  rw [slot_set_eq M inb hsq, View.set_slice]
  exact Finset.Subset.refl _

theorem slot_store_sub {b soff h : ℕ} (M : Memref sig .tc .vmem S3x384x1024 .bf16)
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    (M.access (Rect.unit (s := S3x384x1024) ![b, soff, 0] ![1, h, 1024] inb)).setOn Finset.univ
      ⊆ ((M.slice (Rect.unit (s := S3x384x1024) ![b, soff, 0] ![1, h, 1024] inb) (fun _ => rfl)).squeeze ⟨2, ![h, 1024]⟩ hsq).view.set := by
  rw [slot_set_eq M inb hsq, View.setOn_univ]

/-! ## Rows: the three kept halves lie in their butterflies' ranges; the quarter sent at stage 1 lies in the kept half -/

theorem K0_ranges (c : Dev nD) : K0 0 c + 192 ≤ 384 ∧ 384 ≤ K0 1 c ∧ K0 1 c + 192 ≤ 768 ∧ 768 ≤ K0 2 c ∧ K0 2 c + 128 ≤ 1024 := by
  revert c; decide +kernel

theorem sentq_in_half (c : Dev nD) :
    (k0_off3 c 0#32 3#32 1#32 0#32 96#32) 0 = K0 0 c ∨ (k0_off3 c 0#32 3#32 1#32 0#32 96#32) 0 = K0 0 c + 96 := by
  revert c; decide +kernel

theorem off1c_col (c : Dev nD) : (k0_off1 c 0#32 3#32 192#32 0#32) 1 = 0 := by rw [Mesh.off1_c]; rfl
theorem off1d_col (c : Dev nD) : (k0_off1 c 384#32 4#32 192#32 0#32) 1 = 0 := by rw [Mesh.off1_d]; rfl
theorem off2b_col (c : Dev nD) : (k0_off2 c 128#32 0#32) 1 = 0 := by rw [Mesh.off2_b]; rfl
theorem off3a_col (c : Dev nD) : (k0_off3 c 0#32 3#32 1#32 0#32 96#32) 1 = 0 := by rw [Mesh.off3_a]; rfl

/-! ## Values, row by row -/

omit [FloatOps F] in
theorem hz2 : (![0, 0] : Fin 2 → Nat) = fun _ => 0 := funext fun a => by fin_cases a <;> rfl

theorem read_g (f : (cc0_stg1_0 : Ref sig .tc).ty.Contents (Elt F)) :
    (gM : Memref sig .tc .vmem S1024x2048 .f32).view.readAt (Elt F) (Rect.unit (s := S1024x2048) ![0, 0] S1024x2048.size inb_S1024x2048_S1024x2048_0_0).toLoadRect f = f :=
  Memref.readAt_unit_zero (Elt F) cc0_stg1_0 hz2 _ f
theorem read_u (f : (cc0_stg2_0 : Ref sig .tc).ty.Contents (Elt F)) :
    (uM : Memref sig .tc .vmem S1024x2048 .f32).view.readAt (Elt F) (Rect.unit (s := S1024x2048) ![0, 0] S1024x2048.size inb_S1024x2048_S1024x2048_0_0).toLoadRect f = f :=
  Memref.readAt_unit_zero (Elt F) cc0_stg2_0 hz2 _ f
theorem read_d (f : (cc0_stg3_0 : Ref sig .tc).ty.Contents (Elt F)) :
    (dM : Memref sig .tc .vmem S2048x1024 .f32).view.readAt (Elt F) (Rect.unit (s := S2048x1024) ![0, 0] S2048x1024.size inb_S2048x1024_S2048x1024_0_0).toLoadRect f = f :=
  Memref.readAt_unit_zero (Elt F) cc0_stg3_0 hz2 _ f

/-- A row of the half of butterfly 2 a device keeps at stage 0 holds its own product, read off the kept tile. -/
theorem S0_kept2 (m : (ℓ : Loc nD τ sig) → Buf (Elt F) ℓ) (c : Dev nD) (r q : ℕ) (hr : r < 128) (hq : q < 1024) :
    S0 m 2 c (K0 2 c + r) q = tK2 m c (ix2 ⟨r, hr⟩ ⟨q, hq⟩) := by
  show (if (k0_off2 c 0#32 128#32) 0 ≤ (k0_off2 c 128#32 0#32) 0 + r ∧ (k0_off2 c 128#32 0#32) 0 + r < (k0_off2 c 0#32 128#32) 0 + 128
         then at128 (tS2 m c) ((k0_off2 c 128#32 0#32) 0 + r - (k0_off2 c 0#32 128#32) 0) q else at128 (tK2 m c) ((k0_off2 c 128#32 0#32) 0 + r - (k0_off2 c 128#32 0#32) 0) q) = _
  have hd := Rows.half_disj_b2 c
  rw [if_neg (by omega), Nat.add_sub_cancel_left]
  unfold at128
  congr 1
  simp only [Nat.mod_eq_of_lt hr, Nat.mod_eq_of_lt hq]

/-- The kept tile of butterfly 2, stored from the value the part before hands on: its rows hold the device's own product. -/
theorem kept2_rows (m : (ℓ : Loc nD τ sig) → Buf (Elt F) ℓ) (c : Dev nD) (v184 : FVec F S128x1024 .f32)
    (hv : v184 = k0_pay12 (xRows128 m c (k0_off2 c 128#32 0#32) (k0_off2_inb c 1)))
    (fo : (cc0_stg4_0 : Ref sig .tc).ty.Contents (Elt F)) :
    ∀ r q : ℕ, r < 128 → q < 1024 →
      oAt (((oM : Memref sig .tc .vmem S1024x1024 .f32).access (Rect.unit (s := S1024x1024) (k0_off2 c 128#32 0#32) S128x1024.size (k0_off2_inb c 1))).write (Elt F) fo
        (k0_pay13 v184 ((gM : Memref sig .tc .vmem S1024x2048 .f32).view.readAt (Elt F) (Rect.unit (s := S1024x2048) ![0, 0] S1024x2048.size inb_S1024x2048_S1024x2048_0_0).toLoadRect (gIn m c))
          ((uM : Memref sig .tc .vmem S1024x2048 .f32).view.readAt (Elt F) (Rect.unit (s := S1024x2048) ![0, 0] S1024x2048.size inb_S1024x2048_S1024x2048_0_0).toLoadRect (uIn m c))
          ((dM : Memref sig .tc .vmem S2048x1024 .f32).view.readAt (Elt F) (Rect.unit (s := S2048x1024) ![0, 0] S2048x1024.size inb_S2048x1024_S2048x1024_0_0).toLoadRect (dIn m c))) Finset.univ) (K0 2 c + r) q
        = S0 m 2 c (K0 2 c + r) q := by
  intro r q hr hq
  rw [S0_kept2 m c r q hr hq]
  refine (Mem.oAt_store (k0_off2 c 128#32 0#32) (k0_off2_inb c 1) (off2b_col c) fo _ r q hr hq).trans ?_
  rw [read_g, read_u, read_d, hv]
  rfl

/-- A send slot after the device's rows of the result buffer are stored into it narrowed: it holds those rows narrowed. -/
theorem sent_rows {b soff h : ℕ}
    (inb3 : ∀ a, (![b, soff, 0] : Fin 3 → ℕ) a + (![1, h, 1024] : Fin 3 → ℕ) a ≤ S3x384x1024.size a)
    (o : Fin 2 → ℕ) (inb2 : ∀ a, o a + (![h, 1024] : Fin 2 → ℕ) a ≤ S1024x1024.size a) (ho : o 1 = 0)
    (pay : ((⟨2, ![h, 1024]⟩ : Shape).Idx → F .f32) → ((⟨3, ![1, h, 1024]⟩ : Shape).Idx → F .bf16))
    (hpay : ∀ (v : (⟨2, ![h, 1024]⟩ : Shape).Idx → F .f32) (u : Fin 1) (r : Fin h) (q : Fin 1024), pay v (ix3 u r q) = tr (v (ix2 r q)))
    (fo : (cc0_stg4_0 : Ref sig .tc).ty.Contents (Elt F)) (fs : (cc0_scratch0 : Ref sig .tc).ty.Contents (Elt F))
    (val : ℕ → ℕ → F .f32) (hfo : ∀ r q : ℕ, r < h → q < 1024 → oAt fo (o 0 + r) q = val r q) :
    ∀ r q : ℕ, r < h → q < 1024 →
      Mem.sAt ((sM.access (Rect.unit (s := S3x384x1024) ![b, soff, 0] ![1, h, 1024] inb3)).write (Elt F) fs
        (pay (oM.view.readAt (Elt F) (Rect.unit (s := S1024x1024) o ![h, 1024] inb2).toLoadRect fo)) Finset.univ) b (soff + r) q = tr (val r q) := by
  intro r q hr hq
  refine (Mem.sAt_store inb3 fs _ r q hr hq).trans ?_
  refine (hpay _ 0 ⟨r, hr⟩ ⟨q, hq⟩).trans ?_
  exact congrArg tr ((Mem.oAt_load o inb2 ho fo r q hr hq).trans (hfo r q hr hq))

/-- The kept rows after the partner's rows, as they came over the wire, are added to them. -/
theorem added_rows {b soff h : ℕ}
    (inb3 : ∀ a, (![b, soff, 0] : Fin 3 → ℕ) a + (![1, h, 1024] : Fin 3 → ℕ) a ≤ S3x384x1024.size a)
    (o : Fin 2 → ℕ) (inb2 : ∀ a, o a + (![h, 1024] : Fin 2 → ℕ) a ≤ S1024x1024.size a) (ho : o 1 = 0)
    (pay : ((⟨2, ![h, 1024]⟩ : Shape).Idx → F .f32) → ((⟨3, ![1, h, 1024]⟩ : Shape).Idx → F .bf16) → ((⟨2, ![h, 1024]⟩ : Shape).Idx → F .f32))
    (hpay : ∀ (a : (⟨2, ![h, 1024]⟩ : Shape).Idx → F .f32) (w : (⟨3, ![1, h, 1024]⟩ : Shape).Idx → F .bf16) (r : Fin h) (q : Fin 1024),
      pay a w (ix2 r q) = FloatOps.addf (a (ix2 r q)) (FloatOps.extf .f32 bitsLt_bf16_f32 (w (ix3 0 r q))))
    (fo : (cc0_stg4_0 : Ref sig .tc).ty.Contents (Elt F)) (fr : (cc0_scratch1 : Ref sig .tc).ty.Contents (Elt F))
    (own part : ℕ → ℕ → F .f32)
    (hfo : ∀ r q : ℕ, r < h → q < 1024 → oAt fo (o 0 + r) q = own r q)
    (hfr : ∀ r q : ℕ, r < h → q < 1024 → rAt fr b (soff + r) q = tr (part r q)) :
    ∀ r q : ℕ, r < h → q < 1024 →
      oAt ((oM.access (Rect.unit (s := S1024x1024) o ![h, 1024] inb2)).write (Elt F) fo
        (pay (oM.view.readAt (Elt F) (Rect.unit (s := S1024x1024) o ![h, 1024] inb2).toLoadRect fo)
          (rM.view.readAt (Elt F) (Rect.unit (s := S3x384x1024) ![b, soff, 0] ![1, h, 1024] inb3).toLoadRect fr)) Finset.univ) (o 0 + r) q
        = FloatOps.addf (own r q) (wire (part r q)) := by
  intro r q hr hq
  refine (Mem.oAt_store o inb2 ho fo _ r q hr hq).trans ?_
  refine (hpay _ _ ⟨r, hr⟩ ⟨q, hq⟩).trans ?_
  have e1 := (Mem.oAt_load o inb2 ho fo r q hr hq).trans (hfo r q hr hq)
  have e2 := (Mem.rAt_load inb3 fr 0 r q hr hq).trans (hfr r q hr hq)
  rw [e1, e2]
  rfl

/-- Rows a store does not touch keep a fact about them. -/
theorem kept_rows {h h' : ℕ} (o : Fin 2 → ℕ) (inb : ∀ a, o a + (![h, 1024] : Fin 2 → ℕ) a ≤ S1024x1024.size a)
    (fo : (cc0_stg4_0 : Ref sig .tc).ty.Contents (Elt F)) (v : (⟨2, ![h, 1024]⟩ : Shape).Idx → F .f32)
    (base : ℕ) (val : ℕ → ℕ → F .f32) (hb : base + h' ≤ 1024) (hmiss : base + h' ≤ o 0 ∨ o 0 + h ≤ base)
    (hfo : ∀ r q : ℕ, r < h' → q < 1024 → oAt fo (base + r) q = val r q) :
    ∀ r q : ℕ, r < h' → q < 1024 →
      oAt ((oM.access (Rect.unit (s := S1024x1024) o ![h, 1024] inb)).write (Elt F) fo v Finset.univ) (base + r) q = val r q := by
  intro r q hr hq
  refine (Mem.oAt_store_miss o inb fo v (base + r) q (by omega) (by omega)).trans (hfo r q hr hq)

/-- The first addition's three named steps are one widen-and-add. -/
theorem pay16_14_15 (a : Vec F S192x1024 .f32) (w : Vec F S1x192x1024 .bf16) (r : Fin 192) (q : Fin 1024) :
    k0_pay16 (k0_pay14 a) (k0_pay15 w) (ix2 r q) = FloatOps.addf (a (ix2 r q)) (FloatOps.extf .f32 bitsLt_bf16_f32 (w (ix3 0 r q))) := by
  rw [Mem.pay16_apply, Mem.pay14_apply, Mem.pay15_apply]

/-- The contents of a held region may be forgotten but for a fact about them. -/
theorem pt_forget {ℓ : Loc nD τ sig} {S : Finset (Idx ℓ)} {q : PosShare TreeShare} (f : Buf (Elt F) ℓ) (φ : Buf (Elt F) ℓ → Prop) (h : φ f) :
    ((ℓ ↦[S]{q} f) : sProp 𝕄) ⊢ iprop(∃ g, (ℓ ↦[S]{q} g) ∗ ⌜φ g⌝) := by
  iintro H
  iexists f
  isplitl [H]; · iexact H
  ipureintro; exact h

/-- What the arrivals of stage 0 hand the device. -/
theorem got0 (m : (ℓ : Loc nD τ sig) → Buf (Elt F) ℓ) (c : Dev nD) : rsRecvPay m 0 0 c ⊢ (iprop(∃ f, (rSlot00.view.loc (c : Thread nD τ) ↦[rSlot00.view.set]{fullShare} f) ∗ ⌜∀ r q : ℕ, r < 192 → q < 1024 → rAt f 0 (0 + r) q = tr (S0 m 0 (Mesh.px 3 c) (K0 0 c + r) q)⌝) : sProp 𝕄) :=
  BI.Entails.refl _
theorem got1 (m : (ℓ : Loc nD τ sig) → Buf (Elt F) ℓ) (c : Dev nD) : rsRecvPay m 1 0 c ⊢ (iprop(∃ f, (rSlot10.view.loc (c : Thread nD τ) ↦[rSlot10.view.set]{fullShare} f) ∗ ⌜∀ r q : ℕ, r < 192 → q < 1024 → rAt f 1 (0 + r) q = tr (S0 m 1 (Mesh.px 4 c) (K0 1 c + r) q)⌝) : sProp 𝕄) :=
  BI.Entails.refl _
theorem got2 (m : (ℓ : Loc nD τ sig) → Buf (Elt F) ℓ) (c : Dev nD) : rsRecvPay m 2 0 c ⊢ (iprop(∃ f, (rSlot20.view.loc (c : Thread nD τ) ↦[rSlot20.view.set]{fullShare} f) ∗ ⌜∀ r q : ℕ, r < 128 → q < 1024 → rAt f 2 (0 + r) q = tr (S0 m 2 (Mesh.px 1 c) (K0 2 c + r) q)⌝) : sProp 𝕄) :=
  BI.Entails.refl _

/-! ## What the stage changes -/

/-- After the arrivals of stage 0: the three receive cells at round 1, still seven payments made, the three weight
    buffers as they were, the kept halves of the result buffer holding the sums after one stage, butterfly 0's quarter for
    stage 1 narrowed in its send slot, and the three receive slots back. -/
def R0Post (m : (ℓ : Loc nD τ sig) → Buf (Elt F) ℓ) (c : Dev nD) (W : Waits sig Unit) : sProp 𝕄 :=
  iprop(atPos ER (dcell 1 0 0 c) 1 ∅ 0 ∗ atPos ER (dcell 1 1 0 c) 1 ∅ 0 ∗ atPos ER (dcell 1 2 0 c) 1 ∅ 0
    ∗ owes (c : Thread nD τ) (Orem c 7) W
    ∗ (((gM : Memref sig .tc .vmem S1024x2048 .f32).view.loc (c : Thread nD τ)) ↦{fullShare} gIn m c)
    ∗ (((uM : Memref sig .tc .vmem S1024x2048 .f32).view.loc (c : Thread nD τ)) ↦{fullShare} uIn m c)
    ∗ (((dM : Memref sig .tc .vmem S2048x1024 .f32).view.loc (c : Thread nD τ)) ↦{fullShare} dIn m c)
    ∗ (∃ fo : Buf (Elt F) ((oM : Memref sig .tc .vmem S1024x1024 .f32).view.loc (c : Thread nD τ)), (((oM : Memref sig .tc .vmem S1024x1024 .f32).view.loc (c : Thread nD τ)) ↦{fullShare} fo) ∗ ⌜(∀ r q : ℕ, r < 192 → q < 1024 → oAt fo (K0 0 c + r) q = S1 m 0 c (K0 0 c + r) q) ∧ (∀ r q : ℕ, r < 192 → q < 1024 → oAt fo (K0 1 c + r) q = S1 m 1 c (K0 1 c + r) q) ∧ (∀ r q : ℕ, r < 128 → q < 1024 → oAt fo (K0 2 c + r) q = S1 m 2 c (K0 2 c + r) q)⌝)
    ∗ (∃ f, (sSlot01.view.loc (c : Thread nD τ) ↦[sSlot01.view.set]{fullShare} f) ∗ ⌜∀ r q : ℕ, r < 96 → q < 1024 → Mem.sAt f 0 (192 + r) q = tr (S1 m 0 c ((k0_off3 c 0#32 3#32 1#32 0#32 96#32) 0 + r) q)⌝)
    ∗ (∃ f, rSlot00.view.loc (c : Thread nD τ) ↦[rSlot00.view.set]{fullShare} f)
    ∗ (∃ f, rSlot10.view.loc (c : Thread nD τ) ↦[rSlot10.view.set]{fullShare} f)
    ∗ (∃ f, rSlot20.view.loc (c : Thread nD τ) ↦[rSlot20.view.set]{fullShare} f))

/-! ## The stage, step by step -/

set_option maxRecDepth 8192 in
set_option maxHeartbeats 4000000 in
/-- The arrivals of stage 0 over what they touch: the kept tile of butterfly 2 is stored; for each butterfly the wait for
    the partner's half, the addition into the kept rows; then butterfly 0's stage-1 quarter narrowed into its slot. -/
theorem r0_core (m : (ℓ : Loc nD τ sig) → Buf (Elt F) ℓ) (K : Dev nD × CIx → ℕ) (c : Dev nD) (W : Waits sig Unit)
    (v2 v33 v51 v89 v127 : BitVec 32) (v17 v19 v21 : BitVec 1) (v184 : FVec F S128x1024 .f32)
    (hv : v184 = k0_pay12 (xRows128 m c (k0_off2 c 128#32 0#32) (k0_off2_inb c 1))) {α : Type}
    (kk : (v208 v227 : BitVec 32) → (Σ' (v246 : BitVec 32) (v256 : BitVec 32), BitVec 1) → Prog (TpuEff nD τ sig (Elt F) Λ₀ .tc) α) (Q : α → sProp 𝕄) :
    iprop(records m K ∗ levAts L lv
        ∗ atPos ER (dcell 1 0 0 c) 0 ∅ 0 ∗ atPos ER (dcell 1 1 0 c) 0 ∅ 0 ∗ atPos ER (dcell 1 2 0 c) 0 ∅ 0
        ∗ cred (tallyAt (dcell 1 0 0 c) () (namt 1 0 0)) ∗ cred (tallyAt (dcell 1 1 0 c) () (namt 1 1 0)) ∗ cred (tallyAt (dcell 1 2 0 c) () (namt 1 2 0))
        ∗ owes (c : Thread nD τ) (Orem c 7) W
        ∗ (((gM : Memref sig .tc .vmem S1024x2048 .f32).view.loc (c : Thread nD τ)) ↦{fullShare} gIn m c)
        ∗ (((uM : Memref sig .tc .vmem S1024x2048 .f32).view.loc (c : Thread nD τ)) ↦{fullShare} uIn m c)
        ∗ (((dM : Memref sig .tc .vmem S2048x1024 .f32).view.loc (c : Thread nD τ)) ↦{fullShare} dIn m c)
        ∗ (∃ fo : Buf (Elt F) ((oM : Memref sig .tc .vmem S1024x1024 .f32).view.loc (c : Thread nD τ)), (((oM : Memref sig .tc .vmem S1024x1024 .f32).view.loc (c : Thread nD τ)) ↦{fullShare} fo) ∗ ⌜(∀ r q : ℕ, r < 192 → q < 1024 → oAt fo (K0 0 c + r) q = S0 m 0 c (K0 0 c + r) q) ∧ (∀ r q : ℕ, r < 192 → q < 1024 → oAt fo (K0 1 c + r) q = S0 m 1 c (K0 1 c + r) q)⌝)
        ∗ (∃ f, sSlot01.view.loc (c : Thread nD τ) ↦[sSlot01.view.set]{fullShare} f))
      ⊢ iprop((R0Post m c (insert (SemLoc.dma (dsem 1 2 0), ()) (insert (SemLoc.dma (dsem 1 1 0), ()) (insert (SemLoc.dma (dsem 1 0 0), ()) W)))
            -∗ wp frame (wpE (defs₀ (F := F)) 𝒱₀ (c : Thread nD τ) none) Set.univ (kk (Scalar.addi 0#32 (Scalar.select v17 192#32 0#32)) (Scalar.addi 384#32 (Scalar.select v19 192#32 0#32)) (⟨Scalar.addi 768#32 (Scalar.select v21 128#32 0#32), Scalar.xori v2 1#32, Scalar.cmpi .sgt v2 (Scalar.xori v2 1#32)⟩ : Σ' (v246 : BitVec 32) (v256 : BitVec 32), BitVec 1)) Q)
          -∗ wp frame (wpE (defs₀ (F := F)) 𝒱₀ (c : Thread nD τ) none) Set.univ (do
          let ⟨v208, v211, v214⟩ : Σ' (v208 : BitVec 32) (v211 : FVec F S192x1024 .f32), FVec F S192x1024 .f32 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v33 v51 v184
          let v227 : BitVec 32 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v19 v89 v127 v208 v211 v214
          let r ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v21 v208
          kk v208 v227 r) Q) := by
  iintro ⟨#Hrec, #Hlev, P0, P1, P2, Cr0, Cr1, Cr2, HO, Hg, Hu, Hd, ⟨%fo, Hout, %hfo⟩, ⟨%fs, Hs⟩⟩
  iintro Hk
  obtain ⟨hfo0, hfo1⟩ := hfo
  have hK := K0_ranges c
  -- the seventh part: the kept tile of butterfly 2 goes into the result buffer
  simp only [k0_part7_eq_skeleton]
  unfold k0_part7_skel
  simp only [Prog.lift, Prog.bind_op, Prog.bind_ret, Prog.pure_eq_ret]
  iapply (wp_load 𝒱₀ (c : Thread nD τ) none Set.univ (m := gM) (Finset.subset_univ _)) $$ Hg; iintro Hg
  iapply (wp_load 𝒱₀ (c : Thread nD τ) none Set.univ (m := uM) (Finset.subset_univ _)) $$ Hu; iintro Hu
  iapply (wp_load 𝒱₀ (c : Thread nD τ) none Set.univ (m := dM) (Finset.subset_univ _)) $$ Hd; iintro Hd
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off2 c 128#32 0#32) S128x1024.size (k0_off2_inb c 1)) (Mk := Finset.univ)
      (Finset.subset_univ _)) $$ Hout; iintro Hout
  have hk2 := kept2_rows m c v184 hv fo
  icases (pt_forget _ (fun g : Buf (Elt F) ((oM : Memref sig .tc .vmem S1024x1024 .f32).view.loc (c : Thread nD τ)) =>
      (∀ r q : ℕ, r < 192 → q < 1024 → oAt g (K0 0 c + r) q = S0 m 0 c (K0 0 c + r) q)
      ∧ (∀ r q : ℕ, r < 192 → q < 1024 → oAt g (K0 1 c + r) q = S0 m 1 c (K0 1 c + r) q)
      ∧ (∀ r q : ℕ, r < 128 → q < 1024 → oAt g (K0 2 c + r) q = S0 m 2 c (K0 2 c + r) q))
    ⟨kept_rows (h' := 192) (k0_off2 c 128#32 0#32) (k0_off2_inb c 1) fo _ (K0 0 c) _ (by omega) (Or.inl (by show K0 0 c + 192 ≤ K0 2 c; omega)) hfo0,
      kept_rows (h' := 192) (k0_off2 c 128#32 0#32) (k0_off2_inb c 1) fo _ (K0 1 c) _ (by omega) (Or.inl (by show K0 1 c + 192 ≤ K0 2 c; omega)) hfo1,
      hk2⟩) $$ Hout with ⟨%fo1, Hout, %hfo'⟩
  obtain ⟨hA0, hA1, hA2⟩ := hfo'
  -- butterfly 0: the partner's half has arrived
  iapply (Tables.wp_rs_recvwait0 m K 0 c Tables.credit_r00) $$ [Cr0 HO P0]
  · isplitr; · iexact Hrec
    isplitr; · iexact Hlev
    isplitl [Cr0]; · iexact Cr0
    isplitl [HO]; · iexact HO
    iexact P0
  iintro ⟨HO, P0, -, Hg0⟩
  ihave Hg0' := (got0 m c) $$ Hg0
  icases Hg0' with ⟨%fr0, Hr0, %hfr0⟩
  iapply (wp_load 𝒱₀ (c : Thread nD τ) none Set.univ (m := oM) (Finset.subset_univ _)) $$ Hout; iintro Hout
  iapply (wp_load 𝒱₀ (c : Thread nD τ) none Set.univ (m := rM) (slot_load_sub rM inb_S3x384x1024_S1x192x1024_0_0_0 squeezes_S1x192x1024_S192x1024)) $$ Hr0; iintro Hr0
  -- the eighth part: it is added, as it came over the wire, to the device's own rows
  simp only [k0_part8_eq_skeleton]
  unfold k0_part8_skel
  simp only [Prog.lift, Prog.bind_op, Prog.bind_ret, Prog.pure_eq_ret]
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off1 c 0#32 3#32 192#32 0#32) S192x1024.size (k0_off1_inb c 2)) (Mk := Finset.univ)
      (Finset.subset_univ _)) $$ Hout; iintro Hout
  have ht0 := added_rows inb_S3x384x1024_S1x192x1024_0_0_0 (k0_off1 c 0#32 3#32 192#32 0#32) (k0_off1_inb c 2) (off1c_col c)
    (fun a w => k0_pay16 (k0_pay14 a) (k0_pay15 w)) pay16_14_15 fo1 fr0
    (fun r q => S0 m 0 c (K0 0 c + r) q) (fun r q => S0 m 0 (Mesh.px 3 c) (K0 0 c + r) q) hA0 hfr0
  icases (pt_forget _ (fun g : Buf (Elt F) ((oM : Memref sig .tc .vmem S1024x1024 .f32).view.loc (c : Thread nD τ)) =>
      (∀ r q : ℕ, r < 192 → q < 1024 → oAt g (K0 0 c + r) q = S1 m 0 c (K0 0 c + r) q)
      ∧ (∀ r q : ℕ, r < 192 → q < 1024 → oAt g (K0 1 c + r) q = S0 m 1 c (K0 1 c + r) q)
      ∧ (∀ r q : ℕ, r < 128 → q < 1024 → oAt g (K0 2 c + r) q = S0 m 2 c (K0 2 c + r) q))
    ⟨ht0,
      kept_rows (h' := 192) (k0_off1 c 0#32 3#32 192#32 0#32) (k0_off1_inb c 2) fo1 _ (K0 1 c) _ (by omega) (Or.inr (by show K0 0 c + 192 ≤ K0 1 c; omega)) hA1,
      kept_rows (h' := 128) (k0_off1 c 0#32 3#32 192#32 0#32) (k0_off1_inb c 2) fo1 _ (K0 2 c) _ (by omega) (Or.inr (by show K0 0 c + 192 ≤ K0 2 c; omega)) hA2⟩) $$ Hout with ⟨%fo2, Hout, %hfo''⟩
  obtain ⟨hB0, hB1, hB2⟩ := hfo''
  -- butterfly 1
  iapply (Tables.wp_rs_recvwait0 m K 1 c Tables.credit_r10) $$ [Cr1 HO P1]
  · isplitr; · iexact Hrec
    isplitr; · iexact Hlev
    isplitl [Cr1]; · iexact Cr1
    isplitl [HO]; · iexact HO
    iexact P1
  iintro ⟨HO, P1, -, Hg1⟩
  ihave Hg1' := (got1 m c) $$ Hg1
  icases Hg1' with ⟨%fr1, Hr1, %hfr1⟩
  iapply (wp_load 𝒱₀ (c : Thread nD τ) none Set.univ (m := oM) (Finset.subset_univ _)) $$ Hout; iintro Hout
  iapply (wp_load 𝒱₀ (c : Thread nD τ) none Set.univ (m := rM) (slot_load_sub rM inb_S3x384x1024_S1x192x1024_1_0_0 squeezes_S1x192x1024_S192x1024)) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off1 c 384#32 4#32 192#32 0#32) S192x1024.size (k0_off1_inb c 3)) (Mk := Finset.univ)
      (Finset.subset_univ _)) $$ Hout; iintro Hout
  have ht1 := added_rows inb_S3x384x1024_S1x192x1024_1_0_0 (k0_off1 c 384#32 4#32 192#32 0#32) (k0_off1_inb c 3) (off1d_col c) k0_pay17 Mem.pay17_apply fo2 fr1
    (fun r q => S0 m 1 c (K0 1 c + r) q) (fun r q => S0 m 1 (Mesh.px 4 c) (K0 1 c + r) q) hB1 hfr1
  icases (pt_forget _ (fun g : Buf (Elt F) ((oM : Memref sig .tc .vmem S1024x1024 .f32).view.loc (c : Thread nD τ)) =>
      (∀ r q : ℕ, r < 192 → q < 1024 → oAt g (K0 0 c + r) q = S1 m 0 c (K0 0 c + r) q)
      ∧ (∀ r q : ℕ, r < 192 → q < 1024 → oAt g (K0 1 c + r) q = S1 m 1 c (K0 1 c + r) q)
      ∧ (∀ r q : ℕ, r < 128 → q < 1024 → oAt g (K0 2 c + r) q = S0 m 2 c (K0 2 c + r) q))
    ⟨kept_rows (h' := 192) (k0_off1 c 384#32 4#32 192#32 0#32) (k0_off1_inb c 3) fo2 _ (K0 0 c) _ (by omega) (Or.inl (by show K0 0 c + 192 ≤ K0 1 c; omega)) hB0,
      ht1,
      kept_rows (h' := 128) (k0_off1 c 384#32 4#32 192#32 0#32) (k0_off1_inb c 3) fo2 _ (K0 2 c) _ (by omega) (Or.inr (by show K0 1 c + 192 ≤ K0 2 c; omega)) hB2⟩) $$ Hout with ⟨%fo3, Hout, %hfo3⟩
  obtain ⟨hC0, hC1, hC2⟩ := hfo3
  -- the ninth part: butterfly 2
  simp only [k0_part9_eq_skeleton]
  unfold k0_part9_skel
  simp only [Prog.lift, Prog.bind_op, Prog.bind_ret, Prog.pure_eq_ret]
  iapply (Tables.wp_rs_recvwait0 m K 2 c Tables.credit_r20) $$ [Cr2 HO P2]
  · isplitr; · iexact Hrec
    isplitr; · iexact Hlev
    isplitl [Cr2]; · iexact Cr2
    isplitl [HO]; · iexact HO
    iexact P2
  iintro ⟨HO, P2, -, Hg2⟩
  ihave Hg2' := (got2 m c) $$ Hg2
  icases Hg2' with ⟨%fr2, Hr2, %hfr2⟩
  iapply (wp_load 𝒱₀ (c : Thread nD τ) none Set.univ (m := oM) (Finset.subset_univ _)) $$ Hout; iintro Hout
  iapply (wp_load 𝒱₀ (c : Thread nD τ) none Set.univ (m := rM) (slot_load_sub rM inb_S3x384x1024_S1x128x1024_2_0_0 squeezes_S1x128x1024_S128x1024)) $$ Hr2; iintro Hr2
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off2 c 128#32 0#32) S128x1024.size (k0_off2_inb c 1)) (Mk := Finset.univ)
      (Finset.subset_univ _)) $$ Hout; iintro Hout
  have ht2 := added_rows inb_S3x384x1024_S1x128x1024_2_0_0 (k0_off2 c 128#32 0#32) (k0_off2_inb c 1) (off2b_col c) k0_pay18 Mem.pay18_apply fo3 fr2
    (fun r q => S0 m 2 c (K0 2 c + r) q) (fun r q => S0 m 2 (Mesh.px 1 c) (K0 2 c + r) q) hC2 hfr2
  icases (pt_forget _ (fun g : Buf (Elt F) ((oM : Memref sig .tc .vmem S1024x1024 .f32).view.loc (c : Thread nD τ)) =>
      (∀ r q : ℕ, r < 192 → q < 1024 → oAt g (K0 0 c + r) q = S1 m 0 c (K0 0 c + r) q)
      ∧ (∀ r q : ℕ, r < 192 → q < 1024 → oAt g (K0 1 c + r) q = S1 m 1 c (K0 1 c + r) q)
      ∧ (∀ r q : ℕ, r < 128 → q < 1024 → oAt g (K0 2 c + r) q = S1 m 2 c (K0 2 c + r) q))
    ⟨kept_rows (h' := 192) (k0_off2 c 128#32 0#32) (k0_off2_inb c 1) fo3 _ (K0 0 c) _ (by omega) (Or.inl (by show K0 0 c + 192 ≤ K0 2 c; omega)) hC0,
      kept_rows (h' := 192) (k0_off2 c 128#32 0#32) (k0_off2_inb c 1) fo3 _ (K0 1 c) _ (by omega) (Or.inl (by show K0 1 c + 192 ≤ K0 2 c; omega)) hC1,
      ht2⟩) $$ Hout with ⟨%fo4, Hout, %hfo4⟩
  obtain ⟨hD0, hD1, hD2⟩ := hfo4
  -- butterfly 0's quarter for stage 1 is read and narrowed into its send slot
  iapply (wp_load 𝒱₀ (c : Thread nD τ) none Set.univ (m := oM) (Finset.subset_univ _)) $$ Hout; iintro Hout
  iapply (wp_load 𝒱₀ (c : Thread nD τ) none Set.univ (m := sM) (slot_load_sub sM inb_S3x384x1024_S1x96x1024_0_192_0 squeezes_S1x96x1024_S96x1024)) $$ Hs; iintro Hs
  iapply (wp_store 𝒱₀ (c : Thread nD τ) none Set.univ (m := sM) (r := Rect.unit (s := S3x384x1024) ![0, 192, 0] S1x96x1024.size inb_S3x384x1024_S1x96x1024_0_192_0) (Mk := Finset.univ)
      (slot_store_sub sM inb_S3x384x1024_S1x96x1024_0_192_0 squeezes_S1x96x1024_S96x1024)) $$ Hs; iintro Hs
  have hq : ∀ r q : ℕ, r < 96 → q < 1024 → oAt fo4 ((k0_off3 c 0#32 3#32 1#32 0#32 96#32) 0 + r) q = S1 m 0 c ((k0_off3 c 0#32 3#32 1#32 0#32 96#32) 0 + r) q := by
    intro r q hr hq
    rcases sentq_in_half c with e | e
    · rw [e]; exact hD0 r q (by omega) hq
    · rw [e, Nat.add_assoc]; exact hD0 (96 + r) q (by omega) hq
  have hs := sent_rows inb_S3x384x1024_S1x96x1024_0_192_0 (k0_off3 c 0#32 3#32 1#32 0#32 96#32) (k0_off3_inb c 0) (off3a_col c) k0_pay19 Mem.pay19_apply fo4 fs
    (fun r q => S1 m 0 c ((k0_off3 c 0#32 3#32 1#32 0#32 96#32) 0 + r) q) hq
  -- the stage is over
  iapply Hk
  unfold R0Post
  isplitl [P0]; · iexact P0
  isplitl [P1]; · iexact P1
  isplitl [P2]; · iexact P2
  isplitl [HO]; · iexact HO
  isplitl [Hg]; · iexact Hg
  isplitl [Hu]; · iexact Hu
  isplitl [Hd]; · iexact Hd
  isplitl [Hout]
  · iexists _
    isplitl [Hout]; · iexact Hout
    ipureintro; exact ⟨hD0, hD1, hD2⟩
  isplitl [Hs]
  · iexists _
    isplitl [Hs]; · iexact Hs
    ipureintro; exact hs
  isplitl [Hr0]; · iexists _; iexact Hr0
  isplitl [Hr1]; · iexists _; iexact Hr1
  iexists _; iexact Hr2

end R0

open R0

/-! ## The stage between the two cuts -/

set_option maxRecDepth 8192 in
set_option maxHeartbeats 4000000 in
/-- The arrivals of exchange stage 0 from the cut before them to the cut before stage 1: what they do not touch is carried
    across. -/
theorem r0 (m : (ℓ : Loc nD τ sig) → Buf (Elt F) ℓ) (K : Dev nD × CIx → ℕ) (c : Dev nD) (W : Waits sig Unit)
    (v2 v33 v51 v89 v127 : BitVec 32) (v17 v19 v21 : BitVec 1) (v184 : FVec F S128x1024 .f32)
    (hv : v184 = k0_pay12 (xRows128 m c (k0_off2 c 128#32 0#32) (k0_off2_inb c 1))) {α : Type}
    (kk : (v208 v227 : BitVec 32) → (Σ' (v246 : BitVec 32) (v256 : BitVec 32), BitVec 1) → Prog (TpuEff nD τ sig (Elt F) Λ₀ .tc) α) (Q : α → sProp 𝕄) :
    iprop(Cuts.PreR0 m K c W ∗ (∀ (v208 v227 : BitVec 32) (r : Σ' (v246 : BitVec 32) (v256 : BitVec 32), BitVec 1) (W' : Waits sig Unit),
          Cuts.PreS1 m K c W' -∗ wp frame (wpE (defs₀ (F := F)) 𝒱₀ (c : Thread nD τ) none) Set.univ (kk v208 v227 r) Q))
      ⊢ wp frame (wpE (defs₀ (F := F)) 𝒱₀ (c : Thread nD τ) none) Set.univ (do
          let ⟨v208, v211, v214⟩ : Σ' (v208 : BitVec 32) (v211 : FVec F S192x1024 .f32), FVec F S192x1024 .f32 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v33 v51 v184
          let v227 : BitVec 32 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v19 v89 v127 v208 v211 v214
          let r ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v21 v208
          kk v208 v227 r) Q := by
  unfold Cuts.PreR0
  iintro ⟨⟨#Hrec, #Hlev, A2, P0, A4, A5, P1, A7, A8, P2, A10, A11, A12, A13, A14, A15, A16, A17, A18, A19, A20, A21, A22, A23, A24, A25, A26, A27, A28, A29, A30, A31, A32, A33, A34, A35, A36, A37, A38, A39, A40, A41, A42, A43, A44, A45, A46, A47, A48, A49, A50, A51, A52, A53, A54, A55, A56, A57, A58, A59, A60, A61, A62, Cr0, A64, A65, Cr1, A67, A68, Cr2, A70, A71, A72, A73, A74, A75, A76, A77, A78, A79, A80, HO, A82, Hg, Hu, Hd, Hout, A87, Hs, A89, A90, A91, A92, A93, A94, A95, A96, A97, A98, A99, A100, A101, A102, A103, A104, A105, A106, A107, A108, A109⟩, Hk⟩
  iapply (r0_core m K c W v2 v33 v51 v89 v127 v17 v19 v21 v184 hv kk Q) $$ [P0 P1 P2 Cr0 Cr1 Cr2 HO Hg Hu Hd Hout Hs]
  · isplitr; · iexact Hrec
    isplitr; · iexact Hlev
    isplitl [P0]; · iexact P0
    isplitl [P1]; · iexact P1
    isplitl [P2]; · iexact P2
    isplitl [Cr0]; · iexact Cr0
    isplitl [Cr1]; · iexact Cr1
    isplitl [Cr2]; · iexact Cr2
    isplitl [HO]; · iexact HO
    isplitl [Hg]; · iexact Hg
    isplitl [Hu]; · iexact Hu
    isplitl [Hd]; · iexact Hd
    isplitl [Hout]; · iexact Hout
    iexact Hs
  unfold R0Post
  iintro ⟨P0, P1, P2, HO, Hg, Hu, Hd, Hout, Hs, Hr0, Hr1, Hr2⟩
  iapply Hk $$ %(Scalar.addi 0#32 (Scalar.select v17 192#32 0#32)) %(Scalar.addi 384#32 (Scalar.select v19 192#32 0#32)) %(⟨Scalar.addi 768#32 (Scalar.select v21 128#32 0#32), Scalar.xori v2 1#32, Scalar.cmpi .sgt v2 (Scalar.xori v2 1#32)⟩ : Σ' (v246 : BitVec 32) (v256 : BitVec 32), BitVec 1) %(insert (SemLoc.dma (dsem 1 2 0), ()) (insert (SemLoc.dma (dsem 1 1 0), ()) (insert (SemLoc.dma (dsem 1 0 0), ()) W)))
  unfold Cuts.PreS1
  iframe
  isplitr; · iexact Hrec
  iexact Hlev

/-- info: 'Cert.Kernel.Body.r0' depends on axioms: [propext, Classical.choice, Quot.sound] -/
#guard_msgs in #print axioms r0

end Cert.Kernel.Body

end
-- ==== Proof.KBodyS1.lean ====
import proofs.«900524_g7700000000000525_dist_gated_mlp_tp_i_m1024_h2048_d1024_v7x_i8_f32_1_alg».proof.Proof.KCuts
import proofs.«900524_g7700000000000525_dist_gated_mlp_tp_i_m1024_h2048_d1024_v7x_i8_f32_1_alg».proof.Proof.KTables
import proofs.«900524_g7700000000000525_dist_gated_mlp_tp_i_m1024_h2048_d1024_v7x_i8_f32_1_alg».proof.Proof.KBodyKit
import Idealize.ShloMosaic.Lib.Pipeline.Launch
import Idealize.ShloMosaic.Lib.Pipeline.Kit
import Idealize.ShloMosaic.Lib.Tactic

noncomputable section

namespace Cert.Kernel.Body

open Cert.Kernel Cert.Kernel.Gen Cert.Kernel.Sched Cert.Kernel.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

/-! # The body, exchange stage 1

From the cut after stage 0 to the cut after stage 1: each butterfly's quarter to send is narrowed into its send slot and
copied into the partner's receive slot; then, butterfly by butterfly, the partner's quarter is waited for, widened and
added to the kept quarter of the result buffer, whose rows then hold the sums after two stages. -/

/-! ## What is owed, and the semaphores as the protocol names them -/

theorem Orem_7_10 (c : Dev nD) : Orem c 7 = Orem c 10 + tallyAt (dcell 1 2 1 (Mesh.px 4 c)) () (namt 1 2 1) + tallyAt (dcell 1 1 1 (Mesh.px 3 c)) () (namt 1 1 1)
    + tallyAt (dcell 1 0 1 (Mesh.px 1 c)) () (namt 1 0 1) := by
  rw [Orem_lt c 7 (by decide), Orem_lt c 8 (by decide), Orem_lt c 9 (by decide)]
  rfl

theorem sem_s01 : semAt cc0_scratch3 0 1 inb_S3x3_S1x1_0_1 = dsem 0 0 1 := by decide
theorem sem_s11 : semAt cc0_scratch3 1 1 inb_S3x3_S1x1_1_1 = dsem 0 1 1 := by decide
theorem sem_s21 : semAt cc0_scratch3 2 1 inb_S3x3_S1x1_2_1 = dsem 0 2 1 := by decide
theorem sem_r01 : semAt cc0_scratch4 0 1 inb_S3x3_S1x1_0_1 = dsem 1 0 1 := by decide
theorem sem_r11 : semAt cc0_scratch4 1 1 inb_S3x3_S1x1_1_1 = dsem 1 1 1 := by decide
theorem sem_r21 : semAt cc0_scratch4 2 1 inb_S3x3_S1x1_2_1 = dsem 1 2 1 := by decide

/-! ## The rules at the program's spelling -/

/-- The stage-1 copy of butterfly 0, at whatever spelling of the partner and of the two semaphores the program has. -/
theorem send1_b0 (m : (ℓ : Loc nD τ sig) → Buf (Elt F) ℓ) (K : Dev nD × CIx → ℕ) (c d : Dev nD) (hd : d = Mesh.px 1 c)
    (sS sR : DmaSem sig) (hS : sS = dsem 0 0 1) (hR : sR = dsem 1 0 1)
    {hsc : (rSlot01 : Memref sig (Dev.tc d : Thread nD τ).2.kind .vmem S96x1024 .bf16).view.ref.isScScratch = false}
    {hsrc : sSlot01.view.WordExact} {hdst : rSlot01.view.WordExact}
    {hsem : DmaTarget.Typed .vmem (.dma sR) (.remote (Dev.tc d : Thread nD τ) rSlot01 (.dma sS) hsc)}
    {α : Type} {Q : α → sProp 𝕄} {kk : PUnit → Prog (TpuEff nD τ sig (Elt F) Λ₀ .tc) α}
    {fs : Buf (Elt F) (sSlot01.view.loc (c : Thread nD τ))} {fd : Buf (Elt F) (rSlot01.view.loc (Mesh.px 1 c : Thread nD τ))}
    (O : CellTallies nD τ sig Unit) {W : Waits sig Unit}
    (hfs : ∀ (r q : ℕ) (hr : r < 96) (hq : q < 1024), sSlot01.view.read (Elt F) fs (ix2 ⟨r, hr⟩ ⟨q, hq⟩) = tr (S1 m 0 c (K1 0 (Mesh.px 1 c) + r) q)) :
    iprop(records (F := F) m K
        ∗ (sSlot01.view.loc (c : Thread nD τ) ↦[sSlot01.view.set]{fullShare} fs)
        ∗ (rSlot01.view.loc (Mesh.px 1 c : Thread nD τ) ↦[rSlot01.view.set]{fullShare} fd)
        ∗ owes (c : Thread nD τ) (O + tallyAt (dcell 1 0 1 (Mesh.px 1 c)) () (namt 1 0 1)) W
        ∗ dutyTok ER (dcell 0 0 1 c) 0 0 ∗ dutyTok ER (dcell 1 0 1 (Mesh.px 1 c)) 0 0)
      ⊢ iprop(((cred (tallyAt (dcell 0 0 1 c) () (namt 0 0 1)) ∗ owes (c : Thread nD τ) O W) -∗ WP[c] (kk ⟨⟩) Q)
          -∗ WP[c] (.op (.enqueueDma sSlot01 (.remote (Dev.tc d : Thread nD τ) rSlot01 (.dma sS) hsc) (.dma sR) hsrc hdst hsem) kk) Q) := by
  subst hd hS hR
  exact Tables.wp_rs_send01 m K c O hfs

/-- The stage-1 copy of butterfly 1, at whatever spelling of the partner and of the two semaphores the program has. -/
theorem send1_b1 (m : (ℓ : Loc nD τ sig) → Buf (Elt F) ℓ) (K : Dev nD × CIx → ℕ) (c d : Dev nD) (hd : d = Mesh.px 3 c)
    (sS sR : DmaSem sig) (hS : sS = dsem 0 1 1) (hR : sR = dsem 1 1 1)
    {hsc : (rSlot11 : Memref sig (Dev.tc d : Thread nD τ).2.kind .vmem S96x1024 .bf16).view.ref.isScScratch = false}
    {hsrc : sSlot11.view.WordExact} {hdst : rSlot11.view.WordExact}
    {hsem : DmaTarget.Typed .vmem (.dma sR) (.remote (Dev.tc d : Thread nD τ) rSlot11 (.dma sS) hsc)}
    {α : Type} {Q : α → sProp 𝕄} {kk : PUnit → Prog (TpuEff nD τ sig (Elt F) Λ₀ .tc) α}
    {fs : Buf (Elt F) (sSlot11.view.loc (c : Thread nD τ))} {fd : Buf (Elt F) (rSlot11.view.loc (Mesh.px 3 c : Thread nD τ))}
    (O : CellTallies nD τ sig Unit) {W : Waits sig Unit}
    (hfs : ∀ (r q : ℕ) (hr : r < 96) (hq : q < 1024), sSlot11.view.read (Elt F) fs (ix2 ⟨r, hr⟩ ⟨q, hq⟩) = tr (S1 m 1 c (K1 1 (Mesh.px 3 c) + r) q)) :
    iprop(records (F := F) m K
        ∗ (sSlot11.view.loc (c : Thread nD τ) ↦[sSlot11.view.set]{fullShare} fs)
        ∗ (rSlot11.view.loc (Mesh.px 3 c : Thread nD τ) ↦[rSlot11.view.set]{fullShare} fd)
        ∗ owes (c : Thread nD τ) (O + tallyAt (dcell 1 1 1 (Mesh.px 3 c)) () (namt 1 1 1)) W
        ∗ dutyTok ER (dcell 0 1 1 c) 0 0 ∗ dutyTok ER (dcell 1 1 1 (Mesh.px 3 c)) 0 0)
      ⊢ iprop(((cred (tallyAt (dcell 0 1 1 c) () (namt 0 1 1)) ∗ owes (c : Thread nD τ) O W) -∗ WP[c] (kk ⟨⟩) Q)
          -∗ WP[c] (.op (.enqueueDma sSlot11 (.remote (Dev.tc d : Thread nD τ) rSlot11 (.dma sS) hsc) (.dma sR) hsrc hdst hsem) kk) Q) := by
  subst hd hS hR
  exact Tables.wp_rs_send11 m K c O hfs

/-- The stage-1 copy of butterfly 2, at whatever spelling of the partner and of the two semaphores the program has. -/
theorem send1_b2 (m : (ℓ : Loc nD τ sig) → Buf (Elt F) ℓ) (K : Dev nD × CIx → ℕ) (c d : Dev nD) (hd : d = Mesh.px 4 c)
    (sS sR : DmaSem sig) (hS : sS = dsem 0 2 1) (hR : sR = dsem 1 2 1)
    {hsc : (rSlot21 : Memref sig (Dev.tc d : Thread nD τ).2.kind .vmem S64x1024 .bf16).view.ref.isScScratch = false}
    {hsrc : sSlot21.view.WordExact} {hdst : rSlot21.view.WordExact}
    {hsem : DmaTarget.Typed .vmem (.dma sR) (.remote (Dev.tc d : Thread nD τ) rSlot21 (.dma sS) hsc)}
    {α : Type} {Q : α → sProp 𝕄} {kk : PUnit → Prog (TpuEff nD τ sig (Elt F) Λ₀ .tc) α}
    {fs : Buf (Elt F) (sSlot21.view.loc (c : Thread nD τ))} {fd : Buf (Elt F) (rSlot21.view.loc (Mesh.px 4 c : Thread nD τ))}
    (O : CellTallies nD τ sig Unit) {W : Waits sig Unit}
    (hfs : ∀ (r q : ℕ) (hr : r < 64) (hq : q < 1024), sSlot21.view.read (Elt F) fs (ix2 ⟨r, hr⟩ ⟨q, hq⟩) = tr (S1 m 2 c (K1 2 (Mesh.px 4 c) + r) q)) :
    iprop(records (F := F) m K
        ∗ (sSlot21.view.loc (c : Thread nD τ) ↦[sSlot21.view.set]{fullShare} fs)
        ∗ (rSlot21.view.loc (Mesh.px 4 c : Thread nD τ) ↦[rSlot21.view.set]{fullShare} fd)
        ∗ owes (c : Thread nD τ) (O + tallyAt (dcell 1 2 1 (Mesh.px 4 c)) () (namt 1 2 1)) W
        ∗ dutyTok ER (dcell 0 2 1 c) 0 0 ∗ dutyTok ER (dcell 1 2 1 (Mesh.px 4 c)) 0 0)
      ⊢ iprop(((cred (tallyAt (dcell 0 2 1 c) () (namt 0 2 1)) ∗ owes (c : Thread nD τ) O W) -∗ WP[c] (kk ⟨⟩) Q)
          -∗ WP[c] (.op (.enqueueDma sSlot21 (.remote (Dev.tc d : Thread nD τ) rSlot21 (.dma sS) hsc) (.dma sR) hsrc hdst hsem) kk) Q) := by
  subst hd hS hR
  exact Tables.wp_rs_send21 m K c O hfs

/-- The stage-1 arrival of butterfly 0: the wait hands over the receive slot, holding the partner's sums of stage 0 over the kept quarter, narrowed. -/
theorem wait1_b0 (m : (ℓ : Loc nD τ sig) → Buf (Elt F) ℓ) (K : Dev nD × CIx → ℕ) (c : Dev nD) (sR : DmaSem sig) (hR : sR = dsem 1 0 1)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 1 0 1) {α : Type} {Q : α → sProp 𝕄}
    {kk : PUnit → Prog (TpuEff nD τ sig (Elt F) Λ₀ .tc) α} {W : Waits sig Unit} :
    iprop(records (F := F) m K ∗ levAts L lv ∗ cred (tallyAt (dcell 1 0 1 c) () (namt 1 0 1)) ∗ owes (c : Thread nD τ) (Orem c 10) W
        ∗ atPos ER (dcell 1 0 1 c) 0 ∅ 0)
      ⊢ iprop(((owes (c : Thread nD τ) (Orem c 10) (insert (SemLoc.dma (dsem 1 0 1), ()) W) ∗ atPos ER (dcell 1 0 1 c) 1 ∅ 0
              ∗ reached ER (dcell 1 0 1 c) 1
              ∗ (∃ f, (rSlot01.view.loc (c : Thread nD τ) ↦[rSlot01.view.set]{fullShare} f)
                  ∗ ⌜∀ r q : ℕ, r < 96 → q < 1024 → rAt f 0 (192 + r) q = tr (S1 m 0 (Mesh.px 1 c) (K1 0 c + r) q)⌝))
            -∗ WP[c] (kk ⟨⟩) Q)
          -∗ WP[c] (.op (.waitDma2 sR src dst hsrc hdst) kk) Q) := by
  subst hR
  exact Tables.wp_rs_recvwait1 m K 0 c hN

/-- The stage-1 arrival of butterfly 1: the wait hands over the receive slot, holding the partner's sums of stage 0 over the kept quarter, narrowed. -/
theorem wait1_b1 (m : (ℓ : Loc nD τ sig) → Buf (Elt F) ℓ) (K : Dev nD × CIx → ℕ) (c : Dev nD) (sR : DmaSem sig) (hR : sR = dsem 1 1 1)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 1 1 1) {α : Type} {Q : α → sProp 𝕄}
    {kk : PUnit → Prog (TpuEff nD τ sig (Elt F) Λ₀ .tc) α} {W : Waits sig Unit} :
    iprop(records (F := F) m K ∗ levAts L lv ∗ cred (tallyAt (dcell 1 1 1 c) () (namt 1 1 1)) ∗ owes (c : Thread nD τ) (Orem c 10) W
        ∗ atPos ER (dcell 1 1 1 c) 0 ∅ 0)
      ⊢ iprop(((owes (c : Thread nD τ) (Orem c 10) (insert (SemLoc.dma (dsem 1 1 1), ()) W) ∗ atPos ER (dcell 1 1 1 c) 1 ∅ 0
              ∗ reached ER (dcell 1 1 1 c) 1
              ∗ (∃ f, (rSlot11.view.loc (c : Thread nD τ) ↦[rSlot11.view.set]{fullShare} f)
                  ∗ ⌜∀ r q : ℕ, r < 96 → q < 1024 → rAt f 1 (192 + r) q = tr (S1 m 1 (Mesh.px 3 c) (K1 1 c + r) q)⌝))
            -∗ WP[c] (kk ⟨⟩) Q)
          -∗ WP[c] (.op (.waitDma2 sR src dst hsrc hdst) kk) Q) := by
  subst hR
  exact Tables.wp_rs_recvwait1 m K 1 c hN

/-- The stage-1 arrival of butterfly 2: the wait hands over the receive slot, holding the partner's sums of stage 0 over the kept quarter, narrowed. -/
theorem wait1_b2 (m : (ℓ : Loc nD τ sig) → Buf (Elt F) ℓ) (K : Dev nD × CIx → ℕ) (c : Dev nD) (sR : DmaSem sig) (hR : sR = dsem 1 2 1)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 1 2 1) {α : Type} {Q : α → sProp 𝕄}
    {kk : PUnit → Prog (TpuEff nD τ sig (Elt F) Λ₀ .tc) α} {W : Waits sig Unit} :
    iprop(records (F := F) m K ∗ levAts L lv ∗ cred (tallyAt (dcell 1 2 1 c) () (namt 1 2 1)) ∗ owes (c : Thread nD τ) (Orem c 10) W
        ∗ atPos ER (dcell 1 2 1 c) 0 ∅ 0)
      ⊢ iprop(((owes (c : Thread nD τ) (Orem c 10) (insert (SemLoc.dma (dsem 1 2 1), ()) W) ∗ atPos ER (dcell 1 2 1 c) 1 ∅ 0
              ∗ reached ER (dcell 1 2 1 c) 1
              ∗ (∃ f, (rSlot21.view.loc (c : Thread nD τ) ↦[rSlot21.view.set]{fullShare} f)
                  ∗ ⌜∀ r q : ℕ, r < 64 → q < 1024 → rAt f 2 (128 + r) q = tr (S1 m 2 (Mesh.px 4 c) (K1 2 c + r) q)⌝))
            -∗ WP[c] (kk ⟨⟩) Q)
          -∗ WP[c] (.op (.waitDma2 sR src dst hsrc hdst) kk) Q) := by
  subst hR
  exact Tables.wp_rs_recvwait1 m K 2 c hN

/-! ## Rows -/

/-- Butterfly 0: the quarter sent lies in the kept half and is the quarter the partner keeps; so does the kept quarter. -/
theorem rows_b0 (c : Dev nD) :
    K0 0 c ≤ (k0_off3 c 0#32 3#32 1#32 0#32 96#32) 0 ∧ (k0_off3 c 0#32 3#32 1#32 0#32 96#32) 0 + 96 ≤ K0 0 c + 192 ∧ (k0_off3 c 0#32 3#32 1#32 0#32 96#32) 0 = K1 0 (Mesh.px 1 c) ∧ (k0_off3 c 0#32 3#32 1#32 0#32 96#32) 1 = 0
      ∧ K0 0 c ≤ K1 0 c ∧ K1 0 c + 96 ≤ K0 0 c + 192 ∧ (k0_off3 c 0#32 3#32 1#32 96#32 0#32) 0 = K1 0 c ∧ (k0_off3 c 0#32 3#32 1#32 96#32 0#32) 1 = 0 ∧ K1 0 c + 96 ≤ 384 := by
  revert c; decide +kernel
theorem rows_b1 (c : Dev nD) :
    K0 1 c ≤ (k0_off3 c 384#32 4#32 3#32 0#32 96#32) 0 ∧ (k0_off3 c 384#32 4#32 3#32 0#32 96#32) 0 + 96 ≤ K0 1 c + 192 ∧ (k0_off3 c 384#32 4#32 3#32 0#32 96#32) 0 = K1 1 (Mesh.px 3 c) ∧ (k0_off3 c 384#32 4#32 3#32 0#32 96#32) 1 = 0
      ∧ K0 1 c ≤ K1 1 c ∧ K1 1 c + 96 ≤ K0 1 c + 192 ∧ (k0_off3 c 384#32 4#32 3#32 96#32 0#32) 0 = K1 1 c ∧ (k0_off3 c 384#32 4#32 3#32 96#32 0#32) 1 = 0 ∧ 384 ≤ K1 1 c ∧ K1 1 c + 96 ≤ 768 := by
  revert c; decide +kernel
theorem rows_b2 (c : Dev nD) :
    K0 2 c ≤ (k0_off4 c 0#32 64#32) 0 ∧ (k0_off4 c 0#32 64#32) 0 + 64 ≤ K0 2 c + 128 ∧ (k0_off4 c 0#32 64#32) 0 = K1 2 (Mesh.px 4 c) ∧ (k0_off4 c 0#32 64#32) 1 = 0
      ∧ K0 2 c ≤ K1 2 c ∧ K1 2 c + 64 ≤ K0 2 c + 128 ∧ (k0_off4 c 64#32 0#32) 0 = K1 2 c ∧ (k0_off4 c 64#32 0#32) 1 = 0 ∧ 768 ≤ K1 2 c ∧ K1 2 c + 64 ≤ 1024 := by
  revert c; decide +kernel

/-! ## Values -/

section Values
variable (m : (ℓ : Loc nD τ sig) → Buf (Elt F) ℓ)

/-- Butterfly 0's send slot, filled before the cut, holds the quarter the partner keeps. -/
theorem sendval_b0 (c : Dev nD) (fs : (cc0_scratch0 : Ref sig .tc).ty.Contents (Elt F))
    (hs : ∀ r q : ℕ, r < 96 → q < 1024 → Mem.sAt fs 0 (192 + r) q = tr (S1 m 0 c ((k0_off3 c 0#32 3#32 1#32 0#32 96#32) 0 + r) q)) :
    ∀ (r q : ℕ) (hr : r < 96) (hq : q < 1024), sSlot01.view.read (Elt F) fs (ix2 ⟨r, hr⟩ ⟨q, hq⟩) = tr (S1 m 0 c (K1 0 (Mesh.px 1 c) + r) q) := by
  intro r q hr hq
  obtain ⟨-, -, h3, -⟩ := rows_b0 c
  refine (Mem.sSlot_read inb_S3x384x1024_S1x96x1024_0_192_0 squeezes_S1x96x1024_S96x1024 fs r q hr hq).trans ?_
  rw [hs r q hr hq, h3]

/-- Butterfly 1's send slot, once the quarter to send is narrowed into it. -/
theorem sendval_b1 (c : Dev nD) (fo : (cc0_stg4_0 : Ref sig .tc).ty.Contents (Elt F)) (fs : (cc0_scratch0 : Ref sig .tc).ty.Contents (Elt F))
    (hfo : ∀ r q : ℕ, r < 192 → q < 1024 → oAt fo (K0 1 c + r) q = S1 m 1 c (K0 1 c + r) q) :
    ∀ (r q : ℕ) (hr : r < 96) (hq : q < 1024),
      sSlot11.view.read (Elt F) ((sM.access (Rect.unit (s := S3x384x1024) ![1, 192, 0] S1x96x1024.size inb_S3x384x1024_S1x96x1024_1_192_0)).write (Elt F) fs
          (k0_pay20 (oM.view.readAt (Elt F) (Rect.unit (s := S1024x1024) (k0_off3 c 384#32 4#32 3#32 0#32 96#32) S96x1024.size (k0_off3_inb c 1)).toLoadRect fo)) Finset.univ)
        (ix2 ⟨r, hr⟩ ⟨q, hq⟩) = tr (S1 m 1 c (K1 1 (Mesh.px 3 c) + r) q) := by
  intro r q hr hq
  obtain ⟨h1, h2, h3, h4, -⟩ := rows_b1 c
  refine (Mem.sSlot_read inb_S3x384x1024_S1x96x1024_1_192_0 squeezes_S1x96x1024_S96x1024 _ r q hr hq).trans ?_
  refine (Mem.narrow_rows (k0_off3 c 384#32 4#32 3#32 0#32 96#32) (k0_off3_inb c 1) h4 inb_S3x384x1024_S1x96x1024_1_192_0 _ _ fo fs r q hr hq).trans ?_
  have h := hfo ((k0_off3 c 384#32 4#32 3#32 0#32 96#32) 0 - K0 1 c + r) q (by omega) hq
  rw [show K0 1 c + ((k0_off3 c 384#32 4#32 3#32 0#32 96#32) 0 - K0 1 c + r) = (k0_off3 c 384#32 4#32 3#32 0#32 96#32) 0 + r by omega] at h
  rw [h, h3]

/-- Butterfly 2's send slot, once the quarter to send is narrowed into it. -/
theorem sendval_b2 (c : Dev nD) (fo : (cc0_stg4_0 : Ref sig .tc).ty.Contents (Elt F)) (fs : (cc0_scratch0 : Ref sig .tc).ty.Contents (Elt F))
    (hfo : ∀ r q : ℕ, r < 128 → q < 1024 → oAt fo (K0 2 c + r) q = S1 m 2 c (K0 2 c + r) q) :
    ∀ (r q : ℕ) (hr : r < 64) (hq : q < 1024),
      sSlot21.view.read (Elt F) ((sM.access (Rect.unit (s := S3x384x1024) ![2, 128, 0] S1x64x1024.size inb_S3x384x1024_S1x64x1024_2_128_0)).write (Elt F) fs
          (k0_pay21 (oM.view.readAt (Elt F) (Rect.unit (s := S1024x1024) (k0_off4 c 0#32 64#32) S64x1024.size (k0_off4_inb c 0)).toLoadRect fo)) Finset.univ)
        (ix2 ⟨r, hr⟩ ⟨q, hq⟩) = tr (S1 m 2 c (K1 2 (Mesh.px 4 c) + r) q) := by
  intro r q hr hq
  obtain ⟨h1, h2, h3, h4, -⟩ := rows_b2 c
  refine (Mem.sSlot_read inb_S3x384x1024_S1x64x1024_2_128_0 squeezes_S1x64x1024_S64x1024 _ r q hr hq).trans ?_
  refine (Mem.narrow_rows (k0_off4 c 0#32 64#32) (k0_off4_inb c 0) h4 inb_S3x384x1024_S1x64x1024_2_128_0 _ _ fo fs r q hr hq).trans ?_
  have h := hfo ((k0_off4 c 0#32 64#32) 0 - K0 2 c + r) q (by omega) hq
  rw [show K0 2 c + ((k0_off4 c 0#32 64#32) 0 - K0 2 c + r) = (k0_off4 c 0#32 64#32) 0 + r by omega] at h
  rw [h, h3]

end Values

/-- Rows inside rows: a fact about the rows [k0, k0 + H) read at the rows [k1, k1 + Q) they contain. -/
theorem sub_rows {A : ℕ → ℕ → F .f32} {f : (cc0_stg4_0 : Ref sig .tc).ty.Contents (Elt F)} {k0 k1 H Q : ℕ}
    (h : ∀ r q : ℕ, r < H → q < 1024 → oAt f (k0 + r) q = A (k0 + r) q) (h1 : k0 ≤ k1) (h2 : k1 + Q ≤ k0 + H) :
    ∀ r q : ℕ, r < Q → q < 1024 → oAt f (k1 + r) q = A (k1 + r) q := by
  intro r q hr hq
  have h' := h (k1 - k0 + r) q (by omega) hq
  rwa [show k0 + (k1 - k0 + r) = k1 + r by omega] at h'

/-- Butterfly 0's stage-2 send slot, once its kept quarter is narrowed into it. -/
theorem slot02_val (m : (ℓ : Loc nD τ sig) → Buf (Elt F) ℓ) (c : Dev nD) (fo : (cc0_stg4_0 : Ref sig .tc).ty.Contents (Elt F)) (fs : (cc0_scratch0 : Ref sig .tc).ty.Contents (Elt F))
    (h0 : ∀ r q : ℕ, r < 96 → q < 1024 → oAt fo (K1 0 c + r) q = S2 m 0 c (K1 0 c + r) q) :
    ∀ r q : ℕ, r < 96 → q < 1024 →
      Mem.sAt ((sM.access (Rect.unit (s := S3x384x1024) ![0, 288, 0] S1x96x1024.size inb_S3x384x1024_S1x96x1024_0_288_0)).write (Elt F) fs
          (k0_pay25 ((oM : Memref sig .tc .vmem S1024x1024 .f32).view.readAt (Elt F) (Rect.unit (s := S1024x1024) (k0_off3 c 0#32 3#32 1#32 96#32 0#32) S96x1024.size (k0_off3_inb c 2)).toLoadRect fo)) Finset.univ)
        0 (288 + r) q = tr (S2 m 0 c (K1 0 c + r) q) := by
  intro r q hr hq
  obtain ⟨-, -, -, -, -, -, e0, e1, -⟩ := rows_b0 c
  refine (Mem.narrow_rows (k0_off3 c 0#32 3#32 1#32 96#32 0#32) (k0_off3_inb c 2) e1 inb_S3x384x1024_S1x96x1024_0_288_0 _ _ fo fs r q hr hq).trans ?_
  rw [e0, h0 r q hr hq]

/-- Butterfly 0: once the partner's quarter is widened and added, the kept quarter holds the sums after two stages; the
    other butterflies' rows are as they were. -/
theorem out_b0 (m : (ℓ : Loc nD τ sig) → Buf (Elt F) ℓ) (c : Dev nD) (fo : (cc0_stg4_0 : Ref sig .tc).ty.Contents (Elt F)) (fr : (cc0_scratch1 : Ref sig .tc).ty.Contents (Elt F))
    (A1 A2 : ℕ → ℕ → F .f32)
    (h0 : ∀ r q : ℕ, r < 96 → q < 1024 → oAt fo (K1 0 c + r) q = S1 m 0 c (K1 0 c + r) q)
    (h1 : ∀ r q : ℕ, r < 96 → q < 1024 → oAt fo (K1 1 c + r) q = A1 r q)
    (h2 : ∀ r q : ℕ, r < 64 → q < 1024 → oAt fo (K1 2 c + r) q = A2 r q)
    (hr : ∀ r q : ℕ, r < 96 → q < 1024 → rAt fr 0 (192 + r) q = tr (S1 m 0 (Mesh.px 1 c) (K1 0 c + r) q)) :
    (((oM : Memref sig .tc .vmem S1024x1024 .f32).view.loc (c : Thread nD τ) ↦{fullShare} (oM : Memref sig .tc .vmem S1024x1024 .f32).view.writes (Elt F) fo
        [⟨Rect.unit (s := S1024x1024) (k0_off3 c 0#32 3#32 1#32 96#32 0#32) S96x1024.size (k0_off3_inb c 2),
          k0_pay22 ((oM : Memref sig .tc .vmem S1024x1024 .f32).view.readAt (Elt F) (Rect.unit (s := S1024x1024) (k0_off3 c 0#32 3#32 1#32 96#32 0#32) S96x1024.size (k0_off3_inb c 2)).toLoadRect fo)
            ((rM : Memref sig .tc .vmem S3x384x1024 .bf16).view.readAt (Elt F) (Rect.unit (s := S3x384x1024) ![0, 192, 0] S1x96x1024.size inb_S3x384x1024_S1x96x1024_0_192_0).toLoadRect fr)⟩]) : sProp 𝕄)
      ⊢ iprop(∃ fo' : (cc0_stg4_0 : Ref sig .tc).ty.Contents (Elt F), ((oM : Memref sig .tc .vmem S1024x1024 .f32).view.loc (c : Thread nD τ) ↦{fullShare} fo') ∗ ⌜(∀ r q : ℕ, r < 96 → q < 1024 → oAt fo' (K1 0 c + r) q = S2 m 0 c (K1 0 c + r) q)
        ∧ (∀ r q : ℕ, r < 96 → q < 1024 → oAt fo' (K1 1 c + r) q = A1 r q)
        ∧ (∀ r q : ℕ, r < 64 → q < 1024 → oAt fo' (K1 2 c + r) q = A2 r q)⌝) := by
  iintro H
  iexists _
  isplitl [H]
  · iexact H
  · ipureintro
    obtain ⟨-, -, -, -, -, -, k07, -, k09⟩ := rows_b0 c
    obtain ⟨-, -, -, -, -, -, k17, -, k18, k19⟩ := rows_b1 c
    obtain ⟨-, -, -, -, -, -, k27, -, k28, k29⟩ := rows_b2 c
    have e0 : (k0_off3 c 0#32 3#32 1#32 96#32 0#32) 0 = K1 0 c := k07
    have e1 : (k0_off3 c 0#32 3#32 1#32 96#32 0#32) 1 = 0 := (rows_b0 c).2.2.2.2.2.2.2.1
    refine ⟨fun r q hr' hq => ?_, fun r q hr' hq => ?_, fun r q hr' hq => ?_⟩
    · have h := Mem.rs_add_rows (k0_off3 c 0#32 3#32 1#32 96#32 0#32) (k0_off3_inb c 2) e1 inb_S3x384x1024_S1x96x1024_0_192_0 shapeCasts_S96x1024_S96x1024 shapeCasts_S1x96x1024_S96x1024 fo fr
        (fun r q => S1 m 0 c (K1 0 c + r) q) (fun r q => S1 m 0 (Mesh.px 1 c) (K1 0 c + r) q)
        (fun r q hr hq => by rw [e0]; exact h0 r q hr hq) hr r q hr' hq
      rw [e0] at h
      exact h
    · rw [← h1 r q hr' hq]
      exact Mem.oAt_store_miss (k0_off3 c 0#32 3#32 1#32 96#32 0#32) (k0_off3_inb c 2) fo _ (K1 1 c + r) q (by omega) (by omega)
    · rw [← h2 r q hr' hq]
      exact Mem.oAt_store_miss (k0_off3 c 0#32 3#32 1#32 96#32 0#32) (k0_off3_inb c 2) fo _ (K1 2 c + r) q (by omega) (by omega)

/-- Butterfly 1: once the partner's quarter is widened and added, the kept quarter holds the sums after two stages; the
    other butterflies' rows are as they were. -/
theorem out_b1 (m : (ℓ : Loc nD τ sig) → Buf (Elt F) ℓ) (c : Dev nD) (fo : (cc0_stg4_0 : Ref sig .tc).ty.Contents (Elt F)) (fr : (cc0_scratch1 : Ref sig .tc).ty.Contents (Elt F))
    (A0 A2 : ℕ → ℕ → F .f32)
    (h0 : ∀ r q : ℕ, r < 96 → q < 1024 → oAt fo (K1 0 c + r) q = A0 r q)
    (h1 : ∀ r q : ℕ, r < 96 → q < 1024 → oAt fo (K1 1 c + r) q = S1 m 1 c (K1 1 c + r) q)
    (h2 : ∀ r q : ℕ, r < 64 → q < 1024 → oAt fo (K1 2 c + r) q = A2 r q)
    (hr : ∀ r q : ℕ, r < 96 → q < 1024 → rAt fr 1 (192 + r) q = tr (S1 m 1 (Mesh.px 3 c) (K1 1 c + r) q)) :
    (((oM : Memref sig .tc .vmem S1024x1024 .f32).view.loc (c : Thread nD τ) ↦{fullShare} (oM : Memref sig .tc .vmem S1024x1024 .f32).view.writes (Elt F) fo
        [⟨Rect.unit (s := S1024x1024) (k0_off3 c 384#32 4#32 3#32 96#32 0#32) S96x1024.size (k0_off3_inb c 3),
          k0_pay23 ((oM : Memref sig .tc .vmem S1024x1024 .f32).view.readAt (Elt F) (Rect.unit (s := S1024x1024) (k0_off3 c 384#32 4#32 3#32 96#32 0#32) S96x1024.size (k0_off3_inb c 3)).toLoadRect fo)
            ((rM : Memref sig .tc .vmem S3x384x1024 .bf16).view.readAt (Elt F) (Rect.unit (s := S3x384x1024) ![1, 192, 0] S1x96x1024.size inb_S3x384x1024_S1x96x1024_1_192_0).toLoadRect fr)⟩]) : sProp 𝕄)
      ⊢ iprop(∃ fo' : (cc0_stg4_0 : Ref sig .tc).ty.Contents (Elt F), ((oM : Memref sig .tc .vmem S1024x1024 .f32).view.loc (c : Thread nD τ) ↦{fullShare} fo') ∗ ⌜(∀ r q : ℕ, r < 96 → q < 1024 → oAt fo' (K1 0 c + r) q = A0 r q)
        ∧ (∀ r q : ℕ, r < 96 → q < 1024 → oAt fo' (K1 1 c + r) q = S2 m 1 c (K1 1 c + r) q)
        ∧ (∀ r q : ℕ, r < 64 → q < 1024 → oAt fo' (K1 2 c + r) q = A2 r q)⌝) := by
  iintro H
  iexists _
  isplitl [H]
  · iexact H
  · ipureintro
    obtain ⟨-, -, -, -, -, -, k07, -, k09⟩ := rows_b0 c
    obtain ⟨-, -, -, -, -, -, k17, -, k18, k19⟩ := rows_b1 c
    obtain ⟨-, -, -, -, -, -, k27, -, k28, k29⟩ := rows_b2 c
    have e0 : (k0_off3 c 384#32 4#32 3#32 96#32 0#32) 0 = K1 1 c := k17
    have e1 : (k0_off3 c 384#32 4#32 3#32 96#32 0#32) 1 = 0 := (rows_b1 c).2.2.2.2.2.2.2.1
    refine ⟨fun r q hr' hq => ?_, fun r q hr' hq => ?_, fun r q hr' hq => ?_⟩
    · rw [← h0 r q hr' hq]
      exact Mem.oAt_store_miss (k0_off3 c 384#32 4#32 3#32 96#32 0#32) (k0_off3_inb c 3) fo _ (K1 0 c + r) q (by omega) (by omega)
    · have h := Mem.rs_add_rows (k0_off3 c 384#32 4#32 3#32 96#32 0#32) (k0_off3_inb c 3) e1 inb_S3x384x1024_S1x96x1024_1_192_0 shapeCasts_S96x1024_S96x1024 shapeCasts_S1x96x1024_S96x1024 fo fr
        (fun r q => S1 m 1 c (K1 1 c + r) q) (fun r q => S1 m 1 (Mesh.px 3 c) (K1 1 c + r) q)
        (fun r q hr hq => by rw [e0]; exact h1 r q hr hq) hr r q hr' hq
      rw [e0] at h
      exact h
    · rw [← h2 r q hr' hq]
      exact Mem.oAt_store_miss (k0_off3 c 384#32 4#32 3#32 96#32 0#32) (k0_off3_inb c 3) fo _ (K1 2 c + r) q (by omega) (by omega)

/-- Butterfly 2: once the partner's quarter is widened and added, the kept quarter holds the sums after two stages; the
    other butterflies' rows are as they were. -/
theorem out_b2 (m : (ℓ : Loc nD τ sig) → Buf (Elt F) ℓ) (c : Dev nD) (fo : (cc0_stg4_0 : Ref sig .tc).ty.Contents (Elt F)) (fr : (cc0_scratch1 : Ref sig .tc).ty.Contents (Elt F))
    (A0 A1 : ℕ → ℕ → F .f32)
    (h0 : ∀ r q : ℕ, r < 96 → q < 1024 → oAt fo (K1 0 c + r) q = A0 r q)
    (h1 : ∀ r q : ℕ, r < 96 → q < 1024 → oAt fo (K1 1 c + r) q = A1 r q)
    (h2 : ∀ r q : ℕ, r < 64 → q < 1024 → oAt fo (K1 2 c + r) q = S1 m 2 c (K1 2 c + r) q)
    (hr : ∀ r q : ℕ, r < 64 → q < 1024 → rAt fr 2 (128 + r) q = tr (S1 m 2 (Mesh.px 4 c) (K1 2 c + r) q)) :
    (((oM : Memref sig .tc .vmem S1024x1024 .f32).view.loc (c : Thread nD τ) ↦{fullShare} (oM : Memref sig .tc .vmem S1024x1024 .f32).view.writes (Elt F) fo
        [⟨Rect.unit (s := S1024x1024) (k0_off4 c 64#32 0#32) S64x1024.size (k0_off4_inb c 1),
          k0_pay24 ((oM : Memref sig .tc .vmem S1024x1024 .f32).view.readAt (Elt F) (Rect.unit (s := S1024x1024) (k0_off4 c 64#32 0#32) S64x1024.size (k0_off4_inb c 1)).toLoadRect fo)
            ((rM : Memref sig .tc .vmem S3x384x1024 .bf16).view.readAt (Elt F) (Rect.unit (s := S3x384x1024) ![2, 128, 0] S1x64x1024.size inb_S3x384x1024_S1x64x1024_2_128_0).toLoadRect fr)⟩]) : sProp 𝕄)
      ⊢ iprop(∃ fo' : (cc0_stg4_0 : Ref sig .tc).ty.Contents (Elt F), ((oM : Memref sig .tc .vmem S1024x1024 .f32).view.loc (c : Thread nD τ) ↦{fullShare} fo') ∗ ⌜(∀ r q : ℕ, r < 96 → q < 1024 → oAt fo' (K1 0 c + r) q = A0 r q)
        ∧ (∀ r q : ℕ, r < 96 → q < 1024 → oAt fo' (K1 1 c + r) q = A1 r q)
        ∧ (∀ r q : ℕ, r < 64 → q < 1024 → oAt fo' (K1 2 c + r) q = S2 m 2 c (K1 2 c + r) q)⌝) := by
  iintro H
  iexists _
  isplitl [H]
  · iexact H
  · ipureintro
    obtain ⟨-, -, -, -, -, -, k07, -, k09⟩ := rows_b0 c
    obtain ⟨-, -, -, -, -, -, k17, -, k18, k19⟩ := rows_b1 c
    obtain ⟨-, -, -, -, -, -, k27, -, k28, k29⟩ := rows_b2 c
    have e0 : (k0_off4 c 64#32 0#32) 0 = K1 2 c := k27
    have e1 : (k0_off4 c 64#32 0#32) 1 = 0 := (rows_b2 c).2.2.2.2.2.2.2.1
    refine ⟨fun r q hr' hq => ?_, fun r q hr' hq => ?_, fun r q hr' hq => ?_⟩
    · rw [← h0 r q hr' hq]
      exact Mem.oAt_store_miss (k0_off4 c 64#32 0#32) (k0_off4_inb c 1) fo _ (K1 0 c + r) q (by omega) (by omega)
    · rw [← h1 r q hr' hq]
      exact Mem.oAt_store_miss (k0_off4 c 64#32 0#32) (k0_off4_inb c 1) fo _ (K1 1 c + r) q (by omega) (by omega)
    · have h := Mem.rs_add_rows (k0_off4 c 64#32 0#32) (k0_off4_inb c 1) e1 inb_S3x384x1024_S1x64x1024_2_128_0 shapeCasts_S64x1024_S64x1024 shapeCasts_S1x64x1024_S64x1024 fo fr
        (fun r q => S1 m 2 c (K1 2 c + r) q) (fun r q => S1 m 2 (Mesh.px 4 c) (K1 2 c + r) q)
        (fun r q hr hq => by rw [e0]; exact h2 r q hr hq) hr r q hr' hq
      rw [e0] at h
      exact h

set_option maxRecDepth 8192 in
set_option maxHeartbeats 4000000 in
theorem stage1 (m : (ℓ : Loc nD τ sig) → Buf (Elt F) ℓ) (K : Dev nD × CIx → ℕ) (c : Dev nD) (W : Waits sig Unit)
    (v2 v208 v227 v246 v256 : BitVec 32) (v257 : BitVec 1) {α : Type}
    (kk : (v277 : BitVec 32) → (v278 : BitVec 1) → (v298 : BitVec 32) → (v299 : BitVec 1) → (v328 v347 c1_i32_309 : BitVec 32) →
      (Σ' (v366 : BitVec 32), BitVec 32) → Prog (TpuEff nD τ sig (Elt F) Λ₀ .tc) α) (Q : α → sProp 𝕄) :
    iprop(Cuts.PreS1 m K c W ∗ (∀ W', Cuts.PreS2 m K c W' -∗ ∀ v277 v278 v298 v299 v328 v347 c1 r, WP[c] (kk v277 v278 v298 v299 v328 v347 c1 r) Q))
      ⊢ WP[c] (do
          let ⟨v277, v278, v298, v299⟩ : Σ' (v277 : BitVec 32) (v278 : BitVec 1) (v298 : BitVec 32), BitVec 1 ← k0_part10 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v227 v246
          let v328 : BitVec 32 ← k0_part11 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v208 v256 v257 v298
          let ⟨v347, c1_i32_309⟩ : Σ' (v347 : BitVec 32), BitVec 32 ← k0_part12 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v227 v277 v278 v328
          let r : Σ' (v366 : BitVec 32), BitVec 32 ← k0_part13 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v246 v298 v299 v328 c1_i32_309
          kk v277 v278 v298 v299 v328 v347 c1_i32_309 r) Q := by
  unfold Cuts.PreS1
  iintro ⟨⟨#Hrec, #Hlev, Pbar, P100, P101, P102, P110, P111, P112, P120, P121, P122, P000, P001, P002, P010, P011, P012, P020, P021, P022, P200, P201, P202, P210, P211, P212, P220, P221, P222, P300, P301, P302, P310, P311, P312, P320, P321, P322, Tr01, Tr02, Tr11, Tr12, Tr21, Tr22, Ts01, Ts02, Ts11, Ts12, Ts21, Ts22, Ta00, Ta01, Ta10, Ta11, Ta20, Ta21, Tg00, Tg01, Tg10, Tg11, Tg20, Tg21, Cr01, Cr02, Cr11, Cr12, Cr21, Cr22, Ca00, Ca01, Ca10, Ca11, Ca20, Ca21, Cs00, Cs10, Cs20, HO, Hx, Hg, Hu, Hd, ⟨%fo, Hout, %hfo⟩, Hsb, ⟨%fs01, S01, %hs01⟩, ⟨%fs02, S02⟩, ⟨%fs11, S11⟩, S12, ⟨%fs21, S21⟩, S22, Hrb, R00, R10, R20, A01, A11, A21, ⟨%q101, Q101⟩, Q102, ⟨%q111, Q111⟩, Q112, ⟨%q121, Q121⟩, Q122, Htail⟩, Hk⟩
  obtain ⟨-, -, -, -, k04, k05, -⟩ := rows_b0 c
  obtain ⟨-, -, -, -, k14, k15, -⟩ := rows_b1 c
  obtain ⟨-, -, -, -, k24, k25, -⟩ := rows_b2 c
  have i0 : ∀ r q : ℕ, r < 96 → q < 1024 → oAt fo (K1 0 c + r) q = S1 m 0 c (K1 0 c + r) q := sub_rows hfo.1 k04 k05
  have i1 : ∀ r q : ℕ, r < 96 → q < 1024 → oAt fo (K1 1 c + r) q = S1 m 1 c (K1 1 c + r) q := sub_rows hfo.2.1 k14 k15
  have i2 : ∀ r q : ℕ, r < 64 → q < 1024 → oAt fo (K1 2 c + r) q = S1 m 2 c (K1 2 c + r) q := sub_rows hfo.2.2 k24 k25
  sl_exec
  rw [Orem_7_10]
  -- butterfly 0: the quarter narrowed before the cut goes to the partner under the mask 1
  iapply (send1_b0 m K c _ (Mesh.dev8_eq c) _ _ sem_s01 sem_r01 (Orem c 10 + tallyAt (dcell 1 2 1 (Mesh.px 4 c)) () (namt 1 2 1) + tallyAt (dcell 1 1 1 (Mesh.px 3 c)) () (namt 1 1 1)) (sendval_b0 m c fs01 hs01)) $$ [S01 Q101 HO Ts01 Tr01]
  · isplitr; · iexact Hrec
    isplitl [S01]; · iexact S01
    isplitl [Q101]; · iexact Q101
    isplitl [HO]; · iexact HO
    isplitl [Ts01]; · iexact Ts01
    iexact Tr01
  iintro ⟨Cs01, HO⟩
  -- butterfly 1: narrow the quarter to send, copy it to the partner under the mask 3
  sl_exec
  unfold stage1.sl.S11_w1
  iapply (send1_b1 m K c _ (Mesh.dev9_eq c) _ _ sem_s11 sem_r11 (Orem c 10 + tallyAt (dcell 1 2 1 (Mesh.px 4 c)) () (namt 1 2 1)) (sendval_b1 m c fo fs11 hfo.2.1)) $$ [S11 Q111 HO Ts11 Tr11]
  · isplitr; · iexact Hrec
    isplitl [S11]; · iexact S11
    isplitl [Q111]; · iexact Q111
    isplitl [HO]; · iexact HO
    isplitl [Ts11]; · iexact Ts11
    iexact Tr11
  iintro ⟨Cs11, HO⟩
  -- butterfly 2: narrow the quarter to send, copy it to the partner under the mask 4
  sl_exec
  unfold stage1.sl.S21_w1
  iapply (send1_b2 m K c _ (Mesh.dev10_eq c) _ _ sem_s21 sem_r21 (Orem c 10) (sendval_b2 m c fo fs21 hfo.2.2)) $$ [S21 Q121 HO Ts21 Tr21]
  · isplitr; · iexact Hrec
    isplitl [S21]; · iexact S21
    isplitl [Q121]; · iexact Q121
    isplitl [HO]; · iexact HO
    isplitl [Ts21]; · iexact Ts21
    iexact Tr21
  iintro ⟨Cs21, HO⟩
  sl_exec
  -- butterfly 0: the partner's quarter has arrived; widen it and add it to the kept quarter
  iapply (wait1_b0 m K c _ sem_r01 Tables.credit_r01) $$ [Cr01 HO P101]
  · isplitr; · iexact Hrec
    isplitr; · iexact Hlev
    isplitl [Cr01]; · iexact Cr01
    isplitl [HO]; · iexact HO
    iexact P101
  iintro ⟨HO, P101, -, ⟨%fr01, R01, %hr01⟩⟩
  sl_exec
  icases (out_b0 m c fo fr01 (fun r q => S1 m 1 c (K1 1 c + r) q) (fun r q => S1 m 2 c (K1 2 c + r) q) i0 i1 i2 hr01) $$ Hout with ⟨%fo1, Hout, %hI1⟩
  -- butterfly 1: the partner's quarter has arrived; widen it and add it to the kept quarter
  iapply (wait1_b1 m K c _ sem_r11 Tables.credit_r11) $$ [Cr11 HO P111]
  · isplitr; · iexact Hrec
    isplitr; · iexact Hlev
    isplitl [Cr11]; · iexact Cr11
    isplitl [HO]; · iexact HO
    iexact P111
  iintro ⟨HO, P111, -, ⟨%fr11, R11, %hr11⟩⟩
  sl_exec
  icases (out_b1 m c fo1 fr11 (fun r q => S2 m 0 c (K1 0 c + r) q) (fun r q => S1 m 2 c (K1 2 c + r) q) hI1.1 hI1.2.1 hI1.2.2 hr11) $$ Hout with ⟨%fo2, Hout, %hI2⟩
  -- butterfly 2: the partner's quarter has arrived; widen it and add it to the kept quarter
  iapply (wait1_b2 m K c _ sem_r21 Tables.credit_r21) $$ [Cr21 HO P121]
  · isplitr; · iexact Hrec
    isplitr; · iexact Hlev
    isplitl [Cr21]; · iexact Cr21
    isplitl [HO]; · iexact HO
    iexact P121
  iintro ⟨HO, P121, -, ⟨%fr21, R21, %hr21⟩⟩
  set_option sl_exec.maxSteps 4 in sl_exec
  icases (out_b2 m c fo2 fr21 (fun r q => S2 m 0 c (K1 0 c + r) q) (fun r q => S2 m 1 c (K1 1 c + r) q) hI2.1 hI2.2.1 hI2.2.2 hr21) $$ Hout with ⟨%fo3, Hout, %hI3⟩
  -- butterfly 0's kept quarter, narrowed into its stage-2 send slot
  sl_exec
  have hout3 := hI3
  have hs02 := slot02_val m c fo3 fs02 hI3.1
  -- the cut after stage 1
  ispecialize Hk $$ %(insert (SemLoc.dma (dsem 1 2 1), ()) (insert (SemLoc.dma (dsem 1 1 1), ()) (insert (SemLoc.dma (dsem 1 0 1), ()) W))) [Pbar P100 P101 P102 P110 P111 P112 P120 P121 P122 P000 P001 P002 P010 P011 P012 P020 P021 P022 P200 P201 P202 P210 P211 P212 P220 P221 P222 P300 P301 P302 P310 P311 P312 P320 P321 P322 Tr02 Tr12 Tr22 Ts02 Ts12 Ts22 Ta00 Ta01 Ta10 Ta11 Ta20 Ta21 Tg00 Tg01 Tg10 Tg11 Tg20 Tg21 Cr02 Cr12 Cr22 Ca00 Ca01 Ca10 Ca11 Ca20 Ca21 Cs00 Cs01 Cs10 Cs11 Cs20 Cs21 HO Hx Hg Hu Hd Hout Hsb S02 S12 S22 Hrb R00 R01 R10 R11 R20 R21 A01 A11 A21 Q102 Q112 Q122 Htail]
  · unfold Cuts.PreS2
    isplitr; · iexact Hrec
    isplitr; · iexact Hlev
    isplitl [Pbar]; · iexact Pbar
    isplitl [P100]; · iexact P100
    isplitl [P101]; · iexact P101
    isplitl [P102]; · iexact P102
    isplitl [P110]; · iexact P110
    isplitl [P111]; · iexact P111
    isplitl [P112]; · iexact P112
    isplitl [P120]; · iexact P120
    isplitl [P121]; · iexact P121
    isplitl [P122]; · iexact P122
    isplitl [P000]; · iexact P000
    isplitl [P001]; · iexact P001
    isplitl [P002]; · iexact P002
    isplitl [P010]; · iexact P010
    isplitl [P011]; · iexact P011
    isplitl [P012]; · iexact P012
    isplitl [P020]; · iexact P020
    isplitl [P021]; · iexact P021
    isplitl [P022]; · iexact P022
    isplitl [P200]; · iexact P200
    isplitl [P201]; · iexact P201
    isplitl [P202]; · iexact P202
    isplitl [P210]; · iexact P210
    isplitl [P211]; · iexact P211
    isplitl [P212]; · iexact P212
    isplitl [P220]; · iexact P220
    isplitl [P221]; · iexact P221
    isplitl [P222]; · iexact P222
    isplitl [P300]; · iexact P300
    isplitl [P301]; · iexact P301
    isplitl [P302]; · iexact P302
    isplitl [P310]; · iexact P310
    isplitl [P311]; · iexact P311
    isplitl [P312]; · iexact P312
    isplitl [P320]; · iexact P320
    isplitl [P321]; · iexact P321
    isplitl [P322]; · iexact P322
    isplitl [Tr02]; · iexact Tr02
    isplitl [Tr12]; · iexact Tr12
    isplitl [Tr22]; · iexact Tr22
    isplitl [Ts02]; · iexact Ts02
    isplitl [Ts12]; · iexact Ts12
    isplitl [Ts22]; · iexact Ts22
    isplitl [Ta00]; · iexact Ta00
    isplitl [Ta01]; · iexact Ta01
    isplitl [Ta10]; · iexact Ta10
    isplitl [Ta11]; · iexact Ta11
    isplitl [Ta20]; · iexact Ta20
    isplitl [Ta21]; · iexact Ta21
    isplitl [Tg00]; · iexact Tg00
    isplitl [Tg01]; · iexact Tg01
    isplitl [Tg10]; · iexact Tg10
    isplitl [Tg11]; · iexact Tg11
    isplitl [Tg20]; · iexact Tg20
    isplitl [Tg21]; · iexact Tg21
    isplitl [Cr02]; · iexact Cr02
    isplitl [Cr12]; · iexact Cr12
    isplitl [Cr22]; · iexact Cr22
    isplitl [Ca00]; · iexact Ca00
    isplitl [Ca01]; · iexact Ca01
    isplitl [Ca10]; · iexact Ca10
    isplitl [Ca11]; · iexact Ca11
    isplitl [Ca20]; · iexact Ca20
    isplitl [Ca21]; · iexact Ca21
    isplitl [Cs00]; · iexact Cs00
    isplitl [Cs01]; · iexact Cs01
    isplitl [Cs10]; · iexact Cs10
    isplitl [Cs11]; · iexact Cs11
    isplitl [Cs20]; · iexact Cs20
    isplitl [Cs21]; · iexact Cs21
    isplitl [HO]; · iexact HO
    isplitl [Hx]; · iexact Hx
    isplitl [Hg]; · iexact Hg
    isplitl [Hu]; · iexact Hu
    isplitl [Hd]; · iexact Hd
    isplitl [Hout]
    · iexists _; isplitl [Hout]; · iexact Hout
      ipureintro; exact hout3
    isplitl [Hsb]; · iexact Hsb
    isplitl [S02]
    · iexists _; isplitl [S02]; · iexact S02
      ipureintro; exact hs02
    isplitl [S12]; · iexact S12
    isplitl [S22]; · iexact S22
    isplitl [Hrb]; · iexact Hrb
    isplitl [R00]; · iexact R00
    isplitl [R01]; · iexists fr01; iexact R01
    isplitl [R10]; · iexact R10
    isplitl [R11]; · iexists fr11; iexact R11
    isplitl [R20]; · iexact R20
    isplitl [R21]; · iexists fr21; iexact R21
    isplitl [A01]; · iexact A01
    isplitl [A11]; · iexact A11
    isplitl [A21]; · iexact A21
    isplitl [Q102]; · iexact Q102
    isplitl [Q112]; · iexact Q112
    isplitl [Q122]; · iexact Q122
    iexact Htail
  iapply Hk

/-- info: 'Cert.Kernel.Body.stage1' depends on axioms: [propext, Classical.choice, Quot.sound] -/
#guard_msgs in #print axioms stage1

end Cert.Kernel.Body

end
-- ==== Proof.KBodyS2.lean ====
/-
  Exchange stage 2 on one device: from the state before it (the kept quarters of the result buffer hold the sums after two
  stages; butterfly 0's quarter stands narrowed in its send slot) to the state before the all-gather. For each butterfly
  the device sends its kept quarter, narrowed, into the partner's receive slot; then, butterfly by butterfly, it waits for
  the partner's quarter, adds it as it came over the wire to its own rows, and stores the total, narrowed, into its own
  quarter of the gather buffer.
-/
import proofs.«900524_g7700000000000525_dist_gated_mlp_tp_i_m1024_h2048_d1024_v7x_i8_f32_1_alg».proof.Proof.KCuts
import proofs.«900524_g7700000000000525_dist_gated_mlp_tp_i_m1024_h2048_d1024_v7x_i8_f32_1_alg».proof.Proof.KBodyKit

noncomputable section

namespace Cert.Kernel.Body

open Cert.Kernel Cert.Kernel.Gen Cert.Kernel.Sched Cert.Kernel.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

namespace S2

/-! ## Regions: a slot's rows through the slot's own view and through an access to the buffer -/

theorem slot_set_eq {b soff h : ℕ} (M : Memref sig .tc .vmem S3x384x1024 .bf16)
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    ((M.slice (Rect.unit (s := S3x384x1024) ![b, soff, 0] ![1, h, 1024] inb) (fun _ => rfl)).squeeze ⟨2, ![h, 1024]⟩ hsq).view.set
      = (M.access (Rect.unit (s := S3x384x1024) ![b, soff, 0] ![1, h, 1024] inb)).set :=
  View.set_reshape _ _

theorem slot_load_sub {b soff h : ℕ} (M : Memref sig .tc .vmem S3x384x1024 .bf16)
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    M.view.setOn (Rect.unit (s := S3x384x1024) ![b, soff, 0] ![1, h, 1024] inb).toLoadRect.set
      ⊆ ((M.slice (Rect.unit (s := S3x384x1024) ![b, soff, 0] ![1, h, 1024] inb) (fun _ => rfl)).squeeze ⟨2, ![h, 1024]⟩ hsq).view.set := by
  rw [slot_set_eq M inb hsq, View.set_slice]
  exact Finset.Subset.refl _

theorem slot_store_sub {b soff h : ℕ} (M : Memref sig .tc .vmem S3x384x1024 .bf16)
    (inb : ∀ a, (![b, soff, 0] : Fin 3 → ℕ) a + (![1, h, 1024] : Fin 3 → ℕ) a ≤ S3x384x1024.size a)
    (hsq : (⟨3, ![1, h, 1024]⟩ : Shape).Squeezes ⟨2, ![h, 1024]⟩) :
    (M.access (Rect.unit (s := S3x384x1024) ![b, soff, 0] ![1, h, 1024] inb)).setOn Finset.univ
      ⊆ ((M.slice (Rect.unit (s := S3x384x1024) ![b, soff, 0] ![1, h, 1024] inb) (fun _ => rfl)).squeeze ⟨2, ![h, 1024]⟩ hsq).view.set := by
  rw [slot_set_eq M inb hsq, View.setOn_univ]

/-- The device's own quarter of the gather buffer, through the rows the body stores to: the same rows, the offset spelt twice. -/
theorem arows_store_sub {h : ℕ} (o o' : Fin 2 → ℕ) (ho : o' = o) (inb : ∀ a, o a + (![h, 1024] : Fin 2 → ℕ) a ≤ S1024x1024.size a)
    (inb' : ∀ a, o' a + (![h, 1024] : Fin 2 → ℕ) a ≤ S1024x1024.size a) :
    (aM.access (Rect.unit (s := S1024x1024) o ![h, 1024] inb)).setOn Finset.univ
      ⊆ (aM.slice (Rect.unit (s := S1024x1024) o' ![h, 1024] inb') (fun _ => rfl)).view.set := by
  subst ho
  rw [View.setOn_univ]

theorem arows_load_sub {h : ℕ} (o o' : Fin 2 → ℕ) (ho : o' = o) (inb : ∀ a, o a + (![h, 1024] : Fin 2 → ℕ) a ≤ S1024x1024.size a)
    (inb' : ∀ a, o' a + (![h, 1024] : Fin 2 → ℕ) a ≤ S1024x1024.size a) :
    aM.view.setOn (Rect.unit (s := S1024x1024) o ![h, 1024] inb).toLoadRect.set
      ⊆ (aM.slice (Rect.unit (s := S1024x1024) o' ![h, 1024] inb') (fun _ => rfl)).view.set := by
  subst ho
  exact Finset.subset_of_eq (View.set_slice aM.view _).symm

/-! ## Rows: the three kept quarters lie in their butterflies' ranges; a stage-2 partner keeps the same quarter -/

theorem K1_ranges (c : Dev nD) : K1 0 c + 96 ≤ 384 ∧ 384 ≤ K1 1 c ∧ K1 1 c + 96 ≤ 768 ∧ 768 ≤ K1 2 c ∧ K1 2 c + 64 ≤ 1024 := by
  revert c; decide +kernel

theorem K1_px0 (c : Dev nD) : K1 0 (Mesh.px 4 c) = K1 0 c := congrFun (Rows.rs2_b0 c) 0
theorem K1_px1 (c : Dev nD) : K1 1 (Mesh.px 1 c) = K1 1 c := congrFun (Rows.rs2_b1 c) 0
theorem K1_px2 (c : Dev nD) : K1 2 (Mesh.px 2 c) = K1 2 c := congrFun (Rows.rs2_b2 c) 0

theorem off3c_col (c : Dev nD) : (k0_off3 c 0#32 3#32 1#32 96#32 0#32) 1 = 0 := by rw [Mesh.off3_c]; rfl
theorem off3d_col (c : Dev nD) : (k0_off3 c 384#32 4#32 3#32 96#32 0#32) 1 = 0 := by rw [Mesh.off3_d]; rfl
theorem off4b_col (c : Dev nD) : (k0_off4 c 64#32 0#32) 1 = 0 := by rw [Mesh.off4_b]; rfl

/-! ## Values, row by row -/

/-- A send slot after the device's rows of the result buffer are stored into it narrowed: it holds those rows narrowed. -/
theorem sent_rows {b soff h : ℕ}
    (inb3 : ∀ a, (![b, soff, 0] : Fin 3 → ℕ) a + (![1, h, 1024] : Fin 3 → ℕ) a ≤ S3x384x1024.size a)
    (o : Fin 2 → ℕ) (inb2 : ∀ a, o a + (![h, 1024] : Fin 2 → ℕ) a ≤ S1024x1024.size a) (ho : o 1 = 0)
    (pay : ((⟨2, ![h, 1024]⟩ : Shape).Idx → F .f32) → ((⟨3, ![1, h, 1024]⟩ : Shape).Idx → F .bf16))
    (hpay : ∀ (v : (⟨2, ![h, 1024]⟩ : Shape).Idx → F .f32) (u : Fin 1) (r : Fin h) (q : Fin 1024), pay v (ix3 u r q) = tr (v (ix2 r q)))
    (fo : (cc0_stg4_0 : Ref sig .tc).ty.Contents (Elt F)) (fs : (cc0_scratch0 : Ref sig .tc).ty.Contents (Elt F))
    (val : ℕ → ℕ → F .f32) (hfo : ∀ r q : ℕ, r < h → q < 1024 → oAt fo (o 0 + r) q = val r q) :
    ∀ r q : ℕ, r < h → q < 1024 →
      Mem.sAt ((sM.access (Rect.unit (s := S3x384x1024) ![b, soff, 0] ![1, h, 1024] inb3)).write (Elt F) fs
        (pay (oM.view.readAt (Elt F) (Rect.unit (s := S1024x1024) o ![h, 1024] inb2).toLoadRect fo)) Finset.univ) b (soff + r) q = tr (val r q) := by
  intro r q hr hq
  refine (Mem.sAt_store inb3 fs _ r q hr hq).trans ?_
  refine (hpay _ 0 ⟨r, hr⟩ ⟨q, hq⟩).trans ?_
  exact congrArg tr ((Mem.oAt_load o inb2 ho fo r q hr hq).trans (hfo r q hr hq))

/-- The kept rows after the partner's rows, as they came over the wire, are added to them. -/
theorem added_rows {b soff h : ℕ}
    (inb3 : ∀ a, (![b, soff, 0] : Fin 3 → ℕ) a + (![1, h, 1024] : Fin 3 → ℕ) a ≤ S3x384x1024.size a)
    (o : Fin 2 → ℕ) (inb2 : ∀ a, o a + (![h, 1024] : Fin 2 → ℕ) a ≤ S1024x1024.size a) (ho : o 1 = 0)
    (pay : ((⟨2, ![h, 1024]⟩ : Shape).Idx → F .f32) → ((⟨3, ![1, h, 1024]⟩ : Shape).Idx → F .bf16) → ((⟨2, ![h, 1024]⟩ : Shape).Idx → F .f32))
    (hpay : ∀ (a : (⟨2, ![h, 1024]⟩ : Shape).Idx → F .f32) (w : (⟨3, ![1, h, 1024]⟩ : Shape).Idx → F .bf16) (r : Fin h) (q : Fin 1024),
      pay a w (ix2 r q) = FloatOps.addf (a (ix2 r q)) (FloatOps.extf .f32 bitsLt_bf16_f32 (w (ix3 0 r q))))
    (fo : (cc0_stg4_0 : Ref sig .tc).ty.Contents (Elt F)) (fr : (cc0_scratch1 : Ref sig .tc).ty.Contents (Elt F))
    (own part : ℕ → ℕ → F .f32)
    (hfo : ∀ r q : ℕ, r < h → q < 1024 → oAt fo (o 0 + r) q = own r q)
    (hfr : ∀ r q : ℕ, r < h → q < 1024 → rAt fr b (soff + r) q = tr (part r q)) :
    ∀ r q : ℕ, r < h → q < 1024 →
      oAt ((oM.access (Rect.unit (s := S1024x1024) o ![h, 1024] inb2)).write (Elt F) fo
        (pay (oM.view.readAt (Elt F) (Rect.unit (s := S1024x1024) o ![h, 1024] inb2).toLoadRect fo)
          (rM.view.readAt (Elt F) (Rect.unit (s := S3x384x1024) ![b, soff, 0] ![1, h, 1024] inb3).toLoadRect fr)) Finset.univ) (o 0 + r) q
        = FloatOps.addf (own r q) (wire (part r q)) := by
  intro r q hr hq
  refine (Mem.oAt_store o inb2 ho fo _ r q hr hq).trans ?_
  refine (hpay _ _ ⟨r, hr⟩ ⟨q, hq⟩).trans ?_
  have e1 := (Mem.oAt_load o inb2 ho fo r q hr hq).trans (hfo r q hr hq)
  have e2 := (Mem.rAt_load inb3 fr 0 r q hr hq).trans (hfr r q hr hq)
  rw [e1, e2]
  rfl

/-- The device's quarter of the gather buffer after its rows of the result buffer are stored into it narrowed. -/
theorem gathered_rows {h : ℕ}
    (o : Fin 2 → ℕ) (inb2 : ∀ a, o a + (![h, 1024] : Fin 2 → ℕ) a ≤ S1024x1024.size a) (ho : o 1 = 0)
    (pay : ((⟨2, ![h, 1024]⟩ : Shape).Idx → F .f32) → ((⟨2, ![h, 1024]⟩ : Shape).Idx → F .bf16))
    (hpay : ∀ (v : (⟨2, ![h, 1024]⟩ : Shape).Idx → F .f32) (i : (⟨2, ![h, 1024]⟩ : Shape).Idx), pay v i = tr (v i))
    (fo : (cc0_stg4_0 : Ref sig .tc).ty.Contents (Elt F)) (fa : (cc0_scratch2 : Ref sig .tc).ty.Contents (Elt F))
    (val : ℕ → ℕ → F .f32) (hfo : ∀ r q : ℕ, r < h → q < 1024 → oAt fo (o 0 + r) q = val r q) :
    ∀ r q : ℕ, r < h → q < 1024 →
      aAt ((aM.access (Rect.unit (s := S1024x1024) o ![h, 1024] inb2)).write (Elt F) fa
        (pay (oM.view.readAt (Elt F) (Rect.unit (s := S1024x1024) o ![h, 1024] inb2).toLoadRect fo)) Finset.univ) (o 0 + r) q = tr (val r q) := by
  intro r q hr hq
  refine (Mem.aAt_store o inb2 ho fa _ r q hr hq).trans ?_
  refine (hpay _ _).trans ?_
  exact congrArg tr ((Mem.oAt_load o inb2 ho fo r q hr hq).trans (hfo r q hr hq))

/-- Rows a store does not touch keep a fact about them. -/
theorem kept_rows {h h' : ℕ} (o : Fin 2 → ℕ) (inb : ∀ a, o a + (![h, 1024] : Fin 2 → ℕ) a ≤ S1024x1024.size a)
    (fo : (cc0_stg4_0 : Ref sig .tc).ty.Contents (Elt F)) (v : (⟨2, ![h, 1024]⟩ : Shape).Idx → F .f32)
    (base : ℕ) (val : ℕ → ℕ → F .f32) (hb : base + h' ≤ 1024) (hmiss : base + h' ≤ o 0 ∨ o 0 + h ≤ base)
    (hfo : ∀ r q : ℕ, r < h' → q < 1024 → oAt fo (base + r) q = val r q) :
    ∀ r q : ℕ, r < h' → q < 1024 →
      oAt ((oM.access (Rect.unit (s := S1024x1024) o ![h, 1024] inb)).write (Elt F) fo v Finset.univ) (base + r) q = val r q := by
  intro r q hr hq
  refine (Mem.oAt_store_miss o inb fo v (base + r) q (by omega) (by omega)).trans (hfo r q hr hq)

/-! ## Payloads -/

/-- The device's stage-2 block of butterfly 0, landed in the partner's slot, is what the partner's receive cell promises it. -/
theorem land0 (c : Dev nD) (fs : Buf (Elt F) (sSlot02.view.loc (c : Thread nD τ))) (fd : Buf (Elt F) (rSlot02.view.loc (Mesh.px 4 c : Thread nD τ)))
    (hfs : ∀ r q : ℕ, r < 96 → q < 1024 → Mem.sAt fs 0 (288 + r) q = tr (S2 m 0 c (K1 0 c + r) q)) :
    (rSlot02.view.loc (Mesh.px 4 c : Thread nD τ) ↦[rSlot02.view.set]{fullShare} (rSlot02.view.write (Elt F) fd (sSlot02.view.read (Elt F) fs) Finset.univ) : sProp 𝕄)
      ⊢ dpay m 1 0 2 (Mesh.px 4 c) := by
  show _ ⊢ iprop(∃ f, (rSlot02.view.loc (Mesh.px 4 c : Thread nD τ) ↦[rSlot02.view.set]{fullShare} f) ∗ ⌜∀ r q : ℕ, r < 96 → q < 1024 → rAt f 0 (288 + r) q = tr (S2 m 0 (Mesh.px 4 (Mesh.px 4 c)) (K1 0 (Mesh.px 4 c) + r) q)⌝)
  iintro H
  iexists _
  isplitl [H]; · iexact H
  ipureintro
  intro r q hr hq
  rw [Mem.landing02 fd fs r q hr hq, hfs r q hr hq, Mesh.px4_px4, K1_px0]

theorem land1 (c : Dev nD) (fs : Buf (Elt F) (sSlot12.view.loc (c : Thread nD τ))) (fd : Buf (Elt F) (rSlot12.view.loc (Mesh.px 1 c : Thread nD τ)))
    (hfs : ∀ r q : ℕ, r < 96 → q < 1024 → Mem.sAt fs 1 (288 + r) q = tr (S2 m 1 c (K1 1 c + r) q)) :
    (rSlot12.view.loc (Mesh.px 1 c : Thread nD τ) ↦[rSlot12.view.set]{fullShare} (rSlot12.view.write (Elt F) fd (sSlot12.view.read (Elt F) fs) Finset.univ) : sProp 𝕄)
      ⊢ dpay m 1 1 2 (Mesh.px 1 c) := by
  show _ ⊢ iprop(∃ f, (rSlot12.view.loc (Mesh.px 1 c : Thread nD τ) ↦[rSlot12.view.set]{fullShare} f) ∗ ⌜∀ r q : ℕ, r < 96 → q < 1024 → rAt f 1 (288 + r) q = tr (S2 m 1 (Mesh.px 1 (Mesh.px 1 c)) (K1 1 (Mesh.px 1 c) + r) q)⌝)
  iintro H
  iexists _
  isplitl [H]; · iexact H
  ipureintro
  intro r q hr hq
  rw [Mem.landing12 fd fs r q hr hq, hfs r q hr hq, Mesh.px1_px1, K1_px1]

theorem land2 (c : Dev nD) (fs : Buf (Elt F) (sSlot22.view.loc (c : Thread nD τ))) (fd : Buf (Elt F) (rSlot22.view.loc (Mesh.px 2 c : Thread nD τ)))
    (hfs : ∀ r q : ℕ, r < 64 → q < 1024 → Mem.sAt fs 2 (192 + r) q = tr (S2 m 2 c (K1 2 c + r) q)) :
    (rSlot22.view.loc (Mesh.px 2 c : Thread nD τ) ↦[rSlot22.view.set]{fullShare} (rSlot22.view.write (Elt F) fd (sSlot22.view.read (Elt F) fs) Finset.univ) : sProp 𝕄)
      ⊢ dpay m 1 2 2 (Mesh.px 2 c) := by
  show _ ⊢ iprop(∃ f, (rSlot22.view.loc (Mesh.px 2 c : Thread nD τ) ↦[rSlot22.view.set]{fullShare} f) ∗ ⌜∀ r q : ℕ, r < 64 → q < 1024 → rAt f 2 (192 + r) q = tr (S2 m 2 (Mesh.px 2 (Mesh.px 2 c)) (K1 2 (Mesh.px 2 c) + r) q)⌝)
  iintro H
  iexists _
  isplitl [H]; · iexact H
  ipureintro
  intro r q hr hq
  rw [Mem.landing22 fd fs r q hr hq, hfs r q hr hq, Mesh.px2_px2, K1_px2]

/-- A send slot handed to its departure. -/
theorem lend0 (c : Dev nD) (fs : Buf (Elt F) (sSlot02.view.loc (c : Thread nD τ))) :
    (sSlot02.view.loc (c : Thread nD τ) ↦[sSlot02.view.set]{fullShare} fs : sProp 𝕄) ⊢ dpay m 0 0 2 c := by
  show _ ⊢ iprop(∃ f, sSlot02.view.loc (c : Thread nD τ) ↦[sSlot02.view.set]{fullShare} f)
  iintro H; iexists fs; iexact H
theorem lend1 (c : Dev nD) (fs : Buf (Elt F) (sSlot12.view.loc (c : Thread nD τ))) :
    (sSlot12.view.loc (c : Thread nD τ) ↦[sSlot12.view.set]{fullShare} fs : sProp 𝕄) ⊢ dpay m 0 1 2 c := by
  show _ ⊢ iprop(∃ f, sSlot12.view.loc (c : Thread nD τ) ↦[sSlot12.view.set]{fullShare} f)
  iintro H; iexists fs; iexact H
theorem lend2 (c : Dev nD) (fs : Buf (Elt F) (sSlot22.view.loc (c : Thread nD τ))) :
    (sSlot22.view.loc (c : Thread nD τ) ↦[sSlot22.view.set]{fullShare} fs : sProp 𝕄) ⊢ dpay m 0 2 2 c := by
  show _ ⊢ iprop(∃ f, sSlot22.view.loc (c : Thread nD τ) ↦[sSlot22.view.set]{fullShare} f)
  iintro H; iexists fs; iexact H

/-- What the arrivals of stage 2 hand the device. -/
theorem got0 (c : Dev nD) : dpay m 1 0 2 c ⊢ (iprop(∃ f, (rSlot02.view.loc (c : Thread nD τ) ↦[rSlot02.view.set]{fullShare} f) ∗ ⌜∀ r q : ℕ, r < 96 → q < 1024 → rAt f 0 (288 + r) q = tr (S2 m 0 (Mesh.px 4 c) (K1 0 c + r) q)⌝) : sProp 𝕄) :=
  BI.Entails.refl _
theorem got1 (c : Dev nD) : dpay m 1 1 2 c ⊢ (iprop(∃ f, (rSlot12.view.loc (c : Thread nD τ) ↦[rSlot12.view.set]{fullShare} f) ∗ ⌜∀ r q : ℕ, r < 96 → q < 1024 → rAt f 1 (288 + r) q = tr (S2 m 1 (Mesh.px 1 c) (K1 1 c + r) q)⌝) : sProp 𝕄) :=
  BI.Entails.refl _
theorem got2 (c : Dev nD) : dpay m 1 2 2 c ⊢ (iprop(∃ f, (rSlot22.view.loc (c : Thread nD τ) ↦[rSlot22.view.set]{fullShare} f) ∗ ⌜∀ r q : ℕ, r < 64 → q < 1024 → rAt f 2 (192 + r) q = tr (S2 m 2 (Mesh.px 2 c) (K1 2 c + r) q)⌝) : sProp 𝕄) :=
  BI.Entails.refl _

/-! ## The remote copy, addressed by a device id that is the partner's -/

theorem wp_send_to {s : Shape} {e : EltTy} (c n c' : Dev nD) (hn : n = c') (A₁ A₂ : Fin 4) (b k : Fin 3) (h₁ : used A₁ k) (h₂ : used A₂ k)
    {src : Memref sig .tc .vmem s e} {dst : Memref sig .tc .vmem s e}
    {hsc : (dst : Memref sig (Dev.tc n : Thread nD τ).2.kind .vmem s e).view.ref.isScScratch = false}
    {hsrc : src.view.WordExact} {hdst : dst.view.WordExact}
    {hsem : DmaTarget.Typed .vmem (.dma (dsem A₂ b k)) (.remote (Dev.tc n : Thread nD τ) dst (.dma (dsem A₁ b k)) hsc)}
    {α : Type} {Q : α → sProp 𝕄} {kk : PUnit → Prog (TpuEff nD τ sig (Elt F) Λ₀ .tc) α}
    {q : PosShare TreeShare} {fs : Buf (Elt F) (src.view.loc (c : Thread nD τ))} {fd : Buf (Elt F) (dst.view.loc (c' : Thread nD τ))}
    {κ₁ κ₂ : ℕ} (hN : dst.view.dmaCredit = namt A₂ b k) (hA : namt A₁ b k = namt A₂ b k)
    {O₀ : CellTallies nD τ sig Unit} (O : CellTallies nD τ sig Unit) (hO : O₀ = O + tallyAt (dcell A₂ b k c') () (namt A₂ b k)) {W : Waits sig Unit}
    (hpay₁ : (src.view.loc (c : Thread nD τ) ↦[src.view.set]{q} fs) ⊢ dpay m A₁ b k c)
    (hpay₂ : (dst.view.loc (c' : Thread nD τ) ↦[dst.view.set]{fullShare} (dst.view.write (Elt F) fd (src.view.read (Elt F) fs) Finset.univ))
      ⊢ dpay m A₂ b k c') :
    iprop(cellInv ER (Rd (F := F) m) κ₁ (dcell A₁ b k c) ∗ cellInv ER (Rd (F := F) m) κ₂ (dcell A₂ b k c')
        ∗ (src.view.loc (c : Thread nD τ) ↦[src.view.set]{q} fs) ∗ (dst.view.loc (c' : Thread nD τ) ↦[dst.view.set]{fullShare} fd)
        ∗ owes (c : Thread nD τ) O₀ W
        ∗ dutyTok ER (dcell A₁ b k c) 0 0 ∗ reached ER (dcell A₁ b k c) 0
        ∗ dutyTok ER (dcell A₂ b k c') 0 0 ∗ reached ER (dcell A₂ b k c') 0)
      ⊢ iprop(((cred (tallyAt (dcell A₁ b k c) () (namt A₁ b k)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma (dsem A₁ b k)) hsc) (.dma (dsem A₂ b k)) hsrc hdst hsem) kk) Q) := by
  subst hn
  exact Tables.wp_send_cells m c n A₁ A₂ b k h₁ h₂ hN hA O hO hpay₁ hpay₂

/-- The contents of a held region may be forgotten but for a fact about them. -/
theorem pt_forget {ℓ : Loc nD τ sig} {S : Finset (Idx ℓ)} {q : PosShare TreeShare} (f : Buf (Elt F) ℓ) (φ : Buf (Elt F) ℓ → Prop) (h : φ f) :
    ((ℓ ↦[S]{q} f) : sProp 𝕄) ⊢ iprop(∃ g, (ℓ ↦[S]{q} g) ∗ ⌜φ g⌝) := by
  iintro H
  iexists f
  isplitl [H]; · iexact H
  ipureintro; exact h

/-! ## What the stage changes -/

/-- After exchange stage 2: the three receive cells at round 1, the three departures' credits, thirteen payments made, the
    result buffer at some contents, the three receive slots back, and the device's three quarters of the gather buffer
    holding its totals narrowed for the wire. -/
def S2Post (c : Dev nD) (W : Waits sig Unit) : sProp 𝕄 :=
  iprop(atPos ER (dcell 1 0 2 c) 1 ∅ 0 ∗ atPos ER (dcell 1 1 2 c) 1 ∅ 0 ∗ atPos ER (dcell 1 2 2 c) 1 ∅ 0
    ∗ cred (tallyAt (dcell 0 0 2 c) () (namt 0 0 2)) ∗ cred (tallyAt (dcell 0 1 2 c) () (namt 0 1 2)) ∗ cred (tallyAt (dcell 0 2 2 c) () (namt 0 2 2))
    ∗ owes (c : Thread nD τ) (Orem c 13) W
    ∗ (∃ fo : Buf (Elt F) ((oM : Memref sig .tc .vmem S1024x1024 .f32).view.loc (c : Thread nD τ)), ((oM : Memref sig .tc .vmem S1024x1024 .f32).view.loc (c : Thread nD τ)) ↦{fullShare} fo)
    ∗ (∃ f, rSlot02.view.loc (c : Thread nD τ) ↦[rSlot02.view.set]{fullShare} f)
    ∗ (∃ f, rSlot12.view.loc (c : Thread nD τ) ↦[rSlot12.view.set]{fullShare} f)
    ∗ (∃ f, rSlot22.view.loc (c : Thread nD τ) ↦[rSlot22.view.set]{fullShare} f)
    ∗ (∃ f, ((aRows01 c).view.loc (c : Thread nD τ) ↦[(aRows01 c).view.set]{fullShare} f) ∗ ⌜∀ r q : ℕ, r < 96 → q < 1024 → aAt f (K1 0 c + r) q = tr (S3 m 0 c (K1 0 c + r) q)⌝)
    ∗ (∃ f, ((aRows11 c).view.loc (c : Thread nD τ) ↦[(aRows11 c).view.set]{fullShare} f) ∗ ⌜∀ r q : ℕ, r < 96 → q < 1024 → aAt f (K1 1 c + r) q = tr (S3 m 1 c (K1 1 c + r) q)⌝)
    ∗ (∃ f, ((aRows21 c).view.loc (c : Thread nD τ) ↦[(aRows21 c).view.set]{fullShare} f) ∗ ⌜∀ r q : ℕ, r < 64 → q < 1024 → aAt f (K1 2 c + r) q = tr (S3 m 2 c (K1 2 c + r) q)⌝))

/-! ## The stage, step by step -/

set_option maxRecDepth 8192 in
set_option maxHeartbeats 4000000 in
/-- Exchange stage 2 over what it touches: the three remote copies of the kept quarters, then for each butterfly the wait
    for the partner's quarter, the addition into the result buffer and the narrowed total into the gather buffer. -/
theorem s2_core (c : Dev nD) (W : Waits sig Unit) (v2 v328 v347 v366 v376 : BitVec 32) {α : Type}
    (kk : BitVec 32 → Prog (TpuEff nD τ sig (Elt F) Λ₀ .tc) α) (Q : α → sProp 𝕄) :
    iprop(records m K ∗ levAts L lv
        ∗ atPos ER (dcell 1 0 2 c) 0 ∅ 0 ∗ atPos ER (dcell 1 1 2 c) 0 ∅ 0 ∗ atPos ER (dcell 1 2 2 c) 0 ∅ 0
        ∗ dutyTok ER (dcell 1 0 2 (Mesh.px 4 c)) 0 (0 : Fin 4) ∗ dutyTok ER (dcell 1 1 2 (Mesh.px 1 c)) 0 (0 : Fin 4) ∗ dutyTok ER (dcell 1 2 2 (Mesh.px 2 c)) 0 (0 : Fin 4)
        ∗ dutyTok ER (dcell 0 0 2 c) 0 (0 : Fin 4) ∗ dutyTok ER (dcell 0 1 2 c) 0 (0 : Fin 4) ∗ dutyTok ER (dcell 0 2 2 c) 0 (0 : Fin 4)
        ∗ cred (tallyAt (dcell 1 0 2 c) () (namt 1 0 2)) ∗ cred (tallyAt (dcell 1 1 2 c) () (namt 1 1 2)) ∗ cred (tallyAt (dcell 1 2 2 c) () (namt 1 2 2))
        ∗ owes (c : Thread nD τ) (Orem c 10) W
        ∗ (∃ fo : Buf (Elt F) ((oM : Memref sig .tc .vmem S1024x1024 .f32).view.loc (c : Thread nD τ)), (((oM : Memref sig .tc .vmem S1024x1024 .f32).view.loc (c : Thread nD τ)) ↦{fullShare} fo) ∗ ⌜(∀ r q : ℕ, r < 96 → q < 1024 → oAt fo (K1 0 c + r) q = S2 m 0 c (K1 0 c + r) q) ∧ (∀ r q : ℕ, r < 96 → q < 1024 → oAt fo (K1 1 c + r) q = S2 m 1 c (K1 1 c + r) q) ∧ (∀ r q : ℕ, r < 64 → q < 1024 → oAt fo (K1 2 c + r) q = S2 m 2 c (K1 2 c + r) q)⌝)
        ∗ (∃ f, (sSlot02.view.loc (c : Thread nD τ) ↦[sSlot02.view.set]{fullShare} f) ∗ ⌜∀ r q : ℕ, r < 96 → q < 1024 → Mem.sAt f 0 (288 + r) q = tr (S2 m 0 c (K1 0 c + r) q)⌝)
        ∗ (∃ f, sSlot12.view.loc (c : Thread nD τ) ↦[sSlot12.view.set]{fullShare} f)
        ∗ (∃ f, sSlot22.view.loc (c : Thread nD τ) ↦[sSlot22.view.set]{fullShare} f)
        ∗ (∃ f, (aRows01 c).view.loc (c : Thread nD τ) ↦[(aRows01 c).view.set]{fullShare} f)
        ∗ (∃ f, (aRows11 c).view.loc (c : Thread nD τ) ↦[(aRows11 c).view.set]{fullShare} f)
        ∗ (∃ f, (aRows21 c).view.loc (c : Thread nD τ) ↦[(aRows21 c).view.set]{fullShare} f)
        ∗ (∃ f, rSlot02.view.loc ((Mesh.px 4 c) : Thread nD τ) ↦[rSlot02.view.set]{fullShare} f)
        ∗ (∃ f, rSlot12.view.loc ((Mesh.px 1 c) : Thread nD τ) ↦[rSlot12.view.set]{fullShare} f)
        ∗ (∃ f, rSlot22.view.loc ((Mesh.px 2 c) : Thread nD τ) ↦[rSlot22.view.set]{fullShare} f))
      ⊢ iprop((S2Post m c (insert (SemLoc.dma (dsem 1 2 2), ()) (insert (SemLoc.dma (dsem 1 1 2), ()) (insert (SemLoc.dma (dsem 1 0 2), ()) W)))
            -∗ wp frame (wpE (defs₀ (F := F)) 𝒱₀ (c : Thread nD τ) none) Set.univ (kk (Scalar.xori v2 1#32)) Q)
          -∗ wp frame (wpE (defs₀ (F := F)) 𝒱₀ (c : Thread nD τ) none) Set.univ (do
          let ⟨v394, v412, v419⟩ : Σ' (v394 : BitVec 32) (v412 : BitVec 32), FVec F S1x64x1024 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v347 v366
          k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v376 v412 v419
          k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v347 v394
          let v505 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v366 v412
          kk v505) Q) := by
  iintro ⟨#Hrec, #Hlev, P0, P1, P2, Tr0, Tr1, Tr2, Ts0, Ts1, Ts2, Cr0, Cr1, Cr2, HO, ⟨%fo, Hout, %hfo⟩, ⟨%fs0, Hs0, %hfs0⟩, ⟨%fs1, Hs1⟩, ⟨%fs2, Hs2⟩,
    ⟨%fa0, Ha0⟩, ⟨%fa1, Ha1⟩, ⟨%fa2, Ha2⟩, ⟨%fd0, Hd0⟩, ⟨%fd1, Hd1⟩, ⟨%fd2, Hd2⟩⟩
  iintro Hk
  obtain ⟨hfo0, hfo1, hfo2⟩ := hfo
  have hK := K1_ranges c
  ihave #IS0 := (inv_d m K 0 0 2 c) $$ Hrec
  ihave #IS1 := (inv_d m K 0 1 2 c) $$ Hrec
  ihave #IS2 := (inv_d m K 0 2 2 c) $$ Hrec
  ihave #IP0 := (inv_d m K 1 0 2 (Mesh.px 4 c)) $$ Hrec
  ihave #IP1 := (inv_d m K 1 1 2 (Mesh.px 1 c)) $$ Hrec
  ihave #IP2 := (inv_d m K 1 2 2 (Mesh.px 2 c)) $$ Hrec
  ihave #IR0 := (inv_d m K 1 0 2 c) $$ Hrec
  ihave #IR1 := (inv_d m K 1 1 2 c) $$ Hrec
  ihave #IR2 := (inv_d m K 1 2 2 c) $$ Hrec
  ihave #RS0 := (reached_d m K 0 0 2 c) $$ Hrec
  ihave #RS1 := (reached_d m K 0 1 2 c) $$ Hrec
  ihave #RS2 := (reached_d m K 0 2 2 c) $$ Hrec
  ihave #RP0 := (reached_d m K 1 0 2 (Mesh.px 4 c)) $$ Hrec
  ihave #RP1 := (reached_d m K 1 1 2 (Mesh.px 1 c)) $$ Hrec
  ihave #RP2 := (reached_d m K 1 2 2 (Mesh.px 2 c)) $$ Hrec
  -- the fourteenth part
  simp only [k0_part14_eq_skeleton]
  unfold k0_part14_skel
  simp only [Prog.lift, Prog.bind_op, Prog.bind_ret, Prog.pure_eq_ret]
  -- butterfly 0's quarter, already narrowed in its slot, departs for the partner under the mask 4
  iapply (wp_send_to m c _ (Mesh.px 4 c) (Mesh.dev11_eq c) 0 1 0 2 (Or.inl (by decide)) (Or.inl (by decide)) (fs := fs0) (fd := fd0)
      Tables.credit_r02 rfl (Orem c 11) (Orem_lt c 10 (by decide)) (lend0 m c fs0) (land0 m c fs0 fd0 hfs0)) $$ [Hs0 Hd0 HO Ts0 Tr0]
  · isplitr; · iexact IS0
    isplitr; · iexact IP0
    isplitl [Hs0]; · iexact Hs0
    isplitl [Hd0]; · iexact Hd0
    isplitl [HO]; · iexact HO
    isplitl [Ts0]; · iexact Ts0
    isplitr; · iexact RS0
    isplitl [Tr0]; · iexact Tr0
    iexact RP0
  iintro ⟨Cs0, HO⟩
  -- butterfly 1: the kept quarter is read, narrowed into its slot, and departs for the partner under the mask 1
  iapply (wp_load 𝒱₀ (c : Thread nD τ) none Set.univ (m := oM) (Finset.subset_univ _)) $$ Hout; iintro Hout
  iapply (wp_load 𝒱₀ (c : Thread nD τ) none Set.univ (m := sM) (slot_load_sub sM inb_S3x384x1024_S1x96x1024_1_288_0 squeezes_S1x96x1024_S96x1024)) $$ Hs1; iintro Hs1
  iapply (wp_store 𝒱₀ (c : Thread nD τ) none Set.univ (m := sM) (r := Rect.unit (s := S3x384x1024) ![1, 288, 0] S1x96x1024.size inb_S3x384x1024_S1x96x1024_1_288_0) (Mk := Finset.univ)
      (slot_store_sub sM inb_S3x384x1024_S1x96x1024_1_288_0 squeezes_S1x96x1024_S96x1024)) $$ Hs1; iintro Hs1
  have hs1 := sent_rows inb_S3x384x1024_S1x96x1024_1_288_0 (k0_off3 c 384#32 4#32 3#32 96#32 0#32) (k0_off3_inb c 3) (off3d_col c) k0_pay26 Mem.pay26_apply fo fs1
    (fun r q => S2 m 1 c (K1 1 c + r) q) hfo1
  iapply (wp_send_to m c _ (Mesh.px 1 c) (Mesh.dev12_eq c) 0 1 1 2 (Or.inl (by decide)) (Or.inl (by decide)) (fd := fd1)
      Tables.credit_r12 rfl (Orem c 12) (Orem_lt c 11 (by decide)) (lend1 m c _) (land1 m c _ fd1 hs1)) $$ [Hs1 Hd1 HO Ts1 Tr1]
  · isplitr; · iexact IS1
    isplitr; · iexact IP1
    isplitl [Hs1]; · iexact Hs1
    isplitl [Hd1]; · iexact Hd1
    isplitl [HO]; · iexact HO
    isplitl [Ts1]; · iexact Ts1
    isplitr; · iexact RS1
    isplitl [Tr1]; · iexact Tr1
    iexact RP1
  iintro ⟨Cs1, HO⟩
  -- butterfly 2: the kept quarter is read and narrowed
  iapply (wp_load 𝒱₀ (c : Thread nD τ) none Set.univ (m := oM) (Finset.subset_univ _)) $$ Hout; iintro Hout
  iapply (wp_load 𝒱₀ (c : Thread nD τ) none Set.univ (m := sM) (slot_load_sub sM inb_S3x384x1024_S1x64x1024_2_192_0 squeezes_S1x64x1024_S64x1024)) $$ Hs2; iintro Hs2
  -- the fifteenth part
  simp only [k0_part15_eq_skeleton]
  unfold k0_part15_skel
  simp only [Prog.lift, Prog.bind_op, Prog.bind_ret, Prog.pure_eq_ret]
  iapply (wp_store 𝒱₀ (c : Thread nD τ) none Set.univ (m := sM) (r := Rect.unit (s := S3x384x1024) ![2, 192, 0] S1x64x1024.size inb_S3x384x1024_S1x64x1024_2_192_0) (Mk := Finset.univ)
      (slot_store_sub sM inb_S3x384x1024_S1x64x1024_2_192_0 squeezes_S1x64x1024_S64x1024)) $$ Hs2; iintro Hs2
  have hs2 := sent_rows inb_S3x384x1024_S1x64x1024_2_192_0 (k0_off4 c 64#32 0#32) (k0_off4_inb c 1) (off4b_col c) k0_pay27 Mem.pay27_apply fo fs2
    (fun r q => S2 m 2 c (K1 2 c + r) q) hfo2
  iapply (wp_send_to m c _ (Mesh.px 2 c) (Mesh.dev13_eq c) 0 1 2 2 (Or.inl (by decide)) (Or.inl (by decide)) (fd := fd2)
      Tables.credit_r22 rfl (Orem c 13) (Orem_lt c 12 (by decide)) (lend2 m c _) (land2 m c _ fd2 hs2)) $$ [Hs2 Hd2 HO Ts2 Tr2]
  · isplitr; · iexact IS2
    isplitr; · iexact IP2
    isplitl [Hs2]; · iexact Hs2
    isplitl [Hd2]; · iexact Hd2
    isplitl [HO]; · iexact HO
    isplitl [Ts2]; · iexact Ts2
    isplitr; · iexact RS2
    isplitl [Tr2]; · iexact Tr2
    iexact RP2
  iintro ⟨Cs2, HO⟩
  -- butterfly 0: the partner's quarter has arrived
  iapply (Tables.wp_wait_dcell m 1 0 2 c (Or.inl (by decide)) Tables.credit_r02) $$ [Cr0 HO P0]
  · isplitr; · iexact IR0
    isplitl [Cr0]; · iexact Cr0
    isplitl [HO]; · iexact HO
    isplitr; · iapply (Tables.mayWait_rs2 0 c); iexact Hlev
    iexact P0
  iintro ⟨HO, P0, -, Hg0⟩
  ihave Hg0' := (got0 m c) $$ Hg0
  icases Hg0' with ⟨%fr0, Hr0, %hfr0⟩
  -- it is added, as it came over the wire, to the device's own rows
  iapply (wp_load 𝒱₀ (c : Thread nD τ) none Set.univ (m := oM) (Finset.subset_univ _)) $$ Hout; iintro Hout
  iapply (wp_load 𝒱₀ (c : Thread nD τ) none Set.univ (m := rM) (slot_load_sub rM inb_S3x384x1024_S1x96x1024_0_288_0 squeezes_S1x96x1024_S96x1024)) $$ Hr0; iintro Hr0
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off3 c 0#32 3#32 1#32 96#32 0#32) S96x1024.size (k0_off3_inb c 2)) (Mk := Finset.univ)
      (Finset.subset_univ _)) $$ Hout; iintro Hout
  have ht0 := added_rows inb_S3x384x1024_S1x96x1024_0_288_0 (k0_off3 c 0#32 3#32 1#32 96#32 0#32) (k0_off3_inb c 2) (off3c_col c) k0_pay28 Mem.pay28_apply fo fr0
    (fun r q => S2 m 0 c (K1 0 c + r) q) (fun r q => S2 m 0 (Mesh.px 4 c) (K1 0 c + r) q) hfo0 hfr0
  icases (pt_forget _ (fun g : Buf (Elt F) ((oM : Memref sig .tc .vmem S1024x1024 .f32).view.loc (c : Thread nD τ)) =>
      (∀ r q : ℕ, r < 96 → q < 1024 → oAt g (K1 0 c + r) q = S3 m 0 c (K1 0 c + r) q)
      ∧ (∀ r q : ℕ, r < 96 → q < 1024 → oAt g (K1 1 c + r) q = S2 m 1 c (K1 1 c + r) q)
      ∧ (∀ r q : ℕ, r < 64 → q < 1024 → oAt g (K1 2 c + r) q = S2 m 2 c (K1 2 c + r) q))
    ⟨ht0,
      kept_rows (h' := 96) (k0_off3 c 0#32 3#32 1#32 96#32 0#32) (k0_off3_inb c 2) fo _ (K1 1 c) _ (by omega) (Or.inr (by show K1 0 c + 96 ≤ K1 1 c; omega)) hfo1,
      kept_rows (h' := 64) (k0_off3 c 0#32 3#32 1#32 96#32 0#32) (k0_off3_inb c 2) fo _ (K1 2 c) _ (by omega) (Or.inr (by show K1 0 c + 96 ≤ K1 2 c; omega)) hfo2⟩) $$ Hout with ⟨%fo1, Hout, %hfo'⟩
  obtain ⟨hA0, hB1, hB2⟩ := hfo'
  -- the sixteenth part: the total, narrowed, goes into the device's quarter of the gather buffer
  simp only [k0_part16_eq_skeleton]
  unfold k0_part16_skel
  simp only [Prog.lift, Prog.bind_op, Prog.bind_ret, Prog.pure_eq_ret]
  iapply (wp_load 𝒱₀ (c : Thread nD τ) none Set.univ (m := oM) (Finset.subset_univ _)) $$ Hout; iintro Hout
  iapply (wp_load 𝒱₀ (c : Thread nD τ) none Set.univ (m := aM)
      (arows_load_sub (k0_off3 c 0#32 3#32 1#32 96#32 0#32) (k0_off5 c 0#32 3#32 1#32) (Rows.ag1_own_b0 c) (k0_off3_inb c 2) (k0_off5_inb c 0))) $$ Ha0; iintro Ha0
  iapply (wp_store 𝒱₀ (c : Thread nD τ) none Set.univ (m := aM) (r := Rect.unit (s := S1024x1024) (k0_off3 c 0#32 3#32 1#32 96#32 0#32) S96x1024.size (k0_off3_inb c 2)) (Mk := Finset.univ)
      (arows_store_sub (k0_off3 c 0#32 3#32 1#32 96#32 0#32) (k0_off5 c 0#32 3#32 1#32) (Rows.ag1_own_b0 c) (k0_off3_inb c 2) (k0_off5_inb c 0))) $$ Ha0; iintro Ha0
  have hg0 := gathered_rows (k0_off3 c 0#32 3#32 1#32 96#32 0#32) (k0_off3_inb c 2) (off3c_col c) k0_pay29 Mem.pay29_apply fo1 fa0 (fun r q => S3 m 0 c (K1 0 c + r) q) hA0
  -- butterfly 1
  iapply (Tables.wp_wait_dcell m 1 1 2 c (Or.inl (by decide)) Tables.credit_r12) $$ [Cr1 HO P1]
  · isplitr; · iexact IR1
    isplitl [Cr1]; · iexact Cr1
    isplitl [HO]; · iexact HO
    isplitr; · iapply (Tables.mayWait_rs2 1 c); iexact Hlev
    iexact P1
  iintro ⟨HO, P1, -, Hg1⟩
  ihave Hg1' := (got1 m c) $$ Hg1
  icases Hg1' with ⟨%fr1, Hr1, %hfr1⟩
  iapply (wp_load 𝒱₀ (c : Thread nD τ) none Set.univ (m := oM) (Finset.subset_univ _)) $$ Hout; iintro Hout
  iapply (wp_load 𝒱₀ (c : Thread nD τ) none Set.univ (m := rM) (slot_load_sub rM inb_S3x384x1024_S1x96x1024_1_288_0 squeezes_S1x96x1024_S96x1024)) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off3 c 384#32 4#32 3#32 96#32 0#32) S96x1024.size (k0_off3_inb c 3)) (Mk := Finset.univ)
      (Finset.subset_univ _)) $$ Hout; iintro Hout
  have ht1 := added_rows inb_S3x384x1024_S1x96x1024_1_288_0 (k0_off3 c 384#32 4#32 3#32 96#32 0#32) (k0_off3_inb c 3) (off3d_col c) k0_pay30 Mem.pay30_apply fo1 fr1
    (fun r q => S2 m 1 c (K1 1 c + r) q) (fun r q => S2 m 1 (Mesh.px 1 c) (K1 1 c + r) q) hB1 hfr1
  icases (pt_forget _ (fun g : Buf (Elt F) ((oM : Memref sig .tc .vmem S1024x1024 .f32).view.loc (c : Thread nD τ)) =>
      (∀ r q : ℕ, r < 96 → q < 1024 → oAt g (K1 1 c + r) q = S3 m 1 c (K1 1 c + r) q)
      ∧ (∀ r q : ℕ, r < 64 → q < 1024 → oAt g (K1 2 c + r) q = S2 m 2 c (K1 2 c + r) q))
    ⟨ht1,
      kept_rows (h' := 64) (k0_off3 c 384#32 4#32 3#32 96#32 0#32) (k0_off3_inb c 3) fo1 _ (K1 2 c) _ (by omega) (Or.inr (by show K1 1 c + 96 ≤ K1 2 c; omega)) hB2⟩) $$ Hout with ⟨%fo2, Hout, %hfo''⟩
  obtain ⟨hA1, hC2⟩ := hfo''
  iapply (wp_load 𝒱₀ (c : Thread nD τ) none Set.univ (m := oM) (Finset.subset_univ _)) $$ Hout; iintro Hout
  iapply (wp_load 𝒱₀ (c : Thread nD τ) none Set.univ (m := aM)
      (arows_load_sub (k0_off3 c 384#32 4#32 3#32 96#32 0#32) (k0_off5 c 384#32 4#32 3#32) (Rows.ag1_own_b1 c) (k0_off3_inb c 3) (k0_off5_inb c 1))) $$ Ha1; iintro Ha1
  iapply (wp_store 𝒱₀ (c : Thread nD τ) none Set.univ (m := aM) (r := Rect.unit (s := S1024x1024) (k0_off3 c 384#32 4#32 3#32 96#32 0#32) S96x1024.size (k0_off3_inb c 3)) (Mk := Finset.univ)
      (arows_store_sub (k0_off3 c 384#32 4#32 3#32 96#32 0#32) (k0_off5 c 384#32 4#32 3#32) (Rows.ag1_own_b1 c) (k0_off3_inb c 3) (k0_off5_inb c 1))) $$ Ha1; iintro Ha1
  have hg1 := gathered_rows (k0_off3 c 384#32 4#32 3#32 96#32 0#32) (k0_off3_inb c 3) (off3d_col c) k0_pay31 Mem.pay31_apply fo2 fa1 (fun r q => S3 m 1 c (K1 1 c + r) q) hA1
  -- the seventeenth part: butterfly 2
  simp only [k0_part17_eq_skeleton]
  unfold k0_part17_skel
  simp only [Prog.lift, Prog.bind_op, Prog.bind_ret, Prog.pure_eq_ret]
  iapply (Tables.wp_wait_dcell m 1 2 2 c (Or.inl (by decide)) Tables.credit_r22) $$ [Cr2 HO P2]
  · isplitr; · iexact IR2
    isplitl [Cr2]; · iexact Cr2
    isplitl [HO]; · iexact HO
    isplitr; · iapply (Tables.mayWait_rs2 2 c); iexact Hlev
    iexact P2
  iintro ⟨HO, P2, -, Hg2⟩
  ihave Hg2' := (got2 m c) $$ Hg2
  icases Hg2' with ⟨%fr2, Hr2, %hfr2⟩
  iapply (wp_load 𝒱₀ (c : Thread nD τ) none Set.univ (m := oM) (Finset.subset_univ _)) $$ Hout; iintro Hout
  iapply (wp_load 𝒱₀ (c : Thread nD τ) none Set.univ (m := rM) (slot_load_sub rM inb_S3x384x1024_S1x64x1024_2_192_0 squeezes_S1x64x1024_S64x1024)) $$ Hr2; iintro Hr2
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) (k0_off4 c 64#32 0#32) S64x1024.size (k0_off4_inb c 1)) (Mk := Finset.univ)
      (Finset.subset_univ _)) $$ Hout; iintro Hout
  have ht2 := added_rows inb_S3x384x1024_S1x64x1024_2_192_0 (k0_off4 c 64#32 0#32) (k0_off4_inb c 1) (off4b_col c) k0_pay32 Mem.pay32_apply fo2 fr2
    (fun r q => S2 m 2 c (K1 2 c + r) q) (fun r q => S2 m 2 (Mesh.px 2 c) (K1 2 c + r) q) hC2 hfr2
  icases (pt_forget _ (fun g : Buf (Elt F) ((oM : Memref sig .tc .vmem S1024x1024 .f32).view.loc (c : Thread nD τ)) =>
      ∀ r q : ℕ, r < 64 → q < 1024 → oAt g (K1 2 c + r) q = S3 m 2 c (K1 2 c + r) q) ht2) $$ Hout with ⟨%fo3, Hout, %hA2⟩
  iapply (wp_load 𝒱₀ (c : Thread nD τ) none Set.univ (m := oM) (Finset.subset_univ _)) $$ Hout; iintro Hout
  iapply (wp_load 𝒱₀ (c : Thread nD τ) none Set.univ (m := aM)
      (arows_load_sub (k0_off4 c 64#32 0#32) (k0_off6 c) (Rows.ag1_own_b2 c) (k0_off4_inb c 1) (k0_off6_inb c))) $$ Ha2; iintro Ha2
  iapply (wp_store 𝒱₀ (c : Thread nD τ) none Set.univ (m := aM) (r := Rect.unit (s := S1024x1024) (k0_off4 c 64#32 0#32) S64x1024.size (k0_off4_inb c 1)) (Mk := Finset.univ)
      (arows_store_sub (k0_off4 c 64#32 0#32) (k0_off6 c) (Rows.ag1_own_b2 c) (k0_off4_inb c 1) (k0_off6_inb c))) $$ Ha2; iintro Ha2
  have hg2 := gathered_rows (k0_off4 c 64#32 0#32) (k0_off4_inb c 1) (off4b_col c) k0_pay33 Mem.pay33_apply fo3 fa2 (fun r q => S3 m 2 c (K1 2 c + r) q) hA2
  -- the stage is over
  iapply Hk
  unfold S2Post
  isplitl [P0]; · iexact P0
  isplitl [P1]; · iexact P1
  isplitl [P2]; · iexact P2
  isplitl [Cs0]; · iexact Cs0
  isplitl [Cs1]; · iexact Cs1
  isplitl [Cs2]; · iexact Cs2
  isplitl [HO]; · iexact HO
  isplitl [Hout]; · iexists _; iexact Hout
  isplitl [Hr0]; · iexists _; iexact Hr0
  isplitl [Hr1]; · iexists _; iexact Hr1
  isplitl [Hr2]; · iexists _; iexact Hr2
  isplitl [Ha0]
  · iexists _
    isplitl [Ha0]; · iexact Ha0
    ipureintro; exact hg0
  isplitl [Ha1]
  · iexists _
    isplitl [Ha1]; · iexact Ha1
    ipureintro; exact hg1
  · iexists _
    isplitl [Ha2]; · iexact Ha2
    ipureintro; exact hg2

end S2

open S2

/-! ## The stage between the two cuts -/

set_option maxRecDepth 8192 in
set_option maxHeartbeats 4000000 in
/-- Exchange stage 2 from the cut before it to the cut before the all-gather: what the stage does not touch is carried
    across; the receive buffer comes back whole from its nine slots. -/
theorem s2 (c : Dev nD) (W : Waits sig Unit) (v2 v328 v347 v366 v376 : BitVec 32) {α : Type}
    (kk : BitVec 32 → Prog (TpuEff nD τ sig (Elt F) Λ₀ .tc) α) (Q : α → sProp 𝕄) :
    iprop(Cuts.PreS2 m K c W ∗ (∀ (r : BitVec 32) (W' : Waits sig Unit), Cuts.PreAG m K c W' -∗ wp frame (wpE (defs₀ (F := F)) 𝒱₀ (c : Thread nD τ) none) Set.univ (kk r) Q))
      ⊢ wp frame (wpE (defs₀ (F := F)) 𝒱₀ (c : Thread nD τ) none) Set.univ (do
          let ⟨v394, v412, v419⟩ : Σ' (v394 : BitVec 32) (v412 : BitVec 32), FVec F S1x64x1024 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v347 v366
          k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v376 v412 v419
          k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v347 v394
          let v505 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v366 v412
          kk v505) Q := by
  unfold Cuts.PreS2
  iintro ⟨⟨#Hrec, #Hlev, A2, A3, A4, P0, A6, A7, P1, A9, A10, P2, A12, A13, A14, A15, A16, A17, A18, A19, A20, A21, A22, A23, A24, A25, A26, A27, A28, A29, A30, A31, A32, A33, A34, A35, A36, A37, A38, Tr0, Tr1, Tr2, Ts0, Ts1, Ts2, A45, A46, A47, A48, A49, A50, A51, A52, A53, A54, A55, A56, Cr0, Cr1, Cr2, A60, A61, A62, A63, A64, A65, A66, A67, A68, A69, A70, A71, HO, A73, A74, A75, A76, Hout, A78, Hs0, Hs1, Hs2, Hrb, R00, R01, R10, R11, R20, R21, Ha0, Ha1, Ha2, Hd0, Hd1, Hd2, A95, A96, A97, A98, A99, A100⟩, Hk⟩
  iapply (s2_core m K c W v2 v328 v347 v366 v376 kk Q) $$ [P0 P1 P2 Tr0 Tr1 Tr2 Ts0 Ts1 Ts2 Cr0 Cr1 Cr2 HO Hout Hs0 Hs1 Hs2 Ha0 Ha1 Ha2 Hd0 Hd1 Hd2]
  · isplitr; · iexact Hrec
    isplitr; · iexact Hlev
    isplitl [P0]; · iexact P0
    isplitl [P1]; · iexact P1
    isplitl [P2]; · iexact P2
    isplitl [Tr0]; · iexact Tr0
    isplitl [Tr1]; · iexact Tr1
    isplitl [Tr2]; · iexact Tr2
    isplitl [Ts0]; · iexact Ts0
    isplitl [Ts1]; · iexact Ts1
    isplitl [Ts2]; · iexact Ts2
    isplitl [Cr0]; · iexact Cr0
    isplitl [Cr1]; · iexact Cr1
    isplitl [Cr2]; · iexact Cr2
    isplitl [HO]; · iexact HO
    isplitl [Hout]; · iexact Hout
    isplitl [Hs0]; · iexact Hs0
    isplitl [Hs1]; · iexact Hs1
    isplitl [Hs2]; · iexact Hs2
    isplitl [Ha0]; · iexact Ha0
    isplitl [Ha1]; · iexact Ha1
    isplitl [Ha2]; · iexact Ha2
    isplitl [Hd0]; · iexact Hd0
    isplitl [Hd1]; · iexact Hd1
    iexact Hd2
  unfold S2Post
  iintro ⟨P0, P1, P2, Cs0, Cs1, Cs2, HO, Hout, Hr0, Hr1, Hr2, Ha0, Ha1, Ha2⟩
  unfold Cuts.rbufBack
  ihave Hrbuf := Hrb $$ [R00 R01 Hr0 R10 R11 Hr1 R20 R21 Hr2]
  · isplitl [R00]; · iexact R00
    isplitl [R01]; · iexact R01
    isplitl [Hr0]; · iexact Hr0
    isplitl [R10]; · iexact R10
    isplitl [R11]; · iexact R11
    isplitl [Hr1]; · iexact Hr1
    isplitl [R20]; · iexact R20
    isplitl [R21]; · iexact R21
    iexact Hr2
  iapply Hk $$ %(Scalar.xori v2 1#32) %(insert (SemLoc.dma (dsem 1 2 2), ()) (insert (SemLoc.dma (dsem 1 1 2), ()) (insert (SemLoc.dma (dsem 1 0 2), ()) W)))
  unfold Cuts.PreAG
  iframe
  isplitr; · iexact Hrec
  iexact Hlev

/-- info: 'Cert.Kernel.Body.s2' depends on axioms: [propext, Classical.choice, Quot.sound] -/
#guard_msgs in #print axioms s2

end Cert.Kernel.Body

end
-- ==== Proof.KBodyAG.lean ====
/-
  The all-gather phases of a device's run of the body, at a symbolic device.

  After the exchange every device holds, in its own quarter of each butterfly's rows of the gather buffer, the total of
  those rows narrowed for the wire. The gather undoes the exchange's halvings: at stage 1 a device sends its quarter to
  the partner it last exchanged with and receives that partner's quarter, so that it holds a whole kept half; at stage 0
  it sends the half to its first partner and receives the other half. A quarter or half that is both sent on and read
  is held by shares: the left half of a quarter's share goes with the stage-1 copy, the left half of what is left goes
  with the stage-0 copy of the half, and the remainder is what the device reads through. Each half is read back,
  widened and stored into the result: the kept halves after the stage-0 copies have left, the other halves as they
  arrive. At the end every row of the result holds its butterfly's total as it came over the wire, and the pieces of
  the gather buffer still in hand, with the shares the six copies will return, are the whole buffer.

  One lemma per printed part of the body, each over the resources that part touches and any continuation; the theorem
  `body_ag` chains them from the state before the first gather transfer to the state where every arrival has been
  waited for.
-/
import proofs.«900524_g7700000000000525_dist_gated_mlp_tp_i_m1024_h2048_d1024_v7x_i8_f32_1_alg».proof.Proof.KIface
import proofs.«900524_g7700000000000525_dist_gated_mlp_tp_i_m1024_h2048_d1024_v7x_i8_f32_1_alg».proof.Proof.KStor
import proofs.«900524_g7700000000000525_dist_gated_mlp_tp_i_m1024_h2048_d1024_v7x_i8_f32_1_alg».proof.Proof.KTables
import proofs.«900524_g7700000000000525_dist_gated_mlp_tp_i_m1024_h2048_d1024_v7x_i8_f32_1_alg».proof.Proof.KCuts
import proofs.«900524_g7700000000000525_dist_gated_mlp_tp_i_m1024_h2048_d1024_v7x_i8_f32_1_alg».proof.Proof.KMem
import proofs.«900524_g7700000000000525_dist_gated_mlp_tp_i_m1024_h2048_d1024_v7x_i8_f32_1_alg».proof.Proof.Gen.Kernel.Skeleton
import Idealize.ShloMosaic.Lib.Pipeline.Launch
import Idealize.ShloMosaic.Lib.Pipeline.Kit
import Idealize.ShloMosaic.Lib.Tactic

noncomputable section

namespace Cert.Kernel.Body

open Cert.Kernel Cert.Kernel.Gen Cert.Kernel.Sched Cert.Kernel.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Opening the ghost records -/

instance records_persistent_ag (m : (ℓ : Loc nD τ sig) → Buf (Elt F) ℓ) (K : Dev nD × CIx → ℕ) : BI.Persistent (records (F := F) m K) := by unfold records; infer_instance

section Inv
variable (m : (ℓ : Loc nD τ sig) → Buf (Elt F) ℓ) (K : Dev nD × CIx → ℕ)
theorem ag_inv_at (ck : Dev nD × CIx) : records (F := F) m K ⊢ cellInv ER (Rd m) (K ck) (kcell ck) := by
  have h : (bigSep Finset.univ fun ck : Dev nD × CIx => (cellInv ER (Rd m) (K ck) (kcell ck) : sProp 𝕄)) ⊢ cellInv ER (Rd m) (K ck) (kcell ck) := bigSep_elim (Finset.mem_univ ck)
  unfold records
  iintro ⟨HI, HR⟩
  iapply h
  iexact HI
theorem ag_reached_at (ck : Dev nD × CIx) : records (F := F) m K ⊢ reached ER (kcell ck) 0 := by
  have h : (bigSep Finset.univ fun ck : Dev nD × CIx => (reached ER (kcell ck) 0 : sProp 𝕄)) ⊢ reached ER (kcell ck) 0 := bigSep_elim (Finset.mem_univ ck)
  unfold records
  iintro ⟨HI, HR⟩
  iapply h
  iexact HR
theorem ag_inv_d (A : Fin 4) (b k : Fin 3) (d : Dev nD) : records (F := F) m K ⊢ cellInv ER (Rd m) (K (d, some (A, b, k))) (dcell A b k d) := ag_inv_at m K (d, some (A, b, k))
theorem ag_reached_d (A : Fin 4) (b k : Fin 3) (d : Dev nD) : records (F := F) m K ⊢ reached ER (dcell A b k d) 0 := ag_reached_at m K (d, some (A, b, k))
end Inv

/-! ## The remote copy at a device the program spells by its own chain -/

theorem wp_send_at (m : (ℓ : Loc nD τ sig) → Buf (Elt F) ℓ) {s : Shape} {e : EltTy} (c c' dv : Dev nD) (hdv : dv = c') (A₁ A₂ : Fin 4) (b k : Fin 3) (h₁ : used A₁ k) (h₂ : used A₂ k)
    {src : Memref sig .tc .vmem s e} {dst : Memref sig .tc .vmem s e}
    {hsc : (dst : Memref sig (Dev.tc dv : Thread nD τ).2.kind .vmem s e).view.ref.isScScratch = false}
    {hsrc : src.view.WordExact} {hdst : dst.view.WordExact}
    {hsem : DmaTarget.Typed .vmem (.dma (dsem A₂ b k)) (.remote (Dev.tc dv : Thread nD τ) dst (.dma (dsem A₁ b k)) hsc)}
    {α : Type} {Q : α → sProp 𝕄} {kk : PUnit → Prog (TpuEff nD τ sig (Elt F) Λ₀ .tc) α}
    {q : PosShare TreeShare} {fs : Buf (Elt F) (src.view.loc (c : Thread nD τ))} {fd : Buf (Elt F) (dst.view.loc (c' : Thread nD τ))}
    {κ₁ κ₂ : ℕ} (hN : dst.view.dmaCredit = namt A₂ b k) (hA : namt A₁ b k = namt A₂ b k)
    {O₀ : CellTallies nD τ sig Unit} (O : CellTallies nD τ sig Unit) (hO : O₀ = O + tallyAt (dcell A₂ b k c') () (namt A₂ b k)) {W : Waits sig Unit}
    (hpay₁ : (src.view.loc (c : Thread nD τ) ↦[src.view.set]{q} fs) ⊢ dpay m A₁ b k c)
    (hpay₂ : (dst.view.loc (c' : Thread nD τ) ↦[dst.view.set]{fullShare} (dst.view.write (Elt F) fd (src.view.read (Elt F) fs) Finset.univ))
      ⊢ dpay m A₂ b k c') :
    iprop(cellInv ER (Rd (F := F) m) κ₁ (dcell A₁ b k c) ∗ cellInv ER (Rd (F := F) m) κ₂ (dcell A₂ b k c')
        ∗ (src.view.loc (c : Thread nD τ) ↦[src.view.set]{q} fs) ∗ (dst.view.loc (c' : Thread nD τ) ↦[dst.view.set]{fullShare} fd)
        ∗ owes (c : Thread nD τ) O₀ W
        ∗ dutyTok ER (dcell A₁ b k c) 0 0 ∗ reached ER (dcell A₁ b k c) 0
        ∗ dutyTok ER (dcell A₂ b k c') 0 0 ∗ reached ER (dcell A₂ b k c') 0)
      ⊢ iprop(((cred (tallyAt (dcell A₁ b k c) () (namt A₁ b k)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc dv : Thread nD τ) dst (.dma (dsem A₁ b k)) hsc) (.dma (dsem A₂ b k)) hsrc hdst hsem) kk) Q) := by
  subst hdv
  exact Tables.wp_send_cells m c dv A₁ A₂ b k h₁ h₂ hN hA O hO hpay₁ hpay₂

/-- A kept half merged from the own quarter and the landed quarter reads, at each of its rows, the total of the device whose
    quarter holds the row. -/
theorem half_value_b0 (m : (ℓ : Loc nD τ sig) → Buf (Elt F) ℓ) (c : Dev nD) (g fq fl : Buf (Elt F) ((c : Thread nD τ).loc cc0_scratch2))
    (hq : ∀ r q : ℕ, r < 96 → q < 1024 → aAt fq (K1 0 c + r) q = tr (S3 m 0 c (K1 0 c + r) q))
    (hl : ∀ r q : ℕ, r < 96 → q < 1024 → aAt fl (K1 0 (Mesh.px 1 c) + r) q = tr (S3 m 0 (Mesh.px 1 c) (K1 0 (Mesh.px 1 c) + r) q))
    (hg : (∀ r q' : ℕ, r < 96 → q' < 1024 → aAt g (Mem.qRow 0 c + r) q' = aAt fq (Mem.qRow 0 c + r) q')
      ∧ (∀ r q' : ℕ, r < 96 → q' < 1024 → aAt g (Mem.qRow 0 (Mesh.px 1 c) + r) q' = aAt fl (Mem.qRow 0 (Mesh.px 1 c) + r) q'))
    (r q : ℕ) (hr : r < 192) (hq' : q < 1024) :
    aAt g (K0 0 c + r) q = tr (S3 m 0 (qOwn 0 c (K0 0 c + r)) (K0 0 c + r) q) := by
  obtain ⟨hH0, hQ0, hH1, hQ1, hH2, hQ2⟩ := Mem.rows_all c
  rw [Mem.qRow_eq_K1, Mem.qRow_eq_K1] at hg
  rw [Mem.hRow_eq_K0, Mem.qRow_eq_K1, Mem.qRow_eq_K1] at hQ0
  have hQh : Qh 0 = 96 := rfl
  have hmask : mask 0 1 = 1 := rfl
  unfold qOwn
  rw [hQh, hmask]
  rcases hQ0 with ⟨h1, h2⟩ | ⟨h1, h2⟩
  · by_cases hr' : r < 96
    · rw [if_pos (by omega), show K0 0 c + r = K1 0 c + r by omega, hg.1 r q hr' hq', hq r q hr' hq']
    · rw [if_neg (by omega), show K0 0 c + r = K1 0 (Mesh.px 1 c) + (r - 96) by omega, hg.2 (r - 96) q (by omega) hq', hl (r - 96) q (by omega) hq']
  · by_cases hr' : r < 96
    · rw [if_neg (by omega), show K0 0 c + r = K1 0 (Mesh.px 1 c) + r by omega, hg.2 r q hr' hq', hl r q hr' hq']
    · rw [if_pos (by omega), show K0 0 c + r = K1 0 c + (r - 96) by omega, hg.1 (r - 96) q (by omega) hq', hq (r - 96) q (by omega) hq']

/-- A kept half merged from the own quarter and the landed quarter reads, at each of its rows, the total of the device whose
    quarter holds the row. -/
theorem half_value_b1 (m : (ℓ : Loc nD τ sig) → Buf (Elt F) ℓ) (c : Dev nD) (g fq fl : Buf (Elt F) ((c : Thread nD τ).loc cc0_scratch2))
    (hq : ∀ r q : ℕ, r < 96 → q < 1024 → aAt fq (K1 1 c + r) q = tr (S3 m 1 c (K1 1 c + r) q))
    (hl : ∀ r q : ℕ, r < 96 → q < 1024 → aAt fl (K1 1 (Mesh.px 3 c) + r) q = tr (S3 m 1 (Mesh.px 3 c) (K1 1 (Mesh.px 3 c) + r) q))
    (hg : (∀ r q' : ℕ, r < 96 → q' < 1024 → aAt g (Mem.qRow 1 c + r) q' = aAt fq (Mem.qRow 1 c + r) q')
      ∧ (∀ r q' : ℕ, r < 96 → q' < 1024 → aAt g (Mem.qRow 1 (Mesh.px 3 c) + r) q' = aAt fl (Mem.qRow 1 (Mesh.px 3 c) + r) q'))
    (r q : ℕ) (hr : r < 192) (hq' : q < 1024) :
    aAt g (K0 1 c + r) q = tr (S3 m 1 (qOwn 1 c (K0 1 c + r)) (K0 1 c + r) q) := by
  obtain ⟨hH0, hQ0, hH1, hQ1, hH2, hQ2⟩ := Mem.rows_all c
  rw [Mem.qRow_eq_K1, Mem.qRow_eq_K1] at hg
  rw [Mem.hRow_eq_K0, Mem.qRow_eq_K1, Mem.qRow_eq_K1] at hQ1
  have hQh : Qh 1 = 96 := rfl
  have hmask : mask 1 1 = 3 := rfl
  unfold qOwn
  rw [hQh, hmask]
  rcases hQ1 with ⟨h1, h2⟩ | ⟨h1, h2⟩
  · by_cases hr' : r < 96
    · rw [if_pos (by omega), show K0 1 c + r = K1 1 c + r by omega, hg.1 r q hr' hq', hq r q hr' hq']
    · rw [if_neg (by omega), show K0 1 c + r = K1 1 (Mesh.px 3 c) + (r - 96) by omega, hg.2 (r - 96) q (by omega) hq', hl (r - 96) q (by omega) hq']
  · by_cases hr' : r < 96
    · rw [if_neg (by omega), show K0 1 c + r = K1 1 (Mesh.px 3 c) + r by omega, hg.2 r q hr' hq', hl r q hr' hq']
    · rw [if_pos (by omega), show K0 1 c + r = K1 1 c + (r - 96) by omega, hg.1 (r - 96) q (by omega) hq', hq (r - 96) q (by omega) hq']

/-- A kept half merged from the own quarter and the landed quarter reads, at each of its rows, the total of the device whose
    quarter holds the row. -/
theorem half_value_b2 (m : (ℓ : Loc nD τ sig) → Buf (Elt F) ℓ) (c : Dev nD) (g fq fl : Buf (Elt F) ((c : Thread nD τ).loc cc0_scratch2))
    (hq : ∀ r q : ℕ, r < 64 → q < 1024 → aAt fq (K1 2 c + r) q = tr (S3 m 2 c (K1 2 c + r) q))
    (hl : ∀ r q : ℕ, r < 64 → q < 1024 → aAt fl (K1 2 (Mesh.px 4 c) + r) q = tr (S3 m 2 (Mesh.px 4 c) (K1 2 (Mesh.px 4 c) + r) q))
    (hg : (∀ r q' : ℕ, r < 64 → q' < 1024 → aAt g (Mem.qRow 2 c + r) q' = aAt fq (Mem.qRow 2 c + r) q')
      ∧ (∀ r q' : ℕ, r < 64 → q' < 1024 → aAt g (Mem.qRow 2 (Mesh.px 4 c) + r) q' = aAt fl (Mem.qRow 2 (Mesh.px 4 c) + r) q'))
    (r q : ℕ) (hr : r < 128) (hq' : q < 1024) :
    aAt g (K0 2 c + r) q = tr (S3 m 2 (qOwn 2 c (K0 2 c + r)) (K0 2 c + r) q) := by
  obtain ⟨hH0, hQ0, hH1, hQ1, hH2, hQ2⟩ := Mem.rows_all c
  rw [Mem.qRow_eq_K1, Mem.qRow_eq_K1] at hg
  rw [Mem.hRow_eq_K0, Mem.qRow_eq_K1, Mem.qRow_eq_K1] at hQ2
  have hQh : Qh 2 = 64 := rfl
  have hmask : mask 2 1 = 4 := rfl
  unfold qOwn
  rw [hQh, hmask]
  rcases hQ2 with ⟨h1, h2⟩ | ⟨h1, h2⟩
  · by_cases hr' : r < 64
    · rw [if_pos (by omega), show K0 2 c + r = K1 2 c + r by omega, hg.1 r q hr' hq', hq r q hr' hq']
    · rw [if_neg (by omega), show K0 2 c + r = K1 2 (Mesh.px 4 c) + (r - 64) by omega, hg.2 (r - 64) q (by omega) hq', hl (r - 64) q (by omega) hq']
  · by_cases hr' : r < 64
    · rw [if_neg (by omega), show K0 2 c + r = K1 2 (Mesh.px 4 c) + r by omega, hg.2 r q hr' hq', hl r q hr' hq']
    · rw [if_pos (by omega), show K0 2 c + r = K1 2 c + (r - 64) by omega, hg.1 (r - 64) q (by omega) hq', hq (r - 64) q (by omega) hq']

theorem ag_pay_s1_b0 (m : (ℓ : Loc nD τ sig) → Buf (Elt F) ℓ) (c : Dev nD) (fq : Buf (Elt F) ((aRows01 c).view.loc (c : Thread nD τ))) :
    (((aRows01 c).view.loc (c : Thread nD τ) ↦[(aRows01 c).view.set]{fullShare.left} fq) : sProp 𝕄) ⊢ dpay m 2 0 1 c := by
  show _ ⊢ (iprop(∃ f, (aRows01 c).view.loc (c : Thread nD τ) ↦[(aRows01 c).view.set]{fullShare.left} f) : sProp 𝕄)
  exact Mem.pt_ex fq

theorem ag_r1_open_b0 (m : (ℓ : Loc nD τ sig) → Buf (Elt F) ℓ) (c : Dev nD) :
    dpay (F := F) m 3 0 1 c = iprop(∃ f, ((aRows01 (Mesh.px 1 c)).view.loc (c : Thread nD τ) ↦[(aRows01 (Mesh.px 1 c)).view.set]{fullShare} f)
      ∗ ⌜∀ r q : ℕ, r < 96 → q < 1024 → aAt f (K1 0 (Mesh.px 1 c) + r) q = tr (S3 m 0 (Mesh.px 1 c) (K1 0 (Mesh.px 1 c) + r) q)⌝) := rfl
theorem ag_r0_open_b0 (m : (ℓ : Loc nD τ sig) → Buf (Elt F) ℓ) (c : Dev nD) :
    dpay (F := F) m 3 0 0 c = iprop(∃ f, ((aRows00 (Mesh.px 3 c)).view.loc (c : Thread nD τ) ↦[(aRows00 (Mesh.px 3 c)).view.set]{fullShare} f)
      ∗ ⌜∀ r q : ℕ, r < 192 → q < 1024 → aAt f (K0 0 (Mesh.px 3 c) + r) q = tr (S3 m 0 (qOwn 0 (Mesh.px 3 c) (K0 0 (Mesh.px 3 c) + r)) (K0 0 (Mesh.px 3 c) + r) q)⌝) := rfl

theorem ag_pay_r1_b0 (m : (ℓ : Loc nD τ sig) → Buf (Elt F) ℓ) (c : Dev nD) (fq : Buf (Elt F) ((aRows01 c).view.loc (c : Thread nD τ)))
    (fp : Buf (Elt F) ((aRows01 c).view.loc ((Mesh.px 1 c) : Thread nD τ)))
    (hq : ∀ r q : ℕ, r < 96 → q < 1024 → aAt fq (K1 0 c + r) q = tr (S3 m 0 c (K1 0 c + r) q)) :
    (((aRows01 c).view.loc ((Mesh.px 1 c) : Thread nD τ) ↦[(aRows01 c).view.set]{fullShare}
        ((aRows01 c).view.write (Elt F) fp ((aRows01 c).view.read (Elt F) fq) Finset.univ)) : sProp 𝕄) ⊢ dpay m 3 0 1 (Mesh.px 1 c) := by
  rw [ag_r1_open_b0 m (Mesh.px 1 c), Mesh.px1_px1]
  iintro H
  iexists _
  isplitl [H]
  · iexact H
  ipureintro
  intro r q hr hq'
  rw [← hq r q hr hq', ← Mem.qRow_eq_K1 0 c]
  exact Mem.aAt_landing (k0_off5 c 0#32 3#32 1#32) (k0_off5_inb c 0) (by rw [Mesh.off5_a]; rfl) fp fq r q hr hq'

theorem ag_pay_s0_b0 (m : (ℓ : Loc nD τ sig) → Buf (Elt F) ℓ) (c : Dev nD) (g : Buf (Elt F) ((c : Thread nD τ).loc cc0_scratch2)) :
    (((aRows00 c).view.loc (c : Thread nD τ) ↦[(aRows00 c).view.set]{fullShare.right.left} g) : sProp 𝕄) ⊢ dpay m 2 0 0 c := by
  show _ ⊢ (iprop(∃ f, (aRows00 c).view.loc (c : Thread nD τ) ↦[(aRows00 c).view.set]{fullShare.right.left} f) : sProp 𝕄)
  exact Mem.pt_ex g

theorem ag_pay_r0_b0 (m : (ℓ : Loc nD τ sig) → Buf (Elt F) ℓ) (c : Dev nD) (g fq fl : Buf (Elt F) ((c : Thread nD τ).loc cc0_scratch2))
    (fh : Buf (Elt F) ((aRows00 c).view.loc ((Mesh.px 3 c) : Thread nD τ)))
    (hq : ∀ r q : ℕ, r < 96 → q < 1024 → aAt fq (K1 0 c + r) q = tr (S3 m 0 c (K1 0 c + r) q))
    (hl : ∀ r q : ℕ, r < 96 → q < 1024 → aAt fl (K1 0 (Mesh.px 1 c) + r) q = tr (S3 m 0 (Mesh.px 1 c) (K1 0 (Mesh.px 1 c) + r) q))
    (hg : (∀ r q' : ℕ, r < 96 → q' < 1024 → aAt g (Mem.qRow 0 c + r) q' = aAt fq (Mem.qRow 0 c + r) q')
      ∧ (∀ r q' : ℕ, r < 96 → q' < 1024 → aAt g (Mem.qRow 0 (Mesh.px 1 c) + r) q' = aAt fl (Mem.qRow 0 (Mesh.px 1 c) + r) q')) :
    (((aRows00 c).view.loc ((Mesh.px 3 c) : Thread nD τ) ↦[(aRows00 c).view.set]{fullShare}
        ((aRows00 c).view.write (Elt F) fh ((aRows00 c).view.read (Elt F) g) Finset.univ)) : sProp 𝕄) ⊢ dpay m 3 0 0 (Mesh.px 3 c) := by
  rw [ag_r0_open_b0 m (Mesh.px 3 c), Mesh.px3_px3]
  iintro H
  iexists _
  isplitl [H]
  · iexact H
  ipureintro
  intro r q hr hq'
  have hland := Mem.aAt_landing (k0_off7 c 0#32 3#32 1#32) (k0_off7_inb c 0) (by rw [Mesh.off7_a]; rfl) fh g r q hr hq'
  rw [show (k0_off7 c 0#32 3#32 1#32) 0 = K0 0 c from Mem.hRow_eq_K0 0 c] at hland
  rw [hland]
  exact half_value_b0 m c g fq fl hq hl hg r q hr hq'

theorem ag_pay_s1_b1 (m : (ℓ : Loc nD τ sig) → Buf (Elt F) ℓ) (c : Dev nD) (fq : Buf (Elt F) ((aRows11 c).view.loc (c : Thread nD τ))) :
    (((aRows11 c).view.loc (c : Thread nD τ) ↦[(aRows11 c).view.set]{fullShare.left} fq) : sProp 𝕄) ⊢ dpay m 2 1 1 c := by
  show _ ⊢ (iprop(∃ f, (aRows11 c).view.loc (c : Thread nD τ) ↦[(aRows11 c).view.set]{fullShare.left} f) : sProp 𝕄)
  exact Mem.pt_ex fq

theorem ag_r1_open_b1 (m : (ℓ : Loc nD τ sig) → Buf (Elt F) ℓ) (c : Dev nD) :
    dpay (F := F) m 3 1 1 c = iprop(∃ f, ((aRows11 (Mesh.px 3 c)).view.loc (c : Thread nD τ) ↦[(aRows11 (Mesh.px 3 c)).view.set]{fullShare} f)
      ∗ ⌜∀ r q : ℕ, r < 96 → q < 1024 → aAt f (K1 1 (Mesh.px 3 c) + r) q = tr (S3 m 1 (Mesh.px 3 c) (K1 1 (Mesh.px 3 c) + r) q)⌝) := rfl
theorem ag_r0_open_b1 (m : (ℓ : Loc nD τ sig) → Buf (Elt F) ℓ) (c : Dev nD) :
    dpay (F := F) m 3 1 0 c = iprop(∃ f, ((aRows10 (Mesh.px 4 c)).view.loc (c : Thread nD τ) ↦[(aRows10 (Mesh.px 4 c)).view.set]{fullShare} f)
      ∗ ⌜∀ r q : ℕ, r < 192 → q < 1024 → aAt f (K0 1 (Mesh.px 4 c) + r) q = tr (S3 m 1 (qOwn 1 (Mesh.px 4 c) (K0 1 (Mesh.px 4 c) + r)) (K0 1 (Mesh.px 4 c) + r) q)⌝) := rfl

theorem ag_pay_r1_b1 (m : (ℓ : Loc nD τ sig) → Buf (Elt F) ℓ) (c : Dev nD) (fq : Buf (Elt F) ((aRows11 c).view.loc (c : Thread nD τ)))
    (fp : Buf (Elt F) ((aRows11 c).view.loc ((Mesh.px 3 c) : Thread nD τ)))
    (hq : ∀ r q : ℕ, r < 96 → q < 1024 → aAt fq (K1 1 c + r) q = tr (S3 m 1 c (K1 1 c + r) q)) :
    (((aRows11 c).view.loc ((Mesh.px 3 c) : Thread nD τ) ↦[(aRows11 c).view.set]{fullShare}
        ((aRows11 c).view.write (Elt F) fp ((aRows11 c).view.read (Elt F) fq) Finset.univ)) : sProp 𝕄) ⊢ dpay m 3 1 1 (Mesh.px 3 c) := by
  rw [ag_r1_open_b1 m (Mesh.px 3 c), Mesh.px3_px3]
  iintro H
  iexists _
  isplitl [H]
  · iexact H
  ipureintro
  intro r q hr hq'
  rw [← hq r q hr hq', ← Mem.qRow_eq_K1 1 c]
  exact Mem.aAt_landing (k0_off5 c 384#32 4#32 3#32) (k0_off5_inb c 1) (by rw [Mesh.off5_b]; rfl) fp fq r q hr hq'

theorem ag_pay_s0_b1 (m : (ℓ : Loc nD τ sig) → Buf (Elt F) ℓ) (c : Dev nD) (g : Buf (Elt F) ((c : Thread nD τ).loc cc0_scratch2)) :
    (((aRows10 c).view.loc (c : Thread nD τ) ↦[(aRows10 c).view.set]{fullShare.right.left} g) : sProp 𝕄) ⊢ dpay m 2 1 0 c := by
  show _ ⊢ (iprop(∃ f, (aRows10 c).view.loc (c : Thread nD τ) ↦[(aRows10 c).view.set]{fullShare.right.left} f) : sProp 𝕄)
  exact Mem.pt_ex g

theorem ag_pay_r0_b1 (m : (ℓ : Loc nD τ sig) → Buf (Elt F) ℓ) (c : Dev nD) (g fq fl : Buf (Elt F) ((c : Thread nD τ).loc cc0_scratch2))
    (fh : Buf (Elt F) ((aRows10 c).view.loc ((Mesh.px 4 c) : Thread nD τ)))
    (hq : ∀ r q : ℕ, r < 96 → q < 1024 → aAt fq (K1 1 c + r) q = tr (S3 m 1 c (K1 1 c + r) q))
    (hl : ∀ r q : ℕ, r < 96 → q < 1024 → aAt fl (K1 1 (Mesh.px 3 c) + r) q = tr (S3 m 1 (Mesh.px 3 c) (K1 1 (Mesh.px 3 c) + r) q))
    (hg : (∀ r q' : ℕ, r < 96 → q' < 1024 → aAt g (Mem.qRow 1 c + r) q' = aAt fq (Mem.qRow 1 c + r) q')
      ∧ (∀ r q' : ℕ, r < 96 → q' < 1024 → aAt g (Mem.qRow 1 (Mesh.px 3 c) + r) q' = aAt fl (Mem.qRow 1 (Mesh.px 3 c) + r) q')) :
    (((aRows10 c).view.loc ((Mesh.px 4 c) : Thread nD τ) ↦[(aRows10 c).view.set]{fullShare}
        ((aRows10 c).view.write (Elt F) fh ((aRows10 c).view.read (Elt F) g) Finset.univ)) : sProp 𝕄) ⊢ dpay m 3 1 0 (Mesh.px 4 c) := by
  rw [ag_r0_open_b1 m (Mesh.px 4 c), Mesh.px4_px4]
  iintro H
  iexists _
  isplitl [H]
  · iexact H
  ipureintro
  intro r q hr hq'
  have hland := Mem.aAt_landing (k0_off7 c 384#32 4#32 3#32) (k0_off7_inb c 1) (by rw [Mesh.off7_b]; rfl) fh g r q hr hq'
  rw [show (k0_off7 c 384#32 4#32 3#32) 0 = K0 1 c from Mem.hRow_eq_K0 1 c] at hland
  rw [hland]
  exact half_value_b1 m c g fq fl hq hl hg r q hr hq'

theorem ag_pay_s1_b2 (m : (ℓ : Loc nD τ sig) → Buf (Elt F) ℓ) (c : Dev nD) (fq : Buf (Elt F) ((aRows21 c).view.loc (c : Thread nD τ))) :
    (((aRows21 c).view.loc (c : Thread nD τ) ↦[(aRows21 c).view.set]{fullShare.left} fq) : sProp 𝕄) ⊢ dpay m 2 2 1 c := by
  show _ ⊢ (iprop(∃ f, (aRows21 c).view.loc (c : Thread nD τ) ↦[(aRows21 c).view.set]{fullShare.left} f) : sProp 𝕄)
  exact Mem.pt_ex fq

theorem ag_r1_open_b2 (m : (ℓ : Loc nD τ sig) → Buf (Elt F) ℓ) (c : Dev nD) :
    dpay (F := F) m 3 2 1 c = iprop(∃ f, ((aRows21 (Mesh.px 4 c)).view.loc (c : Thread nD τ) ↦[(aRows21 (Mesh.px 4 c)).view.set]{fullShare} f)
      ∗ ⌜∀ r q : ℕ, r < 64 → q < 1024 → aAt f (K1 2 (Mesh.px 4 c) + r) q = tr (S3 m 2 (Mesh.px 4 c) (K1 2 (Mesh.px 4 c) + r) q)⌝) := rfl
theorem ag_r0_open_b2 (m : (ℓ : Loc nD τ sig) → Buf (Elt F) ℓ) (c : Dev nD) :
    dpay (F := F) m 3 2 0 c = iprop(∃ f, ((aRows20 (Mesh.px 1 c)).view.loc (c : Thread nD τ) ↦[(aRows20 (Mesh.px 1 c)).view.set]{fullShare} f)
      ∗ ⌜∀ r q : ℕ, r < 128 → q < 1024 → aAt f (K0 2 (Mesh.px 1 c) + r) q = tr (S3 m 2 (qOwn 2 (Mesh.px 1 c) (K0 2 (Mesh.px 1 c) + r)) (K0 2 (Mesh.px 1 c) + r) q)⌝) := rfl

theorem ag_pay_r1_b2 (m : (ℓ : Loc nD τ sig) → Buf (Elt F) ℓ) (c : Dev nD) (fq : Buf (Elt F) ((aRows21 c).view.loc (c : Thread nD τ)))
    (fp : Buf (Elt F) ((aRows21 c).view.loc ((Mesh.px 4 c) : Thread nD τ)))
    (hq : ∀ r q : ℕ, r < 64 → q < 1024 → aAt fq (K1 2 c + r) q = tr (S3 m 2 c (K1 2 c + r) q)) :
    (((aRows21 c).view.loc ((Mesh.px 4 c) : Thread nD τ) ↦[(aRows21 c).view.set]{fullShare}
        ((aRows21 c).view.write (Elt F) fp ((aRows21 c).view.read (Elt F) fq) Finset.univ)) : sProp 𝕄) ⊢ dpay m 3 2 1 (Mesh.px 4 c) := by
  rw [ag_r1_open_b2 m (Mesh.px 4 c), Mesh.px4_px4]
  iintro H
  iexists _
  isplitl [H]
  · iexact H
  ipureintro
  intro r q hr hq'
  rw [← hq r q hr hq', ← Mem.qRow_eq_K1 2 c]
  exact Mem.aAt_landing (k0_off6 c) (k0_off6_inb c) (by rw [Mesh.off6]; rfl) fp fq r q hr hq'

theorem ag_pay_s0_b2 (m : (ℓ : Loc nD τ sig) → Buf (Elt F) ℓ) (c : Dev nD) (g : Buf (Elt F) ((c : Thread nD τ).loc cc0_scratch2)) :
    (((aRows20 c).view.loc (c : Thread nD τ) ↦[(aRows20 c).view.set]{fullShare.right.left} g) : sProp 𝕄) ⊢ dpay m 2 2 0 c := by
  show _ ⊢ (iprop(∃ f, (aRows20 c).view.loc (c : Thread nD τ) ↦[(aRows20 c).view.set]{fullShare.right.left} f) : sProp 𝕄)
  exact Mem.pt_ex g

theorem ag_pay_r0_b2 (m : (ℓ : Loc nD τ sig) → Buf (Elt F) ℓ) (c : Dev nD) (g fq fl : Buf (Elt F) ((c : Thread nD τ).loc cc0_scratch2))
    (fh : Buf (Elt F) ((aRows20 c).view.loc ((Mesh.px 1 c) : Thread nD τ)))
    (hq : ∀ r q : ℕ, r < 64 → q < 1024 → aAt fq (K1 2 c + r) q = tr (S3 m 2 c (K1 2 c + r) q))
    (hl : ∀ r q : ℕ, r < 64 → q < 1024 → aAt fl (K1 2 (Mesh.px 4 c) + r) q = tr (S3 m 2 (Mesh.px 4 c) (K1 2 (Mesh.px 4 c) + r) q))
    (hg : (∀ r q' : ℕ, r < 64 → q' < 1024 → aAt g (Mem.qRow 2 c + r) q' = aAt fq (Mem.qRow 2 c + r) q')
      ∧ (∀ r q' : ℕ, r < 64 → q' < 1024 → aAt g (Mem.qRow 2 (Mesh.px 4 c) + r) q' = aAt fl (Mem.qRow 2 (Mesh.px 4 c) + r) q')) :
    (((aRows20 c).view.loc ((Mesh.px 1 c) : Thread nD τ) ↦[(aRows20 c).view.set]{fullShare}
        ((aRows20 c).view.write (Elt F) fh ((aRows20 c).view.read (Elt F) g) Finset.univ)) : sProp 𝕄) ⊢ dpay m 3 2 0 (Mesh.px 1 c) := by
  rw [ag_r0_open_b2 m (Mesh.px 1 c), Mesh.px1_px1]
  iintro H
  iexists _
  isplitl [H]
  · iexact H
  ipureintro
  intro r q hr hq'
  have hland := Mem.aAt_landing (k0_off8 c) (k0_off8_inb c) (by rw [Mesh.off8]; rfl) fh g r q hr hq'
  rw [show (k0_off8 c) 0 = K0 2 c from Mem.hRow_eq_K0 2 c] at hland
  rw [hland]
  exact half_value_b2 m c g fq fl hq hl hg r q hr hq'

/-- A block of whole rows loaded from the gather buffer reads, entry by entry, what the buffer's rows hold. -/
theorem ag_load_fact {h : ℕ} (o : Fin 2 → ℕ) (inb : ∀ a, o a + (![h, 1024] : Fin 2 → ℕ) a ≤ S1024x1024.size a) (ho : o 1 = 0)
    (g : (cc0_scratch2 : Ref sig .tc).ty.Contents (Elt F)) (k0 : ℕ) (hk : o 0 = k0) (T : ℕ → ℕ → F .bf16)
    (hg : ∀ r q : ℕ, r < h → q < 1024 → aAt g (k0 + r) q = T r q) :
    ∀ (r q : ℕ) (hr : r < h) (hq : q < 1024),
      ((aM : Memref sig .tc .vmem S1024x1024 .bf16).view.readAt (Elt F) (Rect.unit (s := S1024x1024) o ![h, 1024] inb).toLoadRect g) (ix2 ⟨r, hr⟩ ⟨q, hq⟩) = T r q := by
  intro r q hr hq
  rw [Mem.aAt_load o inb ho g r q hr hq, hk]
  exact hg r q hr hq

/-- The other half of butterfly 0 as a slice of the gather buffer at the device's own offset. -/
abbrev aOth0 (c : Dev nD) : Memref sig .tc .vmem S192x1024 .bf16 := aM.slice (Rect.unit (s := S1024x1024) (k0_off11 c 0#32 3#32 1#32) S192x1024.size (k0_off11_inb c 0)) (fun _ => rfl)
/-- Named by the stage-0 partner's slice or by the device's own offset of it, the other half is one set of rows. -/
theorem ag_oh_conv_b0 (c : Dev nD) (q : PosShare TreeShare) (f : Buf (Elt F) ((c : Thread nD τ).loc cc0_scratch2)) :
    (((aRows00 (Mesh.px 3 c)).view.loc (c : Thread nD τ) ↦[(aRows00 (Mesh.px 3 c)).view.set]{q} f) : sProp 𝕄)
      = ((aOth0 c).view.loc (c : Thread nD τ) ↦[(aOth0 c).view.set]{q} f) := by
  show _ = ((aM : Memref sig .tc .vmem S1024x1024 .bf16).view.loc (c : Thread nD τ) ↦[(aM.access (Rect.unit (s := S1024x1024) (k0_off11 c 0#32 3#32 1#32) S192x1024.size (k0_off11_inb c 0))).set]{q} f)
  rw [Mem.aacc_o0 c]

/-- The other half of butterfly 1 as a slice of the gather buffer at the device's own offset. -/
abbrev aOth1 (c : Dev nD) : Memref sig .tc .vmem S192x1024 .bf16 := aM.slice (Rect.unit (s := S1024x1024) (k0_off11 c 384#32 4#32 3#32) S192x1024.size (k0_off11_inb c 1)) (fun _ => rfl)
/-- Named by the stage-0 partner's slice or by the device's own offset of it, the other half is one set of rows. -/
theorem ag_oh_conv_b1 (c : Dev nD) (q : PosShare TreeShare) (f : Buf (Elt F) ((c : Thread nD τ).loc cc0_scratch2)) :
    (((aRows10 (Mesh.px 4 c)).view.loc (c : Thread nD τ) ↦[(aRows10 (Mesh.px 4 c)).view.set]{q} f) : sProp 𝕄)
      = ((aOth1 c).view.loc (c : Thread nD τ) ↦[(aOth1 c).view.set]{q} f) := by
  show _ = ((aM : Memref sig .tc .vmem S1024x1024 .bf16).view.loc (c : Thread nD τ) ↦[(aM.access (Rect.unit (s := S1024x1024) (k0_off11 c 384#32 4#32 3#32) S192x1024.size (k0_off11_inb c 1))).set]{q} f)
  rw [Mem.aacc_o1 c]

/-- The other half of butterfly 2 as a slice of the gather buffer at the device's own offset. -/
abbrev aOth2 (c : Dev nD) : Memref sig .tc .vmem S128x1024 .bf16 := aM.slice (Rect.unit (s := S1024x1024) (k0_off12 c) S128x1024.size (k0_off12_inb c)) (fun _ => rfl)
/-- Named by the stage-0 partner's slice or by the device's own offset of it, the other half is one set of rows. -/
theorem ag_oh_conv_b2 (c : Dev nD) (q : PosShare TreeShare) (f : Buf (Elt F) ((c : Thread nD τ).loc cc0_scratch2)) :
    (((aRows20 (Mesh.px 1 c)).view.loc (c : Thread nD τ) ↦[(aRows20 (Mesh.px 1 c)).view.set]{q} f) : sProp 𝕄)
      = ((aOth2 c).view.loc (c : Thread nD τ) ↦[(aOth2 c).view.set]{q} f) := by
  show _ = ((aM : Memref sig .tc .vmem S1024x1024 .bf16).view.loc (c : Thread nD τ) ↦[(aM.access (Rect.unit (s := S1024x1024) (k0_off12 c) S128x1024.size (k0_off12_inb c))).set]{q} f)
  rw [Mem.aacc_o2 c]

/-- What an arriving half says of the rows it fills: each holds the total of the device whose quarter the row lies in, narrowed for the wire. -/
def OthFact (m : (ℓ : Loc nD τ sig) → Buf (Elt F) ℓ) (b : Fin 3) (d : Dev nD) (hn : ℕ) (f : (cc0_scratch2 : Ref sig .tc).ty.Contents (Elt F)) : Prop :=
  ∀ r q : ℕ, r < hn → q < 1024 → aAt f (K0 b d + r) q = tr (S3 m b (qOwn b d (K0 b d + r)) (K0 b d + r) q)

/-- The wait for the other half of butterfly 0: its rows of the gather buffer come with it, holding the totals. -/
theorem wp_wait_ag0_b0 (m : (ℓ : Loc nD τ sig) → Buf (Elt F) ℓ) (c : Dev nD) {κ : ℕ} {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 3 0 0) {α : Type} {Q : α → sProp 𝕄}
    {kk : PUnit → Prog (TpuEff nD τ sig (Elt F) Λ₀ .tc) α} {O : CellTallies nD τ sig Unit} {W : Waits sig Unit} :
    iprop(cellInv ER (Rd (F := F) m) κ (dcell 3 0 0 c) ∗ cred (tallyAt (dcell 3 0 0 c) () (namt 3 0 0)) ∗ owes (c : Thread nD τ) O W
        ∗ MayWait (c : Thread nD τ) (.dma (dsem 3 0 0)) () O ∗ atPos ER (dcell 3 0 0 c) 0 ∅ 0)
      ⊢ iprop(((owes (c : Thread nD τ) O (insert (SemLoc.dma (dsem 3 0 0), ()) W) ∗ atPos ER (dcell 3 0 0 c) 1 ∅ 0 ∗ reached ER (dcell 3 0 0 c) 1
              ∗ (∃ f, ((aRows00 (Mesh.px 3 c)).view.loc (c : Thread nD τ) ↦[(aRows00 (Mesh.px 3 c)).view.set]{fullShare} f) ∗ ⌜OthFact m 0 (Mesh.px 3 c) 192 f⌝))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 3 0 0) src dst hsrc hdst) kk) Q) :=
  Tables.wp_wait_dcell m 3 0 0 c (Or.inr (by decide)) hN

/-- The wait for the other half of butterfly 1: its rows of the gather buffer come with it, holding the totals. -/
theorem wp_wait_ag0_b1 (m : (ℓ : Loc nD τ sig) → Buf (Elt F) ℓ) (c : Dev nD) {κ : ℕ} {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 3 1 0) {α : Type} {Q : α → sProp 𝕄}
    {kk : PUnit → Prog (TpuEff nD τ sig (Elt F) Λ₀ .tc) α} {O : CellTallies nD τ sig Unit} {W : Waits sig Unit} :
    iprop(cellInv ER (Rd (F := F) m) κ (dcell 3 1 0 c) ∗ cred (tallyAt (dcell 3 1 0 c) () (namt 3 1 0)) ∗ owes (c : Thread nD τ) O W
        ∗ MayWait (c : Thread nD τ) (.dma (dsem 3 1 0)) () O ∗ atPos ER (dcell 3 1 0 c) 0 ∅ 0)
      ⊢ iprop(((owes (c : Thread nD τ) O (insert (SemLoc.dma (dsem 3 1 0), ()) W) ∗ atPos ER (dcell 3 1 0 c) 1 ∅ 0 ∗ reached ER (dcell 3 1 0 c) 1
              ∗ (∃ f, ((aRows10 (Mesh.px 4 c)).view.loc (c : Thread nD τ) ↦[(aRows10 (Mesh.px 4 c)).view.set]{fullShare} f) ∗ ⌜OthFact m 1 (Mesh.px 4 c) 192 f⌝))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 3 1 0) src dst hsrc hdst) kk) Q) :=
  Tables.wp_wait_dcell m 3 1 0 c (Or.inr (by decide)) hN

/-- The wait for the other half of butterfly 2: its rows of the gather buffer come with it, holding the totals. -/
theorem wp_wait_ag0_b2 (m : (ℓ : Loc nD τ sig) → Buf (Elt F) ℓ) (c : Dev nD) {κ : ℕ} {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt 3 2 0) {α : Type} {Q : α → sProp 𝕄}
    {kk : PUnit → Prog (TpuEff nD τ sig (Elt F) Λ₀ .tc) α} {O : CellTallies nD τ sig Unit} {W : Waits sig Unit} :
    iprop(cellInv ER (Rd (F := F) m) κ (dcell 3 2 0 c) ∗ cred (tallyAt (dcell 3 2 0 c) () (namt 3 2 0)) ∗ owes (c : Thread nD τ) O W
        ∗ MayWait (c : Thread nD τ) (.dma (dsem 3 2 0)) () O ∗ atPos ER (dcell 3 2 0 c) 0 ∅ 0)
      ⊢ iprop(((owes (c : Thread nD τ) O (insert (SemLoc.dma (dsem 3 2 0), ()) W) ∗ atPos ER (dcell 3 2 0 c) 1 ∅ 0 ∗ reached ER (dcell 3 2 0 c) 1
              ∗ (∃ f, ((aRows20 (Mesh.px 1 c)).view.loc (c : Thread nD τ) ↦[(aRows20 (Mesh.px 1 c)).view.set]{fullShare} f) ∗ ⌜OthFact m 2 (Mesh.px 1 c) 128 f⌝))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 3 2 0) src dst hsrc hdst) kk) Q) :=
  Tables.wp_wait_dcell m 3 2 0 c (Or.inr (by decide)) hN

namespace AGEnd

/-! ## The result buffer, row by row -/

/-- An entry of a buffer is its entry at the natural coordinates of the index. -/
theorem at_eq_oAt (f : (cc0_stg4_0 : Ref sig .tc).ty.Contents (Elt F)) (i : S1024x1024.Idx) : f i = oAt f (i 0).val (i 1).val := by
  unfold oAt
  congr 1
  funext a
  match a with
  | ⟨0, _⟩ => exact Fin.ext (Nat.mod_eq_of_lt (i 0).isLt).symm
  | ⟨1, _⟩ => exact Fin.ext (Nat.mod_eq_of_lt (i 1).isLt).symm

/-- A listed store of whole rows that misses the row leaves the entry as it was; -/
theorem oAt_writes_miss {h : ℕ} (o : Fin 2 → ℕ) (inb : ∀ a, o a + (![h, 1024] : Fin 2 → ℕ) a ≤ S1024x1024.size a)
    (f : (cc0_stg4_0 : Ref sig .tc).ty.Contents (Elt F)) (v : (⟨2, ![h, 1024]⟩ : Shape).Idx → F .f32) (L : List (View.Piece (Elt F) S1024x1024 .f32))
    (p q : ℕ) (hp : p < 1024) (hm : p < o 0 ∨ o 0 + h ≤ p) :
    oAt ((oM : Memref sig .tc .vmem S1024x1024 .f32).view.writes (Elt F) f (⟨Rect.unit (s := S1024x1024) o ![h, 1024] inb, v⟩ :: L)) p q
      = oAt ((oM : Memref sig .tc .vmem S1024x1024 .f32).view.writes (Elt F) f L) p q :=
  Mem.oAt_store_miss o inb ((oM : Memref sig .tc .vmem S1024x1024 .f32).view.writes (Elt F) f L) v p q hp hm

/-- one that covers the row leaves its payload there. -/
theorem oAt_writes_hit {h : ℕ} (o : Fin 2 → ℕ) (inb : ∀ a, o a + (![h, 1024] : Fin 2 → ℕ) a ≤ S1024x1024.size a) (ho : o 1 = 0)
    (f : (cc0_stg4_0 : Ref sig .tc).ty.Contents (Elt F)) (v : (⟨2, ![h, 1024]⟩ : Shape).Idx → F .f32) (L : List (View.Piece (Elt F) S1024x1024 .f32))
    (p q : ℕ) (h1 : o 0 ≤ p) (h2 : p < o 0 + h) (hq : q < 1024) :
    oAt ((oM : Memref sig .tc .vmem S1024x1024 .f32).view.writes (Elt F) f (⟨Rect.unit (s := S1024x1024) o ![h, 1024] inb, v⟩ :: L)) p q
      = v (ix2 ⟨p - o 0, by omega⟩ ⟨q, hq⟩) := by
  have h3 := Mem.oAt_store o inb ho ((oM : Memref sig .tc .vmem S1024x1024 .f32).view.writes (Elt F) f L) v (p - o 0) q (by omega) hq
  rw [show o 0 + (p - o 0) = p by omega] at h3
  exact h3

/-- A row of the device's own half carries the total formed where its quarter is kept; -/
theorem Tot_own (m : (ℓ : Loc nD τ sig) → Buf (Elt F) ℓ) (b : Fin 3) (c : Dev nD) (p q : ℕ) (hb : bOf p = b) (h1 : K0 b c ≤ p) (h2 : p < K0 b c + Hh b) :
    Tot m (bOf p) c p q = S3 m b (qOwn b c p) p q := by
  rw [hb]; unfold Tot hOwn; rw [if_pos ⟨h1, h2⟩]

/-- a row of the other half the total formed on the stage-0 partner's side. -/
theorem Tot_other (m : (ℓ : Loc nD τ sig) → Buf (Elt F) ℓ) (b : Fin 3) (c : Dev nD) (p q : ℕ) (hb : bOf p = b) (hn : ¬ (K0 b c ≤ p ∧ p < K0 b c + Hh b)) :
    Tot m (bOf p) c p q = S3 m b (qOwn b (Mesh.px (mask b 0) c) p) p q := by
  rw [hb]; unfold Tot hOwn; rw [if_neg hn]

theorem c9a (c : Dev nD) : (k0_off9 c 0#32 3#32 1#32) 1 = 0 := by rw [Mesh.off9_a]; rfl
theorem c9b (c : Dev nD) : (k0_off9 c 384#32 4#32 3#32) 1 = 0 := by rw [Mesh.off9_b]; rfl
theorem c10 (c : Dev nD) : (k0_off10 c) 1 = 0 := by rw [Mesh.off10]; rfl
theorem c11a (c : Dev nD) : (k0_off11 c 0#32 3#32 1#32) 1 = 0 := by rw [Mesh.off11_a]; rfl
theorem c11b (c : Dev nD) : (k0_off11 c 384#32 4#32 3#32) 1 = 0 := by rw [Mesh.off11_b]; rfl
theorem c12 (c : Dev nD) : (k0_off12 c) 1 = 0 := by rw [Mesh.off12]; rfl

end AGEnd

open AGEnd

namespace AGEnd

/-- What a departure of the gather returns, spelt out. -/
theorem agSend00 (c : Dev nD) : (agSendPay (F := F) 0 0 c : sProp 𝕄) = iprop(∃ f, (aRows00 c).view.loc (c : Thread nD τ) ↦[(aRows00 c).view.set]{fullShare.right.left} f) := rfl
theorem agSend01 (c : Dev nD) : (agSendPay (F := F) 0 1 c : sProp 𝕄) = iprop(∃ f, (aRows01 c).view.loc (c : Thread nD τ) ↦[(aRows01 c).view.set]{fullShare.left} f) := rfl
theorem agSend10 (c : Dev nD) : (agSendPay (F := F) 1 0 c : sProp 𝕄) = iprop(∃ f, (aRows10 c).view.loc (c : Thread nD τ) ↦[(aRows10 c).view.set]{fullShare.right.left} f) := rfl
theorem agSend11 (c : Dev nD) : (agSendPay (F := F) 1 1 c : sProp 𝕄) = iprop(∃ f, (aRows11 c).view.loc (c : Thread nD τ) ↦[(aRows11 c).view.set]{fullShare.left} f) := rfl
theorem agSend20 (c : Dev nD) : (agSendPay (F := F) 2 0 c : sProp 𝕄) = iprop(∃ f, (aRows20 c).view.loc (c : Thread nD τ) ↦[(aRows20 c).view.set]{fullShare.right.left} f) := rfl
theorem agSend21 (c : Dev nD) : (agSendPay (F := F) 2 1 c : sProp 𝕄) = iprop(∃ f, (aRows21 c).view.loc (c : Thread nD τ) ↦[(aRows21 c).view.set]{fullShare.left} f) := rfl

/-- A region that splits in two: its two lent shares and the two parts' left shares make the two parts whole. -/
theorem quarters_back {ℓ : Loc nD τ sig} {Ih Iq Ip : Finset (Idx ℓ)}
    (hsplit : ∀ f : Buf (Elt F) ℓ, ((ℓ ↦[Ih]{fullShare.right} f) : sProp 𝕄) ⊢ iprop((ℓ ↦[Iq]{fullShare.right} f) ∗ (ℓ ↦[Ip]{fullShare.right} f)))
    (h0 gr0 q0 fl0 : Buf (Elt F) ℓ) :
    iprop((ℓ ↦[Ih]{fullShare.right.left} h0) ∗ (ℓ ↦[Ih]{fullShare.right.right} gr0) ∗ (ℓ ↦[Iq]{fullShare.left} q0) ∗ (ℓ ↦[Ip]{fullShare.left} fl0))
      ⊢ (iprop((ℓ ↦[Iq]{fullShare} q0) ∗ (ℓ ↦[Ip]{fullShare} fl0)) : sProp 𝕄) := by
  iintro ⟨A, B, C, D⟩
  ihave H := (Mem.pt_share_join (F := F) (ℓ := ℓ) (I := Ih) Mem.share_rlr h0 gr0) $$ [A B]
  · isplitl [A] <;> iassumption
  ihave H := (hsplit h0) $$ H
  icases H with ⟨Qr, Pr⟩
  isplitl [C Qr]
  · iapply (Mem.pt_share_join (F := F) (ℓ := ℓ) (I := Iq) Mem.share_lr q0 h0); isplitl [C] <;> iassumption
  · iapply (Mem.pt_share_join (F := F) (ℓ := ℓ) (I := Ip) Mem.share_lr fl0 h0); isplitl [D] <;> iassumption

/-- The nine regions, each whole, are the gather buffer at some contents. -/
theorem nine_back (c : Dev nD) (f1 f2 f3 f4 f5 f6 f7 f8 f9 : Buf (Elt F) ((c : Thread nD τ).loc cc0_scratch2)) :
    iprop(((aRows01 c).view.loc (c : Thread nD τ) ↦[(aRows01 c).view.set]{fullShare} f1)
        ∗ ((aRows11 c).view.loc (c : Thread nD τ) ↦[(aRows11 c).view.set]{fullShare} f2)
        ∗ ((aRows21 c).view.loc (c : Thread nD τ) ↦[(aRows21 c).view.set]{fullShare} f3)
        ∗ ((aRows01 (Mesh.px 1 c)).view.loc (c : Thread nD τ) ↦[(aRows01 (Mesh.px 1 c)).view.set]{fullShare} f4)
        ∗ ((aRows11 (Mesh.px 3 c)).view.loc (c : Thread nD τ) ↦[(aRows11 (Mesh.px 3 c)).view.set]{fullShare} f5)
        ∗ ((aRows21 (Mesh.px 4 c)).view.loc (c : Thread nD τ) ↦[(aRows21 (Mesh.px 4 c)).view.set]{fullShare} f6)
        ∗ ((aRows00 (Mesh.px 3 c)).view.loc (c : Thread nD τ) ↦[(aRows00 (Mesh.px 3 c)).view.set]{fullShare} f7)
        ∗ ((aRows10 (Mesh.px 4 c)).view.loc (c : Thread nD τ) ↦[(aRows10 (Mesh.px 4 c)).view.set]{fullShare} f8)
        ∗ ((aRows20 (Mesh.px 1 c)).view.loc (c : Thread nD τ) ↦[(aRows20 (Mesh.px 1 c)).view.set]{fullShare} f9))
      ⊢ (iprop(∃ f : Buf (Elt F) ((aM : Memref sig .tc .vmem S1024x1024 .bf16).view.loc (c : Thread nD τ)), ((aM : Memref sig .tc .vmem S1024x1024 .bf16).view.loc (c : Thread nD τ)) ↦{fullShare} f) : sProp 𝕄) :=
  Mem.abuf_join c fullShare f1 f2 f3 f4 f5 f6 f7 f8 f9

end AGEnd

/-- The result buffer after the six stores: every row holds its butterfly's total as it came over the wire. -/
theorem out_final (m : (ℓ : Loc nD τ sig) → Buf (Elt F) ℓ) (c : Dev nD) (fo : Buf (Elt F) ((oM : Memref sig .tc .vmem S1024x1024 .f32).view.loc (c : Thread nD τ)))
    (V0 V1 Z0 Z1 : S192x1024.Idx → F .bf16) (V2 Z2 : S128x1024.Idx → F .bf16)
    (hV0 : ∀ (r q : ℕ) (hr : r < 192) (hq : q < 1024), V0 (ix2 ⟨r, hr⟩ ⟨q, hq⟩) = tr (S3 m 0 (qOwn 0 c (K0 0 c + r)) (K0 0 c + r) q))
    (hV1 : ∀ (r q : ℕ) (hr : r < 192) (hq : q < 1024), V1 (ix2 ⟨r, hr⟩ ⟨q, hq⟩) = tr (S3 m 1 (qOwn 1 c (K0 1 c + r)) (K0 1 c + r) q))
    (hV2 : ∀ (r q : ℕ) (hr : r < 128) (hq : q < 1024), V2 (ix2 ⟨r, hr⟩ ⟨q, hq⟩) = tr (S3 m 2 (qOwn 2 c (K0 2 c + r)) (K0 2 c + r) q))
    (hZ0 : ∀ (r q : ℕ) (hr : r < 192) (hq : q < 1024), Z0 (ix2 ⟨r, hr⟩ ⟨q, hq⟩) = tr (S3 m 0 (qOwn 0 (Mesh.px 3 c) (K0 0 (Mesh.px 3 c) + r)) (K0 0 (Mesh.px 3 c) + r) q))
    (hZ1 : ∀ (r q : ℕ) (hr : r < 192) (hq : q < 1024), Z1 (ix2 ⟨r, hr⟩ ⟨q, hq⟩) = tr (S3 m 1 (qOwn 1 (Mesh.px 4 c) (K0 1 (Mesh.px 4 c) + r)) (K0 1 (Mesh.px 4 c) + r) q))
    (hZ2 : ∀ (r q : ℕ) (hr : r < 128) (hq : q < 1024), Z2 (ix2 ⟨r, hr⟩ ⟨q, hq⟩) = tr (S3 m 2 (qOwn 2 (Mesh.px 1 c) (K0 2 (Mesh.px 1 c) + r)) (K0 2 (Mesh.px 1 c) + r) q)) :
    (oM : Memref sig .tc .vmem S1024x1024 .f32).view.writes (Elt F) fo
      [⟨Rect.unit (s := S1024x1024) (k0_off12 c) S128x1024.size (k0_off12_inb c), k0_pay39 Z2⟩,
        ⟨Rect.unit (s := S1024x1024) (k0_off11 c 384#32 4#32 3#32) S192x1024.size (k0_off11_inb c 1), k0_pay38 Z1⟩,
        ⟨Rect.unit (s := S1024x1024) (k0_off11 c 0#32 3#32 1#32) S192x1024.size (k0_off11_inb c 0), k0_pay37 Z0⟩,
        ⟨Rect.unit (s := S1024x1024) (k0_off10 c) S128x1024.size (k0_off10_inb c), k0_pay36 V2⟩,
        ⟨Rect.unit (s := S1024x1024) (k0_off9 c 384#32 4#32 3#32) S192x1024.size (k0_off9_inb c 1), k0_pay35 V1⟩,
        ⟨Rect.unit (s := S1024x1024) (k0_off9 c 0#32 3#32 1#32) S192x1024.size (k0_off9_inb c 0), k0_pay34 V0⟩]
      = outFin m c := by
  funext i
  refine (at_eq_oAt _ i).trans ?_
  show _ = wire (Tot m (bOf (i 0).val) c (i 0).val (i 1).val)
  have hp : (i 0).val < 1024 := (i 0).isLt
  have hq : (i 1).val < 1024 := (i 1).isLt
  generalize (i 0).val = p at hp ⊢
  generalize (i 1).val = q at hq ⊢
  have A0 : (k0_off9 c 0#32 3#32 1#32) 0 = K0 0 c := (congrFun (Rows.ag0_read_b0 c) 0).trans (Mem.hRow_eq_K0 0 c)
  have A1 : (k0_off9 c 384#32 4#32 3#32) 0 = K0 1 c := (congrFun (Rows.ag0_read_b1 c) 0).trans (Mem.hRow_eq_K0 1 c)
  have A2 : (k0_off10 c) 0 = K0 2 c := (congrFun (Rows.ag0_read_b2 c) 0).trans (Mem.hRow_eq_K0 2 c)
  have B0 : (k0_off11 c 0#32 3#32 1#32) 0 = K0 0 (Mesh.px 3 c) := (congrFun (Rows.ag0_recv_b0 c) 0).trans (Mem.hRow_eq_K0 0 (Mesh.px 3 c))
  have B1 : (k0_off11 c 384#32 4#32 3#32) 0 = K0 1 (Mesh.px 4 c) := (congrFun (Rows.ag0_recv_b1 c) 0).trans (Mem.hRow_eq_K0 1 (Mesh.px 4 c))
  have B2 : (k0_off12 c) 0 = K0 2 (Mesh.px 1 c) := (congrFun (Rows.ag0_recv_b2 c) 0).trans (Mem.hRow_eq_K0 2 (Mesh.px 1 c))
  obtain ⟨hH0, -, hH1, -, hH2, -⟩ := Mem.rows_all c
  rw [Mem.hRow_eq_K0, Mem.hRow_eq_K0] at hH0 hH1 hH2
  by_cases h0 : K0 0 c ≤ p ∧ p < K0 0 c + 192
  · -- a row of the own half of butterfly 0
    refine (oAt_writes_miss (k0_off12 c) (k0_off12_inb c) fo _ _ p q hp (by rw [B2]; omega)).trans ?_
    refine (oAt_writes_miss (k0_off11 c 384#32 4#32 3#32) (k0_off11_inb c 1) fo _ _ p q hp (by rw [B1]; omega)).trans ?_
    refine (oAt_writes_miss (k0_off11 c 0#32 3#32 1#32) (k0_off11_inb c 0) fo _ _ p q hp (by rw [B0]; omega)).trans ?_
    refine (oAt_writes_miss (k0_off10 c) (k0_off10_inb c) fo _ _ p q hp (by rw [A2]; omega)).trans ?_
    refine (oAt_writes_miss (k0_off9 c 384#32 4#32 3#32) (k0_off9_inb c 1) fo _ _ p q hp (by rw [A1]; omega)).trans ?_
    refine (oAt_writes_hit (k0_off9 c 0#32 3#32 1#32) (k0_off9_inb c 0) (c9a c) fo _ [] p q (by rw [A0]; exact h0.1) (by rw [A0]; exact h0.2) hq).trans ?_
    have hr : p - (k0_off9 c 0#32 3#32 1#32) 0 < 192 := by rw [A0]; omega
    have hrow : K0 0 c + (p - (k0_off9 c 0#32 3#32 1#32) 0) = p := by rw [A0]; omega
    refine ((Mem.pay34_apply V0 _).trans (congrArg (FloatOps.extf .f32 bitsLt_bf16_f32) (hV0 _ q hr hq))).trans ?_
    rw [hrow, Tot_own m 0 c p q (if_pos (by omega)) h0.1 h0.2]
    rfl
  by_cases h1 : K0 1 c ≤ p ∧ p < K0 1 c + 192
  · -- a row of the own half of butterfly 1
    refine (oAt_writes_miss (k0_off12 c) (k0_off12_inb c) fo _ _ p q hp (by rw [B2]; omega)).trans ?_
    refine (oAt_writes_miss (k0_off11 c 384#32 4#32 3#32) (k0_off11_inb c 1) fo _ _ p q hp (by rw [B1]; omega)).trans ?_
    refine (oAt_writes_miss (k0_off11 c 0#32 3#32 1#32) (k0_off11_inb c 0) fo _ _ p q hp (by rw [B0]; omega)).trans ?_
    refine (oAt_writes_miss (k0_off10 c) (k0_off10_inb c) fo _ _ p q hp (by rw [A2]; omega)).trans ?_
    refine (oAt_writes_hit (k0_off9 c 384#32 4#32 3#32) (k0_off9_inb c 1) (c9b c) fo _ _ p q (by rw [A1]; exact h1.1) (by rw [A1]; exact h1.2) hq).trans ?_
    have hr : p - (k0_off9 c 384#32 4#32 3#32) 0 < 192 := by rw [A1]; omega
    have hrow : K0 1 c + (p - (k0_off9 c 384#32 4#32 3#32) 0) = p := by rw [A1]; omega
    refine ((Mem.pay35_apply V1 _).trans (congrArg (FloatOps.extf .f32 bitsLt_bf16_f32) (hV1 _ q hr hq))).trans ?_
    rw [hrow, Tot_own m 1 c p q (by unfold bOf; rw [if_neg (by omega), if_pos (by omega)]) h1.1 h1.2]
    rfl
  by_cases h2 : K0 2 c ≤ p ∧ p < K0 2 c + 128
  · -- a row of the own half of butterfly 2
    refine (oAt_writes_miss (k0_off12 c) (k0_off12_inb c) fo _ _ p q hp (by rw [B2]; omega)).trans ?_
    refine (oAt_writes_miss (k0_off11 c 384#32 4#32 3#32) (k0_off11_inb c 1) fo _ _ p q hp (by rw [B1]; omega)).trans ?_
    refine (oAt_writes_miss (k0_off11 c 0#32 3#32 1#32) (k0_off11_inb c 0) fo _ _ p q hp (by rw [B0]; omega)).trans ?_
    refine (oAt_writes_hit (k0_off10 c) (k0_off10_inb c) (c10 c) fo _ _ p q (by rw [A2]; exact h2.1) (by rw [A2]; exact h2.2) hq).trans ?_
    have hr : p - (k0_off10 c) 0 < 128 := by rw [A2]; omega
    have hrow : K0 2 c + (p - (k0_off10 c) 0) = p := by rw [A2]; omega
    refine ((Mem.pay36_apply V2 _).trans (congrArg (FloatOps.extf .f32 bitsLt_bf16_f32) (hV2 _ q hr hq))).trans ?_
    rw [hrow, Tot_own m 2 c p q (by unfold bOf; rw [if_neg (by omega), if_neg (by omega)]) h2.1 h2.2]
    rfl
  by_cases h3 : K0 0 (Mesh.px 3 c) ≤ p ∧ p < K0 0 (Mesh.px 3 c) + 192
  · -- a row of the other half of butterfly 0
    refine (oAt_writes_miss (k0_off12 c) (k0_off12_inb c) fo _ _ p q hp (by rw [B2]; omega)).trans ?_
    refine (oAt_writes_miss (k0_off11 c 384#32 4#32 3#32) (k0_off11_inb c 1) fo _ _ p q hp (by rw [B1]; omega)).trans ?_
    refine (oAt_writes_hit (k0_off11 c 0#32 3#32 1#32) (k0_off11_inb c 0) (c11a c) fo _ _ p q (by rw [B0]; exact h3.1) (by rw [B0]; exact h3.2) hq).trans ?_
    have hr : p - (k0_off11 c 0#32 3#32 1#32) 0 < 192 := by rw [B0]; omega
    have hrow : K0 0 (Mesh.px 3 c) + (p - (k0_off11 c 0#32 3#32 1#32) 0) = p := by rw [B0]; omega
    refine ((Mem.pay37_apply Z0 _).trans (congrArg (FloatOps.extf .f32 bitsLt_bf16_f32) (hZ0 _ q hr hq))).trans ?_
    rw [hrow, Tot_other m 0 c p q (if_pos (by omega)) h0]
    rfl
  by_cases h4 : K0 1 (Mesh.px 4 c) ≤ p ∧ p < K0 1 (Mesh.px 4 c) + 192
  · -- a row of the other half of butterfly 1
    refine (oAt_writes_miss (k0_off12 c) (k0_off12_inb c) fo _ _ p q hp (by rw [B2]; omega)).trans ?_
    refine (oAt_writes_hit (k0_off11 c 384#32 4#32 3#32) (k0_off11_inb c 1) (c11b c) fo _ _ p q (by rw [B1]; exact h4.1) (by rw [B1]; exact h4.2) hq).trans ?_
    have hr : p - (k0_off11 c 384#32 4#32 3#32) 0 < 192 := by rw [B1]; omega
    have hrow : K0 1 (Mesh.px 4 c) + (p - (k0_off11 c 384#32 4#32 3#32) 0) = p := by rw [B1]; omega
    refine ((Mem.pay38_apply Z1 _).trans (congrArg (FloatOps.extf .f32 bitsLt_bf16_f32) (hZ1 _ q hr hq))).trans ?_
    rw [hrow, Tot_other m 1 c p q (by unfold bOf; rw [if_neg (by omega), if_pos (by omega)]) h1]
    rfl
  · -- what is left: a row of the other half of butterfly 2
    have h5 : K0 2 (Mesh.px 1 c) ≤ p ∧ p < K0 2 (Mesh.px 1 c) + 128 := by omega
    refine (oAt_writes_hit (k0_off12 c) (k0_off12_inb c) (c12 c) fo _ _ p q (by rw [B2]; exact h5.1) (by rw [B2]; exact h5.2) hq).trans ?_
    have hr : p - (k0_off12 c) 0 < 128 := by rw [B2]; omega
    have hrow : K0 2 (Mesh.px 1 c) + (p - (k0_off12 c) 0) = p := by rw [B2]; omega
    refine ((Mem.pay39_apply Z2 _).trans (congrArg (FloatOps.extf .f32 bitsLt_bf16_f32) (hZ2 _ q hr hq))).trans ?_
    rw [hrow, Tot_other m 2 c p q (by unfold bOf; rw [if_neg (by omega), if_neg (by omega)]) h2]
    rfl

/-- The gather buffer comes back whole: what the device still holds of its nine regions, and the shares its six departures return. -/
theorem abuf_back (c : Dev nD) (fl0 fl1 fl2 gr0 gr1 gr2 fz0 fz1 fz2 : Buf (Elt F) ((c : Thread nD τ).loc cc0_scratch2)) :
    iprop(((aRows01 (Mesh.px 1 c)).view.loc (c : Thread nD τ) ↦[(aRows01 (Mesh.px 1 c)).view.set]{fullShare.left} fl0)
        ∗ ((aRows11 (Mesh.px 3 c)).view.loc (c : Thread nD τ) ↦[(aRows11 (Mesh.px 3 c)).view.set]{fullShare.left} fl1)
        ∗ ((aRows21 (Mesh.px 4 c)).view.loc (c : Thread nD τ) ↦[(aRows21 (Mesh.px 4 c)).view.set]{fullShare.left} fl2)
        ∗ ((aRows00 c).view.loc (c : Thread nD τ) ↦[(aRows00 c).view.set]{fullShare.right.right} gr0)
        ∗ ((aRows10 c).view.loc (c : Thread nD τ) ↦[(aRows10 c).view.set]{fullShare.right.right} gr1)
        ∗ ((aRows20 c).view.loc (c : Thread nD τ) ↦[(aRows20 c).view.set]{fullShare.right.right} gr2)
        ∗ ((aRows00 (Mesh.px 3 c)).view.loc (c : Thread nD τ) ↦[(aRows00 (Mesh.px 3 c)).view.set]{fullShare} fz0)
        ∗ ((aRows10 (Mesh.px 4 c)).view.loc (c : Thread nD τ) ↦[(aRows10 (Mesh.px 4 c)).view.set]{fullShare} fz1)
        ∗ ((aRows20 (Mesh.px 1 c)).view.loc (c : Thread nD τ) ↦[(aRows20 (Mesh.px 1 c)).view.set]{fullShare} fz2))
      ⊢ (Cuts.abufBack c : sProp 𝕄) := by
  unfold Cuts.abufBack
  rw [agSend00, agSend01, agSend10, agSend11, agSend20, agSend21]
  iintro ⟨L0, L1, L2, G0, G1, G2, Z0, Z1, Z2⟩
  iintro ⟨⟨%h0, S00⟩, ⟨%q0, S01⟩, ⟨%h1, S10⟩, ⟨%q1, S11⟩, ⟨%h2, S20⟩, ⟨%q2, S21⟩⟩
  -- per butterfly: the kept half is the own quarter and the landed quarter
  ihave B0 := (quarters_back (F := F) (ℓ := (c : Thread nD τ).loc cc0_scratch2) (Ih := (aRows00 c).view.set) (Iq := (aRows01 c).view.set) (Ip := (aRows01 (Mesh.px 1 c)).view.set)
      (fun f => (Mem.aHalf_split_b0 c fullShare.right f).1) h0 gr0 q0 fl0) $$ [S00 G0 S01 L0]
  · isplitl [S00]; · iexact S00
    isplitl [G0]; · iexact G0
    isplitl [S01]; · iexact S01
    iexact L0
  icases B0 with ⟨Q0, P0⟩
  ihave B1 := (quarters_back (F := F) (ℓ := (c : Thread nD τ).loc cc0_scratch2) (Ih := (aRows10 c).view.set) (Iq := (aRows11 c).view.set) (Ip := (aRows11 (Mesh.px 3 c)).view.set)
      (fun f => (Mem.aHalf_split_b1 c fullShare.right f).1) h1 gr1 q1 fl1) $$ [S10 G1 S11 L1]
  · isplitl [S10]; · iexact S10
    isplitl [G1]; · iexact G1
    isplitl [S11]; · iexact S11
    iexact L1
  icases B1 with ⟨Q1, P1⟩
  ihave B2 := (quarters_back (F := F) (ℓ := (c : Thread nD τ).loc cc0_scratch2) (Ih := (aRows20 c).view.set) (Iq := (aRows21 c).view.set) (Ip := (aRows21 (Mesh.px 4 c)).view.set)
      (fun f => (Mem.aHalf_split_b2 c fullShare.right f).1) h2 gr2 q2 fl2) $$ [S20 G2 S21 L2]
  · isplitl [S20]; · iexact S20
    isplitl [G2]; · iexact G2
    isplitl [S21]; · iexact S21
    iexact L2
  icases B2 with ⟨Q2, P2⟩
  -- the nine regions, each whole again, are the buffer
  iapply (nine_back c q0 q1 q2 fl0 fl1 fl2 fz0 fz1 fz2)
  isplitl [Q0]; · iexact Q0
  isplitl [Q1]; · iexact Q1
  isplitl [Q2]; · iexact Q2
  isplitl [P0]; · iexact P0
  isplitl [P1]; · iexact P1
  isplitl [P2]; · iexact P2
  isplitl [Z0]; · iexact Z0
  isplitl [Z1]; · iexact Z1
  iexact Z2

/-- Part 18: the three own quarters leave for the stage-1 partners (the left half of each quarter's share lent), and the
    first partner's quarter arrives. -/
theorem ag_part18 (m : (ℓ : Loc nD τ sig) → Buf (Elt F) ℓ) (K : Dev nD × CIx → ℕ) (c : Dev nD) (W : Waits sig Unit)
    (v2 : BitVec 32) (v257 : BitVec 1) (v505 : BitVec 32) {α : Type}
    (kk : (Σ' (v514 : BitVec 32) (v523 : BitVec 32), BitVec 32) → Prog (TpuEff nD τ sig (Elt F) Λ₀ .tc) α) (Q : α → sProp 𝕄)
    (fq0 : Buf (Elt F) ((aRows01 c).view.loc (c : Thread nD τ))) (fq1 : Buf (Elt F) ((aRows11 c).view.loc (c : Thread nD τ))) (fq2 : Buf (Elt F) ((aRows21 c).view.loc (c : Thread nD τ)))
    (fp0 : Buf (Elt F) ((aRows01 c).view.loc ((Mesh.px 1 c) : Thread nD τ))) (fp1 : Buf (Elt F) ((aRows11 c).view.loc ((Mesh.px 3 c) : Thread nD τ))) (fp2 : Buf (Elt F) ((aRows21 c).view.loc ((Mesh.px 4 c) : Thread nD τ)))
    (hq0 : ∀ r q : ℕ, r < 96 → q < 1024 → aAt fq0 (K1 0 c + r) q = tr (S3 m 0 c (K1 0 c + r) q))
    (hq1 : ∀ r q : ℕ, r < 96 → q < 1024 → aAt fq1 (K1 1 c + r) q = tr (S3 m 1 c (K1 1 c + r) q))
    (hq2 : ∀ r q : ℕ, r < 64 → q < 1024 → aAt fq2 (K1 2 c + r) q = tr (S3 m 2 c (K1 2 c + r) q)) :
    iprop(records m K ∗ levAts L lv ∗ owes (c : Thread nD τ) (Orem c 13) W
        ∗ dutyTok ER (dcell 2 0 1 c) 0 (0 : Fin 4) ∗ dutyTok ER (dcell 2 1 1 c) 0 (0 : Fin 4) ∗ dutyTok ER (dcell 2 2 1 c) 0 (0 : Fin 4)
        ∗ dutyTok ER (dcell 3 0 1 (Mesh.px 1 c)) 0 (0 : Fin 4) ∗ dutyTok ER (dcell 3 1 1 (Mesh.px 3 c)) 0 (0 : Fin 4) ∗ dutyTok ER (dcell 3 2 1 (Mesh.px 4 c)) 0 (0 : Fin 4)
        ∗ ((aRows01 c).view.loc (c : Thread nD τ) ↦[(aRows01 c).view.set]{fullShare} fq0)
        ∗ ((aRows11 c).view.loc (c : Thread nD τ) ↦[(aRows11 c).view.set]{fullShare} fq1)
        ∗ ((aRows21 c).view.loc (c : Thread nD τ) ↦[(aRows21 c).view.set]{fullShare} fq2)
        ∗ ((aRows01 c).view.loc ((Mesh.px 1 c) : Thread nD τ) ↦[(aRows01 c).view.set]{fullShare} fp0)
        ∗ ((aRows11 c).view.loc ((Mesh.px 3 c) : Thread nD τ) ↦[(aRows11 c).view.set]{fullShare} fp1)
        ∗ ((aRows21 c).view.loc ((Mesh.px 4 c) : Thread nD τ) ↦[(aRows21 c).view.set]{fullShare} fp2)
        ∗ cred (tallyAt (dcell 3 0 1 c) () (namt 3 0 1)) ∗ atPos ER (dcell 3 0 1 c) 0 ∅ 0
        ∗ (∀ r, iprop(cred (tallyAt (dcell 2 0 1 c) () (namt 2 0 1)) ∗ cred (tallyAt (dcell 2 1 1 c) () (namt 2 1 1)) ∗ cred (tallyAt (dcell 2 2 1 c) () (namt 2 2 1))
            ∗ ((aRows01 c).view.loc (c : Thread nD τ) ↦[(aRows01 c).view.set]{fullShare.right} fq0)
            ∗ ((aRows11 c).view.loc (c : Thread nD τ) ↦[(aRows11 c).view.set]{fullShare.right} fq1)
            ∗ ((aRows21 c).view.loc (c : Thread nD τ) ↦[(aRows21 c).view.set]{fullShare.right} fq2)
            ∗ owes (c : Thread nD τ) (Orem c 16) (insert (SemLoc.dma (dsem 3 0 1), ()) W)
            ∗ atPos ER (dcell 3 0 1 c) 1 ∅ 0 ∗ dpay m 3 0 1 c)
          -∗ wp frame (wpE (defs₀ (F := F)) 𝒱₀ (c : Thread nD τ) none) Set.univ (kk r) Q))
      ⊢ wp frame (wpE (defs₀ (F := F)) 𝒱₀ (c : Thread nD τ) none) Set.univ (k0_part18 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v257 v505 >>= kk) Q := by
  iintro ⟨#Hrec, #Hlev, HO, Tg01, Tg11, Tg21, Ta01, Ta11, Ta21, AQ0, AQ1, AQ2, AP0, AP1, AP2, Ca01, P301, Hk⟩
  sl_unfold [k0_part18]
  sl_exec
  -- stage 1, butterfly 0: the own quarter goes to c xor 1; the left half of its share is lent
  ihave AQs := (pointsTo_share (ℓ := (aRows01 c).view.loc (c : Thread nD τ)) (I := (aRows01 c).view.set) (f := fq0) Mem.share_lr).1 $$ AQ0
  icases AQs with ⟨AQ0l, AQ0r⟩
  ihave #HIs := (ag_inv_d m K 2 0 1 c) $$ Hrec
  ihave #HIr := (ag_inv_d m K 3 0 1 (Mesh.px 1 c)) $$ Hrec
  ihave #HRs := (ag_reached_d m K 2 0 1 c) $$ Hrec
  ihave #HRr := (ag_reached_d m K 3 0 1 (Mesh.px 1 c)) $$ Hrec
  iapply (wp_send_at m c (Mesh.px 1 c) _ (Mesh.dev14_eq c) 2 3 0 1 (Or.inr (by decide)) (Or.inr (by decide))
      (src := aRows01 c) (dst := aRows01 c) (q := fullShare.left) (fs := fq0) (fd := fp0)
      (κ₁ := K (c, some (2, 0, 1))) (κ₂ := K (Mesh.px 1 c, some (3, 0, 1)))
      (Tables.credit_a01 c) (Tables.namt_2_eq_3 0 1) (Orem c 14) (Orem_lt c 13 (by decide))
      (ag_pay_s1_b0 m c fq0) (ag_pay_r1_b0 m c fq0 fp0 hq0)) $$ [HO Tg01 Ta01 AQ0l AP0]
  · isplitr; · iexact HIs
    isplitr; · iexact HIr
    isplitl [AQ0l]; · iexact AQ0l
    isplitl [AP0]; · iexact AP0
    isplitl [HO]; · iexact HO
    isplitl [Tg01]; · iexact Tg01
    isplitr; · iexact HRs
    isplitl [Ta01]; · iexact Ta01
    iexact HRr
  iintro ⟨Cg01, HO⟩
  iclear HIs HIr HRs HRr
  sl_exec
  -- stage 1, butterfly 1: the own quarter goes to c xor 3; the left half of its share is lent
  ihave AQs := (pointsTo_share (ℓ := (aRows11 c).view.loc (c : Thread nD τ)) (I := (aRows11 c).view.set) (f := fq1) Mem.share_lr).1 $$ AQ1
  icases AQs with ⟨AQ1l, AQ1r⟩
  ihave #HIs := (ag_inv_d m K 2 1 1 c) $$ Hrec
  ihave #HIr := (ag_inv_d m K 3 1 1 (Mesh.px 3 c)) $$ Hrec
  ihave #HRs := (ag_reached_d m K 2 1 1 c) $$ Hrec
  ihave #HRr := (ag_reached_d m K 3 1 1 (Mesh.px 3 c)) $$ Hrec
  iapply (wp_send_at m c (Mesh.px 3 c) _ (Mesh.dev15_eq c) 2 3 1 1 (Or.inr (by decide)) (Or.inr (by decide))
      (src := aRows11 c) (dst := aRows11 c) (q := fullShare.left) (fs := fq1) (fd := fp1)
      (κ₁ := K (c, some (2, 1, 1))) (κ₂ := K (Mesh.px 3 c, some (3, 1, 1)))
      (Tables.credit_a11 c) (Tables.namt_2_eq_3 1 1) (Orem c 15) (Orem_lt c 14 (by decide))
      (ag_pay_s1_b1 m c fq1) (ag_pay_r1_b1 m c fq1 fp1 hq1)) $$ [HO Tg11 Ta11 AQ1l AP1]
  · isplitr; · iexact HIs
    isplitr; · iexact HIr
    isplitl [AQ1l]; · iexact AQ1l
    isplitl [AP1]; · iexact AP1
    isplitl [HO]; · iexact HO
    isplitl [Tg11]; · iexact Tg11
    isplitr; · iexact HRs
    isplitl [Ta11]; · iexact Ta11
    iexact HRr
  iintro ⟨Cg11, HO⟩
  iclear HIs HIr HRs HRr
  sl_exec
  -- stage 1, butterfly 2: the own quarter goes to c xor 4; the left half of its share is lent
  ihave AQs := (pointsTo_share (ℓ := (aRows21 c).view.loc (c : Thread nD τ)) (I := (aRows21 c).view.set) (f := fq2) Mem.share_lr).1 $$ AQ2
  icases AQs with ⟨AQ2l, AQ2r⟩
  ihave #HIs := (ag_inv_d m K 2 2 1 c) $$ Hrec
  ihave #HIr := (ag_inv_d m K 3 2 1 (Mesh.px 4 c)) $$ Hrec
  ihave #HRs := (ag_reached_d m K 2 2 1 c) $$ Hrec
  ihave #HRr := (ag_reached_d m K 3 2 1 (Mesh.px 4 c)) $$ Hrec
  iapply (wp_send_at m c (Mesh.px 4 c) _ (Mesh.dev16_eq c) 2 3 2 1 (Or.inr (by decide)) (Or.inr (by decide))
      (src := aRows21 c) (dst := aRows21 c) (q := fullShare.left) (fs := fq2) (fd := fp2)
      (κ₁ := K (c, some (2, 2, 1))) (κ₂ := K (Mesh.px 4 c, some (3, 2, 1)))
      (Tables.credit_a21 c) (Tables.namt_2_eq_3 2 1) (Orem c 16) (Orem_lt c 15 (by decide))
      (ag_pay_s1_b2 m c fq2) (ag_pay_r1_b2 m c fq2 fp2 hq2)) $$ [HO Tg21 Ta21 AQ2l AP2]
  · isplitr; · iexact HIs
    isplitr; · iexact HIr
    isplitl [AQ2l]; · iexact AQ2l
    isplitl [AP2]; · iexact AP2
    isplitl [HO]; · iexact HO
    isplitl [Tg21]; · iexact Tg21
    isplitr; · iexact HRs
    isplitl [Ta21]; · iexact Ta21
    iexact HRr
  iintro ⟨Cg21, HO⟩
  iclear HIs HIr HRs HRr
  sl_exec
  -- the partner's quarter of butterfly 0 arrives
  ihave #HIw := (ag_inv_d m K 3 0 1 c) $$ Hrec
  iapply (Tables.wp_wait_dcell m 3 0 1 c (Or.inr (by decide)) (Tables.credit_a01 c)) $$ [Ca01 HO P301]
  · isplitr; · iexact HIw
    isplitl [Ca01]; · iexact Ca01
    isplitl [HO]; · iexact HO
    isplitr; · iapply (Tables.mayWait_ag1 0 c); iexact Hlev
    iexact P301
  iintro ⟨HO, P301, -, Hpay0⟩
  iclear HIw
  sl_exec
  iapply Hk $$ %_
  isplitl [Cg01]; · iexact Cg01
  isplitl [Cg11]; · iexact Cg11
  isplitl [Cg21]; · iexact Cg21
  isplitl [AQ0r]; · iexact AQ0r
  isplitl [AQ1r]; · iexact AQ1r
  isplitl [AQ2r]; · iexact AQ2r
  isplitl [HO]; · iexact HO
  isplitl [P301]; · iexact P301
  iexact Hpay0

/-- Part 19: the other two partners' quarters arrive, and butterfly 0's kept half leaves for the stage-0 partner. -/
theorem ag_part19 (m : (ℓ : Loc nD τ sig) → Buf (Elt F) ℓ) (K : Dev nD × CIx → ℕ) (c : Dev nD) (W : Waits sig Unit)
    (v2 : BitVec 32) (v278 v299 : BitVec 1) (v328 v347 v366 v514 v523 v538 : BitVec 32) {α : Type}
    (kk : (Σ' (v539 : BitVec 32) (v547 : BitVec 32) (v555 : BitVec 32) (v556 : BitVec 32), BitVec 32) → Prog (TpuEff nD τ sig (Elt F) Λ₀ .tc) α) (Q : α → sProp 𝕄)
    (fq0 : Buf (Elt F) ((aRows01 c).view.loc (c : Thread nD τ))) (fh0 : Buf (Elt F) ((aRows00 c).view.loc ((Mesh.px 3 c) : Thread nD τ)))
    (hq0 : ∀ r q : ℕ, r < 96 → q < 1024 → aAt fq0 (K1 0 c + r) q = tr (S3 m 0 c (K1 0 c + r) q)) :
    iprop(records m K ∗ levAts L lv ∗ owes (c : Thread nD τ) (Orem c 16) W
        ∗ cred (tallyAt (dcell 3 1 1 c) () (namt 3 1 1)) ∗ atPos ER (dcell 3 1 1 c) 0 ∅ 0
        ∗ cred (tallyAt (dcell 3 2 1 c) () (namt 3 2 1)) ∗ atPos ER (dcell 3 2 1 c) 0 ∅ 0
        ∗ ((aRows01 c).view.loc (c : Thread nD τ) ↦[(aRows01 c).view.set]{fullShare.right} fq0) ∗ dpay m 3 0 1 c
        ∗ dutyTok ER (dcell 2 0 0 c) 0 (0 : Fin 4) ∗ dutyTok ER (dcell 3 0 0 (Mesh.px 3 c)) 0 (0 : Fin 4)
        ∗ ((aRows00 c).view.loc ((Mesh.px 3 c) : Thread nD τ) ↦[(aRows00 c).view.set]{fullShare} fh0)
        ∗ (∀ r, iprop(atPos ER (dcell 3 1 1 c) 1 ∅ 0 ∗ atPos ER (dcell 3 2 1 c) 1 ∅ 0 ∗ dpay m 3 1 1 c ∗ dpay m 3 2 1 c
            ∗ owes (c : Thread nD τ) (Orem c 17) (insert (SemLoc.dma (dsem 3 2 1), ()) (insert (SemLoc.dma (dsem 3 1 1), ()) W))
            ∗ cred (tallyAt (dcell 2 0 0 c) () (namt 2 0 0))
            ∗ (∃ g, ((aRows00 c).view.loc (c : Thread nD τ) ↦[(aRows00 c).view.set]{fullShare.right.right} g) ∗ ⌜∀ r q : ℕ, r < 192 → q < 1024 → aAt g (K0 0 c + r) q = tr (S3 m 0 (qOwn 0 c (K0 0 c + r)) (K0 0 c + r) q)⌝)
            ∗ (∃ f, (aRows01 (Mesh.px 1 c)).view.loc (c : Thread nD τ) ↦[(aRows01 (Mesh.px 1 c)).view.set]{fullShare.left} f))
          -∗ wp frame (wpE (defs₀ (F := F)) 𝒱₀ (c : Thread nD τ) none) Set.univ (kk r) Q))
      ⊢ wp frame (wpE (defs₀ (F := F)) 𝒱₀ (c : Thread nD τ) none) Set.univ (k0_part19 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v278 v299 v328 v347 v366 v514 v523 v538 >>= kk) Q := by
  iintro ⟨#Hrec, #Hlev, HO, Ca11, P311, Ca21, P321, AQ0r, Hpay0, Tg00, Ta00, AH0, Hk⟩
  sl_unfold [k0_part19]
  sl_exec
  -- the partner's quarter of butterfly 1 arrives
  ihave #HIw := (ag_inv_d m K 3 1 1 c) $$ Hrec
  iapply (Tables.wp_wait_dcell m 3 1 1 c (Or.inr (by decide)) (Tables.credit_a11 c)) $$ [Ca11 HO P311]
  · isplitr; · iexact HIw
    isplitl [Ca11]; · iexact Ca11
    isplitl [HO]; · iexact HO
    isplitr; · iapply (Tables.mayWait_ag1 1 c); iexact Hlev
    iexact P311
  iintro ⟨HO, P311, -, Hpay1⟩
  iclear HIw
  sl_exec
  -- the partner's quarter of butterfly 2 arrives
  ihave #HIw := (ag_inv_d m K 3 2 1 c) $$ Hrec
  iapply (Tables.wp_wait_dcell m 3 2 1 c (Or.inr (by decide)) (Tables.credit_a21 c)) $$ [Ca21 HO P321]
  · isplitr; · iexact HIw
    isplitl [Ca21]; · iexact Ca21
    isplitl [HO]; · iexact HO
    isplitr; · iapply (Tables.mayWait_ag1 2 c); iexact Hlev
    iexact P321
  iintro ⟨HO, P321, -, Hpay2⟩
  iclear HIw
  sl_exec
  ihave Hp := (Entails.of_eq (ag_r1_open_b0 m c)) $$ Hpay0
  icases Hp with ⟨%fl0, AL0, %hl0⟩
  -- stage 0, butterfly 0: the kept half (own quarter and landed quarter) goes to c xor 3; the left half of the right share of each is lent
  ihave X1 := (pointsTo_share (ℓ := (aRows01 c).view.loc (c : Thread nD τ)) (I := (aRows01 c).view.set) (f := fq0) Mem.share_rlr).1 $$ AQ0r
  icases X1 with ⟨AQ0rl, AQ0rr⟩
  ihave X2 := (pointsTo_share (ℓ := (aRows01 (Mesh.px 1 c)).view.loc (c : Thread nD τ)) (I := (aRows01 (Mesh.px 1 c)).view.set) (f := fl0) Mem.share_lr).1 $$ AL0
  icases X2 with ⟨AL0l, AL0r⟩
  ihave X3 := (pointsTo_share (ℓ := (aRows01 (Mesh.px 1 c)).view.loc (c : Thread nD τ)) (I := (aRows01 (Mesh.px 1 c)).view.set) (f := fl0) Mem.share_rlr).1 $$ AL0r
  icases X3 with ⟨AL0rl, AL0rr⟩
  ihave X4 := (Mem.aHalf_merge_b0 c fullShare.right.left fq0 fl0) $$ [AQ0rl AL0rl]
  · isplitl [AQ0rl]; · iexact AQ0rl
    iexact AL0rl
  icases X4 with ⟨%gs0, AHs0, %hgs0⟩
  ihave #HIs := (ag_inv_d m K 2 0 0 c) $$ Hrec
  ihave #HIr := (ag_inv_d m K 3 0 0 (Mesh.px 3 c)) $$ Hrec
  ihave #HRs := (ag_reached_d m K 2 0 0 c) $$ Hrec
  ihave #HRr := (ag_reached_d m K 3 0 0 (Mesh.px 3 c)) $$ Hrec
  iapply (wp_send_at m c (Mesh.px 3 c) _ (Mesh.dev17_eq c) 2 3 0 0 (Or.inr (by decide)) (Or.inr (by decide))
      (src := aRows00 c) (dst := aRows00 c) (q := fullShare.right.left) (fs := gs0) (fd := fh0)
      (κ₁ := K (c, some (2, 0, 0))) (κ₂ := K (Mesh.px 3 c, some (3, 0, 0)))
      (Tables.credit_a00 c) (Tables.namt_2_eq_3 0 0) (Orem c 17) (Orem_lt c 16 (by decide))
      (ag_pay_s0_b0 m c gs0) (ag_pay_r0_b0 m c gs0 fq0 fl0 fh0 hq0 hl0 hgs0)) $$ [HO Tg00 Ta00 AHs0 AH0]
  · isplitr; · iexact HIs
    isplitr; · iexact HIr
    isplitl [AHs0]; · iexact AHs0
    isplitl [AH0]; · iexact AH0
    isplitl [HO]; · iexact HO
    isplitl [Tg00]; · iexact Tg00
    isplitr; · iexact HRs
    isplitl [Ta00]; · iexact Ta00
    iexact HRr
  iintro ⟨Cg00, HO⟩
  iclear HIs HIr HRs HRr
  ihave X5 := (Mem.aHalf_merge_b0 c fullShare.right.right fq0 fl0) $$ [AQ0rr AL0rr]
  · isplitl [AQ0rr]; · iexact AQ0rr
    iexact AL0rr
  icases X5 with ⟨%gr0, AHr0, %hgr0⟩
  have hvr0 := half_value_b0 m c gr0 fq0 fl0 hq0 hl0 hgr0
  sl_exec
  iapply Hk $$ %_
  isplitl [P311]; · iexact P311
  isplitl [P321]; · iexact P321
  isplitl [Hpay1]; · iexact Hpay1
  isplitl [Hpay2]; · iexact Hpay2
  isplitl [HO]; · iexact HO
  isplitl [Cg00]; · iexact Cg00
  isplitl [AHr0]
  · iexists gr0; isplitl [AHr0]; · iexact AHr0
    ipureintro; exact hvr0
  iexists fl0; iexact AL0l

/-- Part 20: the kept halves of butterflies 1 and 2 leave for their stage-0 partners, and the three kept halves are read
    back from the gather buffer, widened, and stored into the result. -/
theorem ag_part20 (m : (ℓ : Loc nD τ sig) → Buf (Elt F) ℓ) (K : Dev nD × CIx → ℕ) (c : Dev nD) (W : Waits sig Unit)
    (v2 v539 v547 v555 v565 : BitVec 32) {α : Type}
    (kk : BitVec 32 → Prog (TpuEff nD τ sig (Elt F) Λ₀ .tc) α) (Q : α → sProp 𝕄)
    (fq1 : Buf (Elt F) ((aRows11 c).view.loc (c : Thread nD τ))) (fq2 : Buf (Elt F) ((aRows21 c).view.loc (c : Thread nD τ))) (fh1 : Buf (Elt F) ((aRows10 c).view.loc ((Mesh.px 4 c) : Thread nD τ))) (fh2 : Buf (Elt F) ((aRows20 c).view.loc ((Mesh.px 1 c) : Thread nD τ)))
    (fo : Buf (Elt F) ((oM : Memref sig .tc .vmem S1024x1024 .f32).view.loc (c : Thread nD τ)))
    (hq1 : ∀ r q : ℕ, r < 96 → q < 1024 → aAt fq1 (K1 1 c + r) q = tr (S3 m 1 c (K1 1 c + r) q))
    (hq2 : ∀ r q : ℕ, r < 64 → q < 1024 → aAt fq2 (K1 2 c + r) q = tr (S3 m 2 c (K1 2 c + r) q)) :
    iprop(records m K ∗ levAts L lv ∗ owes (c : Thread nD τ) (Orem c 17) W
        ∗ ((aRows11 c).view.loc (c : Thread nD τ) ↦[(aRows11 c).view.set]{fullShare.right} fq1) ∗ dpay m 3 1 1 c
        ∗ dutyTok ER (dcell 2 1 0 c) 0 (0 : Fin 4) ∗ dutyTok ER (dcell 3 1 0 (Mesh.px 4 c)) 0 (0 : Fin 4)
        ∗ ((aRows10 c).view.loc ((Mesh.px 4 c) : Thread nD τ) ↦[(aRows10 c).view.set]{fullShare} fh1)
        ∗ ((aRows21 c).view.loc (c : Thread nD τ) ↦[(aRows21 c).view.set]{fullShare.right} fq2) ∗ dpay m 3 2 1 c
        ∗ dutyTok ER (dcell 2 2 0 c) 0 (0 : Fin 4) ∗ dutyTok ER (dcell 3 2 0 (Mesh.px 1 c)) 0 (0 : Fin 4)
        ∗ ((aRows20 c).view.loc ((Mesh.px 1 c) : Thread nD τ) ↦[(aRows20 c).view.set]{fullShare} fh2)
        ∗ (∃ g, ((aRows00 c).view.loc (c : Thread nD τ) ↦[(aRows00 c).view.set]{fullShare.right.right} g) ∗ ⌜∀ r q : ℕ, r < 192 → q < 1024 → aAt g (K0 0 c + r) q = tr (S3 m 0 (qOwn 0 c (K0 0 c + r)) (K0 0 c + r) q)⌝)
        ∗ (((oM : Memref sig .tc .vmem S1024x1024 .f32).view.loc (c : Thread nD τ)) ↦{fullShare} fo)
        ∗ (∀ r, iprop(owes (c : Thread nD τ) (Orem c 19) W
            ∗ cred (tallyAt (dcell 2 1 0 c) () (namt 2 1 0)) ∗ cred (tallyAt (dcell 2 2 0 c) () (namt 2 2 0))
            ∗ (∃ f, (aRows11 (Mesh.px 3 c)).view.loc (c : Thread nD τ) ↦[(aRows11 (Mesh.px 3 c)).view.set]{fullShare.left} f) ∗ (∃ f, (aRows21 (Mesh.px 4 c)).view.loc (c : Thread nD τ) ↦[(aRows21 (Mesh.px 4 c)).view.set]{fullShare.left} f)
            ∗ (∃ g, (aRows00 c).view.loc (c : Thread nD τ) ↦[(aRows00 c).view.set]{fullShare.right.right} g) ∗ (∃ g, (aRows10 c).view.loc (c : Thread nD τ) ↦[(aRows10 c).view.set]{fullShare.right.right} g) ∗ (∃ g, (aRows20 c).view.loc (c : Thread nD τ) ↦[(aRows20 c).view.set]{fullShare.right.right} g)
            ∗ (∃ (V0 V1 : S192x1024.Idx → F .bf16) (V2 : S128x1024.Idx → F .bf16),
                (((oM : Memref sig .tc .vmem S1024x1024 .f32).view.loc (c : Thread nD τ)) ↦{fullShare}
                  (oM : Memref sig .tc .vmem S1024x1024 .f32).view.writes (Elt F) fo
                    [⟨Rect.unit (s := S1024x1024) (k0_off10 c) S128x1024.size (k0_off10_inb c), k0_pay36 V2⟩, ⟨Rect.unit (s := S1024x1024) (k0_off9 c 384#32 4#32 3#32) S192x1024.size (k0_off9_inb c 1), k0_pay35 V1⟩, ⟨Rect.unit (s := S1024x1024) (k0_off9 c 0#32 3#32 1#32) S192x1024.size (k0_off9_inb c 0), k0_pay34 V0⟩])
                ∗ ⌜(∀ (r q : ℕ) (hr : r < 192) (hq : q < 1024), V0 (ix2 ⟨r, hr⟩ ⟨q, hq⟩) = tr (S3 m 0 (qOwn 0 c (K0 0 c + r)) (K0 0 c + r) q)) ∧ (∀ (r q : ℕ) (hr : r < 192) (hq : q < 1024), V1 (ix2 ⟨r, hr⟩ ⟨q, hq⟩) = tr (S3 m 1 (qOwn 1 c (K0 1 c + r)) (K0 1 c + r) q)) ∧ (∀ (r q : ℕ) (hr : r < 128) (hq : q < 1024), V2 (ix2 ⟨r, hr⟩ ⟨q, hq⟩) = tr (S3 m 2 (qOwn 2 c (K0 2 c + r)) (K0 2 c + r) q))⌝))
          -∗ wp frame (wpE (defs₀ (F := F)) 𝒱₀ (c : Thread nD τ) none) Set.univ (kk r) Q))
      ⊢ wp frame (wpE (defs₀ (F := F)) 𝒱₀ (c : Thread nD τ) none) Set.univ (k0_part20 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v539 v547 v555 v565 >>= kk) Q := by
  iintro ⟨#Hrec, #Hlev, HO, AQ1r, Hpay1, Tg10, Ta10, AH1, AQ2r, Hpay2, Tg20, Ta20, AH2, ⟨%gr0, AHr0, %hvr0⟩, Hout, Hk⟩
  have hinc_h0 : (aM.access (Rect.unit (s := S1024x1024) (k0_off9 c 0#32 3#32 1#32) S192x1024.size (k0_off9_inb c 0))).set ⊆ (aRows00 c).view.set := (Mem.aacc_h0 c).subset
  have hinc_h1 : (aM.access (Rect.unit (s := S1024x1024) (k0_off9 c 384#32 4#32 3#32) S192x1024.size (k0_off9_inb c 1))).set ⊆ (aRows10 c).view.set := (Mem.aacc_h1 c).subset
  have hinc_h2 : (aM.access (Rect.unit (s := S1024x1024) (k0_off10 c) S128x1024.size (k0_off10_inb c))).set ⊆ (aRows20 c).view.set := (Mem.aacc_h2 c).subset
  sl_unfold [k0_part20]
  sl_exec
  ihave Hp := (Entails.of_eq (ag_r1_open_b1 m c)) $$ Hpay1
  icases Hp with ⟨%fl1, AL1, %hl1⟩
  -- stage 0, butterfly 1: the kept half (own quarter and landed quarter) goes to c xor 4; the left half of the right share of each is lent
  ihave X1 := (pointsTo_share (ℓ := (aRows11 c).view.loc (c : Thread nD τ)) (I := (aRows11 c).view.set) (f := fq1) Mem.share_rlr).1 $$ AQ1r
  icases X1 with ⟨AQ1rl, AQ1rr⟩
  ihave X2 := (pointsTo_share (ℓ := (aRows11 (Mesh.px 3 c)).view.loc (c : Thread nD τ)) (I := (aRows11 (Mesh.px 3 c)).view.set) (f := fl1) Mem.share_lr).1 $$ AL1
  icases X2 with ⟨AL1l, AL1r⟩
  ihave X3 := (pointsTo_share (ℓ := (aRows11 (Mesh.px 3 c)).view.loc (c : Thread nD τ)) (I := (aRows11 (Mesh.px 3 c)).view.set) (f := fl1) Mem.share_rlr).1 $$ AL1r
  icases X3 with ⟨AL1rl, AL1rr⟩
  ihave X4 := (Mem.aHalf_merge_b1 c fullShare.right.left fq1 fl1) $$ [AQ1rl AL1rl]
  · isplitl [AQ1rl]; · iexact AQ1rl
    iexact AL1rl
  icases X4 with ⟨%gs1, AHs1, %hgs1⟩
  ihave #HIs := (ag_inv_d m K 2 1 0 c) $$ Hrec
  ihave #HIr := (ag_inv_d m K 3 1 0 (Mesh.px 4 c)) $$ Hrec
  ihave #HRs := (ag_reached_d m K 2 1 0 c) $$ Hrec
  ihave #HRr := (ag_reached_d m K 3 1 0 (Mesh.px 4 c)) $$ Hrec
  iapply (wp_send_at m c (Mesh.px 4 c) _ (Mesh.dev18_eq c) 2 3 1 0 (Or.inr (by decide)) (Or.inr (by decide))
      (src := aRows10 c) (dst := aRows10 c) (q := fullShare.right.left) (fs := gs1) (fd := fh1)
      (κ₁ := K (c, some (2, 1, 0))) (κ₂ := K (Mesh.px 4 c, some (3, 1, 0)))
      (Tables.credit_a10 c) (Tables.namt_2_eq_3 1 0) (Orem c 18) (Orem_lt c 17 (by decide))
      (ag_pay_s0_b1 m c gs1) (ag_pay_r0_b1 m c gs1 fq1 fl1 fh1 hq1 hl1 hgs1)) $$ [HO Tg10 Ta10 AHs1 AH1]
  · isplitr; · iexact HIs
    isplitr; · iexact HIr
    isplitl [AHs1]; · iexact AHs1
    isplitl [AH1]; · iexact AH1
    isplitl [HO]; · iexact HO
    isplitl [Tg10]; · iexact Tg10
    isplitr; · iexact HRs
    isplitl [Ta10]; · iexact Ta10
    iexact HRr
  iintro ⟨Cg10, HO⟩
  iclear HIs HIr HRs HRr
  ihave X5 := (Mem.aHalf_merge_b1 c fullShare.right.right fq1 fl1) $$ [AQ1rr AL1rr]
  · isplitl [AQ1rr]; · iexact AQ1rr
    iexact AL1rr
  icases X5 with ⟨%gr1, AHr1, %hgr1⟩
  have hvr1 := half_value_b1 m c gr1 fq1 fl1 hq1 hl1 hgr1
  sl_exec
  ihave Hp := (Entails.of_eq (ag_r1_open_b2 m c)) $$ Hpay2
  icases Hp with ⟨%fl2, AL2, %hl2⟩
  -- stage 0, butterfly 2: the kept half (own quarter and landed quarter) goes to c xor 1; the left half of the right share of each is lent
  ihave X1 := (pointsTo_share (ℓ := (aRows21 c).view.loc (c : Thread nD τ)) (I := (aRows21 c).view.set) (f := fq2) Mem.share_rlr).1 $$ AQ2r
  icases X1 with ⟨AQ2rl, AQ2rr⟩
  ihave X2 := (pointsTo_share (ℓ := (aRows21 (Mesh.px 4 c)).view.loc (c : Thread nD τ)) (I := (aRows21 (Mesh.px 4 c)).view.set) (f := fl2) Mem.share_lr).1 $$ AL2
  icases X2 with ⟨AL2l, AL2r⟩
  ihave X3 := (pointsTo_share (ℓ := (aRows21 (Mesh.px 4 c)).view.loc (c : Thread nD τ)) (I := (aRows21 (Mesh.px 4 c)).view.set) (f := fl2) Mem.share_rlr).1 $$ AL2r
  icases X3 with ⟨AL2rl, AL2rr⟩
  ihave X4 := (Mem.aHalf_merge_b2 c fullShare.right.left fq2 fl2) $$ [AQ2rl AL2rl]
  · isplitl [AQ2rl]; · iexact AQ2rl
    iexact AL2rl
  icases X4 with ⟨%gs2, AHs2, %hgs2⟩
  ihave #HIs := (ag_inv_d m K 2 2 0 c) $$ Hrec
  ihave #HIr := (ag_inv_d m K 3 2 0 (Mesh.px 1 c)) $$ Hrec
  ihave #HRs := (ag_reached_d m K 2 2 0 c) $$ Hrec
  ihave #HRr := (ag_reached_d m K 3 2 0 (Mesh.px 1 c)) $$ Hrec
  iapply (wp_send_at m c (Mesh.px 1 c) _ (Mesh.dev19_eq c) 2 3 2 0 (Or.inr (by decide)) (Or.inr (by decide))
      (src := aRows20 c) (dst := aRows20 c) (q := fullShare.right.left) (fs := gs2) (fd := fh2)
      (κ₁ := K (c, some (2, 2, 0))) (κ₂ := K (Mesh.px 1 c, some (3, 2, 0)))
      (Tables.credit_a20 c) (Tables.namt_2_eq_3 2 0) (Orem c 19) (Orem_lt c 18 (by decide))
      (ag_pay_s0_b2 m c gs2) (ag_pay_r0_b2 m c gs2 fq2 fl2 fh2 hq2 hl2 hgs2)) $$ [HO Tg20 Ta20 AHs2 AH2]
  · isplitr; · iexact HIs
    isplitr; · iexact HIr
    isplitl [AHs2]; · iexact AHs2
    isplitl [AH2]; · iexact AH2
    isplitl [HO]; · iexact HO
    isplitl [Tg20]; · iexact Tg20
    isplitr; · iexact HRs
    isplitl [Ta20]; · iexact Ta20
    iexact HRr
  iintro ⟨Cg20, HO⟩
  iclear HIs HIr HRs HRr
  ihave X5 := (Mem.aHalf_merge_b2 c fullShare.right.right fq2 fl2) $$ [AQ2rr AL2rr]
  · isplitl [AQ2rr]; · iexact AQ2rr
    iexact AL2rr
  icases X5 with ⟨%gr2, AHr2, %hgr2⟩
  have hvr2 := half_value_b2 m c gr2 fq2 fl2 hq2 hl2 hgr2
  sl_exec
  iapply Hk $$ %_
  isplitl [HO]; · iexact HO
  isplitl [Cg10]; · iexact Cg10
  isplitl [Cg20]; · iexact Cg20
  isplitl [AL1l]; · iexists fl1; iexact AL1l
  isplitl [AL2l]; · iexists fl2; iexact AL2l
  isplitl [AHr0]; · iexists gr0; iexact AHr0
  isplitl [AHr1]; · iexists gr1; iexact AHr1
  isplitl [AHr2]; · iexists gr2; iexact AHr2
  iexists (ag_part20.sl.v584 c gr0), (ag_part20.sl.v589 c gr1), (ag_part20.sl.v594 c gr2)
  isplitl [Hout]; · iexact Hout
  ipureintro
  refine ⟨?_, ?_, ?_⟩
  · exact ag_load_fact (k0_off9 c 0#32 3#32 1#32) (k0_off9_inb c 0) (by rw [Mesh.off9_a]; rfl) gr0 (K0 0 c) ((congrFun (Rows.ag0_read_b0 c) 0).trans (Mem.hRow_eq_K0 0 c)) _ hvr0
  · exact ag_load_fact (k0_off9 c 384#32 4#32 3#32) (k0_off9_inb c 1) (by rw [Mesh.off9_b]; rfl) gr1 (K0 1 c) ((congrFun (Rows.ag0_read_b1 c) 0).trans (Mem.hRow_eq_K0 1 c)) _ hvr1
  · exact ag_load_fact (k0_off10 c) (k0_off10_inb c) (by rw [Mesh.off10]; rfl) gr2 (K0 2 c) ((congrFun (Rows.ag0_read_b2 c) 0).trans (Mem.hRow_eq_K0 2 c)) _ hvr2

/-- Part 21: the other halves of butterflies 0 and 1 arrive and are widened into the result. -/
theorem ag_part21 (m : (ℓ : Loc nD τ sig) → Buf (Elt F) ℓ) (K : Dev nD × CIx → ℕ) (c : Dev nD) (W : Waits sig Unit)
    (v17 v19 : BitVec 1) (v539 v547 v556 v565 v574 : BitVec 32) {α : Type}
    (kk : BitVec 32 → Prog (TpuEff nD τ sig (Elt F) Λ₀ .tc) α) (Q : α → sProp 𝕄)
    (f : Buf (Elt F) ((oM : Memref sig .tc .vmem S1024x1024 .f32).view.loc (c : Thread nD τ)))
    (O : CellTallies nD τ sig Unit) (hO : O = 0) :
    iprop(records m K ∗ levAts L lv ∗ owes (c : Thread nD τ) O W
        ∗ cred (tallyAt (dcell 3 0 0 c) () (namt 3 0 0)) ∗ atPos ER (dcell 3 0 0 c) 0 ∅ 0
        ∗ cred (tallyAt (dcell 3 1 0 c) () (namt 3 1 0)) ∗ atPos ER (dcell 3 1 0 c) 0 ∅ 0
        ∗ (((oM : Memref sig .tc .vmem S1024x1024 .f32).view.loc (c : Thread nD τ)) ↦{fullShare} f)
        ∗ (∀ r, iprop(owes (c : Thread nD τ) O (insert (SemLoc.dma (dsem 3 1 0), ()) (insert (SemLoc.dma (dsem 3 0 0), ()) W))
            ∗ atPos ER (dcell 3 0 0 c) 1 ∅ 0 ∗ atPos ER (dcell 3 1 0 c) 1 ∅ 0
            ∗ (∃ f, (aRows00 (Mesh.px 3 c)).view.loc (c : Thread nD τ) ↦[(aRows00 (Mesh.px 3 c)).view.set]{fullShare} f) ∗ (∃ f, (aRows10 (Mesh.px 4 c)).view.loc (c : Thread nD τ) ↦[(aRows10 (Mesh.px 4 c)).view.set]{fullShare} f)
            ∗ (∃ (Z0 Z1 : S192x1024.Idx → F .bf16),
                (((oM : Memref sig .tc .vmem S1024x1024 .f32).view.loc (c : Thread nD τ)) ↦{fullShare}
                  (oM : Memref sig .tc .vmem S1024x1024 .f32).view.writes (Elt F) f [⟨Rect.unit (s := S1024x1024) (k0_off11 c 384#32 4#32 3#32) S192x1024.size (k0_off11_inb c 1), k0_pay38 Z1⟩, ⟨Rect.unit (s := S1024x1024) (k0_off11 c 0#32 3#32 1#32) S192x1024.size (k0_off11_inb c 0), k0_pay37 Z0⟩])
                ∗ ⌜(∀ (r q : ℕ) (hr : r < 192) (hq : q < 1024), Z0 (ix2 ⟨r, hr⟩ ⟨q, hq⟩) = tr (S3 m 0 (qOwn 0 (Mesh.px 3 c) (K0 0 (Mesh.px 3 c) + r)) (K0 0 (Mesh.px 3 c) + r) q)) ∧ (∀ (r q : ℕ) (hr : r < 192) (hq : q < 1024), Z1 (ix2 ⟨r, hr⟩ ⟨q, hq⟩) = tr (S3 m 1 (qOwn 1 (Mesh.px 4 c) (K0 1 (Mesh.px 4 c) + r)) (K0 1 (Mesh.px 4 c) + r) q))⌝))
          -∗ wp frame (wpE (defs₀ (F := F)) 𝒱₀ (c : Thread nD τ) none) Set.univ (kk r) Q))
      ⊢ wp frame (wpE (defs₀ (F := F)) 𝒱₀ (c : Thread nD τ) none) Set.univ (k0_part21 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v17 v19 v539 v547 v556 v565 v574 >>= kk) Q := by
  iintro ⟨#Hrec, #Hlev, HO, Ca00, P300, Ca10, P310, Hout, Hk⟩
  have hinc_o0 : (aM.access (Rect.unit (s := S1024x1024) (k0_off11 c 0#32 3#32 1#32) S192x1024.size (k0_off11_inb c 0))).set ⊆ (aOth0 c).view.set := Finset.Subset.refl _
  have hinc_o1 : (aM.access (Rect.unit (s := S1024x1024) (k0_off11 c 384#32 4#32 3#32) S192x1024.size (k0_off11_inb c 1))).set ⊆ (aOth1 c).view.set := Finset.Subset.refl _
  sl_unfold [k0_part21]
  sl_exec
  -- the other half of butterfly 0 arrives from c xor 3; everything is paid, so any wait is allowed
  ihave #HIw := (ag_inv_d m K 3 0 0 c) $$ Hrec
  iapply (wp_wait_ag0_b0 m c (Tables.credit_a00 c)) $$ [Ca00 HO P300]
  · isplitr; · iexact HIw
    isplitl [Ca00]; · iexact Ca00
    isplitl [HO]; · iexact HO
    isplitr; · rw [hO, MayWait_zero]; iempintro
    iexact P300
  iintro ⟨HO, P300, -, ⟨%fz0, AO0, %hz0⟩⟩
  iclear HIw
  ihave AO0 := (Entails.of_eq (ag_oh_conv_b0 c fullShare fz0)) $$ AO0
  sl_exec
  -- the other half of butterfly 1 arrives from c xor 4; everything is paid, so any wait is allowed
  ihave #HIw := (ag_inv_d m K 3 1 0 c) $$ Hrec
  iapply (wp_wait_ag0_b1 m c (Tables.credit_a10 c)) $$ [Ca10 HO P310]
  · isplitr; · iexact HIw
    isplitl [Ca10]; · iexact Ca10
    isplitl [HO]; · iexact HO
    isplitr; · rw [hO, MayWait_zero]; iempintro
    iexact P310
  iintro ⟨HO, P310, -, ⟨%fz1, AO1, %hz1⟩⟩
  iclear HIw
  ihave AO1 := (Entails.of_eq (ag_oh_conv_b1 c fullShare fz1)) $$ AO1
  sl_exec
  iapply Hk $$ %_
  isplitl [HO]; · iexact HO
  isplitl [P300]; · iexact P300
  isplitl [P310]; · iexact P310
  isplitl [AO0]
  · iexists fz0
    iapply (Entails.of_eq (ag_oh_conv_b0 c fullShare fz0).symm)
    iexact AO0
  isplitl [AO1]
  · iexists fz1
    iapply (Entails.of_eq (ag_oh_conv_b1 c fullShare fz1).symm)
    iexact AO1
  iexists (ag_part21.sl.v607 c fz0), (ag_part21.sl.v620 c fz1)
  isplitl [Hout]; · iexact Hout
  ipureintro
  refine ⟨?_, ?_⟩
  · exact ag_load_fact (k0_off11 c 0#32 3#32 1#32) (k0_off11_inb c 0) (by rw [Mesh.off11_a]; rfl) fz0 (K0 0 (Mesh.px 3 c)) ((congrFun (Rows.ag0_recv_b0 c) 0).trans (Mem.hRow_eq_K0 0 (Mesh.px 3 c))) _ hz0
  · exact ag_load_fact (k0_off11 c 384#32 4#32 3#32) (k0_off11_inb c 1) (by rw [Mesh.off11_b]; rfl) fz1 (K0 1 (Mesh.px 4 c)) ((congrFun (Rows.ag0_recv_b1 c) 0).trans (Mem.hRow_eq_K0 1 (Mesh.px 4 c))) _ hz1

/-- Part 22: the other half of butterfly 2 arrives and is widened into the result; the exchange's first two departures have left. -/
theorem ag_part22 (m : (ℓ : Loc nD τ sig) → Buf (Elt F) ℓ) (K : Dev nD × CIx → ℕ) (c : Dev nD) (W : Waits sig Unit)
    (v21 : BitVec 1) (v555 v624 : BitVec 32) {α : Type}
    (kk : PUnit.{1} → Prog (TpuEff nD τ sig (Elt F) Λ₀ .tc) α) (Q : α → sProp 𝕄)
    (f : Buf (Elt F) ((oM : Memref sig .tc .vmem S1024x1024 .f32).view.loc (c : Thread nD τ)))
    (O : CellTallies nD τ sig Unit) (hO : O = 0) :
    iprop(records m K ∗ levAts L lv ∗ owes (c : Thread nD τ) O W
        ∗ cred (tallyAt (dcell 3 2 0 c) () (namt 3 2 0)) ∗ atPos ER (dcell 3 2 0 c) 0 ∅ 0
        ∗ cred (tallyAt (dcell 0 0 0 c) () (namt 0 0 0)) ∗ atPos ER (dcell 0 0 0 c) 0 ∅ 0
        ∗ cred (tallyAt (dcell 0 1 0 c) () (namt 0 1 0)) ∗ atPos ER (dcell 0 1 0 c) 0 ∅ 0
        ∗ (((oM : Memref sig .tc .vmem S1024x1024 .f32).view.loc (c : Thread nD τ)) ↦{fullShare} f)
        ∗ (∀ r, iprop(owes (c : Thread nD τ) O (insert (SemLoc.dma (dsem 0 1 0), ()) (insert (SemLoc.dma (dsem 0 0 0), ()) (insert (SemLoc.dma (dsem 3 2 0), ()) W)))
            ∗ atPos ER (dcell 3 2 0 c) 1 ∅ 0 ∗ atPos ER (dcell 0 0 0 c) 1 ∅ 0 ∗ atPos ER (dcell 0 1 0 c) 1 ∅ 0
            ∗ (∃ f, (aRows20 (Mesh.px 1 c)).view.loc (c : Thread nD τ) ↦[(aRows20 (Mesh.px 1 c)).view.set]{fullShare} f) ∗ dpay m 0 0 0 c ∗ dpay m 0 1 0 c
            ∗ (∃ (Z2 : S128x1024.Idx → F .bf16),
                (((oM : Memref sig .tc .vmem S1024x1024 .f32).view.loc (c : Thread nD τ)) ↦{fullShare}
                  (oM : Memref sig .tc .vmem S1024x1024 .f32).view.writes (Elt F) f [⟨Rect.unit (s := S1024x1024) (k0_off12 c) S128x1024.size (k0_off12_inb c), k0_pay39 Z2⟩])
                ∗ ⌜(∀ (r q : ℕ) (hr : r < 128) (hq : q < 1024), Z2 (ix2 ⟨r, hr⟩ ⟨q, hq⟩) = tr (S3 m 2 (qOwn 2 (Mesh.px 1 c) (K0 2 (Mesh.px 1 c) + r)) (K0 2 (Mesh.px 1 c) + r) q))⌝))
          -∗ wp frame (wpE (defs₀ (F := F)) 𝒱₀ (c : Thread nD τ) none) Set.univ (kk r) Q))
      ⊢ wp frame (wpE (defs₀ (F := F)) 𝒱₀ (c : Thread nD τ) none) Set.univ (k0_part22 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v21 v555 v624 >>= kk) Q := by
  iintro ⟨#Hrec, #Hlev, HO, Ca20, P320, Cs00, P000, Cs10, P010, Hout, Hk⟩
  have hinc_o2 : (aM.access (Rect.unit (s := S1024x1024) (k0_off12 c) S128x1024.size (k0_off12_inb c))).set ⊆ (aOth2 c).view.set := Finset.Subset.refl _
  sl_unfold [k0_part22]
  sl_exec
  -- the other half of butterfly 2 arrives from c xor 1; everything is paid, so any wait is allowed
  ihave #HIw := (ag_inv_d m K 3 2 0 c) $$ Hrec
  iapply (wp_wait_ag0_b2 m c (Tables.credit_a20 c)) $$ [Ca20 HO P320]
  · isplitr; · iexact HIw
    isplitl [Ca20]; · iexact Ca20
    isplitl [HO]; · iexact HO
    isplitr; · rw [hO, MayWait_zero]; iempintro
    iexact P320
  iintro ⟨HO, P320, -, ⟨%fz2, AO2, %hz2⟩⟩
  iclear HIw
  ihave AO2 := (Entails.of_eq (ag_oh_conv_b2 c fullShare fz2)) $$ AO2
  sl_exec
  -- the exchange's first departure of butterfly 0 has left: its send slot comes back
  ihave #HIw := (ag_inv_d m K 0 0 0 c) $$ Hrec
  iapply (Tables.wp_wait_dcell m 0 0 0 c (Or.inl (by decide)) Tables.credit_s00) $$ [Cs00 HO P000]
  · isplitr; · iexact HIw
    isplitl [Cs00]; · iexact Cs00
    isplitl [HO]; · iexact HO
    isplitr; · rw [hO, MayWait_zero]; iempintro
    iexact P000
  iintro ⟨HO, P000, -, Hsp0⟩
  iclear HIw
  sl_exec
  -- the exchange's first departure of butterfly 1 has left: its send slot comes back
  ihave #HIw := (ag_inv_d m K 0 1 0 c) $$ Hrec
  iapply (Tables.wp_wait_dcell m 0 1 0 c (Or.inl (by decide)) Tables.credit_s10) $$ [Cs10 HO P010]
  · isplitr; · iexact HIw
    isplitl [Cs10]; · iexact Cs10
    isplitl [HO]; · iexact HO
    isplitr; · rw [hO, MayWait_zero]; iempintro
    iexact P010
  iintro ⟨HO, P010, -, Hsp1⟩
  iclear HIw
  sl_exec
  iapply Hk $$ %_
  isplitl [HO]; · iexact HO
  isplitl [P320]; · iexact P320
  isplitl [P000]; · iexact P000
  isplitl [P010]; · iexact P010
  isplitl [AO2]
  · iexists fz2
    iapply (Entails.of_eq (ag_oh_conv_b2 c fullShare fz2).symm)
    iexact AO2
  isplitl [Hsp0]; · iexact Hsp0
  isplitl [Hsp1]; · iexact Hsp1
  iexists (ag_part22.sl.v633 c fz2)
  isplitl [Hout]; · iexact Hout
  ipureintro
  exact ag_load_fact (k0_off12 c) (k0_off12_inb c) (by rw [Mesh.off12]; rfl) fz2 (K0 2 (Mesh.px 1 c)) ((congrFun (Rows.ag0_recv_b2 c) 0).trans (Mem.hRow_eq_K0 2 (Mesh.px 1 c))) _ hz2

set_option maxRecDepth 8192 in
/-- The all-gather: from the state just before the first gather transfer to the state where every arrival has been
    waited for and the result is complete. The five printed parts in order; then the result buffer's contents are the
    totals row by row, and the gather buffer's pieces and lent shares are what it takes to have it back whole. -/
theorem body_ag (m : (ℓ : Loc nD τ sig) → Buf (Elt F) ℓ) (K : Dev nD × CIx → ℕ) (c : Dev nD) (W : Waits sig Unit)
    (v2 : BitVec 32) (v17 v19 v21 v257 v278 v299 : BitVec 1) (v328 v347 v366 v505 : BitVec 32)
    {α : Type} (kk : PUnit.{1} → Prog (TpuEff nD τ sig (Elt F) Λ₀ .tc) α) (Q : α → sProp 𝕄) :
    iprop(Cuts.PreAG m K c W ∗ (∀ W', Cuts.PreSendWaits m K c W' -∗ wp frame (wpE (defs₀ (F := F)) 𝒱₀ (c : Thread nD τ) none) Set.univ (kk ⟨⟩) Q))
      ⊢ wp frame (wpE (defs₀ (F := F)) 𝒱₀ (c : Thread nD τ) none) Set.univ
          (do let ⟨v514, v523, v538⟩ : Σ' (v514 : BitVec 32) (v523 : BitVec 32), BitVec 32 ← k0_part18 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v257 v505
              let ⟨v539, v547, v555, v556, v565⟩ : Σ' (v539 : BitVec 32) (v547 : BitVec 32) (v555 : BitVec 32) (v556 : BitVec 32), BitVec 32 ← k0_part19 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v278 v299 v328 v347 v366 v514 v523 v538
              let v574 : BitVec 32 ← k0_part20 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v2 v539 v547 v555 v565
              let v624 : BitVec 32 ← k0_part21 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v17 v19 v539 v547 v556 v565 v574
              let u ← k0_part22 xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) cc0_scratch3 cc0_scratch4 cc0_scratch5 cc0_scratch6 c v21 v555 v624
              kk u) Q := by
  unfold Cuts.PreAG
  iintro ⟨⟨#Hrec, #Hlev, Pbar, P100, P101, P102, P110, P111, P112, P120, P121, P122, P000, P001, P002, P010, P011, P012, P020, P021, P022, P200, P201, P202, P210, P211, P212, P220, P221, P222, P300, P301, P302, P310, P311, P312, P320, P321, P322, Ta00, Ta01, Ta10, Ta11, Ta20, Ta21, Tg00, Tg01, Tg10, Tg11, Tg20, Tg21, Ca00, Ca01, Ca10, Ca11, Ca20, Ca21, Cs00, Cs01, Cs02, Cs10, Cs11, Cs12, Cs20, Cs21, Cs22, HO, Hx, Hg, Hu, Hd, ⟨%fo, Hout⟩, Hsb, ⟨%fr, Hr⟩, ⟨%fq0, AQ0, %hq0⟩, ⟨%fq1, AQ1, %hq1⟩, ⟨%fq2, AQ2, %hq2⟩, ⟨%fp0, AP0⟩, ⟨%fp1, AP1⟩, ⟨%fp2, AP2⟩, ⟨%fh0, AH0⟩, ⟨%fh1, AH1⟩, ⟨%fh2, AH2⟩⟩, Hk⟩
  -- part 18
  iapply (ag_part18 m K c W v2 v257 v505 _ Q fq0 fq1 fq2 fp0 fp1 fp2 hq0 hq1 hq2)
  isplitr; · iexact Hrec
  isplitr; · iexact Hlev
  isplitl [HO]; · iexact HO
  isplitl [Tg01]; · iexact Tg01
  isplitl [Tg11]; · iexact Tg11
  isplitl [Tg21]; · iexact Tg21
  isplitl [Ta01]; · iexact Ta01
  isplitl [Ta11]; · iexact Ta11
  isplitl [Ta21]; · iexact Ta21
  isplitl [AQ0]; · iexact AQ0
  isplitl [AQ1]; · iexact AQ1
  isplitl [AQ2]; · iexact AQ2
  isplitl [AP0]; · iexact AP0
  isplitl [AP1]; · iexact AP1
  isplitl [AP2]; · iexact AP2
  isplitl [Ca01]; · iexact Ca01
  isplitl [P301]; · iexact P301
  iintro %r ⟨Cg01, Cg11, Cg21, AQ0r, AQ1r, AQ2r, HO, P301, Hpay0⟩
  obtain ⟨v514, v523, v538⟩ := r
  -- part 19
  iapply (ag_part19 m K c (insert (SemLoc.dma (dsem 3 0 1), ()) W) v2 v278 v299 v328 v347 v366 v514 v523 v538 _ Q fq0 fh0 hq0)
  isplitr; · iexact Hrec
  isplitr; · iexact Hlev
  isplitl [HO]; · iexact HO
  isplitl [Ca11]; · iexact Ca11
  isplitl [P311]; · iexact P311
  isplitl [Ca21]; · iexact Ca21
  isplitl [P321]; · iexact P321
  isplitl [AQ0r]; · iexact AQ0r
  isplitl [Hpay0]; · iexact Hpay0
  isplitl [Tg00]; · iexact Tg00
  isplitl [Ta00]; · iexact Ta00
  isplitl [AH0]; · iexact AH0
  iintro %r ⟨P311, P321, Hpay1, Hpay2, HO, Cg00, RH0, ⟨%fl0, AL0l⟩⟩
  obtain ⟨v539, v547, v555, v556, v565⟩ := r
  -- part 20
  iapply (ag_part20 m K c (insert (SemLoc.dma (dsem 3 2 1), ()) (insert (SemLoc.dma (dsem 3 1 1), ()) (insert (SemLoc.dma (dsem 3 0 1), ()) W))) v2 v539 v547 v555 v565 _ Q fq1 fq2 fh1 fh2 fo hq1 hq2)
  isplitr; · iexact Hrec
  isplitr; · iexact Hlev
  isplitl [HO]; · iexact HO
  isplitl [AQ1r]; · iexact AQ1r
  isplitl [Hpay1]; · iexact Hpay1
  isplitl [Tg10]; · iexact Tg10
  isplitl [Ta10]; · iexact Ta10
  isplitl [AH1]; · iexact AH1
  isplitl [AQ2r]; · iexact AQ2r
  isplitl [Hpay2]; · iexact Hpay2
  isplitl [Tg20]; · iexact Tg20
  isplitl [Ta20]; · iexact Ta20
  isplitl [AH2]; · iexact AH2
  isplitl [RH0]; · iexact RH0
  isplitl [Hout]; · iexact Hout
  iintro %v574 ⟨HO, Cg10, Cg20, ⟨%fl1, AL1l⟩, ⟨%fl2, AL2l⟩, ⟨%gr0, AHr0⟩, ⟨%gr1, AHr1⟩, ⟨%gr2, AHr2⟩, ⟨%V0, %V1, %V2, Hout, %hV⟩⟩
  -- part 21
  iapply (ag_part21 m K c (insert (SemLoc.dma (dsem 3 2 1), ()) (insert (SemLoc.dma (dsem 3 1 1), ()) (insert (SemLoc.dma (dsem 3 0 1), ()) W))) v17 v19 v539 v547 v556 v565 v574 _ Q ((oM : Memref sig .tc .vmem S1024x1024 .f32).view.writes (Elt F) fo [⟨Rect.unit (s := S1024x1024) (k0_off10 c) S128x1024.size (k0_off10_inb c), k0_pay36 V2⟩, ⟨Rect.unit (s := S1024x1024) (k0_off9 c 384#32 4#32 3#32) S192x1024.size (k0_off9_inb c 1), k0_pay35 V1⟩, ⟨Rect.unit (s := S1024x1024) (k0_off9 c 0#32 3#32 1#32) S192x1024.size (k0_off9_inb c 0), k0_pay34 V0⟩]) (Orem c 19) (Orem_done c))
  isplitr; · iexact Hrec
  isplitr; · iexact Hlev
  isplitl [HO]; · iexact HO
  isplitl [Ca00]; · iexact Ca00
  isplitl [P300]; · iexact P300
  isplitl [Ca10]; · iexact Ca10
  isplitl [P310]; · iexact P310
  isplitl [Hout]; · iexact Hout
  iintro %v624 ⟨HO, P300, P310, ⟨%fz0, AO0⟩, ⟨%fz1, AO1⟩, ⟨%Z0, %Z1, Hout, %hZ⟩⟩
  -- part 22
  iapply (ag_part22 m K c (insert (SemLoc.dma (dsem 3 1 0), ()) (insert (SemLoc.dma (dsem 3 0 0), ()) (insert (SemLoc.dma (dsem 3 2 1), ()) (insert (SemLoc.dma (dsem 3 1 1), ()) (insert (SemLoc.dma (dsem 3 0 1), ()) W))))) v21 v555 v624 _ Q ((oM : Memref sig .tc .vmem S1024x1024 .f32).view.writes (Elt F) ((oM : Memref sig .tc .vmem S1024x1024 .f32).view.writes (Elt F) fo [⟨Rect.unit (s := S1024x1024) (k0_off10 c) S128x1024.size (k0_off10_inb c), k0_pay36 V2⟩, ⟨Rect.unit (s := S1024x1024) (k0_off9 c 384#32 4#32 3#32) S192x1024.size (k0_off9_inb c 1), k0_pay35 V1⟩, ⟨Rect.unit (s := S1024x1024) (k0_off9 c 0#32 3#32 1#32) S192x1024.size (k0_off9_inb c 0), k0_pay34 V0⟩]) [⟨Rect.unit (s := S1024x1024) (k0_off11 c 384#32 4#32 3#32) S192x1024.size (k0_off11_inb c 1), k0_pay38 Z1⟩, ⟨Rect.unit (s := S1024x1024) (k0_off11 c 0#32 3#32 1#32) S192x1024.size (k0_off11_inb c 0), k0_pay37 Z0⟩]) (Orem c 19) (Orem_done c))
  isplitr; · iexact Hrec
  isplitr; · iexact Hlev
  isplitl [HO]; · iexact HO
  isplitl [Ca20]; · iexact Ca20
  isplitl [P320]; · iexact P320
  isplitl [Cs00]; · iexact Cs00
  isplitl [P000]; · iexact P000
  isplitl [Cs10]; · iexact Cs10
  isplitl [P010]; · iexact P010
  isplitl [Hout]; · iexact Hout
  iintro %u ⟨HO, P320, P000, P010, ⟨%fz2, AO2⟩, Hsp0, Hsp1, ⟨%Z2, Hout, %hZ2⟩⟩
  -- the result is complete, and the gather buffer can be had back
  have hout : (oM : Memref sig .tc .vmem S1024x1024 .f32).view.writes (Elt F) ((oM : Memref sig .tc .vmem S1024x1024 .f32).view.writes (Elt F) ((oM : Memref sig .tc .vmem S1024x1024 .f32).view.writes (Elt F) fo [⟨Rect.unit (s := S1024x1024) (k0_off10 c) S128x1024.size (k0_off10_inb c), k0_pay36 V2⟩, ⟨Rect.unit (s := S1024x1024) (k0_off9 c 384#32 4#32 3#32) S192x1024.size (k0_off9_inb c 1), k0_pay35 V1⟩, ⟨Rect.unit (s := S1024x1024) (k0_off9 c 0#32 3#32 1#32) S192x1024.size (k0_off9_inb c 0), k0_pay34 V0⟩]) [⟨Rect.unit (s := S1024x1024) (k0_off11 c 384#32 4#32 3#32) S192x1024.size (k0_off11_inb c 1), k0_pay38 Z1⟩, ⟨Rect.unit (s := S1024x1024) (k0_off11 c 0#32 3#32 1#32) S192x1024.size (k0_off11_inb c 0), k0_pay37 Z0⟩]) [⟨Rect.unit (s := S1024x1024) (k0_off12 c) S128x1024.size (k0_off12_inb c), k0_pay39 Z2⟩] = outFin m c := by
    rw [← View.writes_append, ← View.writes_append]
    simp only [List.cons_append, List.nil_append]
    exact out_final m c fo V0 V1 Z0 Z1 V2 Z2 hV.1 hV.2.1 hV.2.2 hZ.1 hZ.2 hZ2
  ihave Hsp0 := (Entails.of_eq (Tables.dpay_0 m 0 0 c)) $$ Hsp0
  ihave Hsp1 := (Entails.of_eq (Tables.dpay_0 m 1 0 c)) $$ Hsp1
  iapply Hk $$ %_
  unfold Cuts.PreSendWaits
  isplitr; · iexact Hrec
  isplitr; · iexact Hlev
  isplitl [Pbar]; · iexact Pbar
  isplitl [P100]; · iexact P100
  isplitl [P101]; · iexact P101
  isplitl [P102]; · iexact P102
  isplitl [P110]; · iexact P110
  isplitl [P111]; · iexact P111
  isplitl [P112]; · iexact P112
  isplitl [P120]; · iexact P120
  isplitl [P121]; · iexact P121
  isplitl [P122]; · iexact P122
  isplitl [P300]; · iexact P300
  isplitl [P301]; · iexact P301
  isplitl [P302]; · iexact P302
  isplitl [P310]; · iexact P310
  isplitl [P311]; · iexact P311
  isplitl [P312]; · iexact P312
  isplitl [P320]; · iexact P320
  isplitl [P321]; · iexact P321
  isplitl [P322]; · iexact P322
  isplitl [P000]; · iexact P000
  isplitl [P001]; · iexact P001
  isplitl [P002]; · iexact P002
  isplitl [P010]; · iexact P010
  isplitl [P011]; · iexact P011
  isplitl [P012]; · iexact P012
  isplitl [P020]; · iexact P020
  isplitl [P021]; · iexact P021
  isplitl [P022]; · iexact P022
  isplitl [P200]; · iexact P200
  isplitl [P201]; · iexact P201
  isplitl [P202]; · iexact P202
  isplitl [P210]; · iexact P210
  isplitl [P211]; · iexact P211
  isplitl [P212]; · iexact P212
  isplitl [P220]; · iexact P220
  isplitl [P221]; · iexact P221
  isplitl [P222]; · iexact P222
  isplitl [Cs01]; · iexact Cs01
  isplitl [Cs02]; · iexact Cs02
  isplitl [Cs11]; · iexact Cs11
  isplitl [Cs12]; · iexact Cs12
  isplitl [Cs20]; · iexact Cs20
  isplitl [Cs21]; · iexact Cs21
  isplitl [Cs22]; · iexact Cs22
  isplitl [Cg00]; · iexact Cg00
  isplitl [Cg01]; · iexact Cg01
  isplitl [Cg10]; · iexact Cg10
  isplitl [Cg11]; · iexact Cg11
  isplitl [Cg20]; · iexact Cg20
  isplitl [Cg21]; · iexact Cg21
  isplitl [HO]; · iexact HO
  isplitl [Hx]; · iexact Hx
  isplitl [Hg]; · iexact Hg
  isplitl [Hu]; · iexact Hu
  isplitl [Hd]; · iexact Hd
  isplitl [Hout]; · rw [← hout]; iexact Hout
  isplitl [Hsb]; · iexact Hsb
  isplitl [Hsp0]; · iexact Hsp0
  isplitl [Hsp1]; · iexact Hsp1
  isplitl [Hr]; · iexists fr; iexact Hr
  iapply (abuf_back c fl0 fl1 fl2 gr0 gr1 gr2 fz0 fz1 fz2)
  isplitl [AL0l]; · iexact AL0l
  isplitl [AL1l]; · iexact AL1l
  isplitl [AL2l]; · iexact AL2l
  isplitl [AHr0]; · iexact AHr0
  isplitl [AHr1]; · iexact AHr1
  isplitl [AHr2]; · iexact AHr2
  isplitl [AO0]; · iexact AO0
  isplitl [AO1]; · iexact AO1
  iexact AO2

end Cert.Kernel.Body

end
-- ==== Proof.KBodyTail.lean ====
/-
  The closing stretch of a device's run of the body: from the state after the last arrival (every receive cell at
  round 1, the result complete, the first two departures of the exchange waited for) to the body's end.

  Thirteen departures are still out: seven of the exchange and the six of the gather. Everything the device owed is
  paid, so no wait can be held up by a debt; each wait moves the device's own send cell to round 1 and hands back what
  the departure was lent: a slot of the send buffer, or a share of rows of the gather buffer. With all nine slots back
  the send buffer is whole again, and with all six shares back so is the gather buffer. Every one of the device's
  thirty-six DMA cells has then run its one round (or, for the gather's unused third stage, has none), so each closes:
  its counter is zero and the device's own again. What remains is what the body must end with: the three scratch
  buffers whole, the thirty-six counters at zero, nothing owed, and the five staged windows at the inputs and the result.

  The program is first put in the form "wait, then the rest" by definitional unfolding (`part23_nf` … `tail2_nf`), so
  that each wait's rule meets it as written; what a gather cell hands back is named in each rule's statement as the
  points-to it is (`wait_own_as`).
-/
import proofs.«900524_g7700000000000525_dist_gated_mlp_tp_i_m1024_h2048_d1024_v7x_i8_f32_1_alg».proof.Proof.KIface
import proofs.«900524_g7700000000000525_dist_gated_mlp_tp_i_m1024_h2048_d1024_v7x_i8_f32_1_alg».proof.Proof.KStor
import proofs.«900524_g7700000000000525_dist_gated_mlp_tp_i_m1024_h2048_d1024_v7x_i8_f32_1_alg».proof.Proof.KTables
import proofs.«900524_g7700000000000525_dist_gated_mlp_tp_i_m1024_h2048_d1024_v7x_i8_f32_1_alg».proof.Proof.KCuts
import Idealize.ShloMosaic.Lib.Pipeline.Launch
import Idealize.ShloMosaic.Lib.Pipeline.Kit
import Idealize.ShloMosaic.Lib.Tactic

noncomputable section

namespace Cert.Kernel.Body

open Cert.Kernel Cert.Kernel.Gen Cert.Kernel.Sched Cert.Kernel.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option Elab.async false

/-- The body's last lines on device `c`: the waits for the gather's departures at (1, 0) and (2, 0). -/
abbrev tail2Prog (c : Dev nD) : Prog (TpuEff nD τ sig (Elt F) Λ₀ .tc) PUnit := do
  let v710 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
  let v707 : DmaSems sig S1x1 := cc0_scratch5.slice (Rect.unit (s := S3x3) ![1, 0] S1x1.size inb_S3x3_S1x1_1_0)
  let v708 : DmaSems sig S_ := v707.squeeze S_ squeezes_S1x1_S_
  let v709 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
  Prog.lift (.waitDma2 v708.sem v710 v709 ((Memref.isWhole_whole cc0_scratch2).wordExact_slice rfl _ (k0_off7_wordsbf16 c 1)) ((Memref.isWhole_whole cc0_scratch2).wordExact_slice rfl _ (k0_off7_wordsbf16 c 1)))
  let v711 : DmaSems sig S1x1 := cc0_scratch5.slice (Rect.unit (s := S3x3) ![2, 0] S1x1.size inb_S3x3_S1x1_2_0)
  let v712 : DmaSems sig S_ := v711.squeeze S_ squeezes_S1x1_S_
  let v713 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
  let v714 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
  Prog.lift (.waitDma2 v712.sem v714 v713 ((Memref.isWhole_whole cc0_scratch2).wordExact_slice rfl _ (k0_off8_wordsbf16 c)) ((Memref.isWhole_whole cc0_scratch2).wordExact_slice rfl _ (k0_off8_wordsbf16 c)))
  pure ⟨⟩

/-- The closing stretch of the body on device `c`: the waits for the thirteen departures not yet waited for. -/
abbrev tailProg (c : Dev nD) : Prog (TpuEff nD τ sig (Elt F) Λ₀ .tc) PUnit := do
  k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
  k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
  k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c
  tail2Prog c

set_option maxRecDepth 65536 in
/-- The body at a point's staging buffers is its first twenty-two parts followed by `tailProg` at the device the first part read. -/
theorem cc0_body_tail :
    cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
      = (do
      let ⟨d0, v2, v17, v19, v21, v23, v24, c384_i32⟩ : Σ' (d0 : Dev nD) (v2 : BitVec 32) (v17 : BitVec 1) (v19 : BitVec 1) (v21 : BitVec 1) (v23 : BitVec 32) (v24 : BitVec 32), BitVec 32 ← k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
      let ⟨v25, v27, v29, v31, v33, v51⟩ : Σ' (v25 : BitVec 32) (v27 : BitVec 32) (v29 : BitVec 32) (v31 : BitVec 32) (v33 : BitVec 32), BitVec 32 ← k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v17 v19 v21 v23 v24 c384_i32
      let v86 : FVec F S192x1024 .f32 ← k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v25 v51
      let ⟨v89, v112, v115, v117, cst_95⟩ : Σ' (v89 : BitVec 32) (v112 : FVec F S128x1024 .f32) (v115 : FVec F S128x2048 .f32) (v117 : FVec F S1024x2048 .f32), FVec F S128x2048 .f32 ← k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v27 v86
      let ⟨v127, v149⟩ : Σ' (v127 : BitVec 32), Vec F S192x1024 .f32 ← k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v27 v29 v112 v115 v117 cst_95
      let v184 : FVec F S128x1024 .f32 ← k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v29 v31 v33 v149
      let ⟨v208, v211, v214⟩ : Σ' (v208 : BitVec 32) (v211 : FVec F S192x1024 .f32), FVec F S192x1024 .f32 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v17 v33 v51 v184
      let v227 : BitVec 32 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v19 v89 v127 v208 v211 v214
      let ⟨v246, v256, v257⟩ : Σ' (v246 : BitVec 32) (v256 : BitVec 32), BitVec 1 ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v21 v208
      let ⟨v277, v278, v298, v299⟩ : Σ' (v277 : BitVec 32) (v278 : BitVec 1) (v298 : BitVec 32), BitVec 1 ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v227 v246
      let v328 : BitVec 32 ← k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v208 v256 v257 v298
      let ⟨v347, c1_i32_309⟩ : Σ' (v347 : BitVec 32), BitVec 32 ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v227 v277 v278 v328
      let ⟨v366, v376⟩ : Σ' (v366 : BitVec 32), BitVec 32 ← k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v246 v298 v299 v328 c1_i32_309
      let ⟨v394, v412, v419⟩ : Σ' (v394 : BitVec 32) (v412 : BitVec 32), FVec F S1x64x1024 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v347 v366
      k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v328 v376 v412 v419
      k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v328 v347 v394
      let v505 : BitVec 32 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v366 v412
      let ⟨v514, v523, v538⟩ : Σ' (v514 : BitVec 32) (v523 : BitVec 32), BitVec 32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v257 v505
      let ⟨v539, v547, v555, v556, v565⟩ : Σ' (v539 : BitVec 32) (v547 : BitVec 32) (v555 : BitVec 32) (v556 : BitVec 32), BitVec 32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v278 v299 v328 v347 v366 v514 v523 v538
      let v574 : BitVec 32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v539 v547 v555 v565
      let v624 : BitVec 32 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v17 v19 v539 v547 v556 v565 v574
      k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v21 v555 v624
      tailProg d0) := rfl

set_option maxRecDepth 65536 in
theorem part23_nf (c : Dev nD) {α : Type} (kk : PUnit → Prog (TpuEff nD τ sig (Elt F) Λ₀ .tc) α) :
    (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 >>= kk)
      = (.op (.waitDma2 (((((cc0_scratch3).slice (Rect.unit (s := S3x3) ![2, 0] S1x1.size inb_S3x3_S1x1_2_0) : DmaSems sig S1x1)).squeeze S_ squeezes_S1x1_S_ : DmaSems sig S_)).sem ((((((Memref.whole cc0_scratch1 : Memref sig .tc .vmem S3x384x1024 .bf16)).slice (Rect.unit (s := S3x384x1024) ![2, 0, 0] S1x128x1024.size inb_S3x384x1024_S1x128x1024_2_0_0) (fun _ => rfl) : Memref sig .tc .vmem S1x128x1024 .bf16)).squeeze S128x1024 squeezes_S1x128x1024_S128x1024 : Memref sig .tc .vmem S128x1024 .bf16)) ((((((Memref.whole cc0_scratch0 : Memref sig .tc .vmem S3x384x1024 .bf16)).slice (Rect.unit (s := S3x384x1024) ![2, 0, 0] S1x128x1024.size inb_S3x384x1024_S1x128x1024_2_0_0) (fun _ => rfl) : Memref sig .tc .vmem S1x128x1024 .bf16)).squeeze S128x1024 squeezes_S1x128x1024_S128x1024 : Memref sig .tc .vmem S128x1024 .bf16)) (((Memref.isWhole_whole cc0_scratch1).wordExact_slice rfl _ wordsbf16_S3x384x1024_S1x128x1024_2_0_0).reshape _ _) (((Memref.isWhole_whole cc0_scratch0).wordExact_slice rfl _ wordsbf16_S3x384x1024_S1x128x1024_2_0_0).reshape _ _)) fun _ =>
        .op (.waitDma2 (((((cc0_scratch3).slice (Rect.unit (s := S3x3) ![0, 1] S1x1.size inb_S3x3_S1x1_0_1) : DmaSems sig S1x1)).squeeze S_ squeezes_S1x1_S_ : DmaSems sig S_)).sem ((((((Memref.whole cc0_scratch1 : Memref sig .tc .vmem S3x384x1024 .bf16)).slice (Rect.unit (s := S3x384x1024) ![0, 192, 0] S1x96x1024.size inb_S3x384x1024_S1x96x1024_0_192_0) (fun _ => rfl) : Memref sig .tc .vmem S1x96x1024 .bf16)).squeeze S96x1024 squeezes_S1x96x1024_S96x1024 : Memref sig .tc .vmem S96x1024 .bf16)) ((((((Memref.whole cc0_scratch0 : Memref sig .tc .vmem S3x384x1024 .bf16)).slice (Rect.unit (s := S3x384x1024) ![0, 192, 0] S1x96x1024.size inb_S3x384x1024_S1x96x1024_0_192_0) (fun _ => rfl) : Memref sig .tc .vmem S1x96x1024 .bf16)).squeeze S96x1024 squeezes_S1x96x1024_S96x1024 : Memref sig .tc .vmem S96x1024 .bf16)) (((Memref.isWhole_whole cc0_scratch1).wordExact_slice rfl _ wordsbf16_S3x384x1024_S1x96x1024_0_192_0).reshape _ _) (((Memref.isWhole_whole cc0_scratch0).wordExact_slice rfl _ wordsbf16_S3x384x1024_S1x96x1024_0_192_0).reshape _ _)) fun _ =>
        .op (.waitDma2 (((((cc0_scratch3).slice (Rect.unit (s := S3x3) ![1, 1] S1x1.size inb_S3x3_S1x1_1_1) : DmaSems sig S1x1)).squeeze S_ squeezes_S1x1_S_ : DmaSems sig S_)).sem ((((((Memref.whole cc0_scratch1 : Memref sig .tc .vmem S3x384x1024 .bf16)).slice (Rect.unit (s := S3x384x1024) ![1, 192, 0] S1x96x1024.size inb_S3x384x1024_S1x96x1024_1_192_0) (fun _ => rfl) : Memref sig .tc .vmem S1x96x1024 .bf16)).squeeze S96x1024 squeezes_S1x96x1024_S96x1024 : Memref sig .tc .vmem S96x1024 .bf16)) ((((((Memref.whole cc0_scratch0 : Memref sig .tc .vmem S3x384x1024 .bf16)).slice (Rect.unit (s := S3x384x1024) ![1, 192, 0] S1x96x1024.size inb_S3x384x1024_S1x96x1024_1_192_0) (fun _ => rfl) : Memref sig .tc .vmem S1x96x1024 .bf16)).squeeze S96x1024 squeezes_S1x96x1024_S96x1024 : Memref sig .tc .vmem S96x1024 .bf16)) (((Memref.isWhole_whole cc0_scratch1).wordExact_slice rfl _ wordsbf16_S3x384x1024_S1x96x1024_1_192_0).reshape _ _) (((Memref.isWhole_whole cc0_scratch0).wordExact_slice rfl _ wordsbf16_S3x384x1024_S1x96x1024_1_192_0).reshape _ _)) fun _ =>
        kk ⟨⟩ : Prog (TpuEff nD τ sig (Elt F) Λ₀ .tc) α) := rfl

set_option maxRecDepth 65536 in
theorem part24_nf (c : Dev nD) {α : Type} (kk : PUnit → Prog (TpuEff nD τ sig (Elt F) Λ₀ .tc) α) :
    (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 >>= kk)
      = (.op (.waitDma2 (((((cc0_scratch3).slice (Rect.unit (s := S3x3) ![2, 1] S1x1.size inb_S3x3_S1x1_2_1) : DmaSems sig S1x1)).squeeze S_ squeezes_S1x1_S_ : DmaSems sig S_)).sem ((((((Memref.whole cc0_scratch1 : Memref sig .tc .vmem S3x384x1024 .bf16)).slice (Rect.unit (s := S3x384x1024) ![2, 128, 0] S1x64x1024.size inb_S3x384x1024_S1x64x1024_2_128_0) (fun _ => rfl) : Memref sig .tc .vmem S1x64x1024 .bf16)).squeeze S64x1024 squeezes_S1x64x1024_S64x1024 : Memref sig .tc .vmem S64x1024 .bf16)) ((((((Memref.whole cc0_scratch0 : Memref sig .tc .vmem S3x384x1024 .bf16)).slice (Rect.unit (s := S3x384x1024) ![2, 128, 0] S1x64x1024.size inb_S3x384x1024_S1x64x1024_2_128_0) (fun _ => rfl) : Memref sig .tc .vmem S1x64x1024 .bf16)).squeeze S64x1024 squeezes_S1x64x1024_S64x1024 : Memref sig .tc .vmem S64x1024 .bf16)) (((Memref.isWhole_whole cc0_scratch1).wordExact_slice rfl _ wordsbf16_S3x384x1024_S1x64x1024_2_128_0).reshape _ _) (((Memref.isWhole_whole cc0_scratch0).wordExact_slice rfl _ wordsbf16_S3x384x1024_S1x64x1024_2_128_0).reshape _ _)) fun _ =>
        .op (.waitDma2 (((((cc0_scratch3).slice (Rect.unit (s := S3x3) ![0, 2] S1x1.size inb_S3x3_S1x1_0_2) : DmaSems sig S1x1)).squeeze S_ squeezes_S1x1_S_ : DmaSems sig S_)).sem ((((((Memref.whole cc0_scratch1 : Memref sig .tc .vmem S3x384x1024 .bf16)).slice (Rect.unit (s := S3x384x1024) ![0, 288, 0] S1x96x1024.size inb_S3x384x1024_S1x96x1024_0_288_0) (fun _ => rfl) : Memref sig .tc .vmem S1x96x1024 .bf16)).squeeze S96x1024 squeezes_S1x96x1024_S96x1024 : Memref sig .tc .vmem S96x1024 .bf16)) ((((((Memref.whole cc0_scratch0 : Memref sig .tc .vmem S3x384x1024 .bf16)).slice (Rect.unit (s := S3x384x1024) ![0, 288, 0] S1x96x1024.size inb_S3x384x1024_S1x96x1024_0_288_0) (fun _ => rfl) : Memref sig .tc .vmem S1x96x1024 .bf16)).squeeze S96x1024 squeezes_S1x96x1024_S96x1024 : Memref sig .tc .vmem S96x1024 .bf16)) (((Memref.isWhole_whole cc0_scratch1).wordExact_slice rfl _ wordsbf16_S3x384x1024_S1x96x1024_0_288_0).reshape _ _) (((Memref.isWhole_whole cc0_scratch0).wordExact_slice rfl _ wordsbf16_S3x384x1024_S1x96x1024_0_288_0).reshape _ _)) fun _ =>
        .op (.waitDma2 (((((cc0_scratch3).slice (Rect.unit (s := S3x3) ![1, 2] S1x1.size inb_S3x3_S1x1_1_2) : DmaSems sig S1x1)).squeeze S_ squeezes_S1x1_S_ : DmaSems sig S_)).sem ((((((Memref.whole cc0_scratch1 : Memref sig .tc .vmem S3x384x1024 .bf16)).slice (Rect.unit (s := S3x384x1024) ![1, 288, 0] S1x96x1024.size inb_S3x384x1024_S1x96x1024_1_288_0) (fun _ => rfl) : Memref sig .tc .vmem S1x96x1024 .bf16)).squeeze S96x1024 squeezes_S1x96x1024_S96x1024 : Memref sig .tc .vmem S96x1024 .bf16)) ((((((Memref.whole cc0_scratch0 : Memref sig .tc .vmem S3x384x1024 .bf16)).slice (Rect.unit (s := S3x384x1024) ![1, 288, 0] S1x96x1024.size inb_S3x384x1024_S1x96x1024_1_288_0) (fun _ => rfl) : Memref sig .tc .vmem S1x96x1024 .bf16)).squeeze S96x1024 squeezes_S1x96x1024_S96x1024 : Memref sig .tc .vmem S96x1024 .bf16)) (((Memref.isWhole_whole cc0_scratch1).wordExact_slice rfl _ wordsbf16_S3x384x1024_S1x96x1024_1_288_0).reshape _ _) (((Memref.isWhole_whole cc0_scratch0).wordExact_slice rfl _ wordsbf16_S3x384x1024_S1x96x1024_1_288_0).reshape _ _)) fun _ =>
        kk ⟨⟩ : Prog (TpuEff nD τ sig (Elt F) Λ₀ .tc) α) := rfl

set_option maxRecDepth 65536 in
theorem part25_nf (c : Dev nD) {α : Type} (kk : PUnit → Prog (TpuEff nD τ sig (Elt F) Λ₀ .tc) α) :
    (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c >>= kk)
      = (.op (.waitDma2 (((((cc0_scratch3).slice (Rect.unit (s := S3x3) ![2, 2] S1x1.size inb_S3x3_S1x1_2_2) : DmaSems sig S1x1)).squeeze S_ squeezes_S1x1_S_ : DmaSems sig S_)).sem ((((((Memref.whole cc0_scratch1 : Memref sig .tc .vmem S3x384x1024 .bf16)).slice (Rect.unit (s := S3x384x1024) ![2, 192, 0] S1x64x1024.size inb_S3x384x1024_S1x64x1024_2_192_0) (fun _ => rfl) : Memref sig .tc .vmem S1x64x1024 .bf16)).squeeze S64x1024 squeezes_S1x64x1024_S64x1024 : Memref sig .tc .vmem S64x1024 .bf16)) ((((((Memref.whole cc0_scratch0 : Memref sig .tc .vmem S3x384x1024 .bf16)).slice (Rect.unit (s := S3x384x1024) ![2, 192, 0] S1x64x1024.size inb_S3x384x1024_S1x64x1024_2_192_0) (fun _ => rfl) : Memref sig .tc .vmem S1x64x1024 .bf16)).squeeze S64x1024 squeezes_S1x64x1024_S64x1024 : Memref sig .tc .vmem S64x1024 .bf16)) (((Memref.isWhole_whole cc0_scratch1).wordExact_slice rfl _ wordsbf16_S3x384x1024_S1x64x1024_2_192_0).reshape _ _) (((Memref.isWhole_whole cc0_scratch0).wordExact_slice rfl _ wordsbf16_S3x384x1024_S1x64x1024_2_192_0).reshape _ _)) fun _ =>
        .op (.waitDma2 (((((cc0_scratch5).slice (Rect.unit (s := S3x3) ![0, 1] S1x1.size inb_S3x3_S1x1_0_1) : DmaSems sig S1x1)).squeeze S_ squeezes_S1x1_S_ : DmaSems sig S_)).sem ((((Memref.whole cc0_scratch2 : Memref sig .tc .vmem S1024x1024 .bf16)).slice (Rect.unit (s := S1024x1024) (k0_off5 (c) 0#32 3#32 1#32) S96x1024.size (k0_off5_inb (c) 0)) (fun _ => rfl) : Memref sig .tc .vmem S96x1024 .bf16)) ((((Memref.whole cc0_scratch2 : Memref sig .tc .vmem S1024x1024 .bf16)).slice (Rect.unit (s := S1024x1024) (k0_off5 (c) 0#32 3#32 1#32) S96x1024.size (k0_off5_inb (c) 0)) (fun _ => rfl) : Memref sig .tc .vmem S96x1024 .bf16)) ((Memref.isWhole_whole cc0_scratch2).wordExact_slice rfl _ (k0_off5_wordsbf16 (c) 0)) ((Memref.isWhole_whole cc0_scratch2).wordExact_slice rfl _ (k0_off5_wordsbf16 (c) 0))) fun _ =>
        .op (.waitDma2 (((((cc0_scratch5).slice (Rect.unit (s := S3x3) ![1, 1] S1x1.size inb_S3x3_S1x1_1_1) : DmaSems sig S1x1)).squeeze S_ squeezes_S1x1_S_ : DmaSems sig S_)).sem ((((Memref.whole cc0_scratch2 : Memref sig .tc .vmem S1024x1024 .bf16)).slice (Rect.unit (s := S1024x1024) (k0_off5 (c) 384#32 4#32 3#32) S96x1024.size (k0_off5_inb (c) 1)) (fun _ => rfl) : Memref sig .tc .vmem S96x1024 .bf16)) ((((Memref.whole cc0_scratch2 : Memref sig .tc .vmem S1024x1024 .bf16)).slice (Rect.unit (s := S1024x1024) (k0_off5 (c) 384#32 4#32 3#32) S96x1024.size (k0_off5_inb (c) 1)) (fun _ => rfl) : Memref sig .tc .vmem S96x1024 .bf16)) ((Memref.isWhole_whole cc0_scratch2).wordExact_slice rfl _ (k0_off5_wordsbf16 (c) 1)) ((Memref.isWhole_whole cc0_scratch2).wordExact_slice rfl _ (k0_off5_wordsbf16 (c) 1))) fun _ =>
        .op (.waitDma2 (((((cc0_scratch5).slice (Rect.unit (s := S3x3) ![2, 1] S1x1.size inb_S3x3_S1x1_2_1) : DmaSems sig S1x1)).squeeze S_ squeezes_S1x1_S_ : DmaSems sig S_)).sem ((((Memref.whole cc0_scratch2 : Memref sig .tc .vmem S1024x1024 .bf16)).slice (Rect.unit (s := S1024x1024) (k0_off6 (c)) S64x1024.size (k0_off6_inb (c))) (fun _ => rfl) : Memref sig .tc .vmem S64x1024 .bf16)) ((((Memref.whole cc0_scratch2 : Memref sig .tc .vmem S1024x1024 .bf16)).slice (Rect.unit (s := S1024x1024) (k0_off6 (c)) S64x1024.size (k0_off6_inb (c))) (fun _ => rfl) : Memref sig .tc .vmem S64x1024 .bf16)) ((Memref.isWhole_whole cc0_scratch2).wordExact_slice rfl _ (k0_off6_wordsbf16 (c))) ((Memref.isWhole_whole cc0_scratch2).wordExact_slice rfl _ (k0_off6_wordsbf16 (c)))) fun _ =>
        .op (.waitDma2 (((((cc0_scratch5).slice (Rect.unit (s := S3x3) ![0, 0] S1x1.size inb_S3x3_S1x1_0_0) : DmaSems sig S1x1)).squeeze S_ squeezes_S1x1_S_ : DmaSems sig S_)).sem ((((Memref.whole cc0_scratch2 : Memref sig .tc .vmem S1024x1024 .bf16)).slice (Rect.unit (s := S1024x1024) (k0_off7 (c) 0#32 3#32 1#32) S192x1024.size (k0_off7_inb (c) 0)) (fun _ => rfl) : Memref sig .tc .vmem S192x1024 .bf16)) ((((Memref.whole cc0_scratch2 : Memref sig .tc .vmem S1024x1024 .bf16)).slice (Rect.unit (s := S1024x1024) (k0_off7 (c) 0#32 3#32 1#32) S192x1024.size (k0_off7_inb (c) 0)) (fun _ => rfl) : Memref sig .tc .vmem S192x1024 .bf16)) ((Memref.isWhole_whole cc0_scratch2).wordExact_slice rfl _ (k0_off7_wordsbf16 (c) 0)) ((Memref.isWhole_whole cc0_scratch2).wordExact_slice rfl _ (k0_off7_wordsbf16 (c) 0))) fun _ =>
        kk ⟨⟩ : Prog (TpuEff nD τ sig (Elt F) Λ₀ .tc) α) := rfl

set_option maxRecDepth 65536 in
theorem tail2_nf (c : Dev nD) :
    tail2Prog (F := F) c
      = (.op (.waitDma2 (((((cc0_scratch5).slice (Rect.unit (s := S3x3) ![1, 0] S1x1.size inb_S3x3_S1x1_1_0) : DmaSems sig S1x1)).squeeze S_ squeezes_S1x1_S_ : DmaSems sig S_)).sem ((((Memref.whole cc0_scratch2 : Memref sig .tc .vmem S1024x1024 .bf16)).slice (Rect.unit (s := S1024x1024) (k0_off7 (c) 384#32 4#32 3#32) S192x1024.size (k0_off7_inb (c) 1)) (fun _ => rfl) : Memref sig .tc .vmem S192x1024 .bf16)) ((((Memref.whole cc0_scratch2 : Memref sig .tc .vmem S1024x1024 .bf16)).slice (Rect.unit (s := S1024x1024) (k0_off7 (c) 384#32 4#32 3#32) S192x1024.size (k0_off7_inb (c) 1)) (fun _ => rfl) : Memref sig .tc .vmem S192x1024 .bf16)) ((Memref.isWhole_whole cc0_scratch2).wordExact_slice rfl _ (k0_off7_wordsbf16 (c) 1)) ((Memref.isWhole_whole cc0_scratch2).wordExact_slice rfl _ (k0_off7_wordsbf16 (c) 1))) fun _ =>
        .op (.waitDma2 (((((cc0_scratch5).slice (Rect.unit (s := S3x3) ![2, 0] S1x1.size inb_S3x3_S1x1_2_0) : DmaSems sig S1x1)).squeeze S_ squeezes_S1x1_S_ : DmaSems sig S_)).sem ((((Memref.whole cc0_scratch2 : Memref sig .tc .vmem S1024x1024 .bf16)).slice (Rect.unit (s := S1024x1024) (k0_off8 (c)) S128x1024.size (k0_off8_inb (c))) (fun _ => rfl) : Memref sig .tc .vmem S128x1024 .bf16)) ((((Memref.whole cc0_scratch2 : Memref sig .tc .vmem S1024x1024 .bf16)).slice (Rect.unit (s := S1024x1024) (k0_off8 (c)) S128x1024.size (k0_off8_inb (c))) (fun _ => rfl) : Memref sig .tc .vmem S128x1024 .bf16)) ((Memref.isWhole_whole cc0_scratch2).wordExact_slice rfl _ (k0_off8_wordsbf16 (c))) ((Memref.isWhole_whole cc0_scratch2).wordExact_slice rfl _ (k0_off8_wordsbf16 (c)))) fun _ =>
        Prog.ret ⟨⟩ : Prog (TpuEff nD τ sig (Elt F) Λ₀ .tc) PUnit) := rfl

section Inv
variable (m : (ℓ : Loc nD τ sig) → Buf (Elt F) ℓ) (K : Dev nD × CIx → ℕ)
/-- A cell's invariant, out of the records. -/
theorem inv_own (A : Fin 4) (b k : Fin 3) (d : Dev nD) :
    records (F := F) m K ⊢ cellInv ER (Rd m) (K (d, some (A, b, k))) (dcell A b k d) := by
  have h : (bigSep Finset.univ fun ck : Dev nD × CIx => (cellInv ER (Rd m) (K ck) (kcell ck) : sProp 𝕄))
      ⊢ cellInv ER (Rd m) (K (d, some (A, b, k))) (kcell (d, some (A, b, k))) := bigSep_elim (Finset.mem_univ _)
  unfold records
  iintro ⟨HI, HR⟩
  iapply h
  iexact HI
instance records_pers : BI.Persistent (records (F := F) m K) := by unfold records; infer_instance
end Inv

omit [FloatOps F] in
/-- A product over the thirty-six places (array, butterfly, stage), written out. -/
theorem bigSep_433 (Φ : Fin 4 × Fin 3 × Fin 3 → sProp 𝕄) :
    bigSep Finset.univ Φ = bigSepL [((0 : Fin 4), (0 : Fin 3), (0 : Fin 3)), ((0 : Fin 4), (0 : Fin 3), (1 : Fin 3)), ((0 : Fin 4), (0 : Fin 3), (2 : Fin 3)), ((0 : Fin 4), (1 : Fin 3), (0 : Fin 3)), ((0 : Fin 4), (1 : Fin 3), (1 : Fin 3)), ((0 : Fin 4), (1 : Fin 3), (2 : Fin 3)), ((0 : Fin 4), (2 : Fin 3), (0 : Fin 3)), ((0 : Fin 4), (2 : Fin 3), (1 : Fin 3)), ((0 : Fin 4), (2 : Fin 3), (2 : Fin 3)), ((1 : Fin 4), (0 : Fin 3), (0 : Fin 3)), ((1 : Fin 4), (0 : Fin 3), (1 : Fin 3)), ((1 : Fin 4), (0 : Fin 3), (2 : Fin 3)), ((1 : Fin 4), (1 : Fin 3), (0 : Fin 3)), ((1 : Fin 4), (1 : Fin 3), (1 : Fin 3)), ((1 : Fin 4), (1 : Fin 3), (2 : Fin 3)), ((1 : Fin 4), (2 : Fin 3), (0 : Fin 3)), ((1 : Fin 4), (2 : Fin 3), (1 : Fin 3)), ((1 : Fin 4), (2 : Fin 3), (2 : Fin 3)), ((2 : Fin 4), (0 : Fin 3), (0 : Fin 3)), ((2 : Fin 4), (0 : Fin 3), (1 : Fin 3)), ((2 : Fin 4), (0 : Fin 3), (2 : Fin 3)), ((2 : Fin 4), (1 : Fin 3), (0 : Fin 3)), ((2 : Fin 4), (1 : Fin 3), (1 : Fin 3)), ((2 : Fin 4), (1 : Fin 3), (2 : Fin 3)), ((2 : Fin 4), (2 : Fin 3), (0 : Fin 3)), ((2 : Fin 4), (2 : Fin 3), (1 : Fin 3)), ((2 : Fin 4), (2 : Fin 3), (2 : Fin 3)), ((3 : Fin 4), (0 : Fin 3), (0 : Fin 3)), ((3 : Fin 4), (0 : Fin 3), (1 : Fin 3)), ((3 : Fin 4), (0 : Fin 3), (2 : Fin 3)), ((3 : Fin 4), (1 : Fin 3), (0 : Fin 3)), ((3 : Fin 4), (1 : Fin 3), (1 : Fin 3)), ((3 : Fin 4), (1 : Fin 3), (2 : Fin 3)), ((3 : Fin 4), (2 : Fin 3), (0 : Fin 3)), ((3 : Fin 4), (2 : Fin 3), (1 : Fin 3)), ((3 : Fin 4), (2 : Fin 3), (2 : Fin 3))] Φ :=
  bigSep_univ_eq_bigSepL _ (by decide) (by decide) Φ

omit [FloatOps F] in
/-- The thirty-six counters at zero, written out. -/
theorem semVals_eq (c : Dev nD) :
    (bigSep Finset.univ fun x : Fin 4 × Fin 3 × Fin 3 => (semVal (dcell x.1 x.2.1 x.2.2 c) 0 : sProp 𝕄))
      = iprop(semVal (dcell 0 0 0 c) 0 ∗ semVal (dcell 0 0 1 c) 0 ∗ semVal (dcell 0 0 2 c) 0 ∗ semVal (dcell 0 1 0 c) 0 ∗ semVal (dcell 0 1 1 c) 0 ∗ semVal (dcell 0 1 2 c) 0 ∗ semVal (dcell 0 2 0 c) 0 ∗ semVal (dcell 0 2 1 c) 0 ∗ semVal (dcell 0 2 2 c) 0 ∗ semVal (dcell 1 0 0 c) 0 ∗ semVal (dcell 1 0 1 c) 0 ∗ semVal (dcell 1 0 2 c) 0 ∗ semVal (dcell 1 1 0 c) 0 ∗ semVal (dcell 1 1 1 c) 0 ∗ semVal (dcell 1 1 2 c) 0 ∗ semVal (dcell 1 2 0 c) 0 ∗ semVal (dcell 1 2 1 c) 0 ∗ semVal (dcell 1 2 2 c) 0 ∗ semVal (dcell 2 0 0 c) 0 ∗ semVal (dcell 2 0 1 c) 0 ∗ semVal (dcell 2 0 2 c) 0 ∗ semVal (dcell 2 1 0 c) 0 ∗ semVal (dcell 2 1 1 c) 0 ∗ semVal (dcell 2 1 2 c) 0 ∗ semVal (dcell 2 2 0 c) 0 ∗ semVal (dcell 2 2 1 c) 0 ∗ semVal (dcell 2 2 2 c) 0 ∗ semVal (dcell 3 0 0 c) 0 ∗ semVal (dcell 3 0 1 c) 0 ∗ semVal (dcell 3 0 2 c) 0 ∗ semVal (dcell 3 1 0 c) 0 ∗ semVal (dcell 3 1 1 c) 0 ∗ semVal (dcell 3 1 2 c) 0 ∗ semVal (dcell 3 2 0 c) 0 ∗ semVal (dcell 3 2 1 c) 0 ∗ semVal (dcell 3 2 2 c) 0) := by
  rw [bigSep_433]
  simp only [bigSepL_cons_cons, bigSepL_singleton]
  rfl

/-! The semaphore at (b, k) of the exchange's and of the gather's send arrays is the cell's. -/
theorem sem_000 : semAt cc0_scratch3 0 0 inb_S3x3_S1x1_0_0 = dsem 0 0 0 := by decide
theorem sem_001 : semAt cc0_scratch3 0 1 inb_S3x3_S1x1_0_1 = dsem 0 0 1 := by decide
theorem sem_002 : semAt cc0_scratch3 0 2 inb_S3x3_S1x1_0_2 = dsem 0 0 2 := by decide
theorem sem_010 : semAt cc0_scratch3 1 0 inb_S3x3_S1x1_1_0 = dsem 0 1 0 := by decide
theorem sem_011 : semAt cc0_scratch3 1 1 inb_S3x3_S1x1_1_1 = dsem 0 1 1 := by decide
theorem sem_012 : semAt cc0_scratch3 1 2 inb_S3x3_S1x1_1_2 = dsem 0 1 2 := by decide
theorem sem_020 : semAt cc0_scratch3 2 0 inb_S3x3_S1x1_2_0 = dsem 0 2 0 := by decide
theorem sem_021 : semAt cc0_scratch3 2 1 inb_S3x3_S1x1_2_1 = dsem 0 2 1 := by decide
theorem sem_022 : semAt cc0_scratch3 2 2 inb_S3x3_S1x1_2_2 = dsem 0 2 2 := by decide
theorem sem_200 : semAt cc0_scratch5 0 0 inb_S3x3_S1x1_0_0 = dsem 2 0 0 := by decide
theorem sem_201 : semAt cc0_scratch5 0 1 inb_S3x3_S1x1_0_1 = dsem 2 0 1 := by decide
theorem sem_210 : semAt cc0_scratch5 1 0 inb_S3x3_S1x1_1_0 = dsem 2 1 0 := by decide
theorem sem_211 : semAt cc0_scratch5 1 1 inb_S3x3_S1x1_1_1 = dsem 2 1 1 := by decide
theorem sem_220 : semAt cc0_scratch5 2 0 inb_S3x3_S1x1_2_0 = dsem 2 2 0 := by decide
theorem sem_221 : semAt cc0_scratch5 2 1 inb_S3x3_S1x1_2_1 = dsem 2 2 1 := by decide

/-! What a departure of the gather returns, spelt out: the share of its rows lent to the copy. -/
theorem agS00 (m : (ℓ : Loc nD τ sig) → Buf (Elt F) ℓ) (c : Dev nD) : (dpay m 2 0 0 c : sProp 𝕄) = iprop(∃ f, (aRows00 c).view.loc (c : Thread nD τ) ↦[(aRows00 c).view.set]{fullShare.right.left} f) := rfl
theorem agP00 (c : Dev nD) : (agSendPay (F := F) 0 0 c : sProp 𝕄) = iprop(∃ f, (aRows00 c).view.loc (c : Thread nD τ) ↦[(aRows00 c).view.set]{fullShare.right.left} f) := rfl
theorem agS01 (m : (ℓ : Loc nD τ sig) → Buf (Elt F) ℓ) (c : Dev nD) : (dpay m 2 0 1 c : sProp 𝕄) = iprop(∃ f, (aRows01 c).view.loc (c : Thread nD τ) ↦[(aRows01 c).view.set]{fullShare.left} f) := rfl
theorem agP01 (c : Dev nD) : (agSendPay (F := F) 0 1 c : sProp 𝕄) = iprop(∃ f, (aRows01 c).view.loc (c : Thread nD τ) ↦[(aRows01 c).view.set]{fullShare.left} f) := rfl
theorem agS10 (m : (ℓ : Loc nD τ sig) → Buf (Elt F) ℓ) (c : Dev nD) : (dpay m 2 1 0 c : sProp 𝕄) = iprop(∃ f, (aRows10 c).view.loc (c : Thread nD τ) ↦[(aRows10 c).view.set]{fullShare.right.left} f) := rfl
theorem agP10 (c : Dev nD) : (agSendPay (F := F) 1 0 c : sProp 𝕄) = iprop(∃ f, (aRows10 c).view.loc (c : Thread nD τ) ↦[(aRows10 c).view.set]{fullShare.right.left} f) := rfl
theorem agS11 (m : (ℓ : Loc nD τ sig) → Buf (Elt F) ℓ) (c : Dev nD) : (dpay m 2 1 1 c : sProp 𝕄) = iprop(∃ f, (aRows11 c).view.loc (c : Thread nD τ) ↦[(aRows11 c).view.set]{fullShare.left} f) := rfl
theorem agP11 (c : Dev nD) : (agSendPay (F := F) 1 1 c : sProp 𝕄) = iprop(∃ f, (aRows11 c).view.loc (c : Thread nD τ) ↦[(aRows11 c).view.set]{fullShare.left} f) := rfl
theorem agS20 (m : (ℓ : Loc nD τ sig) → Buf (Elt F) ℓ) (c : Dev nD) : (dpay m 2 2 0 c : sProp 𝕄) = iprop(∃ f, (aRows20 c).view.loc (c : Thread nD τ) ↦[(aRows20 c).view.set]{fullShare.right.left} f) := rfl
theorem agP20 (c : Dev nD) : (agSendPay (F := F) 2 0 c : sProp 𝕄) = iprop(∃ f, (aRows20 c).view.loc (c : Thread nD τ) ↦[(aRows20 c).view.set]{fullShare.right.left} f) := rfl
theorem agS21 (m : (ℓ : Loc nD τ sig) → Buf (Elt F) ℓ) (c : Dev nD) : (dpay m 2 2 1 c : sProp 𝕄) = iprop(∃ f, (aRows21 c).view.loc (c : Thread nD τ) ↦[(aRows21 c).view.set]{fullShare.left} f) := rfl
theorem agP21 (c : Dev nD) : (agSendPay (F := F) 2 1 c : sProp 𝕄) = iprop(∃ f, (aRows21 c).view.loc (c : Thread nD τ) ↦[(aRows21 c).view.set]{fullShare.left} f) := rfl

section Steps
variable (m : (ℓ : Loc nD τ sig) → Buf (Elt F) ℓ) (K : Dev nD × CIx → ℕ)

/-- A wait on one of the device's own DMA cells in use, with nothing owed: nothing stands in its way; the cell moves to
    round 1 and hands back what its departure lent. The semaphore is the program's own spelling, equal to the cell's. -/
theorem wait_own (A : Fin 4) (b k : Fin 3) (c : Dev nD) (hu : used A k) {sS : DmaSem sig} (hS : sS = dsem A b k)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt A b k) {α : Type} {Q : α → sProp 𝕄}
    {kk : PUnit → Prog (TpuEff nD τ sig (Elt F) Λ₀ .tc) α} {O : CellTallies nD τ sig Unit} (hO : O = 0) {W : Waits sig Unit} :
    iprop(records m K ∗ cred (tallyAt (dcell A b k c) () (namt A b k)) ∗ owes (c : Thread nD τ) O W ∗ atPos ER (dcell A b k c) 0 ∅ 0)
      ⊢ iprop(((owes (c : Thread nD τ) O (insert (SemLoc.dma (dsem A b k), ()) W) ∗ atPos ER (dcell A b k c) 1 ∅ 0 ∗ dpay m A b k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src dst hsrc hdst) kk) Q) := by
  subst hS
  iintro ⟨#Hrec, C, HO, P⟩ Hk
  iapply (Tables.wp_wait_dcell m A b k c hu (κ := K (c, some (A, b, k))) (hN := hN)) $$ [C HO P]
  · isplitr; · iapply (inv_own m K A b k c); iexact Hrec
    isplitl [C]; · iexact C
    isplitl [HO]; · iexact HO
    isplitr; · rw [hO, MayWait_zero]; iempintro
    iexact P
  iintro ⟨HO, P, -, S⟩
  iapply Hk
  isplitl [HO]; · iexact HO
  isplitl [P]; · iexact P
  iexact S

/-- The same with what the cell hands back named by the caller. -/
theorem wait_own_as (A : Fin 4) (b k : Fin 3) (c : Dev nD) (hu : used A k) {sS : DmaSem sig} (hS : sS = dsem A b k)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = namt A b k) {α : Type} {Q : α → sProp 𝕄}
    {kk : PUnit → Prog (TpuEff nD τ sig (Elt F) Λ₀ .tc) α} {O : CellTallies nD τ sig Unit} (hO : O = 0) {W : Waits sig Unit}
    (P : sProp 𝕄) (hP : dpay m A b k c = P) :
    iprop(records m K ∗ cred (tallyAt (dcell A b k c) () (namt A b k)) ∗ owes (c : Thread nD τ) O W ∗ atPos ER (dcell A b k c) 0 ∅ 0)
      ⊢ iprop(((owes (c : Thread nD τ) O (insert (SemLoc.dma (dsem A b k), ()) W) ∗ atPos ER (dcell A b k c) 1 ∅ 0 ∗ P)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src dst hsrc hdst) kk) Q) := by
  subst hP
  exact wait_own m K A b k c hu hS hN hO

set_option maxRecDepth 8192 in
/-- The twenty-third part: the waits for the exchange's departures at (2, 0), (0, 1), (1, 1). -/
theorem part23_run (c : Dev nD) (W : Waits sig Unit) (O : CellTallies nD τ sig Unit) (hO : O = 0) {α : Type} (kk : PUnit → Prog (TpuEff nD τ sig (Elt F) Λ₀ .tc) α) (Q : α → sProp 𝕄) :
    iprop(records m K ∗ owes (c : Thread nD τ) O W
        ∗ cred (tallyAt (dcell 0 2 0 c) () (namt 0 2 0)) ∗ atPos ER (dcell 0 2 0 c) 0 ∅ 0
        ∗ cred (tallyAt (dcell 0 0 1 c) () (namt 0 0 1)) ∗ atPos ER (dcell 0 0 1 c) 0 ∅ 0
        ∗ cred (tallyAt (dcell 0 1 1 c) () (namt 0 1 1)) ∗ atPos ER (dcell 0 1 1 c) 0 ∅ 0)
      ⊢ iprop(((∃ W' : Waits sig Unit, owes (c : Thread nD τ) O W'
              ∗ atPos ER (dcell 0 2 0 c) 1 ∅ 0 ∗ rsSendPay 2 0 c
              ∗ atPos ER (dcell 0 0 1 c) 1 ∅ 0 ∗ rsSendPay 0 1 c
              ∗ atPos ER (dcell 0 1 1 c) 1 ∅ 0 ∗ rsSendPay 1 1 c)
            -∗ wp frame (wpE (defs₀ (F := F)) 𝒱₀ (c : Thread nD τ) none) Set.univ (kk ⟨⟩) Q)
          -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 >>= kk) Q) := by
  rw [part23_nf c]
  iintro ⟨#Hrec, HO, C0, P0, C1, P1, C2, P2⟩ Hk
  iapply (wait_own_as m K 0 2 0 c (Or.inl (by decide)) sem_020 (hN := Tables.credit_s20) hO _ (Tables.dpay_0 m 2 0 c)) $$ [C0 HO P0]
  · isplitr; · iexact Hrec
    isplitl [C0]; · iexact C0
    isplitl [HO]; · iexact HO
    iexact P0
  iintro ⟨HO, P0, S0⟩
  iapply (wait_own_as m K 0 0 1 c (Or.inl (by decide)) sem_001 (hN := Tables.credit_s01) hO _ (Tables.dpay_0 m 0 1 c)) $$ [C1 HO P1]
  · isplitr; · iexact Hrec
    isplitl [C1]; · iexact C1
    isplitl [HO]; · iexact HO
    iexact P1
  iintro ⟨HO, P1, S1⟩
  iapply (wait_own_as m K 0 1 1 c (Or.inl (by decide)) sem_011 (hN := Tables.credit_s11) hO _ (Tables.dpay_0 m 1 1 c)) $$ [C2 HO P2]
  · isplitr; · iexact Hrec
    isplitl [C2]; · iexact C2
    isplitl [HO]; · iexact HO
    iexact P2
  iintro ⟨HO, P2, S2⟩
  iapply Hk
  iexists _
  isplitl [HO]; · iexact HO
  isplitl [P0]; · iexact P0
  isplitl [S0]; · iexact S0
  isplitl [P1]; · iexact P1
  isplitl [S1]; · iexact S1
  isplitl [P2]; · iexact P2
  iexact S2

set_option maxRecDepth 8192 in
/-- The twenty-fourth part: the waits for the exchange's departures at (2, 1), (0, 2), (1, 2). -/
theorem part24_run (c : Dev nD) (W : Waits sig Unit) (O : CellTallies nD τ sig Unit) (hO : O = 0) {α : Type} (kk : PUnit → Prog (TpuEff nD τ sig (Elt F) Λ₀ .tc) α) (Q : α → sProp 𝕄) :
    iprop(records m K ∗ owes (c : Thread nD τ) O W
        ∗ cred (tallyAt (dcell 0 2 1 c) () (namt 0 2 1)) ∗ atPos ER (dcell 0 2 1 c) 0 ∅ 0
        ∗ cred (tallyAt (dcell 0 0 2 c) () (namt 0 0 2)) ∗ atPos ER (dcell 0 0 2 c) 0 ∅ 0
        ∗ cred (tallyAt (dcell 0 1 2 c) () (namt 0 1 2)) ∗ atPos ER (dcell 0 1 2 c) 0 ∅ 0)
      ⊢ iprop(((∃ W' : Waits sig Unit, owes (c : Thread nD τ) O W'
              ∗ atPos ER (dcell 0 2 1 c) 1 ∅ 0 ∗ rsSendPay 2 1 c
              ∗ atPos ER (dcell 0 0 2 c) 1 ∅ 0 ∗ rsSendPay 0 2 c
              ∗ atPos ER (dcell 0 1 2 c) 1 ∅ 0 ∗ rsSendPay 1 2 c)
            -∗ wp frame (wpE (defs₀ (F := F)) 𝒱₀ (c : Thread nD τ) none) Set.univ (kk ⟨⟩) Q)
          -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 >>= kk) Q) := by
  rw [part24_nf c]
  iintro ⟨#Hrec, HO, C0, P0, C1, P1, C2, P2⟩ Hk
  iapply (wait_own_as m K 0 2 1 c (Or.inl (by decide)) sem_021 (hN := Tables.credit_s21) hO _ (Tables.dpay_0 m 2 1 c)) $$ [C0 HO P0]
  · isplitr; · iexact Hrec
    isplitl [C0]; · iexact C0
    isplitl [HO]; · iexact HO
    iexact P0
  iintro ⟨HO, P0, S0⟩
  iapply (wait_own_as m K 0 0 2 c (Or.inl (by decide)) sem_002 (hN := Tables.credit_s02) hO _ (Tables.dpay_0 m 0 2 c)) $$ [C1 HO P1]
  · isplitr; · iexact Hrec
    isplitl [C1]; · iexact C1
    isplitl [HO]; · iexact HO
    iexact P1
  iintro ⟨HO, P1, S1⟩
  iapply (wait_own_as m K 0 1 2 c (Or.inl (by decide)) sem_012 (hN := Tables.credit_s12) hO _ (Tables.dpay_0 m 1 2 c)) $$ [C2 HO P2]
  · isplitr; · iexact Hrec
    isplitl [C2]; · iexact C2
    isplitl [HO]; · iexact HO
    iexact P2
  iintro ⟨HO, P2, S2⟩
  iapply Hk
  iexists _
  isplitl [HO]; · iexact HO
  isplitl [P0]; · iexact P0
  isplitl [S0]; · iexact S0
  isplitl [P1]; · iexact P1
  isplitl [S1]; · iexact S1
  isplitl [P2]; · iexact P2
  iexact S2

set_option maxRecDepth 8192 in
/-- The twenty-fifth part: the wait for the exchange's last departure, at (2, 2), and for the gather's departures at (0, 1), (1, 1), (2, 1), (0, 0). -/
theorem part25_run (c : Dev nD) (W : Waits sig Unit) (O : CellTallies nD τ sig Unit) (hO : O = 0) {α : Type} (kk : PUnit → Prog (TpuEff nD τ sig (Elt F) Λ₀ .tc) α) (Q : α → sProp 𝕄) :
    iprop(records m K ∗ owes (c : Thread nD τ) O W
        ∗ cred (tallyAt (dcell 0 2 2 c) () (namt 0 2 2)) ∗ atPos ER (dcell 0 2 2 c) 0 ∅ 0
        ∗ cred (tallyAt (dcell 2 0 1 c) () (namt 2 0 1)) ∗ atPos ER (dcell 2 0 1 c) 0 ∅ 0
        ∗ cred (tallyAt (dcell 2 1 1 c) () (namt 2 1 1)) ∗ atPos ER (dcell 2 1 1 c) 0 ∅ 0
        ∗ cred (tallyAt (dcell 2 2 1 c) () (namt 2 2 1)) ∗ atPos ER (dcell 2 2 1 c) 0 ∅ 0
        ∗ cred (tallyAt (dcell 2 0 0 c) () (namt 2 0 0)) ∗ atPos ER (dcell 2 0 0 c) 0 ∅ 0)
      ⊢ iprop(((∃ W' : Waits sig Unit, owes (c : Thread nD τ) O W'
              ∗ atPos ER (dcell 0 2 2 c) 1 ∅ 0 ∗ rsSendPay 2 2 c
              ∗ atPos ER (dcell 2 0 1 c) 1 ∅ 0 ∗ (∃ f, (aRows01 c).view.loc (c : Thread nD τ) ↦[(aRows01 c).view.set]{fullShare.left} f)
              ∗ atPos ER (dcell 2 1 1 c) 1 ∅ 0 ∗ (∃ f, (aRows11 c).view.loc (c : Thread nD τ) ↦[(aRows11 c).view.set]{fullShare.left} f)
              ∗ atPos ER (dcell 2 2 1 c) 1 ∅ 0 ∗ (∃ f, (aRows21 c).view.loc (c : Thread nD τ) ↦[(aRows21 c).view.set]{fullShare.left} f)
              ∗ atPos ER (dcell 2 0 0 c) 1 ∅ 0 ∗ (∃ f, (aRows00 c).view.loc (c : Thread nD τ) ↦[(aRows00 c).view.set]{fullShare.right.left} f))
            -∗ wp frame (wpE (defs₀ (F := F)) 𝒱₀ (c : Thread nD τ) none) Set.univ (kk ⟨⟩) Q)
          -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c >>= kk) Q) := by
  rw [part25_nf c]
  iintro ⟨#Hrec, HO, C0, P0, C1, P1, C2, P2, C3, P3, C4, P4⟩ Hk
  iapply (wait_own_as m K 0 2 2 c (Or.inl (by decide)) sem_022 (hN := Tables.credit_s22) hO _ (Tables.dpay_0 m 2 2 c)) $$ [C0 HO P0]
  · isplitr; · iexact Hrec
    isplitl [C0]; · iexact C0
    isplitl [HO]; · iexact HO
    iexact P0
  iintro ⟨HO, P0, S0⟩
  iapply (wait_own_as m K 2 0 1 c (Or.inr (by decide)) sem_201 (hN := ((Tables.credit_a01 c).trans (Tables.namt_2_eq_3 0 1).symm)) hO _ (agS01 m c)) $$ [C1 HO P1]
  · isplitr; · iexact Hrec
    isplitl [C1]; · iexact C1
    isplitl [HO]; · iexact HO
    iexact P1
  iintro ⟨HO, P1, S1⟩
  iapply (wait_own_as m K 2 1 1 c (Or.inr (by decide)) sem_211 (hN := ((Tables.credit_a11 c).trans (Tables.namt_2_eq_3 1 1).symm)) hO _ (agS11 m c)) $$ [C2 HO P2]
  · isplitr; · iexact Hrec
    isplitl [C2]; · iexact C2
    isplitl [HO]; · iexact HO
    iexact P2
  iintro ⟨HO, P2, S2⟩
  iapply (wait_own_as m K 2 2 1 c (Or.inr (by decide)) sem_221 (hN := ((Tables.credit_a21 c).trans (Tables.namt_2_eq_3 2 1).symm)) hO _ (agS21 m c)) $$ [C3 HO P3]
  · isplitr; · iexact Hrec
    isplitl [C3]; · iexact C3
    isplitl [HO]; · iexact HO
    iexact P3
  iintro ⟨HO, P3, S3⟩
  iapply (wait_own_as m K 2 0 0 c (Or.inr (by decide)) sem_200 (hN := ((Tables.credit_a00 c).trans (Tables.namt_2_eq_3 0 0).symm)) hO _ (agS00 m c)) $$ [C4 HO P4]
  · isplitr; · iexact Hrec
    isplitl [C4]; · iexact C4
    isplitl [HO]; · iexact HO
    iexact P4
  iintro ⟨HO, P4, S4⟩
  iapply Hk
  iexists _
  isplitl [HO]; · iexact HO
  isplitl [P0]; · iexact P0
  isplitl [S0]; · iexact S0
  isplitl [P1]; · iexact P1
  isplitl [S1]; · iexact S1
  isplitl [P2]; · iexact P2
  isplitl [S2]; · iexact S2
  isplitl [P3]; · iexact P3
  isplitl [S3]; · iexact S3
  isplitl [P4]; · iexact P4
  iexact S4

set_option maxRecDepth 8192 in
/-- The body's last lines: the waits for the gather's departures at (1, 0) and (2, 0). -/
theorem tail2_run (c : Dev nD) (W : Waits sig Unit) (O : CellTallies nD τ sig Unit) (hO : O = 0) (Q : PUnit → sProp 𝕄) :
    iprop(records m K ∗ owes (c : Thread nD τ) O W
        ∗ cred (tallyAt (dcell 2 1 0 c) () (namt 2 1 0)) ∗ atPos ER (dcell 2 1 0 c) 0 ∅ 0
        ∗ cred (tallyAt (dcell 2 2 0 c) () (namt 2 2 0)) ∗ atPos ER (dcell 2 2 0 c) 0 ∅ 0)
      ⊢ iprop(((∃ W' : Waits sig Unit, owes (c : Thread nD τ) O W'
              ∗ atPos ER (dcell 2 1 0 c) 1 ∅ 0 ∗ (∃ f, (aRows10 c).view.loc (c : Thread nD τ) ↦[(aRows10 c).view.set]{fullShare.right.left} f)
              ∗ atPos ER (dcell 2 2 0 c) 1 ∅ 0 ∗ (∃ f, (aRows20 c).view.loc (c : Thread nD τ) ↦[(aRows20 c).view.set]{fullShare.right.left} f))
            -∗ wp frame (wpE (defs₀ (F := F)) 𝒱₀ (c : Thread nD τ) none) Set.univ (.ret ⟨⟩) Q)
          -∗ wp frame (wpE (defs₀ (F := F)) 𝒱₀ (c : Thread nD τ) none) Set.univ (tail2Prog (F := F) c) Q) := by
  rw [tail2_nf c]
  iintro ⟨#Hrec, HO, C0, P0, C1, P1⟩ Hk
  iapply (wait_own_as m K 2 1 0 c (Or.inr (by decide)) sem_210 (hN := ((Tables.credit_a10 c).trans (Tables.namt_2_eq_3 1 0).symm)) hO _ (agS10 m c)) $$ [C0 HO P0]
  · isplitr; · iexact Hrec
    isplitl [C0]; · iexact C0
    isplitl [HO]; · iexact HO
    iexact P0
  iintro ⟨HO, P0, S0⟩
  iapply (wait_own_as m K 2 2 0 c (Or.inr (by decide)) sem_220 (hN := ((Tables.credit_a20 c).trans (Tables.namt_2_eq_3 2 0).symm)) hO _ (agS20 m c)) $$ [C1 HO P1]
  · isplitr; · iexact Hrec
    isplitl [C1]; · iexact C1
    isplitl [HO]; · iexact HO
    iexact P1
  iintro ⟨HO, P1, S1⟩
  iapply Hk
  iexists _
  isplitl [HO]; · iexact HO
  isplitl [P0]; · iexact P0
  isplitl [S0]; · iexact S0
  isplitl [P1]; · iexact P1
  iexact S1

/-- The nine cells of an array in use close after their rounds: their counters are zero and the device's own again. -/
theorem close_full (A : Fin 4) (c : Dev nD) :
    iprop(records m K ∗ atPos ER (dcell A 0 0 c) 1 ∅ 0 ∗ atPos ER (dcell A 0 1 c) 1 ∅ 0 ∗ atPos ER (dcell A 0 2 c) 1 ∅ 0 ∗ atPos ER (dcell A 1 0 c) 1 ∅ 0 ∗ atPos ER (dcell A 1 1 c) 1 ∅ 0 ∗ atPos ER (dcell A 1 2 c) 1 ∅ 0 ∗ atPos ER (dcell A 2 0 c) 1 ∅ 0 ∗ atPos ER (dcell A 2 1 c) 1 ∅ 0 ∗ atPos ER (dcell A 2 2 c) 1 ∅ 0)
      ⊢ iprop(|={Set.univ}=> (semVal (dcell A 0 0 c) 0 ∗ semVal (dcell A 0 1 c) 0 ∗ semVal (dcell A 0 2 c) 0 ∗ semVal (dcell A 1 0 c) 0 ∗ semVal (dcell A 1 1 c) 0 ∗ semVal (dcell A 1 2 c) 0 ∗ semVal (dcell A 2 0 c) 0 ∗ semVal (dcell A 2 1 c) 0 ∗ semVal (dcell A 2 2 c) 0)) := by
  iintro ⟨#Hrec, P00, P01, P02, P10, P11, P12, P20, P21, P22⟩
  imod (Tables.close_dcell m A 0 0 c (κ := K (c, some (A, 0, 0)))) $$ [P00] with Z00
  · isplitr; · iapply (inv_own m K A 0 0 c); iexact Hrec
    iexact P00
  imod (Tables.close_dcell m A 0 1 c (κ := K (c, some (A, 0, 1)))) $$ [P01] with Z01
  · isplitr; · iapply (inv_own m K A 0 1 c); iexact Hrec
    iexact P01
  imod (Tables.close_dcell m A 0 2 c (κ := K (c, some (A, 0, 2)))) $$ [P02] with Z02
  · isplitr; · iapply (inv_own m K A 0 2 c); iexact Hrec
    iexact P02
  imod (Tables.close_dcell m A 1 0 c (κ := K (c, some (A, 1, 0)))) $$ [P10] with Z10
  · isplitr; · iapply (inv_own m K A 1 0 c); iexact Hrec
    iexact P10
  imod (Tables.close_dcell m A 1 1 c (κ := K (c, some (A, 1, 1)))) $$ [P11] with Z11
  · isplitr; · iapply (inv_own m K A 1 1 c); iexact Hrec
    iexact P11
  imod (Tables.close_dcell m A 1 2 c (κ := K (c, some (A, 1, 2)))) $$ [P12] with Z12
  · isplitr; · iapply (inv_own m K A 1 2 c); iexact Hrec
    iexact P12
  imod (Tables.close_dcell m A 2 0 c (κ := K (c, some (A, 2, 0)))) $$ [P20] with Z20
  · isplitr; · iapply (inv_own m K A 2 0 c); iexact Hrec
    iexact P20
  imod (Tables.close_dcell m A 2 1 c (κ := K (c, some (A, 2, 1)))) $$ [P21] with Z21
  · isplitr; · iapply (inv_own m K A 2 1 c); iexact Hrec
    iexact P21
  imod (Tables.close_dcell m A 2 2 c (κ := K (c, some (A, 2, 2)))) $$ [P22] with Z22
  · isplitr; · iapply (inv_own m K A 2 2 c); iexact Hrec
    iexact P22
  imodintro
  isplitl [Z00]; · iexact Z00
  isplitl [Z01]; · iexact Z01
  isplitl [Z02]; · iexact Z02
  isplitl [Z10]; · iexact Z10
  isplitl [Z11]; · iexact Z11
  isplitl [Z12]; · iexact Z12
  isplitl [Z20]; · iexact Z20
  isplitl [Z21]; · iexact Z21
  iexact Z22

/-- The nine cells of an array whose last stage is not in use close: the six in use after their round, the three others at once. -/
theorem close_part (A : Fin 4) (hu : ¬ used A 2) (c : Dev nD) :
    iprop(records m K ∗ atPos ER (dcell A 0 0 c) 1 ∅ 0 ∗ atPos ER (dcell A 0 1 c) 1 ∅ 0 ∗ atPos ER (dcell A 0 2 c) 0 ∅ 0 ∗ atPos ER (dcell A 1 0 c) 1 ∅ 0 ∗ atPos ER (dcell A 1 1 c) 1 ∅ 0 ∗ atPos ER (dcell A 1 2 c) 0 ∅ 0 ∗ atPos ER (dcell A 2 0 c) 1 ∅ 0 ∗ atPos ER (dcell A 2 1 c) 1 ∅ 0 ∗ atPos ER (dcell A 2 2 c) 0 ∅ 0)
      ⊢ iprop(|={Set.univ}=> (semVal (dcell A 0 0 c) 0 ∗ semVal (dcell A 0 1 c) 0 ∗ semVal (dcell A 0 2 c) 0 ∗ semVal (dcell A 1 0 c) 0 ∗ semVal (dcell A 1 1 c) 0 ∗ semVal (dcell A 1 2 c) 0 ∗ semVal (dcell A 2 0 c) 0 ∗ semVal (dcell A 2 1 c) 0 ∗ semVal (dcell A 2 2 c) 0)) := by
  iintro ⟨#Hrec, P00, P01, P02, P10, P11, P12, P20, P21, P22⟩
  imod (Tables.close_dcell m A 0 0 c (κ := K (c, some (A, 0, 0)))) $$ [P00] with Z00
  · isplitr; · iapply (inv_own m K A 0 0 c); iexact Hrec
    iexact P00
  imod (Tables.close_dcell m A 0 1 c (κ := K (c, some (A, 0, 1)))) $$ [P01] with Z01
  · isplitr; · iapply (inv_own m K A 0 1 c); iexact Hrec
    iexact P01
  imod (Tables.close_unused m A 0 2 c hu (κ := K (c, some (A, 0, 2)))) $$ [P02] with Z02
  · isplitr; · iapply (inv_own m K A 0 2 c); iexact Hrec
    iexact P02
  imod (Tables.close_dcell m A 1 0 c (κ := K (c, some (A, 1, 0)))) $$ [P10] with Z10
  · isplitr; · iapply (inv_own m K A 1 0 c); iexact Hrec
    iexact P10
  imod (Tables.close_dcell m A 1 1 c (κ := K (c, some (A, 1, 1)))) $$ [P11] with Z11
  · isplitr; · iapply (inv_own m K A 1 1 c); iexact Hrec
    iexact P11
  imod (Tables.close_unused m A 1 2 c hu (κ := K (c, some (A, 1, 2)))) $$ [P12] with Z12
  · isplitr; · iapply (inv_own m K A 1 2 c); iexact Hrec
    iexact P12
  imod (Tables.close_dcell m A 2 0 c (κ := K (c, some (A, 2, 0)))) $$ [P20] with Z20
  · isplitr; · iapply (inv_own m K A 2 0 c); iexact Hrec
    iexact P20
  imod (Tables.close_dcell m A 2 1 c (κ := K (c, some (A, 2, 1)))) $$ [P21] with Z21
  · isplitr; · iapply (inv_own m K A 2 1 c); iexact Hrec
    iexact P21
  imod (Tables.close_unused m A 2 2 c hu (κ := K (c, some (A, 2, 2)))) $$ [P22] with Z22
  · isplitr; · iapply (inv_own m K A 2 2 c); iexact Hrec
    iexact P22
  imodintro
  isplitl [Z00]; · iexact Z00
  isplitl [Z01]; · iexact Z01
  isplitl [Z02]; · iexact Z02
  isplitl [Z10]; · iexact Z10
  isplitl [Z11]; · iexact Z11
  isplitl [Z12]; · iexact Z12
  isplitl [Z20]; · iexact Z20
  isplitl [Z21]; · iexact Z21
  iexact Z22

/-- What the body ends with on device `c`: the scratch buffers whole, its thirty-six DMA semaphores at zero and closed,
    nothing owed, and the five staged windows at the inputs and at the result. -/
def TailPost (c : Dev nD) : sProp 𝕄 :=
  iprop(Φ₁ (F := F) c
    ∗ (∃ W' : Waits sig Unit, owes (c : Thread nD τ) 0 W')
    ∗ (((c : Thread nD τ).loc cc0_stg0_0) ↦{fullShare} xIn m c)
    ∗ (((c : Thread nD τ).loc cc0_stg1_0) ↦{fullShare} gIn m c)
    ∗ (((c : Thread nD τ).loc cc0_stg2_0) ↦{fullShare} uIn m c)
    ∗ (((c : Thread nD τ).loc cc0_stg3_0) ↦{fullShare} dIn m c)
    ∗ (((c : Thread nD τ).loc cc0_stg4_0) ↦{fullShare} outFin m c))

set_option maxRecDepth 8192 in
/-- From the state after the last arrival to the end of the body: the thirteen departures still out are waited for, each
    handing back the slot or the share it was lent; the send buffer and the gather buffer are whole again; every one of the
    device's thirty-six DMA cells closes with its counter at zero. -/
theorem tail (c : Dev nD) (W : Waits sig Unit) (Kt : PUnit → sProp 𝕄) :
    iprop(Cuts.PreSendWaits m K c W ∗ (TailPost m c -∗ Kt ⟨⟩))
      ⊢ wp frame (wpE (defs₀ (F := F)) 𝒱₀ (c : Thread nD τ) none) Set.univ (tailProg (F := F) c) Kt := by
  unfold Cuts.PreSendWaits Cuts.sbufBack Cuts.abufBack
  rw [agP00, agP01, agP10, agP11, agP20, agP21]
  iintro ⟨⟨#Hrec, #Hlev, Pbar, P100, P101, P102, P110, P111, P112, P120, P121, P122, P300, P301, P302, P310, P311, P312, P320, P321, P322,
    P000, P001, P002, P010, P011, P012, P020, P021, P022, P200, P201, P202, P210, P211, P212, P220, P221, P222,
    C001, C002, C011, C012, C020, C021, C022, C200, C201, C210, C211, C220, C221, HO, Hx, Hg, Hu, Hd, Hout, Hsb, S00, S10, Hr, Hab⟩, Hk⟩
  iapply (part23_run m K c W (Orem c 19) (Iface.Orem_done c) _ Kt) $$ [HO C020 P020 C001 P001 C011 P011]
  · isplitr; · iexact Hrec
    isplitl [HO]; · iexact HO
    isplitl [C020]; · iexact C020
    isplitl [P020]; · iexact P020
    isplitl [C001]; · iexact C001
    isplitl [P001]; · iexact P001
    isplitl [C011]; · iexact C011
    iexact P011
  iintro ⟨%W1, HO, P020, S20, P001, S01, P011, S11⟩
  iapply (part24_run m K c W1 (Orem c 19) (Iface.Orem_done c) _ Kt) $$ [HO C021 P021 C002 P002 C012 P012]
  · isplitr; · iexact Hrec
    isplitl [HO]; · iexact HO
    isplitl [C021]; · iexact C021
    isplitl [P021]; · iexact P021
    isplitl [C002]; · iexact C002
    isplitl [P002]; · iexact P002
    isplitl [C012]; · iexact C012
    iexact P012
  iintro ⟨%W2, HO, P021, S21, P002, S02, P012, S12⟩
  iapply (part25_run m K c W2 (Orem c 19) (Iface.Orem_done c) _ Kt) $$ [HO C022 P022 C201 P201 C211 P211 C221 P221 C200 P200]
  · isplitr; · iexact Hrec
    isplitl [HO]; · iexact HO
    isplitl [C022]; · iexact C022
    isplitl [P022]; · iexact P022
    isplitl [C201]; · iexact C201
    isplitl [P201]; · iexact P201
    isplitl [C211]; · iexact C211
    isplitl [P211]; · iexact P211
    isplitl [C221]; · iexact C221
    isplitl [P221]; · iexact P221
    isplitl [C200]; · iexact C200
    iexact P200
  iintro ⟨%W3, HO, P022, S22, P201, G01, P211, G11, P221, G21, P200, G00⟩
  iapply (tail2_run m K c W3 (Orem c 19) (Iface.Orem_done c) Kt) $$ [HO C210 P210 C220 P220]
  · isplitr; · iexact Hrec
    isplitl [HO]; · iexact HO
    isplitl [C210]; · iexact C210
    isplitl [P210]; · iexact P210
    isplitl [C220]; · iexact C220
    iexact P220
  iintro ⟨%W4, HO, P210, G10, P220, G20⟩
  imod (close_full m K 0 c) $$ [P000 P001 P002 P010 P011 P012 P020 P021 P022] with ⟨Z000, Z001, Z002, Z010, Z011, Z012, Z020, Z021, Z022⟩
  · isplitr; · iexact Hrec
    isplitl [P000]; · iexact P000
    isplitl [P001]; · iexact P001
    isplitl [P002]; · iexact P002
    isplitl [P010]; · iexact P010
    isplitl [P011]; · iexact P011
    isplitl [P012]; · iexact P012
    isplitl [P020]; · iexact P020
    isplitl [P021]; · iexact P021
    iexact P022
  imod (close_full m K 1 c) $$ [P100 P101 P102 P110 P111 P112 P120 P121 P122] with ⟨Z100, Z101, Z102, Z110, Z111, Z112, Z120, Z121, Z122⟩
  · isplitr; · iexact Hrec
    isplitl [P100]; · iexact P100
    isplitl [P101]; · iexact P101
    isplitl [P102]; · iexact P102
    isplitl [P110]; · iexact P110
    isplitl [P111]; · iexact P111
    isplitl [P112]; · iexact P112
    isplitl [P120]; · iexact P120
    isplitl [P121]; · iexact P121
    iexact P122
  imod (close_part m K 2 (by decide) c) $$ [P200 P201 P202 P210 P211 P212 P220 P221 P222] with ⟨Z200, Z201, Z202, Z210, Z211, Z212, Z220, Z221, Z222⟩
  · isplitr; · iexact Hrec
    isplitl [P200]; · iexact P200
    isplitl [P201]; · iexact P201
    isplitl [P202]; · iexact P202
    isplitl [P210]; · iexact P210
    isplitl [P211]; · iexact P211
    isplitl [P212]; · iexact P212
    isplitl [P220]; · iexact P220
    isplitl [P221]; · iexact P221
    iexact P222
  imod (close_part m K 3 (by decide) c) $$ [P300 P301 P302 P310 P311 P312 P320 P321 P322] with ⟨Z300, Z301, Z302, Z310, Z311, Z312, Z320, Z321, Z322⟩
  · isplitr; · iexact Hrec
    isplitl [P300]; · iexact P300
    isplitl [P301]; · iexact P301
    isplitl [P302]; · iexact P302
    isplitl [P310]; · iexact P310
    isplitl [P311]; · iexact P311
    isplitl [P312]; · iexact P312
    isplitl [P320]; · iexact P320
    isplitl [P321]; · iexact P321
    iexact P322
  iapply (le_wp_ret _ _)
  iapply Hk
  unfold TailPost Φ₁ scr
  rw [semVals_eq]
  isplitl [Hsb S00 S01 S02 S10 S11 S12 S20 S21 S22 Hr Hab G00 G01 G10 G11 G20 G21 Z000 Z001 Z002 Z010 Z011 Z012 Z020 Z021 Z022 Z100 Z101 Z102 Z110 Z111 Z112 Z120 Z121 Z122 Z200 Z201 Z202 Z210 Z211 Z212 Z220 Z221 Z222 Z300 Z301 Z302 Z310 Z311 Z312 Z320 Z321 Z322]
  · isplitl [Hsb S00 S01 S02 S10 S11 S12 S20 S21 S22 Hr Hab G00 G01 G10 G11 G20 G21]
    · isplitl [Hsb S00 S01 S02 S10 S11 S12 S20 S21 S22]
      · iapply Hsb
        isplitl [S00]; · iexact S00
        isplitl [S01]; · iexact S01
        isplitl [S02]; · iexact S02
        isplitl [S10]; · iexact S10
        isplitl [S11]; · iexact S11
        isplitl [S12]; · iexact S12
        isplitl [S20]; · iexact S20
        isplitl [S21]; · iexact S21
        iexact S22
      isplitl [Hr]; · iexact Hr
      iapply Hab
      isplitl [G00]; · iexact G00
      isplitl [G01]; · iexact G01
      isplitl [G10]; · iexact G10
      isplitl [G11]; · iexact G11
      isplitl [G20]; · iexact G20
      iexact G21
    isplitl [Z000]; · iexact Z000
    isplitl [Z001]; · iexact Z001
    isplitl [Z002]; · iexact Z002
    isplitl [Z010]; · iexact Z010
    isplitl [Z011]; · iexact Z011
    isplitl [Z012]; · iexact Z012
    isplitl [Z020]; · iexact Z020
    isplitl [Z021]; · iexact Z021
    isplitl [Z022]; · iexact Z022
    isplitl [Z100]; · iexact Z100
    isplitl [Z101]; · iexact Z101
    isplitl [Z102]; · iexact Z102
    isplitl [Z110]; · iexact Z110
    isplitl [Z111]; · iexact Z111
    isplitl [Z112]; · iexact Z112
    isplitl [Z120]; · iexact Z120
    isplitl [Z121]; · iexact Z121
    isplitl [Z122]; · iexact Z122
    isplitl [Z200]; · iexact Z200
    isplitl [Z201]; · iexact Z201
    isplitl [Z202]; · iexact Z202
    isplitl [Z210]; · iexact Z210
    isplitl [Z211]; · iexact Z211
    isplitl [Z212]; · iexact Z212
    isplitl [Z220]; · iexact Z220
    isplitl [Z221]; · iexact Z221
    isplitl [Z222]; · iexact Z222
    isplitl [Z300]; · iexact Z300
    isplitl [Z301]; · iexact Z301
    isplitl [Z302]; · iexact Z302
    isplitl [Z310]; · iexact Z310
    isplitl [Z311]; · iexact Z311
    isplitl [Z312]; · iexact Z312
    isplitl [Z320]; · iexact Z320
    isplitl [Z321]; · iexact Z321
    iexact Z322
  isplitl [HO]
  · iexists W4
    rw [← Iface.Orem_done c]
    iexact HO
  isplitl [Hx]; · iexact Hx
  isplitl [Hg]; · iexact Hg
  isplitl [Hu]; · iexact Hu
  isplitl [Hd]; · iexact Hd
  iexact Hout

end Steps

end Cert.Kernel.Body

/-- info: 'Cert.Kernel.Body.tail' depends on axioms: [propext, Classical.choice, Quot.sound] -/
#guard_msgs in #print axioms Cert.Kernel.Body.tail

end
-- ==== Proof.KBodyCompose.lean ====
import proofs.«900524_g7700000000000525_dist_gated_mlp_tp_i_m1024_h2048_d1024_v7x_i8_f32_1_alg».proof.Proof.KCuts
import proofs.«900524_g7700000000000525_dist_gated_mlp_tp_i_m1024_h2048_d1024_v7x_i8_f32_1_alg».proof.Proof.KBodyPost
import proofs.«900524_g7700000000000525_dist_gated_mlp_tp_i_m1024_h2048_d1024_v7x_i8_f32_1_alg».proof.Proof.KBodyR0
import proofs.«900524_g7700000000000525_dist_gated_mlp_tp_i_m1024_h2048_d1024_v7x_i8_f32_1_alg».proof.Proof.KBodyS1
import proofs.«900524_g7700000000000525_dist_gated_mlp_tp_i_m1024_h2048_d1024_v7x_i8_f32_1_alg».proof.Proof.KBodyS2
import proofs.«900524_g7700000000000525_dist_gated_mlp_tp_i_m1024_h2048_d1024_v7x_i8_f32_1_alg».proof.Proof.KBodyAG
import proofs.«900524_g7700000000000525_dist_gated_mlp_tp_i_m1024_h2048_d1024_v7x_i8_f32_1_alg».proof.Proof.KBodyTail
import Idealize.ShloMosaic.Lib.Pipeline.Launch
import Idealize.ShloMosaic.Lib.Pipeline.Kit
import Idealize.ShloMosaic.Lib.Tactic

noncomputable section

namespace Cert.Kernel.Body

open Cert.Kernel Cert.Kernel.Gen Cert.Kernel.Sched Cert.Kernel.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

/-! # The body from the cut after the stage-0 copies to its end

The phases are proved each from its cut to the next, over a continuation program; here they are put end to end along
the body's root sequence, and what the last phase leaves is restated as what the body owes the pipeline. -/

section Compose
variable (m : (ℓ : Loc nD τ sig) → Buf (Elt F) ℓ) (ρ : Dev nD → PrngReg) (K : Dev nD × CIx → ℕ)

/-- What the last phase leaves is what the body owes the pipeline: the scratch buffers and closed semaphores, nothing
    owed any more, the four inputs as they were and the result. -/
theorem tailPost_bodyPost (c : Dev nD) : TailPost m c ⊢ bodyPost m ρ c := by
  unfold TailPost bodyPost Dat.owesAt Pipeline.owesWithin
  rw [show (dats m ρ 0 c).owed t0_0.succ = 0 from rfl]
  iintro ⟨HΦ, ⟨%W, HO⟩, Hx, Hg, Hu, Hd, Ho⟩
  isplitl [HΦ]; · iexact HΦ
  isplitl [HO]
  · iexists W
    isplitr
    · ipureintro; exact fun _ _ => Or.inl trivial
    · iexact HO
  isplitl [Hx]
  · iexists _; isplitr; · (ipureintro; rfl)
    iexact Hx
  isplitl [Hg]
  · iexists _; isplitr; · (ipureintro; rfl)
    iexact Hg
  isplitl [Hu]
  · iexists _; isplitr; · (ipureintro; rfl)
    iexact Hu
  isplitl [Hd]
  · iexists _; isplitr; · (ipureintro; rfl)
    iexact Hd
  iexists _; isplitr; · (ipureintro; rfl)
  iexact Ho

set_option maxRecDepth 8192 in
set_option maxHeartbeats 4000000 in
/-- From the cut after the stage-0 copies to the end of the body: the phases in order, each from its cut to the next. -/
theorem from_R0 (c : Dev nD) (W : Waits sig Unit) (v2 v33 v51 v89 v127 : BitVec 32) (v17 v19 v21 : BitVec 1) (v184 : FVec F S128x1024 .f32)
    (hv : v184 = k0_pay12 (xRows128 m c (k0_off2 c 128#32 0#32) (k0_off2_inb c 1))) (Kt : PUnit → sProp 𝕄) :
    iprop(Cuts.PreR0 m K c W ∗ (bodyPost m ρ c -∗ Kt ⟨⟩))
      ⊢ WP[c] (do
          let ⟨v208, v211, v214⟩ : Σ' (v208 : BitVec 32) (v211 : FVec F S192x1024 .f32), FVec F S192x1024 .f32 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v33 v51 v184
          let v227 : BitVec 32 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v19 v89 v127 v208 v211 v214
          let ⟨v246, v256, v257⟩ : Σ' (v246 : BitVec 32) (v256 : BitVec 32), BitVec 1 ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v21 v208
          let ⟨v277, v278, v298, v299⟩ : Σ' (v277 : BitVec 32) (v278 : BitVec 1) (v298 : BitVec 32), BitVec 1 ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v227 v246
          let v328 : BitVec 32 ← k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v208 v256 v257 v298
          let ⟨v347, c1_i32_309⟩ : Σ' (v347 : BitVec 32), BitVec 32 ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v227 v277 v278 v328
          let ⟨v366, v376⟩ : Σ' (v366 : BitVec 32), BitVec 32 ← k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v246 v298 v299 v328 c1_i32_309
          let ⟨v394, v412, v419⟩ : Σ' (v394 : BitVec 32) (v412 : BitVec 32), FVec F S1x64x1024 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v347 v366
          k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v376 v412 v419
          k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v347 v394
          let v505 : BitVec 32 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v366 v412
          let ⟨v514, v523, v538⟩ : Σ' (v514 : BitVec 32) (v523 : BitVec 32), BitVec 32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v257 v505
          let ⟨v539, v547, v555, v556, v565⟩ : Σ' (v539 : BitVec 32) (v547 : BitVec 32) (v555 : BitVec 32) (v556 : BitVec 32), BitVec 32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v278 v299 v328 v347 v366 v514 v523 v538
          let v574 : BitVec 32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v539 v547 v555 v565
          let v624 : BitVec 32 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v19 v539 v547 v556 v565 v574
          k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v21 v555 v624
          k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
          k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
          k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c
          let c0_i32_685 : BitVec 32 := 0#32
          let v710 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
          let v707 : DmaSems sig S1x1 := cc0_scratch5.slice (Rect.unit (s := S3x3) ![1, 0] S1x1.size inb_S3x3_S1x1_1_0)
          let v708 : DmaSems sig S_ := v707.squeeze S_ squeezes_S1x1_S_
          let v709 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
          Prog.lift (.waitDma2 v708.sem v710 v709 ((Memref.isWhole_whole (cc0_scratch2 : Ref sig .tc)).wordExact_slice rfl _ (k0_off7_wordsbf16 c 1)) ((Memref.isWhole_whole (cc0_scratch2 : Ref sig .tc)).wordExact_slice rfl _ (k0_off7_wordsbf16 c 1)))
          let c2_i32_686 : BitVec 32 := 2#32
          let c0_i32_687 : BitVec 32 := 0#32
          let c2_i32_688 : BitVec 32 := 2#32
          let c0_i32_689 : BitVec 32 := 0#32
          let c0_i32_690 : BitVec 32 := 0#32
          let v711 : DmaSems sig S1x1 := cc0_scratch5.slice (Rect.unit (s := S3x3) ![2, 0] S1x1.size inb_S3x3_S1x1_2_0)
          let v712 : DmaSems sig S_ := v711.squeeze S_ squeezes_S1x1_S_
          let c0_i32_691 : BitVec 32 := 0#32
          let v713 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
          let c0_i32_692 : BitVec 32 := 0#32
          let v714 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
          Prog.lift (.waitDma2 v712.sem v714 v713 ((Memref.isWhole_whole (cc0_scratch2 : Ref sig .tc)).wordExact_slice rfl _ (k0_off8_wordsbf16 c)) ((Memref.isWhole_whole (cc0_scratch2 : Ref sig .tc)).wordExact_slice rfl _ (k0_off8_wordsbf16 c)))
          pure ⟨⟩) Kt := by
  iintro ⟨Hpre, HK⟩
  -- stage 0's arrivals
  iapply (r0 m K c W v2 v33 v51 v89 v127 v17 v19 v21 v184 hv (fun (v208 v227 : BitVec 32) (r : Σ' (v246 : BitVec 32) (v256 : BitVec 32), BitVec 1) => match r with
      | ⟨v246, v256, v257⟩ => do
        let ⟨v277, v278, v298, v299⟩ : Σ' (v277 : BitVec 32) (v278 : BitVec 1) (v298 : BitVec 32), BitVec 1 ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v227 v246
        let v328 : BitVec 32 ← k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v208 v256 v257 v298
        let ⟨v347, c1_i32_309⟩ : Σ' (v347 : BitVec 32), BitVec 32 ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v227 v277 v278 v328
        let ⟨v366, v376⟩ : Σ' (v366 : BitVec 32), BitVec 32 ← k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v246 v298 v299 v328 c1_i32_309
        let ⟨v394, v412, v419⟩ : Σ' (v394 : BitVec 32) (v412 : BitVec 32), FVec F S1x64x1024 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v347 v366
        k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v376 v412 v419
        k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v347 v394
        let v505 : BitVec 32 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v366 v412
        let ⟨v514, v523, v538⟩ : Σ' (v514 : BitVec 32) (v523 : BitVec 32), BitVec 32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v257 v505
        let ⟨v539, v547, v555, v556, v565⟩ : Σ' (v539 : BitVec 32) (v547 : BitVec 32) (v555 : BitVec 32) (v556 : BitVec 32), BitVec 32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v278 v299 v328 v347 v366 v514 v523 v538
        let v574 : BitVec 32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v539 v547 v555 v565
        let v624 : BitVec 32 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v19 v539 v547 v556 v565 v574
        k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v21 v555 v624
        k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c
        let c0_i32_685 : BitVec 32 := 0#32
        let v710 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        let v707 : DmaSems sig S1x1 := cc0_scratch5.slice (Rect.unit (s := S3x3) ![1, 0] S1x1.size inb_S3x3_S1x1_1_0)
        let v708 : DmaSems sig S_ := v707.squeeze S_ squeezes_S1x1_S_
        let v709 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        Prog.lift (.waitDma2 v708.sem v710 v709 ((Memref.isWhole_whole (cc0_scratch2 : Ref sig .tc)).wordExact_slice rfl _ (k0_off7_wordsbf16 c 1)) ((Memref.isWhole_whole (cc0_scratch2 : Ref sig .tc)).wordExact_slice rfl _ (k0_off7_wordsbf16 c 1)))
        let c2_i32_686 : BitVec 32 := 2#32
        let c0_i32_687 : BitVec 32 := 0#32
        let c2_i32_688 : BitVec 32 := 2#32
        let c0_i32_689 : BitVec 32 := 0#32
        let c0_i32_690 : BitVec 32 := 0#32
        let v711 : DmaSems sig S1x1 := cc0_scratch5.slice (Rect.unit (s := S3x3) ![2, 0] S1x1.size inb_S3x3_S1x1_2_0)
        let v712 : DmaSems sig S_ := v711.squeeze S_ squeezes_S1x1_S_
        let c0_i32_691 : BitVec 32 := 0#32
        let v713 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        let c0_i32_692 : BitVec 32 := 0#32
        let v714 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        Prog.lift (.waitDma2 v712.sem v714 v713 ((Memref.isWhole_whole (cc0_scratch2 : Ref sig .tc)).wordExact_slice rfl _ (k0_off8_wordsbf16 c)) ((Memref.isWhole_whole (cc0_scratch2 : Ref sig .tc)).wordExact_slice rfl _ (k0_off8_wordsbf16 c)))
        pure ⟨⟩) Kt)
  isplitl [Hpre]; · iexact Hpre
  iintro %v208 %v227 %r %W1 H1
  obtain ⟨v246, v256, v257⟩ := r
  -- stage 1
  iapply (stage1 m K c W1 v2 v208 v227 v246 v256 v257 (fun (v277 : BitVec 32) (v278 : BitVec 1) (v298 : BitVec 32) (v299 : BitVec 1) (v328 v347 c1_i32_309 : BitVec 32) (r : Σ' (v366 : BitVec 32), BitVec 32) => match r with
      | ⟨v366, v376⟩ => do
        let ⟨v394, v412, v419⟩ : Σ' (v394 : BitVec 32) (v412 : BitVec 32), FVec F S1x64x1024 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v347 v366
        k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v376 v412 v419
        k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v328 v347 v394
        let v505 : BitVec 32 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v366 v412
        let ⟨v514, v523, v538⟩ : Σ' (v514 : BitVec 32) (v523 : BitVec 32), BitVec 32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v257 v505
        let ⟨v539, v547, v555, v556, v565⟩ : Σ' (v539 : BitVec 32) (v547 : BitVec 32) (v555 : BitVec 32) (v556 : BitVec 32), BitVec 32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v278 v299 v328 v347 v366 v514 v523 v538
        let v574 : BitVec 32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v539 v547 v555 v565
        let v624 : BitVec 32 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v19 v539 v547 v556 v565 v574
        k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v21 v555 v624
        k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c
        let c0_i32_685 : BitVec 32 := 0#32
        let v710 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        let v707 : DmaSems sig S1x1 := cc0_scratch5.slice (Rect.unit (s := S3x3) ![1, 0] S1x1.size inb_S3x3_S1x1_1_0)
        let v708 : DmaSems sig S_ := v707.squeeze S_ squeezes_S1x1_S_
        let v709 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        Prog.lift (.waitDma2 v708.sem v710 v709 ((Memref.isWhole_whole (cc0_scratch2 : Ref sig .tc)).wordExact_slice rfl _ (k0_off7_wordsbf16 c 1)) ((Memref.isWhole_whole (cc0_scratch2 : Ref sig .tc)).wordExact_slice rfl _ (k0_off7_wordsbf16 c 1)))
        let c2_i32_686 : BitVec 32 := 2#32
        let c0_i32_687 : BitVec 32 := 0#32
        let c2_i32_688 : BitVec 32 := 2#32
        let c0_i32_689 : BitVec 32 := 0#32
        let c0_i32_690 : BitVec 32 := 0#32
        let v711 : DmaSems sig S1x1 := cc0_scratch5.slice (Rect.unit (s := S3x3) ![2, 0] S1x1.size inb_S3x3_S1x1_2_0)
        let v712 : DmaSems sig S_ := v711.squeeze S_ squeezes_S1x1_S_
        let c0_i32_691 : BitVec 32 := 0#32
        let v713 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        let c0_i32_692 : BitVec 32 := 0#32
        let v714 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        Prog.lift (.waitDma2 v712.sem v714 v713 ((Memref.isWhole_whole (cc0_scratch2 : Ref sig .tc)).wordExact_slice rfl _ (k0_off8_wordsbf16 c)) ((Memref.isWhole_whole (cc0_scratch2 : Ref sig .tc)).wordExact_slice rfl _ (k0_off8_wordsbf16 c)))
        pure ⟨⟩) Kt)
  isplitl [H1]; · iexact H1
  iintro %W2 H2 %v277 %v278 %v298 %v299 %v328 %v347 %c1 %r
  obtain ⟨v366, v376⟩ := r
  -- stage 2
  iapply (s2 m K c W2 v2 v328 v347 v366 v376 (fun (v505 : BitVec 32) => do
        let ⟨v514, v523, v538⟩ : Σ' (v514 : BitVec 32) (v523 : BitVec 32), BitVec 32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v257 v505
        let ⟨v539, v547, v555, v556, v565⟩ : Σ' (v539 : BitVec 32) (v547 : BitVec 32) (v555 : BitVec 32) (v556 : BitVec 32), BitVec 32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v278 v299 v328 v347 v366 v514 v523 v538
        let v574 : BitVec 32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v539 v547 v555 v565
        let v624 : BitVec 32 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v17 v19 v539 v547 v556 v565 v574
        k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v21 v555 v624
        k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c
        let c0_i32_685 : BitVec 32 := 0#32
        let v710 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        let v707 : DmaSems sig S1x1 := cc0_scratch5.slice (Rect.unit (s := S3x3) ![1, 0] S1x1.size inb_S3x3_S1x1_1_0)
        let v708 : DmaSems sig S_ := v707.squeeze S_ squeezes_S1x1_S_
        let v709 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        Prog.lift (.waitDma2 v708.sem v710 v709 ((Memref.isWhole_whole (cc0_scratch2 : Ref sig .tc)).wordExact_slice rfl _ (k0_off7_wordsbf16 c 1)) ((Memref.isWhole_whole (cc0_scratch2 : Ref sig .tc)).wordExact_slice rfl _ (k0_off7_wordsbf16 c 1)))
        let c2_i32_686 : BitVec 32 := 2#32
        let c0_i32_687 : BitVec 32 := 0#32
        let c2_i32_688 : BitVec 32 := 2#32
        let c0_i32_689 : BitVec 32 := 0#32
        let c0_i32_690 : BitVec 32 := 0#32
        let v711 : DmaSems sig S1x1 := cc0_scratch5.slice (Rect.unit (s := S3x3) ![2, 0] S1x1.size inb_S3x3_S1x1_2_0)
        let v712 : DmaSems sig S_ := v711.squeeze S_ squeezes_S1x1_S_
        let c0_i32_691 : BitVec 32 := 0#32
        let v713 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        let c0_i32_692 : BitVec 32 := 0#32
        let v714 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        Prog.lift (.waitDma2 v712.sem v714 v713 ((Memref.isWhole_whole (cc0_scratch2 : Ref sig .tc)).wordExact_slice rfl _ (k0_off8_wordsbf16 c)) ((Memref.isWhole_whole (cc0_scratch2 : Ref sig .tc)).wordExact_slice rfl _ (k0_off8_wordsbf16 c)))
        pure ⟨⟩) Kt)
  isplitl [H2]; · iexact H2
  iintro %v505 %W3 H3
  -- the all-gather
  iapply (body_ag m K c W3 v2 v17 v19 v21 v257 v278 v299 v328 v347 v366 v505 (fun (_ : PUnit.{1}) => do
        k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
        k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c
        let c0_i32_685 : BitVec 32 := 0#32
        let v710 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        let v707 : DmaSems sig S1x1 := cc0_scratch5.slice (Rect.unit (s := S3x3) ![1, 0] S1x1.size inb_S3x3_S1x1_1_0)
        let v708 : DmaSems sig S_ := v707.squeeze S_ squeezes_S1x1_S_
        let v709 : Memref sig .tc .vmem S192x1024 .bf16 := (Memref.whole cc0_scratch2 : Memref sig .tc .vmem S1024x1024 .bf16).slice (Rect.unit (s := S1024x1024) (k0_off7 c 384#32 4#32 3#32) S192x1024.size (k0_off7_inb c 1)) (fun _ => rfl)
        Prog.lift (.waitDma2 v708.sem v710 v709 ((Memref.isWhole_whole (cc0_scratch2 : Ref sig .tc)).wordExact_slice rfl _ (k0_off7_wordsbf16 c 1)) ((Memref.isWhole_whole (cc0_scratch2 : Ref sig .tc)).wordExact_slice rfl _ (k0_off7_wordsbf16 c 1)))
        let c2_i32_686 : BitVec 32 := 2#32
        let c0_i32_687 : BitVec 32 := 0#32
        let c2_i32_688 : BitVec 32 := 2#32
        let c0_i32_689 : BitVec 32 := 0#32
        let c0_i32_690 : BitVec 32 := 0#32
        let v711 : DmaSems sig S1x1 := cc0_scratch5.slice (Rect.unit (s := S3x3) ![2, 0] S1x1.size inb_S3x3_S1x1_2_0)
        let v712 : DmaSems sig S_ := v711.squeeze S_ squeezes_S1x1_S_
        let c0_i32_691 : BitVec 32 := 0#32
        let v713 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        let c0_i32_692 : BitVec 32 := 0#32
        let v714 : Memref sig .tc .vmem S128x1024 .bf16 := (Memref.whole cc0_scratch2 : Memref sig .tc .vmem S1024x1024 .bf16).slice (Rect.unit (s := S1024x1024) (k0_off8 c) S128x1024.size (k0_off8_inb c)) (fun _ => rfl)
        Prog.lift (.waitDma2 v712.sem v714 v713 ((Memref.isWhole_whole (cc0_scratch2 : Ref sig .tc)).wordExact_slice rfl _ (k0_off8_wordsbf16 c)) ((Memref.isWhole_whole (cc0_scratch2 : Ref sig .tc)).wordExact_slice rfl _ (k0_off8_wordsbf16 c)))
        pure ⟨⟩) Kt)
  isplitl [H3]; · iexact H3
  iintro %W4 H4
  -- the departures' waits
  iapply (tail m K c W4 Kt)
  isplitl [H4]; · iexact H4
  iintro HT
  iapply HK
  iapply (tailPost_bodyPost m ρ c)
  iexact HT

/-- info: 'Cert.Kernel.Body.from_R0' depends on axioms: [propext, Classical.choice, Quot.sound] -/
#guard_msgs in #print axioms from_R0

end Compose

end Cert.Kernel.Body

end
-- ==== Proof.KBody.lean ====
/-
  The body obligation at a symbolic device. The device's run of the first six printed parts is stepped here: the entry
  handshake (four signals that hand the partners the device's receive slots and gather rows, and the wait that returns
  theirs), the six tiles of its own product, and the three stage-0 blocks narrowed and sent with what they hold stated
  row by row. It stops between the sixth and the seventh part at the cut PreR0; from there the later phases, each proved
  from one cut to the next, carry the run to the obligation's post.
-/
import proofs.«900524_g7700000000000525_dist_gated_mlp_tp_i_m1024_h2048_d1024_v7x_i8_f32_1_alg».proof.Proof.KIface
import proofs.«900524_g7700000000000525_dist_gated_mlp_tp_i_m1024_h2048_d1024_v7x_i8_f32_1_alg».proof.Proof.KTables
import proofs.«900524_g7700000000000525_dist_gated_mlp_tp_i_m1024_h2048_d1024_v7x_i8_f32_1_alg».proof.Proof.KMem
import proofs.«900524_g7700000000000525_dist_gated_mlp_tp_i_m1024_h2048_d1024_v7x_i8_f32_1_alg».proof.Proof.KRows
import proofs.«900524_g7700000000000525_dist_gated_mlp_tp_i_m1024_h2048_d1024_v7x_i8_f32_1_alg».proof.Proof.KBodyKit
import proofs.«900524_g7700000000000525_dist_gated_mlp_tp_i_m1024_h2048_d1024_v7x_i8_f32_1_alg».proof.Proof.KCuts
import proofs.«900524_g7700000000000525_dist_gated_mlp_tp_i_m1024_h2048_d1024_v7x_i8_f32_1_alg».proof.Proof.KBodyPost
import proofs.«900524_g7700000000000525_dist_gated_mlp_tp_i_m1024_h2048_d1024_v7x_i8_f32_1_alg».proof.Proof.KBodyCompose
import Idealize.ShloMosaic.Lib.Pipeline.Launch
import Idealize.ShloMosaic.Lib.Pipeline.Kit
import Idealize.ShloMosaic.Lib.Tactic

noncomputable section

namespace Cert.Kernel.Body

open Cert.Kernel Cert.Kernel.Gen Cert.Kernel.Sched Cert.Kernel.Iface

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

namespace Pre

section Vals
variable (m : (ℓ : Loc nD τ sig) → Buf (Elt F) ℓ)

/-! ## Values: a device's own partial product, tile by tile -/

omit [FloatOps F] in
theorem hz2 : (![0, 0] : Fin 2 → Nat) = fun _ => 0 := funext fun a => by fin_cases a <;> rfl

theorem read_g (f : (cc0_stg1_0 : Ref sig .tc).ty.Contents (Elt F)) :
    (gM : Memref sig .tc .vmem S1024x2048 .f32).view.readAt (Elt F) (Rect.unit (s := S1024x2048) ![0, 0] S1024x2048.size inb_S1024x2048_S1024x2048_0_0).toLoadRect f = f :=
  Memref.readAt_unit_zero (Elt F) cc0_stg1_0 hz2 _ f
theorem read_u (f : (cc0_stg2_0 : Ref sig .tc).ty.Contents (Elt F)) :
    (uM : Memref sig .tc .vmem S1024x2048 .f32).view.readAt (Elt F) (Rect.unit (s := S1024x2048) ![0, 0] S1024x2048.size inb_S1024x2048_S1024x2048_0_0).toLoadRect f = f :=
  Memref.readAt_unit_zero (Elt F) cc0_stg2_0 hz2 _ f
theorem read_d (f : (cc0_stg3_0 : Ref sig .tc).ty.Contents (Elt F)) :
    (dM : Memref sig .tc .vmem S2048x1024 .f32).view.readAt (Elt F) (Rect.unit (s := S2048x1024) ![0, 0] S2048x1024.size inb_S2048x1024_S2048x1024_0_0).toLoadRect f = f :=
  Memref.readAt_unit_zero (Elt F) cc0_stg3_0 hz2 _ f

/-- The tile of butterfly 0 a device sends at stage 0, as the body computes it from what it loads. -/
theorem tile_S0 (c : Dev nD) :
    k0_pay1 ((xM : Memref sig .tc .vmem S1024x1024 .f32).view.readAt (Elt F) (Rect.unit (s := S1024x1024) (k0_off1 c 0#32 3#32 0#32 192#32) S192x1024.size (k0_off1_inb c 0)).toLoadRect (xIn m c))
      ((gM : Memref sig .tc .vmem S1024x2048 .f32).view.readAt (Elt F) (Rect.unit (s := S1024x2048) ![0, 0] S1024x2048.size inb_S1024x2048_S1024x2048_0_0).toLoadRect (gIn m c))
      ((uM : Memref sig .tc .vmem S1024x2048 .f32).view.readAt (Elt F) (Rect.unit (s := S1024x2048) ![0, 0] S1024x2048.size inb_S1024x2048_S1024x2048_0_0).toLoadRect (uIn m c))
      ((dM : Memref sig .tc .vmem S2048x1024 .f32).view.readAt (Elt F) (Rect.unit (s := S2048x1024) ![0, 0] S2048x1024.size inb_S2048x1024_S2048x1024_0_0).toLoadRect (dIn m c))
      = tS0 m c := by
  rw [read_g, read_u, read_d]; rfl

/-- A row of the half of butterfly 0 a device sends at stage 0 holds its own product off that tile. -/
theorem S0_sent0 (c : Dev nD) (r q : ℕ) (hr : r < 192) (hq : q < 1024) :
    S0 m 0 c ((k0_off1 c 0#32 3#32 0#32 192#32) 0 + r) q = tS0 m c (ix2 ⟨r, hr⟩ ⟨q, hq⟩) := by
  show (if (k0_off1 c 0#32 3#32 0#32 192#32) 0 ≤ (k0_off1 c 0#32 3#32 0#32 192#32) 0 + r ∧ (k0_off1 c 0#32 3#32 0#32 192#32) 0 + r < (k0_off1 c 0#32 3#32 0#32 192#32) 0 + 192
         then at192 (tS0 m c) ((k0_off1 c 0#32 3#32 0#32 192#32) 0 + r - (k0_off1 c 0#32 3#32 0#32 192#32) 0) q else _) = _
  rw [if_pos ⟨Nat.le_add_right _ _, Nat.add_lt_add_left hr _⟩, Nat.add_sub_cancel_left]
  unfold at192
  congr 1
  simp only [Nat.mod_eq_of_lt hr, Nat.mod_eq_of_lt hq]

theorem K0_px_b0 (c : Dev nD) : K0 0 (Mesh.px 3 c) = (k0_off1 c 0#32 3#32 0#32 192#32) 0 := by
  show (k0_off1 (Mesh.px 3 c) 0#32 3#32 192#32 0#32) 0 = _
  rw [← Rows.rs0_b0' c]

/-- A row of the half of butterfly 0 a device sends at stage 0 holds its own product off that tile. -/
theorem S0_sent0' (c : Dev nD) (r q : ℕ) (hr : r < 192) (hq : q < 1024) :
    S0 m 0 c ((k0_off1 c 0#32 3#32 0#32 192#32) 0 + r) q = tS0 m c (ix2 ⟨r, hr⟩ ⟨q, hq⟩) := by
  show (if (k0_off1 c 0#32 3#32 0#32 192#32) 0 ≤ (k0_off1 c 0#32 3#32 0#32 192#32) 0 + r ∧ (k0_off1 c 0#32 3#32 0#32 192#32) 0 + r < (k0_off1 c 0#32 3#32 0#32 192#32) 0 + 192
         then at192 (tS0 m c) ((k0_off1 c 0#32 3#32 0#32 192#32) 0 + r - (k0_off1 c 0#32 3#32 0#32 192#32) 0) q else _) = _
  rw [if_pos ⟨Nat.le_add_right _ _, Nat.add_lt_add_left hr _⟩, Nat.add_sub_cancel_left]
  unfold at192
  congr 1
  simp only [Nat.mod_eq_of_lt hr, Nat.mod_eq_of_lt hq]

theorem K0_px_b0' (c : Dev nD) : K0 0 (Mesh.px 3 c) = (k0_off1 c 0#32 3#32 0#32 192#32) 0 := by
  show (k0_off1 (Mesh.px 3 c) 0#32 3#32 192#32 0#32) 0 = _
  rw [← Rows.rs0_b0' c]

/-- What the send slot of butterfly 0, stage 0 holds when it leaves: the device's own product over the rows its partner
    keeps, narrowed for the wire. -/
theorem sent00 (c : Dev nD) (fs : (cc0_scratch0 : Ref sig .tc).ty.Contents (Elt F))
    (P : FVec F S192x1024 .f32) (L : List (View.Piece (Elt F) S1024x1024 .f32)) (hP : P = tS0 m c)
    (r q : ℕ) (hr : r < 192) (hq : q < 1024) :
    sSlot00.view.read (Elt F)
        (((sM : Memref sig .tc .vmem S3x384x1024 .bf16).access (Rect.unit (s := S3x384x1024) ![0, 0, 0] S1x192x1024.size inb_S3x384x1024_S1x192x1024_0_0_0)).write (Elt F) fs
          (k0_pay2 ((oM : Memref sig .tc .vmem S1024x1024 .f32).view.readCov
            (⟨(Rect.unit (s := S1024x1024) (k0_off1 c 0#32 3#32 0#32 192#32) S192x1024.size (k0_off1_inb c 0)), P⟩ :: L)
            (Rect.unit (s := S1024x1024) (k0_off1 c 0#32 3#32 0#32 192#32) S192x1024.size (k0_off1_inb c 0)).toLoadRect)) Finset.univ)
        (ix2 ⟨r, hr⟩ ⟨q, hq⟩)
      = tr (S0 m 0 c (K0 0 (Mesh.px 3 c) + r) q) := by
  have ho : (k0_off1 c 0#32 3#32 0#32 192#32) 1 = 0 := by rw [Mesh.off1_a]; rfl
  rw [K0_px_b0', S0_sent0' m c r q hr hq, ← hP]
  refine (Mem.sSlot_read inb_S3x384x1024_S1x192x1024_0_0_0 squeezes_S1x192x1024_S192x1024 _ r q hr hq).trans ?_
  refine (Mem.narrow_rows (k0_off1 c 0#32 3#32 0#32 192#32) (k0_off1_inb c 0) ho inb_S3x384x1024_S1x192x1024_0_0_0
    shapeCasts_S192x1024_S192x1024 shapeCasts_S192x1024_S1x192x1024 _ fs r q hr hq).trans ?_
  exact congrArg tr (Mem.oAt_store (k0_off1 c 0#32 3#32 0#32 192#32) (k0_off1_inb c 0) ho _ _ r q hr hq)

/-- A row of the half of butterfly 1 a device sends at stage 0 holds its own product off that tile. -/
theorem S0_sent1' (c : Dev nD) (r q : ℕ) (hr : r < 192) (hq : q < 1024) :
    S0 m 1 c ((k0_off1 c 384#32 4#32 0#32 192#32) 0 + r) q = tS1 m c (ix2 ⟨r, hr⟩ ⟨q, hq⟩) := by
  show (if (k0_off1 c 384#32 4#32 0#32 192#32) 0 ≤ (k0_off1 c 384#32 4#32 0#32 192#32) 0 + r ∧ (k0_off1 c 384#32 4#32 0#32 192#32) 0 + r < (k0_off1 c 384#32 4#32 0#32 192#32) 0 + 192
         then at192 (tS1 m c) ((k0_off1 c 384#32 4#32 0#32 192#32) 0 + r - (k0_off1 c 384#32 4#32 0#32 192#32) 0) q else _) = _
  rw [if_pos ⟨Nat.le_add_right _ _, Nat.add_lt_add_left hr _⟩, Nat.add_sub_cancel_left]
  unfold at192
  congr 1
  simp only [Nat.mod_eq_of_lt hr, Nat.mod_eq_of_lt hq]

theorem K0_px_b1' (c : Dev nD) : K0 1 (Mesh.px 4 c) = (k0_off1 c 384#32 4#32 0#32 192#32) 0 := by
  show (k0_off1 (Mesh.px 4 c) 384#32 4#32 192#32 0#32) 0 = _
  rw [← Rows.rs0_b1' c]

/-- What the send slot of butterfly 1, stage 0 holds when it leaves: the device's own product over the rows its partner
    keeps, narrowed for the wire. -/
theorem sent10 (c : Dev nD) (fs : (cc0_scratch0 : Ref sig .tc).ty.Contents (Elt F))
    (P : FVec F S192x1024 .f32) (L : List (View.Piece (Elt F) S1024x1024 .f32)) (hP : P = tS1 m c)
    (r q : ℕ) (hr : r < 192) (hq : q < 1024) :
    sSlot10.view.read (Elt F)
        (((sM : Memref sig .tc .vmem S3x384x1024 .bf16).access (Rect.unit (s := S3x384x1024) ![1, 0, 0] S1x192x1024.size inb_S3x384x1024_S1x192x1024_1_0_0)).write (Elt F) fs
          (k0_pay4 ((oM : Memref sig .tc .vmem S1024x1024 .f32).view.readCov
            (⟨(Rect.unit (s := S1024x1024) (k0_off1 c 384#32 4#32 0#32 192#32) S192x1024.size (k0_off1_inb c 1)), P⟩ :: L)
            (Rect.unit (s := S1024x1024) (k0_off1 c 384#32 4#32 0#32 192#32) S192x1024.size (k0_off1_inb c 1)).toLoadRect)) Finset.univ)
        (ix2 ⟨r, hr⟩ ⟨q, hq⟩)
      = tr (S0 m 1 c (K0 1 (Mesh.px 4 c) + r) q) := by
  have ho : (k0_off1 c 384#32 4#32 0#32 192#32) 1 = 0 := by rw [Mesh.off1_b]; rfl
  rw [K0_px_b1', S0_sent1' m c r q hr hq, ← hP]
  refine (Mem.sSlot_read inb_S3x384x1024_S1x192x1024_1_0_0 squeezes_S1x192x1024_S192x1024 _ r q hr hq).trans ?_
  refine (Mem.narrow_rows (k0_off1 c 384#32 4#32 0#32 192#32) (k0_off1_inb c 1) ho inb_S3x384x1024_S1x192x1024_1_0_0
    shapeCasts_S192x1024_S192x1024 shapeCasts_S192x1024_S1x192x1024 _ fs r q hr hq).trans ?_
  exact congrArg tr (Mem.oAt_store (k0_off1 c 384#32 4#32 0#32 192#32) (k0_off1_inb c 1) ho _ _ r q hr hq)

/-- A row of the half of butterfly 2 a device sends at stage 0 holds its own product off that tile. -/
theorem S0_sent2' (c : Dev nD) (r q : ℕ) (hr : r < 128) (hq : q < 1024) :
    S0 m 2 c ((k0_off2 c 0#32 128#32) 0 + r) q = tS2 m c (ix2 ⟨r, hr⟩ ⟨q, hq⟩) := by
  show (if (k0_off2 c 0#32 128#32) 0 ≤ (k0_off2 c 0#32 128#32) 0 + r ∧ (k0_off2 c 0#32 128#32) 0 + r < (k0_off2 c 0#32 128#32) 0 + 128
         then at128 (tS2 m c) ((k0_off2 c 0#32 128#32) 0 + r - (k0_off2 c 0#32 128#32) 0) q else _) = _
  rw [if_pos ⟨Nat.le_add_right _ _, Nat.add_lt_add_left hr _⟩, Nat.add_sub_cancel_left]
  unfold at128
  congr 1
  simp only [Nat.mod_eq_of_lt hr, Nat.mod_eq_of_lt hq]

theorem K0_px_b2' (c : Dev nD) : K0 2 (Mesh.px 1 c) = (k0_off2 c 0#32 128#32) 0 := by
  show (k0_off2 (Mesh.px 1 c) 128#32 0#32) 0 = _
  rw [← Rows.rs0_b2' c]

/-- What the send slot of butterfly 2, stage 0 holds when it leaves: the device's own product over the rows its partner
    keeps, narrowed for the wire. -/
theorem sent20 (c : Dev nD) (fs : (cc0_scratch0 : Ref sig .tc).ty.Contents (Elt F))
    (P : FVec F S128x1024 .f32) (L : List (View.Piece (Elt F) S1024x1024 .f32)) (hP : P = tS2 m c)
    (r q : ℕ) (hr : r < 128) (hq : q < 1024) :
    sSlot20.view.read (Elt F)
        (((sM : Memref sig .tc .vmem S3x384x1024 .bf16).access (Rect.unit (s := S3x384x1024) ![2, 0, 0] S1x128x1024.size inb_S3x384x1024_S1x128x1024_2_0_0)).write (Elt F) fs
          (k0_pay9 ((oM : Memref sig .tc .vmem S1024x1024 .f32).view.readCov
            (⟨(Rect.unit (s := S1024x1024) (k0_off2 c 0#32 128#32) S128x1024.size (k0_off2_inb c 0)), P⟩ :: L)
            (Rect.unit (s := S1024x1024) (k0_off2 c 0#32 128#32) S128x1024.size (k0_off2_inb c 0)).toLoadRect)) Finset.univ)
        (ix2 ⟨r, hr⟩ ⟨q, hq⟩)
      = tr (S0 m 2 c (K0 2 (Mesh.px 1 c) + r) q) := by
  have ho : (k0_off2 c 0#32 128#32) 1 = 0 := by rw [Mesh.off2_a]; rfl
  rw [K0_px_b2', S0_sent2' m c r q hr hq, ← hP]
  refine (Mem.sSlot_read inb_S3x384x1024_S1x128x1024_2_0_0 squeezes_S1x128x1024_S128x1024 _ r q hr hq).trans ?_
  refine (Mem.narrow_rows (k0_off2 c 0#32 128#32) (k0_off2_inb c 0) ho inb_S3x384x1024_S1x128x1024_2_0_0
    shapeCasts_S128x1024_S128x1024 shapeCasts_S128x1024_S1x128x1024 _ fs r q hr hq).trans ?_
  exact congrArg tr (Mem.oAt_store (k0_off2 c 0#32 128#32) (k0_off2_inb c 0) ho _ _ r q hr hq)

/-- The tiles of butterflies 1 and 2 sent at stage 0, as the body computes them from what it loads. -/
theorem tile_S1 (c : Dev nD) :
    k0_pay3 ((xM : Memref sig .tc .vmem S1024x1024 .f32).view.readAt (Elt F) (Rect.unit (s := S1024x1024) (k0_off1 c 384#32 4#32 0#32 192#32) S192x1024.size (k0_off1_inb c 1)).toLoadRect (xIn m c))
      ((gM : Memref sig .tc .vmem S1024x2048 .f32).view.readAt (Elt F) (Rect.unit (s := S1024x2048) ![0, 0] S1024x2048.size inb_S1024x2048_S1024x2048_0_0).toLoadRect (gIn m c))
      ((uM : Memref sig .tc .vmem S1024x2048 .f32).view.readAt (Elt F) (Rect.unit (s := S1024x2048) ![0, 0] S1024x2048.size inb_S1024x2048_S1024x2048_0_0).toLoadRect (uIn m c))
      ((dM : Memref sig .tc .vmem S2048x1024 .f32).view.readAt (Elt F) (Rect.unit (s := S2048x1024) ![0, 0] S2048x1024.size inb_S2048x1024_S2048x1024_0_0).toLoadRect (dIn m c))
      = tS1 m c := by
  rw [read_g, read_u, read_d]; rfl

theorem tile_S2 (c : Dev nD) :
    k0_pay8 (k0_pay5 ((xM : Memref sig .tc .vmem S1024x1024 .f32).view.readAt (Elt F) (Rect.unit (s := S1024x1024) (k0_off2 c 0#32 128#32) S128x1024.size (k0_off2_inb c 0)).toLoadRect (xIn m c)))
      (k0_pay6 ((xM : Memref sig .tc .vmem S1024x1024 .f32).view.readAt (Elt F) (Rect.unit (s := S1024x1024) (k0_off2 c 0#32 128#32) S128x1024.size (k0_off2_inb c 0)).toLoadRect (xIn m c))
        ((gM : Memref sig .tc .vmem S1024x2048 .f32).view.readAt (Elt F) (Rect.unit (s := S1024x2048) ![0, 0] S1024x2048.size inb_S1024x2048_S1024x2048_0_0).toLoadRect (gIn m c)))
      (k0_pay7 ((uM : Memref sig .tc .vmem S1024x2048 .f32).view.readAt (Elt F) (Rect.unit (s := S1024x2048) ![0, 0] S1024x2048.size inb_S1024x2048_S1024x2048_0_0).toLoadRect (uIn m c)))
      (constant S128x2048 .f32 0x00000000#32)
      ((dM : Memref sig .tc .vmem S2048x1024 .f32).view.readAt (Elt F) (Rect.unit (s := S2048x1024) ![0, 0] S2048x1024.size inb_S2048x1024_S2048x1024_0_0).toLoadRect (dIn m c))
      = tS2 m c := by
  rw [read_g, read_u, read_d]; rfl
end Vals

section Vals4
variable (m : (ℓ : Loc nD τ sig) → Buf (Elt F) ℓ)

/-- Reading a row that the last listed piece does not touch reads through it. -/
theorem oAt_skip {h : ℕ} (o : Fin 2 → ℕ) (inb : ∀ a, o a + (![h, 1024] : Fin 2 → ℕ) a ≤ S1024x1024.size a)
    (f : (cc0_stg4_0 : Ref sig .tc).ty.Contents (Elt F)) (P : (⟨2, ![h, 1024]⟩ : Shape).Idx → F .f32) (L : List (View.Piece (Elt F) S1024x1024 .f32))
    (row q : ℕ) (hrow : row < 1024) (hmiss : row < o 0 ∨ o 0 + h ≤ row) :
    oAt ((oM : Memref sig .tc .vmem S1024x1024 .f32).view.writes (Elt F) f (⟨Rect.unit (s := S1024x1024) o ![h, 1024] inb, P⟩ :: L)) row q
      = oAt ((oM : Memref sig .tc .vmem S1024x1024 .f32).view.writes (Elt F) f L) row q :=
  Mem.oAt_store_miss o inb _ P row q hrow hmiss

/-- A row of the half of butterfly 0 a device keeps at stage 0 holds its own product off the kept tile. -/
theorem S0_kept0 (c : Dev nD) (r q : ℕ) (hr : r < 192) (hq : q < 1024) :
    S0 m 0 c (K0 0 c + r) q = tK0 m c (ix2 ⟨r, hr⟩ ⟨q, hq⟩) := by
  show (if (k0_off1 c 0#32 3#32 0#32 192#32) 0 ≤ (k0_off1 c 0#32 3#32 192#32 0#32) 0 + r ∧ (k0_off1 c 0#32 3#32 192#32 0#32) 0 + r < (k0_off1 c 0#32 3#32 0#32 192#32) 0 + 192
         then at192 (tS0 m c) ((k0_off1 c 0#32 3#32 192#32 0#32) 0 + r - (k0_off1 c 0#32 3#32 0#32 192#32) 0) q else at192 (tK0 m c) ((k0_off1 c 0#32 3#32 192#32 0#32) 0 + r - (k0_off1 c 0#32 3#32 192#32 0#32) 0) q) = _
  have hd := Rows.half_disj_b0 c
  rw [if_neg (by omega), Nat.add_sub_cancel_left]
  unfold at192
  congr 1
  simp only [Nat.mod_eq_of_lt hr, Nat.mod_eq_of_lt hq]

/-- The stage-0 sum of butterfly 0 as the body forms it: the kept rows of the result buffer plus the arrived slot, widened. -/
theorem add00 (c : Dev nD) (fo1 : (cc0_stg4_0 : Ref sig .tc).ty.Contents (Elt F)) (L : List (View.Piece (Elt F) S1024x1024 .f32))
    (fr : (cc0_scratch1 : Ref sig .tc).ty.Contents (Elt F))
    (hfr : ∀ r q : ℕ, r < 192 → q < 1024 → rAt fr 0 (0 + r) q = tr (S0 m 0 (Mesh.px 3 c) (K0 0 c + r) q))
    (hL : ∀ r q : ℕ, r < 192 → q < 1024 → oAt ((oM : Memref sig .tc .vmem S1024x1024 .f32).view.writes (Elt F) (oM : Memref sig .tc .vmem S1024x1024 .f32).view.junk L) (K0 0 c + r) q = S0 m 0 c (K0 0 c + r) q)
    (r q : ℕ) (hr : r < 192) (hq : q < 1024) :
    oAt (((oM : Memref sig .tc .vmem S1024x1024 .f32).access (Rect.unit (s := S1024x1024) (k0_off1 c 0#32 3#32 192#32 0#32) S192x1024.size (k0_off1_inb c 2))).write (Elt F) fo1
        (k0_pay16 (k0_pay14 ((oM : Memref sig .tc .vmem S1024x1024 .f32).view.readCov L (Rect.unit (s := S1024x1024) (k0_off1 c 0#32 3#32 192#32 0#32) S192x1024.size (k0_off1_inb c 2)).toLoadRect)) (k0_pay15 ((rM : Memref sig .tc .vmem S3x384x1024 .bf16).view.readAt (Elt F) (Rect.unit (s := S3x384x1024) ![0, 0, 0] S1x192x1024.size inb_S3x384x1024_S1x192x1024_0_0_0).toLoadRect fr))) Finset.univ)
      (K0 0 c + r) q = S1 m 0 c (K0 0 c + r) q := by
  have ho : (k0_off1 c 0#32 3#32 192#32 0#32) 1 = 0 := by rw [Mesh.off1_c]; rfl
  show oAt _ ((k0_off1 c 0#32 3#32 192#32 0#32) 0 + r) q = FloatOps.addf (S0 m 0 c ((k0_off1 c 0#32 3#32 192#32 0#32) 0 + r) q) (wire (S0 m 0 (Mesh.px 3 c) ((k0_off1 c 0#32 3#32 192#32 0#32) 0 + r) q))
  rw [Mem.oAt_store (k0_off1 c 0#32 3#32 192#32 0#32) (k0_off1_inb c 2) ho fo1 _ r q hr hq]
  rw [Mem.pay16_apply, Mem.pay14_apply, Mem.pay15_apply]
  rw [show ((oM : Memref sig .tc .vmem S1024x1024 .f32).view.readCov L (Rect.unit (s := S1024x1024) (k0_off1 c 0#32 3#32 192#32 0#32) S192x1024.size (k0_off1_inb c 2)).toLoadRect) (ix2 ⟨r, hr⟩ ⟨q, hq⟩)
        = oAt ((oM : Memref sig .tc .vmem S1024x1024 .f32).view.writes (Elt F) (oM : Memref sig .tc .vmem S1024x1024 .f32).view.junk L) ((k0_off1 c 0#32 3#32 192#32 0#32) 0 + r) q from
      Mem.oAt_load (k0_off1 c 0#32 3#32 192#32 0#32) (k0_off1_inb c 2) ho _ r q hr hq,
    Mem.rAt_load inb_S3x384x1024_S1x192x1024_0_0_0 fr 0 r q hr hq]
  rw [show oAt ((oM : Memref sig .tc .vmem S1024x1024 .f32).view.writes (Elt F) (oM : Memref sig .tc .vmem S1024x1024 .f32).view.junk L) ((k0_off1 c 0#32 3#32 192#32 0#32) 0 + r) q = S0 m 0 c ((k0_off1 c 0#32 3#32 192#32 0#32) 0 + r) q from hL r q hr hq,
    hfr r q hr hq]
  rfl

/-- A row of the half of butterfly 1 a device keeps at stage 0 holds its own product off the kept tile. -/
theorem S0_kept1 (c : Dev nD) (r q : ℕ) (hr : r < 192) (hq : q < 1024) :
    S0 m 1 c (K0 1 c + r) q = tK1 m c (ix2 ⟨r, hr⟩ ⟨q, hq⟩) := by
  show (if (k0_off1 c 384#32 4#32 0#32 192#32) 0 ≤ (k0_off1 c 384#32 4#32 192#32 0#32) 0 + r ∧ (k0_off1 c 384#32 4#32 192#32 0#32) 0 + r < (k0_off1 c 384#32 4#32 0#32 192#32) 0 + 192
         then at192 (tS1 m c) ((k0_off1 c 384#32 4#32 192#32 0#32) 0 + r - (k0_off1 c 384#32 4#32 0#32 192#32) 0) q else at192 (tK1 m c) ((k0_off1 c 384#32 4#32 192#32 0#32) 0 + r - (k0_off1 c 384#32 4#32 192#32 0#32) 0) q) = _
  have hd := Rows.half_disj_b1 c
  rw [if_neg (by omega), Nat.add_sub_cancel_left]
  unfold at192
  congr 1
  simp only [Nat.mod_eq_of_lt hr, Nat.mod_eq_of_lt hq]

/-- The stage-0 sum of butterfly 1 as the body forms it: the kept rows of the result buffer plus the arrived slot, widened. -/
theorem add10 (c : Dev nD) (fo1 : (cc0_stg4_0 : Ref sig .tc).ty.Contents (Elt F)) (L : List (View.Piece (Elt F) S1024x1024 .f32))
    (fr : (cc0_scratch1 : Ref sig .tc).ty.Contents (Elt F))
    (hfr : ∀ r q : ℕ, r < 192 → q < 1024 → rAt fr 1 (0 + r) q = tr (S0 m 1 (Mesh.px 4 c) (K0 1 c + r) q))
    (hL : ∀ r q : ℕ, r < 192 → q < 1024 → oAt ((oM : Memref sig .tc .vmem S1024x1024 .f32).view.writes (Elt F) (oM : Memref sig .tc .vmem S1024x1024 .f32).view.junk L) (K0 1 c + r) q = S0 m 1 c (K0 1 c + r) q)
    (r q : ℕ) (hr : r < 192) (hq : q < 1024) :
    oAt (((oM : Memref sig .tc .vmem S1024x1024 .f32).access (Rect.unit (s := S1024x1024) (k0_off1 c 384#32 4#32 192#32 0#32) S192x1024.size (k0_off1_inb c 3))).write (Elt F) fo1
        (k0_pay17 ((oM : Memref sig .tc .vmem S1024x1024 .f32).view.readCov L (Rect.unit (s := S1024x1024) (k0_off1 c 384#32 4#32 192#32 0#32) S192x1024.size (k0_off1_inb c 3)).toLoadRect) ((rM : Memref sig .tc .vmem S3x384x1024 .bf16).view.readAt (Elt F) (Rect.unit (s := S3x384x1024) ![1, 0, 0] S1x192x1024.size inb_S3x384x1024_S1x192x1024_1_0_0).toLoadRect fr)) Finset.univ)
      (K0 1 c + r) q = S1 m 1 c (K0 1 c + r) q := by
  have ho : (k0_off1 c 384#32 4#32 192#32 0#32) 1 = 0 := by rw [Mesh.off1_d]; rfl
  show oAt _ ((k0_off1 c 384#32 4#32 192#32 0#32) 0 + r) q = FloatOps.addf (S0 m 1 c ((k0_off1 c 384#32 4#32 192#32 0#32) 0 + r) q) (wire (S0 m 1 (Mesh.px 4 c) ((k0_off1 c 384#32 4#32 192#32 0#32) 0 + r) q))
  rw [Mem.oAt_store (k0_off1 c 384#32 4#32 192#32 0#32) (k0_off1_inb c 3) ho fo1 _ r q hr hq]
  rw [Mem.pay17_apply]
  rw [show ((oM : Memref sig .tc .vmem S1024x1024 .f32).view.readCov L (Rect.unit (s := S1024x1024) (k0_off1 c 384#32 4#32 192#32 0#32) S192x1024.size (k0_off1_inb c 3)).toLoadRect) (ix2 ⟨r, hr⟩ ⟨q, hq⟩)
        = oAt ((oM : Memref sig .tc .vmem S1024x1024 .f32).view.writes (Elt F) (oM : Memref sig .tc .vmem S1024x1024 .f32).view.junk L) ((k0_off1 c 384#32 4#32 192#32 0#32) 0 + r) q from
      Mem.oAt_load (k0_off1 c 384#32 4#32 192#32 0#32) (k0_off1_inb c 3) ho _ r q hr hq,
    Mem.rAt_load inb_S3x384x1024_S1x192x1024_1_0_0 fr 0 r q hr hq]
  rw [show oAt ((oM : Memref sig .tc .vmem S1024x1024 .f32).view.writes (Elt F) (oM : Memref sig .tc .vmem S1024x1024 .f32).view.junk L) ((k0_off1 c 384#32 4#32 192#32 0#32) 0 + r) q = S0 m 1 c ((k0_off1 c 384#32 4#32 192#32 0#32) 0 + r) q from hL r q hr hq,
    hfr r q hr hq]
  rfl

/-- A row of the half of butterfly 2 a device keeps at stage 0 holds its own product off the kept tile. -/
theorem S0_kept2 (c : Dev nD) (r q : ℕ) (hr : r < 128) (hq : q < 1024) :
    S0 m 2 c (K0 2 c + r) q = tK2 m c (ix2 ⟨r, hr⟩ ⟨q, hq⟩) := by
  show (if (k0_off2 c 0#32 128#32) 0 ≤ (k0_off2 c 128#32 0#32) 0 + r ∧ (k0_off2 c 128#32 0#32) 0 + r < (k0_off2 c 0#32 128#32) 0 + 128
         then at128 (tS2 m c) ((k0_off2 c 128#32 0#32) 0 + r - (k0_off2 c 0#32 128#32) 0) q else at128 (tK2 m c) ((k0_off2 c 128#32 0#32) 0 + r - (k0_off2 c 128#32 0#32) 0) q) = _
  have hd := Rows.half_disj_b2 c
  rw [if_neg (by omega), Nat.add_sub_cancel_left]
  unfold at128
  congr 1
  simp only [Nat.mod_eq_of_lt hr, Nat.mod_eq_of_lt hq]

/-- The stage-0 sum of butterfly 2 as the body forms it: the kept rows of the result buffer plus the arrived slot, widened. -/
theorem add20 (c : Dev nD) (fo1 : (cc0_stg4_0 : Ref sig .tc).ty.Contents (Elt F)) (L : List (View.Piece (Elt F) S1024x1024 .f32))
    (fr : (cc0_scratch1 : Ref sig .tc).ty.Contents (Elt F))
    (hfr : ∀ r q : ℕ, r < 128 → q < 1024 → rAt fr 2 (0 + r) q = tr (S0 m 2 (Mesh.px 1 c) (K0 2 c + r) q))
    (hL : ∀ r q : ℕ, r < 128 → q < 1024 → oAt ((oM : Memref sig .tc .vmem S1024x1024 .f32).view.writes (Elt F) (oM : Memref sig .tc .vmem S1024x1024 .f32).view.junk L) (K0 2 c + r) q = S0 m 2 c (K0 2 c + r) q)
    (r q : ℕ) (hr : r < 128) (hq : q < 1024) :
    oAt (((oM : Memref sig .tc .vmem S1024x1024 .f32).access (Rect.unit (s := S1024x1024) (k0_off2 c 128#32 0#32) S128x1024.size (k0_off2_inb c 1))).write (Elt F) fo1
        (k0_pay18 ((oM : Memref sig .tc .vmem S1024x1024 .f32).view.readCov L (Rect.unit (s := S1024x1024) (k0_off2 c 128#32 0#32) S128x1024.size (k0_off2_inb c 1)).toLoadRect) ((rM : Memref sig .tc .vmem S3x384x1024 .bf16).view.readAt (Elt F) (Rect.unit (s := S3x384x1024) ![2, 0, 0] S1x128x1024.size inb_S3x384x1024_S1x128x1024_2_0_0).toLoadRect fr)) Finset.univ)
      (K0 2 c + r) q = S1 m 2 c (K0 2 c + r) q := by
  have ho : (k0_off2 c 128#32 0#32) 1 = 0 := by rw [Mesh.off2_b]; rfl
  show oAt _ ((k0_off2 c 128#32 0#32) 0 + r) q = FloatOps.addf (S0 m 2 c ((k0_off2 c 128#32 0#32) 0 + r) q) (wire (S0 m 2 (Mesh.px 1 c) ((k0_off2 c 128#32 0#32) 0 + r) q))
  rw [Mem.oAt_store (k0_off2 c 128#32 0#32) (k0_off2_inb c 1) ho fo1 _ r q hr hq]
  rw [Mem.pay18_apply]
  rw [show ((oM : Memref sig .tc .vmem S1024x1024 .f32).view.readCov L (Rect.unit (s := S1024x1024) (k0_off2 c 128#32 0#32) S128x1024.size (k0_off2_inb c 1)).toLoadRect) (ix2 ⟨r, hr⟩ ⟨q, hq⟩)
        = oAt ((oM : Memref sig .tc .vmem S1024x1024 .f32).view.writes (Elt F) (oM : Memref sig .tc .vmem S1024x1024 .f32).view.junk L) ((k0_off2 c 128#32 0#32) 0 + r) q from
      Mem.oAt_load (k0_off2 c 128#32 0#32) (k0_off2_inb c 1) ho _ r q hr hq,
    Mem.rAt_load inb_S3x384x1024_S1x128x1024_2_0_0 fr 0 r q hr hq]
  rw [show oAt ((oM : Memref sig .tc .vmem S1024x1024 .f32).view.writes (Elt F) (oM : Memref sig .tc .vmem S1024x1024 .f32).view.junk L) ((k0_off2 c 128#32 0#32) 0 + r) q = S0 m 2 c ((k0_off2 c 128#32 0#32) 0 + r) q from hL r q hr hq,
    hfr r q hr hq]
  rfl

end Vals4

section Vals5
variable (m : (ℓ : Loc nD τ sig) → Buf (Elt F) ℓ)

/-- The kept tiles of butterflies 0 and 1, as the body computes them from what it loads. -/
theorem tile_K0 (c : Dev nD) :
    k0_pay10 ((xM : Memref sig .tc .vmem S1024x1024 .f32).view.readAt (Elt F) (Rect.unit (s := S1024x1024) (k0_off1 c 0#32 3#32 192#32 0#32) S192x1024.size (k0_off1_inb c 2)).toLoadRect (xIn m c)) ((gM : Memref sig .tc .vmem S1024x2048 .f32).view.readAt (Elt F) (Rect.unit (s := S1024x2048) ![0, 0] S1024x2048.size inb_S1024x2048_S1024x2048_0_0).toLoadRect (gIn m c)) ((uM : Memref sig .tc .vmem S1024x2048 .f32).view.readAt (Elt F) (Rect.unit (s := S1024x2048) ![0, 0] S1024x2048.size inb_S1024x2048_S1024x2048_0_0).toLoadRect (uIn m c)) ((dM : Memref sig .tc .vmem S2048x1024 .f32).view.readAt (Elt F) (Rect.unit (s := S2048x1024) ![0, 0] S2048x1024.size inb_S2048x1024_S2048x1024_0_0).toLoadRect (dIn m c)) = tK0 m c := by
  rw [read_g, read_u, read_d]; rfl
theorem tile_K1 (c : Dev nD) :
    k0_pay11 ((xM : Memref sig .tc .vmem S1024x1024 .f32).view.readAt (Elt F) (Rect.unit (s := S1024x1024) (k0_off1 c 384#32 4#32 192#32 0#32) S192x1024.size (k0_off1_inb c 3)).toLoadRect (xIn m c)) ((gM : Memref sig .tc .vmem S1024x2048 .f32).view.readAt (Elt F) (Rect.unit (s := S1024x2048) ![0, 0] S1024x2048.size inb_S1024x2048_S1024x2048_0_0).toLoadRect (gIn m c)) ((uM : Memref sig .tc .vmem S1024x2048 .f32).view.readAt (Elt F) (Rect.unit (s := S1024x2048) ![0, 0] S1024x2048.size inb_S1024x2048_S1024x2048_0_0).toLoadRect (uIn m c)) ((dM : Memref sig .tc .vmem S2048x1024 .f32).view.readAt (Elt F) (Rect.unit (s := S2048x1024) ![0, 0] S2048x1024.size inb_S2048x1024_S2048x1024_0_0).toLoadRect (dIn m c)) = tK1 m c := by
  rw [read_g, read_u, read_d]; rfl

/-- After the two kept tiles are stored, the kept halves of butterflies 0 and 1 hold the device's own product. -/
theorem kept_out0 (c : Dev nD) (f : (cc0_stg4_0 : Ref sig .tc).ty.Contents (Elt F)) (P1 P0 : FVec F S192x1024 .f32)
    (L : List (View.Piece (Elt F) S1024x1024 .f32)) (hP0 : P0 = tK0 m c) (r q : ℕ) (hr : r < 192) (hq : q < 1024) :
    oAt ((oM : Memref sig .tc .vmem S1024x1024 .f32).view.writes (Elt F) f
        (⟨(Rect.unit (s := S1024x1024) (k0_off1 c 384#32 4#32 192#32 0#32) S192x1024.size (k0_off1_inb c 3)), P1⟩ :: ⟨(Rect.unit (s := S1024x1024) (k0_off1 c 0#32 3#32 192#32 0#32) S192x1024.size (k0_off1_inb c 2)), P0⟩ :: L)) (K0 0 c + r) q = S0 m 0 c (K0 0 c + r) q := by
  have h0 := Rows.half_range_b0 c
  have h1 := Rows.half_range_b1 c
  have ho : (k0_off1 c 0#32 3#32 192#32 0#32) 1 = 0 := by rw [Mesh.off1_c]; rfl
  rw [S0_kept0 m c r q hr hq, ← hP0]
  show oAt _ ((k0_off1 c 0#32 3#32 192#32 0#32) 0 + r) q = _
  rw [oAt_skip (k0_off1 c 384#32 4#32 192#32 0#32) (k0_off1_inb c 3) f P1 _ _ q (by omega) (Or.inl (by omega))]
  exact Mem.oAt_store (k0_off1 c 0#32 3#32 192#32 0#32) (k0_off1_inb c 2) ho _ _ r q hr hq
theorem kept_out1 (c : Dev nD) (f : (cc0_stg4_0 : Ref sig .tc).ty.Contents (Elt F)) (P1 : FVec F S192x1024 .f32)
    (L : List (View.Piece (Elt F) S1024x1024 .f32)) (hP1 : P1 = tK1 m c) (r q : ℕ) (hr : r < 192) (hq : q < 1024) :
    oAt ((oM : Memref sig .tc .vmem S1024x1024 .f32).view.writes (Elt F) f
        (⟨(Rect.unit (s := S1024x1024) (k0_off1 c 384#32 4#32 192#32 0#32) S192x1024.size (k0_off1_inb c 3)), P1⟩ :: L)) (K0 1 c + r) q = S0 m 1 c (K0 1 c + r) q := by
  have ho : (k0_off1 c 384#32 4#32 192#32 0#32) 1 = 0 := by rw [Mesh.off1_d]; rfl
  rw [S0_kept1 m c r q hr hq, ← hP1]
  exact Mem.oAt_store (k0_off1 c 384#32 4#32 192#32 0#32) (k0_off1_inb c 3) ho _ _ r q hr hq

end Vals5

section Sends
variable (m : (ℓ : Loc nD τ sig) → Buf (Elt F) ℓ) (K : Dev nD × CIx → ℕ)

theorem send00 (c n : Dev nD) (hn : n = Mesh.px 3 c)
    {hsc : (rSlot00 : Memref sig (Dev.tc n : Thread nD τ).2.kind .vmem S192x1024 .bf16).view.ref.isScScratch = false}
    {hsrc : sSlot00.view.WordExact} {hdst : rSlot00.view.WordExact}
    {hsem : DmaTarget.Typed .vmem (.dma (dsem 1 0 0)) (.remote (Dev.tc n : Thread nD τ) rSlot00 (.dma (dsem 0 0 0)) hsc)}
    {α : Type} {Q : α → sProp 𝕄} {kk : PUnit → Prog (TpuEff nD τ sig (Elt F) Λ₀ .tc) α}
    {fs : Buf (Elt F) (sSlot00.view.loc (c : Thread nD τ))} {fd : Buf (Elt F) (rSlot00.view.loc (Mesh.px 3 c : Thread nD τ))}
    (O : CellTallies nD τ sig Unit) {W : Waits sig Unit}
    (hfs : ∀ (r q : ℕ) (hr : r < 192) (hq : q < 1024), sSlot00.view.read (Elt F) fs (ix2 ⟨r, hr⟩ ⟨q, hq⟩) = tr (S0 m 0 c (K0 0 (Mesh.px 3 c) + r) q)) :
    iprop(records (F := F) m K
        ∗ (sSlot00.view.loc (c : Thread nD τ) ↦[sSlot00.view.set]{fullShare} fs)
        ∗ (rSlot00.view.loc (Mesh.px 3 c : Thread nD τ) ↦[rSlot00.view.set]{fullShare} fd)
        ∗ owes (c : Thread nD τ) (O + tallyAt (dcell 1 0 0 (Mesh.px 3 c)) () (namt 1 0 0)) W
        ∗ dutyTok ER (dcell 0 0 0 c) 0 0 ∗ dutyTok ER (dcell 1 0 0 (Mesh.px 3 c)) 0 0)
      ⊢ iprop(((cred (tallyAt (dcell 0 0 0 c) () (namt 0 0 0)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sSlot00 (.remote (Dev.tc n : Thread nD τ) rSlot00 (.dma (dsem 0 0 0)) hsc) (.dma (dsem 1 0 0)) hsrc hdst hsem) kk) Q) := by
  subst hn
  exact Tables.wp_rs_send00 m K c O hfs

theorem send10 (c n : Dev nD) (hn : n = Mesh.px 4 c)
    {hsc : (rSlot10 : Memref sig (Dev.tc n : Thread nD τ).2.kind .vmem S192x1024 .bf16).view.ref.isScScratch = false}
    {hsrc : sSlot10.view.WordExact} {hdst : rSlot10.view.WordExact}
    {hsem : DmaTarget.Typed .vmem (.dma (dsem 1 1 0)) (.remote (Dev.tc n : Thread nD τ) rSlot10 (.dma (dsem 0 1 0)) hsc)}
    {α : Type} {Q : α → sProp 𝕄} {kk : PUnit → Prog (TpuEff nD τ sig (Elt F) Λ₀ .tc) α}
    {fs : Buf (Elt F) (sSlot10.view.loc (c : Thread nD τ))} {fd : Buf (Elt F) (rSlot10.view.loc (Mesh.px 4 c : Thread nD τ))}
    (O : CellTallies nD τ sig Unit) {W : Waits sig Unit}
    (hfs : ∀ (r q : ℕ) (hr : r < 192) (hq : q < 1024), sSlot10.view.read (Elt F) fs (ix2 ⟨r, hr⟩ ⟨q, hq⟩) = tr (S0 m 1 c (K0 1 (Mesh.px 4 c) + r) q)) :
    iprop(records (F := F) m K
        ∗ (sSlot10.view.loc (c : Thread nD τ) ↦[sSlot10.view.set]{fullShare} fs)
        ∗ (rSlot10.view.loc (Mesh.px 4 c : Thread nD τ) ↦[rSlot10.view.set]{fullShare} fd)
        ∗ owes (c : Thread nD τ) (O + tallyAt (dcell 1 1 0 (Mesh.px 4 c)) () (namt 1 1 0)) W
        ∗ dutyTok ER (dcell 0 1 0 c) 0 0 ∗ dutyTok ER (dcell 1 1 0 (Mesh.px 4 c)) 0 0)
      ⊢ iprop(((cred (tallyAt (dcell 0 1 0 c) () (namt 0 1 0)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sSlot10 (.remote (Dev.tc n : Thread nD τ) rSlot10 (.dma (dsem 0 1 0)) hsc) (.dma (dsem 1 1 0)) hsrc hdst hsem) kk) Q) := by
  subst hn
  exact Tables.wp_rs_send10 m K c O hfs

theorem send20 (c n : Dev nD) (hn : n = Mesh.px 1 c)
    {hsc : (rSlot20 : Memref sig (Dev.tc n : Thread nD τ).2.kind .vmem S128x1024 .bf16).view.ref.isScScratch = false}
    {hsrc : sSlot20.view.WordExact} {hdst : rSlot20.view.WordExact}
    {hsem : DmaTarget.Typed .vmem (.dma (dsem 1 2 0)) (.remote (Dev.tc n : Thread nD τ) rSlot20 (.dma (dsem 0 2 0)) hsc)}
    {α : Type} {Q : α → sProp 𝕄} {kk : PUnit → Prog (TpuEff nD τ sig (Elt F) Λ₀ .tc) α}
    {fs : Buf (Elt F) (sSlot20.view.loc (c : Thread nD τ))} {fd : Buf (Elt F) (rSlot20.view.loc (Mesh.px 1 c : Thread nD τ))}
    (O : CellTallies nD τ sig Unit) {W : Waits sig Unit}
    (hfs : ∀ (r q : ℕ) (hr : r < 128) (hq : q < 1024), sSlot20.view.read (Elt F) fs (ix2 ⟨r, hr⟩ ⟨q, hq⟩) = tr (S0 m 2 c (K0 2 (Mesh.px 1 c) + r) q)) :
    iprop(records (F := F) m K
        ∗ (sSlot20.view.loc (c : Thread nD τ) ↦[sSlot20.view.set]{fullShare} fs)
        ∗ (rSlot20.view.loc (Mesh.px 1 c : Thread nD τ) ↦[rSlot20.view.set]{fullShare} fd)
        ∗ owes (c : Thread nD τ) (O + tallyAt (dcell 1 2 0 (Mesh.px 1 c)) () (namt 1 2 0)) W
        ∗ dutyTok ER (dcell 0 2 0 c) 0 0 ∗ dutyTok ER (dcell 1 2 0 (Mesh.px 1 c)) 0 0)
      ⊢ iprop(((cred (tallyAt (dcell 0 2 0 c) () (namt 0 2 0)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sSlot20 (.remote (Dev.tc n : Thread nD τ) rSlot20 (.dma (dsem 0 2 0)) hsc) (.dma (dsem 1 2 0)) hsrc hdst hsem) kk) Q) := by
  subst hn
  exact Tables.wp_rs_send20 m K c O hfs

theorem send00p (c n : Dev nD) (hn : n = Mesh.px 3 c)
    {hsc : (rSlot00 : Memref sig (Dev.tc n : Thread nD τ).2.kind .vmem S192x1024 .bf16).view.ref.isScScratch = false}
    {hsrc : sSlot00.view.WordExact} {hdst : rSlot00.view.WordExact}
    {hsem : DmaTarget.Typed .vmem (.dma (dsem 1 0 0)) (.remote (Dev.tc n : Thread nD τ) rSlot00 (.dma (dsem 0 0 0)) hsc)}
    {α : Type} {Q : α → sProp 𝕄} {kk : PUnit → Prog (TpuEff nD τ sig (Elt F) Λ₀ .tc) α}
    {fs : Buf (Elt F) (sSlot00.view.loc (c : Thread nD τ))} {fd : Buf (Elt F) (rSlot00.view.loc (Mesh.px 3 c : Thread nD τ))}
    (O : CellTallies nD τ sig Unit) {W : Waits sig Unit} :
    iprop(records (F := F) m K
        ∗ (sSlot00.view.loc (c : Thread nD τ) ↦[sSlot00.view.set]{fullShare} fs)
        ∗ (rSlot00.view.loc (Mesh.px 3 c : Thread nD τ) ↦[rSlot00.view.set]{fullShare} fd)
        ∗ owes (c : Thread nD τ) (O + tallyAt (dcell 1 0 0 (Mesh.px 3 c)) () (namt 1 0 0)) W
        ∗ dutyTok ER (dcell 0 0 0 c) 0 0 ∗ dutyTok ER (dcell 1 0 0 (Mesh.px 3 c)) 0 0
        ∗ ⌜∀ (r q : ℕ) (hr : r < 192) (hq : q < 1024), sSlot00.view.read (Elt F) fs (ix2 ⟨r, hr⟩ ⟨q, hq⟩) = tr (S0 m 0 c (K0 0 (Mesh.px 3 c) + r) q)⌝)
      ⊢ iprop(((cred (tallyAt (dcell 0 0 0 c) () (namt 0 0 0)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sSlot00 (.remote (Dev.tc n : Thread nD τ) rSlot00 (.dma (dsem 0 0 0)) hsc) (.dma (dsem 1 0 0)) hsrc hdst hsem) kk) Q) := by
  iintro ⟨#Hrec, Hs, Hd, HO, T1, T2, %hfs⟩
  iapply (send00 m K c n hn O hfs)
  isplitr; · iexact Hrec
  isplitl [Hs]; · iexact Hs
  isplitl [Hd]; · iexact Hd
  isplitl [HO]; · iexact HO
  isplitl [T1]; · iexact T1
  iexact T2

theorem send10p (c n : Dev nD) (hn : n = Mesh.px 4 c)
    {hsc : (rSlot10 : Memref sig (Dev.tc n : Thread nD τ).2.kind .vmem S192x1024 .bf16).view.ref.isScScratch = false}
    {hsrc : sSlot10.view.WordExact} {hdst : rSlot10.view.WordExact}
    {hsem : DmaTarget.Typed .vmem (.dma (dsem 1 1 0)) (.remote (Dev.tc n : Thread nD τ) rSlot10 (.dma (dsem 0 1 0)) hsc)}
    {α : Type} {Q : α → sProp 𝕄} {kk : PUnit → Prog (TpuEff nD τ sig (Elt F) Λ₀ .tc) α}
    {fs : Buf (Elt F) (sSlot10.view.loc (c : Thread nD τ))} {fd : Buf (Elt F) (rSlot10.view.loc (Mesh.px 4 c : Thread nD τ))}
    (O : CellTallies nD τ sig Unit) {W : Waits sig Unit} :
    iprop(records (F := F) m K
        ∗ (sSlot10.view.loc (c : Thread nD τ) ↦[sSlot10.view.set]{fullShare} fs)
        ∗ (rSlot10.view.loc (Mesh.px 4 c : Thread nD τ) ↦[rSlot10.view.set]{fullShare} fd)
        ∗ owes (c : Thread nD τ) (O + tallyAt (dcell 1 1 0 (Mesh.px 4 c)) () (namt 1 1 0)) W
        ∗ dutyTok ER (dcell 0 1 0 c) 0 0 ∗ dutyTok ER (dcell 1 1 0 (Mesh.px 4 c)) 0 0
        ∗ ⌜∀ (r q : ℕ) (hr : r < 192) (hq : q < 1024), sSlot10.view.read (Elt F) fs (ix2 ⟨r, hr⟩ ⟨q, hq⟩) = tr (S0 m 1 c (K0 1 (Mesh.px 4 c) + r) q)⌝)
      ⊢ iprop(((cred (tallyAt (dcell 0 1 0 c) () (namt 0 1 0)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sSlot10 (.remote (Dev.tc n : Thread nD τ) rSlot10 (.dma (dsem 0 1 0)) hsc) (.dma (dsem 1 1 0)) hsrc hdst hsem) kk) Q) := by
  iintro ⟨#Hrec, Hs, Hd, HO, T1, T2, %hfs⟩
  iapply (send10 m K c n hn O hfs)
  isplitr; · iexact Hrec
  isplitl [Hs]; · iexact Hs
  isplitl [Hd]; · iexact Hd
  isplitl [HO]; · iexact HO
  isplitl [T1]; · iexact T1
  iexact T2

theorem send20p (c n : Dev nD) (hn : n = Mesh.px 1 c)
    {hsc : (rSlot20 : Memref sig (Dev.tc n : Thread nD τ).2.kind .vmem S128x1024 .bf16).view.ref.isScScratch = false}
    {hsrc : sSlot20.view.WordExact} {hdst : rSlot20.view.WordExact}
    {hsem : DmaTarget.Typed .vmem (.dma (dsem 1 2 0)) (.remote (Dev.tc n : Thread nD τ) rSlot20 (.dma (dsem 0 2 0)) hsc)}
    {α : Type} {Q : α → sProp 𝕄} {kk : PUnit → Prog (TpuEff nD τ sig (Elt F) Λ₀ .tc) α}
    {fs : Buf (Elt F) (sSlot20.view.loc (c : Thread nD τ))} {fd : Buf (Elt F) (rSlot20.view.loc (Mesh.px 1 c : Thread nD τ))}
    (O : CellTallies nD τ sig Unit) {W : Waits sig Unit} :
    iprop(records (F := F) m K
        ∗ (sSlot20.view.loc (c : Thread nD τ) ↦[sSlot20.view.set]{fullShare} fs)
        ∗ (rSlot20.view.loc (Mesh.px 1 c : Thread nD τ) ↦[rSlot20.view.set]{fullShare} fd)
        ∗ owes (c : Thread nD τ) (O + tallyAt (dcell 1 2 0 (Mesh.px 1 c)) () (namt 1 2 0)) W
        ∗ dutyTok ER (dcell 0 2 0 c) 0 0 ∗ dutyTok ER (dcell 1 2 0 (Mesh.px 1 c)) 0 0
        ∗ ⌜∀ (r q : ℕ) (hr : r < 128) (hq : q < 1024), sSlot20.view.read (Elt F) fs (ix2 ⟨r, hr⟩ ⟨q, hq⟩) = tr (S0 m 2 c (K0 2 (Mesh.px 1 c) + r) q)⌝)
      ⊢ iprop(((cred (tallyAt (dcell 0 2 0 c) () (namt 0 2 0)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sSlot20 (.remote (Dev.tc n : Thread nD τ) rSlot20 (.dma (dsem 0 2 0)) hsc) (.dma (dsem 1 2 0)) hsrc hdst hsem) kk) Q) := by
  iintro ⟨#Hrec, Hs, Hd, HO, T1, T2, %hfs⟩
  iapply (send20 m K c n hn O hfs)
  isplitr; · iexact Hrec
  isplitl [Hs]; · iexact Hs
  isplitl [Hd]; · iexact Hd
  isplitl [HO]; · iexact HO
  isplitl [T1]; · iexact T1
  iexact T2

end Sends

section OremSteps
theorem Orem_4 (c : Dev nD) : Orem c 4 = Orem c 5 + tallyAt (dcell 1 0 0 (Mesh.px 3 c)) () (namt 1 0 0) := by rw [Orem_lt c 4 (by decide)]; rfl
theorem Orem_5 (c : Dev nD) : Orem c 5 = Orem c 6 + tallyAt (dcell 1 1 0 (Mesh.px 4 c)) () (namt 1 1 0) := by rw [Orem_lt c 5 (by decide)]; rfl
theorem Orem_6 (c : Dev nD) : Orem c 6 = Orem c 7 + tallyAt (dcell 1 2 0 (Mesh.px 1 c)) () (namt 1 2 0) := by rw [Orem_lt c 6 (by decide)]; rfl
end OremSteps

/-- The send buffer's rest, held apart, turns the nine slots' return into the whole buffer. -/
theorem mk_sbufBack (c : Dev nD) (fR : Buf (Elt F) ((c : Thread nD τ).loc cc0_scratch0)) :
    ((((c : Thread nD τ).loc cc0_scratch0) ↦[Mem.slotRest]{fullShare} fR) : sProp 𝕄) ⊢ Cuts.sbufBack c := by
  unfold Cuts.sbufBack rsSendPay
  iintro Hrest ⟨⟨%f00, H00⟩, ⟨%f01, H01⟩, ⟨%f02, H02⟩, ⟨%f10, H10⟩, ⟨%f11, H11⟩, ⟨%f12, H12⟩, ⟨%f20, H20⟩, ⟨%f21, H21⟩, ⟨%f22, H22⟩⟩
  ihave H := (Mem.sbuf_join c fullShare f00 f01 f02 f10 f11 f12 f20 f21 f22 fR) $$ [H00 H01 H02 H10 H11 H12 H20 H21 H22 Hrest]
  · isplitl [H00]; · iexact H00
    isplitl [H01]; · iexact H01
    isplitl [H02]; · iexact H02
    isplitl [H10]; · iexact H10
    isplitl [H11]; · iexact H11
    isplitl [H12]; · iexact H12
    isplitl [H20]; · iexact H20
    isplitl [H21]; · iexact H21
    isplitl [H22]; · iexact H22
    iexact Hrest
  iexact H

/-- The receive buffer's rest, held apart, turns the nine slots' return into the whole buffer. -/
theorem mk_rbufBack (c : Dev nD) (fR : Buf (Elt F) ((c : Thread nD τ).loc cc0_scratch1)) :
    ((((c : Thread nD τ).loc cc0_scratch1) ↦[Mem.slotRest]{fullShare} fR) : sProp 𝕄) ⊢ Cuts.rbufBack c := by
  unfold Cuts.rbufBack
  iintro Hrest ⟨⟨%f00, H00⟩, ⟨%f01, H01⟩, ⟨%f02, H02⟩, ⟨%f10, H10⟩, ⟨%f11, H11⟩, ⟨%f12, H12⟩, ⟨%f20, H20⟩, ⟨%f21, H21⟩, ⟨%f22, H22⟩⟩
  ihave H := (Mem.rbuf_join c fullShare f00 f01 f02 f10 f11 f12 f20 f21 f22 fR) $$ [H00 H01 H02 H10 H11 H12 H20 H21 H22 Hrest]
  · isplitl [H00]; · iexact H00
    isplitl [H01]; · iexact H01
    isplitl [H02]; · iexact H02
    isplitl [H10]; · iexact H10
    isplitl [H11]; · iexact H11
    isplitl [H12]; · iexact H12
    isplitl [H20]; · iexact H20
    isplitl [H21]; · iexact H21
    isplitl [H22]; · iexact H22
    iexact Hrest
  iexact H

section Ob
variable (m : (ℓ : Loc nD τ sig) → Buf (Elt F) ℓ) (ρ : Dev nD → PrngReg)

section Body
variable (K : Dev nD × CIx → ℕ)

def bodyPre (c : Dev nD) : sProp 𝕄 :=
  iprop(((records m K ∗ positions c ∗ payToks c) ∗ creds c ∗ levAts L lv ∗ scr c)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

set_option maxRecDepth 8192 in
set_option maxHeartbeats 4000000 in
/-- The first six parts, from the obligation's precondition with the ghost state opened to the cut PreR0, and on. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6) Kt := by
  unfold bodyPre scr
  rw [payToks_eq, positions_eq, creds_eq]
  iintro ⟨⟨⟨⟨#Hrec, ⟨Pbar, P000, P001, P002, P010, P011, P012, P020, P021, P022, P100, P101, P102, P110, P111, P112, P120, P121, P122, P200, P201, P202, P210, P211, P212, P220, P221, P222, P300, P301, P302, P310, P311, P312, P320, P321, P322⟩, ⟨⟨Tb0, Tb1, Tb2, Tb3⟩, ⟨Tr00, Tr01, Tr02, Tr10, Tr11, Tr12, Tr20, Tr21, Tr22⟩, ⟨Ta00, Ta01, Ta10, Ta11, Ta20, Ta21⟩, ⟨Ts00, Ts01, Ts02, Ts10, Ts11, Ts12, Ts20, Ts21, Ts22⟩, ⟨Tg00, Tg01, Tg10, Tg11, Tg20, Tg21⟩⟩⟩, ⟨Cbar, ⟨Cr00, Cr01, Cr02, Cr10, Cr11, Cr12, Cr20, Cr21, Cr22⟩, ⟨Ca00, Ca01, Ca10, Ca11, Ca20, Ca21⟩⟩, #Hlev, ⟨%fs, Hs⟩, ⟨%fr, Hr⟩, ⟨%fa, Ha⟩⟩,
    Ho, ⟨%d0, %g0, %hg0, Hx⟩, ⟨%d1, %g1, %hg1, Hg⟩, ⟨%d2, %g2, %hg2, Hu⟩, ⟨%d3, %g3, %hg3, Hd⟩, ⟨%d4, %g4, %hg4, Hout⟩⟩, Hk⟩
  unfold Dat.owesAt Pipeline.owesWithin
  icases Ho with ⟨%W, %hW, HO⟩
  rw [show (dats m ρ 0 c).owed t0_0.castSucc = Orem c 0 from rfl, Orem_0_4]
  have hx : g0 = xIn m c := by rw [hg0]; unfold Dat.before; rw [if_pos (Gen.fetch0_0 t0_0)]; rfl
  have hg : g1 = gIn m c := by rw [hg1]; unfold Dat.before; rw [if_pos (Gen.fetch0_1 t0_0)]; rfl
  have hu : g2 = uIn m c := by rw [hg2]; unfold Dat.before; rw [if_pos (Gen.fetch0_2 t0_0)]; rfl
  have hd : g3 = dIn m c := by rw [hg3]; unfold Dat.before; rw [if_pos (Gen.fetch0_3 t0_0)]; rfl
  ihave HR := ((Mem.rbuf_split c fullShare fr).1) $$ Hr
  icases HR with ⟨R00, R01, R02, R10, R11, R12, R20, R21, R22, Rrest⟩
  ihave HA := ((Mem.abuf_split c fullShare fa).1) $$ Ha
  icases HA with ⟨AQ0, AQ1, AQ2, AP0, AP1, AP2, AH0, AH1, AH2⟩
  ihave HS := ((Mem.sbuf_split c fullShare fs).1) $$ Hs
  icases HS with ⟨S00, S01, S02, S10, S11, S12, S20, S21, S22, Srest⟩
  ihave Hx := (show ((((c : Thread nD τ).loc cc0_stg0_0) ↦{fullShare} g0 : sProp 𝕄)) ⊢ ((xM : Memref sig .tc .vmem S1024x1024 .f32).view.loc (c : Thread nD τ) ↦{fullShare} g0) from Entails.rfl) $$ Hx
  ihave Hg := (show ((((c : Thread nD τ).loc cc0_stg1_0) ↦{fullShare} g1 : sProp 𝕄)) ⊢ ((gM : Memref sig .tc .vmem S1024x2048 .f32).view.loc (c : Thread nD τ) ↦{fullShare} g1) from Entails.rfl) $$ Hg
  ihave Hu := (show ((((c : Thread nD τ).loc cc0_stg2_0) ↦{fullShare} g2 : sProp 𝕄)) ⊢ ((uM : Memref sig .tc .vmem S1024x2048 .f32).view.loc (c : Thread nD τ) ↦{fullShare} g2) from Entails.rfl) $$ Hu
  ihave Hd := (show ((((c : Thread nD τ).loc cc0_stg3_0) ↦{fullShare} g3 : sProp 𝕄)) ⊢ ((dM : Memref sig .tc .vmem S2048x1024 .f32).view.loc (c : Thread nD τ) ↦{fullShare} g3) from Entails.rfl) $$ Hd
  ihave Hout := (show ((((c : Thread nD τ).loc cc0_stg4_0) ↦{fullShare} g4 : sProp 𝕄)) ⊢ ((oM : Memref sig .tc .vmem S1024x1024 .f32).view.loc (c : Thread nD τ) ↦{fullShare} g4) from Entails.rfl) $$ Hout
  subst hx hg hu hd
  sl_unfold [cc0_body]
  sl_exec_parts
  iapply (sig0 m K c (Orem c 4 + tallyAt (barCell (Mesh.px 4 c)) () 1 + tallyAt (barCell (Mesh.px 3 c)) () 1 + tallyAt (barCell (Mesh.px 2 c)) () 1) fr fr fr fa fa) $$ [HO Tb0 R01 R12 R20 AP0 AH2]
  · isplitr; · iexact Hrec
    isplitl [HO]; · iexact HO
    isplitl [Tb0]; · iexact Tb0
    isplitl [R01]; · iexact R01
    isplitl [R12]; · iexact R12
    isplitl [R20]; · iexact R20
    isplitl [AP0]; · iexact AP0
    iexact AH2
  iintro HO
  sl_exec_parts
  iapply (sig1 m K c (Orem c 4 + tallyAt (barCell (Mesh.px 4 c)) () 1 + tallyAt (barCell (Mesh.px 3 c)) () 1) fr) $$ [HO Tb1 R22]
  · isplitr; · iexact Hrec
    isplitl [HO]; · iexact HO
    isplitl [Tb1]; · iexact Tb1
    iexact R22
  iintro HO
  sl_exec_parts
  iapply (sig2 m K c (Orem c 4 + tallyAt (barCell (Mesh.px 4 c)) () 1) fr fr fa fa) $$ [HO Tb2 R00 R11 AH0 AP1]
  · isplitr; · iexact Hrec
    isplitl [HO]; · iexact HO
    isplitl [Tb2]; · iexact Tb2
    isplitl [R00]; · iexact R00
    isplitl [R11]; · iexact R11
    isplitl [AH0]; · iexact AH0
    iexact AP1
  iintro HO
  sl_exec_parts
  iapply (sig3 m K c (Orem c 4) fr fr fr fa fa) $$ [HO Tb3 R02 R10 R21 AH1 AP2]
  · isplitr; · iexact Hrec
    isplitl [HO]; · iexact HO
    isplitl [Tb3]; · iexact Tb3
    isplitl [R02]; · iexact R02
    isplitl [R10]; · iexact R10
    isplitl [R21]; · iexact R21
    isplitl [AH1]; · iexact AH1
    iexact AP2
  iintro HO
  sl_exec_parts
  iapply (barwait m K c) $$ [Cbar HO Pbar]
  · isplitr; · iexact Hrec
    isplitr; · iexact Hlev
    isplitl [Cbar]; · iexact Cbar
    isplitl [HO]; · iexact HO
    iexact Pbar
  iintro ⟨HO, Pbar, ⟨⟨⟨⟨%q101, Q101⟩, -⟩, ⟨⟨%q112, Q112⟩, -⟩, ⟨⟨%q120, Q120⟩, -⟩, ⟨⟨%q301, Q301⟩, -⟩, ⟨⟨%q320, Q320⟩, -⟩⟩, ⟨⟨⟨%q122, Q122⟩, -⟩⟩, ⟨⟨⟨%q100, Q100⟩, -⟩, ⟨⟨%q111, Q111⟩, -⟩, ⟨⟨%q300, Q300⟩, -⟩, ⟨⟨%q311, Q311⟩, -⟩⟩, ⟨⟨⟨%q102, Q102⟩, -⟩, ⟨⟨%q110, Q110⟩, -⟩, ⟨⟨%q121, Q121⟩, -⟩, ⟨⟨%q310, Q310⟩, -⟩, ⟨⟨%q321, Q321⟩, -⟩⟩⟩⟩
  sl_exec_parts
  rw [Orem_4]
  iapply (send00p m K c _ (Mesh.dev5_eq c) (Orem c 5)) $$ [S00 Q100 HO Ts00 Tr00]
  · isplitr; · iexact Hrec
    isplitl [S00]; · iexact S00
    isplitl [Q100]; · iexact Q100
    isplitl [HO]; · iexact HO
    isplitl [Ts00]; · iexact Ts00
    isplitl [Tr00]; · iexact Tr00
    ipureintro; intro r q hr hq
    sl_unfold_run_names
    exact sent00 m c _ _ _ (tile_S0 m c) r q hr hq
  iintro ⟨Cs00, HO⟩
  sl_exec_parts
  rw [Orem_5]
  iapply (send10p m K c _ (Mesh.dev6_eq c) (Orem c 6)) $$ [S10 Q110 HO Ts10 Tr10]
  · isplitr; · iexact Hrec
    isplitl [S10]; · iexact S10
    isplitl [Q110]; · iexact Q110
    isplitl [HO]; · iexact HO
    isplitl [Ts10]; · iexact Ts10
    isplitl [Tr10]; · iexact Tr10
    ipureintro; intro r q hr hq
    sl_unfold_run_names
    exact sent10 m c _ _ _ (tile_S1 m c) r q hr hq
  iintro ⟨Cs10, HO⟩
  sl_exec_parts
  rw [Orem_6]
  iapply (send20p m K c _ (Mesh.dev7_eq c) (Orem c 7)) $$ [S20 Q120 HO Ts20 Tr20]
  · isplitr; · iexact Hrec
    isplitl [S20]; · iexact S20
    isplitl [Q120]; · iexact Q120
    isplitl [HO]; · iexact HO
    isplitl [Ts20]; · iexact Ts20
    isplitl [Tr20]; · iexact Tr20
    ipureintro; intro r q hr hq
    sl_unfold_run_names
    exact sent20 m c _ _ _ (tile_S2 m c) r q hr hq
  iintro ⟨Cs20, HO⟩
  set_option sl_exec.maxSteps 17 in sl_exec_parts
  iapply (from_R0 m ρ K c (insert (SemLoc.reg barS, ()) W) _ _ _ _ _ _ _ _ (sound_body.sl.r_5 m c) (by sl_unfold_run_names; rfl) Kt)
  isplitr [Hk]
  · unfold Cuts.PreR0
    isplitr; · iexact Hrec
    isplitr; · iexact Hlev
    isplitl [Pbar]; · iexact Pbar
    isplitl [P100]; · iexact P100
    isplitl [P101]; · iexact P101
    isplitl [P102]; · iexact P102
    isplitl [P110]; · iexact P110
    isplitl [P111]; · iexact P111
    isplitl [P112]; · iexact P112
    isplitl [P120]; · iexact P120
    isplitl [P121]; · iexact P121
    isplitl [P122]; · iexact P122
    isplitl [P000]; · iexact P000
    isplitl [P001]; · iexact P001
    isplitl [P002]; · iexact P002
    isplitl [P010]; · iexact P010
    isplitl [P011]; · iexact P011
    isplitl [P012]; · iexact P012
    isplitl [P020]; · iexact P020
    isplitl [P021]; · iexact P021
    isplitl [P022]; · iexact P022
    isplitl [P200]; · iexact P200
    isplitl [P201]; · iexact P201
    isplitl [P202]; · iexact P202
    isplitl [P210]; · iexact P210
    isplitl [P211]; · iexact P211
    isplitl [P212]; · iexact P212
    isplitl [P220]; · iexact P220
    isplitl [P221]; · iexact P221
    isplitl [P222]; · iexact P222
    isplitl [P300]; · iexact P300
    isplitl [P301]; · iexact P301
    isplitl [P302]; · iexact P302
    isplitl [P310]; · iexact P310
    isplitl [P311]; · iexact P311
    isplitl [P312]; · iexact P312
    isplitl [P320]; · iexact P320
    isplitl [P321]; · iexact P321
    isplitl [P322]; · iexact P322
    isplitl [Tr01]; · iexact Tr01
    isplitl [Tr02]; · iexact Tr02
    isplitl [Tr11]; · iexact Tr11
    isplitl [Tr12]; · iexact Tr12
    isplitl [Tr21]; · iexact Tr21
    isplitl [Tr22]; · iexact Tr22
    isplitl [Ts01]; · iexact Ts01
    isplitl [Ts02]; · iexact Ts02
    isplitl [Ts11]; · iexact Ts11
    isplitl [Ts12]; · iexact Ts12
    isplitl [Ts21]; · iexact Ts21
    isplitl [Ts22]; · iexact Ts22
    isplitl [Ta00]; · iexact Ta00
    isplitl [Ta01]; · iexact Ta01
    isplitl [Ta10]; · iexact Ta10
    isplitl [Ta11]; · iexact Ta11
    isplitl [Ta20]; · iexact Ta20
    isplitl [Ta21]; · iexact Ta21
    isplitl [Tg00]; · iexact Tg00
    isplitl [Tg01]; · iexact Tg01
    isplitl [Tg10]; · iexact Tg10
    isplitl [Tg11]; · iexact Tg11
    isplitl [Tg20]; · iexact Tg20
    isplitl [Tg21]; · iexact Tg21
    isplitl [Cr00]; · iexact Cr00
    isplitl [Cr01]; · iexact Cr01
    isplitl [Cr02]; · iexact Cr02
    isplitl [Cr10]; · iexact Cr10
    isplitl [Cr11]; · iexact Cr11
    isplitl [Cr12]; · iexact Cr12
    isplitl [Cr20]; · iexact Cr20
    isplitl [Cr21]; · iexact Cr21
    isplitl [Cr22]; · iexact Cr22
    isplitl [Ca00]; · iexact Ca00
    isplitl [Ca01]; · iexact Ca01
    isplitl [Ca10]; · iexact Ca10
    isplitl [Ca11]; · iexact Ca11
    isplitl [Ca20]; · iexact Ca20
    isplitl [Ca21]; · iexact Ca21
    isplitl [Cs00]; · iexact Cs00
    isplitl [Cs10]; · iexact Cs10
    isplitl [Cs20]; · iexact Cs20
    isplitl [HO]; · iexact HO
    isplitl [Hx]; · iexact Hx
    isplitl [Hg]; · iexact Hg
    isplitl [Hu]; · iexact Hu
    isplitl [Hd]; · iexact Hd
    isplitl [Hout]
    · iexists _
      isplitl [Hout]; · iexact Hout
      ipureintro
      sl_unfold_run_names
      exact ⟨fun r q hr hq => kept_out0 m c g4 _ _ _ (tile_K0 m c) r q hr hq, fun r q hr hq => kept_out1 m c g4 _ _ (tile_K1 m c) r q hr hq⟩
    isplitl [Srest]; · (iapply (mk_sbufBack c fs); iexact Srest)
    isplitl [S01]; · (iexists _; iexact S01)
    isplitl [S02]; · (iexists _; iexact S02)
    isplitl [S11]; · (iexists _; iexact S11)
    isplitl [S12]; · (iexists _; iexact S12)
    isplitl [S21]; · (iexists _; iexact S21)
    isplitl [S22]; · (iexists _; iexact S22)
    isplitl [Rrest]; · (iapply (mk_rbufBack c fr); iexact Rrest)
    isplitl [AQ0]; · (iexists _; iexact AQ0)
    isplitl [AQ1]; · (iexists _; iexact AQ1)
    isplitl [AQ2]; · (iexists _; iexact AQ2)
    isplitl [Q101]; · (iexists _; iexact Q101)
    isplitl [Q102]; · (iexists _; iexact Q102)
    isplitl [Q111]; · (iexists _; iexact Q111)
    isplitl [Q112]; · (iexists _; iexact Q112)
    isplitl [Q121]; · (iexists _; iexact Q121)
    isplitl [Q122]; · (iexists _; iexact Q122)
    isplitl [Q301]; · (iexists _; iexact Q301)
    isplitl [Q311]; · (iexists _; iexact Q311)
    isplitl [Q321]; · (iexists _; iexact Q321)
    isplitl [Q300]; · (iexists _; iexact Q300)
    isplitl [Q310]; · (iexists _; iexact Q310)
    iexists _; iexact Q320
  · iexact Hk
end Body
end Ob

end Pre

section Ob
variable (m : (ℓ : Loc nD τ sig) → Buf (Elt F) ℓ) (ρ : Dev nD → PrngReg)

set_option maxRecDepth 8192 in
/-- The body obligation on device c. -/
theorem body_ob (c : Dev nD) : Iface.BodyOb m ρ c := fun t => by
  rw [Gen.fin_N0 t]
  rw [Gen.bigSep_W0, Gen.bigSep_W0]
  simp only [owns_whole_eq]
  show bodyPre' m ρ c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6) (fun _ => bodyPost m ρ c)
  unfold bodyPre' Φ₀ start ghost
  iintro ⟨⟨⟨⟨%K, Hgh⟩, Hcr, Hlv⟩, Hscr⟩, Ho, Hx, Hg, Hu, Hd, Hout⟩
  iapply (Pre.sound_body m ρ K c fun _ => bodyPost m ρ c)
  unfold Pre.bodyPre
  isplitr []
  · isplitl [Hgh Hcr Hlv Hscr]
    · isplitl [Hgh]; · iexact Hgh
      isplitl [Hcr]; · iexact Hcr
      isplitl [Hlv]; · iexact Hlv
      iexact Hscr
    isplitl [Ho]; · iexact Ho
    isplitl [Hx]; · iexact Hx
    isplitl [Hg]; · iexact Hg
    isplitl [Hu]; · iexact Hu
    isplitl [Hd]; · iexact Hd
    iexact Hout
  · iintro H; iexact H

end Ob

/-- info: 'Cert.Kernel.Body.body_ob' depends on axioms: [propext, Classical.choice, Quot.sound] -/
#guard_msgs in #print axioms body_ob

end Cert.Kernel.Body

end
-- ==== Proof.lean ====
/-
  The certificate's five claims, assembled.

  The kernel is an eight-device tensor-parallel gated feed-forward layer: device `c` forms its partial product
  `P_c = ((x · Wg_c) ⊙ (u ⊙ logistic u)) · Wd_c`, `u = x · Wu_c`, from its column blocks of the two projections and its row
  block of the last weight, and an all-reduce — three butterflies of reduce-scatter and all-gather stages over the row
  ranges 0..384, 384..768, 768..1024 — leaves every device holding `∑_d P_d`. The reference is the same layer on one
  device over the whole arrays, `((x · Wg) ⊙ (up / (1 + exp (−up)))) · Wd`, `up = x · Wu`.

  * `frame_Kernel`, `frame_KernelIdeal`: the kernel as printed (over bit patterns) and its idealization (over the
    extended reals) run — every weakly fair execution terminates, nothing faulting — and leave the four argument arrays
    unchanged. Each is the launch's run (Launch: the pipeline's entry and exit around the one region, every device's
    obligations at the semaphores paid by its partners) given the body's obligation on every device (Body), with what
    the run says of the result array dropped.
  * `frame_ReferenceIdeal`: the reference runs and leaves its arguments unchanged (RefSide).
  * `preserves_Kernel_KernelIdeal`: the idealization rewrote no operation, so there is nothing to preserve.
  * `algebraic_KernelIdeal_ReferenceIdeal`: from memories where each device holds its blocks of the reference's arrays,
    both run and every device's result array ends equal to the reference's. The reference's result is one function
    `refOut` of its arrays (RefSide). The kernel's run ends with each device's result array holding, row by row, its
    butterfly's total as it came over the wire (Launch, Body); at the ideal instance the wire's narrowing is the
    identity, the total is `∑_d P_d` (Sched, Rows, TileValue: each tile of a device's own value is `P_d` at its rows),
    and summing the eight devices' blocks of the hidden axis is the reference's sum over the whole hidden axis, the
    quotient `up / (1 + exp (−up))` being `up · logistic up` — the one step that uses that every input entry is finite
    (Algebra, Bridge).
-/
import proofs.«900524_g7700000000000525_dist_gated_mlp_tp_i_m1024_h2048_d1024_v7x_i8_f32_1_alg».proof.Defs
import proofs.«900524_g7700000000000525_dist_gated_mlp_tp_i_m1024_h2048_d1024_v7x_i8_f32_1_alg».proof.Proof.Gen.Kernel
import proofs.«900524_g7700000000000525_dist_gated_mlp_tp_i_m1024_h2048_d1024_v7x_i8_f32_1_alg».proof.Proof.Gen.Kernel.Skeleton
import proofs.«900524_g7700000000000525_dist_gated_mlp_tp_i_m1024_h2048_d1024_v7x_i8_f32_1_alg».proof.Proof.Gen.Kernel.Launch
import proofs.«900524_g7700000000000525_dist_gated_mlp_tp_i_m1024_h2048_d1024_v7x_i8_f32_1_alg».proof.Proof.Gen.Kernel.Points
import proofs.«900524_g7700000000000525_dist_gated_mlp_tp_i_m1024_h2048_d1024_v7x_i8_f32_1_alg».proof.Proof.Gen.Kernel.Frame
import proofs.«900524_g7700000000000525_dist_gated_mlp_tp_i_m1024_h2048_d1024_v7x_i8_f32_1_alg».proof.Proof.Gen.KernelIdeal
import proofs.«900524_g7700000000000525_dist_gated_mlp_tp_i_m1024_h2048_d1024_v7x_i8_f32_1_alg».proof.Proof.Gen.KernelIdeal.Skeleton
import proofs.«900524_g7700000000000525_dist_gated_mlp_tp_i_m1024_h2048_d1024_v7x_i8_f32_1_alg».proof.Proof.Gen.KernelIdeal.Launch
import proofs.«900524_g7700000000000525_dist_gated_mlp_tp_i_m1024_h2048_d1024_v7x_i8_f32_1_alg».proof.Proof.Gen.KernelIdeal.Points
import proofs.«900524_g7700000000000525_dist_gated_mlp_tp_i_m1024_h2048_d1024_v7x_i8_f32_1_alg».proof.Proof.Gen.KernelIdeal.Frame
import proofs.«900524_g7700000000000525_dist_gated_mlp_tp_i_m1024_h2048_d1024_v7x_i8_f32_1_alg».proof.Proof.Gen.ReferenceIdeal
import proofs.«900524_g7700000000000525_dist_gated_mlp_tp_i_m1024_h2048_d1024_v7x_i8_f32_1_alg».proof.Proof.Gen.Pre_finite_inputs_Kernel
import proofs.«900524_g7700000000000525_dist_gated_mlp_tp_i_m1024_h2048_d1024_v7x_i8_f32_1_alg».proof.Proof.Gen.Pre_finite_inputs_ReferenceIdeal
import proofs.«900524_g7700000000000525_dist_gated_mlp_tp_i_m1024_h2048_d1024_v7x_i8_f32_1_alg».proof.Proof.RefSide
import proofs.«900524_g7700000000000525_dist_gated_mlp_tp_i_m1024_h2048_d1024_v7x_i8_f32_1_alg».proof.Proof.Bridge
import proofs.«900524_g7700000000000525_dist_gated_mlp_tp_i_m1024_h2048_d1024_v7x_i8_f32_1_alg».proof.Proof.Launch
import proofs.«900524_g7700000000000525_dist_gated_mlp_tp_i_m1024_h2048_d1024_v7x_i8_f32_1_alg».proof.Proof.Body
import proofs.«900524_g7700000000000525_dist_gated_mlp_tp_i_m1024_h2048_d1024_v7x_i8_f32_1_alg».proof.Proof.KLaunch
import proofs.«900524_g7700000000000525_dist_gated_mlp_tp_i_m1024_h2048_d1024_v7x_i8_f32_1_alg».proof.Proof.KBody
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the launch's run under the body's obligation, the
    result array forgotten. -/
theorem frame_k : Cert.frame_Kernel := fun m ρ _ =>
  (θ_run (Cert.Kernel.defs (F := Bits)) _ _).mono (fun _ h c => (h c).2)
    (Cert.Kernel.Launch.kernel_run (F := Bits) m ρ (Cert.Kernel.Body.body_ob m ρ))

/-- The same of the idealized kernel. -/
theorem frame_ki : Cert.frame_KernelIdeal := fun m ρ _ =>
  (θ_run (Cert.KernelIdeal.defs (F := Ideal)) _ _).mono (fun _ h c => (h c).2)
    (Cert.KernelIdeal.Launch.kernel_run (F := Ideal) m ρ (Cert.KernelIdeal.Body.body_ob m ρ))

/-- Both programs run; every device's result array ends at the reference's result `refOut` of the whole arrays, and the
    arguments of both end unchanged. -/
theorem algebraic : Cert.algebraic_KernelIdeal_ReferenceIdeal := by
  intro m ρ m' ρ' hpre hagree
  refine ⟨Cert.ReferenceIdeal.RefSide.refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)), ?_, Cert.ReferenceIdeal.RefSide.ref_run m' ρ'⟩
  exact (θ_run (Cert.KernelIdeal.defs (F := Ideal)) _ _).mono
    (fun _ h c => ⟨(h c).1.trans ((Cert.KernelIdeal.Launch.outArr_eq m c).trans (Cert.KernelIdeal.Bridge.outFin_eq_ref m m' hpre hagree c)), (h c).2⟩)
    (Cert.KernelIdeal.Launch.kernel_run (F := Ideal) m ρ (Cert.KernelIdeal.Body.body_ob m ρ))

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_k, frame_ki, Cert.ReferenceIdeal.RefSide.frame_ri, trivial, algebraic⟩

end Cert.Proof

end
